-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131040 : Shape := ⟨1, ![131040]⟩
abbrev S20000x256 : Shape := ⟨2, ![20000, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S104x256 : Shape := ⟨2, ![104, 256]⟩
abbrev S104 : Shape := ⟨1, ![104]⟩
abbrev S_ : Shape := ⟨0, ![]⟩

class Facts : Prop where
  bcast_S_S20000x256 : S_.BroadcastsInDim S20000x256 (![] : Fin 0 → Fin S20000x256.rank)
  reducesTo_S20000x256_S_d0_1 : S20000x256.ReducesTo [0, 1] S_
  h_S_ : 0 < S_.numel
  bcast_S_S768x256 : S_.BroadcastsInDim S768x256 (![] : Fin 0 → Fin S768x256.rank)
  reducesTo_S768x256_S_d0_1 : S768x256.ReducesTo [0, 1] S_
  bcast_S_S1x768 : S_.BroadcastsInDim S1x768 (![] : Fin 0 → Fin S1x768.rank)
  reducesTo_S1x768_S_d0_1 : S1x768.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S104x256 : S_.BroadcastsInDim S104x256 (![] : Fin 0 → Fin S104x256.rank)
  reducesTo_S104x256_S_d0_1 : S104x256.ReducesTo [0, 1] S_
  bcast_S_S104 : S_.BroadcastsInDim S104 (![] : Fin 0 → Fin S104.rank)
  reducesTo_S104_S_d0 : S104.ReducesTo [0] S_

variable [Facts]

def fn_part2 {F : FTy → Type} [FloatOps F] (main_arg9 : FVec F S104 .f32) (main_v33 : IVec S_ 1) : IVec S_ 1 :=
  let main_v34 : FVec F S104 .f32 := Host.absf main_arg9
  let main_cst_12 : FVec F S_ .f32 := constant S_ .f32 0x7F800000#32
  let main_v35 : FVec F S104 .f32 := broadcastInDim S104 ![] bcast_S_S104 main_cst_12
  let main_v36 : IVec S104 1 := cmpf .olt main_v34 main_v35
  let main_c_13 : IVec S_ 1 := constantI S_ 1 1#1
  let main_v37 : IVec S_ 1 := (fun x v => Host.reduce IntOp.andi x v reducesTo_S104_S_d0 h_S_) main_v36 main_c_13
  let main_v38 : IVec S_ 1 := andi main_v33 main_v37
  main_v38

def fn_part1 {F : FTy → Type} [FloatOps F] (main_arg6 : FVec F S256x256 .f32) (main_arg7 : FVec F S256 .f32) (main_arg8 : FVec F S104x256 .f32) (main_arg9 : FVec F S104 .f32) (main_v13 : IVec S_ 1) (main_v16 : IVec S1x768 1) : IVec S_ 1 :=
  let main_c_5 : IVec S_ 1 := constantI S_ 1 1#1
  let main_v17 : IVec S_ 1 := (fun x v => Host.reduce IntOp.andi x v reducesTo_S1x768_S_d0_1 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S104x256 .f32 := Host.absf main_arg8
  let main_cst_10 : FVec F S_ .f32 := constant S_ .f32 0x7F800000#32
  let main_v30 : FVec F S104x256 .f32 := broadcastInDim S104x256 ![] bcast_S_S104x256 main_cst_10
  let main_v31 : IVec S104x256 1 := cmpf .olt main_v29 main_v30
  let main_c_11 : IVec S_ 1 := constantI S_ 1 1#1
  let main_v32 : IVec S_ 1 := (fun x v => Host.reduce IntOp.andi x v reducesTo_S104x256_S_d0_1 h_S_) main_v31 main_c_11
  let main_v33 : IVec S_ 1 := andi main_v28 main_v32
  fn_part2 (F := F) main_arg9 main_v33

def fn {F : FTy → Type} [FloatOps F] (main_arg0 : IVec S131040 32) (main_arg1 : IVec S131040 32) (main_arg2 : FVec F S20000x256 .f32) (main_arg3 : FVec F S768x256 .f32) (main_arg4 : FVec F S768x256 .f32) (main_arg5 : FVec F S1x768 .f32) (main_arg6 : FVec F S256x256 .f32) (main_arg7 : FVec F S256 .f32) (main_arg8 : FVec F S104x256 .f32) (main_arg9 : FVec F S104 .f32) : IVec S_ 1 :=
  let main_v0 : FVec F S20000x256 .f32 := Host.absf main_arg2
  let main_cst : FVec F S_ .f32 := constant S_ .f32 0x7F800000#32
  let main_v1 : FVec F S20000x256 .f32 := broadcastInDim S20000x256 ![] bcast_S_S20000x256 main_cst
  let main_v2 : IVec S20000x256 1 := cmpf .olt main_v0 main_v1
  let main_c : IVec S_ 1 := constantI S_ 1 1#1
  let main_v3 : IVec S_ 1 := (fun x v => Host.reduce IntOp.andi x v reducesTo_S20000x256_S_d0_1 h_S_) main_v2 main_c
  let main_v4 : FVec F S768x256 .f32 := Host.absf main_arg3
  let main_cst_0 : FVec F S_ .f32 := constant S_ .f32 0x7F800000#32
  let main_v5 : FVec F S768x256 .f32 := broadcastInDim S768x256 ![] bcast_S_S768x256 main_cst_0
  let main_v6 : IVec S768x256 1 := cmpf .olt main_v4 main_v5
  let main_c_1 : IVec S_ 1 := constantI S_ 1 1#1
  let main_v7 : IVec S_ 1 := (fun x v => Host.reduce IntOp.andi x v reducesTo_S768x256_S_d0_1 h_S_) main_v6 main_c_1
  let main_v8 : IVec S_ 1 := andi main_v3 main_v7
  let main_v9 : FVec F S768x256 .f32 := Host.absf main_arg4
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S1x768 .f32 := Host.absf main_arg5
  let main_cst_4 : FVec F S_ .f32 := constant S_ .f32 0x7F800000#32
  let main_v15 : FVec F S1x768 .f32 := broadcastInDim S1x768 ![] bcast_S_S1x768 main_cst_4
  let main_v16 : IVec S1x768 1 := cmpf .olt main_v14 main_v15
  fn_part1 (F := F) main_arg6 main_arg7 main_arg8 main_arg9 main_v13 main_v16
-- ==== Kernel.lean ====
abbrev S131040 : Shape := ⟨1, ![131040]⟩
abbrev S20000x256 : Shape := ⟨2, ![20000, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S104x256 : Shape := ⟨2, ![104, 256]⟩
abbrev S104 : Shape := ⟨1, ![104]⟩
abbrev S_ : Shape := ⟨0, ![]⟩
abbrev S1 : Shape := ⟨1, ![1]⟩
abbrev S131040x1 : Shape := ⟨2, ![131040, 1]⟩
abbrev S131040x256 : Shape := ⟨2, ![131040, 256]⟩
abbrev S256x768 : Shape := ⟨2, ![256, 768]⟩
abbrev S256x104 : Shape := ⟨2, ![256, 104]⟩
abbrev S1x256 : Shape := ⟨2, ![1, 256]⟩
abbrev S1x104 : Shape := ⟨2, ![1, 104]⟩
abbrev S32x4095x256 : Shape := ⟨3, ![32, 4095, 256]⟩
abbrev S32x4095 : Shape := ⟨2, ![32, 4095]⟩
abbrev S32x2048x256 : Shape := ⟨3, ![32, 2048, 256]⟩
abbrev S65536x256 : Shape := ⟨2, ![65536, 256]⟩
abbrev S65536x512 : Shape := ⟨2, ![65536, 512]⟩
abbrev S32x1024x256 : Shape := ⟨3, ![32, 1024, 256]⟩
abbrev S32768x256 : Shape := ⟨2, ![32768, 256]⟩
abbrev S32x2048 : Shape := ⟨2, ![32, 2048]⟩
abbrev S65536 : Shape := ⟨1, ![65536]⟩
abbrev S32768x512 : Shape := ⟨2, ![32768, 512]⟩
abbrev S65536x1 : Shape := ⟨2, ![65536, 1]⟩
abbrev S32x512x256 : Shape := ⟨3, ![32, 512, 256]⟩
abbrev S16384x256 : Shape := ⟨2, ![16384, 256]⟩
abbrev S32x1024 : Shape := ⟨2, ![32, 1024]⟩
abbrev S32768 : Shape := ⟨1, ![32768]⟩
abbrev S16384x512 : Shape := ⟨2, ![16384, 512]⟩
abbrev S32768x1 : Shape := ⟨2, ![32768, 1]⟩
abbrev S32x256x256 : Shape := ⟨3, ![32, 256, 256]⟩
abbrev S8192x256 : Shape := ⟨2, ![8192, 256]⟩
abbrev S32x512 : Shape := ⟨2, ![32, 512]⟩
abbrev S16384 : Shape := ⟨1, ![16384]⟩
abbrev S8192x512 : Shape := ⟨2, ![8192, 512]⟩
abbrev S16384x1 : Shape := ⟨2, ![16384, 1]⟩
abbrev S32x128x256 : Shape := ⟨3, ![32, 128, 256]⟩
abbrev S4096x256 : Shape := ⟨2, ![4096, 256]⟩
abbrev S32x256 : Shape := ⟨2, ![32, 256]⟩
abbrev S8192 : Shape := ⟨1, ![8192]⟩
abbrev S4096x512 : Shape := ⟨2, ![4096, 512]⟩
abbrev S8192x1 : Shape := ⟨2, ![8192, 1]⟩
abbrev S32x64x256 : Shape := ⟨3, ![32, 64, 256]⟩
abbrev S2048x256 : Shape := ⟨2, ![2048, 256]⟩
abbrev S32x128 : Shape := ⟨2, ![32, 128]⟩
abbrev S4096 : Shape := ⟨1, ![4096]⟩
abbrev S2048x512 : Shape := ⟨2, ![2048, 512]⟩
abbrev S4096x1 : Shape := ⟨2, ![4096, 1]⟩
abbrev S32x32x256 : Shape := ⟨3, ![32, 32, 256]⟩
abbrev S1024x256 : Shape := ⟨2, ![1024, 256]⟩
abbrev S32x64 : Shape := ⟨2, ![32, 64]⟩
abbrev S2048 : Shape := ⟨1, ![2048]⟩
abbrev S1024x512 : Shape := ⟨2, ![1024, 512]⟩
abbrev S2048x1 : Shape := ⟨2, ![2048, 1]⟩
abbrev S32x16x256 : Shape := ⟨3, ![32, 16, 256]⟩
abbrev S512x256 : Shape := ⟨2, ![512, 256]⟩
abbrev S32x32 : Shape := ⟨2, ![32, 32]⟩
abbrev S1024 : Shape := ⟨1, ![1024]⟩
abbrev S512x512 : Shape := ⟨2, ![512, 512]⟩
abbrev S1024x1 : Shape := ⟨2, ![1024, 1]⟩
abbrev S32x8x256 : Shape := ⟨3, ![32, 8, 256]⟩
abbrev S32x16 : Shape := ⟨2, ![32, 16]⟩
abbrev S512 : Shape := ⟨1, ![512]⟩
abbrev S256x512 : Shape := ⟨2, ![256, 512]⟩
abbrev S512x1 : Shape := ⟨2, ![512, 1]⟩
abbrev S32x4x256 : Shape := ⟨3, ![32, 4, 256]⟩
abbrev S128x256 : Shape := ⟨2, ![128, 256]⟩
abbrev S32x8 : Shape := ⟨2, ![32, 8]⟩
abbrev S128x512 : Shape := ⟨2, ![128, 512]⟩
abbrev S256x1 : Shape := ⟨2, ![256, 1]⟩
abbrev S32x2x256 : Shape := ⟨3, ![32, 2, 256]⟩
abbrev S64x256 : Shape := ⟨2, ![64, 256]⟩
abbrev S32x4 : Shape := ⟨2, ![32, 4]⟩
abbrev S128 : Shape := ⟨1, ![128]⟩
abbrev S64x512 : Shape := ⟨2, ![64, 512]⟩
abbrev S128x1 : Shape := ⟨2, ![128, 1]⟩
abbrev S32x1x256 : Shape := ⟨3, ![32, 1, 256]⟩
abbrev S32x2 : Shape := ⟨2, ![32, 2]⟩
abbrev S64 : Shape := ⟨1, ![64]⟩
abbrev S64x1 : Shape := ⟨2, ![64, 1]⟩
abbrev S32x104 : Shape := ⟨2, ![32, 104]⟩
abbrev S1024x768 : Shape := ⟨2, ![1024, 768]⟩
abbrev S512x768 : Shape := ⟨2, ![512, 768]⟩
abbrev S128x768 : Shape := ⟨2, ![128, 768]⟩
abbrev S64x768 : Shape := ⟨2, ![64, 768]⟩
abbrev S32x768 : Shape := ⟨2, ![32, 768]⟩

abbrev nBuf : Space → Nat
  | .hbm => 658
  | .vmem => 115
  | .smem => 0
  | _ => 0

abbrev hbmTy0_0 (i : Nat) : BufTy := match i % 128 with
  | 0 => ⟨S131040, .i32⟩
  | 1 => ⟨S131040, .i32⟩
  | 2 => ⟨S20000x256, .f32⟩
  | 3 => ⟨S768x256, .f32⟩
  | 4 => ⟨S768x256, .f32⟩
  | 5 => ⟨S1x768, .f32⟩
  | 6 => ⟨S256x256, .f32⟩
  | 7 => ⟨S256, .f32⟩
  | 8 => ⟨S104x256, .f32⟩
  | 9 => ⟨S104, .f32⟩
  | 10 => ⟨S_, .i32⟩
  | 11 => ⟨S1, .i32⟩
  | 12 => ⟨S_, .f32⟩
  | 13 => ⟨S256, .f32⟩
  | 14 => ⟨S20000x256, .f32⟩
  | 15 => ⟨S20000x256, .bf16⟩
  | 16 => ⟨S_, .i32⟩
  | 17 => ⟨S131040, .i32⟩
  | 18 => ⟨S131040, .i1⟩
  | 19 => ⟨S_, .i32⟩
  | 20 => ⟨S131040, .i32⟩
  | 21 => ⟨S131040, .i32⟩
  | 22 => ⟨S131040, .i32⟩
  | 23 => ⟨S131040x1, .i32⟩
  | 24 => ⟨S131040x256, .bf16⟩
  | 25 => ⟨S256x768, .f32⟩
  | 26 => ⟨S256x768, .bf16⟩
  | 27 => ⟨S256x256, .f32⟩
  | 28 => ⟨S256x256, .bf16⟩
  | 29 => ⟨S256x768, .f32⟩
  | 30 => ⟨S256x768, .bf16⟩
  | 31 => ⟨S256x104, .f32⟩
  | 32 => ⟨S256x104, .bf16⟩
  | 33 => ⟨S1x256, .f32⟩
  | 34 => ⟨S1x104, .f32⟩
  | 35 => ⟨S32x4095x256, .bf16⟩
  | 36 => ⟨S32x4095, .i32⟩
  | 37 => ⟨S32x2048x256, .bf16⟩
  | 38 => ⟨S65536x256, .bf16⟩
  | 39 => ⟨S65536x512, .f32⟩
  | 40 => ⟨S32x1024x256, .bf16⟩
  | 41 => ⟨S32768x256, .bf16⟩
  | 42 => ⟨S32x2048, .i32⟩
  | 43 => ⟨S65536, .i32⟩
  | 44 => ⟨S_, .i32⟩
  | 45 => ⟨S_, .i32⟩
  | 46 => ⟨S65536, .i32⟩
  | 47 => ⟨S65536, .i32⟩
  | 48 => ⟨S65536, .i32⟩
  | 49 => ⟨S_, .i32⟩
  | 50 => ⟨S65536, .i32⟩
  | 51 => ⟨S65536, .i1⟩
  | 52 => ⟨S65536, .i32⟩
  | 53 => ⟨S65536, .i32⟩
  | 54 => ⟨S_, .i32⟩
  | 55 => ⟨S65536, .i32⟩
  | 56 => ⟨S65536, .i1⟩
  | 57 => ⟨S65536, .i1⟩
  | 58 => ⟨S_, .i32⟩
  | 59 => ⟨S65536, .i32⟩
  | 60 => ⟨S65536, .i32⟩
  | 61 => ⟨S65536, .i32⟩
  | 62 => ⟨S_, .i32⟩
  | 63 => ⟨S65536, .i32⟩
  | 64 => ⟨S65536, .i32⟩
  | 65 => ⟨S_, .i32⟩
  | 66 => ⟨S_, .i32⟩
  | 67 => ⟨S_, .i32⟩
  | 68 => ⟨S_, .i1⟩
  | 69 => ⟨S_, .i32⟩
  | 70 => ⟨S_, .i32⟩
  | 71 => ⟨S65536, .i32⟩
  | 72 => ⟨S65536, .i32⟩
  | 73 => ⟨S_, .i32⟩
  | 74 => ⟨S65536, .i32⟩
  | 75 => ⟨S65536, .i1⟩
  | 76 => ⟨S_, .i32⟩
  | 77 => ⟨S65536, .i32⟩
  | 78 => ⟨S65536, .i1⟩
  | 79 => ⟨S_, .i32⟩
  | 80 => ⟨S_, .i1⟩
  | 81 => ⟨S65536, .i1⟩
  | 82 => ⟨S65536, .i1⟩
  | 83 => ⟨S65536, .i1⟩
  | 84 => ⟨S65536, .i32⟩
  | 85 => ⟨S65536, .i32⟩
  | 86 => ⟨S65536, .i32⟩
  | 87 => ⟨S_, .i32⟩
  | 88 => ⟨S65536, .i32⟩
  | 89 => ⟨S65536, .i32⟩
  | 90 => ⟨S65536, .i32⟩
  | 91 => ⟨S_, .f32⟩
  | 92 => ⟨S32768x512, .f32⟩
  | 93 => ⟨S65536x1, .i32⟩
  | 94 => ⟨S32768x512, .f32⟩
  | 95 => ⟨S32768x512, .f32⟩
  | 96 => ⟨S32x512x256, .bf16⟩
  | 97 => ⟨S16384x256, .bf16⟩
  | 98 => ⟨S32x1024, .i32⟩
  | 99 => ⟨S32768, .i32⟩
  | 100 => ⟨S_, .i32⟩
  | 101 => ⟨S_, .i32⟩
  | 102 => ⟨S32768, .i32⟩
  | 103 => ⟨S32768, .i32⟩
  | 104 => ⟨S32768, .i32⟩
  | 105 => ⟨S_, .i32⟩
  | 106 => ⟨S32768, .i32⟩
  | 107 => ⟨S32768, .i1⟩
  | 108 => ⟨S32768, .i32⟩
  | 109 => ⟨S32768, .i32⟩
  | 110 => ⟨S_, .i32⟩
  | 111 => ⟨S32768, .i32⟩
  | 112 => ⟨S32768, .i1⟩
  | 113 => ⟨S32768, .i1⟩
  | 114 => ⟨S_, .i32⟩
  | 115 => ⟨S32768, .i32⟩
  | 116 => ⟨S32768, .i32⟩
  | 117 => ⟨S32768, .i32⟩
  | 118 => ⟨S_, .i32⟩
  | 119 => ⟨S32768, .i32⟩
  | 120 => ⟨S32768, .i32⟩
  | 121 => ⟨S_, .i32⟩
  | 122 => ⟨S_, .i32⟩
  | 123 => ⟨S_, .i32⟩
  | 124 => ⟨S_, .i1⟩
  | 125 => ⟨S_, .i32⟩
  | 126 => ⟨S_, .i32⟩
  | 127 => ⟨S32768, .i32⟩
  | _ => ⟨S131040, .i32⟩

abbrev hbmTy0_1 (i : Nat) : BufTy := match i % 128 with
  | 0 => ⟨S32768, .i32⟩
  | 1 => ⟨S_, .i32⟩
  | 2 => ⟨S32768, .i32⟩
  | 3 => ⟨S32768, .i1⟩
  | 4 => ⟨S_, .i32⟩
  | 5 => ⟨S32768, .i32⟩
  | 6 => ⟨S32768, .i1⟩
  | 7 => ⟨S_, .i32⟩
  | 8 => ⟨S_, .i1⟩
  | 9 => ⟨S32768, .i1⟩
  | 10 => ⟨S32768, .i1⟩
  | 11 => ⟨S32768, .i1⟩
  | 12 => ⟨S32768, .i32⟩
  | 13 => ⟨S32768, .i32⟩
  | 14 => ⟨S32768, .i32⟩
  | 15 => ⟨S_, .i32⟩
  | 16 => ⟨S32768, .i32⟩
  | 17 => ⟨S32768, .i32⟩
  | 18 => ⟨S32768, .i32⟩
  | 19 => ⟨S_, .f32⟩
  | 20 => ⟨S16384x512, .f32⟩
  | 21 => ⟨S32768x1, .i32⟩
  | 22 => ⟨S16384x512, .f32⟩
  | 23 => ⟨S16384x512, .f32⟩
  | 24 => ⟨S32x256x256, .bf16⟩
  | 25 => ⟨S8192x256, .bf16⟩
  | 26 => ⟨S32x512, .i32⟩
  | 27 => ⟨S16384, .i32⟩
  | 28 => ⟨S_, .i32⟩
  | 29 => ⟨S_, .i32⟩
  | 30 => ⟨S16384, .i32⟩
  | 31 => ⟨S16384, .i32⟩
  | 32 => ⟨S16384, .i32⟩
  | 33 => ⟨S_, .i32⟩
  | 34 => ⟨S16384, .i32⟩
  | 35 => ⟨S16384, .i1⟩
  | 36 => ⟨S16384, .i32⟩
  | 37 => ⟨S16384, .i32⟩
  | 38 => ⟨S_, .i32⟩
  | 39 => ⟨S16384, .i32⟩
  | 40 => ⟨S16384, .i1⟩
  | 41 => ⟨S16384, .i1⟩
  | 42 => ⟨S_, .i32⟩
  | 43 => ⟨S16384, .i32⟩
  | 44 => ⟨S16384, .i32⟩
  | 45 => ⟨S16384, .i32⟩
  | 46 => ⟨S_, .i32⟩
  | 47 => ⟨S16384, .i32⟩
  | 48 => ⟨S16384, .i32⟩
  | 49 => ⟨S_, .i32⟩
  | 50 => ⟨S_, .i32⟩
  | 51 => ⟨S_, .i32⟩
  | 52 => ⟨S_, .i1⟩
  | 53 => ⟨S_, .i32⟩
  | 54 => ⟨S_, .i32⟩
  | 55 => ⟨S16384, .i32⟩
  | 56 => ⟨S16384, .i32⟩
  | 57 => ⟨S_, .i32⟩
  | 58 => ⟨S16384, .i32⟩
  | 59 => ⟨S16384, .i1⟩
  | 60 => ⟨S_, .i32⟩
  | 61 => ⟨S16384, .i32⟩
  | 62 => ⟨S16384, .i1⟩
  | 63 => ⟨S_, .i32⟩
  | 64 => ⟨S_, .i1⟩
  | 65 => ⟨S16384, .i1⟩
  | 66 => ⟨S16384, .i1⟩
  | 67 => ⟨S16384, .i1⟩
  | 68 => ⟨S16384, .i32⟩
  | 69 => ⟨S16384, .i32⟩
  | 70 => ⟨S16384, .i32⟩
  | 71 => ⟨S_, .i32⟩
  | 72 => ⟨S16384, .i32⟩
  | 73 => ⟨S16384, .i32⟩
  | 74 => ⟨S16384, .i32⟩
  | 75 => ⟨S_, .f32⟩
  | 76 => ⟨S8192x512, .f32⟩
  | 77 => ⟨S16384x1, .i32⟩
  | 78 => ⟨S8192x512, .f32⟩
  | 79 => ⟨S8192x512, .f32⟩
  | 80 => ⟨S32x128x256, .bf16⟩
  | 81 => ⟨S4096x256, .bf16⟩
  | 82 => ⟨S32x256, .i32⟩
  | 83 => ⟨S8192, .i32⟩
  | 84 => ⟨S_, .i32⟩
  | 85 => ⟨S_, .i32⟩
  | 86 => ⟨S8192, .i32⟩
  | 87 => ⟨S8192, .i32⟩
  | 88 => ⟨S8192, .i32⟩
  | 89 => ⟨S_, .i32⟩
  | 90 => ⟨S8192, .i32⟩
  | 91 => ⟨S8192, .i1⟩
  | 92 => ⟨S8192, .i32⟩
  | 93 => ⟨S8192, .i32⟩
  | 94 => ⟨S_, .i32⟩
  | 95 => ⟨S8192, .i32⟩
  | 96 => ⟨S8192, .i1⟩
  | 97 => ⟨S8192, .i1⟩
  | 98 => ⟨S_, .i32⟩
  | 99 => ⟨S8192, .i32⟩
  | 100 => ⟨S8192, .i32⟩
  | 101 => ⟨S8192, .i32⟩
  | 102 => ⟨S_, .i32⟩
  | 103 => ⟨S8192, .i32⟩
  | 104 => ⟨S8192, .i32⟩
  | 105 => ⟨S_, .i32⟩
  | 106 => ⟨S_, .i32⟩
  | 107 => ⟨S_, .i32⟩
  | 108 => ⟨S_, .i1⟩
  | 109 => ⟨S_, .i32⟩
  | 110 => ⟨S_, .i32⟩
  | 111 => ⟨S8192, .i32⟩
  | 112 => ⟨S8192, .i32⟩
  | 113 => ⟨S_, .i32⟩
  | 114 => ⟨S8192, .i32⟩
  | 115 => ⟨S8192, .i1⟩
  | 116 => ⟨S_, .i32⟩
  | 117 => ⟨S8192, .i32⟩
  | 118 => ⟨S8192, .i1⟩
  | 119 => ⟨S_, .i32⟩
  | 120 => ⟨S_, .i1⟩
  | 121 => ⟨S8192, .i1⟩
  | 122 => ⟨S8192, .i1⟩
  | 123 => ⟨S8192, .i1⟩
  | 124 => ⟨S8192, .i32⟩
  | 125 => ⟨S8192, .i32⟩
  | 126 => ⟨S8192, .i32⟩
  | 127 => ⟨S_, .i32⟩
  | _ => ⟨S131040, .i32⟩

abbrev hbmTy0_2 (i : Nat) : BufTy := match i % 128 with
  | 0 => ⟨S8192, .i32⟩
  | 1 => ⟨S8192, .i32⟩
  | 2 => ⟨S8192, .i32⟩
  | 3 => ⟨S_, .f32⟩
  | 4 => ⟨S4096x512, .f32⟩
  | 5 => ⟨S8192x1, .i32⟩
  | 6 => ⟨S4096x512, .f32⟩
  | 7 => ⟨S4096x512, .f32⟩
  | 8 => ⟨S32x64x256, .bf16⟩
  | 9 => ⟨S2048x256, .bf16⟩
  | 10 => ⟨S32x128, .i32⟩
  | 11 => ⟨S4096, .i32⟩
  | 12 => ⟨S_, .i32⟩
  | 13 => ⟨S_, .i32⟩
  | 14 => ⟨S4096, .i32⟩
  | 15 => ⟨S4096, .i32⟩
  | 16 => ⟨S4096, .i32⟩
  | 17 => ⟨S_, .i32⟩
  | 18 => ⟨S4096, .i32⟩
  | 19 => ⟨S4096, .i1⟩
  | 20 => ⟨S4096, .i32⟩
  | 21 => ⟨S4096, .i32⟩
  | 22 => ⟨S_, .i32⟩
  | 23 => ⟨S4096, .i32⟩
  | 24 => ⟨S4096, .i1⟩
  | 25 => ⟨S4096, .i1⟩
  | 26 => ⟨S_, .i32⟩
  | 27 => ⟨S4096, .i32⟩
  | 28 => ⟨S4096, .i32⟩
  | 29 => ⟨S4096, .i32⟩
  | 30 => ⟨S_, .i32⟩
  | 31 => ⟨S4096, .i32⟩
  | 32 => ⟨S4096, .i32⟩
  | 33 => ⟨S_, .i32⟩
  | 34 => ⟨S_, .i32⟩
  | 35 => ⟨S_, .i32⟩
  | 36 => ⟨S_, .i1⟩
  | 37 => ⟨S_, .i32⟩
  | 38 => ⟨S_, .i32⟩
  | 39 => ⟨S4096, .i32⟩
  | 40 => ⟨S4096, .i32⟩
  | 41 => ⟨S_, .i32⟩
  | 42 => ⟨S4096, .i32⟩
  | 43 => ⟨S4096, .i1⟩
  | 44 => ⟨S_, .i32⟩
  | 45 => ⟨S4096, .i32⟩
  | 46 => ⟨S4096, .i1⟩
  | 47 => ⟨S_, .i32⟩
  | 48 => ⟨S_, .i1⟩
  | 49 => ⟨S4096, .i1⟩
  | 50 => ⟨S4096, .i1⟩
  | 51 => ⟨S4096, .i1⟩
  | 52 => ⟨S4096, .i32⟩
  | 53 => ⟨S4096, .i32⟩
  | 54 => ⟨S4096, .i32⟩
  | 55 => ⟨S_, .i32⟩
  | 56 => ⟨S4096, .i32⟩
  | 57 => ⟨S4096, .i32⟩
  | 58 => ⟨S4096, .i32⟩
  | 59 => ⟨S_, .f32⟩
  | 60 => ⟨S2048x512, .f32⟩
  | 61 => ⟨S4096x1, .i32⟩
  | 62 => ⟨S2048x512, .f32⟩
  | 63 => ⟨S2048x512, .f32⟩
  | 64 => ⟨S32x32x256, .bf16⟩
  | 65 => ⟨S1024x256, .bf16⟩
  | 66 => ⟨S32x64, .i32⟩
  | 67 => ⟨S2048, .i32⟩
  | 68 => ⟨S_, .i32⟩
  | 69 => ⟨S_, .i32⟩
  | 70 => ⟨S2048, .i32⟩
  | 71 => ⟨S2048, .i32⟩
  | 72 => ⟨S2048, .i32⟩
  | 73 => ⟨S_, .i32⟩
  | 74 => ⟨S2048, .i32⟩
  | 75 => ⟨S2048, .i1⟩
  | 76 => ⟨S2048, .i32⟩
  | 77 => ⟨S2048, .i32⟩
  | 78 => ⟨S_, .i32⟩
  | 79 => ⟨S2048, .i32⟩
  | 80 => ⟨S2048, .i1⟩
  | 81 => ⟨S2048, .i1⟩
  | 82 => ⟨S_, .i32⟩
  | 83 => ⟨S2048, .i32⟩
  | 84 => ⟨S2048, .i32⟩
  | 85 => ⟨S2048, .i32⟩
  | 86 => ⟨S_, .i32⟩
  | 87 => ⟨S2048, .i32⟩
  | 88 => ⟨S2048, .i32⟩
  | 89 => ⟨S_, .i32⟩
  | 90 => ⟨S_, .i32⟩
  | 91 => ⟨S_, .i32⟩
  | 92 => ⟨S_, .i1⟩
  | 93 => ⟨S_, .i32⟩
  | 94 => ⟨S_, .i32⟩
  | 95 => ⟨S2048, .i32⟩
  | 96 => ⟨S2048, .i32⟩
  | 97 => ⟨S_, .i32⟩
  | 98 => ⟨S2048, .i32⟩
  | 99 => ⟨S2048, .i1⟩
  | 100 => ⟨S_, .i32⟩
  | 101 => ⟨S2048, .i32⟩
  | 102 => ⟨S2048, .i1⟩
  | 103 => ⟨S_, .i32⟩
  | 104 => ⟨S_, .i1⟩
  | 105 => ⟨S2048, .i1⟩
  | 106 => ⟨S2048, .i1⟩
  | 107 => ⟨S2048, .i1⟩
  | 108 => ⟨S2048, .i32⟩
  | 109 => ⟨S2048, .i32⟩
  | 110 => ⟨S2048, .i32⟩
  | 111 => ⟨S_, .i32⟩
  | 112 => ⟨S2048, .i32⟩
  | 113 => ⟨S2048, .i32⟩
  | 114 => ⟨S2048, .i32⟩
  | 115 => ⟨S_, .f32⟩
  | 116 => ⟨S1024x512, .f32⟩
  | 117 => ⟨S2048x1, .i32⟩
  | 118 => ⟨S1024x512, .f32⟩
  | 119 => ⟨S1024x512, .f32⟩
  | 120 => ⟨S32x16x256, .bf16⟩
  | 121 => ⟨S512x256, .bf16⟩
  | 122 => ⟨S32x32, .i32⟩
  | 123 => ⟨S1024, .i32⟩
  | 124 => ⟨S_, .i32⟩
  | 125 => ⟨S_, .i32⟩
  | 126 => ⟨S1024, .i32⟩
  | 127 => ⟨S1024, .i32⟩
  | _ => ⟨S131040, .i32⟩

abbrev hbmTy0_3 (i : Nat) : BufTy := match i % 128 with
  | 0 => ⟨S1024, .i32⟩
  | 1 => ⟨S_, .i32⟩
  | 2 => ⟨S1024, .i32⟩
  | 3 => ⟨S1024, .i1⟩
  | 4 => ⟨S1024, .i32⟩
  | 5 => ⟨S1024, .i32⟩
  | 6 => ⟨S_, .i32⟩
  | 7 => ⟨S1024, .i32⟩
  | 8 => ⟨S1024, .i1⟩
  | 9 => ⟨S1024, .i1⟩
  | 10 => ⟨S_, .i32⟩
  | 11 => ⟨S1024, .i32⟩
  | 12 => ⟨S1024, .i32⟩
  | 13 => ⟨S1024, .i32⟩
  | 14 => ⟨S_, .i32⟩
  | 15 => ⟨S1024, .i32⟩
  | 16 => ⟨S1024, .i32⟩
  | 17 => ⟨S_, .i32⟩
  | 18 => ⟨S_, .i32⟩
  | 19 => ⟨S_, .i32⟩
  | 20 => ⟨S_, .i1⟩
  | 21 => ⟨S_, .i32⟩
  | 22 => ⟨S_, .i32⟩
  | 23 => ⟨S1024, .i32⟩
  | 24 => ⟨S1024, .i32⟩
  | 25 => ⟨S_, .i32⟩
  | 26 => ⟨S1024, .i32⟩
  | 27 => ⟨S1024, .i1⟩
  | 28 => ⟨S_, .i32⟩
  | 29 => ⟨S1024, .i32⟩
  | 30 => ⟨S1024, .i1⟩
  | 31 => ⟨S_, .i32⟩
  | 32 => ⟨S_, .i1⟩
  | 33 => ⟨S1024, .i1⟩
  | 34 => ⟨S1024, .i1⟩
  | 35 => ⟨S1024, .i1⟩
  | 36 => ⟨S1024, .i32⟩
  | 37 => ⟨S1024, .i32⟩
  | 38 => ⟨S1024, .i32⟩
  | 39 => ⟨S_, .i32⟩
  | 40 => ⟨S1024, .i32⟩
  | 41 => ⟨S1024, .i32⟩
  | 42 => ⟨S1024, .i32⟩
  | 43 => ⟨S_, .f32⟩
  | 44 => ⟨S512x512, .f32⟩
  | 45 => ⟨S1024x1, .i32⟩
  | 46 => ⟨S512x512, .f32⟩
  | 47 => ⟨S512x512, .f32⟩
  | 48 => ⟨S32x8x256, .bf16⟩
  | 49 => ⟨S256x256, .bf16⟩
  | 50 => ⟨S32x16, .i32⟩
  | 51 => ⟨S512, .i32⟩
  | 52 => ⟨S_, .i32⟩
  | 53 => ⟨S_, .i32⟩
  | 54 => ⟨S512, .i32⟩
  | 55 => ⟨S512, .i32⟩
  | 56 => ⟨S512, .i32⟩
  | 57 => ⟨S_, .i32⟩
  | 58 => ⟨S512, .i32⟩
  | 59 => ⟨S512, .i1⟩
  | 60 => ⟨S512, .i32⟩
  | 61 => ⟨S512, .i32⟩
  | 62 => ⟨S_, .i32⟩
  | 63 => ⟨S512, .i32⟩
  | 64 => ⟨S512, .i1⟩
  | 65 => ⟨S512, .i1⟩
  | 66 => ⟨S_, .i32⟩
  | 67 => ⟨S512, .i32⟩
  | 68 => ⟨S512, .i32⟩
  | 69 => ⟨S512, .i32⟩
  | 70 => ⟨S_, .i32⟩
  | 71 => ⟨S512, .i32⟩
  | 72 => ⟨S512, .i32⟩
  | 73 => ⟨S_, .i32⟩
  | 74 => ⟨S_, .i32⟩
  | 75 => ⟨S_, .i32⟩
  | 76 => ⟨S_, .i1⟩
  | 77 => ⟨S_, .i32⟩
  | 78 => ⟨S_, .i32⟩
  | 79 => ⟨S512, .i32⟩
  | 80 => ⟨S512, .i32⟩
  | 81 => ⟨S_, .i32⟩
  | 82 => ⟨S512, .i32⟩
  | 83 => ⟨S512, .i1⟩
  | 84 => ⟨S_, .i32⟩
  | 85 => ⟨S512, .i32⟩
  | 86 => ⟨S512, .i1⟩
  | 87 => ⟨S_, .i32⟩
  | 88 => ⟨S_, .i1⟩
  | 89 => ⟨S512, .i1⟩
  | 90 => ⟨S512, .i1⟩
  | 91 => ⟨S512, .i1⟩
  | 92 => ⟨S512, .i32⟩
  | 93 => ⟨S512, .i32⟩
  | 94 => ⟨S512, .i32⟩
  | 95 => ⟨S_, .i32⟩
  | 96 => ⟨S512, .i32⟩
  | 97 => ⟨S512, .i32⟩
  | 98 => ⟨S512, .i32⟩
  | 99 => ⟨S_, .f32⟩
  | 100 => ⟨S256x512, .f32⟩
  | 101 => ⟨S512x1, .i32⟩
  | 102 => ⟨S256x512, .f32⟩
  | 103 => ⟨S256x512, .f32⟩
  | 104 => ⟨S32x4x256, .bf16⟩
  | 105 => ⟨S128x256, .bf16⟩
  | 106 => ⟨S32x8, .i32⟩
  | 107 => ⟨S256, .i32⟩
  | 108 => ⟨S_, .i32⟩
  | 109 => ⟨S_, .i32⟩
  | 110 => ⟨S256, .i32⟩
  | 111 => ⟨S256, .i32⟩
  | 112 => ⟨S256, .i32⟩
  | 113 => ⟨S_, .i32⟩
  | 114 => ⟨S256, .i32⟩
  | 115 => ⟨S256, .i1⟩
  | 116 => ⟨S256, .i32⟩
  | 117 => ⟨S256, .i32⟩
  | 118 => ⟨S_, .i32⟩
  | 119 => ⟨S256, .i32⟩
  | 120 => ⟨S256, .i1⟩
  | 121 => ⟨S256, .i1⟩
  | 122 => ⟨S_, .i32⟩
  | 123 => ⟨S256, .i32⟩
  | 124 => ⟨S256, .i32⟩
  | 125 => ⟨S256, .i32⟩
  | 126 => ⟨S_, .i32⟩
  | 127 => ⟨S256, .i32⟩
  | _ => ⟨S131040, .i32⟩

abbrev hbmTy0_4 (i : Nat) : BufTy := match i % 128 with
  | 0 => ⟨S256, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S256, .i32⟩
  | 8 => ⟨S256, .i32⟩
  | 9 => ⟨S_, .i32⟩
  | 10 => ⟨S256, .i32⟩
  | 11 => ⟨S256, .i1⟩
  | 12 => ⟨S_, .i32⟩
  | 13 => ⟨S256, .i32⟩
  | 14 => ⟨S256, .i1⟩
  | 15 => ⟨S_, .i32⟩
  | 16 => ⟨S_, .i1⟩
  | 17 => ⟨S256, .i1⟩
  | 18 => ⟨S256, .i1⟩
  | 19 => ⟨S256, .i1⟩
  | 20 => ⟨S256, .i32⟩
  | 21 => ⟨S256, .i32⟩
  | 22 => ⟨S256, .i32⟩
  | 23 => ⟨S_, .i32⟩
  | 24 => ⟨S256, .i32⟩
  | 25 => ⟨S256, .i32⟩
  | 26 => ⟨S256, .i32⟩
  | 27 => ⟨S_, .f32⟩
  | 28 => ⟨S128x512, .f32⟩
  | 29 => ⟨S256x1, .i32⟩
  | 30 => ⟨S128x512, .f32⟩
  | 31 => ⟨S128x512, .f32⟩
  | 32 => ⟨S32x2x256, .bf16⟩
  | 33 => ⟨S64x256, .bf16⟩
  | 34 => ⟨S32x4, .i32⟩
  | 35 => ⟨S128, .i32⟩
  | 36 => ⟨S_, .i32⟩
  | 37 => ⟨S_, .i32⟩
  | 38 => ⟨S128, .i32⟩
  | 39 => ⟨S128, .i32⟩
  | 40 => ⟨S128, .i32⟩
  | 41 => ⟨S_, .i32⟩
  | 42 => ⟨S128, .i32⟩
  | 43 => ⟨S128, .i1⟩
  | 44 => ⟨S128, .i32⟩
  | 45 => ⟨S128, .i32⟩
  | 46 => ⟨S_, .i32⟩
  | 47 => ⟨S128, .i32⟩
  | 48 => ⟨S128, .i1⟩
  | 49 => ⟨S128, .i1⟩
  | 50 => ⟨S_, .i32⟩
  | 51 => ⟨S128, .i32⟩
  | 52 => ⟨S128, .i32⟩
  | 53 => ⟨S128, .i32⟩
  | 54 => ⟨S_, .i32⟩
  | 55 => ⟨S128, .i32⟩
  | 56 => ⟨S128, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S128, .i32⟩
  | 64 => ⟨S128, .i32⟩
  | 65 => ⟨S_, .i32⟩
  | 66 => ⟨S128, .i32⟩
  | 67 => ⟨S128, .i1⟩
  | 68 => ⟨S_, .i32⟩
  | 69 => ⟨S128, .i32⟩
  | 70 => ⟨S128, .i1⟩
  | 71 => ⟨S_, .i32⟩
  | 72 => ⟨S_, .i1⟩
  | 73 => ⟨S128, .i1⟩
  | 74 => ⟨S128, .i1⟩
  | 75 => ⟨S128, .i1⟩
  | 76 => ⟨S128, .i32⟩
  | 77 => ⟨S128, .i32⟩
  | 78 => ⟨S128, .i32⟩
  | 79 => ⟨S_, .i32⟩
  | 80 => ⟨S128, .i32⟩
  | 81 => ⟨S128, .i32⟩
  | 82 => ⟨S128, .i32⟩
  | 83 => ⟨S_, .f32⟩
  | 84 => ⟨S64x512, .f32⟩
  | 85 => ⟨S128x1, .i32⟩
  | 86 => ⟨S64x512, .f32⟩
  | 87 => ⟨S64x512, .f32⟩
  | 88 => ⟨S32x1x256, .bf16⟩
  | 89 => ⟨S32x256, .bf16⟩
  | 90 => ⟨S32x2, .i32⟩
  | 91 => ⟨S64, .i32⟩
  | 92 => ⟨S_, .i32⟩
  | 93 => ⟨S_, .i32⟩
  | 94 => ⟨S64, .i32⟩
  | 95 => ⟨S64, .i32⟩
  | 96 => ⟨S64, .i32⟩
  | 97 => ⟨S_, .i32⟩
  | 98 => ⟨S64, .i32⟩
  | 99 => ⟨S64, .i1⟩
  | 100 => ⟨S64, .i32⟩
  | 101 => ⟨S64, .i32⟩
  | 102 => ⟨S_, .i32⟩
  | 103 => ⟨S64, .i32⟩
  | 104 => ⟨S64, .i1⟩
  | 105 => ⟨S64, .i1⟩
  | 106 => ⟨S_, .i32⟩
  | 107 => ⟨S64, .i32⟩
  | 108 => ⟨S64, .i32⟩
  | 109 => ⟨S64, .i32⟩
  | 110 => ⟨S_, .i32⟩
  | 111 => ⟨S64, .i32⟩
  | 112 => ⟨S64, .i32⟩
  | 113 => ⟨S_, .i32⟩
  | 114 => ⟨S_, .i32⟩
  | 115 => ⟨S_, .i32⟩
  | 116 => ⟨S_, .i1⟩
  | 117 => ⟨S_, .i32⟩
  | 118 => ⟨S_, .i32⟩
  | 119 => ⟨S64, .i32⟩
  | 120 => ⟨S64, .i32⟩
  | 121 => ⟨S_, .i32⟩
  | 122 => ⟨S64, .i32⟩
  | 123 => ⟨S64, .i1⟩
  | 124 => ⟨S_, .i32⟩
  | 125 => ⟨S64, .i32⟩
  | 126 => ⟨S64, .i1⟩
  | 127 => ⟨S_, .i32⟩
  | _ => ⟨S131040, .i32⟩

abbrev hbmTy0_5 (i : Nat) : BufTy := match i % 128 with
  | 0 => ⟨S_, .i1⟩
  | 1 => ⟨S64, .i1⟩
  | 2 => ⟨S64, .i1⟩
  | 3 => ⟨S64, .i1⟩
  | 4 => ⟨S64, .i32⟩
  | 5 => ⟨S64, .i32⟩
  | 6 => ⟨S64, .i32⟩
  | 7 => ⟨S_, .i32⟩
  | 8 => ⟨S64, .i32⟩
  | 9 => ⟨S64, .i32⟩
  | 10 => ⟨S64, .i32⟩
  | 11 => ⟨S_, .f32⟩
  | 12 => ⟨S32x512, .f32⟩
  | 13 => ⟨S64x1, .i32⟩
  | 14 => ⟨S32x512, .f32⟩
  | 15 => ⟨S32x512, .f32⟩
  | 16 => ⟨S32x256, .f32⟩
  | 17 => ⟨S32x104, .f32⟩
  | _ => ⟨S131040, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S131040, .i32⟩

abbrev bufTy : (tb : Table) → Fin (tcTables nBuf tb) → BufTy
  | .hbm, ⟨i, _⟩ => hbmTy i
  | .local _ .vmem, ⟨0, _⟩ => ⟨S1024x256, .bf16⟩
  | .local _ .vmem, ⟨1, _⟩ => ⟨S1024x256, .bf16⟩
  | .local _ .vmem, ⟨2, _⟩ => ⟨S256x768, .bf16⟩
  | .local _ .vmem, ⟨3, _⟩ => ⟨S1x768, .f32⟩
  | .local _ .vmem, ⟨4, _⟩ => ⟨S256x256, .bf16⟩
  | .local _ .vmem, ⟨5, _⟩ => ⟨S1x256, .f32⟩
  | .local _ .vmem, ⟨6, _⟩ => ⟨S1024x512, .f32⟩
  | .local _ .vmem, ⟨7, _⟩ => ⟨S1024x512, .f32⟩
  | .local _ .vmem, ⟨8, _⟩ => ⟨S1024x256, .bf16⟩
  | .local _ .vmem, ⟨9, _⟩ => ⟨S1024x256, .bf16⟩
  | .local _ .vmem, ⟨10, _⟩ => ⟨S256x768, .bf16⟩
  | .local _ .vmem, ⟨11, _⟩ => ⟨S1x768, .f32⟩
  | .local _ .vmem, ⟨12, _⟩ => ⟨S1024x512, .f32⟩
  | .local _ .vmem, ⟨13, _⟩ => ⟨S1024x512, .f32⟩
  | .local _ .vmem, ⟨14, _⟩ => ⟨S256x768, .bf16⟩
  | .local _ .vmem, ⟨15, _⟩ => ⟨S256x256, .bf16⟩
  | .local _ .vmem, ⟨16, _⟩ => ⟨S1x256, .f32⟩
  | .local _ .vmem, ⟨17, _⟩ => ⟨S1024x512, .f32⟩
  | .local _ .vmem, ⟨18, _⟩ => ⟨S1024x512, .f32⟩
  | .local _ .vmem, ⟨19, _⟩ => ⟨S1024x256, .bf16⟩
  | .local _ .vmem, ⟨20, _⟩ => ⟨S1024x256, .bf16⟩
  | .local _ .vmem, ⟨21, _⟩ => ⟨S256x768, .bf16⟩
  | .local _ .vmem, ⟨22, _⟩ => ⟨S1x768, .f32⟩
  | .local _ .vmem, ⟨23, _⟩ => ⟨S1024x512, .f32⟩
  | .local _ .vmem, ⟨24, _⟩ => ⟨S1024x512, .f32⟩
  | .local _ .vmem, ⟨25, _⟩ => ⟨S256x768, .bf16⟩
  | .local _ .vmem, ⟨26, _⟩ => ⟨S256x256, .bf16⟩
  | .local _ .vmem, ⟨27, _⟩ => ⟨S1x256, .f32⟩
  | .local _ .vmem, ⟨28, _⟩ => ⟨S1024x512, .f32⟩
  | .local _ .vmem, ⟨29, _⟩ => ⟨S1024x512, .f32⟩
  | .local _ .vmem, ⟨30, _⟩ => ⟨S1024x256, .bf16⟩
  | .local _ .vmem, ⟨31, _⟩ => ⟨S1024x256, .bf16⟩
  | .local _ .vmem, ⟨32, _⟩ => ⟨S256x768, .bf16⟩
  | .local _ .vmem, ⟨33, _⟩ => ⟨S1x768, .f32⟩
  | .local _ .vmem, ⟨34, _⟩ => ⟨S1024x512, .f32⟩
  | .local _ .vmem, ⟨35, _⟩ => ⟨S1024x512, .f32⟩
  | .local _ .vmem, ⟨36, _⟩ => ⟨S256x768, .bf16⟩
  | .local _ .vmem, ⟨37, _⟩ => ⟨S256x256, .bf16⟩
  | .local _ .vmem, ⟨38, _⟩ => ⟨S1x256, .f32⟩
  | .local _ .vmem, ⟨39, _⟩ => ⟨S1024x512, .f32⟩
  | .local _ .vmem, ⟨40, _⟩ => ⟨S1024x512, .f32⟩
  | .local _ .vmem, ⟨41, _⟩ => ⟨S1024x256, .bf16⟩
  | .local _ .vmem, ⟨42, _⟩ => ⟨S1024x256, .bf16⟩
  | .local _ .vmem, ⟨43, _⟩ => ⟨S256x768, .bf16⟩
  | .local _ .vmem, ⟨44, _⟩ => ⟨S1x768, .f32⟩
  | .local _ .vmem, ⟨45, _⟩ => ⟨S1024x512, .f32⟩
  | .local _ .vmem, ⟨46, _⟩ => ⟨S1024x512, .f32⟩
  | .local _ .vmem, ⟨47, _⟩ => ⟨S256x768, .bf16⟩
  | .local _ .vmem, ⟨48, _⟩ => ⟨S256x256, .bf16⟩
  | .local _ .vmem, ⟨49, _⟩ => ⟨S1x256, .f32⟩
  | .local _ .vmem, ⟨50, _⟩ => ⟨S1024x512, .f32⟩
  | .local _ .vmem, ⟨51, _⟩ => ⟨S1024x512, .f32⟩
  | .local _ .vmem, ⟨52, _⟩ => ⟨S1024x256, .bf16⟩
  | .local _ .vmem, ⟨53, _⟩ => ⟨S1024x256, .bf16⟩
  | .local _ .vmem, ⟨54, _⟩ => ⟨S256x768, .bf16⟩
  | .local _ .vmem, ⟨55, _⟩ => ⟨S1x768, .f32⟩
  | .local _ .vmem, ⟨56, _⟩ => ⟨S1024x512, .f32⟩
  | .local _ .vmem, ⟨57, _⟩ => ⟨S1024x512, .f32⟩
  | .local _ .vmem, ⟨58, _⟩ => ⟨S256x768, .bf16⟩
  | .local _ .vmem, ⟨59, _⟩ => ⟨S256x256, .bf16⟩
  | .local _ .vmem, ⟨60, _⟩ => ⟨S1x256, .f32⟩
  | .local _ .vmem, ⟨61, _⟩ => ⟨S1024x512, .f32⟩
  | .local _ .vmem, ⟨62, _⟩ => ⟨S1024x512, .f32⟩
  | .local _ .vmem, ⟨63, _⟩ => ⟨S1024x256, .bf16⟩
  | .local _ .vmem, ⟨64, _⟩ => ⟨S256x768, .bf16⟩
  | .local _ .vmem, ⟨65, _⟩ => ⟨S1x768, .f32⟩
  | .local _ .vmem, ⟨66, _⟩ => ⟨S1024x512, .f32⟩
  | .local _ .vmem, ⟨67, _⟩ => ⟨S256x768, .bf16⟩
  | .local _ .vmem, ⟨68, _⟩ => ⟨S256x256, .bf16⟩
  | .local _ .vmem, ⟨69, _⟩ => ⟨S1x256, .f32⟩
  | .local _ .vmem, ⟨70, _⟩ => ⟨S1024x512, .f32⟩
  | .local _ .vmem, ⟨71, _⟩ => ⟨S512x256, .bf16⟩
  | .local _ .vmem, ⟨72, _⟩ => ⟨S256x768, .bf16⟩
  | .local _ .vmem, ⟨73, _⟩ => ⟨S1x768, .f32⟩
  | .local _ .vmem, ⟨74, _⟩ => ⟨S512x512, .f32⟩
  | .local _ .vmem, ⟨75, _⟩ => ⟨S256x768, .bf16⟩
  | .local _ .vmem, ⟨76, _⟩ => ⟨S256x256, .bf16⟩
  | .local _ .vmem, ⟨77, _⟩ => ⟨S1x256, .f32⟩
  | .local _ .vmem, ⟨78, _⟩ => ⟨S512x512, .f32⟩
  | .local _ .vmem, ⟨79, _⟩ => ⟨S256x256, .bf16⟩
  | .local _ .vmem, ⟨80, _⟩ => ⟨S256x768, .bf16⟩
  | .local _ .vmem, ⟨81, _⟩ => ⟨S1x768, .f32⟩
  | .local _ .vmem, ⟨82, _⟩ => ⟨S256x512, .f32⟩
  | .local _ .vmem, ⟨83, _⟩ => ⟨S256x768, .bf16⟩
  | .local _ .vmem, ⟨84, _⟩ => ⟨S256x256, .bf16⟩
  | .local _ .vmem, ⟨85, _⟩ => ⟨S1x256, .f32⟩
  | .local _ .vmem, ⟨86, _⟩ => ⟨S256x512, .f32⟩
  | .local _ .vmem, ⟨87, _⟩ => ⟨S128x256, .bf16⟩
  | .local _ .vmem, ⟨88, _⟩ => ⟨S256x768, .bf16⟩
  | .local _ .vmem, ⟨89, _⟩ => ⟨S1x768, .f32⟩
  | .local _ .vmem, ⟨90, _⟩ => ⟨S128x512, .f32⟩
  | .local _ .vmem, ⟨91, _⟩ => ⟨S256x768, .bf16⟩
  | .local _ .vmem, ⟨92, _⟩ => ⟨S256x256, .bf16⟩
  | .local _ .vmem, ⟨93, _⟩ => ⟨S1x256, .f32⟩
  | .local _ .vmem, ⟨94, _⟩ => ⟨S128x512, .f32⟩
  | .local _ .vmem, ⟨95, _⟩ => ⟨S64x256, .bf16⟩
  | .local _ .vmem, ⟨96, _⟩ => ⟨S256x768, .bf16⟩
  | .local _ .vmem, ⟨97, _⟩ => ⟨S1x768, .f32⟩
  | .local _ .vmem, ⟨98, _⟩ => ⟨S64x512, .f32⟩
  | .local _ .vmem, ⟨99, _⟩ => ⟨S256x768, .bf16⟩
  | .local _ .vmem, ⟨100, _⟩ => ⟨S256x256, .bf16⟩
  | .local _ .vmem, ⟨101, _⟩ => ⟨S1x256, .f32⟩
  | .local _ .vmem, ⟨102, _⟩ => ⟨S64x512, .f32⟩
  | .local _ .vmem, ⟨103, _⟩ => ⟨S32x256, .bf16⟩
  | .local _ .vmem, ⟨104, _⟩ => ⟨S256x768, .bf16⟩
  | .local _ .vmem, ⟨105, _⟩ => ⟨S1x768, .f32⟩
  | .local _ .vmem, ⟨106, _⟩ => ⟨S32x512, .f32⟩
  | .local _ .vmem, ⟨107, _⟩ => ⟨S256x768, .bf16⟩
  | .local _ .vmem, ⟨108, _⟩ => ⟨S256x256, .bf16⟩
  | .local _ .vmem, ⟨109, _⟩ => ⟨S1x256, .f32⟩
  | .local _ .vmem, ⟨110, _⟩ => ⟨S32x512, .f32⟩
  | .local _ .vmem, ⟨111, _⟩ => ⟨S32x256, .f32⟩
  | .local _ .vmem, ⟨112, _⟩ => ⟨S256x104, .bf16⟩
  | .local _ .vmem, ⟨113, _⟩ => ⟨S1x104, .f32⟩
  | .local _ .vmem, ⟨114, _⟩ => ⟨S32x104, .f32⟩
  | _, _ => ⟨S131040, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | .vmem, ⟨108, _⟩ => true
  | .vmem, ⟨109, _⟩ => true
  | .vmem, ⟨110, _⟩ => true
  | .vmem, ⟨111, _⟩ => true
  | .vmem, ⟨112, _⟩ => true
  | .vmem, ⟨113, _⟩ => true
  | .vmem, ⟨114, _⟩ => true
  | _, _ => false

abbrev semScoped : Fin 0 → Bool
  | ⟨_, h⟩ => absurd h (Nat.not_lt_zero _)

abbrev dmaSemScoped : Fin 115 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | _ => false

abbrev sig : RefSig :=
  ofTc nBuf bufTy 0 115 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_c : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_c_0 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_v15 : Ref sig .tc := ⟨.hbm, 29, rfl⟩
abbrev main_call0_v16 : Ref sig .tc := ⟨.hbm, 30, rfl⟩
abbrev main_call0_v17 : Ref sig .tc := ⟨.hbm, 31, rfl⟩
abbrev main_call0_v18 : Ref sig .tc := ⟨.hbm, 32, rfl⟩
abbrev main_call0_v19 : Ref sig .tc := ⟨.hbm, 33, rfl⟩
abbrev main_call0_v20 : Ref sig .tc := ⟨.hbm, 34, rfl⟩
abbrev main_call0_v21 : Ref sig .tc := ⟨.hbm, 35, rfl⟩
abbrev main_call0_v22 : Ref sig .tc := ⟨.hbm, 36, rfl⟩
abbrev main_call0_v23 : Ref sig .tc := ⟨.hbm, 37, rfl⟩
abbrev main_call0_v24 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_call0_v29 : Ref sig .tc := ⟨.hbm, 43, rfl⟩
abbrev main_call0_c_2 : Ref sig .tc := ⟨.hbm, 44, rfl⟩
abbrev main_call0_call0_v0 : Ref sig .tc := ⟨.hbm, 45, rfl⟩
abbrev main_call0_call0_v1 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_v8 : Ref sig .tc := ⟨.hbm, 53, rfl⟩
abbrev main_call0_call0_c : Ref sig .tc := ⟨.hbm, 54, rfl⟩
abbrev main_call0_call0_v9 : Ref sig .tc := ⟨.hbm, 55, rfl⟩
abbrev main_call0_call0_v10 : Ref sig .tc := ⟨.hbm, 56, rfl⟩
abbrev main_call0_call0_v11 : Ref sig .tc := ⟨.hbm, 57, rfl⟩
abbrev main_call0_call0_c_0 : Ref sig .tc := ⟨.hbm, 58, rfl⟩
abbrev main_call0_call0_v12 : Ref sig .tc := ⟨.hbm, 59, rfl⟩
abbrev main_call0_call0_v13 : Ref sig .tc := ⟨.hbm, 60, rfl⟩
abbrev main_call0_v30 : Ref sig .tc := ⟨.hbm, 61, rfl⟩
abbrev main_call0_c_3 : Ref sig .tc := ⟨.hbm, 62, rfl⟩
abbrev main_call0_v31 : Ref sig .tc := ⟨.hbm, 63, rfl⟩
abbrev main_call0_v32 : Ref sig .tc := ⟨.hbm, 64, rfl⟩
abbrev main_call0_c_4 : Ref sig .tc := ⟨.hbm, 65, rfl⟩
abbrev main_call0_call1_v0 : Ref sig .tc := ⟨.hbm, 66, rfl⟩
abbrev main_call0_call1_c : Ref sig .tc := ⟨.hbm, 67, rfl⟩
abbrev main_call0_call1_v1 : Ref sig .tc := ⟨.hbm, 68, rfl⟩
abbrev main_call0_call1_c_0 : Ref sig .tc := ⟨.hbm, 69, rfl⟩
abbrev main_call0_call1_v2 : Ref sig .tc := ⟨.hbm, 70, rfl⟩
abbrev main_call0_call1_v3 : Ref sig .tc := ⟨.hbm, 71, rfl⟩
abbrev main_call0_call1_v4 : Ref sig .tc := ⟨.hbm, 72, rfl⟩
abbrev main_call0_call1_c_1 : Ref sig .tc := ⟨.hbm, 73, rfl⟩
abbrev main_call0_call1_v5 : Ref sig .tc := ⟨.hbm, 74, rfl⟩
abbrev main_call0_call1_v6 : Ref sig .tc := ⟨.hbm, 75, rfl⟩
abbrev main_call0_call1_c_2 : Ref sig .tc := ⟨.hbm, 76, rfl⟩
abbrev main_call0_call1_v7 : Ref sig .tc := ⟨.hbm, 77, rfl⟩
abbrev main_call0_call1_v8 : Ref sig .tc := ⟨.hbm, 78, rfl⟩
abbrev main_call0_call1_c_3 : Ref sig .tc := ⟨.hbm, 79, rfl⟩
abbrev main_call0_call1_v9 : Ref sig .tc := ⟨.hbm, 80, rfl⟩
abbrev main_call0_call1_v10 : Ref sig .tc := ⟨.hbm, 81, rfl⟩
abbrev main_call0_call1_v11 : Ref sig .tc := ⟨.hbm, 82, rfl⟩
abbrev main_call0_call1_v12 : Ref sig .tc := ⟨.hbm, 83, rfl⟩
abbrev main_call0_call1_v13 : Ref sig .tc := ⟨.hbm, 84, rfl⟩
abbrev main_call0_call1_v14 : Ref sig .tc := ⟨.hbm, 85, rfl⟩
abbrev main_call0_v33 : Ref sig .tc := ⟨.hbm, 86, rfl⟩
abbrev main_call0_c_5 : Ref sig .tc := ⟨.hbm, 87, rfl⟩
abbrev main_call0_v34 : Ref sig .tc := ⟨.hbm, 88, rfl⟩
abbrev main_call0_v35 : Ref sig .tc := ⟨.hbm, 89, rfl⟩
abbrev main_call0_v36 : Ref sig .tc := ⟨.hbm, 90, rfl⟩
abbrev main_call0_cst_6 : Ref sig .tc := ⟨.hbm, 91, rfl⟩
abbrev main_call0_v37 : Ref sig .tc := ⟨.hbm, 92, rfl⟩
abbrev main_call0_v38 : Ref sig .tc := ⟨.hbm, 93, rfl⟩
abbrev main_call0_v39 : Ref sig .tc := ⟨.hbm, 94, rfl⟩
abbrev main_call0_v40 : Ref sig .tc := ⟨.hbm, 95, rfl⟩
abbrev main_call0_v41 : Ref sig .tc := ⟨.hbm, 96, rfl⟩
abbrev main_call0_v42 : Ref sig .tc := ⟨.hbm, 97, rfl⟩
abbrev main_call0_v43 : Ref sig .tc := ⟨.hbm, 98, rfl⟩
abbrev main_call0_v44 : Ref sig .tc := ⟨.hbm, 99, rfl⟩
abbrev main_call0_c_7 : Ref sig .tc := ⟨.hbm, 100, rfl⟩
abbrev main_call0_call2_v0 : Ref sig .tc := ⟨.hbm, 101, rfl⟩
abbrev main_call0_call2_v1 : Ref sig .tc := ⟨.hbm, 102, rfl⟩
abbrev main_call0_call2_v2 : Ref sig .tc := ⟨.hbm, 103, rfl⟩
abbrev main_call0_call2_v3 : Ref sig .tc := ⟨.hbm, 104, rfl⟩
abbrev main_call0_call2_v4 : Ref sig .tc := ⟨.hbm, 105, rfl⟩
abbrev main_call0_call2_v5 : Ref sig .tc := ⟨.hbm, 106, rfl⟩
abbrev main_call0_call2_v6 : Ref sig .tc := ⟨.hbm, 107, rfl⟩
abbrev main_call0_call2_v7 : Ref sig .tc := ⟨.hbm, 108, rfl⟩
abbrev main_call0_call2_v8 : Ref sig .tc := ⟨.hbm, 109, rfl⟩
abbrev main_call0_call2_c : Ref sig .tc := ⟨.hbm, 110, rfl⟩
abbrev main_call0_call2_v9 : Ref sig .tc := ⟨.hbm, 111, rfl⟩
abbrev main_call0_call2_v10 : Ref sig .tc := ⟨.hbm, 112, rfl⟩
abbrev main_call0_call2_v11 : Ref sig .tc := ⟨.hbm, 113, rfl⟩
abbrev main_call0_call2_c_0 : Ref sig .tc := ⟨.hbm, 114, rfl⟩
abbrev main_call0_call2_v12 : Ref sig .tc := ⟨.hbm, 115, rfl⟩
abbrev main_call0_call2_v13 : Ref sig .tc := ⟨.hbm, 116, rfl⟩
abbrev main_call0_v45 : Ref sig .tc := ⟨.hbm, 117, rfl⟩
abbrev main_call0_c_8 : Ref sig .tc := ⟨.hbm, 118, rfl⟩
abbrev main_call0_v46 : Ref sig .tc := ⟨.hbm, 119, rfl⟩
abbrev main_call0_v47 : Ref sig .tc := ⟨.hbm, 120, rfl⟩
abbrev main_call0_c_9 : Ref sig .tc := ⟨.hbm, 121, rfl⟩
abbrev main_call0_call3_v0 : Ref sig .tc := ⟨.hbm, 122, rfl⟩
abbrev main_call0_call3_c : Ref sig .tc := ⟨.hbm, 123, rfl⟩
abbrev main_call0_call3_v1 : Ref sig .tc := ⟨.hbm, 124, rfl⟩
abbrev main_call0_call3_c_0 : Ref sig .tc := ⟨.hbm, 125, rfl⟩
abbrev main_call0_call3_v2 : Ref sig .tc := ⟨.hbm, 126, rfl⟩
abbrev main_call0_call3_v3 : Ref sig .tc := ⟨.hbm, 127, rfl⟩
abbrev main_call0_call3_v4 : Ref sig .tc := ⟨.hbm, 128, rfl⟩
abbrev main_call0_call3_c_1 : Ref sig .tc := ⟨.hbm, 129, rfl⟩
abbrev main_call0_call3_v5 : Ref sig .tc := ⟨.hbm, 130, rfl⟩
abbrev main_call0_call3_v6 : Ref sig .tc := ⟨.hbm, 131, rfl⟩
abbrev main_call0_call3_c_2 : Ref sig .tc := ⟨.hbm, 132, rfl⟩
abbrev main_call0_call3_v7 : Ref sig .tc := ⟨.hbm, 133, rfl⟩
abbrev main_call0_call3_v8 : Ref sig .tc := ⟨.hbm, 134, rfl⟩
abbrev main_call0_call3_c_3 : Ref sig .tc := ⟨.hbm, 135, rfl⟩
abbrev main_call0_call3_v9 : Ref sig .tc := ⟨.hbm, 136, rfl⟩
abbrev main_call0_call3_v10 : Ref sig .tc := ⟨.hbm, 137, rfl⟩
abbrev main_call0_call3_v11 : Ref sig .tc := ⟨.hbm, 138, rfl⟩
abbrev main_call0_call3_v12 : Ref sig .tc := ⟨.hbm, 139, rfl⟩
abbrev main_call0_call3_v13 : Ref sig .tc := ⟨.hbm, 140, rfl⟩
abbrev main_call0_call3_v14 : Ref sig .tc := ⟨.hbm, 141, rfl⟩
abbrev main_call0_v48 : Ref sig .tc := ⟨.hbm, 142, rfl⟩
abbrev main_call0_c_10 : Ref sig .tc := ⟨.hbm, 143, rfl⟩
abbrev main_call0_v49 : Ref sig .tc := ⟨.hbm, 144, rfl⟩
abbrev main_call0_v50 : Ref sig .tc := ⟨.hbm, 145, rfl⟩
abbrev main_call0_v51 : Ref sig .tc := ⟨.hbm, 146, rfl⟩
abbrev main_call0_cst_11 : Ref sig .tc := ⟨.hbm, 147, rfl⟩
abbrev main_call0_v52 : Ref sig .tc := ⟨.hbm, 148, rfl⟩
abbrev main_call0_v53 : Ref sig .tc := ⟨.hbm, 149, rfl⟩
abbrev main_call0_v54 : Ref sig .tc := ⟨.hbm, 150, rfl⟩
abbrev main_call0_v55 : Ref sig .tc := ⟨.hbm, 151, rfl⟩
abbrev main_call0_v56 : Ref sig .tc := ⟨.hbm, 152, rfl⟩
abbrev main_call0_v57 : Ref sig .tc := ⟨.hbm, 153, rfl⟩
abbrev main_call0_v58 : Ref sig .tc := ⟨.hbm, 154, rfl⟩
abbrev main_call0_v59 : Ref sig .tc := ⟨.hbm, 155, rfl⟩
abbrev main_call0_c_12 : Ref sig .tc := ⟨.hbm, 156, rfl⟩
abbrev main_call0_call4_v0 : Ref sig .tc := ⟨.hbm, 157, rfl⟩
abbrev main_call0_call4_v1 : Ref sig .tc := ⟨.hbm, 158, rfl⟩
abbrev main_call0_call4_v2 : Ref sig .tc := ⟨.hbm, 159, rfl⟩
abbrev main_call0_call4_v3 : Ref sig .tc := ⟨.hbm, 160, rfl⟩
abbrev main_call0_call4_v4 : Ref sig .tc := ⟨.hbm, 161, rfl⟩
abbrev main_call0_call4_v5 : Ref sig .tc := ⟨.hbm, 162, rfl⟩
abbrev main_call0_call4_v6 : Ref sig .tc := ⟨.hbm, 163, rfl⟩
abbrev main_call0_call4_v7 : Ref sig .tc := ⟨.hbm, 164, rfl⟩
abbrev main_call0_call4_v8 : Ref sig .tc := ⟨.hbm, 165, rfl⟩
abbrev main_call0_call4_c : Ref sig .tc := ⟨.hbm, 166, rfl⟩
abbrev main_call0_call4_v9 : Ref sig .tc := ⟨.hbm, 167, rfl⟩
abbrev main_call0_call4_v10 : Ref sig .tc := ⟨.hbm, 168, rfl⟩
abbrev main_call0_call4_v11 : Ref sig .tc := ⟨.hbm, 169, rfl⟩
abbrev main_call0_call4_c_0 : Ref sig .tc := ⟨.hbm, 170, rfl⟩
abbrev main_call0_call4_v12 : Ref sig .tc := ⟨.hbm, 171, rfl⟩
abbrev main_call0_call4_v13 : Ref sig .tc := ⟨.hbm, 172, rfl⟩
abbrev main_call0_v60 : Ref sig .tc := ⟨.hbm, 173, rfl⟩
abbrev main_call0_c_13 : Ref sig .tc := ⟨.hbm, 174, rfl⟩
abbrev main_call0_v61 : Ref sig .tc := ⟨.hbm, 175, rfl⟩
abbrev main_call0_v62 : Ref sig .tc := ⟨.hbm, 176, rfl⟩
abbrev main_call0_c_14 : Ref sig .tc := ⟨.hbm, 177, rfl⟩
abbrev main_call0_call5_v0 : Ref sig .tc := ⟨.hbm, 178, rfl⟩
abbrev main_call0_call5_c : Ref sig .tc := ⟨.hbm, 179, rfl⟩
abbrev main_call0_call5_v1 : Ref sig .tc := ⟨.hbm, 180, rfl⟩
abbrev main_call0_call5_c_0 : Ref sig .tc := ⟨.hbm, 181, rfl⟩
abbrev main_call0_call5_v2 : Ref sig .tc := ⟨.hbm, 182, rfl⟩
abbrev main_call0_call5_v3 : Ref sig .tc := ⟨.hbm, 183, rfl⟩
abbrev main_call0_call5_v4 : Ref sig .tc := ⟨.hbm, 184, rfl⟩
abbrev main_call0_call5_c_1 : Ref sig .tc := ⟨.hbm, 185, rfl⟩
abbrev main_call0_call5_v5 : Ref sig .tc := ⟨.hbm, 186, rfl⟩
abbrev main_call0_call5_v6 : Ref sig .tc := ⟨.hbm, 187, rfl⟩
abbrev main_call0_call5_c_2 : Ref sig .tc := ⟨.hbm, 188, rfl⟩
abbrev main_call0_call5_v7 : Ref sig .tc := ⟨.hbm, 189, rfl⟩
abbrev main_call0_call5_v8 : Ref sig .tc := ⟨.hbm, 190, rfl⟩
abbrev main_call0_call5_c_3 : Ref sig .tc := ⟨.hbm, 191, rfl⟩
abbrev main_call0_call5_v9 : Ref sig .tc := ⟨.hbm, 192, rfl⟩
abbrev main_call0_call5_v10 : Ref sig .tc := ⟨.hbm, 193, rfl⟩
abbrev main_call0_call5_v11 : Ref sig .tc := ⟨.hbm, 194, rfl⟩
abbrev main_call0_call5_v12 : Ref sig .tc := ⟨.hbm, 195, rfl⟩
abbrev main_call0_call5_v13 : Ref sig .tc := ⟨.hbm, 196, rfl⟩
abbrev main_call0_call5_v14 : Ref sig .tc := ⟨.hbm, 197, rfl⟩
abbrev main_call0_v63 : Ref sig .tc := ⟨.hbm, 198, rfl⟩
abbrev main_call0_c_15 : Ref sig .tc := ⟨.hbm, 199, rfl⟩
abbrev main_call0_v64 : Ref sig .tc := ⟨.hbm, 200, rfl⟩
abbrev main_call0_v65 : Ref sig .tc := ⟨.hbm, 201, rfl⟩
abbrev main_call0_v66 : Ref sig .tc := ⟨.hbm, 202, rfl⟩
abbrev main_call0_cst_16 : Ref sig .tc := ⟨.hbm, 203, rfl⟩
abbrev main_call0_v67 : Ref sig .tc := ⟨.hbm, 204, rfl⟩
abbrev main_call0_v68 : Ref sig .tc := ⟨.hbm, 205, rfl⟩
abbrev main_call0_v69 : Ref sig .tc := ⟨.hbm, 206, rfl⟩
abbrev main_call0_v70 : Ref sig .tc := ⟨.hbm, 207, rfl⟩
abbrev main_call0_v71 : Ref sig .tc := ⟨.hbm, 208, rfl⟩
abbrev main_call0_v72 : Ref sig .tc := ⟨.hbm, 209, rfl⟩
abbrev main_call0_v73 : Ref sig .tc := ⟨.hbm, 210, rfl⟩
abbrev main_call0_v74 : Ref sig .tc := ⟨.hbm, 211, rfl⟩
abbrev main_call0_c_17 : Ref sig .tc := ⟨.hbm, 212, rfl⟩
abbrev main_call0_call6_v0 : Ref sig .tc := ⟨.hbm, 213, rfl⟩
abbrev main_call0_call6_v1 : Ref sig .tc := ⟨.hbm, 214, rfl⟩
abbrev main_call0_call6_v2 : Ref sig .tc := ⟨.hbm, 215, rfl⟩
abbrev main_call0_call6_v3 : Ref sig .tc := ⟨.hbm, 216, rfl⟩
abbrev main_call0_call6_v4 : Ref sig .tc := ⟨.hbm, 217, rfl⟩
abbrev main_call0_call6_v5 : Ref sig .tc := ⟨.hbm, 218, rfl⟩
abbrev main_call0_call6_v6 : Ref sig .tc := ⟨.hbm, 219, rfl⟩
abbrev main_call0_call6_v7 : Ref sig .tc := ⟨.hbm, 220, rfl⟩
abbrev main_call0_call6_v8 : Ref sig .tc := ⟨.hbm, 221, rfl⟩
abbrev main_call0_call6_c : Ref sig .tc := ⟨.hbm, 222, rfl⟩
abbrev main_call0_call6_v9 : Ref sig .tc := ⟨.hbm, 223, rfl⟩
abbrev main_call0_call6_v10 : Ref sig .tc := ⟨.hbm, 224, rfl⟩
abbrev main_call0_call6_v11 : Ref sig .tc := ⟨.hbm, 225, rfl⟩
abbrev main_call0_call6_c_0 : Ref sig .tc := ⟨.hbm, 226, rfl⟩
abbrev main_call0_call6_v12 : Ref sig .tc := ⟨.hbm, 227, rfl⟩
abbrev main_call0_call6_v13 : Ref sig .tc := ⟨.hbm, 228, rfl⟩
abbrev main_call0_v75 : Ref sig .tc := ⟨.hbm, 229, rfl⟩
abbrev main_call0_c_18 : Ref sig .tc := ⟨.hbm, 230, rfl⟩
abbrev main_call0_v76 : Ref sig .tc := ⟨.hbm, 231, rfl⟩
abbrev main_call0_v77 : Ref sig .tc := ⟨.hbm, 232, rfl⟩
abbrev main_call0_c_19 : Ref sig .tc := ⟨.hbm, 233, rfl⟩
abbrev main_call0_call7_v0 : Ref sig .tc := ⟨.hbm, 234, rfl⟩
abbrev main_call0_call7_c : Ref sig .tc := ⟨.hbm, 235, rfl⟩
abbrev main_call0_call7_v1 : Ref sig .tc := ⟨.hbm, 236, rfl⟩
abbrev main_call0_call7_c_0 : Ref sig .tc := ⟨.hbm, 237, rfl⟩
abbrev main_call0_call7_v2 : Ref sig .tc := ⟨.hbm, 238, rfl⟩
abbrev main_call0_call7_v3 : Ref sig .tc := ⟨.hbm, 239, rfl⟩
abbrev main_call0_call7_v4 : Ref sig .tc := ⟨.hbm, 240, rfl⟩
abbrev main_call0_call7_c_1 : Ref sig .tc := ⟨.hbm, 241, rfl⟩
abbrev main_call0_call7_v5 : Ref sig .tc := ⟨.hbm, 242, rfl⟩
abbrev main_call0_call7_v6 : Ref sig .tc := ⟨.hbm, 243, rfl⟩
abbrev main_call0_call7_c_2 : Ref sig .tc := ⟨.hbm, 244, rfl⟩
abbrev main_call0_call7_v7 : Ref sig .tc := ⟨.hbm, 245, rfl⟩
abbrev main_call0_call7_v8 : Ref sig .tc := ⟨.hbm, 246, rfl⟩
abbrev main_call0_call7_c_3 : Ref sig .tc := ⟨.hbm, 247, rfl⟩
abbrev main_call0_call7_v9 : Ref sig .tc := ⟨.hbm, 248, rfl⟩
abbrev main_call0_call7_v10 : Ref sig .tc := ⟨.hbm, 249, rfl⟩
abbrev main_call0_call7_v11 : Ref sig .tc := ⟨.hbm, 250, rfl⟩
abbrev main_call0_call7_v12 : Ref sig .tc := ⟨.hbm, 251, rfl⟩
abbrev main_call0_call7_v13 : Ref sig .tc := ⟨.hbm, 252, rfl⟩
abbrev main_call0_call7_v14 : Ref sig .tc := ⟨.hbm, 253, rfl⟩
abbrev main_call0_v78 : Ref sig .tc := ⟨.hbm, 254, rfl⟩
abbrev main_call0_c_20 : Ref sig .tc := ⟨.hbm, 255, rfl⟩
abbrev main_call0_v79 : Ref sig .tc := ⟨.hbm, 256, rfl⟩
abbrev main_call0_v80 : Ref sig .tc := ⟨.hbm, 257, rfl⟩
abbrev main_call0_v81 : Ref sig .tc := ⟨.hbm, 258, rfl⟩
abbrev main_call0_cst_21 : Ref sig .tc := ⟨.hbm, 259, rfl⟩
abbrev main_call0_v82 : Ref sig .tc := ⟨.hbm, 260, rfl⟩
abbrev main_call0_v83 : Ref sig .tc := ⟨.hbm, 261, rfl⟩
abbrev main_call0_v84 : Ref sig .tc := ⟨.hbm, 262, rfl⟩
abbrev main_call0_v85 : Ref sig .tc := ⟨.hbm, 263, rfl⟩
abbrev main_call0_v86 : Ref sig .tc := ⟨.hbm, 264, rfl⟩
abbrev main_call0_v87 : Ref sig .tc := ⟨.hbm, 265, rfl⟩
abbrev main_call0_v88 : Ref sig .tc := ⟨.hbm, 266, rfl⟩
abbrev main_call0_v89 : Ref sig .tc := ⟨.hbm, 267, rfl⟩
abbrev main_call0_c_22 : Ref sig .tc := ⟨.hbm, 268, rfl⟩
abbrev main_call0_call8_v0 : Ref sig .tc := ⟨.hbm, 269, rfl⟩
abbrev main_call0_call8_v1 : Ref sig .tc := ⟨.hbm, 270, rfl⟩
abbrev main_call0_call8_v2 : Ref sig .tc := ⟨.hbm, 271, rfl⟩
abbrev main_call0_call8_v3 : Ref sig .tc := ⟨.hbm, 272, rfl⟩
abbrev main_call0_call8_v4 : Ref sig .tc := ⟨.hbm, 273, rfl⟩
abbrev main_call0_call8_v5 : Ref sig .tc := ⟨.hbm, 274, rfl⟩
abbrev main_call0_call8_v6 : Ref sig .tc := ⟨.hbm, 275, rfl⟩
abbrev main_call0_call8_v7 : Ref sig .tc := ⟨.hbm, 276, rfl⟩
abbrev main_call0_call8_v8 : Ref sig .tc := ⟨.hbm, 277, rfl⟩
abbrev main_call0_call8_c : Ref sig .tc := ⟨.hbm, 278, rfl⟩
abbrev main_call0_call8_v9 : Ref sig .tc := ⟨.hbm, 279, rfl⟩
abbrev main_call0_call8_v10 : Ref sig .tc := ⟨.hbm, 280, rfl⟩
abbrev main_call0_call8_v11 : Ref sig .tc := ⟨.hbm, 281, rfl⟩
abbrev main_call0_call8_c_0 : Ref sig .tc := ⟨.hbm, 282, rfl⟩
abbrev main_call0_call8_v12 : Ref sig .tc := ⟨.hbm, 283, rfl⟩
abbrev main_call0_call8_v13 : Ref sig .tc := ⟨.hbm, 284, rfl⟩
abbrev main_call0_v90 : Ref sig .tc := ⟨.hbm, 285, rfl⟩
abbrev main_call0_c_23 : Ref sig .tc := ⟨.hbm, 286, rfl⟩
abbrev main_call0_v91 : Ref sig .tc := ⟨.hbm, 287, rfl⟩
abbrev main_call0_v92 : Ref sig .tc := ⟨.hbm, 288, rfl⟩
abbrev main_call0_c_24 : Ref sig .tc := ⟨.hbm, 289, rfl⟩
abbrev main_call0_call9_v0 : Ref sig .tc := ⟨.hbm, 290, rfl⟩
abbrev main_call0_call9_c : Ref sig .tc := ⟨.hbm, 291, rfl⟩
abbrev main_call0_call9_v1 : Ref sig .tc := ⟨.hbm, 292, rfl⟩
abbrev main_call0_call9_c_0 : Ref sig .tc := ⟨.hbm, 293, rfl⟩
abbrev main_call0_call9_v2 : Ref sig .tc := ⟨.hbm, 294, rfl⟩
abbrev main_call0_call9_v3 : Ref sig .tc := ⟨.hbm, 295, rfl⟩
abbrev main_call0_call9_v4 : Ref sig .tc := ⟨.hbm, 296, rfl⟩
abbrev main_call0_call9_c_1 : Ref sig .tc := ⟨.hbm, 297, rfl⟩
abbrev main_call0_call9_v5 : Ref sig .tc := ⟨.hbm, 298, rfl⟩
abbrev main_call0_call9_v6 : Ref sig .tc := ⟨.hbm, 299, rfl⟩
abbrev main_call0_call9_c_2 : Ref sig .tc := ⟨.hbm, 300, rfl⟩
abbrev main_call0_call9_v7 : Ref sig .tc := ⟨.hbm, 301, rfl⟩
abbrev main_call0_call9_v8 : Ref sig .tc := ⟨.hbm, 302, rfl⟩
abbrev main_call0_call9_c_3 : Ref sig .tc := ⟨.hbm, 303, rfl⟩
abbrev main_call0_call9_v9 : Ref sig .tc := ⟨.hbm, 304, rfl⟩
abbrev main_call0_call9_v10 : Ref sig .tc := ⟨.hbm, 305, rfl⟩
abbrev main_call0_call9_v11 : Ref sig .tc := ⟨.hbm, 306, rfl⟩
abbrev main_call0_call9_v12 : Ref sig .tc := ⟨.hbm, 307, rfl⟩
abbrev main_call0_call9_v13 : Ref sig .tc := ⟨.hbm, 308, rfl⟩
abbrev main_call0_call9_v14 : Ref sig .tc := ⟨.hbm, 309, rfl⟩
abbrev main_call0_v93 : Ref sig .tc := ⟨.hbm, 310, rfl⟩
abbrev main_call0_c_25 : Ref sig .tc := ⟨.hbm, 311, rfl⟩
abbrev main_call0_v94 : Ref sig .tc := ⟨.hbm, 312, rfl⟩
abbrev main_call0_v95 : Ref sig .tc := ⟨.hbm, 313, rfl⟩
abbrev main_call0_v96 : Ref sig .tc := ⟨.hbm, 314, rfl⟩
abbrev main_call0_cst_26 : Ref sig .tc := ⟨.hbm, 315, rfl⟩
abbrev main_call0_v97 : Ref sig .tc := ⟨.hbm, 316, rfl⟩
abbrev main_call0_v98 : Ref sig .tc := ⟨.hbm, 317, rfl⟩
abbrev main_call0_v99 : Ref sig .tc := ⟨.hbm, 318, rfl⟩
abbrev main_call0_v100 : Ref sig .tc := ⟨.hbm, 319, rfl⟩
abbrev main_call0_v101 : Ref sig .tc := ⟨.hbm, 320, rfl⟩
abbrev main_call0_v102 : Ref sig .tc := ⟨.hbm, 321, rfl⟩
abbrev main_call0_v103 : Ref sig .tc := ⟨.hbm, 322, rfl⟩
abbrev main_call0_v104 : Ref sig .tc := ⟨.hbm, 323, rfl⟩
abbrev main_call0_c_27 : Ref sig .tc := ⟨.hbm, 324, rfl⟩
abbrev main_call0_call10_v0 : Ref sig .tc := ⟨.hbm, 325, rfl⟩
abbrev main_call0_call10_v1 : Ref sig .tc := ⟨.hbm, 326, rfl⟩
abbrev main_call0_call10_v2 : Ref sig .tc := ⟨.hbm, 327, rfl⟩
abbrev main_call0_call10_v3 : Ref sig .tc := ⟨.hbm, 328, rfl⟩
abbrev main_call0_call10_v4 : Ref sig .tc := ⟨.hbm, 329, rfl⟩
abbrev main_call0_call10_v5 : Ref sig .tc := ⟨.hbm, 330, rfl⟩
abbrev main_call0_call10_v6 : Ref sig .tc := ⟨.hbm, 331, rfl⟩
abbrev main_call0_call10_v7 : Ref sig .tc := ⟨.hbm, 332, rfl⟩
abbrev main_call0_call10_v8 : Ref sig .tc := ⟨.hbm, 333, rfl⟩
abbrev main_call0_call10_c : Ref sig .tc := ⟨.hbm, 334, rfl⟩
abbrev main_call0_call10_v9 : Ref sig .tc := ⟨.hbm, 335, rfl⟩
abbrev main_call0_call10_v10 : Ref sig .tc := ⟨.hbm, 336, rfl⟩
abbrev main_call0_call10_v11 : Ref sig .tc := ⟨.hbm, 337, rfl⟩
abbrev main_call0_call10_c_0 : Ref sig .tc := ⟨.hbm, 338, rfl⟩
abbrev main_call0_call10_v12 : Ref sig .tc := ⟨.hbm, 339, rfl⟩
abbrev main_call0_call10_v13 : Ref sig .tc := ⟨.hbm, 340, rfl⟩
abbrev main_call0_v105 : Ref sig .tc := ⟨.hbm, 341, rfl⟩
abbrev main_call0_c_28 : Ref sig .tc := ⟨.hbm, 342, rfl⟩
abbrev main_call0_v106 : Ref sig .tc := ⟨.hbm, 343, rfl⟩
abbrev main_call0_v107 : Ref sig .tc := ⟨.hbm, 344, rfl⟩
abbrev main_call0_c_29 : Ref sig .tc := ⟨.hbm, 345, rfl⟩
abbrev main_call0_call11_v0 : Ref sig .tc := ⟨.hbm, 346, rfl⟩
abbrev main_call0_call11_c : Ref sig .tc := ⟨.hbm, 347, rfl⟩
abbrev main_call0_call11_v1 : Ref sig .tc := ⟨.hbm, 348, rfl⟩
abbrev main_call0_call11_c_0 : Ref sig .tc := ⟨.hbm, 349, rfl⟩
abbrev main_call0_call11_v2 : Ref sig .tc := ⟨.hbm, 350, rfl⟩
abbrev main_call0_call11_v3 : Ref sig .tc := ⟨.hbm, 351, rfl⟩
abbrev main_call0_call11_v4 : Ref sig .tc := ⟨.hbm, 352, rfl⟩
abbrev main_call0_call11_c_1 : Ref sig .tc := ⟨.hbm, 353, rfl⟩
abbrev main_call0_call11_v5 : Ref sig .tc := ⟨.hbm, 354, rfl⟩
abbrev main_call0_call11_v6 : Ref sig .tc := ⟨.hbm, 355, rfl⟩
abbrev main_call0_call11_c_2 : Ref sig .tc := ⟨.hbm, 356, rfl⟩
abbrev main_call0_call11_v7 : Ref sig .tc := ⟨.hbm, 357, rfl⟩
abbrev main_call0_call11_v8 : Ref sig .tc := ⟨.hbm, 358, rfl⟩
abbrev main_call0_call11_c_3 : Ref sig .tc := ⟨.hbm, 359, rfl⟩
abbrev main_call0_call11_v9 : Ref sig .tc := ⟨.hbm, 360, rfl⟩
abbrev main_call0_call11_v10 : Ref sig .tc := ⟨.hbm, 361, rfl⟩
abbrev main_call0_call11_v11 : Ref sig .tc := ⟨.hbm, 362, rfl⟩
abbrev main_call0_call11_v12 : Ref sig .tc := ⟨.hbm, 363, rfl⟩
abbrev main_call0_call11_v13 : Ref sig .tc := ⟨.hbm, 364, rfl⟩
abbrev main_call0_call11_v14 : Ref sig .tc := ⟨.hbm, 365, rfl⟩
abbrev main_call0_v108 : Ref sig .tc := ⟨.hbm, 366, rfl⟩
abbrev main_call0_c_30 : Ref sig .tc := ⟨.hbm, 367, rfl⟩
abbrev main_call0_v109 : Ref sig .tc := ⟨.hbm, 368, rfl⟩
abbrev main_call0_v110 : Ref sig .tc := ⟨.hbm, 369, rfl⟩
abbrev main_call0_v111 : Ref sig .tc := ⟨.hbm, 370, rfl⟩
abbrev main_call0_cst_31 : Ref sig .tc := ⟨.hbm, 371, rfl⟩
abbrev main_call0_v112 : Ref sig .tc := ⟨.hbm, 372, rfl⟩
abbrev main_call0_v113 : Ref sig .tc := ⟨.hbm, 373, rfl⟩
abbrev main_call0_v114 : Ref sig .tc := ⟨.hbm, 374, rfl⟩
abbrev main_call0_v115 : Ref sig .tc := ⟨.hbm, 375, rfl⟩
abbrev main_call0_v116 : Ref sig .tc := ⟨.hbm, 376, rfl⟩
abbrev main_call0_v117 : Ref sig .tc := ⟨.hbm, 377, rfl⟩
abbrev main_call0_v118 : Ref sig .tc := ⟨.hbm, 378, rfl⟩
abbrev main_call0_v119 : Ref sig .tc := ⟨.hbm, 379, rfl⟩
abbrev main_call0_c_32 : Ref sig .tc := ⟨.hbm, 380, rfl⟩
abbrev main_call0_call12_v0 : Ref sig .tc := ⟨.hbm, 381, rfl⟩
abbrev main_call0_call12_v1 : Ref sig .tc := ⟨.hbm, 382, rfl⟩
abbrev main_call0_call12_v2 : Ref sig .tc := ⟨.hbm, 383, rfl⟩
abbrev main_call0_call12_v3 : Ref sig .tc := ⟨.hbm, 384, rfl⟩
abbrev main_call0_call12_v4 : Ref sig .tc := ⟨.hbm, 385, rfl⟩
abbrev main_call0_call12_v5 : Ref sig .tc := ⟨.hbm, 386, rfl⟩
abbrev main_call0_call12_v6 : Ref sig .tc := ⟨.hbm, 387, rfl⟩
abbrev main_call0_call12_v7 : Ref sig .tc := ⟨.hbm, 388, rfl⟩
abbrev main_call0_call12_v8 : Ref sig .tc := ⟨.hbm, 389, rfl⟩
abbrev main_call0_call12_c : Ref sig .tc := ⟨.hbm, 390, rfl⟩
abbrev main_call0_call12_v9 : Ref sig .tc := ⟨.hbm, 391, rfl⟩
abbrev main_call0_call12_v10 : Ref sig .tc := ⟨.hbm, 392, rfl⟩
abbrev main_call0_call12_v11 : Ref sig .tc := ⟨.hbm, 393, rfl⟩
abbrev main_call0_call12_c_0 : Ref sig .tc := ⟨.hbm, 394, rfl⟩
abbrev main_call0_call12_v12 : Ref sig .tc := ⟨.hbm, 395, rfl⟩
abbrev main_call0_call12_v13 : Ref sig .tc := ⟨.hbm, 396, rfl⟩
abbrev main_call0_v120 : Ref sig .tc := ⟨.hbm, 397, rfl⟩
abbrev main_call0_c_33 : Ref sig .tc := ⟨.hbm, 398, rfl⟩
abbrev main_call0_v121 : Ref sig .tc := ⟨.hbm, 399, rfl⟩
abbrev main_call0_v122 : Ref sig .tc := ⟨.hbm, 400, rfl⟩
abbrev main_call0_c_34 : Ref sig .tc := ⟨.hbm, 401, rfl⟩
abbrev main_call0_call13_v0 : Ref sig .tc := ⟨.hbm, 402, rfl⟩
abbrev main_call0_call13_c : Ref sig .tc := ⟨.hbm, 403, rfl⟩
abbrev main_call0_call13_v1 : Ref sig .tc := ⟨.hbm, 404, rfl⟩
abbrev main_call0_call13_c_0 : Ref sig .tc := ⟨.hbm, 405, rfl⟩
abbrev main_call0_call13_v2 : Ref sig .tc := ⟨.hbm, 406, rfl⟩
abbrev main_call0_call13_v3 : Ref sig .tc := ⟨.hbm, 407, rfl⟩
abbrev main_call0_call13_v4 : Ref sig .tc := ⟨.hbm, 408, rfl⟩
abbrev main_call0_call13_c_1 : Ref sig .tc := ⟨.hbm, 409, rfl⟩
abbrev main_call0_call13_v5 : Ref sig .tc := ⟨.hbm, 410, rfl⟩
abbrev main_call0_call13_v6 : Ref sig .tc := ⟨.hbm, 411, rfl⟩
abbrev main_call0_call13_c_2 : Ref sig .tc := ⟨.hbm, 412, rfl⟩
abbrev main_call0_call13_v7 : Ref sig .tc := ⟨.hbm, 413, rfl⟩
abbrev main_call0_call13_v8 : Ref sig .tc := ⟨.hbm, 414, rfl⟩
abbrev main_call0_call13_c_3 : Ref sig .tc := ⟨.hbm, 415, rfl⟩
abbrev main_call0_call13_v9 : Ref sig .tc := ⟨.hbm, 416, rfl⟩
abbrev main_call0_call13_v10 : Ref sig .tc := ⟨.hbm, 417, rfl⟩
abbrev main_call0_call13_v11 : Ref sig .tc := ⟨.hbm, 418, rfl⟩
abbrev main_call0_call13_v12 : Ref sig .tc := ⟨.hbm, 419, rfl⟩
abbrev main_call0_call13_v13 : Ref sig .tc := ⟨.hbm, 420, rfl⟩
abbrev main_call0_call13_v14 : Ref sig .tc := ⟨.hbm, 421, rfl⟩
abbrev main_call0_v123 : Ref sig .tc := ⟨.hbm, 422, rfl⟩
abbrev main_call0_c_35 : Ref sig .tc := ⟨.hbm, 423, rfl⟩
abbrev main_call0_v124 : Ref sig .tc := ⟨.hbm, 424, rfl⟩
abbrev main_call0_v125 : Ref sig .tc := ⟨.hbm, 425, rfl⟩
abbrev main_call0_v126 : Ref sig .tc := ⟨.hbm, 426, rfl⟩
abbrev main_call0_cst_36 : Ref sig .tc := ⟨.hbm, 427, rfl⟩
abbrev main_call0_v127 : Ref sig .tc := ⟨.hbm, 428, rfl⟩
abbrev main_call0_v128 : Ref sig .tc := ⟨.hbm, 429, rfl⟩
abbrev main_call0_v129 : Ref sig .tc := ⟨.hbm, 430, rfl⟩
abbrev main_call0_v130 : Ref sig .tc := ⟨.hbm, 431, rfl⟩
abbrev main_call0_v131 : Ref sig .tc := ⟨.hbm, 432, rfl⟩
abbrev main_call0_v132 : Ref sig .tc := ⟨.hbm, 433, rfl⟩
abbrev main_call0_v133 : Ref sig .tc := ⟨.hbm, 434, rfl⟩
abbrev main_call0_v134 : Ref sig .tc := ⟨.hbm, 435, rfl⟩
abbrev main_call0_c_37 : Ref sig .tc := ⟨.hbm, 436, rfl⟩
abbrev main_call0_call14_v0 : Ref sig .tc := ⟨.hbm, 437, rfl⟩
abbrev main_call0_call14_v1 : Ref sig .tc := ⟨.hbm, 438, rfl⟩
abbrev main_call0_call14_v2 : Ref sig .tc := ⟨.hbm, 439, rfl⟩
abbrev main_call0_call14_v3 : Ref sig .tc := ⟨.hbm, 440, rfl⟩
abbrev main_call0_call14_v4 : Ref sig .tc := ⟨.hbm, 441, rfl⟩
abbrev main_call0_call14_v5 : Ref sig .tc := ⟨.hbm, 442, rfl⟩
abbrev main_call0_call14_v6 : Ref sig .tc := ⟨.hbm, 443, rfl⟩
abbrev main_call0_call14_v7 : Ref sig .tc := ⟨.hbm, 444, rfl⟩
abbrev main_call0_call14_v8 : Ref sig .tc := ⟨.hbm, 445, rfl⟩
abbrev main_call0_call14_c : Ref sig .tc := ⟨.hbm, 446, rfl⟩
abbrev main_call0_call14_v9 : Ref sig .tc := ⟨.hbm, 447, rfl⟩
abbrev main_call0_call14_v10 : Ref sig .tc := ⟨.hbm, 448, rfl⟩
abbrev main_call0_call14_v11 : Ref sig .tc := ⟨.hbm, 449, rfl⟩
abbrev main_call0_call14_c_0 : Ref sig .tc := ⟨.hbm, 450, rfl⟩
abbrev main_call0_call14_v12 : Ref sig .tc := ⟨.hbm, 451, rfl⟩
abbrev main_call0_call14_v13 : Ref sig .tc := ⟨.hbm, 452, rfl⟩
abbrev main_call0_v135 : Ref sig .tc := ⟨.hbm, 453, rfl⟩
abbrev main_call0_c_38 : Ref sig .tc := ⟨.hbm, 454, rfl⟩
abbrev main_call0_v136 : Ref sig .tc := ⟨.hbm, 455, rfl⟩
abbrev main_call0_v137 : Ref sig .tc := ⟨.hbm, 456, rfl⟩
abbrev main_call0_c_39 : Ref sig .tc := ⟨.hbm, 457, rfl⟩
abbrev main_call0_call15_v0 : Ref sig .tc := ⟨.hbm, 458, rfl⟩
abbrev main_call0_call15_c : Ref sig .tc := ⟨.hbm, 459, rfl⟩
abbrev main_call0_call15_v1 : Ref sig .tc := ⟨.hbm, 460, rfl⟩
abbrev main_call0_call15_c_0 : Ref sig .tc := ⟨.hbm, 461, rfl⟩
abbrev main_call0_call15_v2 : Ref sig .tc := ⟨.hbm, 462, rfl⟩
abbrev main_call0_call15_v3 : Ref sig .tc := ⟨.hbm, 463, rfl⟩
abbrev main_call0_call15_v4 : Ref sig .tc := ⟨.hbm, 464, rfl⟩
abbrev main_call0_call15_c_1 : Ref sig .tc := ⟨.hbm, 465, rfl⟩
abbrev main_call0_call15_v5 : Ref sig .tc := ⟨.hbm, 466, rfl⟩
abbrev main_call0_call15_v6 : Ref sig .tc := ⟨.hbm, 467, rfl⟩
abbrev main_call0_call15_c_2 : Ref sig .tc := ⟨.hbm, 468, rfl⟩
abbrev main_call0_call15_v7 : Ref sig .tc := ⟨.hbm, 469, rfl⟩
abbrev main_call0_call15_v8 : Ref sig .tc := ⟨.hbm, 470, rfl⟩
abbrev main_call0_call15_c_3 : Ref sig .tc := ⟨.hbm, 471, rfl⟩
abbrev main_call0_call15_v9 : Ref sig .tc := ⟨.hbm, 472, rfl⟩
abbrev main_call0_call15_v10 : Ref sig .tc := ⟨.hbm, 473, rfl⟩
abbrev main_call0_call15_v11 : Ref sig .tc := ⟨.hbm, 474, rfl⟩
abbrev main_call0_call15_v12 : Ref sig .tc := ⟨.hbm, 475, rfl⟩
abbrev main_call0_call15_v13 : Ref sig .tc := ⟨.hbm, 476, rfl⟩
abbrev main_call0_call15_v14 : Ref sig .tc := ⟨.hbm, 477, rfl⟩
abbrev main_call0_v138 : Ref sig .tc := ⟨.hbm, 478, rfl⟩
abbrev main_call0_c_40 : Ref sig .tc := ⟨.hbm, 479, rfl⟩
abbrev main_call0_v139 : Ref sig .tc := ⟨.hbm, 480, rfl⟩
abbrev main_call0_v140 : Ref sig .tc := ⟨.hbm, 481, rfl⟩
abbrev main_call0_v141 : Ref sig .tc := ⟨.hbm, 482, rfl⟩
abbrev main_call0_cst_41 : Ref sig .tc := ⟨.hbm, 483, rfl⟩
abbrev main_call0_v142 : Ref sig .tc := ⟨.hbm, 484, rfl⟩
abbrev main_call0_v143 : Ref sig .tc := ⟨.hbm, 485, rfl⟩
abbrev main_call0_v144 : Ref sig .tc := ⟨.hbm, 486, rfl⟩
abbrev main_call0_v145 : Ref sig .tc := ⟨.hbm, 487, rfl⟩
abbrev main_call0_v146 : Ref sig .tc := ⟨.hbm, 488, rfl⟩
abbrev main_call0_v147 : Ref sig .tc := ⟨.hbm, 489, rfl⟩
abbrev main_call0_v148 : Ref sig .tc := ⟨.hbm, 490, rfl⟩
abbrev main_call0_v149 : Ref sig .tc := ⟨.hbm, 491, rfl⟩
abbrev main_call0_c_42 : Ref sig .tc := ⟨.hbm, 492, rfl⟩
abbrev main_call0_call16_v0 : Ref sig .tc := ⟨.hbm, 493, rfl⟩
abbrev main_call0_call16_v1 : Ref sig .tc := ⟨.hbm, 494, rfl⟩
abbrev main_call0_call16_v2 : Ref sig .tc := ⟨.hbm, 495, rfl⟩
abbrev main_call0_call16_v3 : Ref sig .tc := ⟨.hbm, 496, rfl⟩
abbrev main_call0_call16_v4 : Ref sig .tc := ⟨.hbm, 497, rfl⟩
abbrev main_call0_call16_v5 : Ref sig .tc := ⟨.hbm, 498, rfl⟩
abbrev main_call0_call16_v6 : Ref sig .tc := ⟨.hbm, 499, rfl⟩
abbrev main_call0_call16_v7 : Ref sig .tc := ⟨.hbm, 500, rfl⟩
abbrev main_call0_call16_v8 : Ref sig .tc := ⟨.hbm, 501, rfl⟩
abbrev main_call0_call16_c : Ref sig .tc := ⟨.hbm, 502, rfl⟩
abbrev main_call0_call16_v9 : Ref sig .tc := ⟨.hbm, 503, rfl⟩
abbrev main_call0_call16_v10 : Ref sig .tc := ⟨.hbm, 504, rfl⟩
abbrev main_call0_call16_v11 : Ref sig .tc := ⟨.hbm, 505, rfl⟩
abbrev main_call0_call16_c_0 : Ref sig .tc := ⟨.hbm, 506, rfl⟩
abbrev main_call0_call16_v12 : Ref sig .tc := ⟨.hbm, 507, rfl⟩
abbrev main_call0_call16_v13 : Ref sig .tc := ⟨.hbm, 508, rfl⟩
abbrev main_call0_v150 : Ref sig .tc := ⟨.hbm, 509, rfl⟩
abbrev main_call0_c_43 : Ref sig .tc := ⟨.hbm, 510, rfl⟩
abbrev main_call0_v151 : Ref sig .tc := ⟨.hbm, 511, rfl⟩
abbrev main_call0_v152 : Ref sig .tc := ⟨.hbm, 512, rfl⟩
abbrev main_call0_c_44 : Ref sig .tc := ⟨.hbm, 513, rfl⟩
abbrev main_call0_call17_v0 : Ref sig .tc := ⟨.hbm, 514, rfl⟩
abbrev main_call0_call17_c : Ref sig .tc := ⟨.hbm, 515, rfl⟩
abbrev main_call0_call17_v1 : Ref sig .tc := ⟨.hbm, 516, rfl⟩
abbrev main_call0_call17_c_0 : Ref sig .tc := ⟨.hbm, 517, rfl⟩
abbrev main_call0_call17_v2 : Ref sig .tc := ⟨.hbm, 518, rfl⟩
abbrev main_call0_call17_v3 : Ref sig .tc := ⟨.hbm, 519, rfl⟩
abbrev main_call0_call17_v4 : Ref sig .tc := ⟨.hbm, 520, rfl⟩
abbrev main_call0_call17_c_1 : Ref sig .tc := ⟨.hbm, 521, rfl⟩
abbrev main_call0_call17_v5 : Ref sig .tc := ⟨.hbm, 522, rfl⟩
abbrev main_call0_call17_v6 : Ref sig .tc := ⟨.hbm, 523, rfl⟩
abbrev main_call0_call17_c_2 : Ref sig .tc := ⟨.hbm, 524, rfl⟩
abbrev main_call0_call17_v7 : Ref sig .tc := ⟨.hbm, 525, rfl⟩
abbrev main_call0_call17_v8 : Ref sig .tc := ⟨.hbm, 526, rfl⟩
abbrev main_call0_call17_c_3 : Ref sig .tc := ⟨.hbm, 527, rfl⟩
abbrev main_call0_call17_v9 : Ref sig .tc := ⟨.hbm, 528, rfl⟩
abbrev main_call0_call17_v10 : Ref sig .tc := ⟨.hbm, 529, rfl⟩
abbrev main_call0_call17_v11 : Ref sig .tc := ⟨.hbm, 530, rfl⟩
abbrev main_call0_call17_v12 : Ref sig .tc := ⟨.hbm, 531, rfl⟩
abbrev main_call0_call17_v13 : Ref sig .tc := ⟨.hbm, 532, rfl⟩
abbrev main_call0_call17_v14 : Ref sig .tc := ⟨.hbm, 533, rfl⟩
abbrev main_call0_v153 : Ref sig .tc := ⟨.hbm, 534, rfl⟩
abbrev main_call0_c_45 : Ref sig .tc := ⟨.hbm, 535, rfl⟩
abbrev main_call0_v154 : Ref sig .tc := ⟨.hbm, 536, rfl⟩
abbrev main_call0_v155 : Ref sig .tc := ⟨.hbm, 537, rfl⟩
abbrev main_call0_v156 : Ref sig .tc := ⟨.hbm, 538, rfl⟩
abbrev main_call0_cst_46 : Ref sig .tc := ⟨.hbm, 539, rfl⟩
abbrev main_call0_v157 : Ref sig .tc := ⟨.hbm, 540, rfl⟩
abbrev main_call0_v158 : Ref sig .tc := ⟨.hbm, 541, rfl⟩
abbrev main_call0_v159 : Ref sig .tc := ⟨.hbm, 542, rfl⟩
abbrev main_call0_v160 : Ref sig .tc := ⟨.hbm, 543, rfl⟩
abbrev main_call0_v161 : Ref sig .tc := ⟨.hbm, 544, rfl⟩
abbrev main_call0_v162 : Ref sig .tc := ⟨.hbm, 545, rfl⟩
abbrev main_call0_v163 : Ref sig .tc := ⟨.hbm, 546, rfl⟩
abbrev main_call0_v164 : Ref sig .tc := ⟨.hbm, 547, rfl⟩
abbrev main_call0_c_47 : Ref sig .tc := ⟨.hbm, 548, rfl⟩
abbrev main_call0_call18_v0 : Ref sig .tc := ⟨.hbm, 549, rfl⟩
abbrev main_call0_call18_v1 : Ref sig .tc := ⟨.hbm, 550, rfl⟩
abbrev main_call0_call18_v2 : Ref sig .tc := ⟨.hbm, 551, rfl⟩
abbrev main_call0_call18_v3 : Ref sig .tc := ⟨.hbm, 552, rfl⟩
abbrev main_call0_call18_v4 : Ref sig .tc := ⟨.hbm, 553, rfl⟩
abbrev main_call0_call18_v5 : Ref sig .tc := ⟨.hbm, 554, rfl⟩
abbrev main_call0_call18_v6 : Ref sig .tc := ⟨.hbm, 555, rfl⟩
abbrev main_call0_call18_v7 : Ref sig .tc := ⟨.hbm, 556, rfl⟩
abbrev main_call0_call18_v8 : Ref sig .tc := ⟨.hbm, 557, rfl⟩
abbrev main_call0_call18_c : Ref sig .tc := ⟨.hbm, 558, rfl⟩
abbrev main_call0_call18_v9 : Ref sig .tc := ⟨.hbm, 559, rfl⟩
abbrev main_call0_call18_v10 : Ref sig .tc := ⟨.hbm, 560, rfl⟩
abbrev main_call0_call18_v11 : Ref sig .tc := ⟨.hbm, 561, rfl⟩
abbrev main_call0_call18_c_0 : Ref sig .tc := ⟨.hbm, 562, rfl⟩
abbrev main_call0_call18_v12 : Ref sig .tc := ⟨.hbm, 563, rfl⟩
abbrev main_call0_call18_v13 : Ref sig .tc := ⟨.hbm, 564, rfl⟩
abbrev main_call0_v165 : Ref sig .tc := ⟨.hbm, 565, rfl⟩
abbrev main_call0_c_48 : Ref sig .tc := ⟨.hbm, 566, rfl⟩
abbrev main_call0_v166 : Ref sig .tc := ⟨.hbm, 567, rfl⟩
abbrev main_call0_v167 : Ref sig .tc := ⟨.hbm, 568, rfl⟩
abbrev main_call0_c_49 : Ref sig .tc := ⟨.hbm, 569, rfl⟩
abbrev main_call0_call19_v0 : Ref sig .tc := ⟨.hbm, 570, rfl⟩
abbrev main_call0_call19_c : Ref sig .tc := ⟨.hbm, 571, rfl⟩
abbrev main_call0_call19_v1 : Ref sig .tc := ⟨.hbm, 572, rfl⟩
abbrev main_call0_call19_c_0 : Ref sig .tc := ⟨.hbm, 573, rfl⟩
abbrev main_call0_call19_v2 : Ref sig .tc := ⟨.hbm, 574, rfl⟩
abbrev main_call0_call19_v3 : Ref sig .tc := ⟨.hbm, 575, rfl⟩
abbrev main_call0_call19_v4 : Ref sig .tc := ⟨.hbm, 576, rfl⟩
abbrev main_call0_call19_c_1 : Ref sig .tc := ⟨.hbm, 577, rfl⟩
abbrev main_call0_call19_v5 : Ref sig .tc := ⟨.hbm, 578, rfl⟩
abbrev main_call0_call19_v6 : Ref sig .tc := ⟨.hbm, 579, rfl⟩
abbrev main_call0_call19_c_2 : Ref sig .tc := ⟨.hbm, 580, rfl⟩
abbrev main_call0_call19_v7 : Ref sig .tc := ⟨.hbm, 581, rfl⟩
abbrev main_call0_call19_v8 : Ref sig .tc := ⟨.hbm, 582, rfl⟩
abbrev main_call0_call19_c_3 : Ref sig .tc := ⟨.hbm, 583, rfl⟩
abbrev main_call0_call19_v9 : Ref sig .tc := ⟨.hbm, 584, rfl⟩
abbrev main_call0_call19_v10 : Ref sig .tc := ⟨.hbm, 585, rfl⟩
abbrev main_call0_call19_v11 : Ref sig .tc := ⟨.hbm, 586, rfl⟩
abbrev main_call0_call19_v12 : Ref sig .tc := ⟨.hbm, 587, rfl⟩
abbrev main_call0_call19_v13 : Ref sig .tc := ⟨.hbm, 588, rfl⟩
abbrev main_call0_call19_v14 : Ref sig .tc := ⟨.hbm, 589, rfl⟩
abbrev main_call0_v168 : Ref sig .tc := ⟨.hbm, 590, rfl⟩
abbrev main_call0_c_50 : Ref sig .tc := ⟨.hbm, 591, rfl⟩
abbrev main_call0_v169 : Ref sig .tc := ⟨.hbm, 592, rfl⟩
abbrev main_call0_v170 : Ref sig .tc := ⟨.hbm, 593, rfl⟩
abbrev main_call0_v171 : Ref sig .tc := ⟨.hbm, 594, rfl⟩
abbrev main_call0_cst_51 : Ref sig .tc := ⟨.hbm, 595, rfl⟩
abbrev main_call0_v172 : Ref sig .tc := ⟨.hbm, 596, rfl⟩
abbrev main_call0_v173 : Ref sig .tc := ⟨.hbm, 597, rfl⟩
abbrev main_call0_v174 : Ref sig .tc := ⟨.hbm, 598, rfl⟩
abbrev main_call0_v175 : Ref sig .tc := ⟨.hbm, 599, rfl⟩
abbrev main_call0_v176 : Ref sig .tc := ⟨.hbm, 600, rfl⟩
abbrev main_call0_v177 : Ref sig .tc := ⟨.hbm, 601, rfl⟩
abbrev main_call0_v178 : Ref sig .tc := ⟨.hbm, 602, rfl⟩
abbrev main_call0_v179 : Ref sig .tc := ⟨.hbm, 603, rfl⟩
abbrev main_call0_c_52 : Ref sig .tc := ⟨.hbm, 604, rfl⟩
abbrev main_call0_call20_v0 : Ref sig .tc := ⟨.hbm, 605, rfl⟩
abbrev main_call0_call20_v1 : Ref sig .tc := ⟨.hbm, 606, rfl⟩
abbrev main_call0_call20_v2 : Ref sig .tc := ⟨.hbm, 607, rfl⟩
abbrev main_call0_call20_v3 : Ref sig .tc := ⟨.hbm, 608, rfl⟩
abbrev main_call0_call20_v4 : Ref sig .tc := ⟨.hbm, 609, rfl⟩
abbrev main_call0_call20_v5 : Ref sig .tc := ⟨.hbm, 610, rfl⟩
abbrev main_call0_call20_v6 : Ref sig .tc := ⟨.hbm, 611, rfl⟩
abbrev main_call0_call20_v7 : Ref sig .tc := ⟨.hbm, 612, rfl⟩
abbrev main_call0_call20_v8 : Ref sig .tc := ⟨.hbm, 613, rfl⟩
abbrev main_call0_call20_c : Ref sig .tc := ⟨.hbm, 614, rfl⟩
abbrev main_call0_call20_v9 : Ref sig .tc := ⟨.hbm, 615, rfl⟩
abbrev main_call0_call20_v10 : Ref sig .tc := ⟨.hbm, 616, rfl⟩
abbrev main_call0_call20_v11 : Ref sig .tc := ⟨.hbm, 617, rfl⟩
abbrev main_call0_call20_c_0 : Ref sig .tc := ⟨.hbm, 618, rfl⟩
abbrev main_call0_call20_v12 : Ref sig .tc := ⟨.hbm, 619, rfl⟩
abbrev main_call0_call20_v13 : Ref sig .tc := ⟨.hbm, 620, rfl⟩
abbrev main_call0_v180 : Ref sig .tc := ⟨.hbm, 621, rfl⟩
abbrev main_call0_c_53 : Ref sig .tc := ⟨.hbm, 622, rfl⟩
abbrev main_call0_v181 : Ref sig .tc := ⟨.hbm, 623, rfl⟩
abbrev main_call0_v182 : Ref sig .tc := ⟨.hbm, 624, rfl⟩
abbrev main_call0_c_54 : Ref sig .tc := ⟨.hbm, 625, rfl⟩
abbrev main_call0_call21_v0 : Ref sig .tc := ⟨.hbm, 626, rfl⟩
abbrev main_call0_call21_c : Ref sig .tc := ⟨.hbm, 627, rfl⟩
abbrev main_call0_call21_v1 : Ref sig .tc := ⟨.hbm, 628, rfl⟩
abbrev main_call0_call21_c_0 : Ref sig .tc := ⟨.hbm, 629, rfl⟩
abbrev main_call0_call21_v2 : Ref sig .tc := ⟨.hbm, 630, rfl⟩
abbrev main_call0_call21_v3 : Ref sig .tc := ⟨.hbm, 631, rfl⟩
abbrev main_call0_call21_v4 : Ref sig .tc := ⟨.hbm, 632, rfl⟩
abbrev main_call0_call21_c_1 : Ref sig .tc := ⟨.hbm, 633, rfl⟩
abbrev main_call0_call21_v5 : Ref sig .tc := ⟨.hbm, 634, rfl⟩
abbrev main_call0_call21_v6 : Ref sig .tc := ⟨.hbm, 635, rfl⟩
abbrev main_call0_call21_c_2 : Ref sig .tc := ⟨.hbm, 636, rfl⟩
abbrev main_call0_call21_v7 : Ref sig .tc := ⟨.hbm, 637, rfl⟩
abbrev main_call0_call21_v8 : Ref sig .tc := ⟨.hbm, 638, rfl⟩
abbrev main_call0_call21_c_3 : Ref sig .tc := ⟨.hbm, 639, rfl⟩
abbrev main_call0_call21_v9 : Ref sig .tc := ⟨.hbm, 640, rfl⟩
abbrev main_call0_call21_v10 : Ref sig .tc := ⟨.hbm, 641, rfl⟩
abbrev main_call0_call21_v11 : Ref sig .tc := ⟨.hbm, 642, rfl⟩
abbrev main_call0_call21_v12 : Ref sig .tc := ⟨.hbm, 643, rfl⟩
abbrev main_call0_call21_v13 : Ref sig .tc := ⟨.hbm, 644, rfl⟩
abbrev main_call0_call21_v14 : Ref sig .tc := ⟨.hbm, 645, rfl⟩
abbrev main_call0_v183 : Ref sig .tc := ⟨.hbm, 646, rfl⟩
abbrev main_call0_c_55 : Ref sig .tc := ⟨.hbm, 647, rfl⟩
abbrev main_call0_v184 : Ref sig .tc := ⟨.hbm, 648, rfl⟩
abbrev main_call0_v185 : Ref sig .tc := ⟨.hbm, 649, rfl⟩
abbrev main_call0_v186 : Ref sig .tc := ⟨.hbm, 650, rfl⟩
abbrev main_call0_cst_56 : Ref sig .tc := ⟨.hbm, 651, rfl⟩
abbrev main_call0_v187 : Ref sig .tc := ⟨.hbm, 652, rfl⟩
abbrev main_call0_v188 : Ref sig .tc := ⟨.hbm, 653, rfl⟩
abbrev main_call0_v189 : Ref sig .tc := ⟨.hbm, 654, rfl⟩
abbrev main_call0_v190 : Ref sig .tc := ⟨.hbm, 655, rfl⟩
abbrev main_call0_v191 : Ref sig .tc := ⟨.hbm, 656, rfl⟩
abbrev main_v0 : Ref sig .tc := ⟨.hbm, 657, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg3_1 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg6_0 : Ref sig .tc := ⟨.vmem, 38, rfl⟩
abbrev cc3_stg7_0 : Ref sig .tc := ⟨.vmem, 39, rfl⟩
abbrev cc3_stg7_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg2_0 : Ref sig .tc := ⟨.vmem, 44, rfl⟩
abbrev cc4_stg3_0 : Ref sig .tc := ⟨.vmem, 45, rfl⟩
abbrev cc4_stg3_1 : Ref sig .tc := ⟨.vmem, 46, rfl⟩
abbrev cc4_stg4_0 : Ref sig .tc := ⟨.vmem, 47, rfl⟩
abbrev cc4_stg5_0 : Ref sig .tc := ⟨.vmem, 48, rfl⟩
abbrev cc4_stg6_0 : Ref sig .tc := ⟨.vmem, 49, rfl⟩
abbrev cc4_stg7_0 : Ref sig .tc := ⟨.vmem, 50, rfl⟩
abbrev cc4_stg7_1 : Ref sig .tc := ⟨.vmem, 51, rfl⟩
abbrev cc5_stg0_0 : Ref sig .tc := ⟨.vmem, 52, rfl⟩
abbrev cc5_stg0_1 : Ref sig .tc := ⟨.vmem, 53, rfl⟩
abbrev cc5_stg1_0 : Ref sig .tc := ⟨.vmem, 54, rfl⟩
abbrev cc5_stg2_0 : Ref sig .tc := ⟨.vmem, 55, rfl⟩
abbrev cc5_stg3_0 : Ref sig .tc := ⟨.vmem, 56, rfl⟩
abbrev cc5_stg3_1 : Ref sig .tc := ⟨.vmem, 57, rfl⟩
abbrev cc5_stg4_0 : Ref sig .tc := ⟨.vmem, 58, rfl⟩
abbrev cc5_stg5_0 : Ref sig .tc := ⟨.vmem, 59, rfl⟩
abbrev cc5_stg6_0 : Ref sig .tc := ⟨.vmem, 60, rfl⟩
abbrev cc5_stg7_0 : Ref sig .tc := ⟨.vmem, 61, rfl⟩
abbrev cc5_stg7_1 : Ref sig .tc := ⟨.vmem, 62, rfl⟩
abbrev cc6_stg0_0 : Ref sig .tc := ⟨.vmem, 63, rfl⟩
abbrev cc6_stg1_0 : Ref sig .tc := ⟨.vmem, 64, rfl⟩
abbrev cc6_stg2_0 : Ref sig .tc := ⟨.vmem, 65, rfl⟩
abbrev cc6_stg3_0 : Ref sig .tc := ⟨.vmem, 66, rfl⟩
abbrev cc6_stg4_0 : Ref sig .tc := ⟨.vmem, 67, rfl⟩
abbrev cc6_stg5_0 : Ref sig .tc := ⟨.vmem, 68, rfl⟩
abbrev cc6_stg6_0 : Ref sig .tc := ⟨.vmem, 69, rfl⟩
abbrev cc6_stg7_0 : Ref sig .tc := ⟨.vmem, 70, rfl⟩
abbrev cc7_stg0_0 : Ref sig .tc := ⟨.vmem, 71, rfl⟩
abbrev cc7_stg1_0 : Ref sig .tc := ⟨.vmem, 72, rfl⟩
abbrev cc7_stg2_0 : Ref sig .tc := ⟨.vmem, 73, rfl⟩
abbrev cc7_stg3_0 : Ref sig .tc := ⟨.vmem, 74, rfl⟩
abbrev cc7_stg4_0 : Ref sig .tc := ⟨.vmem, 75, rfl⟩
abbrev cc7_stg5_0 : Ref sig .tc := ⟨.vmem, 76, rfl⟩
abbrev cc7_stg6_0 : Ref sig .tc := ⟨.vmem, 77, rfl⟩
abbrev cc7_stg7_0 : Ref sig .tc := ⟨.vmem, 78, rfl⟩
abbrev cc8_stg0_0 : Ref sig .tc := ⟨.vmem, 79, rfl⟩
abbrev cc8_stg1_0 : Ref sig .tc := ⟨.vmem, 80, rfl⟩
abbrev cc8_stg2_0 : Ref sig .tc := ⟨.vmem, 81, rfl⟩
abbrev cc8_stg3_0 : Ref sig .tc := ⟨.vmem, 82, rfl⟩
abbrev cc8_stg4_0 : Ref sig .tc := ⟨.vmem, 83, rfl⟩
abbrev cc8_stg5_0 : Ref sig .tc := ⟨.vmem, 84, rfl⟩
abbrev cc8_stg6_0 : Ref sig .tc := ⟨.vmem, 85, rfl⟩
abbrev cc8_stg7_0 : Ref sig .tc := ⟨.vmem, 86, rfl⟩
abbrev cc9_stg0_0 : Ref sig .tc := ⟨.vmem, 87, rfl⟩
abbrev cc9_stg1_0 : Ref sig .tc := ⟨.vmem, 88, rfl⟩
abbrev cc9_stg2_0 : Ref sig .tc := ⟨.vmem, 89, rfl⟩
abbrev cc9_stg3_0 : Ref sig .tc := ⟨.vmem, 90, rfl⟩
abbrev cc9_stg4_0 : Ref sig .tc := ⟨.vmem, 91, rfl⟩
abbrev cc9_stg5_0 : Ref sig .tc := ⟨.vmem, 92, rfl⟩
abbrev cc9_stg6_0 : Ref sig .tc := ⟨.vmem, 93, rfl⟩
abbrev cc9_stg7_0 : Ref sig .tc := ⟨.vmem, 94, rfl⟩
abbrev cc10_stg0_0 : Ref sig .tc := ⟨.vmem, 95, rfl⟩
abbrev cc10_stg1_0 : Ref sig .tc := ⟨.vmem, 96, rfl⟩
abbrev cc10_stg2_0 : Ref sig .tc := ⟨.vmem, 97, rfl⟩
abbrev cc10_stg3_0 : Ref sig .tc := ⟨.vmem, 98, rfl⟩
abbrev cc10_stg4_0 : Ref sig .tc := ⟨.vmem, 99, rfl⟩
abbrev cc10_stg5_0 : Ref sig .tc := ⟨.vmem, 100, rfl⟩
abbrev cc10_stg6_0 : Ref sig .tc := ⟨.vmem, 101, rfl⟩
abbrev cc10_stg7_0 : Ref sig .tc := ⟨.vmem, 102, rfl⟩
abbrev cc11_stg0_0 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg4_0 : Ref sig .tc := ⟨.vmem, 107, rfl⟩
abbrev cc11_stg5_0 : Ref sig .tc := ⟨.vmem, 108, rfl⟩
abbrev cc11_stg6_0 : Ref sig .tc := ⟨.vmem, 109, rfl⟩
abbrev cc11_stg7_0 : Ref sig .tc := ⟨.vmem, 110, rfl⟩
abbrev cc12_stg0_0 : Ref sig .tc := ⟨.vmem, 111, rfl⟩
abbrev cc12_stg1_0 : Ref sig .tc := ⟨.vmem, 112, rfl⟩
abbrev cc12_stg2_0 : Ref sig .tc := ⟨.vmem, 113, rfl⟩
abbrev cc12_stg3_0 : Ref sig .tc := ⟨.vmem, 114, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem3_1 : DmaSem sig := 35
abbrev cc3_sem4_0 : DmaSem sig := 36
abbrev cc3_sem5_0 : DmaSem sig := 37
abbrev cc3_sem6_0 : DmaSem sig := 38
abbrev cc3_sem7_0 : DmaSem sig := 39
abbrev cc3_sem7_1 : DmaSem sig := 40
abbrev cc4_sem0_0 : DmaSem sig := 41
abbrev cc4_sem0_1 : DmaSem sig := 42
abbrev cc4_sem1_0 : DmaSem sig := 43
abbrev cc4_sem2_0 : DmaSem sig := 44
abbrev cc4_sem3_0 : DmaSem sig := 45
abbrev cc4_sem3_1 : DmaSem sig := 46
abbrev cc4_sem4_0 : DmaSem sig := 47
abbrev cc4_sem5_0 : DmaSem sig := 48
abbrev cc4_sem6_0 : DmaSem sig := 49
abbrev cc4_sem7_0 : DmaSem sig := 50
abbrev cc4_sem7_1 : DmaSem sig := 51
abbrev cc5_sem0_0 : DmaSem sig := 52
abbrev cc5_sem0_1 : DmaSem sig := 53
abbrev cc5_sem1_0 : DmaSem sig := 54
abbrev cc5_sem2_0 : DmaSem sig := 55
abbrev cc5_sem3_0 : DmaSem sig := 56
abbrev cc5_sem3_1 : DmaSem sig := 57
abbrev cc5_sem4_0 : DmaSem sig := 58
abbrev cc5_sem5_0 : DmaSem sig := 59
abbrev cc5_sem6_0 : DmaSem sig := 60
abbrev cc5_sem7_0 : DmaSem sig := 61
abbrev cc5_sem7_1 : DmaSem sig := 62
abbrev cc6_sem0_0 : DmaSem sig := 63
abbrev cc6_sem1_0 : DmaSem sig := 64
abbrev cc6_sem2_0 : DmaSem sig := 65
abbrev cc6_sem3_0 : DmaSem sig := 66
abbrev cc6_sem4_0 : DmaSem sig := 67
abbrev cc6_sem5_0 : DmaSem sig := 68
abbrev cc6_sem6_0 : DmaSem sig := 69
abbrev cc6_sem7_0 : DmaSem sig := 70
abbrev cc7_sem0_0 : DmaSem sig := 71
abbrev cc7_sem1_0 : DmaSem sig := 72
abbrev cc7_sem2_0 : DmaSem sig := 73
abbrev cc7_sem3_0 : DmaSem sig := 74
abbrev cc7_sem4_0 : DmaSem sig := 75
abbrev cc7_sem5_0 : DmaSem sig := 76
abbrev cc7_sem6_0 : DmaSem sig := 77
abbrev cc7_sem7_0 : DmaSem sig := 78
abbrev cc8_sem0_0 : DmaSem sig := 79
abbrev cc8_sem1_0 : DmaSem sig := 80
abbrev cc8_sem2_0 : DmaSem sig := 81
abbrev cc8_sem3_0 : DmaSem sig := 82
abbrev cc8_sem4_0 : DmaSem sig := 83
abbrev cc8_sem5_0 : DmaSem sig := 84
abbrev cc8_sem6_0 : DmaSem sig := 85
abbrev cc8_sem7_0 : DmaSem sig := 86
abbrev cc9_sem0_0 : DmaSem sig := 87
abbrev cc9_sem1_0 : DmaSem sig := 88
abbrev cc9_sem2_0 : DmaSem sig := 89
abbrev cc9_sem3_0 : DmaSem sig := 90
abbrev cc9_sem4_0 : DmaSem sig := 91
abbrev cc9_sem5_0 : DmaSem sig := 92
abbrev cc9_sem6_0 : DmaSem sig := 93
abbrev cc9_sem7_0 : DmaSem sig := 94
abbrev cc10_sem0_0 : DmaSem sig := 95
abbrev cc10_sem1_0 : DmaSem sig := 96
abbrev cc10_sem2_0 : DmaSem sig := 97
abbrev cc10_sem3_0 : DmaSem sig := 98
abbrev cc10_sem4_0 : DmaSem sig := 99
abbrev cc10_sem5_0 : DmaSem sig := 100
abbrev cc10_sem6_0 : DmaSem sig := 101
abbrev cc10_sem7_0 : DmaSem sig := 102
abbrev cc11_sem0_0 : DmaSem sig := 103
abbrev cc11_sem1_0 : DmaSem sig := 104
abbrev cc11_sem2_0 : DmaSem sig := 105
abbrev cc11_sem3_0 : DmaSem sig := 106
abbrev cc11_sem4_0 : DmaSem sig := 107
abbrev cc11_sem5_0 : DmaSem sig := 108
abbrev cc11_sem6_0 : DmaSem sig := 109
abbrev cc11_sem7_0 : DmaSem sig := 110
abbrev cc12_sem0_0 : DmaSem sig := 111
abbrev cc12_sem1_0 : DmaSem sig := 112
abbrev cc12_sem2_0 : DmaSem sig := 113
abbrev cc12_sem3_0 : DmaSem sig := 114

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x768 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S256x768 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1024x512 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x768 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x768 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S256x768 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S256x256 .bf16 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1024x512 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x768 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x768 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S256x768 .bf16 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S256x256 .bf16 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x256 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S1024x512 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x768 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S256x768 .bf16 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .bf16 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S1024x512 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x256 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S256x768 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x768 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S256x768 .bf16 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S256x256 .bf16 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x256 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S1024x512 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1024x256 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S256x768 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x768 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev stage6_4 : Fin 1 → Memref sig .tc .vmem S256x768 .bf16 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S256x256 .bf16 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x256 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1024x512 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S512x256 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S256x768 .bf16 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x768 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev stage7_4 : Fin 1 → Memref sig .tc .vmem S256x768 .bf16 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S256x256 .bf16 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x256 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 1 → Memref sig .tc .vmem S512x512 .f32 := fun | 0 => Memref.whole cc7_stg7_0 | ⟨_ + 1, h⟩ => absurd h (Nat.not_lt.2 (Nat.le_add_left _ _))
abbrev sem7_7 : Fin 1 → DmaSem sig := fun | 0 => cc7_sem7_0 | ⟨_ + 1, h⟩ => absurd h (Nat.not_lt.2 (Nat.le_add_left _ _))
abbrev reads7_7 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S256x256 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S256x768 .bf16 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x768 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev stage8_4 : Fin 1 → Memref sig .tc .vmem S256x768 .bf16 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S256x256 .bf16 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x256 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S256x512 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S128x256 .bf16 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S256x768 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x768 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev stage9_4 : Fin 1 → Memref sig .tc .vmem S256x768 .bf16 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S256x256 .bf16 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 1 → Memref sig .tc .vmem S1x256 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S128x512 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_7 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S64x256 .bf16 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S256x768 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x768 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

abbrev stage10_4 : Fin 1 → Memref sig .tc .vmem S256x768 .bf16 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S256x256 .bf16 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x256 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev stage10_7 : Fin 1 → Memref sig .tc .vmem S64x512 .f32 := fun | 0 => Memref.whole cc10_stg7_0 | ⟨_ + 1, h⟩ => absurd h (Nat.not_lt.2 (Nat.le_add_left _ _))
abbrev sem10_7 : Fin 1 → DmaSem sig := fun | 0 => cc10_sem7_0 | ⟨_ + 1, h⟩ => absurd h (Nat.not_lt.2 (Nat.le_add_left _ _))
abbrev reads10_7 : Fin grid10.rank → Bool := ![true]

abbrev grid11 : Pipeline.Grid := ⟨1, ![1], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 1 → Memref sig .tc .vmem S32x256 .bf16 := fun | 0 => Memref.whole cc11_stg0_0 | ⟨_ + 1, h⟩ => absurd h (Nat.not_lt.2 (Nat.le_add_left _ _))
abbrev sem11_0 : Fin 1 → DmaSem sig := fun | 0 => cc11_sem0_0 | ⟨_ + 1, h⟩ => absurd h (Nat.not_lt.2 (Nat.le_add_left _ _))
abbrev reads11_0 : Fin grid11.rank → Bool := ![true]

abbrev stage11_1 : Fin 1 → Memref sig .tc .vmem S256x768 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x768 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S32x512 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![true]

abbrev stage11_4 : Fin 1 → Memref sig .tc .vmem S256x768 .bf16 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S256x256 .bf16 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x256 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 1 → Memref sig .tc .vmem S32x512 .f32 := fun | 0 => Memref.whole cc11_stg7_0 | ⟨_ + 1, h⟩ => absurd h (Nat.not_lt.2 (Nat.le_add_left _ _))
abbrev sem11_7 : Fin 1 → DmaSem sig := fun | 0 => cc11_sem7_0 | ⟨_ + 1, h⟩ => absurd h (Nat.not_lt.2 (Nat.le_add_left _ _))
abbrev reads11_7 : Fin grid11.rank → Bool := ![true]

abbrev grid12 : Pipeline.Grid := ⟨1, ![1], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 1 → Memref sig .tc .vmem S32x256 .f32 := fun | 0 => Memref.whole cc12_stg0_0 | ⟨_ + 1, h⟩ => absurd h (Nat.not_lt.2 (Nat.le_add_left _ _))
abbrev sem12_0 : Fin 1 → DmaSem sig := fun | 0 => cc12_sem0_0 | ⟨_ + 1, h⟩ => absurd h (Nat.not_lt.2 (Nat.le_add_left _ _))
abbrev reads12_0 : Fin grid12.rank → Bool := ![false]

abbrev stage12_1 : Fin 1 → Memref sig .tc .vmem S256x104 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x104 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S32x104 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

class Facts₀ : Prop where
  bcast_S_S1 : S_.BroadcastsInDim S1 (![] : Fin 0 → Fin S1.rank)
  bcast_S_S256 : S_.BroadcastsInDim S256 (![] : Fin 0 → Fin S256.rank)
  bitsLt_bf16_f32 : FTy.bits .bf16 < FTy.bits .f32
  bcast_S_S131040 : S_.BroadcastsInDim S131040 (![] : Fin 0 → Fin S131040.rank)
  bcast_S131040_S131040x1_0 : S131040.BroadcastsInDim S131040x1 (![0] : Fin 1 → Fin S131040x1.rank)
  transposes_S768x256_S256x768_1_0 : S768x256.Transposes [1, 0] S256x768
  transposes_S256x256_S256x256_1_0 : S256x256.Transposes [1, 0] S256x256
  transposes_S104x256_S256x104_1_0 : S104x256.Transposes [1, 0] S256x104
  shapeCasts_S256_S1x256 : S256.ShapeCasts S1x256
  shapeCasts_S104_S1x104 : S104.ShapeCasts S1x104
  shapeCasts_S131040x256_S32x4095x256 : S131040x256.ShapeCasts S32x4095x256
  shapeCasts_S131040_S32x4095 : S131040.ShapeCasts S32x4095
  slices_S32x4095x256_S32x2048x256_0_2047_0 : S32x4095x256.Slices ![0, 2047, 0] S32x2048x256
  shapeCasts_S32x2048x256_S65536x256 : S32x2048x256.ShapeCasts S65536x256
  slices_S32x4095x256_S32x1024x256_0_1023_0 : S32x4095x256.Slices ![0, 1023, 0] S32x1024x256
  shapeCasts_S32x1024x256_S32768x256 : S32x1024x256.ShapeCasts S32768x256
  slices_S32x4095_S32x2048_0_2047 : S32x4095.Slices ![0, 2047] S32x2048
  shapeCasts_S32x2048_S65536 : S32x2048.ShapeCasts S65536
  bcast_S_S65536 : S_.BroadcastsInDim S65536 (![] : Fin 0 → Fin S65536.rank)
  bcast_S_S32768x512 : S_.BroadcastsInDim S32768x512 (![] : Fin 0 → Fin S32768x512.rank)
  bcast_S65536_S65536x1_0 : S65536.BroadcastsInDim S65536x1 (![0] : Fin 1 → Fin S65536x1.rank)
  slices_S32x4095x256_S32x512x256_0_511_0 : S32x4095x256.Slices ![0, 511, 0] S32x512x256
  shapeCasts_S32x512x256_S16384x256 : S32x512x256.ShapeCasts S16384x256
  slices_S32x4095_S32x1024_0_1023 : S32x4095.Slices ![0, 1023] S32x1024
  shapeCasts_S32x1024_S32768 : S32x1024.ShapeCasts S32768
  bcast_S_S32768 : S_.BroadcastsInDim S32768 (![] : Fin 0 → Fin S32768.rank)
  bcast_S_S16384x512 : S_.BroadcastsInDim S16384x512 (![] : Fin 0 → Fin S16384x512.rank)
  bcast_S32768_S32768x1_0 : S32768.BroadcastsInDim S32768x1 (![0] : Fin 1 → Fin S32768x1.rank)
  slices_S32x4095x256_S32x256x256_0_255_0 : S32x4095x256.Slices ![0, 255, 0] S32x256x256
  shapeCasts_S32x256x256_S8192x256 : S32x256x256.ShapeCasts S8192x256
  slices_S32x4095_S32x512_0_511 : S32x4095.Slices ![0, 511] S32x512
  shapeCasts_S32x512_S16384 : S32x512.ShapeCasts S16384
  bcast_S_S16384 : S_.BroadcastsInDim S16384 (![] : Fin 0 → Fin S16384.rank)
  bcast_S_S8192x512 : S_.BroadcastsInDim S8192x512 (![] : Fin 0 → Fin S8192x512.rank)
  bcast_S16384_S16384x1_0 : S16384.BroadcastsInDim S16384x1 (![0] : Fin 1 → Fin S16384x1.rank)
  slices_S32x4095x256_S32x128x256_0_127_0 : S32x4095x256.Slices ![0, 127, 0] S32x128x256
  shapeCasts_S32x128x256_S4096x256 : S32x128x256.ShapeCasts S4096x256
  slices_S32x4095_S32x256_0_255 : S32x4095.Slices ![0, 255] S32x256
  shapeCasts_S32x256_S8192 : S32x256.ShapeCasts S8192
  bcast_S_S8192 : S_.BroadcastsInDim S8192 (![] : Fin 0 → Fin S8192.rank)
  bcast_S_S4096x512 : S_.BroadcastsInDim S4096x512 (![] : Fin 0 → Fin S4096x512.rank)
  bcast_S8192_S8192x1_0 : S8192.BroadcastsInDim S8192x1 (![0] : Fin 1 → Fin S8192x1.rank)
  slices_S32x4095x256_S32x64x256_0_63_0 : S32x4095x256.Slices ![0, 63, 0] S32x64x256
  shapeCasts_S32x64x256_S2048x256 : S32x64x256.ShapeCasts S2048x256
  slices_S32x4095_S32x128_0_127 : S32x4095.Slices ![0, 127] S32x128
  shapeCasts_S32x128_S4096 : S32x128.ShapeCasts S4096
  bcast_S_S4096 : S_.BroadcastsInDim S4096 (![] : Fin 0 → Fin S4096.rank)
  bcast_S_S2048x512 : S_.BroadcastsInDim S2048x512 (![] : Fin 0 → Fin S2048x512.rank)
  bcast_S4096_S4096x1_0 : S4096.BroadcastsInDim S4096x1 (![0] : Fin 1 → Fin S4096x1.rank)
  slices_S32x4095x256_S32x32x256_0_31_0 : S32x4095x256.Slices ![0, 31, 0] S32x32x256
  shapeCasts_S32x32x256_S1024x256 : S32x32x256.ShapeCasts S1024x256
  slices_S32x4095_S32x64_0_63 : S32x4095.Slices ![0, 63] S32x64
  shapeCasts_S32x64_S2048 : S32x64.ShapeCasts S2048
  bcast_S_S2048 : S_.BroadcastsInDim S2048 (![] : Fin 0 → Fin S2048.rank)
  bcast_S_S1024x512 : S_.BroadcastsInDim S1024x512 (![] : Fin 0 → Fin S1024x512.rank)
  bcast_S2048_S2048x1_0 : S2048.BroadcastsInDim S2048x1 (![0] : Fin 1 → Fin S2048x1.rank)
  slices_S32x4095x256_S32x16x256_0_15_0 : S32x4095x256.Slices ![0, 15, 0] S32x16x256
  shapeCasts_S32x16x256_S512x256 : S32x16x256.ShapeCasts S512x256
  slices_S32x4095_S32x32_0_31 : S32x4095.Slices ![0, 31] S32x32
  shapeCasts_S32x32_S1024 : S32x32.ShapeCasts S1024
  bcast_S_S1024 : S_.BroadcastsInDim S1024 (![] : Fin 0 → Fin S1024.rank)
  bcast_S_S512x512 : S_.BroadcastsInDim S512x512 (![] : Fin 0 → Fin S512x512.rank)
  bcast_S1024_S1024x1_0 : S1024.BroadcastsInDim S1024x1 (![0] : Fin 1 → Fin S1024x1.rank)
  slices_S32x4095x256_S32x8x256_0_7_0 : S32x4095x256.Slices ![0, 7, 0] S32x8x256
  shapeCasts_S32x8x256_S256x256 : S32x8x256.ShapeCasts S256x256
  slices_S32x4095_S32x16_0_15 : S32x4095.Slices ![0, 15] S32x16
  shapeCasts_S32x16_S512 : S32x16.ShapeCasts S512
  bcast_S_S512 : S_.BroadcastsInDim S512 (![] : Fin 0 → Fin S512.rank)
  bcast_S_S256x512 : S_.BroadcastsInDim S256x512 (![] : Fin 0 → Fin S256x512.rank)
  bcast_S512_S512x1_0 : S512.BroadcastsInDim S512x1 (![0] : Fin 1 → Fin S512x1.rank)
  slices_S32x4095x256_S32x4x256_0_3_0 : S32x4095x256.Slices ![0, 3, 0] S32x4x256
  shapeCasts_S32x4x256_S128x256 : S32x4x256.ShapeCasts S128x256
  slices_S32x4095_S32x8_0_7 : S32x4095.Slices ![0, 7] S32x8
  shapeCasts_S32x8_S256 : S32x8.ShapeCasts S256
  bcast_S_S128x512 : S_.BroadcastsInDim S128x512 (![] : Fin 0 → Fin S128x512.rank)
  bcast_S256_S256x1_0 : S256.BroadcastsInDim S256x1 (![0] : Fin 1 → Fin S256x1.rank)
  slices_S32x4095x256_S32x2x256_0_1_0 : S32x4095x256.Slices ![0, 1, 0] S32x2x256
  shapeCasts_S32x2x256_S64x256 : S32x2x256.ShapeCasts S64x256
  slices_S32x4095_S32x4_0_3 : S32x4095.Slices ![0, 3] S32x4
  shapeCasts_S32x4_S128 : S32x4.ShapeCasts S128
  bcast_S_S128 : S_.BroadcastsInDim S128 (![] : Fin 0 → Fin S128.rank)
  bcast_S_S64x512 : S_.BroadcastsInDim S64x512 (![] : Fin 0 → Fin S64x512.rank)
  bcast_S128_S128x1_0 : S128.BroadcastsInDim S128x1 (![0] : Fin 1 → Fin S128x1.rank)
  slices_S32x4095x256_S32x1x256_0_0_0 : S32x4095x256.Slices ![0, 0, 0] S32x1x256
  shapeCasts_S32x1x256_S32x256 : S32x1x256.ShapeCasts S32x256
  slices_S32x4095_S32x2_0_1 : S32x4095.Slices ![0, 1] S32x2
  shapeCasts_S32x2_S64 : S32x2.ShapeCasts S64
  bcast_S_S64 : S_.BroadcastsInDim S64 (![] : Fin 0 → Fin S64.rank)
  bcast_S_S32x512 : S_.BroadcastsInDim S32x512 (![] : Fin 0 → Fin S32x512.rank)
  bcast_S64_S64x1_0 : S64.BroadcastsInDim S64x1 (![0] : Fin 1 → Fin S64x1.rank)
  slices_S32x512_S32x256_0_0 : S32x512.Slices ![0, 0] S32x256
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S1x768_S1x768_0_0 : ∀ a, (![0, 0] : Fin 2 → Nat) a + S1x768.size a ≤ S1x768.size a
  h_S1x768 : 0 < S1x768.numel
  broadcasts_S1x768_S1024x768 : S1x768.Broadcasts S1024x768
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S1024x512_S1024x256_0_0 : ∀ a, (![0, 0] : Fin 2 → Nat) a + S1024x256.size a ≤ S1024x512.size a
  inb_S1024x512_S1024x256_0_256 : ∀ a, (![0, 256] : Fin 2 → Nat) a + S1024x256.size a ≤ S1024x512.size a
  inb_S512x256_S512x256_0_0 : ∀ a, (![0, 0] : Fin 2 → Nat) a + S512x256.size a ≤ S512x256.size a
  h_S512x256 : 0 < S512x256.numel
  shapeCasts_S512x256_S512x256 : S512x256.ShapeCasts S512x256
  broadcasts_S1x768_S512x768 : S1x768.Broadcasts S512x768
  inb_S512x512_S512x256_0_0 : ∀ a, (![0, 0] : Fin 2 → Nat) a + S512x256.size a ≤ S512x512.size a
  inb_S512x512_S512x256_0_256 : ∀ a, (![0, 256] : Fin 2 → Nat) a + S512x256.size a ≤ S512x512.size a
  slices_S512x768_o0_0_S512x256 : S512x768.Slices ![0, 0] S512x256
  slices_S512x768_o0_256_S512x256 : S512x768.Slices ![0, 256] S512x256
  slices_S512x768_o0_512_S512x256 : S512x768.Slices ![0, 512] S512x256
  broadcasts_S1x256_S512x256 : S1x256.Broadcasts S512x256
  broadcasts_S1x768_S256x768 : S1x768.Broadcasts S256x768
  inb_S256x512_S256x256_0_0 : ∀ a, (![0, 0] : Fin 2 → Nat) a + S256x256.size a ≤ S256x512.size a
  inb_S256x512_S256x256_0_256 : ∀ a, (![0, 256] : Fin 2 → Nat) a + S256x256.size a ≤ S256x512.size a
  slices_S256x768_o0_0_S256x256 : S256x768.Slices ![0, 0] S256x256
  slices_S256x768_o0_256_S256x256 : S256x768.Slices ![0, 256] S256x256
  slices_S256x768_o0_512_S256x256 : S256x768.Slices ![0, 512] S256x256
  broadcasts_S1x256_S256x256 : S1x256.Broadcasts S256x256
  inb_S128x256_S128x256_0_0 : ∀ a, (![0, 0] : Fin 2 → Nat) a + S128x256.size a ≤ S128x256.size a
  h_S128x256 : 0 < S128x256.numel
  shapeCasts_S128x256_S128x256 : S128x256.ShapeCasts S128x256
  broadcasts_S1x768_S128x768 : S1x768.Broadcasts S128x768
  inb_S128x512_S128x256_0_0 : ∀ a, (![0, 0] : Fin 2 → Nat) a + S128x256.size a ≤ S128x512.size a
  inb_S128x512_S128x256_0_256 : ∀ a, (![0, 256] : Fin 2 → Nat) a + S128x256.size a ≤ S128x512.size a
  slices_S128x768_o0_0_S128x256 : S128x768.Slices ![0, 0] S128x256
  slices_S128x768_o0_256_S128x256 : S128x768.Slices ![0, 256] S128x256
  slices_S128x768_o0_512_S128x256 : S128x768.Slices ![0, 512] S128x256
  broadcasts_S1x256_S128x256 : S1x256.Broadcasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  broadcasts_S1x768_S64x768 : S1x768.Broadcasts S64x768
  inb_S64x512_S64x256_0_0 : ∀ a, (![0, 0] : Fin 2 → Nat) a + S64x256.size a ≤ S64x512.size a
  inb_S64x512_S64x256_0_256 : ∀ a, (![0, 256] : Fin 2 → Nat) a + S64x256.size a ≤ S64x512.size a
  slices_S64x768_o0_0_S64x256 : S64x768.Slices ![0, 0] S64x256
  slices_S64x768_o0_256_S64x256 : S64x768.Slices ![0, 256] S64x256
  slices_S64x768_o0_512_S64x256 : S64x768.Slices ![0, 512] S64x256
  broadcasts_S1x256_S64x256 : S1x256.Broadcasts S64x256
  inb_S32x256_S32x256_0_0 : ∀ a, (![0, 0] : Fin 2 → Nat) a + S32x256.size a ≤ S32x256.size a
  h_S32x256 : 0 < S32x256.numel
  shapeCasts_S32x256_S32x256 : S32x256.ShapeCasts S32x256
  broadcasts_S1x768_S32x768 : S1x768.Broadcasts S32x768
  inb_S32x512_S32x256_0_0 : ∀ a, (![0, 0] : Fin 2 → Nat) a + S32x256.size a ≤ S32x512.size a
  inb_S32x512_S32x256_0_256 : ∀ a, (![0, 256] : Fin 2 → Nat) a + S32x256.size a ≤ S32x512.size a
  slices_S32x768_o0_0_S32x256 : S32x768.Slices ![0, 0] S32x256
  slices_S32x768_o0_256_S32x256 : S32x768.Slices ![0, 256] S32x256
  slices_S32x768_o0_512_S32x256 : S32x768.Slices ![0, 512] S32x256
  broadcasts_S1x256_S32x256 : S1x256.Broadcasts S32x256
  inb_S256x104_S256x104_0_0 : ∀ a, (![0, 0] : Fin 2 → Nat) a + S256x104.size a ≤ S256x104.size a
  h_S256x104 : 0 < S256x104.numel
  shapeCasts_S256x104_S256x104 : S256x104.ShapeCasts S256x104
  inb_S1x104_S1x104_0_0 : ∀ a, (![0, 0] : Fin 2 → Nat) a + S1x104.size a ≤ S1x104.size a
  h_S1x104 : 0 < S1x104.numel
  shapeCasts_S1x104_S1x104 : S1x104.ShapeCasts S1x104
  broadcasts_S1x104_S32x104 : S1x104.Broadcasts S32x104
  inb_S32x104_S32x104_0_0 : ∀ a, (![0, 0] : Fin 2 → Nat) a + S32x104.size a ≤ S32x104.size a
  h_S32x104 : 0 < S32x104.numel
  scatter_S20000x256_S1_S256_0_0_0_0_wf : ScatterDims.WF S20000x256 S1 S256 [0] [0] [0] 0
  gather_S20000x256_S131040x1_S131040x256_1_0_n_n_0_1_1256_wf : GatherDims.WF S20000x256 S131040x1 S131040x256 [1] [0] [] [0] [] 1 ![1, 256]
  scatter_S32768x512_S65536x1_S65536x512_1_0_0_1_wf : ScatterDims.WF S32768x512 S65536x1 S65536x512 [1] [0] [0] 1
  scatter_S16384x512_S32768x1_S32768x512_1_0_0_1_wf : ScatterDims.WF S16384x512 S32768x1 S32768x512 [1] [0] [0] 1
  scatter_S8192x512_S16384x1_S16384x512_1_0_0_1_wf : ScatterDims.WF S8192x512 S16384x1 S16384x512 [1] [0] [0] 1
  scatter_S4096x512_S8192x1_S8192x512_1_0_0_1_wf : ScatterDims.WF S4096x512 S8192x1 S8192x512 [1] [0] [0] 1
  scatter_S2048x512_S4096x1_S4096x512_1_0_0_1_wf : ScatterDims.WF S2048x512 S4096x1 S4096x512 [1] [0] [0] 1
  scatter_S1024x512_S2048x1_S2048x512_1_0_0_1_wf : ScatterDims.WF S1024x512 S2048x1 S2048x512 [1] [0] [0] 1
  scatter_S512x512_S1024x1_S1024x512_1_0_0_1_wf : ScatterDims.WF S512x512 S1024x1 S1024x512 [1] [0] [0] 1
  scatter_S256x512_S512x1_S512x512_1_0_0_1_wf : ScatterDims.WF S256x512 S512x1 S512x512 [1] [0] [0] 1
  scatter_S128x512_S256x1_S256x512_1_0_0_1_wf : ScatterDims.WF S128x512 S256x1 S256x512 [1] [0] [0] 1
  scatter_S64x512_S128x1_S128x512_1_0_0_1_wf : ScatterDims.WF S64x512 S128x1 S128x512 [1] [0] [0] 1
  scatter_S32x512_S64x1_S64x512_1_0_0_1_wf : ScatterDims.WF S32x512 S64x1 S64x512 [1] [0] [0] 1
  dot_S1024x256_S256x768_S1024x768_1_0_0_1_n_n_wf : DotDims.WF S1024x256 S256x768 S1024x768 [1] [0] [0] [1] [] []
  dot_S1024x256_S256x256_S1024x256_1_0_0_1_n_n_wf : DotDims.WF S1024x256 S256x256 S1024x256 [1] [0] [0] [1] [] []
  dot_S512x256_S256x768_S512x768_1_0_0_1_n_n_wf : DotDims.WF S512x256 S256x768 S512x768 [1] [0] [0] [1] [] []
  dot_S512x256_S256x256_S512x256_1_0_0_1_n_n_wf : DotDims.WF S512x256 S256x256 S512x256 [1] [0] [0] [1] [] []
  dot_S256x256_S256x768_S256x768_1_0_0_1_n_n_wf : DotDims.WF S256x256 S256x768 S256x768 [1] [0] [0] [1] [] []
  dot_S256x256_S256x256_S256x256_1_0_0_1_n_n_wf : DotDims.WF S256x256 S256x256 S256x256 [1] [0] [0] [1] [] []
  dot_S128x256_S256x768_S128x768_1_0_0_1_n_n_wf : DotDims.WF S128x256 S256x768 S128x768 [1] [0] [0] [1] [] []
  dot_S128x256_S256x256_S128x256_1_0_0_1_n_n_wf : DotDims.WF S128x256 S256x256 S128x256 [1] [0] [0] [1] [] []
  dot_S64x256_S256x768_S64x768_1_0_0_1_n_n_wf : DotDims.WF S64x256 S256x768 S64x768 [1] [0] [0] [1] [] []
  dot_S64x256_S256x256_S64x256_1_0_0_1_n_n_wf : DotDims.WF S64x256 S256x256 S64x256 [1] [0] [0] [1] [] []
  dot_S32x256_S256x768_S32x768_1_0_0_1_n_n_wf : DotDims.WF S32x256 S256x768 S32x768 [1] [0] [0] [1] [] []
  dot_S32x256_S256x256_S32x256_1_0_0_1_n_n_wf : DotDims.WF S32x256 S256x256 S32x256 [1] [0] [0] [1] [] []
  dot_S32x256_S256x104_S32x104_1_0_0_1_n_n_wf : DotDims.WF S32x256 S256x104 S32x104 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .bf16 = 32 ∨ (Rect.block (s := S65536x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .bf16 = 32 ∨ (Rect.block (s := S256x768) S256x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S65536x512.size a
  hwx0_5 : ∀ i : grid0.Coords, EltTy.bits .f32 = 32 ∨ (Rect.block (s := S65536x512) S1024x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S32768x256.size a
  hwx1_0 : ∀ i : grid1.Coords, EltTy.bits .bf16 = 32 ∨ (Rect.block (s := S32768x256) S1024x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x768.size a ≤ S256x768.size a
  hwx1_1 : ∀ i : grid1.Coords, EltTy.bits .bf16 = 32 ∨ (Rect.block (s := S256x768) S256x768.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x768.size a ≤ S1x768.size a
  hwx1_2 : ∀ i : grid1.Coords, EltTy.bits .f32 = 32 ∨ (Rect.block (s := S1x768) S1x768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x512.size a
  hwx1_3 : ∀ i : grid1.Coords, EltTy.bits .f32 = 32 ∨ (Rect.block (s := S32768x512) S1024x512.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x768.size a ≤ S256x768.size a
  hwx1_4 : ∀ i : grid1.Coords, EltTy.bits .bf16 = 32 ∨ (Rect.block (s := S256x768) S256x768.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x256.size a ≤ S1x256.size a
  hwx1_6 : ∀ i : grid1.Coords, EltTy.bits .f32 = 32 ∨ (Rect.block (s := S1x256) S1x256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x512.size a ≤ S32768x512.size a
  hwx1_7 : ∀ i : grid1.Coords, EltTy.bits .f32 = 32 ∨ (Rect.block (s := S32768x512) S1024x512.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S16384x256.size a
  hwx2_0 : ∀ i : grid2.Coords, EltTy.bits .bf16 = 32 ∨ (Rect.block (s := S16384x256) S1024x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x768.size a ≤ S256x768.size a
  hwx2_1 : ∀ i : grid2.Coords, EltTy.bits .bf16 = 32 ∨ (Rect.block (s := S256x768) S256x768.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x768.size a ≤ S1x768.size a
  hwx2_2 : ∀ i : grid2.Coords, EltTy.bits .f32 = 32 ∨ (Rect.block (s := S1x768) S1x768.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S16384x512.size a
  hwx2_3 : ∀ i : grid2.Coords, EltTy.bits .f32 = 32 ∨ (Rect.block (s := S16384x512) S1024x512.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S256x768.size a ≤ S256x768.size a
  hwx2_4 : ∀ i : grid2.Coords, EltTy.bits .bf16 = 32 ∨ (Rect.block (s := S256x768) S256x768.size (cc2_transform_4 i) (hinb2_4 i)).WholeWords (EltTy.packing .bf16)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S256x256.size a ≤ S256x256.size a
  hwx2_5 : ∀ i : grid2.Coords, EltTy.bits .bf16 = 32 ∨ (Rect.block (s := S256x256) S256x256.size (cc2_transform_5 i) (hinb2_5 i)).WholeWords (EltTy.packing .bf16)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x256.size a ≤ S1x256.size a
  hwx2_6 : ∀ i : grid2.Coords, EltTy.bits .f32 = 32 ∨ (Rect.block (s := S1x256) S1x256.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x512.size a ≤ S16384x512.size a
  hwx2_7 : ∀ i : grid2.Coords, EltTy.bits .f32 = 32 ∨ (Rect.block (s := S16384x512) S1024x512.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x256.size a ≤ S8192x256.size a
  hwx3_0 : ∀ i : grid3.Coords, EltTy.bits .bf16 = 32 ∨ (Rect.block (s := S8192x256) S1024x256.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x768.size a ≤ S256x768.size a
  hwx3_1 : ∀ i : grid3.Coords, EltTy.bits .bf16 = 32 ∨ (Rect.block (s := S256x768) S256x768.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x768.size a ≤ S1x768.size a
  hwx3_2 : ∀ i : grid3.Coords, EltTy.bits .f32 = 32 ∨ (Rect.block (s := S1x768) S1x768.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x512.size a
  hwx3_3 : ∀ i : grid3.Coords, EltTy.bits .f32 = 32 ∨ (Rect.block (s := S8192x512) S1024x512.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S256x768.size a ≤ S256x768.size a
  hwx3_4 : ∀ i : grid3.Coords, EltTy.bits .bf16 = 32 ∨ (Rect.block (s := S256x768) S256x768.size (cc3_transform_4 i) (hinb3_4 i)).WholeWords (EltTy.packing .bf16)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S256x256.size a ≤ S256x256.size a
  hwx3_5 : ∀ i : grid3.Coords, EltTy.bits .bf16 = 32 ∨ (Rect.block (s := S256x256) S256x256.size (cc3_transform_5 i) (hinb3_5 i)).WholeWords (EltTy.packing .bf16)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x256.size a ≤ S1x256.size a
  hwx3_6 : ∀ i : grid3.Coords, EltTy.bits .f32 = 32 ∨ (Rect.block (s := S1x256) S1x256.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S1024x512.size a ≤ S8192x512.size a
  hwx3_7 : ∀ i : grid3.Coords, EltTy.bits .f32 = 32 ∨ (Rect.block (s := S8192x512) S1024x512.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S4096x256.size a
  hwx4_0 : ∀ i : grid4.Coords, EltTy.bits .bf16 = 32 ∨ (Rect.block (s := S4096x256) S1024x256.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x768.size a ≤ S256x768.size a
  hwx4_1 : ∀ i : grid4.Coords, EltTy.bits .bf16 = 32 ∨ (Rect.block (s := S256x768) S256x768.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x768.size a ≤ S1x768.size a
  hwx4_2 : ∀ i : grid4.Coords, EltTy.bits .f32 = 32 ∨ (Rect.block (s := S1x768) S1x768.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S4096x512.size a
  hwx4_3 : ∀ i : grid4.Coords, EltTy.bits .f32 = 32 ∨ (Rect.block (s := S4096x512) S1024x512.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S256x768.size a ≤ S256x768.size a
  hwx4_4 : ∀ i : grid4.Coords, EltTy.bits .bf16 = 32 ∨ (Rect.block (s := S256x768) S256x768.size (cc4_transform_4 i) (hinb4_4 i)).WholeWords (EltTy.packing .bf16)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .bf16 = 32 ∨ (Rect.block (s := S256x256) S256x256.size (cc4_transform_5 i) (hinb4_5 i)).WholeWords (EltTy.packing .bf16)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S1024x512.size a ≤ S4096x512.size a
  hwx4_7 : ∀ i : grid4.Coords, EltTy.bits .f32 = 32 ∨ (Rect.block (s := S4096x512) S1024x512.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x256.size a ≤ S2048x256.size a
  hwx5_0 : ∀ i : grid5.Coords, EltTy.bits .bf16 = 32 ∨ (Rect.block (s := S2048x256) S1024x256.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S256x768.size a ≤ S256x768.size a
  hwx5_1 : ∀ i : grid5.Coords, EltTy.bits .bf16 = 32 ∨ (Rect.block (s := S256x768) S256x768.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x768.size a ≤ S1x768.size a
  hwx5_2 : ∀ i : grid5.Coords, EltTy.bits .f32 = 32 ∨ (Rect.block (s := S1x768) S1x768.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x512.size a ≤ S2048x512.size a
  hwx5_3 : ∀ i : grid5.Coords, EltTy.bits .f32 = 32 ∨ (Rect.block (s := S2048x512) S1024x512.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S256x768.size a ≤ S256x768.size a
  hwx5_4 : ∀ i : grid5.Coords, EltTy.bits .bf16 = 32 ∨ (Rect.block (s := S256x768) S256x768.size (cc5_transform_4 i) (hinb5_4 i)).WholeWords (EltTy.packing .bf16)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S256x256.size a ≤ S256x256.size a
  hwx5_5 : ∀ i : grid5.Coords, EltTy.bits .bf16 = 32 ∨ (Rect.block (s := S256x256) S256x256.size (cc5_transform_5 i) (hinb5_5 i)).WholeWords (EltTy.packing .bf16)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x256.size a ≤ S1x256.size a
  hwx5_6 : ∀ i : grid5.Coords, EltTy.bits .f32 = 32 ∨ (Rect.block (s := S1x256) S1x256.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S1024x512.size a ≤ S2048x512.size a
  hwx5_7 : ∀ i : grid5.Coords, EltTy.bits .f32 = 32 ∨ (Rect.block (s := S2048x512) S1024x512.size (cc5_transform_7 i) (hinb5_7 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S1024x256.size a ≤ S1024x256.size a
  hwx6_0 : ∀ i : grid6.Coords, EltTy.bits .bf16 = 32 ∨ (Rect.block (s := S1024x256) S1024x256.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x768.size a ≤ S256x768.size a
  hwx6_1 : ∀ i : grid6.Coords, EltTy.bits .bf16 = 32 ∨ (Rect.block (s := S256x768) S256x768.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x768.size a ≤ S1x768.size a
  hwx6_2 : ∀ i : grid6.Coords, EltTy.bits .f32 = 32 ∨ (Rect.block (s := S1x768) S1x768.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S1024x512.size a ≤ S1024x512.size a
  hwx6_3 : ∀ i : grid6.Coords, EltTy.bits .f32 = 32 ∨ (Rect.block (s := S1024x512) S1024x512.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S256x768.size a ≤ S256x768.size a
  hwx6_4 : ∀ i : grid6.Coords, EltTy.bits .bf16 = 32 ∨ (Rect.block (s := S256x768) S256x768.size (cc6_transform_4 i) (hinb6_4 i)).WholeWords (EltTy.packing .bf16)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S256x256.size a ≤ S256x256.size a
  hwx6_5 : ∀ i : grid6.Coords, EltTy.bits .bf16 = 32 ∨ (Rect.block (s := S256x256) S256x256.size (cc6_transform_5 i) (hinb6_5 i)).WholeWords (EltTy.packing .bf16)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x256.size a ≤ S1x256.size a
  hwx6_6 : ∀ i : grid6.Coords, EltTy.bits .f32 = 32 ∨ (Rect.block (s := S1x256) S1x256.size (cc6_transform_6 i) (hinb6_6 i)).WholeWords (EltTy.packing .f32)
  hstage6_7 : ∀ j, (stage6_7 j).IsWhole
  nbuf6_7 : grid6.bufCount reads6_7 false = 1
  hreads6_7 : ∀ i i' : grid6.Coords, (∀ a, reads6_7 a = true → i a = i' a) → cc6_transform_7 i = cc6_transform_7 i'
  hinb6_7 : ∀ (i : grid6.Coords) a, (cc6_transform_7 i a + 1) * S1024x512.size a ≤ S1024x512.size a
  hwx6_7 : ∀ i : grid6.Coords, EltTy.bits .f32 = 32 ∨ (Rect.block (s := S1024x512) S1024x512.size (cc6_transform_7 i) (hinb6_7 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S512x256.size a ≤ S512x256.size a
  hwx7_0 : ∀ i : grid7.Coords, EltTy.bits .bf16 = 32 ∨ (Rect.block (s := S512x256) S512x256.size (cc7_transform_0 i) (hinb7_0 i)).WholeWords (EltTy.packing .bf16)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x768.size a ≤ S256x768.size a
  hwx7_1 : ∀ i : grid7.Coords, EltTy.bits .bf16 = 32 ∨ (Rect.block (s := S256x768) S256x768.size (cc7_transform_1 i) (hinb7_1 i)).WholeWords (EltTy.packing .bf16)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x768.size a ≤ S1x768.size a
  hwx7_2 : ∀ i : grid7.Coords, EltTy.bits .f32 = 32 ∨ (Rect.block (s := S1x768) S1x768.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S512x512.size a
  hwx7_3 : ∀ i : grid7.Coords, EltTy.bits .f32 = 32 ∨ (Rect.block (s := S512x512) S512x512.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S256x768.size a ≤ S256x768.size a
  hwx7_4 : ∀ i : grid7.Coords, EltTy.bits .bf16 = 32 ∨ (Rect.block (s := S256x768) S256x768.size (cc7_transform_4 i) (hinb7_4 i)).WholeWords (EltTy.packing .bf16)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S256x256.size a ≤ S256x256.size a
  hwx7_5 : ∀ i : grid7.Coords, EltTy.bits .bf16 = 32 ∨ (Rect.block (s := S256x256) S256x256.size (cc7_transform_5 i) (hinb7_5 i)).WholeWords (EltTy.packing .bf16)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x256.size a ≤ S1x256.size a
  hwx7_6 : ∀ i : grid7.Coords, EltTy.bits .f32 = 32 ∨ (Rect.block (s := S1x256) S1x256.size (cc7_transform_6 i) (hinb7_6 i)).WholeWords (EltTy.packing .f32)
  hstage7_7 : ∀ j, (stage7_7 j).IsWhole
  nbuf7_7 : grid7.bufCount reads7_7 false = 1
  hreads7_7 : ∀ i i' : grid7.Coords, (∀ a, reads7_7 a = true → i a = i' a) → cc7_transform_7 i = cc7_transform_7 i'
  hinb7_7 : ∀ (i : grid7.Coords) a, (cc7_transform_7 i a + 1) * S512x512.size a ≤ S512x512.size a
  hwx7_7 : ∀ i : grid7.Coords, EltTy.bits .f32 = 32 ∨ (Rect.block (s := S512x512) S512x512.size (cc7_transform_7 i) (hinb7_7 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S256x256.size a ≤ S256x256.size a
  hwx8_0 : ∀ i : grid8.Coords, EltTy.bits .bf16 = 32 ∨ (Rect.block (s := S256x256) S256x256.size (cc8_transform_0 i) (hinb8_0 i)).WholeWords (EltTy.packing .bf16)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S256x768.size a ≤ S256x768.size a
  hwx8_1 : ∀ i : grid8.Coords, EltTy.bits .bf16 = 32 ∨ (Rect.block (s := S256x768) S256x768.size (cc8_transform_1 i) (hinb8_1 i)).WholeWords (EltTy.packing .bf16)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x768.size a ≤ S1x768.size a
  hwx8_2 : ∀ i : grid8.Coords, EltTy.bits .f32 = 32 ∨ (Rect.block (s := S1x768) S1x768.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S256x512.size a ≤ S256x512.size a
  hwx8_3 : ∀ i : grid8.Coords, EltTy.bits .f32 = 32 ∨ (Rect.block (s := S256x512) S256x512.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S256x768.size a ≤ S256x768.size a
  hwx8_4 : ∀ i : grid8.Coords, EltTy.bits .bf16 = 32 ∨ (Rect.block (s := S256x768) S256x768.size (cc8_transform_4 i) (hinb8_4 i)).WholeWords (EltTy.packing .bf16)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S256x256.size a ≤ S256x256.size a
  hwx8_5 : ∀ i : grid8.Coords, EltTy.bits .bf16 = 32 ∨ (Rect.block (s := S256x256) S256x256.size (cc8_transform_5 i) (hinb8_5 i)).WholeWords (EltTy.packing .bf16)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x256.size a ≤ S1x256.size a
  hwx8_6 : ∀ i : grid8.Coords, EltTy.bits .f32 = 32 ∨ (Rect.block (s := S1x256) S1x256.size (cc8_transform_6 i) (hinb8_6 i)).WholeWords (EltTy.packing .f32)
  hstage8_7 : ∀ j, (stage8_7 j).IsWhole
  nbuf8_7 : grid8.bufCount reads8_7 false = 1
  hreads8_7 : ∀ i i' : grid8.Coords, (∀ a, reads8_7 a = true → i a = i' a) → cc8_transform_7 i = cc8_transform_7 i'
  hinb8_7 : ∀ (i : grid8.Coords) a, (cc8_transform_7 i a + 1) * S256x512.size a ≤ S256x512.size a
  hwx8_7 : ∀ i : grid8.Coords, EltTy.bits .f32 = 32 ∨ (Rect.block (s := S256x512) S256x512.size (cc8_transform_7 i) (hinb8_7 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S128x256.size a ≤ S128x256.size a
  hwx9_0 : ∀ i : grid9.Coords, EltTy.bits .bf16 = 32 ∨ (Rect.block (s := S128x256) S128x256.size (cc9_transform_0 i) (hinb9_0 i)).WholeWords (EltTy.packing .bf16)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S256x768.size a ≤ S256x768.size a
  hwx9_1 : ∀ i : grid9.Coords, EltTy.bits .bf16 = 32 ∨ (Rect.block (s := S256x768) S256x768.size (cc9_transform_1 i) (hinb9_1 i)).WholeWords (EltTy.packing .bf16)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x768.size a ≤ S1x768.size a
  hwx9_2 : ∀ i : grid9.Coords, EltTy.bits .f32 = 32 ∨ (Rect.block (s := S1x768) S1x768.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S128x512.size a ≤ S128x512.size a
  hwx9_3 : ∀ i : grid9.Coords, EltTy.bits .f32 = 32 ∨ (Rect.block (s := S128x512) S128x512.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S256x768.size a ≤ S256x768.size a
  hwx9_4 : ∀ i : grid9.Coords, EltTy.bits .bf16 = 32 ∨ (Rect.block (s := S256x768) S256x768.size (cc9_transform_4 i) (hinb9_4 i)).WholeWords (EltTy.packing .bf16)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S256x256.size a ≤ S256x256.size a
  hwx9_5 : ∀ i : grid9.Coords, EltTy.bits .bf16 = 32 ∨ (Rect.block (s := S256x256) S256x256.size (cc9_transform_5 i) (hinb9_5 i)).WholeWords (EltTy.packing .bf16)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x256.size a ≤ S1x256.size a
  hwx9_6 : ∀ i : grid9.Coords, EltTy.bits .f32 = 32 ∨ (Rect.block (s := S1x256) S1x256.size (cc9_transform_6 i) (hinb9_6 i)).WholeWords (EltTy.packing .f32)
  hstage9_7 : ∀ j, (stage9_7 j).IsWhole
  nbuf9_7 : grid9.bufCount reads9_7 false = 1
  hreads9_7 : ∀ i i' : grid9.Coords, (∀ a, reads9_7 a = true → i a = i' a) → cc9_transform_7 i = cc9_transform_7 i'
  hinb9_7 : ∀ (i : grid9.Coords) a, (cc9_transform_7 i a + 1) * S128x512.size a ≤ S128x512.size a
  hwx9_7 : ∀ i : grid9.Coords, EltTy.bits .f32 = 32 ∨ (Rect.block (s := S128x512) S128x512.size (cc9_transform_7 i) (hinb9_7 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S64x256.size a ≤ S64x256.size a
  hwx10_0 : ∀ i : grid10.Coords, EltTy.bits .bf16 = 32 ∨ (Rect.block (s := S64x256) S64x256.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S256x768.size a ≤ S256x768.size a
  hwx10_1 : ∀ i : grid10.Coords, EltTy.bits .bf16 = 32 ∨ (Rect.block (s := S256x768) S256x768.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x768.size a ≤ S1x768.size a
  hwx10_2 : ∀ i : grid10.Coords, EltTy.bits .f32 = 32 ∨ (Rect.block (s := S1x768) S1x768.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S64x512.size a ≤ S64x512.size a
  hwx10_3 : ∀ i : grid10.Coords, EltTy.bits .f32 = 32 ∨ (Rect.block (s := S64x512) S64x512.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S256x768.size a ≤ S256x768.size a
  hwx10_4 : ∀ i : grid10.Coords, EltTy.bits .bf16 = 32 ∨ (Rect.block (s := S256x768) S256x768.size (cc10_transform_4 i) (hinb10_4 i)).WholeWords (EltTy.packing .bf16)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S256x256.size a ≤ S256x256.size a
  hwx10_5 : ∀ i : grid10.Coords, EltTy.bits .bf16 = 32 ∨ (Rect.block (s := S256x256) S256x256.size (cc10_transform_5 i) (hinb10_5 i)).WholeWords (EltTy.packing .bf16)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x256.size a ≤ S1x256.size a
  hwx10_6 : ∀ i : grid10.Coords, EltTy.bits .f32 = 32 ∨ (Rect.block (s := S1x256) S1x256.size (cc10_transform_6 i) (hinb10_6 i)).WholeWords (EltTy.packing .f32)
  hstage10_7 : ∀ j, (stage10_7 j).IsWhole
  nbuf10_7 : grid10.bufCount reads10_7 false = 1
  hreads10_7 : ∀ i i' : grid10.Coords, (∀ a, reads10_7 a = true → i a = i' a) → cc10_transform_7 i = cc10_transform_7 i'
  hinb10_7 : ∀ (i : grid10.Coords) a, (cc10_transform_7 i a + 1) * S64x512.size a ≤ S64x512.size a
  hwx10_7 : ∀ i : grid10.Coords, EltTy.bits .f32 = 32 ∨ (Rect.block (s := S64x512) S64x512.size (cc10_transform_7 i) (hinb10_7 i)).WholeWords (EltTy.packing .f32)
  hrank11 : 0 < grid11.rank
  hstage11_0 : ∀ j, (stage11_0 j).IsWhole
  nbuf11_0 : grid11.bufCount reads11_0 false = 1
  hreads11_0 : ∀ i i' : grid11.Coords, (∀ a, reads11_0 a = true → i a = i' a) → cc11_transform_0 i = cc11_transform_0 i'
  hinb11_0 : ∀ (i : grid11.Coords) a, (cc11_transform_0 i a + 1) * S32x256.size a ≤ S32x256.size a
  hwx11_0 : ∀ i : grid11.Coords, EltTy.bits .bf16 = 32 ∨ (Rect.block (s := S32x256) S32x256.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S256x768.size a ≤ S256x768.size a
  hwx11_1 : ∀ i : grid11.Coords, EltTy.bits .bf16 = 32 ∨ (Rect.block (s := S256x768) S256x768.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x768.size a ≤ S1x768.size a
  hwx11_2 : ∀ i : grid11.Coords, EltTy.bits .f32 = 32 ∨ (Rect.block (s := S1x768) S1x768.size (cc11_transform_2 i) (hinb11_2 i)).WholeWords (EltTy.packing .f32)
  hstage11_3 : ∀ j, (stage11_3 j).IsWhole
  nbuf11_3 : grid11.bufCount reads11_3 false = 1
  hreads11_3 : ∀ i i' : grid11.Coords, (∀ a, reads11_3 a = true → i a = i' a) → cc11_transform_3 i = cc11_transform_3 i'
  hinb11_3 : ∀ (i : grid11.Coords) a, (cc11_transform_3 i a + 1) * S32x512.size a ≤ S32x512.size a
  hwx11_3 : ∀ i : grid11.Coords, EltTy.bits .f32 = 32 ∨ (Rect.block (s := S32x512) S32x512.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S256x768.size a ≤ S256x768.size a
  hwx11_4 : ∀ i : grid11.Coords, EltTy.bits .bf16 = 32 ∨ (Rect.block (s := S256x768) S256x768.size (cc11_transform_4 i) (hinb11_4 i)).WholeWords (EltTy.packing .bf16)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S256x256.size a ≤ S256x256.size a
  hwx11_5 : ∀ i : grid11.Coords, EltTy.bits .bf16 = 32 ∨ (Rect.block (s := S256x256) S256x256.size (cc11_transform_5 i) (hinb11_5 i)).WholeWords (EltTy.packing .bf16)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x256.size a ≤ S1x256.size a
  hwx11_6 : ∀ i : grid11.Coords, EltTy.bits .f32 = 32 ∨ (Rect.block (s := S1x256) S1x256.size (cc11_transform_6 i) (hinb11_6 i)).WholeWords (EltTy.packing .f32)
  hstage11_7 : ∀ j, (stage11_7 j).IsWhole
  nbuf11_7 : grid11.bufCount reads11_7 false = 1
  hreads11_7 : ∀ i i' : grid11.Coords, (∀ a, reads11_7 a = true → i a = i' a) → cc11_transform_7 i = cc11_transform_7 i'
  hinb11_7 : ∀ (i : grid11.Coords) a, (cc11_transform_7 i a + 1) * S32x512.size a ≤ S32x512.size a
  hwx11_7 : ∀ i : grid11.Coords, EltTy.bits .f32 = 32 ∨ (Rect.block (s := S32x512) S32x512.size (cc11_transform_7 i) (hinb11_7 i)).WholeWords (EltTy.packing .f32)
  hrank12 : 0 < grid12.rank
  hstage12_0 : ∀ j, (stage12_0 j).IsWhole
  nbuf12_0 : grid12.bufCount reads12_0 true = 1
  hreads12_0 : ∀ i i' : grid12.Coords, (∀ a, reads12_0 a = true → i a = i' a) → cc12_transform_0 i = cc12_transform_0 i'
  hinb12_0 : ∀ (i : grid12.Coords) a, (cc12_transform_0 i a + 1) * S32x256.size a ≤ S32x256.size a
  hwx12_0 : ∀ i : grid12.Coords, EltTy.bits .f32 = 32 ∨ (Rect.block (s := S32x256) S32x256.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S256x104.size a ≤ S256x104.size a
  hwx12_1 : ∀ i : grid12.Coords, EltTy.bits .bf16 = 32 ∨ (Rect.block (s := S256x104) S256x104.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x104.size a ≤ S1x104.size a
  hwx12_2 : ∀ i : grid12.Coords, EltTy.bits .f32 = 32 ∨ (Rect.block (s := S1x104) S1x104.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S32x104.size a ≤ S32x104.size a
  hwx12_3 : ∀ i : grid12.Coords, EltTy.bits .f32 = 32 ∨ (Rect.block (s := S32x104) S32x104.size (cc12_transform_3 i) (hinb12_3 i)).WholeWords (EltTy.packing .f32)

variable [Facts₀]

def scatter_S20000x256_S1_S256_0_0_0_0 : ScatterDims S20000x256 S1 S256 where
  updateWindowDims := [0]
  insertedWindowDims := [0]
  scatterDimsToOperandDims := [0]
  indexVectorDim := 0
  wf := scatter_S20000x256_S1_S256_0_0_0_0_wf
def gather_S20000x256_S131040x1_S131040x256_1_0_n_n_0_1_1256 : GatherDims S20000x256 S131040x1 S131040x256 where
  offsetDims := [1]
  collapsedSliceDims := [0]
  operandBatchingDims := []
  startIndicesBatchingDims := []
  startIndexMap := [0]
  indexVectorDim := 1
  sliceSizes := ![1, 256]
  wf := gather_S20000x256_S131040x1_S131040x256_1_0_n_n_0_1_1256_wf
def scatter_S32768x512_S65536x1_S65536x512_1_0_0_1 : ScatterDims S32768x512 S65536x1 S65536x512 where
  updateWindowDims := [1]
  insertedWindowDims := [0]
  scatterDimsToOperandDims := [0]
  indexVectorDim := 1
  wf := scatter_S32768x512_S65536x1_S65536x512_1_0_0_1_wf
def scatter_S16384x512_S32768x1_S32768x512_1_0_0_1 : ScatterDims S16384x512 S32768x1 S32768x512 where
  updateWindowDims := [1]
  insertedWindowDims := [0]
  scatterDimsToOperandDims := [0]
  indexVectorDim := 1
  wf := scatter_S16384x512_S32768x1_S32768x512_1_0_0_1_wf
def scatter_S8192x512_S16384x1_S16384x512_1_0_0_1 : ScatterDims S8192x512 S16384x1 S16384x512 where
  updateWindowDims := [1]
  insertedWindowDims := [0]
  scatterDimsToOperandDims := [0]
  indexVectorDim := 1
  wf := scatter_S8192x512_S16384x1_S16384x512_1_0_0_1_wf
def scatter_S4096x512_S8192x1_S8192x512_1_0_0_1 : ScatterDims S4096x512 S8192x1 S8192x512 where
  updateWindowDims := [1]
  insertedWindowDims := [0]
  scatterDimsToOperandDims := [0]
  indexVectorDim := 1
  wf := scatter_S4096x512_S8192x1_S8192x512_1_0_0_1_wf
def scatter_S2048x512_S4096x1_S4096x512_1_0_0_1 : ScatterDims S2048x512 S4096x1 S4096x512 where
  updateWindowDims := [1]
  insertedWindowDims := [0]
  scatterDimsToOperandDims := [0]
  indexVectorDim := 1
  wf := scatter_S2048x512_S4096x1_S4096x512_1_0_0_1_wf
def scatter_S1024x512_S2048x1_S2048x512_1_0_0_1 : ScatterDims S1024x512 S2048x1 S2048x512 where
  updateWindowDims := [1]
  insertedWindowDims := [0]
  scatterDimsToOperandDims := [0]
  indexVectorDim := 1
  wf := scatter_S1024x512_S2048x1_S2048x512_1_0_0_1_wf
def scatter_S512x512_S1024x1_S1024x512_1_0_0_1 : ScatterDims S512x512 S1024x1 S1024x512 where
  updateWindowDims := [1]
  insertedWindowDims := [0]
  scatterDimsToOperandDims := [0]
  indexVectorDim := 1
  wf := scatter_S512x512_S1024x1_S1024x512_1_0_0_1_wf
def scatter_S256x512_S512x1_S512x512_1_0_0_1 : ScatterDims S256x512 S512x1 S512x512 where
  updateWindowDims := [1]
  insertedWindowDims := [0]
  scatterDimsToOperandDims := [0]
  indexVectorDim := 1
  wf := scatter_S256x512_S512x1_S512x512_1_0_0_1_wf
def scatter_S128x512_S256x1_S256x512_1_0_0_1 : ScatterDims S128x512 S256x1 S256x512 where
  updateWindowDims := [1]
  insertedWindowDims := [0]
  scatterDimsToOperandDims := [0]
  indexVectorDim := 1
  wf := scatter_S128x512_S256x1_S256x512_1_0_0_1_wf
def scatter_S64x512_S128x1_S128x512_1_0_0_1 : ScatterDims S64x512 S128x1 S128x512 where
  updateWindowDims := [1]
  insertedWindowDims := [0]
  scatterDimsToOperandDims := [0]
  indexVectorDim := 1
  wf := scatter_S64x512_S128x1_S128x512_1_0_0_1_wf
def scatter_S32x512_S64x1_S64x512_1_0_0_1 : ScatterDims S32x512 S64x1 S64x512 where
  updateWindowDims := [1]
  insertedWindowDims := [0]
  scatterDimsToOperandDims := [0]
  indexVectorDim := 1
  wf := scatter_S32x512_S64x1_S64x512_1_0_0_1_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def dot_S128x256_S256x768_S128x768_1_0_0_1_n_n : DotDims S128x256 S256x768 S128x768 where
  lhsContracting := [1]
  rhsContracting := [0]
  lhsNonContracting := [0]
  rhsNonContracting := [1]
  lhsBatch := []
  rhsBatch := []
  wf := dot_S128x256_S256x768_S128x768_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def dot_S32x256_S256x768_S32x768_1_0_0_1_n_n : DotDims S32x256 S256x768 S32x768 where
  lhsContracting := [1]
  rhsContracting := [0]
  lhsNonContracting := [0]
  rhsNonContracting := [1]
  lhsBatch := []
  rhsBatch := []
  wf := dot_S32x256_S256x768_S32x768_1_0_0_1_n_n_wf
def dot_S32x256_S256x256_S32x256_1_0_0_1_n_n : DotDims S32x256 S256x256 S32x256 where
  lhsContracting := [1]
  rhsContracting := [0]
  lhsNonContracting := [0]
  rhsNonContracting := [1]
  lhsBatch := []
  rhsBatch := []
  wf := dot_S32x256_S256x256_S32x256_1_0_0_1_n_n_wf
def dot_S32x256_S256x104_S32x104_1_0_0_1_n_n : DotDims S32x256 S256x104 S32x104 where
  lhsContracting := [1]
  rhsContracting := [0]
  lhsNonContracting := [0]
  rhsNonContracting := [1]
  lhsBatch := []
  rhsBatch := []
  wf := dot_S32x256_S256x104_S32x104_1_0_0_1_n_n_wf

abbrev win0_0 : Pipeline.Window sig grid0 :=
  Pipeline.Window.ofSpec (Memref.whole main_call0_v24) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v12) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v14) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v19) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v25) S1024x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_call0_v27) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v12) S256x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v39) S1024x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_call0_v16) S256x768.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v14) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_call0_v19) S1x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_call0_v40) S1024x512.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_call0_v42) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_call0_v12) S256x768.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S1x768.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_call0_v54) S1024x512.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_call0_v16) S256x768.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_call0_v14) S256x256.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_call0_v19) S1x256.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_call0_v55) S1024x512.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_call0_v57) S1024x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_call0_v12) S256x768.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S1x768.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_call0_v69) S1024x512.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_call0_v16) S256x768.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_call0_v14) S256x256.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_call0_v19) S1x256.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_call0_v70) S1024x512.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_call0_v72) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_call0_v12) S256x768.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg5) S1x768.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_call0_v84) S1024x512.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_call0_v16) S256x768.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_call0_v14) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_call0_v19) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_call0_v85) S1024x512.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_call0_v87) S1024x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_call0_v12) S256x768.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_arg5) S1x768.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_call0_v99) S1024x512.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_call0_v16) S256x768.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_call0_v14) S256x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_call0_v19) S1x256.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_call0_v100) S1024x512.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_call0_v102) S1024x256.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_call0_v12) S256x768.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg5) S1x768.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_call0_v114) S1024x512.size cc6_transform_3 reads6_3 false false 1 stage6_3 sem6_3
    hrank6 hreads6_3 hinb6_3 nbuf6_3 (Memref.isWhole_whole _) hwx6_3 hstage6_3

abbrev win6_4 : Pipeline.Window sig grid6 :=
  Pipeline.Window.ofSpec (Memref.whole main_call0_v16) S256x768.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_call0_v14) S256x256.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_call0_v19) S1x256.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_call0_v115) S1024x512.size cc6_transform_7 reads6_7 true false 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_call0_v117) S512x256.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_call0_v12) S256x768.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_arg5) S1x768.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_call0_v129) S512x512.size cc7_transform_3 reads7_3 false false 1 stage7_3 sem7_3
    hrank7 hreads7_3 hinb7_3 nbuf7_3 (Memref.isWhole_whole _) hwx7_3 hstage7_3

abbrev win7_4 : Pipeline.Window sig grid7 :=
  Pipeline.Window.ofSpec (Memref.whole main_call0_v16) S256x768.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_call0_v14) S256x256.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_call0_v19) S1x256.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_call0_v130) S512x512.size cc7_transform_7 reads7_7 true false 1 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

abbrev win8_0 : Pipeline.Window sig grid8 :=
  Pipeline.Window.ofSpec (Memref.whole main_call0_v132) S256x256.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_call0_v12) S256x768.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_arg5) S1x768.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_call0_v144) S256x512.size cc8_transform_3 reads8_3 false false 1 stage8_3 sem8_3
    hrank8 hreads8_3 hinb8_3 nbuf8_3 (Memref.isWhole_whole _) hwx8_3 hstage8_3

abbrev win8_4 : Pipeline.Window sig grid8 :=
  Pipeline.Window.ofSpec (Memref.whole main_call0_v16) S256x768.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_call0_v14) S256x256.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_call0_v19) S1x256.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_call0_v145) S256x512.size cc8_transform_7 reads8_7 true false 1 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_call0_v147) S128x256.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_call0_v12) S256x768.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_arg5) S1x768.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_call0_v159) S128x512.size cc9_transform_3 reads9_3 false false 1 stage9_3 sem9_3
    hrank9 hreads9_3 hinb9_3 nbuf9_3 (Memref.isWhole_whole _) hwx9_3 hstage9_3

abbrev win9_4 : Pipeline.Window sig grid9 :=
  Pipeline.Window.ofSpec (Memref.whole main_call0_v16) S256x768.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_call0_v14) S256x256.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_call0_v19) S1x256.size cc9_transform_6 reads9_6 false true 1 stage9_6 sem9_6
    hrank9 hreads9_6 hinb9_6 nbuf9_6 (Memref.isWhole_whole _) hwx9_6 hstage9_6

abbrev win9_7 : Pipeline.Window sig grid9 :=
  Pipeline.Window.ofSpec (Memref.whole main_call0_v160) S128x512.size cc9_transform_7 reads9_7 true false 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_call0_v162) S64x256.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_call0_v12) S256x768.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_arg5) S1x768.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_call0_v174) S64x512.size cc10_transform_3 reads10_3 false false 1 stage10_3 sem10_3
    hrank10 hreads10_3 hinb10_3 nbuf10_3 (Memref.isWhole_whole _) hwx10_3 hstage10_3

abbrev win10_4 : Pipeline.Window sig grid10 :=
  Pipeline.Window.ofSpec (Memref.whole main_call0_v16) S256x768.size cc10_transform_4 reads10_4 false true 1 stage10_4 sem10_4
    hrank10 hreads10_4 hinb10_4 nbuf10_4 (Memref.isWhole_whole _) hwx10_4 hstage10_4

abbrev win10_5 : Pipeline.Window sig grid10 :=
  Pipeline.Window.ofSpec (Memref.whole main_call0_v14) S256x256.size cc10_transform_5 reads10_5 false true 1 stage10_5 sem10_5
    hrank10 hreads10_5 hinb10_5 nbuf10_5 (Memref.isWhole_whole _) hwx10_5 hstage10_5

abbrev win10_6 : Pipeline.Window sig grid10 :=
  Pipeline.Window.ofSpec (Memref.whole main_call0_v19) S1x256.size cc10_transform_6 reads10_6 false true 1 stage10_6 sem10_6
    hrank10 hreads10_6 hinb10_6 nbuf10_6 (Memref.isWhole_whole _) hwx10_6 hstage10_6

abbrev win10_7 : Pipeline.Window sig grid10 :=
  Pipeline.Window.ofSpec (Memref.whole main_call0_v175) S64x512.size cc10_transform_7 reads10_7 true false 1 stage10_7 sem10_7
    hrank10 hreads10_7 hinb10_7 nbuf10_7 (Memref.isWhole_whole _) hwx10_7 hstage10_7

abbrev win10 : Fin 8 → Pipeline.Window sig grid10 := fun | 0 => win10_0 | 1 => win10_1 | 2 => win10_2 | 3 => win10_3 | 4 => win10_4 | 5 => win10_5 | 6 => win10_6 | 7 => win10_7 | ⟨_ + 8, h⟩ => absurd h (Nat.not_lt.2 (Nat.le_add_left _ _))
abbrev spec10 : Fin 8 → Pipeline.WinSpec sig grid10.rank := fun w => (win10 w).toWinSpec

abbrev win11_0 : Pipeline.Window sig grid11 :=
  Pipeline.Window.ofSpec (Memref.whole main_call0_v177) S32x256.size cc11_transform_0 reads11_0 false false 1 stage11_0 sem11_0
    hrank11 hreads11_0 hinb11_0 nbuf11_0 (Memref.isWhole_whole _) hwx11_0 hstage11_0

abbrev win11_1 : Pipeline.Window sig grid11 :=
  Pipeline.Window.ofSpec (Memref.whole main_call0_v12) S256x768.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_arg5) S1x768.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_call0_v189) S32x512.size cc11_transform_3 reads11_3 false false 1 stage11_3 sem11_3
    hrank11 hreads11_3 hinb11_3 nbuf11_3 (Memref.isWhole_whole _) hwx11_3 hstage11_3

abbrev win11_4 : Pipeline.Window sig grid11 :=
  Pipeline.Window.ofSpec (Memref.whole main_call0_v16) S256x768.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_call0_v14) S256x256.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_call0_v19) S1x256.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_call0_v190) S32x512.size cc11_transform_7 reads11_7 true false 1 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_call0_v191) S32x256.size cc12_transform_0 reads12_0 false true 1 stage12_0 sem12_0
    hrank12 hreads12_0 hinb12_0 nbuf12_0 (Memref.isWhole_whole _) hwx12_0 hstage12_0

abbrev win12_1 : Pipeline.Window sig grid12 :=
  Pipeline.Window.ofSpec (Memref.whole main_call0_v18) S256x104.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_call0_v20) S1x104.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v0) S32x104.size cc12_transform_3 reads12_3 true true 1 stage12_3 sem12_3
    hrank12 hreads12_3 hinb12_3 nbuf12_3 (Memref.isWhole_whole _) hwx12_3 hstage12_3

abbrev win12 : Fin 4 → Pipeline.Window sig grid12 := fun | 0 => win12_0 | 1 => win12_1 | 2 => win12_2 | 3 => win12_3 | ⟨_ + 4, h⟩ => absurd h (Nat.not_lt.2 (Nat.le_add_left _ _))
abbrev spec12 : Fin 4 → Pipeline.WinSpec sig grid12.rank := fun w => (win12 w).toWinSpec

class Facts : Prop extends Facts₀ where

variable [Facts]
-- ==== ReferenceIdeal.lean ====
abbrev S131040 : Shape := ⟨1, ![131040]⟩
abbrev S20000x256 : Shape := ⟨2, ![20000, 256]⟩
abbrev S768x256 : Shape := ⟨2, ![768, 256]⟩
abbrev S1x768 : Shape := ⟨2, ![1, 768]⟩
abbrev S256x256 : Shape := ⟨2, ![256, 256]⟩
abbrev S256 : Shape := ⟨1, ![256]⟩
abbrev S104x256 : Shape := ⟨2, ![104, 256]⟩
abbrev S104 : Shape := ⟨1, ![104]⟩
abbrev S_ : Shape := ⟨0, ![]⟩
abbrev S1 : Shape := ⟨1, ![1]⟩
abbrev S131040x1 : Shape := ⟨2, ![131040, 1]⟩
abbrev S131040x256 : Shape := ⟨2, ![131040, 256]⟩
abbrev S256x768 : Shape := ⟨2, ![256, 768]⟩
abbrev S131040x768 : Shape := ⟨2, ![131040, 768]⟩
abbrev S32 : Shape := ⟨1, ![32]⟩
abbrev S32x1 : Shape := ⟨2, ![32, 1]⟩
abbrev S2048 : Shape := ⟨1, ![2048]⟩
abbrev S1x2048 : Shape := ⟨2, ![1, 2048]⟩
abbrev S32x2048 : Shape := ⟨2, ![32, 2048]⟩
abbrev S65536 : Shape := ⟨1, ![65536]⟩
abbrev S65536x1 : Shape := ⟨2, ![65536, 1]⟩
abbrev S65536x768 : Shape := ⟨2, ![65536, 768]⟩
abbrev S65536x256 : Shape := ⟨2, ![65536, 256]⟩
abbrev S1024 : Shape := ⟨1, ![1024]⟩
abbrev S1x1024 : Shape := ⟨2, ![1, 1024]⟩
abbrev S32x1024 : Shape := ⟨2, ![32, 1024]⟩
abbrev S32768 : Shape := ⟨1, ![32768]⟩
abbrev S32768x1 : Shape := ⟨2, ![32768, 1]⟩
abbrev S32768x768 : Shape := ⟨2, ![32768, 768]⟩
abbrev S1x256 : Shape := ⟨2, ![1, 256]⟩
abbrev S32768x256 : Shape := ⟨2, ![32768, 256]⟩
abbrev S512 : Shape := ⟨1, ![512]⟩
abbrev S1x512 : Shape := ⟨2, ![1, 512]⟩
abbrev S32x512 : Shape := ⟨2, ![32, 512]⟩
abbrev S16384 : Shape := ⟨1, ![16384]⟩
abbrev S16384x1 : Shape := ⟨2, ![16384, 1]⟩
abbrev S16384x768 : Shape := ⟨2, ![16384, 768]⟩
abbrev S16384x256 : Shape := ⟨2, ![16384, 256]⟩
abbrev S32x256 : Shape := ⟨2, ![32, 256]⟩
abbrev S8192 : Shape := ⟨1, ![8192]⟩
abbrev S8192x1 : Shape := ⟨2, ![8192, 1]⟩
abbrev S8192x768 : Shape := ⟨2, ![8192, 768]⟩
abbrev S8192x256 : Shape := ⟨2, ![8192, 256]⟩
abbrev S128 : Shape := ⟨1, ![128]⟩
abbrev S1x128 : Shape := ⟨2, ![1, 128]⟩
abbrev S32x128 : Shape := ⟨2, ![32, 128]⟩
abbrev S4096 : Shape := ⟨1, ![4096]⟩
abbrev S4096x1 : Shape := ⟨2, ![4096, 1]⟩
abbrev S4096x768 : Shape := ⟨2, ![4096, 768]⟩
abbrev S4096x256 : Shape := ⟨2, ![4096, 256]⟩
abbrev S64 : Shape := ⟨1, ![64]⟩
abbrev S1x64 : Shape := ⟨2, ![1, 64]⟩
abbrev S32x64 : Shape := ⟨2, ![32, 64]⟩
abbrev S2048x1 : Shape := ⟨2, ![2048, 1]⟩
abbrev S2048x768 : Shape := ⟨2, ![2048, 768]⟩
abbrev S2048x256 : Shape := ⟨2, ![2048, 256]⟩
abbrev S1x32 : Shape := ⟨2, ![1, 32]⟩
abbrev S32x32 : Shape := ⟨2, ![32, 32]⟩
abbrev S1024x1 : Shape := ⟨2, ![1024, 1]⟩
abbrev S1024x768 : Shape := ⟨2, ![1024, 768]⟩
abbrev S1024x256 : Shape := ⟨2, ![1024, 256]⟩
abbrev S16 : Shape := ⟨1, ![16]⟩
abbrev S1x16 : Shape := ⟨2, ![1, 16]⟩
abbrev S32x16 : Shape := ⟨2, ![32, 16]⟩
abbrev S512x1 : Shape := ⟨2, ![512, 1]⟩
abbrev S512x768 : Shape := ⟨2, ![512, 768]⟩
abbrev S512x256 : Shape := ⟨2, ![512, 256]⟩
abbrev S8 : Shape := ⟨1, ![8]⟩
abbrev S1x8 : Shape := ⟨2, ![1, 8]⟩
abbrev S32x8 : Shape := ⟨2, ![32, 8]⟩
abbrev S256x1 : Shape := ⟨2, ![256, 1]⟩
abbrev S4 : Shape := ⟨1, ![4]⟩
abbrev S1x4 : Shape := ⟨2, ![1, 4]⟩
abbrev S32x4 : Shape := ⟨2, ![32, 4]⟩
abbrev S128x1 : Shape := ⟨2, ![128, 1]⟩
abbrev S128x768 : Shape := ⟨2, ![128, 768]⟩
abbrev S128x256 : Shape := ⟨2, ![128, 256]⟩
abbrev S2 : Shape := ⟨1, ![2]⟩
abbrev S1x2 : Shape := ⟨2, ![1, 2]⟩
abbrev S32x2 : Shape := ⟨2, ![32, 2]⟩
abbrev S64x1 : Shape := ⟨2, ![64, 1]⟩
abbrev S64x768 : Shape := ⟨2, ![64, 768]⟩
abbrev S64x256 : Shape := ⟨2, ![64, 256]⟩
abbrev S1x1 : Shape := ⟨2, ![1, 1]⟩
abbrev S32x768 : Shape := ⟨2, ![32, 768]⟩
abbrev S256x104 : Shape := ⟨2, ![256, 104]⟩
abbrev S32x104 : Shape := ⟨2, ![32, 104]⟩
abbrev S1x104 : Shape := ⟨2, ![1, 104]⟩

abbrev nBuf : Space → Nat
  | .hbm => 2004
  | .vmem => 0
  | .smem => 0
  | _ => 0

abbrev hbmTy0_0 (i : Nat) : BufTy := match i % 128 with
  | 0 => ⟨S131040, .i32⟩
  | 1 => ⟨S131040, .i32⟩
  | 2 => ⟨S20000x256, .f32⟩
  | 3 => ⟨S768x256, .f32⟩
  | 4 => ⟨S768x256, .f32⟩
  | 5 => ⟨S1x768, .f32⟩
  | 6 => ⟨S256x256, .f32⟩
  | 7 => ⟨S256, .f32⟩
  | 8 => ⟨S104x256, .f32⟩
  | 9 => ⟨S104, .f32⟩
  | 10 => ⟨S_, .i32⟩
  | 11 => ⟨S1, .i32⟩
  | 12 => ⟨S_, .f32⟩
  | 13 => ⟨S256, .f32⟩
  | 14 => ⟨S20000x256, .f32⟩
  | 15 => ⟨S_, .i32⟩
  | 16 => ⟨S131040, .i32⟩
  | 17 => ⟨S131040, .i1⟩
  | 18 => ⟨S_, .i32⟩
  | 19 => ⟨S131040, .i32⟩
  | 20 => ⟨S131040, .i32⟩
  | 21 => ⟨S131040, .i32⟩
  | 22 => ⟨S131040x1, .i32⟩
  | 23 => ⟨S131040x256, .f32⟩
  | 24 => ⟨S256x768, .f32⟩
  | 25 => ⟨S131040x768, .f32⟩
  | 26 => ⟨S_, .f32⟩
  | 27 => ⟨S131040x256, .f32⟩
  | 28 => ⟨S_, .f32⟩
  | 29 => ⟨S131040x256, .f32⟩
  | 30 => ⟨S32, .i32⟩
  | 31 => ⟨S_, .i32⟩
  | 32 => ⟨S32, .i32⟩
  | 33 => ⟨S32, .i32⟩
  | 34 => ⟨S32x1, .i32⟩
  | 35 => ⟨S_, .i32⟩
  | 36 => ⟨S32x1, .i32⟩
  | 37 => ⟨S32x1, .i32⟩
  | 38 => ⟨S2048, .i32⟩
  | 39 => ⟨S1x2048, .i32⟩
  | 40 => ⟨S32x2048, .i32⟩
  | 41 => ⟨S32x2048, .i32⟩
  | 42 => ⟨S32x2048, .i32⟩
  | 43 => ⟨S65536, .i32⟩
  | 44 => ⟨S_, .i32⟩
  | 45 => ⟨S65536, .i32⟩
  | 46 => ⟨S65536, .i1⟩
  | 47 => ⟨S_, .i32⟩
  | 48 => ⟨S65536, .i32⟩
  | 49 => ⟨S65536, .i32⟩
  | 50 => ⟨S65536, .i32⟩
  | 51 => ⟨S65536x1, .i32⟩
  | 52 => ⟨S65536x768, .f32⟩
  | 53 => ⟨S_, .f32⟩
  | 54 => ⟨S65536x256, .f32⟩
  | 55 => ⟨S65536x768, .f32⟩
  | 56 => ⟨S65536x768, .f32⟩
  | 57 => ⟨S65536x256, .f32⟩
  | 58 => ⟨S65536x256, .f32⟩
  | 59 => ⟨S65536x256, .f32⟩
  | 60 => ⟨S65536x256, .f32⟩
  | 61 => ⟨S65536x256, .f32⟩
  | 62 => ⟨S_, .f32⟩
  | 63 => ⟨S65536x256, .f32⟩
  | 64 => ⟨S65536x256, .f32⟩
  | 65 => ⟨S_, .f32⟩
  | 66 => ⟨S65536x256, .f32⟩
  | 67 => ⟨S65536x256, .f32⟩
  | 68 => ⟨S65536x256, .f32⟩
  | 69 => ⟨S65536x256, .f32⟩
  | 70 => ⟨S65536x256, .f32⟩
  | 71 => ⟨S65536x256, .f32⟩
  | 72 => ⟨S65536x256, .f32⟩
  | 73 => ⟨S_, .f32⟩
  | 74 => ⟨S65536x256, .f32⟩
  | 75 => ⟨S65536x256, .f32⟩
  | 76 => ⟨S_, .f32⟩
  | 77 => ⟨S65536x256, .f32⟩
  | 78 => ⟨S65536x256, .f32⟩
  | 79 => ⟨S65536x256, .f32⟩
  | 80 => ⟨S65536x256, .f32⟩
  | 81 => ⟨S_, .i32⟩
  | 82 => ⟨S65536, .i32⟩
  | 83 => ⟨S65536, .i1⟩
  | 84 => ⟨S_, .i32⟩
  | 85 => ⟨S65536, .i32⟩
  | 86 => ⟨S65536, .i32⟩
  | 87 => ⟨S65536, .i32⟩
  | 88 => ⟨S65536x1, .i32⟩
  | 89 => ⟨S131040x256, .f32⟩
  | 90 => ⟨S_, .i32⟩
  | 91 => ⟨S65536, .i32⟩
  | 92 => ⟨S65536, .i1⟩
  | 93 => ⟨S_, .i32⟩
  | 94 => ⟨S65536, .i32⟩
  | 95 => ⟨S65536, .i32⟩
  | 96 => ⟨S65536, .i32⟩
  | 97 => ⟨S65536x1, .i32⟩
  | 98 => ⟨S131040x256, .f32⟩
  | 99 => ⟨S32x1, .i32⟩
  | 100 => ⟨S_, .i32⟩
  | 101 => ⟨S32x1, .i32⟩
  | 102 => ⟨S32x1, .i32⟩
  | 103 => ⟨S1024, .i32⟩
  | 104 => ⟨S1x1024, .i32⟩
  | 105 => ⟨S32x1024, .i32⟩
  | 106 => ⟨S32x1024, .i32⟩
  | 107 => ⟨S32x1024, .i32⟩
  | 108 => ⟨S32768, .i32⟩
  | 109 => ⟨S_, .i32⟩
  | 110 => ⟨S32768, .i32⟩
  | 111 => ⟨S32768, .i1⟩
  | 112 => ⟨S_, .i32⟩
  | 113 => ⟨S32768, .i32⟩
  | 114 => ⟨S32768, .i32⟩
  | 115 => ⟨S32768, .i32⟩
  | 116 => ⟨S32768x1, .i32⟩
  | 117 => ⟨S32768x768, .f32⟩
  | 118 => ⟨S32x1, .i32⟩
  | 119 => ⟨S_, .i32⟩
  | 120 => ⟨S32x1, .i32⟩
  | 121 => ⟨S32x1, .i32⟩
  | 122 => ⟨S2048, .i32⟩
  | 123 => ⟨S1x2048, .i32⟩
  | 124 => ⟨S32x2048, .i32⟩
  | 125 => ⟨S32x2048, .i32⟩
  | 126 => ⟨S32x2048, .i32⟩
  | 127 => ⟨S65536, .i32⟩
  | _ => ⟨S131040, .i32⟩

abbrev hbmTy0_1 (i : Nat) : BufTy := match i % 128 with
  | 0 => ⟨S_, .i32⟩
  | 1 => ⟨S65536, .i32⟩
  | 2 => ⟨S65536, .i1⟩
  | 3 => ⟨S_, .i32⟩
  | 4 => ⟨S65536, .i32⟩
  | 5 => ⟨S65536, .i32⟩
  | 6 => ⟨S65536, .i32⟩
  | 7 => ⟨S65536x1, .i32⟩
  | 8 => ⟨S65536x256, .f32⟩
  | 9 => ⟨S_, .i32⟩
  | 10 => ⟨S65536, .i32⟩
  | 11 => ⟨S65536, .i1⟩
  | 12 => ⟨S_, .i32⟩
  | 13 => ⟨S65536, .i32⟩
  | 14 => ⟨S65536, .i32⟩
  | 15 => ⟨S65536, .i32⟩
  | 16 => ⟨S65536x1, .i32⟩
  | 17 => ⟨S65536x256, .f32⟩
  | 18 => ⟨S_, .i32⟩
  | 19 => ⟨S65536, .i32⟩
  | 20 => ⟨S65536, .i1⟩
  | 21 => ⟨S_, .i32⟩
  | 22 => ⟨S65536, .i32⟩
  | 23 => ⟨S65536, .i32⟩
  | 24 => ⟨S65536, .i32⟩
  | 25 => ⟨S65536x1, .i32⟩
  | 26 => ⟨S65536, .i32⟩
  | 27 => ⟨S_, .i32⟩
  | 28 => ⟨S_, .i32⟩
  | 29 => ⟨S65536, .i32⟩
  | 30 => ⟨S65536, .i32⟩
  | 31 => ⟨S65536, .i32⟩
  | 32 => ⟨S_, .i32⟩
  | 33 => ⟨S65536, .i32⟩
  | 34 => ⟨S65536, .i1⟩
  | 35 => ⟨S65536, .i32⟩
  | 36 => ⟨S65536, .i32⟩
  | 37 => ⟨S_, .i32⟩
  | 38 => ⟨S65536, .i32⟩
  | 39 => ⟨S65536, .i1⟩
  | 40 => ⟨S65536, .i1⟩
  | 41 => ⟨S_, .i32⟩
  | 42 => ⟨S65536, .i32⟩
  | 43 => ⟨S65536, .i32⟩
  | 44 => ⟨S65536, .i32⟩
  | 45 => ⟨S_, .i32⟩
  | 46 => ⟨S65536, .i32⟩
  | 47 => ⟨S65536, .i32⟩
  | 48 => ⟨S_, .i32⟩
  | 49 => ⟨S_, .i32⟩
  | 50 => ⟨S_, .i32⟩
  | 51 => ⟨S_, .i1⟩
  | 52 => ⟨S_, .i32⟩
  | 53 => ⟨S_, .i32⟩
  | 54 => ⟨S65536, .i32⟩
  | 55 => ⟨S65536, .i32⟩
  | 56 => ⟨S_, .i32⟩
  | 57 => ⟨S65536, .i32⟩
  | 58 => ⟨S65536, .i1⟩
  | 59 => ⟨S_, .i32⟩
  | 60 => ⟨S65536, .i32⟩
  | 61 => ⟨S65536, .i1⟩
  | 62 => ⟨S_, .i32⟩
  | 63 => ⟨S_, .i1⟩
  | 64 => ⟨S65536, .i1⟩
  | 65 => ⟨S65536, .i1⟩
  | 66 => ⟨S65536, .i1⟩
  | 67 => ⟨S65536, .i32⟩
  | 68 => ⟨S65536, .i32⟩
  | 69 => ⟨S65536, .i32⟩
  | 70 => ⟨S_, .i32⟩
  | 71 => ⟨S65536, .i32⟩
  | 72 => ⟨S65536, .i32⟩
  | 73 => ⟨S65536, .i32⟩
  | 74 => ⟨S256x256, .f32⟩
  | 75 => ⟨S65536x256, .f32⟩
  | 76 => ⟨S1x256, .f32⟩
  | 77 => ⟨S65536x256, .f32⟩
  | 78 => ⟨S65536x256, .f32⟩
  | 79 => ⟨S65536x256, .f32⟩
  | 80 => ⟨S65536x256, .f32⟩
  | 81 => ⟨S_, .f32⟩
  | 82 => ⟨S65536x256, .f32⟩
  | 83 => ⟨S65536x256, .f32⟩
  | 84 => ⟨S_, .f32⟩
  | 85 => ⟨S65536x256, .f32⟩
  | 86 => ⟨S65536x256, .f32⟩
  | 87 => ⟨S_, .f32⟩
  | 88 => ⟨S32768x256, .f32⟩
  | 89 => ⟨S65536x1, .i32⟩
  | 90 => ⟨S32768x256, .f32⟩
  | 91 => ⟨S65536x256, .f32⟩
  | 92 => ⟨S_, .f32⟩
  | 93 => ⟨S32768x256, .f32⟩
  | 94 => ⟨S65536x1, .i32⟩
  | 95 => ⟨S32768x256, .f32⟩
  | 96 => ⟨S256x768, .f32⟩
  | 97 => ⟨S32768x768, .f32⟩
  | 98 => ⟨S32768x768, .f32⟩
  | 99 => ⟨S32768x768, .f32⟩
  | 100 => ⟨S32768x768, .f32⟩
  | 101 => ⟨S32768x256, .f32⟩
  | 102 => ⟨S32768x256, .f32⟩
  | 103 => ⟨S32768x256, .f32⟩
  | 104 => ⟨S32768x256, .f32⟩
  | 105 => ⟨S32768x256, .f32⟩
  | 106 => ⟨S_, .f32⟩
  | 107 => ⟨S32768x256, .f32⟩
  | 108 => ⟨S32768x256, .f32⟩
  | 109 => ⟨S_, .f32⟩
  | 110 => ⟨S32768x256, .f32⟩
  | 111 => ⟨S32768x256, .f32⟩
  | 112 => ⟨S32768x256, .f32⟩
  | 113 => ⟨S32768x256, .f32⟩
  | 114 => ⟨S32768x256, .f32⟩
  | 115 => ⟨S32768x256, .f32⟩
  | 116 => ⟨S32768x256, .f32⟩
  | 117 => ⟨S_, .f32⟩
  | 118 => ⟨S32768x256, .f32⟩
  | 119 => ⟨S32768x256, .f32⟩
  | 120 => ⟨S_, .f32⟩
  | 121 => ⟨S32768x256, .f32⟩
  | 122 => ⟨S32768x256, .f32⟩
  | 123 => ⟨S32768x256, .f32⟩
  | 124 => ⟨S32768x256, .f32⟩
  | 125 => ⟨S_, .i32⟩
  | 126 => ⟨S32768, .i32⟩
  | 127 => ⟨S32768, .i1⟩
  | _ => ⟨S131040, .i32⟩

abbrev hbmTy0_2 (i : Nat) : BufTy := match i % 128 with
  | 0 => ⟨S_, .i32⟩
  | 1 => ⟨S32768, .i32⟩
  | 2 => ⟨S32768, .i32⟩
  | 3 => ⟨S32768, .i32⟩
  | 4 => ⟨S32768x1, .i32⟩
  | 5 => ⟨S131040x256, .f32⟩
  | 6 => ⟨S_, .i32⟩
  | 7 => ⟨S32768, .i32⟩
  | 8 => ⟨S32768, .i1⟩
  | 9 => ⟨S_, .i32⟩
  | 10 => ⟨S32768, .i32⟩
  | 11 => ⟨S32768, .i32⟩
  | 12 => ⟨S32768, .i32⟩
  | 13 => ⟨S32768x1, .i32⟩
  | 14 => ⟨S131040x256, .f32⟩
  | 15 => ⟨S32x1, .i32⟩
  | 16 => ⟨S_, .i32⟩
  | 17 => ⟨S32x1, .i32⟩
  | 18 => ⟨S32x1, .i32⟩
  | 19 => ⟨S512, .i32⟩
  | 20 => ⟨S1x512, .i32⟩
  | 21 => ⟨S32x512, .i32⟩
  | 22 => ⟨S32x512, .i32⟩
  | 23 => ⟨S32x512, .i32⟩
  | 24 => ⟨S16384, .i32⟩
  | 25 => ⟨S_, .i32⟩
  | 26 => ⟨S16384, .i32⟩
  | 27 => ⟨S16384, .i1⟩
  | 28 => ⟨S_, .i32⟩
  | 29 => ⟨S16384, .i32⟩
  | 30 => ⟨S16384, .i32⟩
  | 31 => ⟨S16384, .i32⟩
  | 32 => ⟨S16384x1, .i32⟩
  | 33 => ⟨S16384x768, .f32⟩
  | 34 => ⟨S32x1, .i32⟩
  | 35 => ⟨S_, .i32⟩
  | 36 => ⟨S32x1, .i32⟩
  | 37 => ⟨S32x1, .i32⟩
  | 38 => ⟨S1024, .i32⟩
  | 39 => ⟨S1x1024, .i32⟩
  | 40 => ⟨S32x1024, .i32⟩
  | 41 => ⟨S32x1024, .i32⟩
  | 42 => ⟨S32x1024, .i32⟩
  | 43 => ⟨S32768, .i32⟩
  | 44 => ⟨S_, .i32⟩
  | 45 => ⟨S32768, .i32⟩
  | 46 => ⟨S32768, .i1⟩
  | 47 => ⟨S_, .i32⟩
  | 48 => ⟨S32768, .i32⟩
  | 49 => ⟨S32768, .i32⟩
  | 50 => ⟨S32768, .i32⟩
  | 51 => ⟨S32768x1, .i32⟩
  | 52 => ⟨S32768x256, .f32⟩
  | 53 => ⟨S_, .i32⟩
  | 54 => ⟨S32768, .i32⟩
  | 55 => ⟨S32768, .i1⟩
  | 56 => ⟨S_, .i32⟩
  | 57 => ⟨S32768, .i32⟩
  | 58 => ⟨S32768, .i32⟩
  | 59 => ⟨S32768, .i32⟩
  | 60 => ⟨S32768x1, .i32⟩
  | 61 => ⟨S32768x256, .f32⟩
  | 62 => ⟨S_, .i32⟩
  | 63 => ⟨S32768, .i32⟩
  | 64 => ⟨S32768, .i1⟩
  | 65 => ⟨S_, .i32⟩
  | 66 => ⟨S32768, .i32⟩
  | 67 => ⟨S32768, .i32⟩
  | 68 => ⟨S32768, .i32⟩
  | 69 => ⟨S32768x1, .i32⟩
  | 70 => ⟨S32768, .i32⟩
  | 71 => ⟨S_, .i32⟩
  | 72 => ⟨S_, .i32⟩
  | 73 => ⟨S32768, .i32⟩
  | 74 => ⟨S32768, .i32⟩
  | 75 => ⟨S32768, .i32⟩
  | 76 => ⟨S_, .i32⟩
  | 77 => ⟨S32768, .i32⟩
  | 78 => ⟨S32768, .i1⟩
  | 79 => ⟨S32768, .i32⟩
  | 80 => ⟨S32768, .i32⟩
  | 81 => ⟨S_, .i32⟩
  | 82 => ⟨S32768, .i32⟩
  | 83 => ⟨S32768, .i1⟩
  | 84 => ⟨S32768, .i1⟩
  | 85 => ⟨S_, .i32⟩
  | 86 => ⟨S32768, .i32⟩
  | 87 => ⟨S32768, .i32⟩
  | 88 => ⟨S32768, .i32⟩
  | 89 => ⟨S_, .i32⟩
  | 90 => ⟨S32768, .i32⟩
  | 91 => ⟨S32768, .i32⟩
  | 92 => ⟨S_, .i32⟩
  | 93 => ⟨S_, .i32⟩
  | 94 => ⟨S_, .i32⟩
  | 95 => ⟨S_, .i1⟩
  | 96 => ⟨S_, .i32⟩
  | 97 => ⟨S_, .i32⟩
  | 98 => ⟨S32768, .i32⟩
  | 99 => ⟨S32768, .i32⟩
  | 100 => ⟨S_, .i32⟩
  | 101 => ⟨S32768, .i32⟩
  | 102 => ⟨S32768, .i1⟩
  | 103 => ⟨S_, .i32⟩
  | 104 => ⟨S32768, .i32⟩
  | 105 => ⟨S32768, .i1⟩
  | 106 => ⟨S_, .i32⟩
  | 107 => ⟨S_, .i1⟩
  | 108 => ⟨S32768, .i1⟩
  | 109 => ⟨S32768, .i1⟩
  | 110 => ⟨S32768, .i1⟩
  | 111 => ⟨S32768, .i32⟩
  | 112 => ⟨S32768, .i32⟩
  | 113 => ⟨S32768, .i32⟩
  | 114 => ⟨S_, .i32⟩
  | 115 => ⟨S32768, .i32⟩
  | 116 => ⟨S32768, .i32⟩
  | 117 => ⟨S32768, .i32⟩
  | 118 => ⟨S256x256, .f32⟩
  | 119 => ⟨S32768x256, .f32⟩
  | 120 => ⟨S1x256, .f32⟩
  | 121 => ⟨S32768x256, .f32⟩
  | 122 => ⟨S32768x256, .f32⟩
  | 123 => ⟨S32768x256, .f32⟩
  | 124 => ⟨S32768x256, .f32⟩
  | 125 => ⟨S_, .f32⟩
  | 126 => ⟨S32768x256, .f32⟩
  | 127 => ⟨S32768x256, .f32⟩
  | _ => ⟨S131040, .i32⟩

abbrev hbmTy0_3 (i : Nat) : BufTy := match i % 128 with
  | 0 => ⟨S_, .f32⟩
  | 1 => ⟨S32768x256, .f32⟩
  | 2 => ⟨S32768x256, .f32⟩
  | 3 => ⟨S_, .f32⟩
  | 4 => ⟨S16384x256, .f32⟩
  | 5 => ⟨S32768x1, .i32⟩
  | 6 => ⟨S16384x256, .f32⟩
  | 7 => ⟨S32768x256, .f32⟩
  | 8 => ⟨S_, .f32⟩
  | 9 => ⟨S16384x256, .f32⟩
  | 10 => ⟨S32768x1, .i32⟩
  | 11 => ⟨S16384x256, .f32⟩
  | 12 => ⟨S256x768, .f32⟩
  | 13 => ⟨S16384x768, .f32⟩
  | 14 => ⟨S16384x768, .f32⟩
  | 15 => ⟨S16384x768, .f32⟩
  | 16 => ⟨S16384x768, .f32⟩
  | 17 => ⟨S16384x256, .f32⟩
  | 18 => ⟨S16384x256, .f32⟩
  | 19 => ⟨S16384x256, .f32⟩
  | 20 => ⟨S16384x256, .f32⟩
  | 21 => ⟨S16384x256, .f32⟩
  | 22 => ⟨S_, .f32⟩
  | 23 => ⟨S16384x256, .f32⟩
  | 24 => ⟨S16384x256, .f32⟩
  | 25 => ⟨S_, .f32⟩
  | 26 => ⟨S16384x256, .f32⟩
  | 27 => ⟨S16384x256, .f32⟩
  | 28 => ⟨S16384x256, .f32⟩
  | 29 => ⟨S16384x256, .f32⟩
  | 30 => ⟨S16384x256, .f32⟩
  | 31 => ⟨S16384x256, .f32⟩
  | 32 => ⟨S16384x256, .f32⟩
  | 33 => ⟨S_, .f32⟩
  | 34 => ⟨S16384x256, .f32⟩
  | 35 => ⟨S16384x256, .f32⟩
  | 36 => ⟨S_, .f32⟩
  | 37 => ⟨S16384x256, .f32⟩
  | 38 => ⟨S16384x256, .f32⟩
  | 39 => ⟨S16384x256, .f32⟩
  | 40 => ⟨S16384x256, .f32⟩
  | 41 => ⟨S_, .i32⟩
  | 42 => ⟨S16384, .i32⟩
  | 43 => ⟨S16384, .i1⟩
  | 44 => ⟨S_, .i32⟩
  | 45 => ⟨S16384, .i32⟩
  | 46 => ⟨S16384, .i32⟩
  | 47 => ⟨S16384, .i32⟩
  | 48 => ⟨S16384x1, .i32⟩
  | 49 => ⟨S131040x256, .f32⟩
  | 50 => ⟨S_, .i32⟩
  | 51 => ⟨S16384, .i32⟩
  | 52 => ⟨S16384, .i1⟩
  | 53 => ⟨S_, .i32⟩
  | 54 => ⟨S16384, .i32⟩
  | 55 => ⟨S16384, .i32⟩
  | 56 => ⟨S16384, .i32⟩
  | 57 => ⟨S16384x1, .i32⟩
  | 58 => ⟨S131040x256, .f32⟩
  | 59 => ⟨S32x1, .i32⟩
  | 60 => ⟨S_, .i32⟩
  | 61 => ⟨S32x1, .i32⟩
  | 62 => ⟨S32x1, .i32⟩
  | 63 => ⟨S256, .i32⟩
  | 64 => ⟨S1x256, .i32⟩
  | 65 => ⟨S32x256, .i32⟩
  | 66 => ⟨S32x256, .i32⟩
  | 67 => ⟨S32x256, .i32⟩
  | 68 => ⟨S8192, .i32⟩
  | 69 => ⟨S_, .i32⟩
  | 70 => ⟨S8192, .i32⟩
  | 71 => ⟨S8192, .i1⟩
  | 72 => ⟨S_, .i32⟩
  | 73 => ⟨S8192, .i32⟩
  | 74 => ⟨S8192, .i32⟩
  | 75 => ⟨S8192, .i32⟩
  | 76 => ⟨S8192x1, .i32⟩
  | 77 => ⟨S8192x768, .f32⟩
  | 78 => ⟨S32x1, .i32⟩
  | 79 => ⟨S_, .i32⟩
  | 80 => ⟨S32x1, .i32⟩
  | 81 => ⟨S32x1, .i32⟩
  | 82 => ⟨S512, .i32⟩
  | 83 => ⟨S1x512, .i32⟩
  | 84 => ⟨S32x512, .i32⟩
  | 85 => ⟨S32x512, .i32⟩
  | 86 => ⟨S32x512, .i32⟩
  | 87 => ⟨S16384, .i32⟩
  | 88 => ⟨S_, .i32⟩
  | 89 => ⟨S16384, .i32⟩
  | 90 => ⟨S16384, .i1⟩
  | 91 => ⟨S_, .i32⟩
  | 92 => ⟨S16384, .i32⟩
  | 93 => ⟨S16384, .i32⟩
  | 94 => ⟨S16384, .i32⟩
  | 95 => ⟨S16384x1, .i32⟩
  | 96 => ⟨S16384x256, .f32⟩
  | 97 => ⟨S_, .i32⟩
  | 98 => ⟨S16384, .i32⟩
  | 99 => ⟨S16384, .i1⟩
  | 100 => ⟨S_, .i32⟩
  | 101 => ⟨S16384, .i32⟩
  | 102 => ⟨S16384, .i32⟩
  | 103 => ⟨S16384, .i32⟩
  | 104 => ⟨S16384x1, .i32⟩
  | 105 => ⟨S16384x256, .f32⟩
  | 106 => ⟨S_, .i32⟩
  | 107 => ⟨S16384, .i32⟩
  | 108 => ⟨S16384, .i1⟩
  | 109 => ⟨S_, .i32⟩
  | 110 => ⟨S16384, .i32⟩
  | 111 => ⟨S16384, .i32⟩
  | 112 => ⟨S16384, .i32⟩
  | 113 => ⟨S16384x1, .i32⟩
  | 114 => ⟨S16384, .i32⟩
  | 115 => ⟨S_, .i32⟩
  | 116 => ⟨S_, .i32⟩
  | 117 => ⟨S16384, .i32⟩
  | 118 => ⟨S16384, .i32⟩
  | 119 => ⟨S16384, .i32⟩
  | 120 => ⟨S_, .i32⟩
  | 121 => ⟨S16384, .i32⟩
  | 122 => ⟨S16384, .i1⟩
  | 123 => ⟨S16384, .i32⟩
  | 124 => ⟨S16384, .i32⟩
  | 125 => ⟨S_, .i32⟩
  | 126 => ⟨S16384, .i32⟩
  | 127 => ⟨S16384, .i1⟩
  | _ => ⟨S131040, .i32⟩

abbrev hbmTy0_4 (i : Nat) : BufTy := match i % 128 with
  | 0 => ⟨S16384, .i1⟩
  | 1 => ⟨S_, .i32⟩
  | 2 => ⟨S16384, .i32⟩
  | 3 => ⟨S16384, .i32⟩
  | 4 => ⟨S16384, .i32⟩
  | 5 => ⟨S_, .i32⟩
  | 6 => ⟨S16384, .i32⟩
  | 7 => ⟨S16384, .i32⟩
  | 8 => ⟨S_, .i32⟩
  | 9 => ⟨S_, .i32⟩
  | 10 => ⟨S_, .i32⟩
  | 11 => ⟨S_, .i1⟩
  | 12 => ⟨S_, .i32⟩
  | 13 => ⟨S_, .i32⟩
  | 14 => ⟨S16384, .i32⟩
  | 15 => ⟨S16384, .i32⟩
  | 16 => ⟨S_, .i32⟩
  | 17 => ⟨S16384, .i32⟩
  | 18 => ⟨S16384, .i1⟩
  | 19 => ⟨S_, .i32⟩
  | 20 => ⟨S16384, .i32⟩
  | 21 => ⟨S16384, .i1⟩
  | 22 => ⟨S_, .i32⟩
  | 23 => ⟨S_, .i1⟩
  | 24 => ⟨S16384, .i1⟩
  | 25 => ⟨S16384, .i1⟩
  | 26 => ⟨S16384, .i1⟩
  | 27 => ⟨S16384, .i32⟩
  | 28 => ⟨S16384, .i32⟩
  | 29 => ⟨S16384, .i32⟩
  | 30 => ⟨S_, .i32⟩
  | 31 => ⟨S16384, .i32⟩
  | 32 => ⟨S16384, .i32⟩
  | 33 => ⟨S16384, .i32⟩
  | 34 => ⟨S256x256, .f32⟩
  | 35 => ⟨S16384x256, .f32⟩
  | 36 => ⟨S1x256, .f32⟩
  | 37 => ⟨S16384x256, .f32⟩
  | 38 => ⟨S16384x256, .f32⟩
  | 39 => ⟨S16384x256, .f32⟩
  | 40 => ⟨S16384x256, .f32⟩
  | 41 => ⟨S_, .f32⟩
  | 42 => ⟨S16384x256, .f32⟩
  | 43 => ⟨S16384x256, .f32⟩
  | 44 => ⟨S_, .f32⟩
  | 45 => ⟨S16384x256, .f32⟩
  | 46 => ⟨S16384x256, .f32⟩
  | 47 => ⟨S_, .f32⟩
  | 48 => ⟨S8192x256, .f32⟩
  | 49 => ⟨S16384x1, .i32⟩
  | 50 => ⟨S8192x256, .f32⟩
  | 51 => ⟨S16384x256, .f32⟩
  | 52 => ⟨S_, .f32⟩
  | 53 => ⟨S8192x256, .f32⟩
  | 54 => ⟨S16384x1, .i32⟩
  | 55 => ⟨S8192x256, .f32⟩
  | 56 => ⟨S256x768, .f32⟩
  | 57 => ⟨S8192x768, .f32⟩
  | 58 => ⟨S8192x768, .f32⟩
  | 59 => ⟨S8192x768, .f32⟩
  | 60 => ⟨S8192x768, .f32⟩
  | 61 => ⟨S8192x256, .f32⟩
  | 62 => ⟨S8192x256, .f32⟩
  | 63 => ⟨S8192x256, .f32⟩
  | 64 => ⟨S8192x256, .f32⟩
  | 65 => ⟨S8192x256, .f32⟩
  | 66 => ⟨S_, .f32⟩
  | 67 => ⟨S8192x256, .f32⟩
  | 68 => ⟨S8192x256, .f32⟩
  | 69 => ⟨S_, .f32⟩
  | 70 => ⟨S8192x256, .f32⟩
  | 71 => ⟨S8192x256, .f32⟩
  | 72 => ⟨S8192x256, .f32⟩
  | 73 => ⟨S8192x256, .f32⟩
  | 74 => ⟨S8192x256, .f32⟩
  | 75 => ⟨S8192x256, .f32⟩
  | 76 => ⟨S8192x256, .f32⟩
  | 77 => ⟨S_, .f32⟩
  | 78 => ⟨S8192x256, .f32⟩
  | 79 => ⟨S8192x256, .f32⟩
  | 80 => ⟨S_, .f32⟩
  | 81 => ⟨S8192x256, .f32⟩
  | 82 => ⟨S8192x256, .f32⟩
  | 83 => ⟨S8192x256, .f32⟩
  | 84 => ⟨S8192x256, .f32⟩
  | 85 => ⟨S_, .i32⟩
  | 86 => ⟨S8192, .i32⟩
  | 87 => ⟨S8192, .i1⟩
  | 88 => ⟨S_, .i32⟩
  | 89 => ⟨S8192, .i32⟩
  | 90 => ⟨S8192, .i32⟩
  | 91 => ⟨S8192, .i32⟩
  | 92 => ⟨S8192x1, .i32⟩
  | 93 => ⟨S131040x256, .f32⟩
  | 94 => ⟨S_, .i32⟩
  | 95 => ⟨S8192, .i32⟩
  | 96 => ⟨S8192, .i1⟩
  | 97 => ⟨S_, .i32⟩
  | 98 => ⟨S8192, .i32⟩
  | 99 => ⟨S8192, .i32⟩
  | 100 => ⟨S8192, .i32⟩
  | 101 => ⟨S8192x1, .i32⟩
  | 102 => ⟨S131040x256, .f32⟩
  | 103 => ⟨S32x1, .i32⟩
  | 104 => ⟨S_, .i32⟩
  | 105 => ⟨S32x1, .i32⟩
  | 106 => ⟨S32x1, .i32⟩
  | 107 => ⟨S128, .i32⟩
  | 108 => ⟨S1x128, .i32⟩
  | 109 => ⟨S32x128, .i32⟩
  | 110 => ⟨S32x128, .i32⟩
  | 111 => ⟨S32x128, .i32⟩
  | 112 => ⟨S4096, .i32⟩
  | 113 => ⟨S_, .i32⟩
  | 114 => ⟨S4096, .i32⟩
  | 115 => ⟨S4096, .i1⟩
  | 116 => ⟨S_, .i32⟩
  | 117 => ⟨S4096, .i32⟩
  | 118 => ⟨S4096, .i32⟩
  | 119 => ⟨S4096, .i32⟩
  | 120 => ⟨S4096x1, .i32⟩
  | 121 => ⟨S4096x768, .f32⟩
  | 122 => ⟨S32x1, .i32⟩
  | 123 => ⟨S_, .i32⟩
  | 124 => ⟨S32x1, .i32⟩
  | 125 => ⟨S32x1, .i32⟩
  | 126 => ⟨S256, .i32⟩
  | 127 => ⟨S1x256, .i32⟩
  | _ => ⟨S131040, .i32⟩

abbrev hbmTy0_5 (i : Nat) : BufTy := match i % 128 with
  | 0 => ⟨S32x256, .i32⟩
  | 1 => ⟨S32x256, .i32⟩
  | 2 => ⟨S32x256, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S8192x256, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S8192x256, .f32⟩
  | 22 => ⟨S_, .i32⟩
  | 23 => ⟨S8192, .i32⟩
  | 24 => ⟨S8192, .i1⟩
  | 25 => ⟨S_, .i32⟩
  | 26 => ⟨S8192, .i32⟩
  | 27 => ⟨S8192, .i32⟩
  | 28 => ⟨S8192, .i32⟩
  | 29 => ⟨S8192x1, .i32⟩
  | 30 => ⟨S8192, .i32⟩
  | 31 => ⟨S_, .i32⟩
  | 32 => ⟨S_, .i32⟩
  | 33 => ⟨S8192, .i32⟩
  | 34 => ⟨S8192, .i32⟩
  | 35 => ⟨S8192, .i32⟩
  | 36 => ⟨S_, .i32⟩
  | 37 => ⟨S8192, .i32⟩
  | 38 => ⟨S8192, .i1⟩
  | 39 => ⟨S8192, .i32⟩
  | 40 => ⟨S8192, .i32⟩
  | 41 => ⟨S_, .i32⟩
  | 42 => ⟨S8192, .i32⟩
  | 43 => ⟨S8192, .i1⟩
  | 44 => ⟨S8192, .i1⟩
  | 45 => ⟨S_, .i32⟩
  | 46 => ⟨S8192, .i32⟩
  | 47 => ⟨S8192, .i32⟩
  | 48 => ⟨S8192, .i32⟩
  | 49 => ⟨S_, .i32⟩
  | 50 => ⟨S8192, .i32⟩
  | 51 => ⟨S8192, .i32⟩
  | 52 => ⟨S_, .i32⟩
  | 53 => ⟨S_, .i32⟩
  | 54 => ⟨S_, .i32⟩
  | 55 => ⟨S_, .i1⟩
  | 56 => ⟨S_, .i32⟩
  | 57 => ⟨S_, .i32⟩
  | 58 => ⟨S8192, .i32⟩
  | 59 => ⟨S8192, .i32⟩
  | 60 => ⟨S_, .i32⟩
  | 61 => ⟨S8192, .i32⟩
  | 62 => ⟨S8192, .i1⟩
  | 63 => ⟨S_, .i32⟩
  | 64 => ⟨S8192, .i32⟩
  | 65 => ⟨S8192, .i1⟩
  | 66 => ⟨S_, .i32⟩
  | 67 => ⟨S_, .i1⟩
  | 68 => ⟨S8192, .i1⟩
  | 69 => ⟨S8192, .i1⟩
  | 70 => ⟨S8192, .i1⟩
  | 71 => ⟨S8192, .i32⟩
  | 72 => ⟨S8192, .i32⟩
  | 73 => ⟨S8192, .i32⟩
  | 74 => ⟨S_, .i32⟩
  | 75 => ⟨S8192, .i32⟩
  | 76 => ⟨S8192, .i32⟩
  | 77 => ⟨S8192, .i32⟩
  | 78 => ⟨S256x256, .f32⟩
  | 79 => ⟨S8192x256, .f32⟩
  | 80 => ⟨S1x256, .f32⟩
  | 81 => ⟨S8192x256, .f32⟩
  | 82 => ⟨S8192x256, .f32⟩
  | 83 => ⟨S8192x256, .f32⟩
  | 84 => ⟨S8192x256, .f32⟩
  | 85 => ⟨S_, .f32⟩
  | 86 => ⟨S8192x256, .f32⟩
  | 87 => ⟨S8192x256, .f32⟩
  | 88 => ⟨S_, .f32⟩
  | 89 => ⟨S8192x256, .f32⟩
  | 90 => ⟨S8192x256, .f32⟩
  | 91 => ⟨S_, .f32⟩
  | 92 => ⟨S4096x256, .f32⟩
  | 93 => ⟨S8192x1, .i32⟩
  | 94 => ⟨S4096x256, .f32⟩
  | 95 => ⟨S8192x256, .f32⟩
  | 96 => ⟨S_, .f32⟩
  | 97 => ⟨S4096x256, .f32⟩
  | 98 => ⟨S8192x1, .i32⟩
  | 99 => ⟨S4096x256, .f32⟩
  | 100 => ⟨S256x768, .f32⟩
  | 101 => ⟨S4096x768, .f32⟩
  | 102 => ⟨S4096x768, .f32⟩
  | 103 => ⟨S4096x768, .f32⟩
  | 104 => ⟨S4096x768, .f32⟩
  | 105 => ⟨S4096x256, .f32⟩
  | 106 => ⟨S4096x256, .f32⟩
  | 107 => ⟨S4096x256, .f32⟩
  | 108 => ⟨S4096x256, .f32⟩
  | 109 => ⟨S4096x256, .f32⟩
  | 110 => ⟨S_, .f32⟩
  | 111 => ⟨S4096x256, .f32⟩
  | 112 => ⟨S4096x256, .f32⟩
  | 113 => ⟨S_, .f32⟩
  | 114 => ⟨S4096x256, .f32⟩
  | 115 => ⟨S4096x256, .f32⟩
  | 116 => ⟨S4096x256, .f32⟩
  | 117 => ⟨S4096x256, .f32⟩
  | 118 => ⟨S4096x256, .f32⟩
  | 119 => ⟨S4096x256, .f32⟩
  | 120 => ⟨S4096x256, .f32⟩
  | 121 => ⟨S_, .f32⟩
  | 122 => ⟨S4096x256, .f32⟩
  | 123 => ⟨S4096x256, .f32⟩
  | 124 => ⟨S_, .f32⟩
  | 125 => ⟨S4096x256, .f32⟩
  | 126 => ⟨S4096x256, .f32⟩
  | 127 => ⟨S4096x256, .f32⟩
  | _ => ⟨S131040, .i32⟩

abbrev hbmTy0_6 (i : Nat) : BufTy := match i % 128 with
  | 0 => ⟨S4096x256, .f32⟩
  | 1 => ⟨S_, .i32⟩
  | 2 => ⟨S4096, .i32⟩
  | 3 => ⟨S4096, .i1⟩
  | 4 => ⟨S_, .i32⟩
  | 5 => ⟨S4096, .i32⟩
  | 6 => ⟨S4096, .i32⟩
  | 7 => ⟨S4096, .i32⟩
  | 8 => ⟨S4096x1, .i32⟩
  | 9 => ⟨S131040x256, .f32⟩
  | 10 => ⟨S_, .i32⟩
  | 11 => ⟨S4096, .i32⟩
  | 12 => ⟨S4096, .i1⟩
  | 13 => ⟨S_, .i32⟩
  | 14 => ⟨S4096, .i32⟩
  | 15 => ⟨S4096, .i32⟩
  | 16 => ⟨S4096, .i32⟩
  | 17 => ⟨S4096x1, .i32⟩
  | 18 => ⟨S131040x256, .f32⟩
  | 19 => ⟨S32x1, .i32⟩
  | 20 => ⟨S_, .i32⟩
  | 21 => ⟨S32x1, .i32⟩
  | 22 => ⟨S32x1, .i32⟩
  | 23 => ⟨S64, .i32⟩
  | 24 => ⟨S1x64, .i32⟩
  | 25 => ⟨S32x64, .i32⟩
  | 26 => ⟨S32x64, .i32⟩
  | 27 => ⟨S32x64, .i32⟩
  | 28 => ⟨S2048, .i32⟩
  | 29 => ⟨S_, .i32⟩
  | 30 => ⟨S2048, .i32⟩
  | 31 => ⟨S2048, .i1⟩
  | 32 => ⟨S_, .i32⟩
  | 33 => ⟨S2048, .i32⟩
  | 34 => ⟨S2048, .i32⟩
  | 35 => ⟨S2048, .i32⟩
  | 36 => ⟨S2048x1, .i32⟩
  | 37 => ⟨S2048x768, .f32⟩
  | 38 => ⟨S32x1, .i32⟩
  | 39 => ⟨S_, .i32⟩
  | 40 => ⟨S32x1, .i32⟩
  | 41 => ⟨S32x1, .i32⟩
  | 42 => ⟨S128, .i32⟩
  | 43 => ⟨S1x128, .i32⟩
  | 44 => ⟨S32x128, .i32⟩
  | 45 => ⟨S32x128, .i32⟩
  | 46 => ⟨S32x128, .i32⟩
  | 47 => ⟨S4096, .i32⟩
  | 48 => ⟨S_, .i32⟩
  | 49 => ⟨S4096, .i32⟩
  | 50 => ⟨S4096, .i1⟩
  | 51 => ⟨S_, .i32⟩
  | 52 => ⟨S4096, .i32⟩
  | 53 => ⟨S4096, .i32⟩
  | 54 => ⟨S4096, .i32⟩
  | 55 => ⟨S4096x1, .i32⟩
  | 56 => ⟨S4096x256, .f32⟩
  | 57 => ⟨S_, .i32⟩
  | 58 => ⟨S4096, .i32⟩
  | 59 => ⟨S4096, .i1⟩
  | 60 => ⟨S_, .i32⟩
  | 61 => ⟨S4096, .i32⟩
  | 62 => ⟨S4096, .i32⟩
  | 63 => ⟨S4096, .i32⟩
  | 64 => ⟨S4096x1, .i32⟩
  | 65 => ⟨S4096x256, .f32⟩
  | 66 => ⟨S_, .i32⟩
  | 67 => ⟨S4096, .i32⟩
  | 68 => ⟨S4096, .i1⟩
  | 69 => ⟨S_, .i32⟩
  | 70 => ⟨S4096, .i32⟩
  | 71 => ⟨S4096, .i32⟩
  | 72 => ⟨S4096, .i32⟩
  | 73 => ⟨S4096x1, .i32⟩
  | 74 => ⟨S4096, .i32⟩
  | 75 => ⟨S_, .i32⟩
  | 76 => ⟨S_, .i32⟩
  | 77 => ⟨S4096, .i32⟩
  | 78 => ⟨S4096, .i32⟩
  | 79 => ⟨S4096, .i32⟩
  | 80 => ⟨S_, .i32⟩
  | 81 => ⟨S4096, .i32⟩
  | 82 => ⟨S4096, .i1⟩
  | 83 => ⟨S4096, .i32⟩
  | 84 => ⟨S4096, .i32⟩
  | 85 => ⟨S_, .i32⟩
  | 86 => ⟨S4096, .i32⟩
  | 87 => ⟨S4096, .i1⟩
  | 88 => ⟨S4096, .i1⟩
  | 89 => ⟨S_, .i32⟩
  | 90 => ⟨S4096, .i32⟩
  | 91 => ⟨S4096, .i32⟩
  | 92 => ⟨S4096, .i32⟩
  | 93 => ⟨S_, .i32⟩
  | 94 => ⟨S4096, .i32⟩
  | 95 => ⟨S4096, .i32⟩
  | 96 => ⟨S_, .i32⟩
  | 97 => ⟨S_, .i32⟩
  | 98 => ⟨S_, .i32⟩
  | 99 => ⟨S_, .i1⟩
  | 100 => ⟨S_, .i32⟩
  | 101 => ⟨S_, .i32⟩
  | 102 => ⟨S4096, .i32⟩
  | 103 => ⟨S4096, .i32⟩
  | 104 => ⟨S_, .i32⟩
  | 105 => ⟨S4096, .i32⟩
  | 106 => ⟨S4096, .i1⟩
  | 107 => ⟨S_, .i32⟩
  | 108 => ⟨S4096, .i32⟩
  | 109 => ⟨S4096, .i1⟩
  | 110 => ⟨S_, .i32⟩
  | 111 => ⟨S_, .i1⟩
  | 112 => ⟨S4096, .i1⟩
  | 113 => ⟨S4096, .i1⟩
  | 114 => ⟨S4096, .i1⟩
  | 115 => ⟨S4096, .i32⟩
  | 116 => ⟨S4096, .i32⟩
  | 117 => ⟨S4096, .i32⟩
  | 118 => ⟨S_, .i32⟩
  | 119 => ⟨S4096, .i32⟩
  | 120 => ⟨S4096, .i32⟩
  | 121 => ⟨S4096, .i32⟩
  | 122 => ⟨S256x256, .f32⟩
  | 123 => ⟨S4096x256, .f32⟩
  | 124 => ⟨S1x256, .f32⟩
  | 125 => ⟨S4096x256, .f32⟩
  | 126 => ⟨S4096x256, .f32⟩
  | 127 => ⟨S4096x256, .f32⟩
  | _ => ⟨S131040, .i32⟩

abbrev hbmTy0_7 (i : Nat) : BufTy := match i % 128 with
  | 0 => ⟨S4096x256, .f32⟩
  | 1 => ⟨S_, .f32⟩
  | 2 => ⟨S4096x256, .f32⟩
  | 3 => ⟨S4096x256, .f32⟩
  | 4 => ⟨S_, .f32⟩
  | 5 => ⟨S4096x256, .f32⟩
  | 6 => ⟨S4096x256, .f32⟩
  | 7 => ⟨S_, .f32⟩
  | 8 => ⟨S2048x256, .f32⟩
  | 9 => ⟨S4096x1, .i32⟩
  | 10 => ⟨S2048x256, .f32⟩
  | 11 => ⟨S4096x256, .f32⟩
  | 12 => ⟨S_, .f32⟩
  | 13 => ⟨S2048x256, .f32⟩
  | 14 => ⟨S4096x1, .i32⟩
  | 15 => ⟨S2048x256, .f32⟩
  | 16 => ⟨S256x768, .f32⟩
  | 17 => ⟨S2048x768, .f32⟩
  | 18 => ⟨S2048x768, .f32⟩
  | 19 => ⟨S2048x768, .f32⟩
  | 20 => ⟨S2048x768, .f32⟩
  | 21 => ⟨S2048x256, .f32⟩
  | 22 => ⟨S2048x256, .f32⟩
  | 23 => ⟨S2048x256, .f32⟩
  | 24 => ⟨S2048x256, .f32⟩
  | 25 => ⟨S2048x256, .f32⟩
  | 26 => ⟨S_, .f32⟩
  | 27 => ⟨S2048x256, .f32⟩
  | 28 => ⟨S2048x256, .f32⟩
  | 29 => ⟨S_, .f32⟩
  | 30 => ⟨S2048x256, .f32⟩
  | 31 => ⟨S2048x256, .f32⟩
  | 32 => ⟨S2048x256, .f32⟩
  | 33 => ⟨S2048x256, .f32⟩
  | 34 => ⟨S2048x256, .f32⟩
  | 35 => ⟨S2048x256, .f32⟩
  | 36 => ⟨S2048x256, .f32⟩
  | 37 => ⟨S_, .f32⟩
  | 38 => ⟨S2048x256, .f32⟩
  | 39 => ⟨S2048x256, .f32⟩
  | 40 => ⟨S_, .f32⟩
  | 41 => ⟨S2048x256, .f32⟩
  | 42 => ⟨S2048x256, .f32⟩
  | 43 => ⟨S2048x256, .f32⟩
  | 44 => ⟨S2048x256, .f32⟩
  | 45 => ⟨S_, .i32⟩
  | 46 => ⟨S2048, .i32⟩
  | 47 => ⟨S2048, .i1⟩
  | 48 => ⟨S_, .i32⟩
  | 49 => ⟨S2048, .i32⟩
  | 50 => ⟨S2048, .i32⟩
  | 51 => ⟨S2048, .i32⟩
  | 52 => ⟨S2048x1, .i32⟩
  | 53 => ⟨S131040x256, .f32⟩
  | 54 => ⟨S_, .i32⟩
  | 55 => ⟨S2048, .i32⟩
  | 56 => ⟨S2048, .i1⟩
  | 57 => ⟨S_, .i32⟩
  | 58 => ⟨S2048, .i32⟩
  | 59 => ⟨S2048, .i32⟩
  | 60 => ⟨S2048, .i32⟩
  | 61 => ⟨S2048x1, .i32⟩
  | 62 => ⟨S131040x256, .f32⟩
  | 63 => ⟨S32x1, .i32⟩
  | 64 => ⟨S_, .i32⟩
  | 65 => ⟨S32x1, .i32⟩
  | 66 => ⟨S32x1, .i32⟩
  | 67 => ⟨S32, .i32⟩
  | 68 => ⟨S1x32, .i32⟩
  | 69 => ⟨S32x32, .i32⟩
  | 70 => ⟨S32x32, .i32⟩
  | 71 => ⟨S32x32, .i32⟩
  | 72 => ⟨S1024, .i32⟩
  | 73 => ⟨S_, .i32⟩
  | 74 => ⟨S1024, .i32⟩
  | 75 => ⟨S1024, .i1⟩
  | 76 => ⟨S_, .i32⟩
  | 77 => ⟨S1024, .i32⟩
  | 78 => ⟨S1024, .i32⟩
  | 79 => ⟨S1024, .i32⟩
  | 80 => ⟨S1024x1, .i32⟩
  | 81 => ⟨S1024x768, .f32⟩
  | 82 => ⟨S32x1, .i32⟩
  | 83 => ⟨S_, .i32⟩
  | 84 => ⟨S32x1, .i32⟩
  | 85 => ⟨S32x1, .i32⟩
  | 86 => ⟨S64, .i32⟩
  | 87 => ⟨S1x64, .i32⟩
  | 88 => ⟨S32x64, .i32⟩
  | 89 => ⟨S32x64, .i32⟩
  | 90 => ⟨S32x64, .i32⟩
  | 91 => ⟨S2048, .i32⟩
  | 92 => ⟨S_, .i32⟩
  | 93 => ⟨S2048, .i32⟩
  | 94 => ⟨S2048, .i1⟩
  | 95 => ⟨S_, .i32⟩
  | 96 => ⟨S2048, .i32⟩
  | 97 => ⟨S2048, .i32⟩
  | 98 => ⟨S2048, .i32⟩
  | 99 => ⟨S2048x1, .i32⟩
  | 100 => ⟨S2048x256, .f32⟩
  | 101 => ⟨S_, .i32⟩
  | 102 => ⟨S2048, .i32⟩
  | 103 => ⟨S2048, .i1⟩
  | 104 => ⟨S_, .i32⟩
  | 105 => ⟨S2048, .i32⟩
  | 106 => ⟨S2048, .i32⟩
  | 107 => ⟨S2048, .i32⟩
  | 108 => ⟨S2048x1, .i32⟩
  | 109 => ⟨S2048x256, .f32⟩
  | 110 => ⟨S_, .i32⟩
  | 111 => ⟨S2048, .i32⟩
  | 112 => ⟨S2048, .i1⟩
  | 113 => ⟨S_, .i32⟩
  | 114 => ⟨S2048, .i32⟩
  | 115 => ⟨S2048, .i32⟩
  | 116 => ⟨S2048, .i32⟩
  | 117 => ⟨S2048x1, .i32⟩
  | 118 => ⟨S2048, .i32⟩
  | 119 => ⟨S_, .i32⟩
  | 120 => ⟨S_, .i32⟩
  | 121 => ⟨S2048, .i32⟩
  | 122 => ⟨S2048, .i32⟩
  | 123 => ⟨S2048, .i32⟩
  | 124 => ⟨S_, .i32⟩
  | 125 => ⟨S2048, .i32⟩
  | 126 => ⟨S2048, .i1⟩
  | 127 => ⟨S2048, .i32⟩
  | _ => ⟨S131040, .i32⟩

abbrev hbmTy0_8 (i : Nat) : BufTy := match i % 128 with
  | 0 => ⟨S2048, .i32⟩
  | 1 => ⟨S_, .i32⟩
  | 2 => ⟨S2048, .i32⟩
  | 3 => ⟨S2048, .i1⟩
  | 4 => ⟨S2048, .i1⟩
  | 5 => ⟨S_, .i32⟩
  | 6 => ⟨S2048, .i32⟩
  | 7 => ⟨S2048, .i32⟩
  | 8 => ⟨S2048, .i32⟩
  | 9 => ⟨S_, .i32⟩
  | 10 => ⟨S2048, .i32⟩
  | 11 => ⟨S2048, .i32⟩
  | 12 => ⟨S_, .i32⟩
  | 13 => ⟨S_, .i32⟩
  | 14 => ⟨S_, .i32⟩
  | 15 => ⟨S_, .i1⟩
  | 16 => ⟨S_, .i32⟩
  | 17 => ⟨S_, .i32⟩
  | 18 => ⟨S2048, .i32⟩
  | 19 => ⟨S2048, .i32⟩
  | 20 => ⟨S_, .i32⟩
  | 21 => ⟨S2048, .i32⟩
  | 22 => ⟨S2048, .i1⟩
  | 23 => ⟨S_, .i32⟩
  | 24 => ⟨S2048, .i32⟩
  | 25 => ⟨S2048, .i1⟩
  | 26 => ⟨S_, .i32⟩
  | 27 => ⟨S_, .i1⟩
  | 28 => ⟨S2048, .i1⟩
  | 29 => ⟨S2048, .i1⟩
  | 30 => ⟨S2048, .i1⟩
  | 31 => ⟨S2048, .i32⟩
  | 32 => ⟨S2048, .i32⟩
  | 33 => ⟨S2048, .i32⟩
  | 34 => ⟨S_, .i32⟩
  | 35 => ⟨S2048, .i32⟩
  | 36 => ⟨S2048, .i32⟩
  | 37 => ⟨S2048, .i32⟩
  | 38 => ⟨S256x256, .f32⟩
  | 39 => ⟨S2048x256, .f32⟩
  | 40 => ⟨S1x256, .f32⟩
  | 41 => ⟨S2048x256, .f32⟩
  | 42 => ⟨S2048x256, .f32⟩
  | 43 => ⟨S2048x256, .f32⟩
  | 44 => ⟨S2048x256, .f32⟩
  | 45 => ⟨S_, .f32⟩
  | 46 => ⟨S2048x256, .f32⟩
  | 47 => ⟨S2048x256, .f32⟩
  | 48 => ⟨S_, .f32⟩
  | 49 => ⟨S2048x256, .f32⟩
  | 50 => ⟨S2048x256, .f32⟩
  | 51 => ⟨S_, .f32⟩
  | 52 => ⟨S1024x256, .f32⟩
  | 53 => ⟨S2048x1, .i32⟩
  | 54 => ⟨S1024x256, .f32⟩
  | 55 => ⟨S2048x256, .f32⟩
  | 56 => ⟨S_, .f32⟩
  | 57 => ⟨S1024x256, .f32⟩
  | 58 => ⟨S2048x1, .i32⟩
  | 59 => ⟨S1024x256, .f32⟩
  | 60 => ⟨S256x768, .f32⟩
  | 61 => ⟨S1024x768, .f32⟩
  | 62 => ⟨S1024x768, .f32⟩
  | 63 => ⟨S1024x768, .f32⟩
  | 64 => ⟨S1024x768, .f32⟩
  | 65 => ⟨S1024x256, .f32⟩
  | 66 => ⟨S1024x256, .f32⟩
  | 67 => ⟨S1024x256, .f32⟩
  | 68 => ⟨S1024x256, .f32⟩
  | 69 => ⟨S1024x256, .f32⟩
  | 70 => ⟨S_, .f32⟩
  | 71 => ⟨S1024x256, .f32⟩
  | 72 => ⟨S1024x256, .f32⟩
  | 73 => ⟨S_, .f32⟩
  | 74 => ⟨S1024x256, .f32⟩
  | 75 => ⟨S1024x256, .f32⟩
  | 76 => ⟨S1024x256, .f32⟩
  | 77 => ⟨S1024x256, .f32⟩
  | 78 => ⟨S1024x256, .f32⟩
  | 79 => ⟨S1024x256, .f32⟩
  | 80 => ⟨S1024x256, .f32⟩
  | 81 => ⟨S_, .f32⟩
  | 82 => ⟨S1024x256, .f32⟩
  | 83 => ⟨S1024x256, .f32⟩
  | 84 => ⟨S_, .f32⟩
  | 85 => ⟨S1024x256, .f32⟩
  | 86 => ⟨S1024x256, .f32⟩
  | 87 => ⟨S1024x256, .f32⟩
  | 88 => ⟨S1024x256, .f32⟩
  | 89 => ⟨S_, .i32⟩
  | 90 => ⟨S1024, .i32⟩
  | 91 => ⟨S1024, .i1⟩
  | 92 => ⟨S_, .i32⟩
  | 93 => ⟨S1024, .i32⟩
  | 94 => ⟨S1024, .i32⟩
  | 95 => ⟨S1024, .i32⟩
  | 96 => ⟨S1024x1, .i32⟩
  | 97 => ⟨S131040x256, .f32⟩
  | 98 => ⟨S_, .i32⟩
  | 99 => ⟨S1024, .i32⟩
  | 100 => ⟨S1024, .i1⟩
  | 101 => ⟨S_, .i32⟩
  | 102 => ⟨S1024, .i32⟩
  | 103 => ⟨S1024, .i32⟩
  | 104 => ⟨S1024, .i32⟩
  | 105 => ⟨S1024x1, .i32⟩
  | 106 => ⟨S131040x256, .f32⟩
  | 107 => ⟨S32x1, .i32⟩
  | 108 => ⟨S_, .i32⟩
  | 109 => ⟨S32x1, .i32⟩
  | 110 => ⟨S32x1, .i32⟩
  | 111 => ⟨S16, .i32⟩
  | 112 => ⟨S1x16, .i32⟩
  | 113 => ⟨S32x16, .i32⟩
  | 114 => ⟨S32x16, .i32⟩
  | 115 => ⟨S32x16, .i32⟩
  | 116 => ⟨S512, .i32⟩
  | 117 => ⟨S_, .i32⟩
  | 118 => ⟨S512, .i32⟩
  | 119 => ⟨S512, .i1⟩
  | 120 => ⟨S_, .i32⟩
  | 121 => ⟨S512, .i32⟩
  | 122 => ⟨S512, .i32⟩
  | 123 => ⟨S512, .i32⟩
  | 124 => ⟨S512x1, .i32⟩
  | 125 => ⟨S512x768, .f32⟩
  | 126 => ⟨S32x1, .i32⟩
  | 127 => ⟨S_, .i32⟩
  | _ => ⟨S131040, .i32⟩

abbrev hbmTy0_9 (i : Nat) : BufTy := match i % 128 with
  | 0 => ⟨S32x1, .i32⟩
  | 1 => ⟨S32x1, .i32⟩
  | 2 => ⟨S32, .i32⟩
  | 3 => ⟨S1x32, .i32⟩
  | 4 => ⟨S32x32, .i32⟩
  | 5 => ⟨S32x32, .i32⟩
  | 6 => ⟨S32x32, .i32⟩
  | 7 => ⟨S1024, .i32⟩
  | 8 => ⟨S_, .i32⟩
  | 9 => ⟨S1024, .i32⟩
  | 10 => ⟨S1024, .i1⟩
  | 11 => ⟨S_, .i32⟩
  | 12 => ⟨S1024, .i32⟩
  | 13 => ⟨S1024, .i32⟩
  | 14 => ⟨S1024, .i32⟩
  | 15 => ⟨S1024x1, .i32⟩
  | 16 => ⟨S1024x256, .f32⟩
  | 17 => ⟨S_, .i32⟩
  | 18 => ⟨S1024, .i32⟩
  | 19 => ⟨S1024, .i1⟩
  | 20 => ⟨S_, .i32⟩
  | 21 => ⟨S1024, .i32⟩
  | 22 => ⟨S1024, .i32⟩
  | 23 => ⟨S1024, .i32⟩
  | 24 => ⟨S1024x1, .i32⟩
  | 25 => ⟨S1024x256, .f32⟩
  | 26 => ⟨S_, .i32⟩
  | 27 => ⟨S1024, .i32⟩
  | 28 => ⟨S1024, .i1⟩
  | 29 => ⟨S_, .i32⟩
  | 30 => ⟨S1024, .i32⟩
  | 31 => ⟨S1024, .i32⟩
  | 32 => ⟨S1024, .i32⟩
  | 33 => ⟨S1024x1, .i32⟩
  | 34 => ⟨S1024, .i32⟩
  | 35 => ⟨S_, .i32⟩
  | 36 => ⟨S_, .i32⟩
  | 37 => ⟨S1024, .i32⟩
  | 38 => ⟨S1024, .i32⟩
  | 39 => ⟨S1024, .i32⟩
  | 40 => ⟨S_, .i32⟩
  | 41 => ⟨S1024, .i32⟩
  | 42 => ⟨S1024, .i1⟩
  | 43 => ⟨S1024, .i32⟩
  | 44 => ⟨S1024, .i32⟩
  | 45 => ⟨S_, .i32⟩
  | 46 => ⟨S1024, .i32⟩
  | 47 => ⟨S1024, .i1⟩
  | 48 => ⟨S1024, .i1⟩
  | 49 => ⟨S_, .i32⟩
  | 50 => ⟨S1024, .i32⟩
  | 51 => ⟨S1024, .i32⟩
  | 52 => ⟨S1024, .i32⟩
  | 53 => ⟨S_, .i32⟩
  | 54 => ⟨S1024, .i32⟩
  | 55 => ⟨S1024, .i32⟩
  | 56 => ⟨S_, .i32⟩
  | 57 => ⟨S_, .i32⟩
  | 58 => ⟨S_, .i32⟩
  | 59 => ⟨S_, .i1⟩
  | 60 => ⟨S_, .i32⟩
  | 61 => ⟨S_, .i32⟩
  | 62 => ⟨S1024, .i32⟩
  | 63 => ⟨S1024, .i32⟩
  | 64 => ⟨S_, .i32⟩
  | 65 => ⟨S1024, .i32⟩
  | 66 => ⟨S1024, .i1⟩
  | 67 => ⟨S_, .i32⟩
  | 68 => ⟨S1024, .i32⟩
  | 69 => ⟨S1024, .i1⟩
  | 70 => ⟨S_, .i32⟩
  | 71 => ⟨S_, .i1⟩
  | 72 => ⟨S1024, .i1⟩
  | 73 => ⟨S1024, .i1⟩
  | 74 => ⟨S1024, .i1⟩
  | 75 => ⟨S1024, .i32⟩
  | 76 => ⟨S1024, .i32⟩
  | 77 => ⟨S1024, .i32⟩
  | 78 => ⟨S_, .i32⟩
  | 79 => ⟨S1024, .i32⟩
  | 80 => ⟨S1024, .i32⟩
  | 81 => ⟨S1024, .i32⟩
  | 82 => ⟨S256x256, .f32⟩
  | 83 => ⟨S1024x256, .f32⟩
  | 84 => ⟨S1x256, .f32⟩
  | 85 => ⟨S1024x256, .f32⟩
  | 86 => ⟨S1024x256, .f32⟩
  | 87 => ⟨S1024x256, .f32⟩
  | 88 => ⟨S1024x256, .f32⟩
  | 89 => ⟨S_, .f32⟩
  | 90 => ⟨S1024x256, .f32⟩
  | 91 => ⟨S1024x256, .f32⟩
  | 92 => ⟨S_, .f32⟩
  | 93 => ⟨S1024x256, .f32⟩
  | 94 => ⟨S1024x256, .f32⟩
  | 95 => ⟨S_, .f32⟩
  | 96 => ⟨S512x256, .f32⟩
  | 97 => ⟨S1024x1, .i32⟩
  | 98 => ⟨S512x256, .f32⟩
  | 99 => ⟨S1024x256, .f32⟩
  | 100 => ⟨S_, .f32⟩
  | 101 => ⟨S512x256, .f32⟩
  | 102 => ⟨S1024x1, .i32⟩
  | 103 => ⟨S512x256, .f32⟩
  | 104 => ⟨S256x768, .f32⟩
  | 105 => ⟨S512x768, .f32⟩
  | 106 => ⟨S512x768, .f32⟩
  | 107 => ⟨S512x768, .f32⟩
  | 108 => ⟨S512x768, .f32⟩
  | 109 => ⟨S512x256, .f32⟩
  | 110 => ⟨S512x256, .f32⟩
  | 111 => ⟨S512x256, .f32⟩
  | 112 => ⟨S512x256, .f32⟩
  | 113 => ⟨S512x256, .f32⟩
  | 114 => ⟨S_, .f32⟩
  | 115 => ⟨S512x256, .f32⟩
  | 116 => ⟨S512x256, .f32⟩
  | 117 => ⟨S_, .f32⟩
  | 118 => ⟨S512x256, .f32⟩
  | 119 => ⟨S512x256, .f32⟩
  | 120 => ⟨S512x256, .f32⟩
  | 121 => ⟨S512x256, .f32⟩
  | 122 => ⟨S512x256, .f32⟩
  | 123 => ⟨S512x256, .f32⟩
  | 124 => ⟨S512x256, .f32⟩
  | 125 => ⟨S_, .f32⟩
  | 126 => ⟨S512x256, .f32⟩
  | 127 => ⟨S512x256, .f32⟩
  | _ => ⟨S131040, .i32⟩

abbrev hbmTy0_10 (i : Nat) : BufTy := match i % 128 with
  | 0 => ⟨S_, .f32⟩
  | 1 => ⟨S512x256, .f32⟩
  | 2 => ⟨S512x256, .f32⟩
  | 3 => ⟨S512x256, .f32⟩
  | 4 => ⟨S512x256, .f32⟩
  | 5 => ⟨S_, .i32⟩
  | 6 => ⟨S512, .i32⟩
  | 7 => ⟨S512, .i1⟩
  | 8 => ⟨S_, .i32⟩
  | 9 => ⟨S512, .i32⟩
  | 10 => ⟨S512, .i32⟩
  | 11 => ⟨S512, .i32⟩
  | 12 => ⟨S512x1, .i32⟩
  | 13 => ⟨S131040x256, .f32⟩
  | 14 => ⟨S_, .i32⟩
  | 15 => ⟨S512, .i32⟩
  | 16 => ⟨S512, .i1⟩
  | 17 => ⟨S_, .i32⟩
  | 18 => ⟨S512, .i32⟩
  | 19 => ⟨S512, .i32⟩
  | 20 => ⟨S512, .i32⟩
  | 21 => ⟨S512x1, .i32⟩
  | 22 => ⟨S131040x256, .f32⟩
  | 23 => ⟨S32x1, .i32⟩
  | 24 => ⟨S_, .i32⟩
  | 25 => ⟨S32x1, .i32⟩
  | 26 => ⟨S32x1, .i32⟩
  | 27 => ⟨S8, .i32⟩
  | 28 => ⟨S1x8, .i32⟩
  | 29 => ⟨S32x8, .i32⟩
  | 30 => ⟨S32x8, .i32⟩
  | 31 => ⟨S32x8, .i32⟩
  | 32 => ⟨S256, .i32⟩
  | 33 => ⟨S_, .i32⟩
  | 34 => ⟨S256, .i32⟩
  | 35 => ⟨S256, .i1⟩
  | 36 => ⟨S_, .i32⟩
  | 37 => ⟨S256, .i32⟩
  | 38 => ⟨S256, .i32⟩
  | 39 => ⟨S256, .i32⟩
  | 40 => ⟨S256x1, .i32⟩
  | 41 => ⟨S256x768, .f32⟩
  | 42 => ⟨S32x1, .i32⟩
  | 43 => ⟨S_, .i32⟩
  | 44 => ⟨S32x1, .i32⟩
  | 45 => ⟨S32x1, .i32⟩
  | 46 => ⟨S16, .i32⟩
  | 47 => ⟨S1x16, .i32⟩
  | 48 => ⟨S32x16, .i32⟩
  | 49 => ⟨S32x16, .i32⟩
  | 50 => ⟨S32x16, .i32⟩
  | 51 => ⟨S512, .i32⟩
  | 52 => ⟨S_, .i32⟩
  | 53 => ⟨S512, .i32⟩
  | 54 => ⟨S512, .i1⟩
  | 55 => ⟨S_, .i32⟩
  | 56 => ⟨S512, .i32⟩
  | 57 => ⟨S512, .i32⟩
  | 58 => ⟨S512, .i32⟩
  | 59 => ⟨S512x1, .i32⟩
  | 60 => ⟨S512x256, .f32⟩
  | 61 => ⟨S_, .i32⟩
  | 62 => ⟨S512, .i32⟩
  | 63 => ⟨S512, .i1⟩
  | 64 => ⟨S_, .i32⟩
  | 65 => ⟨S512, .i32⟩
  | 66 => ⟨S512, .i32⟩
  | 67 => ⟨S512, .i32⟩
  | 68 => ⟨S512x1, .i32⟩
  | 69 => ⟨S512x256, .f32⟩
  | 70 => ⟨S_, .i32⟩
  | 71 => ⟨S512, .i32⟩
  | 72 => ⟨S512, .i1⟩
  | 73 => ⟨S_, .i32⟩
  | 74 => ⟨S512, .i32⟩
  | 75 => ⟨S512, .i32⟩
  | 76 => ⟨S512, .i32⟩
  | 77 => ⟨S512x1, .i32⟩
  | 78 => ⟨S512, .i32⟩
  | 79 => ⟨S_, .i32⟩
  | 80 => ⟨S_, .i32⟩
  | 81 => ⟨S512, .i32⟩
  | 82 => ⟨S512, .i32⟩
  | 83 => ⟨S512, .i32⟩
  | 84 => ⟨S_, .i32⟩
  | 85 => ⟨S512, .i32⟩
  | 86 => ⟨S512, .i1⟩
  | 87 => ⟨S512, .i32⟩
  | 88 => ⟨S512, .i32⟩
  | 89 => ⟨S_, .i32⟩
  | 90 => ⟨S512, .i32⟩
  | 91 => ⟨S512, .i1⟩
  | 92 => ⟨S512, .i1⟩
  | 93 => ⟨S_, .i32⟩
  | 94 => ⟨S512, .i32⟩
  | 95 => ⟨S512, .i32⟩
  | 96 => ⟨S512, .i32⟩
  | 97 => ⟨S_, .i32⟩
  | 98 => ⟨S512, .i32⟩
  | 99 => ⟨S512, .i32⟩
  | 100 => ⟨S_, .i32⟩
  | 101 => ⟨S_, .i32⟩
  | 102 => ⟨S_, .i32⟩
  | 103 => ⟨S_, .i1⟩
  | 104 => ⟨S_, .i32⟩
  | 105 => ⟨S_, .i32⟩
  | 106 => ⟨S512, .i32⟩
  | 107 => ⟨S512, .i32⟩
  | 108 => ⟨S_, .i32⟩
  | 109 => ⟨S512, .i32⟩
  | 110 => ⟨S512, .i1⟩
  | 111 => ⟨S_, .i32⟩
  | 112 => ⟨S512, .i32⟩
  | 113 => ⟨S512, .i1⟩
  | 114 => ⟨S_, .i32⟩
  | 115 => ⟨S_, .i1⟩
  | 116 => ⟨S512, .i1⟩
  | 117 => ⟨S512, .i1⟩
  | 118 => ⟨S512, .i1⟩
  | 119 => ⟨S512, .i32⟩
  | 120 => ⟨S512, .i32⟩
  | 121 => ⟨S512, .i32⟩
  | 122 => ⟨S_, .i32⟩
  | 123 => ⟨S512, .i32⟩
  | 124 => ⟨S512, .i32⟩
  | 125 => ⟨S512, .i32⟩
  | 126 => ⟨S256x256, .f32⟩
  | 127 => ⟨S512x256, .f32⟩
  | _ => ⟨S131040, .i32⟩

abbrev hbmTy0_11 (i : Nat) : BufTy := match i % 128 with
  | 0 => ⟨S1x256, .f32⟩
  | 1 => ⟨S512x256, .f32⟩
  | 2 => ⟨S512x256, .f32⟩
  | 3 => ⟨S512x256, .f32⟩
  | 4 => ⟨S512x256, .f32⟩
  | 5 => ⟨S_, .f32⟩
  | 6 => ⟨S512x256, .f32⟩
  | 7 => ⟨S512x256, .f32⟩
  | 8 => ⟨S_, .f32⟩
  | 9 => ⟨S512x256, .f32⟩
  | 10 => ⟨S512x256, .f32⟩
  | 11 => ⟨S_, .f32⟩
  | 12 => ⟨S256x256, .f32⟩
  | 13 => ⟨S512x1, .i32⟩
  | 14 => ⟨S256x256, .f32⟩
  | 15 => ⟨S512x256, .f32⟩
  | 16 => ⟨S_, .f32⟩
  | 17 => ⟨S256x256, .f32⟩
  | 18 => ⟨S512x1, .i32⟩
  | 19 => ⟨S256x256, .f32⟩
  | 20 => ⟨S256x768, .f32⟩
  | 21 => ⟨S256x768, .f32⟩
  | 22 => ⟨S256x768, .f32⟩
  | 23 => ⟨S256x768, .f32⟩
  | 24 => ⟨S256x768, .f32⟩
  | 25 => ⟨S256x256, .f32⟩
  | 26 => ⟨S256x256, .f32⟩
  | 27 => ⟨S256x256, .f32⟩
  | 28 => ⟨S256x256, .f32⟩
  | 29 => ⟨S256x256, .f32⟩
  | 30 => ⟨S_, .f32⟩
  | 31 => ⟨S256x256, .f32⟩
  | 32 => ⟨S256x256, .f32⟩
  | 33 => ⟨S_, .f32⟩
  | 34 => ⟨S256x256, .f32⟩
  | 35 => ⟨S256x256, .f32⟩
  | 36 => ⟨S256x256, .f32⟩
  | 37 => ⟨S256x256, .f32⟩
  | 38 => ⟨S256x256, .f32⟩
  | 39 => ⟨S256x256, .f32⟩
  | 40 => ⟨S256x256, .f32⟩
  | 41 => ⟨S_, .f32⟩
  | 42 => ⟨S256x256, .f32⟩
  | 43 => ⟨S256x256, .f32⟩
  | 44 => ⟨S_, .f32⟩
  | 45 => ⟨S256x256, .f32⟩
  | 46 => ⟨S256x256, .f32⟩
  | 47 => ⟨S256x256, .f32⟩
  | 48 => ⟨S256x256, .f32⟩
  | 49 => ⟨S_, .i32⟩
  | 50 => ⟨S256, .i32⟩
  | 51 => ⟨S256, .i1⟩
  | 52 => ⟨S_, .i32⟩
  | 53 => ⟨S256, .i32⟩
  | 54 => ⟨S256, .i32⟩
  | 55 => ⟨S256, .i32⟩
  | 56 => ⟨S256x1, .i32⟩
  | 57 => ⟨S131040x256, .f32⟩
  | 58 => ⟨S_, .i32⟩
  | 59 => ⟨S256, .i32⟩
  | 60 => ⟨S256, .i1⟩
  | 61 => ⟨S_, .i32⟩
  | 62 => ⟨S256, .i32⟩
  | 63 => ⟨S256, .i32⟩
  | 64 => ⟨S256, .i32⟩
  | 65 => ⟨S256x1, .i32⟩
  | 66 => ⟨S131040x256, .f32⟩
  | 67 => ⟨S32x1, .i32⟩
  | 68 => ⟨S_, .i32⟩
  | 69 => ⟨S32x1, .i32⟩
  | 70 => ⟨S32x1, .i32⟩
  | 71 => ⟨S4, .i32⟩
  | 72 => ⟨S1x4, .i32⟩
  | 73 => ⟨S32x4, .i32⟩
  | 74 => ⟨S32x4, .i32⟩
  | 75 => ⟨S32x4, .i32⟩
  | 76 => ⟨S128, .i32⟩
  | 77 => ⟨S_, .i32⟩
  | 78 => ⟨S128, .i32⟩
  | 79 => ⟨S128, .i1⟩
  | 80 => ⟨S_, .i32⟩
  | 81 => ⟨S128, .i32⟩
  | 82 => ⟨S128, .i32⟩
  | 83 => ⟨S128, .i32⟩
  | 84 => ⟨S128x1, .i32⟩
  | 85 => ⟨S128x768, .f32⟩
  | 86 => ⟨S32x1, .i32⟩
  | 87 => ⟨S_, .i32⟩
  | 88 => ⟨S32x1, .i32⟩
  | 89 => ⟨S32x1, .i32⟩
  | 90 => ⟨S8, .i32⟩
  | 91 => ⟨S1x8, .i32⟩
  | 92 => ⟨S32x8, .i32⟩
  | 93 => ⟨S32x8, .i32⟩
  | 94 => ⟨S32x8, .i32⟩
  | 95 => ⟨S256, .i32⟩
  | 96 => ⟨S_, .i32⟩
  | 97 => ⟨S256, .i32⟩
  | 98 => ⟨S256, .i1⟩
  | 99 => ⟨S_, .i32⟩
  | 100 => ⟨S256, .i32⟩
  | 101 => ⟨S256, .i32⟩
  | 102 => ⟨S256, .i32⟩
  | 103 => ⟨S256x1, .i32⟩
  | 104 => ⟨S256x256, .f32⟩
  | 105 => ⟨S_, .i32⟩
  | 106 => ⟨S256, .i32⟩
  | 107 => ⟨S256, .i1⟩
  | 108 => ⟨S_, .i32⟩
  | 109 => ⟨S256, .i32⟩
  | 110 => ⟨S256, .i32⟩
  | 111 => ⟨S256, .i32⟩
  | 112 => ⟨S256x1, .i32⟩
  | 113 => ⟨S256x256, .f32⟩
  | 114 => ⟨S_, .i32⟩
  | 115 => ⟨S256, .i32⟩
  | 116 => ⟨S256, .i1⟩
  | 117 => ⟨S_, .i32⟩
  | 118 => ⟨S256, .i32⟩
  | 119 => ⟨S256, .i32⟩
  | 120 => ⟨S256, .i32⟩
  | 121 => ⟨S256x1, .i32⟩
  | 122 => ⟨S256, .i32⟩
  | 123 => ⟨S_, .i32⟩
  | 124 => ⟨S_, .i32⟩
  | 125 => ⟨S256, .i32⟩
  | 126 => ⟨S256, .i32⟩
  | 127 => ⟨S256, .i32⟩
  | _ => ⟨S131040, .i32⟩

abbrev hbmTy0_12 (i : Nat) : BufTy := match i % 128 with
  | 0 => ⟨S_, .i32⟩
  | 1 => ⟨S256, .i32⟩
  | 2 => ⟨S256, .i1⟩
  | 3 => ⟨S256, .i32⟩
  | 4 => ⟨S256, .i32⟩
  | 5 => ⟨S_, .i32⟩
  | 6 => ⟨S256, .i32⟩
  | 7 => ⟨S256, .i1⟩
  | 8 => ⟨S256, .i1⟩
  | 9 => ⟨S_, .i32⟩
  | 10 => ⟨S256, .i32⟩
  | 11 => ⟨S256, .i32⟩
  | 12 => ⟨S256, .i32⟩
  | 13 => ⟨S_, .i32⟩
  | 14 => ⟨S256, .i32⟩
  | 15 => ⟨S256, .i32⟩
  | 16 => ⟨S_, .i32⟩
  | 17 => ⟨S_, .i32⟩
  | 18 => ⟨S_, .i32⟩
  | 19 => ⟨S_, .i1⟩
  | 20 => ⟨S_, .i32⟩
  | 21 => ⟨S_, .i32⟩
  | 22 => ⟨S256, .i32⟩
  | 23 => ⟨S256, .i32⟩
  | 24 => ⟨S_, .i32⟩
  | 25 => ⟨S256, .i32⟩
  | 26 => ⟨S256, .i1⟩
  | 27 => ⟨S_, .i32⟩
  | 28 => ⟨S256, .i32⟩
  | 29 => ⟨S256, .i1⟩
  | 30 => ⟨S_, .i32⟩
  | 31 => ⟨S_, .i1⟩
  | 32 => ⟨S256, .i1⟩
  | 33 => ⟨S256, .i1⟩
  | 34 => ⟨S256, .i1⟩
  | 35 => ⟨S256, .i32⟩
  | 36 => ⟨S256, .i32⟩
  | 37 => ⟨S256, .i32⟩
  | 38 => ⟨S_, .i32⟩
  | 39 => ⟨S256, .i32⟩
  | 40 => ⟨S256, .i32⟩
  | 41 => ⟨S256, .i32⟩
  | 42 => ⟨S256x256, .f32⟩
  | 43 => ⟨S256x256, .f32⟩
  | 44 => ⟨S1x256, .f32⟩
  | 45 => ⟨S256x256, .f32⟩
  | 46 => ⟨S256x256, .f32⟩
  | 47 => ⟨S256x256, .f32⟩
  | 48 => ⟨S256x256, .f32⟩
  | 49 => ⟨S_, .f32⟩
  | 50 => ⟨S256x256, .f32⟩
  | 51 => ⟨S256x256, .f32⟩
  | 52 => ⟨S_, .f32⟩
  | 53 => ⟨S256x256, .f32⟩
  | 54 => ⟨S256x256, .f32⟩
  | 55 => ⟨S_, .f32⟩
  | 56 => ⟨S128x256, .f32⟩
  | 57 => ⟨S256x1, .i32⟩
  | 58 => ⟨S128x256, .f32⟩
  | 59 => ⟨S256x256, .f32⟩
  | 60 => ⟨S_, .f32⟩
  | 61 => ⟨S128x256, .f32⟩
  | 62 => ⟨S256x1, .i32⟩
  | 63 => ⟨S128x256, .f32⟩
  | 64 => ⟨S256x768, .f32⟩
  | 65 => ⟨S128x768, .f32⟩
  | 66 => ⟨S128x768, .f32⟩
  | 67 => ⟨S128x768, .f32⟩
  | 68 => ⟨S128x768, .f32⟩
  | 69 => ⟨S128x256, .f32⟩
  | 70 => ⟨S128x256, .f32⟩
  | 71 => ⟨S128x256, .f32⟩
  | 72 => ⟨S128x256, .f32⟩
  | 73 => ⟨S128x256, .f32⟩
  | 74 => ⟨S_, .f32⟩
  | 75 => ⟨S128x256, .f32⟩
  | 76 => ⟨S128x256, .f32⟩
  | 77 => ⟨S_, .f32⟩
  | 78 => ⟨S128x256, .f32⟩
  | 79 => ⟨S128x256, .f32⟩
  | 80 => ⟨S128x256, .f32⟩
  | 81 => ⟨S128x256, .f32⟩
  | 82 => ⟨S128x256, .f32⟩
  | 83 => ⟨S128x256, .f32⟩
  | 84 => ⟨S128x256, .f32⟩
  | 85 => ⟨S_, .f32⟩
  | 86 => ⟨S128x256, .f32⟩
  | 87 => ⟨S128x256, .f32⟩
  | 88 => ⟨S_, .f32⟩
  | 89 => ⟨S128x256, .f32⟩
  | 90 => ⟨S128x256, .f32⟩
  | 91 => ⟨S128x256, .f32⟩
  | 92 => ⟨S128x256, .f32⟩
  | 93 => ⟨S_, .i32⟩
  | 94 => ⟨S128, .i32⟩
  | 95 => ⟨S128, .i1⟩
  | 96 => ⟨S_, .i32⟩
  | 97 => ⟨S128, .i32⟩
  | 98 => ⟨S128, .i32⟩
  | 99 => ⟨S128, .i32⟩
  | 100 => ⟨S128x1, .i32⟩
  | 101 => ⟨S131040x256, .f32⟩
  | 102 => ⟨S_, .i32⟩
  | 103 => ⟨S128, .i32⟩
  | 104 => ⟨S128, .i1⟩
  | 105 => ⟨S_, .i32⟩
  | 106 => ⟨S128, .i32⟩
  | 107 => ⟨S128, .i32⟩
  | 108 => ⟨S128, .i32⟩
  | 109 => ⟨S128x1, .i32⟩
  | 110 => ⟨S131040x256, .f32⟩
  | 111 => ⟨S32x1, .i32⟩
  | 112 => ⟨S_, .i32⟩
  | 113 => ⟨S32x1, .i32⟩
  | 114 => ⟨S32x1, .i32⟩
  | 115 => ⟨S2, .i32⟩
  | 116 => ⟨S1x2, .i32⟩
  | 117 => ⟨S32x2, .i32⟩
  | 118 => ⟨S32x2, .i32⟩
  | 119 => ⟨S32x2, .i32⟩
  | 120 => ⟨S64, .i32⟩
  | 121 => ⟨S_, .i32⟩
  | 122 => ⟨S64, .i32⟩
  | 123 => ⟨S64, .i1⟩
  | 124 => ⟨S_, .i32⟩
  | 125 => ⟨S64, .i32⟩
  | 126 => ⟨S64, .i32⟩
  | 127 => ⟨S64, .i32⟩
  | _ => ⟨S131040, .i32⟩

abbrev hbmTy0_13 (i : Nat) : BufTy := match i % 128 with
  | 0 => ⟨S64x1, .i32⟩
  | 1 => ⟨S64x768, .f32⟩
  | 2 => ⟨S32x1, .i32⟩
  | 3 => ⟨S_, .i32⟩
  | 4 => ⟨S32x1, .i32⟩
  | 5 => ⟨S32x1, .i32⟩
  | 6 => ⟨S4, .i32⟩
  | 7 => ⟨S1x4, .i32⟩
  | 8 => ⟨S32x4, .i32⟩
  | 9 => ⟨S32x4, .i32⟩
  | 10 => ⟨S32x4, .i32⟩
  | 11 => ⟨S128, .i32⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S128x256, .f32⟩
  | 21 => ⟨S_, .i32⟩
  | 22 => ⟨S128, .i32⟩
  | 23 => ⟨S128, .i1⟩
  | 24 => ⟨S_, .i32⟩
  | 25 => ⟨S128, .i32⟩
  | 26 => ⟨S128, .i32⟩
  | 27 => ⟨S128, .i32⟩
  | 28 => ⟨S128x1, .i32⟩
  | 29 => ⟨S128x256, .f32⟩
  | 30 => ⟨S_, .i32⟩
  | 31 => ⟨S128, .i32⟩
  | 32 => ⟨S128, .i1⟩
  | 33 => ⟨S_, .i32⟩
  | 34 => ⟨S128, .i32⟩
  | 35 => ⟨S128, .i32⟩
  | 36 => ⟨S128, .i32⟩
  | 37 => ⟨S128x1, .i32⟩
  | 38 => ⟨S128, .i32⟩
  | 39 => ⟨S_, .i32⟩
  | 40 => ⟨S_, .i32⟩
  | 41 => ⟨S128, .i32⟩
  | 42 => ⟨S128, .i32⟩
  | 43 => ⟨S128, .i32⟩
  | 44 => ⟨S_, .i32⟩
  | 45 => ⟨S128, .i32⟩
  | 46 => ⟨S128, .i1⟩
  | 47 => ⟨S128, .i32⟩
  | 48 => ⟨S128, .i32⟩
  | 49 => ⟨S_, .i32⟩
  | 50 => ⟨S128, .i32⟩
  | 51 => ⟨S128, .i1⟩
  | 52 => ⟨S128, .i1⟩
  | 53 => ⟨S_, .i32⟩
  | 54 => ⟨S128, .i32⟩
  | 55 => ⟨S128, .i32⟩
  | 56 => ⟨S128, .i32⟩
  | 57 => ⟨S_, .i32⟩
  | 58 => ⟨S128, .i32⟩
  | 59 => ⟨S128, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S128, .i32⟩
  | 67 => ⟨S128, .i32⟩
  | 68 => ⟨S_, .i32⟩
  | 69 => ⟨S128, .i32⟩
  | 70 => ⟨S128, .i1⟩
  | 71 => ⟨S_, .i32⟩
  | 72 => ⟨S128, .i32⟩
  | 73 => ⟨S128, .i1⟩
  | 74 => ⟨S_, .i32⟩
  | 75 => ⟨S_, .i1⟩
  | 76 => ⟨S128, .i1⟩
  | 77 => ⟨S128, .i1⟩
  | 78 => ⟨S128, .i1⟩
  | 79 => ⟨S128, .i32⟩
  | 80 => ⟨S128, .i32⟩
  | 81 => ⟨S128, .i32⟩
  | 82 => ⟨S_, .i32⟩
  | 83 => ⟨S128, .i32⟩
  | 84 => ⟨S128, .i32⟩
  | 85 => ⟨S128, .i32⟩
  | 86 => ⟨S256x256, .f32⟩
  | 87 => ⟨S128x256, .f32⟩
  | 88 => ⟨S1x256, .f32⟩
  | 89 => ⟨S128x256, .f32⟩
  | 90 => ⟨S128x256, .f32⟩
  | 91 => ⟨S128x256, .f32⟩
  | 92 => ⟨S128x256, .f32⟩
  | 93 => ⟨S_, .f32⟩
  | 94 => ⟨S128x256, .f32⟩
  | 95 => ⟨S128x256, .f32⟩
  | 96 => ⟨S_, .f32⟩
  | 97 => ⟨S128x256, .f32⟩
  | 98 => ⟨S128x256, .f32⟩
  | 99 => ⟨S_, .f32⟩
  | 100 => ⟨S64x256, .f32⟩
  | 101 => ⟨S128x1, .i32⟩
  | 102 => ⟨S64x256, .f32⟩
  | 103 => ⟨S128x256, .f32⟩
  | 104 => ⟨S_, .f32⟩
  | 105 => ⟨S64x256, .f32⟩
  | 106 => ⟨S128x1, .i32⟩
  | 107 => ⟨S64x256, .f32⟩
  | 108 => ⟨S256x768, .f32⟩
  | 109 => ⟨S64x768, .f32⟩
  | 110 => ⟨S64x768, .f32⟩
  | 111 => ⟨S64x768, .f32⟩
  | 112 => ⟨S64x768, .f32⟩
  | 113 => ⟨S64x256, .f32⟩
  | 114 => ⟨S64x256, .f32⟩
  | 115 => ⟨S64x256, .f32⟩
  | 116 => ⟨S64x256, .f32⟩
  | 117 => ⟨S64x256, .f32⟩
  | 118 => ⟨S_, .f32⟩
  | 119 => ⟨S64x256, .f32⟩
  | 120 => ⟨S64x256, .f32⟩
  | 121 => ⟨S_, .f32⟩
  | 122 => ⟨S64x256, .f32⟩
  | 123 => ⟨S64x256, .f32⟩
  | 124 => ⟨S64x256, .f32⟩
  | 125 => ⟨S64x256, .f32⟩
  | 126 => ⟨S64x256, .f32⟩
  | 127 => ⟨S64x256, .f32⟩
  | _ => ⟨S131040, .i32⟩

abbrev hbmTy0_14 (i : Nat) : BufTy := match i % 128 with
  | 0 => ⟨S64x256, .f32⟩
  | 1 => ⟨S_, .f32⟩
  | 2 => ⟨S64x256, .f32⟩
  | 3 => ⟨S64x256, .f32⟩
  | 4 => ⟨S_, .f32⟩
  | 5 => ⟨S64x256, .f32⟩
  | 6 => ⟨S64x256, .f32⟩
  | 7 => ⟨S64x256, .f32⟩
  | 8 => ⟨S64x256, .f32⟩
  | 9 => ⟨S_, .i32⟩
  | 10 => ⟨S64, .i32⟩
  | 11 => ⟨S64, .i1⟩
  | 12 => ⟨S_, .i32⟩
  | 13 => ⟨S64, .i32⟩
  | 14 => ⟨S64, .i32⟩
  | 15 => ⟨S64, .i32⟩
  | 16 => ⟨S64x1, .i32⟩
  | 17 => ⟨S131040x256, .f32⟩
  | 18 => ⟨S_, .i32⟩
  | 19 => ⟨S64, .i32⟩
  | 20 => ⟨S64, .i1⟩
  | 21 => ⟨S_, .i32⟩
  | 22 => ⟨S64, .i32⟩
  | 23 => ⟨S64, .i32⟩
  | 24 => ⟨S64, .i32⟩
  | 25 => ⟨S64x1, .i32⟩
  | 26 => ⟨S131040x256, .f32⟩
  | 27 => ⟨S32x1, .i32⟩
  | 28 => ⟨S_, .i32⟩
  | 29 => ⟨S32x1, .i32⟩
  | 30 => ⟨S32x1, .i32⟩
  | 31 => ⟨S1, .i32⟩
  | 32 => ⟨S1x1, .i32⟩
  | 33 => ⟨S32x1, .i32⟩
  | 34 => ⟨S32x1, .i32⟩
  | 35 => ⟨S32, .i32⟩
  | 36 => ⟨S_, .i32⟩
  | 37 => ⟨S32, .i32⟩
  | 38 => ⟨S32, .i1⟩
  | 39 => ⟨S_, .i32⟩
  | 40 => ⟨S32, .i32⟩
  | 41 => ⟨S32, .i32⟩
  | 42 => ⟨S32, .i32⟩
  | 43 => ⟨S32x1, .i32⟩
  | 44 => ⟨S32x768, .f32⟩
  | 45 => ⟨S32x1, .i32⟩
  | 46 => ⟨S_, .i32⟩
  | 47 => ⟨S32x1, .i32⟩
  | 48 => ⟨S32x1, .i32⟩
  | 49 => ⟨S2, .i32⟩
  | 50 => ⟨S1x2, .i32⟩
  | 51 => ⟨S32x2, .i32⟩
  | 52 => ⟨S32x2, .i32⟩
  | 53 => ⟨S32x2, .i32⟩
  | 54 => ⟨S64, .i32⟩
  | 55 => ⟨S_, .i32⟩
  | 56 => ⟨S64, .i32⟩
  | 57 => ⟨S64, .i1⟩
  | 58 => ⟨S_, .i32⟩
  | 59 => ⟨S64, .i32⟩
  | 60 => ⟨S64, .i32⟩
  | 61 => ⟨S64, .i32⟩
  | 62 => ⟨S64x1, .i32⟩
  | 63 => ⟨S64x256, .f32⟩
  | 64 => ⟨S_, .i32⟩
  | 65 => ⟨S64, .i32⟩
  | 66 => ⟨S64, .i1⟩
  | 67 => ⟨S_, .i32⟩
  | 68 => ⟨S64, .i32⟩
  | 69 => ⟨S64, .i32⟩
  | 70 => ⟨S64, .i32⟩
  | 71 => ⟨S64x1, .i32⟩
  | 72 => ⟨S64x256, .f32⟩
  | 73 => ⟨S_, .i32⟩
  | 74 => ⟨S64, .i32⟩
  | 75 => ⟨S64, .i1⟩
  | 76 => ⟨S_, .i32⟩
  | 77 => ⟨S64, .i32⟩
  | 78 => ⟨S64, .i32⟩
  | 79 => ⟨S64, .i32⟩
  | 80 => ⟨S64x1, .i32⟩
  | 81 => ⟨S64, .i32⟩
  | 82 => ⟨S_, .i32⟩
  | 83 => ⟨S_, .i32⟩
  | 84 => ⟨S64, .i32⟩
  | 85 => ⟨S64, .i32⟩
  | 86 => ⟨S64, .i32⟩
  | 87 => ⟨S_, .i32⟩
  | 88 => ⟨S64, .i32⟩
  | 89 => ⟨S64, .i1⟩
  | 90 => ⟨S64, .i32⟩
  | 91 => ⟨S64, .i32⟩
  | 92 => ⟨S_, .i32⟩
  | 93 => ⟨S64, .i32⟩
  | 94 => ⟨S64, .i1⟩
  | 95 => ⟨S64, .i1⟩
  | 96 => ⟨S_, .i32⟩
  | 97 => ⟨S64, .i32⟩
  | 98 => ⟨S64, .i32⟩
  | 99 => ⟨S64, .i32⟩
  | 100 => ⟨S_, .i32⟩
  | 101 => ⟨S64, .i32⟩
  | 102 => ⟨S64, .i32⟩
  | 103 => ⟨S_, .i32⟩
  | 104 => ⟨S_, .i32⟩
  | 105 => ⟨S_, .i32⟩
  | 106 => ⟨S_, .i1⟩
  | 107 => ⟨S_, .i32⟩
  | 108 => ⟨S_, .i32⟩
  | 109 => ⟨S64, .i32⟩
  | 110 => ⟨S64, .i32⟩
  | 111 => ⟨S_, .i32⟩
  | 112 => ⟨S64, .i32⟩
  | 113 => ⟨S64, .i1⟩
  | 114 => ⟨S_, .i32⟩
  | 115 => ⟨S64, .i32⟩
  | 116 => ⟨S64, .i1⟩
  | 117 => ⟨S_, .i32⟩
  | 118 => ⟨S_, .i1⟩
  | 119 => ⟨S64, .i1⟩
  | 120 => ⟨S64, .i1⟩
  | 121 => ⟨S64, .i1⟩
  | 122 => ⟨S64, .i32⟩
  | 123 => ⟨S64, .i32⟩
  | 124 => ⟨S64, .i32⟩
  | 125 => ⟨S_, .i32⟩
  | 126 => ⟨S64, .i32⟩
  | 127 => ⟨S64, .i32⟩
  | _ => ⟨S131040, .i32⟩

abbrev hbmTy0_15 (i : Nat) : BufTy := match i % 128 with
  | 0 => ⟨S64, .i32⟩
  | 1 => ⟨S256x256, .f32⟩
  | 2 => ⟨S64x256, .f32⟩
  | 3 => ⟨S1x256, .f32⟩
  | 4 => ⟨S64x256, .f32⟩
  | 5 => ⟨S64x256, .f32⟩
  | 6 => ⟨S64x256, .f32⟩
  | 7 => ⟨S64x256, .f32⟩
  | 8 => ⟨S_, .f32⟩
  | 9 => ⟨S64x256, .f32⟩
  | 10 => ⟨S64x256, .f32⟩
  | 11 => ⟨S_, .f32⟩
  | 12 => ⟨S64x256, .f32⟩
  | 13 => ⟨S64x256, .f32⟩
  | 14 => ⟨S_, .f32⟩
  | 15 => ⟨S32x256, .f32⟩
  | 16 => ⟨S64x1, .i32⟩
  | 17 => ⟨S32x256, .f32⟩
  | 18 => ⟨S64x256, .f32⟩
  | 19 => ⟨S_, .f32⟩
  | 20 => ⟨S32x256, .f32⟩
  | 21 => ⟨S64x1, .i32⟩
  | 22 => ⟨S32x256, .f32⟩
  | 23 => ⟨S256x768, .f32⟩
  | 24 => ⟨S32x768, .f32⟩
  | 25 => ⟨S32x768, .f32⟩
  | 26 => ⟨S32x768, .f32⟩
  | 27 => ⟨S32x768, .f32⟩
  | 28 => ⟨S32x256, .f32⟩
  | 29 => ⟨S32x256, .f32⟩
  | 30 => ⟨S32x256, .f32⟩
  | 31 => ⟨S32x256, .f32⟩
  | 32 => ⟨S32x256, .f32⟩
  | 33 => ⟨S_, .f32⟩
  | 34 => ⟨S32x256, .f32⟩
  | 35 => ⟨S32x256, .f32⟩
  | 36 => ⟨S_, .f32⟩
  | 37 => ⟨S32x256, .f32⟩
  | 38 => ⟨S32x256, .f32⟩
  | 39 => ⟨S32x256, .f32⟩
  | 40 => ⟨S32x256, .f32⟩
  | 41 => ⟨S32x256, .f32⟩
  | 42 => ⟨S32x256, .f32⟩
  | 43 => ⟨S32x256, .f32⟩
  | 44 => ⟨S_, .f32⟩
  | 45 => ⟨S32x256, .f32⟩
  | 46 => ⟨S32x256, .f32⟩
  | 47 => ⟨S_, .f32⟩
  | 48 => ⟨S32x256, .f32⟩
  | 49 => ⟨S32x256, .f32⟩
  | 50 => ⟨S32x256, .f32⟩
  | 51 => ⟨S32x256, .f32⟩
  | 52 => ⟨S_, .i32⟩
  | 53 => ⟨S32, .i32⟩
  | 54 => ⟨S32, .i1⟩
  | 55 => ⟨S_, .i32⟩
  | 56 => ⟨S32, .i32⟩
  | 57 => ⟨S32, .i32⟩
  | 58 => ⟨S32, .i32⟩
  | 59 => ⟨S32x1, .i32⟩
  | 60 => ⟨S131040x256, .f32⟩
  | 61 => ⟨S_, .i32⟩
  | 62 => ⟨S32, .i32⟩
  | 63 => ⟨S32, .i1⟩
  | 64 => ⟨S_, .i32⟩
  | 65 => ⟨S32, .i32⟩
  | 66 => ⟨S32, .i32⟩
  | 67 => ⟨S32, .i32⟩
  | 68 => ⟨S32x1, .i32⟩
  | 69 => ⟨S131040x256, .f32⟩
  | 70 => ⟨S_, .i32⟩
  | 71 => ⟨S32, .i32⟩
  | 72 => ⟨S32, .i1⟩
  | 73 => ⟨S_, .i32⟩
  | 74 => ⟨S32, .i32⟩
  | 75 => ⟨S32, .i32⟩
  | 76 => ⟨S32, .i32⟩
  | 77 => ⟨S32x1, .i32⟩
  | 78 => ⟨S32x256, .f32⟩
  | 79 => ⟨S256x104, .f32⟩
  | 80 => ⟨S32x104, .f32⟩
  | 81 => ⟨S1x104, .f32⟩
  | 82 => ⟨S32x104, .f32⟩
  | 83 => ⟨S32x104, .f32⟩
  | _ => ⟨S131040, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | _ => ⟨S131040, .i32⟩

abbrev bufTy : (tb : Table) → Fin (tcTables nBuf tb) → BufTy
  | .hbm, ⟨i, _⟩ => hbmTy i
  | _, _ => ⟨S131040, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_c_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_cst_2 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_c_4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c_5 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_c_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst_8 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_cst_10 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_cst_12 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_c_13 : Ref sig .tc := ⟨.hbm, 81, rfl⟩
abbrev main_v56 : Ref sig .tc := ⟨.hbm, 82, rfl⟩
abbrev main_v57 : Ref sig .tc := ⟨.hbm, 83, rfl⟩
abbrev main_c_14 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_c_15 : Ref sig .tc := ⟨.hbm, 90, rfl⟩
abbrev main_v63 : Ref sig .tc := ⟨.hbm, 91, rfl⟩
abbrev main_v64 : Ref sig .tc := ⟨.hbm, 92, rfl⟩
abbrev main_c_16 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_c_17 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_18 : Ref sig .tc := ⟨.hbm, 109, rfl⟩
abbrev main_v79 : Ref sig .tc := ⟨.hbm, 110, rfl⟩
abbrev main_v80 : Ref sig .tc := ⟨.hbm, 111, rfl⟩
abbrev main_c_19 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_c_20 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_c_21 : Ref sig .tc := ⟨.hbm, 128, rfl⟩
abbrev main_v95 : Ref sig .tc := ⟨.hbm, 129, rfl⟩
abbrev main_v96 : Ref sig .tc := ⟨.hbm, 130, rfl⟩
abbrev main_c_22 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_c_23 : Ref sig .tc := ⟨.hbm, 137, rfl⟩
abbrev main_v102 : Ref sig .tc := ⟨.hbm, 138, rfl⟩
abbrev main_v103 : Ref sig .tc := ⟨.hbm, 139, rfl⟩
abbrev main_c_24 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_c_25 : Ref sig .tc := ⟨.hbm, 146, rfl⟩
abbrev main_v109 : Ref sig .tc := ⟨.hbm, 147, rfl⟩
abbrev main_v110 : Ref sig .tc := ⟨.hbm, 148, rfl⟩
abbrev main_c_26 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_c_27 : Ref sig .tc := ⟨.hbm, 155, rfl⟩
abbrev main_call0_v0 : Ref sig .tc := ⟨.hbm, 156, rfl⟩
abbrev main_call0_v1 : Ref sig .tc := ⟨.hbm, 157, rfl⟩
abbrev main_call0_v2 : Ref sig .tc := ⟨.hbm, 158, rfl⟩
abbrev main_call0_v3 : Ref sig .tc := ⟨.hbm, 159, rfl⟩
abbrev main_call0_v4 : Ref sig .tc := ⟨.hbm, 160, rfl⟩
abbrev main_call0_v5 : Ref sig .tc := ⟨.hbm, 161, rfl⟩
abbrev main_call0_v6 : Ref sig .tc := ⟨.hbm, 162, rfl⟩
abbrev main_call0_v7 : Ref sig .tc := ⟨.hbm, 163, rfl⟩
abbrev main_call0_v8 : Ref sig .tc := ⟨.hbm, 164, rfl⟩
abbrev main_call0_c : Ref sig .tc := ⟨.hbm, 165, rfl⟩
abbrev main_call0_v9 : Ref sig .tc := ⟨.hbm, 166, rfl⟩
abbrev main_call0_v10 : Ref sig .tc := ⟨.hbm, 167, rfl⟩
abbrev main_call0_v11 : Ref sig .tc := ⟨.hbm, 168, rfl⟩
abbrev main_call0_c_0 : Ref sig .tc := ⟨.hbm, 169, rfl⟩
abbrev main_call0_v12 : Ref sig .tc := ⟨.hbm, 170, rfl⟩
abbrev main_call0_v13 : Ref sig .tc := ⟨.hbm, 171, rfl⟩
abbrev main_v116 : Ref sig .tc := ⟨.hbm, 172, rfl⟩
abbrev main_c_28 : Ref sig .tc := ⟨.hbm, 173, rfl⟩
abbrev main_v117 : Ref sig .tc := ⟨.hbm, 174, rfl⟩
abbrev main_v118 : Ref sig .tc := ⟨.hbm, 175, rfl⟩
abbrev main_c_29 : Ref sig .tc := ⟨.hbm, 176, rfl⟩
abbrev main_call1_v0 : Ref sig .tc := ⟨.hbm, 177, rfl⟩
abbrev main_call1_c : Ref sig .tc := ⟨.hbm, 178, rfl⟩
abbrev main_call1_v1 : Ref sig .tc := ⟨.hbm, 179, rfl⟩
abbrev main_call1_c_0 : Ref sig .tc := ⟨.hbm, 180, rfl⟩
abbrev main_call1_v2 : Ref sig .tc := ⟨.hbm, 181, rfl⟩
abbrev main_call1_v3 : Ref sig .tc := ⟨.hbm, 182, rfl⟩
abbrev main_call1_v4 : Ref sig .tc := ⟨.hbm, 183, rfl⟩
abbrev main_call1_c_1 : Ref sig .tc := ⟨.hbm, 184, rfl⟩
abbrev main_call1_v5 : Ref sig .tc := ⟨.hbm, 185, rfl⟩
abbrev main_call1_v6 : Ref sig .tc := ⟨.hbm, 186, rfl⟩
abbrev main_call1_c_2 : Ref sig .tc := ⟨.hbm, 187, rfl⟩
abbrev main_call1_v7 : Ref sig .tc := ⟨.hbm, 188, rfl⟩
abbrev main_call1_v8 : Ref sig .tc := ⟨.hbm, 189, rfl⟩
abbrev main_call1_c_3 : Ref sig .tc := ⟨.hbm, 190, rfl⟩
abbrev main_call1_v9 : Ref sig .tc := ⟨.hbm, 191, rfl⟩
abbrev main_call1_v10 : Ref sig .tc := ⟨.hbm, 192, rfl⟩
abbrev main_call1_v11 : Ref sig .tc := ⟨.hbm, 193, rfl⟩
abbrev main_call1_v12 : Ref sig .tc := ⟨.hbm, 194, rfl⟩
abbrev main_call1_v13 : Ref sig .tc := ⟨.hbm, 195, rfl⟩
abbrev main_call1_v14 : Ref sig .tc := ⟨.hbm, 196, rfl⟩
abbrev main_v119 : Ref sig .tc := ⟨.hbm, 197, rfl⟩
abbrev main_c_30 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_v123 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_cst_31 : Ref sig .tc := ⟨.hbm, 209, rfl⟩
abbrev main_v130 : Ref sig .tc := ⟨.hbm, 210, rfl⟩
abbrev main_v131 : Ref sig .tc := ⟨.hbm, 211, rfl⟩
abbrev main_cst_32 : Ref sig .tc := ⟨.hbm, 212, rfl⟩
abbrev main_v132 : Ref sig .tc := ⟨.hbm, 213, rfl⟩
abbrev main_v133 : Ref sig .tc := ⟨.hbm, 214, rfl⟩
abbrev main_cst_33 : Ref sig .tc := ⟨.hbm, 215, rfl⟩
abbrev main_v134 : Ref sig .tc := ⟨.hbm, 216, rfl⟩
abbrev main_v135 : Ref sig .tc := ⟨.hbm, 217, rfl⟩
abbrev main_v136 : Ref sig .tc := ⟨.hbm, 218, rfl⟩
abbrev main_v137 : Ref sig .tc := ⟨.hbm, 219, rfl⟩
abbrev main_cst_34 : Ref sig .tc := ⟨.hbm, 220, rfl⟩
abbrev main_v138 : Ref sig .tc := ⟨.hbm, 221, rfl⟩
abbrev main_v139 : Ref sig .tc := ⟨.hbm, 222, rfl⟩
abbrev main_v140 : Ref sig .tc := ⟨.hbm, 223, rfl⟩
abbrev main_v141 : Ref sig .tc := ⟨.hbm, 224, rfl⟩
abbrev main_v142 : Ref sig .tc := ⟨.hbm, 225, rfl⟩
abbrev main_v143 : Ref sig .tc := ⟨.hbm, 226, rfl⟩
abbrev main_v144 : Ref sig .tc := ⟨.hbm, 227, rfl⟩
abbrev main_v145 : Ref sig .tc := ⟨.hbm, 228, rfl⟩
abbrev main_v146 : Ref sig .tc := ⟨.hbm, 229, rfl⟩
abbrev main_v147 : Ref sig .tc := ⟨.hbm, 230, rfl⟩
abbrev main_v148 : Ref sig .tc := ⟨.hbm, 231, rfl⟩
abbrev main_v149 : Ref sig .tc := ⟨.hbm, 232, rfl⟩
abbrev main_v150 : Ref sig .tc := ⟨.hbm, 233, rfl⟩
abbrev main_cst_35 : Ref sig .tc := ⟨.hbm, 234, rfl⟩
abbrev main_v151 : Ref sig .tc := ⟨.hbm, 235, rfl⟩
abbrev main_v152 : Ref sig .tc := ⟨.hbm, 236, rfl⟩
abbrev main_cst_36 : Ref sig .tc := ⟨.hbm, 237, rfl⟩
abbrev main_v153 : Ref sig .tc := ⟨.hbm, 238, rfl⟩
abbrev main_v154 : Ref sig .tc := ⟨.hbm, 239, rfl⟩
abbrev main_v155 : Ref sig .tc := ⟨.hbm, 240, rfl⟩
abbrev main_v156 : Ref sig .tc := ⟨.hbm, 241, rfl⟩
abbrev main_v157 : Ref sig .tc := ⟨.hbm, 242, rfl⟩
abbrev main_v158 : Ref sig .tc := ⟨.hbm, 243, rfl⟩
abbrev main_v159 : Ref sig .tc := ⟨.hbm, 244, rfl⟩
abbrev main_cst_37 : Ref sig .tc := ⟨.hbm, 245, rfl⟩
abbrev main_v160 : Ref sig .tc := ⟨.hbm, 246, rfl⟩
abbrev main_v161 : Ref sig .tc := ⟨.hbm, 247, rfl⟩
abbrev main_cst_38 : Ref sig .tc := ⟨.hbm, 248, rfl⟩
abbrev main_v162 : Ref sig .tc := ⟨.hbm, 249, rfl⟩
abbrev main_v163 : Ref sig .tc := ⟨.hbm, 250, rfl⟩
abbrev main_v164 : Ref sig .tc := ⟨.hbm, 251, rfl⟩
abbrev main_v165 : Ref sig .tc := ⟨.hbm, 252, rfl⟩
abbrev main_c_39 : Ref sig .tc := ⟨.hbm, 253, rfl⟩
abbrev main_v166 : Ref sig .tc := ⟨.hbm, 254, rfl⟩
abbrev main_v167 : Ref sig .tc := ⟨.hbm, 255, rfl⟩
abbrev main_c_40 : Ref sig .tc := ⟨.hbm, 256, rfl⟩
abbrev main_v168 : Ref sig .tc := ⟨.hbm, 257, rfl⟩
abbrev main_v169 : Ref sig .tc := ⟨.hbm, 258, rfl⟩
abbrev main_v170 : Ref sig .tc := ⟨.hbm, 259, rfl⟩
abbrev main_v171 : Ref sig .tc := ⟨.hbm, 260, rfl⟩
abbrev main_v172 : Ref sig .tc := ⟨.hbm, 261, rfl⟩
abbrev main_c_41 : Ref sig .tc := ⟨.hbm, 262, rfl⟩
abbrev main_v173 : Ref sig .tc := ⟨.hbm, 263, rfl⟩
abbrev main_v174 : Ref sig .tc := ⟨.hbm, 264, rfl⟩
abbrev main_c_42 : Ref sig .tc := ⟨.hbm, 265, rfl⟩
abbrev main_v175 : Ref sig .tc := ⟨.hbm, 266, rfl⟩
abbrev main_v176 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_v180 : Ref sig .tc := ⟨.hbm, 271, rfl⟩
abbrev main_c_43 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_v188 : Ref sig .tc := ⟨.hbm, 280, rfl⟩
abbrev main_c_44 : Ref sig .tc := ⟨.hbm, 281, rfl⟩
abbrev main_v189 : Ref sig .tc := ⟨.hbm, 282, rfl⟩
abbrev main_v190 : Ref sig .tc := ⟨.hbm, 283, rfl⟩
abbrev main_c_45 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_c_46 : Ref sig .tc := ⟨.hbm, 291, rfl⟩
abbrev main_v197 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_v201 : Ref sig .tc := ⟨.hbm, 296, rfl⟩
abbrev main_v202 : Ref sig .tc := ⟨.hbm, 297, rfl⟩
abbrev main_v203 : Ref sig .tc := ⟨.hbm, 298, rfl⟩
abbrev main_v204 : Ref sig .tc := ⟨.hbm, 299, rfl⟩
abbrev main_c_47 : Ref sig .tc := ⟨.hbm, 300, rfl⟩
abbrev main_v205 : Ref sig .tc := ⟨.hbm, 301, rfl⟩
abbrev main_v206 : Ref sig .tc := ⟨.hbm, 302, rfl⟩
abbrev main_c_48 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_c_49 : Ref sig .tc := ⟨.hbm, 309, rfl⟩
abbrev main_v212 : Ref sig .tc := ⟨.hbm, 310, rfl⟩
abbrev main_v213 : Ref sig .tc := ⟨.hbm, 311, rfl⟩
abbrev main_c_50 : Ref sig .tc := ⟨.hbm, 312, rfl⟩
abbrev main_v214 : Ref sig .tc := ⟨.hbm, 313, rfl⟩
abbrev main_v215 : Ref sig .tc := ⟨.hbm, 314, rfl⟩
abbrev main_v216 : Ref sig .tc := ⟨.hbm, 315, rfl⟩
abbrev main_v217 : Ref sig .tc := ⟨.hbm, 316, rfl⟩
abbrev main_v218 : Ref sig .tc := ⟨.hbm, 317, rfl⟩
abbrev main_c_51 : Ref sig .tc := ⟨.hbm, 318, rfl⟩
abbrev main_v219 : Ref sig .tc := ⟨.hbm, 319, rfl⟩
abbrev main_v220 : Ref sig .tc := ⟨.hbm, 320, rfl⟩
abbrev main_c_52 : Ref sig .tc := ⟨.hbm, 321, rfl⟩
abbrev main_v221 : Ref sig .tc := ⟨.hbm, 322, rfl⟩
abbrev main_v222 : Ref sig .tc := ⟨.hbm, 323, rfl⟩
abbrev main_v223 : Ref sig .tc := ⟨.hbm, 324, rfl⟩
abbrev main_v224 : Ref sig .tc := ⟨.hbm, 325, rfl⟩
abbrev main_v225 : Ref sig .tc := ⟨.hbm, 326, rfl⟩
abbrev main_c_53 : Ref sig .tc := ⟨.hbm, 327, rfl⟩
abbrev main_call2_v0 : Ref sig .tc := ⟨.hbm, 328, rfl⟩
abbrev main_call2_v1 : Ref sig .tc := ⟨.hbm, 329, rfl⟩
abbrev main_call2_v2 : Ref sig .tc := ⟨.hbm, 330, rfl⟩
abbrev main_call2_v3 : Ref sig .tc := ⟨.hbm, 331, rfl⟩
abbrev main_call2_v4 : Ref sig .tc := ⟨.hbm, 332, rfl⟩
abbrev main_call2_v5 : Ref sig .tc := ⟨.hbm, 333, rfl⟩
abbrev main_call2_v6 : Ref sig .tc := ⟨.hbm, 334, rfl⟩
abbrev main_call2_v7 : Ref sig .tc := ⟨.hbm, 335, rfl⟩
abbrev main_call2_v8 : Ref sig .tc := ⟨.hbm, 336, rfl⟩
abbrev main_call2_c : Ref sig .tc := ⟨.hbm, 337, rfl⟩
abbrev main_call2_v9 : Ref sig .tc := ⟨.hbm, 338, rfl⟩
abbrev main_call2_v10 : Ref sig .tc := ⟨.hbm, 339, rfl⟩
abbrev main_call2_v11 : Ref sig .tc := ⟨.hbm, 340, rfl⟩
abbrev main_call2_c_0 : Ref sig .tc := ⟨.hbm, 341, rfl⟩
abbrev main_call2_v12 : Ref sig .tc := ⟨.hbm, 342, rfl⟩
abbrev main_call2_v13 : Ref sig .tc := ⟨.hbm, 343, rfl⟩
abbrev main_v226 : Ref sig .tc := ⟨.hbm, 344, rfl⟩
abbrev main_c_54 : Ref sig .tc := ⟨.hbm, 345, rfl⟩
abbrev main_v227 : Ref sig .tc := ⟨.hbm, 346, rfl⟩
abbrev main_v228 : Ref sig .tc := ⟨.hbm, 347, rfl⟩
abbrev main_c_55 : Ref sig .tc := ⟨.hbm, 348, rfl⟩
abbrev main_call3_v0 : Ref sig .tc := ⟨.hbm, 349, rfl⟩
abbrev main_call3_c : Ref sig .tc := ⟨.hbm, 350, rfl⟩
abbrev main_call3_v1 : Ref sig .tc := ⟨.hbm, 351, rfl⟩
abbrev main_call3_c_0 : Ref sig .tc := ⟨.hbm, 352, rfl⟩
abbrev main_call3_v2 : Ref sig .tc := ⟨.hbm, 353, rfl⟩
abbrev main_call3_v3 : Ref sig .tc := ⟨.hbm, 354, rfl⟩
abbrev main_call3_v4 : Ref sig .tc := ⟨.hbm, 355, rfl⟩
abbrev main_call3_c_1 : Ref sig .tc := ⟨.hbm, 356, rfl⟩
abbrev main_call3_v5 : Ref sig .tc := ⟨.hbm, 357, rfl⟩
abbrev main_call3_v6 : Ref sig .tc := ⟨.hbm, 358, rfl⟩
abbrev main_call3_c_2 : Ref sig .tc := ⟨.hbm, 359, rfl⟩
abbrev main_call3_v7 : Ref sig .tc := ⟨.hbm, 360, rfl⟩
abbrev main_call3_v8 : Ref sig .tc := ⟨.hbm, 361, rfl⟩
abbrev main_call3_c_3 : Ref sig .tc := ⟨.hbm, 362, rfl⟩
abbrev main_call3_v9 : Ref sig .tc := ⟨.hbm, 363, rfl⟩
abbrev main_call3_v10 : Ref sig .tc := ⟨.hbm, 364, rfl⟩
abbrev main_call3_v11 : Ref sig .tc := ⟨.hbm, 365, rfl⟩
abbrev main_call3_v12 : Ref sig .tc := ⟨.hbm, 366, rfl⟩
abbrev main_call3_v13 : Ref sig .tc := ⟨.hbm, 367, rfl⟩
abbrev main_call3_v14 : Ref sig .tc := ⟨.hbm, 368, rfl⟩
abbrev main_v229 : Ref sig .tc := ⟨.hbm, 369, rfl⟩
abbrev main_c_56 : Ref sig .tc := ⟨.hbm, 370, rfl⟩
abbrev main_v230 : Ref sig .tc := ⟨.hbm, 371, rfl⟩
abbrev main_v231 : Ref sig .tc := ⟨.hbm, 372, rfl⟩
abbrev main_v232 : Ref sig .tc := ⟨.hbm, 373, rfl⟩
abbrev main_v233 : Ref sig .tc := ⟨.hbm, 374, rfl⟩
abbrev main_v234 : Ref sig .tc := ⟨.hbm, 375, rfl⟩
abbrev main_v235 : Ref sig .tc := ⟨.hbm, 376, rfl⟩
abbrev main_v236 : Ref sig .tc := ⟨.hbm, 377, rfl⟩
abbrev main_v237 : Ref sig .tc := ⟨.hbm, 378, rfl⟩
abbrev main_v238 : Ref sig .tc := ⟨.hbm, 379, rfl⟩
abbrev main_v239 : Ref sig .tc := ⟨.hbm, 380, rfl⟩
abbrev main_cst_57 : Ref sig .tc := ⟨.hbm, 381, rfl⟩
abbrev main_v240 : Ref sig .tc := ⟨.hbm, 382, rfl⟩
abbrev main_v241 : Ref sig .tc := ⟨.hbm, 383, rfl⟩
abbrev main_cst_58 : Ref sig .tc := ⟨.hbm, 384, rfl⟩
abbrev main_v242 : Ref sig .tc := ⟨.hbm, 385, rfl⟩
abbrev main_v243 : Ref sig .tc := ⟨.hbm, 386, rfl⟩
abbrev main_cst_59 : Ref sig .tc := ⟨.hbm, 387, rfl⟩
abbrev main_v244 : Ref sig .tc := ⟨.hbm, 388, rfl⟩
abbrev main_v245 : Ref sig .tc := ⟨.hbm, 389, rfl⟩
abbrev main_v246 : Ref sig .tc := ⟨.hbm, 390, rfl⟩
abbrev main_v247 : Ref sig .tc := ⟨.hbm, 391, rfl⟩
abbrev main_cst_60 : Ref sig .tc := ⟨.hbm, 392, rfl⟩
abbrev main_v248 : Ref sig .tc := ⟨.hbm, 393, rfl⟩
abbrev main_v249 : Ref sig .tc := ⟨.hbm, 394, rfl⟩
abbrev main_v250 : Ref sig .tc := ⟨.hbm, 395, rfl⟩
abbrev main_v251 : Ref sig .tc := ⟨.hbm, 396, rfl⟩
abbrev main_v252 : Ref sig .tc := ⟨.hbm, 397, rfl⟩
abbrev main_v253 : Ref sig .tc := ⟨.hbm, 398, rfl⟩
abbrev main_v254 : Ref sig .tc := ⟨.hbm, 399, rfl⟩
abbrev main_v255 : Ref sig .tc := ⟨.hbm, 400, rfl⟩
abbrev main_v256 : Ref sig .tc := ⟨.hbm, 401, rfl⟩
abbrev main_v257 : Ref sig .tc := ⟨.hbm, 402, rfl⟩
abbrev main_v258 : Ref sig .tc := ⟨.hbm, 403, rfl⟩
abbrev main_v259 : Ref sig .tc := ⟨.hbm, 404, rfl⟩
abbrev main_v260 : Ref sig .tc := ⟨.hbm, 405, rfl⟩
abbrev main_cst_61 : Ref sig .tc := ⟨.hbm, 406, rfl⟩
abbrev main_v261 : Ref sig .tc := ⟨.hbm, 407, rfl⟩
abbrev main_v262 : Ref sig .tc := ⟨.hbm, 408, rfl⟩
abbrev main_cst_62 : Ref sig .tc := ⟨.hbm, 409, rfl⟩
abbrev main_v263 : Ref sig .tc := ⟨.hbm, 410, rfl⟩
abbrev main_v264 : Ref sig .tc := ⟨.hbm, 411, rfl⟩
abbrev main_v265 : Ref sig .tc := ⟨.hbm, 412, rfl⟩
abbrev main_v266 : Ref sig .tc := ⟨.hbm, 413, rfl⟩
abbrev main_v267 : Ref sig .tc := ⟨.hbm, 414, rfl⟩
abbrev main_v268 : Ref sig .tc := ⟨.hbm, 415, rfl⟩
abbrev main_v269 : Ref sig .tc := ⟨.hbm, 416, rfl⟩
abbrev main_cst_63 : Ref sig .tc := ⟨.hbm, 417, rfl⟩
abbrev main_v270 : Ref sig .tc := ⟨.hbm, 418, rfl⟩
abbrev main_v271 : Ref sig .tc := ⟨.hbm, 419, rfl⟩
abbrev main_cst_64 : Ref sig .tc := ⟨.hbm, 420, rfl⟩
abbrev main_v272 : Ref sig .tc := ⟨.hbm, 421, rfl⟩
abbrev main_v273 : Ref sig .tc := ⟨.hbm, 422, rfl⟩
abbrev main_v274 : Ref sig .tc := ⟨.hbm, 423, rfl⟩
abbrev main_v275 : Ref sig .tc := ⟨.hbm, 424, rfl⟩
abbrev main_c_65 : Ref sig .tc := ⟨.hbm, 425, rfl⟩
abbrev main_v276 : Ref sig .tc := ⟨.hbm, 426, rfl⟩
abbrev main_v277 : Ref sig .tc := ⟨.hbm, 427, rfl⟩
abbrev main_c_66 : Ref sig .tc := ⟨.hbm, 428, rfl⟩
abbrev main_v278 : Ref sig .tc := ⟨.hbm, 429, rfl⟩
abbrev main_v279 : Ref sig .tc := ⟨.hbm, 430, rfl⟩
abbrev main_v280 : Ref sig .tc := ⟨.hbm, 431, rfl⟩
abbrev main_v281 : Ref sig .tc := ⟨.hbm, 432, rfl⟩
abbrev main_v282 : Ref sig .tc := ⟨.hbm, 433, rfl⟩
abbrev main_c_67 : Ref sig .tc := ⟨.hbm, 434, rfl⟩
abbrev main_v283 : Ref sig .tc := ⟨.hbm, 435, rfl⟩
abbrev main_v284 : Ref sig .tc := ⟨.hbm, 436, rfl⟩
abbrev main_c_68 : Ref sig .tc := ⟨.hbm, 437, rfl⟩
abbrev main_v285 : Ref sig .tc := ⟨.hbm, 438, rfl⟩
abbrev main_v286 : Ref sig .tc := ⟨.hbm, 439, rfl⟩
abbrev main_v287 : Ref sig .tc := ⟨.hbm, 440, rfl⟩
abbrev main_v288 : Ref sig .tc := ⟨.hbm, 441, rfl⟩
abbrev main_v289 : Ref sig .tc := ⟨.hbm, 442, rfl⟩
abbrev main_v290 : Ref sig .tc := ⟨.hbm, 443, rfl⟩
abbrev main_c_69 : Ref sig .tc := ⟨.hbm, 444, rfl⟩
abbrev main_v291 : Ref sig .tc := ⟨.hbm, 445, rfl⟩
abbrev main_v292 : Ref sig .tc := ⟨.hbm, 446, rfl⟩
abbrev main_v293 : Ref sig .tc := ⟨.hbm, 447, rfl⟩
abbrev main_v294 : Ref sig .tc := ⟨.hbm, 448, rfl⟩
abbrev main_v295 : Ref sig .tc := ⟨.hbm, 449, rfl⟩
abbrev main_v296 : Ref sig .tc := ⟨.hbm, 450, rfl⟩
abbrev main_v297 : Ref sig .tc := ⟨.hbm, 451, rfl⟩
abbrev main_v298 : Ref sig .tc := ⟨.hbm, 452, rfl⟩
abbrev main_c_70 : Ref sig .tc := ⟨.hbm, 453, rfl⟩
abbrev main_v299 : Ref sig .tc := ⟨.hbm, 454, rfl⟩
abbrev main_v300 : Ref sig .tc := ⟨.hbm, 455, rfl⟩
abbrev main_c_71 : Ref sig .tc := ⟨.hbm, 456, rfl⟩
abbrev main_v301 : Ref sig .tc := ⟨.hbm, 457, rfl⟩
abbrev main_v302 : Ref sig .tc := ⟨.hbm, 458, rfl⟩
abbrev main_v303 : Ref sig .tc := ⟨.hbm, 459, rfl⟩
abbrev main_v304 : Ref sig .tc := ⟨.hbm, 460, rfl⟩
abbrev main_v305 : Ref sig .tc := ⟨.hbm, 461, rfl⟩
abbrev main_v306 : Ref sig .tc := ⟨.hbm, 462, rfl⟩
abbrev main_c_72 : Ref sig .tc := ⟨.hbm, 463, rfl⟩
abbrev main_v307 : Ref sig .tc := ⟨.hbm, 464, rfl⟩
abbrev main_v308 : Ref sig .tc := ⟨.hbm, 465, rfl⟩
abbrev main_v309 : Ref sig .tc := ⟨.hbm, 466, rfl⟩
abbrev main_v310 : Ref sig .tc := ⟨.hbm, 467, rfl⟩
abbrev main_v311 : Ref sig .tc := ⟨.hbm, 468, rfl⟩
abbrev main_v312 : Ref sig .tc := ⟨.hbm, 469, rfl⟩
abbrev main_v313 : Ref sig .tc := ⟨.hbm, 470, rfl⟩
abbrev main_v314 : Ref sig .tc := ⟨.hbm, 471, rfl⟩
abbrev main_c_73 : Ref sig .tc := ⟨.hbm, 472, rfl⟩
abbrev main_v315 : Ref sig .tc := ⟨.hbm, 473, rfl⟩
abbrev main_v316 : Ref sig .tc := ⟨.hbm, 474, rfl⟩
abbrev main_c_74 : Ref sig .tc := ⟨.hbm, 475, rfl⟩
abbrev main_v317 : Ref sig .tc := ⟨.hbm, 476, rfl⟩
abbrev main_v318 : Ref sig .tc := ⟨.hbm, 477, rfl⟩
abbrev main_v319 : Ref sig .tc := ⟨.hbm, 478, rfl⟩
abbrev main_v320 : Ref sig .tc := ⟨.hbm, 479, rfl⟩
abbrev main_v321 : Ref sig .tc := ⟨.hbm, 480, rfl⟩
abbrev main_c_75 : Ref sig .tc := ⟨.hbm, 481, rfl⟩
abbrev main_v322 : Ref sig .tc := ⟨.hbm, 482, rfl⟩
abbrev main_v323 : Ref sig .tc := ⟨.hbm, 483, rfl⟩
abbrev main_c_76 : Ref sig .tc := ⟨.hbm, 484, rfl⟩
abbrev main_v324 : Ref sig .tc := ⟨.hbm, 485, rfl⟩
abbrev main_v325 : Ref sig .tc := ⟨.hbm, 486, rfl⟩
abbrev main_v326 : Ref sig .tc := ⟨.hbm, 487, rfl⟩
abbrev main_v327 : Ref sig .tc := ⟨.hbm, 488, rfl⟩
abbrev main_v328 : Ref sig .tc := ⟨.hbm, 489, rfl⟩
abbrev main_c_77 : Ref sig .tc := ⟨.hbm, 490, rfl⟩
abbrev main_v329 : Ref sig .tc := ⟨.hbm, 491, rfl⟩
abbrev main_v330 : Ref sig .tc := ⟨.hbm, 492, rfl⟩
abbrev main_c_78 : Ref sig .tc := ⟨.hbm, 493, rfl⟩
abbrev main_v331 : Ref sig .tc := ⟨.hbm, 494, rfl⟩
abbrev main_v332 : Ref sig .tc := ⟨.hbm, 495, rfl⟩
abbrev main_v333 : Ref sig .tc := ⟨.hbm, 496, rfl⟩
abbrev main_v334 : Ref sig .tc := ⟨.hbm, 497, rfl⟩
abbrev main_v335 : Ref sig .tc := ⟨.hbm, 498, rfl⟩
abbrev main_c_79 : Ref sig .tc := ⟨.hbm, 499, rfl⟩
abbrev main_call4_v0 : Ref sig .tc := ⟨.hbm, 500, rfl⟩
abbrev main_call4_v1 : Ref sig .tc := ⟨.hbm, 501, rfl⟩
abbrev main_call4_v2 : Ref sig .tc := ⟨.hbm, 502, rfl⟩
abbrev main_call4_v3 : Ref sig .tc := ⟨.hbm, 503, rfl⟩
abbrev main_call4_v4 : Ref sig .tc := ⟨.hbm, 504, rfl⟩
abbrev main_call4_v5 : Ref sig .tc := ⟨.hbm, 505, rfl⟩
abbrev main_call4_v6 : Ref sig .tc := ⟨.hbm, 506, rfl⟩
abbrev main_call4_v7 : Ref sig .tc := ⟨.hbm, 507, rfl⟩
abbrev main_call4_v8 : Ref sig .tc := ⟨.hbm, 508, rfl⟩
abbrev main_call4_c : Ref sig .tc := ⟨.hbm, 509, rfl⟩
abbrev main_call4_v9 : Ref sig .tc := ⟨.hbm, 510, rfl⟩
abbrev main_call4_v10 : Ref sig .tc := ⟨.hbm, 511, rfl⟩
abbrev main_call4_v11 : Ref sig .tc := ⟨.hbm, 512, rfl⟩
abbrev main_call4_c_0 : Ref sig .tc := ⟨.hbm, 513, rfl⟩
abbrev main_call4_v12 : Ref sig .tc := ⟨.hbm, 514, rfl⟩
abbrev main_call4_v13 : Ref sig .tc := ⟨.hbm, 515, rfl⟩
abbrev main_v336 : Ref sig .tc := ⟨.hbm, 516, rfl⟩
abbrev main_c_80 : Ref sig .tc := ⟨.hbm, 517, rfl⟩
abbrev main_v337 : Ref sig .tc := ⟨.hbm, 518, rfl⟩
abbrev main_v338 : Ref sig .tc := ⟨.hbm, 519, rfl⟩
abbrev main_c_81 : Ref sig .tc := ⟨.hbm, 520, rfl⟩
abbrev main_call5_v0 : Ref sig .tc := ⟨.hbm, 521, rfl⟩
abbrev main_call5_c : Ref sig .tc := ⟨.hbm, 522, rfl⟩
abbrev main_call5_v1 : Ref sig .tc := ⟨.hbm, 523, rfl⟩
abbrev main_call5_c_0 : Ref sig .tc := ⟨.hbm, 524, rfl⟩
abbrev main_call5_v2 : Ref sig .tc := ⟨.hbm, 525, rfl⟩
abbrev main_call5_v3 : Ref sig .tc := ⟨.hbm, 526, rfl⟩
abbrev main_call5_v4 : Ref sig .tc := ⟨.hbm, 527, rfl⟩
abbrev main_call5_c_1 : Ref sig .tc := ⟨.hbm, 528, rfl⟩
abbrev main_call5_v5 : Ref sig .tc := ⟨.hbm, 529, rfl⟩
abbrev main_call5_v6 : Ref sig .tc := ⟨.hbm, 530, rfl⟩
abbrev main_call5_c_2 : Ref sig .tc := ⟨.hbm, 531, rfl⟩
abbrev main_call5_v7 : Ref sig .tc := ⟨.hbm, 532, rfl⟩
abbrev main_call5_v8 : Ref sig .tc := ⟨.hbm, 533, rfl⟩
abbrev main_call5_c_3 : Ref sig .tc := ⟨.hbm, 534, rfl⟩
abbrev main_call5_v9 : Ref sig .tc := ⟨.hbm, 535, rfl⟩
abbrev main_call5_v10 : Ref sig .tc := ⟨.hbm, 536, rfl⟩
abbrev main_call5_v11 : Ref sig .tc := ⟨.hbm, 537, rfl⟩
abbrev main_call5_v12 : Ref sig .tc := ⟨.hbm, 538, rfl⟩
abbrev main_call5_v13 : Ref sig .tc := ⟨.hbm, 539, rfl⟩
abbrev main_call5_v14 : Ref sig .tc := ⟨.hbm, 540, rfl⟩
abbrev main_v339 : Ref sig .tc := ⟨.hbm, 541, rfl⟩
abbrev main_c_82 : Ref sig .tc := ⟨.hbm, 542, rfl⟩
abbrev main_v340 : Ref sig .tc := ⟨.hbm, 543, rfl⟩
abbrev main_v341 : Ref sig .tc := ⟨.hbm, 544, rfl⟩
abbrev main_v342 : Ref sig .tc := ⟨.hbm, 545, rfl⟩
abbrev main_v343 : Ref sig .tc := ⟨.hbm, 546, rfl⟩
abbrev main_v344 : Ref sig .tc := ⟨.hbm, 547, rfl⟩
abbrev main_v345 : Ref sig .tc := ⟨.hbm, 548, rfl⟩
abbrev main_v346 : Ref sig .tc := ⟨.hbm, 549, rfl⟩
abbrev main_v347 : Ref sig .tc := ⟨.hbm, 550, rfl⟩
abbrev main_v348 : Ref sig .tc := ⟨.hbm, 551, rfl⟩
abbrev main_v349 : Ref sig .tc := ⟨.hbm, 552, rfl⟩
abbrev main_cst_83 : Ref sig .tc := ⟨.hbm, 553, rfl⟩
abbrev main_v350 : Ref sig .tc := ⟨.hbm, 554, rfl⟩
abbrev main_v351 : Ref sig .tc := ⟨.hbm, 555, rfl⟩
abbrev main_cst_84 : Ref sig .tc := ⟨.hbm, 556, rfl⟩
abbrev main_v352 : Ref sig .tc := ⟨.hbm, 557, rfl⟩
abbrev main_v353 : Ref sig .tc := ⟨.hbm, 558, rfl⟩
abbrev main_cst_85 : Ref sig .tc := ⟨.hbm, 559, rfl⟩
abbrev main_v354 : Ref sig .tc := ⟨.hbm, 560, rfl⟩
abbrev main_v355 : Ref sig .tc := ⟨.hbm, 561, rfl⟩
abbrev main_v356 : Ref sig .tc := ⟨.hbm, 562, rfl⟩
abbrev main_v357 : Ref sig .tc := ⟨.hbm, 563, rfl⟩
abbrev main_cst_86 : Ref sig .tc := ⟨.hbm, 564, rfl⟩
abbrev main_v358 : Ref sig .tc := ⟨.hbm, 565, rfl⟩
abbrev main_v359 : Ref sig .tc := ⟨.hbm, 566, rfl⟩
abbrev main_v360 : Ref sig .tc := ⟨.hbm, 567, rfl⟩
abbrev main_v361 : Ref sig .tc := ⟨.hbm, 568, rfl⟩
abbrev main_v362 : Ref sig .tc := ⟨.hbm, 569, rfl⟩
abbrev main_v363 : Ref sig .tc := ⟨.hbm, 570, rfl⟩
abbrev main_v364 : Ref sig .tc := ⟨.hbm, 571, rfl⟩
abbrev main_v365 : Ref sig .tc := ⟨.hbm, 572, rfl⟩
abbrev main_v366 : Ref sig .tc := ⟨.hbm, 573, rfl⟩
abbrev main_v367 : Ref sig .tc := ⟨.hbm, 574, rfl⟩
abbrev main_v368 : Ref sig .tc := ⟨.hbm, 575, rfl⟩
abbrev main_v369 : Ref sig .tc := ⟨.hbm, 576, rfl⟩
abbrev main_v370 : Ref sig .tc := ⟨.hbm, 577, rfl⟩
abbrev main_cst_87 : Ref sig .tc := ⟨.hbm, 578, rfl⟩
abbrev main_v371 : Ref sig .tc := ⟨.hbm, 579, rfl⟩
abbrev main_v372 : Ref sig .tc := ⟨.hbm, 580, rfl⟩
abbrev main_cst_88 : Ref sig .tc := ⟨.hbm, 581, rfl⟩
abbrev main_v373 : Ref sig .tc := ⟨.hbm, 582, rfl⟩
abbrev main_v374 : Ref sig .tc := ⟨.hbm, 583, rfl⟩
abbrev main_v375 : Ref sig .tc := ⟨.hbm, 584, rfl⟩
abbrev main_v376 : Ref sig .tc := ⟨.hbm, 585, rfl⟩
abbrev main_v377 : Ref sig .tc := ⟨.hbm, 586, rfl⟩
abbrev main_v378 : Ref sig .tc := ⟨.hbm, 587, rfl⟩
abbrev main_v379 : Ref sig .tc := ⟨.hbm, 588, rfl⟩
abbrev main_cst_89 : Ref sig .tc := ⟨.hbm, 589, rfl⟩
abbrev main_v380 : Ref sig .tc := ⟨.hbm, 590, rfl⟩
abbrev main_v381 : Ref sig .tc := ⟨.hbm, 591, rfl⟩
abbrev main_cst_90 : Ref sig .tc := ⟨.hbm, 592, rfl⟩
abbrev main_v382 : Ref sig .tc := ⟨.hbm, 593, rfl⟩
abbrev main_v383 : Ref sig .tc := ⟨.hbm, 594, rfl⟩
abbrev main_v384 : Ref sig .tc := ⟨.hbm, 595, rfl⟩
abbrev main_v385 : Ref sig .tc := ⟨.hbm, 596, rfl⟩
abbrev main_c_91 : Ref sig .tc := ⟨.hbm, 597, rfl⟩
abbrev main_v386 : Ref sig .tc := ⟨.hbm, 598, rfl⟩
abbrev main_v387 : Ref sig .tc := ⟨.hbm, 599, rfl⟩
abbrev main_c_92 : Ref sig .tc := ⟨.hbm, 600, rfl⟩
abbrev main_v388 : Ref sig .tc := ⟨.hbm, 601, rfl⟩
abbrev main_v389 : Ref sig .tc := ⟨.hbm, 602, rfl⟩
abbrev main_v390 : Ref sig .tc := ⟨.hbm, 603, rfl⟩
abbrev main_v391 : Ref sig .tc := ⟨.hbm, 604, rfl⟩
abbrev main_v392 : Ref sig .tc := ⟨.hbm, 605, rfl⟩
abbrev main_c_93 : Ref sig .tc := ⟨.hbm, 606, rfl⟩
abbrev main_v393 : Ref sig .tc := ⟨.hbm, 607, rfl⟩
abbrev main_v394 : Ref sig .tc := ⟨.hbm, 608, rfl⟩
abbrev main_c_94 : Ref sig .tc := ⟨.hbm, 609, rfl⟩
abbrev main_v395 : Ref sig .tc := ⟨.hbm, 610, rfl⟩
abbrev main_v396 : Ref sig .tc := ⟨.hbm, 611, rfl⟩
abbrev main_v397 : Ref sig .tc := ⟨.hbm, 612, rfl⟩
abbrev main_v398 : Ref sig .tc := ⟨.hbm, 613, rfl⟩
abbrev main_v399 : Ref sig .tc := ⟨.hbm, 614, rfl⟩
abbrev main_v400 : Ref sig .tc := ⟨.hbm, 615, rfl⟩
abbrev main_c_95 : Ref sig .tc := ⟨.hbm, 616, rfl⟩
abbrev main_v401 : Ref sig .tc := ⟨.hbm, 617, rfl⟩
abbrev main_v402 : Ref sig .tc := ⟨.hbm, 618, rfl⟩
abbrev main_v403 : Ref sig .tc := ⟨.hbm, 619, rfl⟩
abbrev main_v404 : Ref sig .tc := ⟨.hbm, 620, rfl⟩
abbrev main_v405 : Ref sig .tc := ⟨.hbm, 621, rfl⟩
abbrev main_v406 : Ref sig .tc := ⟨.hbm, 622, rfl⟩
abbrev main_v407 : Ref sig .tc := ⟨.hbm, 623, rfl⟩
abbrev main_v408 : Ref sig .tc := ⟨.hbm, 624, rfl⟩
abbrev main_c_96 : Ref sig .tc := ⟨.hbm, 625, rfl⟩
abbrev main_v409 : Ref sig .tc := ⟨.hbm, 626, rfl⟩
abbrev main_v410 : Ref sig .tc := ⟨.hbm, 627, rfl⟩
abbrev main_c_97 : Ref sig .tc := ⟨.hbm, 628, rfl⟩
abbrev main_v411 : Ref sig .tc := ⟨.hbm, 629, rfl⟩
abbrev main_v412 : Ref sig .tc := ⟨.hbm, 630, rfl⟩
abbrev main_v413 : Ref sig .tc := ⟨.hbm, 631, rfl⟩
abbrev main_v414 : Ref sig .tc := ⟨.hbm, 632, rfl⟩
abbrev main_v415 : Ref sig .tc := ⟨.hbm, 633, rfl⟩
abbrev main_v416 : Ref sig .tc := ⟨.hbm, 634, rfl⟩
abbrev main_c_98 : Ref sig .tc := ⟨.hbm, 635, rfl⟩
abbrev main_v417 : Ref sig .tc := ⟨.hbm, 636, rfl⟩
abbrev main_v418 : Ref sig .tc := ⟨.hbm, 637, rfl⟩
abbrev main_v419 : Ref sig .tc := ⟨.hbm, 638, rfl⟩
abbrev main_v420 : Ref sig .tc := ⟨.hbm, 639, rfl⟩
abbrev main_v421 : Ref sig .tc := ⟨.hbm, 640, rfl⟩
abbrev main_v422 : Ref sig .tc := ⟨.hbm, 641, rfl⟩
abbrev main_v423 : Ref sig .tc := ⟨.hbm, 642, rfl⟩
abbrev main_v424 : Ref sig .tc := ⟨.hbm, 643, rfl⟩
abbrev main_c_99 : Ref sig .tc := ⟨.hbm, 644, rfl⟩
abbrev main_v425 : Ref sig .tc := ⟨.hbm, 645, rfl⟩
abbrev main_v426 : Ref sig .tc := ⟨.hbm, 646, rfl⟩
abbrev main_c_100 : Ref sig .tc := ⟨.hbm, 647, rfl⟩
abbrev main_v427 : Ref sig .tc := ⟨.hbm, 648, rfl⟩
abbrev main_v428 : Ref sig .tc := ⟨.hbm, 649, rfl⟩
abbrev main_v429 : Ref sig .tc := ⟨.hbm, 650, rfl⟩
abbrev main_v430 : Ref sig .tc := ⟨.hbm, 651, rfl⟩
abbrev main_v431 : Ref sig .tc := ⟨.hbm, 652, rfl⟩
abbrev main_c_101 : Ref sig .tc := ⟨.hbm, 653, rfl⟩
abbrev main_v432 : Ref sig .tc := ⟨.hbm, 654, rfl⟩
abbrev main_v433 : Ref sig .tc := ⟨.hbm, 655, rfl⟩
abbrev main_c_102 : Ref sig .tc := ⟨.hbm, 656, rfl⟩
abbrev main_v434 : Ref sig .tc := ⟨.hbm, 657, rfl⟩
abbrev main_v435 : Ref sig .tc := ⟨.hbm, 658, rfl⟩
abbrev main_v436 : Ref sig .tc := ⟨.hbm, 659, rfl⟩
abbrev main_v437 : Ref sig .tc := ⟨.hbm, 660, rfl⟩
abbrev main_v438 : Ref sig .tc := ⟨.hbm, 661, rfl⟩
abbrev main_c_103 : Ref sig .tc := ⟨.hbm, 662, rfl⟩
abbrev main_v439 : Ref sig .tc := ⟨.hbm, 663, rfl⟩
abbrev main_v440 : Ref sig .tc := ⟨.hbm, 664, rfl⟩
abbrev main_c_104 : Ref sig .tc := ⟨.hbm, 665, rfl⟩
abbrev main_v441 : Ref sig .tc := ⟨.hbm, 666, rfl⟩
abbrev main_v442 : Ref sig .tc := ⟨.hbm, 667, rfl⟩
abbrev main_v443 : Ref sig .tc := ⟨.hbm, 668, rfl⟩
abbrev main_v444 : Ref sig .tc := ⟨.hbm, 669, rfl⟩
abbrev main_v445 : Ref sig .tc := ⟨.hbm, 670, rfl⟩
abbrev main_c_105 : Ref sig .tc := ⟨.hbm, 671, rfl⟩
abbrev main_call6_v0 : Ref sig .tc := ⟨.hbm, 672, rfl⟩
abbrev main_call6_v1 : Ref sig .tc := ⟨.hbm, 673, rfl⟩
abbrev main_call6_v2 : Ref sig .tc := ⟨.hbm, 674, rfl⟩
abbrev main_call6_v3 : Ref sig .tc := ⟨.hbm, 675, rfl⟩
abbrev main_call6_v4 : Ref sig .tc := ⟨.hbm, 676, rfl⟩
abbrev main_call6_v5 : Ref sig .tc := ⟨.hbm, 677, rfl⟩
abbrev main_call6_v6 : Ref sig .tc := ⟨.hbm, 678, rfl⟩
abbrev main_call6_v7 : Ref sig .tc := ⟨.hbm, 679, rfl⟩
abbrev main_call6_v8 : Ref sig .tc := ⟨.hbm, 680, rfl⟩
abbrev main_call6_c : Ref sig .tc := ⟨.hbm, 681, rfl⟩
abbrev main_call6_v9 : Ref sig .tc := ⟨.hbm, 682, rfl⟩
abbrev main_call6_v10 : Ref sig .tc := ⟨.hbm, 683, rfl⟩
abbrev main_call6_v11 : Ref sig .tc := ⟨.hbm, 684, rfl⟩
abbrev main_call6_c_0 : Ref sig .tc := ⟨.hbm, 685, rfl⟩
abbrev main_call6_v12 : Ref sig .tc := ⟨.hbm, 686, rfl⟩
abbrev main_call6_v13 : Ref sig .tc := ⟨.hbm, 687, rfl⟩
abbrev main_v446 : Ref sig .tc := ⟨.hbm, 688, rfl⟩
abbrev main_c_106 : Ref sig .tc := ⟨.hbm, 689, rfl⟩
abbrev main_v447 : Ref sig .tc := ⟨.hbm, 690, rfl⟩
abbrev main_v448 : Ref sig .tc := ⟨.hbm, 691, rfl⟩
abbrev main_c_107 : Ref sig .tc := ⟨.hbm, 692, rfl⟩
abbrev main_call7_v0 : Ref sig .tc := ⟨.hbm, 693, rfl⟩
abbrev main_call7_c : Ref sig .tc := ⟨.hbm, 694, rfl⟩
abbrev main_call7_v1 : Ref sig .tc := ⟨.hbm, 695, rfl⟩
abbrev main_call7_c_0 : Ref sig .tc := ⟨.hbm, 696, rfl⟩
abbrev main_call7_v2 : Ref sig .tc := ⟨.hbm, 697, rfl⟩
abbrev main_call7_v3 : Ref sig .tc := ⟨.hbm, 698, rfl⟩
abbrev main_call7_v4 : Ref sig .tc := ⟨.hbm, 699, rfl⟩
abbrev main_call7_c_1 : Ref sig .tc := ⟨.hbm, 700, rfl⟩
abbrev main_call7_v5 : Ref sig .tc := ⟨.hbm, 701, rfl⟩
abbrev main_call7_v6 : Ref sig .tc := ⟨.hbm, 702, rfl⟩
abbrev main_call7_c_2 : Ref sig .tc := ⟨.hbm, 703, rfl⟩
abbrev main_call7_v7 : Ref sig .tc := ⟨.hbm, 704, rfl⟩
abbrev main_call7_v8 : Ref sig .tc := ⟨.hbm, 705, rfl⟩
abbrev main_call7_c_3 : Ref sig .tc := ⟨.hbm, 706, rfl⟩
abbrev main_call7_v9 : Ref sig .tc := ⟨.hbm, 707, rfl⟩
abbrev main_call7_v10 : Ref sig .tc := ⟨.hbm, 708, rfl⟩
abbrev main_call7_v11 : Ref sig .tc := ⟨.hbm, 709, rfl⟩
abbrev main_call7_v12 : Ref sig .tc := ⟨.hbm, 710, rfl⟩
abbrev main_call7_v13 : Ref sig .tc := ⟨.hbm, 711, rfl⟩
abbrev main_call7_v14 : Ref sig .tc := ⟨.hbm, 712, rfl⟩
abbrev main_v449 : Ref sig .tc := ⟨.hbm, 713, rfl⟩
abbrev main_c_108 : Ref sig .tc := ⟨.hbm, 714, rfl⟩
abbrev main_v450 : Ref sig .tc := ⟨.hbm, 715, rfl⟩
abbrev main_v451 : Ref sig .tc := ⟨.hbm, 716, rfl⟩
abbrev main_v452 : Ref sig .tc := ⟨.hbm, 717, rfl⟩
abbrev main_v453 : Ref sig .tc := ⟨.hbm, 718, rfl⟩
abbrev main_v454 : Ref sig .tc := ⟨.hbm, 719, rfl⟩
abbrev main_v455 : Ref sig .tc := ⟨.hbm, 720, rfl⟩
abbrev main_v456 : Ref sig .tc := ⟨.hbm, 721, rfl⟩
abbrev main_v457 : Ref sig .tc := ⟨.hbm, 722, rfl⟩
abbrev main_v458 : Ref sig .tc := ⟨.hbm, 723, rfl⟩
abbrev main_v459 : Ref sig .tc := ⟨.hbm, 724, rfl⟩
abbrev main_cst_109 : Ref sig .tc := ⟨.hbm, 725, rfl⟩
abbrev main_v460 : Ref sig .tc := ⟨.hbm, 726, rfl⟩
abbrev main_v461 : Ref sig .tc := ⟨.hbm, 727, rfl⟩
abbrev main_cst_110 : Ref sig .tc := ⟨.hbm, 728, rfl⟩
abbrev main_v462 : Ref sig .tc := ⟨.hbm, 729, rfl⟩
abbrev main_v463 : Ref sig .tc := ⟨.hbm, 730, rfl⟩
abbrev main_cst_111 : Ref sig .tc := ⟨.hbm, 731, rfl⟩
abbrev main_v464 : Ref sig .tc := ⟨.hbm, 732, rfl⟩
abbrev main_v465 : Ref sig .tc := ⟨.hbm, 733, rfl⟩
abbrev main_v466 : Ref sig .tc := ⟨.hbm, 734, rfl⟩
abbrev main_v467 : Ref sig .tc := ⟨.hbm, 735, rfl⟩
abbrev main_cst_112 : Ref sig .tc := ⟨.hbm, 736, rfl⟩
abbrev main_v468 : Ref sig .tc := ⟨.hbm, 737, rfl⟩
abbrev main_v469 : Ref sig .tc := ⟨.hbm, 738, rfl⟩
abbrev main_v470 : Ref sig .tc := ⟨.hbm, 739, rfl⟩
abbrev main_v471 : Ref sig .tc := ⟨.hbm, 740, rfl⟩
abbrev main_v472 : Ref sig .tc := ⟨.hbm, 741, rfl⟩
abbrev main_v473 : Ref sig .tc := ⟨.hbm, 742, rfl⟩
abbrev main_v474 : Ref sig .tc := ⟨.hbm, 743, rfl⟩
abbrev main_v475 : Ref sig .tc := ⟨.hbm, 744, rfl⟩
abbrev main_v476 : Ref sig .tc := ⟨.hbm, 745, rfl⟩
abbrev main_v477 : Ref sig .tc := ⟨.hbm, 746, rfl⟩
abbrev main_v478 : Ref sig .tc := ⟨.hbm, 747, rfl⟩
abbrev main_v479 : Ref sig .tc := ⟨.hbm, 748, rfl⟩
abbrev main_v480 : Ref sig .tc := ⟨.hbm, 749, rfl⟩
abbrev main_cst_113 : Ref sig .tc := ⟨.hbm, 750, rfl⟩
abbrev main_v481 : Ref sig .tc := ⟨.hbm, 751, rfl⟩
abbrev main_v482 : Ref sig .tc := ⟨.hbm, 752, rfl⟩
abbrev main_cst_114 : Ref sig .tc := ⟨.hbm, 753, rfl⟩
abbrev main_v483 : Ref sig .tc := ⟨.hbm, 754, rfl⟩
abbrev main_v484 : Ref sig .tc := ⟨.hbm, 755, rfl⟩
abbrev main_v485 : Ref sig .tc := ⟨.hbm, 756, rfl⟩
abbrev main_v486 : Ref sig .tc := ⟨.hbm, 757, rfl⟩
abbrev main_v487 : Ref sig .tc := ⟨.hbm, 758, rfl⟩
abbrev main_v488 : Ref sig .tc := ⟨.hbm, 759, rfl⟩
abbrev main_v489 : Ref sig .tc := ⟨.hbm, 760, rfl⟩
abbrev main_cst_115 : Ref sig .tc := ⟨.hbm, 761, rfl⟩
abbrev main_v490 : Ref sig .tc := ⟨.hbm, 762, rfl⟩
abbrev main_v491 : Ref sig .tc := ⟨.hbm, 763, rfl⟩
abbrev main_cst_116 : Ref sig .tc := ⟨.hbm, 764, rfl⟩
abbrev main_v492 : Ref sig .tc := ⟨.hbm, 765, rfl⟩
abbrev main_v493 : Ref sig .tc := ⟨.hbm, 766, rfl⟩
abbrev main_v494 : Ref sig .tc := ⟨.hbm, 767, rfl⟩
abbrev main_v495 : Ref sig .tc := ⟨.hbm, 768, rfl⟩
abbrev main_c_117 : Ref sig .tc := ⟨.hbm, 769, rfl⟩
abbrev main_v496 : Ref sig .tc := ⟨.hbm, 770, rfl⟩
abbrev main_v497 : Ref sig .tc := ⟨.hbm, 771, rfl⟩
abbrev main_c_118 : Ref sig .tc := ⟨.hbm, 772, rfl⟩
abbrev main_v498 : Ref sig .tc := ⟨.hbm, 773, rfl⟩
abbrev main_v499 : Ref sig .tc := ⟨.hbm, 774, rfl⟩
abbrev main_v500 : Ref sig .tc := ⟨.hbm, 775, rfl⟩
abbrev main_v501 : Ref sig .tc := ⟨.hbm, 776, rfl⟩
abbrev main_v502 : Ref sig .tc := ⟨.hbm, 777, rfl⟩
abbrev main_c_119 : Ref sig .tc := ⟨.hbm, 778, rfl⟩
abbrev main_v503 : Ref sig .tc := ⟨.hbm, 779, rfl⟩
abbrev main_v504 : Ref sig .tc := ⟨.hbm, 780, rfl⟩
abbrev main_c_120 : Ref sig .tc := ⟨.hbm, 781, rfl⟩
abbrev main_v505 : Ref sig .tc := ⟨.hbm, 782, rfl⟩
abbrev main_v506 : Ref sig .tc := ⟨.hbm, 783, rfl⟩
abbrev main_v507 : Ref sig .tc := ⟨.hbm, 784, rfl⟩
abbrev main_v508 : Ref sig .tc := ⟨.hbm, 785, rfl⟩
abbrev main_v509 : Ref sig .tc := ⟨.hbm, 786, rfl⟩
abbrev main_v510 : Ref sig .tc := ⟨.hbm, 787, rfl⟩
abbrev main_c_121 : Ref sig .tc := ⟨.hbm, 788, rfl⟩
abbrev main_v511 : Ref sig .tc := ⟨.hbm, 789, rfl⟩
abbrev main_v512 : Ref sig .tc := ⟨.hbm, 790, rfl⟩
abbrev main_v513 : Ref sig .tc := ⟨.hbm, 791, rfl⟩
abbrev main_v514 : Ref sig .tc := ⟨.hbm, 792, rfl⟩
abbrev main_v515 : Ref sig .tc := ⟨.hbm, 793, rfl⟩
abbrev main_v516 : Ref sig .tc := ⟨.hbm, 794, rfl⟩
abbrev main_v517 : Ref sig .tc := ⟨.hbm, 795, rfl⟩
abbrev main_v518 : Ref sig .tc := ⟨.hbm, 796, rfl⟩
abbrev main_c_122 : Ref sig .tc := ⟨.hbm, 797, rfl⟩
abbrev main_v519 : Ref sig .tc := ⟨.hbm, 798, rfl⟩
abbrev main_v520 : Ref sig .tc := ⟨.hbm, 799, rfl⟩
abbrev main_c_123 : Ref sig .tc := ⟨.hbm, 800, rfl⟩
abbrev main_v521 : Ref sig .tc := ⟨.hbm, 801, rfl⟩
abbrev main_v522 : Ref sig .tc := ⟨.hbm, 802, rfl⟩
abbrev main_v523 : Ref sig .tc := ⟨.hbm, 803, rfl⟩
abbrev main_v524 : Ref sig .tc := ⟨.hbm, 804, rfl⟩
abbrev main_v525 : Ref sig .tc := ⟨.hbm, 805, rfl⟩
abbrev main_v526 : Ref sig .tc := ⟨.hbm, 806, rfl⟩
abbrev main_c_124 : Ref sig .tc := ⟨.hbm, 807, rfl⟩
abbrev main_v527 : Ref sig .tc := ⟨.hbm, 808, rfl⟩
abbrev main_v528 : Ref sig .tc := ⟨.hbm, 809, rfl⟩
abbrev main_v529 : Ref sig .tc := ⟨.hbm, 810, rfl⟩
abbrev main_v530 : Ref sig .tc := ⟨.hbm, 811, rfl⟩
abbrev main_v531 : Ref sig .tc := ⟨.hbm, 812, rfl⟩
abbrev main_v532 : Ref sig .tc := ⟨.hbm, 813, rfl⟩
abbrev main_v533 : Ref sig .tc := ⟨.hbm, 814, rfl⟩
abbrev main_v534 : Ref sig .tc := ⟨.hbm, 815, rfl⟩
abbrev main_c_125 : Ref sig .tc := ⟨.hbm, 816, rfl⟩
abbrev main_v535 : Ref sig .tc := ⟨.hbm, 817, rfl⟩
abbrev main_v536 : Ref sig .tc := ⟨.hbm, 818, rfl⟩
abbrev main_c_126 : Ref sig .tc := ⟨.hbm, 819, rfl⟩
abbrev main_v537 : Ref sig .tc := ⟨.hbm, 820, rfl⟩
abbrev main_v538 : Ref sig .tc := ⟨.hbm, 821, rfl⟩
abbrev main_v539 : Ref sig .tc := ⟨.hbm, 822, rfl⟩
abbrev main_v540 : Ref sig .tc := ⟨.hbm, 823, rfl⟩
abbrev main_v541 : Ref sig .tc := ⟨.hbm, 824, rfl⟩
abbrev main_c_127 : Ref sig .tc := ⟨.hbm, 825, rfl⟩
abbrev main_v542 : Ref sig .tc := ⟨.hbm, 826, rfl⟩
abbrev main_v543 : Ref sig .tc := ⟨.hbm, 827, rfl⟩
abbrev main_c_128 : Ref sig .tc := ⟨.hbm, 828, rfl⟩
abbrev main_v544 : Ref sig .tc := ⟨.hbm, 829, rfl⟩
abbrev main_v545 : Ref sig .tc := ⟨.hbm, 830, rfl⟩
abbrev main_v546 : Ref sig .tc := ⟨.hbm, 831, rfl⟩
abbrev main_v547 : Ref sig .tc := ⟨.hbm, 832, rfl⟩
abbrev main_v548 : Ref sig .tc := ⟨.hbm, 833, rfl⟩
abbrev main_c_129 : Ref sig .tc := ⟨.hbm, 834, rfl⟩
abbrev main_v549 : Ref sig .tc := ⟨.hbm, 835, rfl⟩
abbrev main_v550 : Ref sig .tc := ⟨.hbm, 836, rfl⟩
abbrev main_c_130 : Ref sig .tc := ⟨.hbm, 837, rfl⟩
abbrev main_v551 : Ref sig .tc := ⟨.hbm, 838, rfl⟩
abbrev main_v552 : Ref sig .tc := ⟨.hbm, 839, rfl⟩
abbrev main_v553 : Ref sig .tc := ⟨.hbm, 840, rfl⟩
abbrev main_v554 : Ref sig .tc := ⟨.hbm, 841, rfl⟩
abbrev main_v555 : Ref sig .tc := ⟨.hbm, 842, rfl⟩
abbrev main_c_131 : Ref sig .tc := ⟨.hbm, 843, rfl⟩
abbrev main_call8_v0 : Ref sig .tc := ⟨.hbm, 844, rfl⟩
abbrev main_call8_v1 : Ref sig .tc := ⟨.hbm, 845, rfl⟩
abbrev main_call8_v2 : Ref sig .tc := ⟨.hbm, 846, rfl⟩
abbrev main_call8_v3 : Ref sig .tc := ⟨.hbm, 847, rfl⟩
abbrev main_call8_v4 : Ref sig .tc := ⟨.hbm, 848, rfl⟩
abbrev main_call8_v5 : Ref sig .tc := ⟨.hbm, 849, rfl⟩
abbrev main_call8_v6 : Ref sig .tc := ⟨.hbm, 850, rfl⟩
abbrev main_call8_v7 : Ref sig .tc := ⟨.hbm, 851, rfl⟩
abbrev main_call8_v8 : Ref sig .tc := ⟨.hbm, 852, rfl⟩
abbrev main_call8_c : Ref sig .tc := ⟨.hbm, 853, rfl⟩
abbrev main_call8_v9 : Ref sig .tc := ⟨.hbm, 854, rfl⟩
abbrev main_call8_v10 : Ref sig .tc := ⟨.hbm, 855, rfl⟩
abbrev main_call8_v11 : Ref sig .tc := ⟨.hbm, 856, rfl⟩
abbrev main_call8_c_0 : Ref sig .tc := ⟨.hbm, 857, rfl⟩
abbrev main_call8_v12 : Ref sig .tc := ⟨.hbm, 858, rfl⟩
abbrev main_call8_v13 : Ref sig .tc := ⟨.hbm, 859, rfl⟩
abbrev main_v556 : Ref sig .tc := ⟨.hbm, 860, rfl⟩
abbrev main_c_132 : Ref sig .tc := ⟨.hbm, 861, rfl⟩
abbrev main_v557 : Ref sig .tc := ⟨.hbm, 862, rfl⟩
abbrev main_v558 : Ref sig .tc := ⟨.hbm, 863, rfl⟩
abbrev main_c_133 : Ref sig .tc := ⟨.hbm, 864, rfl⟩
abbrev main_call9_v0 : Ref sig .tc := ⟨.hbm, 865, rfl⟩
abbrev main_call9_c : Ref sig .tc := ⟨.hbm, 866, rfl⟩
abbrev main_call9_v1 : Ref sig .tc := ⟨.hbm, 867, rfl⟩
abbrev main_call9_c_0 : Ref sig .tc := ⟨.hbm, 868, rfl⟩
abbrev main_call9_v2 : Ref sig .tc := ⟨.hbm, 869, rfl⟩
abbrev main_call9_v3 : Ref sig .tc := ⟨.hbm, 870, rfl⟩
abbrev main_call9_v4 : Ref sig .tc := ⟨.hbm, 871, rfl⟩
abbrev main_call9_c_1 : Ref sig .tc := ⟨.hbm, 872, rfl⟩
abbrev main_call9_v5 : Ref sig .tc := ⟨.hbm, 873, rfl⟩
abbrev main_call9_v6 : Ref sig .tc := ⟨.hbm, 874, rfl⟩
abbrev main_call9_c_2 : Ref sig .tc := ⟨.hbm, 875, rfl⟩
abbrev main_call9_v7 : Ref sig .tc := ⟨.hbm, 876, rfl⟩
abbrev main_call9_v8 : Ref sig .tc := ⟨.hbm, 877, rfl⟩
abbrev main_call9_c_3 : Ref sig .tc := ⟨.hbm, 878, rfl⟩
abbrev main_call9_v9 : Ref sig .tc := ⟨.hbm, 879, rfl⟩
abbrev main_call9_v10 : Ref sig .tc := ⟨.hbm, 880, rfl⟩
abbrev main_call9_v11 : Ref sig .tc := ⟨.hbm, 881, rfl⟩
abbrev main_call9_v12 : Ref sig .tc := ⟨.hbm, 882, rfl⟩
abbrev main_call9_v13 : Ref sig .tc := ⟨.hbm, 883, rfl⟩
abbrev main_call9_v14 : Ref sig .tc := ⟨.hbm, 884, rfl⟩
abbrev main_v559 : Ref sig .tc := ⟨.hbm, 885, rfl⟩
abbrev main_c_134 : Ref sig .tc := ⟨.hbm, 886, rfl⟩
abbrev main_v560 : Ref sig .tc := ⟨.hbm, 887, rfl⟩
abbrev main_v561 : Ref sig .tc := ⟨.hbm, 888, rfl⟩
abbrev main_v562 : Ref sig .tc := ⟨.hbm, 889, rfl⟩
abbrev main_v563 : Ref sig .tc := ⟨.hbm, 890, rfl⟩
abbrev main_v564 : Ref sig .tc := ⟨.hbm, 891, rfl⟩
abbrev main_v565 : Ref sig .tc := ⟨.hbm, 892, rfl⟩
abbrev main_v566 : Ref sig .tc := ⟨.hbm, 893, rfl⟩
abbrev main_v567 : Ref sig .tc := ⟨.hbm, 894, rfl⟩
abbrev main_v568 : Ref sig .tc := ⟨.hbm, 895, rfl⟩
abbrev main_v569 : Ref sig .tc := ⟨.hbm, 896, rfl⟩
abbrev main_cst_135 : Ref sig .tc := ⟨.hbm, 897, rfl⟩
abbrev main_v570 : Ref sig .tc := ⟨.hbm, 898, rfl⟩
abbrev main_v571 : Ref sig .tc := ⟨.hbm, 899, rfl⟩
abbrev main_cst_136 : Ref sig .tc := ⟨.hbm, 900, rfl⟩
abbrev main_v572 : Ref sig .tc := ⟨.hbm, 901, rfl⟩
abbrev main_v573 : Ref sig .tc := ⟨.hbm, 902, rfl⟩
abbrev main_cst_137 : Ref sig .tc := ⟨.hbm, 903, rfl⟩
abbrev main_v574 : Ref sig .tc := ⟨.hbm, 904, rfl⟩
abbrev main_v575 : Ref sig .tc := ⟨.hbm, 905, rfl⟩
abbrev main_v576 : Ref sig .tc := ⟨.hbm, 906, rfl⟩
abbrev main_v577 : Ref sig .tc := ⟨.hbm, 907, rfl⟩
abbrev main_cst_138 : Ref sig .tc := ⟨.hbm, 908, rfl⟩
abbrev main_v578 : Ref sig .tc := ⟨.hbm, 909, rfl⟩
abbrev main_v579 : Ref sig .tc := ⟨.hbm, 910, rfl⟩
abbrev main_v580 : Ref sig .tc := ⟨.hbm, 911, rfl⟩
abbrev main_v581 : Ref sig .tc := ⟨.hbm, 912, rfl⟩
abbrev main_v582 : Ref sig .tc := ⟨.hbm, 913, rfl⟩
abbrev main_v583 : Ref sig .tc := ⟨.hbm, 914, rfl⟩
abbrev main_v584 : Ref sig .tc := ⟨.hbm, 915, rfl⟩
abbrev main_v585 : Ref sig .tc := ⟨.hbm, 916, rfl⟩
abbrev main_v586 : Ref sig .tc := ⟨.hbm, 917, rfl⟩
abbrev main_v587 : Ref sig .tc := ⟨.hbm, 918, rfl⟩
abbrev main_v588 : Ref sig .tc := ⟨.hbm, 919, rfl⟩
abbrev main_v589 : Ref sig .tc := ⟨.hbm, 920, rfl⟩
abbrev main_v590 : Ref sig .tc := ⟨.hbm, 921, rfl⟩
abbrev main_cst_139 : Ref sig .tc := ⟨.hbm, 922, rfl⟩
abbrev main_v591 : Ref sig .tc := ⟨.hbm, 923, rfl⟩
abbrev main_v592 : Ref sig .tc := ⟨.hbm, 924, rfl⟩
abbrev main_cst_140 : Ref sig .tc := ⟨.hbm, 925, rfl⟩
abbrev main_v593 : Ref sig .tc := ⟨.hbm, 926, rfl⟩
abbrev main_v594 : Ref sig .tc := ⟨.hbm, 927, rfl⟩
abbrev main_v595 : Ref sig .tc := ⟨.hbm, 928, rfl⟩
abbrev main_v596 : Ref sig .tc := ⟨.hbm, 929, rfl⟩
abbrev main_v597 : Ref sig .tc := ⟨.hbm, 930, rfl⟩
abbrev main_v598 : Ref sig .tc := ⟨.hbm, 931, rfl⟩
abbrev main_v599 : Ref sig .tc := ⟨.hbm, 932, rfl⟩
abbrev main_cst_141 : Ref sig .tc := ⟨.hbm, 933, rfl⟩
abbrev main_v600 : Ref sig .tc := ⟨.hbm, 934, rfl⟩
abbrev main_v601 : Ref sig .tc := ⟨.hbm, 935, rfl⟩
abbrev main_cst_142 : Ref sig .tc := ⟨.hbm, 936, rfl⟩
abbrev main_v602 : Ref sig .tc := ⟨.hbm, 937, rfl⟩
abbrev main_v603 : Ref sig .tc := ⟨.hbm, 938, rfl⟩
abbrev main_v604 : Ref sig .tc := ⟨.hbm, 939, rfl⟩
abbrev main_v605 : Ref sig .tc := ⟨.hbm, 940, rfl⟩
abbrev main_c_143 : Ref sig .tc := ⟨.hbm, 941, rfl⟩
abbrev main_v606 : Ref sig .tc := ⟨.hbm, 942, rfl⟩
abbrev main_v607 : Ref sig .tc := ⟨.hbm, 943, rfl⟩
abbrev main_c_144 : Ref sig .tc := ⟨.hbm, 944, rfl⟩
abbrev main_v608 : Ref sig .tc := ⟨.hbm, 945, rfl⟩
abbrev main_v609 : Ref sig .tc := ⟨.hbm, 946, rfl⟩
abbrev main_v610 : Ref sig .tc := ⟨.hbm, 947, rfl⟩
abbrev main_v611 : Ref sig .tc := ⟨.hbm, 948, rfl⟩
abbrev main_v612 : Ref sig .tc := ⟨.hbm, 949, rfl⟩
abbrev main_c_145 : Ref sig .tc := ⟨.hbm, 950, rfl⟩
abbrev main_v613 : Ref sig .tc := ⟨.hbm, 951, rfl⟩
abbrev main_v614 : Ref sig .tc := ⟨.hbm, 952, rfl⟩
abbrev main_c_146 : Ref sig .tc := ⟨.hbm, 953, rfl⟩
abbrev main_v615 : Ref sig .tc := ⟨.hbm, 954, rfl⟩
abbrev main_v616 : Ref sig .tc := ⟨.hbm, 955, rfl⟩
abbrev main_v617 : Ref sig .tc := ⟨.hbm, 956, rfl⟩
abbrev main_v618 : Ref sig .tc := ⟨.hbm, 957, rfl⟩
abbrev main_v619 : Ref sig .tc := ⟨.hbm, 958, rfl⟩
abbrev main_v620 : Ref sig .tc := ⟨.hbm, 959, rfl⟩
abbrev main_c_147 : Ref sig .tc := ⟨.hbm, 960, rfl⟩
abbrev main_v621 : Ref sig .tc := ⟨.hbm, 961, rfl⟩
abbrev main_v622 : Ref sig .tc := ⟨.hbm, 962, rfl⟩
abbrev main_v623 : Ref sig .tc := ⟨.hbm, 963, rfl⟩
abbrev main_v624 : Ref sig .tc := ⟨.hbm, 964, rfl⟩
abbrev main_v625 : Ref sig .tc := ⟨.hbm, 965, rfl⟩
abbrev main_v626 : Ref sig .tc := ⟨.hbm, 966, rfl⟩
abbrev main_v627 : Ref sig .tc := ⟨.hbm, 967, rfl⟩
abbrev main_v628 : Ref sig .tc := ⟨.hbm, 968, rfl⟩
abbrev main_c_148 : Ref sig .tc := ⟨.hbm, 969, rfl⟩
abbrev main_v629 : Ref sig .tc := ⟨.hbm, 970, rfl⟩
abbrev main_v630 : Ref sig .tc := ⟨.hbm, 971, rfl⟩
abbrev main_c_149 : Ref sig .tc := ⟨.hbm, 972, rfl⟩
abbrev main_v631 : Ref sig .tc := ⟨.hbm, 973, rfl⟩
abbrev main_v632 : Ref sig .tc := ⟨.hbm, 974, rfl⟩
abbrev main_v633 : Ref sig .tc := ⟨.hbm, 975, rfl⟩
abbrev main_v634 : Ref sig .tc := ⟨.hbm, 976, rfl⟩
abbrev main_v635 : Ref sig .tc := ⟨.hbm, 977, rfl⟩
abbrev main_v636 : Ref sig .tc := ⟨.hbm, 978, rfl⟩
abbrev main_c_150 : Ref sig .tc := ⟨.hbm, 979, rfl⟩
abbrev main_v637 : Ref sig .tc := ⟨.hbm, 980, rfl⟩
abbrev main_v638 : Ref sig .tc := ⟨.hbm, 981, rfl⟩
abbrev main_v639 : Ref sig .tc := ⟨.hbm, 982, rfl⟩
abbrev main_v640 : Ref sig .tc := ⟨.hbm, 983, rfl⟩
abbrev main_v641 : Ref sig .tc := ⟨.hbm, 984, rfl⟩
abbrev main_v642 : Ref sig .tc := ⟨.hbm, 985, rfl⟩
abbrev main_v643 : Ref sig .tc := ⟨.hbm, 986, rfl⟩
abbrev main_v644 : Ref sig .tc := ⟨.hbm, 987, rfl⟩
abbrev main_c_151 : Ref sig .tc := ⟨.hbm, 988, rfl⟩
abbrev main_v645 : Ref sig .tc := ⟨.hbm, 989, rfl⟩
abbrev main_v646 : Ref sig .tc := ⟨.hbm, 990, rfl⟩
abbrev main_c_152 : Ref sig .tc := ⟨.hbm, 991, rfl⟩
abbrev main_v647 : Ref sig .tc := ⟨.hbm, 992, rfl⟩
abbrev main_v648 : Ref sig .tc := ⟨.hbm, 993, rfl⟩
abbrev main_v649 : Ref sig .tc := ⟨.hbm, 994, rfl⟩
abbrev main_v650 : Ref sig .tc := ⟨.hbm, 995, rfl⟩
abbrev main_v651 : Ref sig .tc := ⟨.hbm, 996, rfl⟩
abbrev main_c_153 : Ref sig .tc := ⟨.hbm, 997, rfl⟩
abbrev main_v652 : Ref sig .tc := ⟨.hbm, 998, rfl⟩
abbrev main_v653 : Ref sig .tc := ⟨.hbm, 999, rfl⟩
abbrev main_c_154 : Ref sig .tc := ⟨.hbm, 1000, rfl⟩
abbrev main_v654 : Ref sig .tc := ⟨.hbm, 1001, rfl⟩
abbrev main_v655 : Ref sig .tc := ⟨.hbm, 1002, rfl⟩
abbrev main_v656 : Ref sig .tc := ⟨.hbm, 1003, rfl⟩
abbrev main_v657 : Ref sig .tc := ⟨.hbm, 1004, rfl⟩
abbrev main_v658 : Ref sig .tc := ⟨.hbm, 1005, rfl⟩
abbrev main_c_155 : Ref sig .tc := ⟨.hbm, 1006, rfl⟩
abbrev main_v659 : Ref sig .tc := ⟨.hbm, 1007, rfl⟩
abbrev main_v660 : Ref sig .tc := ⟨.hbm, 1008, rfl⟩
abbrev main_c_156 : Ref sig .tc := ⟨.hbm, 1009, rfl⟩
abbrev main_v661 : Ref sig .tc := ⟨.hbm, 1010, rfl⟩
abbrev main_v662 : Ref sig .tc := ⟨.hbm, 1011, rfl⟩
abbrev main_v663 : Ref sig .tc := ⟨.hbm, 1012, rfl⟩
abbrev main_v664 : Ref sig .tc := ⟨.hbm, 1013, rfl⟩
abbrev main_v665 : Ref sig .tc := ⟨.hbm, 1014, rfl⟩
abbrev main_c_157 : Ref sig .tc := ⟨.hbm, 1015, rfl⟩
abbrev main_call10_v0 : Ref sig .tc := ⟨.hbm, 1016, rfl⟩
abbrev main_call10_v1 : Ref sig .tc := ⟨.hbm, 1017, rfl⟩
abbrev main_call10_v2 : Ref sig .tc := ⟨.hbm, 1018, rfl⟩
abbrev main_call10_v3 : Ref sig .tc := ⟨.hbm, 1019, rfl⟩
abbrev main_call10_v4 : Ref sig .tc := ⟨.hbm, 1020, rfl⟩
abbrev main_call10_v5 : Ref sig .tc := ⟨.hbm, 1021, rfl⟩
abbrev main_call10_v6 : Ref sig .tc := ⟨.hbm, 1022, rfl⟩
abbrev main_call10_v7 : Ref sig .tc := ⟨.hbm, 1023, rfl⟩
abbrev main_call10_v8 : Ref sig .tc := ⟨.hbm, 1024, rfl⟩
abbrev main_call10_c : Ref sig .tc := ⟨.hbm, 1025, rfl⟩
abbrev main_call10_v9 : Ref sig .tc := ⟨.hbm, 1026, rfl⟩
abbrev main_call10_v10 : Ref sig .tc := ⟨.hbm, 1027, rfl⟩
abbrev main_call10_v11 : Ref sig .tc := ⟨.hbm, 1028, rfl⟩
abbrev main_call10_c_0 : Ref sig .tc := ⟨.hbm, 1029, rfl⟩
abbrev main_call10_v12 : Ref sig .tc := ⟨.hbm, 1030, rfl⟩
abbrev main_call10_v13 : Ref sig .tc := ⟨.hbm, 1031, rfl⟩
abbrev main_v666 : Ref sig .tc := ⟨.hbm, 1032, rfl⟩
abbrev main_c_158 : Ref sig .tc := ⟨.hbm, 1033, rfl⟩
abbrev main_v667 : Ref sig .tc := ⟨.hbm, 1034, rfl⟩
abbrev main_v668 : Ref sig .tc := ⟨.hbm, 1035, rfl⟩
abbrev main_c_159 : Ref sig .tc := ⟨.hbm, 1036, rfl⟩
abbrev main_call11_v0 : Ref sig .tc := ⟨.hbm, 1037, rfl⟩
abbrev main_call11_c : Ref sig .tc := ⟨.hbm, 1038, rfl⟩
abbrev main_call11_v1 : Ref sig .tc := ⟨.hbm, 1039, rfl⟩
abbrev main_call11_c_0 : Ref sig .tc := ⟨.hbm, 1040, rfl⟩
abbrev main_call11_v2 : Ref sig .tc := ⟨.hbm, 1041, rfl⟩
abbrev main_call11_v3 : Ref sig .tc := ⟨.hbm, 1042, rfl⟩
abbrev main_call11_v4 : Ref sig .tc := ⟨.hbm, 1043, rfl⟩
abbrev main_call11_c_1 : Ref sig .tc := ⟨.hbm, 1044, rfl⟩
abbrev main_call11_v5 : Ref sig .tc := ⟨.hbm, 1045, rfl⟩
abbrev main_call11_v6 : Ref sig .tc := ⟨.hbm, 1046, rfl⟩
abbrev main_call11_c_2 : Ref sig .tc := ⟨.hbm, 1047, rfl⟩
abbrev main_call11_v7 : Ref sig .tc := ⟨.hbm, 1048, rfl⟩
abbrev main_call11_v8 : Ref sig .tc := ⟨.hbm, 1049, rfl⟩
abbrev main_call11_c_3 : Ref sig .tc := ⟨.hbm, 1050, rfl⟩
abbrev main_call11_v9 : Ref sig .tc := ⟨.hbm, 1051, rfl⟩
abbrev main_call11_v10 : Ref sig .tc := ⟨.hbm, 1052, rfl⟩
abbrev main_call11_v11 : Ref sig .tc := ⟨.hbm, 1053, rfl⟩
abbrev main_call11_v12 : Ref sig .tc := ⟨.hbm, 1054, rfl⟩
abbrev main_call11_v13 : Ref sig .tc := ⟨.hbm, 1055, rfl⟩
abbrev main_call11_v14 : Ref sig .tc := ⟨.hbm, 1056, rfl⟩
abbrev main_v669 : Ref sig .tc := ⟨.hbm, 1057, rfl⟩
abbrev main_c_160 : Ref sig .tc := ⟨.hbm, 1058, rfl⟩
abbrev main_v670 : Ref sig .tc := ⟨.hbm, 1059, rfl⟩
abbrev main_v671 : Ref sig .tc := ⟨.hbm, 1060, rfl⟩
abbrev main_v672 : Ref sig .tc := ⟨.hbm, 1061, rfl⟩
abbrev main_v673 : Ref sig .tc := ⟨.hbm, 1062, rfl⟩
abbrev main_v674 : Ref sig .tc := ⟨.hbm, 1063, rfl⟩
abbrev main_v675 : Ref sig .tc := ⟨.hbm, 1064, rfl⟩
abbrev main_v676 : Ref sig .tc := ⟨.hbm, 1065, rfl⟩
abbrev main_v677 : Ref sig .tc := ⟨.hbm, 1066, rfl⟩
abbrev main_v678 : Ref sig .tc := ⟨.hbm, 1067, rfl⟩
abbrev main_v679 : Ref sig .tc := ⟨.hbm, 1068, rfl⟩
abbrev main_cst_161 : Ref sig .tc := ⟨.hbm, 1069, rfl⟩
abbrev main_v680 : Ref sig .tc := ⟨.hbm, 1070, rfl⟩
abbrev main_v681 : Ref sig .tc := ⟨.hbm, 1071, rfl⟩
abbrev main_cst_162 : Ref sig .tc := ⟨.hbm, 1072, rfl⟩
abbrev main_v682 : Ref sig .tc := ⟨.hbm, 1073, rfl⟩
abbrev main_v683 : Ref sig .tc := ⟨.hbm, 1074, rfl⟩
abbrev main_cst_163 : Ref sig .tc := ⟨.hbm, 1075, rfl⟩
abbrev main_v684 : Ref sig .tc := ⟨.hbm, 1076, rfl⟩
abbrev main_v685 : Ref sig .tc := ⟨.hbm, 1077, rfl⟩
abbrev main_v686 : Ref sig .tc := ⟨.hbm, 1078, rfl⟩
abbrev main_v687 : Ref sig .tc := ⟨.hbm, 1079, rfl⟩
abbrev main_cst_164 : Ref sig .tc := ⟨.hbm, 1080, rfl⟩
abbrev main_v688 : Ref sig .tc := ⟨.hbm, 1081, rfl⟩
abbrev main_v689 : Ref sig .tc := ⟨.hbm, 1082, rfl⟩
abbrev main_v690 : Ref sig .tc := ⟨.hbm, 1083, rfl⟩
abbrev main_v691 : Ref sig .tc := ⟨.hbm, 1084, rfl⟩
abbrev main_v692 : Ref sig .tc := ⟨.hbm, 1085, rfl⟩
abbrev main_v693 : Ref sig .tc := ⟨.hbm, 1086, rfl⟩
abbrev main_v694 : Ref sig .tc := ⟨.hbm, 1087, rfl⟩
abbrev main_v695 : Ref sig .tc := ⟨.hbm, 1088, rfl⟩
abbrev main_v696 : Ref sig .tc := ⟨.hbm, 1089, rfl⟩
abbrev main_v697 : Ref sig .tc := ⟨.hbm, 1090, rfl⟩
abbrev main_v698 : Ref sig .tc := ⟨.hbm, 1091, rfl⟩
abbrev main_v699 : Ref sig .tc := ⟨.hbm, 1092, rfl⟩
abbrev main_v700 : Ref sig .tc := ⟨.hbm, 1093, rfl⟩
abbrev main_cst_165 : Ref sig .tc := ⟨.hbm, 1094, rfl⟩
abbrev main_v701 : Ref sig .tc := ⟨.hbm, 1095, rfl⟩
abbrev main_v702 : Ref sig .tc := ⟨.hbm, 1096, rfl⟩
abbrev main_cst_166 : Ref sig .tc := ⟨.hbm, 1097, rfl⟩
abbrev main_v703 : Ref sig .tc := ⟨.hbm, 1098, rfl⟩
abbrev main_v704 : Ref sig .tc := ⟨.hbm, 1099, rfl⟩
abbrev main_v705 : Ref sig .tc := ⟨.hbm, 1100, rfl⟩
abbrev main_v706 : Ref sig .tc := ⟨.hbm, 1101, rfl⟩
abbrev main_v707 : Ref sig .tc := ⟨.hbm, 1102, rfl⟩
abbrev main_v708 : Ref sig .tc := ⟨.hbm, 1103, rfl⟩
abbrev main_v709 : Ref sig .tc := ⟨.hbm, 1104, rfl⟩
abbrev main_cst_167 : Ref sig .tc := ⟨.hbm, 1105, rfl⟩
abbrev main_v710 : Ref sig .tc := ⟨.hbm, 1106, rfl⟩
abbrev main_v711 : Ref sig .tc := ⟨.hbm, 1107, rfl⟩
abbrev main_cst_168 : Ref sig .tc := ⟨.hbm, 1108, rfl⟩
abbrev main_v712 : Ref sig .tc := ⟨.hbm, 1109, rfl⟩
abbrev main_v713 : Ref sig .tc := ⟨.hbm, 1110, rfl⟩
abbrev main_v714 : Ref sig .tc := ⟨.hbm, 1111, rfl⟩
abbrev main_v715 : Ref sig .tc := ⟨.hbm, 1112, rfl⟩
abbrev main_c_169 : Ref sig .tc := ⟨.hbm, 1113, rfl⟩
abbrev main_v716 : Ref sig .tc := ⟨.hbm, 1114, rfl⟩
abbrev main_v717 : Ref sig .tc := ⟨.hbm, 1115, rfl⟩
abbrev main_c_170 : Ref sig .tc := ⟨.hbm, 1116, rfl⟩
abbrev main_v718 : Ref sig .tc := ⟨.hbm, 1117, rfl⟩
abbrev main_v719 : Ref sig .tc := ⟨.hbm, 1118, rfl⟩
abbrev main_v720 : Ref sig .tc := ⟨.hbm, 1119, rfl⟩
abbrev main_v721 : Ref sig .tc := ⟨.hbm, 1120, rfl⟩
abbrev main_v722 : Ref sig .tc := ⟨.hbm, 1121, rfl⟩
abbrev main_c_171 : Ref sig .tc := ⟨.hbm, 1122, rfl⟩
abbrev main_v723 : Ref sig .tc := ⟨.hbm, 1123, rfl⟩
abbrev main_v724 : Ref sig .tc := ⟨.hbm, 1124, rfl⟩
abbrev main_c_172 : Ref sig .tc := ⟨.hbm, 1125, rfl⟩
abbrev main_v725 : Ref sig .tc := ⟨.hbm, 1126, rfl⟩
abbrev main_v726 : Ref sig .tc := ⟨.hbm, 1127, rfl⟩
abbrev main_v727 : Ref sig .tc := ⟨.hbm, 1128, rfl⟩
abbrev main_v728 : Ref sig .tc := ⟨.hbm, 1129, rfl⟩
abbrev main_v729 : Ref sig .tc := ⟨.hbm, 1130, rfl⟩
abbrev main_v730 : Ref sig .tc := ⟨.hbm, 1131, rfl⟩
abbrev main_c_173 : Ref sig .tc := ⟨.hbm, 1132, rfl⟩
abbrev main_v731 : Ref sig .tc := ⟨.hbm, 1133, rfl⟩
abbrev main_v732 : Ref sig .tc := ⟨.hbm, 1134, rfl⟩
abbrev main_v733 : Ref sig .tc := ⟨.hbm, 1135, rfl⟩
abbrev main_v734 : Ref sig .tc := ⟨.hbm, 1136, rfl⟩
abbrev main_v735 : Ref sig .tc := ⟨.hbm, 1137, rfl⟩
abbrev main_v736 : Ref sig .tc := ⟨.hbm, 1138, rfl⟩
abbrev main_v737 : Ref sig .tc := ⟨.hbm, 1139, rfl⟩
abbrev main_v738 : Ref sig .tc := ⟨.hbm, 1140, rfl⟩
abbrev main_c_174 : Ref sig .tc := ⟨.hbm, 1141, rfl⟩
abbrev main_v739 : Ref sig .tc := ⟨.hbm, 1142, rfl⟩
abbrev main_v740 : Ref sig .tc := ⟨.hbm, 1143, rfl⟩
abbrev main_c_175 : Ref sig .tc := ⟨.hbm, 1144, rfl⟩
abbrev main_v741 : Ref sig .tc := ⟨.hbm, 1145, rfl⟩
abbrev main_v742 : Ref sig .tc := ⟨.hbm, 1146, rfl⟩
abbrev main_v743 : Ref sig .tc := ⟨.hbm, 1147, rfl⟩
abbrev main_v744 : Ref sig .tc := ⟨.hbm, 1148, rfl⟩
abbrev main_v745 : Ref sig .tc := ⟨.hbm, 1149, rfl⟩
abbrev main_v746 : Ref sig .tc := ⟨.hbm, 1150, rfl⟩
abbrev main_c_176 : Ref sig .tc := ⟨.hbm, 1151, rfl⟩
abbrev main_v747 : Ref sig .tc := ⟨.hbm, 1152, rfl⟩
abbrev main_v748 : Ref sig .tc := ⟨.hbm, 1153, rfl⟩
abbrev main_v749 : Ref sig .tc := ⟨.hbm, 1154, rfl⟩
abbrev main_v750 : Ref sig .tc := ⟨.hbm, 1155, rfl⟩
abbrev main_v751 : Ref sig .tc := ⟨.hbm, 1156, rfl⟩
abbrev main_v752 : Ref sig .tc := ⟨.hbm, 1157, rfl⟩
abbrev main_v753 : Ref sig .tc := ⟨.hbm, 1158, rfl⟩
abbrev main_v754 : Ref sig .tc := ⟨.hbm, 1159, rfl⟩
abbrev main_c_177 : Ref sig .tc := ⟨.hbm, 1160, rfl⟩
abbrev main_v755 : Ref sig .tc := ⟨.hbm, 1161, rfl⟩
abbrev main_v756 : Ref sig .tc := ⟨.hbm, 1162, rfl⟩
abbrev main_c_178 : Ref sig .tc := ⟨.hbm, 1163, rfl⟩
abbrev main_v757 : Ref sig .tc := ⟨.hbm, 1164, rfl⟩
abbrev main_v758 : Ref sig .tc := ⟨.hbm, 1165, rfl⟩
abbrev main_v759 : Ref sig .tc := ⟨.hbm, 1166, rfl⟩
abbrev main_v760 : Ref sig .tc := ⟨.hbm, 1167, rfl⟩
abbrev main_v761 : Ref sig .tc := ⟨.hbm, 1168, rfl⟩
abbrev main_c_179 : Ref sig .tc := ⟨.hbm, 1169, rfl⟩
abbrev main_v762 : Ref sig .tc := ⟨.hbm, 1170, rfl⟩
abbrev main_v763 : Ref sig .tc := ⟨.hbm, 1171, rfl⟩
abbrev main_c_180 : Ref sig .tc := ⟨.hbm, 1172, rfl⟩
abbrev main_v764 : Ref sig .tc := ⟨.hbm, 1173, rfl⟩
abbrev main_v765 : Ref sig .tc := ⟨.hbm, 1174, rfl⟩
abbrev main_v766 : Ref sig .tc := ⟨.hbm, 1175, rfl⟩
abbrev main_v767 : Ref sig .tc := ⟨.hbm, 1176, rfl⟩
abbrev main_v768 : Ref sig .tc := ⟨.hbm, 1177, rfl⟩
abbrev main_c_181 : Ref sig .tc := ⟨.hbm, 1178, rfl⟩
abbrev main_v769 : Ref sig .tc := ⟨.hbm, 1179, rfl⟩
abbrev main_v770 : Ref sig .tc := ⟨.hbm, 1180, rfl⟩
abbrev main_c_182 : Ref sig .tc := ⟨.hbm, 1181, rfl⟩
abbrev main_v771 : Ref sig .tc := ⟨.hbm, 1182, rfl⟩
abbrev main_v772 : Ref sig .tc := ⟨.hbm, 1183, rfl⟩
abbrev main_v773 : Ref sig .tc := ⟨.hbm, 1184, rfl⟩
abbrev main_v774 : Ref sig .tc := ⟨.hbm, 1185, rfl⟩
abbrev main_v775 : Ref sig .tc := ⟨.hbm, 1186, rfl⟩
abbrev main_c_183 : Ref sig .tc := ⟨.hbm, 1187, rfl⟩
abbrev main_call12_v0 : Ref sig .tc := ⟨.hbm, 1188, rfl⟩
abbrev main_call12_v1 : Ref sig .tc := ⟨.hbm, 1189, rfl⟩
abbrev main_call12_v2 : Ref sig .tc := ⟨.hbm, 1190, rfl⟩
abbrev main_call12_v3 : Ref sig .tc := ⟨.hbm, 1191, rfl⟩
abbrev main_call12_v4 : Ref sig .tc := ⟨.hbm, 1192, rfl⟩
abbrev main_call12_v5 : Ref sig .tc := ⟨.hbm, 1193, rfl⟩
abbrev main_call12_v6 : Ref sig .tc := ⟨.hbm, 1194, rfl⟩
abbrev main_call12_v7 : Ref sig .tc := ⟨.hbm, 1195, rfl⟩
abbrev main_call12_v8 : Ref sig .tc := ⟨.hbm, 1196, rfl⟩
abbrev main_call12_c : Ref sig .tc := ⟨.hbm, 1197, rfl⟩
abbrev main_call12_v9 : Ref sig .tc := ⟨.hbm, 1198, rfl⟩
abbrev main_call12_v10 : Ref sig .tc := ⟨.hbm, 1199, rfl⟩
abbrev main_call12_v11 : Ref sig .tc := ⟨.hbm, 1200, rfl⟩
abbrev main_call12_c_0 : Ref sig .tc := ⟨.hbm, 1201, rfl⟩
abbrev main_call12_v12 : Ref sig .tc := ⟨.hbm, 1202, rfl⟩
abbrev main_call12_v13 : Ref sig .tc := ⟨.hbm, 1203, rfl⟩
abbrev main_v776 : Ref sig .tc := ⟨.hbm, 1204, rfl⟩
abbrev main_c_184 : Ref sig .tc := ⟨.hbm, 1205, rfl⟩
abbrev main_v777 : Ref sig .tc := ⟨.hbm, 1206, rfl⟩
abbrev main_v778 : Ref sig .tc := ⟨.hbm, 1207, rfl⟩
abbrev main_c_185 : Ref sig .tc := ⟨.hbm, 1208, rfl⟩
abbrev main_call13_v0 : Ref sig .tc := ⟨.hbm, 1209, rfl⟩
abbrev main_call13_c : Ref sig .tc := ⟨.hbm, 1210, rfl⟩
abbrev main_call13_v1 : Ref sig .tc := ⟨.hbm, 1211, rfl⟩
abbrev main_call13_c_0 : Ref sig .tc := ⟨.hbm, 1212, rfl⟩
abbrev main_call13_v2 : Ref sig .tc := ⟨.hbm, 1213, rfl⟩
abbrev main_call13_v3 : Ref sig .tc := ⟨.hbm, 1214, rfl⟩
abbrev main_call13_v4 : Ref sig .tc := ⟨.hbm, 1215, rfl⟩
abbrev main_call13_c_1 : Ref sig .tc := ⟨.hbm, 1216, rfl⟩
abbrev main_call13_v5 : Ref sig .tc := ⟨.hbm, 1217, rfl⟩
abbrev main_call13_v6 : Ref sig .tc := ⟨.hbm, 1218, rfl⟩
abbrev main_call13_c_2 : Ref sig .tc := ⟨.hbm, 1219, rfl⟩
abbrev main_call13_v7 : Ref sig .tc := ⟨.hbm, 1220, rfl⟩
abbrev main_call13_v8 : Ref sig .tc := ⟨.hbm, 1221, rfl⟩
abbrev main_call13_c_3 : Ref sig .tc := ⟨.hbm, 1222, rfl⟩
abbrev main_call13_v9 : Ref sig .tc := ⟨.hbm, 1223, rfl⟩
abbrev main_call13_v10 : Ref sig .tc := ⟨.hbm, 1224, rfl⟩
abbrev main_call13_v11 : Ref sig .tc := ⟨.hbm, 1225, rfl⟩
abbrev main_call13_v12 : Ref sig .tc := ⟨.hbm, 1226, rfl⟩
abbrev main_call13_v13 : Ref sig .tc := ⟨.hbm, 1227, rfl⟩
abbrev main_call13_v14 : Ref sig .tc := ⟨.hbm, 1228, rfl⟩
abbrev main_v779 : Ref sig .tc := ⟨.hbm, 1229, rfl⟩
abbrev main_c_186 : Ref sig .tc := ⟨.hbm, 1230, rfl⟩
abbrev main_v780 : Ref sig .tc := ⟨.hbm, 1231, rfl⟩
abbrev main_v781 : Ref sig .tc := ⟨.hbm, 1232, rfl⟩
abbrev main_v782 : Ref sig .tc := ⟨.hbm, 1233, rfl⟩
abbrev main_v783 : Ref sig .tc := ⟨.hbm, 1234, rfl⟩
abbrev main_v784 : Ref sig .tc := ⟨.hbm, 1235, rfl⟩
abbrev main_v785 : Ref sig .tc := ⟨.hbm, 1236, rfl⟩
abbrev main_v786 : Ref sig .tc := ⟨.hbm, 1237, rfl⟩
abbrev main_v787 : Ref sig .tc := ⟨.hbm, 1238, rfl⟩
abbrev main_v788 : Ref sig .tc := ⟨.hbm, 1239, rfl⟩
abbrev main_v789 : Ref sig .tc := ⟨.hbm, 1240, rfl⟩
abbrev main_cst_187 : Ref sig .tc := ⟨.hbm, 1241, rfl⟩
abbrev main_v790 : Ref sig .tc := ⟨.hbm, 1242, rfl⟩
abbrev main_v791 : Ref sig .tc := ⟨.hbm, 1243, rfl⟩
abbrev main_cst_188 : Ref sig .tc := ⟨.hbm, 1244, rfl⟩
abbrev main_v792 : Ref sig .tc := ⟨.hbm, 1245, rfl⟩
abbrev main_v793 : Ref sig .tc := ⟨.hbm, 1246, rfl⟩
abbrev main_cst_189 : Ref sig .tc := ⟨.hbm, 1247, rfl⟩
abbrev main_v794 : Ref sig .tc := ⟨.hbm, 1248, rfl⟩
abbrev main_v795 : Ref sig .tc := ⟨.hbm, 1249, rfl⟩
abbrev main_v796 : Ref sig .tc := ⟨.hbm, 1250, rfl⟩
abbrev main_v797 : Ref sig .tc := ⟨.hbm, 1251, rfl⟩
abbrev main_cst_190 : Ref sig .tc := ⟨.hbm, 1252, rfl⟩
abbrev main_v798 : Ref sig .tc := ⟨.hbm, 1253, rfl⟩
abbrev main_v799 : Ref sig .tc := ⟨.hbm, 1254, rfl⟩
abbrev main_v800 : Ref sig .tc := ⟨.hbm, 1255, rfl⟩
abbrev main_v801 : Ref sig .tc := ⟨.hbm, 1256, rfl⟩
abbrev main_v802 : Ref sig .tc := ⟨.hbm, 1257, rfl⟩
abbrev main_v803 : Ref sig .tc := ⟨.hbm, 1258, rfl⟩
abbrev main_v804 : Ref sig .tc := ⟨.hbm, 1259, rfl⟩
abbrev main_v805 : Ref sig .tc := ⟨.hbm, 1260, rfl⟩
abbrev main_v806 : Ref sig .tc := ⟨.hbm, 1261, rfl⟩
abbrev main_v807 : Ref sig .tc := ⟨.hbm, 1262, rfl⟩
abbrev main_v808 : Ref sig .tc := ⟨.hbm, 1263, rfl⟩
abbrev main_v809 : Ref sig .tc := ⟨.hbm, 1264, rfl⟩
abbrev main_v810 : Ref sig .tc := ⟨.hbm, 1265, rfl⟩
abbrev main_cst_191 : Ref sig .tc := ⟨.hbm, 1266, rfl⟩
abbrev main_v811 : Ref sig .tc := ⟨.hbm, 1267, rfl⟩
abbrev main_v812 : Ref sig .tc := ⟨.hbm, 1268, rfl⟩
abbrev main_cst_192 : Ref sig .tc := ⟨.hbm, 1269, rfl⟩
abbrev main_v813 : Ref sig .tc := ⟨.hbm, 1270, rfl⟩
abbrev main_v814 : Ref sig .tc := ⟨.hbm, 1271, rfl⟩
abbrev main_v815 : Ref sig .tc := ⟨.hbm, 1272, rfl⟩
abbrev main_v816 : Ref sig .tc := ⟨.hbm, 1273, rfl⟩
abbrev main_v817 : Ref sig .tc := ⟨.hbm, 1274, rfl⟩
abbrev main_v818 : Ref sig .tc := ⟨.hbm, 1275, rfl⟩
abbrev main_v819 : Ref sig .tc := ⟨.hbm, 1276, rfl⟩
abbrev main_cst_193 : Ref sig .tc := ⟨.hbm, 1277, rfl⟩
abbrev main_v820 : Ref sig .tc := ⟨.hbm, 1278, rfl⟩
abbrev main_v821 : Ref sig .tc := ⟨.hbm, 1279, rfl⟩
abbrev main_cst_194 : Ref sig .tc := ⟨.hbm, 1280, rfl⟩
abbrev main_v822 : Ref sig .tc := ⟨.hbm, 1281, rfl⟩
abbrev main_v823 : Ref sig .tc := ⟨.hbm, 1282, rfl⟩
abbrev main_v824 : Ref sig .tc := ⟨.hbm, 1283, rfl⟩
abbrev main_v825 : Ref sig .tc := ⟨.hbm, 1284, rfl⟩
abbrev main_c_195 : Ref sig .tc := ⟨.hbm, 1285, rfl⟩
abbrev main_v826 : Ref sig .tc := ⟨.hbm, 1286, rfl⟩
abbrev main_v827 : Ref sig .tc := ⟨.hbm, 1287, rfl⟩
abbrev main_c_196 : Ref sig .tc := ⟨.hbm, 1288, rfl⟩
abbrev main_v828 : Ref sig .tc := ⟨.hbm, 1289, rfl⟩
abbrev main_v829 : Ref sig .tc := ⟨.hbm, 1290, rfl⟩
abbrev main_v830 : Ref sig .tc := ⟨.hbm, 1291, rfl⟩
abbrev main_v831 : Ref sig .tc := ⟨.hbm, 1292, rfl⟩
abbrev main_v832 : Ref sig .tc := ⟨.hbm, 1293, rfl⟩
abbrev main_c_197 : Ref sig .tc := ⟨.hbm, 1294, rfl⟩
abbrev main_v833 : Ref sig .tc := ⟨.hbm, 1295, rfl⟩
abbrev main_v834 : Ref sig .tc := ⟨.hbm, 1296, rfl⟩
abbrev main_c_198 : Ref sig .tc := ⟨.hbm, 1297, rfl⟩
abbrev main_v835 : Ref sig .tc := ⟨.hbm, 1298, rfl⟩
abbrev main_v836 : Ref sig .tc := ⟨.hbm, 1299, rfl⟩
abbrev main_v837 : Ref sig .tc := ⟨.hbm, 1300, rfl⟩
abbrev main_v838 : Ref sig .tc := ⟨.hbm, 1301, rfl⟩
abbrev main_v839 : Ref sig .tc := ⟨.hbm, 1302, rfl⟩
abbrev main_v840 : Ref sig .tc := ⟨.hbm, 1303, rfl⟩
abbrev main_c_199 : Ref sig .tc := ⟨.hbm, 1304, rfl⟩
abbrev main_v841 : Ref sig .tc := ⟨.hbm, 1305, rfl⟩
abbrev main_v842 : Ref sig .tc := ⟨.hbm, 1306, rfl⟩
abbrev main_v843 : Ref sig .tc := ⟨.hbm, 1307, rfl⟩
abbrev main_v844 : Ref sig .tc := ⟨.hbm, 1308, rfl⟩
abbrev main_v845 : Ref sig .tc := ⟨.hbm, 1309, rfl⟩
abbrev main_v846 : Ref sig .tc := ⟨.hbm, 1310, rfl⟩
abbrev main_v847 : Ref sig .tc := ⟨.hbm, 1311, rfl⟩
abbrev main_v848 : Ref sig .tc := ⟨.hbm, 1312, rfl⟩
abbrev main_c_200 : Ref sig .tc := ⟨.hbm, 1313, rfl⟩
abbrev main_v849 : Ref sig .tc := ⟨.hbm, 1314, rfl⟩
abbrev main_v850 : Ref sig .tc := ⟨.hbm, 1315, rfl⟩
abbrev main_c_201 : Ref sig .tc := ⟨.hbm, 1316, rfl⟩
abbrev main_v851 : Ref sig .tc := ⟨.hbm, 1317, rfl⟩
abbrev main_v852 : Ref sig .tc := ⟨.hbm, 1318, rfl⟩
abbrev main_v853 : Ref sig .tc := ⟨.hbm, 1319, rfl⟩
abbrev main_v854 : Ref sig .tc := ⟨.hbm, 1320, rfl⟩
abbrev main_v855 : Ref sig .tc := ⟨.hbm, 1321, rfl⟩
abbrev main_v856 : Ref sig .tc := ⟨.hbm, 1322, rfl⟩
abbrev main_c_202 : Ref sig .tc := ⟨.hbm, 1323, rfl⟩
abbrev main_v857 : Ref sig .tc := ⟨.hbm, 1324, rfl⟩
abbrev main_v858 : Ref sig .tc := ⟨.hbm, 1325, rfl⟩
abbrev main_v859 : Ref sig .tc := ⟨.hbm, 1326, rfl⟩
abbrev main_v860 : Ref sig .tc := ⟨.hbm, 1327, rfl⟩
abbrev main_v861 : Ref sig .tc := ⟨.hbm, 1328, rfl⟩
abbrev main_v862 : Ref sig .tc := ⟨.hbm, 1329, rfl⟩
abbrev main_v863 : Ref sig .tc := ⟨.hbm, 1330, rfl⟩
abbrev main_v864 : Ref sig .tc := ⟨.hbm, 1331, rfl⟩
abbrev main_c_203 : Ref sig .tc := ⟨.hbm, 1332, rfl⟩
abbrev main_v865 : Ref sig .tc := ⟨.hbm, 1333, rfl⟩
abbrev main_v866 : Ref sig .tc := ⟨.hbm, 1334, rfl⟩
abbrev main_c_204 : Ref sig .tc := ⟨.hbm, 1335, rfl⟩
abbrev main_v867 : Ref sig .tc := ⟨.hbm, 1336, rfl⟩
abbrev main_v868 : Ref sig .tc := ⟨.hbm, 1337, rfl⟩
abbrev main_v869 : Ref sig .tc := ⟨.hbm, 1338, rfl⟩
abbrev main_v870 : Ref sig .tc := ⟨.hbm, 1339, rfl⟩
abbrev main_v871 : Ref sig .tc := ⟨.hbm, 1340, rfl⟩
abbrev main_c_205 : Ref sig .tc := ⟨.hbm, 1341, rfl⟩
abbrev main_v872 : Ref sig .tc := ⟨.hbm, 1342, rfl⟩
abbrev main_v873 : Ref sig .tc := ⟨.hbm, 1343, rfl⟩
abbrev main_c_206 : Ref sig .tc := ⟨.hbm, 1344, rfl⟩
abbrev main_v874 : Ref sig .tc := ⟨.hbm, 1345, rfl⟩
abbrev main_v875 : Ref sig .tc := ⟨.hbm, 1346, rfl⟩
abbrev main_v876 : Ref sig .tc := ⟨.hbm, 1347, rfl⟩
abbrev main_v877 : Ref sig .tc := ⟨.hbm, 1348, rfl⟩
abbrev main_v878 : Ref sig .tc := ⟨.hbm, 1349, rfl⟩
abbrev main_c_207 : Ref sig .tc := ⟨.hbm, 1350, rfl⟩
abbrev main_v879 : Ref sig .tc := ⟨.hbm, 1351, rfl⟩
abbrev main_v880 : Ref sig .tc := ⟨.hbm, 1352, rfl⟩
abbrev main_c_208 : Ref sig .tc := ⟨.hbm, 1353, rfl⟩
abbrev main_v881 : Ref sig .tc := ⟨.hbm, 1354, rfl⟩
abbrev main_v882 : Ref sig .tc := ⟨.hbm, 1355, rfl⟩
abbrev main_v883 : Ref sig .tc := ⟨.hbm, 1356, rfl⟩
abbrev main_v884 : Ref sig .tc := ⟨.hbm, 1357, rfl⟩
abbrev main_v885 : Ref sig .tc := ⟨.hbm, 1358, rfl⟩
abbrev main_c_209 : Ref sig .tc := ⟨.hbm, 1359, rfl⟩
abbrev main_call14_v0 : Ref sig .tc := ⟨.hbm, 1360, rfl⟩
abbrev main_call14_v1 : Ref sig .tc := ⟨.hbm, 1361, rfl⟩
abbrev main_call14_v2 : Ref sig .tc := ⟨.hbm, 1362, rfl⟩
abbrev main_call14_v3 : Ref sig .tc := ⟨.hbm, 1363, rfl⟩
abbrev main_call14_v4 : Ref sig .tc := ⟨.hbm, 1364, rfl⟩
abbrev main_call14_v5 : Ref sig .tc := ⟨.hbm, 1365, rfl⟩
abbrev main_call14_v6 : Ref sig .tc := ⟨.hbm, 1366, rfl⟩
abbrev main_call14_v7 : Ref sig .tc := ⟨.hbm, 1367, rfl⟩
abbrev main_call14_v8 : Ref sig .tc := ⟨.hbm, 1368, rfl⟩
abbrev main_call14_c : Ref sig .tc := ⟨.hbm, 1369, rfl⟩
abbrev main_call14_v9 : Ref sig .tc := ⟨.hbm, 1370, rfl⟩
abbrev main_call14_v10 : Ref sig .tc := ⟨.hbm, 1371, rfl⟩
abbrev main_call14_v11 : Ref sig .tc := ⟨.hbm, 1372, rfl⟩
abbrev main_call14_c_0 : Ref sig .tc := ⟨.hbm, 1373, rfl⟩
abbrev main_call14_v12 : Ref sig .tc := ⟨.hbm, 1374, rfl⟩
abbrev main_call14_v13 : Ref sig .tc := ⟨.hbm, 1375, rfl⟩
abbrev main_v886 : Ref sig .tc := ⟨.hbm, 1376, rfl⟩
abbrev main_c_210 : Ref sig .tc := ⟨.hbm, 1377, rfl⟩
abbrev main_v887 : Ref sig .tc := ⟨.hbm, 1378, rfl⟩
abbrev main_v888 : Ref sig .tc := ⟨.hbm, 1379, rfl⟩
abbrev main_c_211 : Ref sig .tc := ⟨.hbm, 1380, rfl⟩
abbrev main_call15_v0 : Ref sig .tc := ⟨.hbm, 1381, rfl⟩
abbrev main_call15_c : Ref sig .tc := ⟨.hbm, 1382, rfl⟩
abbrev main_call15_v1 : Ref sig .tc := ⟨.hbm, 1383, rfl⟩
abbrev main_call15_c_0 : Ref sig .tc := ⟨.hbm, 1384, rfl⟩
abbrev main_call15_v2 : Ref sig .tc := ⟨.hbm, 1385, rfl⟩
abbrev main_call15_v3 : Ref sig .tc := ⟨.hbm, 1386, rfl⟩
abbrev main_call15_v4 : Ref sig .tc := ⟨.hbm, 1387, rfl⟩
abbrev main_call15_c_1 : Ref sig .tc := ⟨.hbm, 1388, rfl⟩
abbrev main_call15_v5 : Ref sig .tc := ⟨.hbm, 1389, rfl⟩
abbrev main_call15_v6 : Ref sig .tc := ⟨.hbm, 1390, rfl⟩
abbrev main_call15_c_2 : Ref sig .tc := ⟨.hbm, 1391, rfl⟩
abbrev main_call15_v7 : Ref sig .tc := ⟨.hbm, 1392, rfl⟩
abbrev main_call15_v8 : Ref sig .tc := ⟨.hbm, 1393, rfl⟩
abbrev main_call15_c_3 : Ref sig .tc := ⟨.hbm, 1394, rfl⟩
abbrev main_call15_v9 : Ref sig .tc := ⟨.hbm, 1395, rfl⟩
abbrev main_call15_v10 : Ref sig .tc := ⟨.hbm, 1396, rfl⟩
abbrev main_call15_v11 : Ref sig .tc := ⟨.hbm, 1397, rfl⟩
abbrev main_call15_v12 : Ref sig .tc := ⟨.hbm, 1398, rfl⟩
abbrev main_call15_v13 : Ref sig .tc := ⟨.hbm, 1399, rfl⟩
abbrev main_call15_v14 : Ref sig .tc := ⟨.hbm, 1400, rfl⟩
abbrev main_v889 : Ref sig .tc := ⟨.hbm, 1401, rfl⟩
abbrev main_c_212 : Ref sig .tc := ⟨.hbm, 1402, rfl⟩
abbrev main_v890 : Ref sig .tc := ⟨.hbm, 1403, rfl⟩
abbrev main_v891 : Ref sig .tc := ⟨.hbm, 1404, rfl⟩
abbrev main_v892 : Ref sig .tc := ⟨.hbm, 1405, rfl⟩
abbrev main_v893 : Ref sig .tc := ⟨.hbm, 1406, rfl⟩
abbrev main_v894 : Ref sig .tc := ⟨.hbm, 1407, rfl⟩
abbrev main_v895 : Ref sig .tc := ⟨.hbm, 1408, rfl⟩
abbrev main_v896 : Ref sig .tc := ⟨.hbm, 1409, rfl⟩
abbrev main_v897 : Ref sig .tc := ⟨.hbm, 1410, rfl⟩
abbrev main_v898 : Ref sig .tc := ⟨.hbm, 1411, rfl⟩
abbrev main_v899 : Ref sig .tc := ⟨.hbm, 1412, rfl⟩
abbrev main_cst_213 : Ref sig .tc := ⟨.hbm, 1413, rfl⟩
abbrev main_v900 : Ref sig .tc := ⟨.hbm, 1414, rfl⟩
abbrev main_v901 : Ref sig .tc := ⟨.hbm, 1415, rfl⟩
abbrev main_cst_214 : Ref sig .tc := ⟨.hbm, 1416, rfl⟩
abbrev main_v902 : Ref sig .tc := ⟨.hbm, 1417, rfl⟩
abbrev main_v903 : Ref sig .tc := ⟨.hbm, 1418, rfl⟩
abbrev main_cst_215 : Ref sig .tc := ⟨.hbm, 1419, rfl⟩
abbrev main_v904 : Ref sig .tc := ⟨.hbm, 1420, rfl⟩
abbrev main_v905 : Ref sig .tc := ⟨.hbm, 1421, rfl⟩
abbrev main_v906 : Ref sig .tc := ⟨.hbm, 1422, rfl⟩
abbrev main_v907 : Ref sig .tc := ⟨.hbm, 1423, rfl⟩
abbrev main_cst_216 : Ref sig .tc := ⟨.hbm, 1424, rfl⟩
abbrev main_v908 : Ref sig .tc := ⟨.hbm, 1425, rfl⟩
abbrev main_v909 : Ref sig .tc := ⟨.hbm, 1426, rfl⟩
abbrev main_v910 : Ref sig .tc := ⟨.hbm, 1427, rfl⟩
abbrev main_v911 : Ref sig .tc := ⟨.hbm, 1428, rfl⟩
abbrev main_v912 : Ref sig .tc := ⟨.hbm, 1429, rfl⟩
abbrev main_v913 : Ref sig .tc := ⟨.hbm, 1430, rfl⟩
abbrev main_v914 : Ref sig .tc := ⟨.hbm, 1431, rfl⟩
abbrev main_v915 : Ref sig .tc := ⟨.hbm, 1432, rfl⟩
abbrev main_v916 : Ref sig .tc := ⟨.hbm, 1433, rfl⟩
abbrev main_v917 : Ref sig .tc := ⟨.hbm, 1434, rfl⟩
abbrev main_v918 : Ref sig .tc := ⟨.hbm, 1435, rfl⟩
abbrev main_v919 : Ref sig .tc := ⟨.hbm, 1436, rfl⟩
abbrev main_v920 : Ref sig .tc := ⟨.hbm, 1437, rfl⟩
abbrev main_cst_217 : Ref sig .tc := ⟨.hbm, 1438, rfl⟩
abbrev main_v921 : Ref sig .tc := ⟨.hbm, 1439, rfl⟩
abbrev main_v922 : Ref sig .tc := ⟨.hbm, 1440, rfl⟩
abbrev main_cst_218 : Ref sig .tc := ⟨.hbm, 1441, rfl⟩
abbrev main_v923 : Ref sig .tc := ⟨.hbm, 1442, rfl⟩
abbrev main_v924 : Ref sig .tc := ⟨.hbm, 1443, rfl⟩
abbrev main_v925 : Ref sig .tc := ⟨.hbm, 1444, rfl⟩
abbrev main_v926 : Ref sig .tc := ⟨.hbm, 1445, rfl⟩
abbrev main_v927 : Ref sig .tc := ⟨.hbm, 1446, rfl⟩
abbrev main_v928 : Ref sig .tc := ⟨.hbm, 1447, rfl⟩
abbrev main_v929 : Ref sig .tc := ⟨.hbm, 1448, rfl⟩
abbrev main_cst_219 : Ref sig .tc := ⟨.hbm, 1449, rfl⟩
abbrev main_v930 : Ref sig .tc := ⟨.hbm, 1450, rfl⟩
abbrev main_v931 : Ref sig .tc := ⟨.hbm, 1451, rfl⟩
abbrev main_cst_220 : Ref sig .tc := ⟨.hbm, 1452, rfl⟩
abbrev main_v932 : Ref sig .tc := ⟨.hbm, 1453, rfl⟩
abbrev main_v933 : Ref sig .tc := ⟨.hbm, 1454, rfl⟩
abbrev main_v934 : Ref sig .tc := ⟨.hbm, 1455, rfl⟩
abbrev main_v935 : Ref sig .tc := ⟨.hbm, 1456, rfl⟩
abbrev main_c_221 : Ref sig .tc := ⟨.hbm, 1457, rfl⟩
abbrev main_v936 : Ref sig .tc := ⟨.hbm, 1458, rfl⟩
abbrev main_v937 : Ref sig .tc := ⟨.hbm, 1459, rfl⟩
abbrev main_c_222 : Ref sig .tc := ⟨.hbm, 1460, rfl⟩
abbrev main_v938 : Ref sig .tc := ⟨.hbm, 1461, rfl⟩
abbrev main_v939 : Ref sig .tc := ⟨.hbm, 1462, rfl⟩
abbrev main_v940 : Ref sig .tc := ⟨.hbm, 1463, rfl⟩
abbrev main_v941 : Ref sig .tc := ⟨.hbm, 1464, rfl⟩
abbrev main_v942 : Ref sig .tc := ⟨.hbm, 1465, rfl⟩
abbrev main_c_223 : Ref sig .tc := ⟨.hbm, 1466, rfl⟩
abbrev main_v943 : Ref sig .tc := ⟨.hbm, 1467, rfl⟩
abbrev main_v944 : Ref sig .tc := ⟨.hbm, 1468, rfl⟩
abbrev main_c_224 : Ref sig .tc := ⟨.hbm, 1469, rfl⟩
abbrev main_v945 : Ref sig .tc := ⟨.hbm, 1470, rfl⟩
abbrev main_v946 : Ref sig .tc := ⟨.hbm, 1471, rfl⟩
abbrev main_v947 : Ref sig .tc := ⟨.hbm, 1472, rfl⟩
abbrev main_v948 : Ref sig .tc := ⟨.hbm, 1473, rfl⟩
abbrev main_v949 : Ref sig .tc := ⟨.hbm, 1474, rfl⟩
abbrev main_v950 : Ref sig .tc := ⟨.hbm, 1475, rfl⟩
abbrev main_c_225 : Ref sig .tc := ⟨.hbm, 1476, rfl⟩
abbrev main_v951 : Ref sig .tc := ⟨.hbm, 1477, rfl⟩
abbrev main_v952 : Ref sig .tc := ⟨.hbm, 1478, rfl⟩
abbrev main_v953 : Ref sig .tc := ⟨.hbm, 1479, rfl⟩
abbrev main_v954 : Ref sig .tc := ⟨.hbm, 1480, rfl⟩
abbrev main_v955 : Ref sig .tc := ⟨.hbm, 1481, rfl⟩
abbrev main_v956 : Ref sig .tc := ⟨.hbm, 1482, rfl⟩
abbrev main_v957 : Ref sig .tc := ⟨.hbm, 1483, rfl⟩
abbrev main_v958 : Ref sig .tc := ⟨.hbm, 1484, rfl⟩
abbrev main_c_226 : Ref sig .tc := ⟨.hbm, 1485, rfl⟩
abbrev main_v959 : Ref sig .tc := ⟨.hbm, 1486, rfl⟩
abbrev main_v960 : Ref sig .tc := ⟨.hbm, 1487, rfl⟩
abbrev main_c_227 : Ref sig .tc := ⟨.hbm, 1488, rfl⟩
abbrev main_v961 : Ref sig .tc := ⟨.hbm, 1489, rfl⟩
abbrev main_v962 : Ref sig .tc := ⟨.hbm, 1490, rfl⟩
abbrev main_v963 : Ref sig .tc := ⟨.hbm, 1491, rfl⟩
abbrev main_v964 : Ref sig .tc := ⟨.hbm, 1492, rfl⟩
abbrev main_v965 : Ref sig .tc := ⟨.hbm, 1493, rfl⟩
abbrev main_v966 : Ref sig .tc := ⟨.hbm, 1494, rfl⟩
abbrev main_c_228 : Ref sig .tc := ⟨.hbm, 1495, rfl⟩
abbrev main_v967 : Ref sig .tc := ⟨.hbm, 1496, rfl⟩
abbrev main_v968 : Ref sig .tc := ⟨.hbm, 1497, rfl⟩
abbrev main_v969 : Ref sig .tc := ⟨.hbm, 1498, rfl⟩
abbrev main_v970 : Ref sig .tc := ⟨.hbm, 1499, rfl⟩
abbrev main_v971 : Ref sig .tc := ⟨.hbm, 1500, rfl⟩
abbrev main_v972 : Ref sig .tc := ⟨.hbm, 1501, rfl⟩
abbrev main_v973 : Ref sig .tc := ⟨.hbm, 1502, rfl⟩
abbrev main_v974 : Ref sig .tc := ⟨.hbm, 1503, rfl⟩
abbrev main_c_229 : Ref sig .tc := ⟨.hbm, 1504, rfl⟩
abbrev main_v975 : Ref sig .tc := ⟨.hbm, 1505, rfl⟩
abbrev main_v976 : Ref sig .tc := ⟨.hbm, 1506, rfl⟩
abbrev main_c_230 : Ref sig .tc := ⟨.hbm, 1507, rfl⟩
abbrev main_v977 : Ref sig .tc := ⟨.hbm, 1508, rfl⟩
abbrev main_v978 : Ref sig .tc := ⟨.hbm, 1509, rfl⟩
abbrev main_v979 : Ref sig .tc := ⟨.hbm, 1510, rfl⟩
abbrev main_v980 : Ref sig .tc := ⟨.hbm, 1511, rfl⟩
abbrev main_v981 : Ref sig .tc := ⟨.hbm, 1512, rfl⟩
abbrev main_c_231 : Ref sig .tc := ⟨.hbm, 1513, rfl⟩
abbrev main_v982 : Ref sig .tc := ⟨.hbm, 1514, rfl⟩
abbrev main_v983 : Ref sig .tc := ⟨.hbm, 1515, rfl⟩
abbrev main_c_232 : Ref sig .tc := ⟨.hbm, 1516, rfl⟩
abbrev main_v984 : Ref sig .tc := ⟨.hbm, 1517, rfl⟩
abbrev main_v985 : Ref sig .tc := ⟨.hbm, 1518, rfl⟩
abbrev main_v986 : Ref sig .tc := ⟨.hbm, 1519, rfl⟩
abbrev main_v987 : Ref sig .tc := ⟨.hbm, 1520, rfl⟩
abbrev main_v988 : Ref sig .tc := ⟨.hbm, 1521, rfl⟩
abbrev main_c_233 : Ref sig .tc := ⟨.hbm, 1522, rfl⟩
abbrev main_v989 : Ref sig .tc := ⟨.hbm, 1523, rfl⟩
abbrev main_v990 : Ref sig .tc := ⟨.hbm, 1524, rfl⟩
abbrev main_c_234 : Ref sig .tc := ⟨.hbm, 1525, rfl⟩
abbrev main_v991 : Ref sig .tc := ⟨.hbm, 1526, rfl⟩
abbrev main_v992 : Ref sig .tc := ⟨.hbm, 1527, rfl⟩
abbrev main_v993 : Ref sig .tc := ⟨.hbm, 1528, rfl⟩
abbrev main_v994 : Ref sig .tc := ⟨.hbm, 1529, rfl⟩
abbrev main_v995 : Ref sig .tc := ⟨.hbm, 1530, rfl⟩
abbrev main_c_235 : Ref sig .tc := ⟨.hbm, 1531, rfl⟩
abbrev main_call16_v0 : Ref sig .tc := ⟨.hbm, 1532, rfl⟩
abbrev main_call16_v1 : Ref sig .tc := ⟨.hbm, 1533, rfl⟩
abbrev main_call16_v2 : Ref sig .tc := ⟨.hbm, 1534, rfl⟩
abbrev main_call16_v3 : Ref sig .tc := ⟨.hbm, 1535, rfl⟩
abbrev main_call16_v4 : Ref sig .tc := ⟨.hbm, 1536, rfl⟩
abbrev main_call16_v5 : Ref sig .tc := ⟨.hbm, 1537, rfl⟩
abbrev main_call16_v6 : Ref sig .tc := ⟨.hbm, 1538, rfl⟩
abbrev main_call16_v7 : Ref sig .tc := ⟨.hbm, 1539, rfl⟩
abbrev main_call16_v8 : Ref sig .tc := ⟨.hbm, 1540, rfl⟩
abbrev main_call16_c : Ref sig .tc := ⟨.hbm, 1541, rfl⟩
abbrev main_call16_v9 : Ref sig .tc := ⟨.hbm, 1542, rfl⟩
abbrev main_call16_v10 : Ref sig .tc := ⟨.hbm, 1543, rfl⟩
abbrev main_call16_v11 : Ref sig .tc := ⟨.hbm, 1544, rfl⟩
abbrev main_call16_c_0 : Ref sig .tc := ⟨.hbm, 1545, rfl⟩
abbrev main_call16_v12 : Ref sig .tc := ⟨.hbm, 1546, rfl⟩
abbrev main_call16_v13 : Ref sig .tc := ⟨.hbm, 1547, rfl⟩
abbrev main_v996 : Ref sig .tc := ⟨.hbm, 1548, rfl⟩
abbrev main_c_236 : Ref sig .tc := ⟨.hbm, 1549, rfl⟩
abbrev main_v997 : Ref sig .tc := ⟨.hbm, 1550, rfl⟩
abbrev main_v998 : Ref sig .tc := ⟨.hbm, 1551, rfl⟩
abbrev main_c_237 : Ref sig .tc := ⟨.hbm, 1552, rfl⟩
abbrev main_call17_v0 : Ref sig .tc := ⟨.hbm, 1553, rfl⟩
abbrev main_call17_c : Ref sig .tc := ⟨.hbm, 1554, rfl⟩
abbrev main_call17_v1 : Ref sig .tc := ⟨.hbm, 1555, rfl⟩
abbrev main_call17_c_0 : Ref sig .tc := ⟨.hbm, 1556, rfl⟩
abbrev main_call17_v2 : Ref sig .tc := ⟨.hbm, 1557, rfl⟩
abbrev main_call17_v3 : Ref sig .tc := ⟨.hbm, 1558, rfl⟩
abbrev main_call17_v4 : Ref sig .tc := ⟨.hbm, 1559, rfl⟩
abbrev main_call17_c_1 : Ref sig .tc := ⟨.hbm, 1560, rfl⟩
abbrev main_call17_v5 : Ref sig .tc := ⟨.hbm, 1561, rfl⟩
abbrev main_call17_v6 : Ref sig .tc := ⟨.hbm, 1562, rfl⟩
abbrev main_call17_c_2 : Ref sig .tc := ⟨.hbm, 1563, rfl⟩
abbrev main_call17_v7 : Ref sig .tc := ⟨.hbm, 1564, rfl⟩
abbrev main_call17_v8 : Ref sig .tc := ⟨.hbm, 1565, rfl⟩
abbrev main_call17_c_3 : Ref sig .tc := ⟨.hbm, 1566, rfl⟩
abbrev main_call17_v9 : Ref sig .tc := ⟨.hbm, 1567, rfl⟩
abbrev main_call17_v10 : Ref sig .tc := ⟨.hbm, 1568, rfl⟩
abbrev main_call17_v11 : Ref sig .tc := ⟨.hbm, 1569, rfl⟩
abbrev main_call17_v12 : Ref sig .tc := ⟨.hbm, 1570, rfl⟩
abbrev main_call17_v13 : Ref sig .tc := ⟨.hbm, 1571, rfl⟩
abbrev main_call17_v14 : Ref sig .tc := ⟨.hbm, 1572, rfl⟩
abbrev main_v999 : Ref sig .tc := ⟨.hbm, 1573, rfl⟩
abbrev main_c_238 : Ref sig .tc := ⟨.hbm, 1574, rfl⟩
abbrev main_v1000 : Ref sig .tc := ⟨.hbm, 1575, rfl⟩
abbrev main_v1001 : Ref sig .tc := ⟨.hbm, 1576, rfl⟩
abbrev main_v1002 : Ref sig .tc := ⟨.hbm, 1577, rfl⟩
abbrev main_v1003 : Ref sig .tc := ⟨.hbm, 1578, rfl⟩
abbrev main_v1004 : Ref sig .tc := ⟨.hbm, 1579, rfl⟩
abbrev main_v1005 : Ref sig .tc := ⟨.hbm, 1580, rfl⟩
abbrev main_v1006 : Ref sig .tc := ⟨.hbm, 1581, rfl⟩
abbrev main_v1007 : Ref sig .tc := ⟨.hbm, 1582, rfl⟩
abbrev main_v1008 : Ref sig .tc := ⟨.hbm, 1583, rfl⟩
abbrev main_v1009 : Ref sig .tc := ⟨.hbm, 1584, rfl⟩
abbrev main_cst_239 : Ref sig .tc := ⟨.hbm, 1585, rfl⟩
abbrev main_v1010 : Ref sig .tc := ⟨.hbm, 1586, rfl⟩
abbrev main_v1011 : Ref sig .tc := ⟨.hbm, 1587, rfl⟩
abbrev main_cst_240 : Ref sig .tc := ⟨.hbm, 1588, rfl⟩
abbrev main_v1012 : Ref sig .tc := ⟨.hbm, 1589, rfl⟩
abbrev main_v1013 : Ref sig .tc := ⟨.hbm, 1590, rfl⟩
abbrev main_cst_241 : Ref sig .tc := ⟨.hbm, 1591, rfl⟩
abbrev main_v1014 : Ref sig .tc := ⟨.hbm, 1592, rfl⟩
abbrev main_v1015 : Ref sig .tc := ⟨.hbm, 1593, rfl⟩
abbrev main_v1016 : Ref sig .tc := ⟨.hbm, 1594, rfl⟩
abbrev main_v1017 : Ref sig .tc := ⟨.hbm, 1595, rfl⟩
abbrev main_cst_242 : Ref sig .tc := ⟨.hbm, 1596, rfl⟩
abbrev main_v1018 : Ref sig .tc := ⟨.hbm, 1597, rfl⟩
abbrev main_v1019 : Ref sig .tc := ⟨.hbm, 1598, rfl⟩
abbrev main_v1020 : Ref sig .tc := ⟨.hbm, 1599, rfl⟩
abbrev main_v1021 : Ref sig .tc := ⟨.hbm, 1600, rfl⟩
abbrev main_v1022 : Ref sig .tc := ⟨.hbm, 1601, rfl⟩
abbrev main_v1023 : Ref sig .tc := ⟨.hbm, 1602, rfl⟩
abbrev main_v1024 : Ref sig .tc := ⟨.hbm, 1603, rfl⟩
abbrev main_v1025 : Ref sig .tc := ⟨.hbm, 1604, rfl⟩
abbrev main_v1026 : Ref sig .tc := ⟨.hbm, 1605, rfl⟩
abbrev main_v1027 : Ref sig .tc := ⟨.hbm, 1606, rfl⟩
abbrev main_v1028 : Ref sig .tc := ⟨.hbm, 1607, rfl⟩
abbrev main_v1029 : Ref sig .tc := ⟨.hbm, 1608, rfl⟩
abbrev main_v1030 : Ref sig .tc := ⟨.hbm, 1609, rfl⟩
abbrev main_cst_243 : Ref sig .tc := ⟨.hbm, 1610, rfl⟩
abbrev main_v1031 : Ref sig .tc := ⟨.hbm, 1611, rfl⟩
abbrev main_v1032 : Ref sig .tc := ⟨.hbm, 1612, rfl⟩
abbrev main_cst_244 : Ref sig .tc := ⟨.hbm, 1613, rfl⟩
abbrev main_v1033 : Ref sig .tc := ⟨.hbm, 1614, rfl⟩
abbrev main_v1034 : Ref sig .tc := ⟨.hbm, 1615, rfl⟩
abbrev main_v1035 : Ref sig .tc := ⟨.hbm, 1616, rfl⟩
abbrev main_v1036 : Ref sig .tc := ⟨.hbm, 1617, rfl⟩
abbrev main_v1037 : Ref sig .tc := ⟨.hbm, 1618, rfl⟩
abbrev main_v1038 : Ref sig .tc := ⟨.hbm, 1619, rfl⟩
abbrev main_v1039 : Ref sig .tc := ⟨.hbm, 1620, rfl⟩
abbrev main_cst_245 : Ref sig .tc := ⟨.hbm, 1621, rfl⟩
abbrev main_v1040 : Ref sig .tc := ⟨.hbm, 1622, rfl⟩
abbrev main_v1041 : Ref sig .tc := ⟨.hbm, 1623, rfl⟩
abbrev main_cst_246 : Ref sig .tc := ⟨.hbm, 1624, rfl⟩
abbrev main_v1042 : Ref sig .tc := ⟨.hbm, 1625, rfl⟩
abbrev main_v1043 : Ref sig .tc := ⟨.hbm, 1626, rfl⟩
abbrev main_v1044 : Ref sig .tc := ⟨.hbm, 1627, rfl⟩
abbrev main_v1045 : Ref sig .tc := ⟨.hbm, 1628, rfl⟩
abbrev main_c_247 : Ref sig .tc := ⟨.hbm, 1629, rfl⟩
abbrev main_v1046 : Ref sig .tc := ⟨.hbm, 1630, rfl⟩
abbrev main_v1047 : Ref sig .tc := ⟨.hbm, 1631, rfl⟩
abbrev main_c_248 : Ref sig .tc := ⟨.hbm, 1632, rfl⟩
abbrev main_v1048 : Ref sig .tc := ⟨.hbm, 1633, rfl⟩
abbrev main_v1049 : Ref sig .tc := ⟨.hbm, 1634, rfl⟩
abbrev main_v1050 : Ref sig .tc := ⟨.hbm, 1635, rfl⟩
abbrev main_v1051 : Ref sig .tc := ⟨.hbm, 1636, rfl⟩
abbrev main_v1052 : Ref sig .tc := ⟨.hbm, 1637, rfl⟩
abbrev main_c_249 : Ref sig .tc := ⟨.hbm, 1638, rfl⟩
abbrev main_v1053 : Ref sig .tc := ⟨.hbm, 1639, rfl⟩
abbrev main_v1054 : Ref sig .tc := ⟨.hbm, 1640, rfl⟩
abbrev main_c_250 : Ref sig .tc := ⟨.hbm, 1641, rfl⟩
abbrev main_v1055 : Ref sig .tc := ⟨.hbm, 1642, rfl⟩
abbrev main_v1056 : Ref sig .tc := ⟨.hbm, 1643, rfl⟩
abbrev main_v1057 : Ref sig .tc := ⟨.hbm, 1644, rfl⟩
abbrev main_v1058 : Ref sig .tc := ⟨.hbm, 1645, rfl⟩
abbrev main_v1059 : Ref sig .tc := ⟨.hbm, 1646, rfl⟩
abbrev main_v1060 : Ref sig .tc := ⟨.hbm, 1647, rfl⟩
abbrev main_c_251 : Ref sig .tc := ⟨.hbm, 1648, rfl⟩
abbrev main_v1061 : Ref sig .tc := ⟨.hbm, 1649, rfl⟩
abbrev main_v1062 : Ref sig .tc := ⟨.hbm, 1650, rfl⟩
abbrev main_v1063 : Ref sig .tc := ⟨.hbm, 1651, rfl⟩
abbrev main_v1064 : Ref sig .tc := ⟨.hbm, 1652, rfl⟩
abbrev main_v1065 : Ref sig .tc := ⟨.hbm, 1653, rfl⟩
abbrev main_v1066 : Ref sig .tc := ⟨.hbm, 1654, rfl⟩
abbrev main_v1067 : Ref sig .tc := ⟨.hbm, 1655, rfl⟩
abbrev main_v1068 : Ref sig .tc := ⟨.hbm, 1656, rfl⟩
abbrev main_c_252 : Ref sig .tc := ⟨.hbm, 1657, rfl⟩
abbrev main_v1069 : Ref sig .tc := ⟨.hbm, 1658, rfl⟩
abbrev main_v1070 : Ref sig .tc := ⟨.hbm, 1659, rfl⟩
abbrev main_c_253 : Ref sig .tc := ⟨.hbm, 1660, rfl⟩
abbrev main_v1071 : Ref sig .tc := ⟨.hbm, 1661, rfl⟩
abbrev main_v1072 : Ref sig .tc := ⟨.hbm, 1662, rfl⟩
abbrev main_v1073 : Ref sig .tc := ⟨.hbm, 1663, rfl⟩
abbrev main_v1074 : Ref sig .tc := ⟨.hbm, 1664, rfl⟩
abbrev main_v1075 : Ref sig .tc := ⟨.hbm, 1665, rfl⟩
abbrev main_v1076 : Ref sig .tc := ⟨.hbm, 1666, rfl⟩
abbrev main_c_254 : Ref sig .tc := ⟨.hbm, 1667, rfl⟩
abbrev main_v1077 : Ref sig .tc := ⟨.hbm, 1668, rfl⟩
abbrev main_v1078 : Ref sig .tc := ⟨.hbm, 1669, rfl⟩
abbrev main_v1079 : Ref sig .tc := ⟨.hbm, 1670, rfl⟩
abbrev main_v1080 : Ref sig .tc := ⟨.hbm, 1671, rfl⟩
abbrev main_v1081 : Ref sig .tc := ⟨.hbm, 1672, rfl⟩
abbrev main_v1082 : Ref sig .tc := ⟨.hbm, 1673, rfl⟩
abbrev main_v1083 : Ref sig .tc := ⟨.hbm, 1674, rfl⟩
abbrev main_v1084 : Ref sig .tc := ⟨.hbm, 1675, rfl⟩
abbrev main_c_255 : Ref sig .tc := ⟨.hbm, 1676, rfl⟩
abbrev main_v1085 : Ref sig .tc := ⟨.hbm, 1677, rfl⟩
abbrev main_v1086 : Ref sig .tc := ⟨.hbm, 1678, rfl⟩
abbrev main_c_256 : Ref sig .tc := ⟨.hbm, 1679, rfl⟩
abbrev main_v1087 : Ref sig .tc := ⟨.hbm, 1680, rfl⟩
abbrev main_v1088 : Ref sig .tc := ⟨.hbm, 1681, rfl⟩
abbrev main_v1089 : Ref sig .tc := ⟨.hbm, 1682, rfl⟩
abbrev main_v1090 : Ref sig .tc := ⟨.hbm, 1683, rfl⟩
abbrev main_v1091 : Ref sig .tc := ⟨.hbm, 1684, rfl⟩
abbrev main_c_257 : Ref sig .tc := ⟨.hbm, 1685, rfl⟩
abbrev main_v1092 : Ref sig .tc := ⟨.hbm, 1686, rfl⟩
abbrev main_v1093 : Ref sig .tc := ⟨.hbm, 1687, rfl⟩
abbrev main_c_258 : Ref sig .tc := ⟨.hbm, 1688, rfl⟩
abbrev main_v1094 : Ref sig .tc := ⟨.hbm, 1689, rfl⟩
abbrev main_v1095 : Ref sig .tc := ⟨.hbm, 1690, rfl⟩
abbrev main_v1096 : Ref sig .tc := ⟨.hbm, 1691, rfl⟩
abbrev main_v1097 : Ref sig .tc := ⟨.hbm, 1692, rfl⟩
abbrev main_v1098 : Ref sig .tc := ⟨.hbm, 1693, rfl⟩
abbrev main_c_259 : Ref sig .tc := ⟨.hbm, 1694, rfl⟩
abbrev main_v1099 : Ref sig .tc := ⟨.hbm, 1695, rfl⟩
abbrev main_v1100 : Ref sig .tc := ⟨.hbm, 1696, rfl⟩
abbrev main_c_260 : Ref sig .tc := ⟨.hbm, 1697, rfl⟩
abbrev main_v1101 : Ref sig .tc := ⟨.hbm, 1698, rfl⟩
abbrev main_v1102 : Ref sig .tc := ⟨.hbm, 1699, rfl⟩
abbrev main_v1103 : Ref sig .tc := ⟨.hbm, 1700, rfl⟩
abbrev main_v1104 : Ref sig .tc := ⟨.hbm, 1701, rfl⟩
abbrev main_v1105 : Ref sig .tc := ⟨.hbm, 1702, rfl⟩
abbrev main_c_261 : Ref sig .tc := ⟨.hbm, 1703, rfl⟩
abbrev main_call18_v0 : Ref sig .tc := ⟨.hbm, 1704, rfl⟩
abbrev main_call18_v1 : Ref sig .tc := ⟨.hbm, 1705, rfl⟩
abbrev main_call18_v2 : Ref sig .tc := ⟨.hbm, 1706, rfl⟩
abbrev main_call18_v3 : Ref sig .tc := ⟨.hbm, 1707, rfl⟩
abbrev main_call18_v4 : Ref sig .tc := ⟨.hbm, 1708, rfl⟩
abbrev main_call18_v5 : Ref sig .tc := ⟨.hbm, 1709, rfl⟩
abbrev main_call18_v6 : Ref sig .tc := ⟨.hbm, 1710, rfl⟩
abbrev main_call18_v7 : Ref sig .tc := ⟨.hbm, 1711, rfl⟩
abbrev main_call18_v8 : Ref sig .tc := ⟨.hbm, 1712, rfl⟩
abbrev main_call18_c : Ref sig .tc := ⟨.hbm, 1713, rfl⟩
abbrev main_call18_v9 : Ref sig .tc := ⟨.hbm, 1714, rfl⟩
abbrev main_call18_v10 : Ref sig .tc := ⟨.hbm, 1715, rfl⟩
abbrev main_call18_v11 : Ref sig .tc := ⟨.hbm, 1716, rfl⟩
abbrev main_call18_c_0 : Ref sig .tc := ⟨.hbm, 1717, rfl⟩
abbrev main_call18_v12 : Ref sig .tc := ⟨.hbm, 1718, rfl⟩
abbrev main_call18_v13 : Ref sig .tc := ⟨.hbm, 1719, rfl⟩
abbrev main_v1106 : Ref sig .tc := ⟨.hbm, 1720, rfl⟩
abbrev main_c_262 : Ref sig .tc := ⟨.hbm, 1721, rfl⟩
abbrev main_v1107 : Ref sig .tc := ⟨.hbm, 1722, rfl⟩
abbrev main_v1108 : Ref sig .tc := ⟨.hbm, 1723, rfl⟩
abbrev main_c_263 : Ref sig .tc := ⟨.hbm, 1724, rfl⟩
abbrev main_call19_v0 : Ref sig .tc := ⟨.hbm, 1725, rfl⟩
abbrev main_call19_c : Ref sig .tc := ⟨.hbm, 1726, rfl⟩
abbrev main_call19_v1 : Ref sig .tc := ⟨.hbm, 1727, rfl⟩
abbrev main_call19_c_0 : Ref sig .tc := ⟨.hbm, 1728, rfl⟩
abbrev main_call19_v2 : Ref sig .tc := ⟨.hbm, 1729, rfl⟩
abbrev main_call19_v3 : Ref sig .tc := ⟨.hbm, 1730, rfl⟩
abbrev main_call19_v4 : Ref sig .tc := ⟨.hbm, 1731, rfl⟩
abbrev main_call19_c_1 : Ref sig .tc := ⟨.hbm, 1732, rfl⟩
abbrev main_call19_v5 : Ref sig .tc := ⟨.hbm, 1733, rfl⟩
abbrev main_call19_v6 : Ref sig .tc := ⟨.hbm, 1734, rfl⟩
abbrev main_call19_c_2 : Ref sig .tc := ⟨.hbm, 1735, rfl⟩
abbrev main_call19_v7 : Ref sig .tc := ⟨.hbm, 1736, rfl⟩
abbrev main_call19_v8 : Ref sig .tc := ⟨.hbm, 1737, rfl⟩
abbrev main_call19_c_3 : Ref sig .tc := ⟨.hbm, 1738, rfl⟩
abbrev main_call19_v9 : Ref sig .tc := ⟨.hbm, 1739, rfl⟩
abbrev main_call19_v10 : Ref sig .tc := ⟨.hbm, 1740, rfl⟩
abbrev main_call19_v11 : Ref sig .tc := ⟨.hbm, 1741, rfl⟩
abbrev main_call19_v12 : Ref sig .tc := ⟨.hbm, 1742, rfl⟩
abbrev main_call19_v13 : Ref sig .tc := ⟨.hbm, 1743, rfl⟩
abbrev main_call19_v14 : Ref sig .tc := ⟨.hbm, 1744, rfl⟩
abbrev main_v1109 : Ref sig .tc := ⟨.hbm, 1745, rfl⟩
abbrev main_c_264 : Ref sig .tc := ⟨.hbm, 1746, rfl⟩
abbrev main_v1110 : Ref sig .tc := ⟨.hbm, 1747, rfl⟩
abbrev main_v1111 : Ref sig .tc := ⟨.hbm, 1748, rfl⟩
abbrev main_v1112 : Ref sig .tc := ⟨.hbm, 1749, rfl⟩
abbrev main_v1113 : Ref sig .tc := ⟨.hbm, 1750, rfl⟩
abbrev main_v1114 : Ref sig .tc := ⟨.hbm, 1751, rfl⟩
abbrev main_v1115 : Ref sig .tc := ⟨.hbm, 1752, rfl⟩
abbrev main_v1116 : Ref sig .tc := ⟨.hbm, 1753, rfl⟩
abbrev main_v1117 : Ref sig .tc := ⟨.hbm, 1754, rfl⟩
abbrev main_v1118 : Ref sig .tc := ⟨.hbm, 1755, rfl⟩
abbrev main_v1119 : Ref sig .tc := ⟨.hbm, 1756, rfl⟩
abbrev main_cst_265 : Ref sig .tc := ⟨.hbm, 1757, rfl⟩
abbrev main_v1120 : Ref sig .tc := ⟨.hbm, 1758, rfl⟩
abbrev main_v1121 : Ref sig .tc := ⟨.hbm, 1759, rfl⟩
abbrev main_cst_266 : Ref sig .tc := ⟨.hbm, 1760, rfl⟩
abbrev main_v1122 : Ref sig .tc := ⟨.hbm, 1761, rfl⟩
abbrev main_v1123 : Ref sig .tc := ⟨.hbm, 1762, rfl⟩
abbrev main_cst_267 : Ref sig .tc := ⟨.hbm, 1763, rfl⟩
abbrev main_v1124 : Ref sig .tc := ⟨.hbm, 1764, rfl⟩
abbrev main_v1125 : Ref sig .tc := ⟨.hbm, 1765, rfl⟩
abbrev main_v1126 : Ref sig .tc := ⟨.hbm, 1766, rfl⟩
abbrev main_v1127 : Ref sig .tc := ⟨.hbm, 1767, rfl⟩
abbrev main_cst_268 : Ref sig .tc := ⟨.hbm, 1768, rfl⟩
abbrev main_v1128 : Ref sig .tc := ⟨.hbm, 1769, rfl⟩
abbrev main_v1129 : Ref sig .tc := ⟨.hbm, 1770, rfl⟩
abbrev main_v1130 : Ref sig .tc := ⟨.hbm, 1771, rfl⟩
abbrev main_v1131 : Ref sig .tc := ⟨.hbm, 1772, rfl⟩
abbrev main_v1132 : Ref sig .tc := ⟨.hbm, 1773, rfl⟩
abbrev main_v1133 : Ref sig .tc := ⟨.hbm, 1774, rfl⟩
abbrev main_v1134 : Ref sig .tc := ⟨.hbm, 1775, rfl⟩
abbrev main_v1135 : Ref sig .tc := ⟨.hbm, 1776, rfl⟩
abbrev main_v1136 : Ref sig .tc := ⟨.hbm, 1777, rfl⟩
abbrev main_v1137 : Ref sig .tc := ⟨.hbm, 1778, rfl⟩
abbrev main_v1138 : Ref sig .tc := ⟨.hbm, 1779, rfl⟩
abbrev main_v1139 : Ref sig .tc := ⟨.hbm, 1780, rfl⟩
abbrev main_v1140 : Ref sig .tc := ⟨.hbm, 1781, rfl⟩
abbrev main_cst_269 : Ref sig .tc := ⟨.hbm, 1782, rfl⟩
abbrev main_v1141 : Ref sig .tc := ⟨.hbm, 1783, rfl⟩
abbrev main_v1142 : Ref sig .tc := ⟨.hbm, 1784, rfl⟩
abbrev main_cst_270 : Ref sig .tc := ⟨.hbm, 1785, rfl⟩
abbrev main_v1143 : Ref sig .tc := ⟨.hbm, 1786, rfl⟩
abbrev main_v1144 : Ref sig .tc := ⟨.hbm, 1787, rfl⟩
abbrev main_v1145 : Ref sig .tc := ⟨.hbm, 1788, rfl⟩
abbrev main_v1146 : Ref sig .tc := ⟨.hbm, 1789, rfl⟩
abbrev main_v1147 : Ref sig .tc := ⟨.hbm, 1790, rfl⟩
abbrev main_v1148 : Ref sig .tc := ⟨.hbm, 1791, rfl⟩
abbrev main_v1149 : Ref sig .tc := ⟨.hbm, 1792, rfl⟩
abbrev main_cst_271 : Ref sig .tc := ⟨.hbm, 1793, rfl⟩
abbrev main_v1150 : Ref sig .tc := ⟨.hbm, 1794, rfl⟩
abbrev main_v1151 : Ref sig .tc := ⟨.hbm, 1795, rfl⟩
abbrev main_cst_272 : Ref sig .tc := ⟨.hbm, 1796, rfl⟩
abbrev main_v1152 : Ref sig .tc := ⟨.hbm, 1797, rfl⟩
abbrev main_v1153 : Ref sig .tc := ⟨.hbm, 1798, rfl⟩
abbrev main_v1154 : Ref sig .tc := ⟨.hbm, 1799, rfl⟩
abbrev main_v1155 : Ref sig .tc := ⟨.hbm, 1800, rfl⟩
abbrev main_c_273 : Ref sig .tc := ⟨.hbm, 1801, rfl⟩
abbrev main_v1156 : Ref sig .tc := ⟨.hbm, 1802, rfl⟩
abbrev main_v1157 : Ref sig .tc := ⟨.hbm, 1803, rfl⟩
abbrev main_c_274 : Ref sig .tc := ⟨.hbm, 1804, rfl⟩
abbrev main_v1158 : Ref sig .tc := ⟨.hbm, 1805, rfl⟩
abbrev main_v1159 : Ref sig .tc := ⟨.hbm, 1806, rfl⟩
abbrev main_v1160 : Ref sig .tc := ⟨.hbm, 1807, rfl⟩
abbrev main_v1161 : Ref sig .tc := ⟨.hbm, 1808, rfl⟩
abbrev main_v1162 : Ref sig .tc := ⟨.hbm, 1809, rfl⟩
abbrev main_c_275 : Ref sig .tc := ⟨.hbm, 1810, rfl⟩
abbrev main_v1163 : Ref sig .tc := ⟨.hbm, 1811, rfl⟩
abbrev main_v1164 : Ref sig .tc := ⟨.hbm, 1812, rfl⟩
abbrev main_c_276 : Ref sig .tc := ⟨.hbm, 1813, rfl⟩
abbrev main_v1165 : Ref sig .tc := ⟨.hbm, 1814, rfl⟩
abbrev main_v1166 : Ref sig .tc := ⟨.hbm, 1815, rfl⟩
abbrev main_v1167 : Ref sig .tc := ⟨.hbm, 1816, rfl⟩
abbrev main_v1168 : Ref sig .tc := ⟨.hbm, 1817, rfl⟩
abbrev main_v1169 : Ref sig .tc := ⟨.hbm, 1818, rfl⟩
abbrev main_v1170 : Ref sig .tc := ⟨.hbm, 1819, rfl⟩
abbrev main_c_277 : Ref sig .tc := ⟨.hbm, 1820, rfl⟩
abbrev main_v1171 : Ref sig .tc := ⟨.hbm, 1821, rfl⟩
abbrev main_v1172 : Ref sig .tc := ⟨.hbm, 1822, rfl⟩
abbrev main_v1173 : Ref sig .tc := ⟨.hbm, 1823, rfl⟩
abbrev main_v1174 : Ref sig .tc := ⟨.hbm, 1824, rfl⟩
abbrev main_v1175 : Ref sig .tc := ⟨.hbm, 1825, rfl⟩
abbrev main_v1176 : Ref sig .tc := ⟨.hbm, 1826, rfl⟩
abbrev main_v1177 : Ref sig .tc := ⟨.hbm, 1827, rfl⟩
abbrev main_c_278 : Ref sig .tc := ⟨.hbm, 1828, rfl⟩
abbrev main_v1178 : Ref sig .tc := ⟨.hbm, 1829, rfl⟩
abbrev main_v1179 : Ref sig .tc := ⟨.hbm, 1830, rfl⟩
abbrev main_c_279 : Ref sig .tc := ⟨.hbm, 1831, rfl⟩
abbrev main_v1180 : Ref sig .tc := ⟨.hbm, 1832, rfl⟩
abbrev main_v1181 : Ref sig .tc := ⟨.hbm, 1833, rfl⟩
abbrev main_v1182 : Ref sig .tc := ⟨.hbm, 1834, rfl⟩
abbrev main_v1183 : Ref sig .tc := ⟨.hbm, 1835, rfl⟩
abbrev main_v1184 : Ref sig .tc := ⟨.hbm, 1836, rfl⟩
abbrev main_v1185 : Ref sig .tc := ⟨.hbm, 1837, rfl⟩
abbrev main_c_280 : Ref sig .tc := ⟨.hbm, 1838, rfl⟩
abbrev main_v1186 : Ref sig .tc := ⟨.hbm, 1839, rfl⟩
abbrev main_v1187 : Ref sig .tc := ⟨.hbm, 1840, rfl⟩
abbrev main_v1188 : Ref sig .tc := ⟨.hbm, 1841, rfl⟩
abbrev main_v1189 : Ref sig .tc := ⟨.hbm, 1842, rfl⟩
abbrev main_v1190 : Ref sig .tc := ⟨.hbm, 1843, rfl⟩
abbrev main_v1191 : Ref sig .tc := ⟨.hbm, 1844, rfl⟩
abbrev main_v1192 : Ref sig .tc := ⟨.hbm, 1845, rfl⟩
abbrev main_v1193 : Ref sig .tc := ⟨.hbm, 1846, rfl⟩
abbrev main_c_281 : Ref sig .tc := ⟨.hbm, 1847, rfl⟩
abbrev main_v1194 : Ref sig .tc := ⟨.hbm, 1848, rfl⟩
abbrev main_v1195 : Ref sig .tc := ⟨.hbm, 1849, rfl⟩
abbrev main_c_282 : Ref sig .tc := ⟨.hbm, 1850, rfl⟩
abbrev main_v1196 : Ref sig .tc := ⟨.hbm, 1851, rfl⟩
abbrev main_v1197 : Ref sig .tc := ⟨.hbm, 1852, rfl⟩
abbrev main_v1198 : Ref sig .tc := ⟨.hbm, 1853, rfl⟩
abbrev main_v1199 : Ref sig .tc := ⟨.hbm, 1854, rfl⟩
abbrev main_v1200 : Ref sig .tc := ⟨.hbm, 1855, rfl⟩
abbrev main_c_283 : Ref sig .tc := ⟨.hbm, 1856, rfl⟩
abbrev main_v1201 : Ref sig .tc := ⟨.hbm, 1857, rfl⟩
abbrev main_v1202 : Ref sig .tc := ⟨.hbm, 1858, rfl⟩
abbrev main_c_284 : Ref sig .tc := ⟨.hbm, 1859, rfl⟩
abbrev main_v1203 : Ref sig .tc := ⟨.hbm, 1860, rfl⟩
abbrev main_v1204 : Ref sig .tc := ⟨.hbm, 1861, rfl⟩
abbrev main_v1205 : Ref sig .tc := ⟨.hbm, 1862, rfl⟩
abbrev main_v1206 : Ref sig .tc := ⟨.hbm, 1863, rfl⟩
abbrev main_v1207 : Ref sig .tc := ⟨.hbm, 1864, rfl⟩
abbrev main_c_285 : Ref sig .tc := ⟨.hbm, 1865, rfl⟩
abbrev main_v1208 : Ref sig .tc := ⟨.hbm, 1866, rfl⟩
abbrev main_v1209 : Ref sig .tc := ⟨.hbm, 1867, rfl⟩
abbrev main_c_286 : Ref sig .tc := ⟨.hbm, 1868, rfl⟩
abbrev main_v1210 : Ref sig .tc := ⟨.hbm, 1869, rfl⟩
abbrev main_v1211 : Ref sig .tc := ⟨.hbm, 1870, rfl⟩
abbrev main_v1212 : Ref sig .tc := ⟨.hbm, 1871, rfl⟩
abbrev main_v1213 : Ref sig .tc := ⟨.hbm, 1872, rfl⟩
abbrev main_v1214 : Ref sig .tc := ⟨.hbm, 1873, rfl⟩
abbrev main_c_287 : Ref sig .tc := ⟨.hbm, 1874, rfl⟩
abbrev main_call20_v0 : Ref sig .tc := ⟨.hbm, 1875, rfl⟩
abbrev main_call20_v1 : Ref sig .tc := ⟨.hbm, 1876, rfl⟩
abbrev main_call20_v2 : Ref sig .tc := ⟨.hbm, 1877, rfl⟩
abbrev main_call20_v3 : Ref sig .tc := ⟨.hbm, 1878, rfl⟩
abbrev main_call20_v4 : Ref sig .tc := ⟨.hbm, 1879, rfl⟩
abbrev main_call20_v5 : Ref sig .tc := ⟨.hbm, 1880, rfl⟩
abbrev main_call20_v6 : Ref sig .tc := ⟨.hbm, 1881, rfl⟩
abbrev main_call20_v7 : Ref sig .tc := ⟨.hbm, 1882, rfl⟩
abbrev main_call20_v8 : Ref sig .tc := ⟨.hbm, 1883, rfl⟩
abbrev main_call20_c : Ref sig .tc := ⟨.hbm, 1884, rfl⟩
abbrev main_call20_v9 : Ref sig .tc := ⟨.hbm, 1885, rfl⟩
abbrev main_call20_v10 : Ref sig .tc := ⟨.hbm, 1886, rfl⟩
abbrev main_call20_v11 : Ref sig .tc := ⟨.hbm, 1887, rfl⟩
abbrev main_call20_c_0 : Ref sig .tc := ⟨.hbm, 1888, rfl⟩
abbrev main_call20_v12 : Ref sig .tc := ⟨.hbm, 1889, rfl⟩
abbrev main_call20_v13 : Ref sig .tc := ⟨.hbm, 1890, rfl⟩
abbrev main_v1215 : Ref sig .tc := ⟨.hbm, 1891, rfl⟩
abbrev main_c_288 : Ref sig .tc := ⟨.hbm, 1892, rfl⟩
abbrev main_v1216 : Ref sig .tc := ⟨.hbm, 1893, rfl⟩
abbrev main_v1217 : Ref sig .tc := ⟨.hbm, 1894, rfl⟩
abbrev main_c_289 : Ref sig .tc := ⟨.hbm, 1895, rfl⟩
abbrev main_call21_v0 : Ref sig .tc := ⟨.hbm, 1896, rfl⟩
abbrev main_call21_c : Ref sig .tc := ⟨.hbm, 1897, rfl⟩
abbrev main_call21_v1 : Ref sig .tc := ⟨.hbm, 1898, rfl⟩
abbrev main_call21_c_0 : Ref sig .tc := ⟨.hbm, 1899, rfl⟩
abbrev main_call21_v2 : Ref sig .tc := ⟨.hbm, 1900, rfl⟩
abbrev main_call21_v3 : Ref sig .tc := ⟨.hbm, 1901, rfl⟩
abbrev main_call21_v4 : Ref sig .tc := ⟨.hbm, 1902, rfl⟩
abbrev main_call21_c_1 : Ref sig .tc := ⟨.hbm, 1903, rfl⟩
abbrev main_call21_v5 : Ref sig .tc := ⟨.hbm, 1904, rfl⟩
abbrev main_call21_v6 : Ref sig .tc := ⟨.hbm, 1905, rfl⟩
abbrev main_call21_c_2 : Ref sig .tc := ⟨.hbm, 1906, rfl⟩
abbrev main_call21_v7 : Ref sig .tc := ⟨.hbm, 1907, rfl⟩
abbrev main_call21_v8 : Ref sig .tc := ⟨.hbm, 1908, rfl⟩
abbrev main_call21_c_3 : Ref sig .tc := ⟨.hbm, 1909, rfl⟩
abbrev main_call21_v9 : Ref sig .tc := ⟨.hbm, 1910, rfl⟩
abbrev main_call21_v10 : Ref sig .tc := ⟨.hbm, 1911, rfl⟩
abbrev main_call21_v11 : Ref sig .tc := ⟨.hbm, 1912, rfl⟩
abbrev main_call21_v12 : Ref sig .tc := ⟨.hbm, 1913, rfl⟩
abbrev main_call21_v13 : Ref sig .tc := ⟨.hbm, 1914, rfl⟩
abbrev main_call21_v14 : Ref sig .tc := ⟨.hbm, 1915, rfl⟩
abbrev main_v1218 : Ref sig .tc := ⟨.hbm, 1916, rfl⟩
abbrev main_c_290 : Ref sig .tc := ⟨.hbm, 1917, rfl⟩
abbrev main_v1219 : Ref sig .tc := ⟨.hbm, 1918, rfl⟩
abbrev main_v1220 : Ref sig .tc := ⟨.hbm, 1919, rfl⟩
abbrev main_v1221 : Ref sig .tc := ⟨.hbm, 1920, rfl⟩
abbrev main_v1222 : Ref sig .tc := ⟨.hbm, 1921, rfl⟩
abbrev main_v1223 : Ref sig .tc := ⟨.hbm, 1922, rfl⟩
abbrev main_v1224 : Ref sig .tc := ⟨.hbm, 1923, rfl⟩
abbrev main_v1225 : Ref sig .tc := ⟨.hbm, 1924, rfl⟩
abbrev main_v1226 : Ref sig .tc := ⟨.hbm, 1925, rfl⟩
abbrev main_v1227 : Ref sig .tc := ⟨.hbm, 1926, rfl⟩
abbrev main_v1228 : Ref sig .tc := ⟨.hbm, 1927, rfl⟩
abbrev main_cst_291 : Ref sig .tc := ⟨.hbm, 1928, rfl⟩
abbrev main_v1229 : Ref sig .tc := ⟨.hbm, 1929, rfl⟩
abbrev main_v1230 : Ref sig .tc := ⟨.hbm, 1930, rfl⟩
abbrev main_cst_292 : Ref sig .tc := ⟨.hbm, 1931, rfl⟩
abbrev main_v1231 : Ref sig .tc := ⟨.hbm, 1932, rfl⟩
abbrev main_v1232 : Ref sig .tc := ⟨.hbm, 1933, rfl⟩
abbrev main_cst_293 : Ref sig .tc := ⟨.hbm, 1934, rfl⟩
abbrev main_v1233 : Ref sig .tc := ⟨.hbm, 1935, rfl⟩
abbrev main_v1234 : Ref sig .tc := ⟨.hbm, 1936, rfl⟩
abbrev main_v1235 : Ref sig .tc := ⟨.hbm, 1937, rfl⟩
abbrev main_v1236 : Ref sig .tc := ⟨.hbm, 1938, rfl⟩
abbrev main_cst_294 : Ref sig .tc := ⟨.hbm, 1939, rfl⟩
abbrev main_v1237 : Ref sig .tc := ⟨.hbm, 1940, rfl⟩
abbrev main_v1238 : Ref sig .tc := ⟨.hbm, 1941, rfl⟩
abbrev main_v1239 : Ref sig .tc := ⟨.hbm, 1942, rfl⟩
abbrev main_v1240 : Ref sig .tc := ⟨.hbm, 1943, rfl⟩
abbrev main_v1241 : Ref sig .tc := ⟨.hbm, 1944, rfl⟩
abbrev main_v1242 : Ref sig .tc := ⟨.hbm, 1945, rfl⟩
abbrev main_v1243 : Ref sig .tc := ⟨.hbm, 1946, rfl⟩
abbrev main_v1244 : Ref sig .tc := ⟨.hbm, 1947, rfl⟩
abbrev main_v1245 : Ref sig .tc := ⟨.hbm, 1948, rfl⟩
abbrev main_v1246 : Ref sig .tc := ⟨.hbm, 1949, rfl⟩
abbrev main_v1247 : Ref sig .tc := ⟨.hbm, 1950, rfl⟩
abbrev main_v1248 : Ref sig .tc := ⟨.hbm, 1951, rfl⟩
abbrev main_v1249 : Ref sig .tc := ⟨.hbm, 1952, rfl⟩
abbrev main_cst_295 : Ref sig .tc := ⟨.hbm, 1953, rfl⟩
abbrev main_v1250 : Ref sig .tc := ⟨.hbm, 1954, rfl⟩
abbrev main_v1251 : Ref sig .tc := ⟨.hbm, 1955, rfl⟩
abbrev main_cst_296 : Ref sig .tc := ⟨.hbm, 1956, rfl⟩
abbrev main_v1252 : Ref sig .tc := ⟨.hbm, 1957, rfl⟩
abbrev main_v1253 : Ref sig .tc := ⟨.hbm, 1958, rfl⟩
abbrev main_v1254 : Ref sig .tc := ⟨.hbm, 1959, rfl⟩
abbrev main_v1255 : Ref sig .tc := ⟨.hbm, 1960, rfl⟩
abbrev main_v1256 : Ref sig .tc := ⟨.hbm, 1961, rfl⟩
abbrev main_v1257 : Ref sig .tc := ⟨.hbm, 1962, rfl⟩
abbrev main_v1258 : Ref sig .tc := ⟨.hbm, 1963, rfl⟩
abbrev main_cst_297 : Ref sig .tc := ⟨.hbm, 1964, rfl⟩
abbrev main_v1259 : Ref sig .tc := ⟨.hbm, 1965, rfl⟩
abbrev main_v1260 : Ref sig .tc := ⟨.hbm, 1966, rfl⟩
abbrev main_cst_298 : Ref sig .tc := ⟨.hbm, 1967, rfl⟩
abbrev main_v1261 : Ref sig .tc := ⟨.hbm, 1968, rfl⟩
abbrev main_v1262 : Ref sig .tc := ⟨.hbm, 1969, rfl⟩
abbrev main_v1263 : Ref sig .tc := ⟨.hbm, 1970, rfl⟩
abbrev main_v1264 : Ref sig .tc := ⟨.hbm, 1971, rfl⟩
abbrev main_c_299 : Ref sig .tc := ⟨.hbm, 1972, rfl⟩
abbrev main_v1265 : Ref sig .tc := ⟨.hbm, 1973, rfl⟩
abbrev main_v1266 : Ref sig .tc := ⟨.hbm, 1974, rfl⟩
abbrev main_c_300 : Ref sig .tc := ⟨.hbm, 1975, rfl⟩
abbrev main_v1267 : Ref sig .tc := ⟨.hbm, 1976, rfl⟩
abbrev main_v1268 : Ref sig .tc := ⟨.hbm, 1977, rfl⟩
abbrev main_v1269 : Ref sig .tc := ⟨.hbm, 1978, rfl⟩
abbrev main_v1270 : Ref sig .tc := ⟨.hbm, 1979, rfl⟩
abbrev main_v1271 : Ref sig .tc := ⟨.hbm, 1980, rfl⟩
abbrev main_c_301 : Ref sig .tc := ⟨.hbm, 1981, rfl⟩
abbrev main_v1272 : Ref sig .tc := ⟨.hbm, 1982, rfl⟩
abbrev main_v1273 : Ref sig .tc := ⟨.hbm, 1983, rfl⟩
abbrev main_c_302 : Ref sig .tc := ⟨.hbm, 1984, rfl⟩
abbrev main_v1274 : Ref sig .tc := ⟨.hbm, 1985, rfl⟩
abbrev main_v1275 : Ref sig .tc := ⟨.hbm, 1986, rfl⟩
abbrev main_v1276 : Ref sig .tc := ⟨.hbm, 1987, rfl⟩
abbrev main_v1277 : Ref sig .tc := ⟨.hbm, 1988, rfl⟩
abbrev main_v1278 : Ref sig .tc := ⟨.hbm, 1989, rfl⟩
abbrev main_c_303 : Ref sig .tc := ⟨.hbm, 1990, rfl⟩
abbrev main_v1279 : Ref sig .tc := ⟨.hbm, 1991, rfl⟩
abbrev main_v1280 : Ref sig .tc := ⟨.hbm, 1992, rfl⟩
abbrev main_c_304 : Ref sig .tc := ⟨.hbm, 1993, rfl⟩
abbrev main_v1281 : Ref sig .tc := ⟨.hbm, 1994, rfl⟩
abbrev main_v1282 : Ref sig .tc := ⟨.hbm, 1995, rfl⟩
abbrev main_v1283 : Ref sig .tc := ⟨.hbm, 1996, rfl⟩
abbrev main_v1284 : Ref sig .tc := ⟨.hbm, 1997, rfl⟩
abbrev main_v1285 : Ref sig .tc := ⟨.hbm, 1998, rfl⟩
abbrev main_v1286 : Ref sig .tc := ⟨.hbm, 1999, rfl⟩
abbrev main_v1287 : Ref sig .tc := ⟨.hbm, 2000, rfl⟩
abbrev main_v1288 : Ref sig .tc := ⟨.hbm, 2001, rfl⟩
abbrev main_v1289 : Ref sig .tc := ⟨.hbm, 2002, rfl⟩
abbrev main_v1290 : Ref sig .tc := ⟨.hbm, 2003, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S_S256 : S_.BroadcastsInDim S256 (![] : Fin 0 → Fin S256.rank)
  bcast_S_S131040 : S_.BroadcastsInDim S131040 (![] : Fin 0 → Fin S131040.rank)
  bcast_S131040_S131040x1_0 : S131040.BroadcastsInDim S131040x1 (![0] : Fin 1 → Fin S131040x1.rank)
  transposes_S768x256_S256x768_1_0 : S768x256.Transposes [1, 0] S256x768
  bcast_S_S131040x256 : S_.BroadcastsInDim S131040x256 (![] : Fin 0 → Fin S131040x256.rank)
  bcast_S_S32 : S_.BroadcastsInDim S32 (![] : Fin 0 → Fin S32.rank)
  bcast_S32_S32x1_0 : S32.BroadcastsInDim S32x1 (![0] : Fin 1 → Fin S32x1.rank)
  bcast_S_S32x1 : S_.BroadcastsInDim S32x1 (![] : Fin 0 → Fin S32x1.rank)
  bcast_S2048_S1x2048_1 : S2048.BroadcastsInDim S1x2048 (![1] : Fin 1 → Fin S1x2048.rank)
  bcast_S32x1_S32x2048_0_1 : S32x1.BroadcastsInDim S32x2048 (![0, 1] : Fin 2 → Fin S32x2048.rank)
  bcast_S1x2048_S32x2048_0_1 : S1x2048.BroadcastsInDim S32x2048 (![0, 1] : Fin 2 → Fin S32x2048.rank)
  shapeCasts_S32x2048_S65536 : S32x2048.ShapeCasts S65536
  bcast_S_S65536 : S_.BroadcastsInDim S65536 (![] : Fin 0 → Fin S65536.rank)
  bcast_S65536_S65536x1_0 : S65536.BroadcastsInDim S65536x1 (![0] : Fin 1 → Fin S65536x1.rank)
  bcast_S_S65536x256 : S_.BroadcastsInDim S65536x256 (![] : Fin 0 → Fin S65536x256.rank)
  bcast_S1x768_S65536x768_0_1 : S1x768.BroadcastsInDim S65536x768 (![0, 1] : Fin 2 → Fin S65536x768.rank)
  slices_S65536x768_S65536x256_0_0 : S65536x768.Slices ![0, 0] S65536x256
  slices_S65536x768_S65536x256_0_256 : S65536x768.Slices ![0, 256] S65536x256
  slices_S65536x768_S65536x256_0_512 : S65536x768.Slices ![0, 512] S65536x256
  bcast_S1024_S1x1024_1 : S1024.BroadcastsInDim S1x1024 (![1] : Fin 1 → Fin S1x1024.rank)
  bcast_S32x1_S32x1024_0_1 : S32x1.BroadcastsInDim S32x1024 (![0, 1] : Fin 2 → Fin S32x1024.rank)
  bcast_S1x1024_S32x1024_0_1 : S1x1024.BroadcastsInDim S32x1024 (![0, 1] : Fin 2 → Fin S32x1024.rank)
  shapeCasts_S32x1024_S32768 : S32x1024.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  transposes_S256x256_S256x256_1_0 : S256x256.Transposes [1, 0] S256x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S32768x256 : S_.BroadcastsInDim S32768x256 (![] : Fin 0 → Fin S32768x256.rank)
  bcast_S1x768_S32768x768_0_1 : S1x768.BroadcastsInDim S32768x768 (![0, 1] : Fin 2 → Fin S32768x768.rank)
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  bcast_S512_S1x512_1 : S512.BroadcastsInDim S1x512 (![1] : Fin 1 → Fin S1x512.rank)
  bcast_S32x1_S32x512_0_1 : S32x1.BroadcastsInDim S32x512 (![0, 1] : Fin 2 → Fin S32x512.rank)
  bcast_S1x512_S32x512_0_1 : S1x512.BroadcastsInDim S32x512 (![0, 1] : Fin 2 → Fin S32x512.rank)
  shapeCasts_S32x512_S16384 : S32x512.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S1x256_S32768x256_0_1 : S1x256.BroadcastsInDim S32768x256 (![0, 1] : Fin 2 → Fin S32768x256.rank)
  bcast_S_S16384x256 : S_.BroadcastsInDim S16384x256 (![] : Fin 0 → Fin S16384x256.rank)
  bcast_S1x768_S16384x768_0_1 : S1x768.BroadcastsInDim S16384x768 (![0, 1] : Fin 2 → Fin S16384x768.rank)
  slices_S16384x768_S16384x256_0_0 : S16384x768.Slices ![0, 0] S16384x256
  slices_S16384x768_S16384x256_0_256 : S16384x768.Slices ![0, 256] S16384x256
  slices_S16384x768_S16384x256_0_512 : S16384x768.Slices ![0, 512] S16384x256
  bcast_S32x1_S32x256_0_1 : S32x1.BroadcastsInDim S32x256 (![0, 1] : Fin 2 → Fin S32x256.rank)
  bcast_S1x256_S32x256_0_1 : S1x256.BroadcastsInDim S32x256 (![0, 1] : Fin 2 → Fin S32x256.rank)
  shapeCasts_S32x256_S8192 : S32x256.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S1x256_S16384x256_0_1 : S1x256.BroadcastsInDim S16384x256 (![0, 1] : Fin 2 → Fin S16384x256.rank)
  bcast_S_S8192x256 : S_.BroadcastsInDim S8192x256 (![] : Fin 0 → Fin S8192x256.rank)
  bcast_S1x768_S8192x768_0_1 : S1x768.BroadcastsInDim S8192x768 (![0, 1] : Fin 2 → Fin S8192x768.rank)
  slices_S8192x768_S8192x256_0_0 : S8192x768.Slices ![0, 0] S8192x256
  slices_S8192x768_S8192x256_0_256 : S8192x768.Slices ![0, 256] S8192x256
  slices_S8192x768_S8192x256_0_512 : S8192x768.Slices ![0, 512] S8192x256
  bcast_S128_S1x128_1 : S128.BroadcastsInDim S1x128 (![1] : Fin 1 → Fin S1x128.rank)
  bcast_S32x1_S32x128_0_1 : S32x1.BroadcastsInDim S32x128 (![0, 1] : Fin 2 → Fin S32x128.rank)
  bcast_S1x128_S32x128_0_1 : S1x128.BroadcastsInDim S32x128 (![0, 1] : Fin 2 → Fin S32x128.rank)
  shapeCasts_S32x128_S4096 : S32x128.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S1x256_S8192x256_0_1 : S1x256.BroadcastsInDim S8192x256 (![0, 1] : Fin 2 → Fin S8192x256.rank)
  bcast_S_S4096x256 : S_.BroadcastsInDim S4096x256 (![] : Fin 0 → Fin S4096x256.rank)
  bcast_S1x768_S4096x768_0_1 : S1x768.BroadcastsInDim S4096x768 (![0, 1] : Fin 2 → Fin S4096x768.rank)
  slices_S4096x768_S4096x256_0_0 : S4096x768.Slices ![0, 0] S4096x256
  slices_S4096x768_S4096x256_0_256 : S4096x768.Slices ![0, 256] S4096x256
  slices_S4096x768_S4096x256_0_512 : S4096x768.Slices ![0, 512] S4096x256
  bcast_S64_S1x64_1 : S64.BroadcastsInDim S1x64 (![1] : Fin 1 → Fin S1x64.rank)
  bcast_S32x1_S32x64_0_1 : S32x1.BroadcastsInDim S32x64 (![0, 1] : Fin 2 → Fin S32x64.rank)
  bcast_S1x64_S32x64_0_1 : S1x64.BroadcastsInDim S32x64 (![0, 1] : Fin 2 → Fin S32x64.rank)
  shapeCasts_S32x64_S2048 : S32x64.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S1x256_S4096x256_0_1 : S1x256.BroadcastsInDim S4096x256 (![0, 1] : Fin 2 → Fin S4096x256.rank)
  bcast_S_S2048x256 : S_.BroadcastsInDim S2048x256 (![] : Fin 0 → Fin S2048x256.rank)
  bcast_S1x768_S2048x768_0_1 : S1x768.BroadcastsInDim S2048x768 (![0, 1] : Fin 2 → Fin S2048x768.rank)
  slices_S2048x768_S2048x256_0_0 : S2048x768.Slices ![0, 0] S2048x256
  slices_S2048x768_S2048x256_0_256 : S2048x768.Slices ![0, 256] S2048x256
  slices_S2048x768_S2048x256_0_512 : S2048x768.Slices ![0, 512] S2048x256
  bcast_S32_S1x32_1 : S32.BroadcastsInDim S1x32 (![1] : Fin 1 → Fin S1x32.rank)
  bcast_S32x1_S32x32_0_1 : S32x1.BroadcastsInDim S32x32 (![0, 1] : Fin 2 → Fin S32x32.rank)
  bcast_S1x32_S32x32_0_1 : S1x32.BroadcastsInDim S32x32 (![0, 1] : Fin 2 → Fin S32x32.rank)
  shapeCasts_S32x32_S1024 : S32x32.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S1x256_S2048x256_0_1 : S1x256.BroadcastsInDim S2048x256 (![0, 1] : Fin 2 → Fin S2048x256.rank)
  bcast_S_S1024x256 : S_.BroadcastsInDim S1024x256 (![] : Fin 0 → Fin S1024x256.rank)
  bcast_S1x768_S1024x768_0_1 : S1x768.BroadcastsInDim S1024x768 (![0, 1] : Fin 2 → Fin S1024x768.rank)
  slices_S1024x768_S1024x256_0_0 : S1024x768.Slices ![0, 0] S1024x256
  slices_S1024x768_S1024x256_0_256 : S1024x768.Slices ![0, 256] S1024x256
  slices_S1024x768_S1024x256_0_512 : S1024x768.Slices ![0, 512] S1024x256
  bcast_S16_S1x16_1 : S16.BroadcastsInDim S1x16 (![1] : Fin 1 → Fin S1x16.rank)
  bcast_S32x1_S32x16_0_1 : S32x1.BroadcastsInDim S32x16 (![0, 1] : Fin 2 → Fin S32x16.rank)
  bcast_S1x16_S32x16_0_1 : S1x16.BroadcastsInDim S32x16 (![0, 1] : Fin 2 → Fin S32x16.rank)
  shapeCasts_S32x16_S512 : S32x16.ShapeCasts S512
  bcast_S_S512 : S_.BroadcastsInDim S512 (![] : Fin 0 → Fin S512.rank)
  bcast_S512_S512x1_0 : S512.BroadcastsInDim S512x1 (![0] : Fin 1 → Fin S512x1.rank)
  bcast_S1x256_S1024x256_0_1 : S1x256.BroadcastsInDim S1024x256 (![0, 1] : Fin 2 → Fin S1024x256.rank)
  bcast_S_S512x256 : S_.BroadcastsInDim S512x256 (![] : Fin 0 → Fin S512x256.rank)
  bcast_S1x768_S512x768_0_1 : S1x768.BroadcastsInDim S512x768 (![0, 1] : Fin 2 → Fin S512x768.rank)
  slices_S512x768_S512x256_0_0 : S512x768.Slices ![0, 0] S512x256
  slices_S512x768_S512x256_0_256 : S512x768.Slices ![0, 256] S512x256
  slices_S512x768_S512x256_0_512 : S512x768.Slices ![0, 512] S512x256
  bcast_S8_S1x8_1 : S8.BroadcastsInDim S1x8 (![1] : Fin 1 → Fin S1x8.rank)
  bcast_S32x1_S32x8_0_1 : S32x1.BroadcastsInDim S32x8 (![0, 1] : Fin 2 → Fin S32x8.rank)
  bcast_S1x8_S32x8_0_1 : S1x8.BroadcastsInDim S32x8 (![0, 1] : Fin 2 → Fin S32x8.rank)
  shapeCasts_S32x8_S256 : S32x8.ShapeCasts S256
  bcast_S256_S256x1_0 : S256.BroadcastsInDim S256x1 (![0] : Fin 1 → Fin S256x1.rank)
  bcast_S1x256_S512x256_0_1 : S1x256.BroadcastsInDim S512x256 (![0, 1] : Fin 2 → Fin S512x256.rank)
  bcast_S_S256x256 : S_.BroadcastsInDim S256x256 (![] : Fin 0 → Fin S256x256.rank)
  bcast_S1x768_S256x768_0_1 : S1x768.BroadcastsInDim S256x768 (![0, 1] : Fin 2 → Fin S256x768.rank)
  slices_S256x768_S256x256_0_0 : S256x768.Slices ![0, 0] S256x256
  slices_S256x768_S256x256_0_256 : S256x768.Slices ![0, 256] S256x256
  slices_S256x768_S256x256_0_512 : S256x768.Slices ![0, 512] S256x256
  bcast_S4_S1x4_1 : S4.BroadcastsInDim S1x4 (![1] : Fin 1 → Fin S1x4.rank)
  bcast_S32x1_S32x4_0_1 : S32x1.BroadcastsInDim S32x4 (![0, 1] : Fin 2 → Fin S32x4.rank)
  bcast_S1x4_S32x4_0_1 : S1x4.BroadcastsInDim S32x4 (![0, 1] : Fin 2 → Fin S32x4.rank)
  shapeCasts_S32x4_S128 : S32x4.ShapeCasts S128
  bcast_S_S128 : S_.BroadcastsInDim S128 (![] : Fin 0 → Fin S128.rank)
  bcast_S128_S128x1_0 : S128.BroadcastsInDim S128x1 (![0] : Fin 1 → Fin S128x1.rank)
  bcast_S1x256_S256x256_0_1 : S1x256.BroadcastsInDim S256x256 (![0, 1] : Fin 2 → Fin S256x256.rank)
  bcast_S_S128x256 : S_.BroadcastsInDim S128x256 (![] : Fin 0 → Fin S128x256.rank)
  bcast_S1x768_S128x768_0_1 : S1x768.BroadcastsInDim S128x768 (![0, 1] : Fin 2 → Fin S128x768.rank)
  slices_S128x768_S128x256_0_0 : S128x768.Slices ![0, 0] S128x256
  slices_S128x768_S128x256_0_256 : S128x768.Slices ![0, 256] S128x256
  slices_S128x768_S128x256_0_512 : S128x768.Slices ![0, 512] S128x256
  bcast_S2_S1x2_1 : S2.BroadcastsInDim S1x2 (![1] : Fin 1 → Fin S1x2.rank)
  bcast_S32x1_S32x2_0_1 : S32x1.BroadcastsInDim S32x2 (![0, 1] : Fin 2 → Fin S32x2.rank)
  bcast_S1x2_S32x2_0_1 : S1x2.BroadcastsInDim S32x2 (![0, 1] : Fin 2 → Fin S32x2.rank)
  shapeCasts_S32x2_S64 : S32x2.ShapeCasts S64
  bcast_S_S64 : S_.BroadcastsInDim S64 (![] : Fin 0 → Fin S64.rank)
  bcast_S64_S64x1_0 : S64.BroadcastsInDim S64x1 (![0] : Fin 1 → Fin S64x1.rank)
  bcast_S1x256_S128x256_0_1 : S1x256.BroadcastsInDim S128x256 (![0, 1] : Fin 2 → Fin S128x256.rank)
  bcast_S_S64x256 : S_.BroadcastsInDim S64x256 (![] : Fin 0 → Fin S64x256.rank)
  bcast_S1x768_S64x768_0_1 : S1x768.BroadcastsInDim S64x768 (![0, 1] : Fin 2 → Fin S64x768.rank)
  slices_S64x768_S64x256_0_0 : S64x768.Slices ![0, 0] S64x256
  slices_S64x768_S64x256_0_256 : S64x768.Slices ![0, 256] S64x256
  slices_S64x768_S64x256_0_512 : S64x768.Slices ![0, 512] S64x256
  bcast_S1_S1x1_1 : S1.BroadcastsInDim S1x1 (![1] : Fin 1 → Fin S1x1.rank)
  bcast_S1x1_S32x1_0_1 : S1x1.BroadcastsInDim S32x1 (![0, 1] : Fin 2 → Fin S32x1.rank)
  shapeCasts_S32x1_S32 : S32x1.ShapeCasts S32
  bcast_S1x256_S64x256_0_1 : S1x256.BroadcastsInDim S64x256 (![0, 1] : Fin 2 → Fin S64x256.rank)
  bcast_S_S32x256 : S_.BroadcastsInDim S32x256 (![] : Fin 0 → Fin S32x256.rank)
  bcast_S1x768_S32x768_0_1 : S1x768.BroadcastsInDim S32x768 (![0, 1] : Fin 2 → Fin S32x768.rank)
  slices_S32x768_S32x256_0_0 : S32x768.Slices ![0, 0] S32x256
  slices_S32x768_S32x256_0_256 : S32x768.Slices ![0, 256] S32x256
  slices_S32x768_S32x256_0_512 : S32x768.Slices ![0, 512] S32x256
  transposes_S104x256_S256x104_1_0 : S104x256.Transposes [1, 0] S256x104
  bcast_S104_S1x104_1 : S104.BroadcastsInDim S1x104 (![1] : Fin 1 → Fin S1x104.rank)
  bcast_S1x104_S32x104_0_1 : S1x104.BroadcastsInDim S32x104 (![0, 1] : Fin 2 → Fin S32x104.rank)
  scatter_S20000x256_S1_S256_0_0_0_0_wf : ScatterDims.WF S20000x256 S1 S256 [0] [0] [0] 0
  gather_S20000x256_S131040x1_S131040x256_1_0_n_n_0_1_1256_wf : GatherDims.WF S20000x256 S131040x1 S131040x256 [1] [0] [] [0] [] 1 ![1, 256]
  dot_S131040x256_S256x768_S131040x768_1_0_0_1_n_n_wf : DotDims.WF S131040x256 S256x768 S131040x768 [1] [0] [0] [1] [] []
  gather_S131040x768_S65536x1_S65536x768_1_0_n_n_0_1_1768_wf : GatherDims.WF S131040x768 S65536x1 S65536x768 [1] [0] [] [0] [] 1 ![1, 768]
  scatter_S131040x256_S65536x1_S65536x256_1_0_0_1_wf : ScatterDims.WF S131040x256 S65536x1 S65536x256 [1] [0] [0] 1
  gather_S131040x768_S32768x1_S32768x768_1_0_n_n_0_1_1768_wf : GatherDims.WF S131040x768 S32768x1 S32768x768 [1] [0] [] [0] [] 1 ![1, 768]
  gather_S131040x256_S65536x1_S65536x256_1_0_n_n_0_1_1256_wf : GatherDims.WF S131040x256 S65536x1 S65536x256 [1] [0] [] [0] [] 1 ![1, 256]
  gather_S131040_S65536x1_S65536_n_0_n_n_0_1_1_wf : GatherDims.WF S131040 S65536x1 S65536 [] [0] [] [0] [] 1 ![1]
  dot_S65536x256_S256x256_S65536x256_1_0_0_1_n_n_wf : DotDims.WF S65536x256 S256x256 S65536x256 [1] [0] [0] [1] [] []
  scatter_S32768x256_S65536x1_S65536x256_1_0_0_1_wf : ScatterDims.WF S32768x256 S65536x1 S65536x256 [1] [0] [0] 1
  dot_S32768x256_S256x768_S32768x768_1_0_0_1_n_n_wf : DotDims.WF S32768x256 S256x768 S32768x768 [1] [0] [0] [1] [] []
  scatter_S131040x256_S32768x1_S32768x256_1_0_0_1_wf : ScatterDims.WF S131040x256 S32768x1 S32768x256 [1] [0] [0] 1
  gather_S131040x768_S16384x1_S16384x768_1_0_n_n_0_1_1768_wf : GatherDims.WF S131040x768 S16384x1 S16384x768 [1] [0] [] [0] [] 1 ![1, 768]
  gather_S131040x256_S32768x1_S32768x256_1_0_n_n_0_1_1256_wf : GatherDims.WF S131040x256 S32768x1 S32768x256 [1] [0] [] [0] [] 1 ![1, 256]
  gather_S131040_S32768x1_S32768_n_0_n_n_0_1_1_wf : GatherDims.WF S131040 S32768x1 S32768 [] [0] [] [0] [] 1 ![1]
  dot_S32768x256_S256x256_S32768x256_1_0_0_1_n_n_wf : DotDims.WF S32768x256 S256x256 S32768x256 [1] [0] [0] [1] [] []
  scatter_S16384x256_S32768x1_S32768x256_1_0_0_1_wf : ScatterDims.WF S16384x256 S32768x1 S32768x256 [1] [0] [0] 1
  dot_S16384x256_S256x768_S16384x768_1_0_0_1_n_n_wf : DotDims.WF S16384x256 S256x768 S16384x768 [1] [0] [0] [1] [] []
  scatter_S131040x256_S16384x1_S16384x256_1_0_0_1_wf : ScatterDims.WF S131040x256 S16384x1 S16384x256 [1] [0] [0] 1
  gather_S131040x768_S8192x1_S8192x768_1_0_n_n_0_1_1768_wf : GatherDims.WF S131040x768 S8192x1 S8192x768 [1] [0] [] [0] [] 1 ![1, 768]
  gather_S131040x256_S16384x1_S16384x256_1_0_n_n_0_1_1256_wf : GatherDims.WF S131040x256 S16384x1 S16384x256 [1] [0] [] [0] [] 1 ![1, 256]
  gather_S131040_S16384x1_S16384_n_0_n_n_0_1_1_wf : GatherDims.WF S131040 S16384x1 S16384 [] [0] [] [0] [] 1 ![1]
  dot_S16384x256_S256x256_S16384x256_1_0_0_1_n_n_wf : DotDims.WF S16384x256 S256x256 S16384x256 [1] [0] [0] [1] [] []
  scatter_S8192x256_S16384x1_S16384x256_1_0_0_1_wf : ScatterDims.WF S8192x256 S16384x1 S16384x256 [1] [0] [0] 1
  dot_S8192x256_S256x768_S8192x768_1_0_0_1_n_n_wf : DotDims.WF S8192x256 S256x768 S8192x768 [1] [0] [0] [1] [] []
  scatter_S131040x256_S8192x1_S8192x256_1_0_0_1_wf : ScatterDims.WF S131040x256 S8192x1 S8192x256 [1] [0] [0] 1
  gather_S131040x768_S4096x1_S4096x768_1_0_n_n_0_1_1768_wf : GatherDims.WF S131040x768 S4096x1 S4096x768 [1] [0] [] [0] [] 1 ![1, 768]
  gather_S131040x256_S8192x1_S8192x256_1_0_n_n_0_1_1256_wf : GatherDims.WF S131040x256 S8192x1 S8192x256 [1] [0] [] [0] [] 1 ![1, 256]
  gather_S131040_S8192x1_S8192_n_0_n_n_0_1_1_wf : GatherDims.WF S131040 S8192x1 S8192 [] [0] [] [0] [] 1 ![1]
  dot_S8192x256_S256x256_S8192x256_1_0_0_1_n_n_wf : DotDims.WF S8192x256 S256x256 S8192x256 [1] [0] [0] [1] [] []
  scatter_S4096x256_S8192x1_S8192x256_1_0_0_1_wf : ScatterDims.WF S4096x256 S8192x1 S8192x256 [1] [0] [0] 1
  dot_S4096x256_S256x768_S4096x768_1_0_0_1_n_n_wf : DotDims.WF S4096x256 S256x768 S4096x768 [1] [0] [0] [1] [] []
  scatter_S131040x256_S4096x1_S4096x256_1_0_0_1_wf : ScatterDims.WF S131040x256 S4096x1 S4096x256 [1] [0] [0] 1
  gather_S131040x768_S2048x1_S2048x768_1_0_n_n_0_1_1768_wf : GatherDims.WF S131040x768 S2048x1 S2048x768 [1] [0] [] [0] [] 1 ![1, 768]
  gather_S131040x256_S4096x1_S4096x256_1_0_n_n_0_1_1256_wf : GatherDims.WF S131040x256 S4096x1 S4096x256 [1] [0] [] [0] [] 1 ![1, 256]
  gather_S131040_S4096x1_S4096_n_0_n_n_0_1_1_wf : GatherDims.WF S131040 S4096x1 S4096 [] [0] [] [0] [] 1 ![1]
  dot_S4096x256_S256x256_S4096x256_1_0_0_1_n_n_wf : DotDims.WF S4096x256 S256x256 S4096x256 [1] [0] [0] [1] [] []
  scatter_S2048x256_S4096x1_S4096x256_1_0_0_1_wf : ScatterDims.WF S2048x256 S4096x1 S4096x256 [1] [0] [0] 1
  dot_S2048x256_S256x768_S2048x768_1_0_0_1_n_n_wf : DotDims.WF S2048x256 S256x768 S2048x768 [1] [0] [0] [1] [] []
  scatter_S131040x256_S2048x1_S2048x256_1_0_0_1_wf : ScatterDims.WF S131040x256 S2048x1 S2048x256 [1] [0] [0] 1
  gather_S131040x768_S1024x1_S1024x768_1_0_n_n_0_1_1768_wf : GatherDims.WF S131040x768 S1024x1 S1024x768 [1] [0] [] [0] [] 1 ![1, 768]
  gather_S131040x256_S2048x1_S2048x256_1_0_n_n_0_1_1256_wf : GatherDims.WF S131040x256 S2048x1 S2048x256 [1] [0] [] [0] [] 1 ![1, 256]
  gather_S131040_S2048x1_S2048_n_0_n_n_0_1_1_wf : GatherDims.WF S131040 S2048x1 S2048 [] [0] [] [0] [] 1 ![1]
  dot_S2048x256_S256x256_S2048x256_1_0_0_1_n_n_wf : DotDims.WF S2048x256 S256x256 S2048x256 [1] [0] [0] [1] [] []
  scatter_S1024x256_S2048x1_S2048x256_1_0_0_1_wf : ScatterDims.WF S1024x256 S2048x1 S2048x256 [1] [0] [0] 1
  dot_S1024x256_S256x768_S1024x768_1_0_0_1_n_n_wf : DotDims.WF S1024x256 S256x768 S1024x768 [1] [0] [0] [1] [] []
  scatter_S131040x256_S1024x1_S1024x256_1_0_0_1_wf : ScatterDims.WF S131040x256 S1024x1 S1024x256 [1] [0] [0] 1
  gather_S131040x768_S512x1_S512x768_1_0_n_n_0_1_1768_wf : GatherDims.WF S131040x768 S512x1 S512x768 [1] [0] [] [0] [] 1 ![1, 768]
  gather_S131040x256_S1024x1_S1024x256_1_0_n_n_0_1_1256_wf : GatherDims.WF S131040x256 S1024x1 S1024x256 [1] [0] [] [0] [] 1 ![1, 256]
  gather_S131040_S1024x1_S1024_n_0_n_n_0_1_1_wf : GatherDims.WF S131040 S1024x1 S1024 [] [0] [] [0] [] 1 ![1]
  dot_S1024x256_S256x256_S1024x256_1_0_0_1_n_n_wf : DotDims.WF S1024x256 S256x256 S1024x256 [1] [0] [0] [1] [] []
  scatter_S512x256_S1024x1_S1024x256_1_0_0_1_wf : ScatterDims.WF S512x256 S1024x1 S1024x256 [1] [0] [0] 1
  dot_S512x256_S256x768_S512x768_1_0_0_1_n_n_wf : DotDims.WF S512x256 S256x768 S512x768 [1] [0] [0] [1] [] []
  scatter_S131040x256_S512x1_S512x256_1_0_0_1_wf : ScatterDims.WF S131040x256 S512x1 S512x256 [1] [0] [0] 1
  gather_S131040x768_S256x1_S256x768_1_0_n_n_0_1_1768_wf : GatherDims.WF S131040x768 S256x1 S256x768 [1] [0] [] [0] [] 1 ![1, 768]
  gather_S131040x256_S512x1_S512x256_1_0_n_n_0_1_1256_wf : GatherDims.WF S131040x256 S512x1 S512x256 [1] [0] [] [0] [] 1 ![1, 256]
  gather_S131040_S512x1_S512_n_0_n_n_0_1_1_wf : GatherDims.WF S131040 S512x1 S512 [] [0] [] [0] [] 1 ![1]
  dot_S512x256_S256x256_S512x256_1_0_0_1_n_n_wf : DotDims.WF S512x256 S256x256 S512x256 [1] [0] [0] [1] [] []
  scatter_S256x256_S512x1_S512x256_1_0_0_1_wf : ScatterDims.WF S256x256 S512x1 S512x256 [1] [0] [0] 1
  dot_S256x256_S256x768_S256x768_1_0_0_1_n_n_wf : DotDims.WF S256x256 S256x768 S256x768 [1] [0] [0] [1] [] []
  scatter_S131040x256_S256x1_S256x256_1_0_0_1_wf : ScatterDims.WF S131040x256 S256x1 S256x256 [1] [0] [0] 1
  gather_S131040x768_S128x1_S128x768_1_0_n_n_0_1_1768_wf : GatherDims.WF S131040x768 S128x1 S128x768 [1] [0] [] [0] [] 1 ![1, 768]
  gather_S131040x256_S256x1_S256x256_1_0_n_n_0_1_1256_wf : GatherDims.WF S131040x256 S256x1 S256x256 [1] [0] [] [0] [] 1 ![1, 256]
  gather_S131040_S256x1_S256_n_0_n_n_0_1_1_wf : GatherDims.WF S131040 S256x1 S256 [] [0] [] [0] [] 1 ![1]
  dot_S256x256_S256x256_S256x256_1_0_0_1_n_n_wf : DotDims.WF S256x256 S256x256 S256x256 [1] [0] [0] [1] [] []
  scatter_S128x256_S256x1_S256x256_1_0_0_1_wf : ScatterDims.WF S128x256 S256x1 S256x256 [1] [0] [0] 1
  dot_S128x256_S256x768_S128x768_1_0_0_1_n_n_wf : DotDims.WF S128x256 S256x768 S128x768 [1] [0] [0] [1] [] []
  scatter_S131040x256_S128x1_S128x256_1_0_0_1_wf : ScatterDims.WF S131040x256 S128x1 S128x256 [1] [0] [0] 1
  gather_S131040x768_S64x1_S64x768_1_0_n_n_0_1_1768_wf : GatherDims.WF S131040x768 S64x1 S64x768 [1] [0] [] [0] [] 1 ![1, 768]
  gather_S131040x256_S128x1_S128x256_1_0_n_n_0_1_1256_wf : GatherDims.WF S131040x256 S128x1 S128x256 [1] [0] [] [0] [] 1 ![1, 256]
  gather_S131040_S128x1_S128_n_0_n_n_0_1_1_wf : GatherDims.WF S131040 S128x1 S128 [] [0] [] [0] [] 1 ![1]
  dot_S128x256_S256x256_S128x256_1_0_0_1_n_n_wf : DotDims.WF S128x256 S256x256 S128x256 [1] [0] [0] [1] [] []
  scatter_S64x256_S128x1_S128x256_1_0_0_1_wf : ScatterDims.WF S64x256 S128x1 S128x256 [1] [0] [0] 1
  dot_S64x256_S256x768_S64x768_1_0_0_1_n_n_wf : DotDims.WF S64x256 S256x768 S64x768 [1] [0] [0] [1] [] []
  scatter_S131040x256_S64x1_S64x256_1_0_0_1_wf : ScatterDims.WF S131040x256 S64x1 S64x256 [1] [0] [0] 1
  gather_S131040x768_S32x1_S32x768_1_0_n_n_0_1_1768_wf : GatherDims.WF S131040x768 S32x1 S32x768 [1] [0] [] [0] [] 1 ![1, 768]
  gather_S131040x256_S64x1_S64x256_1_0_n_n_0_1_1256_wf : GatherDims.WF S131040x256 S64x1 S64x256 [1] [0] [] [0] [] 1 ![1, 256]
  gather_S131040_S64x1_S64_n_0_n_n_0_1_1_wf : GatherDims.WF S131040 S64x1 S64 [] [0] [] [0] [] 1 ![1]
  dot_S64x256_S256x256_S64x256_1_0_0_1_n_n_wf : DotDims.WF S64x256 S256x256 S64x256 [1] [0] [0] [1] [] []
  scatter_S32x256_S64x1_S64x256_1_0_0_1_wf : ScatterDims.WF S32x256 S64x1 S64x256 [1] [0] [0] 1
  dot_S32x256_S256x768_S32x768_1_0_0_1_n_n_wf : DotDims.WF S32x256 S256x768 S32x768 [1] [0] [0] [1] [] []
  scatter_S131040x256_S32x1_S32x256_1_0_0_1_wf : ScatterDims.WF S131040x256 S32x1 S32x256 [1] [0] [0] 1
  gather_S131040x256_S32x1_S32x256_1_0_n_n_0_1_1256_wf : GatherDims.WF S131040x256 S32x1 S32x256 [1] [0] [] [0] [] 1 ![1, 256]
  dot_S32x256_S256x104_S32x104_1_0_0_1_n_n_wf : DotDims.WF S32x256 S256x104 S32x104 [1] [0] [0] [1] [] []

variable [Facts₀]

def scatter_S20000x256_S1_S256_0_0_0_0 : ScatterDims S20000x256 S1 S256 where
  updateWindowDims := [0]
  insertedWindowDims := [0]
  scatterDimsToOperandDims := [0]
  indexVectorDim := 0
  wf := scatter_S20000x256_S1_S256_0_0_0_0_wf
def gather_S20000x256_S131040x1_S131040x256_1_0_n_n_0_1_1256 : GatherDims S20000x256 S131040x1 S131040x256 where
  offsetDims := [1]
  collapsedSliceDims := [0]
  operandBatchingDims := []
  startIndicesBatchingDims := []
  startIndexMap := [0]
  indexVectorDim := 1
  sliceSizes := ![1, 256]
  wf := gather_S20000x256_S131040x1_S131040x256_1_0_n_n_0_1_1256_wf
def dot_S131040x256_S256x768_S131040x768_1_0_0_1_n_n : DotDims S131040x256 S256x768 S131040x768 where
  lhsContracting := [1]
  rhsContracting := [0]
  lhsNonContracting := [0]
  rhsNonContracting := [1]
  lhsBatch := []
  rhsBatch := []
  wf := dot_S131040x256_S256x768_S131040x768_1_0_0_1_n_n_wf
def gather_S131040x768_S65536x1_S65536x768_1_0_n_n_0_1_1768 : GatherDims S131040x768 S65536x1 S65536x768 where
  offsetDims := [1]
  collapsedSliceDims := [0]
  operandBatchingDims := []
  startIndicesBatchingDims := []
  startIndexMap := [0]
  indexVectorDim := 1
  sliceSizes := ![1, 768]
  wf := gather_S131040x768_S65536x1_S65536x768_1_0_n_n_0_1_1768_wf
def scatter_S131040x256_S65536x1_S65536x256_1_0_0_1 : ScatterDims S131040x256 S65536x1 S65536x256 where
  updateWindowDims := [1]
  insertedWindowDims := [0]
  scatterDimsToOperandDims := [0]
  indexVectorDim := 1
  wf := scatter_S131040x256_S65536x1_S65536x256_1_0_0_1_wf
def gather_S131040x768_S32768x1_S32768x768_1_0_n_n_0_1_1768 : GatherDims S131040x768 S32768x1 S32768x768 where
  offsetDims := [1]
  collapsedSliceDims := [0]
  operandBatchingDims := []
  startIndicesBatchingDims := []
  startIndexMap := [0]
  indexVectorDim := 1
  sliceSizes := ![1, 768]
  wf := gather_S131040x768_S32768x1_S32768x768_1_0_n_n_0_1_1768_wf
def gather_S131040x256_S65536x1_S65536x256_1_0_n_n_0_1_1256 : GatherDims S131040x256 S65536x1 S65536x256 where
  offsetDims := [1]
  collapsedSliceDims := [0]
  operandBatchingDims := []
  startIndicesBatchingDims := []
  startIndexMap := [0]
  indexVectorDim := 1
  sliceSizes := ![1, 256]
  wf := gather_S131040x256_S65536x1_S65536x256_1_0_n_n_0_1_1256_wf
def gather_S131040_S65536x1_S65536_n_0_n_n_0_1_1 : GatherDims S131040 S65536x1 S65536 where
  offsetDims := []
  collapsedSliceDims := [0]
  operandBatchingDims := []
  startIndicesBatchingDims := []
  startIndexMap := [0]
  indexVectorDim := 1
  sliceSizes := ![1]
  wf := gather_S131040_S65536x1_S65536_n_0_n_n_0_1_1_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def scatter_S32768x256_S65536x1_S65536x256_1_0_0_1 : ScatterDims S32768x256 S65536x1 S65536x256 where
  updateWindowDims := [1]
  insertedWindowDims := [0]
  scatterDimsToOperandDims := [0]
  indexVectorDim := 1
  wf := scatter_S32768x256_S65536x1_S65536x256_1_0_0_1_wf
def dot_S32768x256_S256x768_S32768x768_1_0_0_1_n_n : DotDims S32768x256 S256x768 S32768x768 where
  lhsContracting := [1]
  rhsContracting := [0]
  lhsNonContracting := [0]
  rhsNonContracting := [1]
  lhsBatch := []
  rhsBatch := []
  wf := dot_S32768x256_S256x768_S32768x768_1_0_0_1_n_n_wf
def scatter_S131040x256_S32768x1_S32768x256_1_0_0_1 : ScatterDims S131040x256 S32768x1 S32768x256 where
  updateWindowDims := [1]
  insertedWindowDims := [0]
  scatterDimsToOperandDims := [0]
  indexVectorDim := 1
  wf := scatter_S131040x256_S32768x1_S32768x256_1_0_0_1_wf
def gather_S131040x768_S16384x1_S16384x768_1_0_n_n_0_1_1768 : GatherDims S131040x768 S16384x1 S16384x768 where
  offsetDims := [1]
  collapsedSliceDims := [0]
  operandBatchingDims := []
  startIndicesBatchingDims := []
  startIndexMap := [0]
  indexVectorDim := 1
  sliceSizes := ![1, 768]
  wf := gather_S131040x768_S16384x1_S16384x768_1_0_n_n_0_1_1768_wf
def gather_S131040x256_S32768x1_S32768x256_1_0_n_n_0_1_1256 : GatherDims S131040x256 S32768x1 S32768x256 where
  offsetDims := [1]
  collapsedSliceDims := [0]
  operandBatchingDims := []
  startIndicesBatchingDims := []
  startIndexMap := [0]
  indexVectorDim := 1
  sliceSizes := ![1, 256]
  wf := gather_S131040x256_S32768x1_S32768x256_1_0_n_n_0_1_1256_wf
def gather_S131040_S32768x1_S32768_n_0_n_n_0_1_1 : GatherDims S131040 S32768x1 S32768 where
  offsetDims := []
  collapsedSliceDims := [0]
  operandBatchingDims := []
  startIndicesBatchingDims := []
  startIndexMap := [0]
  indexVectorDim := 1
  sliceSizes := ![1]
  wf := gather_S131040_S32768x1_S32768_n_0_n_n_0_1_1_wf
def dot_S32768x256_S256x256_S32768x256_1_0_0_1_n_n : DotDims S32768x256 S256x256 S32768x256 where
  lhsContracting := [1]
  rhsContracting := [0]
  lhsNonContracting := [0]
  rhsNonContracting := [1]
  lhsBatch := []
  rhsBatch := []
  wf := dot_S32768x256_S256x256_S32768x256_1_0_0_1_n_n_wf
def scatter_S16384x256_S32768x1_S32768x256_1_0_0_1 : ScatterDims S16384x256 S32768x1 S32768x256 where
  updateWindowDims := [1]
  insertedWindowDims := [0]
  scatterDimsToOperandDims := [0]
  indexVectorDim := 1
  wf := scatter_S16384x256_S32768x1_S32768x256_1_0_0_1_wf
def dot_S16384x256_S256x768_S16384x768_1_0_0_1_n_n : DotDims S16384x256 S256x768 S16384x768 where
  lhsContracting := [1]
  rhsContracting := [0]
  lhsNonContracting := [0]
  rhsNonContracting := [1]
  lhsBatch := []
  rhsBatch := []
  wf := dot_S16384x256_S256x768_S16384x768_1_0_0_1_n_n_wf
def scatter_S131040x256_S16384x1_S16384x256_1_0_0_1 : ScatterDims S131040x256 S16384x1 S16384x256 where
  updateWindowDims := [1]
  insertedWindowDims := [0]
  scatterDimsToOperandDims := [0]
  indexVectorDim := 1
  wf := scatter_S131040x256_S16384x1_S16384x256_1_0_0_1_wf
def gather_S131040x768_S8192x1_S8192x768_1_0_n_n_0_1_1768 : GatherDims S131040x768 S8192x1 S8192x768 where
  offsetDims := [1]
  collapsedSliceDims := [0]
  operandBatchingDims := []
  startIndicesBatchingDims := []
  startIndexMap := [0]
  indexVectorDim := 1
  sliceSizes := ![1, 768]
  wf := gather_S131040x768_S8192x1_S8192x768_1_0_n_n_0_1_1768_wf
def gather_S131040x256_S16384x1_S16384x256_1_0_n_n_0_1_1256 : GatherDims S131040x256 S16384x1 S16384x256 where
  offsetDims := [1]
  collapsedSliceDims := [0]
  operandBatchingDims := []
  startIndicesBatchingDims := []
  startIndexMap := [0]
  indexVectorDim := 1
  sliceSizes := ![1, 256]
  wf := gather_S131040x256_S16384x1_S16384x256_1_0_n_n_0_1_1256_wf
def gather_S131040_S16384x1_S16384_n_0_n_n_0_1_1 : GatherDims S131040 S16384x1 S16384 where
  offsetDims := []
  collapsedSliceDims := [0]
  operandBatchingDims := []
  startIndicesBatchingDims := []
  startIndexMap := [0]
  indexVectorDim := 1
  sliceSizes := ![1]
  wf := gather_S131040_S16384x1_S16384_n_0_n_n_0_1_1_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def scatter_S8192x256_S16384x1_S16384x256_1_0_0_1 : ScatterDims S8192x256 S16384x1 S16384x256 where
  updateWindowDims := [1]
  insertedWindowDims := [0]
  scatterDimsToOperandDims := [0]
  indexVectorDim := 1
  wf := scatter_S8192x256_S16384x1_S16384x256_1_0_0_1_wf
def dot_S8192x256_S256x768_S8192x768_1_0_0_1_n_n : DotDims S8192x256 S256x768 S8192x768 where
  lhsContracting := [1]
  rhsContracting := [0]
  lhsNonContracting := [0]
  rhsNonContracting := [1]
  lhsBatch := []
  rhsBatch := []
  wf := dot_S8192x256_S256x768_S8192x768_1_0_0_1_n_n_wf
def scatter_S131040x256_S8192x1_S8192x256_1_0_0_1 : ScatterDims S131040x256 S8192x1 S8192x256 where
  updateWindowDims := [1]
  insertedWindowDims := [0]
  scatterDimsToOperandDims := [0]
  indexVectorDim := 1
  wf := scatter_S131040x256_S8192x1_S8192x256_1_0_0_1_wf
def gather_S131040x768_S4096x1_S4096x768_1_0_n_n_0_1_1768 : GatherDims S131040x768 S4096x1 S4096x768 where
  offsetDims := [1]
  collapsedSliceDims := [0]
  operandBatchingDims := []
  startIndicesBatchingDims := []
  startIndexMap := [0]
  indexVectorDim := 1
  sliceSizes := ![1, 768]
  wf := gather_S131040x768_S4096x1_S4096x768_1_0_n_n_0_1_1768_wf
def gather_S131040x256_S8192x1_S8192x256_1_0_n_n_0_1_1256 : GatherDims S131040x256 S8192x1 S8192x256 where
  offsetDims := [1]
  collapsedSliceDims := [0]
  operandBatchingDims := []
  startIndicesBatchingDims := []
  startIndexMap := [0]
  indexVectorDim := 1
  sliceSizes := ![1, 256]
  wf := gather_S131040x256_S8192x1_S8192x256_1_0_n_n_0_1_1256_wf
def gather_S131040_S8192x1_S8192_n_0_n_n_0_1_1 : GatherDims S131040 S8192x1 S8192 where
  offsetDims := []
  collapsedSliceDims := [0]
  operandBatchingDims := []
  startIndicesBatchingDims := []
  startIndexMap := [0]
  indexVectorDim := 1
  sliceSizes := ![1]
  wf := gather_S131040_S8192x1_S8192_n_0_n_n_0_1_1_wf
def dot_S8192x256_S256x256_S8192x256_1_0_0_1_n_n : DotDims S8192x256 S256x256 S8192x256 where
  lhsContracting := [1]
  rhsContracting := [0]
  lhsNonContracting := [0]
  rhsNonContracting := [1]
  lhsBatch := []
  rhsBatch := []
  wf := dot_S8192x256_S256x256_S8192x256_1_0_0_1_n_n_wf
def scatter_S4096x256_S8192x1_S8192x256_1_0_0_1 : ScatterDims S4096x256 S8192x1 S8192x256 where
  updateWindowDims := [1]
  insertedWindowDims := [0]
  scatterDimsToOperandDims := [0]
  indexVectorDim := 1
  wf := scatter_S4096x256_S8192x1_S8192x256_1_0_0_1_wf
def dot_S4096x256_S256x768_S4096x768_1_0_0_1_n_n : DotDims S4096x256 S256x768 S4096x768 where
  lhsContracting := [1]
  rhsContracting := [0]
  lhsNonContracting := [0]
  rhsNonContracting := [1]
  lhsBatch := []
  rhsBatch := []
  wf := dot_S4096x256_S256x768_S4096x768_1_0_0_1_n_n_wf
def scatter_S131040x256_S4096x1_S4096x256_1_0_0_1 : ScatterDims S131040x256 S4096x1 S4096x256 where
  updateWindowDims := [1]
  insertedWindowDims := [0]
  scatterDimsToOperandDims := [0]
  indexVectorDim := 1
  wf := scatter_S131040x256_S4096x1_S4096x256_1_0_0_1_wf
def gather_S131040x768_S2048x1_S2048x768_1_0_n_n_0_1_1768 : GatherDims S131040x768 S2048x1 S2048x768 where
  offsetDims := [1]
  collapsedSliceDims := [0]
  operandBatchingDims := []
  startIndicesBatchingDims := []
  startIndexMap := [0]
  indexVectorDim := 1
  sliceSizes := ![1, 768]
  wf := gather_S131040x768_S2048x1_S2048x768_1_0_n_n_0_1_1768_wf
def gather_S131040x256_S4096x1_S4096x256_1_0_n_n_0_1_1256 : GatherDims S131040x256 S4096x1 S4096x256 where
  offsetDims := [1]
  collapsedSliceDims := [0]
  operandBatchingDims := []
  startIndicesBatchingDims := []
  startIndexMap := [0]
  indexVectorDim := 1
  sliceSizes := ![1, 256]
  wf := gather_S131040x256_S4096x1_S4096x256_1_0_n_n_0_1_1256_wf
def gather_S131040_S4096x1_S4096_n_0_n_n_0_1_1 : GatherDims S131040 S4096x1 S4096 where
  offsetDims := []
  collapsedSliceDims := [0]
  operandBatchingDims := []
  startIndicesBatchingDims := []
  startIndexMap := [0]
  indexVectorDim := 1
  sliceSizes := ![1]
  wf := gather_S131040_S4096x1_S4096_n_0_n_n_0_1_1_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def scatter_S2048x256_S4096x1_S4096x256_1_0_0_1 : ScatterDims S2048x256 S4096x1 S4096x256 where
  updateWindowDims := [1]
  insertedWindowDims := [0]
  scatterDimsToOperandDims := [0]
  indexVectorDim := 1
  wf := scatter_S2048x256_S4096x1_S4096x256_1_0_0_1_wf
def dot_S2048x256_S256x768_S2048x768_1_0_0_1_n_n : DotDims S2048x256 S256x768 S2048x768 where
  lhsContracting := [1]
  rhsContracting := [0]
  lhsNonContracting := [0]
  rhsNonContracting := [1]
  lhsBatch := []
  rhsBatch := []
  wf := dot_S2048x256_S256x768_S2048x768_1_0_0_1_n_n_wf
def scatter_S131040x256_S2048x1_S2048x256_1_0_0_1 : ScatterDims S131040x256 S2048x1 S2048x256 where
  updateWindowDims := [1]
  insertedWindowDims := [0]
  scatterDimsToOperandDims := [0]
  indexVectorDim := 1
  wf := scatter_S131040x256_S2048x1_S2048x256_1_0_0_1_wf
def gather_S131040x768_S1024x1_S1024x768_1_0_n_n_0_1_1768 : GatherDims S131040x768 S1024x1 S1024x768 where
  offsetDims := [1]
  collapsedSliceDims := [0]
  operandBatchingDims := []
  startIndicesBatchingDims := []
  startIndexMap := [0]
  indexVectorDim := 1
  sliceSizes := ![1, 768]
  wf := gather_S131040x768_S1024x1_S1024x768_1_0_n_n_0_1_1768_wf
def gather_S131040x256_S2048x1_S2048x256_1_0_n_n_0_1_1256 : GatherDims S131040x256 S2048x1 S2048x256 where
  offsetDims := [1]
  collapsedSliceDims := [0]
  operandBatchingDims := []
  startIndicesBatchingDims := []
  startIndexMap := [0]
  indexVectorDim := 1
  sliceSizes := ![1, 256]
  wf := gather_S131040x256_S2048x1_S2048x256_1_0_n_n_0_1_1256_wf
def gather_S131040_S2048x1_S2048_n_0_n_n_0_1_1 : GatherDims S131040 S2048x1 S2048 where
  offsetDims := []
  collapsedSliceDims := [0]
  operandBatchingDims := []
  startIndicesBatchingDims := []
  startIndexMap := [0]
  indexVectorDim := 1
  sliceSizes := ![1]
  wf := gather_S131040_S2048x1_S2048_n_0_n_n_0_1_1_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def scatter_S1024x256_S2048x1_S2048x256_1_0_0_1 : ScatterDims S1024x256 S2048x1 S2048x256 where
  updateWindowDims := [1]
  insertedWindowDims := [0]
  scatterDimsToOperandDims := [0]
  indexVectorDim := 1
  wf := scatter_S1024x256_S2048x1_S2048x256_1_0_0_1_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def scatter_S131040x256_S1024x1_S1024x256_1_0_0_1 : ScatterDims S131040x256 S1024x1 S1024x256 where
  updateWindowDims := [1]
  insertedWindowDims := [0]
  scatterDimsToOperandDims := [0]
  indexVectorDim := 1
  wf := scatter_S131040x256_S1024x1_S1024x256_1_0_0_1_wf
def gather_S131040x768_S512x1_S512x768_1_0_n_n_0_1_1768 : GatherDims S131040x768 S512x1 S512x768 where
  offsetDims := [1]
  collapsedSliceDims := [0]
  operandBatchingDims := []
  startIndicesBatchingDims := []
  startIndexMap := [0]
  indexVectorDim := 1
  sliceSizes := ![1, 768]
  wf := gather_S131040x768_S512x1_S512x768_1_0_n_n_0_1_1768_wf
def gather_S131040x256_S1024x1_S1024x256_1_0_n_n_0_1_1256 : GatherDims S131040x256 S1024x1 S1024x256 where
  offsetDims := [1]
  collapsedSliceDims := [0]
  operandBatchingDims := []
  startIndicesBatchingDims := []
  startIndexMap := [0]
  indexVectorDim := 1
  sliceSizes := ![1, 256]
  wf := gather_S131040x256_S1024x1_S1024x256_1_0_n_n_0_1_1256_wf
def gather_S131040_S1024x1_S1024_n_0_n_n_0_1_1 : GatherDims S131040 S1024x1 S1024 where
  offsetDims := []
  collapsedSliceDims := [0]
  operandBatchingDims := []
  startIndicesBatchingDims := []
  startIndexMap := [0]
  indexVectorDim := 1
  sliceSizes := ![1]
  wf := gather_S131040_S1024x1_S1024_n_0_n_n_0_1_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def scatter_S512x256_S1024x1_S1024x256_1_0_0_1 : ScatterDims S512x256 S1024x1 S1024x256 where
  updateWindowDims := [1]
  insertedWindowDims := [0]
  scatterDimsToOperandDims := [0]
  indexVectorDim := 1
  wf := scatter_S512x256_S1024x1_S1024x256_1_0_0_1_wf
def dot_S512x256_S256x768_S512x768_1_0_0_1_n_n : DotDims S512x256 S256x768 S512x768 where
  lhsContracting := [1]
  rhsContracting := [0]
  lhsNonContracting := [0]
  rhsNonContracting := [1]
  lhsBatch := []
  rhsBatch := []
  wf := dot_S512x256_S256x768_S512x768_1_0_0_1_n_n_wf
def scatter_S131040x256_S512x1_S512x256_1_0_0_1 : ScatterDims S131040x256 S512x1 S512x256 where
  updateWindowDims := [1]
  insertedWindowDims := [0]
  scatterDimsToOperandDims := [0]
  indexVectorDim := 1
  wf := scatter_S131040x256_S512x1_S512x256_1_0_0_1_wf
def gather_S131040x768_S256x1_S256x768_1_0_n_n_0_1_1768 : GatherDims S131040x768 S256x1 S256x768 where
  offsetDims := [1]
  collapsedSliceDims := [0]
  operandBatchingDims := []
  startIndicesBatchingDims := []
  startIndexMap := [0]
  indexVectorDim := 1
  sliceSizes := ![1, 768]
  wf := gather_S131040x768_S256x1_S256x768_1_0_n_n_0_1_1768_wf
def gather_S131040x256_S512x1_S512x256_1_0_n_n_0_1_1256 : GatherDims S131040x256 S512x1 S512x256 where
  offsetDims := [1]
  collapsedSliceDims := [0]
  operandBatchingDims := []
  startIndicesBatchingDims := []
  startIndexMap := [0]
  indexVectorDim := 1
  sliceSizes := ![1, 256]
  wf := gather_S131040x256_S512x1_S512x256_1_0_n_n_0_1_1256_wf
def gather_S131040_S512x1_S512_n_0_n_n_0_1_1 : GatherDims S131040 S512x1 S512 where
  offsetDims := []
  collapsedSliceDims := [0]
  operandBatchingDims := []
  startIndicesBatchingDims := []
  startIndexMap := [0]
  indexVectorDim := 1
  sliceSizes := ![1]
  wf := gather_S131040_S512x1_S512_n_0_n_n_0_1_1_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def scatter_S256x256_S512x1_S512x256_1_0_0_1 : ScatterDims S256x256 S512x1 S512x256 where
  updateWindowDims := [1]
  insertedWindowDims := [0]
  scatterDimsToOperandDims := [0]
  indexVectorDim := 1
  wf := scatter_S256x256_S512x1_S512x256_1_0_0_1_wf
def dot_S256x256_S256x768_S256x768_1_0_0_1_n_n : DotDims S256x256 S256x768 S256x768 where
  lhsContracting := [1]
  rhsContracting := [0]
  lhsNonContracting := [0]
  rhsNonContracting := [1]
  lhsBatch := []
  rhsBatch := []
  wf := dot_S256x256_S256x768_S256x768_1_0_0_1_n_n_wf
def scatter_S131040x256_S256x1_S256x256_1_0_0_1 : ScatterDims S131040x256 S256x1 S256x256 where
  updateWindowDims := [1]
  insertedWindowDims := [0]
  scatterDimsToOperandDims := [0]
  indexVectorDim := 1
  wf := scatter_S131040x256_S256x1_S256x256_1_0_0_1_wf
def gather_S131040x768_S128x1_S128x768_1_0_n_n_0_1_1768 : GatherDims S131040x768 S128x1 S128x768 where
  offsetDims := [1]
  collapsedSliceDims := [0]
  operandBatchingDims := []
  startIndicesBatchingDims := []
  startIndexMap := [0]
  indexVectorDim := 1
  sliceSizes := ![1, 768]
  wf := gather_S131040x768_S128x1_S128x768_1_0_n_n_0_1_1768_wf
def gather_S131040x256_S256x1_S256x256_1_0_n_n_0_1_1256 : GatherDims S131040x256 S256x1 S256x256 where
  offsetDims := [1]
  collapsedSliceDims := [0]
  operandBatchingDims := []
  startIndicesBatchingDims := []
  startIndexMap := [0]
  indexVectorDim := 1
  sliceSizes := ![1, 256]
  wf := gather_S131040x256_S256x1_S256x256_1_0_n_n_0_1_1256_wf
def gather_S131040_S256x1_S256_n_0_n_n_0_1_1 : GatherDims S131040 S256x1 S256 where
  offsetDims := []
  collapsedSliceDims := [0]
  operandBatchingDims := []
  startIndicesBatchingDims := []
  startIndexMap := [0]
  indexVectorDim := 1
  sliceSizes := ![1]
  wf := gather_S131040_S256x1_S256_n_0_n_n_0_1_1_wf
def dot_S256x256_S256x256_S256x256_1_0_0_1_n_n : DotDims S256x256 S256x256 S256x256 where
  lhsContracting := [1]
  rhsContracting := [0]
  lhsNonContracting := [0]
  rhsNonContracting := [1]
  lhsBatch := []
  rhsBatch := []
  wf := dot_S256x256_S256x256_S256x256_1_0_0_1_n_n_wf
def scatter_S128x256_S256x1_S256x256_1_0_0_1 : ScatterDims S128x256 S256x1 S256x256 where
  updateWindowDims := [1]
  insertedWindowDims := [0]
  scatterDimsToOperandDims := [0]
  indexVectorDim := 1
  wf := scatter_S128x256_S256x1_S256x256_1_0_0_1_wf
def dot_S128x256_S256x768_S128x768_1_0_0_1_n_n : DotDims S128x256 S256x768 S128x768 where
  lhsContracting := [1]
  rhsContracting := [0]
  lhsNonContracting := [0]
  rhsNonContracting := [1]
  lhsBatch := []
  rhsBatch := []
  wf := dot_S128x256_S256x768_S128x768_1_0_0_1_n_n_wf
def scatter_S131040x256_S128x1_S128x256_1_0_0_1 : ScatterDims S131040x256 S128x1 S128x256 where
  updateWindowDims := [1]
  insertedWindowDims := [0]
  scatterDimsToOperandDims := [0]
  indexVectorDim := 1
  wf := scatter_S131040x256_S128x1_S128x256_1_0_0_1_wf
def gather_S131040x768_S64x1_S64x768_1_0_n_n_0_1_1768 : GatherDims S131040x768 S64x1 S64x768 where
  offsetDims := [1]
  collapsedSliceDims := [0]
  operandBatchingDims := []
  startIndicesBatchingDims := []
  startIndexMap := [0]
  indexVectorDim := 1
  sliceSizes := ![1, 768]
  wf := gather_S131040x768_S64x1_S64x768_1_0_n_n_0_1_1768_wf
def gather_S131040x256_S128x1_S128x256_1_0_n_n_0_1_1256 : GatherDims S131040x256 S128x1 S128x256 where
  offsetDims := [1]
  collapsedSliceDims := [0]
  operandBatchingDims := []
  startIndicesBatchingDims := []
  startIndexMap := [0]
  indexVectorDim := 1
  sliceSizes := ![1, 256]
  wf := gather_S131040x256_S128x1_S128x256_1_0_n_n_0_1_1256_wf
def gather_S131040_S128x1_S128_n_0_n_n_0_1_1 : GatherDims S131040 S128x1 S128 where
  offsetDims := []
  collapsedSliceDims := [0]
  operandBatchingDims := []
  startIndicesBatchingDims := []
  startIndexMap := [0]
  indexVectorDim := 1
  sliceSizes := ![1]
  wf := gather_S131040_S128x1_S128_n_0_n_n_0_1_1_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def scatter_S64x256_S128x1_S128x256_1_0_0_1 : ScatterDims S64x256 S128x1 S128x256 where
  updateWindowDims := [1]
  insertedWindowDims := [0]
  scatterDimsToOperandDims := [0]
  indexVectorDim := 1
  wf := scatter_S64x256_S128x1_S128x256_1_0_0_1_wf
def dot_S64x256_S256x768_S64x768_1_0_0_1_n_n : DotDims S64x256 S256x768 S64x768 where
  lhsContracting := [1]
  rhsContracting := [0]
  lhsNonContracting := [0]
  rhsNonContracting := [1]
  lhsBatch := []
  rhsBatch := []
  wf := dot_S64x256_S256x768_S64x768_1_0_0_1_n_n_wf
def scatter_S131040x256_S64x1_S64x256_1_0_0_1 : ScatterDims S131040x256 S64x1 S64x256 where
  updateWindowDims := [1]
  insertedWindowDims := [0]
  scatterDimsToOperandDims := [0]
  indexVectorDim := 1
  wf := scatter_S131040x256_S64x1_S64x256_1_0_0_1_wf
def gather_S131040x768_S32x1_S32x768_1_0_n_n_0_1_1768 : GatherDims S131040x768 S32x1 S32x768 where
  offsetDims := [1]
  collapsedSliceDims := [0]
  operandBatchingDims := []
  startIndicesBatchingDims := []
  startIndexMap := [0]
  indexVectorDim := 1
  sliceSizes := ![1, 768]
  wf := gather_S131040x768_S32x1_S32x768_1_0_n_n_0_1_1768_wf
def gather_S131040x256_S64x1_S64x256_1_0_n_n_0_1_1256 : GatherDims S131040x256 S64x1 S64x256 where
  offsetDims := [1]
  collapsedSliceDims := [0]
  operandBatchingDims := []
  startIndicesBatchingDims := []
  startIndexMap := [0]
  indexVectorDim := 1
  sliceSizes := ![1, 256]
  wf := gather_S131040x256_S64x1_S64x256_1_0_n_n_0_1_1256_wf
def gather_S131040_S64x1_S64_n_0_n_n_0_1_1 : GatherDims S131040 S64x1 S64 where
  offsetDims := []
  collapsedSliceDims := [0]
  operandBatchingDims := []
  startIndicesBatchingDims := []
  startIndexMap := [0]
  indexVectorDim := 1
  sliceSizes := ![1]
  wf := gather_S131040_S64x1_S64_n_0_n_n_0_1_1_wf
def dot_S64x256_S256x256_S64x256_1_0_0_1_n_n : DotDims S64x256 S256x256 S64x256 where
  lhsContracting := [1]
  rhsContracting := [0]
  lhsNonContracting := [0]
  rhsNonContracting := [1]
  lhsBatch := []
  rhsBatch := []
  wf := dot_S64x256_S256x256_S64x256_1_0_0_1_n_n_wf
def scatter_S32x256_S64x1_S64x256_1_0_0_1 : ScatterDims S32x256 S64x1 S64x256 where
  updateWindowDims := [1]
  insertedWindowDims := [0]
  scatterDimsToOperandDims := [0]
  indexVectorDim := 1
  wf := scatter_S32x256_S64x1_S64x256_1_0_0_1_wf
def dot_S32x256_S256x768_S32x768_1_0_0_1_n_n : DotDims S32x256 S256x768 S32x768 where
  lhsContracting := [1]
  rhsContracting := [0]
  lhsNonContracting := [0]
  rhsNonContracting := [1]
  lhsBatch := []
  rhsBatch := []
  wf := dot_S32x256_S256x768_S32x768_1_0_0_1_n_n_wf
def scatter_S131040x256_S32x1_S32x256_1_0_0_1 : ScatterDims S131040x256 S32x1 S32x256 where
  updateWindowDims := [1]
  insertedWindowDims := [0]
  scatterDimsToOperandDims := [0]
  indexVectorDim := 1
  wf := scatter_S131040x256_S32x1_S32x256_1_0_0_1_wf
def gather_S131040x256_S32x1_S32x256_1_0_n_n_0_1_1256 : GatherDims S131040x256 S32x1 S32x256 where
  offsetDims := [1]
  collapsedSliceDims := [0]
  operandBatchingDims := []
  startIndicesBatchingDims := []
  startIndexMap := [0]
  indexVectorDim := 1
  sliceSizes := ![1, 256]
  wf := gather_S131040x256_S32x1_S32x256_1_0_n_n_0_1_1256_wf
def dot_S32x256_S256x104_S32x104_1_0_0_1_n_n : DotDims S32x256 S256x104 S32x104 where
  lhsContracting := [1]
  rhsContracting := [0]
  lhsNonContracting := [0]
  rhsNonContracting := [1]
  lhsBatch := []
  rhsBatch := []
  wf := dot_S32x256_S256x104_S32x104_1_0_0_1_n_n_wf

class Facts : Prop extends Facts₀ where

variable [Facts]
-- ==== Proof.RefOpsS0.lean ====
/- The reference program's entry function as lists of host operations: some of the stretches between its calls, the called functions' bodies in place. -/
import proofs.«419362_j66683662237734_3_alg».proof.Proof.Gen.ReferenceIdeal
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

set_option maxHeartbeats 40000000 in  -- a long stretch: its list (or the term over it) exceeds the default budget
/-- 146 host operations of @main, in order. -/
abbrev hostOps0 : List (HloOp τ sig (Elt F)) :=
  ( StableHlo.nullary main_c (constantI S_ 32 19999#32)
  :: StableHlo.unary main_c main_v0 (broadcastInDim S1 ![] bcast_S_S1 : (⟨S_, .i32⟩ : BufTy).Contents (Elt F) → (⟨S1, .i32⟩ : BufTy).Contents (Elt F))
  :: StableHlo.nullary main_cst (constant S_ .f32 0x00000000#32)
  :: StableHlo.unary main_cst main_v1 (broadcastInDim S256 ![] bcast_S_S256 : (⟨S_, .f32⟩ : BufTy).Contents (Elt F) → (⟨S256, .f32⟩ : BufTy).Contents (Elt F))
  :: StableHlo.ternary main_arg2 main_v0 main_v1 main_v2 ((fun x i u => Host.scatter scatter_S20000x256_S1_S256_0_0_0_0 (fun _ b => b) x i u) : (⟨S20000x256, .f32⟩ : BufTy).Contents (Elt F) → (⟨S1, .i32⟩ : BufTy).Contents (Elt F) → (⟨S256, .f32⟩ : BufTy).Contents (Elt F) → (⟨S20000x256, .f32⟩ : BufTy).Contents (Elt F))
  :: StableHlo.nullary main_c_0 (constantI S_ 32 0#32)
  :: StableHlo.unary main_c_0 main_v3 (broadcastInDim S131040 ![] bcast_S_S131040 : (⟨S_, .i32⟩ : BufTy).Contents (Elt F) → (⟨S131040, .i32⟩ : BufTy).Contents (Elt F))
  :: StableHlo.binary main_arg0 main_v3 main_v4 (cmpi .slt : (⟨S131040, .i32⟩ : BufTy).Contents (Elt F) → (⟨S131040, .i32⟩ : BufTy).Contents (Elt F) → (⟨S131040, .i1⟩ : BufTy).Contents (Elt F))
  :: StableHlo.nullary main_c_1 (constantI S_ 32 20000#32)
  :: StableHlo.unary main_c_1 main_v5 (broadcastInDim S131040 ![] bcast_S_S131040 : (⟨S_, .i32⟩ : BufTy).Contents (Elt F) → (⟨S131040, .i32⟩ : BufTy).Contents (Elt F))
  :: StableHlo.binary main_arg0 main_v5 main_v6 (addi : (⟨S131040, .i32⟩ : BufTy).Contents (Elt F) → (⟨S131040, .i32⟩ : BufTy).Contents (Elt F) → (⟨S131040, .i32⟩ : BufTy).Contents (Elt F))
  :: StableHlo.ternary main_v4 main_v6 main_arg0 main_v7 (select : (⟨S131040, .i1⟩ : BufTy).Contents (Elt F) → (⟨S131040, .i32⟩ : BufTy).Contents (Elt F) → (⟨S131040, .i32⟩ : BufTy).Contents (Elt F) → (⟨S131040, .i32⟩ : BufTy).Contents (Elt F))
  :: StableHlo.unary main_v7 main_v8 (broadcastInDim S131040x1 ![0] bcast_S131040_S131040x1_0 : (⟨S131040, .i32⟩ : BufTy).Contents (Elt F) → (⟨S131040x1, .i32⟩ : BufTy).Contents (Elt F))
  :: StableHlo.binary main_v2 main_v8 main_v9 ((fun x i => Host.gather gather_S20000x256_S131040x1_S131040x256_1_0_n_n_0_1_1256 x i) : (⟨S20000x256, .f32⟩ : BufTy).Contents (Elt F) → (⟨S131040x1, .i32⟩ : BufTy).Contents (Elt F) → (⟨S131040x256, .f32⟩ : BufTy).Contents (Elt F))
  :: StableHlo.unary main_arg3 main_v10 ((transpose S256x768 [1, 0] · transposes_S768x256_S256x768_1_0) : (⟨S768x256, .f32⟩ : BufTy).Contents (Elt F) → (⟨S256x768, .f32⟩ : BufTy).Contents (Elt F))
  :: StableHlo.binary main_v9 main_v10 main_v11 ((fun l r => Host.dotGeneral dot_S131040x256_S256x768_S131040x768_1_0_0_1_n_n none l r) : (⟨S131040x256, .f32⟩ : BufTy).Contents (Elt F) → (⟨S256x768, .f32⟩ : BufTy).Contents (Elt F) → (⟨S131040x768, .f32⟩ : BufTy).Contents (Elt F))
  :: StableHlo.nullary main_cst_2 (constant S_ .f32 0x00000000#32)
  :: StableHlo.unary main_cst_2 main_v12 (broadcastInDim S131040x256 ![] bcast_S_S131040x256 : (⟨S_, .f32⟩ : BufTy).Contents (Elt F) → (⟨S131040x256, .f32⟩ : BufTy).Contents (Elt F))
  :: StableHlo.nullary main_cst_3 (constant S_ .f32 0x00000000#32)
  :: StableHlo.unary main_cst_3 main_v13 (broadcastInDim S131040x256 ![] bcast_S_S131040x256 : (⟨S_, .f32⟩ : BufTy).Contents (Elt F) → (⟨S131040x256, .f32⟩ : BufTy).Contents (Elt F))
  :: StableHlo.nullary main_v14 (iotaInDim S32 32 0)
  :: StableHlo.nullary main_c_4 (constantI S_ 32 4095#32)
  :: StableHlo.unary main_c_4 main_v15 (broadcastInDim S32 ![] bcast_S_S32 : (⟨S_, .i32⟩ : BufTy).Contents (Elt F) → (⟨S32, .i32⟩ : BufTy).Contents (Elt F))
  :: StableHlo.binary main_v14 main_v15 main_v16 (muli : (⟨S32, .i32⟩ : BufTy).Contents (Elt F) → (⟨S32, .i32⟩ : BufTy).Contents (Elt F) → (⟨S32, .i32⟩ : BufTy).Contents (Elt F))
  :: StableHlo.unary main_v16 main_v17 (broadcastInDim S32x1 ![0] bcast_S32_S32x1_0 : (⟨S32, .i32⟩ : BufTy).Contents (Elt F) → (⟨S32x1, .i32⟩ : BufTy).Contents (Elt F))
  :: StableHlo.nullary main_c_5 (constantI S_ 32 2047#32)
  :: StableHlo.unary main_c_5 main_v18 (broadcastInDim S32x1 ![] bcast_S_S32x1 : (⟨S_, .i32⟩ : BufTy).Contents (Elt F) → (⟨S32x1, .i32⟩ : BufTy).Contents (Elt F))
  :: StableHlo.binary main_v17 main_v18 main_v19 (addi : (⟨S32x1, .i32⟩ : BufTy).Contents (Elt F) → (⟨S32x1, .i32⟩ : BufTy).Contents (Elt F) → (⟨S32x1, .i32⟩ : BufTy).Contents (Elt F))
  :: StableHlo.nullary main_v20 (iotaInDim S2048 32 0)
  :: StableHlo.unary main_v20 main_v21 (broadcastInDim S1x2048 ![1] bcast_S2048_S1x2048_1 : (⟨S2048, .i32⟩ : BufTy).Contents (Elt F) → (⟨S1x2048, .i32⟩ : BufTy).Contents (Elt F))
  :: StableHlo.unary main_v19 main_v22 (broadcastInDim S32x2048 ![0, 1] bcast_S32x1_S32x2048_0_1 : (⟨S32x1, .i32⟩ : BufTy).Contents (Elt F) → (⟨S32x2048, .i32⟩ : BufTy).Contents (Elt F))
  :: StableHlo.unary main_v21 main_v23 (broadcastInDim S32x2048 ![0, 1] bcast_S1x2048_S32x2048_0_1 : (⟨S1x2048, .i32⟩ : BufTy).Contents (Elt F) → (⟨S32x2048, .i32⟩ : BufTy).Contents (Elt F))
  :: StableHlo.binary main_v22 main_v23 main_v24 (addi : (⟨S32x2048, .i32⟩ : BufTy).Contents (Elt F) → (⟨S32x2048, .i32⟩ : BufTy).Contents (Elt F) → (⟨S32x2048, .i32⟩ : BufTy).Contents (Elt F))
  :: StableHlo.reshape main_v24 main_v25 rfl shapeCasts_S32x2048_S65536
  :: StableHlo.nullary main_c_6 (constantI S_ 32 0#32)
  :: StableHlo.unary main_c_6 main_v26 (broadcastInDim S65536 ![] bcast_S_S65536 : (⟨S_, .i32⟩ : BufTy).Contents (Elt F) → (⟨S65536, .i32⟩ : BufTy).Contents (Elt F))
  :: StableHlo.binary main_v25 main_v26 main_v27 (cmpi .slt : (⟨S65536, .i32⟩ : BufTy).Contents (Elt F) → (⟨S65536, .i32⟩ : BufTy).Contents (Elt F) → (⟨S65536, .i1⟩ : BufTy).Contents (Elt F))
  :: StableHlo.nullary main_c_7 (constantI S_ 32 131040#32)
  :: StableHlo.unary main_c_7 main_v28 (broadcastInDim S65536 ![] bcast_S_S65536 : (⟨S_, .i32⟩ : BufTy).Contents (Elt F) → (⟨S65536, .i32⟩ : BufTy).Contents (Elt F))
  :: StableHlo.binary main_v25 main_v28 main_v29 (addi : (⟨S65536, .i32⟩ : BufTy).Contents (Elt F) → (⟨S65536, .i32⟩ : BufTy).Contents (Elt F) → (⟨S65536, .i32⟩ : BufTy).Contents (Elt F))
  :: StableHlo.ternary main_v27 main_v29 main_v25 main_v30 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v30 main_v31 (broadcastInDim S65536x1 ![0] bcast_S65536_S65536x1_0 : (⟨S65536, .i32⟩ : BufTy).Contents (Elt F) → (⟨S65536x1, .i32⟩ : BufTy).Contents (Elt F))
  :: StableHlo.binary main_v11 main_v31 main_v32 ((fun x i => Host.gather gather_S131040x768_S65536x1_S65536x768_1_0_n_n_0_1_1768 x i) : (⟨S131040x768, .f32⟩ : BufTy).Contents (Elt F) → (⟨S65536x1, .i32⟩ : BufTy).Contents (Elt F) → (⟨S65536x768, .f32⟩ : BufTy).Contents (Elt F))
  :: StableHlo.nullary main_cst_8 (constant S_ .f32 0x00000000#32)
  :: StableHlo.unary main_cst_8 main_v33 (broadcastInDim S65536x256 ![] bcast_S_S65536x256 : (⟨S_, .f32⟩ : BufTy).Contents (Elt F) → (⟨S65536x256, .f32⟩ : BufTy).Contents (Elt F))
  :: StableHlo.unary main_arg5 main_v34 (broadcastInDim S65536x768 ![0, 1] bcast_S1x768_S65536x768_0_1 : (⟨S1x768, .f32⟩ : BufTy).Contents (Elt F) → (⟨S65536x768, .f32⟩ : BufTy).Contents (Elt F))
  :: StableHlo.binary main_v32 main_v34 main_v35 (addf : (⟨S65536x768, .f32⟩ : BufTy).Contents (Elt F) → (⟨S65536x768, .f32⟩ : BufTy).Contents (Elt F) → (⟨S65536x768, .f32⟩ : BufTy).Contents (Elt F))
  :: StableHlo.unary main_v35 main_v36 ((extractStridedSlice S65536x256 ![0, 0] · slices_S65536x768_S65536x256_0_0) : (⟨S65536x768, .f32⟩ : BufTy).Contents (Elt F) → (⟨S65536x256, .f32⟩ : BufTy).Contents (Elt F))
  :: StableHlo.unary main_v35 main_v37 ((extractStridedSlice S65536x256 ![0, 256] · slices_S65536x768_S65536x256_0_256) : (⟨S65536x768, .f32⟩ : BufTy).Contents (Elt F) → (⟨S65536x256, .f32⟩ : BufTy).Contents (Elt F))
  :: StableHlo.unary main_v35 main_v38 ((extractStridedSlice S65536x256 ![0, 512] · slices_S65536x768_S65536x256_0_512) : (⟨S65536x768, .f32⟩ : BufTy).Contents (Elt F) → (⟨S65536x256, .f32⟩ : BufTy).Contents (Elt F))
  :: StableHlo.unary main_v36 main_v39 (Host.negf : (⟨S65536x256, .f32⟩ : BufTy).Contents (Elt F) → (⟨S65536x256, .f32⟩ : BufTy).Contents (Elt F))
  :: StableHlo.unary main_v39 main_v40 (Host.exp : (⟨S65536x256, .f32⟩ : BufTy).Contents (Elt F) → (⟨S65536x256, .f32⟩ : BufTy).Contents (Elt F))
  :: StableHlo.nullary main_cst_9 (constant S_ .f32 0x3F800000#32)
  :: StableHlo.unary main_cst_9 main_v41 (broadcastInDim S65536x256 ![] bcast_S_S65536x256 : (⟨S_, .f32⟩ : BufTy).Contents (Elt F) → (⟨S65536x256, .f32⟩ : BufTy).Contents (Elt F))
  :: StableHlo.binary main_v41 main_v40 main_v42 (addf : (⟨S65536x256, .f32⟩ : BufTy).Contents (Elt F) → (⟨S65536x256, .f32⟩ : BufTy).Contents (Elt F) → (⟨S65536x256, .f32⟩ : BufTy).Contents (Elt F))
  :: StableHlo.nullary main_cst_10 (constant S_ .f32 0x3F800000#32)
  :: StableHlo.unary main_cst_10 main_v43 (broadcastInDim S65536x256 ![] bcast_S_S65536x256 : (⟨S_, .f32⟩ : BufTy).Contents (Elt F) → (⟨S65536x256, .f32⟩ : BufTy).Contents (Elt F))
  :: StableHlo.binary main_v43 main_v42 main_v44 (Host.divf : (⟨S65536x256, .f32⟩ : BufTy).Contents (Elt F) → (⟨S65536x256, .f32⟩ : BufTy).Contents (Elt F) → (⟨S65536x256, .f32⟩ : BufTy).Contents (Elt F))
  :: StableHlo.unary main_v38 main_v45 (Host.tanh : (⟨S65536x256, .f32⟩ : BufTy).Contents (Elt F) → (⟨S65536x256, .f32⟩ : BufTy).Contents (Elt F))
  :: StableHlo.binary main_v44 main_v45 main_v46 (mulf : (⟨S65536x256, .f32⟩ : BufTy).Contents (Elt F) → (⟨S65536x256, .f32⟩ : BufTy).Contents (Elt F) → (⟨S65536x256, .f32⟩ : BufTy).Contents (Elt F))
  :: StableHlo.binary main_v46 main_v33 main_v47 (addf : (⟨S65536x256, .f32⟩ : BufTy).Contents (Elt F) → (⟨S65536x256, .f32⟩ : BufTy).Contents (Elt F) → (⟨S65536x256, .f32⟩ : BufTy).Contents (Elt F))
  :: StableHlo.unary main_v37 main_v48 (Host.negf : (⟨S65536x256, .f32⟩ : BufTy).Contents (Elt F) → (⟨S65536x256, .f32⟩ : BufTy).Contents (Elt F))
  :: StableHlo.unary main_v48 main_v49 (Host.exp : (⟨S65536x256, .f32⟩ : BufTy).Contents (Elt F) → (⟨S65536x256, .f32⟩ : BufTy).Contents (Elt F))
  :: StableHlo.nullary main_cst_11 (constant S_ .f32 0x3F800000#32)
  :: StableHlo.unary main_cst_11 main_v50 (broadcastInDim S65536x256 ![] bcast_S_S65536x256 : (⟨S_, .f32⟩ : BufTy).Contents (Elt F) → (⟨S65536x256, .f32⟩ : BufTy).Contents (Elt F))
  :: StableHlo.binary main_v50 main_v49 main_v51 (addf : (⟨S65536x256, .f32⟩ : BufTy).Contents (Elt F) → (⟨S65536x256, .f32⟩ : BufTy).Contents (Elt F) → (⟨S65536x256, .f32⟩ : BufTy).Contents (Elt F))
  :: StableHlo.nullary main_cst_12 (constant S_ .f32 0x3F800000#32)
  :: StableHlo.unary main_cst_12 main_v52 (broadcastInDim S65536x256 ![] bcast_S_S65536x256 : (⟨S_, .f32⟩ : BufTy).Contents (Elt F) → (⟨S65536x256, .f32⟩ : BufTy).Contents (Elt F))
  :: StableHlo.binary main_v52 main_v51 main_v53 (Host.divf : (⟨S65536x256, .f32⟩ : BufTy).Contents (Elt F) → (⟨S65536x256, .f32⟩ : BufTy).Contents (Elt F) → (⟨S65536x256, .f32⟩ : BufTy).Contents (Elt F))
  :: StableHlo.unary main_v47 main_v54 (Host.tanh : (⟨S65536x256, .f32⟩ : BufTy).Contents (Elt F) → (⟨S65536x256, .f32⟩ : BufTy).Contents (Elt F))
  :: StableHlo.binary main_v53 main_v54 main_v55 (mulf : (⟨S65536x256, .f32⟩ : BufTy).Contents (Elt F) → (⟨S65536x256, .f32⟩ : BufTy).Contents (Elt F) → (⟨S65536x256, .f32⟩ : BufTy).Contents (Elt F))
  :: StableHlo.nullary main_c_13 (constantI S_ 32 0#32)
  :: StableHlo.unary main_c_13 main_v56 (broadcastInDim S65536 ![] bcast_S_S65536 : (⟨S_, .i32⟩ : BufTy).Contents (Elt F) → (⟨S65536, .i32⟩ : BufTy).Contents (Elt F))
  :: StableHlo.binary main_v25 main_v56 main_v57 (cmpi .slt : (⟨S65536, .i32⟩ : BufTy).Contents (Elt F) → (⟨S65536, .i32⟩ : BufTy).Contents (Elt F) → (⟨S65536, .i1⟩ : BufTy).Contents (Elt F))
  :: StableHlo.nullary main_c_14 (constantI S_ 32 131040#32)
  :: StableHlo.unary main_c_14 main_v58 (broadcastInDim S65536 ![] bcast_S_S65536 : (⟨S_, .i32⟩ : BufTy).Contents (Elt F) → (⟨S65536, .i32⟩ : BufTy).Contents (Elt F))
  :: StableHlo.binary main_v25 main_v58 main_v59 (addi : (⟨S65536, .i32⟩ : BufTy).Contents (Elt F) → (⟨S65536, .i32⟩ : BufTy).Contents (Elt F) → (⟨S65536, .i32⟩ : BufTy).Contents (Elt F))
  :: StableHlo.ternary main_v57 main_v59 main_v25 main_v60 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v60 main_v61 (broadcastInDim S65536x1 ![0] bcast_S65536_S65536x1_0 : (⟨S65536, .i32⟩ : BufTy).Contents (Elt F) → (⟨S65536x1, .i32⟩ : BufTy).Contents (Elt F))
  :: StableHlo.ternary main_v12 main_v61 main_v55 main_v62 ((fun x i u => Host.scatter scatter_S131040x256_S65536x1_S65536x256_1_0_0_1 (fun _ b => b) x i u) : (⟨S131040x256, .f32⟩ : BufTy).Contents (Elt F) → (⟨S65536x1, .i32⟩ : BufTy).Contents (Elt F) → (⟨S65536x256, .f32⟩ : BufTy).Contents (Elt F) → (⟨S131040x256, .f32⟩ : BufTy).Contents (Elt F))
  :: StableHlo.nullary main_c_15 (constantI S_ 32 0#32)
  :: StableHlo.unary main_c_15 main_v63 (broadcastInDim S65536 ![] bcast_S_S65536 : (⟨S_, .i32⟩ : BufTy).Contents (Elt F) → (⟨S65536, .i32⟩ : BufTy).Contents (Elt F))
  :: StableHlo.binary main_v25 main_v63 main_v64 (cmpi .slt : (⟨S65536, .i32⟩ : BufTy).Contents (Elt F) → (⟨S65536, .i32⟩ : BufTy).Contents (Elt F) → (⟨S65536, .i1⟩ : BufTy).Contents (Elt F))
  :: StableHlo.nullary main_c_16 (constantI S_ 32 131040#32)
  :: StableHlo.unary main_c_16 main_v65 (broadcastInDim S65536 ![] bcast_S_S65536 : (⟨S_, .i32⟩ : BufTy).Contents (Elt F) → (⟨S65536, .i32⟩ : BufTy).Contents (Elt F))
  :: StableHlo.binary main_v25 main_v65 main_v66 (addi : (⟨S65536, .i32⟩ : BufTy).Contents (Elt F) → (⟨S65536, .i32⟩ : BufTy).Contents (Elt F) → (⟨S65536, .i32⟩ : BufTy).Contents (Elt F))
  :: StableHlo.ternary main_v64 main_v66 main_v25 main_v67 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v67 main_v68 (broadcastInDim S65536x1 ![0] bcast_S65536_S65536x1_0 : (⟨S65536, .i32⟩ : BufTy).Contents (Elt F) → (⟨S65536x1, .i32⟩ : BufTy).Contents (Elt F))
  :: StableHlo.ternary main_v13 main_v68 main_v47 main_v69 ((fun x i u => Host.scatter scatter_S131040x256_S65536x1_S65536x256_1_0_0_1 (fun _ b => b) x i u) : (⟨S131040x256, .f32⟩ : BufTy).Contents (Elt F) → (⟨S65536x1, .i32⟩ : BufTy).Contents (Elt F) → (⟨S65536x256, .f32⟩ : BufTy).Contents (Elt F) → (⟨S131040x256, .f32⟩ : BufTy).Contents (Elt F))
  :: StableHlo.unary main_v16 main_v70 (broadcastInDim S32x1 ![0] bcast_S32_S32x1_0 : (⟨S32, .i32⟩ : BufTy).Contents (Elt F) → (⟨S32x1, .i32⟩ : BufTy).Contents (Elt F))
  :: StableHlo.nullary main_c_17 (constantI S_ 32 1023#32)
  :: StableHlo.unary main_c_17 main_v71 (broadcastInDim S32x1 ![] bcast_S_S32x1 : (⟨S_, .i32⟩ : BufTy).Contents (Elt F) → (⟨S32x1, .i32⟩ : BufTy).Contents (Elt F))
  :: StableHlo.binary main_v70 main_v71 main_v72 (addi : (⟨S32x1, .i32⟩ : BufTy).Contents (Elt F) → (⟨S32x1, .i32⟩ : BufTy).Contents (Elt F) → (⟨S32x1, .i32⟩ : BufTy).Contents (Elt F))
  :: StableHlo.nullary main_v73 (iotaInDim S1024 32 0)
  :: StableHlo.unary main_v73 main_v74 (broadcastInDim S1x1024 ![1] bcast_S1024_S1x1024_1 : (⟨S1024, .i32⟩ : BufTy).Contents (Elt F) → (⟨S1x1024, .i32⟩ : BufTy).Contents (Elt F))
  :: StableHlo.unary main_v72 main_v75 (broadcastInDim S32x1024 ![0, 1] bcast_S32x1_S32x1024_0_1 : (⟨S32x1, .i32⟩ : BufTy).Contents (Elt F) → (⟨S32x1024, .i32⟩ : BufTy).Contents (Elt F))
  :: StableHlo.unary main_v74 main_v76 (broadcastInDim S32x1024 ![0, 1] bcast_S1x1024_S32x1024_0_1 : (⟨S1x1024, .i32⟩ : BufTy).Contents (Elt F) → (⟨S32x1024, .i32⟩ : BufTy).Contents (Elt F))
  :: StableHlo.binary main_v75 main_v76 main_v77 (addi : (⟨S32x1024, .i32⟩ : BufTy).Contents (Elt F) → (⟨S32x1024, .i32⟩ : BufTy).Contents (Elt F) → (⟨S32x1024, .i32⟩ : BufTy).Contents (Elt F))
  :: StableHlo.reshape main_v77 main_v78 rfl shapeCasts_S32x1024_S32768
  :: StableHlo.nullary main_c_18 (constantI S_ 32 0#32)
  :: StableHlo.unary main_c_18 main_v79 (broadcastInDim S32768 ![] bcast_S_S32768 : (⟨S_, .i32⟩ : BufTy).Contents (Elt F) → (⟨S32768, .i32⟩ : BufTy).Contents (Elt F))
  :: StableHlo.binary main_v78 main_v79 main_v80 (cmpi .slt : (⟨S32768, .i32⟩ : BufTy).Contents (Elt F) → (⟨S32768, .i32⟩ : BufTy).Contents (Elt F) → (⟨S32768, .i1⟩ : BufTy).Contents (Elt F))
  :: StableHlo.nullary main_c_19 (constantI S_ 32 131040#32)
  :: StableHlo.unary main_c_19 main_v81 (broadcastInDim S32768 ![] bcast_S_S32768 : (⟨S_, .i32⟩ : BufTy).Contents (Elt F) → (⟨S32768, .i32⟩ : BufTy).Contents (Elt F))
  :: StableHlo.binary main_v78 main_v81 main_v82 (addi : (⟨S32768, .i32⟩ : BufTy).Contents (Elt F) → (⟨S32768, .i32⟩ : BufTy).Contents (Elt F) → (⟨S32768, .i32⟩ : BufTy).Contents (Elt F))
  :: StableHlo.ternary main_v80 main_v82 main_v78 main_v83 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v83 main_v84 (broadcastInDim S32768x1 ![0] bcast_S32768_S32768x1_0 : (⟨S32768, .i32⟩ : BufTy).Contents (Elt F) → (⟨S32768x1, .i32⟩ : BufTy).Contents (Elt F))
  :: StableHlo.binary main_v11 main_v84 main_v85 ((fun x i => Host.gather gather_S131040x768_S32768x1_S32768x768_1_0_n_n_0_1_1768 x i) : (⟨S131040x768, .f32⟩ : BufTy).Contents (Elt F) → (⟨S32768x1, .i32⟩ : BufTy).Contents (Elt F) → (⟨S32768x768, .f32⟩ : BufTy).Contents (Elt F))
  :: StableHlo.unary main_v16 main_v86 (broadcastInDim S32x1 ![0] bcast_S32_S32x1_0 : (⟨S32, .i32⟩ : BufTy).Contents (Elt F) → (⟨S32x1, .i32⟩ : BufTy).Contents (Elt F))
  :: StableHlo.nullary main_c_20 (constantI S_ 32 2047#32)
  :: StableHlo.unary main_c_20 main_v87 (broadcastInDim S32x1 ![] bcast_S_S32x1 : (⟨S_, .i32⟩ : BufTy).Contents (Elt F) → (⟨S32x1, .i32⟩ : BufTy).Contents (Elt F))
  :: StableHlo.binary main_v86 main_v87 main_v88 (addi : (⟨S32x1, .i32⟩ : BufTy).Contents (Elt F) → (⟨S32x1, .i32⟩ : BufTy).Contents (Elt F) → (⟨S32x1, .i32⟩ : BufTy).Contents (Elt F))
  :: StableHlo.nullary main_v89 (iotaInDim S2048 32 0)
  :: StableHlo.unary main_v89 main_v90 (broadcastInDim S1x2048 ![1] bcast_S2048_S1x2048_1 : (⟨S2048, .i32⟩ : BufTy).Contents (Elt F) → (⟨S1x2048, .i32⟩ : BufTy).Contents (Elt F))
  :: StableHlo.unary main_v88 main_v91 (broadcastInDim S32x2048 ![0, 1] bcast_S32x1_S32x2048_0_1 : (⟨S32x1, .i32⟩ : BufTy).Contents (Elt F) → (⟨S32x2048, .i32⟩ : BufTy).Contents (Elt F))
  :: StableHlo.unary main_v90 main_v92 (broadcastInDim S32x2048 ![0, 1] bcast_S1x2048_S32x2048_0_1 : (⟨S1x2048, .i32⟩ : BufTy).Contents (Elt F) → (⟨S32x2048, .i32⟩ : BufTy).Contents (Elt F))
  :: StableHlo.binary main_v91 main_v92 main_v93 (addi : (⟨S32x2048, .i32⟩ : BufTy).Contents (Elt F) → (⟨S32x2048, .i32⟩ : BufTy).Contents (Elt F) → (⟨S32x2048, .i32⟩ : BufTy).Contents (Elt F))
  :: StableHlo.reshape main_v93 main_v94 rfl shapeCasts_S32x2048_S65536
  :: StableHlo.nullary main_c_21 (constantI S_ 32 0#32)
  :: StableHlo.unary main_c_21 main_v95 (broadcastInDim S65536 ![] bcast_S_S65536 : (⟨S_, .i32⟩ : BufTy).Contents (Elt F) → (⟨S65536, .i32⟩ : BufTy).Contents (Elt F))
  :: StableHlo.binary main_v94 main_v95 main_v96 (cmpi .slt : (⟨S65536, .i32⟩ : BufTy).Contents (Elt F) → (⟨S65536, .i32⟩ : BufTy).Contents (Elt F) → (⟨S65536, .i1⟩ : BufTy).Contents (Elt F))
  :: StableHlo.nullary main_c_22 (constantI S_ 32 131040#32)
  :: StableHlo.unary main_c_22 main_v97 (broadcastInDim S65536 ![] bcast_S_S65536 : (⟨S_, .i32⟩ : BufTy).Contents (Elt F) → (⟨S65536, .i32⟩ : BufTy).Contents (Elt F))
  :: StableHlo.binary main_v94 main_v97 main_v98 (addi : (⟨S65536, .i32⟩ : BufTy).Contents (Elt F) → (⟨S65536, .i32⟩ : BufTy).Contents (Elt F) → (⟨S65536, .i32⟩ : BufTy).Contents (Elt F))
  :: StableHlo.ternary main_v96 main_v98 main_v94 main_v99 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v99 main_v100 (broadcastInDim S65536x1 ![0] bcast_S65536_S65536x1_0 : (⟨S65536, .i32⟩ : BufTy).Contents (Elt F) → (⟨S65536x1, .i32⟩ : BufTy).Contents (Elt F))
  :: StableHlo.binary main_v62 main_v100 main_v101 ((fun x i => Host.gather gather_S131040x256_S65536x1_S65536x256_1_0_n_n_0_1_1256 x i) : (⟨S131040x256, .f32⟩ : BufTy).Contents (Elt F) → (⟨S65536x1, .i32⟩ : BufTy).Contents (Elt F) → (⟨S65536x256, .f32⟩ : BufTy).Contents (Elt F))
  :: StableHlo.nullary main_c_23 (constantI S_ 32 0#32)
  :: StableHlo.unary main_c_23 main_v102 (broadcastInDim S65536 ![] bcast_S_S65536 : (⟨S_, .i32⟩ : BufTy).Contents (Elt F) → (⟨S65536, .i32⟩ : BufTy).Contents (Elt F))
  :: StableHlo.binary main_v94 main_v102 main_v103 (cmpi .slt : (⟨S65536, .i32⟩ : BufTy).Contents (Elt F) → (⟨S65536, .i32⟩ : BufTy).Contents (Elt F) → (⟨S65536, .i1⟩ : BufTy).Contents (Elt F))
  :: StableHlo.nullary main_c_24 (constantI S_ 32 131040#32)
  :: StableHlo.unary main_c_24 main_v104 (broadcastInDim S65536 ![] bcast_S_S65536 : (⟨S_, .i32⟩ : BufTy).Contents (Elt F) → (⟨S65536, .i32⟩ : BufTy).Contents (Elt F))
  :: StableHlo.binary main_v94 main_v104 main_v105 (addi : (⟨S65536, .i32⟩ : BufTy).Contents (Elt F) → (⟨S65536, .i32⟩ : BufTy).Contents (Elt F) → (⟨S65536, .i32⟩ : BufTy).Contents (Elt F))
  :: StableHlo.ternary main_v103 main_v105 main_v94 main_v106 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v106 main_v107 (broadcastInDim S65536x1 ![0] bcast_S65536_S65536x1_0 : (⟨S65536, .i32⟩ : BufTy).Contents (Elt F) → (⟨S65536x1, .i32⟩ : BufTy).Contents (Elt F))
  :: StableHlo.binary main_v69 main_v107 main_v108 ((fun x i => Host.gather gather_S131040x256_S65536x1_S65536x256_1_0_n_n_0_1_1256 x i) : (⟨S131040x256, .f32⟩ : BufTy).Contents (Elt F) → (⟨S65536x1, .i32⟩ : BufTy).Contents (Elt F) → (⟨S65536x256, .f32⟩ : BufTy).Contents (Elt F))
  :: StableHlo.nullary main_c_25 (constantI S_ 32 0#32)
  :: StableHlo.unary main_c_25 main_v109 (broadcastInDim S65536 ![] bcast_S_S65536 : (⟨S_, .i32⟩ : BufTy).Contents (Elt F) → (⟨S65536, .i32⟩ : BufTy).Contents (Elt F))
  :: StableHlo.binary main_v94 main_v109 main_v110 (cmpi .slt : (⟨S65536, .i32⟩ : BufTy).Contents (Elt F) → (⟨S65536, .i32⟩ : BufTy).Contents (Elt F) → (⟨S65536, .i1⟩ : BufTy).Contents (Elt F))
  :: StableHlo.nullary main_c_26 (constantI S_ 32 131040#32)
  :: StableHlo.unary main_c_26 main_v111 (broadcastInDim S65536 ![] bcast_S_S65536 : (⟨S_, .i32⟩ : BufTy).Contents (Elt F) → (⟨S65536, .i32⟩ : BufTy).Contents (Elt F))
  :: StableHlo.binary main_v94 main_v111 main_v112 (addi : (⟨S65536, .i32⟩ : BufTy).Contents (Elt F) → (⟨S65536, .i32⟩ : BufTy).Contents (Elt F) → (⟨S65536, .i32⟩ : BufTy).Contents (Elt F))
  :: StableHlo.ternary main_v110 main_v112 main_v94 main_v113 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v113 main_v114 (broadcastInDim S65536x1 ![0] bcast_S65536_S65536x1_0 : (⟨S65536, .i32⟩ : BufTy).Contents (Elt F) → (⟨S65536x1, .i32⟩ : BufTy).Contents (Elt F))
  :: StableHlo.binary main_arg1 main_v114 main_v115 ((fun x i => Host.gather gather_S131040_S65536x1_S65536_n_0_n_n_0_1_1 x i) : (⟨S131040, .i32⟩ : BufTy).Contents (Elt F) → (⟨S65536x1, .i32⟩ : BufTy).Contents (Elt F) → (⟨S65536, .i32⟩ : BufTy).Contents (Elt F))
  :: StableHlo.nullary main_c_27 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide (main_call0), in order. -/
abbrev hostOps0_1 : List (HloOp τ sig (Elt F)) :=
  [ StableHlo.TRef.unary (.of main_c_27 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S65536, .i32⟩) (broadcastInDim S65536 ![] bcast_S_S65536),
    StableHlo.TRef.binary (.of main_v115 : StableHlo.TRef sig ⟨S65536, .i32⟩) (.of main_call0_v1 : StableHlo.TRef sig ⟨S65536, .i32⟩) (.of main_call0_v2 : StableHlo.TRef sig ⟨S65536, .i32⟩) Host.divsi,
    StableHlo.TRef.unary (.of main_v115 : StableHlo.TRef sig ⟨S65536, .i32⟩) (.of main_call0_v3 : StableHlo.TRef sig ⟨S65536, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S65536, .i32⟩) (broadcastInDim S65536 ![] bcast_S_S65536),
    StableHlo.TRef.binary (.of main_call0_v3 : StableHlo.TRef sig ⟨S65536, .i32⟩) (.of main_call0_v5 : StableHlo.TRef sig ⟨S65536, .i32⟩) (.of main_call0_v6 : StableHlo.TRef sig ⟨S65536, .i1⟩) (cmpi .ne),
    StableHlo.TRef.unary (.of main_call0_v0 : StableHlo.TRef sig ⟨S_, .i32⟩) (.of main_call0_v7 : StableHlo.TRef sig ⟨S65536, .i32⟩) (broadcastInDim S65536 ![] bcast_S_S65536),
    StableHlo.TRef.binary (.of main_v115 : StableHlo.TRef sig ⟨S65536, .i32⟩) (.of main_call0_v7 : StableHlo.TRef sig ⟨S65536, .i32⟩) (.of main_call0_v8 : StableHlo.TRef sig ⟨S65536, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S65536, .i32⟩) (broadcastInDim S65536 ![] bcast_S_S65536),
    StableHlo.TRef.binary (.of main_call0_v8 : StableHlo.TRef sig ⟨S65536, .i32⟩) (.of main_call0_v9 : StableHlo.TRef sig ⟨S65536, .i32⟩) (.of main_call0_v10 : StableHlo.TRef sig ⟨S65536, .i1⟩) (cmpi .ne),
    StableHlo.TRef.binary (.of main_call0_v6 : StableHlo.TRef sig ⟨S65536, .i1⟩) (.of main_call0_v10 : StableHlo.TRef sig ⟨S65536, .i1⟩) (.of main_call0_v11 : StableHlo.TRef sig ⟨S65536, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S65536, .i32⟩) (broadcastInDim S65536 ![] bcast_S_S65536),
    StableHlo.TRef.binary (.of main_call0_v2 : StableHlo.TRef sig ⟨S65536, .i32⟩) (.of main_call0_v12 : StableHlo.TRef sig ⟨S65536, .i32⟩) (.of main_call0_v13 : StableHlo.TRef sig ⟨S65536, .i32⟩) subi,
    StableHlo.TRef.ternary (.of main_call0_v11 : StableHlo.TRef sig ⟨S65536, .i1⟩) (.of main_call0_v13 : StableHlo.TRef sig ⟨S65536, .i32⟩) (.of main_call0_v2 : StableHlo.TRef sig ⟨S65536, .i32⟩) (.of main_v116 : StableHlo.TRef sig ⟨S65536, .i32⟩) select ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_2 : List (HloOp τ sig (Elt F)) :=
  [ StableHlo.nullary main_c_28 (constantI S_ 32 1024#32),
    StableHlo.unary main_c_28 main_v117 (broadcastInDim S65536 ![] bcast_S_S65536 : (⟨S_, .i32⟩ : BufTy).Contents (Elt F) → (⟨S65536, .i32⟩ : BufTy).Contents (Elt F)),
    StableHlo.binary main_v116 main_v117 main_v118 (muli : (⟨S65536, .i32⟩ : BufTy).Contents (Elt F) → (⟨S65536, .i32⟩ : BufTy).Contents (Elt F) → (⟨S65536, .i32⟩ : BufTy).Contents (Elt F)),
    StableHlo.nullary main_c_29 (constantI S_ 32 4095#32) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder (main_call1), in order. -/
abbrev hostOps0_3 : List (HloOp τ sig (Elt F)) :=
  [ StableHlo.TRef.unary (.of main_c_29 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S65536, .i32⟩) (broadcastInDim S65536 ![] bcast_S_S65536),
    StableHlo.TRef.binary (.of main_v115 : StableHlo.TRef sig ⟨S65536, .i32⟩) (.of main_call1_v3 : StableHlo.TRef sig ⟨S65536, .i32⟩) (.of main_call1_v4 : StableHlo.TRef sig ⟨S65536, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S65536, .i32⟩) (broadcastInDim S65536 ![] bcast_S_S65536),
    StableHlo.TRef.binary (.of main_call1_v4 : StableHlo.TRef sig ⟨S65536, .i32⟩) (.of main_call1_v5 : StableHlo.TRef sig ⟨S65536, .i32⟩) (.of main_call1_v6 : StableHlo.TRef sig ⟨S65536, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S65536, .i32⟩) (broadcastInDim S65536 ![] bcast_S_S65536),
    StableHlo.TRef.binary (.of main_call1_v4 : StableHlo.TRef sig ⟨S65536, .i32⟩) (.of main_call1_v7 : StableHlo.TRef sig ⟨S65536, .i32⟩) (.of main_call1_v8 : StableHlo.TRef sig ⟨S65536, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S65536, .i1⟩) (broadcastInDim S65536 ![] bcast_S_S65536),
    StableHlo.TRef.binary (.of main_call1_v8 : StableHlo.TRef sig ⟨S65536, .i1⟩) (.of main_call1_v10 : StableHlo.TRef sig ⟨S65536, .i1⟩) (.of main_call1_v11 : StableHlo.TRef sig ⟨S65536, .i1⟩) (cmpi .ne),
    StableHlo.TRef.binary (.of main_call1_v11 : StableHlo.TRef sig ⟨S65536, .i1⟩) (.of main_call1_v6 : StableHlo.TRef sig ⟨S65536, .i1⟩) (.of main_call1_v12 : StableHlo.TRef sig ⟨S65536, .i1⟩) andi,
    StableHlo.TRef.unary main_call1_call0.v0 (.of main_call1_v13 : StableHlo.TRef sig ⟨S65536, .i32⟩) (broadcastInDim S65536 ![] bcast_S_S65536),
    StableHlo.TRef.binary (.of main_call1_v4 : StableHlo.TRef sig ⟨S65536, .i32⟩) (.of main_call1_v13 : StableHlo.TRef sig ⟨S65536, .i32⟩) (.of main_call1_v14 : StableHlo.TRef sig ⟨S65536, .i32⟩) addi,
    StableHlo.TRef.ternary (.of main_call1_v12 : StableHlo.TRef sig ⟨S65536, .i1⟩) (.of main_call1_v14 : StableHlo.TRef sig ⟨S65536, .i32⟩) (.of main_call1_v4 : StableHlo.TRef sig ⟨S65536, .i32⟩) (.of main_v119 : StableHlo.TRef sig ⟨S65536, .i32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 130 host operations of @main, in order. -/
abbrev hostOps0_4 : List (HloOp τ sig (Elt F)) :=
  ( StableHlo.nullary main_c_30 (constantI S_ 32 1023#32)
  :: StableHlo.unary main_c_30 main_v120 (broadcastInDim S65536 ![] bcast_S_S65536 : (⟨S_, .i32⟩ : BufTy).Contents (Elt F) → (⟨S65536, .i32⟩ : BufTy).Contents (Elt F))
  :: StableHlo.binary main_v119 main_v120 main_v121 (subi : (⟨S65536, .i32⟩ : BufTy).Contents (Elt F) → (⟨S65536, .i32⟩ : BufTy).Contents (Elt F) → (⟨S65536, .i32⟩ : BufTy).Contents (Elt F))
  :: StableHlo.binary main_v118 main_v121 main_v122 (addi : (⟨S65536, .i32⟩ : BufTy).Contents (Elt F) → (⟨S65536, .i32⟩ : BufTy).Contents (Elt F) → (⟨S65536, .i32⟩ : BufTy).Contents (Elt F))
  :: StableHlo.unary main_arg6 main_v123 ((transpose S256x256 [1, 0] · transposes_S256x256_S256x256_1_0) : (⟨S256x256, .f32⟩ : BufTy).Contents (Elt F) → (⟨S256x256, .f32⟩ : BufTy).Contents (Elt F))
  :: StableHlo.binary main_v101 main_v123 main_v124 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F))
  :: StableHlo.unary main_arg7 main_v125 (broadcastInDim S1x256 ![1] bcast_S256_S1x256_1 : (⟨S256, .f32⟩ : BufTy).Contents (Elt F) → (⟨S1x256, .f32⟩ : BufTy).Contents (Elt F))
  :: StableHlo.unary main_v125 main_v126 (broadcastInDim S65536x256 ![0, 1] bcast_S1x256_S65536x256_0_1 : (⟨S1x256, .f32⟩ : BufTy).Contents (Elt F) → (⟨S65536x256, .f32⟩ : BufTy).Contents (Elt F))
  :: StableHlo.binary main_v124 main_v126 main_v127 (addf : (⟨S65536x256, .f32⟩ : BufTy).Contents (Elt F) → (⟨S65536x256, .f32⟩ : BufTy).Contents (Elt F) → (⟨S65536x256, .f32⟩ : BufTy).Contents (Elt F))
  :: StableHlo.unary main_v127 main_v128 (Host.negf : (⟨S65536x256, .f32⟩ : BufTy).Contents (Elt F) → (⟨S65536x256, .f32⟩ : BufTy).Contents (Elt F))
  :: StableHlo.unary main_v128 main_v129 (Host.exp : (⟨S65536x256, .f32⟩ : BufTy).Contents (Elt F) → (⟨S65536x256, .f32⟩ : BufTy).Contents (Elt F))
  :: StableHlo.nullary main_cst_31 (constant S_ .f32 0x3F800000#32)
  :: StableHlo.unary main_cst_31 main_v130 (broadcastInDim S65536x256 ![] bcast_S_S65536x256 : (⟨S_, .f32⟩ : BufTy).Contents (Elt F) → (⟨S65536x256, .f32⟩ : BufTy).Contents (Elt F))
  :: StableHlo.binary main_v130 main_v129 main_v131 (addf : (⟨S65536x256, .f32⟩ : BufTy).Contents (Elt F) → (⟨S65536x256, .f32⟩ : BufTy).Contents (Elt F) → (⟨S65536x256, .f32⟩ : BufTy).Contents (Elt F))
  :: StableHlo.nullary main_cst_32 (constant S_ .f32 0x3F800000#32)
  :: StableHlo.unary main_cst_32 main_v132 (broadcastInDim S65536x256 ![] bcast_S_S65536x256 : (⟨S_, .f32⟩ : BufTy).Contents (Elt F) → (⟨S65536x256, .f32⟩ : BufTy).Contents (Elt F))
  :: StableHlo.binary main_v132 main_v131 main_v133 (Host.divf : (⟨S65536x256, .f32⟩ : BufTy).Contents (Elt F) → (⟨S65536x256, .f32⟩ : BufTy).Contents (Elt F) → (⟨S65536x256, .f32⟩ : BufTy).Contents (Elt F))
  :: StableHlo.nullary main_cst_33 (constant S_ .f32 0x00000000#32)
  :: StableHlo.unary main_cst_33 main_v134 (broadcastInDim S32768x256 ![] bcast_S_S32768x256 : (⟨S_, .f32⟩ : BufTy).Contents (Elt F) → (⟨S32768x256, .f32⟩ : BufTy).Contents (Elt F))
  :: StableHlo.unary main_v122 main_v135 (broadcastInDim S65536x1 ![0] bcast_S65536_S65536x1_0 : (⟨S65536, .i32⟩ : BufTy).Contents (Elt F) → (⟨S65536x1, .i32⟩ : BufTy).Contents (Elt F))
  :: StableHlo.ternary main_v134 main_v135 main_v101 main_v136 ((fun x i u => Host.scatterAdd scatter_S32768x256_S65536x1_S65536x256_1_0_0_1 x i u) : (⟨S32768x256, .f32⟩ : BufTy).Contents (Elt F) → (⟨S65536x1, .i32⟩ : BufTy).Contents (Elt F) → (⟨S65536x256, .f32⟩ : BufTy).Contents (Elt F) → (⟨S32768x256, .f32⟩ : BufTy).Contents (Elt F))
  :: StableHlo.binary main_v133 main_v108 main_v137 (mulf : (⟨S65536x256, .f32⟩ : BufTy).Contents (Elt F) → (⟨S65536x256, .f32⟩ : BufTy).Contents (Elt F) → (⟨S65536x256, .f32⟩ : BufTy).Contents (Elt F))
  :: StableHlo.nullary main_cst_34 (constant S_ .f32 0x00000000#32)
  :: StableHlo.unary main_cst_34 main_v138 (broadcastInDim S32768x256 ![] bcast_S_S32768x256 : (⟨S_, .f32⟩ : BufTy).Contents (Elt F) → (⟨S32768x256, .f32⟩ : BufTy).Contents (Elt F))
  :: StableHlo.unary main_v122 main_v139 (broadcastInDim S65536x1 ![0] bcast_S65536_S65536x1_0 : (⟨S65536, .i32⟩ : BufTy).Contents (Elt F) → (⟨S65536x1, .i32⟩ : BufTy).Contents (Elt F))
  :: StableHlo.ternary main_v138 main_v139 main_v137 main_v140 ((fun x i u => Host.scatterAdd scatter_S32768x256_S65536x1_S65536x256_1_0_0_1 x i u) : (⟨S32768x256, .f32⟩ : BufTy).Contents (Elt F) → (⟨S65536x1, .i32⟩ : BufTy).Contents (Elt F) → (⟨S65536x256, .f32⟩ : BufTy).Contents (Elt F) → (⟨S32768x256, .f32⟩ : BufTy).Contents (Elt F))
  :: StableHlo.unary main_arg4 main_v141 ((transpose S256x768 [1, 0] · transposes_S768x256_S256x768_1_0) : (⟨S768x256, .f32⟩ : BufTy).Contents (Elt F) → (⟨S256x768, .f32⟩ : BufTy).Contents (Elt F))
  :: StableHlo.binary main_v136 main_v141 main_v142 ((fun l r => Host.dotGeneral dot_S32768x256_S256x768_S32768x768_1_0_0_1_n_n none l r) : (⟨S32768x256, .f32⟩ : BufTy).Contents (Elt F) → (⟨S256x768, .f32⟩ : BufTy).Contents (Elt F) → (⟨S32768x768, .f32⟩ : BufTy).Contents (Elt F))
  :: StableHlo.binary main_v85 main_v142 main_v143 (addf : (⟨S32768x768, .f32⟩ : BufTy).Contents (Elt F) → (⟨S32768x768, .f32⟩ : BufTy).Contents (Elt F) → (⟨S32768x768, .f32⟩ : BufTy).Contents (Elt F))
  :: StableHlo.unary main_arg5 main_v144 (broadcastInDim S32768x768 ![0, 1] bcast_S1x768_S32768x768_0_1 : (⟨S1x768, .f32⟩ : BufTy).Contents (Elt F) → (⟨S32768x768, .f32⟩ : BufTy).Contents (Elt F))
  :: StableHlo.binary main_v143 main_v144 main_v145 (addf : (⟨S32768x768, .f32⟩ : BufTy).Contents (Elt F) → (⟨S32768x768, .f32⟩ : BufTy).Contents (Elt F) → (⟨S32768x768, .f32⟩ : BufTy).Contents (Elt F))
  :: StableHlo.unary main_v145 main_v146 ((extractStridedSlice S32768x256 ![0, 0] · slices_S32768x768_S32768x256_0_0) : (⟨S32768x768, .f32⟩ : BufTy).Contents (Elt F) → (⟨S32768x256, .f32⟩ : BufTy).Contents (Elt F))
  :: StableHlo.unary main_v145 main_v147 ((extractStridedSlice S32768x256 ![0, 256] · slices_S32768x768_S32768x256_0_256) : (⟨S32768x768, .f32⟩ : BufTy).Contents (Elt F) → (⟨S32768x256, .f32⟩ : BufTy).Contents (Elt F))
  :: StableHlo.unary main_v145 main_v148 ((extractStridedSlice S32768x256 ![0, 512] · slices_S32768x768_S32768x256_0_512) : (⟨S32768x768, .f32⟩ : BufTy).Contents (Elt F) → (⟨S32768x256, .f32⟩ : BufTy).Contents (Elt F))
  :: StableHlo.unary main_v146 main_v149 (Host.negf : (⟨S32768x256, .f32⟩ : BufTy).Contents (Elt F) → (⟨S32768x256, .f32⟩ : BufTy).Contents (Elt F))
  :: StableHlo.unary main_v149 main_v150 (Host.exp : (⟨S32768x256, .f32⟩ : BufTy).Contents (Elt F) → (⟨S32768x256, .f32⟩ : BufTy).Contents (Elt F))
  :: StableHlo.nullary main_cst_35 (constant S_ .f32 0x3F800000#32)
  :: StableHlo.unary main_cst_35 main_v151 (broadcastInDim S32768x256 ![] bcast_S_S32768x256 : (⟨S_, .f32⟩ : BufTy).Contents (Elt F) → (⟨S32768x256, .f32⟩ : BufTy).Contents (Elt F))
  :: StableHlo.binary main_v151 main_v150 main_v152 (addf : (⟨S32768x256, .f32⟩ : BufTy).Contents (Elt F) → (⟨S32768x256, .f32⟩ : BufTy).Contents (Elt F) → (⟨S32768x256, .f32⟩ : BufTy).Contents (Elt F))
  :: StableHlo.nullary main_cst_36 (constant S_ .f32 0x3F800000#32)
  :: StableHlo.unary main_cst_36 main_v153 (broadcastInDim S32768x256 ![] bcast_S_S32768x256 : (⟨S_, .f32⟩ : BufTy).Contents (Elt F) → (⟨S32768x256, .f32⟩ : BufTy).Contents (Elt F))
  :: StableHlo.binary main_v153 main_v152 main_v154 (Host.divf : (⟨S32768x256, .f32⟩ : BufTy).Contents (Elt F) → (⟨S32768x256, .f32⟩ : BufTy).Contents (Elt F) → (⟨S32768x256, .f32⟩ : BufTy).Contents (Elt F))
  :: StableHlo.unary main_v148 main_v155 (Host.tanh : (⟨S32768x256, .f32⟩ : BufTy).Contents (Elt F) → (⟨S32768x256, .f32⟩ : BufTy).Contents (Elt F))
  :: StableHlo.binary main_v154 main_v155 main_v156 (mulf : (⟨S32768x256, .f32⟩ : BufTy).Contents (Elt F) → (⟨S32768x256, .f32⟩ : BufTy).Contents (Elt F) → (⟨S32768x256, .f32⟩ : BufTy).Contents (Elt F))
  :: StableHlo.binary main_v156 main_v140 main_v157 (addf : (⟨S32768x256, .f32⟩ : BufTy).Contents (Elt F) → (⟨S32768x256, .f32⟩ : BufTy).Contents (Elt F) → (⟨S32768x256, .f32⟩ : BufTy).Contents (Elt F))
  :: StableHlo.unary main_v147 main_v158 (Host.negf : (⟨S32768x256, .f32⟩ : BufTy).Contents (Elt F) → (⟨S32768x256, .f32⟩ : BufTy).Contents (Elt F))
  :: StableHlo.unary main_v158 main_v159 (Host.exp : (⟨S32768x256, .f32⟩ : BufTy).Contents (Elt F) → (⟨S32768x256, .f32⟩ : BufTy).Contents (Elt F))
  :: StableHlo.nullary main_cst_37 (constant S_ .f32 0x3F800000#32)
  :: StableHlo.unary main_cst_37 main_v160 (broadcastInDim S32768x256 ![] bcast_S_S32768x256 : (⟨S_, .f32⟩ : BufTy).Contents (Elt F) → (⟨S32768x256, .f32⟩ : BufTy).Contents (Elt F))
  :: StableHlo.binary main_v160 main_v159 main_v161 (addf : (⟨S32768x256, .f32⟩ : BufTy).Contents (Elt F) → (⟨S32768x256, .f32⟩ : BufTy).Contents (Elt F) → (⟨S32768x256, .f32⟩ : BufTy).Contents (Elt F))
  :: StableHlo.nullary main_cst_38 (constant S_ .f32 0x3F800000#32)
  :: StableHlo.unary main_cst_38 main_v162 (broadcastInDim S32768x256 ![] bcast_S_S32768x256 : (⟨S_, .f32⟩ : BufTy).Contents (Elt F) → (⟨S32768x256, .f32⟩ : BufTy).Contents (Elt F))
  :: StableHlo.binary main_v162 main_v161 main_v163 (Host.divf : (⟨S32768x256, .f32⟩ : BufTy).Contents (Elt F) → (⟨S32768x256, .f32⟩ : BufTy).Contents (Elt F) → (⟨S32768x256, .f32⟩ : BufTy).Contents (Elt F))
  :: StableHlo.unary main_v157 main_v164 (Host.tanh : (⟨S32768x256, .f32⟩ : BufTy).Contents (Elt F) → (⟨S32768x256, .f32⟩ : BufTy).Contents (Elt F))
  :: StableHlo.binary main_v163 main_v164 main_v165 (mulf : (⟨S32768x256, .f32⟩ : BufTy).Contents (Elt F) → (⟨S32768x256, .f32⟩ : BufTy).Contents (Elt F) → (⟨S32768x256, .f32⟩ : BufTy).Contents (Elt F))
  :: StableHlo.nullary main_c_39 (constantI S_ 32 0#32)
  :: StableHlo.unary main_c_39 main_v166 (broadcastInDim S32768 ![] bcast_S_S32768 : (⟨S_, .i32⟩ : BufTy).Contents (Elt F) → (⟨S32768, .i32⟩ : BufTy).Contents (Elt F))
  :: StableHlo.binary main_v78 main_v166 main_v167 (cmpi .slt : (⟨S32768, .i32⟩ : BufTy).Contents (Elt F) → (⟨S32768, .i32⟩ : BufTy).Contents (Elt F) → (⟨S32768, .i1⟩ : BufTy).Contents (Elt F))
  :: StableHlo.nullary main_c_40 (constantI S_ 32 131040#32)
  :: StableHlo.unary main_c_40 main_v168 (broadcastInDim S32768 ![] bcast_S_S32768 : (⟨S_, .i32⟩ : BufTy).Contents (Elt F) → (⟨S32768, .i32⟩ : BufTy).Contents (Elt F))
  :: StableHlo.binary main_v78 main_v168 main_v169 (addi : (⟨S32768, .i32⟩ : BufTy).Contents (Elt F) → (⟨S32768, .i32⟩ : BufTy).Contents (Elt F) → (⟨S32768, .i32⟩ : BufTy).Contents (Elt F))
  :: StableHlo.ternary main_v167 main_v169 main_v78 main_v170 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v170 main_v171 (broadcastInDim S32768x1 ![0] bcast_S32768_S32768x1_0 : (⟨S32768, .i32⟩ : BufTy).Contents (Elt F) → (⟨S32768x1, .i32⟩ : BufTy).Contents (Elt F))
  :: StableHlo.ternary main_v62 main_v171 main_v165 main_v172 ((fun x i u => Host.scatter scatter_S131040x256_S32768x1_S32768x256_1_0_0_1 (fun _ b => b) x i u) : (⟨S131040x256, .f32⟩ : BufTy).Contents (Elt F) → (⟨S32768x1, .i32⟩ : BufTy).Contents (Elt F) → (⟨S32768x256, .f32⟩ : BufTy).Contents (Elt F) → (⟨S131040x256, .f32⟩ : BufTy).Contents (Elt F))
  :: StableHlo.nullary main_c_41 (constantI S_ 32 0#32)
  :: StableHlo.unary main_c_41 main_v173 (broadcastInDim S32768 ![] bcast_S_S32768 : (⟨S_, .i32⟩ : BufTy).Contents (Elt F) → (⟨S32768, .i32⟩ : BufTy).Contents (Elt F))
  :: StableHlo.binary main_v78 main_v173 main_v174 (cmpi .slt : (⟨S32768, .i32⟩ : BufTy).Contents (Elt F) → (⟨S32768, .i32⟩ : BufTy).Contents (Elt F) → (⟨S32768, .i1⟩ : BufTy).Contents (Elt F))
  :: StableHlo.nullary main_c_42 (constantI S_ 32 131040#32)
  :: StableHlo.unary main_c_42 main_v175 (broadcastInDim S32768 ![] bcast_S_S32768 : (⟨S_, .i32⟩ : BufTy).Contents (Elt F) → (⟨S32768, .i32⟩ : BufTy).Contents (Elt F))
  :: StableHlo.binary main_v78 main_v175 main_v176 (addi : (⟨S32768, .i32⟩ : BufTy).Contents (Elt F) → (⟨S32768, .i32⟩ : BufTy).Contents (Elt F) → (⟨S32768, .i32⟩ : BufTy).Contents (Elt F))
  :: StableHlo.ternary main_v174 main_v176 main_v78 main_v177 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v177 main_v178 (broadcastInDim S32768x1 ![0] bcast_S32768_S32768x1_0 : (⟨S32768, .i32⟩ : BufTy).Contents (Elt F) → (⟨S32768x1, .i32⟩ : BufTy).Contents (Elt F))
  :: StableHlo.ternary main_v69 main_v178 main_v157 main_v179 ((fun x i u => Host.scatter scatter_S131040x256_S32768x1_S32768x256_1_0_0_1 (fun _ b => b) x i u) : (⟨S131040x256, .f32⟩ : BufTy).Contents (Elt F) → (⟨S32768x1, .i32⟩ : BufTy).Contents (Elt F) → (⟨S32768x256, .f32⟩ : BufTy).Contents (Elt F) → (⟨S131040x256, .f32⟩ : BufTy).Contents (Elt F))
  :: StableHlo.unary main_v16 main_v180 (broadcastInDim S32x1 ![0] bcast_S32_S32x1_0 : (⟨S32, .i32⟩ : BufTy).Contents (Elt F) → (⟨S32x1, .i32⟩ : BufTy).Contents (Elt F))
  :: StableHlo.nullary main_c_43 (constantI S_ 32 511#32)
  :: StableHlo.unary main_c_43 main_v181 (broadcastInDim S32x1 ![] bcast_S_S32x1 : (⟨S_, .i32⟩ : BufTy).Contents (Elt F) → (⟨S32x1, .i32⟩ : BufTy).Contents (Elt F))
  :: StableHlo.binary main_v180 main_v181 main_v182 (addi : (⟨S32x1, .i32⟩ : BufTy).Contents (Elt F) → (⟨S32x1, .i32⟩ : BufTy).Contents (Elt F) → (⟨S32x1, .i32⟩ : BufTy).Contents (Elt F))
  :: StableHlo.nullary main_v183 (iotaInDim S512 32 0)
  :: StableHlo.unary main_v183 main_v184 (broadcastInDim S1x512 ![1] bcast_S512_S1x512_1 : (⟨S512, .i32⟩ : BufTy).Contents (Elt F) → (⟨S1x512, .i32⟩ : BufTy).Contents (Elt F))
  :: StableHlo.unary main_v182 main_v185 (broadcastInDim S32x512 ![0, 1] bcast_S32x1_S32x512_0_1 : (⟨S32x1, .i32⟩ : BufTy).Contents (Elt F) → (⟨S32x512, .i32⟩ : BufTy).Contents (Elt F))
  :: StableHlo.unary main_v184 main_v186 (broadcastInDim S32x512 ![0, 1] bcast_S1x512_S32x512_0_1 : (⟨S1x512, .i32⟩ : BufTy).Contents (Elt F) → (⟨S32x512, .i32⟩ : BufTy).Contents (Elt F))
  :: StableHlo.binary main_v185 main_v186 main_v187 (addi : (⟨S32x512, .i32⟩ : BufTy).Contents (Elt F) → (⟨S32x512, .i32⟩ : BufTy).Contents (Elt F) → (⟨S32x512, .i32⟩ : BufTy).Contents (Elt F))
  :: StableHlo.reshape main_v187 main_v188 rfl shapeCasts_S32x512_S16384
  :: StableHlo.nullary main_c_44 (constantI S_ 32 0#32)
  :: StableHlo.unary main_c_44 main_v189 (broadcastInDim S16384 ![] bcast_S_S16384 : (⟨S_, .i32⟩ : BufTy).Contents (Elt F) → (⟨S16384, .i32⟩ : BufTy).Contents (Elt F))
  :: StableHlo.binary main_v188 main_v189 main_v190 (cmpi .slt : (⟨S16384, .i32⟩ : BufTy).Contents (Elt F) → (⟨S16384, .i32⟩ : BufTy).Contents (Elt F) → (⟨S16384, .i1⟩ : BufTy).Contents (Elt F))
  :: StableHlo.nullary main_c_45 (constantI S_ 32 131040#32)
  :: StableHlo.unary main_c_45 main_v191 (broadcastInDim S16384 ![] bcast_S_S16384 : (⟨S_, .i32⟩ : BufTy).Contents (Elt F) → (⟨S16384, .i32⟩ : BufTy).Contents (Elt F))
  :: StableHlo.binary main_v188 main_v191 main_v192 (addi : (⟨S16384, .i32⟩ : BufTy).Contents (Elt F) → (⟨S16384, .i32⟩ : BufTy).Contents (Elt F) → (⟨S16384, .i32⟩ : BufTy).Contents (Elt F))
  :: StableHlo.ternary main_v190 main_v192 main_v188 main_v193 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v193 main_v194 (broadcastInDim S16384x1 ![0] bcast_S16384_S16384x1_0 : (⟨S16384, .i32⟩ : BufTy).Contents (Elt F) → (⟨S16384x1, .i32⟩ : BufTy).Contents (Elt F))
  :: StableHlo.binary main_v11 main_v194 main_v195 ((fun x i => Host.gather gather_S131040x768_S16384x1_S16384x768_1_0_n_n_0_1_1768 x i) : (⟨S131040x768, .f32⟩ : BufTy).Contents (Elt F) → (⟨S16384x1, .i32⟩ : BufTy).Contents (Elt F) → (⟨S16384x768, .f32⟩ : BufTy).Contents (Elt F))
  :: StableHlo.unary main_v16 main_v196 (broadcastInDim S32x1 ![0] bcast_S32_S32x1_0 : (⟨S32, .i32⟩ : BufTy).Contents (Elt F) → (⟨S32x1, .i32⟩ : BufTy).Contents (Elt F))
  :: StableHlo.nullary main_c_46 (constantI S_ 32 1023#32)
  :: StableHlo.unary main_c_46 main_v197 (broadcastInDim S32x1 ![] bcast_S_S32x1 : (⟨S_, .i32⟩ : BufTy).Contents (Elt F) → (⟨S32x1, .i32⟩ : BufTy).Contents (Elt F))
  :: StableHlo.binary main_v196 main_v197 main_v198 (addi : (⟨S32x1, .i32⟩ : BufTy).Contents (Elt F) → (⟨S32x1, .i32⟩ : BufTy).Contents (Elt F) → (⟨S32x1, .i32⟩ : BufTy).Contents (Elt F))
  :: StableHlo.nullary main_v199 (iotaInDim S1024 32 0)
  :: StableHlo.unary main_v199 main_v200 (broadcastInDim S1x1024 ![1] bcast_S1024_S1x1024_1 : (⟨S1024, .i32⟩ : BufTy).Contents (Elt F) → (⟨S1x1024, .i32⟩ : BufTy).Contents (Elt F))
  :: StableHlo.unary main_v198 main_v201 (broadcastInDim S32x1024 ![0, 1] bcast_S32x1_S32x1024_0_1 : (⟨S32x1, .i32⟩ : BufTy).Contents (Elt F) → (⟨S32x1024, .i32⟩ : BufTy).Contents (Elt F))
  :: StableHlo.unary main_v200 main_v202 (broadcastInDim S32x1024 ![0, 1] bcast_S1x1024_S32x1024_0_1 : (⟨S1x1024, .i32⟩ : BufTy).Contents (Elt F) → (⟨S32x1024, .i32⟩ : BufTy).Contents (Elt F))
  :: StableHlo.binary main_v201 main_v202 main_v203 (addi : (⟨S32x1024, .i32⟩ : BufTy).Contents (Elt F) → (⟨S32x1024, .i32⟩ : BufTy).Contents (Elt F) → (⟨S32x1024, .i32⟩ : BufTy).Contents (Elt F))
  :: StableHlo.reshape main_v203 main_v204 rfl shapeCasts_S32x1024_S32768
  :: StableHlo.nullary main_c_47 (constantI S_ 32 0#32)
  :: StableHlo.unary main_c_47 main_v205 (broadcastInDim S32768 ![] bcast_S_S32768 : (⟨S_, .i32⟩ : BufTy).Contents (Elt F) → (⟨S32768, .i32⟩ : BufTy).Contents (Elt F))
  :: StableHlo.binary main_v204 main_v205 main_v206 (cmpi .slt : (⟨S32768, .i32⟩ : BufTy).Contents (Elt F) → (⟨S32768, .i32⟩ : BufTy).Contents (Elt F) → (⟨S32768, .i1⟩ : BufTy).Contents (Elt F))
  :: StableHlo.nullary main_c_48 (constantI S_ 32 131040#32)
  :: StableHlo.unary main_c_48 main_v207 (broadcastInDim S32768 ![] bcast_S_S32768 : (⟨S_, .i32⟩ : BufTy).Contents (Elt F) → (⟨S32768, .i32⟩ : BufTy).Contents (Elt F))
  :: StableHlo.binary main_v204 main_v207 main_v208 (addi : (⟨S32768, .i32⟩ : BufTy).Contents (Elt F) → (⟨S32768, .i32⟩ : BufTy).Contents (Elt F) → (⟨S32768, .i32⟩ : BufTy).Contents (Elt F))
  :: StableHlo.ternary main_v206 main_v208 main_v204 main_v209 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v209 main_v210 (broadcastInDim S32768x1 ![0] bcast_S32768_S32768x1_0 : (⟨S32768, .i32⟩ : BufTy).Contents (Elt F) → (⟨S32768x1, .i32⟩ : BufTy).Contents (Elt F))
  :: StableHlo.binary main_v172 main_v210 main_v211 ((fun x i => Host.gather gather_S131040x256_S32768x1_S32768x256_1_0_n_n_0_1_1256 x i) : (⟨S131040x256, .f32⟩ : BufTy).Contents (Elt F) → (⟨S32768x1, .i32⟩ : BufTy).Contents (Elt F) → (⟨S32768x256, .f32⟩ : BufTy).Contents (Elt F))
  :: StableHlo.nullary main_c_49 (constantI S_ 32 0#32)
  :: StableHlo.unary main_c_49 main_v212 (broadcastInDim S32768 ![] bcast_S_S32768 : (⟨S_, .i32⟩ : BufTy).Contents (Elt F) → (⟨S32768, .i32⟩ : BufTy).Contents (Elt F))
  :: StableHlo.binary main_v204 main_v212 main_v213 (cmpi .slt : (⟨S32768, .i32⟩ : BufTy).Contents (Elt F) → (⟨S32768, .i32⟩ : BufTy).Contents (Elt F) → (⟨S32768, .i1⟩ : BufTy).Contents (Elt F))
  :: StableHlo.nullary main_c_50 (constantI S_ 32 131040#32)
  :: StableHlo.unary main_c_50 main_v214 (broadcastInDim S32768 ![] bcast_S_S32768 : (⟨S_, .i32⟩ : BufTy).Contents (Elt F) → (⟨S32768, .i32⟩ : BufTy).Contents (Elt F))
  :: StableHlo.binary main_v204 main_v214 main_v215 (addi : (⟨S32768, .i32⟩ : BufTy).Contents (Elt F) → (⟨S32768, .i32⟩ : BufTy).Contents (Elt F) → (⟨S32768, .i32⟩ : BufTy).Contents (Elt F))
  :: StableHlo.ternary main_v213 main_v215 main_v204 main_v216 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v216 main_v217 (broadcastInDim S32768x1 ![0] bcast_S32768_S32768x1_0 : (⟨S32768, .i32⟩ : BufTy).Contents (Elt F) → (⟨S32768x1, .i32⟩ : BufTy).Contents (Elt F))
  :: StableHlo.binary main_v179 main_v217 main_v218 ((fun x i => Host.gather gather_S131040x256_S32768x1_S32768x256_1_0_n_n_0_1_1256 x i) : (⟨S131040x256, .f32⟩ : BufTy).Contents (Elt F) → (⟨S32768x1, .i32⟩ : BufTy).Contents (Elt F) → (⟨S32768x256, .f32⟩ : BufTy).Contents (Elt F))
  :: StableHlo.nullary main_c_51 (constantI S_ 32 0#32)
  :: StableHlo.unary main_c_51 main_v219 (broadcastInDim S32768 ![] bcast_S_S32768 : (⟨S_, .i32⟩ : BufTy).Contents (Elt F) → (⟨S32768, .i32⟩ : BufTy).Contents (Elt F))
  :: StableHlo.binary main_v204 main_v219 main_v220 (cmpi .slt : (⟨S32768, .i32⟩ : BufTy).Contents (Elt F) → (⟨S32768, .i32⟩ : BufTy).Contents (Elt F) → (⟨S32768, .i1⟩ : BufTy).Contents (Elt F))
  :: StableHlo.nullary main_c_52 (constantI S_ 32 131040#32)
  :: StableHlo.unary main_c_52 main_v221 (broadcastInDim S32768 ![] bcast_S_S32768 : (⟨S_, .i32⟩ : BufTy).Contents (Elt F) → (⟨S32768, .i32⟩ : BufTy).Contents (Elt F))
  :: StableHlo.binary main_v204 main_v221 main_v222 (addi : (⟨S32768, .i32⟩ : BufTy).Contents (Elt F) → (⟨S32768, .i32⟩ : BufTy).Contents (Elt F) → (⟨S32768, .i32⟩ : BufTy).Contents (Elt F))
  :: StableHlo.ternary main_v220 main_v222 main_v204 main_v223 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v223 main_v224 (broadcastInDim S32768x1 ![0] bcast_S32768_S32768x1_0 : (⟨S32768, .i32⟩ : BufTy).Contents (Elt F) → (⟨S32768x1, .i32⟩ : BufTy).Contents (Elt F))
  :: StableHlo.binary main_arg1 main_v224 main_v225 ((fun x i => Host.gather gather_S131040_S32768x1_S32768_n_0_n_n_0_1_1 x i) : (⟨S131040, .i32⟩ : BufTy).Contents (Elt F) → (⟨S32768x1, .i32⟩ : BufTy).Contents (Elt F) → (⟨S32768, .i32⟩ : BufTy).Contents (Elt F))
  :: StableHlo.nullary main_c_53 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_1 (main_call2), in order. -/
abbrev hostOps0_5 : List (HloOp τ sig (Elt F)) :=
  [ StableHlo.TRef.unary (.of main_c_53 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S32768, .i32⟩) (broadcastInDim S32768 ![] bcast_S_S32768),
    StableHlo.TRef.binary (.of main_v225 : StableHlo.TRef sig ⟨S32768, .i32⟩) (.of main_call2_v1 : StableHlo.TRef sig ⟨S32768, .i32⟩) (.of main_call2_v2 : StableHlo.TRef sig ⟨S32768, .i32⟩) Host.divsi,
    StableHlo.TRef.unary (.of main_v225 : StableHlo.TRef sig ⟨S32768, .i32⟩) (.of main_call2_v3 : StableHlo.TRef sig ⟨S32768, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S32768, .i32⟩) (broadcastInDim S32768 ![] bcast_S_S32768),
    StableHlo.TRef.binary (.of main_call2_v3 : StableHlo.TRef sig ⟨S32768, .i32⟩) (.of main_call2_v5 : StableHlo.TRef sig ⟨S32768, .i32⟩) (.of main_call2_v6 : StableHlo.TRef sig ⟨S32768, .i1⟩) (cmpi .ne),
    StableHlo.TRef.unary (.of main_call2_v0 : StableHlo.TRef sig ⟨S_, .i32⟩) (.of main_call2_v7 : StableHlo.TRef sig ⟨S32768, .i32⟩) (broadcastInDim S32768 ![] bcast_S_S32768),
    StableHlo.TRef.binary (.of main_v225 : StableHlo.TRef sig ⟨S32768, .i32⟩) (.of main_call2_v7 : StableHlo.TRef sig ⟨S32768, .i32⟩) (.of main_call2_v8 : StableHlo.TRef sig ⟨S32768, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S32768, .i32⟩) (broadcastInDim S32768 ![] bcast_S_S32768),
    StableHlo.TRef.binary (.of main_call2_v8 : StableHlo.TRef sig ⟨S32768, .i32⟩) (.of main_call2_v9 : StableHlo.TRef sig ⟨S32768, .i32⟩) (.of main_call2_v10 : StableHlo.TRef sig ⟨S32768, .i1⟩) (cmpi .ne),
    StableHlo.TRef.binary (.of main_call2_v6 : StableHlo.TRef sig ⟨S32768, .i1⟩) (.of main_call2_v10 : StableHlo.TRef sig ⟨S32768, .i1⟩) (.of main_call2_v11 : StableHlo.TRef sig ⟨S32768, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S32768, .i32⟩) (broadcastInDim S32768 ![] bcast_S_S32768),
    StableHlo.TRef.binary (.of main_call2_v2 : StableHlo.TRef sig ⟨S32768, .i32⟩) (.of main_call2_v12 : StableHlo.TRef sig ⟨S32768, .i32⟩) (.of main_call2_v13 : StableHlo.TRef sig ⟨S32768, .i32⟩) subi,
    StableHlo.TRef.ternary (.of main_call2_v11 : StableHlo.TRef sig ⟨S32768, .i1⟩) (.of main_call2_v13 : StableHlo.TRef sig ⟨S32768, .i32⟩) (.of main_call2_v2 : StableHlo.TRef sig ⟨S32768, .i32⟩) (.of main_v226 : StableHlo.TRef sig ⟨S32768, .i32⟩) select ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_6 : List (HloOp τ sig (Elt F)) :=
  [ StableHlo.nullary main_c_54 (constantI S_ 32 512#32),
    StableHlo.unary main_c_54 main_v227 (broadcastInDim S32768 ![] bcast_S_S32768 : (⟨S_, .i32⟩ : BufTy).Contents (Elt F) → (⟨S32768, .i32⟩ : BufTy).Contents (Elt F)),
    StableHlo.binary main_v226 main_v227 main_v228 (muli : (⟨S32768, .i32⟩ : BufTy).Contents (Elt F) → (⟨S32768, .i32⟩ : BufTy).Contents (Elt F) → (⟨S32768, .i32⟩ : BufTy).Contents (Elt F)),
    StableHlo.nullary main_c_55 (constantI S_ 32 4095#32) ]
/-- Each touches TensorCore references only (`HostSeg.ofOps` over `StableHlo.tcRefs`, or a subset by `sub_ucRefs`). -/
theorem hostOps0_6_sub : (hostOps0_6 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_3 (main_call3), in order. -/
abbrev hostOps0_7 : List (HloOp τ sig (Elt F)) :=
  [ StableHlo.TRef.unary (.of main_c_55 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary main_call3_call0.v0 (.of main_call3_v3 : StableHlo.TRef sig ⟨S32768, .i32⟩) (broadcastInDim S32768 ![] bcast_S_S32768),
    StableHlo.TRef.binary (.of main_v225 : StableHlo.TRef sig ⟨S32768, .i32⟩) (.of main_call3_v3 : StableHlo.TRef sig ⟨S32768, .i32⟩) (.of main_call3_v4 : StableHlo.TRef sig ⟨S32768, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S32768, .i32⟩) (broadcastInDim S32768 ![] bcast_S_S32768),
    StableHlo.TRef.binary (.of main_call3_v4 : StableHlo.TRef sig ⟨S32768, .i32⟩) (.of main_call3_v5 : StableHlo.TRef sig ⟨S32768, .i32⟩) (.of main_call3_v6 : StableHlo.TRef sig ⟨S32768, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S32768, .i32⟩) (broadcastInDim S32768 ![] bcast_S_S32768),
    StableHlo.TRef.binary (.of main_call3_v4 : StableHlo.TRef sig ⟨S32768, .i32⟩) (.of main_call3_v7 : StableHlo.TRef sig ⟨S32768, .i32⟩) (.of main_call3_v8 : StableHlo.TRef sig ⟨S32768, .i1⟩) (cmpi .slt),
    StableHlo.TRef.nullary (.of main_call3_c_3 : StableHlo.TRef sig ⟨S_, .i32⟩) (constantI S_ 32 0#32),
    StableHlo.TRef.binary main_call3_call0.v0 (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S32768, .i1⟩) (broadcastInDim S32768 ![] bcast_S_S32768),
    StableHlo.TRef.binary (.of main_call3_v8 : StableHlo.TRef sig ⟨S32768, .i1⟩) (.of main_call3_v10 : StableHlo.TRef sig ⟨S32768, .i1⟩) (.of main_call3_v11 : StableHlo.TRef sig ⟨S32768, .i1⟩) (cmpi .ne),
    StableHlo.TRef.binary (.of main_call3_v11 : StableHlo.TRef sig ⟨S32768, .i1⟩) (.of main_call3_v6 : StableHlo.TRef sig ⟨S32768, .i1⟩) (.of main_call3_v12 : StableHlo.TRef sig ⟨S32768, .i1⟩) andi,
    StableHlo.TRef.unary main_call3_call0.v0 (.of main_call3_v13 : StableHlo.TRef sig ⟨S32768, .i32⟩) (broadcastInDim S32768 ![] bcast_S_S32768),
    StableHlo.TRef.binary (.of main_call3_v4 : StableHlo.TRef sig ⟨S32768, .i32⟩) (.of main_call3_v13 : StableHlo.TRef sig ⟨S32768, .i32⟩) (.of main_call3_v14 : StableHlo.TRef sig ⟨S32768, .i32⟩) addi,
    StableHlo.TRef.ternary (.of main_call3_v12 : StableHlo.TRef sig ⟨S32768, .i1⟩) (.of main_call3_v14 : StableHlo.TRef sig ⟨S32768, .i32⟩) (.of main_call3_v4 : StableHlo.TRef sig ⟨S32768, .i32⟩) (.of main_v229 : StableHlo.TRef sig ⟨S32768, .i32⟩) select ]
/-- Each touches TensorCore references only (`HostSeg.ofOps` over `StableHlo.tcRefs`, or a subset by `sub_ucRefs`). -/
theorem hostOps0_7_sub : (hostOps0_7 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 130 host operations of @main, in order. -/
abbrev hostOps0_8 : List (HloOp τ sig (Elt F)) :=
  ( StableHlo.nullary main_c_56 (constantI S_ 32 511#32)
  :: StableHlo.unary main_c_56 main_v230 (broadcastInDim S32768 ![] bcast_S_S32768 : (⟨S_, .i32⟩ : BufTy).Contents (Elt F) → (⟨S32768, .i32⟩ : BufTy).Contents (Elt F))
  :: StableHlo.binary main_v229 main_v230 main_v231 (subi : (⟨S32768, .i32⟩ : BufTy).Contents (Elt F) → (⟨S32768, .i32⟩ : BufTy).Contents (Elt F) → (⟨S32768, .i32⟩ : BufTy).Contents (Elt F))
  :: StableHlo.binary main_v228 main_v231 main_v232 (addi : (⟨S32768, .i32⟩ : BufTy).Contents (Elt F) → (⟨S32768, .i32⟩ : BufTy).Contents (Elt F) → (⟨S32768, .i32⟩ : BufTy).Contents (Elt F))
  :: StableHlo.unary main_arg6 main_v233 ((transpose S256x256 [1, 0] · transposes_S256x256_S256x256_1_0) : (⟨S256x256, .f32⟩ : BufTy).Contents (Elt F) → (⟨S256x256, .f32⟩ : BufTy).Contents (Elt F))
  :: StableHlo.binary main_v211 main_v233 main_v234 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F))
  :: StableHlo.unary main_arg7 main_v235 (broadcastInDim S1x256 ![1] bcast_S256_S1x256_1 : (⟨S256, .f32⟩ : BufTy).Contents (Elt F) → (⟨S1x256, .f32⟩ : BufTy).Contents (Elt F))
  :: StableHlo.unary main_v235 main_v236 (broadcastInDim S32768x256 ![0, 1] bcast_S1x256_S32768x256_0_1 : (⟨S1x256, .f32⟩ : BufTy).Contents (Elt F) → (⟨S32768x256, .f32⟩ : BufTy).Contents (Elt F))
  :: StableHlo.binary main_v234 main_v236 main_v237 (addf : (⟨S32768x256, .f32⟩ : BufTy).Contents (Elt F) → (⟨S32768x256, .f32⟩ : BufTy).Contents (Elt F) → (⟨S32768x256, .f32⟩ : BufTy).Contents (Elt F))
  :: StableHlo.unary main_v237 main_v238 (Host.negf : (⟨S32768x256, .f32⟩ : BufTy).Contents (Elt F) → (⟨S32768x256, .f32⟩ : BufTy).Contents (Elt F))
  :: StableHlo.unary main_v238 main_v239 (Host.exp : (⟨S32768x256, .f32⟩ : BufTy).Contents (Elt F) → (⟨S32768x256, .f32⟩ : BufTy).Contents (Elt F))
  :: StableHlo.nullary main_cst_57 (constant S_ .f32 0x3F800000#32)
  :: StableHlo.unary main_cst_57 main_v240 (broadcastInDim S32768x256 ![] bcast_S_S32768x256 : (⟨S_, .f32⟩ : BufTy).Contents (Elt F) → (⟨S32768x256, .f32⟩ : BufTy).Contents (Elt F))
  :: StableHlo.binary main_v240 main_v239 main_v241 (addf : (⟨S32768x256, .f32⟩ : BufTy).Contents (Elt F) → (⟨S32768x256, .f32⟩ : BufTy).Contents (Elt F) → (⟨S32768x256, .f32⟩ : BufTy).Contents (Elt F))
  :: StableHlo.nullary main_cst_58 (constant S_ .f32 0x3F800000#32)
  :: StableHlo.unary main_cst_58 main_v242 (broadcastInDim S32768x256 ![] bcast_S_S32768x256 : (⟨S_, .f32⟩ : BufTy).Contents (Elt F) → (⟨S32768x256, .f32⟩ : BufTy).Contents (Elt F))
  :: StableHlo.binary main_v242 main_v241 main_v243 (Host.divf : (⟨S32768x256, .f32⟩ : BufTy).Contents (Elt F) → (⟨S32768x256, .f32⟩ : BufTy).Contents (Elt F) → (⟨S32768x256, .f32⟩ : BufTy).Contents (Elt F))
  :: StableHlo.nullary main_cst_59 (constant S_ .f32 0x00000000#32)
  :: StableHlo.unary main_cst_59 main_v244 (broadcastInDim S16384x256 ![] bcast_S_S16384x256 : (⟨S_, .f32⟩ : BufTy).Contents (Elt F) → (⟨S16384x256, .f32⟩ : BufTy).Contents (Elt F))
  :: StableHlo.unary main_v232 main_v245 (broadcastInDim S32768x1 ![0] bcast_S32768_S32768x1_0 : (⟨S32768, .i32⟩ : BufTy).Contents (Elt F) → (⟨S32768x1, .i32⟩ : BufTy).Contents (Elt F))
  :: StableHlo.ternary main_v244 main_v245 main_v211 main_v246 ((fun x i u => Host.scatterAdd scatter_S16384x256_S32768x1_S32768x256_1_0_0_1 x i u) : (⟨S16384x256, .f32⟩ : BufTy).Contents (Elt F) → (⟨S32768x1, .i32⟩ : BufTy).Contents (Elt F) → (⟨S32768x256, .f32⟩ : BufTy).Contents (Elt F) → (⟨S16384x256, .f32⟩ : BufTy).Contents (Elt F))
  :: StableHlo.binary main_v243 main_v218 main_v247 (mulf : (⟨S32768x256, .f32⟩ : BufTy).Contents (Elt F) → (⟨S32768x256, .f32⟩ : BufTy).Contents (Elt F) → (⟨S32768x256, .f32⟩ : BufTy).Contents (Elt F))
  :: StableHlo.nullary main_cst_60 (constant S_ .f32 0x00000000#32)
  :: StableHlo.unary main_cst_60 main_v248 (broadcastInDim S16384x256 ![] bcast_S_S16384x256 : (⟨S_, .f32⟩ : BufTy).Contents (Elt F) → (⟨S16384x256, .f32⟩ : BufTy).Contents (Elt F))
  :: StableHlo.unary main_v232 main_v249 (broadcastInDim S32768x1 ![0] bcast_S32768_S32768x1_0 : (⟨S32768, .i32⟩ : BufTy).Contents (Elt F) → (⟨S32768x1, .i32⟩ : BufTy).Contents (Elt F))
  :: StableHlo.ternary main_v248 main_v249 main_v247 main_v250 ((fun x i u => Host.scatterAdd scatter_S16384x256_S32768x1_S32768x256_1_0_0_1 x i u) : (⟨S16384x256, .f32⟩ : BufTy).Contents (Elt F) → (⟨S32768x1, .i32⟩ : BufTy).Contents (Elt F) → (⟨S32768x256, .f32⟩ : BufTy).Contents (Elt F) → (⟨S16384x256, .f32⟩ : BufTy).Contents (Elt F))
  :: StableHlo.unary main_arg4 main_v251 ((transpose S256x768 [1, 0] · transposes_S768x256_S256x768_1_0) : (⟨S768x256, .f32⟩ : BufTy).Contents (Elt F) → (⟨S256x768, .f32⟩ : BufTy).Contents (Elt F))
  :: StableHlo.binary main_v246 main_v251 main_v252 ((fun l r => Host.dotGeneral dot_S16384x256_S256x768_S16384x768_1_0_0_1_n_n none l r) : (⟨S16384x256, .f32⟩ : BufTy).Contents (Elt F) → (⟨S256x768, .f32⟩ : BufTy).Contents (Elt F) → (⟨S16384x768, .f32⟩ : BufTy).Contents (Elt F))
  :: StableHlo.binary main_v195 main_v252 main_v253 (addf : (⟨S16384x768, .f32⟩ : BufTy).Contents (Elt F) → (⟨S16384x768, .f32⟩ : BufTy).Contents (Elt F) → (⟨S16384x768, .f32⟩ : BufTy).Contents (Elt F))
  :: StableHlo.unary main_arg5 main_v254 (broadcastInDim S16384x768 ![0, 1] bcast_S1x768_S16384x768_0_1 : (⟨S1x768, .f32⟩ : BufTy).Contents (Elt F) → (⟨S16384x768, .f32⟩ : BufTy).Contents (Elt F))
  :: StableHlo.binary main_v253 main_v254 main_v255 (addf : (⟨S16384x768, .f32⟩ : BufTy).Contents (Elt F) → (⟨S16384x768, .f32⟩ : BufTy).Contents (Elt F) → (⟨S16384x768, .f32⟩ : BufTy).Contents (Elt F))
  :: StableHlo.unary main_v255 main_v256 ((extractStridedSlice S16384x256 ![0, 0] · slices_S16384x768_S16384x256_0_0) : (⟨S16384x768, .f32⟩ : BufTy).Contents (Elt F) → (⟨S16384x256, .f32⟩ : BufTy).Contents (Elt F))
  :: StableHlo.unary main_v255 main_v257 ((extractStridedSlice S16384x256 ![0, 256] · slices_S16384x768_S16384x256_0_256) : (⟨S16384x768, .f32⟩ : BufTy).Contents (Elt F) → (⟨S16384x256, .f32⟩ : BufTy).Contents (Elt F))
  :: StableHlo.unary main_v255 main_v258 ((extractStridedSlice S16384x256 ![0, 512] · slices_S16384x768_S16384x256_0_512) : (⟨S16384x768, .f32⟩ : BufTy).Contents (Elt F) → (⟨S16384x256, .f32⟩ : BufTy).Contents (Elt F))
  :: StableHlo.unary main_v256 main_v259 (Host.negf : (⟨S16384x256, .f32⟩ : BufTy).Contents (Elt F) → (⟨S16384x256, .f32⟩ : BufTy).Contents (Elt F))
  :: StableHlo.unary main_v259 main_v260 (Host.exp : (⟨S16384x256, .f32⟩ : BufTy).Contents (Elt F) → (⟨S16384x256, .f32⟩ : BufTy).Contents (Elt F))
  :: StableHlo.nullary main_cst_61 (constant S_ .f32 0x3F800000#32)
  :: StableHlo.unary main_cst_61 main_v261 (broadcastInDim S16384x256 ![] bcast_S_S16384x256 : (⟨S_, .f32⟩ : BufTy).Contents (Elt F) → (⟨S16384x256, .f32⟩ : BufTy).Contents (Elt F))
  :: StableHlo.binary main_v261 main_v260 main_v262 (addf : (⟨S16384x256, .f32⟩ : BufTy).Contents (Elt F) → (⟨S16384x256, .f32⟩ : BufTy).Contents (Elt F) → (⟨S16384x256, .f32⟩ : BufTy).Contents (Elt F))
  :: StableHlo.nullary main_cst_62 (constant S_ .f32 0x3F800000#32)
  :: StableHlo.unary main_cst_62 main_v263 (broadcastInDim S16384x256 ![] bcast_S_S16384x256 : (⟨S_, .f32⟩ : BufTy).Contents (Elt F) → (⟨S16384x256, .f32⟩ : BufTy).Contents (Elt F))
  :: StableHlo.binary main_v263 main_v262 main_v264 (Host.divf : (⟨S16384x256, .f32⟩ : BufTy).Contents (Elt F) → (⟨S16384x256, .f32⟩ : BufTy).Contents (Elt F) → (⟨S16384x256, .f32⟩ : BufTy).Contents (Elt F))
  :: StableHlo.unary main_v258 main_v265 (Host.tanh : (⟨S16384x256, .f32⟩ : BufTy).Contents (Elt F) → (⟨S16384x256, .f32⟩ : BufTy).Contents (Elt F))
  :: StableHlo.binary main_v264 main_v265 main_v266 (mulf : (⟨S16384x256, .f32⟩ : BufTy).Contents (Elt F) → (⟨S16384x256, .f32⟩ : BufTy).Contents (Elt F) → (⟨S16384x256, .f32⟩ : BufTy).Contents (Elt F))
  :: StableHlo.binary main_v266 main_v250 main_v267 (addf : (⟨S16384x256, .f32⟩ : BufTy).Contents (Elt F) → (⟨S16384x256, .f32⟩ : BufTy).Contents (Elt F) → (⟨S16384x256, .f32⟩ : BufTy).Contents (Elt F))
  :: StableHlo.unary main_v257 main_v268 (Host.negf : (⟨S16384x256, .f32⟩ : BufTy).Contents (Elt F) → (⟨S16384x256, .f32⟩ : BufTy).Contents (Elt F))
  :: StableHlo.unary main_v268 main_v269 (Host.exp : (⟨S16384x256, .f32⟩ : BufTy).Contents (Elt F) → (⟨S16384x256, .f32⟩ : BufTy).Contents (Elt F))
  :: StableHlo.nullary main_cst_63 (constant S_ .f32 0x3F800000#32)
  :: StableHlo.unary main_cst_63 main_v270 (broadcastInDim S16384x256 ![] bcast_S_S16384x256 : (⟨S_, .f32⟩ : BufTy).Contents (Elt F) → (⟨S16384x256, .f32⟩ : BufTy).Contents (Elt F))
  :: StableHlo.binary main_v270 main_v269 main_v271 (addf : (⟨S16384x256, .f32⟩ : BufTy).Contents (Elt F) → (⟨S16384x256, .f32⟩ : BufTy).Contents (Elt F) → (⟨S16384x256, .f32⟩ : BufTy).Contents (Elt F))
  :: StableHlo.nullary main_cst_64 (constant S_ .f32 0x3F800000#32)
  :: StableHlo.unary main_cst_64 main_v272 (broadcastInDim S16384x256 ![] bcast_S_S16384x256 : (⟨S_, .f32⟩ : BufTy).Contents (Elt F) → (⟨S16384x256, .f32⟩ : BufTy).Contents (Elt F))
  :: StableHlo.binary main_v272 main_v271 main_v273 (Host.divf : (⟨S16384x256, .f32⟩ : BufTy).Contents (Elt F) → (⟨S16384x256, .f32⟩ : BufTy).Contents (Elt F) → (⟨S16384x256, .f32⟩ : BufTy).Contents (Elt F))
  :: StableHlo.unary main_v267 main_v274 (Host.tanh : (⟨S16384x256, .f32⟩ : BufTy).Contents (Elt F) → (⟨S16384x256, .f32⟩ : BufTy).Contents (Elt F))
  :: StableHlo.binary main_v273 main_v274 main_v275 (mulf : (⟨S16384x256, .f32⟩ : BufTy).Contents (Elt F) → (⟨S16384x256, .f32⟩ : BufTy).Contents (Elt F) → (⟨S16384x256, .f32⟩ : BufTy).Contents (Elt F))
  :: StableHlo.nullary main_c_65 (constantI S_ 32 0#32)
  :: StableHlo.unary main_c_65 main_v276 (broadcastInDim S16384 ![] bcast_S_S16384 : (⟨S_, .i32⟩ : BufTy).Contents (Elt F) → (⟨S16384, .i32⟩ : BufTy).Contents (Elt F))
  :: StableHlo.binary main_v188 main_v276 main_v277 (cmpi .slt : (⟨S16384, .i32⟩ : BufTy).Contents (Elt F) → (⟨S16384, .i32⟩ : BufTy).Contents (Elt F) → (⟨S16384, .i1⟩ : BufTy).Contents (Elt F))
  :: StableHlo.nullary main_c_66 (constantI S_ 32 131040#32)
  :: StableHlo.unary main_c_66 main_v278 (broadcastInDim S16384 ![] bcast_S_S16384 : (⟨S_, .i32⟩ : BufTy).Contents (Elt F) → (⟨S16384, .i32⟩ : BufTy).Contents (Elt F))
  :: StableHlo.binary main_v188 main_v278 main_v279 (addi : (⟨S16384, .i32⟩ : BufTy).Contents (Elt F) → (⟨S16384, .i32⟩ : BufTy).Contents (Elt F) → (⟨S16384, .i32⟩ : BufTy).Contents (Elt F))
  :: StableHlo.ternary main_v277 main_v279 main_v188 main_v280 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v280 main_v281 (broadcastInDim S16384x1 ![0] bcast_S16384_S16384x1_0 : (⟨S16384, .i32⟩ : BufTy).Contents (Elt F) → (⟨S16384x1, .i32⟩ : BufTy).Contents (Elt F))
  :: StableHlo.ternary main_v172 main_v281 main_v275 main_v282 ((fun x i u => Host.scatter scatter_S131040x256_S16384x1_S16384x256_1_0_0_1 (fun _ b => b) x i u) : (⟨S131040x256, .f32⟩ : BufTy).Contents (Elt F) → (⟨S16384x1, .i32⟩ : BufTy).Contents (Elt F) → (⟨S16384x256, .f32⟩ : BufTy).Contents (Elt F) → (⟨S131040x256, .f32⟩ : BufTy).Contents (Elt F))
  :: StableHlo.nullary main_c_67 (constantI S_ 32 0#32)
  :: StableHlo.unary main_c_67 main_v283 (broadcastInDim S16384 ![] bcast_S_S16384 : (⟨S_, .i32⟩ : BufTy).Contents (Elt F) → (⟨S16384, .i32⟩ : BufTy).Contents (Elt F))
  :: StableHlo.binary main_v188 main_v283 main_v284 (cmpi .slt : (⟨S16384, .i32⟩ : BufTy).Contents (Elt F) → (⟨S16384, .i32⟩ : BufTy).Contents (Elt F) → (⟨S16384, .i1⟩ : BufTy).Contents (Elt F))
  :: StableHlo.nullary main_c_68 (constantI S_ 32 131040#32)
  :: StableHlo.unary main_c_68 main_v285 (broadcastInDim S16384 ![] bcast_S_S16384 : (⟨S_, .i32⟩ : BufTy).Contents (Elt F) → (⟨S16384, .i32⟩ : BufTy).Contents (Elt F))
  :: StableHlo.binary main_v188 main_v285 main_v286 (addi : (⟨S16384, .i32⟩ : BufTy).Contents (Elt F) → (⟨S16384, .i32⟩ : BufTy).Contents (Elt F) → (⟨S16384, .i32⟩ : BufTy).Contents (Elt F))
  :: StableHlo.ternary main_v284 main_v286 main_v188 main_v287 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v287 main_v288 (broadcastInDim S16384x1 ![0] bcast_S16384_S16384x1_0 : (⟨S16384, .i32⟩ : BufTy).Contents (Elt F) → (⟨S16384x1, .i32⟩ : BufTy).Contents (Elt F))
  :: StableHlo.ternary main_v179 main_v288 main_v267 main_v289 ((fun x i u => Host.scatter scatter_S131040x256_S16384x1_S16384x256_1_0_0_1 (fun _ b => b) x i u) : (⟨S131040x256, .f32⟩ : BufTy).Contents (Elt F) → (⟨S16384x1, .i32⟩ : BufTy).Contents (Elt F) → (⟨S16384x256, .f32⟩ : BufTy).Contents (Elt F) → (⟨S131040x256, .f32⟩ : BufTy).Contents (Elt F))
  :: StableHlo.unary main_v16 main_v290 (broadcastInDim S32x1 ![0] bcast_S32_S32x1_0 : (⟨S32, .i32⟩ : BufTy).Contents (Elt F) → (⟨S32x1, .i32⟩ : BufTy).Contents (Elt F))
  :: StableHlo.nullary main_c_69 (constantI S_ 32 255#32)
  :: StableHlo.unary main_c_69 main_v291 (broadcastInDim S32x1 ![] bcast_S_S32x1 : (⟨S_, .i32⟩ : BufTy).Contents (Elt F) → (⟨S32x1, .i32⟩ : BufTy).Contents (Elt F))
  :: StableHlo.binary main_v290 main_v291 main_v292 (addi : (⟨S32x1, .i32⟩ : BufTy).Contents (Elt F) → (⟨S32x1, .i32⟩ : BufTy).Contents (Elt F) → (⟨S32x1, .i32⟩ : BufTy).Contents (Elt F))
  :: StableHlo.nullary main_v293 (iotaInDim S256 32 0)
  :: StableHlo.unary main_v293 main_v294 (broadcastInDim S1x256 ![1] bcast_S256_S1x256_1 : (⟨S256, .i32⟩ : BufTy).Contents (Elt F) → (⟨S1x256, .i32⟩ : BufTy).Contents (Elt F))
  :: StableHlo.unary main_v292 main_v295 (broadcastInDim S32x256 ![0, 1] bcast_S32x1_S32x256_0_1 : (⟨S32x1, .i32⟩ : BufTy).Contents (Elt F) → (⟨S32x256, .i32⟩ : BufTy).Contents (Elt F))
  :: StableHlo.unary main_v294 main_v296 (broadcastInDim S32x256 ![0, 1] bcast_S1x256_S32x256_0_1 : (⟨S1x256, .i32⟩ : BufTy).Contents (Elt F) → (⟨S32x256, .i32⟩ : BufTy).Contents (Elt F))
  :: StableHlo.binary main_v295 main_v296 main_v297 (addi : (⟨S32x256, .i32⟩ : BufTy).Contents (Elt F) → (⟨S32x256, .i32⟩ : BufTy).Contents (Elt F) → (⟨S32x256, .i32⟩ : BufTy).Contents (Elt F))
  :: StableHlo.reshape main_v297 main_v298 rfl shapeCasts_S32x256_S8192
  :: StableHlo.nullary main_c_70 (constantI S_ 32 0#32)
  :: StableHlo.unary main_c_70 main_v299 (broadcastInDim S8192 ![] bcast_S_S8192 : (⟨S_, .i32⟩ : BufTy).Contents (Elt F) → (⟨S8192, .i32⟩ : BufTy).Contents (Elt F))
  :: StableHlo.binary main_v298 main_v299 main_v300 (cmpi .slt : (⟨S8192, .i32⟩ : BufTy).Contents (Elt F) → (⟨S8192, .i32⟩ : BufTy).Contents (Elt F) → (⟨S8192, .i1⟩ : BufTy).Contents (Elt F))
  :: StableHlo.nullary main_c_71 (constantI S_ 32 131040#32)
  :: StableHlo.unary main_c_71 main_v301 (broadcastInDim S8192 ![] bcast_S_S8192 : (⟨S_, .i32⟩ : BufTy).Contents (Elt F) → (⟨S8192, .i32⟩ : BufTy).Contents (Elt F))
  :: StableHlo.binary main_v298 main_v301 main_v302 (addi : (⟨S8192, .i32⟩ : BufTy).Contents (Elt F) → (⟨S8192, .i32⟩ : BufTy).Contents (Elt F) → (⟨S8192, .i32⟩ : BufTy).Contents (Elt F))
  :: StableHlo.ternary main_v300 main_v302 main_v298 main_v303 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v303 main_v304 (broadcastInDim S8192x1 ![0] bcast_S8192_S8192x1_0 : (⟨S8192, .i32⟩ : BufTy).Contents (Elt F) → (⟨S8192x1, .i32⟩ : BufTy).Contents (Elt F))
  :: StableHlo.binary main_v11 main_v304 main_v305 ((fun x i => Host.gather gather_S131040x768_S8192x1_S8192x768_1_0_n_n_0_1_1768 x i) : (⟨S131040x768, .f32⟩ : BufTy).Contents (Elt F) → (⟨S8192x1, .i32⟩ : BufTy).Contents (Elt F) → (⟨S8192x768, .f32⟩ : BufTy).Contents (Elt F))
  :: StableHlo.unary main_v16 main_v306 (broadcastInDim S32x1 ![0] bcast_S32_S32x1_0 : (⟨S32, .i32⟩ : BufTy).Contents (Elt F) → (⟨S32x1, .i32⟩ : BufTy).Contents (Elt F))
  :: StableHlo.nullary main_c_72 (constantI S_ 32 511#32)
  :: StableHlo.unary main_c_72 main_v307 (broadcastInDim S32x1 ![] bcast_S_S32x1 : (⟨S_, .i32⟩ : BufTy).Contents (Elt F) → (⟨S32x1, .i32⟩ : BufTy).Contents (Elt F))
  :: StableHlo.binary main_v306 main_v307 main_v308 (addi : (⟨S32x1, .i32⟩ : BufTy).Contents (Elt F) → (⟨S32x1, .i32⟩ : BufTy).Contents (Elt F) → (⟨S32x1, .i32⟩ : BufTy).Contents (Elt F))
  :: StableHlo.nullary main_v309 (iotaInDim S512 32 0)
  :: StableHlo.unary main_v309 main_v310 (broadcastInDim S1x512 ![1] bcast_S512_S1x512_1 : (⟨S512, .i32⟩ : BufTy).Contents (Elt F) → (⟨S1x512, .i32⟩ : BufTy).Contents (Elt F))
  :: StableHlo.unary main_v308 main_v311 (broadcastInDim S32x512 ![0, 1] bcast_S32x1_S32x512_0_1 : (⟨S32x1, .i32⟩ : BufTy).Contents (Elt F) → (⟨S32x512, .i32⟩ : BufTy).Contents (Elt F))
  :: StableHlo.unary main_v310 main_v312 (broadcastInDim S32x512 ![0, 1] bcast_S1x512_S32x512_0_1 : (⟨S1x512, .i32⟩ : BufTy).Contents (Elt F) → (⟨S32x512, .i32⟩ : BufTy).Contents (Elt F))
  :: StableHlo.binary main_v311 main_v312 main_v313 (addi : (⟨S32x512, .i32⟩ : BufTy).Contents (Elt F) → (⟨S32x512, .i32⟩ : BufTy).Contents (Elt F) → (⟨S32x512, .i32⟩ : BufTy).Contents (Elt F))
  :: StableHlo.reshape main_v313 main_v314 rfl shapeCasts_S32x512_S16384
  :: StableHlo.nullary main_c_73 (constantI S_ 32 0#32)
  :: StableHlo.unary main_c_73 main_v315 (broadcastInDim S16384 ![] bcast_S_S16384 : (⟨S_, .i32⟩ : BufTy).Contents (Elt F) → (⟨S16384, .i32⟩ : BufTy).Contents (Elt F))
  :: StableHlo.binary main_v314 main_v315 main_v316 (cmpi .slt : (⟨S16384, .i32⟩ : BufTy).Contents (Elt F) → (⟨S16384, .i32⟩ : BufTy).Contents (Elt F) → (⟨S16384, .i1⟩ : BufTy).Contents (Elt F))
  :: StableHlo.nullary main_c_74 (constantI S_ 32 131040#32)
  :: StableHlo.unary main_c_74 main_v317 (broadcastInDim S16384 ![] bcast_S_S16384 : (⟨S_, .i32⟩ : BufTy).Contents (Elt F) → (⟨S16384, .i32⟩ : BufTy).Contents (Elt F))
  :: StableHlo.binary main_v314 main_v317 main_v318 (addi : (⟨S16384, .i32⟩ : BufTy).Contents (Elt F) → (⟨S16384, .i32⟩ : BufTy).Contents (Elt F) → (⟨S16384, .i32⟩ : BufTy).Contents (Elt F))
  :: StableHlo.ternary main_v316 main_v318 main_v314 main_v319 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v319 main_v320 (broadcastInDim S16384x1 ![0] bcast_S16384_S16384x1_0 : (⟨S16384, .i32⟩ : BufTy).Contents (Elt F) → (⟨S16384x1, .i32⟩ : BufTy).Contents (Elt F))
  :: StableHlo.binary main_v282 main_v320 main_v321 ((fun x i => Host.gather gather_S131040x256_S16384x1_S16384x256_1_0_n_n_0_1_1256 x i) : (⟨S131040x256, .f32⟩ : BufTy).Contents (Elt F) → (⟨S16384x1, .i32⟩ : BufTy).Contents (Elt F) → (⟨S16384x256, .f32⟩ : BufTy).Contents (Elt F))
  :: StableHlo.nullary main_c_75 (constantI S_ 32 0#32)
  :: StableHlo.unary main_c_75 main_v322 (broadcastInDim S16384 ![] bcast_S_S16384 : (⟨S_, .i32⟩ : BufTy).Contents (Elt F) → (⟨S16384, .i32⟩ : BufTy).Contents (Elt F))
  :: StableHlo.binary main_v314 main_v322 main_v323 (cmpi .slt : (⟨S16384, .i32⟩ : BufTy).Contents (Elt F) → (⟨S16384, .i32⟩ : BufTy).Contents (Elt F) → (⟨S16384, .i1⟩ : BufTy).Contents (Elt F))
  :: StableHlo.nullary main_c_76 (constantI S_ 32 131040#32)
  :: StableHlo.unary main_c_76 main_v324 (broadcastInDim S16384 ![] bcast_S_S16384 : (⟨S_, .i32⟩ : BufTy).Contents (Elt F) → (⟨S16384, .i32⟩ : BufTy).Contents (Elt F))
  :: StableHlo.binary main_v314 main_v324 main_v325 (addi : (⟨S16384, .i32⟩ : BufTy).Contents (Elt F) → (⟨S16384, .i32⟩ : BufTy).Contents (Elt F) → (⟨S16384, .i32⟩ : BufTy).Contents (Elt F))
  :: StableHlo.ternary main_v323 main_v325 main_v314 main_v326 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v326 main_v327 (broadcastInDim S16384x1 ![0] bcast_S16384_S16384x1_0 : (⟨S16384, .i32⟩ : BufTy).Contents (Elt F) → (⟨S16384x1, .i32⟩ : BufTy).Contents (Elt F))
  :: StableHlo.binary main_v289 main_v327 main_v328 ((fun x i => Host.gather gather_S131040x256_S16384x1_S16384x256_1_0_n_n_0_1_1256 x i) : (⟨S131040x256, .f32⟩ : BufTy).Contents (Elt F) → (⟨S16384x1, .i32⟩ : BufTy).Contents (Elt F) → (⟨S16384x256, .f32⟩ : BufTy).Contents (Elt F))
  :: StableHlo.nullary main_c_77 (constantI S_ 32 0#32)
  :: StableHlo.unary main_c_77 main_v329 (broadcastInDim S16384 ![] bcast_S_S16384 : (⟨S_, .i32⟩ : BufTy).Contents (Elt F) → (⟨S16384, .i32⟩ : BufTy).Contents (Elt F))
  :: StableHlo.binary main_v314 main_v329 main_v330 (cmpi .slt : (⟨S16384, .i32⟩ : BufTy).Contents (Elt F) → (⟨S16384, .i32⟩ : BufTy).Contents (Elt F) → (⟨S16384, .i1⟩ : BufTy).Contents (Elt F))
  :: StableHlo.nullary main_c_78 (constantI S_ 32 131040#32)
  :: StableHlo.unary main_c_78 main_v331 (broadcastInDim S16384 ![] bcast_S_S16384 : (⟨S_, .i32⟩ : BufTy).Contents (Elt F) → (⟨S16384, .i32⟩ : BufTy).Contents (Elt F))
  :: StableHlo.binary main_v314 main_v331 main_v332 (addi : (⟨S16384, .i32⟩ : BufTy).Contents (Elt F) → (⟨S16384, .i32⟩ : BufTy).Contents (Elt F) → (⟨S16384, .i32⟩ : BufTy).Contents (Elt F))
  :: StableHlo.ternary main_v330 main_v332 main_v314 main_v333 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v333 main_v334 (broadcastInDim S16384x1 ![0] bcast_S16384_S16384x1_0 : (⟨S16384, .i32⟩ : BufTy).Contents (Elt F) → (⟨S16384x1, .i32⟩ : BufTy).Contents (Elt F))
  :: StableHlo.binary main_arg1 main_v334 main_v335 ((fun x i => Host.gather gather_S131040_S16384x1_S16384_n_0_n_n_0_1_1 x i) : (⟨S131040, .i32⟩ : BufTy).Contents (Elt F) → (⟨S16384x1, .i32⟩ : BufTy).Contents (Elt F) → (⟨S16384, .i32⟩ : BufTy).Contents (Elt F))
  :: StableHlo.nullary main_c_79 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_8_sub : (hostOps0_8 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_4 (main_call4), in order. -/
abbrev hostOps0_9 : List (HloOp τ sig (Elt F)) :=
  [ StableHlo.TRef.unary (.of main_c_79 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S16384, .i32⟩) (broadcastInDim S16384 ![] bcast_S_S16384),
    StableHlo.TRef.binary (.of main_v335 : StableHlo.TRef sig ⟨S16384, .i32⟩) (.of main_call4_v1 : StableHlo.TRef sig ⟨S16384, .i32⟩) (.of main_call4_v2 : StableHlo.TRef sig ⟨S16384, .i32⟩) Host.divsi,
    StableHlo.TRef.unary (.of main_v335 : StableHlo.TRef sig ⟨S16384, .i32⟩) (.of main_call4_v3 : StableHlo.TRef sig ⟨S16384, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S16384, .i32⟩) (broadcastInDim S16384 ![] bcast_S_S16384),
    StableHlo.TRef.binary (.of main_call4_v3 : StableHlo.TRef sig ⟨S16384, .i32⟩) (.of main_call4_v5 : StableHlo.TRef sig ⟨S16384, .i32⟩) (.of main_call4_v6 : StableHlo.TRef sig ⟨S16384, .i1⟩) (cmpi .ne),
    StableHlo.TRef.unary (.of main_call4_v0 : StableHlo.TRef sig ⟨S_, .i32⟩) (.of main_call4_v7 : StableHlo.TRef sig ⟨S16384, .i32⟩) (broadcastInDim S16384 ![] bcast_S_S16384),
    StableHlo.TRef.binary (.of main_v335 : StableHlo.TRef sig ⟨S16384, .i32⟩) (.of main_call4_v7 : StableHlo.TRef sig ⟨S16384, .i32⟩) (.of main_call4_v8 : StableHlo.TRef sig ⟨S16384, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S16384, .i32⟩) (broadcastInDim S16384 ![] bcast_S_S16384),
    StableHlo.TRef.binary (.of main_call4_v8 : StableHlo.TRef sig ⟨S16384, .i32⟩) (.of main_call4_v9 : StableHlo.TRef sig ⟨S16384, .i32⟩) (.of main_call4_v10 : StableHlo.TRef sig ⟨S16384, .i1⟩) (cmpi .ne),
    StableHlo.TRef.binary (.of main_call4_v6 : StableHlo.TRef sig ⟨S16384, .i1⟩) (.of main_call4_v10 : StableHlo.TRef sig ⟨S16384, .i1⟩) (.of main_call4_v11 : StableHlo.TRef sig ⟨S16384, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S16384, .i32⟩) (broadcastInDim S16384 ![] bcast_S_S16384),
    StableHlo.TRef.binary (.of main_call4_v2 : StableHlo.TRef sig ⟨S16384, .i32⟩) (.of main_call4_v12 : StableHlo.TRef sig ⟨S16384, .i32⟩) (.of main_call4_v13 : StableHlo.TRef sig ⟨S16384, .i32⟩) subi,
    StableHlo.TRef.ternary (.of main_call4_v11 : StableHlo.TRef sig ⟨S16384, .i1⟩) (.of main_call4_v13 : StableHlo.TRef sig ⟨S16384, .i32⟩) (.of main_call4_v2 : StableHlo.TRef sig ⟨S16384, .i32⟩) (.of main_v336 : StableHlo.TRef sig ⟨S16384, .i32⟩) select ]
/-- Each touches TensorCore references only (`HostSeg.ofOps` over `StableHlo.tcRefs`, or a subset by `sub_ucRefs`). -/
theorem hostOps0_9_sub : (hostOps0_9 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_10 : List (HloOp τ sig (Elt F)) :=
  [ StableHlo.nullary main_c_80 (constantI S_ 32 256#32),
    StableHlo.unary main_c_80 main_v337 (broadcastInDim S16384 ![] bcast_S_S16384 : (⟨S_, .i32⟩ : BufTy).Contents (Elt F) → (⟨S16384, .i32⟩ : BufTy).Contents (Elt F)),
    StableHlo.binary main_v336 main_v337 main_v338 (muli : (⟨S16384, .i32⟩ : BufTy).Contents (Elt F) → (⟨S16384, .i32⟩ : BufTy).Contents (Elt F) → (⟨S16384, .i32⟩ : BufTy).Contents (Elt F)),
    StableHlo.nullary main_c_81 (constantI S_ 32 4095#32) ]
/-- Each touches TensorCore references only (`HostSeg.ofOps` over `StableHlo.tcRefs`, or a subset by `sub_ucRefs`). -/
theorem hostOps0_10_sub : (hostOps0_10 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_6 (main_call5), in order. -/
abbrev hostOps0_11 : List (HloOp τ sig (Elt F)) :=
  [ StableHlo.TRef.unary (.of main_c_81 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary main_call5_call0.v0 (.of main_call5_v3 : StableHlo.TRef sig ⟨S16384, .i32⟩) (broadcastInDim S16384 ![] bcast_S_S16384),
    StableHlo.TRef.binary (.of main_v335 : StableHlo.TRef sig ⟨S16384, .i32⟩) (.of main_call5_v3 : StableHlo.TRef sig ⟨S16384, .i32⟩) (.of main_call5_v4 : StableHlo.TRef sig ⟨S16384, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S16384, .i32⟩) (broadcastInDim S16384 ![] bcast_S_S16384),
    StableHlo.TRef.binary (.of main_call5_v4 : StableHlo.TRef sig ⟨S16384, .i32⟩) (.of main_call5_v5 : StableHlo.TRef sig ⟨S16384, .i32⟩) (.of main_call5_v6 : StableHlo.TRef sig ⟨S16384, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S16384, .i32⟩) (broadcastInDim S16384 ![] bcast_S_S16384),
    StableHlo.TRef.binary (.of main_call5_v4 : StableHlo.TRef sig ⟨S16384, .i32⟩) (.of main_call5_v7 : StableHlo.TRef sig ⟨S16384, .i32⟩) (.of main_call5_v8 : StableHlo.TRef sig ⟨S16384, .i1⟩) (cmpi .slt),
    StableHlo.TRef.nullary (.of main_call5_c_3 : StableHlo.TRef sig ⟨S_, .i32⟩) (constantI S_ 32 0#32),
    StableHlo.TRef.binary main_call5_call0.v0 (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S16384, .i1⟩) (broadcastInDim S16384 ![] bcast_S_S16384),
    StableHlo.TRef.binary (.of main_call5_v8 : StableHlo.TRef sig ⟨S16384, .i1⟩) (.of main_call5_v10 : StableHlo.TRef sig ⟨S16384, .i1⟩) (.of main_call5_v11 : StableHlo.TRef sig ⟨S16384, .i1⟩) (cmpi .ne),
    StableHlo.TRef.binary (.of main_call5_v11 : StableHlo.TRef sig ⟨S16384, .i1⟩) (.of main_call5_v6 : StableHlo.TRef sig ⟨S16384, .i1⟩) (.of main_call5_v12 : StableHlo.TRef sig ⟨S16384, .i1⟩) andi,
    StableHlo.TRef.unary main_call5_call0.v0 (.of main_call5_v13 : StableHlo.TRef sig ⟨S16384, .i32⟩) (broadcastInDim S16384 ![] bcast_S_S16384),
    StableHlo.TRef.binary (.of main_call5_v4 : StableHlo.TRef sig ⟨S16384, .i32⟩) (.of main_call5_v13 : StableHlo.TRef sig ⟨S16384, .i32⟩) (.of main_call5_v14 : StableHlo.TRef sig ⟨S16384, .i32⟩) addi,
    StableHlo.TRef.ternary (.of main_call5_v12 : StableHlo.TRef sig ⟨S16384, .i1⟩) (.of main_call5_v14 : StableHlo.TRef sig ⟨S16384, .i32⟩) (.of main_call5_v4 : StableHlo.TRef sig ⟨S16384, .i32⟩) (.of main_v339 : StableHlo.TRef sig ⟨S16384, .i32⟩) select ]
/-- Each touches TensorCore references only (`HostSeg.ofOps` over `StableHlo.tcRefs`, or a subset by `sub_ucRefs`). -/
theorem hostOps0_11_sub : (hostOps0_11 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
end Cert.ReferenceIdeal.Gen

end
-- ==== Proof.RefOpsS1.lean ====
/- The reference program's entry function as lists of host operations: some of the stretches between its calls, the called functions' bodies in place. -/
import proofs.«419362_j66683662237734_3_alg».proof.Proof.Gen.ReferenceIdeal
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
set_option maxHeartbeats 40000000 in  -- a long stretch: its list (or the term over it) exceeds the default budget
/-- 130 host operations of @main, in order. -/
abbrev hostOps0_12 : List (HloOp τ sig (Elt F)) :=
  ( StableHlo.nullary main_c_82 (constantI S_ 32 255#32)
  :: StableHlo.unary main_c_82 main_v340 (broadcastInDim S16384 ![] bcast_S_S16384 : (⟨S_, .i32⟩ : BufTy).Contents (Elt F) → (⟨S16384, .i32⟩ : BufTy).Contents (Elt F))
  :: StableHlo.binary main_v339 main_v340 main_v341 (subi : (⟨S16384, .i32⟩ : BufTy).Contents (Elt F) → (⟨S16384, .i32⟩ : BufTy).Contents (Elt F) → (⟨S16384, .i32⟩ : BufTy).Contents (Elt F))
  :: StableHlo.binary main_v338 main_v341 main_v342 (addi : (⟨S16384, .i32⟩ : BufTy).Contents (Elt F) → (⟨S16384, .i32⟩ : BufTy).Contents (Elt F) → (⟨S16384, .i32⟩ : BufTy).Contents (Elt F))
  :: StableHlo.unary main_arg6 main_v343 ((transpose S256x256 [1, 0] · transposes_S256x256_S256x256_1_0) : (⟨S256x256, .f32⟩ : BufTy).Contents (Elt F) → (⟨S256x256, .f32⟩ : BufTy).Contents (Elt F))
  :: StableHlo.binary main_v321 main_v343 main_v344 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F))
  :: StableHlo.unary main_arg7 main_v345 (broadcastInDim S1x256 ![1] bcast_S256_S1x256_1 : (⟨S256, .f32⟩ : BufTy).Contents (Elt F) → (⟨S1x256, .f32⟩ : BufTy).Contents (Elt F))
  :: StableHlo.unary main_v345 main_v346 (broadcastInDim S16384x256 ![0, 1] bcast_S1x256_S16384x256_0_1 : (⟨S1x256, .f32⟩ : BufTy).Contents (Elt F) → (⟨S16384x256, .f32⟩ : BufTy).Contents (Elt F))
  :: StableHlo.binary main_v344 main_v346 main_v347 (addf : (⟨S16384x256, .f32⟩ : BufTy).Contents (Elt F) → (⟨S16384x256, .f32⟩ : BufTy).Contents (Elt F) → (⟨S16384x256, .f32⟩ : BufTy).Contents (Elt F))
  :: StableHlo.unary main_v347 main_v348 (Host.negf : (⟨S16384x256, .f32⟩ : BufTy).Contents (Elt F) → (⟨S16384x256, .f32⟩ : BufTy).Contents (Elt F))
  :: StableHlo.unary main_v348 main_v349 (Host.exp : (⟨S16384x256, .f32⟩ : BufTy).Contents (Elt F) → (⟨S16384x256, .f32⟩ : BufTy).Contents (Elt F))
  :: StableHlo.nullary main_cst_83 (constant S_ .f32 0x3F800000#32)
  :: StableHlo.unary main_cst_83 main_v350 (broadcastInDim S16384x256 ![] bcast_S_S16384x256 : (⟨S_, .f32⟩ : BufTy).Contents (Elt F) → (⟨S16384x256, .f32⟩ : BufTy).Contents (Elt F))
  :: StableHlo.binary main_v350 main_v349 main_v351 (addf : (⟨S16384x256, .f32⟩ : BufTy).Contents (Elt F) → (⟨S16384x256, .f32⟩ : BufTy).Contents (Elt F) → (⟨S16384x256, .f32⟩ : BufTy).Contents (Elt F))
  :: StableHlo.nullary main_cst_84 (constant S_ .f32 0x3F800000#32)
  :: StableHlo.unary main_cst_84 main_v352 (broadcastInDim S16384x256 ![] bcast_S_S16384x256 : (⟨S_, .f32⟩ : BufTy).Contents (Elt F) → (⟨S16384x256, .f32⟩ : BufTy).Contents (Elt F))
  :: StableHlo.binary main_v352 main_v351 main_v353 (Host.divf : (⟨S16384x256, .f32⟩ : BufTy).Contents (Elt F) → (⟨S16384x256, .f32⟩ : BufTy).Contents (Elt F) → (⟨S16384x256, .f32⟩ : BufTy).Contents (Elt F))
  :: StableHlo.nullary main_cst_85 (constant S_ .f32 0x00000000#32)
  :: StableHlo.unary main_cst_85 main_v354 (broadcastInDim S8192x256 ![] bcast_S_S8192x256 : (⟨S_, .f32⟩ : BufTy).Contents (Elt F) → (⟨S8192x256, .f32⟩ : BufTy).Contents (Elt F))
  :: StableHlo.unary main_v342 main_v355 (broadcastInDim S16384x1 ![0] bcast_S16384_S16384x1_0 : (⟨S16384, .i32⟩ : BufTy).Contents (Elt F) → (⟨S16384x1, .i32⟩ : BufTy).Contents (Elt F))
  :: StableHlo.ternary main_v354 main_v355 main_v321 main_v356 ((fun x i u => Host.scatterAdd scatter_S8192x256_S16384x1_S16384x256_1_0_0_1 x i u) : (⟨S8192x256, .f32⟩ : BufTy).Contents (Elt F) → (⟨S16384x1, .i32⟩ : BufTy).Contents (Elt F) → (⟨S16384x256, .f32⟩ : BufTy).Contents (Elt F) → (⟨S8192x256, .f32⟩ : BufTy).Contents (Elt F))
  :: StableHlo.binary main_v353 main_v328 main_v357 (mulf : (⟨S16384x256, .f32⟩ : BufTy).Contents (Elt F) → (⟨S16384x256, .f32⟩ : BufTy).Contents (Elt F) → (⟨S16384x256, .f32⟩ : BufTy).Contents (Elt F))
  :: StableHlo.nullary main_cst_86 (constant S_ .f32 0x00000000#32)
  :: StableHlo.unary main_cst_86 main_v358 (broadcastInDim S8192x256 ![] bcast_S_S8192x256 : (⟨S_, .f32⟩ : BufTy).Contents (Elt F) → (⟨S8192x256, .f32⟩ : BufTy).Contents (Elt F))
  :: StableHlo.unary main_v342 main_v359 (broadcastInDim S16384x1 ![0] bcast_S16384_S16384x1_0 : (⟨S16384, .i32⟩ : BufTy).Contents (Elt F) → (⟨S16384x1, .i32⟩ : BufTy).Contents (Elt F))
  :: StableHlo.ternary main_v358 main_v359 main_v357 main_v360 ((fun x i u => Host.scatterAdd scatter_S8192x256_S16384x1_S16384x256_1_0_0_1 x i u) : (⟨S8192x256, .f32⟩ : BufTy).Contents (Elt F) → (⟨S16384x1, .i32⟩ : BufTy).Contents (Elt F) → (⟨S16384x256, .f32⟩ : BufTy).Contents (Elt F) → (⟨S8192x256, .f32⟩ : BufTy).Contents (Elt F))
  :: StableHlo.unary main_arg4 main_v361 ((transpose S256x768 [1, 0] · transposes_S768x256_S256x768_1_0) : (⟨S768x256, .f32⟩ : BufTy).Contents (Elt F) → (⟨S256x768, .f32⟩ : BufTy).Contents (Elt F))
  :: StableHlo.binary main_v356 main_v361 main_v362 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F))
  :: StableHlo.binary main_v305 main_v362 main_v363 (addf : (⟨S8192x768, .f32⟩ : BufTy).Contents (Elt F) → (⟨S8192x768, .f32⟩ : BufTy).Contents (Elt F) → (⟨S8192x768, .f32⟩ : BufTy).Contents (Elt F))
  :: StableHlo.unary main_arg5 main_v364 (broadcastInDim S8192x768 ![0, 1] bcast_S1x768_S8192x768_0_1 : (⟨S1x768, .f32⟩ : BufTy).Contents (Elt F) → (⟨S8192x768, .f32⟩ : BufTy).Contents (Elt F))
  :: StableHlo.binary main_v363 main_v364 main_v365 (addf : (⟨S8192x768, .f32⟩ : BufTy).Contents (Elt F) → (⟨S8192x768, .f32⟩ : BufTy).Contents (Elt F) → (⟨S8192x768, .f32⟩ : BufTy).Contents (Elt F))
  :: StableHlo.unary main_v365 main_v366 ((extractStridedSlice S8192x256 ![0, 0] · slices_S8192x768_S8192x256_0_0) : (⟨S8192x768, .f32⟩ : BufTy).Contents (Elt F) → (⟨S8192x256, .f32⟩ : BufTy).Contents (Elt F))
  :: StableHlo.unary main_v365 main_v367 ((extractStridedSlice S8192x256 ![0, 256] · slices_S8192x768_S8192x256_0_256) : (⟨S8192x768, .f32⟩ : BufTy).Contents (Elt F) → (⟨S8192x256, .f32⟩ : BufTy).Contents (Elt F))
  :: StableHlo.unary main_v365 main_v368 ((extractStridedSlice S8192x256 ![0, 512] · slices_S8192x768_S8192x256_0_512) : (⟨S8192x768, .f32⟩ : BufTy).Contents (Elt F) → (⟨S8192x256, .f32⟩ : BufTy).Contents (Elt F))
  :: StableHlo.unary main_v366 main_v369 (Host.negf : (⟨S8192x256, .f32⟩ : BufTy).Contents (Elt F) → (⟨S8192x256, .f32⟩ : BufTy).Contents (Elt F))
  :: StableHlo.unary main_v369 main_v370 (Host.exp : (⟨S8192x256, .f32⟩ : BufTy).Contents (Elt F) → (⟨S8192x256, .f32⟩ : BufTy).Contents (Elt F))
  :: StableHlo.nullary main_cst_87 (constant S_ .f32 0x3F800000#32)
  :: StableHlo.unary main_cst_87 main_v371 (broadcastInDim S8192x256 ![] bcast_S_S8192x256 : (⟨S_, .f32⟩ : BufTy).Contents (Elt F) → (⟨S8192x256, .f32⟩ : BufTy).Contents (Elt F))
  :: StableHlo.binary main_v371 main_v370 main_v372 (addf : (⟨S8192x256, .f32⟩ : BufTy).Contents (Elt F) → (⟨S8192x256, .f32⟩ : BufTy).Contents (Elt F) → (⟨S8192x256, .f32⟩ : BufTy).Contents (Elt F))
  :: StableHlo.nullary main_cst_88 (constant S_ .f32 0x3F800000#32)
  :: StableHlo.unary main_cst_88 main_v373 (broadcastInDim S8192x256 ![] bcast_S_S8192x256 : (⟨S_, .f32⟩ : BufTy).Contents (Elt F) → (⟨S8192x256, .f32⟩ : BufTy).Contents (Elt F))
  :: StableHlo.binary main_v373 main_v372 main_v374 (Host.divf : (⟨S8192x256, .f32⟩ : BufTy).Contents (Elt F) → (⟨S8192x256, .f32⟩ : BufTy).Contents (Elt F) → (⟨S8192x256, .f32⟩ : BufTy).Contents (Elt F))
  :: StableHlo.unary main_v368 main_v375 (Host.tanh : (⟨S8192x256, .f32⟩ : BufTy).Contents (Elt F) → (⟨S8192x256, .f32⟩ : BufTy).Contents (Elt F))
  :: StableHlo.binary main_v374 main_v375 main_v376 (mulf : (⟨S8192x256, .f32⟩ : BufTy).Contents (Elt F) → (⟨S8192x256, .f32⟩ : BufTy).Contents (Elt F) → (⟨S8192x256, .f32⟩ : BufTy).Contents (Elt F))
  :: StableHlo.binary main_v376 main_v360 main_v377 (addf : (⟨S8192x256, .f32⟩ : BufTy).Contents (Elt F) → (⟨S8192x256, .f32⟩ : BufTy).Contents (Elt F) → (⟨S8192x256, .f32⟩ : BufTy).Contents (Elt F))
  :: StableHlo.unary main_v367 main_v378 (Host.negf : (⟨S8192x256, .f32⟩ : BufTy).Contents (Elt F) → (⟨S8192x256, .f32⟩ : BufTy).Contents (Elt F))
  :: StableHlo.unary main_v378 main_v379 (Host.exp : (⟨S8192x256, .f32⟩ : BufTy).Contents (Elt F) → (⟨S8192x256, .f32⟩ : BufTy).Contents (Elt F))
  :: StableHlo.nullary main_cst_89 (constant S_ .f32 0x3F800000#32)
  :: StableHlo.unary main_cst_89 main_v380 (broadcastInDim S8192x256 ![] bcast_S_S8192x256 : (⟨S_, .f32⟩ : BufTy).Contents (Elt F) → (⟨S8192x256, .f32⟩ : BufTy).Contents (Elt F))
  :: StableHlo.binary main_v380 main_v379 main_v381 (addf : (⟨S8192x256, .f32⟩ : BufTy).Contents (Elt F) → (⟨S8192x256, .f32⟩ : BufTy).Contents (Elt F) → (⟨S8192x256, .f32⟩ : BufTy).Contents (Elt F))
  :: StableHlo.nullary main_cst_90 (constant S_ .f32 0x3F800000#32)
  :: StableHlo.unary main_cst_90 main_v382 (broadcastInDim S8192x256 ![] bcast_S_S8192x256 : (⟨S_, .f32⟩ : BufTy).Contents (Elt F) → (⟨S8192x256, .f32⟩ : BufTy).Contents (Elt F))
  :: StableHlo.binary main_v382 main_v381 main_v383 (Host.divf : (⟨S8192x256, .f32⟩ : BufTy).Contents (Elt F) → (⟨S8192x256, .f32⟩ : BufTy).Contents (Elt F) → (⟨S8192x256, .f32⟩ : BufTy).Contents (Elt F))
  :: StableHlo.unary main_v377 main_v384 (Host.tanh : (⟨S8192x256, .f32⟩ : BufTy).Contents (Elt F) → (⟨S8192x256, .f32⟩ : BufTy).Contents (Elt F))
  :: StableHlo.binary main_v383 main_v384 main_v385 (mulf : (⟨S8192x256, .f32⟩ : BufTy).Contents (Elt F) → (⟨S8192x256, .f32⟩ : BufTy).Contents (Elt F) → (⟨S8192x256, .f32⟩ : BufTy).Contents (Elt F))
  :: StableHlo.nullary main_c_91 (constantI S_ 32 0#32)
  :: StableHlo.unary main_c_91 main_v386 (broadcastInDim S8192 ![] bcast_S_S8192 : (⟨S_, .i32⟩ : BufTy).Contents (Elt F) → (⟨S8192, .i32⟩ : BufTy).Contents (Elt F))
  :: StableHlo.binary main_v298 main_v386 main_v387 (cmpi .slt : (⟨S8192, .i32⟩ : BufTy).Contents (Elt F) → (⟨S8192, .i32⟩ : BufTy).Contents (Elt F) → (⟨S8192, .i1⟩ : BufTy).Contents (Elt F))
  :: StableHlo.nullary main_c_92 (constantI S_ 32 131040#32)
  :: StableHlo.unary main_c_92 main_v388 (broadcastInDim S8192 ![] bcast_S_S8192 : (⟨S_, .i32⟩ : BufTy).Contents (Elt F) → (⟨S8192, .i32⟩ : BufTy).Contents (Elt F))
  :: StableHlo.binary main_v298 main_v388 main_v389 (addi : (⟨S8192, .i32⟩ : BufTy).Contents (Elt F) → (⟨S8192, .i32⟩ : BufTy).Contents (Elt F) → (⟨S8192, .i32⟩ : BufTy).Contents (Elt F))
  :: StableHlo.ternary main_v387 main_v389 main_v298 main_v390 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v390 main_v391 (broadcastInDim S8192x1 ![0] bcast_S8192_S8192x1_0 : (⟨S8192, .i32⟩ : BufTy).Contents (Elt F) → (⟨S8192x1, .i32⟩ : BufTy).Contents (Elt F))
  :: StableHlo.ternary main_v282 main_v391 main_v385 main_v392 ((fun x i u => Host.scatter scatter_S131040x256_S8192x1_S8192x256_1_0_0_1 (fun _ b => b) x i u) : (⟨S131040x256, .f32⟩ : BufTy).Contents (Elt F) → (⟨S8192x1, .i32⟩ : BufTy).Contents (Elt F) → (⟨S8192x256, .f32⟩ : BufTy).Contents (Elt F) → (⟨S131040x256, .f32⟩ : BufTy).Contents (Elt F))
  :: StableHlo.nullary main_c_93 (constantI S_ 32 0#32)
  :: StableHlo.unary main_c_93 main_v393 (broadcastInDim S8192 ![] bcast_S_S8192 : (⟨S_, .i32⟩ : BufTy).Contents (Elt F) → (⟨S8192, .i32⟩ : BufTy).Contents (Elt F))
  :: StableHlo.binary main_v298 main_v393 main_v394 (cmpi .slt : (⟨S8192, .i32⟩ : BufTy).Contents (Elt F) → (⟨S8192, .i32⟩ : BufTy).Contents (Elt F) → (⟨S8192, .i1⟩ : BufTy).Contents (Elt F))
  :: StableHlo.nullary main_c_94 (constantI S_ 32 131040#32)
  :: StableHlo.unary main_c_94 main_v395 (broadcastInDim S8192 ![] bcast_S_S8192 : (⟨S_, .i32⟩ : BufTy).Contents (Elt F) → (⟨S8192, .i32⟩ : BufTy).Contents (Elt F))
  :: StableHlo.binary main_v298 main_v395 main_v396 (addi : (⟨S8192, .i32⟩ : BufTy).Contents (Elt F) → (⟨S8192, .i32⟩ : BufTy).Contents (Elt F) → (⟨S8192, .i32⟩ : BufTy).Contents (Elt F))
  :: StableHlo.ternary main_v394 main_v396 main_v298 main_v397 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v397 main_v398 (broadcastInDim S8192x1 ![0] bcast_S8192_S8192x1_0 : (⟨S8192, .i32⟩ : BufTy).Contents (Elt F) → (⟨S8192x1, .i32⟩ : BufTy).Contents (Elt F))
  :: StableHlo.ternary main_v289 main_v398 main_v377 main_v399 ((fun x i u => Host.scatter scatter_S131040x256_S8192x1_S8192x256_1_0_0_1 (fun _ b => b) x i u) : (⟨S131040x256, .f32⟩ : BufTy).Contents (Elt F) → (⟨S8192x1, .i32⟩ : BufTy).Contents (Elt F) → (⟨S8192x256, .f32⟩ : BufTy).Contents (Elt F) → (⟨S131040x256, .f32⟩ : BufTy).Contents (Elt F))
  :: StableHlo.unary main_v16 main_v400 (broadcastInDim S32x1 ![0] bcast_S32_S32x1_0 : (⟨S32, .i32⟩ : BufTy).Contents (Elt F) → (⟨S32x1, .i32⟩ : BufTy).Contents (Elt F))
  :: StableHlo.nullary main_c_95 (constantI S_ 32 127#32)
  :: StableHlo.unary main_c_95 main_v401 (broadcastInDim S32x1 ![] bcast_S_S32x1 : (⟨S_, .i32⟩ : BufTy).Contents (Elt F) → (⟨S32x1, .i32⟩ : BufTy).Contents (Elt F))
  :: StableHlo.binary main_v400 main_v401 main_v402 (addi : (⟨S32x1, .i32⟩ : BufTy).Contents (Elt F) → (⟨S32x1, .i32⟩ : BufTy).Contents (Elt F) → (⟨S32x1, .i32⟩ : BufTy).Contents (Elt F))
  :: StableHlo.nullary main_v403 (iotaInDim S128 32 0)
  :: StableHlo.unary main_v403 main_v404 (broadcastInDim S1x128 ![1] bcast_S128_S1x128_1 : (⟨S128, .i32⟩ : BufTy).Contents (Elt F) → (⟨S1x128, .i32⟩ : BufTy).Contents (Elt F))
  :: StableHlo.unary main_v402 main_v405 (broadcastInDim S32x128 ![0, 1] bcast_S32x1_S32x128_0_1 : (⟨S32x1, .i32⟩ : BufTy).Contents (Elt F) → (⟨S32x128, .i32⟩ : BufTy).Contents (Elt F))
  :: StableHlo.unary main_v404 main_v406 (broadcastInDim S32x128 ![0, 1] bcast_S1x128_S32x128_0_1 : (⟨S1x128, .i32⟩ : BufTy).Contents (Elt F) → (⟨S32x128, .i32⟩ : BufTy).Contents (Elt F))
  :: StableHlo.binary main_v405 main_v406 main_v407 (addi : (⟨S32x128, .i32⟩ : BufTy).Contents (Elt F) → (⟨S32x128, .i32⟩ : BufTy).Contents (Elt F) → (⟨S32x128, .i32⟩ : BufTy).Contents (Elt F))
  :: StableHlo.reshape main_v407 main_v408 rfl shapeCasts_S32x128_S4096
  :: StableHlo.nullary main_c_96 (constantI S_ 32 0#32)
  :: StableHlo.unary main_c_96 main_v409 (broadcastInDim S4096 ![] bcast_S_S4096 : (⟨S_, .i32⟩ : BufTy).Contents (Elt F) → (⟨S4096, .i32⟩ : BufTy).Contents (Elt F))
  :: StableHlo.binary main_v408 main_v409 main_v410 (cmpi .slt : (⟨S4096, .i32⟩ : BufTy).Contents (Elt F) → (⟨S4096, .i32⟩ : BufTy).Contents (Elt F) → (⟨S4096, .i1⟩ : BufTy).Contents (Elt F))
  :: StableHlo.nullary main_c_97 (constantI S_ 32 131040#32)
  :: StableHlo.unary main_c_97 main_v411 (broadcastInDim S4096 ![] bcast_S_S4096 : (⟨S_, .i32⟩ : BufTy).Contents (Elt F) → (⟨S4096, .i32⟩ : BufTy).Contents (Elt F))
  :: StableHlo.binary main_v408 main_v411 main_v412 (addi : (⟨S4096, .i32⟩ : BufTy).Contents (Elt F) → (⟨S4096, .i32⟩ : BufTy).Contents (Elt F) → (⟨S4096, .i32⟩ : BufTy).Contents (Elt F))
  :: StableHlo.ternary main_v410 main_v412 main_v408 main_v413 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v413 main_v414 (broadcastInDim S4096x1 ![0] bcast_S4096_S4096x1_0 : (⟨S4096, .i32⟩ : BufTy).Contents (Elt F) → (⟨S4096x1, .i32⟩ : BufTy).Contents (Elt F))
  :: StableHlo.binary main_v11 main_v414 main_v415 ((fun x i => Host.gather gather_S131040x768_S4096x1_S4096x768_1_0_n_n_0_1_1768 x i) : (⟨S131040x768, .f32⟩ : BufTy).Contents (Elt F) → (⟨S4096x1, .i32⟩ : BufTy).Contents (Elt F) → (⟨S4096x768, .f32⟩ : BufTy).Contents (Elt F))
  :: StableHlo.unary main_v16 main_v416 (broadcastInDim S32x1 ![0] bcast_S32_S32x1_0 : (⟨S32, .i32⟩ : BufTy).Contents (Elt F) → (⟨S32x1, .i32⟩ : BufTy).Contents (Elt F))
  :: StableHlo.nullary main_c_98 (constantI S_ 32 255#32)
  :: StableHlo.unary main_c_98 main_v417 (broadcastInDim S32x1 ![] bcast_S_S32x1 : (⟨S_, .i32⟩ : BufTy).Contents (Elt F) → (⟨S32x1, .i32⟩ : BufTy).Contents (Elt F))
  :: StableHlo.binary main_v416 main_v417 main_v418 (addi : (⟨S32x1, .i32⟩ : BufTy).Contents (Elt F) → (⟨S32x1, .i32⟩ : BufTy).Contents (Elt F) → (⟨S32x1, .i32⟩ : BufTy).Contents (Elt F))
  :: StableHlo.nullary main_v419 (iotaInDim S256 32 0)
  :: StableHlo.unary main_v419 main_v420 (broadcastInDim S1x256 ![1] bcast_S256_S1x256_1 : (⟨S256, .i32⟩ : BufTy).Contents (Elt F) → (⟨S1x256, .i32⟩ : BufTy).Contents (Elt F))
  :: StableHlo.unary main_v418 main_v421 (broadcastInDim S32x256 ![0, 1] bcast_S32x1_S32x256_0_1 : (⟨S32x1, .i32⟩ : BufTy).Contents (Elt F) → (⟨S32x256, .i32⟩ : BufTy).Contents (Elt F))
  :: StableHlo.unary main_v420 main_v422 (broadcastInDim S32x256 ![0, 1] bcast_S1x256_S32x256_0_1 : (⟨S1x256, .i32⟩ : BufTy).Contents (Elt F) → (⟨S32x256, .i32⟩ : BufTy).Contents (Elt F))
  :: StableHlo.binary main_v421 main_v422 main_v423 (addi : (⟨S32x256, .i32⟩ : BufTy).Contents (Elt F) → (⟨S32x256, .i32⟩ : BufTy).Contents (Elt F) → (⟨S32x256, .i32⟩ : BufTy).Contents (Elt F))
  :: StableHlo.reshape main_v423 main_v424 rfl shapeCasts_S32x256_S8192
  :: StableHlo.nullary main_c_99 (constantI S_ 32 0#32)
  :: StableHlo.unary main_c_99 main_v425 (broadcastInDim S8192 ![] bcast_S_S8192 : (⟨S_, .i32⟩ : BufTy).Contents (Elt F) → (⟨S8192, .i32⟩ : BufTy).Contents (Elt F))
  :: StableHlo.binary main_v424 main_v425 main_v426 (cmpi .slt : (⟨S8192, .i32⟩ : BufTy).Contents (Elt F) → (⟨S8192, .i32⟩ : BufTy).Contents (Elt F) → (⟨S8192, .i1⟩ : BufTy).Contents (Elt F))
  :: StableHlo.nullary main_c_100 (constantI S_ 32 131040#32)
  :: StableHlo.unary main_c_100 main_v427 (broadcastInDim S8192 ![] bcast_S_S8192 : (⟨S_, .i32⟩ : BufTy).Contents (Elt F) → (⟨S8192, .i32⟩ : BufTy).Contents (Elt F))
  :: StableHlo.binary main_v424 main_v427 main_v428 (addi : (⟨S8192, .i32⟩ : BufTy).Contents (Elt F) → (⟨S8192, .i32⟩ : BufTy).Contents (Elt F) → (⟨S8192, .i32⟩ : BufTy).Contents (Elt F))
  :: StableHlo.ternary main_v426 main_v428 main_v424 main_v429 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v429 main_v430 (broadcastInDim S8192x1 ![0] bcast_S8192_S8192x1_0 : (⟨S8192, .i32⟩ : BufTy).Contents (Elt F) → (⟨S8192x1, .i32⟩ : BufTy).Contents (Elt F))
  :: StableHlo.binary main_v392 main_v430 main_v431 ((fun x i => Host.gather gather_S131040x256_S8192x1_S8192x256_1_0_n_n_0_1_1256 x i) : (⟨S131040x256, .f32⟩ : BufTy).Contents (Elt F) → (⟨S8192x1, .i32⟩ : BufTy).Contents (Elt F) → (⟨S8192x256, .f32⟩ : BufTy).Contents (Elt F))
  :: StableHlo.nullary main_c_101 (constantI S_ 32 0#32)
  :: StableHlo.unary main_c_101 main_v432 (broadcastInDim S8192 ![] bcast_S_S8192 : (⟨S_, .i32⟩ : BufTy).Contents (Elt F) → (⟨S8192, .i32⟩ : BufTy).Contents (Elt F))
  :: StableHlo.binary main_v424 main_v432 main_v433 (cmpi .slt : (⟨S8192, .i32⟩ : BufTy).Contents (Elt F) → (⟨S8192, .i32⟩ : BufTy).Contents (Elt F) → (⟨S8192, .i1⟩ : BufTy).Contents (Elt F))
  :: StableHlo.nullary main_c_102 (constantI S_ 32 131040#32)
  :: StableHlo.unary main_c_102 main_v434 (broadcastInDim S8192 ![] bcast_S_S8192 : (⟨S_, .i32⟩ : BufTy).Contents (Elt F) → (⟨S8192, .i32⟩ : BufTy).Contents (Elt F))
  :: StableHlo.binary main_v424 main_v434 main_v435 (addi : (⟨S8192, .i32⟩ : BufTy).Contents (Elt F) → (⟨S8192, .i32⟩ : BufTy).Contents (Elt F) → (⟨S8192, .i32⟩ : BufTy).Contents (Elt F))
  :: StableHlo.ternary main_v433 main_v435 main_v424 main_v436 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v436 main_v437 (broadcastInDim S8192x1 ![0] bcast_S8192_S8192x1_0 : (⟨S8192, .i32⟩ : BufTy).Contents (Elt F) → (⟨S8192x1, .i32⟩ : BufTy).Contents (Elt F))
  :: StableHlo.binary main_v399 main_v437 main_v438 ((fun x i => Host.gather gather_S131040x256_S8192x1_S8192x256_1_0_n_n_0_1_1256 x i) : (⟨S131040x256, .f32⟩ : BufTy).Contents (Elt F) → (⟨S8192x1, .i32⟩ : BufTy).Contents (Elt F) → (⟨S8192x256, .f32⟩ : BufTy).Contents (Elt F))
  :: StableHlo.nullary main_c_103 (constantI S_ 32 0#32)
  :: StableHlo.unary main_c_103 main_v439 (broadcastInDim S8192 ![] bcast_S_S8192 : (⟨S_, .i32⟩ : BufTy).Contents (Elt F) → (⟨S8192, .i32⟩ : BufTy).Contents (Elt F))
  :: StableHlo.binary main_v424 main_v439 main_v440 (cmpi .slt : (⟨S8192, .i32⟩ : BufTy).Contents (Elt F) → (⟨S8192, .i32⟩ : BufTy).Contents (Elt F) → (⟨S8192, .i1⟩ : BufTy).Contents (Elt F))
  :: StableHlo.nullary main_c_104 (constantI S_ 32 131040#32)
  :: StableHlo.unary main_c_104 main_v441 (broadcastInDim S8192 ![] bcast_S_S8192 : (⟨S_, .i32⟩ : BufTy).Contents (Elt F) → (⟨S8192, .i32⟩ : BufTy).Contents (Elt F))
  :: StableHlo.binary main_v424 main_v441 main_v442 (addi : (⟨S8192, .i32⟩ : BufTy).Contents (Elt F) → (⟨S8192, .i32⟩ : BufTy).Contents (Elt F) → (⟨S8192, .i32⟩ : BufTy).Contents (Elt F))
  :: StableHlo.ternary main_v440 main_v442 main_v424 main_v443 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v443 main_v444 (broadcastInDim S8192x1 ![0] bcast_S8192_S8192x1_0 : (⟨S8192, .i32⟩ : BufTy).Contents (Elt F) → (⟨S8192x1, .i32⟩ : BufTy).Contents (Elt F))
  :: StableHlo.binary main_arg1 main_v444 main_v445 ((fun x i => Host.gather gather_S131040_S8192x1_S8192_n_0_n_n_0_1_1 x i) : (⟨S131040, .i32⟩ : BufTy).Contents (Elt F) → (⟨S8192x1, .i32⟩ : BufTy).Contents (Elt F) → (⟨S8192, .i32⟩ : BufTy).Contents (Elt F))
  :: StableHlo.nullary main_c_105 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_12_sub : (hostOps0_12 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_7 (main_call6), in order. -/
abbrev hostOps0_13 : List (HloOp τ sig (Elt F)) :=
  [ StableHlo.TRef.unary (.of main_c_105 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S8192, .i32⟩) (broadcastInDim S8192 ![] bcast_S_S8192),
    StableHlo.TRef.binary (.of main_v445 : StableHlo.TRef sig ⟨S8192, .i32⟩) (.of main_call6_v1 : StableHlo.TRef sig ⟨S8192, .i32⟩) (.of main_call6_v2 : StableHlo.TRef sig ⟨S8192, .i32⟩) Host.divsi,
    StableHlo.TRef.unary (.of main_v445 : StableHlo.TRef sig ⟨S8192, .i32⟩) (.of main_call6_v3 : StableHlo.TRef sig ⟨S8192, .i32⟩) signi,
    StableHlo.TRef.unary (.of main_call6_v0 : StableHlo.TRef sig ⟨S_, .i32⟩) (.of main_call6_v4 : StableHlo.TRef sig ⟨S_, .i32⟩) signi,
    StableHlo.TRef.unary (.of main_call6_v4 : StableHlo.TRef sig ⟨S_, .i32⟩) (.of main_call6_v5 : StableHlo.TRef sig ⟨S8192, .i32⟩) (broadcastInDim S8192 ![] bcast_S_S8192),
    StableHlo.TRef.binary (.of main_call6_v3 : StableHlo.TRef sig ⟨S8192, .i32⟩) (.of main_call6_v5 : StableHlo.TRef sig ⟨S8192, .i32⟩) (.of main_call6_v6 : StableHlo.TRef sig ⟨S8192, .i1⟩) (cmpi .ne),
    StableHlo.TRef.unary (.of main_call6_v0 : StableHlo.TRef sig ⟨S_, .i32⟩) (.of main_call6_v7 : StableHlo.TRef sig ⟨S8192, .i32⟩) (broadcastInDim S8192 ![] bcast_S_S8192),
    StableHlo.TRef.binary (.of main_v445 : StableHlo.TRef sig ⟨S8192, .i32⟩) (.of main_call6_v7 : StableHlo.TRef sig ⟨S8192, .i32⟩) (.of main_call6_v8 : StableHlo.TRef sig ⟨S8192, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v9 : StableHlo.TRef sig ⟨S8192, .i32⟩) (broadcastInDim S8192 ![] bcast_S_S8192),
    StableHlo.TRef.binary (.of main_call6_v8 : StableHlo.TRef sig ⟨S8192, .i32⟩) (.of main_call6_v9 : StableHlo.TRef sig ⟨S8192, .i32⟩) (.of main_call6_v10 : StableHlo.TRef sig ⟨S8192, .i1⟩) (cmpi .ne),
    StableHlo.TRef.binary (.of main_call6_v6 : StableHlo.TRef sig ⟨S8192, .i1⟩) (.of main_call6_v10 : StableHlo.TRef sig ⟨S8192, .i1⟩) (.of main_call6_v11 : StableHlo.TRef sig ⟨S8192, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v12 : StableHlo.TRef sig ⟨S8192, .i32⟩) (broadcastInDim S8192 ![] bcast_S_S8192),
    StableHlo.TRef.binary (.of main_call6_v2 : StableHlo.TRef sig ⟨S8192, .i32⟩) (.of main_call6_v12 : StableHlo.TRef sig ⟨S8192, .i32⟩) (.of main_call6_v13 : StableHlo.TRef sig ⟨S8192, .i32⟩) subi,
    StableHlo.TRef.ternary (.of main_call6_v11 : StableHlo.TRef sig ⟨S8192, .i1⟩) (.of main_call6_v13 : StableHlo.TRef sig ⟨S8192, .i32⟩) (.of main_call6_v2 : StableHlo.TRef sig ⟨S8192, .i32⟩) (.of main_v446 : StableHlo.TRef sig ⟨S8192, .i32⟩) select ]
/-- Each touches TensorCore references only (`HostSeg.ofOps` over `StableHlo.tcRefs`, or a subset by `sub_ucRefs`). -/
theorem hostOps0_13_sub : (hostOps0_13 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_14 : List (HloOp τ sig (Elt F)) :=
  [ StableHlo.nullary main_c_106 (constantI S_ 32 128#32),
    StableHlo.unary main_c_106 main_v447 (broadcastInDim S8192 ![] bcast_S_S8192 : (⟨S_, .i32⟩ : BufTy).Contents (Elt F) → (⟨S8192, .i32⟩ : BufTy).Contents (Elt F)),
    StableHlo.binary main_v446 main_v447 main_v448 (muli : (⟨S8192, .i32⟩ : BufTy).Contents (Elt F) → (⟨S8192, .i32⟩ : BufTy).Contents (Elt F) → (⟨S8192, .i32⟩ : BufTy).Contents (Elt F)),
    StableHlo.nullary main_c_107 (constantI S_ 32 4095#32) ]
/-- Each touches TensorCore references only (`HostSeg.ofOps` over `StableHlo.tcRefs`, or a subset by `sub_ucRefs`). -/
theorem hostOps0_14_sub : (hostOps0_14 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_9 (main_call7), in order. -/
abbrev hostOps0_15 : List (HloOp τ sig (Elt F)) :=
  [ StableHlo.TRef.unary (.of main_c_107 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S8192, .i32⟩) (broadcastInDim S8192 ![] bcast_S_S8192),
    StableHlo.TRef.binary (.of main_v445 : StableHlo.TRef sig ⟨S8192, .i32⟩) (.of main_call7_v3 : StableHlo.TRef sig ⟨S8192, .i32⟩) (.of main_call7_v4 : StableHlo.TRef sig ⟨S8192, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S8192, .i32⟩) (broadcastInDim S8192 ![] bcast_S_S8192),
    StableHlo.TRef.binary (.of main_call7_v4 : StableHlo.TRef sig ⟨S8192, .i32⟩) (.of main_call7_v5 : StableHlo.TRef sig ⟨S8192, .i32⟩) (.of main_call7_v6 : StableHlo.TRef sig ⟨S8192, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S8192, .i32⟩) (broadcastInDim S8192 ![] bcast_S_S8192),
    StableHlo.TRef.binary (.of main_call7_v4 : StableHlo.TRef sig ⟨S8192, .i32⟩) (.of main_call7_v7 : StableHlo.TRef sig ⟨S8192, .i32⟩) (.of main_call7_v8 : StableHlo.TRef sig ⟨S8192, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S8192, .i1⟩) (broadcastInDim S8192 ![] bcast_S_S8192),
    StableHlo.TRef.binary (.of main_call7_v8 : StableHlo.TRef sig ⟨S8192, .i1⟩) (.of main_call7_v10 : StableHlo.TRef sig ⟨S8192, .i1⟩) (.of main_call7_v11 : StableHlo.TRef sig ⟨S8192, .i1⟩) (cmpi .ne),
    StableHlo.TRef.binary (.of main_call7_v11 : StableHlo.TRef sig ⟨S8192, .i1⟩) (.of main_call7_v6 : StableHlo.TRef sig ⟨S8192, .i1⟩) (.of main_call7_v12 : StableHlo.TRef sig ⟨S8192, .i1⟩) andi,
    StableHlo.TRef.unary main_call7_call0.v0 (.of main_call7_v13 : StableHlo.TRef sig ⟨S8192, .i32⟩) (broadcastInDim S8192 ![] bcast_S_S8192),
    StableHlo.TRef.binary (.of main_call7_v4 : StableHlo.TRef sig ⟨S8192, .i32⟩) (.of main_call7_v13 : StableHlo.TRef sig ⟨S8192, .i32⟩) (.of main_call7_v14 : StableHlo.TRef sig ⟨S8192, .i32⟩) addi,
    StableHlo.TRef.ternary (.of main_call7_v12 : StableHlo.TRef sig ⟨S8192, .i1⟩) (.of main_call7_v14 : StableHlo.TRef sig ⟨S8192, .i32⟩) (.of main_call7_v4 : StableHlo.TRef sig ⟨S8192, .i32⟩) (.of main_v449 : StableHlo.TRef sig ⟨S8192, .i32⟩) select ]
/-- Each touches TensorCore references only (`HostSeg.ofOps` over `StableHlo.tcRefs`, or a subset by `sub_ucRefs`). -/
theorem hostOps0_15_sub : (hostOps0_15 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 130 host operations of @main, in order. -/
abbrev hostOps0_16 : List (HloOp τ sig (Elt F)) :=
  ( StableHlo.nullary main_c_108 (constantI S_ 32 127#32)
  :: StableHlo.unary main_c_108 main_v450 (broadcastInDim S8192 ![] bcast_S_S8192 : (⟨S_, .i32⟩ : BufTy).Contents (Elt F) → (⟨S8192, .i32⟩ : BufTy).Contents (Elt F))
  :: StableHlo.binary main_v449 main_v450 main_v451 (subi : (⟨S8192, .i32⟩ : BufTy).Contents (Elt F) → (⟨S8192, .i32⟩ : BufTy).Contents (Elt F) → (⟨S8192, .i32⟩ : BufTy).Contents (Elt F))
  :: StableHlo.binary main_v448 main_v451 main_v452 (addi : (⟨S8192, .i32⟩ : BufTy).Contents (Elt F) → (⟨S8192, .i32⟩ : BufTy).Contents (Elt F) → (⟨S8192, .i32⟩ : BufTy).Contents (Elt F))
  :: StableHlo.unary main_arg6 main_v453 ((transpose S256x256 [1, 0] · transposes_S256x256_S256x256_1_0) : (⟨S256x256, .f32⟩ : BufTy).Contents (Elt F) → (⟨S256x256, .f32⟩ : BufTy).Contents (Elt F))
  :: StableHlo.binary main_v431 main_v453 main_v454 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F))
  :: StableHlo.unary main_arg7 main_v455 (broadcastInDim S1x256 ![1] bcast_S256_S1x256_1 : (⟨S256, .f32⟩ : BufTy).Contents (Elt F) → (⟨S1x256, .f32⟩ : BufTy).Contents (Elt F))
  :: StableHlo.unary main_v455 main_v456 (broadcastInDim S8192x256 ![0, 1] bcast_S1x256_S8192x256_0_1 : (⟨S1x256, .f32⟩ : BufTy).Contents (Elt F) → (⟨S8192x256, .f32⟩ : BufTy).Contents (Elt F))
  :: StableHlo.binary main_v454 main_v456 main_v457 (addf : (⟨S8192x256, .f32⟩ : BufTy).Contents (Elt F) → (⟨S8192x256, .f32⟩ : BufTy).Contents (Elt F) → (⟨S8192x256, .f32⟩ : BufTy).Contents (Elt F))
  :: StableHlo.unary main_v457 main_v458 (Host.negf : (⟨S8192x256, .f32⟩ : BufTy).Contents (Elt F) → (⟨S8192x256, .f32⟩ : BufTy).Contents (Elt F))
  :: StableHlo.unary main_v458 main_v459 (Host.exp : (⟨S8192x256, .f32⟩ : BufTy).Contents (Elt F) → (⟨S8192x256, .f32⟩ : BufTy).Contents (Elt F))
  :: StableHlo.nullary main_cst_109 (constant S_ .f32 0x3F800000#32)
  :: StableHlo.unary main_cst_109 main_v460 (broadcastInDim S8192x256 ![] bcast_S_S8192x256 : (⟨S_, .f32⟩ : BufTy).Contents (Elt F) → (⟨S8192x256, .f32⟩ : BufTy).Contents (Elt F))
  :: StableHlo.binary main_v460 main_v459 main_v461 (addf : (⟨S8192x256, .f32⟩ : BufTy).Contents (Elt F) → (⟨S8192x256, .f32⟩ : BufTy).Contents (Elt F) → (⟨S8192x256, .f32⟩ : BufTy).Contents (Elt F))
  :: StableHlo.nullary main_cst_110 (constant S_ .f32 0x3F800000#32)
  :: StableHlo.unary main_cst_110 main_v462 (broadcastInDim S8192x256 ![] bcast_S_S8192x256 : (⟨S_, .f32⟩ : BufTy).Contents (Elt F) → (⟨S8192x256, .f32⟩ : BufTy).Contents (Elt F))
  :: StableHlo.binary main_v462 main_v461 main_v463 (Host.divf : (⟨S8192x256, .f32⟩ : BufTy).Contents (Elt F) → (⟨S8192x256, .f32⟩ : BufTy).Contents (Elt F) → (⟨S8192x256, .f32⟩ : BufTy).Contents (Elt F))
  :: StableHlo.nullary main_cst_111 (constant S_ .f32 0x00000000#32)
  :: StableHlo.unary main_cst_111 main_v464 (broadcastInDim S4096x256 ![] bcast_S_S4096x256 : (⟨S_, .f32⟩ : BufTy).Contents (Elt F) → (⟨S4096x256, .f32⟩ : BufTy).Contents (Elt F))
  :: StableHlo.unary main_v452 main_v465 (broadcastInDim S8192x1 ![0] bcast_S8192_S8192x1_0 : (⟨S8192, .i32⟩ : BufTy).Contents (Elt F) → (⟨S8192x1, .i32⟩ : BufTy).Contents (Elt F))
  :: StableHlo.ternary main_v464 main_v465 main_v431 main_v466 ((fun x i u => Host.scatterAdd scatter_S4096x256_S8192x1_S8192x256_1_0_0_1 x i u) : (⟨S4096x256, .f32⟩ : BufTy).Contents (Elt F) → (⟨S8192x1, .i32⟩ : BufTy).Contents (Elt F) → (⟨S8192x256, .f32⟩ : BufTy).Contents (Elt F) → (⟨S4096x256, .f32⟩ : BufTy).Contents (Elt F))
  :: StableHlo.binary main_v463 main_v438 main_v467 (mulf : (⟨S8192x256, .f32⟩ : BufTy).Contents (Elt F) → (⟨S8192x256, .f32⟩ : BufTy).Contents (Elt F) → (⟨S8192x256, .f32⟩ : BufTy).Contents (Elt F))
  :: StableHlo.nullary main_cst_112 (constant S_ .f32 0x00000000#32)
  :: StableHlo.unary main_cst_112 main_v468 (broadcastInDim S4096x256 ![] bcast_S_S4096x256 : (⟨S_, .f32⟩ : BufTy).Contents (Elt F) → (⟨S4096x256, .f32⟩ : BufTy).Contents (Elt F))
  :: StableHlo.unary main_v452 main_v469 (broadcastInDim S8192x1 ![0] bcast_S8192_S8192x1_0 : (⟨S8192, .i32⟩ : BufTy).Contents (Elt F) → (⟨S8192x1, .i32⟩ : BufTy).Contents (Elt F))
  :: StableHlo.ternary main_v468 main_v469 main_v467 main_v470 ((fun x i u => Host.scatterAdd scatter_S4096x256_S8192x1_S8192x256_1_0_0_1 x i u) : (⟨S4096x256, .f32⟩ : BufTy).Contents (Elt F) → (⟨S8192x1, .i32⟩ : BufTy).Contents (Elt F) → (⟨S8192x256, .f32⟩ : BufTy).Contents (Elt F) → (⟨S4096x256, .f32⟩ : BufTy).Contents (Elt F))
  :: StableHlo.unary main_arg4 main_v471 ((transpose S256x768 [1, 0] · transposes_S768x256_S256x768_1_0) : (⟨S768x256, .f32⟩ : BufTy).Contents (Elt F) → (⟨S256x768, .f32⟩ : BufTy).Contents (Elt F))
  :: StableHlo.binary main_v466 main_v471 main_v472 ((fun l r => Host.dotGeneral dot_S4096x256_S256x768_S4096x768_1_0_0_1_n_n none l r) : (⟨S4096x256, .f32⟩ : BufTy).Contents (Elt F) → (⟨S256x768, .f32⟩ : BufTy).Contents (Elt F) → (⟨S4096x768, .f32⟩ : BufTy).Contents (Elt F))
  :: StableHlo.binary main_v415 main_v472 main_v473 (addf : (⟨S4096x768, .f32⟩ : BufTy).Contents (Elt F) → (⟨S4096x768, .f32⟩ : BufTy).Contents (Elt F) → (⟨S4096x768, .f32⟩ : BufTy).Contents (Elt F))
  :: StableHlo.unary main_arg5 main_v474 (broadcastInDim S4096x768 ![0, 1] bcast_S1x768_S4096x768_0_1 : (⟨S1x768, .f32⟩ : BufTy).Contents (Elt F) → (⟨S4096x768, .f32⟩ : BufTy).Contents (Elt F))
  :: StableHlo.binary main_v473 main_v474 main_v475 (addf : (⟨S4096x768, .f32⟩ : BufTy).Contents (Elt F) → (⟨S4096x768, .f32⟩ : BufTy).Contents (Elt F) → (⟨S4096x768, .f32⟩ : BufTy).Contents (Elt F))
  :: StableHlo.unary main_v475 main_v476 ((extractStridedSlice S4096x256 ![0, 0] · slices_S4096x768_S4096x256_0_0) : (⟨S4096x768, .f32⟩ : BufTy).Contents (Elt F) → (⟨S4096x256, .f32⟩ : BufTy).Contents (Elt F))
  :: StableHlo.unary main_v475 main_v477 ((extractStridedSlice S4096x256 ![0, 256] · slices_S4096x768_S4096x256_0_256) : (⟨S4096x768, .f32⟩ : BufTy).Contents (Elt F) → (⟨S4096x256, .f32⟩ : BufTy).Contents (Elt F))
  :: StableHlo.unary main_v475 main_v478 ((extractStridedSlice S4096x256 ![0, 512] · slices_S4096x768_S4096x256_0_512) : (⟨S4096x768, .f32⟩ : BufTy).Contents (Elt F) → (⟨S4096x256, .f32⟩ : BufTy).Contents (Elt F))
  :: StableHlo.unary main_v476 main_v479 (Host.negf : (⟨S4096x256, .f32⟩ : BufTy).Contents (Elt F) → (⟨S4096x256, .f32⟩ : BufTy).Contents (Elt F))
  :: StableHlo.unary main_v479 main_v480 (Host.exp : (⟨S4096x256, .f32⟩ : BufTy).Contents (Elt F) → (⟨S4096x256, .f32⟩ : BufTy).Contents (Elt F))
  :: StableHlo.nullary main_cst_113 (constant S_ .f32 0x3F800000#32)
  :: StableHlo.unary main_cst_113 main_v481 (broadcastInDim S4096x256 ![] bcast_S_S4096x256 : (⟨S_, .f32⟩ : BufTy).Contents (Elt F) → (⟨S4096x256, .f32⟩ : BufTy).Contents (Elt F))
  :: StableHlo.binary main_v481 main_v480 main_v482 (addf : (⟨S4096x256, .f32⟩ : BufTy).Contents (Elt F) → (⟨S4096x256, .f32⟩ : BufTy).Contents (Elt F) → (⟨S4096x256, .f32⟩ : BufTy).Contents (Elt F))
  :: StableHlo.nullary main_cst_114 (constant S_ .f32 0x3F800000#32)
  :: StableHlo.unary main_cst_114 main_v483 (broadcastInDim S4096x256 ![] bcast_S_S4096x256 : (⟨S_, .f32⟩ : BufTy).Contents (Elt F) → (⟨S4096x256, .f32⟩ : BufTy).Contents (Elt F))
  :: StableHlo.binary main_v483 main_v482 main_v484 (Host.divf : (⟨S4096x256, .f32⟩ : BufTy).Contents (Elt F) → (⟨S4096x256, .f32⟩ : BufTy).Contents (Elt F) → (⟨S4096x256, .f32⟩ : BufTy).Contents (Elt F))
  :: StableHlo.unary main_v478 main_v485 (Host.tanh : (⟨S4096x256, .f32⟩ : BufTy).Contents (Elt F) → (⟨S4096x256, .f32⟩ : BufTy).Contents (Elt F))
  :: StableHlo.binary main_v484 main_v485 main_v486 (mulf : (⟨S4096x256, .f32⟩ : BufTy).Contents (Elt F) → (⟨S4096x256, .f32⟩ : BufTy).Contents (Elt F) → (⟨S4096x256, .f32⟩ : BufTy).Contents (Elt F))
  :: StableHlo.binary main_v486 main_v470 main_v487 (addf : (⟨S4096x256, .f32⟩ : BufTy).Contents (Elt F) → (⟨S4096x256, .f32⟩ : BufTy).Contents (Elt F) → (⟨S4096x256, .f32⟩ : BufTy).Contents (Elt F))
  :: StableHlo.unary main_v477 main_v488 (Host.negf : (⟨S4096x256, .f32⟩ : BufTy).Contents (Elt F) → (⟨S4096x256, .f32⟩ : BufTy).Contents (Elt F))
  :: StableHlo.unary main_v488 main_v489 (Host.exp : (⟨S4096x256, .f32⟩ : BufTy).Contents (Elt F) → (⟨S4096x256, .f32⟩ : BufTy).Contents (Elt F))
  :: StableHlo.nullary main_cst_115 (constant S_ .f32 0x3F800000#32)
  :: StableHlo.unary main_cst_115 main_v490 (broadcastInDim S4096x256 ![] bcast_S_S4096x256 : (⟨S_, .f32⟩ : BufTy).Contents (Elt F) → (⟨S4096x256, .f32⟩ : BufTy).Contents (Elt F))
  :: StableHlo.binary main_v490 main_v489 main_v491 (addf : (⟨S4096x256, .f32⟩ : BufTy).Contents (Elt F) → (⟨S4096x256, .f32⟩ : BufTy).Contents (Elt F) → (⟨S4096x256, .f32⟩ : BufTy).Contents (Elt F))
  :: StableHlo.nullary main_cst_116 (constant S_ .f32 0x3F800000#32)
  :: StableHlo.unary main_cst_116 main_v492 (broadcastInDim S4096x256 ![] bcast_S_S4096x256 : (⟨S_, .f32⟩ : BufTy).Contents (Elt F) → (⟨S4096x256, .f32⟩ : BufTy).Contents (Elt F))
  :: StableHlo.binary main_v492 main_v491 main_v493 (Host.divf : (⟨S4096x256, .f32⟩ : BufTy).Contents (Elt F) → (⟨S4096x256, .f32⟩ : BufTy).Contents (Elt F) → (⟨S4096x256, .f32⟩ : BufTy).Contents (Elt F))
  :: StableHlo.unary main_v487 main_v494 (Host.tanh : (⟨S4096x256, .f32⟩ : BufTy).Contents (Elt F) → (⟨S4096x256, .f32⟩ : BufTy).Contents (Elt F))
  :: StableHlo.binary main_v493 main_v494 main_v495 (mulf : (⟨S4096x256, .f32⟩ : BufTy).Contents (Elt F) → (⟨S4096x256, .f32⟩ : BufTy).Contents (Elt F) → (⟨S4096x256, .f32⟩ : BufTy).Contents (Elt F))
  :: StableHlo.nullary main_c_117 (constantI S_ 32 0#32)
  :: StableHlo.unary main_c_117 main_v496 (broadcastInDim S4096 ![] bcast_S_S4096 : (⟨S_, .i32⟩ : BufTy).Contents (Elt F) → (⟨S4096, .i32⟩ : BufTy).Contents (Elt F))
  :: StableHlo.binary main_v408 main_v496 main_v497 (cmpi .slt : (⟨S4096, .i32⟩ : BufTy).Contents (Elt F) → (⟨S4096, .i32⟩ : BufTy).Contents (Elt F) → (⟨S4096, .i1⟩ : BufTy).Contents (Elt F))
  :: StableHlo.nullary main_c_118 (constantI S_ 32 131040#32)
  :: StableHlo.unary main_c_118 main_v498 (broadcastInDim S4096 ![] bcast_S_S4096 : (⟨S_, .i32⟩ : BufTy).Contents (Elt F) → (⟨S4096, .i32⟩ : BufTy).Contents (Elt F))
  :: StableHlo.binary main_v408 main_v498 main_v499 (addi : (⟨S4096, .i32⟩ : BufTy).Contents (Elt F) → (⟨S4096, .i32⟩ : BufTy).Contents (Elt F) → (⟨S4096, .i32⟩ : BufTy).Contents (Elt F))
  :: StableHlo.ternary main_v497 main_v499 main_v408 main_v500 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v500 main_v501 (broadcastInDim S4096x1 ![0] bcast_S4096_S4096x1_0 : (⟨S4096, .i32⟩ : BufTy).Contents (Elt F) → (⟨S4096x1, .i32⟩ : BufTy).Contents (Elt F))
  :: StableHlo.ternary main_v392 main_v501 main_v495 main_v502 ((fun x i u => Host.scatter scatter_S131040x256_S4096x1_S4096x256_1_0_0_1 (fun _ b => b) x i u) : (⟨S131040x256, .f32⟩ : BufTy).Contents (Elt F) → (⟨S4096x1, .i32⟩ : BufTy).Contents (Elt F) → (⟨S4096x256, .f32⟩ : BufTy).Contents (Elt F) → (⟨S131040x256, .f32⟩ : BufTy).Contents (Elt F))
  :: StableHlo.nullary main_c_119 (constantI S_ 32 0#32)
  :: StableHlo.unary main_c_119 main_v503 (broadcastInDim S4096 ![] bcast_S_S4096 : (⟨S_, .i32⟩ : BufTy).Contents (Elt F) → (⟨S4096, .i32⟩ : BufTy).Contents (Elt F))
  :: StableHlo.binary main_v408 main_v503 main_v504 (cmpi .slt : (⟨S4096, .i32⟩ : BufTy).Contents (Elt F) → (⟨S4096, .i32⟩ : BufTy).Contents (Elt F) → (⟨S4096, .i1⟩ : BufTy).Contents (Elt F))
  :: StableHlo.nullary main_c_120 (constantI S_ 32 131040#32)
  :: StableHlo.unary main_c_120 main_v505 (broadcastInDim S4096 ![] bcast_S_S4096 : (⟨S_, .i32⟩ : BufTy).Contents (Elt F) → (⟨S4096, .i32⟩ : BufTy).Contents (Elt F))
  :: StableHlo.binary main_v408 main_v505 main_v506 (addi : (⟨S4096, .i32⟩ : BufTy).Contents (Elt F) → (⟨S4096, .i32⟩ : BufTy).Contents (Elt F) → (⟨S4096, .i32⟩ : BufTy).Contents (Elt F))
  :: StableHlo.ternary main_v504 main_v506 main_v408 main_v507 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v507 main_v508 (broadcastInDim S4096x1 ![0] bcast_S4096_S4096x1_0 : (⟨S4096, .i32⟩ : BufTy).Contents (Elt F) → (⟨S4096x1, .i32⟩ : BufTy).Contents (Elt F))
  :: StableHlo.ternary main_v399 main_v508 main_v487 main_v509 ((fun x i u => Host.scatter scatter_S131040x256_S4096x1_S4096x256_1_0_0_1 (fun _ b => b) x i u) : (⟨S131040x256, .f32⟩ : BufTy).Contents (Elt F) → (⟨S4096x1, .i32⟩ : BufTy).Contents (Elt F) → (⟨S4096x256, .f32⟩ : BufTy).Contents (Elt F) → (⟨S131040x256, .f32⟩ : BufTy).Contents (Elt F))
  :: StableHlo.unary main_v16 main_v510 (broadcastInDim S32x1 ![0] bcast_S32_S32x1_0 : (⟨S32, .i32⟩ : BufTy).Contents (Elt F) → (⟨S32x1, .i32⟩ : BufTy).Contents (Elt F))
  :: StableHlo.nullary main_c_121 (constantI S_ 32 63#32)
  :: StableHlo.unary main_c_121 main_v511 (broadcastInDim S32x1 ![] bcast_S_S32x1 : (⟨S_, .i32⟩ : BufTy).Contents (Elt F) → (⟨S32x1, .i32⟩ : BufTy).Contents (Elt F))
  :: StableHlo.binary main_v510 main_v511 main_v512 (addi : (⟨S32x1, .i32⟩ : BufTy).Contents (Elt F) → (⟨S32x1, .i32⟩ : BufTy).Contents (Elt F) → (⟨S32x1, .i32⟩ : BufTy).Contents (Elt F))
  :: StableHlo.nullary main_v513 (iotaInDim S64 32 0)
  :: StableHlo.unary main_v513 main_v514 (broadcastInDim S1x64 ![1] bcast_S64_S1x64_1 : (⟨S64, .i32⟩ : BufTy).Contents (Elt F) → (⟨S1x64, .i32⟩ : BufTy).Contents (Elt F))
  :: StableHlo.unary main_v512 main_v515 (broadcastInDim S32x64 ![0, 1] bcast_S32x1_S32x64_0_1 : (⟨S32x1, .i32⟩ : BufTy).Contents (Elt F) → (⟨S32x64, .i32⟩ : BufTy).Contents (Elt F))
  :: StableHlo.unary main_v514 main_v516 (broadcastInDim S32x64 ![0, 1] bcast_S1x64_S32x64_0_1 : (⟨S1x64, .i32⟩ : BufTy).Contents (Elt F) → (⟨S32x64, .i32⟩ : BufTy).Contents (Elt F))
  :: StableHlo.binary main_v515 main_v516 main_v517 (addi : (⟨S32x64, .i32⟩ : BufTy).Contents (Elt F) → (⟨S32x64, .i32⟩ : BufTy).Contents (Elt F) → (⟨S32x64, .i32⟩ : BufTy).Contents (Elt F))
  :: StableHlo.reshape main_v517 main_v518 rfl shapeCasts_S32x64_S2048
  :: StableHlo.nullary main_c_122 (constantI S_ 32 0#32)
  :: StableHlo.unary main_c_122 main_v519 (broadcastInDim S2048 ![] bcast_S_S2048 : (⟨S_, .i32⟩ : BufTy).Contents (Elt F) → (⟨S2048, .i32⟩ : BufTy).Contents (Elt F))
  :: StableHlo.binary main_v518 main_v519 main_v520 (cmpi .slt : (⟨S2048, .i32⟩ : BufTy).Contents (Elt F) → (⟨S2048, .i32⟩ : BufTy).Contents (Elt F) → (⟨S2048, .i1⟩ : BufTy).Contents (Elt F))
  :: StableHlo.nullary main_c_123 (constantI S_ 32 131040#32)
  :: StableHlo.unary main_c_123 main_v521 (broadcastInDim S2048 ![] bcast_S_S2048 : (⟨S_, .i32⟩ : BufTy).Contents (Elt F) → (⟨S2048, .i32⟩ : BufTy).Contents (Elt F))
  :: StableHlo.binary main_v518 main_v521 main_v522 (addi : (⟨S2048, .i32⟩ : BufTy).Contents (Elt F) → (⟨S2048, .i32⟩ : BufTy).Contents (Elt F) → (⟨S2048, .i32⟩ : BufTy).Contents (Elt F))
  :: StableHlo.ternary main_v520 main_v522 main_v518 main_v523 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v523 main_v524 (broadcastInDim S2048x1 ![0] bcast_S2048_S2048x1_0 : (⟨S2048, .i32⟩ : BufTy).Contents (Elt F) → (⟨S2048x1, .i32⟩ : BufTy).Contents (Elt F))
  :: StableHlo.binary main_v11 main_v524 main_v525 ((fun x i => Host.gather gather_S131040x768_S2048x1_S2048x768_1_0_n_n_0_1_1768 x i) : (⟨S131040x768, .f32⟩ : BufTy).Contents (Elt F) → (⟨S2048x1, .i32⟩ : BufTy).Contents (Elt F) → (⟨S2048x768, .f32⟩ : BufTy).Contents (Elt F))
  :: StableHlo.unary main_v16 main_v526 (broadcastInDim S32x1 ![0] bcast_S32_S32x1_0 : (⟨S32, .i32⟩ : BufTy).Contents (Elt F) → (⟨S32x1, .i32⟩ : BufTy).Contents (Elt F))
  :: StableHlo.nullary main_c_124 (constantI S_ 32 127#32)
  :: StableHlo.unary main_c_124 main_v527 (broadcastInDim S32x1 ![] bcast_S_S32x1 : (⟨S_, .i32⟩ : BufTy).Contents (Elt F) → (⟨S32x1, .i32⟩ : BufTy).Contents (Elt F))
  :: StableHlo.binary main_v526 main_v527 main_v528 (addi : (⟨S32x1, .i32⟩ : BufTy).Contents (Elt F) → (⟨S32x1, .i32⟩ : BufTy).Contents (Elt F) → (⟨S32x1, .i32⟩ : BufTy).Contents (Elt F))
  :: StableHlo.nullary main_v529 (iotaInDim S128 32 0)
  :: StableHlo.unary main_v529 main_v530 (broadcastInDim S1x128 ![1] bcast_S128_S1x128_1 : (⟨S128, .i32⟩ : BufTy).Contents (Elt F) → (⟨S1x128, .i32⟩ : BufTy).Contents (Elt F))
  :: StableHlo.unary main_v528 main_v531 (broadcastInDim S32x128 ![0, 1] bcast_S32x1_S32x128_0_1 : (⟨S32x1, .i32⟩ : BufTy).Contents (Elt F) → (⟨S32x128, .i32⟩ : BufTy).Contents (Elt F))
  :: StableHlo.unary main_v530 main_v532 (broadcastInDim S32x128 ![0, 1] bcast_S1x128_S32x128_0_1 : (⟨S1x128, .i32⟩ : BufTy).Contents (Elt F) → (⟨S32x128, .i32⟩ : BufTy).Contents (Elt F))
  :: StableHlo.binary main_v531 main_v532 main_v533 (addi : (⟨S32x128, .i32⟩ : BufTy).Contents (Elt F) → (⟨S32x128, .i32⟩ : BufTy).Contents (Elt F) → (⟨S32x128, .i32⟩ : BufTy).Contents (Elt F))
  :: StableHlo.reshape main_v533 main_v534 rfl shapeCasts_S32x128_S4096
  :: StableHlo.nullary main_c_125 (constantI S_ 32 0#32)
  :: StableHlo.unary main_c_125 main_v535 (broadcastInDim S4096 ![] bcast_S_S4096 : (⟨S_, .i32⟩ : BufTy).Contents (Elt F) → (⟨S4096, .i32⟩ : BufTy).Contents (Elt F))
  :: StableHlo.binary main_v534 main_v535 main_v536 (cmpi .slt : (⟨S4096, .i32⟩ : BufTy).Contents (Elt F) → (⟨S4096, .i32⟩ : BufTy).Contents (Elt F) → (⟨S4096, .i1⟩ : BufTy).Contents (Elt F))
  :: StableHlo.nullary main_c_126 (constantI S_ 32 131040#32)
  :: StableHlo.unary main_c_126 main_v537 (broadcastInDim S4096 ![] bcast_S_S4096 : (⟨S_, .i32⟩ : BufTy).Contents (Elt F) → (⟨S4096, .i32⟩ : BufTy).Contents (Elt F))
  :: StableHlo.binary main_v534 main_v537 main_v538 (addi : (⟨S4096, .i32⟩ : BufTy).Contents (Elt F) → (⟨S4096, .i32⟩ : BufTy).Contents (Elt F) → (⟨S4096, .i32⟩ : BufTy).Contents (Elt F))
  :: StableHlo.ternary main_v536 main_v538 main_v534 main_v539 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v539 main_v540 (broadcastInDim S4096x1 ![0] bcast_S4096_S4096x1_0 : (⟨S4096, .i32⟩ : BufTy).Contents (Elt F) → (⟨S4096x1, .i32⟩ : BufTy).Contents (Elt F))
  :: StableHlo.binary main_v502 main_v540 main_v541 ((fun x i => Host.gather gather_S131040x256_S4096x1_S4096x256_1_0_n_n_0_1_1256 x i) : (⟨S131040x256, .f32⟩ : BufTy).Contents (Elt F) → (⟨S4096x1, .i32⟩ : BufTy).Contents (Elt F) → (⟨S4096x256, .f32⟩ : BufTy).Contents (Elt F))
  :: StableHlo.nullary main_c_127 (constantI S_ 32 0#32)
  :: StableHlo.unary main_c_127 main_v542 (broadcastInDim S4096 ![] bcast_S_S4096 : (⟨S_, .i32⟩ : BufTy).Contents (Elt F) → (⟨S4096, .i32⟩ : BufTy).Contents (Elt F))
  :: StableHlo.binary main_v534 main_v542 main_v543 (cmpi .slt : (⟨S4096, .i32⟩ : BufTy).Contents (Elt F) → (⟨S4096, .i32⟩ : BufTy).Contents (Elt F) → (⟨S4096, .i1⟩ : BufTy).Contents (Elt F))
  :: StableHlo.nullary main_c_128 (constantI S_ 32 131040#32)
  :: StableHlo.unary main_c_128 main_v544 (broadcastInDim S4096 ![] bcast_S_S4096 : (⟨S_, .i32⟩ : BufTy).Contents (Elt F) → (⟨S4096, .i32⟩ : BufTy).Contents (Elt F))
  :: StableHlo.binary main_v534 main_v544 main_v545 (addi : (⟨S4096, .i32⟩ : BufTy).Contents (Elt F) → (⟨S4096, .i32⟩ : BufTy).Contents (Elt F) → (⟨S4096, .i32⟩ : BufTy).Contents (Elt F))
  :: StableHlo.ternary main_v543 main_v545 main_v534 main_v546 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v546 main_v547 (broadcastInDim S4096x1 ![0] bcast_S4096_S4096x1_0 : (⟨S4096, .i32⟩ : BufTy).Contents (Elt F) → (⟨S4096x1, .i32⟩ : BufTy).Contents (Elt F))
  :: StableHlo.binary main_v509 main_v547 main_v548 ((fun x i => Host.gather gather_S131040x256_S4096x1_S4096x256_1_0_n_n_0_1_1256 x i) : (⟨S131040x256, .f32⟩ : BufTy).Contents (Elt F) → (⟨S4096x1, .i32⟩ : BufTy).Contents (Elt F) → (⟨S4096x256, .f32⟩ : BufTy).Contents (Elt F))
  :: StableHlo.nullary main_c_129 (constantI S_ 32 0#32)
  :: StableHlo.unary main_c_129 main_v549 (broadcastInDim S4096 ![] bcast_S_S4096 : (⟨S_, .i32⟩ : BufTy).Contents (Elt F) → (⟨S4096, .i32⟩ : BufTy).Contents (Elt F))
  :: StableHlo.binary main_v534 main_v549 main_v550 (cmpi .slt : (⟨S4096, .i32⟩ : BufTy).Contents (Elt F) → (⟨S4096, .i32⟩ : BufTy).Contents (Elt F) → (⟨S4096, .i1⟩ : BufTy).Contents (Elt F))
  :: StableHlo.nullary main_c_130 (constantI S_ 32 131040#32)
  :: StableHlo.unary main_c_130 main_v551 (broadcastInDim S4096 ![] bcast_S_S4096 : (⟨S_, .i32⟩ : BufTy).Contents (Elt F) → (⟨S4096, .i32⟩ : BufTy).Contents (Elt F))
  :: StableHlo.binary main_v534 main_v551 main_v552 (addi : (⟨S4096, .i32⟩ : BufTy).Contents (Elt F) → (⟨S4096, .i32⟩ : BufTy).Contents (Elt F) → (⟨S4096, .i32⟩ : BufTy).Contents (Elt F))
  :: StableHlo.ternary main_v550 main_v552 main_v534 main_v553 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v553 main_v554 (broadcastInDim S4096x1 ![0] bcast_S4096_S4096x1_0 : (⟨S4096, .i32⟩ : BufTy).Contents (Elt F) → (⟨S4096x1, .i32⟩ : BufTy).Contents (Elt F))
  :: StableHlo.binary main_arg1 main_v554 main_v555 ((fun x i => Host.gather gather_S131040_S4096x1_S4096_n_0_n_n_0_1_1 x i) : (⟨S131040, .i32⟩ : BufTy).Contents (Elt F) → (⟨S4096x1, .i32⟩ : BufTy).Contents (Elt F) → (⟨S4096, .i32⟩ : BufTy).Contents (Elt F))
  :: StableHlo.nullary main_c_131 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_16_sub : (hostOps0_16 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_10 (main_call8), in order. -/
abbrev hostOps0_17 : List (HloOp τ sig (Elt F)) :=
  [ StableHlo.TRef.unary (.of main_c_131 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S4096, .i32⟩) (broadcastInDim S4096 ![] bcast_S_S4096),
    StableHlo.TRef.binary (.of main_v555 : StableHlo.TRef sig ⟨S4096, .i32⟩) (.of main_call8_v1 : StableHlo.TRef sig ⟨S4096, .i32⟩) (.of main_call8_v2 : StableHlo.TRef sig ⟨S4096, .i32⟩) Host.divsi,
    StableHlo.TRef.unary (.of main_v555 : StableHlo.TRef sig ⟨S4096, .i32⟩) (.of main_call8_v3 : StableHlo.TRef sig ⟨S4096, .i32⟩) signi,
    StableHlo.TRef.unary (.of main_call8_v0 : StableHlo.TRef sig ⟨S_, .i32⟩) (.of main_call8_v4 : StableHlo.TRef sig ⟨S_, .i32⟩) signi,
    StableHlo.TRef.unary (.of main_call8_v4 : StableHlo.TRef sig ⟨S_, .i32⟩) (.of main_call8_v5 : StableHlo.TRef sig ⟨S4096, .i32⟩) (broadcastInDim S4096 ![] bcast_S_S4096),
    StableHlo.TRef.binary (.of main_call8_v3 : StableHlo.TRef sig ⟨S4096, .i32⟩) (.of main_call8_v5 : StableHlo.TRef sig ⟨S4096, .i32⟩) (.of main_call8_v6 : StableHlo.TRef sig ⟨S4096, .i1⟩) (cmpi .ne),
    StableHlo.TRef.unary (.of main_call8_v0 : StableHlo.TRef sig ⟨S_, .i32⟩) (.of main_call8_v7 : StableHlo.TRef sig ⟨S4096, .i32⟩) (broadcastInDim S4096 ![] bcast_S_S4096),
    StableHlo.TRef.binary (.of main_v555 : StableHlo.TRef sig ⟨S4096, .i32⟩) (.of main_call8_v7 : StableHlo.TRef sig ⟨S4096, .i32⟩) (.of main_call8_v8 : StableHlo.TRef sig ⟨S4096, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v9 : StableHlo.TRef sig ⟨S4096, .i32⟩) (broadcastInDim S4096 ![] bcast_S_S4096),
    StableHlo.TRef.binary (.of main_call8_v8 : StableHlo.TRef sig ⟨S4096, .i32⟩) (.of main_call8_v9 : StableHlo.TRef sig ⟨S4096, .i32⟩) (.of main_call8_v10 : StableHlo.TRef sig ⟨S4096, .i1⟩) (cmpi .ne),
    StableHlo.TRef.binary (.of main_call8_v6 : StableHlo.TRef sig ⟨S4096, .i1⟩) (.of main_call8_v10 : StableHlo.TRef sig ⟨S4096, .i1⟩) (.of main_call8_v11 : StableHlo.TRef sig ⟨S4096, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v12 : StableHlo.TRef sig ⟨S4096, .i32⟩) (broadcastInDim S4096 ![] bcast_S_S4096),
    StableHlo.TRef.binary (.of main_call8_v2 : StableHlo.TRef sig ⟨S4096, .i32⟩) (.of main_call8_v12 : StableHlo.TRef sig ⟨S4096, .i32⟩) (.of main_call8_v13 : StableHlo.TRef sig ⟨S4096, .i32⟩) subi,
    StableHlo.TRef.ternary (.of main_call8_v11 : StableHlo.TRef sig ⟨S4096, .i1⟩) (.of main_call8_v13 : StableHlo.TRef sig ⟨S4096, .i32⟩) (.of main_call8_v2 : StableHlo.TRef sig ⟨S4096, .i32⟩) (.of main_v556 : StableHlo.TRef sig ⟨S4096, .i32⟩) select ]
/-- Each touches TensorCore references only (`HostSeg.ofOps` over `StableHlo.tcRefs`, or a subset by `sub_ucRefs`). -/
theorem hostOps0_17_sub : (hostOps0_17 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_18 : List (HloOp τ sig (Elt F)) :=
  [ StableHlo.nullary main_c_132 (constantI S_ 32 64#32),
    StableHlo.unary main_c_132 main_v557 (broadcastInDim S4096 ![] bcast_S_S4096 : (⟨S_, .i32⟩ : BufTy).Contents (Elt F) → (⟨S4096, .i32⟩ : BufTy).Contents (Elt F)),
    StableHlo.binary main_v556 main_v557 main_v558 (muli : (⟨S4096, .i32⟩ : BufTy).Contents (Elt F) → (⟨S4096, .i32⟩ : BufTy).Contents (Elt F) → (⟨S4096, .i32⟩ : BufTy).Contents (Elt F)),
    StableHlo.nullary main_c_133 (constantI S_ 32 4095#32) ]
/-- Each touches TensorCore references only (`HostSeg.ofOps` over `StableHlo.tcRefs`, or a subset by `sub_ucRefs`). -/
theorem hostOps0_18_sub : (hostOps0_18 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_12 (main_call9), in order. -/
abbrev hostOps0_19 : List (HloOp τ sig (Elt F)) :=
  [ StableHlo.TRef.unary (.of main_c_133 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S4096, .i32⟩) (broadcastInDim S4096 ![] bcast_S_S4096),
    StableHlo.TRef.binary (.of main_v555 : StableHlo.TRef sig ⟨S4096, .i32⟩) (.of main_call9_v3 : StableHlo.TRef sig ⟨S4096, .i32⟩) (.of main_call9_v4 : StableHlo.TRef sig ⟨S4096, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S4096, .i32⟩) (broadcastInDim S4096 ![] bcast_S_S4096),
    StableHlo.TRef.binary (.of main_call9_v4 : StableHlo.TRef sig ⟨S4096, .i32⟩) (.of main_call9_v5 : StableHlo.TRef sig ⟨S4096, .i32⟩) (.of main_call9_v6 : StableHlo.TRef sig ⟨S4096, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S4096, .i32⟩) (broadcastInDim S4096 ![] bcast_S_S4096),
    StableHlo.TRef.binary (.of main_call9_v4 : StableHlo.TRef sig ⟨S4096, .i32⟩) (.of main_call9_v7 : StableHlo.TRef sig ⟨S4096, .i32⟩) (.of main_call9_v8 : StableHlo.TRef sig ⟨S4096, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S4096, .i1⟩) (broadcastInDim S4096 ![] bcast_S_S4096),
    StableHlo.TRef.binary (.of main_call9_v8 : StableHlo.TRef sig ⟨S4096, .i1⟩) (.of main_call9_v10 : StableHlo.TRef sig ⟨S4096, .i1⟩) (.of main_call9_v11 : StableHlo.TRef sig ⟨S4096, .i1⟩) (cmpi .ne),
    StableHlo.TRef.binary (.of main_call9_v11 : StableHlo.TRef sig ⟨S4096, .i1⟩) (.of main_call9_v6 : StableHlo.TRef sig ⟨S4096, .i1⟩) (.of main_call9_v12 : StableHlo.TRef sig ⟨S4096, .i1⟩) andi,
    StableHlo.TRef.unary main_call9_call0.v0 (.of main_call9_v13 : StableHlo.TRef sig ⟨S4096, .i32⟩) (broadcastInDim S4096 ![] bcast_S_S4096),
    StableHlo.TRef.binary (.of main_call9_v4 : StableHlo.TRef sig ⟨S4096, .i32⟩) (.of main_call9_v13 : StableHlo.TRef sig ⟨S4096, .i32⟩) (.of main_call9_v14 : StableHlo.TRef sig ⟨S4096, .i32⟩) addi,
    StableHlo.TRef.ternary (.of main_call9_v12 : StableHlo.TRef sig ⟨S4096, .i1⟩) (.of main_call9_v14 : StableHlo.TRef sig ⟨S4096, .i32⟩) (.of main_call9_v4 : StableHlo.TRef sig ⟨S4096, .i32⟩) (.of main_v559 : StableHlo.TRef sig ⟨S4096, .i32⟩) select ]
/-- Each touches TensorCore references only (`HostSeg.ofOps` over `StableHlo.tcRefs`, or a subset by `sub_ucRefs`). -/
theorem hostOps0_19_sub : (hostOps0_19 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 130 host operations of @main, in order. -/
abbrev hostOps0_20 : List (HloOp τ sig (Elt F)) :=
  ( StableHlo.nullary main_c_134 (constantI S_ 32 63#32)
  :: StableHlo.unary main_c_134 main_v560 (broadcastInDim S4096 ![] bcast_S_S4096 : (⟨S_, .i32⟩ : BufTy).Contents (Elt F) → (⟨S4096, .i32⟩ : BufTy).Contents (Elt F))
  :: StableHlo.binary main_v559 main_v560 main_v561 (subi : (⟨S4096, .i32⟩ : BufTy).Contents (Elt F) → (⟨S4096, .i32⟩ : BufTy).Contents (Elt F) → (⟨S4096, .i32⟩ : BufTy).Contents (Elt F))
  :: StableHlo.binary main_v558 main_v561 main_v562 (addi : (⟨S4096, .i32⟩ : BufTy).Contents (Elt F) → (⟨S4096, .i32⟩ : BufTy).Contents (Elt F) → (⟨S4096, .i32⟩ : BufTy).Contents (Elt F))
  :: StableHlo.unary main_arg6 main_v563 ((transpose S256x256 [1, 0] · transposes_S256x256_S256x256_1_0) : (⟨S256x256, .f32⟩ : BufTy).Contents (Elt F) → (⟨S256x256, .f32⟩ : BufTy).Contents (Elt F))
  :: StableHlo.binary main_v541 main_v563 main_v564 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F))
  :: StableHlo.unary main_arg7 main_v565 (broadcastInDim S1x256 ![1] bcast_S256_S1x256_1 : (⟨S256, .f32⟩ : BufTy).Contents (Elt F) → (⟨S1x256, .f32⟩ : BufTy).Contents (Elt F))
  :: StableHlo.unary main_v565 main_v566 (broadcastInDim S4096x256 ![0, 1] bcast_S1x256_S4096x256_0_1 : (⟨S1x256, .f32⟩ : BufTy).Contents (Elt F) → (⟨S4096x256, .f32⟩ : BufTy).Contents (Elt F))
  :: StableHlo.binary main_v564 main_v566 main_v567 (addf : (⟨S4096x256, .f32⟩ : BufTy).Contents (Elt F) → (⟨S4096x256, .f32⟩ : BufTy).Contents (Elt F) → (⟨S4096x256, .f32⟩ : BufTy).Contents (Elt F))
  :: StableHlo.unary main_v567 main_v568 (Host.negf : (⟨S4096x256, .f32⟩ : BufTy).Contents (Elt F) → (⟨S4096x256, .f32⟩ : BufTy).Contents (Elt F))
  :: StableHlo.unary main_v568 main_v569 (Host.exp : (⟨S4096x256, .f32⟩ : BufTy).Contents (Elt F) → (⟨S4096x256, .f32⟩ : BufTy).Contents (Elt F))
  :: StableHlo.nullary main_cst_135 (constant S_ .f32 0x3F800000#32)
  :: StableHlo.unary main_cst_135 main_v570 (broadcastInDim S4096x256 ![] bcast_S_S4096x256 : (⟨S_, .f32⟩ : BufTy).Contents (Elt F) → (⟨S4096x256, .f32⟩ : BufTy).Contents (Elt F))
  :: StableHlo.binary main_v570 main_v569 main_v571 (addf : (⟨S4096x256, .f32⟩ : BufTy).Contents (Elt F) → (⟨S4096x256, .f32⟩ : BufTy).Contents (Elt F) → (⟨S4096x256, .f32⟩ : BufTy).Contents (Elt F))
  :: StableHlo.nullary main_cst_136 (constant S_ .f32 0x3F800000#32)
  :: StableHlo.unary main_cst_136 main_v572 (broadcastInDim S4096x256 ![] bcast_S_S4096x256 : (⟨S_, .f32⟩ : BufTy).Contents (Elt F) → (⟨S4096x256, .f32⟩ : BufTy).Contents (Elt F))
  :: StableHlo.binary main_v572 main_v571 main_v573 (Host.divf : (⟨S4096x256, .f32⟩ : BufTy).Contents (Elt F) → (⟨S4096x256, .f32⟩ : BufTy).Contents (Elt F) → (⟨S4096x256, .f32⟩ : BufTy).Contents (Elt F))
  :: StableHlo.nullary main_cst_137 (constant S_ .f32 0x00000000#32)
  :: StableHlo.unary main_cst_137 main_v574 (broadcastInDim S2048x256 ![] bcast_S_S2048x256 : (⟨S_, .f32⟩ : BufTy).Contents (Elt F) → (⟨S2048x256, .f32⟩ : BufTy).Contents (Elt F))
  :: StableHlo.unary main_v562 main_v575 (broadcastInDim S4096x1 ![0] bcast_S4096_S4096x1_0 : (⟨S4096, .i32⟩ : BufTy).Contents (Elt F) → (⟨S4096x1, .i32⟩ : BufTy).Contents (Elt F))
  :: StableHlo.ternary main_v574 main_v575 main_v541 main_v576 ((fun x i u => Host.scatterAdd scatter_S2048x256_S4096x1_S4096x256_1_0_0_1 x i u) : (⟨S2048x256, .f32⟩ : BufTy).Contents (Elt F) → (⟨S4096x1, .i32⟩ : BufTy).Contents (Elt F) → (⟨S4096x256, .f32⟩ : BufTy).Contents (Elt F) → (⟨S2048x256, .f32⟩ : BufTy).Contents (Elt F))
  :: StableHlo.binary main_v573 main_v548 main_v577 (mulf : (⟨S4096x256, .f32⟩ : BufTy).Contents (Elt F) → (⟨S4096x256, .f32⟩ : BufTy).Contents (Elt F) → (⟨S4096x256, .f32⟩ : BufTy).Contents (Elt F))
  :: StableHlo.nullary main_cst_138 (constant S_ .f32 0x00000000#32)
  :: StableHlo.unary main_cst_138 main_v578 (broadcastInDim S2048x256 ![] bcast_S_S2048x256 : (⟨S_, .f32⟩ : BufTy).Contents (Elt F) → (⟨S2048x256, .f32⟩ : BufTy).Contents (Elt F))
  :: StableHlo.unary main_v562 main_v579 (broadcastInDim S4096x1 ![0] bcast_S4096_S4096x1_0 : (⟨S4096, .i32⟩ : BufTy).Contents (Elt F) → (⟨S4096x1, .i32⟩ : BufTy).Contents (Elt F))
  :: StableHlo.ternary main_v578 main_v579 main_v577 main_v580 ((fun x i u => Host.scatterAdd scatter_S2048x256_S4096x1_S4096x256_1_0_0_1 x i u) : (⟨S2048x256, .f32⟩ : BufTy).Contents (Elt F) → (⟨S4096x1, .i32⟩ : BufTy).Contents (Elt F) → (⟨S4096x256, .f32⟩ : BufTy).Contents (Elt F) → (⟨S2048x256, .f32⟩ : BufTy).Contents (Elt F))
  :: StableHlo.unary main_arg4 main_v581 ((transpose S256x768 [1, 0] · transposes_S768x256_S256x768_1_0) : (⟨S768x256, .f32⟩ : BufTy).Contents (Elt F) → (⟨S256x768, .f32⟩ : BufTy).Contents (Elt F))
  :: StableHlo.binary main_v576 main_v581 main_v582 ((fun l r => Host.dotGeneral dot_S2048x256_S256x768_S2048x768_1_0_0_1_n_n none l r) : (⟨S2048x256, .f32⟩ : BufTy).Contents (Elt F) → (⟨S256x768, .f32⟩ : BufTy).Contents (Elt F) → (⟨S2048x768, .f32⟩ : BufTy).Contents (Elt F))
  :: StableHlo.binary main_v525 main_v582 main_v583 (addf : (⟨S2048x768, .f32⟩ : BufTy).Contents (Elt F) → (⟨S2048x768, .f32⟩ : BufTy).Contents (Elt F) → (⟨S2048x768, .f32⟩ : BufTy).Contents (Elt F))
  :: StableHlo.unary main_arg5 main_v584 (broadcastInDim S2048x768 ![0, 1] bcast_S1x768_S2048x768_0_1 : (⟨S1x768, .f32⟩ : BufTy).Contents (Elt F) → (⟨S2048x768, .f32⟩ : BufTy).Contents (Elt F))
  :: StableHlo.binary main_v583 main_v584 main_v585 (addf : (⟨S2048x768, .f32⟩ : BufTy).Contents (Elt F) → (⟨S2048x768, .f32⟩ : BufTy).Contents (Elt F) → (⟨S2048x768, .f32⟩ : BufTy).Contents (Elt F))
  :: StableHlo.unary main_v585 main_v586 ((extractStridedSlice S2048x256 ![0, 0] · slices_S2048x768_S2048x256_0_0) : (⟨S2048x768, .f32⟩ : BufTy).Contents (Elt F) → (⟨S2048x256, .f32⟩ : BufTy).Contents (Elt F))
  :: StableHlo.unary main_v585 main_v587 ((extractStridedSlice S2048x256 ![0, 256] · slices_S2048x768_S2048x256_0_256) : (⟨S2048x768, .f32⟩ : BufTy).Contents (Elt F) → (⟨S2048x256, .f32⟩ : BufTy).Contents (Elt F))
  :: StableHlo.unary main_v585 main_v588 ((extractStridedSlice S2048x256 ![0, 512] · slices_S2048x768_S2048x256_0_512) : (⟨S2048x768, .f32⟩ : BufTy).Contents (Elt F) → (⟨S2048x256, .f32⟩ : BufTy).Contents (Elt F))
  :: StableHlo.unary main_v586 main_v589 (Host.negf : (⟨S2048x256, .f32⟩ : BufTy).Contents (Elt F) → (⟨S2048x256, .f32⟩ : BufTy).Contents (Elt F))
  :: StableHlo.unary main_v589 main_v590 (Host.exp : (⟨S2048x256, .f32⟩ : BufTy).Contents (Elt F) → (⟨S2048x256, .f32⟩ : BufTy).Contents (Elt F))
  :: StableHlo.nullary main_cst_139 (constant S_ .f32 0x3F800000#32)
  :: StableHlo.unary main_cst_139 main_v591 (broadcastInDim S2048x256 ![] bcast_S_S2048x256 : (⟨S_, .f32⟩ : BufTy).Contents (Elt F) → (⟨S2048x256, .f32⟩ : BufTy).Contents (Elt F))
  :: StableHlo.binary main_v591 main_v590 main_v592 (addf : (⟨S2048x256, .f32⟩ : BufTy).Contents (Elt F) → (⟨S2048x256, .f32⟩ : BufTy).Contents (Elt F) → (⟨S2048x256, .f32⟩ : BufTy).Contents (Elt F))
  :: StableHlo.nullary main_cst_140 (constant S_ .f32 0x3F800000#32)
  :: StableHlo.unary main_cst_140 main_v593 (broadcastInDim S2048x256 ![] bcast_S_S2048x256 : (⟨S_, .f32⟩ : BufTy).Contents (Elt F) → (⟨S2048x256, .f32⟩ : BufTy).Contents (Elt F))
  :: StableHlo.binary main_v593 main_v592 main_v594 (Host.divf : (⟨S2048x256, .f32⟩ : BufTy).Contents (Elt F) → (⟨S2048x256, .f32⟩ : BufTy).Contents (Elt F) → (⟨S2048x256, .f32⟩ : BufTy).Contents (Elt F))
  :: StableHlo.unary main_v588 main_v595 (Host.tanh : (⟨S2048x256, .f32⟩ : BufTy).Contents (Elt F) → (⟨S2048x256, .f32⟩ : BufTy).Contents (Elt F))
  :: StableHlo.binary main_v594 main_v595 main_v596 (mulf : (⟨S2048x256, .f32⟩ : BufTy).Contents (Elt F) → (⟨S2048x256, .f32⟩ : BufTy).Contents (Elt F) → (⟨S2048x256, .f32⟩ : BufTy).Contents (Elt F))
  :: StableHlo.binary main_v596 main_v580 main_v597 (addf : (⟨S2048x256, .f32⟩ : BufTy).Contents (Elt F) → (⟨S2048x256, .f32⟩ : BufTy).Contents (Elt F) → (⟨S2048x256, .f32⟩ : BufTy).Contents (Elt F))
  :: StableHlo.unary main_v587 main_v598 (Host.negf : (⟨S2048x256, .f32⟩ : BufTy).Contents (Elt F) → (⟨S2048x256, .f32⟩ : BufTy).Contents (Elt F))
  :: StableHlo.unary main_v598 main_v599 (Host.exp : (⟨S2048x256, .f32⟩ : BufTy).Contents (Elt F) → (⟨S2048x256, .f32⟩ : BufTy).Contents (Elt F))
  :: StableHlo.nullary main_cst_141 (constant S_ .f32 0x3F800000#32)
  :: StableHlo.unary main_cst_141 main_v600 (broadcastInDim S2048x256 ![] bcast_S_S2048x256 : (⟨S_, .f32⟩ : BufTy).Contents (Elt F) → (⟨S2048x256, .f32⟩ : BufTy).Contents (Elt F))
  :: StableHlo.binary main_v600 main_v599 main_v601 (addf : (⟨S2048x256, .f32⟩ : BufTy).Contents (Elt F) → (⟨S2048x256, .f32⟩ : BufTy).Contents (Elt F) → (⟨S2048x256, .f32⟩ : BufTy).Contents (Elt F))
  :: StableHlo.nullary main_cst_142 (constant S_ .f32 0x3F800000#32)
  :: StableHlo.unary main_cst_142 main_v602 (broadcastInDim S2048x256 ![] bcast_S_S2048x256 : (⟨S_, .f32⟩ : BufTy).Contents (Elt F) → (⟨S2048x256, .f32⟩ : BufTy).Contents (Elt F))
  :: StableHlo.binary main_v602 main_v601 main_v603 (Host.divf : (⟨S2048x256, .f32⟩ : BufTy).Contents (Elt F) → (⟨S2048x256, .f32⟩ : BufTy).Contents (Elt F) → (⟨S2048x256, .f32⟩ : BufTy).Contents (Elt F))
  :: StableHlo.unary main_v597 main_v604 (Host.tanh : (⟨S2048x256, .f32⟩ : BufTy).Contents (Elt F) → (⟨S2048x256, .f32⟩ : BufTy).Contents (Elt F))
  :: StableHlo.binary main_v603 main_v604 main_v605 (mulf : (⟨S2048x256, .f32⟩ : BufTy).Contents (Elt F) → (⟨S2048x256, .f32⟩ : BufTy).Contents (Elt F) → (⟨S2048x256, .f32⟩ : BufTy).Contents (Elt F))
  :: StableHlo.nullary main_c_143 (constantI S_ 32 0#32)
  :: StableHlo.unary main_c_143 main_v606 (broadcastInDim S2048 ![] bcast_S_S2048 : (⟨S_, .i32⟩ : BufTy).Contents (Elt F) → (⟨S2048, .i32⟩ : BufTy).Contents (Elt F))
  :: StableHlo.binary main_v518 main_v606 main_v607 (cmpi .slt : (⟨S2048, .i32⟩ : BufTy).Contents (Elt F) → (⟨S2048, .i32⟩ : BufTy).Contents (Elt F) → (⟨S2048, .i1⟩ : BufTy).Contents (Elt F))
  :: StableHlo.nullary main_c_144 (constantI S_ 32 131040#32)
  :: StableHlo.unary main_c_144 main_v608 (broadcastInDim S2048 ![] bcast_S_S2048 : (⟨S_, .i32⟩ : BufTy).Contents (Elt F) → (⟨S2048, .i32⟩ : BufTy).Contents (Elt F))
  :: StableHlo.binary main_v518 main_v608 main_v609 (addi : (⟨S2048, .i32⟩ : BufTy).Contents (Elt F) → (⟨S2048, .i32⟩ : BufTy).Contents (Elt F) → (⟨S2048, .i32⟩ : BufTy).Contents (Elt F))
  :: StableHlo.ternary main_v607 main_v609 main_v518 main_v610 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v610 main_v611 (broadcastInDim S2048x1 ![0] bcast_S2048_S2048x1_0 : (⟨S2048, .i32⟩ : BufTy).Contents (Elt F) → (⟨S2048x1, .i32⟩ : BufTy).Contents (Elt F))
  :: StableHlo.ternary main_v502 main_v611 main_v605 main_v612 ((fun x i u => Host.scatter scatter_S131040x256_S2048x1_S2048x256_1_0_0_1 (fun _ b => b) x i u) : (⟨S131040x256, .f32⟩ : BufTy).Contents (Elt F) → (⟨S2048x1, .i32⟩ : BufTy).Contents (Elt F) → (⟨S2048x256, .f32⟩ : BufTy).Contents (Elt F) → (⟨S131040x256, .f32⟩ : BufTy).Contents (Elt F))
  :: StableHlo.nullary main_c_145 (constantI S_ 32 0#32)
  :: StableHlo.unary main_c_145 main_v613 (broadcastInDim S2048 ![] bcast_S_S2048 : (⟨S_, .i32⟩ : BufTy).Contents (Elt F) → (⟨S2048, .i32⟩ : BufTy).Contents (Elt F))
  :: StableHlo.binary main_v518 main_v613 main_v614 (cmpi .slt : (⟨S2048, .i32⟩ : BufTy).Contents (Elt F) → (⟨S2048, .i32⟩ : BufTy).Contents (Elt F) → (⟨S2048, .i1⟩ : BufTy).Contents (Elt F))
  :: StableHlo.nullary main_c_146 (constantI S_ 32 131040#32)
  :: StableHlo.unary main_c_146 main_v615 (broadcastInDim S2048 ![] bcast_S_S2048 : (⟨S_, .i32⟩ : BufTy).Contents (Elt F) → (⟨S2048, .i32⟩ : BufTy).Contents (Elt F))
  :: StableHlo.binary main_v518 main_v615 main_v616 (addi : (⟨S2048, .i32⟩ : BufTy).Contents (Elt F) → (⟨S2048, .i32⟩ : BufTy).Contents (Elt F) → (⟨S2048, .i32⟩ : BufTy).Contents (Elt F))
  :: StableHlo.ternary main_v614 main_v616 main_v518 main_v617 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v617 main_v618 (broadcastInDim S2048x1 ![0] bcast_S2048_S2048x1_0 : (⟨S2048, .i32⟩ : BufTy).Contents (Elt F) → (⟨S2048x1, .i32⟩ : BufTy).Contents (Elt F))
  :: StableHlo.ternary main_v509 main_v618 main_v597 main_v619 ((fun x i u => Host.scatter scatter_S131040x256_S2048x1_S2048x256_1_0_0_1 (fun _ b => b) x i u) : (⟨S131040x256, .f32⟩ : BufTy).Contents (Elt F) → (⟨S2048x1, .i32⟩ : BufTy).Contents (Elt F) → (⟨S2048x256, .f32⟩ : BufTy).Contents (Elt F) → (⟨S131040x256, .f32⟩ : BufTy).Contents (Elt F))
  :: StableHlo.unary main_v16 main_v620 (broadcastInDim S32x1 ![0] bcast_S32_S32x1_0 : (⟨S32, .i32⟩ : BufTy).Contents (Elt F) → (⟨S32x1, .i32⟩ : BufTy).Contents (Elt F))
  :: StableHlo.nullary main_c_147 (constantI S_ 32 31#32)
  :: StableHlo.unary main_c_147 main_v621 (broadcastInDim S32x1 ![] bcast_S_S32x1 : (⟨S_, .i32⟩ : BufTy).Contents (Elt F) → (⟨S32x1, .i32⟩ : BufTy).Contents (Elt F))
  :: StableHlo.binary main_v620 main_v621 main_v622 (addi : (⟨S32x1, .i32⟩ : BufTy).Contents (Elt F) → (⟨S32x1, .i32⟩ : BufTy).Contents (Elt F) → (⟨S32x1, .i32⟩ : BufTy).Contents (Elt F))
  :: StableHlo.nullary main_v623 (iotaInDim S32 32 0)
  :: StableHlo.unary main_v623 main_v624 (broadcastInDim S1x32 ![1] bcast_S32_S1x32_1 : (⟨S32, .i32⟩ : BufTy).Contents (Elt F) → (⟨S1x32, .i32⟩ : BufTy).Contents (Elt F))
  :: StableHlo.unary main_v622 main_v625 (broadcastInDim S32x32 ![0, 1] bcast_S32x1_S32x32_0_1 : (⟨S32x1, .i32⟩ : BufTy).Contents (Elt F) → (⟨S32x32, .i32⟩ : BufTy).Contents (Elt F))
  :: StableHlo.unary main_v624 main_v626 (broadcastInDim S32x32 ![0, 1] bcast_S1x32_S32x32_0_1 : (⟨S1x32, .i32⟩ : BufTy).Contents (Elt F) → (⟨S32x32, .i32⟩ : BufTy).Contents (Elt F))
  :: StableHlo.binary main_v625 main_v626 main_v627 (addi : (⟨S32x32, .i32⟩ : BufTy).Contents (Elt F) → (⟨S32x32, .i32⟩ : BufTy).Contents (Elt F) → (⟨S32x32, .i32⟩ : BufTy).Contents (Elt F))
  :: StableHlo.reshape main_v627 main_v628 rfl shapeCasts_S32x32_S1024
  :: StableHlo.nullary main_c_148 (constantI S_ 32 0#32)
  :: StableHlo.unary main_c_148 main_v629 (broadcastInDim S1024 ![] bcast_S_S1024 : (⟨S_, .i32⟩ : BufTy).Contents (Elt F) → (⟨S1024, .i32⟩ : BufTy).Contents (Elt F))
  :: StableHlo.binary main_v628 main_v629 main_v630 (cmpi .slt : (⟨S1024, .i32⟩ : BufTy).Contents (Elt F) → (⟨S1024, .i32⟩ : BufTy).Contents (Elt F) → (⟨S1024, .i1⟩ : BufTy).Contents (Elt F))
  :: StableHlo.nullary main_c_149 (constantI S_ 32 131040#32)
  :: StableHlo.unary main_c_149 main_v631 (broadcastInDim S1024 ![] bcast_S_S1024 : (⟨S_, .i32⟩ : BufTy).Contents (Elt F) → (⟨S1024, .i32⟩ : BufTy).Contents (Elt F))
  :: StableHlo.binary main_v628 main_v631 main_v632 (addi : (⟨S1024, .i32⟩ : BufTy).Contents (Elt F) → (⟨S1024, .i32⟩ : BufTy).Contents (Elt F) → (⟨S1024, .i32⟩ : BufTy).Contents (Elt F))
  :: StableHlo.ternary main_v630 main_v632 main_v628 main_v633 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v633 main_v634 (broadcastInDim S1024x1 ![0] bcast_S1024_S1024x1_0 : (⟨S1024, .i32⟩ : BufTy).Contents (Elt F) → (⟨S1024x1, .i32⟩ : BufTy).Contents (Elt F))
  :: StableHlo.binary main_v11 main_v634 main_v635 ((fun x i => Host.gather gather_S131040x768_S1024x1_S1024x768_1_0_n_n_0_1_1768 x i) : (⟨S131040x768, .f32⟩ : BufTy).Contents (Elt F) → (⟨S1024x1, .i32⟩ : BufTy).Contents (Elt F) → (⟨S1024x768, .f32⟩ : BufTy).Contents (Elt F))
  :: StableHlo.unary main_v16 main_v636 (broadcastInDim S32x1 ![0] bcast_S32_S32x1_0 : (⟨S32, .i32⟩ : BufTy).Contents (Elt F) → (⟨S32x1, .i32⟩ : BufTy).Contents (Elt F))
  :: StableHlo.nullary main_c_150 (constantI S_ 32 63#32)
  :: StableHlo.unary main_c_150 main_v637 (broadcastInDim S32x1 ![] bcast_S_S32x1 : (⟨S_, .i32⟩ : BufTy).Contents (Elt F) → (⟨S32x1, .i32⟩ : BufTy).Contents (Elt F))
  :: StableHlo.binary main_v636 main_v637 main_v638 (addi : (⟨S32x1, .i32⟩ : BufTy).Contents (Elt F) → (⟨S32x1, .i32⟩ : BufTy).Contents (Elt F) → (⟨S32x1, .i32⟩ : BufTy).Contents (Elt F))
  :: StableHlo.nullary main_v639 (iotaInDim S64 32 0)
  :: StableHlo.unary main_v639 main_v640 (broadcastInDim S1x64 ![1] bcast_S64_S1x64_1 : (⟨S64, .i32⟩ : BufTy).Contents (Elt F) → (⟨S1x64, .i32⟩ : BufTy).Contents (Elt F))
  :: StableHlo.unary main_v638 main_v641 (broadcastInDim S32x64 ![0, 1] bcast_S32x1_S32x64_0_1 : (⟨S32x1, .i32⟩ : BufTy).Contents (Elt F) → (⟨S32x64, .i32⟩ : BufTy).Contents (Elt F))
  :: StableHlo.unary main_v640 main_v642 (broadcastInDim S32x64 ![0, 1] bcast_S1x64_S32x64_0_1 : (⟨S1x64, .i32⟩ : BufTy).Contents (Elt F) → (⟨S32x64, .i32⟩ : BufTy).Contents (Elt F))
  :: StableHlo.binary main_v641 main_v642 main_v643 (addi : (⟨S32x64, .i32⟩ : BufTy).Contents (Elt F) → (⟨S32x64, .i32⟩ : BufTy).Contents (Elt F) → (⟨S32x64, .i32⟩ : BufTy).Contents (Elt F))
  :: StableHlo.reshape main_v643 main_v644 rfl shapeCasts_S32x64_S2048
  :: StableHlo.nullary main_c_151 (constantI S_ 32 0#32)
  :: StableHlo.unary main_c_151 main_v645 (broadcastInDim S2048 ![] bcast_S_S2048 : (⟨S_, .i32⟩ : BufTy).Contents (Elt F) → (⟨S2048, .i32⟩ : BufTy).Contents (Elt F))
  :: StableHlo.binary main_v644 main_v645 main_v646 (cmpi .slt : (⟨S2048, .i32⟩ : BufTy).Contents (Elt F) → (⟨S2048, .i32⟩ : BufTy).Contents (Elt F) → (⟨S2048, .i1⟩ : BufTy).Contents (Elt F))
  :: StableHlo.nullary main_c_152 (constantI S_ 32 131040#32)
  :: StableHlo.unary main_c_152 main_v647 (broadcastInDim S2048 ![] bcast_S_S2048 : (⟨S_, .i32⟩ : BufTy).Contents (Elt F) → (⟨S2048, .i32⟩ : BufTy).Contents (Elt F))
  :: StableHlo.binary main_v644 main_v647 main_v648 (addi : (⟨S2048, .i32⟩ : BufTy).Contents (Elt F) → (⟨S2048, .i32⟩ : BufTy).Contents (Elt F) → (⟨S2048, .i32⟩ : BufTy).Contents (Elt F))
  :: StableHlo.ternary main_v646 main_v648 main_v644 main_v649 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v649 main_v650 (broadcastInDim S2048x1 ![0] bcast_S2048_S2048x1_0 : (⟨S2048, .i32⟩ : BufTy).Contents (Elt F) → (⟨S2048x1, .i32⟩ : BufTy).Contents (Elt F))
  :: StableHlo.binary main_v612 main_v650 main_v651 ((fun x i => Host.gather gather_S131040x256_S2048x1_S2048x256_1_0_n_n_0_1_1256 x i) : (⟨S131040x256, .f32⟩ : BufTy).Contents (Elt F) → (⟨S2048x1, .i32⟩ : BufTy).Contents (Elt F) → (⟨S2048x256, .f32⟩ : BufTy).Contents (Elt F))
  :: StableHlo.nullary main_c_153 (constantI S_ 32 0#32)
  :: StableHlo.unary main_c_153 main_v652 (broadcastInDim S2048 ![] bcast_S_S2048 : (⟨S_, .i32⟩ : BufTy).Contents (Elt F) → (⟨S2048, .i32⟩ : BufTy).Contents (Elt F))
  :: StableHlo.binary main_v644 main_v652 main_v653 (cmpi .slt : (⟨S2048, .i32⟩ : BufTy).Contents (Elt F) → (⟨S2048, .i32⟩ : BufTy).Contents (Elt F) → (⟨S2048, .i1⟩ : BufTy).Contents (Elt F))
  :: StableHlo.nullary main_c_154 (constantI S_ 32 131040#32)
  :: StableHlo.unary main_c_154 main_v654 (broadcastInDim S2048 ![] bcast_S_S2048 : (⟨S_, .i32⟩ : BufTy).Contents (Elt F) → (⟨S2048, .i32⟩ : BufTy).Contents (Elt F))
  :: StableHlo.binary main_v644 main_v654 main_v655 (addi : (⟨S2048, .i32⟩ : BufTy).Contents (Elt F) → (⟨S2048, .i32⟩ : BufTy).Contents (Elt F) → (⟨S2048, .i32⟩ : BufTy).Contents (Elt F))
  :: StableHlo.ternary main_v653 main_v655 main_v644 main_v656 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v656 main_v657 (broadcastInDim S2048x1 ![0] bcast_S2048_S2048x1_0 : (⟨S2048, .i32⟩ : BufTy).Contents (Elt F) → (⟨S2048x1, .i32⟩ : BufTy).Contents (Elt F))
  :: StableHlo.binary main_v619 main_v657 main_v658 ((fun x i => Host.gather gather_S131040x256_S2048x1_S2048x256_1_0_n_n_0_1_1256 x i) : (⟨S131040x256, .f32⟩ : BufTy).Contents (Elt F) → (⟨S2048x1, .i32⟩ : BufTy).Contents (Elt F) → (⟨S2048x256, .f32⟩ : BufTy).Contents (Elt F))
  :: StableHlo.nullary main_c_155 (constantI S_ 32 0#32)
  :: StableHlo.unary main_c_155 main_v659 (broadcastInDim S2048 ![] bcast_S_S2048 : (⟨S_, .i32⟩ : BufTy).Contents (Elt F) → (⟨S2048, .i32⟩ : BufTy).Contents (Elt F))
  :: StableHlo.binary main_v644 main_v659 main_v660 (cmpi .slt : (⟨S2048, .i32⟩ : BufTy).Contents (Elt F) → (⟨S2048, .i32⟩ : BufTy).Contents (Elt F) → (⟨S2048, .i1⟩ : BufTy).Contents (Elt F))
  :: StableHlo.nullary main_c_156 (constantI S_ 32 131040#32)
  :: StableHlo.unary main_c_156 main_v661 (broadcastInDim S2048 ![] bcast_S_S2048 : (⟨S_, .i32⟩ : BufTy).Contents (Elt F) → (⟨S2048, .i32⟩ : BufTy).Contents (Elt F))
  :: StableHlo.binary main_v644 main_v661 main_v662 (addi : (⟨S2048, .i32⟩ : BufTy).Contents (Elt F) → (⟨S2048, .i32⟩ : BufTy).Contents (Elt F) → (⟨S2048, .i32⟩ : BufTy).Contents (Elt F))
  :: StableHlo.ternary main_v660 main_v662 main_v644 main_v663 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v663 main_v664 (broadcastInDim S2048x1 ![0] bcast_S2048_S2048x1_0 : (⟨S2048, .i32⟩ : BufTy).Contents (Elt F) → (⟨S2048x1, .i32⟩ : BufTy).Contents (Elt F))
  :: StableHlo.binary main_arg1 main_v664 main_v665 ((fun x i => Host.gather gather_S131040_S2048x1_S2048_n_0_n_n_0_1_1 x i) : (⟨S131040, .i32⟩ : BufTy).Contents (Elt F) → (⟨S2048x1, .i32⟩ : BufTy).Contents (Elt F) → (⟨S2048, .i32⟩ : BufTy).Contents (Elt F))
  :: StableHlo.nullary main_c_157 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_20_sub : (hostOps0_20 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_13 (main_call10), in order. -/
abbrev hostOps0_21 : List (HloOp τ sig (Elt F)) :=
  [ StableHlo.TRef.unary (.of main_c_157 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S2048, .i32⟩) (broadcastInDim S2048 ![] bcast_S_S2048),
    StableHlo.TRef.binary (.of main_v665 : StableHlo.TRef sig ⟨S2048, .i32⟩) (.of main_call10_v1 : StableHlo.TRef sig ⟨S2048, .i32⟩) (.of main_call10_v2 : StableHlo.TRef sig ⟨S2048, .i32⟩) Host.divsi,
    StableHlo.TRef.unary (.of main_v665 : StableHlo.TRef sig ⟨S2048, .i32⟩) (.of main_call10_v3 : StableHlo.TRef sig ⟨S2048, .i32⟩) signi,
    StableHlo.TRef.unary (.of main_call10_v0 : StableHlo.TRef sig ⟨S_, .i32⟩) (.of main_call10_v4 : StableHlo.TRef sig ⟨S_, .i32⟩) signi,
    StableHlo.TRef.unary (.of main_call10_v4 : StableHlo.TRef sig ⟨S_, .i32⟩) (.of main_call10_v5 : StableHlo.TRef sig ⟨S2048, .i32⟩) (broadcastInDim S2048 ![] bcast_S_S2048),
    StableHlo.TRef.binary (.of main_call10_v3 : StableHlo.TRef sig ⟨S2048, .i32⟩) (.of main_call10_v5 : StableHlo.TRef sig ⟨S2048, .i32⟩) (.of main_call10_v6 : StableHlo.TRef sig ⟨S2048, .i1⟩) (cmpi .ne),
    StableHlo.TRef.unary (.of main_call10_v0 : StableHlo.TRef sig ⟨S_, .i32⟩) (.of main_call10_v7 : StableHlo.TRef sig ⟨S2048, .i32⟩) (broadcastInDim S2048 ![] bcast_S_S2048),
    StableHlo.TRef.binary (.of main_v665 : StableHlo.TRef sig ⟨S2048, .i32⟩) (.of main_call10_v7 : StableHlo.TRef sig ⟨S2048, .i32⟩) (.of main_call10_v8 : StableHlo.TRef sig ⟨S2048, .i32⟩) Host.remsi,
    StableHlo.TRef.nullary (.of main_call10_c : StableHlo.TRef sig ⟨S_, .i32⟩) (constantI S_ 32 0#32),
    StableHlo.TRef.unary (.of main_call10_c : StableHlo.TRef sig ⟨S_, .i32⟩) (.of main_call10_v9 : StableHlo.TRef sig ⟨S2048, .i32⟩) (broadcastInDim S2048 ![] bcast_S_S2048),
    StableHlo.TRef.binary (.of main_call10_v8 : StableHlo.TRef sig ⟨S2048, .i32⟩) (.of main_call10_v9 : StableHlo.TRef sig ⟨S2048, .i32⟩) (.of main_call10_v10 : StableHlo.TRef sig ⟨S2048, .i1⟩) (cmpi .ne),
    StableHlo.TRef.binary (.of main_call10_v6 : StableHlo.TRef sig ⟨S2048, .i1⟩) (.of main_call10_v10 : StableHlo.TRef sig ⟨S2048, .i1⟩) (.of main_call10_v11 : StableHlo.TRef sig ⟨S2048, .i1⟩) andi,
    StableHlo.TRef.nullary (.of main_call10_c_0 : StableHlo.TRef sig ⟨S_, .i32⟩) (constantI S_ 32 1#32),
    StableHlo.TRef.unary (.of main_call10_c_0 : StableHlo.TRef sig ⟨S_, .i32⟩) (.of main_call10_v12 : StableHlo.TRef sig ⟨S2048, .i32⟩) (broadcastInDim S2048 ![] bcast_S_S2048),
    StableHlo.TRef.binary (.of main_call10_v2 : StableHlo.TRef sig ⟨S2048, .i32⟩) (.of main_call10_v12 : StableHlo.TRef sig ⟨S2048, .i32⟩) (.of main_call10_v13 : StableHlo.TRef sig ⟨S2048, .i32⟩) subi,
    StableHlo.TRef.ternary (.of main_call10_v11 : StableHlo.TRef sig ⟨S2048, .i1⟩) (.of main_call10_v13 : StableHlo.TRef sig ⟨S2048, .i32⟩) (.of main_call10_v2 : StableHlo.TRef sig ⟨S2048, .i32⟩) (.of main_v666 : StableHlo.TRef sig ⟨S2048, .i32⟩) select ]
/-- Each touches TensorCore references only (`HostSeg.ofOps` over `StableHlo.tcRefs`, or a subset by `sub_ucRefs`). -/
theorem hostOps0_21_sub : (hostOps0_21 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_22 : List (HloOp τ sig (Elt F)) :=
  [ StableHlo.nullary main_c_158 (constantI S_ 32 32#32),
    StableHlo.unary main_c_158 main_v667 (broadcastInDim S2048 ![] bcast_S_S2048 : (⟨S_, .i32⟩ : BufTy).Contents (Elt F) → (⟨S2048, .i32⟩ : BufTy).Contents (Elt F)),
    StableHlo.binary main_v666 main_v667 main_v668 (muli : (⟨S2048, .i32⟩ : BufTy).Contents (Elt F) → (⟨S2048, .i32⟩ : BufTy).Contents (Elt F) → (⟨S2048, .i32⟩ : BufTy).Contents (Elt F)),
    StableHlo.nullary main_c_159 (constantI S_ 32 4095#32) ]
/-- Each touches TensorCore references only (`HostSeg.ofOps` over `StableHlo.tcRefs`, or a subset by `sub_ucRefs`). -/
theorem hostOps0_22_sub : (hostOps0_22 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
end Cert.ReferenceIdeal.Gen

end
-- ==== Proof.RefOpsS2.lean ====
/- The reference program's entry function as lists of host operations: some of the stretches between its calls, the called functions' bodies in place. -/
import proofs.«419362_j66683662237734_3_alg».proof.Proof.Gen.ReferenceIdeal
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- 21 host operations of @remainder_15 (main_call11), in order. -/
abbrev hostOps0_23 : List (HloOp τ sig (Elt F)) :=
  [ StableHlo.TRef.unary (.of main_c_159 : StableHlo.TRef sig ⟨S_, .i32⟩) (.of main_call11_v0 : StableHlo.TRef sig ⟨S_, .i32⟩) id,
    StableHlo.TRef.nullary (.of main_call11_c : StableHlo.TRef sig ⟨S_, .i32⟩) (constantI S_ 32 0#32),
    StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq),
    StableHlo.TRef.nullary (.of main_call11_c_0 : StableHlo.TRef sig ⟨S_, .i32⟩) (constantI S_ 32 1#32),
    StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select,
    StableHlo.TRef.unary main_call11_call0.v0 (.of main_call11_v3 : StableHlo.TRef sig ⟨S2048, .i32⟩) (broadcastInDim S2048 ![] bcast_S_S2048),
    StableHlo.TRef.binary (.of main_v665 : StableHlo.TRef sig ⟨S2048, .i32⟩) (.of main_call11_v3 : StableHlo.TRef sig ⟨S2048, .i32⟩) (.of main_call11_v4 : StableHlo.TRef sig ⟨S2048, .i32⟩) Host.remsi,
    StableHlo.TRef.nullary (.of main_call11_c_1 : StableHlo.TRef sig ⟨S_, .i32⟩) (constantI S_ 32 0#32),
    StableHlo.TRef.unary (.of main_call11_c_1 : StableHlo.TRef sig ⟨S_, .i32⟩) (.of main_call11_v5 : StableHlo.TRef sig ⟨S2048, .i32⟩) (broadcastInDim S2048 ![] bcast_S_S2048),
    StableHlo.TRef.binary (.of main_call11_v4 : StableHlo.TRef sig ⟨S2048, .i32⟩) (.of main_call11_v5 : StableHlo.TRef sig ⟨S2048, .i32⟩) (.of main_call11_v6 : StableHlo.TRef sig ⟨S2048, .i1⟩) (cmpi .ne),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v7 : StableHlo.TRef sig ⟨S2048, .i32⟩) (broadcastInDim S2048 ![] bcast_S_S2048),
    StableHlo.TRef.binary (.of main_call11_v4 : StableHlo.TRef sig ⟨S2048, .i32⟩) (.of main_call11_v7 : StableHlo.TRef sig ⟨S2048, .i32⟩) (.of main_call11_v8 : StableHlo.TRef sig ⟨S2048, .i1⟩) (cmpi .slt),
    StableHlo.TRef.nullary (.of main_call11_c_3 : StableHlo.TRef sig ⟨S_, .i32⟩) (constantI S_ 32 0#32),
    StableHlo.TRef.binary main_call11_call0.v0 (.of main_call11_c_3 : StableHlo.TRef sig ⟨S_, .i32⟩) (.of main_call11_v9 : StableHlo.TRef sig ⟨S_, .i1⟩) (cmpi .slt),
    StableHlo.TRef.unary (.of main_call11_v9 : StableHlo.TRef sig ⟨S_, .i1⟩) (.of main_call11_v10 : StableHlo.TRef sig ⟨S2048, .i1⟩) (broadcastInDim S2048 ![] bcast_S_S2048),
    StableHlo.TRef.binary (.of main_call11_v8 : StableHlo.TRef sig ⟨S2048, .i1⟩) (.of main_call11_v10 : StableHlo.TRef sig ⟨S2048, .i1⟩) (.of main_call11_v11 : StableHlo.TRef sig ⟨S2048, .i1⟩) (cmpi .ne),
    StableHlo.TRef.binary (.of main_call11_v11 : StableHlo.TRef sig ⟨S2048, .i1⟩) (.of main_call11_v6 : StableHlo.TRef sig ⟨S2048, .i1⟩) (.of main_call11_v12 : StableHlo.TRef sig ⟨S2048, .i1⟩) andi,
    StableHlo.TRef.unary main_call11_call0.v0 (.of main_call11_v13 : StableHlo.TRef sig ⟨S2048, .i32⟩) (broadcastInDim S2048 ![] bcast_S_S2048),
    StableHlo.TRef.binary (.of main_call11_v4 : StableHlo.TRef sig ⟨S2048, .i32⟩) (.of main_call11_v13 : StableHlo.TRef sig ⟨S2048, .i32⟩) (.of main_call11_v14 : StableHlo.TRef sig ⟨S2048, .i32⟩) addi,
    StableHlo.TRef.ternary (.of main_call11_v12 : StableHlo.TRef sig ⟨S2048, .i1⟩) (.of main_call11_v14 : StableHlo.TRef sig ⟨S2048, .i32⟩) (.of main_call11_v4 : StableHlo.TRef sig ⟨S2048, .i32⟩) (.of main_v669 : StableHlo.TRef sig ⟨S2048, .i32⟩) select ]
/-- Each touches TensorCore references only (`HostSeg.ofOps` over `StableHlo.tcRefs`, or a subset by `sub_ucRefs`). -/
theorem hostOps0_23_sub : (hostOps0_23 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 130 host operations of @main, in order. -/
abbrev hostOps0_24 : List (HloOp τ sig (Elt F)) :=
  ( StableHlo.nullary main_c_160 (constantI S_ 32 31#32)
  :: StableHlo.unary main_c_160 main_v670 (broadcastInDim S2048 ![] bcast_S_S2048 : (⟨S_, .i32⟩ : BufTy).Contents (Elt F) → (⟨S2048, .i32⟩ : BufTy).Contents (Elt F))
  :: StableHlo.binary main_v669 main_v670 main_v671 (subi : (⟨S2048, .i32⟩ : BufTy).Contents (Elt F) → (⟨S2048, .i32⟩ : BufTy).Contents (Elt F) → (⟨S2048, .i32⟩ : BufTy).Contents (Elt F))
  :: StableHlo.binary main_v668 main_v671 main_v672 (addi : (⟨S2048, .i32⟩ : BufTy).Contents (Elt F) → (⟨S2048, .i32⟩ : BufTy).Contents (Elt F) → (⟨S2048, .i32⟩ : BufTy).Contents (Elt F))
  :: StableHlo.unary main_arg6 main_v673 ((transpose S256x256 [1, 0] · transposes_S256x256_S256x256_1_0) : (⟨S256x256, .f32⟩ : BufTy).Contents (Elt F) → (⟨S256x256, .f32⟩ : BufTy).Contents (Elt F))
  :: StableHlo.binary main_v651 main_v673 main_v674 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F))
  :: StableHlo.unary main_arg7 main_v675 (broadcastInDim S1x256 ![1] bcast_S256_S1x256_1 : (⟨S256, .f32⟩ : BufTy).Contents (Elt F) → (⟨S1x256, .f32⟩ : BufTy).Contents (Elt F))
  :: StableHlo.unary main_v675 main_v676 (broadcastInDim S2048x256 ![0, 1] bcast_S1x256_S2048x256_0_1 : (⟨S1x256, .f32⟩ : BufTy).Contents (Elt F) → (⟨S2048x256, .f32⟩ : BufTy).Contents (Elt F))
  :: StableHlo.binary main_v674 main_v676 main_v677 (addf : (⟨S2048x256, .f32⟩ : BufTy).Contents (Elt F) → (⟨S2048x256, .f32⟩ : BufTy).Contents (Elt F) → (⟨S2048x256, .f32⟩ : BufTy).Contents (Elt F))
  :: StableHlo.unary main_v677 main_v678 (Host.negf : (⟨S2048x256, .f32⟩ : BufTy).Contents (Elt F) → (⟨S2048x256, .f32⟩ : BufTy).Contents (Elt F))
  :: StableHlo.unary main_v678 main_v679 (Host.exp : (⟨S2048x256, .f32⟩ : BufTy).Contents (Elt F) → (⟨S2048x256, .f32⟩ : BufTy).Contents (Elt F))
  :: StableHlo.nullary main_cst_161 (constant S_ .f32 0x3F800000#32)
  :: StableHlo.unary main_cst_161 main_v680 (broadcastInDim S2048x256 ![] bcast_S_S2048x256 : (⟨S_, .f32⟩ : BufTy).Contents (Elt F) → (⟨S2048x256, .f32⟩ : BufTy).Contents (Elt F))
  :: StableHlo.binary main_v680 main_v679 main_v681 (addf : (⟨S2048x256, .f32⟩ : BufTy).Contents (Elt F) → (⟨S2048x256, .f32⟩ : BufTy).Contents (Elt F) → (⟨S2048x256, .f32⟩ : BufTy).Contents (Elt F))
  :: StableHlo.nullary main_cst_162 (constant S_ .f32 0x3F800000#32)
  :: StableHlo.unary main_cst_162 main_v682 (broadcastInDim S2048x256 ![] bcast_S_S2048x256 : (⟨S_, .f32⟩ : BufTy).Contents (Elt F) → (⟨S2048x256, .f32⟩ : BufTy).Contents (Elt F))
  :: StableHlo.binary main_v682 main_v681 main_v683 (Host.divf : (⟨S2048x256, .f32⟩ : BufTy).Contents (Elt F) → (⟨S2048x256, .f32⟩ : BufTy).Contents (Elt F) → (⟨S2048x256, .f32⟩ : BufTy).Contents (Elt F))
  :: StableHlo.nullary main_cst_163 (constant S_ .f32 0x00000000#32)
  :: StableHlo.unary main_cst_163 main_v684 (broadcastInDim S1024x256 ![] bcast_S_S1024x256 : (⟨S_, .f32⟩ : BufTy).Contents (Elt F) → (⟨S1024x256, .f32⟩ : BufTy).Contents (Elt F))
  :: StableHlo.unary main_v672 main_v685 (broadcastInDim S2048x1 ![0] bcast_S2048_S2048x1_0 : (⟨S2048, .i32⟩ : BufTy).Contents (Elt F) → (⟨S2048x1, .i32⟩ : BufTy).Contents (Elt F))
  :: StableHlo.ternary main_v684 main_v685 main_v651 main_v686 ((fun x i u => Host.scatterAdd scatter_S1024x256_S2048x1_S2048x256_1_0_0_1 x i u) : (⟨S1024x256, .f32⟩ : BufTy).Contents (Elt F) → (⟨S2048x1, .i32⟩ : BufTy).Contents (Elt F) → (⟨S2048x256, .f32⟩ : BufTy).Contents (Elt F) → (⟨S1024x256, .f32⟩ : BufTy).Contents (Elt F))
  :: StableHlo.binary main_v683 main_v658 main_v687 (mulf : (⟨S2048x256, .f32⟩ : BufTy).Contents (Elt F) → (⟨S2048x256, .f32⟩ : BufTy).Contents (Elt F) → (⟨S2048x256, .f32⟩ : BufTy).Contents (Elt F))
  :: StableHlo.nullary main_cst_164 (constant S_ .f32 0x00000000#32)
  :: StableHlo.unary main_cst_164 main_v688 (broadcastInDim S1024x256 ![] bcast_S_S1024x256 : (⟨S_, .f32⟩ : BufTy).Contents (Elt F) → (⟨S1024x256, .f32⟩ : BufTy).Contents (Elt F))
  :: StableHlo.unary main_v672 main_v689 (broadcastInDim S2048x1 ![0] bcast_S2048_S2048x1_0 : (⟨S2048, .i32⟩ : BufTy).Contents (Elt F) → (⟨S2048x1, .i32⟩ : BufTy).Contents (Elt F))
  :: StableHlo.ternary main_v688 main_v689 main_v687 main_v690 ((fun x i u => Host.scatterAdd scatter_S1024x256_S2048x1_S2048x256_1_0_0_1 x i u) : (⟨S1024x256, .f32⟩ : BufTy).Contents (Elt F) → (⟨S2048x1, .i32⟩ : BufTy).Contents (Elt F) → (⟨S2048x256, .f32⟩ : BufTy).Contents (Elt F) → (⟨S1024x256, .f32⟩ : BufTy).Contents (Elt F))
  :: StableHlo.unary main_arg4 main_v691 ((transpose S256x768 [1, 0] · transposes_S768x256_S256x768_1_0) : (⟨S768x256, .f32⟩ : BufTy).Contents (Elt F) → (⟨S256x768, .f32⟩ : BufTy).Contents (Elt F))
  :: StableHlo.binary main_v686 main_v691 main_v692 ((fun l r => Host.dotGeneral dot_S1024x256_S256x768_S1024x768_1_0_0_1_n_n none l r) : (⟨S1024x256, .f32⟩ : BufTy).Contents (Elt F) → (⟨S256x768, .f32⟩ : BufTy).Contents (Elt F) → (⟨S1024x768, .f32⟩ : BufTy).Contents (Elt F))
  :: StableHlo.binary main_v635 main_v692 main_v693 (addf : (⟨S1024x768, .f32⟩ : BufTy).Contents (Elt F) → (⟨S1024x768, .f32⟩ : BufTy).Contents (Elt F) → (⟨S1024x768, .f32⟩ : BufTy).Contents (Elt F))
  :: StableHlo.unary main_arg5 main_v694 (broadcastInDim S1024x768 ![0, 1] bcast_S1x768_S1024x768_0_1 : (⟨S1x768, .f32⟩ : BufTy).Contents (Elt F) → (⟨S1024x768, .f32⟩ : BufTy).Contents (Elt F))
  :: StableHlo.binary main_v693 main_v694 main_v695 (addf : (⟨S1024x768, .f32⟩ : BufTy).Contents (Elt F) → (⟨S1024x768, .f32⟩ : BufTy).Contents (Elt F) → (⟨S1024x768, .f32⟩ : BufTy).Contents (Elt F))
  :: StableHlo.unary main_v695 main_v696 ((extractStridedSlice S1024x256 ![0, 0] · slices_S1024x768_S1024x256_0_0) : (⟨S1024x768, .f32⟩ : BufTy).Contents (Elt F) → (⟨S1024x256, .f32⟩ : BufTy).Contents (Elt F))
  :: StableHlo.unary main_v695 main_v697 ((extractStridedSlice S1024x256 ![0, 256] · slices_S1024x768_S1024x256_0_256) : (⟨S1024x768, .f32⟩ : BufTy).Contents (Elt F) → (⟨S1024x256, .f32⟩ : BufTy).Contents (Elt F))
  :: StableHlo.unary main_v695 main_v698 ((extractStridedSlice S1024x256 ![0, 512] · slices_S1024x768_S1024x256_0_512) : (⟨S1024x768, .f32⟩ : BufTy).Contents (Elt F) → (⟨S1024x256, .f32⟩ : BufTy).Contents (Elt F))
  :: StableHlo.unary main_v696 main_v699 (Host.negf : (⟨S1024x256, .f32⟩ : BufTy).Contents (Elt F) → (⟨S1024x256, .f32⟩ : BufTy).Contents (Elt F))
  :: StableHlo.unary main_v699 main_v700 (Host.exp : (⟨S1024x256, .f32⟩ : BufTy).Contents (Elt F) → (⟨S1024x256, .f32⟩ : BufTy).Contents (Elt F))
  :: StableHlo.nullary main_cst_165 (constant S_ .f32 0x3F800000#32)
  :: StableHlo.unary main_cst_165 main_v701 (broadcastInDim S1024x256 ![] bcast_S_S1024x256 : (⟨S_, .f32⟩ : BufTy).Contents (Elt F) → (⟨S1024x256, .f32⟩ : BufTy).Contents (Elt F))
  :: StableHlo.binary main_v701 main_v700 main_v702 (addf : (⟨S1024x256, .f32⟩ : BufTy).Contents (Elt F) → (⟨S1024x256, .f32⟩ : BufTy).Contents (Elt F) → (⟨S1024x256, .f32⟩ : BufTy).Contents (Elt F))
  :: StableHlo.nullary main_cst_166 (constant S_ .f32 0x3F800000#32)
  :: StableHlo.unary main_cst_166 main_v703 (broadcastInDim S1024x256 ![] bcast_S_S1024x256 : (⟨S_, .f32⟩ : BufTy).Contents (Elt F) → (⟨S1024x256, .f32⟩ : BufTy).Contents (Elt F))
  :: StableHlo.binary main_v703 main_v702 main_v704 (Host.divf : (⟨S1024x256, .f32⟩ : BufTy).Contents (Elt F) → (⟨S1024x256, .f32⟩ : BufTy).Contents (Elt F) → (⟨S1024x256, .f32⟩ : BufTy).Contents (Elt F))
  :: StableHlo.unary main_v698 main_v705 (Host.tanh : (⟨S1024x256, .f32⟩ : BufTy).Contents (Elt F) → (⟨S1024x256, .f32⟩ : BufTy).Contents (Elt F))
  :: StableHlo.binary main_v704 main_v705 main_v706 (mulf : (⟨S1024x256, .f32⟩ : BufTy).Contents (Elt F) → (⟨S1024x256, .f32⟩ : BufTy).Contents (Elt F) → (⟨S1024x256, .f32⟩ : BufTy).Contents (Elt F))
  :: StableHlo.binary main_v706 main_v690 main_v707 (addf : (⟨S1024x256, .f32⟩ : BufTy).Contents (Elt F) → (⟨S1024x256, .f32⟩ : BufTy).Contents (Elt F) → (⟨S1024x256, .f32⟩ : BufTy).Contents (Elt F))
  :: StableHlo.unary main_v697 main_v708 (Host.negf : (⟨S1024x256, .f32⟩ : BufTy).Contents (Elt F) → (⟨S1024x256, .f32⟩ : BufTy).Contents (Elt F))
  :: StableHlo.unary main_v708 main_v709 (Host.exp : (⟨S1024x256, .f32⟩ : BufTy).Contents (Elt F) → (⟨S1024x256, .f32⟩ : BufTy).Contents (Elt F))
  :: StableHlo.nullary main_cst_167 (constant S_ .f32 0x3F800000#32)
  :: StableHlo.unary main_cst_167 main_v710 (broadcastInDim S1024x256 ![] bcast_S_S1024x256 : (⟨S_, .f32⟩ : BufTy).Contents (Elt F) → (⟨S1024x256, .f32⟩ : BufTy).Contents (Elt F))
  :: StableHlo.binary main_v710 main_v709 main_v711 (addf : (⟨S1024x256, .f32⟩ : BufTy).Contents (Elt F) → (⟨S1024x256, .f32⟩ : BufTy).Contents (Elt F) → (⟨S1024x256, .f32⟩ : BufTy).Contents (Elt F))
  :: StableHlo.nullary main_cst_168 (constant S_ .f32 0x3F800000#32)
  :: StableHlo.unary main_cst_168 main_v712 (broadcastInDim S1024x256 ![] bcast_S_S1024x256 : (⟨S_, .f32⟩ : BufTy).Contents (Elt F) → (⟨S1024x256, .f32⟩ : BufTy).Contents (Elt F))
  :: StableHlo.binary main_v712 main_v711 main_v713 (Host.divf : (⟨S1024x256, .f32⟩ : BufTy).Contents (Elt F) → (⟨S1024x256, .f32⟩ : BufTy).Contents (Elt F) → (⟨S1024x256, .f32⟩ : BufTy).Contents (Elt F))
  :: StableHlo.unary main_v707 main_v714 (Host.tanh : (⟨S1024x256, .f32⟩ : BufTy).Contents (Elt F) → (⟨S1024x256, .f32⟩ : BufTy).Contents (Elt F))
  :: StableHlo.binary main_v713 main_v714 main_v715 (mulf : (⟨S1024x256, .f32⟩ : BufTy).Contents (Elt F) → (⟨S1024x256, .f32⟩ : BufTy).Contents (Elt F) → (⟨S1024x256, .f32⟩ : BufTy).Contents (Elt F))
  :: StableHlo.nullary main_c_169 (constantI S_ 32 0#32)
  :: StableHlo.unary main_c_169 main_v716 (broadcastInDim S1024 ![] bcast_S_S1024 : (⟨S_, .i32⟩ : BufTy).Contents (Elt F) → (⟨S1024, .i32⟩ : BufTy).Contents (Elt F))
  :: StableHlo.binary main_v628 main_v716 main_v717 (cmpi .slt : (⟨S1024, .i32⟩ : BufTy).Contents (Elt F) → (⟨S1024, .i32⟩ : BufTy).Contents (Elt F) → (⟨S1024, .i1⟩ : BufTy).Contents (Elt F))
  :: StableHlo.nullary main_c_170 (constantI S_ 32 131040#32)
  :: StableHlo.unary main_c_170 main_v718 (broadcastInDim S1024 ![] bcast_S_S1024 : (⟨S_, .i32⟩ : BufTy).Contents (Elt F) → (⟨S1024, .i32⟩ : BufTy).Contents (Elt F))
  :: StableHlo.binary main_v628 main_v718 main_v719 (addi : (⟨S1024, .i32⟩ : BufTy).Contents (Elt F) → (⟨S1024, .i32⟩ : BufTy).Contents (Elt F) → (⟨S1024, .i32⟩ : BufTy).Contents (Elt F))
  :: StableHlo.ternary main_v717 main_v719 main_v628 main_v720 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v720 main_v721 (broadcastInDim S1024x1 ![0] bcast_S1024_S1024x1_0 : (⟨S1024, .i32⟩ : BufTy).Contents (Elt F) → (⟨S1024x1, .i32⟩ : BufTy).Contents (Elt F))
  :: StableHlo.ternary main_v612 main_v721 main_v715 main_v722 ((fun x i u => Host.scatter scatter_S131040x256_S1024x1_S1024x256_1_0_0_1 (fun _ b => b) x i u) : (⟨S131040x256, .f32⟩ : BufTy).Contents (Elt F) → (⟨S1024x1, .i32⟩ : BufTy).Contents (Elt F) → (⟨S1024x256, .f32⟩ : BufTy).Contents (Elt F) → (⟨S131040x256, .f32⟩ : BufTy).Contents (Elt F))
  :: StableHlo.nullary main_c_171 (constantI S_ 32 0#32)
  :: StableHlo.unary main_c_171 main_v723 (broadcastInDim S1024 ![] bcast_S_S1024 : (⟨S_, .i32⟩ : BufTy).Contents (Elt F) → (⟨S1024, .i32⟩ : BufTy).Contents (Elt F))
  :: StableHlo.binary main_v628 main_v723 main_v724 (cmpi .slt : (⟨S1024, .i32⟩ : BufTy).Contents (Elt F) → (⟨S1024, .i32⟩ : BufTy).Contents (Elt F) → (⟨S1024, .i1⟩ : BufTy).Contents (Elt F))
  :: StableHlo.nullary main_c_172 (constantI S_ 32 131040#32)
  :: StableHlo.unary main_c_172 main_v725 (broadcastInDim S1024 ![] bcast_S_S1024 : (⟨S_, .i32⟩ : BufTy).Contents (Elt F) → (⟨S1024, .i32⟩ : BufTy).Contents (Elt F))
  :: StableHlo.binary main_v628 main_v725 main_v726 (addi : (⟨S1024, .i32⟩ : BufTy).Contents (Elt F) → (⟨S1024, .i32⟩ : BufTy).Contents (Elt F) → (⟨S1024, .i32⟩ : BufTy).Contents (Elt F))
  :: StableHlo.ternary main_v724 main_v726 main_v628 main_v727 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v727 main_v728 (broadcastInDim S1024x1 ![0] bcast_S1024_S1024x1_0 : (⟨S1024, .i32⟩ : BufTy).Contents (Elt F) → (⟨S1024x1, .i32⟩ : BufTy).Contents (Elt F))
  :: StableHlo.ternary main_v619 main_v728 main_v707 main_v729 ((fun x i u => Host.scatter scatter_S131040x256_S1024x1_S1024x256_1_0_0_1 (fun _ b => b) x i u) : (⟨S131040x256, .f32⟩ : BufTy).Contents (Elt F) → (⟨S1024x1, .i32⟩ : BufTy).Contents (Elt F) → (⟨S1024x256, .f32⟩ : BufTy).Contents (Elt F) → (⟨S131040x256, .f32⟩ : BufTy).Contents (Elt F))
  :: StableHlo.unary main_v16 main_v730 (broadcastInDim S32x1 ![0] bcast_S32_S32x1_0 : (⟨S32, .i32⟩ : BufTy).Contents (Elt F) → (⟨S32x1, .i32⟩ : BufTy).Contents (Elt F))
  :: StableHlo.nullary main_c_173 (constantI S_ 32 15#32)
  :: StableHlo.unary main_c_173 main_v731 (broadcastInDim S32x1 ![] bcast_S_S32x1 : (⟨S_, .i32⟩ : BufTy).Contents (Elt F) → (⟨S32x1, .i32⟩ : BufTy).Contents (Elt F))
  :: StableHlo.binary main_v730 main_v731 main_v732 (addi : (⟨S32x1, .i32⟩ : BufTy).Contents (Elt F) → (⟨S32x1, .i32⟩ : BufTy).Contents (Elt F) → (⟨S32x1, .i32⟩ : BufTy).Contents (Elt F))
  :: StableHlo.nullary main_v733 (iotaInDim S16 32 0)
  :: StableHlo.unary main_v733 main_v734 (broadcastInDim S1x16 ![1] bcast_S16_S1x16_1 : (⟨S16, .i32⟩ : BufTy).Contents (Elt F) → (⟨S1x16, .i32⟩ : BufTy).Contents (Elt F))
  :: StableHlo.unary main_v732 main_v735 (broadcastInDim S32x16 ![0, 1] bcast_S32x1_S32x16_0_1 : (⟨S32x1, .i32⟩ : BufTy).Contents (Elt F) → (⟨S32x16, .i32⟩ : BufTy).Contents (Elt F))
  :: StableHlo.unary main_v734 main_v736 (broadcastInDim S32x16 ![0, 1] bcast_S1x16_S32x16_0_1 : (⟨S1x16, .i32⟩ : BufTy).Contents (Elt F) → (⟨S32x16, .i32⟩ : BufTy).Contents (Elt F))
  :: StableHlo.binary main_v735 main_v736 main_v737 (addi : (⟨S32x16, .i32⟩ : BufTy).Contents (Elt F) → (⟨S32x16, .i32⟩ : BufTy).Contents (Elt F) → (⟨S32x16, .i32⟩ : BufTy).Contents (Elt F))
  :: StableHlo.reshape main_v737 main_v738 rfl shapeCasts_S32x16_S512
  :: StableHlo.nullary main_c_174 (constantI S_ 32 0#32)
  :: StableHlo.unary main_c_174 main_v739 (broadcastInDim S512 ![] bcast_S_S512 : (⟨S_, .i32⟩ : BufTy).Contents (Elt F) → (⟨S512, .i32⟩ : BufTy).Contents (Elt F))
  :: StableHlo.binary main_v738 main_v739 main_v740 (cmpi .slt : (⟨S512, .i32⟩ : BufTy).Contents (Elt F) → (⟨S512, .i32⟩ : BufTy).Contents (Elt F) → (⟨S512, .i1⟩ : BufTy).Contents (Elt F))
  :: StableHlo.nullary main_c_175 (constantI S_ 32 131040#32)
  :: StableHlo.unary main_c_175 main_v741 (broadcastInDim S512 ![] bcast_S_S512 : (⟨S_, .i32⟩ : BufTy).Contents (Elt F) → (⟨S512, .i32⟩ : BufTy).Contents (Elt F))
  :: StableHlo.binary main_v738 main_v741 main_v742 (addi : (⟨S512, .i32⟩ : BufTy).Contents (Elt F) → (⟨S512, .i32⟩ : BufTy).Contents (Elt F) → (⟨S512, .i32⟩ : BufTy).Contents (Elt F))
  :: StableHlo.ternary main_v740 main_v742 main_v738 main_v743 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v743 main_v744 (broadcastInDim S512x1 ![0] bcast_S512_S512x1_0 : (⟨S512, .i32⟩ : BufTy).Contents (Elt F) → (⟨S512x1, .i32⟩ : BufTy).Contents (Elt F))
  :: StableHlo.binary main_v11 main_v744 main_v745 ((fun x i => Host.gather gather_S131040x768_S512x1_S512x768_1_0_n_n_0_1_1768 x i) : (⟨S131040x768, .f32⟩ : BufTy).Contents (Elt F) → (⟨S512x1, .i32⟩ : BufTy).Contents (Elt F) → (⟨S512x768, .f32⟩ : BufTy).Contents (Elt F))
  :: StableHlo.unary main_v16 main_v746 (broadcastInDim S32x1 ![0] bcast_S32_S32x1_0 : (⟨S32, .i32⟩ : BufTy).Contents (Elt F) → (⟨S32x1, .i32⟩ : BufTy).Contents (Elt F))
  :: StableHlo.nullary main_c_176 (constantI S_ 32 31#32)
  :: StableHlo.unary main_c_176 main_v747 (broadcastInDim S32x1 ![] bcast_S_S32x1 : (⟨S_, .i32⟩ : BufTy).Contents (Elt F) → (⟨S32x1, .i32⟩ : BufTy).Contents (Elt F))
  :: StableHlo.binary main_v746 main_v747 main_v748 (addi : (⟨S32x1, .i32⟩ : BufTy).Contents (Elt F) → (⟨S32x1, .i32⟩ : BufTy).Contents (Elt F) → (⟨S32x1, .i32⟩ : BufTy).Contents (Elt F))
  :: StableHlo.nullary main_v749 (iotaInDim S32 32 0)
  :: StableHlo.unary main_v749 main_v750 (broadcastInDim S1x32 ![1] bcast_S32_S1x32_1 : (⟨S32, .i32⟩ : BufTy).Contents (Elt F) → (⟨S1x32, .i32⟩ : BufTy).Contents (Elt F))
  :: StableHlo.unary main_v748 main_v751 (broadcastInDim S32x32 ![0, 1] bcast_S32x1_S32x32_0_1 : (⟨S32x1, .i32⟩ : BufTy).Contents (Elt F) → (⟨S32x32, .i32⟩ : BufTy).Contents (Elt F))
  :: StableHlo.unary main_v750 main_v752 (broadcastInDim S32x32 ![0, 1] bcast_S1x32_S32x32_0_1 : (⟨S1x32, .i32⟩ : BufTy).Contents (Elt F) → (⟨S32x32, .i32⟩ : BufTy).Contents (Elt F))
  :: StableHlo.binary main_v751 main_v752 main_v753 (addi : (⟨S32x32, .i32⟩ : BufTy).Contents (Elt F) → (⟨S32x32, .i32⟩ : BufTy).Contents (Elt F) → (⟨S32x32, .i32⟩ : BufTy).Contents (Elt F))
  :: StableHlo.reshape main_v753 main_v754 rfl shapeCasts_S32x32_S1024
  :: StableHlo.nullary main_c_177 (constantI S_ 32 0#32)
  :: StableHlo.unary main_c_177 main_v755 (broadcastInDim S1024 ![] bcast_S_S1024 : (⟨S_, .i32⟩ : BufTy).Contents (Elt F) → (⟨S1024, .i32⟩ : BufTy).Contents (Elt F))
  :: StableHlo.binary main_v754 main_v755 main_v756 (cmpi .slt : (⟨S1024, .i32⟩ : BufTy).Contents (Elt F) → (⟨S1024, .i32⟩ : BufTy).Contents (Elt F) → (⟨S1024, .i1⟩ : BufTy).Contents (Elt F))
  :: StableHlo.nullary main_c_178 (constantI S_ 32 131040#32)
  :: StableHlo.unary main_c_178 main_v757 (broadcastInDim S1024 ![] bcast_S_S1024 : (⟨S_, .i32⟩ : BufTy).Contents (Elt F) → (⟨S1024, .i32⟩ : BufTy).Contents (Elt F))
  :: StableHlo.binary main_v754 main_v757 main_v758 (addi : (⟨S1024, .i32⟩ : BufTy).Contents (Elt F) → (⟨S1024, .i32⟩ : BufTy).Contents (Elt F) → (⟨S1024, .i32⟩ : BufTy).Contents (Elt F))
  :: StableHlo.ternary main_v756 main_v758 main_v754 main_v759 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v759 main_v760 (broadcastInDim S1024x1 ![0] bcast_S1024_S1024x1_0 : (⟨S1024, .i32⟩ : BufTy).Contents (Elt F) → (⟨S1024x1, .i32⟩ : BufTy).Contents (Elt F))
  :: StableHlo.binary main_v722 main_v760 main_v761 ((fun x i => Host.gather gather_S131040x256_S1024x1_S1024x256_1_0_n_n_0_1_1256 x i) : (⟨S131040x256, .f32⟩ : BufTy).Contents (Elt F) → (⟨S1024x1, .i32⟩ : BufTy).Contents (Elt F) → (⟨S1024x256, .f32⟩ : BufTy).Contents (Elt F))
  :: StableHlo.nullary main_c_179 (constantI S_ 32 0#32)
  :: StableHlo.unary main_c_179 main_v762 (broadcastInDim S1024 ![] bcast_S_S1024 : (⟨S_, .i32⟩ : BufTy).Contents (Elt F) → (⟨S1024, .i32⟩ : BufTy).Contents (Elt F))
  :: StableHlo.binary main_v754 main_v762 main_v763 (cmpi .slt : (⟨S1024, .i32⟩ : BufTy).Contents (Elt F) → (⟨S1024, .i32⟩ : BufTy).Contents (Elt F) → (⟨S1024, .i1⟩ : BufTy).Contents (Elt F))
  :: StableHlo.nullary main_c_180 (constantI S_ 32 131040#32)
  :: StableHlo.unary main_c_180 main_v764 (broadcastInDim S1024 ![] bcast_S_S1024 : (⟨S_, .i32⟩ : BufTy).Contents (Elt F) → (⟨S1024, .i32⟩ : BufTy).Contents (Elt F))
  :: StableHlo.binary main_v754 main_v764 main_v765 (addi : (⟨S1024, .i32⟩ : BufTy).Contents (Elt F) → (⟨S1024, .i32⟩ : BufTy).Contents (Elt F) → (⟨S1024, .i32⟩ : BufTy).Contents (Elt F))
  :: StableHlo.ternary main_v763 main_v765 main_v754 main_v766 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v766 main_v767 (broadcastInDim S1024x1 ![0] bcast_S1024_S1024x1_0 : (⟨S1024, .i32⟩ : BufTy).Contents (Elt F) → (⟨S1024x1, .i32⟩ : BufTy).Contents (Elt F))
  :: StableHlo.binary main_v729 main_v767 main_v768 ((fun x i => Host.gather gather_S131040x256_S1024x1_S1024x256_1_0_n_n_0_1_1256 x i) : (⟨S131040x256, .f32⟩ : BufTy).Contents (Elt F) → (⟨S1024x1, .i32⟩ : BufTy).Contents (Elt F) → (⟨S1024x256, .f32⟩ : BufTy).Contents (Elt F))
  :: StableHlo.nullary main_c_181 (constantI S_ 32 0#32)
  :: StableHlo.unary main_c_181 main_v769 (broadcastInDim S1024 ![] bcast_S_S1024 : (⟨S_, .i32⟩ : BufTy).Contents (Elt F) → (⟨S1024, .i32⟩ : BufTy).Contents (Elt F))
  :: StableHlo.binary main_v754 main_v769 main_v770 (cmpi .slt : (⟨S1024, .i32⟩ : BufTy).Contents (Elt F) → (⟨S1024, .i32⟩ : BufTy).Contents (Elt F) → (⟨S1024, .i1⟩ : BufTy).Contents (Elt F))
  :: StableHlo.nullary main_c_182 (constantI S_ 32 131040#32)
  :: StableHlo.unary main_c_182 main_v771 (broadcastInDim S1024 ![] bcast_S_S1024 : (⟨S_, .i32⟩ : BufTy).Contents (Elt F) → (⟨S1024, .i32⟩ : BufTy).Contents (Elt F))
  :: StableHlo.binary main_v754 main_v771 main_v772 (addi : (⟨S1024, .i32⟩ : BufTy).Contents (Elt F) → (⟨S1024, .i32⟩ : BufTy).Contents (Elt F) → (⟨S1024, .i32⟩ : BufTy).Contents (Elt F))
  :: StableHlo.ternary main_v770 main_v772 main_v754 main_v773 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v773 main_v774 (broadcastInDim S1024x1 ![0] bcast_S1024_S1024x1_0 : (⟨S1024, .i32⟩ : BufTy).Contents (Elt F) → (⟨S1024x1, .i32⟩ : BufTy).Contents (Elt F))
  :: StableHlo.binary main_arg1 main_v774 main_v775 ((fun x i => Host.gather gather_S131040_S1024x1_S1024_n_0_n_n_0_1_1 x i) : (⟨S131040, .i32⟩ : BufTy).Contents (Elt F) → (⟨S1024x1, .i32⟩ : BufTy).Contents (Elt F) → (⟨S1024, .i32⟩ : BufTy).Contents (Elt F))
  :: StableHlo.nullary main_c_183 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_24_sub : (hostOps0_24 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_16 (main_call12), in order. -/
abbrev hostOps0_25 : List (HloOp τ sig (Elt F)) :=
  [ StableHlo.TRef.unary (.of main_c_183 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S1024, .i32⟩) (broadcastInDim S1024 ![] bcast_S_S1024),
    StableHlo.TRef.binary (.of main_v775 : StableHlo.TRef sig ⟨S1024, .i32⟩) (.of main_call12_v1 : StableHlo.TRef sig ⟨S1024, .i32⟩) (.of main_call12_v2 : StableHlo.TRef sig ⟨S1024, .i32⟩) Host.divsi,
    StableHlo.TRef.unary (.of main_v775 : StableHlo.TRef sig ⟨S1024, .i32⟩) (.of main_call12_v3 : StableHlo.TRef sig ⟨S1024, .i32⟩) signi,
    StableHlo.TRef.unary (.of main_call12_v0 : StableHlo.TRef sig ⟨S_, .i32⟩) (.of main_call12_v4 : StableHlo.TRef sig ⟨S_, .i32⟩) signi,
    StableHlo.TRef.unary (.of main_call12_v4 : StableHlo.TRef sig ⟨S_, .i32⟩) (.of main_call12_v5 : StableHlo.TRef sig ⟨S1024, .i32⟩) (broadcastInDim S1024 ![] bcast_S_S1024),
    StableHlo.TRef.binary (.of main_call12_v3 : StableHlo.TRef sig ⟨S1024, .i32⟩) (.of main_call12_v5 : StableHlo.TRef sig ⟨S1024, .i32⟩) (.of main_call12_v6 : StableHlo.TRef sig ⟨S1024, .i1⟩) (cmpi .ne),
    StableHlo.TRef.unary (.of main_call12_v0 : StableHlo.TRef sig ⟨S_, .i32⟩) (.of main_call12_v7 : StableHlo.TRef sig ⟨S1024, .i32⟩) (broadcastInDim S1024 ![] bcast_S_S1024),
    StableHlo.TRef.binary (.of main_v775 : StableHlo.TRef sig ⟨S1024, .i32⟩) (.of main_call12_v7 : StableHlo.TRef sig ⟨S1024, .i32⟩) (.of main_call12_v8 : StableHlo.TRef sig ⟨S1024, .i32⟩) Host.remsi,
    StableHlo.TRef.nullary (.of main_call12_c : StableHlo.TRef sig ⟨S_, .i32⟩) (constantI S_ 32 0#32),
    StableHlo.TRef.unary (.of main_call12_c : StableHlo.TRef sig ⟨S_, .i32⟩) (.of main_call12_v9 : StableHlo.TRef sig ⟨S1024, .i32⟩) (broadcastInDim S1024 ![] bcast_S_S1024),
    StableHlo.TRef.binary (.of main_call12_v8 : StableHlo.TRef sig ⟨S1024, .i32⟩) (.of main_call12_v9 : StableHlo.TRef sig ⟨S1024, .i32⟩) (.of main_call12_v10 : StableHlo.TRef sig ⟨S1024, .i1⟩) (cmpi .ne),
    StableHlo.TRef.binary (.of main_call12_v6 : StableHlo.TRef sig ⟨S1024, .i1⟩) (.of main_call12_v10 : StableHlo.TRef sig ⟨S1024, .i1⟩) (.of main_call12_v11 : StableHlo.TRef sig ⟨S1024, .i1⟩) andi,
    StableHlo.TRef.nullary (.of main_call12_c_0 : StableHlo.TRef sig ⟨S_, .i32⟩) (constantI S_ 32 1#32),
    StableHlo.TRef.unary (.of main_call12_c_0 : StableHlo.TRef sig ⟨S_, .i32⟩) (.of main_call12_v12 : StableHlo.TRef sig ⟨S1024, .i32⟩) (broadcastInDim S1024 ![] bcast_S_S1024),
    StableHlo.TRef.binary (.of main_call12_v2 : StableHlo.TRef sig ⟨S1024, .i32⟩) (.of main_call12_v12 : StableHlo.TRef sig ⟨S1024, .i32⟩) (.of main_call12_v13 : StableHlo.TRef sig ⟨S1024, .i32⟩) subi,
    StableHlo.TRef.ternary (.of main_call12_v11 : StableHlo.TRef sig ⟨S1024, .i1⟩) (.of main_call12_v13 : StableHlo.TRef sig ⟨S1024, .i32⟩) (.of main_call12_v2 : StableHlo.TRef sig ⟨S1024, .i32⟩) (.of main_v776 : StableHlo.TRef sig ⟨S1024, .i32⟩) select ]
/-- Each touches TensorCore references only (`HostSeg.ofOps` over `StableHlo.tcRefs`, or a subset by `sub_ucRefs`). -/
theorem hostOps0_25_sub : (hostOps0_25 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_26 : List (HloOp τ sig (Elt F)) :=
  [ StableHlo.nullary main_c_184 (constantI S_ 32 16#32),
    StableHlo.unary main_c_184 main_v777 (broadcastInDim S1024 ![] bcast_S_S1024 : (⟨S_, .i32⟩ : BufTy).Contents (Elt F) → (⟨S1024, .i32⟩ : BufTy).Contents (Elt F)),
    StableHlo.binary main_v776 main_v777 main_v778 (muli : (⟨S1024, .i32⟩ : BufTy).Contents (Elt F) → (⟨S1024, .i32⟩ : BufTy).Contents (Elt F) → (⟨S1024, .i32⟩ : BufTy).Contents (Elt F)),
    StableHlo.nullary main_c_185 (constantI S_ 32 4095#32) ]
/-- Each touches TensorCore references only (`HostSeg.ofOps` over `StableHlo.tcRefs`, or a subset by `sub_ucRefs`). -/
theorem hostOps0_26_sub : (hostOps0_26 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_18 (main_call13), in order. -/
abbrev hostOps0_27 : List (HloOp τ sig (Elt F)) :=
  [ StableHlo.TRef.unary (.of main_c_185 : StableHlo.TRef sig ⟨S_, .i32⟩) (.of main_call13_v0 : StableHlo.TRef sig ⟨S_, .i32⟩) id,
    StableHlo.TRef.nullary (.of main_call13_c : StableHlo.TRef sig ⟨S_, .i32⟩) (constantI S_ 32 0#32),
    StableHlo.TRef.binary (.of main_call13_v0 : StableHlo.TRef sig ⟨S_, .i32⟩) (.of main_call13_c : StableHlo.TRef sig ⟨S_, .i32⟩) (.of main_call13_v1 : StableHlo.TRef sig ⟨S_, .i1⟩) (cmpi .eq),
    StableHlo.TRef.nullary (.of main_call13_c_0 : StableHlo.TRef sig ⟨S_, .i32⟩) (constantI S_ 32 1#32),
    StableHlo.TRef.ternary (.of main_call13_v1 : StableHlo.TRef sig ⟨S_, .i1⟩) (.of main_call13_c_0 : StableHlo.TRef sig ⟨S_, .i32⟩) (.of main_call13_v0 : StableHlo.TRef sig ⟨S_, .i32⟩) (.of main_call13_v2 : StableHlo.TRef sig ⟨S_, .i32⟩) select,
    StableHlo.TRef.unary main_call13_call0.v0 (.of main_call13_v3 : StableHlo.TRef sig ⟨S1024, .i32⟩) (broadcastInDim S1024 ![] bcast_S_S1024),
    StableHlo.TRef.binary (.of main_v775 : StableHlo.TRef sig ⟨S1024, .i32⟩) (.of main_call13_v3 : StableHlo.TRef sig ⟨S1024, .i32⟩) (.of main_call13_v4 : StableHlo.TRef sig ⟨S1024, .i32⟩) Host.remsi,
    StableHlo.TRef.nullary (.of main_call13_c_1 : StableHlo.TRef sig ⟨S_, .i32⟩) (constantI S_ 32 0#32),
    StableHlo.TRef.unary (.of main_call13_c_1 : StableHlo.TRef sig ⟨S_, .i32⟩) (.of main_call13_v5 : StableHlo.TRef sig ⟨S1024, .i32⟩) (broadcastInDim S1024 ![] bcast_S_S1024),
    StableHlo.TRef.binary (.of main_call13_v4 : StableHlo.TRef sig ⟨S1024, .i32⟩) (.of main_call13_v5 : StableHlo.TRef sig ⟨S1024, .i32⟩) (.of main_call13_v6 : StableHlo.TRef sig ⟨S1024, .i1⟩) (cmpi .ne),
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v7 : StableHlo.TRef sig ⟨S1024, .i32⟩) (broadcastInDim S1024 ![] bcast_S_S1024),
    StableHlo.TRef.binary (.of main_call13_v4 : StableHlo.TRef sig ⟨S1024, .i32⟩) (.of main_call13_v7 : StableHlo.TRef sig ⟨S1024, .i32⟩) (.of main_call13_v8 : StableHlo.TRef sig ⟨S1024, .i1⟩) (cmpi .slt),
    StableHlo.TRef.nullary (.of main_call13_c_3 : StableHlo.TRef sig ⟨S_, .i32⟩) (constantI S_ 32 0#32),
    StableHlo.TRef.binary main_call13_call0.v0 (.of main_call13_c_3 : StableHlo.TRef sig ⟨S_, .i32⟩) (.of main_call13_v9 : StableHlo.TRef sig ⟨S_, .i1⟩) (cmpi .slt),
    StableHlo.TRef.unary (.of main_call13_v9 : StableHlo.TRef sig ⟨S_, .i1⟩) (.of main_call13_v10 : StableHlo.TRef sig ⟨S1024, .i1⟩) (broadcastInDim S1024 ![] bcast_S_S1024),
    StableHlo.TRef.binary (.of main_call13_v8 : StableHlo.TRef sig ⟨S1024, .i1⟩) (.of main_call13_v10 : StableHlo.TRef sig ⟨S1024, .i1⟩) (.of main_call13_v11 : StableHlo.TRef sig ⟨S1024, .i1⟩) (cmpi .ne),
    StableHlo.TRef.binary (.of main_call13_v11 : StableHlo.TRef sig ⟨S1024, .i1⟩) (.of main_call13_v6 : StableHlo.TRef sig ⟨S1024, .i1⟩) (.of main_call13_v12 : StableHlo.TRef sig ⟨S1024, .i1⟩) andi,
    StableHlo.TRef.unary main_call13_call0.v0 (.of main_call13_v13 : StableHlo.TRef sig ⟨S1024, .i32⟩) (broadcastInDim S1024 ![] bcast_S_S1024),
    StableHlo.TRef.binary (.of main_call13_v4 : StableHlo.TRef sig ⟨S1024, .i32⟩) (.of main_call13_v13 : StableHlo.TRef sig ⟨S1024, .i32⟩) (.of main_call13_v14 : StableHlo.TRef sig ⟨S1024, .i32⟩) addi,
    StableHlo.TRef.ternary (.of main_call13_v12 : StableHlo.TRef sig ⟨S1024, .i1⟩) (.of main_call13_v14 : StableHlo.TRef sig ⟨S1024, .i32⟩) (.of main_call13_v4 : StableHlo.TRef sig ⟨S1024, .i32⟩) (.of main_v779 : StableHlo.TRef sig ⟨S1024, .i32⟩) select ]
/-- Each touches TensorCore references only (`HostSeg.ofOps` over `StableHlo.tcRefs`, or a subset by `sub_ucRefs`). -/
theorem hostOps0_27_sub : (hostOps0_27 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 130 host operations of @main, in order. -/
abbrev hostOps0_28 : List (HloOp τ sig (Elt F)) :=
  ( StableHlo.nullary main_c_186 (constantI S_ 32 15#32)
  :: StableHlo.unary main_c_186 main_v780 (broadcastInDim S1024 ![] bcast_S_S1024 : (⟨S_, .i32⟩ : BufTy).Contents (Elt F) → (⟨S1024, .i32⟩ : BufTy).Contents (Elt F))
  :: StableHlo.binary main_v779 main_v780 main_v781 (subi : (⟨S1024, .i32⟩ : BufTy).Contents (Elt F) → (⟨S1024, .i32⟩ : BufTy).Contents (Elt F) → (⟨S1024, .i32⟩ : BufTy).Contents (Elt F))
  :: StableHlo.binary main_v778 main_v781 main_v782 (addi : (⟨S1024, .i32⟩ : BufTy).Contents (Elt F) → (⟨S1024, .i32⟩ : BufTy).Contents (Elt F) → (⟨S1024, .i32⟩ : BufTy).Contents (Elt F))
  :: StableHlo.unary main_arg6 main_v783 ((transpose S256x256 [1, 0] · transposes_S256x256_S256x256_1_0) : (⟨S256x256, .f32⟩ : BufTy).Contents (Elt F) → (⟨S256x256, .f32⟩ : BufTy).Contents (Elt F))
  :: StableHlo.binary main_v761 main_v783 main_v784 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F))
  :: StableHlo.unary main_arg7 main_v785 (broadcastInDim S1x256 ![1] bcast_S256_S1x256_1 : (⟨S256, .f32⟩ : BufTy).Contents (Elt F) → (⟨S1x256, .f32⟩ : BufTy).Contents (Elt F))
  :: StableHlo.unary main_v785 main_v786 (broadcastInDim S1024x256 ![0, 1] bcast_S1x256_S1024x256_0_1 : (⟨S1x256, .f32⟩ : BufTy).Contents (Elt F) → (⟨S1024x256, .f32⟩ : BufTy).Contents (Elt F))
  :: StableHlo.binary main_v784 main_v786 main_v787 (addf : (⟨S1024x256, .f32⟩ : BufTy).Contents (Elt F) → (⟨S1024x256, .f32⟩ : BufTy).Contents (Elt F) → (⟨S1024x256, .f32⟩ : BufTy).Contents (Elt F))
  :: StableHlo.unary main_v787 main_v788 (Host.negf : (⟨S1024x256, .f32⟩ : BufTy).Contents (Elt F) → (⟨S1024x256, .f32⟩ : BufTy).Contents (Elt F))
  :: StableHlo.unary main_v788 main_v789 (Host.exp : (⟨S1024x256, .f32⟩ : BufTy).Contents (Elt F) → (⟨S1024x256, .f32⟩ : BufTy).Contents (Elt F))
  :: StableHlo.nullary main_cst_187 (constant S_ .f32 0x3F800000#32)
  :: StableHlo.unary main_cst_187 main_v790 (broadcastInDim S1024x256 ![] bcast_S_S1024x256 : (⟨S_, .f32⟩ : BufTy).Contents (Elt F) → (⟨S1024x256, .f32⟩ : BufTy).Contents (Elt F))
  :: StableHlo.binary main_v790 main_v789 main_v791 (addf : (⟨S1024x256, .f32⟩ : BufTy).Contents (Elt F) → (⟨S1024x256, .f32⟩ : BufTy).Contents (Elt F) → (⟨S1024x256, .f32⟩ : BufTy).Contents (Elt F))
  :: StableHlo.nullary main_cst_188 (constant S_ .f32 0x3F800000#32)
  :: StableHlo.unary main_cst_188 main_v792 (broadcastInDim S1024x256 ![] bcast_S_S1024x256 : (⟨S_, .f32⟩ : BufTy).Contents (Elt F) → (⟨S1024x256, .f32⟩ : BufTy).Contents (Elt F))
  :: StableHlo.binary main_v792 main_v791 main_v793 (Host.divf : (⟨S1024x256, .f32⟩ : BufTy).Contents (Elt F) → (⟨S1024x256, .f32⟩ : BufTy).Contents (Elt F) → (⟨S1024x256, .f32⟩ : BufTy).Contents (Elt F))
  :: StableHlo.nullary main_cst_189 (constant S_ .f32 0x00000000#32)
  :: StableHlo.unary main_cst_189 main_v794 (broadcastInDim S512x256 ![] bcast_S_S512x256 : (⟨S_, .f32⟩ : BufTy).Contents (Elt F) → (⟨S512x256, .f32⟩ : BufTy).Contents (Elt F))
  :: StableHlo.unary main_v782 main_v795 (broadcastInDim S1024x1 ![0] bcast_S1024_S1024x1_0 : (⟨S1024, .i32⟩ : BufTy).Contents (Elt F) → (⟨S1024x1, .i32⟩ : BufTy).Contents (Elt F))
  :: StableHlo.ternary main_v794 main_v795 main_v761 main_v796 ((fun x i u => Host.scatterAdd scatter_S512x256_S1024x1_S1024x256_1_0_0_1 x i u) : (⟨S512x256, .f32⟩ : BufTy).Contents (Elt F) → (⟨S1024x1, .i32⟩ : BufTy).Contents (Elt F) → (⟨S1024x256, .f32⟩ : BufTy).Contents (Elt F) → (⟨S512x256, .f32⟩ : BufTy).Contents (Elt F))
  :: StableHlo.binary main_v793 main_v768 main_v797 (mulf : (⟨S1024x256, .f32⟩ : BufTy).Contents (Elt F) → (⟨S1024x256, .f32⟩ : BufTy).Contents (Elt F) → (⟨S1024x256, .f32⟩ : BufTy).Contents (Elt F))
  :: StableHlo.nullary main_cst_190 (constant S_ .f32 0x00000000#32)
  :: StableHlo.unary main_cst_190 main_v798 (broadcastInDim S512x256 ![] bcast_S_S512x256 : (⟨S_, .f32⟩ : BufTy).Contents (Elt F) → (⟨S512x256, .f32⟩ : BufTy).Contents (Elt F))
  :: StableHlo.unary main_v782 main_v799 (broadcastInDim S1024x1 ![0] bcast_S1024_S1024x1_0 : (⟨S1024, .i32⟩ : BufTy).Contents (Elt F) → (⟨S1024x1, .i32⟩ : BufTy).Contents (Elt F))
  :: StableHlo.ternary main_v798 main_v799 main_v797 main_v800 ((fun x i u => Host.scatterAdd scatter_S512x256_S1024x1_S1024x256_1_0_0_1 x i u) : (⟨S512x256, .f32⟩ : BufTy).Contents (Elt F) → (⟨S1024x1, .i32⟩ : BufTy).Contents (Elt F) → (⟨S1024x256, .f32⟩ : BufTy).Contents (Elt F) → (⟨S512x256, .f32⟩ : BufTy).Contents (Elt F))
  :: StableHlo.unary main_arg4 main_v801 ((transpose S256x768 [1, 0] · transposes_S768x256_S256x768_1_0) : (⟨S768x256, .f32⟩ : BufTy).Contents (Elt F) → (⟨S256x768, .f32⟩ : BufTy).Contents (Elt F))
  :: StableHlo.binary main_v796 main_v801 main_v802 ((fun l r => Host.dotGeneral dot_S512x256_S256x768_S512x768_1_0_0_1_n_n none l r) : (⟨S512x256, .f32⟩ : BufTy).Contents (Elt F) → (⟨S256x768, .f32⟩ : BufTy).Contents (Elt F) → (⟨S512x768, .f32⟩ : BufTy).Contents (Elt F))
  :: StableHlo.binary main_v745 main_v802 main_v803 (addf : (⟨S512x768, .f32⟩ : BufTy).Contents (Elt F) → (⟨S512x768, .f32⟩ : BufTy).Contents (Elt F) → (⟨S512x768, .f32⟩ : BufTy).Contents (Elt F))
  :: StableHlo.unary main_arg5 main_v804 (broadcastInDim S512x768 ![0, 1] bcast_S1x768_S512x768_0_1 : (⟨S1x768, .f32⟩ : BufTy).Contents (Elt F) → (⟨S512x768, .f32⟩ : BufTy).Contents (Elt F))
  :: StableHlo.binary main_v803 main_v804 main_v805 (addf : (⟨S512x768, .f32⟩ : BufTy).Contents (Elt F) → (⟨S512x768, .f32⟩ : BufTy).Contents (Elt F) → (⟨S512x768, .f32⟩ : BufTy).Contents (Elt F))
  :: StableHlo.unary main_v805 main_v806 ((extractStridedSlice S512x256 ![0, 0] · slices_S512x768_S512x256_0_0) : (⟨S512x768, .f32⟩ : BufTy).Contents (Elt F) → (⟨S512x256, .f32⟩ : BufTy).Contents (Elt F))
  :: StableHlo.unary main_v805 main_v807 ((extractStridedSlice S512x256 ![0, 256] · slices_S512x768_S512x256_0_256) : (⟨S512x768, .f32⟩ : BufTy).Contents (Elt F) → (⟨S512x256, .f32⟩ : BufTy).Contents (Elt F))
  :: StableHlo.unary main_v805 main_v808 ((extractStridedSlice S512x256 ![0, 512] · slices_S512x768_S512x256_0_512) : (⟨S512x768, .f32⟩ : BufTy).Contents (Elt F) → (⟨S512x256, .f32⟩ : BufTy).Contents (Elt F))
  :: StableHlo.unary main_v806 main_v809 (Host.negf : (⟨S512x256, .f32⟩ : BufTy).Contents (Elt F) → (⟨S512x256, .f32⟩ : BufTy).Contents (Elt F))
  :: StableHlo.unary main_v809 main_v810 (Host.exp : (⟨S512x256, .f32⟩ : BufTy).Contents (Elt F) → (⟨S512x256, .f32⟩ : BufTy).Contents (Elt F))
  :: StableHlo.nullary main_cst_191 (constant S_ .f32 0x3F800000#32)
  :: StableHlo.unary main_cst_191 main_v811 (broadcastInDim S512x256 ![] bcast_S_S512x256 : (⟨S_, .f32⟩ : BufTy).Contents (Elt F) → (⟨S512x256, .f32⟩ : BufTy).Contents (Elt F))
  :: StableHlo.binary main_v811 main_v810 main_v812 (addf : (⟨S512x256, .f32⟩ : BufTy).Contents (Elt F) → (⟨S512x256, .f32⟩ : BufTy).Contents (Elt F) → (⟨S512x256, .f32⟩ : BufTy).Contents (Elt F))
  :: StableHlo.nullary main_cst_192 (constant S_ .f32 0x3F800000#32)
  :: StableHlo.unary main_cst_192 main_v813 (broadcastInDim S512x256 ![] bcast_S_S512x256 : (⟨S_, .f32⟩ : BufTy).Contents (Elt F) → (⟨S512x256, .f32⟩ : BufTy).Contents (Elt F))
  :: StableHlo.binary main_v813 main_v812 main_v814 (Host.divf : (⟨S512x256, .f32⟩ : BufTy).Contents (Elt F) → (⟨S512x256, .f32⟩ : BufTy).Contents (Elt F) → (⟨S512x256, .f32⟩ : BufTy).Contents (Elt F))
  :: StableHlo.unary main_v808 main_v815 (Host.tanh : (⟨S512x256, .f32⟩ : BufTy).Contents (Elt F) → (⟨S512x256, .f32⟩ : BufTy).Contents (Elt F))
  :: StableHlo.binary main_v814 main_v815 main_v816 (mulf : (⟨S512x256, .f32⟩ : BufTy).Contents (Elt F) → (⟨S512x256, .f32⟩ : BufTy).Contents (Elt F) → (⟨S512x256, .f32⟩ : BufTy).Contents (Elt F))
  :: StableHlo.binary main_v816 main_v800 main_v817 (addf : (⟨S512x256, .f32⟩ : BufTy).Contents (Elt F) → (⟨S512x256, .f32⟩ : BufTy).Contents (Elt F) → (⟨S512x256, .f32⟩ : BufTy).Contents (Elt F))
  :: StableHlo.unary main_v807 main_v818 (Host.negf : (⟨S512x256, .f32⟩ : BufTy).Contents (Elt F) → (⟨S512x256, .f32⟩ : BufTy).Contents (Elt F))
  :: StableHlo.unary main_v818 main_v819 (Host.exp : (⟨S512x256, .f32⟩ : BufTy).Contents (Elt F) → (⟨S512x256, .f32⟩ : BufTy).Contents (Elt F))
  :: StableHlo.nullary main_cst_193 (constant S_ .f32 0x3F800000#32)
  :: StableHlo.unary main_cst_193 main_v820 (broadcastInDim S512x256 ![] bcast_S_S512x256 : (⟨S_, .f32⟩ : BufTy).Contents (Elt F) → (⟨S512x256, .f32⟩ : BufTy).Contents (Elt F))
  :: StableHlo.binary main_v820 main_v819 main_v821 (addf : (⟨S512x256, .f32⟩ : BufTy).Contents (Elt F) → (⟨S512x256, .f32⟩ : BufTy).Contents (Elt F) → (⟨S512x256, .f32⟩ : BufTy).Contents (Elt F))
  :: StableHlo.nullary main_cst_194 (constant S_ .f32 0x3F800000#32)
  :: StableHlo.unary main_cst_194 main_v822 (broadcastInDim S512x256 ![] bcast_S_S512x256 : (⟨S_, .f32⟩ : BufTy).Contents (Elt F) → (⟨S512x256, .f32⟩ : BufTy).Contents (Elt F))
  :: StableHlo.binary main_v822 main_v821 main_v823 (Host.divf : (⟨S512x256, .f32⟩ : BufTy).Contents (Elt F) → (⟨S512x256, .f32⟩ : BufTy).Contents (Elt F) → (⟨S512x256, .f32⟩ : BufTy).Contents (Elt F))
  :: StableHlo.unary main_v817 main_v824 (Host.tanh : (⟨S512x256, .f32⟩ : BufTy).Contents (Elt F) → (⟨S512x256, .f32⟩ : BufTy).Contents (Elt F))
  :: StableHlo.binary main_v823 main_v824 main_v825 (mulf : (⟨S512x256, .f32⟩ : BufTy).Contents (Elt F) → (⟨S512x256, .f32⟩ : BufTy).Contents (Elt F) → (⟨S512x256, .f32⟩ : BufTy).Contents (Elt F))
  :: StableHlo.nullary main_c_195 (constantI S_ 32 0#32)
  :: StableHlo.unary main_c_195 main_v826 (broadcastInDim S512 ![] bcast_S_S512 : (⟨S_, .i32⟩ : BufTy).Contents (Elt F) → (⟨S512, .i32⟩ : BufTy).Contents (Elt F))
  :: StableHlo.binary main_v738 main_v826 main_v827 (cmpi .slt : (⟨S512, .i32⟩ : BufTy).Contents (Elt F) → (⟨S512, .i32⟩ : BufTy).Contents (Elt F) → (⟨S512, .i1⟩ : BufTy).Contents (Elt F))
  :: StableHlo.nullary main_c_196 (constantI S_ 32 131040#32)
  :: StableHlo.unary main_c_196 main_v828 (broadcastInDim S512 ![] bcast_S_S512 : (⟨S_, .i32⟩ : BufTy).Contents (Elt F) → (⟨S512, .i32⟩ : BufTy).Contents (Elt F))
  :: StableHlo.binary main_v738 main_v828 main_v829 (addi : (⟨S512, .i32⟩ : BufTy).Contents (Elt F) → (⟨S512, .i32⟩ : BufTy).Contents (Elt F) → (⟨S512, .i32⟩ : BufTy).Contents (Elt F))
  :: StableHlo.ternary main_v827 main_v829 main_v738 main_v830 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v830 main_v831 (broadcastInDim S512x1 ![0] bcast_S512_S512x1_0 : (⟨S512, .i32⟩ : BufTy).Contents (Elt F) → (⟨S512x1, .i32⟩ : BufTy).Contents (Elt F))
  :: StableHlo.ternary main_v722 main_v831 main_v825 main_v832 ((fun x i u => Host.scatter scatter_S131040x256_S512x1_S512x256_1_0_0_1 (fun _ b => b) x i u) : (⟨S131040x256, .f32⟩ : BufTy).Contents (Elt F) → (⟨S512x1, .i32⟩ : BufTy).Contents (Elt F) → (⟨S512x256, .f32⟩ : BufTy).Contents (Elt F) → (⟨S131040x256, .f32⟩ : BufTy).Contents (Elt F))
  :: StableHlo.nullary main_c_197 (constantI S_ 32 0#32)
  :: StableHlo.unary main_c_197 main_v833 (broadcastInDim S512 ![] bcast_S_S512 : (⟨S_, .i32⟩ : BufTy).Contents (Elt F) → (⟨S512, .i32⟩ : BufTy).Contents (Elt F))
  :: StableHlo.binary main_v738 main_v833 main_v834 (cmpi .slt : (⟨S512, .i32⟩ : BufTy).Contents (Elt F) → (⟨S512, .i32⟩ : BufTy).Contents (Elt F) → (⟨S512, .i1⟩ : BufTy).Contents (Elt F))
  :: StableHlo.nullary main_c_198 (constantI S_ 32 131040#32)
  :: StableHlo.unary main_c_198 main_v835 (broadcastInDim S512 ![] bcast_S_S512 : (⟨S_, .i32⟩ : BufTy).Contents (Elt F) → (⟨S512, .i32⟩ : BufTy).Contents (Elt F))
  :: StableHlo.binary main_v738 main_v835 main_v836 (addi : (⟨S512, .i32⟩ : BufTy).Contents (Elt F) → (⟨S512, .i32⟩ : BufTy).Contents (Elt F) → (⟨S512, .i32⟩ : BufTy).Contents (Elt F))
  :: StableHlo.ternary main_v834 main_v836 main_v738 main_v837 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v837 main_v838 (broadcastInDim S512x1 ![0] bcast_S512_S512x1_0 : (⟨S512, .i32⟩ : BufTy).Contents (Elt F) → (⟨S512x1, .i32⟩ : BufTy).Contents (Elt F))
  :: StableHlo.ternary main_v729 main_v838 main_v817 main_v839 ((fun x i u => Host.scatter scatter_S131040x256_S512x1_S512x256_1_0_0_1 (fun _ b => b) x i u) : (⟨S131040x256, .f32⟩ : BufTy).Contents (Elt F) → (⟨S512x1, .i32⟩ : BufTy).Contents (Elt F) → (⟨S512x256, .f32⟩ : BufTy).Contents (Elt F) → (⟨S131040x256, .f32⟩ : BufTy).Contents (Elt F))
  :: StableHlo.unary main_v16 main_v840 (broadcastInDim S32x1 ![0] bcast_S32_S32x1_0 : (⟨S32, .i32⟩ : BufTy).Contents (Elt F) → (⟨S32x1, .i32⟩ : BufTy).Contents (Elt F))
  :: StableHlo.nullary main_c_199 (constantI S_ 32 7#32)
  :: StableHlo.unary main_c_199 main_v841 (broadcastInDim S32x1 ![] bcast_S_S32x1 : (⟨S_, .i32⟩ : BufTy).Contents (Elt F) → (⟨S32x1, .i32⟩ : BufTy).Contents (Elt F))
  :: StableHlo.binary main_v840 main_v841 main_v842 (addi : (⟨S32x1, .i32⟩ : BufTy).Contents (Elt F) → (⟨S32x1, .i32⟩ : BufTy).Contents (Elt F) → (⟨S32x1, .i32⟩ : BufTy).Contents (Elt F))
  :: StableHlo.nullary main_v843 (iotaInDim S8 32 0)
  :: StableHlo.unary main_v843 main_v844 (broadcastInDim S1x8 ![1] bcast_S8_S1x8_1 : (⟨S8, .i32⟩ : BufTy).Contents (Elt F) → (⟨S1x8, .i32⟩ : BufTy).Contents (Elt F))
  :: StableHlo.unary main_v842 main_v845 (broadcastInDim S32x8 ![0, 1] bcast_S32x1_S32x8_0_1 : (⟨S32x1, .i32⟩ : BufTy).Contents (Elt F) → (⟨S32x8, .i32⟩ : BufTy).Contents (Elt F))
  :: StableHlo.unary main_v844 main_v846 (broadcastInDim S32x8 ![0, 1] bcast_S1x8_S32x8_0_1 : (⟨S1x8, .i32⟩ : BufTy).Contents (Elt F) → (⟨S32x8, .i32⟩ : BufTy).Contents (Elt F))
  :: StableHlo.binary main_v845 main_v846 main_v847 (addi : (⟨S32x8, .i32⟩ : BufTy).Contents (Elt F) → (⟨S32x8, .i32⟩ : BufTy).Contents (Elt F) → (⟨S32x8, .i32⟩ : BufTy).Contents (Elt F))
  :: StableHlo.reshape main_v847 main_v848 rfl shapeCasts_S32x8_S256
  :: StableHlo.nullary main_c_200 (constantI S_ 32 0#32)
  :: StableHlo.unary main_c_200 main_v849 (broadcastInDim S256 ![] bcast_S_S256 : (⟨S_, .i32⟩ : BufTy).Contents (Elt F) → (⟨S256, .i32⟩ : BufTy).Contents (Elt F))
  :: StableHlo.binary main_v848 main_v849 main_v850 (cmpi .slt : (⟨S256, .i32⟩ : BufTy).Contents (Elt F) → (⟨S256, .i32⟩ : BufTy).Contents (Elt F) → (⟨S256, .i1⟩ : BufTy).Contents (Elt F))
  :: StableHlo.nullary main_c_201 (constantI S_ 32 131040#32)
  :: StableHlo.unary main_c_201 main_v851 (broadcastInDim S256 ![] bcast_S_S256 : (⟨S_, .i32⟩ : BufTy).Contents (Elt F) → (⟨S256, .i32⟩ : BufTy).Contents (Elt F))
  :: StableHlo.binary main_v848 main_v851 main_v852 (addi : (⟨S256, .i32⟩ : BufTy).Contents (Elt F) → (⟨S256, .i32⟩ : BufTy).Contents (Elt F) → (⟨S256, .i32⟩ : BufTy).Contents (Elt F))
  :: StableHlo.ternary main_v850 main_v852 main_v848 main_v853 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v853 main_v854 (broadcastInDim S256x1 ![0] bcast_S256_S256x1_0 : (⟨S256, .i32⟩ : BufTy).Contents (Elt F) → (⟨S256x1, .i32⟩ : BufTy).Contents (Elt F))
  :: StableHlo.binary main_v11 main_v854 main_v855 ((fun x i => Host.gather gather_S131040x768_S256x1_S256x768_1_0_n_n_0_1_1768 x i) : (⟨S131040x768, .f32⟩ : BufTy).Contents (Elt F) → (⟨S256x1, .i32⟩ : BufTy).Contents (Elt F) → (⟨S256x768, .f32⟩ : BufTy).Contents (Elt F))
  :: StableHlo.unary main_v16 main_v856 (broadcastInDim S32x1 ![0] bcast_S32_S32x1_0 : (⟨S32, .i32⟩ : BufTy).Contents (Elt F) → (⟨S32x1, .i32⟩ : BufTy).Contents (Elt F))
  :: StableHlo.nullary main_c_202 (constantI S_ 32 15#32)
  :: StableHlo.unary main_c_202 main_v857 (broadcastInDim S32x1 ![] bcast_S_S32x1 : (⟨S_, .i32⟩ : BufTy).Contents (Elt F) → (⟨S32x1, .i32⟩ : BufTy).Contents (Elt F))
  :: StableHlo.binary main_v856 main_v857 main_v858 (addi : (⟨S32x1, .i32⟩ : BufTy).Contents (Elt F) → (⟨S32x1, .i32⟩ : BufTy).Contents (Elt F) → (⟨S32x1, .i32⟩ : BufTy).Contents (Elt F))
  :: StableHlo.nullary main_v859 (iotaInDim S16 32 0)
  :: StableHlo.unary main_v859 main_v860 (broadcastInDim S1x16 ![1] bcast_S16_S1x16_1 : (⟨S16, .i32⟩ : BufTy).Contents (Elt F) → (⟨S1x16, .i32⟩ : BufTy).Contents (Elt F))
  :: StableHlo.unary main_v858 main_v861 (broadcastInDim S32x16 ![0, 1] bcast_S32x1_S32x16_0_1 : (⟨S32x1, .i32⟩ : BufTy).Contents (Elt F) → (⟨S32x16, .i32⟩ : BufTy).Contents (Elt F))
  :: StableHlo.unary main_v860 main_v862 (broadcastInDim S32x16 ![0, 1] bcast_S1x16_S32x16_0_1 : (⟨S1x16, .i32⟩ : BufTy).Contents (Elt F) → (⟨S32x16, .i32⟩ : BufTy).Contents (Elt F))
  :: StableHlo.binary main_v861 main_v862 main_v863 (addi : (⟨S32x16, .i32⟩ : BufTy).Contents (Elt F) → (⟨S32x16, .i32⟩ : BufTy).Contents (Elt F) → (⟨S32x16, .i32⟩ : BufTy).Contents (Elt F))
  :: StableHlo.reshape main_v863 main_v864 rfl shapeCasts_S32x16_S512
  :: StableHlo.nullary main_c_203 (constantI S_ 32 0#32)
  :: StableHlo.unary main_c_203 main_v865 (broadcastInDim S512 ![] bcast_S_S512 : (⟨S_, .i32⟩ : BufTy).Contents (Elt F) → (⟨S512, .i32⟩ : BufTy).Contents (Elt F))
  :: StableHlo.binary main_v864 main_v865 main_v866 (cmpi .slt : (⟨S512, .i32⟩ : BufTy).Contents (Elt F) → (⟨S512, .i32⟩ : BufTy).Contents (Elt F) → (⟨S512, .i1⟩ : BufTy).Contents (Elt F))
  :: StableHlo.nullary main_c_204 (constantI S_ 32 131040#32)
  :: StableHlo.unary main_c_204 main_v867 (broadcastInDim S512 ![] bcast_S_S512 : (⟨S_, .i32⟩ : BufTy).Contents (Elt F) → (⟨S512, .i32⟩ : BufTy).Contents (Elt F))
  :: StableHlo.binary main_v864 main_v867 main_v868 (addi : (⟨S512, .i32⟩ : BufTy).Contents (Elt F) → (⟨S512, .i32⟩ : BufTy).Contents (Elt F) → (⟨S512, .i32⟩ : BufTy).Contents (Elt F))
  :: StableHlo.ternary main_v866 main_v868 main_v864 main_v869 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v869 main_v870 (broadcastInDim S512x1 ![0] bcast_S512_S512x1_0 : (⟨S512, .i32⟩ : BufTy).Contents (Elt F) → (⟨S512x1, .i32⟩ : BufTy).Contents (Elt F))
  :: StableHlo.binary main_v832 main_v870 main_v871 ((fun x i => Host.gather gather_S131040x256_S512x1_S512x256_1_0_n_n_0_1_1256 x i) : (⟨S131040x256, .f32⟩ : BufTy).Contents (Elt F) → (⟨S512x1, .i32⟩ : BufTy).Contents (Elt F) → (⟨S512x256, .f32⟩ : BufTy).Contents (Elt F))
  :: StableHlo.nullary main_c_205 (constantI S_ 32 0#32)
  :: StableHlo.unary main_c_205 main_v872 (broadcastInDim S512 ![] bcast_S_S512 : (⟨S_, .i32⟩ : BufTy).Contents (Elt F) → (⟨S512, .i32⟩ : BufTy).Contents (Elt F))
  :: StableHlo.binary main_v864 main_v872 main_v873 (cmpi .slt : (⟨S512, .i32⟩ : BufTy).Contents (Elt F) → (⟨S512, .i32⟩ : BufTy).Contents (Elt F) → (⟨S512, .i1⟩ : BufTy).Contents (Elt F))
  :: StableHlo.nullary main_c_206 (constantI S_ 32 131040#32)
  :: StableHlo.unary main_c_206 main_v874 (broadcastInDim S512 ![] bcast_S_S512 : (⟨S_, .i32⟩ : BufTy).Contents (Elt F) → (⟨S512, .i32⟩ : BufTy).Contents (Elt F))
  :: StableHlo.binary main_v864 main_v874 main_v875 (addi : (⟨S512, .i32⟩ : BufTy).Contents (Elt F) → (⟨S512, .i32⟩ : BufTy).Contents (Elt F) → (⟨S512, .i32⟩ : BufTy).Contents (Elt F))
  :: StableHlo.ternary main_v873 main_v875 main_v864 main_v876 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v876 main_v877 (broadcastInDim S512x1 ![0] bcast_S512_S512x1_0 : (⟨S512, .i32⟩ : BufTy).Contents (Elt F) → (⟨S512x1, .i32⟩ : BufTy).Contents (Elt F))
  :: StableHlo.binary main_v839 main_v877 main_v878 ((fun x i => Host.gather gather_S131040x256_S512x1_S512x256_1_0_n_n_0_1_1256 x i) : (⟨S131040x256, .f32⟩ : BufTy).Contents (Elt F) → (⟨S512x1, .i32⟩ : BufTy).Contents (Elt F) → (⟨S512x256, .f32⟩ : BufTy).Contents (Elt F))
  :: StableHlo.nullary main_c_207 (constantI S_ 32 0#32)
  :: StableHlo.unary main_c_207 main_v879 (broadcastInDim S512 ![] bcast_S_S512 : (⟨S_, .i32⟩ : BufTy).Contents (Elt F) → (⟨S512, .i32⟩ : BufTy).Contents (Elt F))
  :: StableHlo.binary main_v864 main_v879 main_v880 (cmpi .slt : (⟨S512, .i32⟩ : BufTy).Contents (Elt F) → (⟨S512, .i32⟩ : BufTy).Contents (Elt F) → (⟨S512, .i1⟩ : BufTy).Contents (Elt F))
  :: StableHlo.nullary main_c_208 (constantI S_ 32 131040#32)
  :: StableHlo.unary main_c_208 main_v881 (broadcastInDim S512 ![] bcast_S_S512 : (⟨S_, .i32⟩ : BufTy).Contents (Elt F) → (⟨S512, .i32⟩ : BufTy).Contents (Elt F))
  :: StableHlo.binary main_v864 main_v881 main_v882 (addi : (⟨S512, .i32⟩ : BufTy).Contents (Elt F) → (⟨S512, .i32⟩ : BufTy).Contents (Elt F) → (⟨S512, .i32⟩ : BufTy).Contents (Elt F))
  :: StableHlo.ternary main_v880 main_v882 main_v864 main_v883 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v883 main_v884 (broadcastInDim S512x1 ![0] bcast_S512_S512x1_0 : (⟨S512, .i32⟩ : BufTy).Contents (Elt F) → (⟨S512x1, .i32⟩ : BufTy).Contents (Elt F))
  :: StableHlo.binary main_arg1 main_v884 main_v885 ((fun x i => Host.gather gather_S131040_S512x1_S512_n_0_n_n_0_1_1 x i) : (⟨S131040, .i32⟩ : BufTy).Contents (Elt F) → (⟨S512x1, .i32⟩ : BufTy).Contents (Elt F) → (⟨S512, .i32⟩ : BufTy).Contents (Elt F))
  :: StableHlo.nullary main_c_209 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_28_sub : (hostOps0_28 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_19 (main_call14), in order. -/
abbrev hostOps0_29 : List (HloOp τ sig (Elt F)) :=
  [ StableHlo.TRef.unary (.of main_c_209 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S512, .i32⟩) (broadcastInDim S512 ![] bcast_S_S512),
    StableHlo.TRef.binary (.of main_v885 : StableHlo.TRef sig ⟨S512, .i32⟩) (.of main_call14_v1 : StableHlo.TRef sig ⟨S512, .i32⟩) (.of main_call14_v2 : StableHlo.TRef sig ⟨S512, .i32⟩) Host.divsi,
    StableHlo.TRef.unary (.of main_v885 : StableHlo.TRef sig ⟨S512, .i32⟩) (.of main_call14_v3 : StableHlo.TRef sig ⟨S512, .i32⟩) signi,
    StableHlo.TRef.unary (.of main_call14_v0 : StableHlo.TRef sig ⟨S_, .i32⟩) (.of main_call14_v4 : StableHlo.TRef sig ⟨S_, .i32⟩) signi,
    StableHlo.TRef.unary (.of main_call14_v4 : StableHlo.TRef sig ⟨S_, .i32⟩) (.of main_call14_v5 : StableHlo.TRef sig ⟨S512, .i32⟩) (broadcastInDim S512 ![] bcast_S_S512),
    StableHlo.TRef.binary (.of main_call14_v3 : StableHlo.TRef sig ⟨S512, .i32⟩) (.of main_call14_v5 : StableHlo.TRef sig ⟨S512, .i32⟩) (.of main_call14_v6 : StableHlo.TRef sig ⟨S512, .i1⟩) (cmpi .ne),
    StableHlo.TRef.unary (.of main_call14_v0 : StableHlo.TRef sig ⟨S_, .i32⟩) (.of main_call14_v7 : StableHlo.TRef sig ⟨S512, .i32⟩) (broadcastInDim S512 ![] bcast_S_S512),
    StableHlo.TRef.binary (.of main_v885 : StableHlo.TRef sig ⟨S512, .i32⟩) (.of main_call14_v7 : StableHlo.TRef sig ⟨S512, .i32⟩) (.of main_call14_v8 : StableHlo.TRef sig ⟨S512, .i32⟩) Host.remsi,
    StableHlo.TRef.nullary (.of main_call14_c : StableHlo.TRef sig ⟨S_, .i32⟩) (constantI S_ 32 0#32),
    StableHlo.TRef.unary (.of main_call14_c : StableHlo.TRef sig ⟨S_, .i32⟩) (.of main_call14_v9 : StableHlo.TRef sig ⟨S512, .i32⟩) (broadcastInDim S512 ![] bcast_S_S512),
    StableHlo.TRef.binary (.of main_call14_v8 : StableHlo.TRef sig ⟨S512, .i32⟩) (.of main_call14_v9 : StableHlo.TRef sig ⟨S512, .i32⟩) (.of main_call14_v10 : StableHlo.TRef sig ⟨S512, .i1⟩) (cmpi .ne),
    StableHlo.TRef.binary (.of main_call14_v6 : StableHlo.TRef sig ⟨S512, .i1⟩) (.of main_call14_v10 : StableHlo.TRef sig ⟨S512, .i1⟩) (.of main_call14_v11 : StableHlo.TRef sig ⟨S512, .i1⟩) andi,
    StableHlo.TRef.nullary (.of main_call14_c_0 : StableHlo.TRef sig ⟨S_, .i32⟩) (constantI S_ 32 1#32),
    StableHlo.TRef.unary (.of main_call14_c_0 : StableHlo.TRef sig ⟨S_, .i32⟩) (.of main_call14_v12 : StableHlo.TRef sig ⟨S512, .i32⟩) (broadcastInDim S512 ![] bcast_S_S512),
    StableHlo.TRef.binary (.of main_call14_v2 : StableHlo.TRef sig ⟨S512, .i32⟩) (.of main_call14_v12 : StableHlo.TRef sig ⟨S512, .i32⟩) (.of main_call14_v13 : StableHlo.TRef sig ⟨S512, .i32⟩) subi,
    StableHlo.TRef.ternary (.of main_call14_v11 : StableHlo.TRef sig ⟨S512, .i1⟩) (.of main_call14_v13 : StableHlo.TRef sig ⟨S512, .i32⟩) (.of main_call14_v2 : StableHlo.TRef sig ⟨S512, .i32⟩) (.of main_v886 : StableHlo.TRef sig ⟨S512, .i32⟩) select ]
/-- Each touches TensorCore references only (`HostSeg.ofOps` over `StableHlo.tcRefs`, or a subset by `sub_ucRefs`). -/
theorem hostOps0_29_sub : (hostOps0_29 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_30 : List (HloOp τ sig (Elt F)) :=
  [ StableHlo.nullary main_c_210 (constantI S_ 32 8#32),
    StableHlo.unary main_c_210 main_v887 (broadcastInDim S512 ![] bcast_S_S512 : (⟨S_, .i32⟩ : BufTy).Contents (Elt F) → (⟨S512, .i32⟩ : BufTy).Contents (Elt F)),
    StableHlo.binary main_v886 main_v887 main_v888 (muli : (⟨S512, .i32⟩ : BufTy).Contents (Elt F) → (⟨S512, .i32⟩ : BufTy).Contents (Elt F) → (⟨S512, .i32⟩ : BufTy).Contents (Elt F)),
    StableHlo.nullary main_c_211 (constantI S_ 32 4095#32) ]
/-- Each touches TensorCore references only (`HostSeg.ofOps` over `StableHlo.tcRefs`, or a subset by `sub_ucRefs`). -/
theorem hostOps0_30_sub : (hostOps0_30 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_21 (main_call15), in order. -/
abbrev hostOps0_31 : List (HloOp τ sig (Elt F)) :=
  [ StableHlo.TRef.unary (.of main_c_211 : StableHlo.TRef sig ⟨S_, .i32⟩) (.of main_call15_v0 : StableHlo.TRef sig ⟨S_, .i32⟩) id,
    StableHlo.TRef.nullary (.of main_call15_c : StableHlo.TRef sig ⟨S_, .i32⟩) (constantI S_ 32 0#32),
    StableHlo.TRef.binary (.of main_call15_v0 : StableHlo.TRef sig ⟨S_, .i32⟩) (.of main_call15_c : StableHlo.TRef sig ⟨S_, .i32⟩) (.of main_call15_v1 : StableHlo.TRef sig ⟨S_, .i1⟩) (cmpi .eq),
    StableHlo.TRef.nullary (.of main_call15_c_0 : StableHlo.TRef sig ⟨S_, .i32⟩) (constantI S_ 32 1#32),
    StableHlo.TRef.ternary (.of main_call15_v1 : StableHlo.TRef sig ⟨S_, .i1⟩) (.of main_call15_c_0 : StableHlo.TRef sig ⟨S_, .i32⟩) (.of main_call15_v0 : StableHlo.TRef sig ⟨S_, .i32⟩) (.of main_call15_v2 : StableHlo.TRef sig ⟨S_, .i32⟩) select,
    StableHlo.TRef.unary main_call15_call0.v0 (.of main_call15_v3 : StableHlo.TRef sig ⟨S512, .i32⟩) (broadcastInDim S512 ![] bcast_S_S512),
    StableHlo.TRef.binary (.of main_v885 : StableHlo.TRef sig ⟨S512, .i32⟩) (.of main_call15_v3 : StableHlo.TRef sig ⟨S512, .i32⟩) (.of main_call15_v4 : StableHlo.TRef sig ⟨S512, .i32⟩) Host.remsi,
    StableHlo.TRef.nullary (.of main_call15_c_1 : StableHlo.TRef sig ⟨S_, .i32⟩) (constantI S_ 32 0#32),
    StableHlo.TRef.unary (.of main_call15_c_1 : StableHlo.TRef sig ⟨S_, .i32⟩) (.of main_call15_v5 : StableHlo.TRef sig ⟨S512, .i32⟩) (broadcastInDim S512 ![] bcast_S_S512),
    StableHlo.TRef.binary (.of main_call15_v4 : StableHlo.TRef sig ⟨S512, .i32⟩) (.of main_call15_v5 : StableHlo.TRef sig ⟨S512, .i32⟩) (.of main_call15_v6 : StableHlo.TRef sig ⟨S512, .i1⟩) (cmpi .ne),
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v7 : StableHlo.TRef sig ⟨S512, .i32⟩) (broadcastInDim S512 ![] bcast_S_S512),
    StableHlo.TRef.binary (.of main_call15_v4 : StableHlo.TRef sig ⟨S512, .i32⟩) (.of main_call15_v7 : StableHlo.TRef sig ⟨S512, .i32⟩) (.of main_call15_v8 : StableHlo.TRef sig ⟨S512, .i1⟩) (cmpi .slt),
    StableHlo.TRef.nullary (.of main_call15_c_3 : StableHlo.TRef sig ⟨S_, .i32⟩) (constantI S_ 32 0#32),
    StableHlo.TRef.binary main_call15_call0.v0 (.of main_call15_c_3 : StableHlo.TRef sig ⟨S_, .i32⟩) (.of main_call15_v9 : StableHlo.TRef sig ⟨S_, .i1⟩) (cmpi .slt),
    StableHlo.TRef.unary (.of main_call15_v9 : StableHlo.TRef sig ⟨S_, .i1⟩) (.of main_call15_v10 : StableHlo.TRef sig ⟨S512, .i1⟩) (broadcastInDim S512 ![] bcast_S_S512),
    StableHlo.TRef.binary (.of main_call15_v8 : StableHlo.TRef sig ⟨S512, .i1⟩) (.of main_call15_v10 : StableHlo.TRef sig ⟨S512, .i1⟩) (.of main_call15_v11 : StableHlo.TRef sig ⟨S512, .i1⟩) (cmpi .ne),
    StableHlo.TRef.binary (.of main_call15_v11 : StableHlo.TRef sig ⟨S512, .i1⟩) (.of main_call15_v6 : StableHlo.TRef sig ⟨S512, .i1⟩) (.of main_call15_v12 : StableHlo.TRef sig ⟨S512, .i1⟩) andi,
    StableHlo.TRef.unary main_call15_call0.v0 (.of main_call15_v13 : StableHlo.TRef sig ⟨S512, .i32⟩) (broadcastInDim S512 ![] bcast_S_S512),
    StableHlo.TRef.binary (.of main_call15_v4 : StableHlo.TRef sig ⟨S512, .i32⟩) (.of main_call15_v13 : StableHlo.TRef sig ⟨S512, .i32⟩) (.of main_call15_v14 : StableHlo.TRef sig ⟨S512, .i32⟩) addi,
    StableHlo.TRef.ternary (.of main_call15_v12 : StableHlo.TRef sig ⟨S512, .i1⟩) (.of main_call15_v14 : StableHlo.TRef sig ⟨S512, .i32⟩) (.of main_call15_v4 : StableHlo.TRef sig ⟨S512, .i32⟩) (.of main_v889 : StableHlo.TRef sig ⟨S512, .i32⟩) select ]
/-- Each touches TensorCore references only (`HostSeg.ofOps` over `StableHlo.tcRefs`, or a subset by `sub_ucRefs`). -/
theorem hostOps0_31_sub : (hostOps0_31 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 130 host operations of @main, in order. -/
abbrev hostOps0_32 : List (HloOp τ sig (Elt F)) :=
  ( StableHlo.nullary main_c_212 (constantI S_ 32 7#32)
  :: StableHlo.unary main_c_212 main_v890 (broadcastInDim S512 ![] bcast_S_S512 : (⟨S_, .i32⟩ : BufTy).Contents (Elt F) → (⟨S512, .i32⟩ : BufTy).Contents (Elt F))
  :: StableHlo.binary main_v889 main_v890 main_v891 (subi : (⟨S512, .i32⟩ : BufTy).Contents (Elt F) → (⟨S512, .i32⟩ : BufTy).Contents (Elt F) → (⟨S512, .i32⟩ : BufTy).Contents (Elt F))
  :: StableHlo.binary main_v888 main_v891 main_v892 (addi : (⟨S512, .i32⟩ : BufTy).Contents (Elt F) → (⟨S512, .i32⟩ : BufTy).Contents (Elt F) → (⟨S512, .i32⟩ : BufTy).Contents (Elt F))
  :: StableHlo.unary main_arg6 main_v893 ((transpose S256x256 [1, 0] · transposes_S256x256_S256x256_1_0) : (⟨S256x256, .f32⟩ : BufTy).Contents (Elt F) → (⟨S256x256, .f32⟩ : BufTy).Contents (Elt F))
  :: StableHlo.binary main_v871 main_v893 main_v894 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F))
  :: StableHlo.unary main_arg7 main_v895 (broadcastInDim S1x256 ![1] bcast_S256_S1x256_1 : (⟨S256, .f32⟩ : BufTy).Contents (Elt F) → (⟨S1x256, .f32⟩ : BufTy).Contents (Elt F))
  :: StableHlo.unary main_v895 main_v896 (broadcastInDim S512x256 ![0, 1] bcast_S1x256_S512x256_0_1 : (⟨S1x256, .f32⟩ : BufTy).Contents (Elt F) → (⟨S512x256, .f32⟩ : BufTy).Contents (Elt F))
  :: StableHlo.binary main_v894 main_v896 main_v897 (addf : (⟨S512x256, .f32⟩ : BufTy).Contents (Elt F) → (⟨S512x256, .f32⟩ : BufTy).Contents (Elt F) → (⟨S512x256, .f32⟩ : BufTy).Contents (Elt F))
  :: StableHlo.unary main_v897 main_v898 (Host.negf : (⟨S512x256, .f32⟩ : BufTy).Contents (Elt F) → (⟨S512x256, .f32⟩ : BufTy).Contents (Elt F))
  :: StableHlo.unary main_v898 main_v899 (Host.exp : (⟨S512x256, .f32⟩ : BufTy).Contents (Elt F) → (⟨S512x256, .f32⟩ : BufTy).Contents (Elt F))
  :: StableHlo.nullary main_cst_213 (constant S_ .f32 0x3F800000#32)
  :: StableHlo.unary main_cst_213 main_v900 (broadcastInDim S512x256 ![] bcast_S_S512x256 : (⟨S_, .f32⟩ : BufTy).Contents (Elt F) → (⟨S512x256, .f32⟩ : BufTy).Contents (Elt F))
  :: StableHlo.binary main_v900 main_v899 main_v901 (addf : (⟨S512x256, .f32⟩ : BufTy).Contents (Elt F) → (⟨S512x256, .f32⟩ : BufTy).Contents (Elt F) → (⟨S512x256, .f32⟩ : BufTy).Contents (Elt F))
  :: StableHlo.nullary main_cst_214 (constant S_ .f32 0x3F800000#32)
  :: StableHlo.unary main_cst_214 main_v902 (broadcastInDim S512x256 ![] bcast_S_S512x256 : (⟨S_, .f32⟩ : BufTy).Contents (Elt F) → (⟨S512x256, .f32⟩ : BufTy).Contents (Elt F))
  :: StableHlo.binary main_v902 main_v901 main_v903 (Host.divf : (⟨S512x256, .f32⟩ : BufTy).Contents (Elt F) → (⟨S512x256, .f32⟩ : BufTy).Contents (Elt F) → (⟨S512x256, .f32⟩ : BufTy).Contents (Elt F))
  :: StableHlo.nullary main_cst_215 (constant S_ .f32 0x00000000#32)
  :: StableHlo.unary main_cst_215 main_v904 (broadcastInDim S256x256 ![] bcast_S_S256x256 : (⟨S_, .f32⟩ : BufTy).Contents (Elt F) → (⟨S256x256, .f32⟩ : BufTy).Contents (Elt F))
  :: StableHlo.unary main_v892 main_v905 (broadcastInDim S512x1 ![0] bcast_S512_S512x1_0 : (⟨S512, .i32⟩ : BufTy).Contents (Elt F) → (⟨S512x1, .i32⟩ : BufTy).Contents (Elt F))
  :: StableHlo.ternary main_v904 main_v905 main_v871 main_v906 ((fun x i u => Host.scatterAdd scatter_S256x256_S512x1_S512x256_1_0_0_1 x i u) : (⟨S256x256, .f32⟩ : BufTy).Contents (Elt F) → (⟨S512x1, .i32⟩ : BufTy).Contents (Elt F) → (⟨S512x256, .f32⟩ : BufTy).Contents (Elt F) → (⟨S256x256, .f32⟩ : BufTy).Contents (Elt F))
  :: StableHlo.binary main_v903 main_v878 main_v907 (mulf : (⟨S512x256, .f32⟩ : BufTy).Contents (Elt F) → (⟨S512x256, .f32⟩ : BufTy).Contents (Elt F) → (⟨S512x256, .f32⟩ : BufTy).Contents (Elt F))
  :: StableHlo.nullary main_cst_216 (constant S_ .f32 0x00000000#32)
  :: StableHlo.unary main_cst_216 main_v908 (broadcastInDim S256x256 ![] bcast_S_S256x256 : (⟨S_, .f32⟩ : BufTy).Contents (Elt F) → (⟨S256x256, .f32⟩ : BufTy).Contents (Elt F))
  :: StableHlo.unary main_v892 main_v909 (broadcastInDim S512x1 ![0] bcast_S512_S512x1_0 : (⟨S512, .i32⟩ : BufTy).Contents (Elt F) → (⟨S512x1, .i32⟩ : BufTy).Contents (Elt F))
  :: StableHlo.ternary main_v908 main_v909 main_v907 main_v910 ((fun x i u => Host.scatterAdd scatter_S256x256_S512x1_S512x256_1_0_0_1 x i u) : (⟨S256x256, .f32⟩ : BufTy).Contents (Elt F) → (⟨S512x1, .i32⟩ : BufTy).Contents (Elt F) → (⟨S512x256, .f32⟩ : BufTy).Contents (Elt F) → (⟨S256x256, .f32⟩ : BufTy).Contents (Elt F))
  :: StableHlo.unary main_arg4 main_v911 ((transpose S256x768 [1, 0] · transposes_S768x256_S256x768_1_0) : (⟨S768x256, .f32⟩ : BufTy).Contents (Elt F) → (⟨S256x768, .f32⟩ : BufTy).Contents (Elt F))
  :: StableHlo.binary main_v906 main_v911 main_v912 ((fun l r => Host.dotGeneral dot_S256x256_S256x768_S256x768_1_0_0_1_n_n none l r) : (⟨S256x256, .f32⟩ : BufTy).Contents (Elt F) → (⟨S256x768, .f32⟩ : BufTy).Contents (Elt F) → (⟨S256x768, .f32⟩ : BufTy).Contents (Elt F))
  :: StableHlo.binary main_v855 main_v912 main_v913 (addf : (⟨S256x768, .f32⟩ : BufTy).Contents (Elt F) → (⟨S256x768, .f32⟩ : BufTy).Contents (Elt F) → (⟨S256x768, .f32⟩ : BufTy).Contents (Elt F))
  :: StableHlo.unary main_arg5 main_v914 (broadcastInDim S256x768 ![0, 1] bcast_S1x768_S256x768_0_1 : (⟨S1x768, .f32⟩ : BufTy).Contents (Elt F) → (⟨S256x768, .f32⟩ : BufTy).Contents (Elt F))
  :: StableHlo.binary main_v913 main_v914 main_v915 (addf : (⟨S256x768, .f32⟩ : BufTy).Contents (Elt F) → (⟨S256x768, .f32⟩ : BufTy).Contents (Elt F) → (⟨S256x768, .f32⟩ : BufTy).Contents (Elt F))
  :: StableHlo.unary main_v915 main_v916 ((extractStridedSlice S256x256 ![0, 0] · slices_S256x768_S256x256_0_0) : (⟨S256x768, .f32⟩ : BufTy).Contents (Elt F) → (⟨S256x256, .f32⟩ : BufTy).Contents (Elt F))
  :: StableHlo.unary main_v915 main_v917 ((extractStridedSlice S256x256 ![0, 256] · slices_S256x768_S256x256_0_256) : (⟨S256x768, .f32⟩ : BufTy).Contents (Elt F) → (⟨S256x256, .f32⟩ : BufTy).Contents (Elt F))
  :: StableHlo.unary main_v915 main_v918 ((extractStridedSlice S256x256 ![0, 512] · slices_S256x768_S256x256_0_512) : (⟨S256x768, .f32⟩ : BufTy).Contents (Elt F) → (⟨S256x256, .f32⟩ : BufTy).Contents (Elt F))
  :: StableHlo.unary main_v916 main_v919 (Host.negf : (⟨S256x256, .f32⟩ : BufTy).Contents (Elt F) → (⟨S256x256, .f32⟩ : BufTy).Contents (Elt F))
  :: StableHlo.unary main_v919 main_v920 (Host.exp : (⟨S256x256, .f32⟩ : BufTy).Contents (Elt F) → (⟨S256x256, .f32⟩ : BufTy).Contents (Elt F))
  :: StableHlo.nullary main_cst_217 (constant S_ .f32 0x3F800000#32)
  :: StableHlo.unary main_cst_217 main_v921 (broadcastInDim S256x256 ![] bcast_S_S256x256 : (⟨S_, .f32⟩ : BufTy).Contents (Elt F) → (⟨S256x256, .f32⟩ : BufTy).Contents (Elt F))
  :: StableHlo.binary main_v921 main_v920 main_v922 (addf : (⟨S256x256, .f32⟩ : BufTy).Contents (Elt F) → (⟨S256x256, .f32⟩ : BufTy).Contents (Elt F) → (⟨S256x256, .f32⟩ : BufTy).Contents (Elt F))
  :: StableHlo.nullary main_cst_218 (constant S_ .f32 0x3F800000#32)
  :: StableHlo.unary main_cst_218 main_v923 (broadcastInDim S256x256 ![] bcast_S_S256x256 : (⟨S_, .f32⟩ : BufTy).Contents (Elt F) → (⟨S256x256, .f32⟩ : BufTy).Contents (Elt F))
  :: StableHlo.binary main_v923 main_v922 main_v924 (Host.divf : (⟨S256x256, .f32⟩ : BufTy).Contents (Elt F) → (⟨S256x256, .f32⟩ : BufTy).Contents (Elt F) → (⟨S256x256, .f32⟩ : BufTy).Contents (Elt F))
  :: StableHlo.unary main_v918 main_v925 (Host.tanh : (⟨S256x256, .f32⟩ : BufTy).Contents (Elt F) → (⟨S256x256, .f32⟩ : BufTy).Contents (Elt F))
  :: StableHlo.binary main_v924 main_v925 main_v926 (mulf : (⟨S256x256, .f32⟩ : BufTy).Contents (Elt F) → (⟨S256x256, .f32⟩ : BufTy).Contents (Elt F) → (⟨S256x256, .f32⟩ : BufTy).Contents (Elt F))
  :: StableHlo.binary main_v926 main_v910 main_v927 (addf : (⟨S256x256, .f32⟩ : BufTy).Contents (Elt F) → (⟨S256x256, .f32⟩ : BufTy).Contents (Elt F) → (⟨S256x256, .f32⟩ : BufTy).Contents (Elt F))
  :: StableHlo.unary main_v917 main_v928 (Host.negf : (⟨S256x256, .f32⟩ : BufTy).Contents (Elt F) → (⟨S256x256, .f32⟩ : BufTy).Contents (Elt F))
  :: StableHlo.unary main_v928 main_v929 (Host.exp : (⟨S256x256, .f32⟩ : BufTy).Contents (Elt F) → (⟨S256x256, .f32⟩ : BufTy).Contents (Elt F))
  :: StableHlo.nullary main_cst_219 (constant S_ .f32 0x3F800000#32)
  :: StableHlo.unary main_cst_219 main_v930 (broadcastInDim S256x256 ![] bcast_S_S256x256 : (⟨S_, .f32⟩ : BufTy).Contents (Elt F) → (⟨S256x256, .f32⟩ : BufTy).Contents (Elt F))
  :: StableHlo.binary main_v930 main_v929 main_v931 (addf : (⟨S256x256, .f32⟩ : BufTy).Contents (Elt F) → (⟨S256x256, .f32⟩ : BufTy).Contents (Elt F) → (⟨S256x256, .f32⟩ : BufTy).Contents (Elt F))
  :: StableHlo.nullary main_cst_220 (constant S_ .f32 0x3F800000#32)
  :: StableHlo.unary main_cst_220 main_v932 (broadcastInDim S256x256 ![] bcast_S_S256x256 : (⟨S_, .f32⟩ : BufTy).Contents (Elt F) → (⟨S256x256, .f32⟩ : BufTy).Contents (Elt F))
  :: StableHlo.binary main_v932 main_v931 main_v933 (Host.divf : (⟨S256x256, .f32⟩ : BufTy).Contents (Elt F) → (⟨S256x256, .f32⟩ : BufTy).Contents (Elt F) → (⟨S256x256, .f32⟩ : BufTy).Contents (Elt F))
  :: StableHlo.unary main_v927 main_v934 (Host.tanh : (⟨S256x256, .f32⟩ : BufTy).Contents (Elt F) → (⟨S256x256, .f32⟩ : BufTy).Contents (Elt F))
  :: StableHlo.binary main_v933 main_v934 main_v935 (mulf : (⟨S256x256, .f32⟩ : BufTy).Contents (Elt F) → (⟨S256x256, .f32⟩ : BufTy).Contents (Elt F) → (⟨S256x256, .f32⟩ : BufTy).Contents (Elt F))
  :: StableHlo.nullary main_c_221 (constantI S_ 32 0#32)
  :: StableHlo.unary main_c_221 main_v936 (broadcastInDim S256 ![] bcast_S_S256 : (⟨S_, .i32⟩ : BufTy).Contents (Elt F) → (⟨S256, .i32⟩ : BufTy).Contents (Elt F))
  :: StableHlo.binary main_v848 main_v936 main_v937 (cmpi .slt : (⟨S256, .i32⟩ : BufTy).Contents (Elt F) → (⟨S256, .i32⟩ : BufTy).Contents (Elt F) → (⟨S256, .i1⟩ : BufTy).Contents (Elt F))
  :: StableHlo.nullary main_c_222 (constantI S_ 32 131040#32)
  :: StableHlo.unary main_c_222 main_v938 (broadcastInDim S256 ![] bcast_S_S256 : (⟨S_, .i32⟩ : BufTy).Contents (Elt F) → (⟨S256, .i32⟩ : BufTy).Contents (Elt F))
  :: StableHlo.binary main_v848 main_v938 main_v939 (addi : (⟨S256, .i32⟩ : BufTy).Contents (Elt F) → (⟨S256, .i32⟩ : BufTy).Contents (Elt F) → (⟨S256, .i32⟩ : BufTy).Contents (Elt F))
  :: StableHlo.ternary main_v937 main_v939 main_v848 main_v940 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v940 main_v941 (broadcastInDim S256x1 ![0] bcast_S256_S256x1_0 : (⟨S256, .i32⟩ : BufTy).Contents (Elt F) → (⟨S256x1, .i32⟩ : BufTy).Contents (Elt F))
  :: StableHlo.ternary main_v832 main_v941 main_v935 main_v942 ((fun x i u => Host.scatter scatter_S131040x256_S256x1_S256x256_1_0_0_1 (fun _ b => b) x i u) : (⟨S131040x256, .f32⟩ : BufTy).Contents (Elt F) → (⟨S256x1, .i32⟩ : BufTy).Contents (Elt F) → (⟨S256x256, .f32⟩ : BufTy).Contents (Elt F) → (⟨S131040x256, .f32⟩ : BufTy).Contents (Elt F))
  :: StableHlo.nullary main_c_223 (constantI S_ 32 0#32)
  :: StableHlo.unary main_c_223 main_v943 (broadcastInDim S256 ![] bcast_S_S256 : (⟨S_, .i32⟩ : BufTy).Contents (Elt F) → (⟨S256, .i32⟩ : BufTy).Contents (Elt F))
  :: StableHlo.binary main_v848 main_v943 main_v944 (cmpi .slt : (⟨S256, .i32⟩ : BufTy).Contents (Elt F) → (⟨S256, .i32⟩ : BufTy).Contents (Elt F) → (⟨S256, .i1⟩ : BufTy).Contents (Elt F))
  :: StableHlo.nullary main_c_224 (constantI S_ 32 131040#32)
  :: StableHlo.unary main_c_224 main_v945 (broadcastInDim S256 ![] bcast_S_S256 : (⟨S_, .i32⟩ : BufTy).Contents (Elt F) → (⟨S256, .i32⟩ : BufTy).Contents (Elt F))
  :: StableHlo.binary main_v848 main_v945 main_v946 (addi : (⟨S256, .i32⟩ : BufTy).Contents (Elt F) → (⟨S256, .i32⟩ : BufTy).Contents (Elt F) → (⟨S256, .i32⟩ : BufTy).Contents (Elt F))
  :: StableHlo.ternary main_v944 main_v946 main_v848 main_v947 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v947 main_v948 (broadcastInDim S256x1 ![0] bcast_S256_S256x1_0 : (⟨S256, .i32⟩ : BufTy).Contents (Elt F) → (⟨S256x1, .i32⟩ : BufTy).Contents (Elt F))
  :: StableHlo.ternary main_v839 main_v948 main_v927 main_v949 ((fun x i u => Host.scatter scatter_S131040x256_S256x1_S256x256_1_0_0_1 (fun _ b => b) x i u) : (⟨S131040x256, .f32⟩ : BufTy).Contents (Elt F) → (⟨S256x1, .i32⟩ : BufTy).Contents (Elt F) → (⟨S256x256, .f32⟩ : BufTy).Contents (Elt F) → (⟨S131040x256, .f32⟩ : BufTy).Contents (Elt F))
  :: StableHlo.unary main_v16 main_v950 (broadcastInDim S32x1 ![0] bcast_S32_S32x1_0 : (⟨S32, .i32⟩ : BufTy).Contents (Elt F) → (⟨S32x1, .i32⟩ : BufTy).Contents (Elt F))
  :: StableHlo.nullary main_c_225 (constantI S_ 32 3#32)
  :: StableHlo.unary main_c_225 main_v951 (broadcastInDim S32x1 ![] bcast_S_S32x1 : (⟨S_, .i32⟩ : BufTy).Contents (Elt F) → (⟨S32x1, .i32⟩ : BufTy).Contents (Elt F))
  :: StableHlo.binary main_v950 main_v951 main_v952 (addi : (⟨S32x1, .i32⟩ : BufTy).Contents (Elt F) → (⟨S32x1, .i32⟩ : BufTy).Contents (Elt F) → (⟨S32x1, .i32⟩ : BufTy).Contents (Elt F))
  :: StableHlo.nullary main_v953 (iotaInDim S4 32 0)
  :: StableHlo.unary main_v953 main_v954 (broadcastInDim S1x4 ![1] bcast_S4_S1x4_1 : (⟨S4, .i32⟩ : BufTy).Contents (Elt F) → (⟨S1x4, .i32⟩ : BufTy).Contents (Elt F))
  :: StableHlo.unary main_v952 main_v955 (broadcastInDim S32x4 ![0, 1] bcast_S32x1_S32x4_0_1 : (⟨S32x1, .i32⟩ : BufTy).Contents (Elt F) → (⟨S32x4, .i32⟩ : BufTy).Contents (Elt F))
  :: StableHlo.unary main_v954 main_v956 (broadcastInDim S32x4 ![0, 1] bcast_S1x4_S32x4_0_1 : (⟨S1x4, .i32⟩ : BufTy).Contents (Elt F) → (⟨S32x4, .i32⟩ : BufTy).Contents (Elt F))
  :: StableHlo.binary main_v955 main_v956 main_v957 (addi : (⟨S32x4, .i32⟩ : BufTy).Contents (Elt F) → (⟨S32x4, .i32⟩ : BufTy).Contents (Elt F) → (⟨S32x4, .i32⟩ : BufTy).Contents (Elt F))
  :: StableHlo.reshape main_v957 main_v958 rfl shapeCasts_S32x4_S128
  :: StableHlo.nullary main_c_226 (constantI S_ 32 0#32)
  :: StableHlo.unary main_c_226 main_v959 (broadcastInDim S128 ![] bcast_S_S128 : (⟨S_, .i32⟩ : BufTy).Contents (Elt F) → (⟨S128, .i32⟩ : BufTy).Contents (Elt F))
  :: StableHlo.binary main_v958 main_v959 main_v960 (cmpi .slt : (⟨S128, .i32⟩ : BufTy).Contents (Elt F) → (⟨S128, .i32⟩ : BufTy).Contents (Elt F) → (⟨S128, .i1⟩ : BufTy).Contents (Elt F))
  :: StableHlo.nullary main_c_227 (constantI S_ 32 131040#32)
  :: StableHlo.unary main_c_227 main_v961 (broadcastInDim S128 ![] bcast_S_S128 : (⟨S_, .i32⟩ : BufTy).Contents (Elt F) → (⟨S128, .i32⟩ : BufTy).Contents (Elt F))
  :: StableHlo.binary main_v958 main_v961 main_v962 (addi : (⟨S128, .i32⟩ : BufTy).Contents (Elt F) → (⟨S128, .i32⟩ : BufTy).Contents (Elt F) → (⟨S128, .i32⟩ : BufTy).Contents (Elt F))
  :: StableHlo.ternary main_v960 main_v962 main_v958 main_v963 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v963 main_v964 (broadcastInDim S128x1 ![0] bcast_S128_S128x1_0 : (⟨S128, .i32⟩ : BufTy).Contents (Elt F) → (⟨S128x1, .i32⟩ : BufTy).Contents (Elt F))
  :: StableHlo.binary main_v11 main_v964 main_v965 ((fun x i => Host.gather gather_S131040x768_S128x1_S128x768_1_0_n_n_0_1_1768 x i) : (⟨S131040x768, .f32⟩ : BufTy).Contents (Elt F) → (⟨S128x1, .i32⟩ : BufTy).Contents (Elt F) → (⟨S128x768, .f32⟩ : BufTy).Contents (Elt F))
  :: StableHlo.unary main_v16 main_v966 (broadcastInDim S32x1 ![0] bcast_S32_S32x1_0 : (⟨S32, .i32⟩ : BufTy).Contents (Elt F) → (⟨S32x1, .i32⟩ : BufTy).Contents (Elt F))
  :: StableHlo.nullary main_c_228 (constantI S_ 32 7#32)
  :: StableHlo.unary main_c_228 main_v967 (broadcastInDim S32x1 ![] bcast_S_S32x1 : (⟨S_, .i32⟩ : BufTy).Contents (Elt F) → (⟨S32x1, .i32⟩ : BufTy).Contents (Elt F))
  :: StableHlo.binary main_v966 main_v967 main_v968 (addi : (⟨S32x1, .i32⟩ : BufTy).Contents (Elt F) → (⟨S32x1, .i32⟩ : BufTy).Contents (Elt F) → (⟨S32x1, .i32⟩ : BufTy).Contents (Elt F))
  :: StableHlo.nullary main_v969 (iotaInDim S8 32 0)
  :: StableHlo.unary main_v969 main_v970 (broadcastInDim S1x8 ![1] bcast_S8_S1x8_1 : (⟨S8, .i32⟩ : BufTy).Contents (Elt F) → (⟨S1x8, .i32⟩ : BufTy).Contents (Elt F))
  :: StableHlo.unary main_v968 main_v971 (broadcastInDim S32x8 ![0, 1] bcast_S32x1_S32x8_0_1 : (⟨S32x1, .i32⟩ : BufTy).Contents (Elt F) → (⟨S32x8, .i32⟩ : BufTy).Contents (Elt F))
  :: StableHlo.unary main_v970 main_v972 (broadcastInDim S32x8 ![0, 1] bcast_S1x8_S32x8_0_1 : (⟨S1x8, .i32⟩ : BufTy).Contents (Elt F) → (⟨S32x8, .i32⟩ : BufTy).Contents (Elt F))
  :: StableHlo.binary main_v971 main_v972 main_v973 (addi : (⟨S32x8, .i32⟩ : BufTy).Contents (Elt F) → (⟨S32x8, .i32⟩ : BufTy).Contents (Elt F) → (⟨S32x8, .i32⟩ : BufTy).Contents (Elt F))
  :: StableHlo.reshape main_v973 main_v974 rfl shapeCasts_S32x8_S256
  :: StableHlo.nullary main_c_229 (constantI S_ 32 0#32)
  :: StableHlo.unary main_c_229 main_v975 (broadcastInDim S256 ![] bcast_S_S256 : (⟨S_, .i32⟩ : BufTy).Contents (Elt F) → (⟨S256, .i32⟩ : BufTy).Contents (Elt F))
  :: StableHlo.binary main_v974 main_v975 main_v976 (cmpi .slt : (⟨S256, .i32⟩ : BufTy).Contents (Elt F) → (⟨S256, .i32⟩ : BufTy).Contents (Elt F) → (⟨S256, .i1⟩ : BufTy).Contents (Elt F))
  :: StableHlo.nullary main_c_230 (constantI S_ 32 131040#32)
  :: StableHlo.unary main_c_230 main_v977 (broadcastInDim S256 ![] bcast_S_S256 : (⟨S_, .i32⟩ : BufTy).Contents (Elt F) → (⟨S256, .i32⟩ : BufTy).Contents (Elt F))
  :: StableHlo.binary main_v974 main_v977 main_v978 (addi : (⟨S256, .i32⟩ : BufTy).Contents (Elt F) → (⟨S256, .i32⟩ : BufTy).Contents (Elt F) → (⟨S256, .i32⟩ : BufTy).Contents (Elt F))
  :: StableHlo.ternary main_v976 main_v978 main_v974 main_v979 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v979 main_v980 (broadcastInDim S256x1 ![0] bcast_S256_S256x1_0 : (⟨S256, .i32⟩ : BufTy).Contents (Elt F) → (⟨S256x1, .i32⟩ : BufTy).Contents (Elt F))
  :: StableHlo.binary main_v942 main_v980 main_v981 ((fun x i => Host.gather gather_S131040x256_S256x1_S256x256_1_0_n_n_0_1_1256 x i) : (⟨S131040x256, .f32⟩ : BufTy).Contents (Elt F) → (⟨S256x1, .i32⟩ : BufTy).Contents (Elt F) → (⟨S256x256, .f32⟩ : BufTy).Contents (Elt F))
  :: StableHlo.nullary main_c_231 (constantI S_ 32 0#32)
  :: StableHlo.unary main_c_231 main_v982 (broadcastInDim S256 ![] bcast_S_S256 : (⟨S_, .i32⟩ : BufTy).Contents (Elt F) → (⟨S256, .i32⟩ : BufTy).Contents (Elt F))
  :: StableHlo.binary main_v974 main_v982 main_v983 (cmpi .slt : (⟨S256, .i32⟩ : BufTy).Contents (Elt F) → (⟨S256, .i32⟩ : BufTy).Contents (Elt F) → (⟨S256, .i1⟩ : BufTy).Contents (Elt F))
  :: StableHlo.nullary main_c_232 (constantI S_ 32 131040#32)
  :: StableHlo.unary main_c_232 main_v984 (broadcastInDim S256 ![] bcast_S_S256 : (⟨S_, .i32⟩ : BufTy).Contents (Elt F) → (⟨S256, .i32⟩ : BufTy).Contents (Elt F))
  :: StableHlo.binary main_v974 main_v984 main_v985 (addi : (⟨S256, .i32⟩ : BufTy).Contents (Elt F) → (⟨S256, .i32⟩ : BufTy).Contents (Elt F) → (⟨S256, .i32⟩ : BufTy).Contents (Elt F))
  :: StableHlo.ternary main_v983 main_v985 main_v974 main_v986 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v986 main_v987 (broadcastInDim S256x1 ![0] bcast_S256_S256x1_0 : (⟨S256, .i32⟩ : BufTy).Contents (Elt F) → (⟨S256x1, .i32⟩ : BufTy).Contents (Elt F))
  :: StableHlo.binary main_v949 main_v987 main_v988 ((fun x i => Host.gather gather_S131040x256_S256x1_S256x256_1_0_n_n_0_1_1256 x i) : (⟨S131040x256, .f32⟩ : BufTy).Contents (Elt F) → (⟨S256x1, .i32⟩ : BufTy).Contents (Elt F) → (⟨S256x256, .f32⟩ : BufTy).Contents (Elt F))
  :: StableHlo.nullary main_c_233 (constantI S_ 32 0#32)
  :: StableHlo.unary main_c_233 main_v989 (broadcastInDim S256 ![] bcast_S_S256 : (⟨S_, .i32⟩ : BufTy).Contents (Elt F) → (⟨S256, .i32⟩ : BufTy).Contents (Elt F))
  :: StableHlo.binary main_v974 main_v989 main_v990 (cmpi .slt : (⟨S256, .i32⟩ : BufTy).Contents (Elt F) → (⟨S256, .i32⟩ : BufTy).Contents (Elt F) → (⟨S256, .i1⟩ : BufTy).Contents (Elt F))
  :: StableHlo.nullary main_c_234 (constantI S_ 32 131040#32)
  :: StableHlo.unary main_c_234 main_v991 (broadcastInDim S256 ![] bcast_S_S256 : (⟨S_, .i32⟩ : BufTy).Contents (Elt F) → (⟨S256, .i32⟩ : BufTy).Contents (Elt F))
  :: StableHlo.binary main_v974 main_v991 main_v992 (addi : (⟨S256, .i32⟩ : BufTy).Contents (Elt F) → (⟨S256, .i32⟩ : BufTy).Contents (Elt F) → (⟨S256, .i32⟩ : BufTy).Contents (Elt F))
  :: StableHlo.ternary main_v990 main_v992 main_v974 main_v993 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v993 main_v994 (broadcastInDim S256x1 ![0] bcast_S256_S256x1_0 : (⟨S256, .i32⟩ : BufTy).Contents (Elt F) → (⟨S256x1, .i32⟩ : BufTy).Contents (Elt F))
  :: StableHlo.binary main_arg1 main_v994 main_v995 ((fun x i => Host.gather gather_S131040_S256x1_S256_n_0_n_n_0_1_1 x i) : (⟨S131040, .i32⟩ : BufTy).Contents (Elt F) → (⟨S256x1, .i32⟩ : BufTy).Contents (Elt F) → (⟨S256, .i32⟩ : BufTy).Contents (Elt F))
  :: StableHlo.nullary main_c_235 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_32_sub : (hostOps0_32 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_22 (main_call16), in order. -/
abbrev hostOps0_33 : List (HloOp τ sig (Elt F)) :=
  [ StableHlo.TRef.unary (.of main_c_235 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S256, .i32⟩) (broadcastInDim S256 ![] bcast_S_S256),
    StableHlo.TRef.binary (.of main_v995 : StableHlo.TRef sig ⟨S256, .i32⟩) (.of main_call16_v1 : StableHlo.TRef sig ⟨S256, .i32⟩) (.of main_call16_v2 : StableHlo.TRef sig ⟨S256, .i32⟩) Host.divsi,
    StableHlo.TRef.unary (.of main_v995 : StableHlo.TRef sig ⟨S256, .i32⟩) (.of main_call16_v3 : StableHlo.TRef sig ⟨S256, .i32⟩) signi,
    StableHlo.TRef.unary (.of main_call16_v0 : StableHlo.TRef sig ⟨S_, .i32⟩) (.of main_call16_v4 : StableHlo.TRef sig ⟨S_, .i32⟩) signi,
    StableHlo.TRef.unary (.of main_call16_v4 : StableHlo.TRef sig ⟨S_, .i32⟩) (.of main_call16_v5 : StableHlo.TRef sig ⟨S256, .i32⟩) (broadcastInDim S256 ![] bcast_S_S256),
    StableHlo.TRef.binary (.of main_call16_v3 : StableHlo.TRef sig ⟨S256, .i32⟩) (.of main_call16_v5 : StableHlo.TRef sig ⟨S256, .i32⟩) (.of main_call16_v6 : StableHlo.TRef sig ⟨S256, .i1⟩) (cmpi .ne),
    StableHlo.TRef.unary (.of main_call16_v0 : StableHlo.TRef sig ⟨S_, .i32⟩) (.of main_call16_v7 : StableHlo.TRef sig ⟨S256, .i32⟩) (broadcastInDim S256 ![] bcast_S_S256),
    StableHlo.TRef.binary (.of main_v995 : StableHlo.TRef sig ⟨S256, .i32⟩) (.of main_call16_v7 : StableHlo.TRef sig ⟨S256, .i32⟩) (.of main_call16_v8 : StableHlo.TRef sig ⟨S256, .i32⟩) Host.remsi,
    StableHlo.TRef.nullary (.of main_call16_c : StableHlo.TRef sig ⟨S_, .i32⟩) (constantI S_ 32 0#32),
    StableHlo.TRef.unary (.of main_call16_c : StableHlo.TRef sig ⟨S_, .i32⟩) (.of main_call16_v9 : StableHlo.TRef sig ⟨S256, .i32⟩) (broadcastInDim S256 ![] bcast_S_S256),
    StableHlo.TRef.binary (.of main_call16_v8 : StableHlo.TRef sig ⟨S256, .i32⟩) (.of main_call16_v9 : StableHlo.TRef sig ⟨S256, .i32⟩) (.of main_call16_v10 : StableHlo.TRef sig ⟨S256, .i1⟩) (cmpi .ne),
    StableHlo.TRef.binary (.of main_call16_v6 : StableHlo.TRef sig ⟨S256, .i1⟩) (.of main_call16_v10 : StableHlo.TRef sig ⟨S256, .i1⟩) (.of main_call16_v11 : StableHlo.TRef sig ⟨S256, .i1⟩) andi,
    StableHlo.TRef.nullary (.of main_call16_c_0 : StableHlo.TRef sig ⟨S_, .i32⟩) (constantI S_ 32 1#32),
    StableHlo.TRef.unary (.of main_call16_c_0 : StableHlo.TRef sig ⟨S_, .i32⟩) (.of main_call16_v12 : StableHlo.TRef sig ⟨S256, .i32⟩) (broadcastInDim S256 ![] bcast_S_S256),
    StableHlo.TRef.binary (.of main_call16_v2 : StableHlo.TRef sig ⟨S256, .i32⟩) (.of main_call16_v12 : StableHlo.TRef sig ⟨S256, .i32⟩) (.of main_call16_v13 : StableHlo.TRef sig ⟨S256, .i32⟩) subi,
    StableHlo.TRef.ternary (.of main_call16_v11 : StableHlo.TRef sig ⟨S256, .i1⟩) (.of main_call16_v13 : StableHlo.TRef sig ⟨S256, .i32⟩) (.of main_call16_v2 : StableHlo.TRef sig ⟨S256, .i32⟩) (.of main_v996 : StableHlo.TRef sig ⟨S256, .i32⟩) select ]
/-- Each touches TensorCore references only (`HostSeg.ofOps` over `StableHlo.tcRefs`, or a subset by `sub_ucRefs`). -/
theorem hostOps0_33_sub : (hostOps0_33 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
end Cert.ReferenceIdeal.Gen

end
-- ==== Proof.RefOpsS3.lean ====
/- The reference program's entry function as lists of host operations: some of the stretches between its calls, the called functions' bodies in place. -/
import proofs.«419362_j66683662237734_3_alg».proof.Proof.Gen.ReferenceIdeal
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- 4 host operations of @main, in order. -/
abbrev hostOps0_34 : List (HloOp τ sig (Elt F)) :=
  [ StableHlo.nullary main_c_236 (constantI S_ 32 4#32),
    StableHlo.unary main_c_236 main_v997 (broadcastInDim S256 ![] bcast_S_S256 : (⟨S_, .i32⟩ : BufTy).Contents (Elt F) → (⟨S256, .i32⟩ : BufTy).Contents (Elt F)),
    StableHlo.binary main_v996 main_v997 main_v998 (muli : (⟨S256, .i32⟩ : BufTy).Contents (Elt F) → (⟨S256, .i32⟩ : BufTy).Contents (Elt F) → (⟨S256, .i32⟩ : BufTy).Contents (Elt F)),
    StableHlo.nullary main_c_237 (constantI S_ 32 4095#32) ]
/-- Each touches TensorCore references only (`HostSeg.ofOps` over `StableHlo.tcRefs`, or a subset by `sub_ucRefs`). -/
theorem hostOps0_34_sub : (hostOps0_34 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_24 (main_call17), in order. -/
abbrev hostOps0_35 : List (HloOp τ sig (Elt F)) :=
  [ StableHlo.TRef.unary (.of main_c_237 : StableHlo.TRef sig ⟨S_, .i32⟩) (.of main_call17_v0 : StableHlo.TRef sig ⟨S_, .i32⟩) id,
    StableHlo.TRef.nullary (.of main_call17_c : StableHlo.TRef sig ⟨S_, .i32⟩) (constantI S_ 32 0#32),
    StableHlo.TRef.binary (.of main_call17_v0 : StableHlo.TRef sig ⟨S_, .i32⟩) (.of main_call17_c : StableHlo.TRef sig ⟨S_, .i32⟩) (.of main_call17_v1 : StableHlo.TRef sig ⟨S_, .i1⟩) (cmpi .eq),
    StableHlo.TRef.nullary (.of main_call17_c_0 : StableHlo.TRef sig ⟨S_, .i32⟩) (constantI S_ 32 1#32),
    StableHlo.TRef.ternary (.of main_call17_v1 : StableHlo.TRef sig ⟨S_, .i1⟩) (.of main_call17_c_0 : StableHlo.TRef sig ⟨S_, .i32⟩) (.of main_call17_v0 : StableHlo.TRef sig ⟨S_, .i32⟩) (.of main_call17_v2 : StableHlo.TRef sig ⟨S_, .i32⟩) select,
    StableHlo.TRef.unary main_call17_call0.v0 (.of main_call17_v3 : StableHlo.TRef sig ⟨S256, .i32⟩) (broadcastInDim S256 ![] bcast_S_S256),
    StableHlo.TRef.binary (.of main_v995 : StableHlo.TRef sig ⟨S256, .i32⟩) (.of main_call17_v3 : StableHlo.TRef sig ⟨S256, .i32⟩) (.of main_call17_v4 : StableHlo.TRef sig ⟨S256, .i32⟩) Host.remsi,
    StableHlo.TRef.nullary (.of main_call17_c_1 : StableHlo.TRef sig ⟨S_, .i32⟩) (constantI S_ 32 0#32),
    StableHlo.TRef.unary (.of main_call17_c_1 : StableHlo.TRef sig ⟨S_, .i32⟩) (.of main_call17_v5 : StableHlo.TRef sig ⟨S256, .i32⟩) (broadcastInDim S256 ![] bcast_S_S256),
    StableHlo.TRef.binary (.of main_call17_v4 : StableHlo.TRef sig ⟨S256, .i32⟩) (.of main_call17_v5 : StableHlo.TRef sig ⟨S256, .i32⟩) (.of main_call17_v6 : StableHlo.TRef sig ⟨S256, .i1⟩) (cmpi .ne),
    StableHlo.TRef.nullary (.of main_call17_c_2 : StableHlo.TRef sig ⟨S_, .i32⟩) (constantI S_ 32 0#32),
    StableHlo.TRef.unary (.of main_call17_c_2 : StableHlo.TRef sig ⟨S_, .i32⟩) (.of main_call17_v7 : StableHlo.TRef sig ⟨S256, .i32⟩) (broadcastInDim S256 ![] bcast_S_S256),
    StableHlo.TRef.binary (.of main_call17_v4 : StableHlo.TRef sig ⟨S256, .i32⟩) (.of main_call17_v7 : StableHlo.TRef sig ⟨S256, .i32⟩) (.of main_call17_v8 : StableHlo.TRef sig ⟨S256, .i1⟩) (cmpi .slt),
    StableHlo.TRef.nullary (.of main_call17_c_3 : StableHlo.TRef sig ⟨S_, .i32⟩) (constantI S_ 32 0#32),
    StableHlo.TRef.binary main_call17_call0.v0 (.of main_call17_c_3 : StableHlo.TRef sig ⟨S_, .i32⟩) (.of main_call17_v9 : StableHlo.TRef sig ⟨S_, .i1⟩) (cmpi .slt),
    StableHlo.TRef.unary (.of main_call17_v9 : StableHlo.TRef sig ⟨S_, .i1⟩) (.of main_call17_v10 : StableHlo.TRef sig ⟨S256, .i1⟩) (broadcastInDim S256 ![] bcast_S_S256),
    StableHlo.TRef.binary (.of main_call17_v8 : StableHlo.TRef sig ⟨S256, .i1⟩) (.of main_call17_v10 : StableHlo.TRef sig ⟨S256, .i1⟩) (.of main_call17_v11 : StableHlo.TRef sig ⟨S256, .i1⟩) (cmpi .ne),
    StableHlo.TRef.binary (.of main_call17_v11 : StableHlo.TRef sig ⟨S256, .i1⟩) (.of main_call17_v6 : StableHlo.TRef sig ⟨S256, .i1⟩) (.of main_call17_v12 : StableHlo.TRef sig ⟨S256, .i1⟩) andi,
    StableHlo.TRef.unary main_call17_call0.v0 (.of main_call17_v13 : StableHlo.TRef sig ⟨S256, .i32⟩) (broadcastInDim S256 ![] bcast_S_S256),
    StableHlo.TRef.binary (.of main_call17_v4 : StableHlo.TRef sig ⟨S256, .i32⟩) (.of main_call17_v13 : StableHlo.TRef sig ⟨S256, .i32⟩) (.of main_call17_v14 : StableHlo.TRef sig ⟨S256, .i32⟩) addi,
    StableHlo.TRef.ternary (.of main_call17_v12 : StableHlo.TRef sig ⟨S256, .i1⟩) (.of main_call17_v14 : StableHlo.TRef sig ⟨S256, .i32⟩) (.of main_call17_v4 : StableHlo.TRef sig ⟨S256, .i32⟩) (.of main_v999 : StableHlo.TRef sig ⟨S256, .i32⟩) select ]
/-- Each touches TensorCore references only (`HostSeg.ofOps` over `StableHlo.tcRefs`, or a subset by `sub_ucRefs`). -/
theorem hostOps0_35_sub : (hostOps0_35 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 130 host operations of @main, in order. -/
abbrev hostOps0_36 : List (HloOp τ sig (Elt F)) :=
  ( StableHlo.nullary main_c_238 (constantI S_ 32 3#32)
  :: StableHlo.unary main_c_238 main_v1000 (broadcastInDim S256 ![] bcast_S_S256 : (⟨S_, .i32⟩ : BufTy).Contents (Elt F) → (⟨S256, .i32⟩ : BufTy).Contents (Elt F))
  :: StableHlo.binary main_v999 main_v1000 main_v1001 (subi : (⟨S256, .i32⟩ : BufTy).Contents (Elt F) → (⟨S256, .i32⟩ : BufTy).Contents (Elt F) → (⟨S256, .i32⟩ : BufTy).Contents (Elt F))
  :: StableHlo.binary main_v998 main_v1001 main_v1002 (addi : (⟨S256, .i32⟩ : BufTy).Contents (Elt F) → (⟨S256, .i32⟩ : BufTy).Contents (Elt F) → (⟨S256, .i32⟩ : BufTy).Contents (Elt F))
  :: StableHlo.unary main_arg6 main_v1003 ((transpose S256x256 [1, 0] · transposes_S256x256_S256x256_1_0) : (⟨S256x256, .f32⟩ : BufTy).Contents (Elt F) → (⟨S256x256, .f32⟩ : BufTy).Contents (Elt F))
  :: StableHlo.binary main_v981 main_v1003 main_v1004 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F))
  :: StableHlo.unary main_arg7 main_v1005 (broadcastInDim S1x256 ![1] bcast_S256_S1x256_1 : (⟨S256, .f32⟩ : BufTy).Contents (Elt F) → (⟨S1x256, .f32⟩ : BufTy).Contents (Elt F))
  :: StableHlo.unary main_v1005 main_v1006 (broadcastInDim S256x256 ![0, 1] bcast_S1x256_S256x256_0_1 : (⟨S1x256, .f32⟩ : BufTy).Contents (Elt F) → (⟨S256x256, .f32⟩ : BufTy).Contents (Elt F))
  :: StableHlo.binary main_v1004 main_v1006 main_v1007 (addf : (⟨S256x256, .f32⟩ : BufTy).Contents (Elt F) → (⟨S256x256, .f32⟩ : BufTy).Contents (Elt F) → (⟨S256x256, .f32⟩ : BufTy).Contents (Elt F))
  :: StableHlo.unary main_v1007 main_v1008 (Host.negf : (⟨S256x256, .f32⟩ : BufTy).Contents (Elt F) → (⟨S256x256, .f32⟩ : BufTy).Contents (Elt F))
  :: StableHlo.unary main_v1008 main_v1009 (Host.exp : (⟨S256x256, .f32⟩ : BufTy).Contents (Elt F) → (⟨S256x256, .f32⟩ : BufTy).Contents (Elt F))
  :: StableHlo.nullary main_cst_239 (constant S_ .f32 0x3F800000#32)
  :: StableHlo.unary main_cst_239 main_v1010 (broadcastInDim S256x256 ![] bcast_S_S256x256 : (⟨S_, .f32⟩ : BufTy).Contents (Elt F) → (⟨S256x256, .f32⟩ : BufTy).Contents (Elt F))
  :: StableHlo.binary main_v1010 main_v1009 main_v1011 (addf : (⟨S256x256, .f32⟩ : BufTy).Contents (Elt F) → (⟨S256x256, .f32⟩ : BufTy).Contents (Elt F) → (⟨S256x256, .f32⟩ : BufTy).Contents (Elt F))
  :: StableHlo.nullary main_cst_240 (constant S_ .f32 0x3F800000#32)
  :: StableHlo.unary main_cst_240 main_v1012 (broadcastInDim S256x256 ![] bcast_S_S256x256 : (⟨S_, .f32⟩ : BufTy).Contents (Elt F) → (⟨S256x256, .f32⟩ : BufTy).Contents (Elt F))
  :: StableHlo.binary main_v1012 main_v1011 main_v1013 (Host.divf : (⟨S256x256, .f32⟩ : BufTy).Contents (Elt F) → (⟨S256x256, .f32⟩ : BufTy).Contents (Elt F) → (⟨S256x256, .f32⟩ : BufTy).Contents (Elt F))
  :: StableHlo.nullary main_cst_241 (constant S_ .f32 0x00000000#32)
  :: StableHlo.unary main_cst_241 main_v1014 (broadcastInDim S128x256 ![] bcast_S_S128x256 : (⟨S_, .f32⟩ : BufTy).Contents (Elt F) → (⟨S128x256, .f32⟩ : BufTy).Contents (Elt F))
  :: StableHlo.unary main_v1002 main_v1015 (broadcastInDim S256x1 ![0] bcast_S256_S256x1_0 : (⟨S256, .i32⟩ : BufTy).Contents (Elt F) → (⟨S256x1, .i32⟩ : BufTy).Contents (Elt F))
  :: StableHlo.ternary main_v1014 main_v1015 main_v981 main_v1016 ((fun x i u => Host.scatterAdd scatter_S128x256_S256x1_S256x256_1_0_0_1 x i u) : (⟨S128x256, .f32⟩ : BufTy).Contents (Elt F) → (⟨S256x1, .i32⟩ : BufTy).Contents (Elt F) → (⟨S256x256, .f32⟩ : BufTy).Contents (Elt F) → (⟨S128x256, .f32⟩ : BufTy).Contents (Elt F))
  :: StableHlo.binary main_v1013 main_v988 main_v1017 (mulf : (⟨S256x256, .f32⟩ : BufTy).Contents (Elt F) → (⟨S256x256, .f32⟩ : BufTy).Contents (Elt F) → (⟨S256x256, .f32⟩ : BufTy).Contents (Elt F))
  :: StableHlo.nullary main_cst_242 (constant S_ .f32 0x00000000#32)
  :: StableHlo.unary main_cst_242 main_v1018 (broadcastInDim S128x256 ![] bcast_S_S128x256 : (⟨S_, .f32⟩ : BufTy).Contents (Elt F) → (⟨S128x256, .f32⟩ : BufTy).Contents (Elt F))
  :: StableHlo.unary main_v1002 main_v1019 (broadcastInDim S256x1 ![0] bcast_S256_S256x1_0 : (⟨S256, .i32⟩ : BufTy).Contents (Elt F) → (⟨S256x1, .i32⟩ : BufTy).Contents (Elt F))
  :: StableHlo.ternary main_v1018 main_v1019 main_v1017 main_v1020 ((fun x i u => Host.scatterAdd scatter_S128x256_S256x1_S256x256_1_0_0_1 x i u) : (⟨S128x256, .f32⟩ : BufTy).Contents (Elt F) → (⟨S256x1, .i32⟩ : BufTy).Contents (Elt F) → (⟨S256x256, .f32⟩ : BufTy).Contents (Elt F) → (⟨S128x256, .f32⟩ : BufTy).Contents (Elt F))
  :: StableHlo.unary main_arg4 main_v1021 ((transpose S256x768 [1, 0] · transposes_S768x256_S256x768_1_0) : (⟨S768x256, .f32⟩ : BufTy).Contents (Elt F) → (⟨S256x768, .f32⟩ : BufTy).Contents (Elt F))
  :: StableHlo.binary main_v1016 main_v1021 main_v1022 ((fun l r => Host.dotGeneral dot_S128x256_S256x768_S128x768_1_0_0_1_n_n none l r) : (⟨S128x256, .f32⟩ : BufTy).Contents (Elt F) → (⟨S256x768, .f32⟩ : BufTy).Contents (Elt F) → (⟨S128x768, .f32⟩ : BufTy).Contents (Elt F))
  :: StableHlo.binary main_v965 main_v1022 main_v1023 (addf : (⟨S128x768, .f32⟩ : BufTy).Contents (Elt F) → (⟨S128x768, .f32⟩ : BufTy).Contents (Elt F) → (⟨S128x768, .f32⟩ : BufTy).Contents (Elt F))
  :: StableHlo.unary main_arg5 main_v1024 (broadcastInDim S128x768 ![0, 1] bcast_S1x768_S128x768_0_1 : (⟨S1x768, .f32⟩ : BufTy).Contents (Elt F) → (⟨S128x768, .f32⟩ : BufTy).Contents (Elt F))
  :: StableHlo.binary main_v1023 main_v1024 main_v1025 (addf : (⟨S128x768, .f32⟩ : BufTy).Contents (Elt F) → (⟨S128x768, .f32⟩ : BufTy).Contents (Elt F) → (⟨S128x768, .f32⟩ : BufTy).Contents (Elt F))
  :: StableHlo.unary main_v1025 main_v1026 ((extractStridedSlice S128x256 ![0, 0] · slices_S128x768_S128x256_0_0) : (⟨S128x768, .f32⟩ : BufTy).Contents (Elt F) → (⟨S128x256, .f32⟩ : BufTy).Contents (Elt F))
  :: StableHlo.unary main_v1025 main_v1027 ((extractStridedSlice S128x256 ![0, 256] · slices_S128x768_S128x256_0_256) : (⟨S128x768, .f32⟩ : BufTy).Contents (Elt F) → (⟨S128x256, .f32⟩ : BufTy).Contents (Elt F))
  :: StableHlo.unary main_v1025 main_v1028 ((extractStridedSlice S128x256 ![0, 512] · slices_S128x768_S128x256_0_512) : (⟨S128x768, .f32⟩ : BufTy).Contents (Elt F) → (⟨S128x256, .f32⟩ : BufTy).Contents (Elt F))
  :: StableHlo.unary main_v1026 main_v1029 (Host.negf : (⟨S128x256, .f32⟩ : BufTy).Contents (Elt F) → (⟨S128x256, .f32⟩ : BufTy).Contents (Elt F))
  :: StableHlo.unary main_v1029 main_v1030 (Host.exp : (⟨S128x256, .f32⟩ : BufTy).Contents (Elt F) → (⟨S128x256, .f32⟩ : BufTy).Contents (Elt F))
  :: StableHlo.nullary main_cst_243 (constant S_ .f32 0x3F800000#32)
  :: StableHlo.unary main_cst_243 main_v1031 (broadcastInDim S128x256 ![] bcast_S_S128x256 : (⟨S_, .f32⟩ : BufTy).Contents (Elt F) → (⟨S128x256, .f32⟩ : BufTy).Contents (Elt F))
  :: StableHlo.binary main_v1031 main_v1030 main_v1032 (addf : (⟨S128x256, .f32⟩ : BufTy).Contents (Elt F) → (⟨S128x256, .f32⟩ : BufTy).Contents (Elt F) → (⟨S128x256, .f32⟩ : BufTy).Contents (Elt F))
  :: StableHlo.nullary main_cst_244 (constant S_ .f32 0x3F800000#32)
  :: StableHlo.unary main_cst_244 main_v1033 (broadcastInDim S128x256 ![] bcast_S_S128x256 : (⟨S_, .f32⟩ : BufTy).Contents (Elt F) → (⟨S128x256, .f32⟩ : BufTy).Contents (Elt F))
  :: StableHlo.binary main_v1033 main_v1032 main_v1034 (Host.divf : (⟨S128x256, .f32⟩ : BufTy).Contents (Elt F) → (⟨S128x256, .f32⟩ : BufTy).Contents (Elt F) → (⟨S128x256, .f32⟩ : BufTy).Contents (Elt F))
  :: StableHlo.unary main_v1028 main_v1035 (Host.tanh : (⟨S128x256, .f32⟩ : BufTy).Contents (Elt F) → (⟨S128x256, .f32⟩ : BufTy).Contents (Elt F))
  :: StableHlo.binary main_v1034 main_v1035 main_v1036 (mulf : (⟨S128x256, .f32⟩ : BufTy).Contents (Elt F) → (⟨S128x256, .f32⟩ : BufTy).Contents (Elt F) → (⟨S128x256, .f32⟩ : BufTy).Contents (Elt F))
  :: StableHlo.binary main_v1036 main_v1020 main_v1037 (addf : (⟨S128x256, .f32⟩ : BufTy).Contents (Elt F) → (⟨S128x256, .f32⟩ : BufTy).Contents (Elt F) → (⟨S128x256, .f32⟩ : BufTy).Contents (Elt F))
  :: StableHlo.unary main_v1027 main_v1038 (Host.negf : (⟨S128x256, .f32⟩ : BufTy).Contents (Elt F) → (⟨S128x256, .f32⟩ : BufTy).Contents (Elt F))
  :: StableHlo.unary main_v1038 main_v1039 (Host.exp : (⟨S128x256, .f32⟩ : BufTy).Contents (Elt F) → (⟨S128x256, .f32⟩ : BufTy).Contents (Elt F))
  :: StableHlo.nullary main_cst_245 (constant S_ .f32 0x3F800000#32)
  :: StableHlo.unary main_cst_245 main_v1040 (broadcastInDim S128x256 ![] bcast_S_S128x256 : (⟨S_, .f32⟩ : BufTy).Contents (Elt F) → (⟨S128x256, .f32⟩ : BufTy).Contents (Elt F))
  :: StableHlo.binary main_v1040 main_v1039 main_v1041 (addf : (⟨S128x256, .f32⟩ : BufTy).Contents (Elt F) → (⟨S128x256, .f32⟩ : BufTy).Contents (Elt F) → (⟨S128x256, .f32⟩ : BufTy).Contents (Elt F))
  :: StableHlo.nullary main_cst_246 (constant S_ .f32 0x3F800000#32)
  :: StableHlo.unary main_cst_246 main_v1042 (broadcastInDim S128x256 ![] bcast_S_S128x256 : (⟨S_, .f32⟩ : BufTy).Contents (Elt F) → (⟨S128x256, .f32⟩ : BufTy).Contents (Elt F))
  :: StableHlo.binary main_v1042 main_v1041 main_v1043 (Host.divf : (⟨S128x256, .f32⟩ : BufTy).Contents (Elt F) → (⟨S128x256, .f32⟩ : BufTy).Contents (Elt F) → (⟨S128x256, .f32⟩ : BufTy).Contents (Elt F))
  :: StableHlo.unary main_v1037 main_v1044 (Host.tanh : (⟨S128x256, .f32⟩ : BufTy).Contents (Elt F) → (⟨S128x256, .f32⟩ : BufTy).Contents (Elt F))
  :: StableHlo.binary main_v1043 main_v1044 main_v1045 (mulf : (⟨S128x256, .f32⟩ : BufTy).Contents (Elt F) → (⟨S128x256, .f32⟩ : BufTy).Contents (Elt F) → (⟨S128x256, .f32⟩ : BufTy).Contents (Elt F))
  :: StableHlo.nullary main_c_247 (constantI S_ 32 0#32)
  :: StableHlo.unary main_c_247 main_v1046 (broadcastInDim S128 ![] bcast_S_S128 : (⟨S_, .i32⟩ : BufTy).Contents (Elt F) → (⟨S128, .i32⟩ : BufTy).Contents (Elt F))
  :: StableHlo.binary main_v958 main_v1046 main_v1047 (cmpi .slt : (⟨S128, .i32⟩ : BufTy).Contents (Elt F) → (⟨S128, .i32⟩ : BufTy).Contents (Elt F) → (⟨S128, .i1⟩ : BufTy).Contents (Elt F))
  :: StableHlo.nullary main_c_248 (constantI S_ 32 131040#32)
  :: StableHlo.unary main_c_248 main_v1048 (broadcastInDim S128 ![] bcast_S_S128 : (⟨S_, .i32⟩ : BufTy).Contents (Elt F) → (⟨S128, .i32⟩ : BufTy).Contents (Elt F))
  :: StableHlo.binary main_v958 main_v1048 main_v1049 (addi : (⟨S128, .i32⟩ : BufTy).Contents (Elt F) → (⟨S128, .i32⟩ : BufTy).Contents (Elt F) → (⟨S128, .i32⟩ : BufTy).Contents (Elt F))
  :: StableHlo.ternary main_v1047 main_v1049 main_v958 main_v1050 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1050 main_v1051 (broadcastInDim S128x1 ![0] bcast_S128_S128x1_0 : (⟨S128, .i32⟩ : BufTy).Contents (Elt F) → (⟨S128x1, .i32⟩ : BufTy).Contents (Elt F))
  :: StableHlo.ternary main_v942 main_v1051 main_v1045 main_v1052 ((fun x i u => Host.scatter scatter_S131040x256_S128x1_S128x256_1_0_0_1 (fun _ b => b) x i u) : (⟨S131040x256, .f32⟩ : BufTy).Contents (Elt F) → (⟨S128x1, .i32⟩ : BufTy).Contents (Elt F) → (⟨S128x256, .f32⟩ : BufTy).Contents (Elt F) → (⟨S131040x256, .f32⟩ : BufTy).Contents (Elt F))
  :: StableHlo.nullary main_c_249 (constantI S_ 32 0#32)
  :: StableHlo.unary main_c_249 main_v1053 (broadcastInDim S128 ![] bcast_S_S128 : (⟨S_, .i32⟩ : BufTy).Contents (Elt F) → (⟨S128, .i32⟩ : BufTy).Contents (Elt F))
  :: StableHlo.binary main_v958 main_v1053 main_v1054 (cmpi .slt : (⟨S128, .i32⟩ : BufTy).Contents (Elt F) → (⟨S128, .i32⟩ : BufTy).Contents (Elt F) → (⟨S128, .i1⟩ : BufTy).Contents (Elt F))
  :: StableHlo.nullary main_c_250 (constantI S_ 32 131040#32)
  :: StableHlo.unary main_c_250 main_v1055 (broadcastInDim S128 ![] bcast_S_S128 : (⟨S_, .i32⟩ : BufTy).Contents (Elt F) → (⟨S128, .i32⟩ : BufTy).Contents (Elt F))
  :: StableHlo.binary main_v958 main_v1055 main_v1056 (addi : (⟨S128, .i32⟩ : BufTy).Contents (Elt F) → (⟨S128, .i32⟩ : BufTy).Contents (Elt F) → (⟨S128, .i32⟩ : BufTy).Contents (Elt F))
  :: StableHlo.ternary main_v1054 main_v1056 main_v958 main_v1057 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1057 main_v1058 (broadcastInDim S128x1 ![0] bcast_S128_S128x1_0 : (⟨S128, .i32⟩ : BufTy).Contents (Elt F) → (⟨S128x1, .i32⟩ : BufTy).Contents (Elt F))
  :: StableHlo.ternary main_v949 main_v1058 main_v1037 main_v1059 ((fun x i u => Host.scatter scatter_S131040x256_S128x1_S128x256_1_0_0_1 (fun _ b => b) x i u) : (⟨S131040x256, .f32⟩ : BufTy).Contents (Elt F) → (⟨S128x1, .i32⟩ : BufTy).Contents (Elt F) → (⟨S128x256, .f32⟩ : BufTy).Contents (Elt F) → (⟨S131040x256, .f32⟩ : BufTy).Contents (Elt F))
  :: StableHlo.unary main_v16 main_v1060 (broadcastInDim S32x1 ![0] bcast_S32_S32x1_0 : (⟨S32, .i32⟩ : BufTy).Contents (Elt F) → (⟨S32x1, .i32⟩ : BufTy).Contents (Elt F))
  :: StableHlo.nullary main_c_251 (constantI S_ 32 1#32)
  :: StableHlo.unary main_c_251 main_v1061 (broadcastInDim S32x1 ![] bcast_S_S32x1 : (⟨S_, .i32⟩ : BufTy).Contents (Elt F) → (⟨S32x1, .i32⟩ : BufTy).Contents (Elt F))
  :: StableHlo.binary main_v1060 main_v1061 main_v1062 (addi : (⟨S32x1, .i32⟩ : BufTy).Contents (Elt F) → (⟨S32x1, .i32⟩ : BufTy).Contents (Elt F) → (⟨S32x1, .i32⟩ : BufTy).Contents (Elt F))
  :: StableHlo.nullary main_v1063 (iotaInDim S2 32 0)
  :: StableHlo.unary main_v1063 main_v1064 (broadcastInDim S1x2 ![1] bcast_S2_S1x2_1 : (⟨S2, .i32⟩ : BufTy).Contents (Elt F) → (⟨S1x2, .i32⟩ : BufTy).Contents (Elt F))
  :: StableHlo.unary main_v1062 main_v1065 (broadcastInDim S32x2 ![0, 1] bcast_S32x1_S32x2_0_1 : (⟨S32x1, .i32⟩ : BufTy).Contents (Elt F) → (⟨S32x2, .i32⟩ : BufTy).Contents (Elt F))
  :: StableHlo.unary main_v1064 main_v1066 (broadcastInDim S32x2 ![0, 1] bcast_S1x2_S32x2_0_1 : (⟨S1x2, .i32⟩ : BufTy).Contents (Elt F) → (⟨S32x2, .i32⟩ : BufTy).Contents (Elt F))
  :: StableHlo.binary main_v1065 main_v1066 main_v1067 (addi : (⟨S32x2, .i32⟩ : BufTy).Contents (Elt F) → (⟨S32x2, .i32⟩ : BufTy).Contents (Elt F) → (⟨S32x2, .i32⟩ : BufTy).Contents (Elt F))
  :: StableHlo.reshape main_v1067 main_v1068 rfl shapeCasts_S32x2_S64
  :: StableHlo.nullary main_c_252 (constantI S_ 32 0#32)
  :: StableHlo.unary main_c_252 main_v1069 (broadcastInDim S64 ![] bcast_S_S64 : (⟨S_, .i32⟩ : BufTy).Contents (Elt F) → (⟨S64, .i32⟩ : BufTy).Contents (Elt F))
  :: StableHlo.binary main_v1068 main_v1069 main_v1070 (cmpi .slt : (⟨S64, .i32⟩ : BufTy).Contents (Elt F) → (⟨S64, .i32⟩ : BufTy).Contents (Elt F) → (⟨S64, .i1⟩ : BufTy).Contents (Elt F))
  :: StableHlo.nullary main_c_253 (constantI S_ 32 131040#32)
  :: StableHlo.unary main_c_253 main_v1071 (broadcastInDim S64 ![] bcast_S_S64 : (⟨S_, .i32⟩ : BufTy).Contents (Elt F) → (⟨S64, .i32⟩ : BufTy).Contents (Elt F))
  :: StableHlo.binary main_v1068 main_v1071 main_v1072 (addi : (⟨S64, .i32⟩ : BufTy).Contents (Elt F) → (⟨S64, .i32⟩ : BufTy).Contents (Elt F) → (⟨S64, .i32⟩ : BufTy).Contents (Elt F))
  :: StableHlo.ternary main_v1070 main_v1072 main_v1068 main_v1073 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1073 main_v1074 (broadcastInDim S64x1 ![0] bcast_S64_S64x1_0 : (⟨S64, .i32⟩ : BufTy).Contents (Elt F) → (⟨S64x1, .i32⟩ : BufTy).Contents (Elt F))
  :: StableHlo.binary main_v11 main_v1074 main_v1075 ((fun x i => Host.gather gather_S131040x768_S64x1_S64x768_1_0_n_n_0_1_1768 x i) : (⟨S131040x768, .f32⟩ : BufTy).Contents (Elt F) → (⟨S64x1, .i32⟩ : BufTy).Contents (Elt F) → (⟨S64x768, .f32⟩ : BufTy).Contents (Elt F))
  :: StableHlo.unary main_v16 main_v1076 (broadcastInDim S32x1 ![0] bcast_S32_S32x1_0 : (⟨S32, .i32⟩ : BufTy).Contents (Elt F) → (⟨S32x1, .i32⟩ : BufTy).Contents (Elt F))
  :: StableHlo.nullary main_c_254 (constantI S_ 32 3#32)
  :: StableHlo.unary main_c_254 main_v1077 (broadcastInDim S32x1 ![] bcast_S_S32x1 : (⟨S_, .i32⟩ : BufTy).Contents (Elt F) → (⟨S32x1, .i32⟩ : BufTy).Contents (Elt F))
  :: StableHlo.binary main_v1076 main_v1077 main_v1078 (addi : (⟨S32x1, .i32⟩ : BufTy).Contents (Elt F) → (⟨S32x1, .i32⟩ : BufTy).Contents (Elt F) → (⟨S32x1, .i32⟩ : BufTy).Contents (Elt F))
  :: StableHlo.nullary main_v1079 (iotaInDim S4 32 0)
  :: StableHlo.unary main_v1079 main_v1080 (broadcastInDim S1x4 ![1] bcast_S4_S1x4_1 : (⟨S4, .i32⟩ : BufTy).Contents (Elt F) → (⟨S1x4, .i32⟩ : BufTy).Contents (Elt F))
  :: StableHlo.unary main_v1078 main_v1081 (broadcastInDim S32x4 ![0, 1] bcast_S32x1_S32x4_0_1 : (⟨S32x1, .i32⟩ : BufTy).Contents (Elt F) → (⟨S32x4, .i32⟩ : BufTy).Contents (Elt F))
  :: StableHlo.unary main_v1080 main_v1082 (broadcastInDim S32x4 ![0, 1] bcast_S1x4_S32x4_0_1 : (⟨S1x4, .i32⟩ : BufTy).Contents (Elt F) → (⟨S32x4, .i32⟩ : BufTy).Contents (Elt F))
  :: StableHlo.binary main_v1081 main_v1082 main_v1083 (addi : (⟨S32x4, .i32⟩ : BufTy).Contents (Elt F) → (⟨S32x4, .i32⟩ : BufTy).Contents (Elt F) → (⟨S32x4, .i32⟩ : BufTy).Contents (Elt F))
  :: StableHlo.reshape main_v1083 main_v1084 rfl shapeCasts_S32x4_S128
  :: StableHlo.nullary main_c_255 (constantI S_ 32 0#32)
  :: StableHlo.unary main_c_255 main_v1085 (broadcastInDim S128 ![] bcast_S_S128 : (⟨S_, .i32⟩ : BufTy).Contents (Elt F) → (⟨S128, .i32⟩ : BufTy).Contents (Elt F))
  :: StableHlo.binary main_v1084 main_v1085 main_v1086 (cmpi .slt : (⟨S128, .i32⟩ : BufTy).Contents (Elt F) → (⟨S128, .i32⟩ : BufTy).Contents (Elt F) → (⟨S128, .i1⟩ : BufTy).Contents (Elt F))
  :: StableHlo.nullary main_c_256 (constantI S_ 32 131040#32)
  :: StableHlo.unary main_c_256 main_v1087 (broadcastInDim S128 ![] bcast_S_S128 : (⟨S_, .i32⟩ : BufTy).Contents (Elt F) → (⟨S128, .i32⟩ : BufTy).Contents (Elt F))
  :: StableHlo.binary main_v1084 main_v1087 main_v1088 (addi : (⟨S128, .i32⟩ : BufTy).Contents (Elt F) → (⟨S128, .i32⟩ : BufTy).Contents (Elt F) → (⟨S128, .i32⟩ : BufTy).Contents (Elt F))
  :: StableHlo.ternary main_v1086 main_v1088 main_v1084 main_v1089 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1089 main_v1090 (broadcastInDim S128x1 ![0] bcast_S128_S128x1_0 : (⟨S128, .i32⟩ : BufTy).Contents (Elt F) → (⟨S128x1, .i32⟩ : BufTy).Contents (Elt F))
  :: StableHlo.binary main_v1052 main_v1090 main_v1091 ((fun x i => Host.gather gather_S131040x256_S128x1_S128x256_1_0_n_n_0_1_1256 x i) : (⟨S131040x256, .f32⟩ : BufTy).Contents (Elt F) → (⟨S128x1, .i32⟩ : BufTy).Contents (Elt F) → (⟨S128x256, .f32⟩ : BufTy).Contents (Elt F))
  :: StableHlo.nullary main_c_257 (constantI S_ 32 0#32)
  :: StableHlo.unary main_c_257 main_v1092 (broadcastInDim S128 ![] bcast_S_S128 : (⟨S_, .i32⟩ : BufTy).Contents (Elt F) → (⟨S128, .i32⟩ : BufTy).Contents (Elt F))
  :: StableHlo.binary main_v1084 main_v1092 main_v1093 (cmpi .slt : (⟨S128, .i32⟩ : BufTy).Contents (Elt F) → (⟨S128, .i32⟩ : BufTy).Contents (Elt F) → (⟨S128, .i1⟩ : BufTy).Contents (Elt F))
  :: StableHlo.nullary main_c_258 (constantI S_ 32 131040#32)
  :: StableHlo.unary main_c_258 main_v1094 (broadcastInDim S128 ![] bcast_S_S128 : (⟨S_, .i32⟩ : BufTy).Contents (Elt F) → (⟨S128, .i32⟩ : BufTy).Contents (Elt F))
  :: StableHlo.binary main_v1084 main_v1094 main_v1095 (addi : (⟨S128, .i32⟩ : BufTy).Contents (Elt F) → (⟨S128, .i32⟩ : BufTy).Contents (Elt F) → (⟨S128, .i32⟩ : BufTy).Contents (Elt F))
  :: StableHlo.ternary main_v1093 main_v1095 main_v1084 main_v1096 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1096 main_v1097 (broadcastInDim S128x1 ![0] bcast_S128_S128x1_0 : (⟨S128, .i32⟩ : BufTy).Contents (Elt F) → (⟨S128x1, .i32⟩ : BufTy).Contents (Elt F))
  :: StableHlo.binary main_v1059 main_v1097 main_v1098 ((fun x i => Host.gather gather_S131040x256_S128x1_S128x256_1_0_n_n_0_1_1256 x i) : (⟨S131040x256, .f32⟩ : BufTy).Contents (Elt F) → (⟨S128x1, .i32⟩ : BufTy).Contents (Elt F) → (⟨S128x256, .f32⟩ : BufTy).Contents (Elt F))
  :: StableHlo.nullary main_c_259 (constantI S_ 32 0#32)
  :: StableHlo.unary main_c_259 main_v1099 (broadcastInDim S128 ![] bcast_S_S128 : (⟨S_, .i32⟩ : BufTy).Contents (Elt F) → (⟨S128, .i32⟩ : BufTy).Contents (Elt F))
  :: StableHlo.binary main_v1084 main_v1099 main_v1100 (cmpi .slt : (⟨S128, .i32⟩ : BufTy).Contents (Elt F) → (⟨S128, .i32⟩ : BufTy).Contents (Elt F) → (⟨S128, .i1⟩ : BufTy).Contents (Elt F))
  :: StableHlo.nullary main_c_260 (constantI S_ 32 131040#32)
  :: StableHlo.unary main_c_260 main_v1101 (broadcastInDim S128 ![] bcast_S_S128 : (⟨S_, .i32⟩ : BufTy).Contents (Elt F) → (⟨S128, .i32⟩ : BufTy).Contents (Elt F))
  :: StableHlo.binary main_v1084 main_v1101 main_v1102 (addi : (⟨S128, .i32⟩ : BufTy).Contents (Elt F) → (⟨S128, .i32⟩ : BufTy).Contents (Elt F) → (⟨S128, .i32⟩ : BufTy).Contents (Elt F))
  :: StableHlo.ternary main_v1100 main_v1102 main_v1084 main_v1103 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1103 main_v1104 (broadcastInDim S128x1 ![0] bcast_S128_S128x1_0 : (⟨S128, .i32⟩ : BufTy).Contents (Elt F) → (⟨S128x1, .i32⟩ : BufTy).Contents (Elt F))
  :: StableHlo.binary main_arg1 main_v1104 main_v1105 ((fun x i => Host.gather gather_S131040_S128x1_S128_n_0_n_n_0_1_1 x i) : (⟨S131040, .i32⟩ : BufTy).Contents (Elt F) → (⟨S128x1, .i32⟩ : BufTy).Contents (Elt F) → (⟨S128, .i32⟩ : BufTy).Contents (Elt F))
  :: StableHlo.nullary main_c_261 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_36_sub : (hostOps0_36 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_25 (main_call18), in order. -/
abbrev hostOps0_37 : List (HloOp τ sig (Elt F)) :=
  [ StableHlo.TRef.unary (.of main_c_261 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S128, .i32⟩) (broadcastInDim S128 ![] bcast_S_S128),
    StableHlo.TRef.binary (.of main_v1105 : StableHlo.TRef sig ⟨S128, .i32⟩) (.of main_call18_v1 : StableHlo.TRef sig ⟨S128, .i32⟩) (.of main_call18_v2 : StableHlo.TRef sig ⟨S128, .i32⟩) Host.divsi,
    StableHlo.TRef.unary (.of main_v1105 : StableHlo.TRef sig ⟨S128, .i32⟩) (.of main_call18_v3 : StableHlo.TRef sig ⟨S128, .i32⟩) signi,
    StableHlo.TRef.unary (.of main_call18_v0 : StableHlo.TRef sig ⟨S_, .i32⟩) (.of main_call18_v4 : StableHlo.TRef sig ⟨S_, .i32⟩) signi,
    StableHlo.TRef.unary (.of main_call18_v4 : StableHlo.TRef sig ⟨S_, .i32⟩) (.of main_call18_v5 : StableHlo.TRef sig ⟨S128, .i32⟩) (broadcastInDim S128 ![] bcast_S_S128),
    StableHlo.TRef.binary (.of main_call18_v3 : StableHlo.TRef sig ⟨S128, .i32⟩) (.of main_call18_v5 : StableHlo.TRef sig ⟨S128, .i32⟩) (.of main_call18_v6 : StableHlo.TRef sig ⟨S128, .i1⟩) (cmpi .ne),
    StableHlo.TRef.unary (.of main_call18_v0 : StableHlo.TRef sig ⟨S_, .i32⟩) (.of main_call18_v7 : StableHlo.TRef sig ⟨S128, .i32⟩) (broadcastInDim S128 ![] bcast_S_S128),
    StableHlo.TRef.binary (.of main_v1105 : StableHlo.TRef sig ⟨S128, .i32⟩) (.of main_call18_v7 : StableHlo.TRef sig ⟨S128, .i32⟩) (.of main_call18_v8 : StableHlo.TRef sig ⟨S128, .i32⟩) Host.remsi,
    StableHlo.TRef.nullary (.of main_call18_c : StableHlo.TRef sig ⟨S_, .i32⟩) (constantI S_ 32 0#32),
    StableHlo.TRef.unary (.of main_call18_c : StableHlo.TRef sig ⟨S_, .i32⟩) (.of main_call18_v9 : StableHlo.TRef sig ⟨S128, .i32⟩) (broadcastInDim S128 ![] bcast_S_S128),
    StableHlo.TRef.binary (.of main_call18_v8 : StableHlo.TRef sig ⟨S128, .i32⟩) (.of main_call18_v9 : StableHlo.TRef sig ⟨S128, .i32⟩) (.of main_call18_v10 : StableHlo.TRef sig ⟨S128, .i1⟩) (cmpi .ne),
    StableHlo.TRef.binary (.of main_call18_v6 : StableHlo.TRef sig ⟨S128, .i1⟩) (.of main_call18_v10 : StableHlo.TRef sig ⟨S128, .i1⟩) (.of main_call18_v11 : StableHlo.TRef sig ⟨S128, .i1⟩) andi,
    StableHlo.TRef.nullary (.of main_call18_c_0 : StableHlo.TRef sig ⟨S_, .i32⟩) (constantI S_ 32 1#32),
    StableHlo.TRef.unary (.of main_call18_c_0 : StableHlo.TRef sig ⟨S_, .i32⟩) (.of main_call18_v12 : StableHlo.TRef sig ⟨S128, .i32⟩) (broadcastInDim S128 ![] bcast_S_S128),
    StableHlo.TRef.binary (.of main_call18_v2 : StableHlo.TRef sig ⟨S128, .i32⟩) (.of main_call18_v12 : StableHlo.TRef sig ⟨S128, .i32⟩) (.of main_call18_v13 : StableHlo.TRef sig ⟨S128, .i32⟩) subi,
    StableHlo.TRef.ternary (.of main_call18_v11 : StableHlo.TRef sig ⟨S128, .i1⟩) (.of main_call18_v13 : StableHlo.TRef sig ⟨S128, .i32⟩) (.of main_call18_v2 : StableHlo.TRef sig ⟨S128, .i32⟩) (.of main_v1106 : StableHlo.TRef sig ⟨S128, .i32⟩) select ]
/-- Each touches TensorCore references only (`HostSeg.ofOps` over `StableHlo.tcRefs`, or a subset by `sub_ucRefs`). -/
theorem hostOps0_37_sub : (hostOps0_37 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_38 : List (HloOp τ sig (Elt F)) :=
  [ StableHlo.nullary main_c_262 (constantI S_ 32 2#32),
    StableHlo.unary main_c_262 main_v1107 (broadcastInDim S128 ![] bcast_S_S128 : (⟨S_, .i32⟩ : BufTy).Contents (Elt F) → (⟨S128, .i32⟩ : BufTy).Contents (Elt F)),
    StableHlo.binary main_v1106 main_v1107 main_v1108 (muli : (⟨S128, .i32⟩ : BufTy).Contents (Elt F) → (⟨S128, .i32⟩ : BufTy).Contents (Elt F) → (⟨S128, .i32⟩ : BufTy).Contents (Elt F)),
    StableHlo.nullary main_c_263 (constantI S_ 32 4095#32) ]
/-- Each touches TensorCore references only (`HostSeg.ofOps` over `StableHlo.tcRefs`, or a subset by `sub_ucRefs`). -/
theorem hostOps0_38_sub : (hostOps0_38 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_27 (main_call19), in order. -/
abbrev hostOps0_39 : List (HloOp τ sig (Elt F)) :=
  [ StableHlo.TRef.unary (.of main_c_263 : StableHlo.TRef sig ⟨S_, .i32⟩) (.of main_call19_v0 : StableHlo.TRef sig ⟨S_, .i32⟩) id,
    StableHlo.TRef.nullary (.of main_call19_c : StableHlo.TRef sig ⟨S_, .i32⟩) (constantI S_ 32 0#32),
    StableHlo.TRef.binary (.of main_call19_v0 : StableHlo.TRef sig ⟨S_, .i32⟩) (.of main_call19_c : StableHlo.TRef sig ⟨S_, .i32⟩) (.of main_call19_v1 : StableHlo.TRef sig ⟨S_, .i1⟩) (cmpi .eq),
    StableHlo.TRef.nullary (.of main_call19_c_0 : StableHlo.TRef sig ⟨S_, .i32⟩) (constantI S_ 32 1#32),
    StableHlo.TRef.ternary (.of main_call19_v1 : StableHlo.TRef sig ⟨S_, .i1⟩) (.of main_call19_c_0 : StableHlo.TRef sig ⟨S_, .i32⟩) (.of main_call19_v0 : StableHlo.TRef sig ⟨S_, .i32⟩) (.of main_call19_v2 : StableHlo.TRef sig ⟨S_, .i32⟩) select,
    StableHlo.TRef.unary main_call19_call0.v0 (.of main_call19_v3 : StableHlo.TRef sig ⟨S128, .i32⟩) (broadcastInDim S128 ![] bcast_S_S128),
    StableHlo.TRef.binary (.of main_v1105 : StableHlo.TRef sig ⟨S128, .i32⟩) (.of main_call19_v3 : StableHlo.TRef sig ⟨S128, .i32⟩) (.of main_call19_v4 : StableHlo.TRef sig ⟨S128, .i32⟩) Host.remsi,
    StableHlo.TRef.nullary (.of main_call19_c_1 : StableHlo.TRef sig ⟨S_, .i32⟩) (constantI S_ 32 0#32),
    StableHlo.TRef.unary (.of main_call19_c_1 : StableHlo.TRef sig ⟨S_, .i32⟩) (.of main_call19_v5 : StableHlo.TRef sig ⟨S128, .i32⟩) (broadcastInDim S128 ![] bcast_S_S128),
    StableHlo.TRef.binary (.of main_call19_v4 : StableHlo.TRef sig ⟨S128, .i32⟩) (.of main_call19_v5 : StableHlo.TRef sig ⟨S128, .i32⟩) (.of main_call19_v6 : StableHlo.TRef sig ⟨S128, .i1⟩) (cmpi .ne),
    StableHlo.TRef.nullary (.of main_call19_c_2 : StableHlo.TRef sig ⟨S_, .i32⟩) (constantI S_ 32 0#32),
    StableHlo.TRef.unary (.of main_call19_c_2 : StableHlo.TRef sig ⟨S_, .i32⟩) (.of main_call19_v7 : StableHlo.TRef sig ⟨S128, .i32⟩) (broadcastInDim S128 ![] bcast_S_S128),
    StableHlo.TRef.binary (.of main_call19_v4 : StableHlo.TRef sig ⟨S128, .i32⟩) (.of main_call19_v7 : StableHlo.TRef sig ⟨S128, .i32⟩) (.of main_call19_v8 : StableHlo.TRef sig ⟨S128, .i1⟩) (cmpi .slt),
    StableHlo.TRef.nullary (.of main_call19_c_3 : StableHlo.TRef sig ⟨S_, .i32⟩) (constantI S_ 32 0#32),
    StableHlo.TRef.binary main_call19_call0.v0 (.of main_call19_c_3 : StableHlo.TRef sig ⟨S_, .i32⟩) (.of main_call19_v9 : StableHlo.TRef sig ⟨S_, .i1⟩) (cmpi .slt),
    StableHlo.TRef.unary (.of main_call19_v9 : StableHlo.TRef sig ⟨S_, .i1⟩) (.of main_call19_v10 : StableHlo.TRef sig ⟨S128, .i1⟩) (broadcastInDim S128 ![] bcast_S_S128),
    StableHlo.TRef.binary (.of main_call19_v8 : StableHlo.TRef sig ⟨S128, .i1⟩) (.of main_call19_v10 : StableHlo.TRef sig ⟨S128, .i1⟩) (.of main_call19_v11 : StableHlo.TRef sig ⟨S128, .i1⟩) (cmpi .ne),
    StableHlo.TRef.binary (.of main_call19_v11 : StableHlo.TRef sig ⟨S128, .i1⟩) (.of main_call19_v6 : StableHlo.TRef sig ⟨S128, .i1⟩) (.of main_call19_v12 : StableHlo.TRef sig ⟨S128, .i1⟩) andi,
    StableHlo.TRef.unary main_call19_call0.v0 (.of main_call19_v13 : StableHlo.TRef sig ⟨S128, .i32⟩) (broadcastInDim S128 ![] bcast_S_S128),
    StableHlo.TRef.binary (.of main_call19_v4 : StableHlo.TRef sig ⟨S128, .i32⟩) (.of main_call19_v13 : StableHlo.TRef sig ⟨S128, .i32⟩) (.of main_call19_v14 : StableHlo.TRef sig ⟨S128, .i32⟩) addi,
    StableHlo.TRef.ternary (.of main_call19_v12 : StableHlo.TRef sig ⟨S128, .i1⟩) (.of main_call19_v14 : StableHlo.TRef sig ⟨S128, .i32⟩) (.of main_call19_v4 : StableHlo.TRef sig ⟨S128, .i32⟩) (.of main_v1109 : StableHlo.TRef sig ⟨S128, .i32⟩) select ]
/-- Each touches TensorCore references only (`HostSeg.ofOps` over `StableHlo.tcRefs`, or a subset by `sub_ucRefs`). -/
theorem hostOps0_39_sub : (hostOps0_39 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 129 host operations of @main, in order. -/
abbrev hostOps0_40 : List (HloOp τ sig (Elt F)) :=
  ( StableHlo.nullary main_c_264 (constantI S_ 32 1#32)
  :: StableHlo.unary main_c_264 main_v1110 (broadcastInDim S128 ![] bcast_S_S128 : (⟨S_, .i32⟩ : BufTy).Contents (Elt F) → (⟨S128, .i32⟩ : BufTy).Contents (Elt F))
  :: StableHlo.binary main_v1109 main_v1110 main_v1111 (subi : (⟨S128, .i32⟩ : BufTy).Contents (Elt F) → (⟨S128, .i32⟩ : BufTy).Contents (Elt F) → (⟨S128, .i32⟩ : BufTy).Contents (Elt F))
  :: StableHlo.binary main_v1108 main_v1111 main_v1112 (addi : (⟨S128, .i32⟩ : BufTy).Contents (Elt F) → (⟨S128, .i32⟩ : BufTy).Contents (Elt F) → (⟨S128, .i32⟩ : BufTy).Contents (Elt F))
  :: StableHlo.unary main_arg6 main_v1113 ((transpose S256x256 [1, 0] · transposes_S256x256_S256x256_1_0) : (⟨S256x256, .f32⟩ : BufTy).Contents (Elt F) → (⟨S256x256, .f32⟩ : BufTy).Contents (Elt F))
  :: StableHlo.binary main_v1091 main_v1113 main_v1114 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F))
  :: StableHlo.unary main_arg7 main_v1115 (broadcastInDim S1x256 ![1] bcast_S256_S1x256_1 : (⟨S256, .f32⟩ : BufTy).Contents (Elt F) → (⟨S1x256, .f32⟩ : BufTy).Contents (Elt F))
  :: StableHlo.unary main_v1115 main_v1116 (broadcastInDim S128x256 ![0, 1] bcast_S1x256_S128x256_0_1 : (⟨S1x256, .f32⟩ : BufTy).Contents (Elt F) → (⟨S128x256, .f32⟩ : BufTy).Contents (Elt F))
  :: StableHlo.binary main_v1114 main_v1116 main_v1117 (addf : (⟨S128x256, .f32⟩ : BufTy).Contents (Elt F) → (⟨S128x256, .f32⟩ : BufTy).Contents (Elt F) → (⟨S128x256, .f32⟩ : BufTy).Contents (Elt F))
  :: StableHlo.unary main_v1117 main_v1118 (Host.negf : (⟨S128x256, .f32⟩ : BufTy).Contents (Elt F) → (⟨S128x256, .f32⟩ : BufTy).Contents (Elt F))
  :: StableHlo.unary main_v1118 main_v1119 (Host.exp : (⟨S128x256, .f32⟩ : BufTy).Contents (Elt F) → (⟨S128x256, .f32⟩ : BufTy).Contents (Elt F))
  :: StableHlo.nullary main_cst_265 (constant S_ .f32 0x3F800000#32)
  :: StableHlo.unary main_cst_265 main_v1120 (broadcastInDim S128x256 ![] bcast_S_S128x256 : (⟨S_, .f32⟩ : BufTy).Contents (Elt F) → (⟨S128x256, .f32⟩ : BufTy).Contents (Elt F))
  :: StableHlo.binary main_v1120 main_v1119 main_v1121 (addf : (⟨S128x256, .f32⟩ : BufTy).Contents (Elt F) → (⟨S128x256, .f32⟩ : BufTy).Contents (Elt F) → (⟨S128x256, .f32⟩ : BufTy).Contents (Elt F))
  :: StableHlo.nullary main_cst_266 (constant S_ .f32 0x3F800000#32)
  :: StableHlo.unary main_cst_266 main_v1122 (broadcastInDim S128x256 ![] bcast_S_S128x256 : (⟨S_, .f32⟩ : BufTy).Contents (Elt F) → (⟨S128x256, .f32⟩ : BufTy).Contents (Elt F))
  :: StableHlo.binary main_v1122 main_v1121 main_v1123 (Host.divf : (⟨S128x256, .f32⟩ : BufTy).Contents (Elt F) → (⟨S128x256, .f32⟩ : BufTy).Contents (Elt F) → (⟨S128x256, .f32⟩ : BufTy).Contents (Elt F))
  :: StableHlo.nullary main_cst_267 (constant S_ .f32 0x00000000#32)
  :: StableHlo.unary main_cst_267 main_v1124 (broadcastInDim S64x256 ![] bcast_S_S64x256 : (⟨S_, .f32⟩ : BufTy).Contents (Elt F) → (⟨S64x256, .f32⟩ : BufTy).Contents (Elt F))
  :: StableHlo.unary main_v1112 main_v1125 (broadcastInDim S128x1 ![0] bcast_S128_S128x1_0 : (⟨S128, .i32⟩ : BufTy).Contents (Elt F) → (⟨S128x1, .i32⟩ : BufTy).Contents (Elt F))
  :: StableHlo.ternary main_v1124 main_v1125 main_v1091 main_v1126 ((fun x i u => Host.scatterAdd scatter_S64x256_S128x1_S128x256_1_0_0_1 x i u) : (⟨S64x256, .f32⟩ : BufTy).Contents (Elt F) → (⟨S128x1, .i32⟩ : BufTy).Contents (Elt F) → (⟨S128x256, .f32⟩ : BufTy).Contents (Elt F) → (⟨S64x256, .f32⟩ : BufTy).Contents (Elt F))
  :: StableHlo.binary main_v1123 main_v1098 main_v1127 (mulf : (⟨S128x256, .f32⟩ : BufTy).Contents (Elt F) → (⟨S128x256, .f32⟩ : BufTy).Contents (Elt F) → (⟨S128x256, .f32⟩ : BufTy).Contents (Elt F))
  :: StableHlo.nullary main_cst_268 (constant S_ .f32 0x00000000#32)
  :: StableHlo.unary main_cst_268 main_v1128 (broadcastInDim S64x256 ![] bcast_S_S64x256 : (⟨S_, .f32⟩ : BufTy).Contents (Elt F) → (⟨S64x256, .f32⟩ : BufTy).Contents (Elt F))
  :: StableHlo.unary main_v1112 main_v1129 (broadcastInDim S128x1 ![0] bcast_S128_S128x1_0 : (⟨S128, .i32⟩ : BufTy).Contents (Elt F) → (⟨S128x1, .i32⟩ : BufTy).Contents (Elt F))
  :: StableHlo.ternary main_v1128 main_v1129 main_v1127 main_v1130 ((fun x i u => Host.scatterAdd scatter_S64x256_S128x1_S128x256_1_0_0_1 x i u) : (⟨S64x256, .f32⟩ : BufTy).Contents (Elt F) → (⟨S128x1, .i32⟩ : BufTy).Contents (Elt F) → (⟨S128x256, .f32⟩ : BufTy).Contents (Elt F) → (⟨S64x256, .f32⟩ : BufTy).Contents (Elt F))
  :: StableHlo.unary main_arg4 main_v1131 ((transpose S256x768 [1, 0] · transposes_S768x256_S256x768_1_0) : (⟨S768x256, .f32⟩ : BufTy).Contents (Elt F) → (⟨S256x768, .f32⟩ : BufTy).Contents (Elt F))
  :: StableHlo.binary main_v1126 main_v1131 main_v1132 ((fun l r => Host.dotGeneral dot_S64x256_S256x768_S64x768_1_0_0_1_n_n none l r) : (⟨S64x256, .f32⟩ : BufTy).Contents (Elt F) → (⟨S256x768, .f32⟩ : BufTy).Contents (Elt F) → (⟨S64x768, .f32⟩ : BufTy).Contents (Elt F))
  :: StableHlo.binary main_v1075 main_v1132 main_v1133 (addf : (⟨S64x768, .f32⟩ : BufTy).Contents (Elt F) → (⟨S64x768, .f32⟩ : BufTy).Contents (Elt F) → (⟨S64x768, .f32⟩ : BufTy).Contents (Elt F))
  :: StableHlo.unary main_arg5 main_v1134 (broadcastInDim S64x768 ![0, 1] bcast_S1x768_S64x768_0_1 : (⟨S1x768, .f32⟩ : BufTy).Contents (Elt F) → (⟨S64x768, .f32⟩ : BufTy).Contents (Elt F))
  :: StableHlo.binary main_v1133 main_v1134 main_v1135 (addf : (⟨S64x768, .f32⟩ : BufTy).Contents (Elt F) → (⟨S64x768, .f32⟩ : BufTy).Contents (Elt F) → (⟨S64x768, .f32⟩ : BufTy).Contents (Elt F))
  :: StableHlo.unary main_v1135 main_v1136 ((extractStridedSlice S64x256 ![0, 0] · slices_S64x768_S64x256_0_0) : (⟨S64x768, .f32⟩ : BufTy).Contents (Elt F) → (⟨S64x256, .f32⟩ : BufTy).Contents (Elt F))
  :: StableHlo.unary main_v1135 main_v1137 ((extractStridedSlice S64x256 ![0, 256] · slices_S64x768_S64x256_0_256) : (⟨S64x768, .f32⟩ : BufTy).Contents (Elt F) → (⟨S64x256, .f32⟩ : BufTy).Contents (Elt F))
  :: StableHlo.unary main_v1135 main_v1138 ((extractStridedSlice S64x256 ![0, 512] · slices_S64x768_S64x256_0_512) : (⟨S64x768, .f32⟩ : BufTy).Contents (Elt F) → (⟨S64x256, .f32⟩ : BufTy).Contents (Elt F))
  :: StableHlo.unary main_v1136 main_v1139 (Host.negf : (⟨S64x256, .f32⟩ : BufTy).Contents (Elt F) → (⟨S64x256, .f32⟩ : BufTy).Contents (Elt F))
  :: StableHlo.unary main_v1139 main_v1140 (Host.exp : (⟨S64x256, .f32⟩ : BufTy).Contents (Elt F) → (⟨S64x256, .f32⟩ : BufTy).Contents (Elt F))
  :: StableHlo.nullary main_cst_269 (constant S_ .f32 0x3F800000#32)
  :: StableHlo.unary main_cst_269 main_v1141 (broadcastInDim S64x256 ![] bcast_S_S64x256 : (⟨S_, .f32⟩ : BufTy).Contents (Elt F) → (⟨S64x256, .f32⟩ : BufTy).Contents (Elt F))
  :: StableHlo.binary main_v1141 main_v1140 main_v1142 (addf : (⟨S64x256, .f32⟩ : BufTy).Contents (Elt F) → (⟨S64x256, .f32⟩ : BufTy).Contents (Elt F) → (⟨S64x256, .f32⟩ : BufTy).Contents (Elt F))
  :: StableHlo.nullary main_cst_270 (constant S_ .f32 0x3F800000#32)
  :: StableHlo.unary main_cst_270 main_v1143 (broadcastInDim S64x256 ![] bcast_S_S64x256 : (⟨S_, .f32⟩ : BufTy).Contents (Elt F) → (⟨S64x256, .f32⟩ : BufTy).Contents (Elt F))
  :: StableHlo.binary main_v1143 main_v1142 main_v1144 (Host.divf : (⟨S64x256, .f32⟩ : BufTy).Contents (Elt F) → (⟨S64x256, .f32⟩ : BufTy).Contents (Elt F) → (⟨S64x256, .f32⟩ : BufTy).Contents (Elt F))
  :: StableHlo.unary main_v1138 main_v1145 (Host.tanh : (⟨S64x256, .f32⟩ : BufTy).Contents (Elt F) → (⟨S64x256, .f32⟩ : BufTy).Contents (Elt F))
  :: StableHlo.binary main_v1144 main_v1145 main_v1146 (mulf : (⟨S64x256, .f32⟩ : BufTy).Contents (Elt F) → (⟨S64x256, .f32⟩ : BufTy).Contents (Elt F) → (⟨S64x256, .f32⟩ : BufTy).Contents (Elt F))
  :: StableHlo.binary main_v1146 main_v1130 main_v1147 (addf : (⟨S64x256, .f32⟩ : BufTy).Contents (Elt F) → (⟨S64x256, .f32⟩ : BufTy).Contents (Elt F) → (⟨S64x256, .f32⟩ : BufTy).Contents (Elt F))
  :: StableHlo.unary main_v1137 main_v1148 (Host.negf : (⟨S64x256, .f32⟩ : BufTy).Contents (Elt F) → (⟨S64x256, .f32⟩ : BufTy).Contents (Elt F))
  :: StableHlo.unary main_v1148 main_v1149 (Host.exp : (⟨S64x256, .f32⟩ : BufTy).Contents (Elt F) → (⟨S64x256, .f32⟩ : BufTy).Contents (Elt F))
  :: StableHlo.nullary main_cst_271 (constant S_ .f32 0x3F800000#32)
  :: StableHlo.unary main_cst_271 main_v1150 (broadcastInDim S64x256 ![] bcast_S_S64x256 : (⟨S_, .f32⟩ : BufTy).Contents (Elt F) → (⟨S64x256, .f32⟩ : BufTy).Contents (Elt F))
  :: StableHlo.binary main_v1150 main_v1149 main_v1151 (addf : (⟨S64x256, .f32⟩ : BufTy).Contents (Elt F) → (⟨S64x256, .f32⟩ : BufTy).Contents (Elt F) → (⟨S64x256, .f32⟩ : BufTy).Contents (Elt F))
  :: StableHlo.nullary main_cst_272 (constant S_ .f32 0x3F800000#32)
  :: StableHlo.unary main_cst_272 main_v1152 (broadcastInDim S64x256 ![] bcast_S_S64x256 : (⟨S_, .f32⟩ : BufTy).Contents (Elt F) → (⟨S64x256, .f32⟩ : BufTy).Contents (Elt F))
  :: StableHlo.binary main_v1152 main_v1151 main_v1153 (Host.divf : (⟨S64x256, .f32⟩ : BufTy).Contents (Elt F) → (⟨S64x256, .f32⟩ : BufTy).Contents (Elt F) → (⟨S64x256, .f32⟩ : BufTy).Contents (Elt F))
  :: StableHlo.unary main_v1147 main_v1154 (Host.tanh : (⟨S64x256, .f32⟩ : BufTy).Contents (Elt F) → (⟨S64x256, .f32⟩ : BufTy).Contents (Elt F))
  :: StableHlo.binary main_v1153 main_v1154 main_v1155 (mulf : (⟨S64x256, .f32⟩ : BufTy).Contents (Elt F) → (⟨S64x256, .f32⟩ : BufTy).Contents (Elt F) → (⟨S64x256, .f32⟩ : BufTy).Contents (Elt F))
  :: StableHlo.nullary main_c_273 (constantI S_ 32 0#32)
  :: StableHlo.unary main_c_273 main_v1156 (broadcastInDim S64 ![] bcast_S_S64 : (⟨S_, .i32⟩ : BufTy).Contents (Elt F) → (⟨S64, .i32⟩ : BufTy).Contents (Elt F))
  :: StableHlo.binary main_v1068 main_v1156 main_v1157 (cmpi .slt : (⟨S64, .i32⟩ : BufTy).Contents (Elt F) → (⟨S64, .i32⟩ : BufTy).Contents (Elt F) → (⟨S64, .i1⟩ : BufTy).Contents (Elt F))
  :: StableHlo.nullary main_c_274 (constantI S_ 32 131040#32)
  :: StableHlo.unary main_c_274 main_v1158 (broadcastInDim S64 ![] bcast_S_S64 : (⟨S_, .i32⟩ : BufTy).Contents (Elt F) → (⟨S64, .i32⟩ : BufTy).Contents (Elt F))
  :: StableHlo.binary main_v1068 main_v1158 main_v1159 (addi : (⟨S64, .i32⟩ : BufTy).Contents (Elt F) → (⟨S64, .i32⟩ : BufTy).Contents (Elt F) → (⟨S64, .i32⟩ : BufTy).Contents (Elt F))
  :: StableHlo.ternary main_v1157 main_v1159 main_v1068 main_v1160 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1160 main_v1161 (broadcastInDim S64x1 ![0] bcast_S64_S64x1_0 : (⟨S64, .i32⟩ : BufTy).Contents (Elt F) → (⟨S64x1, .i32⟩ : BufTy).Contents (Elt F))
  :: StableHlo.ternary main_v1052 main_v1161 main_v1155 main_v1162 ((fun x i u => Host.scatter scatter_S131040x256_S64x1_S64x256_1_0_0_1 (fun _ b => b) x i u) : (⟨S131040x256, .f32⟩ : BufTy).Contents (Elt F) → (⟨S64x1, .i32⟩ : BufTy).Contents (Elt F) → (⟨S64x256, .f32⟩ : BufTy).Contents (Elt F) → (⟨S131040x256, .f32⟩ : BufTy).Contents (Elt F))
  :: StableHlo.nullary main_c_275 (constantI S_ 32 0#32)
  :: StableHlo.unary main_c_275 main_v1163 (broadcastInDim S64 ![] bcast_S_S64 : (⟨S_, .i32⟩ : BufTy).Contents (Elt F) → (⟨S64, .i32⟩ : BufTy).Contents (Elt F))
  :: StableHlo.binary main_v1068 main_v1163 main_v1164 (cmpi .slt : (⟨S64, .i32⟩ : BufTy).Contents (Elt F) → (⟨S64, .i32⟩ : BufTy).Contents (Elt F) → (⟨S64, .i1⟩ : BufTy).Contents (Elt F))
  :: StableHlo.nullary main_c_276 (constantI S_ 32 131040#32)
  :: StableHlo.unary main_c_276 main_v1165 (broadcastInDim S64 ![] bcast_S_S64 : (⟨S_, .i32⟩ : BufTy).Contents (Elt F) → (⟨S64, .i32⟩ : BufTy).Contents (Elt F))
  :: StableHlo.binary main_v1068 main_v1165 main_v1166 (addi : (⟨S64, .i32⟩ : BufTy).Contents (Elt F) → (⟨S64, .i32⟩ : BufTy).Contents (Elt F) → (⟨S64, .i32⟩ : BufTy).Contents (Elt F))
  :: StableHlo.ternary main_v1164 main_v1166 main_v1068 main_v1167 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1167 main_v1168 (broadcastInDim S64x1 ![0] bcast_S64_S64x1_0 : (⟨S64, .i32⟩ : BufTy).Contents (Elt F) → (⟨S64x1, .i32⟩ : BufTy).Contents (Elt F))
  :: StableHlo.ternary main_v1059 main_v1168 main_v1147 main_v1169 ((fun x i u => Host.scatter scatter_S131040x256_S64x1_S64x256_1_0_0_1 (fun _ b => b) x i u) : (⟨S131040x256, .f32⟩ : BufTy).Contents (Elt F) → (⟨S64x1, .i32⟩ : BufTy).Contents (Elt F) → (⟨S64x256, .f32⟩ : BufTy).Contents (Elt F) → (⟨S131040x256, .f32⟩ : BufTy).Contents (Elt F))
  :: StableHlo.unary main_v16 main_v1170 (broadcastInDim S32x1 ![0] bcast_S32_S32x1_0 : (⟨S32, .i32⟩ : BufTy).Contents (Elt F) → (⟨S32x1, .i32⟩ : BufTy).Contents (Elt F))
  :: StableHlo.nullary main_c_277 (constantI S_ 32 0#32)
  :: StableHlo.unary main_c_277 main_v1171 (broadcastInDim S32x1 ![] bcast_S_S32x1 : (⟨S_, .i32⟩ : BufTy).Contents (Elt F) → (⟨S32x1, .i32⟩ : BufTy).Contents (Elt F))
  :: StableHlo.binary main_v1170 main_v1171 main_v1172 (addi : (⟨S32x1, .i32⟩ : BufTy).Contents (Elt F) → (⟨S32x1, .i32⟩ : BufTy).Contents (Elt F) → (⟨S32x1, .i32⟩ : BufTy).Contents (Elt F))
  :: StableHlo.nullary main_v1173 (iotaInDim S1 32 0)
  :: StableHlo.unary main_v1173 main_v1174 (broadcastInDim S1x1 ![1] bcast_S1_S1x1_1 : (⟨S1, .i32⟩ : BufTy).Contents (Elt F) → (⟨S1x1, .i32⟩ : BufTy).Contents (Elt F))
  :: StableHlo.unary main_v1174 main_v1175 (broadcastInDim S32x1 ![0, 1] bcast_S1x1_S32x1_0_1 : (⟨S1x1, .i32⟩ : BufTy).Contents (Elt F) → (⟨S32x1, .i32⟩ : BufTy).Contents (Elt F))
  :: StableHlo.binary main_v1172 main_v1175 main_v1176 (addi : (⟨S32x1, .i32⟩ : BufTy).Contents (Elt F) → (⟨S32x1, .i32⟩ : BufTy).Contents (Elt F) → (⟨S32x1, .i32⟩ : BufTy).Contents (Elt F))
  :: StableHlo.reshape main_v1176 main_v1177 rfl shapeCasts_S32x1_S32
  :: StableHlo.nullary main_c_278 (constantI S_ 32 0#32)
  :: StableHlo.unary main_c_278 main_v1178 (broadcastInDim S32 ![] bcast_S_S32 : (⟨S_, .i32⟩ : BufTy).Contents (Elt F) → (⟨S32, .i32⟩ : BufTy).Contents (Elt F))
  :: StableHlo.binary main_v1177 main_v1178 main_v1179 (cmpi .slt : (⟨S32, .i32⟩ : BufTy).Contents (Elt F) → (⟨S32, .i32⟩ : BufTy).Contents (Elt F) → (⟨S32, .i1⟩ : BufTy).Contents (Elt F))
  :: StableHlo.nullary main_c_279 (constantI S_ 32 131040#32)
  :: StableHlo.unary main_c_279 main_v1180 (broadcastInDim S32 ![] bcast_S_S32 : (⟨S_, .i32⟩ : BufTy).Contents (Elt F) → (⟨S32, .i32⟩ : BufTy).Contents (Elt F))
  :: StableHlo.binary main_v1177 main_v1180 main_v1181 (addi : (⟨S32, .i32⟩ : BufTy).Contents (Elt F) → (⟨S32, .i32⟩ : BufTy).Contents (Elt F) → (⟨S32, .i32⟩ : BufTy).Contents (Elt F))
  :: StableHlo.ternary main_v1179 main_v1181 main_v1177 main_v1182 (select : (⟨S32, .i1⟩ : BufTy).Contents (Elt F) → (⟨S32, .i32⟩ : BufTy).Contents (Elt F) → (⟨S32, .i32⟩ : BufTy).Contents (Elt F) → (⟨S32, .i32⟩ : BufTy).Contents (Elt F))
  :: StableHlo.unary main_v1182 main_v1183 (broadcastInDim S32x1 ![0] bcast_S32_S32x1_0 : (⟨S32, .i32⟩ : BufTy).Contents (Elt F) → (⟨S32x1, .i32⟩ : BufTy).Contents (Elt F))
  :: StableHlo.binary main_v11 main_v1183 main_v1184 ((fun x i => Host.gather gather_S131040x768_S32x1_S32x768_1_0_n_n_0_1_1768 x i) : (⟨S131040x768, .f32⟩ : BufTy).Contents (Elt F) → (⟨S32x1, .i32⟩ : BufTy).Contents (Elt F) → (⟨S32x768, .f32⟩ : BufTy).Contents (Elt F))
  :: StableHlo.unary main_v16 main_v1185 (broadcastInDim S32x1 ![0] bcast_S32_S32x1_0 : (⟨S32, .i32⟩ : BufTy).Contents (Elt F) → (⟨S32x1, .i32⟩ : BufTy).Contents (Elt F))
  :: StableHlo.nullary main_c_280 (constantI S_ 32 1#32)
  :: StableHlo.unary main_c_280 main_v1186 (broadcastInDim S32x1 ![] bcast_S_S32x1 : (⟨S_, .i32⟩ : BufTy).Contents (Elt F) → (⟨S32x1, .i32⟩ : BufTy).Contents (Elt F))
  :: StableHlo.binary main_v1185 main_v1186 main_v1187 (addi : (⟨S32x1, .i32⟩ : BufTy).Contents (Elt F) → (⟨S32x1, .i32⟩ : BufTy).Contents (Elt F) → (⟨S32x1, .i32⟩ : BufTy).Contents (Elt F))
  :: StableHlo.nullary main_v1188 (iotaInDim S2 32 0)
  :: StableHlo.unary main_v1188 main_v1189 (broadcastInDim S1x2 ![1] bcast_S2_S1x2_1 : (⟨S2, .i32⟩ : BufTy).Contents (Elt F) → (⟨S1x2, .i32⟩ : BufTy).Contents (Elt F))
  :: StableHlo.unary main_v1187 main_v1190 (broadcastInDim S32x2 ![0, 1] bcast_S32x1_S32x2_0_1 : (⟨S32x1, .i32⟩ : BufTy).Contents (Elt F) → (⟨S32x2, .i32⟩ : BufTy).Contents (Elt F))
  :: StableHlo.unary main_v1189 main_v1191 (broadcastInDim S32x2 ![0, 1] bcast_S1x2_S32x2_0_1 : (⟨S1x2, .i32⟩ : BufTy).Contents (Elt F) → (⟨S32x2, .i32⟩ : BufTy).Contents (Elt F))
  :: StableHlo.binary main_v1190 main_v1191 main_v1192 (addi : (⟨S32x2, .i32⟩ : BufTy).Contents (Elt F) → (⟨S32x2, .i32⟩ : BufTy).Contents (Elt F) → (⟨S32x2, .i32⟩ : BufTy).Contents (Elt F))
  :: StableHlo.reshape main_v1192 main_v1193 rfl shapeCasts_S32x2_S64
  :: StableHlo.nullary main_c_281 (constantI S_ 32 0#32)
  :: StableHlo.unary main_c_281 main_v1194 (broadcastInDim S64 ![] bcast_S_S64 : (⟨S_, .i32⟩ : BufTy).Contents (Elt F) → (⟨S64, .i32⟩ : BufTy).Contents (Elt F))
  :: StableHlo.binary main_v1193 main_v1194 main_v1195 (cmpi .slt : (⟨S64, .i32⟩ : BufTy).Contents (Elt F) → (⟨S64, .i32⟩ : BufTy).Contents (Elt F) → (⟨S64, .i1⟩ : BufTy).Contents (Elt F))
  :: StableHlo.nullary main_c_282 (constantI S_ 32 131040#32)
  :: StableHlo.unary main_c_282 main_v1196 (broadcastInDim S64 ![] bcast_S_S64 : (⟨S_, .i32⟩ : BufTy).Contents (Elt F) → (⟨S64, .i32⟩ : BufTy).Contents (Elt F))
  :: StableHlo.binary main_v1193 main_v1196 main_v1197 (addi : (⟨S64, .i32⟩ : BufTy).Contents (Elt F) → (⟨S64, .i32⟩ : BufTy).Contents (Elt F) → (⟨S64, .i32⟩ : BufTy).Contents (Elt F))
  :: StableHlo.ternary main_v1195 main_v1197 main_v1193 main_v1198 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1198 main_v1199 (broadcastInDim S64x1 ![0] bcast_S64_S64x1_0 : (⟨S64, .i32⟩ : BufTy).Contents (Elt F) → (⟨S64x1, .i32⟩ : BufTy).Contents (Elt F))
  :: StableHlo.binary main_v1162 main_v1199 main_v1200 ((fun x i => Host.gather gather_S131040x256_S64x1_S64x256_1_0_n_n_0_1_1256 x i) : (⟨S131040x256, .f32⟩ : BufTy).Contents (Elt F) → (⟨S64x1, .i32⟩ : BufTy).Contents (Elt F) → (⟨S64x256, .f32⟩ : BufTy).Contents (Elt F))
  :: StableHlo.nullary main_c_283 (constantI S_ 32 0#32)
  :: StableHlo.unary main_c_283 main_v1201 (broadcastInDim S64 ![] bcast_S_S64 : (⟨S_, .i32⟩ : BufTy).Contents (Elt F) → (⟨S64, .i32⟩ : BufTy).Contents (Elt F))
  :: StableHlo.binary main_v1193 main_v1201 main_v1202 (cmpi .slt : (⟨S64, .i32⟩ : BufTy).Contents (Elt F) → (⟨S64, .i32⟩ : BufTy).Contents (Elt F) → (⟨S64, .i1⟩ : BufTy).Contents (Elt F))
  :: StableHlo.nullary main_c_284 (constantI S_ 32 131040#32)
  :: StableHlo.unary main_c_284 main_v1203 (broadcastInDim S64 ![] bcast_S_S64 : (⟨S_, .i32⟩ : BufTy).Contents (Elt F) → (⟨S64, .i32⟩ : BufTy).Contents (Elt F))
  :: StableHlo.binary main_v1193 main_v1203 main_v1204 (addi : (⟨S64, .i32⟩ : BufTy).Contents (Elt F) → (⟨S64, .i32⟩ : BufTy).Contents (Elt F) → (⟨S64, .i32⟩ : BufTy).Contents (Elt F))
  :: StableHlo.ternary main_v1202 main_v1204 main_v1193 main_v1205 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1205 main_v1206 (broadcastInDim S64x1 ![0] bcast_S64_S64x1_0 : (⟨S64, .i32⟩ : BufTy).Contents (Elt F) → (⟨S64x1, .i32⟩ : BufTy).Contents (Elt F))
  :: StableHlo.binary main_v1169 main_v1206 main_v1207 ((fun x i => Host.gather gather_S131040x256_S64x1_S64x256_1_0_n_n_0_1_1256 x i) : (⟨S131040x256, .f32⟩ : BufTy).Contents (Elt F) → (⟨S64x1, .i32⟩ : BufTy).Contents (Elt F) → (⟨S64x256, .f32⟩ : BufTy).Contents (Elt F))
  :: StableHlo.nullary main_c_285 (constantI S_ 32 0#32)
  :: StableHlo.unary main_c_285 main_v1208 (broadcastInDim S64 ![] bcast_S_S64 : (⟨S_, .i32⟩ : BufTy).Contents (Elt F) → (⟨S64, .i32⟩ : BufTy).Contents (Elt F))
  :: StableHlo.binary main_v1193 main_v1208 main_v1209 (cmpi .slt : (⟨S64, .i32⟩ : BufTy).Contents (Elt F) → (⟨S64, .i32⟩ : BufTy).Contents (Elt F) → (⟨S64, .i1⟩ : BufTy).Contents (Elt F))
  :: StableHlo.nullary main_c_286 (constantI S_ 32 131040#32)
  :: StableHlo.unary main_c_286 main_v1210 (broadcastInDim S64 ![] bcast_S_S64 : (⟨S_, .i32⟩ : BufTy).Contents (Elt F) → (⟨S64, .i32⟩ : BufTy).Contents (Elt F))
  :: StableHlo.binary main_v1193 main_v1210 main_v1211 (addi : (⟨S64, .i32⟩ : BufTy).Contents (Elt F) → (⟨S64, .i32⟩ : BufTy).Contents (Elt F) → (⟨S64, .i32⟩ : BufTy).Contents (Elt F))
  :: StableHlo.ternary main_v1209 main_v1211 main_v1193 main_v1212 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1212 main_v1213 (broadcastInDim S64x1 ![0] bcast_S64_S64x1_0 : (⟨S64, .i32⟩ : BufTy).Contents (Elt F) → (⟨S64x1, .i32⟩ : BufTy).Contents (Elt F))
  :: StableHlo.binary main_arg1 main_v1213 main_v1214 ((fun x i => Host.gather gather_S131040_S64x1_S64_n_0_n_n_0_1_1 x i) : (⟨S131040, .i32⟩ : BufTy).Contents (Elt F) → (⟨S64x1, .i32⟩ : BufTy).Contents (Elt F) → (⟨S64, .i32⟩ : BufTy).Contents (Elt F))
  :: StableHlo.nullary main_c_287 (constantI S_ 32 4095#32)
  :: [] )
set_option maxHeartbeats 40000000 in  -- a long stretch: its list (or the term over it) exceeds the default budget
/-- Each touches TensorCore references only (`HostSeg.ofOps` over `StableHlo.tcRefs`, or a subset by `sub_ucRefs`). -/
theorem hostOps0_40_sub : (hostOps0_40 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_28 (main_call20), in order. -/
abbrev hostOps0_41 : List (HloOp τ sig (Elt F)) :=
  [ StableHlo.TRef.unary (.of main_c_287 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S64, .i32⟩) (broadcastInDim S64 ![] bcast_S_S64),
    StableHlo.TRef.binary (.of main_v1214 : StableHlo.TRef sig ⟨S64, .i32⟩) (.of main_call20_v1 : StableHlo.TRef sig ⟨S64, .i32⟩) (.of main_call20_v2 : StableHlo.TRef sig ⟨S64, .i32⟩) Host.divsi,
    StableHlo.TRef.unary (.of main_v1214 : StableHlo.TRef sig ⟨S64, .i32⟩) (.of main_call20_v3 : StableHlo.TRef sig ⟨S64, .i32⟩) signi,
    StableHlo.TRef.unary (.of main_call20_v0 : StableHlo.TRef sig ⟨S_, .i32⟩) (.of main_call20_v4 : StableHlo.TRef sig ⟨S_, .i32⟩) signi,
    StableHlo.TRef.unary (.of main_call20_v4 : StableHlo.TRef sig ⟨S_, .i32⟩) (.of main_call20_v5 : StableHlo.TRef sig ⟨S64, .i32⟩) (broadcastInDim S64 ![] bcast_S_S64),
    StableHlo.TRef.binary (.of main_call20_v3 : StableHlo.TRef sig ⟨S64, .i32⟩) (.of main_call20_v5 : StableHlo.TRef sig ⟨S64, .i32⟩) (.of main_call20_v6 : StableHlo.TRef sig ⟨S64, .i1⟩) (cmpi .ne),
    StableHlo.TRef.unary (.of main_call20_v0 : StableHlo.TRef sig ⟨S_, .i32⟩) (.of main_call20_v7 : StableHlo.TRef sig ⟨S64, .i32⟩) (broadcastInDim S64 ![] bcast_S_S64),
    StableHlo.TRef.binary (.of main_v1214 : StableHlo.TRef sig ⟨S64, .i32⟩) (.of main_call20_v7 : StableHlo.TRef sig ⟨S64, .i32⟩) (.of main_call20_v8 : StableHlo.TRef sig ⟨S64, .i32⟩) Host.remsi,
    StableHlo.TRef.nullary (.of main_call20_c : StableHlo.TRef sig ⟨S_, .i32⟩) (constantI S_ 32 0#32),
    StableHlo.TRef.unary (.of main_call20_c : StableHlo.TRef sig ⟨S_, .i32⟩) (.of main_call20_v9 : StableHlo.TRef sig ⟨S64, .i32⟩) (broadcastInDim S64 ![] bcast_S_S64),
    StableHlo.TRef.binary (.of main_call20_v8 : StableHlo.TRef sig ⟨S64, .i32⟩) (.of main_call20_v9 : StableHlo.TRef sig ⟨S64, .i32⟩) (.of main_call20_v10 : StableHlo.TRef sig ⟨S64, .i1⟩) (cmpi .ne),
    StableHlo.TRef.binary (.of main_call20_v6 : StableHlo.TRef sig ⟨S64, .i1⟩) (.of main_call20_v10 : StableHlo.TRef sig ⟨S64, .i1⟩) (.of main_call20_v11 : StableHlo.TRef sig ⟨S64, .i1⟩) andi,
    StableHlo.TRef.nullary (.of main_call20_c_0 : StableHlo.TRef sig ⟨S_, .i32⟩) (constantI S_ 32 1#32),
    StableHlo.TRef.unary (.of main_call20_c_0 : StableHlo.TRef sig ⟨S_, .i32⟩) (.of main_call20_v12 : StableHlo.TRef sig ⟨S64, .i32⟩) (broadcastInDim S64 ![] bcast_S_S64),
    StableHlo.TRef.binary (.of main_call20_v2 : StableHlo.TRef sig ⟨S64, .i32⟩) (.of main_call20_v12 : StableHlo.TRef sig ⟨S64, .i32⟩) (.of main_call20_v13 : StableHlo.TRef sig ⟨S64, .i32⟩) subi,
    StableHlo.TRef.ternary (.of main_call20_v11 : StableHlo.TRef sig ⟨S64, .i1⟩) (.of main_call20_v13 : StableHlo.TRef sig ⟨S64, .i32⟩) (.of main_call20_v2 : StableHlo.TRef sig ⟨S64, .i32⟩) (.of main_v1215 : StableHlo.TRef sig ⟨S64, .i32⟩) select ]
/-- Each touches TensorCore references only (`HostSeg.ofOps` over `StableHlo.tcRefs`, or a subset by `sub_ucRefs`). -/
theorem hostOps0_41_sub : (hostOps0_41 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, in order. -/
abbrev hostOps0_42 : List (HloOp τ sig (Elt F)) :=
  [ StableHlo.nullary main_c_288 (constantI S_ 32 1#32),
    StableHlo.unary main_c_288 main_v1216 (broadcastInDim S64 ![] bcast_S_S64 : (⟨S_, .i32⟩ : BufTy).Contents (Elt F) → (⟨S64, .i32⟩ : BufTy).Contents (Elt F)),
    StableHlo.binary main_v1215 main_v1216 main_v1217 (muli : (⟨S64, .i32⟩ : BufTy).Contents (Elt F) → (⟨S64, .i32⟩ : BufTy).Contents (Elt F) → (⟨S64, .i32⟩ : BufTy).Contents (Elt F)),
    StableHlo.nullary main_c_289 (constantI S_ 32 4095#32) ]
/-- Each touches TensorCore references only (`HostSeg.ofOps` over `StableHlo.tcRefs`, or a subset by `sub_ucRefs`). -/
theorem hostOps0_42_sub : (hostOps0_42 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_30 (main_call21), in order. -/
abbrev hostOps0_43 : List (HloOp τ sig (Elt F)) :=
  [ StableHlo.TRef.unary (.of main_c_289 : StableHlo.TRef sig ⟨S_, .i32⟩) (.of main_call21_v0 : StableHlo.TRef sig ⟨S_, .i32⟩) id,
    StableHlo.TRef.nullary (.of main_call21_c : StableHlo.TRef sig ⟨S_, .i32⟩) (constantI S_ 32 0#32),
    StableHlo.TRef.binary (.of main_call21_v0 : StableHlo.TRef sig ⟨S_, .i32⟩) (.of main_call21_c : StableHlo.TRef sig ⟨S_, .i32⟩) (.of main_call21_v1 : StableHlo.TRef sig ⟨S_, .i1⟩) (cmpi .eq),
    StableHlo.TRef.nullary (.of main_call21_c_0 : StableHlo.TRef sig ⟨S_, .i32⟩) (constantI S_ 32 1#32),
    StableHlo.TRef.ternary (.of main_call21_v1 : StableHlo.TRef sig ⟨S_, .i1⟩) (.of main_call21_c_0 : StableHlo.TRef sig ⟨S_, .i32⟩) (.of main_call21_v0 : StableHlo.TRef sig ⟨S_, .i32⟩) (.of main_call21_v2 : StableHlo.TRef sig ⟨S_, .i32⟩) select,
    StableHlo.TRef.unary main_call21_call0.v0 (.of main_call21_v3 : StableHlo.TRef sig ⟨S64, .i32⟩) (broadcastInDim S64 ![] bcast_S_S64),
    StableHlo.TRef.binary (.of main_v1214 : StableHlo.TRef sig ⟨S64, .i32⟩) (.of main_call21_v3 : StableHlo.TRef sig ⟨S64, .i32⟩) (.of main_call21_v4 : StableHlo.TRef sig ⟨S64, .i32⟩) Host.remsi,
    StableHlo.TRef.nullary (.of main_call21_c_1 : StableHlo.TRef sig ⟨S_, .i32⟩) (constantI S_ 32 0#32),
    StableHlo.TRef.unary (.of main_call21_c_1 : StableHlo.TRef sig ⟨S_, .i32⟩) (.of main_call21_v5 : StableHlo.TRef sig ⟨S64, .i32⟩) (broadcastInDim S64 ![] bcast_S_S64),
    StableHlo.TRef.binary (.of main_call21_v4 : StableHlo.TRef sig ⟨S64, .i32⟩) (.of main_call21_v5 : StableHlo.TRef sig ⟨S64, .i32⟩) (.of main_call21_v6 : StableHlo.TRef sig ⟨S64, .i1⟩) (cmpi .ne),
    StableHlo.TRef.nullary (.of main_call21_c_2 : StableHlo.TRef sig ⟨S_, .i32⟩) (constantI S_ 32 0#32),
    StableHlo.TRef.unary (.of main_call21_c_2 : StableHlo.TRef sig ⟨S_, .i32⟩) (.of main_call21_v7 : StableHlo.TRef sig ⟨S64, .i32⟩) (broadcastInDim S64 ![] bcast_S_S64),
    StableHlo.TRef.binary (.of main_call21_v4 : StableHlo.TRef sig ⟨S64, .i32⟩) (.of main_call21_v7 : StableHlo.TRef sig ⟨S64, .i32⟩) (.of main_call21_v8 : StableHlo.TRef sig ⟨S64, .i1⟩) (cmpi .slt),
    StableHlo.TRef.nullary (.of main_call21_c_3 : StableHlo.TRef sig ⟨S_, .i32⟩) (constantI S_ 32 0#32),
    StableHlo.TRef.binary main_call21_call0.v0 (.of main_call21_c_3 : StableHlo.TRef sig ⟨S_, .i32⟩) (.of main_call21_v9 : StableHlo.TRef sig ⟨S_, .i1⟩) (cmpi .slt),
    StableHlo.TRef.unary (.of main_call21_v9 : StableHlo.TRef sig ⟨S_, .i1⟩) (.of main_call21_v10 : StableHlo.TRef sig ⟨S64, .i1⟩) (broadcastInDim S64 ![] bcast_S_S64),
    StableHlo.TRef.binary (.of main_call21_v8 : StableHlo.TRef sig ⟨S64, .i1⟩) (.of main_call21_v10 : StableHlo.TRef sig ⟨S64, .i1⟩) (.of main_call21_v11 : StableHlo.TRef sig ⟨S64, .i1⟩) (cmpi .ne),
    StableHlo.TRef.binary (.of main_call21_v11 : StableHlo.TRef sig ⟨S64, .i1⟩) (.of main_call21_v6 : StableHlo.TRef sig ⟨S64, .i1⟩) (.of main_call21_v12 : StableHlo.TRef sig ⟨S64, .i1⟩) andi,
    StableHlo.TRef.unary main_call21_call0.v0 (.of main_call21_v13 : StableHlo.TRef sig ⟨S64, .i32⟩) (broadcastInDim S64 ![] bcast_S_S64),
    StableHlo.TRef.binary (.of main_call21_v4 : StableHlo.TRef sig ⟨S64, .i32⟩) (.of main_call21_v13 : StableHlo.TRef sig ⟨S64, .i32⟩) (.of main_call21_v14 : StableHlo.TRef sig ⟨S64, .i32⟩) addi,
    StableHlo.TRef.ternary (.of main_call21_v12 : StableHlo.TRef sig ⟨S64, .i1⟩) (.of main_call21_v14 : StableHlo.TRef sig ⟨S64, .i32⟩) (.of main_call21_v4 : StableHlo.TRef sig ⟨S64, .i32⟩) (.of main_v1218 : StableHlo.TRef sig ⟨S64, .i32⟩) select ]
/-- Each touches TensorCore references only (`HostSeg.ofOps` over `StableHlo.tcRefs`, or a subset by `sub_ucRefs`). -/
theorem hostOps0_43_sub : (hostOps0_43 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
set_option maxHeartbeats 40000000 in  -- a long stretch: its list (or the term over it) exceeds the default budget
/-- 87 host operations of @main, in order. -/
abbrev hostOps0_44 : List (HloOp τ sig (Elt F)) :=
  ( StableHlo.nullary main_c_290 (constantI S_ 32 0#32)
  :: StableHlo.unary main_c_290 main_v1219 (broadcastInDim S64 ![] bcast_S_S64 : (⟨S_, .i32⟩ : BufTy).Contents (Elt F) → (⟨S64, .i32⟩ : BufTy).Contents (Elt F))
  :: StableHlo.binary main_v1218 main_v1219 main_v1220 (subi : (⟨S64, .i32⟩ : BufTy).Contents (Elt F) → (⟨S64, .i32⟩ : BufTy).Contents (Elt F) → (⟨S64, .i32⟩ : BufTy).Contents (Elt F))
  :: StableHlo.binary main_v1217 main_v1220 main_v1221 (addi : (⟨S64, .i32⟩ : BufTy).Contents (Elt F) → (⟨S64, .i32⟩ : BufTy).Contents (Elt F) → (⟨S64, .i32⟩ : BufTy).Contents (Elt F))
  :: StableHlo.unary main_arg6 main_v1222 ((transpose S256x256 [1, 0] · transposes_S256x256_S256x256_1_0) : (⟨S256x256, .f32⟩ : BufTy).Contents (Elt F) → (⟨S256x256, .f32⟩ : BufTy).Contents (Elt F))
  :: StableHlo.binary main_v1200 main_v1222 main_v1223 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F))
  :: StableHlo.unary main_arg7 main_v1224 (broadcastInDim S1x256 ![1] bcast_S256_S1x256_1 : (⟨S256, .f32⟩ : BufTy).Contents (Elt F) → (⟨S1x256, .f32⟩ : BufTy).Contents (Elt F))
  :: StableHlo.unary main_v1224 main_v1225 (broadcastInDim S64x256 ![0, 1] bcast_S1x256_S64x256_0_1 : (⟨S1x256, .f32⟩ : BufTy).Contents (Elt F) → (⟨S64x256, .f32⟩ : BufTy).Contents (Elt F))
  :: StableHlo.binary main_v1223 main_v1225 main_v1226 (addf : (⟨S64x256, .f32⟩ : BufTy).Contents (Elt F) → (⟨S64x256, .f32⟩ : BufTy).Contents (Elt F) → (⟨S64x256, .f32⟩ : BufTy).Contents (Elt F))
  :: StableHlo.unary main_v1226 main_v1227 (Host.negf : (⟨S64x256, .f32⟩ : BufTy).Contents (Elt F) → (⟨S64x256, .f32⟩ : BufTy).Contents (Elt F))
  :: StableHlo.unary main_v1227 main_v1228 (Host.exp : (⟨S64x256, .f32⟩ : BufTy).Contents (Elt F) → (⟨S64x256, .f32⟩ : BufTy).Contents (Elt F))
  :: StableHlo.nullary main_cst_291 (constant S_ .f32 0x3F800000#32)
  :: StableHlo.unary main_cst_291 main_v1229 (broadcastInDim S64x256 ![] bcast_S_S64x256 : (⟨S_, .f32⟩ : BufTy).Contents (Elt F) → (⟨S64x256, .f32⟩ : BufTy).Contents (Elt F))
  :: StableHlo.binary main_v1229 main_v1228 main_v1230 (addf : (⟨S64x256, .f32⟩ : BufTy).Contents (Elt F) → (⟨S64x256, .f32⟩ : BufTy).Contents (Elt F) → (⟨S64x256, .f32⟩ : BufTy).Contents (Elt F))
  :: StableHlo.nullary main_cst_292 (constant S_ .f32 0x3F800000#32)
  :: StableHlo.unary main_cst_292 main_v1231 (broadcastInDim S64x256 ![] bcast_S_S64x256 : (⟨S_, .f32⟩ : BufTy).Contents (Elt F) → (⟨S64x256, .f32⟩ : BufTy).Contents (Elt F))
  :: StableHlo.binary main_v1231 main_v1230 main_v1232 (Host.divf : (⟨S64x256, .f32⟩ : BufTy).Contents (Elt F) → (⟨S64x256, .f32⟩ : BufTy).Contents (Elt F) → (⟨S64x256, .f32⟩ : BufTy).Contents (Elt F))
  :: StableHlo.nullary main_cst_293 (constant S_ .f32 0x00000000#32)
  :: StableHlo.unary main_cst_293 main_v1233 (broadcastInDim S32x256 ![] bcast_S_S32x256 : (⟨S_, .f32⟩ : BufTy).Contents (Elt F) → (⟨S32x256, .f32⟩ : BufTy).Contents (Elt F))
  :: StableHlo.unary main_v1221 main_v1234 (broadcastInDim S64x1 ![0] bcast_S64_S64x1_0 : (⟨S64, .i32⟩ : BufTy).Contents (Elt F) → (⟨S64x1, .i32⟩ : BufTy).Contents (Elt F))
  :: StableHlo.ternary main_v1233 main_v1234 main_v1200 main_v1235 ((fun x i u => Host.scatterAdd scatter_S32x256_S64x1_S64x256_1_0_0_1 x i u) : (⟨S32x256, .f32⟩ : BufTy).Contents (Elt F) → (⟨S64x1, .i32⟩ : BufTy).Contents (Elt F) → (⟨S64x256, .f32⟩ : BufTy).Contents (Elt F) → (⟨S32x256, .f32⟩ : BufTy).Contents (Elt F))
  :: StableHlo.binary main_v1232 main_v1207 main_v1236 (mulf : (⟨S64x256, .f32⟩ : BufTy).Contents (Elt F) → (⟨S64x256, .f32⟩ : BufTy).Contents (Elt F) → (⟨S64x256, .f32⟩ : BufTy).Contents (Elt F))
  :: StableHlo.nullary main_cst_294 (constant S_ .f32 0x00000000#32)
  :: StableHlo.unary main_cst_294 main_v1237 (broadcastInDim S32x256 ![] bcast_S_S32x256 : (⟨S_, .f32⟩ : BufTy).Contents (Elt F) → (⟨S32x256, .f32⟩ : BufTy).Contents (Elt F))
  :: StableHlo.unary main_v1221 main_v1238 (broadcastInDim S64x1 ![0] bcast_S64_S64x1_0 : (⟨S64, .i32⟩ : BufTy).Contents (Elt F) → (⟨S64x1, .i32⟩ : BufTy).Contents (Elt F))
  :: StableHlo.ternary main_v1237 main_v1238 main_v1236 main_v1239 ((fun x i u => Host.scatterAdd scatter_S32x256_S64x1_S64x256_1_0_0_1 x i u) : (⟨S32x256, .f32⟩ : BufTy).Contents (Elt F) → (⟨S64x1, .i32⟩ : BufTy).Contents (Elt F) → (⟨S64x256, .f32⟩ : BufTy).Contents (Elt F) → (⟨S32x256, .f32⟩ : BufTy).Contents (Elt F))
  :: StableHlo.unary main_arg4 main_v1240 ((transpose S256x768 [1, 0] · transposes_S768x256_S256x768_1_0) : (⟨S768x256, .f32⟩ : BufTy).Contents (Elt F) → (⟨S256x768, .f32⟩ : BufTy).Contents (Elt F))
  :: StableHlo.binary main_v1235 main_v1240 main_v1241 ((fun l r => Host.dotGeneral dot_S32x256_S256x768_S32x768_1_0_0_1_n_n none l r) : (⟨S32x256, .f32⟩ : BufTy).Contents (Elt F) → (⟨S256x768, .f32⟩ : BufTy).Contents (Elt F) → (⟨S32x768, .f32⟩ : BufTy).Contents (Elt F))
  :: StableHlo.binary main_v1184 main_v1241 main_v1242 (addf : (⟨S32x768, .f32⟩ : BufTy).Contents (Elt F) → (⟨S32x768, .f32⟩ : BufTy).Contents (Elt F) → (⟨S32x768, .f32⟩ : BufTy).Contents (Elt F))
  :: StableHlo.unary main_arg5 main_v1243 (broadcastInDim S32x768 ![0, 1] bcast_S1x768_S32x768_0_1 : (⟨S1x768, .f32⟩ : BufTy).Contents (Elt F) → (⟨S32x768, .f32⟩ : BufTy).Contents (Elt F))
  :: StableHlo.binary main_v1242 main_v1243 main_v1244 (addf : (⟨S32x768, .f32⟩ : BufTy).Contents (Elt F) → (⟨S32x768, .f32⟩ : BufTy).Contents (Elt F) → (⟨S32x768, .f32⟩ : BufTy).Contents (Elt F))
  :: StableHlo.unary main_v1244 main_v1245 ((extractStridedSlice S32x256 ![0, 0] · slices_S32x768_S32x256_0_0) : (⟨S32x768, .f32⟩ : BufTy).Contents (Elt F) → (⟨S32x256, .f32⟩ : BufTy).Contents (Elt F))
  :: StableHlo.unary main_v1244 main_v1246 ((extractStridedSlice S32x256 ![0, 256] · slices_S32x768_S32x256_0_256) : (⟨S32x768, .f32⟩ : BufTy).Contents (Elt F) → (⟨S32x256, .f32⟩ : BufTy).Contents (Elt F))
  :: StableHlo.unary main_v1244 main_v1247 ((extractStridedSlice S32x256 ![0, 512] · slices_S32x768_S32x256_0_512) : (⟨S32x768, .f32⟩ : BufTy).Contents (Elt F) → (⟨S32x256, .f32⟩ : BufTy).Contents (Elt F))
  :: StableHlo.unary main_v1245 main_v1248 (Host.negf : (⟨S32x256, .f32⟩ : BufTy).Contents (Elt F) → (⟨S32x256, .f32⟩ : BufTy).Contents (Elt F))
  :: StableHlo.unary main_v1248 main_v1249 (Host.exp : (⟨S32x256, .f32⟩ : BufTy).Contents (Elt F) → (⟨S32x256, .f32⟩ : BufTy).Contents (Elt F))
  :: StableHlo.nullary main_cst_295 (constant S_ .f32 0x3F800000#32)
  :: StableHlo.unary main_cst_295 main_v1250 (broadcastInDim S32x256 ![] bcast_S_S32x256 : (⟨S_, .f32⟩ : BufTy).Contents (Elt F) → (⟨S32x256, .f32⟩ : BufTy).Contents (Elt F))
  :: StableHlo.binary main_v1250 main_v1249 main_v1251 (addf : (⟨S32x256, .f32⟩ : BufTy).Contents (Elt F) → (⟨S32x256, .f32⟩ : BufTy).Contents (Elt F) → (⟨S32x256, .f32⟩ : BufTy).Contents (Elt F))
  :: StableHlo.nullary main_cst_296 (constant S_ .f32 0x3F800000#32)
  :: StableHlo.unary main_cst_296 main_v1252 (broadcastInDim S32x256 ![] bcast_S_S32x256 : (⟨S_, .f32⟩ : BufTy).Contents (Elt F) → (⟨S32x256, .f32⟩ : BufTy).Contents (Elt F))
  :: StableHlo.binary main_v1252 main_v1251 main_v1253 (Host.divf : (⟨S32x256, .f32⟩ : BufTy).Contents (Elt F) → (⟨S32x256, .f32⟩ : BufTy).Contents (Elt F) → (⟨S32x256, .f32⟩ : BufTy).Contents (Elt F))
  :: StableHlo.unary main_v1247 main_v1254 (Host.tanh : (⟨S32x256, .f32⟩ : BufTy).Contents (Elt F) → (⟨S32x256, .f32⟩ : BufTy).Contents (Elt F))
  :: StableHlo.binary main_v1253 main_v1254 main_v1255 (mulf : (⟨S32x256, .f32⟩ : BufTy).Contents (Elt F) → (⟨S32x256, .f32⟩ : BufTy).Contents (Elt F) → (⟨S32x256, .f32⟩ : BufTy).Contents (Elt F))
  :: StableHlo.binary main_v1255 main_v1239 main_v1256 (addf : (⟨S32x256, .f32⟩ : BufTy).Contents (Elt F) → (⟨S32x256, .f32⟩ : BufTy).Contents (Elt F) → (⟨S32x256, .f32⟩ : BufTy).Contents (Elt F))
  :: StableHlo.unary main_v1246 main_v1257 (Host.negf : (⟨S32x256, .f32⟩ : BufTy).Contents (Elt F) → (⟨S32x256, .f32⟩ : BufTy).Contents (Elt F))
  :: StableHlo.unary main_v1257 main_v1258 (Host.exp : (⟨S32x256, .f32⟩ : BufTy).Contents (Elt F) → (⟨S32x256, .f32⟩ : BufTy).Contents (Elt F))
  :: StableHlo.nullary main_cst_297 (constant S_ .f32 0x3F800000#32)
  :: StableHlo.unary main_cst_297 main_v1259 (broadcastInDim S32x256 ![] bcast_S_S32x256 : (⟨S_, .f32⟩ : BufTy).Contents (Elt F) → (⟨S32x256, .f32⟩ : BufTy).Contents (Elt F))
  :: StableHlo.binary main_v1259 main_v1258 main_v1260 (addf : (⟨S32x256, .f32⟩ : BufTy).Contents (Elt F) → (⟨S32x256, .f32⟩ : BufTy).Contents (Elt F) → (⟨S32x256, .f32⟩ : BufTy).Contents (Elt F))
  :: StableHlo.nullary main_cst_298 (constant S_ .f32 0x3F800000#32)
  :: StableHlo.unary main_cst_298 main_v1261 (broadcastInDim S32x256 ![] bcast_S_S32x256 : (⟨S_, .f32⟩ : BufTy).Contents (Elt F) → (⟨S32x256, .f32⟩ : BufTy).Contents (Elt F))
  :: StableHlo.binary main_v1261 main_v1260 main_v1262 (Host.divf : (⟨S32x256, .f32⟩ : BufTy).Contents (Elt F) → (⟨S32x256, .f32⟩ : BufTy).Contents (Elt F) → (⟨S32x256, .f32⟩ : BufTy).Contents (Elt F))
  :: StableHlo.unary main_v1256 main_v1263 (Host.tanh : (⟨S32x256, .f32⟩ : BufTy).Contents (Elt F) → (⟨S32x256, .f32⟩ : BufTy).Contents (Elt F))
  :: StableHlo.binary main_v1262 main_v1263 main_v1264 (mulf : (⟨S32x256, .f32⟩ : BufTy).Contents (Elt F) → (⟨S32x256, .f32⟩ : BufTy).Contents (Elt F) → (⟨S32x256, .f32⟩ : BufTy).Contents (Elt F))
  :: StableHlo.nullary main_c_299 (constantI S_ 32 0#32)
  :: StableHlo.unary main_c_299 main_v1265 (broadcastInDim S32 ![] bcast_S_S32 : (⟨S_, .i32⟩ : BufTy).Contents (Elt F) → (⟨S32, .i32⟩ : BufTy).Contents (Elt F))
  :: StableHlo.binary main_v1177 main_v1265 main_v1266 (cmpi .slt : (⟨S32, .i32⟩ : BufTy).Contents (Elt F) → (⟨S32, .i32⟩ : BufTy).Contents (Elt F) → (⟨S32, .i1⟩ : BufTy).Contents (Elt F))
  :: StableHlo.nullary main_c_300 (constantI S_ 32 131040#32)
  :: StableHlo.unary main_c_300 main_v1267 (broadcastInDim S32 ![] bcast_S_S32 : (⟨S_, .i32⟩ : BufTy).Contents (Elt F) → (⟨S32, .i32⟩ : BufTy).Contents (Elt F))
  :: StableHlo.binary main_v1177 main_v1267 main_v1268 (addi : (⟨S32, .i32⟩ : BufTy).Contents (Elt F) → (⟨S32, .i32⟩ : BufTy).Contents (Elt F) → (⟨S32, .i32⟩ : BufTy).Contents (Elt F))
  :: StableHlo.ternary main_v1266 main_v1268 main_v1177 main_v1269 (select : (⟨S32, .i1⟩ : BufTy).Contents (Elt F) → (⟨S32, .i32⟩ : BufTy).Contents (Elt F) → (⟨S32, .i32⟩ : BufTy).Contents (Elt F) → (⟨S32, .i32⟩ : BufTy).Contents (Elt F))
  :: StableHlo.unary main_v1269 main_v1270 (broadcastInDim S32x1 ![0] bcast_S32_S32x1_0 : (⟨S32, .i32⟩ : BufTy).Contents (Elt F) → (⟨S32x1, .i32⟩ : BufTy).Contents (Elt F))
  :: StableHlo.ternary main_v1162 main_v1270 main_v1264 main_v1271 ((fun x i u => Host.scatter scatter_S131040x256_S32x1_S32x256_1_0_0_1 (fun _ b => b) x i u) : (⟨S131040x256, .f32⟩ : BufTy).Contents (Elt F) → (⟨S32x1, .i32⟩ : BufTy).Contents (Elt F) → (⟨S32x256, .f32⟩ : BufTy).Contents (Elt F) → (⟨S131040x256, .f32⟩ : BufTy).Contents (Elt F))
  :: StableHlo.nullary main_c_301 (constantI S_ 32 0#32)
  :: StableHlo.unary main_c_301 main_v1272 (broadcastInDim S32 ![] bcast_S_S32 : (⟨S_, .i32⟩ : BufTy).Contents (Elt F) → (⟨S32, .i32⟩ : BufTy).Contents (Elt F))
  :: StableHlo.binary main_v1177 main_v1272 main_v1273 (cmpi .slt : (⟨S32, .i32⟩ : BufTy).Contents (Elt F) → (⟨S32, .i32⟩ : BufTy).Contents (Elt F) → (⟨S32, .i1⟩ : BufTy).Contents (Elt F))
  :: StableHlo.nullary main_c_302 (constantI S_ 32 131040#32)
  :: StableHlo.unary main_c_302 main_v1274 (broadcastInDim S32 ![] bcast_S_S32 : (⟨S_, .i32⟩ : BufTy).Contents (Elt F) → (⟨S32, .i32⟩ : BufTy).Contents (Elt F))
  :: StableHlo.binary main_v1177 main_v1274 main_v1275 (addi : (⟨S32, .i32⟩ : BufTy).Contents (Elt F) → (⟨S32, .i32⟩ : BufTy).Contents (Elt F) → (⟨S32, .i32⟩ : BufTy).Contents (Elt F))
  :: StableHlo.ternary main_v1273 main_v1275 main_v1177 main_v1276 (select : (⟨S32, .i1⟩ : BufTy).Contents (Elt F) → (⟨S32, .i32⟩ : BufTy).Contents (Elt F) → (⟨S32, .i32⟩ : BufTy).Contents (Elt F) → (⟨S32, .i32⟩ : BufTy).Contents (Elt F))
  :: StableHlo.unary main_v1276 main_v1277 (broadcastInDim S32x1 ![0] bcast_S32_S32x1_0 : (⟨S32, .i32⟩ : BufTy).Contents (Elt F) → (⟨S32x1, .i32⟩ : BufTy).Contents (Elt F))
  :: StableHlo.ternary main_v1169 main_v1277 main_v1256 main_v1278 ((fun x i u => Host.scatter scatter_S131040x256_S32x1_S32x256_1_0_0_1 (fun _ b => b) x i u) : (⟨S131040x256, .f32⟩ : BufTy).Contents (Elt F) → (⟨S32x1, .i32⟩ : BufTy).Contents (Elt F) → (⟨S32x256, .f32⟩ : BufTy).Contents (Elt F) → (⟨S131040x256, .f32⟩ : BufTy).Contents (Elt F))
  :: StableHlo.nullary main_c_303 (constantI S_ 32 0#32)
  :: StableHlo.unary main_c_303 main_v1279 (broadcastInDim S32 ![] bcast_S_S32 : (⟨S_, .i32⟩ : BufTy).Contents (Elt F) → (⟨S32, .i32⟩ : BufTy).Contents (Elt F))
  :: StableHlo.binary main_v16 main_v1279 main_v1280 (cmpi .slt : (⟨S32, .i32⟩ : BufTy).Contents (Elt F) → (⟨S32, .i32⟩ : BufTy).Contents (Elt F) → (⟨S32, .i1⟩ : BufTy).Contents (Elt F))
  :: StableHlo.nullary main_c_304 (constantI S_ 32 131040#32)
  :: StableHlo.unary main_c_304 main_v1281 (broadcastInDim S32 ![] bcast_S_S32 : (⟨S_, .i32⟩ : BufTy).Contents (Elt F) → (⟨S32, .i32⟩ : BufTy).Contents (Elt F))
  :: StableHlo.binary main_v16 main_v1281 main_v1282 (addi : (⟨S32, .i32⟩ : BufTy).Contents (Elt F) → (⟨S32, .i32⟩ : BufTy).Contents (Elt F) → (⟨S32, .i32⟩ : BufTy).Contents (Elt F))
  :: StableHlo.ternary main_v1280 main_v1282 main_v16 main_v1283 (select : (⟨S32, .i1⟩ : BufTy).Contents (Elt F) → (⟨S32, .i32⟩ : BufTy).Contents (Elt F) → (⟨S32, .i32⟩ : BufTy).Contents (Elt F) → (⟨S32, .i32⟩ : BufTy).Contents (Elt F))
  :: StableHlo.unary main_v1283 main_v1284 (broadcastInDim S32x1 ![0] bcast_S32_S32x1_0 : (⟨S32, .i32⟩ : BufTy).Contents (Elt F) → (⟨S32x1, .i32⟩ : BufTy).Contents (Elt F))
  :: StableHlo.binary main_v1271 main_v1284 main_v1285 ((fun x i => Host.gather gather_S131040x256_S32x1_S32x256_1_0_n_n_0_1_1256 x i) : (⟨S131040x256, .f32⟩ : BufTy).Contents (Elt F) → (⟨S32x1, .i32⟩ : BufTy).Contents (Elt F) → (⟨S32x256, .f32⟩ : BufTy).Contents (Elt F))
  :: StableHlo.unary main_arg8 main_v1286 ((transpose S256x104 [1, 0] · transposes_S104x256_S256x104_1_0) : (⟨S104x256, .f32⟩ : BufTy).Contents (Elt F) → (⟨S256x104, .f32⟩ : BufTy).Contents (Elt F))
  :: StableHlo.binary main_v1285 main_v1286 main_v1287 ((fun l r => Host.dotGeneral dot_S32x256_S256x104_S32x104_1_0_0_1_n_n none l r) : (⟨S32x256, .f32⟩ : BufTy).Contents (Elt F) → (⟨S256x104, .f32⟩ : BufTy).Contents (Elt F) → (⟨S32x104, .f32⟩ : BufTy).Contents (Elt F))
  :: StableHlo.unary main_arg9 main_v1288 (broadcastInDim S1x104 ![1] bcast_S104_S1x104_1 : (⟨S104, .f32⟩ : BufTy).Contents (Elt F) → (⟨S1x104, .f32⟩ : BufTy).Contents (Elt F))
  :: StableHlo.unary main_v1288 main_v1289 (broadcastInDim S32x104 ![0, 1] bcast_S1x104_S32x104_0_1 : (⟨S1x104, .f32⟩ : BufTy).Contents (Elt F) → (⟨S32x104, .f32⟩ : BufTy).Contents (Elt F))
  :: StableHlo.binary main_v1287 main_v1289 main_v1290 (addf : (⟨S32x104, .f32⟩ : BufTy).Contents (Elt F) → (⟨S32x104, .f32⟩ : BufTy).Contents (Elt F) → (⟨S32x104, .f32⟩ : BufTy).Contents (Elt F))
  :: [] )
set_option maxHeartbeats 40000000 in  -- a long stretch: its list (or the term over it) exceeds the default budget
/-- Each touches TensorCore references only (`HostSeg.ofOps` over `StableHlo.tcRefs`, or a subset by `sub_ucRefs`). -/
theorem hostOps0_44_sub : (hostOps0_44 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩
end Cert.ReferenceIdeal.Gen

end
-- ==== Proof.RefOpsW0.lean ====
/- The reference program's entry function as lists of host operations: some of its windows, each the chain of its pieces. -/
import proofs.«419362_j66683662237734_3_alg».proof.Proof.Gen.ReferenceIdeal
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- 60 host operations of @main, window 0 (statements 1 … 60), in order. -/
abbrev main_part0_ops0 : List (HloOp τ sig (Elt F)) :=
  ( StableHlo.nullary main_c (constantI S_ 32 19999#32)
  :: StableHlo.unary main_c main_v0 (broadcastInDim S1 ![] bcast_S_S1 : (⟨S_, .i32⟩ : BufTy).Contents (Elt F) → (⟨S1, .i32⟩ : BufTy).Contents (Elt F))
  :: StableHlo.nullary main_cst (constant S_ .f32 0x00000000#32)
  :: StableHlo.unary main_cst main_v1 (broadcastInDim S256 ![] bcast_S_S256 : (⟨S_, .f32⟩ : BufTy).Contents (Elt F) → (⟨S256, .f32⟩ : BufTy).Contents (Elt F))
  :: StableHlo.ternary main_arg2 main_v0 main_v1 main_v2 ((fun x i u => Host.scatter scatter_S20000x256_S1_S256_0_0_0_0 (fun _ b => b) x i u) : (⟨S20000x256, .f32⟩ : BufTy).Contents (Elt F) → (⟨S1, .i32⟩ : BufTy).Contents (Elt F) → (⟨S256, .f32⟩ : BufTy).Contents (Elt F) → (⟨S20000x256, .f32⟩ : BufTy).Contents (Elt F))
  :: StableHlo.nullary main_c_0 (constantI S_ 32 0#32)
  :: StableHlo.unary main_c_0 main_v3 (broadcastInDim S131040 ![] bcast_S_S131040 : (⟨S_, .i32⟩ : BufTy).Contents (Elt F) → (⟨S131040, .i32⟩ : BufTy).Contents (Elt F))
  :: StableHlo.binary main_arg0 main_v3 main_v4 (cmpi .slt : (⟨S131040, .i32⟩ : BufTy).Contents (Elt F) → (⟨S131040, .i32⟩ : BufTy).Contents (Elt F) → (⟨S131040, .i1⟩ : BufTy).Contents (Elt F))
  :: StableHlo.nullary main_c_1 (constantI S_ 32 20000#32)
  :: StableHlo.unary main_c_1 main_v5 (broadcastInDim S131040 ![] bcast_S_S131040 : (⟨S_, .i32⟩ : BufTy).Contents (Elt F) → (⟨S131040, .i32⟩ : BufTy).Contents (Elt F))
  :: StableHlo.binary main_arg0 main_v5 main_v6 (addi : (⟨S131040, .i32⟩ : BufTy).Contents (Elt F) → (⟨S131040, .i32⟩ : BufTy).Contents (Elt F) → (⟨S131040, .i32⟩ : BufTy).Contents (Elt F))
  :: StableHlo.ternary main_v4 main_v6 main_arg0 main_v7 (select : (⟨S131040, .i1⟩ : BufTy).Contents (Elt F) → (⟨S131040, .i32⟩ : BufTy).Contents (Elt F) → (⟨S131040, .i32⟩ : BufTy).Contents (Elt F) → (⟨S131040, .i32⟩ : BufTy).Contents (Elt F))
  :: StableHlo.unary main_v7 main_v8 (broadcastInDim S131040x1 ![0] bcast_S131040_S131040x1_0 : (⟨S131040, .i32⟩ : BufTy).Contents (Elt F) → (⟨S131040x1, .i32⟩ : BufTy).Contents (Elt F))
  :: StableHlo.binary main_v2 main_v8 main_v9 ((fun x i => Host.gather gather_S20000x256_S131040x1_S131040x256_1_0_n_n_0_1_1256 x i) : (⟨S20000x256, .f32⟩ : BufTy).Contents (Elt F) → (⟨S131040x1, .i32⟩ : BufTy).Contents (Elt F) → (⟨S131040x256, .f32⟩ : BufTy).Contents (Elt F))
  :: StableHlo.unary main_arg3 main_v10 ((transpose S256x768 [1, 0] · transposes_S768x256_S256x768_1_0) : (⟨S768x256, .f32⟩ : BufTy).Contents (Elt F) → (⟨S256x768, .f32⟩ : BufTy).Contents (Elt F))
  :: StableHlo.binary main_v9 main_v10 main_v11 ((fun l r => Host.dotGeneral dot_S131040x256_S256x768_S131040x768_1_0_0_1_n_n none l r) : (⟨S131040x256, .f32⟩ : BufTy).Contents (Elt F) → (⟨S256x768, .f32⟩ : BufTy).Contents (Elt F) → (⟨S131040x768, .f32⟩ : BufTy).Contents (Elt F))
  :: StableHlo.nullary main_cst_2 (constant S_ .f32 0x00000000#32)
  :: StableHlo.unary main_cst_2 main_v12 (broadcastInDim S131040x256 ![] bcast_S_S131040x256 : (⟨S_, .f32⟩ : BufTy).Contents (Elt F) → (⟨S131040x256, .f32⟩ : BufTy).Contents (Elt F))
  :: StableHlo.nullary main_cst_3 (constant S_ .f32 0x00000000#32)
  :: StableHlo.unary main_cst_3 main_v13 (broadcastInDim S131040x256 ![] bcast_S_S131040x256 : (⟨S_, .f32⟩ : BufTy).Contents (Elt F) → (⟨S131040x256, .f32⟩ : BufTy).Contents (Elt F))
  :: StableHlo.nullary main_v14 (iotaInDim S32 32 0)
  :: StableHlo.nullary main_c_4 (constantI S_ 32 4095#32)
  :: StableHlo.unary main_c_4 main_v15 (broadcastInDim S32 ![] bcast_S_S32 : (⟨S_, .i32⟩ : BufTy).Contents (Elt F) → (⟨S32, .i32⟩ : BufTy).Contents (Elt F))
  :: StableHlo.binary main_v14 main_v15 main_v16 (muli : (⟨S32, .i32⟩ : BufTy).Contents (Elt F) → (⟨S32, .i32⟩ : BufTy).Contents (Elt F) → (⟨S32, .i32⟩ : BufTy).Contents (Elt F))
  :: StableHlo.unary main_v16 main_v17 (broadcastInDim S32x1 ![0] bcast_S32_S32x1_0 : (⟨S32, .i32⟩ : BufTy).Contents (Elt F) → (⟨S32x1, .i32⟩ : BufTy).Contents (Elt F))
  :: StableHlo.nullary main_c_5 (constantI S_ 32 2047#32)
  :: StableHlo.unary main_c_5 main_v18 (broadcastInDim S32x1 ![] bcast_S_S32x1 : (⟨S_, .i32⟩ : BufTy).Contents (Elt F) → (⟨S32x1, .i32⟩ : BufTy).Contents (Elt F))
  :: StableHlo.binary main_v17 main_v18 main_v19 (addi : (⟨S32x1, .i32⟩ : BufTy).Contents (Elt F) → (⟨S32x1, .i32⟩ : BufTy).Contents (Elt F) → (⟨S32x1, .i32⟩ : BufTy).Contents (Elt F))
  :: StableHlo.nullary main_v20 (iotaInDim S2048 32 0)
  :: StableHlo.unary main_v20 main_v21 (broadcastInDim S1x2048 ![1] bcast_S2048_S1x2048_1 : (⟨S2048, .i32⟩ : BufTy).Contents (Elt F) → (⟨S1x2048, .i32⟩ : BufTy).Contents (Elt F))
  :: StableHlo.unary main_v19 main_v22 (broadcastInDim S32x2048 ![0, 1] bcast_S32x1_S32x2048_0_1 : (⟨S32x1, .i32⟩ : BufTy).Contents (Elt F) → (⟨S32x2048, .i32⟩ : BufTy).Contents (Elt F))
  :: StableHlo.unary main_v21 main_v23 (broadcastInDim S32x2048 ![0, 1] bcast_S1x2048_S32x2048_0_1 : (⟨S1x2048, .i32⟩ : BufTy).Contents (Elt F) → (⟨S32x2048, .i32⟩ : BufTy).Contents (Elt F))
  :: StableHlo.binary main_v22 main_v23 main_v24 (addi : (⟨S32x2048, .i32⟩ : BufTy).Contents (Elt F) → (⟨S32x2048, .i32⟩ : BufTy).Contents (Elt F) → (⟨S32x2048, .i32⟩ : BufTy).Contents (Elt F))
  :: StableHlo.reshape main_v24 main_v25 rfl shapeCasts_S32x2048_S65536
  :: StableHlo.nullary main_c_6 (constantI S_ 32 0#32)
  :: StableHlo.unary main_c_6 main_v26 (broadcastInDim S65536 ![] bcast_S_S65536 : (⟨S_, .i32⟩ : BufTy).Contents (Elt F) → (⟨S65536, .i32⟩ : BufTy).Contents (Elt F))
  :: StableHlo.binary main_v25 main_v26 main_v27 (cmpi .slt : (⟨S65536, .i32⟩ : BufTy).Contents (Elt F) → (⟨S65536, .i32⟩ : BufTy).Contents (Elt F) → (⟨S65536, .i1⟩ : BufTy).Contents (Elt F))
  :: StableHlo.nullary main_c_7 (constantI S_ 32 131040#32)
  :: StableHlo.unary main_c_7 main_v28 (broadcastInDim S65536 ![] bcast_S_S65536 : (⟨S_, .i32⟩ : BufTy).Contents (Elt F) → (⟨S65536, .i32⟩ : BufTy).Contents (Elt F))
  :: StableHlo.binary main_v25 main_v28 main_v29 (addi : (⟨S65536, .i32⟩ : BufTy).Contents (Elt F) → (⟨S65536, .i32⟩ : BufTy).Contents (Elt F) → (⟨S65536, .i32⟩ : BufTy).Contents (Elt F))
  :: StableHlo.ternary main_v27 main_v29 main_v25 main_v30 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v30 main_v31 (broadcastInDim S65536x1 ![0] bcast_S65536_S65536x1_0 : (⟨S65536, .i32⟩ : BufTy).Contents (Elt F) → (⟨S65536x1, .i32⟩ : BufTy).Contents (Elt F))
  :: StableHlo.binary main_v11 main_v31 main_v32 ((fun x i => Host.gather gather_S131040x768_S65536x1_S65536x768_1_0_n_n_0_1_1768 x i) : (⟨S131040x768, .f32⟩ : BufTy).Contents (Elt F) → (⟨S65536x1, .i32⟩ : BufTy).Contents (Elt F) → (⟨S65536x768, .f32⟩ : BufTy).Contents (Elt F))
  :: StableHlo.nullary main_cst_8 (constant S_ .f32 0x00000000#32)
  :: StableHlo.unary main_cst_8 main_v33 (broadcastInDim S65536x256 ![] bcast_S_S65536x256 : (⟨S_, .f32⟩ : BufTy).Contents (Elt F) → (⟨S65536x256, .f32⟩ : BufTy).Contents (Elt F))
  :: StableHlo.unary main_arg5 main_v34 (broadcastInDim S65536x768 ![0, 1] bcast_S1x768_S65536x768_0_1 : (⟨S1x768, .f32⟩ : BufTy).Contents (Elt F) → (⟨S65536x768, .f32⟩ : BufTy).Contents (Elt F))
  :: StableHlo.binary main_v32 main_v34 main_v35 (addf : (⟨S65536x768, .f32⟩ : BufTy).Contents (Elt F) → (⟨S65536x768, .f32⟩ : BufTy).Contents (Elt F) → (⟨S65536x768, .f32⟩ : BufTy).Contents (Elt F))
  :: StableHlo.unary main_v35 main_v36 ((extractStridedSlice S65536x256 ![0, 0] · slices_S65536x768_S65536x256_0_0) : (⟨S65536x768, .f32⟩ : BufTy).Contents (Elt F) → (⟨S65536x256, .f32⟩ : BufTy).Contents (Elt F))
  :: StableHlo.unary main_v35 main_v37 ((extractStridedSlice S65536x256 ![0, 256] · slices_S65536x768_S65536x256_0_256) : (⟨S65536x768, .f32⟩ : BufTy).Contents (Elt F) → (⟨S65536x256, .f32⟩ : BufTy).Contents (Elt F))
  :: StableHlo.unary main_v35 main_v38 ((extractStridedSlice S65536x256 ![0, 512] · slices_S65536x768_S65536x256_0_512) : (⟨S65536x768, .f32⟩ : BufTy).Contents (Elt F) → (⟨S65536x256, .f32⟩ : BufTy).Contents (Elt F))
  :: StableHlo.unary main_v36 main_v39 (Host.negf : (⟨S65536x256, .f32⟩ : BufTy).Contents (Elt F) → (⟨S65536x256, .f32⟩ : BufTy).Contents (Elt F))
  :: StableHlo.unary main_v39 main_v40 (Host.exp : (⟨S65536x256, .f32⟩ : BufTy).Contents (Elt F) → (⟨S65536x256, .f32⟩ : BufTy).Contents (Elt F))
  :: StableHlo.nullary main_cst_9 (constant S_ .f32 0x3F800000#32)
  :: StableHlo.unary main_cst_9 main_v41 (broadcastInDim S65536x256 ![] bcast_S_S65536x256 : (⟨S_, .f32⟩ : BufTy).Contents (Elt F) → (⟨S65536x256, .f32⟩ : BufTy).Contents (Elt F))
  :: StableHlo.binary main_v41 main_v40 main_v42 (addf : (⟨S65536x256, .f32⟩ : BufTy).Contents (Elt F) → (⟨S65536x256, .f32⟩ : BufTy).Contents (Elt F) → (⟨S65536x256, .f32⟩ : BufTy).Contents (Elt F))
  :: StableHlo.nullary main_cst_10 (constant S_ .f32 0x3F800000#32)
  :: StableHlo.unary main_cst_10 main_v43 (broadcastInDim S65536x256 ![] bcast_S_S65536x256 : (⟨S_, .f32⟩ : BufTy).Contents (Elt F) → (⟨S65536x256, .f32⟩ : BufTy).Contents (Elt F))
  :: StableHlo.binary main_v43 main_v42 main_v44 (Host.divf : (⟨S65536x256, .f32⟩ : BufTy).Contents (Elt F) → (⟨S65536x256, .f32⟩ : BufTy).Contents (Elt F) → (⟨S65536x256, .f32⟩ : BufTy).Contents (Elt F))
  :: StableHlo.unary main_v38 main_v45 (Host.tanh : (⟨S65536x256, .f32⟩ : BufTy).Contents (Elt F) → (⟨S65536x256, .f32⟩ : BufTy).Contents (Elt F))
  :: StableHlo.binary main_v44 main_v45 main_v46 (mulf : (⟨S65536x256, .f32⟩ : BufTy).Contents (Elt F) → (⟨S65536x256, .f32⟩ : BufTy).Contents (Elt F) → (⟨S65536x256, .f32⟩ : BufTy).Contents (Elt F))
  :: [] )
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.nullary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub ..⟩
/-- Window 0 of `main` (`main_part0`, statements 1 … 60) is the chain of ITS items ending in the last
    (`Pipeline.chainK`: no closing `pure`, the window's last statement being in tail position), by `chain_rfl`. -/
theorem main_part0_chain (c : Dev nD) : main_part0 (F := F) c = (Pipeline.chainK
  [  ]
  (StableHlo.seq main_part0_ops0) : Prog (TpuEff nD τ sig (Elt F) (Pipeline.Sig Λ₀ (Fin 0) fun p => (pcfgs (F := F) p).Adm) .tc) PUnit) := by
  chain_rfl

/-- 60 host operations of @main, window 1 (statements 61 … 120), in order. -/
abbrev main_part1_ops0 : List (HloOp τ sig (Elt F)) :=
  ( StableHlo.binary main_v46 main_v33 main_v47 (addf : (⟨S65536x256, .f32⟩ : BufTy).Contents (Elt F) → (⟨S65536x256, .f32⟩ : BufTy).Contents (Elt F) → (⟨S65536x256, .f32⟩ : BufTy).Contents (Elt F))
  :: StableHlo.unary main_v37 main_v48 (Host.negf : (⟨S65536x256, .f32⟩ : BufTy).Contents (Elt F) → (⟨S65536x256, .f32⟩ : BufTy).Contents (Elt F))
  :: StableHlo.unary main_v48 main_v49 (Host.exp : (⟨S65536x256, .f32⟩ : BufTy).Contents (Elt F) → (⟨S65536x256, .f32⟩ : BufTy).Contents (Elt F))
  :: StableHlo.nullary main_cst_11 (constant S_ .f32 0x3F800000#32)
  :: StableHlo.unary main_cst_11 main_v50 (broadcastInDim S65536x256 ![] bcast_S_S65536x256 : (⟨S_, .f32⟩ : BufTy).Contents (Elt F) → (⟨S65536x256, .f32⟩ : BufTy).Contents (Elt F))
  :: StableHlo.binary main_v50 main_v49 main_v51 (addf : (⟨S65536x256, .f32⟩ : BufTy).Contents (Elt F) → (⟨S65536x256, .f32⟩ : BufTy).Contents (Elt F) → (⟨S65536x256, .f32⟩ : BufTy).Contents (Elt F))
  :: StableHlo.nullary main_cst_12 (constant S_ .f32 0x3F800000#32)
  :: StableHlo.unary main_cst_12 main_v52 (broadcastInDim S65536x256 ![] bcast_S_S65536x256 : (⟨S_, .f32⟩ : BufTy).Contents (Elt F) → (⟨S65536x256, .f32⟩ : BufTy).Contents (Elt F))
  :: StableHlo.binary main_v52 main_v51 main_v53 (Host.divf : (⟨S65536x256, .f32⟩ : BufTy).Contents (Elt F) → (⟨S65536x256, .f32⟩ : BufTy).Contents (Elt F) → (⟨S65536x256, .f32⟩ : BufTy).Contents (Elt F))
  :: StableHlo.unary main_v47 main_v54 (Host.tanh : (⟨S65536x256, .f32⟩ : BufTy).Contents (Elt F) → (⟨S65536x256, .f32⟩ : BufTy).Contents (Elt F))
  :: StableHlo.binary main_v53 main_v54 main_v55 (mulf : (⟨S65536x256, .f32⟩ : BufTy).Contents (Elt F) → (⟨S65536x256, .f32⟩ : BufTy).Contents (Elt F) → (⟨S65536x256, .f32⟩ : BufTy).Contents (Elt F))
  :: StableHlo.nullary main_c_13 (constantI S_ 32 0#32)
  :: StableHlo.unary main_c_13 main_v56 (broadcastInDim S65536 ![] bcast_S_S65536 : (⟨S_, .i32⟩ : BufTy).Contents (Elt F) → (⟨S65536, .i32⟩ : BufTy).Contents (Elt F))
  :: StableHlo.binary main_v25 main_v56 main_v57 (cmpi .slt : (⟨S65536, .i32⟩ : BufTy).Contents (Elt F) → (⟨S65536, .i32⟩ : BufTy).Contents (Elt F) → (⟨S65536, .i1⟩ : BufTy).Contents (Elt F))
  :: StableHlo.nullary main_c_14 (constantI S_ 32 131040#32)
  :: StableHlo.unary main_c_14 main_v58 (broadcastInDim S65536 ![] bcast_S_S65536 : (⟨S_, .i32⟩ : BufTy).Contents (Elt F) → (⟨S65536, .i32⟩ : BufTy).Contents (Elt F))
  :: StableHlo.binary main_v25 main_v58 main_v59 (addi : (⟨S65536, .i32⟩ : BufTy).Contents (Elt F) → (⟨S65536, .i32⟩ : BufTy).Contents (Elt F) → (⟨S65536, .i32⟩ : BufTy).Contents (Elt F))
  :: StableHlo.ternary main_v57 main_v59 main_v25 main_v60 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v60 main_v61 (broadcastInDim S65536x1 ![0] bcast_S65536_S65536x1_0 : (⟨S65536, .i32⟩ : BufTy).Contents (Elt F) → (⟨S65536x1, .i32⟩ : BufTy).Contents (Elt F))
  :: StableHlo.ternary main_v12 main_v61 main_v55 main_v62 ((fun x i u => Host.scatter scatter_S131040x256_S65536x1_S65536x256_1_0_0_1 (fun _ b => b) x i u) : (⟨S131040x256, .f32⟩ : BufTy).Contents (Elt F) → (⟨S65536x1, .i32⟩ : BufTy).Contents (Elt F) → (⟨S65536x256, .f32⟩ : BufTy).Contents (Elt F) → (⟨S131040x256, .f32⟩ : BufTy).Contents (Elt F))
  :: StableHlo.nullary main_c_15 (constantI S_ 32 0#32)
  :: StableHlo.unary main_c_15 main_v63 (broadcastInDim S65536 ![] bcast_S_S65536 : (⟨S_, .i32⟩ : BufTy).Contents (Elt F) → (⟨S65536, .i32⟩ : BufTy).Contents (Elt F))
  :: StableHlo.binary main_v25 main_v63 main_v64 (cmpi .slt : (⟨S65536, .i32⟩ : BufTy).Contents (Elt F) → (⟨S65536, .i32⟩ : BufTy).Contents (Elt F) → (⟨S65536, .i1⟩ : BufTy).Contents (Elt F))
  :: StableHlo.nullary main_c_16 (constantI S_ 32 131040#32)
  :: StableHlo.unary main_c_16 main_v65 (broadcastInDim S65536 ![] bcast_S_S65536 : (⟨S_, .i32⟩ : BufTy).Contents (Elt F) → (⟨S65536, .i32⟩ : BufTy).Contents (Elt F))
  :: StableHlo.binary main_v25 main_v65 main_v66 (addi : (⟨S65536, .i32⟩ : BufTy).Contents (Elt F) → (⟨S65536, .i32⟩ : BufTy).Contents (Elt F) → (⟨S65536, .i32⟩ : BufTy).Contents (Elt F))
  :: StableHlo.ternary main_v64 main_v66 main_v25 main_v67 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F))
  :: StableHlo.unary main_v67 main_v68 (broadcastInDim S65536x1 ![0] bcast_S65536_S65536x1_0 : (⟨S65536, .i32⟩ : BufTy).Contents (Elt F) → (⟨S65536x1, .i32⟩ : BufTy).Contents (Elt F))
  :: StableHlo.ternary main_v13 main_v68 main_v47 main_v69 ((fun x i u => Host.scatter scatter_S131040x256_S65536x1_S65536x256_1_0_0_1 (fun _ b => b) x i u) : (⟨S131040x256, .f32⟩ : BufTy).Contents (Elt F) → (⟨S65536x1, .i32⟩ : BufTy).Contents (Elt F) → (⟨S65536x256, .f32⟩ : BufTy).Contents (Elt F) → (⟨S131040x256, .f32⟩ : BufTy).Contents (Elt F))
  :: StableHlo.unary main_v16 main_v70 (broadcastInDim S32x1 ![0] bcast_S32_S32x1_0 : (⟨S32, .i32⟩ : BufTy).Contents (Elt F) → (⟨S32x1, .i32⟩ : BufTy).Contents (Elt F))
  :: StableHlo.nullary main_c_17 (constantI S_ 32 1023#32)
  :: StableHlo.unary main_c_17 main_v71 (broadcastInDim S32x1 ![] bcast_S_S32x1 : (⟨S_, .i32⟩ : BufTy).Contents (Elt F) → (⟨S32x1, .i32⟩ : BufTy).Contents (Elt F))
  :: StableHlo.binary main_v70 main_v71 main_v72 (addi : (⟨S32x1, .i32⟩ : BufTy).Contents (Elt F) → (⟨S32x1, .i32⟩ : BufTy).Contents (Elt F) → (⟨S32x1, .i32⟩ : BufTy).Contents (Elt F))
  :: StableHlo.nullary main_v73 (iotaInDim S1024 32 0)
  :: StableHlo.unary main_v73 main_v74 (broadcastInDim S1x1024 ![1] bcast_S1024_S1x1024_1 : (⟨S1024, .i32⟩ : BufTy).Contents (Elt F) → (⟨S1x1024, .i32⟩ : BufTy).Contents (Elt F))
  :: StableHlo.unary main_v72 main_v75 (broadcastInDim S32x1024 ![0, 1] bcast_S32x1_S32x1024_0_1 : (⟨S32x1, .i32⟩ : BufTy).Contents (Elt F) → (⟨S32x1024, .i32⟩ : BufTy).Contents (Elt F))
  :: StableHlo.unary main_v74 main_v76 (broadcastInDim S32x1024 ![0, 1] bcast_S1x1024_S32x1024_0_1 : (⟨S1x1024, .i32⟩ : BufTy).Contents (Elt F) → (⟨S32x1024, .i32⟩ : BufTy).Contents (Elt F))
  :: StableHlo.binary main_v75 main_v76 main_v77 (addi : (⟨S32x1024, .i32⟩ : BufTy).Contents (Elt F) → (⟨S32x1024, .i32⟩ : BufTy).Contents (Elt F) → (⟨S32x1024, .i32⟩ : BufTy).Contents (Elt F))
  :: StableHlo.reshape main_v77 main_v78 rfl shapeCasts_S32x1024_S32768
  :: StableHlo.nullary main_c_18 (constantI S_ 32 0#32)
  :: StableHlo.unary main_c_18 main_v79 (broadcastInDim S32768 ![] bcast_S_S32768 : (⟨S_, .i32⟩ : BufTy).Contents (Elt F) → (⟨S32768, .i32⟩ : BufTy).Contents (Elt F))
  :: StableHlo.binary main_v78 main_v79 main_v80 (cmpi .slt : (⟨S32768, .i32⟩ : BufTy).Contents (Elt F) → (⟨S32768, .i32⟩ : BufTy).Contents (Elt F) → (⟨S32768, .i1⟩ : BufTy).Contents (Elt F))
  :: StableHlo.nullary main_c_19 (constantI S_ 32 131040#32)
  :: StableHlo.unary main_c_19 main_v81 (broadcastInDim S32768 ![] bcast_S_S32768 : (⟨S_, .i32⟩ : BufTy).Contents (Elt F) → (⟨S32768, .i32⟩ : BufTy).Contents (Elt F))
  :: StableHlo.binary main_v78 main_v81 main_v82 (addi : (⟨S32768, .i32⟩ : BufTy).Contents (Elt F) → (⟨S32768, .i32⟩ : BufTy).Contents (Elt F) → (⟨S32768, .i32⟩ : BufTy).Contents (Elt F))
  :: StableHlo.ternary main_v80 main_v82 main_v78 main_v83 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v83 main_v84 (broadcastInDim S32768x1 ![0] bcast_S32768_S32768x1_0 : (⟨S32768, .i32⟩ : BufTy).Contents (Elt F) → (⟨S32768x1, .i32⟩ : BufTy).Contents (Elt F))
  :: StableHlo.binary main_v11 main_v84 main_v85 ((fun x i => Host.gather gather_S131040x768_S32768x1_S32768x768_1_0_n_n_0_1_1768 x i) : (⟨S131040x768, .f32⟩ : BufTy).Contents (Elt F) → (⟨S32768x1, .i32⟩ : BufTy).Contents (Elt F) → (⟨S32768x768, .f32⟩ : BufTy).Contents (Elt F))
  :: StableHlo.unary main_v16 main_v86 (broadcastInDim S32x1 ![0] bcast_S32_S32x1_0 : (⟨S32, .i32⟩ : BufTy).Contents (Elt F) → (⟨S32x1, .i32⟩ : BufTy).Contents (Elt F))
  :: StableHlo.nullary main_c_20 (constantI S_ 32 2047#32)
  :: StableHlo.unary main_c_20 main_v87 (broadcastInDim S32x1 ![] bcast_S_S32x1 : (⟨S_, .i32⟩ : BufTy).Contents (Elt F) → (⟨S32x1, .i32⟩ : BufTy).Contents (Elt F))
  :: StableHlo.binary main_v86 main_v87 main_v88 (addi : (⟨S32x1, .i32⟩ : BufTy).Contents (Elt F) → (⟨S32x1, .i32⟩ : BufTy).Contents (Elt F) → (⟨S32x1, .i32⟩ : BufTy).Contents (Elt F))
  :: StableHlo.nullary main_v89 (iotaInDim S2048 32 0)
  :: StableHlo.unary main_v89 main_v90 (broadcastInDim S1x2048 ![1] bcast_S2048_S1x2048_1 : (⟨S2048, .i32⟩ : BufTy).Contents (Elt F) → (⟨S1x2048, .i32⟩ : BufTy).Contents (Elt F))
  :: StableHlo.unary main_v88 main_v91 (broadcastInDim S32x2048 ![0, 1] bcast_S32x1_S32x2048_0_1 : (⟨S32x1, .i32⟩ : BufTy).Contents (Elt F) → (⟨S32x2048, .i32⟩ : BufTy).Contents (Elt F))
  :: StableHlo.unary main_v90 main_v92 (broadcastInDim S32x2048 ![0, 1] bcast_S1x2048_S32x2048_0_1 : (⟨S1x2048, .i32⟩ : BufTy).Contents (Elt F) → (⟨S32x2048, .i32⟩ : BufTy).Contents (Elt F))
  :: StableHlo.binary main_v91 main_v92 main_v93 (addi : (⟨S32x2048, .i32⟩ : BufTy).Contents (Elt F) → (⟨S32x2048, .i32⟩ : BufTy).Contents (Elt F) → (⟨S32x2048, .i32⟩ : BufTy).Contents (Elt F))
  :: StableHlo.reshape main_v93 main_v94 rfl shapeCasts_S32x2048_S65536
  :: StableHlo.nullary main_c_21 (constantI S_ 32 0#32)
  :: StableHlo.unary main_c_21 main_v95 (broadcastInDim S65536 ![] bcast_S_S65536 : (⟨S_, .i32⟩ : BufTy).Contents (Elt F) → (⟨S65536, .i32⟩ : BufTy).Contents (Elt F))
  :: [] )
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub ..⟩
/-- Window 1 of `main` (`main_part1`, statements 61 … 120) is the chain of ITS items ending in the last
    (`Pipeline.chainK`: no closing `pure`, the window's last statement being in tail position), by `chain_rfl`. -/
theorem main_part1_chain (c : Dev nD) : main_part1 (F := F) c = (Pipeline.chainK
  [  ]
  (StableHlo.seq main_part1_ops0) : Prog (TpuEff nD τ sig (Elt F) (Pipeline.Sig Λ₀ (Fin 0) fun p => (pcfgs (F := F) p).Adm) .tc) PUnit) := by
  chain_rfl

/-- 26 host operations of @main, window 2 (statements 121 … 180), in order. -/
abbrev main_part2_ops0 : List (HloOp τ sig (Elt F)) :=
  [ StableHlo.binary main_v94 main_v95 main_v96 (cmpi .slt : (⟨S65536, .i32⟩ : BufTy).Contents (Elt F) → (⟨S65536, .i32⟩ : BufTy).Contents (Elt F) → (⟨S65536, .i1⟩ : BufTy).Contents (Elt F)),
    StableHlo.nullary main_c_22 (constantI S_ 32 131040#32),
    StableHlo.unary main_c_22 main_v97 (broadcastInDim S65536 ![] bcast_S_S65536 : (⟨S_, .i32⟩ : BufTy).Contents (Elt F) → (⟨S65536, .i32⟩ : BufTy).Contents (Elt F)),
    StableHlo.binary main_v94 main_v97 main_v98 (addi : (⟨S65536, .i32⟩ : BufTy).Contents (Elt F) → (⟨S65536, .i32⟩ : BufTy).Contents (Elt F) → (⟨S65536, .i32⟩ : BufTy).Contents (Elt F)),
    StableHlo.ternary main_v96 main_v98 main_v94 main_v99 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v99 main_v100 (broadcastInDim S65536x1 ![0] bcast_S65536_S65536x1_0 : (⟨S65536, .i32⟩ : BufTy).Contents (Elt F) → (⟨S65536x1, .i32⟩ : BufTy).Contents (Elt F)),
    StableHlo.binary main_v62 main_v100 main_v101 ((fun x i => Host.gather gather_S131040x256_S65536x1_S65536x256_1_0_n_n_0_1_1256 x i) : (⟨S131040x256, .f32⟩ : BufTy).Contents (Elt F) → (⟨S65536x1, .i32⟩ : BufTy).Contents (Elt F) → (⟨S65536x256, .f32⟩ : BufTy).Contents (Elt F)),
    StableHlo.nullary main_c_23 (constantI S_ 32 0#32),
    StableHlo.unary main_c_23 main_v102 (broadcastInDim S65536 ![] bcast_S_S65536 : (⟨S_, .i32⟩ : BufTy).Contents (Elt F) → (⟨S65536, .i32⟩ : BufTy).Contents (Elt F)),
    StableHlo.binary main_v94 main_v102 main_v103 (cmpi .slt : (⟨S65536, .i32⟩ : BufTy).Contents (Elt F) → (⟨S65536, .i32⟩ : BufTy).Contents (Elt F) → (⟨S65536, .i1⟩ : BufTy).Contents (Elt F)),
    StableHlo.nullary main_c_24 (constantI S_ 32 131040#32),
    StableHlo.unary main_c_24 main_v104 (broadcastInDim S65536 ![] bcast_S_S65536 : (⟨S_, .i32⟩ : BufTy).Contents (Elt F) → (⟨S65536, .i32⟩ : BufTy).Contents (Elt F)),
    StableHlo.binary main_v94 main_v104 main_v105 (addi : (⟨S65536, .i32⟩ : BufTy).Contents (Elt F) → (⟨S65536, .i32⟩ : BufTy).Contents (Elt F) → (⟨S65536, .i32⟩ : BufTy).Contents (Elt F)),
    StableHlo.ternary main_v103 main_v105 main_v94 main_v106 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v106 main_v107 (broadcastInDim S65536x1 ![0] bcast_S65536_S65536x1_0 : (⟨S65536, .i32⟩ : BufTy).Contents (Elt F) → (⟨S65536x1, .i32⟩ : BufTy).Contents (Elt F)),
    StableHlo.binary main_v69 main_v107 main_v108 ((fun x i => Host.gather gather_S131040x256_S65536x1_S65536x256_1_0_n_n_0_1_1256 x i) : (⟨S131040x256, .f32⟩ : BufTy).Contents (Elt F) → (⟨S65536x1, .i32⟩ : BufTy).Contents (Elt F) → (⟨S65536x256, .f32⟩ : BufTy).Contents (Elt F)),
    StableHlo.nullary main_c_25 (constantI S_ 32 0#32),
    StableHlo.unary main_c_25 main_v109 (broadcastInDim S65536 ![] bcast_S_S65536 : (⟨S_, .i32⟩ : BufTy).Contents (Elt F) → (⟨S65536, .i32⟩ : BufTy).Contents (Elt F)),
    StableHlo.binary main_v94 main_v109 main_v110 (cmpi .slt : (⟨S65536, .i32⟩ : BufTy).Contents (Elt F) → (⟨S65536, .i32⟩ : BufTy).Contents (Elt F) → (⟨S65536, .i1⟩ : BufTy).Contents (Elt F)),
    StableHlo.nullary main_c_26 (constantI S_ 32 131040#32),
    StableHlo.unary main_c_26 main_v111 (broadcastInDim S65536 ![] bcast_S_S65536 : (⟨S_, .i32⟩ : BufTy).Contents (Elt F) → (⟨S65536, .i32⟩ : BufTy).Contents (Elt F)),
    StableHlo.binary main_v94 main_v111 main_v112 (addi : (⟨S65536, .i32⟩ : BufTy).Contents (Elt F) → (⟨S65536, .i32⟩ : BufTy).Contents (Elt F) → (⟨S65536, .i32⟩ : BufTy).Contents (Elt F)),
    StableHlo.ternary main_v110 main_v112 main_v94 main_v113 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v113 main_v114 (broadcastInDim S65536x1 ![0] bcast_S65536_S65536x1_0 : (⟨S65536, .i32⟩ : BufTy).Contents (Elt F) → (⟨S65536x1, .i32⟩ : BufTy).Contents (Elt F)),
    StableHlo.binary main_arg1 main_v114 main_v115 ((fun x i => Host.gather gather_S131040_S65536x1_S65536_n_0_n_n_0_1_1 x i) : (⟨S131040, .i32⟩ : BufTy).Contents (Elt F) → (⟨S65536x1, .i32⟩ : BufTy).Contents (Elt F) → (⟨S65536, .i32⟩ : BufTy).Contents (Elt F)),
    StableHlo.nullary main_c_27 (constantI S_ 32 4095#32) ]
/-- Each touches TensorCore references only (`HostSeg.ofOps` over `StableHlo.tcRefs`, or a subset by `sub_ucRefs`). -/
theorem main_part2_ops0_sub : (main_part2_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide (main_call0), window 2 (statements 121 … 180), in order. -/
abbrev main_part2_ops1 : List (HloOp τ sig (Elt F)) :=
  [ StableHlo.TRef.unary (.of main_c_27 : StableHlo.TRef sig ⟨S_, .i32⟩) (.of main_call0_v0 : StableHlo.TRef sig ⟨S_, .i32⟩) id,
    StableHlo.TRef.unary (.of main_call0_v0 : StableHlo.TRef sig ⟨S_, .i32⟩) (.of main_call0_v1 : StableHlo.TRef sig ⟨S65536, .i32⟩) (broadcastInDim S65536 ![] bcast_S_S65536),
    StableHlo.TRef.binary (.of main_v115 : StableHlo.TRef sig ⟨S65536, .i32⟩) (.of main_call0_v1 : StableHlo.TRef sig ⟨S65536, .i32⟩) (.of main_call0_v2 : StableHlo.TRef sig ⟨S65536, .i32⟩) Host.divsi,
    StableHlo.TRef.unary (.of main_v115 : StableHlo.TRef sig ⟨S65536, .i32⟩) (.of main_call0_v3 : StableHlo.TRef sig ⟨S65536, .i32⟩) signi,
    StableHlo.TRef.unary (.of main_call0_v0 : StableHlo.TRef sig ⟨S_, .i32⟩) (.of main_call0_v4 : StableHlo.TRef sig ⟨S_, .i32⟩) signi,
    StableHlo.TRef.unary (.of main_call0_v4 : StableHlo.TRef sig ⟨S_, .i32⟩) (.of main_call0_v5 : StableHlo.TRef sig ⟨S65536, .i32⟩) (broadcastInDim S65536 ![] bcast_S_S65536),
    StableHlo.TRef.binary (.of main_call0_v3 : StableHlo.TRef sig ⟨S65536, .i32⟩) (.of main_call0_v5 : StableHlo.TRef sig ⟨S65536, .i32⟩) (.of main_call0_v6 : StableHlo.TRef sig ⟨S65536, .i1⟩) (cmpi .ne),
    StableHlo.TRef.unary (.of main_call0_v0 : StableHlo.TRef sig ⟨S_, .i32⟩) (.of main_call0_v7 : StableHlo.TRef sig ⟨S65536, .i32⟩) (broadcastInDim S65536 ![] bcast_S_S65536),
    StableHlo.TRef.binary (.of main_v115 : StableHlo.TRef sig ⟨S65536, .i32⟩) (.of main_call0_v7 : StableHlo.TRef sig ⟨S65536, .i32⟩) (.of main_call0_v8 : StableHlo.TRef sig ⟨S65536, .i32⟩) Host.remsi,
    StableHlo.TRef.nullary (.of main_call0_c : StableHlo.TRef sig ⟨S_, .i32⟩) (constantI S_ 32 0#32),
    StableHlo.TRef.unary (.of main_call0_c : StableHlo.TRef sig ⟨S_, .i32⟩) (.of main_call0_v9 : StableHlo.TRef sig ⟨S65536, .i32⟩) (broadcastInDim S65536 ![] bcast_S_S65536),
    StableHlo.TRef.binary (.of main_call0_v8 : StableHlo.TRef sig ⟨S65536, .i32⟩) (.of main_call0_v9 : StableHlo.TRef sig ⟨S65536, .i32⟩) (.of main_call0_v10 : StableHlo.TRef sig ⟨S65536, .i1⟩) (cmpi .ne),
    StableHlo.TRef.binary (.of main_call0_v6 : StableHlo.TRef sig ⟨S65536, .i1⟩) (.of main_call0_v10 : StableHlo.TRef sig ⟨S65536, .i1⟩) (.of main_call0_v11 : StableHlo.TRef sig ⟨S65536, .i1⟩) andi,
    StableHlo.TRef.nullary (.of main_call0_c_0 : StableHlo.TRef sig ⟨S_, .i32⟩) (constantI S_ 32 1#32),
    StableHlo.TRef.unary (.of main_call0_c_0 : StableHlo.TRef sig ⟨S_, .i32⟩) (.of main_call0_v12 : StableHlo.TRef sig ⟨S65536, .i32⟩) (broadcastInDim S65536 ![] bcast_S_S65536),
    StableHlo.TRef.binary (.of main_call0_v2 : StableHlo.TRef sig ⟨S65536, .i32⟩) (.of main_call0_v12 : StableHlo.TRef sig ⟨S65536, .i32⟩) (.of main_call0_v13 : StableHlo.TRef sig ⟨S65536, .i32⟩) subi,
    StableHlo.TRef.ternary (.of main_call0_v11 : StableHlo.TRef sig ⟨S65536, .i1⟩) (.of main_call0_v13 : StableHlo.TRef sig ⟨S65536, .i32⟩) (.of main_call0_v2 : StableHlo.TRef sig ⟨S65536, .i32⟩) (.of main_v116 : StableHlo.TRef sig ⟨S65536, .i32⟩) select ]
/-- Each touches TensorCore references only (`HostSeg.ofOps` over `StableHlo.tcRefs`, or a subset by `sub_ucRefs`). -/
theorem main_part2_ops1_sub : (main_part2_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 2 (statements 121 … 180), in order. -/
abbrev main_part2_ops2 : List (HloOp τ sig (Elt F)) :=
  [ StableHlo.nullary main_c_28 (constantI S_ 32 1024#32),
    StableHlo.unary main_c_28 main_v117 (broadcastInDim S65536 ![] bcast_S_S65536 : (⟨S_, .i32⟩ : BufTy).Contents (Elt F) → (⟨S65536, .i32⟩ : BufTy).Contents (Elt F)),
    StableHlo.binary main_v116 main_v117 main_v118 (muli : (⟨S65536, .i32⟩ : BufTy).Contents (Elt F) → (⟨S65536, .i32⟩ : BufTy).Contents (Elt F) → (⟨S65536, .i32⟩ : BufTy).Contents (Elt F)),
    StableHlo.nullary main_c_29 (constantI S_ 32 4095#32) ]
/-- Each touches TensorCore references only (`HostSeg.ofOps` over `StableHlo.tcRefs`, or a subset by `sub_ucRefs`). -/
theorem main_part2_ops2_sub : (main_part2_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder (main_call1), window 2 (statements 121 … 180), in order. -/
abbrev main_part2_ops3 : List (HloOp τ sig (Elt F)) :=
  [ StableHlo.TRef.unary (.of main_c_29 : StableHlo.TRef sig ⟨S_, .i32⟩) (.of main_call1_v0 : StableHlo.TRef sig ⟨S_, .i32⟩) id,
    StableHlo.TRef.nullary (.of main_call1_c : StableHlo.TRef sig ⟨S_, .i32⟩) (constantI S_ 32 0#32),
    StableHlo.TRef.binary (.of main_call1_v0 : StableHlo.TRef sig ⟨S_, .i32⟩) (.of main_call1_c : StableHlo.TRef sig ⟨S_, .i32⟩) (.of main_call1_v1 : StableHlo.TRef sig ⟨S_, .i1⟩) (cmpi .eq),
    StableHlo.TRef.nullary (.of main_call1_c_0 : StableHlo.TRef sig ⟨S_, .i32⟩) (constantI S_ 32 1#32),
    StableHlo.TRef.ternary (.of main_call1_v1 : StableHlo.TRef sig ⟨S_, .i1⟩) (.of main_call1_c_0 : StableHlo.TRef sig ⟨S_, .i32⟩) (.of main_call1_v0 : StableHlo.TRef sig ⟨S_, .i32⟩) (.of main_call1_v2 : StableHlo.TRef sig ⟨S_, .i32⟩) select,
    StableHlo.TRef.unary main_call1_call0.v0 (.of main_call1_v3 : StableHlo.TRef sig ⟨S65536, .i32⟩) (broadcastInDim S65536 ![] bcast_S_S65536),
    StableHlo.TRef.binary (.of main_v115 : StableHlo.TRef sig ⟨S65536, .i32⟩) (.of main_call1_v3 : StableHlo.TRef sig ⟨S65536, .i32⟩) (.of main_call1_v4 : StableHlo.TRef sig ⟨S65536, .i32⟩) Host.remsi,
    StableHlo.TRef.nullary (.of main_call1_c_1 : StableHlo.TRef sig ⟨S_, .i32⟩) (constantI S_ 32 0#32),
    StableHlo.TRef.unary (.of main_call1_c_1 : StableHlo.TRef sig ⟨S_, .i32⟩) (.of main_call1_v5 : StableHlo.TRef sig ⟨S65536, .i32⟩) (broadcastInDim S65536 ![] bcast_S_S65536),
    StableHlo.TRef.binary (.of main_call1_v4 : StableHlo.TRef sig ⟨S65536, .i32⟩) (.of main_call1_v5 : StableHlo.TRef sig ⟨S65536, .i32⟩) (.of main_call1_v6 : StableHlo.TRef sig ⟨S65536, .i1⟩) (cmpi .ne),
    StableHlo.TRef.nullary (.of main_call1_c_2 : StableHlo.TRef sig ⟨S_, .i32⟩) (constantI S_ 32 0#32),
    StableHlo.TRef.unary (.of main_call1_c_2 : StableHlo.TRef sig ⟨S_, .i32⟩) (.of main_call1_v7 : StableHlo.TRef sig ⟨S65536, .i32⟩) (broadcastInDim S65536 ![] bcast_S_S65536),
    StableHlo.TRef.binary (.of main_call1_v4 : StableHlo.TRef sig ⟨S65536, .i32⟩) (.of main_call1_v7 : StableHlo.TRef sig ⟨S65536, .i32⟩) (.of main_call1_v8 : StableHlo.TRef sig ⟨S65536, .i1⟩) (cmpi .slt),
    StableHlo.TRef.nullary (.of main_call1_c_3 : StableHlo.TRef sig ⟨S_, .i32⟩) (constantI S_ 32 0#32),
    StableHlo.TRef.binary main_call1_call0.v0 (.of main_call1_c_3 : StableHlo.TRef sig ⟨S_, .i32⟩) (.of main_call1_v9 : StableHlo.TRef sig ⟨S_, .i1⟩) (cmpi .slt),
    StableHlo.TRef.unary (.of main_call1_v9 : StableHlo.TRef sig ⟨S_, .i1⟩) (.of main_call1_v10 : StableHlo.TRef sig ⟨S65536, .i1⟩) (broadcastInDim S65536 ![] bcast_S_S65536),
    StableHlo.TRef.binary (.of main_call1_v8 : StableHlo.TRef sig ⟨S65536, .i1⟩) (.of main_call1_v10 : StableHlo.TRef sig ⟨S65536, .i1⟩) (.of main_call1_v11 : StableHlo.TRef sig ⟨S65536, .i1⟩) (cmpi .ne),
    StableHlo.TRef.binary (.of main_call1_v11 : StableHlo.TRef sig ⟨S65536, .i1⟩) (.of main_call1_v6 : StableHlo.TRef sig ⟨S65536, .i1⟩) (.of main_call1_v12 : StableHlo.TRef sig ⟨S65536, .i1⟩) andi,
    StableHlo.TRef.unary main_call1_call0.v0 (.of main_call1_v13 : StableHlo.TRef sig ⟨S65536, .i32⟩) (broadcastInDim S65536 ![] bcast_S_S65536),
    StableHlo.TRef.binary (.of main_call1_v4 : StableHlo.TRef sig ⟨S65536, .i32⟩) (.of main_call1_v13 : StableHlo.TRef sig ⟨S65536, .i32⟩) (.of main_call1_v14 : StableHlo.TRef sig ⟨S65536, .i32⟩) addi,
    StableHlo.TRef.ternary (.of main_call1_v12 : StableHlo.TRef sig ⟨S65536, .i1⟩) (.of main_call1_v14 : StableHlo.TRef sig ⟨S65536, .i32⟩) (.of main_call1_v4 : StableHlo.TRef sig ⟨S65536, .i32⟩) (.of main_v119 : StableHlo.TRef sig ⟨S65536, .i32⟩) select ]
/-- Each touches TensorCore references only (`HostSeg.ofOps` over `StableHlo.tcRefs`, or a subset by `sub_ucRefs`). -/
theorem main_part2_ops3_sub : (main_part2_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 28 host operations of @main, window 2 (statements 121 … 180), in order. -/
abbrev main_part2_ops4 : List (HloOp τ sig (Elt F)) :=
  [ StableHlo.nullary main_c_30 (constantI S_ 32 1023#32),
    StableHlo.unary main_c_30 main_v120 (broadcastInDim S65536 ![] bcast_S_S65536 : (⟨S_, .i32⟩ : BufTy).Contents (Elt F) → (⟨S65536, .i32⟩ : BufTy).Contents (Elt F)),
    StableHlo.binary main_v119 main_v120 main_v121 (subi : (⟨S65536, .i32⟩ : BufTy).Contents (Elt F) → (⟨S65536, .i32⟩ : BufTy).Contents (Elt F) → (⟨S65536, .i32⟩ : BufTy).Contents (Elt F)),
    StableHlo.binary main_v118 main_v121 main_v122 (addi : (⟨S65536, .i32⟩ : BufTy).Contents (Elt F) → (⟨S65536, .i32⟩ : BufTy).Contents (Elt F) → (⟨S65536, .i32⟩ : BufTy).Contents (Elt F)),
    StableHlo.unary main_arg6 main_v123 ((transpose S256x256 [1, 0] · transposes_S256x256_S256x256_1_0) : (⟨S256x256, .f32⟩ : BufTy).Contents (Elt F) → (⟨S256x256, .f32⟩ : BufTy).Contents (Elt F)),
    StableHlo.binary main_v101 main_v123 main_v124 ((fun l r => Host.dotGeneral dot_S65536x256_S256x256_S65536x256_1_0_0_1_n_n none l r) : (⟨S65536x256, .f32⟩ : BufTy).Contents (Elt F) → (⟨S256x256, .f32⟩ : BufTy).Contents (Elt F) → (⟨S65536x256, .f32⟩ : BufTy).Contents (Elt F)),
    StableHlo.unary main_arg7 main_v125 (broadcastInDim S1x256 ![1] bcast_S256_S1x256_1 : (⟨S256, .f32⟩ : BufTy).Contents (Elt F) → (⟨S1x256, .f32⟩ : BufTy).Contents (Elt F)),
    StableHlo.unary main_v125 main_v126 (broadcastInDim S65536x256 ![0, 1] bcast_S1x256_S65536x256_0_1 : (⟨S1x256, .f32⟩ : BufTy).Contents (Elt F) → (⟨S65536x256, .f32⟩ : BufTy).Contents (Elt F)),
    StableHlo.binary main_v124 main_v126 main_v127 (addf : (⟨S65536x256, .f32⟩ : BufTy).Contents (Elt F) → (⟨S65536x256, .f32⟩ : BufTy).Contents (Elt F) → (⟨S65536x256, .f32⟩ : BufTy).Contents (Elt F)),
    StableHlo.unary main_v127 main_v128 (Host.negf : (⟨S65536x256, .f32⟩ : BufTy).Contents (Elt F) → (⟨S65536x256, .f32⟩ : BufTy).Contents (Elt F)),
    StableHlo.unary main_v128 main_v129 (Host.exp : (⟨S65536x256, .f32⟩ : BufTy).Contents (Elt F) → (⟨S65536x256, .f32⟩ : BufTy).Contents (Elt F)),
    StableHlo.nullary main_cst_31 (constant S_ .f32 0x3F800000#32),
    StableHlo.unary main_cst_31 main_v130 (broadcastInDim S65536x256 ![] bcast_S_S65536x256 : (⟨S_, .f32⟩ : BufTy).Contents (Elt F) → (⟨S65536x256, .f32⟩ : BufTy).Contents (Elt F)),
    StableHlo.binary main_v130 main_v129 main_v131 (addf : (⟨S65536x256, .f32⟩ : BufTy).Contents (Elt F) → (⟨S65536x256, .f32⟩ : BufTy).Contents (Elt F) → (⟨S65536x256, .f32⟩ : BufTy).Contents (Elt F)),
    StableHlo.nullary main_cst_32 (constant S_ .f32 0x3F800000#32),
    StableHlo.unary main_cst_32 main_v132 (broadcastInDim S65536x256 ![] bcast_S_S65536x256 : (⟨S_, .f32⟩ : BufTy).Contents (Elt F) → (⟨S65536x256, .f32⟩ : BufTy).Contents (Elt F)),
    StableHlo.binary main_v132 main_v131 main_v133 (Host.divf : (⟨S65536x256, .f32⟩ : BufTy).Contents (Elt F) → (⟨S65536x256, .f32⟩ : BufTy).Contents (Elt F) → (⟨S65536x256, .f32⟩ : BufTy).Contents (Elt F)),
    StableHlo.nullary main_cst_33 (constant S_ .f32 0x00000000#32),
    StableHlo.unary main_cst_33 main_v134 (broadcastInDim S32768x256 ![] bcast_S_S32768x256 : (⟨S_, .f32⟩ : BufTy).Contents (Elt F) → (⟨S32768x256, .f32⟩ : BufTy).Contents (Elt F)),
    StableHlo.unary main_v122 main_v135 (broadcastInDim S65536x1 ![0] bcast_S65536_S65536x1_0 : (⟨S65536, .i32⟩ : BufTy).Contents (Elt F) → (⟨S65536x1, .i32⟩ : BufTy).Contents (Elt F)),
    StableHlo.ternary main_v134 main_v135 main_v101 main_v136 ((fun x i u => Host.scatterAdd scatter_S32768x256_S65536x1_S65536x256_1_0_0_1 x i u) : (⟨S32768x256, .f32⟩ : BufTy).Contents (Elt F) → (⟨S65536x1, .i32⟩ : BufTy).Contents (Elt F) → (⟨S65536x256, .f32⟩ : BufTy).Contents (Elt F) → (⟨S32768x256, .f32⟩ : BufTy).Contents (Elt F)),
    StableHlo.binary main_v133 main_v108 main_v137 (mulf : (⟨S65536x256, .f32⟩ : BufTy).Contents (Elt F) → (⟨S65536x256, .f32⟩ : BufTy).Contents (Elt F) → (⟨S65536x256, .f32⟩ : BufTy).Contents (Elt F)),
    StableHlo.nullary main_cst_34 (constant S_ .f32 0x00000000#32),
    StableHlo.unary main_cst_34 main_v138 (broadcastInDim S32768x256 ![] bcast_S_S32768x256 : (⟨S_, .f32⟩ : BufTy).Contents (Elt F) → (⟨S32768x256, .f32⟩ : BufTy).Contents (Elt F)),
    StableHlo.unary main_v122 main_v139 (broadcastInDim S65536x1 ![0] bcast_S65536_S65536x1_0 : (⟨S65536, .i32⟩ : BufTy).Contents (Elt F) → (⟨S65536x1, .i32⟩ : BufTy).Contents (Elt F)),
    StableHlo.ternary main_v138 main_v139 main_v137 main_v140 ((fun x i u => Host.scatterAdd scatter_S32768x256_S65536x1_S65536x256_1_0_0_1 x i u) : (⟨S32768x256, .f32⟩ : BufTy).Contents (Elt F) → (⟨S65536x1, .i32⟩ : BufTy).Contents (Elt F) → (⟨S65536x256, .f32⟩ : BufTy).Contents (Elt F) → (⟨S32768x256, .f32⟩ : BufTy).Contents (Elt F)),
    StableHlo.unary main_arg4 main_v141 ((transpose S256x768 [1, 0] · transposes_S768x256_S256x768_1_0) : (⟨S768x256, .f32⟩ : BufTy).Contents (Elt F) → (⟨S256x768, .f32⟩ : BufTy).Contents (Elt F)),
    StableHlo.binary main_v136 main_v141 main_v142 ((fun l r => Host.dotGeneral dot_S32768x256_S256x768_S32768x768_1_0_0_1_n_n none l r) : (⟨S32768x256, .f32⟩ : BufTy).Contents (Elt F) → (⟨S256x768, .f32⟩ : BufTy).Contents (Elt F) → (⟨S32768x768, .f32⟩ : BufTy).Contents (Elt F)) ]
/-- Each touches TensorCore references only (`HostSeg.ofOps` over `StableHlo.tcRefs`, or a subset by `sub_ucRefs`). -/
theorem main_part2_ops4_sub : (main_part2_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub ..⟩
/-- Window 2 of `main` (`main_part2`, statements 121 … 180) is the chain of ITS items ending in the last
    (`Pipeline.chainK`: no closing `pure`, the window's last statement being in tail position), by `chain_rfl`. -/
theorem main_part2_chain (c : Dev nD) : main_part2 (F := F) c = (Pipeline.chainK
  [ StableHlo.seq main_part2_ops0,
    StableHlo.seq main_part2_ops1,
    StableHlo.seq main_part2_ops2,
    StableHlo.seq main_part2_ops3 ]
  (StableHlo.seq main_part2_ops4) : Prog (TpuEff nD τ sig (Elt F) (Pipeline.Sig Λ₀ (Fin 0) fun p => (pcfgs (F := F) p).Adm) .tc) PUnit) := by
  chain_rfl

/-- 60 host operations of @main, window 3 (statements 181 … 240), in order. -/
abbrev main_part3_ops0 : List (HloOp τ sig (Elt F)) :=
  ( StableHlo.binary main_v85 main_v142 main_v143 (addf : (⟨S32768x768, .f32⟩ : BufTy).Contents (Elt F) → (⟨S32768x768, .f32⟩ : BufTy).Contents (Elt F) → (⟨S32768x768, .f32⟩ : BufTy).Contents (Elt F))
  :: StableHlo.unary main_arg5 main_v144 (broadcastInDim S32768x768 ![0, 1] bcast_S1x768_S32768x768_0_1 : (⟨S1x768, .f32⟩ : BufTy).Contents (Elt F) → (⟨S32768x768, .f32⟩ : BufTy).Contents (Elt F))
  :: StableHlo.binary main_v143 main_v144 main_v145 (addf : (⟨S32768x768, .f32⟩ : BufTy).Contents (Elt F) → (⟨S32768x768, .f32⟩ : BufTy).Contents (Elt F) → (⟨S32768x768, .f32⟩ : BufTy).Contents (Elt F))
  :: StableHlo.unary main_v145 main_v146 ((extractStridedSlice S32768x256 ![0, 0] · slices_S32768x768_S32768x256_0_0) : (⟨S32768x768, .f32⟩ : BufTy).Contents (Elt F) → (⟨S32768x256, .f32⟩ : BufTy).Contents (Elt F))
  :: StableHlo.unary main_v145 main_v147 ((extractStridedSlice S32768x256 ![0, 256] · slices_S32768x768_S32768x256_0_256) : (⟨S32768x768, .f32⟩ : BufTy).Contents (Elt F) → (⟨S32768x256, .f32⟩ : BufTy).Contents (Elt F))
  :: StableHlo.unary main_v145 main_v148 ((extractStridedSlice S32768x256 ![0, 512] · slices_S32768x768_S32768x256_0_512) : (⟨S32768x768, .f32⟩ : BufTy).Contents (Elt F) → (⟨S32768x256, .f32⟩ : BufTy).Contents (Elt F))
  :: StableHlo.unary main_v146 main_v149 (Host.negf : (⟨S32768x256, .f32⟩ : BufTy).Contents (Elt F) → (⟨S32768x256, .f32⟩ : BufTy).Contents (Elt F))
  :: StableHlo.unary main_v149 main_v150 (Host.exp : (⟨S32768x256, .f32⟩ : BufTy).Contents (Elt F) → (⟨S32768x256, .f32⟩ : BufTy).Contents (Elt F))
  :: StableHlo.nullary main_cst_35 (constant S_ .f32 0x3F800000#32)
  :: StableHlo.unary main_cst_35 main_v151 (broadcastInDim S32768x256 ![] bcast_S_S32768x256 : (⟨S_, .f32⟩ : BufTy).Contents (Elt F) → (⟨S32768x256, .f32⟩ : BufTy).Contents (Elt F))
  :: StableHlo.binary main_v151 main_v150 main_v152 (addf : (⟨S32768x256, .f32⟩ : BufTy).Contents (Elt F) → (⟨S32768x256, .f32⟩ : BufTy).Contents (Elt F) → (⟨S32768x256, .f32⟩ : BufTy).Contents (Elt F))
  :: StableHlo.nullary main_cst_36 (constant S_ .f32 0x3F800000#32)
  :: StableHlo.unary main_cst_36 main_v153 (broadcastInDim S32768x256 ![] bcast_S_S32768x256 : (⟨S_, .f32⟩ : BufTy).Contents (Elt F) → (⟨S32768x256, .f32⟩ : BufTy).Contents (Elt F))
  :: StableHlo.binary main_v153 main_v152 main_v154 (Host.divf : (⟨S32768x256, .f32⟩ : BufTy).Contents (Elt F) → (⟨S32768x256, .f32⟩ : BufTy).Contents (Elt F) → (⟨S32768x256, .f32⟩ : BufTy).Contents (Elt F))
  :: StableHlo.unary main_v148 main_v155 (Host.tanh : (⟨S32768x256, .f32⟩ : BufTy).Contents (Elt F) → (⟨S32768x256, .f32⟩ : BufTy).Contents (Elt F))
  :: StableHlo.binary main_v154 main_v155 main_v156 (mulf : (⟨S32768x256, .f32⟩ : BufTy).Contents (Elt F) → (⟨S32768x256, .f32⟩ : BufTy).Contents (Elt F) → (⟨S32768x256, .f32⟩ : BufTy).Contents (Elt F))
  :: StableHlo.binary main_v156 main_v140 main_v157 (addf : (⟨S32768x256, .f32⟩ : BufTy).Contents (Elt F) → (⟨S32768x256, .f32⟩ : BufTy).Contents (Elt F) → (⟨S32768x256, .f32⟩ : BufTy).Contents (Elt F))
  :: StableHlo.unary main_v147 main_v158 (Host.negf : (⟨S32768x256, .f32⟩ : BufTy).Contents (Elt F) → (⟨S32768x256, .f32⟩ : BufTy).Contents (Elt F))
  :: StableHlo.unary main_v158 main_v159 (Host.exp : (⟨S32768x256, .f32⟩ : BufTy).Contents (Elt F) → (⟨S32768x256, .f32⟩ : BufTy).Contents (Elt F))
  :: StableHlo.nullary main_cst_37 (constant S_ .f32 0x3F800000#32)
  :: StableHlo.unary main_cst_37 main_v160 (broadcastInDim S32768x256 ![] bcast_S_S32768x256 : (⟨S_, .f32⟩ : BufTy).Contents (Elt F) → (⟨S32768x256, .f32⟩ : BufTy).Contents (Elt F))
  :: StableHlo.binary main_v160 main_v159 main_v161 (addf : (⟨S32768x256, .f32⟩ : BufTy).Contents (Elt F) → (⟨S32768x256, .f32⟩ : BufTy).Contents (Elt F) → (⟨S32768x256, .f32⟩ : BufTy).Contents (Elt F))
  :: StableHlo.nullary main_cst_38 (constant S_ .f32 0x3F800000#32)
  :: StableHlo.unary main_cst_38 main_v162 (broadcastInDim S32768x256 ![] bcast_S_S32768x256 : (⟨S_, .f32⟩ : BufTy).Contents (Elt F) → (⟨S32768x256, .f32⟩ : BufTy).Contents (Elt F))
  :: StableHlo.binary main_v162 main_v161 main_v163 (Host.divf : (⟨S32768x256, .f32⟩ : BufTy).Contents (Elt F) → (⟨S32768x256, .f32⟩ : BufTy).Contents (Elt F) → (⟨S32768x256, .f32⟩ : BufTy).Contents (Elt F))
  :: StableHlo.unary main_v157 main_v164 (Host.tanh : (⟨S32768x256, .f32⟩ : BufTy).Contents (Elt F) → (⟨S32768x256, .f32⟩ : BufTy).Contents (Elt F))
  :: StableHlo.binary main_v163 main_v164 main_v165 (mulf : (⟨S32768x256, .f32⟩ : BufTy).Contents (Elt F) → (⟨S32768x256, .f32⟩ : BufTy).Contents (Elt F) → (⟨S32768x256, .f32⟩ : BufTy).Contents (Elt F))
  :: StableHlo.nullary main_c_39 (constantI S_ 32 0#32)
  :: StableHlo.unary main_c_39 main_v166 (broadcastInDim S32768 ![] bcast_S_S32768 : (⟨S_, .i32⟩ : BufTy).Contents (Elt F) → (⟨S32768, .i32⟩ : BufTy).Contents (Elt F))
  :: StableHlo.binary main_v78 main_v166 main_v167 (cmpi .slt : (⟨S32768, .i32⟩ : BufTy).Contents (Elt F) → (⟨S32768, .i32⟩ : BufTy).Contents (Elt F) → (⟨S32768, .i1⟩ : BufTy).Contents (Elt F))
  :: StableHlo.nullary main_c_40 (constantI S_ 32 131040#32)
  :: StableHlo.unary main_c_40 main_v168 (broadcastInDim S32768 ![] bcast_S_S32768 : (⟨S_, .i32⟩ : BufTy).Contents (Elt F) → (⟨S32768, .i32⟩ : BufTy).Contents (Elt F))
  :: StableHlo.binary main_v78 main_v168 main_v169 (addi : (⟨S32768, .i32⟩ : BufTy).Contents (Elt F) → (⟨S32768, .i32⟩ : BufTy).Contents (Elt F) → (⟨S32768, .i32⟩ : BufTy).Contents (Elt F))
  :: StableHlo.ternary main_v167 main_v169 main_v78 main_v170 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v170 main_v171 (broadcastInDim S32768x1 ![0] bcast_S32768_S32768x1_0 : (⟨S32768, .i32⟩ : BufTy).Contents (Elt F) → (⟨S32768x1, .i32⟩ : BufTy).Contents (Elt F))
  :: StableHlo.ternary main_v62 main_v171 main_v165 main_v172 ((fun x i u => Host.scatter scatter_S131040x256_S32768x1_S32768x256_1_0_0_1 (fun _ b => b) x i u) : (⟨S131040x256, .f32⟩ : BufTy).Contents (Elt F) → (⟨S32768x1, .i32⟩ : BufTy).Contents (Elt F) → (⟨S32768x256, .f32⟩ : BufTy).Contents (Elt F) → (⟨S131040x256, .f32⟩ : BufTy).Contents (Elt F))
  :: StableHlo.nullary main_c_41 (constantI S_ 32 0#32)
  :: StableHlo.unary main_c_41 main_v173 (broadcastInDim S32768 ![] bcast_S_S32768 : (⟨S_, .i32⟩ : BufTy).Contents (Elt F) → (⟨S32768, .i32⟩ : BufTy).Contents (Elt F))
  :: StableHlo.binary main_v78 main_v173 main_v174 (cmpi .slt : (⟨S32768, .i32⟩ : BufTy).Contents (Elt F) → (⟨S32768, .i32⟩ : BufTy).Contents (Elt F) → (⟨S32768, .i1⟩ : BufTy).Contents (Elt F))
  :: StableHlo.nullary main_c_42 (constantI S_ 32 131040#32)
  :: StableHlo.unary main_c_42 main_v175 (broadcastInDim S32768 ![] bcast_S_S32768 : (⟨S_, .i32⟩ : BufTy).Contents (Elt F) → (⟨S32768, .i32⟩ : BufTy).Contents (Elt F))
  :: StableHlo.binary main_v78 main_v175 main_v176 (addi : (⟨S32768, .i32⟩ : BufTy).Contents (Elt F) → (⟨S32768, .i32⟩ : BufTy).Contents (Elt F) → (⟨S32768, .i32⟩ : BufTy).Contents (Elt F))
  :: StableHlo.ternary main_v174 main_v176 main_v78 main_v177 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v177 main_v178 (broadcastInDim S32768x1 ![0] bcast_S32768_S32768x1_0 : (⟨S32768, .i32⟩ : BufTy).Contents (Elt F) → (⟨S32768x1, .i32⟩ : BufTy).Contents (Elt F))
  :: StableHlo.ternary main_v69 main_v178 main_v157 main_v179 ((fun x i u => Host.scatter scatter_S131040x256_S32768x1_S32768x256_1_0_0_1 (fun _ b => b) x i u) : (⟨S131040x256, .f32⟩ : BufTy).Contents (Elt F) → (⟨S32768x1, .i32⟩ : BufTy).Contents (Elt F) → (⟨S32768x256, .f32⟩ : BufTy).Contents (Elt F) → (⟨S131040x256, .f32⟩ : BufTy).Contents (Elt F))
  :: StableHlo.unary main_v16 main_v180 (broadcastInDim S32x1 ![0] bcast_S32_S32x1_0 : (⟨S32, .i32⟩ : BufTy).Contents (Elt F) → (⟨S32x1, .i32⟩ : BufTy).Contents (Elt F))
  :: StableHlo.nullary main_c_43 (constantI S_ 32 511#32)
  :: StableHlo.unary main_c_43 main_v181 (broadcastInDim S32x1 ![] bcast_S_S32x1 : (⟨S_, .i32⟩ : BufTy).Contents (Elt F) → (⟨S32x1, .i32⟩ : BufTy).Contents (Elt F))
  :: StableHlo.binary main_v180 main_v181 main_v182 (addi : (⟨S32x1, .i32⟩ : BufTy).Contents (Elt F) → (⟨S32x1, .i32⟩ : BufTy).Contents (Elt F) → (⟨S32x1, .i32⟩ : BufTy).Contents (Elt F))
  :: StableHlo.nullary main_v183 (iotaInDim S512 32 0)
  :: StableHlo.unary main_v183 main_v184 (broadcastInDim S1x512 ![1] bcast_S512_S1x512_1 : (⟨S512, .i32⟩ : BufTy).Contents (Elt F) → (⟨S1x512, .i32⟩ : BufTy).Contents (Elt F))
  :: StableHlo.unary main_v182 main_v185 (broadcastInDim S32x512 ![0, 1] bcast_S32x1_S32x512_0_1 : (⟨S32x1, .i32⟩ : BufTy).Contents (Elt F) → (⟨S32x512, .i32⟩ : BufTy).Contents (Elt F))
  :: StableHlo.unary main_v184 main_v186 (broadcastInDim S32x512 ![0, 1] bcast_S1x512_S32x512_0_1 : (⟨S1x512, .i32⟩ : BufTy).Contents (Elt F) → (⟨S32x512, .i32⟩ : BufTy).Contents (Elt F))
  :: StableHlo.binary main_v185 main_v186 main_v187 (addi : (⟨S32x512, .i32⟩ : BufTy).Contents (Elt F) → (⟨S32x512, .i32⟩ : BufTy).Contents (Elt F) → (⟨S32x512, .i32⟩ : BufTy).Contents (Elt F))
  :: StableHlo.reshape main_v187 main_v188 rfl shapeCasts_S32x512_S16384
  :: StableHlo.nullary main_c_44 (constantI S_ 32 0#32)
  :: StableHlo.unary main_c_44 main_v189 (broadcastInDim S16384 ![] bcast_S_S16384 : (⟨S_, .i32⟩ : BufTy).Contents (Elt F) → (⟨S16384, .i32⟩ : BufTy).Contents (Elt F))
  :: StableHlo.binary main_v188 main_v189 main_v190 (cmpi .slt : (⟨S16384, .i32⟩ : BufTy).Contents (Elt F) → (⟨S16384, .i32⟩ : BufTy).Contents (Elt F) → (⟨S16384, .i1⟩ : BufTy).Contents (Elt F))
  :: StableHlo.nullary main_c_45 (constantI S_ 32 131040#32)
  :: StableHlo.unary main_c_45 main_v191 (broadcastInDim S16384 ![] bcast_S_S16384 : (⟨S_, .i32⟩ : BufTy).Contents (Elt F) → (⟨S16384, .i32⟩ : BufTy).Contents (Elt F))
  :: [] )
/-- Each touches TensorCore references only (`HostSeg.ofOps` over `StableHlo.tcRefs`, or a subset by `sub_ucRefs`). -/
theorem main_part3_ops0_sub : (main_part3_ops0 : List (HloOp τ sig (Elt F))).Forall fun op => op.bufs ⊆ StableHlo.tcRefs τ sig :=
  ⟨StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub ..⟩
/-- Window 3 of `main` (`main_part3`, statements 181 … 240) is the chain of ITS items ending in the last
    (`Pipeline.chainK`: no closing `pure`, the window's last statement being in tail position), by `chain_rfl`. -/
theorem main_part3_chain (c : Dev nD) : main_part3 (F := F) c = (Pipeline.chainK
  [  ]
  (StableHlo.seq main_part3_ops0) : Prog (TpuEff nD τ sig (Elt F) (Pipeline.Sig Λ₀ (Fin 0) fun p => (pcfgs (F := F) p).Adm) .tc) PUnit) := by
  chain_rfl

/-- 42 host operations of @main, window 4 (statements 241 … 300), in order. -/
abbrev main_part4_ops0 : List (HloOp τ sig (Elt F)) :=
  ( StableHlo.binary main_v188 main_v191 main_v192 (addi : (⟨S16384, .i32⟩ : BufTy).Contents (Elt F) → (⟨S16384, .i32⟩ : BufTy).Contents (Elt F) → (⟨S16384, .i32⟩ : BufTy).Contents (Elt F))
  :: StableHlo.ternary main_v190 main_v192 main_v188 main_v193 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v193 main_v194 (broadcastInDim S16384x1 ![0] bcast_S16384_S16384x1_0 : (⟨S16384, .i32⟩ : BufTy).Contents (Elt F) → (⟨S16384x1, .i32⟩ : BufTy).Contents (Elt F))
  :: StableHlo.binary main_v11 main_v194 main_v195 ((fun x i => Host.gather gather_S131040x768_S16384x1_S16384x768_1_0_n_n_0_1_1768 x i) : (⟨S131040x768, .f32⟩ : BufTy).Contents (Elt F) → (⟨S16384x1, .i32⟩ : BufTy).Contents (Elt F) → (⟨S16384x768, .f32⟩ : BufTy).Contents (Elt F))
  :: StableHlo.unary main_v16 main_v196 (broadcastInDim S32x1 ![0] bcast_S32_S32x1_0 : (⟨S32, .i32⟩ : BufTy).Contents (Elt F) → (⟨S32x1, .i32⟩ : BufTy).Contents (Elt F))
  :: StableHlo.nullary main_c_46 (constantI S_ 32 1023#32)
  :: StableHlo.unary main_c_46 main_v197 (broadcastInDim S32x1 ![] bcast_S_S32x1 : (⟨S_, .i32⟩ : BufTy).Contents (Elt F) → (⟨S32x1, .i32⟩ : BufTy).Contents (Elt F))
  :: StableHlo.binary main_v196 main_v197 main_v198 (addi : (⟨S32x1, .i32⟩ : BufTy).Contents (Elt F) → (⟨S32x1, .i32⟩ : BufTy).Contents (Elt F) → (⟨S32x1, .i32⟩ : BufTy).Contents (Elt F))
  :: StableHlo.nullary main_v199 (iotaInDim S1024 32 0)
  :: StableHlo.unary main_v199 main_v200 (broadcastInDim S1x1024 ![1] bcast_S1024_S1x1024_1 : (⟨S1024, .i32⟩ : BufTy).Contents (Elt F) → (⟨S1x1024, .i32⟩ : BufTy).Contents (Elt F))
  :: StableHlo.unary main_v198 main_v201 (broadcastInDim S32x1024 ![0, 1] bcast_S32x1_S32x1024_0_1 : (⟨S32x1, .i32⟩ : BufTy).Contents (Elt F) → (⟨S32x1024, .i32⟩ : BufTy).Contents (Elt F))
  :: StableHlo.unary main_v200 main_v202 (broadcastInDim S32x1024 ![0, 1] bcast_S1x1024_S32x1024_0_1 : (⟨S1x1024, .i32⟩ : BufTy).Contents (Elt F) → (⟨S32x1024, .i32⟩ : BufTy).Contents (Elt F))
  :: StableHlo.binary main_v201 main_v202 main_v203 (addi : (⟨S32x1024, .i32⟩ : BufTy).Contents (Elt F) → (⟨S32x1024, .i32⟩ : BufTy).Contents (Elt F) → (⟨S32x1024, .i32⟩ : BufTy).Contents (Elt F))
  :: StableHlo.reshape main_v203 main_v204 rfl shapeCasts_S32x1024_S32768
  :: StableHlo.nullary main_c_47 (constantI S_ 32 0#32)
  :: StableHlo.unary main_c_47 main_v205 (broadcastInDim S32768 ![] bcast_S_S32768 : (⟨S_, .i32⟩ : BufTy).Contents (Elt F) → (⟨S32768, .i32⟩ : BufTy).Contents (Elt F))
  :: StableHlo.binary main_v204 main_v205 main_v206 (cmpi .slt : (⟨S32768, .i32⟩ : BufTy).Contents (Elt F) → (⟨S32768, .i32⟩ : BufTy).Contents (Elt F) → (⟨S32768, .i1⟩ : BufTy).Contents (Elt F))
  :: StableHlo.nullary main_c_48 (constantI S_ 32 131040#32)
  :: StableHlo.unary main_c_48 main_v207 (broadcastInDim S32768 ![] bcast_S_S32768 : (⟨S_, .i32⟩ : BufTy).Contents (Elt F) → (⟨S32768, .i32⟩ : BufTy).Contents (Elt F))
  :: StableHlo.binary main_v204 main_v207 main_v208 (addi : (⟨S32768, .i32⟩ : BufTy).Contents (Elt F) → (⟨S32768, .i32⟩ : BufTy).Contents (Elt F) → (⟨S32768, .i32⟩ : BufTy).Contents (Elt F))
  :: StableHlo.ternary main_v206 main_v208 main_v204 main_v209 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v209 main_v210 (broadcastInDim S32768x1 ![0] bcast_S32768_S32768x1_0 : (⟨S32768, .i32⟩ : BufTy).Contents (Elt F) → (⟨S32768x1, .i32⟩ : BufTy).Contents (Elt F))
  :: StableHlo.binary main_v172 main_v210 main_v211 ((fun x i => Host.gather gather_S131040x256_S32768x1_S32768x256_1_0_n_n_0_1_1256 x i) : (⟨S131040x256, .f32⟩ : BufTy).Contents (Elt F) → (⟨S32768x1, .i32⟩ : BufTy).Contents (Elt F) → (⟨S32768x256, .f32⟩ : BufTy).Contents (Elt F))
  :: StableHlo.nullary main_c_49 (constantI S_ 32 0#32)
  :: StableHlo.unary main_c_49 main_v212 (broadcastInDim S32768 ![] bcast_S_S32768 : (⟨S_, .i32⟩ : BufTy).Contents (Elt F) → (⟨S32768, .i32⟩ : BufTy).Contents (Elt F))
  :: StableHlo.binary main_v204 main_v212 main_v213 (cmpi .slt : (⟨S32768, .i32⟩ : BufTy).Contents (Elt F) → (⟨S32768, .i32⟩ : BufTy).Contents (Elt F) → (⟨S32768, .i1⟩ : BufTy).Contents (Elt F))
  :: StableHlo.nullary main_c_50 (constantI S_ 32 131040#32)
  :: StableHlo.unary main_c_50 main_v214 (broadcastInDim S32768 ![] bcast_S_S32768 : (⟨S_, .i32⟩ : BufTy).Contents (Elt F) → (⟨S32768, .i32⟩ : BufTy).Contents (Elt F))
  :: StableHlo.binary main_v204 main_v214 main_v215 (addi : (⟨S32768, .i32⟩ : BufTy).Contents (Elt F) → (⟨S32768, .i32⟩ : BufTy).Contents (Elt F) → (⟨S32768, .i32⟩ : BufTy).Contents (Elt F))
  :: StableHlo.ternary main_v213 main_v215 main_v204 main_v216 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v216 main_v217 (broadcastInDim S32768x1 ![0] bcast_S32768_S32768x1_0 : (⟨S32768, .i32⟩ : BufTy).Contents (Elt F) → (⟨S32768x1, .i32⟩ : BufTy).Contents (Elt F))
  :: StableHlo.binary main_v179 main_v217 main_v218 ((fun x i => Host.gather gather_S131040x256_S32768x1_S32768x256_1_0_n_n_0_1_1256 x i) : (⟨S131040x256, .f32⟩ : BufTy).Contents (Elt F) → (⟨S32768x1, .i32⟩ : BufTy).Contents (Elt F) → (⟨S32768x256, .f32⟩ : BufTy).Contents (Elt F))
  :: StableHlo.nullary main_c_51 (constantI S_ 32 0#32)
  :: StableHlo.unary main_c_51 main_v219 (broadcastInDim S32768 ![] bcast_S_S32768 : (⟨S_, .i32⟩ : BufTy).Contents (Elt F) → (⟨S32768, .i32⟩ : BufTy).Contents (Elt F))
  :: StableHlo.binary main_v204 main_v219 main_v220 (cmpi .slt : (⟨S32768, .i32⟩ : BufTy).Contents (Elt F) → (⟨S32768, .i32⟩ : BufTy).Contents (Elt F) → (⟨S32768, .i1⟩ : BufTy).Contents (Elt F))
  :: StableHlo.nullary main_c_52 (constantI S_ 32 131040#32)
  :: StableHlo.unary main_c_52 main_v221 (broadcastInDim S32768 ![] bcast_S_S32768 : (⟨S_, .i32⟩ : BufTy).Contents (Elt F) → (⟨S32768, .i32⟩ : BufTy).Contents (Elt F))
  :: StableHlo.binary main_v204 main_v221 main_v222 (addi : (⟨S32768, .i32⟩ : BufTy).Contents (Elt F) → (⟨S32768, .i32⟩ : BufTy).Contents (Elt F) → (⟨S32768, .i32⟩ : BufTy).Contents (Elt F))
  :: StableHlo.ternary main_v220 main_v222 main_v204 main_v223 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F))
  :: StableHlo.unary main_v223 main_v224 (broadcastInDim S32768x1 ![0] bcast_S32768_S32768x1_0 : (⟨S32768, .i32⟩ : BufTy).Contents (Elt F) → (⟨S32768x1, .i32⟩ : BufTy).Contents (Elt F))
  :: StableHlo.binary main_arg1 main_v224 main_v225 ((fun x i => Host.gather gather_S131040_S32768x1_S32768_n_0_n_n_0_1_1 x i) : (⟨S131040, .i32⟩ : BufTy).Contents (Elt F) → (⟨S32768x1, .i32⟩ : BufTy).Contents (Elt F) → (⟨S32768, .i32⟩ : BufTy).Contents (Elt F))
  :: StableHlo.nullary main_c_53 (constantI S_ 32 4095#32)
  :: [] )
/-- Each touches TensorCore references only (`HostSeg.ofOps` over `StableHlo.tcRefs`, or a subset by `sub_ucRefs`). -/
theorem main_part4_ops0_sub : (main_part4_ops0 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_1 (main_call2), window 4 (statements 241 … 300), in order. -/
abbrev main_part4_ops1 : List (HloOp τ sig (Elt F)) :=
  [ StableHlo.TRef.unary (.of main_c_53 : StableHlo.TRef sig ⟨S_, .i32⟩) (.of main_call2_v0 : StableHlo.TRef sig ⟨S_, .i32⟩) id,
    StableHlo.TRef.unary (.of main_call2_v0 : StableHlo.TRef sig ⟨S_, .i32⟩) (.of main_call2_v1 : StableHlo.TRef sig ⟨S32768, .i32⟩) (broadcastInDim S32768 ![] bcast_S_S32768),
    StableHlo.TRef.binary (.of main_v225 : StableHlo.TRef sig ⟨S32768, .i32⟩) (.of main_call2_v1 : StableHlo.TRef sig ⟨S32768, .i32⟩) (.of main_call2_v2 : StableHlo.TRef sig ⟨S32768, .i32⟩) Host.divsi,
    StableHlo.TRef.unary (.of main_v225 : StableHlo.TRef sig ⟨S32768, .i32⟩) (.of main_call2_v3 : StableHlo.TRef sig ⟨S32768, .i32⟩) signi,
    StableHlo.TRef.unary (.of main_call2_v0 : StableHlo.TRef sig ⟨S_, .i32⟩) (.of main_call2_v4 : StableHlo.TRef sig ⟨S_, .i32⟩) signi,
    StableHlo.TRef.unary (.of main_call2_v4 : StableHlo.TRef sig ⟨S_, .i32⟩) (.of main_call2_v5 : StableHlo.TRef sig ⟨S32768, .i32⟩) (broadcastInDim S32768 ![] bcast_S_S32768),
    StableHlo.TRef.binary (.of main_call2_v3 : StableHlo.TRef sig ⟨S32768, .i32⟩) (.of main_call2_v5 : StableHlo.TRef sig ⟨S32768, .i32⟩) (.of main_call2_v6 : StableHlo.TRef sig ⟨S32768, .i1⟩) (cmpi .ne),
    StableHlo.TRef.unary (.of main_call2_v0 : StableHlo.TRef sig ⟨S_, .i32⟩) (.of main_call2_v7 : StableHlo.TRef sig ⟨S32768, .i32⟩) (broadcastInDim S32768 ![] bcast_S_S32768),
    StableHlo.TRef.binary (.of main_v225 : StableHlo.TRef sig ⟨S32768, .i32⟩) (.of main_call2_v7 : StableHlo.TRef sig ⟨S32768, .i32⟩) (.of main_call2_v8 : StableHlo.TRef sig ⟨S32768, .i32⟩) Host.remsi,
    StableHlo.TRef.nullary (.of main_call2_c : StableHlo.TRef sig ⟨S_, .i32⟩) (constantI S_ 32 0#32),
    StableHlo.TRef.unary (.of main_call2_c : StableHlo.TRef sig ⟨S_, .i32⟩) (.of main_call2_v9 : StableHlo.TRef sig ⟨S32768, .i32⟩) (broadcastInDim S32768 ![] bcast_S_S32768),
    StableHlo.TRef.binary (.of main_call2_v8 : StableHlo.TRef sig ⟨S32768, .i32⟩) (.of main_call2_v9 : StableHlo.TRef sig ⟨S32768, .i32⟩) (.of main_call2_v10 : StableHlo.TRef sig ⟨S32768, .i1⟩) (cmpi .ne),
    StableHlo.TRef.binary (.of main_call2_v6 : StableHlo.TRef sig ⟨S32768, .i1⟩) (.of main_call2_v10 : StableHlo.TRef sig ⟨S32768, .i1⟩) (.of main_call2_v11 : StableHlo.TRef sig ⟨S32768, .i1⟩) andi,
    StableHlo.TRef.nullary (.of main_call2_c_0 : StableHlo.TRef sig ⟨S_, .i32⟩) (constantI S_ 32 1#32),
    StableHlo.TRef.unary (.of main_call2_c_0 : StableHlo.TRef sig ⟨S_, .i32⟩) (.of main_call2_v12 : StableHlo.TRef sig ⟨S32768, .i32⟩) (broadcastInDim S32768 ![] bcast_S_S32768),
    StableHlo.TRef.binary (.of main_call2_v2 : StableHlo.TRef sig ⟨S32768, .i32⟩) (.of main_call2_v12 : StableHlo.TRef sig ⟨S32768, .i32⟩) (.of main_call2_v13 : StableHlo.TRef sig ⟨S32768, .i32⟩) subi,
    StableHlo.TRef.ternary (.of main_call2_v11 : StableHlo.TRef sig ⟨S32768, .i1⟩) (.of main_call2_v13 : StableHlo.TRef sig ⟨S32768, .i32⟩) (.of main_call2_v2 : StableHlo.TRef sig ⟨S32768, .i32⟩) (.of main_v226 : StableHlo.TRef sig ⟨S32768, .i32⟩) select ]
/-- Each touches TensorCore references only (`HostSeg.ofOps` over `StableHlo.tcRefs`, or a subset by `sub_ucRefs`). -/
theorem main_part4_ops1_sub : (main_part4_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 4 (statements 241 … 300), in order. -/
abbrev main_part4_ops2 : List (HloOp τ sig (Elt F)) :=
  [ StableHlo.nullary main_c_54 (constantI S_ 32 512#32),
    StableHlo.unary main_c_54 main_v227 (broadcastInDim S32768 ![] bcast_S_S32768 : (⟨S_, .i32⟩ : BufTy).Contents (Elt F) → (⟨S32768, .i32⟩ : BufTy).Contents (Elt F)),
    StableHlo.binary main_v226 main_v227 main_v228 (muli : (⟨S32768, .i32⟩ : BufTy).Contents (Elt F) → (⟨S32768, .i32⟩ : BufTy).Contents (Elt F) → (⟨S32768, .i32⟩ : BufTy).Contents (Elt F)),
    StableHlo.nullary main_c_55 (constantI S_ 32 4095#32) ]
/-- Each touches TensorCore references only (`HostSeg.ofOps` over `StableHlo.tcRefs`, or a subset by `sub_ucRefs`). -/
theorem main_part4_ops2_sub : (main_part4_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_3 (main_call3), window 4 (statements 241 … 300), in order. -/
abbrev main_part4_ops3 : List (HloOp τ sig (Elt F)) :=
  [ StableHlo.TRef.unary (.of main_c_55 : StableHlo.TRef sig ⟨S_, .i32⟩) (.of main_call3_v0 : StableHlo.TRef sig ⟨S_, .i32⟩) id,
    StableHlo.TRef.nullary (.of main_call3_c : StableHlo.TRef sig ⟨S_, .i32⟩) (constantI S_ 32 0#32),
    StableHlo.TRef.binary (.of main_call3_v0 : StableHlo.TRef sig ⟨S_, .i32⟩) (.of main_call3_c : StableHlo.TRef sig ⟨S_, .i32⟩) (.of main_call3_v1 : StableHlo.TRef sig ⟨S_, .i1⟩) (cmpi .eq),
    StableHlo.TRef.nullary (.of main_call3_c_0 : StableHlo.TRef sig ⟨S_, .i32⟩) (constantI S_ 32 1#32),
    StableHlo.TRef.ternary (.of main_call3_v1 : StableHlo.TRef sig ⟨S_, .i1⟩) (.of main_call3_c_0 : StableHlo.TRef sig ⟨S_, .i32⟩) (.of main_call3_v0 : StableHlo.TRef sig ⟨S_, .i32⟩) (.of main_call3_v2 : StableHlo.TRef sig ⟨S_, .i32⟩) select,
    StableHlo.TRef.unary main_call3_call0.v0 (.of main_call3_v3 : StableHlo.TRef sig ⟨S32768, .i32⟩) (broadcastInDim S32768 ![] bcast_S_S32768),
    StableHlo.TRef.binary (.of main_v225 : StableHlo.TRef sig ⟨S32768, .i32⟩) (.of main_call3_v3 : StableHlo.TRef sig ⟨S32768, .i32⟩) (.of main_call3_v4 : StableHlo.TRef sig ⟨S32768, .i32⟩) Host.remsi,
    StableHlo.TRef.nullary (.of main_call3_c_1 : StableHlo.TRef sig ⟨S_, .i32⟩) (constantI S_ 32 0#32),
    StableHlo.TRef.unary (.of main_call3_c_1 : StableHlo.TRef sig ⟨S_, .i32⟩) (.of main_call3_v5 : StableHlo.TRef sig ⟨S32768, .i32⟩) (broadcastInDim S32768 ![] bcast_S_S32768),
    StableHlo.TRef.binary (.of main_call3_v4 : StableHlo.TRef sig ⟨S32768, .i32⟩) (.of main_call3_v5 : StableHlo.TRef sig ⟨S32768, .i32⟩) (.of main_call3_v6 : StableHlo.TRef sig ⟨S32768, .i1⟩) (cmpi .ne),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v7 : StableHlo.TRef sig ⟨S32768, .i32⟩) (broadcastInDim S32768 ![] bcast_S_S32768),
    StableHlo.TRef.binary (.of main_call3_v4 : StableHlo.TRef sig ⟨S32768, .i32⟩) (.of main_call3_v7 : StableHlo.TRef sig ⟨S32768, .i32⟩) (.of main_call3_v8 : StableHlo.TRef sig ⟨S32768, .i1⟩) (cmpi .slt),
    StableHlo.TRef.nullary (.of main_call3_c_3 : StableHlo.TRef sig ⟨S_, .i32⟩) (constantI S_ 32 0#32),
    StableHlo.TRef.binary main_call3_call0.v0 (.of main_call3_c_3 : StableHlo.TRef sig ⟨S_, .i32⟩) (.of main_call3_v9 : StableHlo.TRef sig ⟨S_, .i1⟩) (cmpi .slt),
    StableHlo.TRef.unary (.of main_call3_v9 : StableHlo.TRef sig ⟨S_, .i1⟩) (.of main_call3_v10 : StableHlo.TRef sig ⟨S32768, .i1⟩) (broadcastInDim S32768 ![] bcast_S_S32768),
    StableHlo.TRef.binary (.of main_call3_v8 : StableHlo.TRef sig ⟨S32768, .i1⟩) (.of main_call3_v10 : StableHlo.TRef sig ⟨S32768, .i1⟩) (.of main_call3_v11 : StableHlo.TRef sig ⟨S32768, .i1⟩) (cmpi .ne),
    StableHlo.TRef.binary (.of main_call3_v11 : StableHlo.TRef sig ⟨S32768, .i1⟩) (.of main_call3_v6 : StableHlo.TRef sig ⟨S32768, .i1⟩) (.of main_call3_v12 : StableHlo.TRef sig ⟨S32768, .i1⟩) andi,
    StableHlo.TRef.unary main_call3_call0.v0 (.of main_call3_v13 : StableHlo.TRef sig ⟨S32768, .i32⟩) (broadcastInDim S32768 ![] bcast_S_S32768),
    StableHlo.TRef.binary (.of main_call3_v4 : StableHlo.TRef sig ⟨S32768, .i32⟩) (.of main_call3_v13 : StableHlo.TRef sig ⟨S32768, .i32⟩) (.of main_call3_v14 : StableHlo.TRef sig ⟨S32768, .i32⟩) addi,
    StableHlo.TRef.ternary (.of main_call3_v12 : StableHlo.TRef sig ⟨S32768, .i1⟩) (.of main_call3_v14 : StableHlo.TRef sig ⟨S32768, .i32⟩) (.of main_call3_v4 : StableHlo.TRef sig ⟨S32768, .i32⟩) (.of main_v229 : StableHlo.TRef sig ⟨S32768, .i32⟩) select ]
/-- Each touches TensorCore references only (`HostSeg.ofOps` over `StableHlo.tcRefs`, or a subset by `sub_ucRefs`). -/
theorem main_part4_ops3_sub : (main_part4_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 12 host operations of @main, window 4 (statements 241 … 300), in order. -/
abbrev main_part4_ops4 : List (HloOp τ sig (Elt F)) :=
  [ StableHlo.nullary main_c_56 (constantI S_ 32 511#32),
    StableHlo.unary main_c_56 main_v230 (broadcastInDim S32768 ![] bcast_S_S32768 : (⟨S_, .i32⟩ : BufTy).Contents (Elt F) → (⟨S32768, .i32⟩ : BufTy).Contents (Elt F)),
    StableHlo.binary main_v229 main_v230 main_v231 (subi : (⟨S32768, .i32⟩ : BufTy).Contents (Elt F) → (⟨S32768, .i32⟩ : BufTy).Contents (Elt F) → (⟨S32768, .i32⟩ : BufTy).Contents (Elt F)),
    StableHlo.binary main_v228 main_v231 main_v232 (addi : (⟨S32768, .i32⟩ : BufTy).Contents (Elt F) → (⟨S32768, .i32⟩ : BufTy).Contents (Elt F) → (⟨S32768, .i32⟩ : BufTy).Contents (Elt F)),
    StableHlo.unary main_arg6 main_v233 ((transpose S256x256 [1, 0] · transposes_S256x256_S256x256_1_0) : (⟨S256x256, .f32⟩ : BufTy).Contents (Elt F) → (⟨S256x256, .f32⟩ : BufTy).Contents (Elt F)),
    StableHlo.binary main_v211 main_v233 main_v234 ((fun l r => Host.dotGeneral dot_S32768x256_S256x256_S32768x256_1_0_0_1_n_n none l r) : (⟨S32768x256, .f32⟩ : BufTy).Contents (Elt F) → (⟨S256x256, .f32⟩ : BufTy).Contents (Elt F) → (⟨S32768x256, .f32⟩ : BufTy).Contents (Elt F)),
    StableHlo.unary main_arg7 main_v235 (broadcastInDim S1x256 ![1] bcast_S256_S1x256_1 : (⟨S256, .f32⟩ : BufTy).Contents (Elt F) → (⟨S1x256, .f32⟩ : BufTy).Contents (Elt F)),
    StableHlo.unary main_v235 main_v236 (broadcastInDim S32768x256 ![0, 1] bcast_S1x256_S32768x256_0_1 : (⟨S1x256, .f32⟩ : BufTy).Contents (Elt F) → (⟨S32768x256, .f32⟩ : BufTy).Contents (Elt F)),
    StableHlo.binary main_v234 main_v236 main_v237 (addf : (⟨S32768x256, .f32⟩ : BufTy).Contents (Elt F) → (⟨S32768x256, .f32⟩ : BufTy).Contents (Elt F) → (⟨S32768x256, .f32⟩ : BufTy).Contents (Elt F)),
    StableHlo.unary main_v237 main_v238 (Host.negf : (⟨S32768x256, .f32⟩ : BufTy).Contents (Elt F) → (⟨S32768x256, .f32⟩ : BufTy).Contents (Elt F)),
    StableHlo.unary main_v238 main_v239 (Host.exp : (⟨S32768x256, .f32⟩ : BufTy).Contents (Elt F) → (⟨S32768x256, .f32⟩ : BufTy).Contents (Elt F)),
    StableHlo.nullary main_cst_57 (constant S_ .f32 0x3F800000#32) ]
/-- Each touches TensorCore references only (`HostSeg.ofOps` over `StableHlo.tcRefs`, or a subset by `sub_ucRefs`). -/
theorem main_part4_ops4_sub : (main_part4_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub ..⟩
/-- Window 4 of `main` (`main_part4`, statements 241 … 300) is the chain of ITS items ending in the last
    (`Pipeline.chainK`: no closing `pure`, the window's last statement being in tail position), by `chain_rfl`. -/
theorem main_part4_chain (c : Dev nD) : main_part4 (F := F) c = (Pipeline.chainK
  [ StableHlo.seq main_part4_ops0,
    StableHlo.seq main_part4_ops1,
    StableHlo.seq main_part4_ops2,
    StableHlo.seq main_part4_ops3 ]
  (StableHlo.seq main_part4_ops4) : Prog (TpuEff nD τ sig (Elt F) (Pipeline.Sig Λ₀ (Fin 0) fun p => (pcfgs (F := F) p).Adm) .tc) PUnit) := by
  chain_rfl

/-- 60 host operations of @main, window 5 (statements 301 … 360), in order. -/
abbrev main_part5_ops0 : List (HloOp τ sig (Elt F)) :=
  ( StableHlo.unary main_cst_57 main_v240 (broadcastInDim S32768x256 ![] bcast_S_S32768x256 : (⟨S_, .f32⟩ : BufTy).Contents (Elt F) → (⟨S32768x256, .f32⟩ : BufTy).Contents (Elt F))
  :: StableHlo.binary main_v240 main_v239 main_v241 (addf : (⟨S32768x256, .f32⟩ : BufTy).Contents (Elt F) → (⟨S32768x256, .f32⟩ : BufTy).Contents (Elt F) → (⟨S32768x256, .f32⟩ : BufTy).Contents (Elt F))
  :: StableHlo.nullary main_cst_58 (constant S_ .f32 0x3F800000#32)
  :: StableHlo.unary main_cst_58 main_v242 (broadcastInDim S32768x256 ![] bcast_S_S32768x256 : (⟨S_, .f32⟩ : BufTy).Contents (Elt F) → (⟨S32768x256, .f32⟩ : BufTy).Contents (Elt F))
  :: StableHlo.binary main_v242 main_v241 main_v243 (Host.divf : (⟨S32768x256, .f32⟩ : BufTy).Contents (Elt F) → (⟨S32768x256, .f32⟩ : BufTy).Contents (Elt F) → (⟨S32768x256, .f32⟩ : BufTy).Contents (Elt F))
  :: StableHlo.nullary main_cst_59 (constant S_ .f32 0x00000000#32)
  :: StableHlo.unary main_cst_59 main_v244 (broadcastInDim S16384x256 ![] bcast_S_S16384x256 : (⟨S_, .f32⟩ : BufTy).Contents (Elt F) → (⟨S16384x256, .f32⟩ : BufTy).Contents (Elt F))
  :: StableHlo.unary main_v232 main_v245 (broadcastInDim S32768x1 ![0] bcast_S32768_S32768x1_0 : (⟨S32768, .i32⟩ : BufTy).Contents (Elt F) → (⟨S32768x1, .i32⟩ : BufTy).Contents (Elt F))
  :: StableHlo.ternary main_v244 main_v245 main_v211 main_v246 ((fun x i u => Host.scatterAdd scatter_S16384x256_S32768x1_S32768x256_1_0_0_1 x i u) : (⟨S16384x256, .f32⟩ : BufTy).Contents (Elt F) → (⟨S32768x1, .i32⟩ : BufTy).Contents (Elt F) → (⟨S32768x256, .f32⟩ : BufTy).Contents (Elt F) → (⟨S16384x256, .f32⟩ : BufTy).Contents (Elt F))
  :: StableHlo.binary main_v243 main_v218 main_v247 (mulf : (⟨S32768x256, .f32⟩ : BufTy).Contents (Elt F) → (⟨S32768x256, .f32⟩ : BufTy).Contents (Elt F) → (⟨S32768x256, .f32⟩ : BufTy).Contents (Elt F))
  :: StableHlo.nullary main_cst_60 (constant S_ .f32 0x00000000#32)
  :: StableHlo.unary main_cst_60 main_v248 (broadcastInDim S16384x256 ![] bcast_S_S16384x256 : (⟨S_, .f32⟩ : BufTy).Contents (Elt F) → (⟨S16384x256, .f32⟩ : BufTy).Contents (Elt F))
  :: StableHlo.unary main_v232 main_v249 (broadcastInDim S32768x1 ![0] bcast_S32768_S32768x1_0 : (⟨S32768, .i32⟩ : BufTy).Contents (Elt F) → (⟨S32768x1, .i32⟩ : BufTy).Contents (Elt F))
  :: StableHlo.ternary main_v248 main_v249 main_v247 main_v250 ((fun x i u => Host.scatterAdd scatter_S16384x256_S32768x1_S32768x256_1_0_0_1 x i u) : (⟨S16384x256, .f32⟩ : BufTy).Contents (Elt F) → (⟨S32768x1, .i32⟩ : BufTy).Contents (Elt F) → (⟨S32768x256, .f32⟩ : BufTy).Contents (Elt F) → (⟨S16384x256, .f32⟩ : BufTy).Contents (Elt F))
  :: StableHlo.unary main_arg4 main_v251 ((transpose S256x768 [1, 0] · transposes_S768x256_S256x768_1_0) : (⟨S768x256, .f32⟩ : BufTy).Contents (Elt F) → (⟨S256x768, .f32⟩ : BufTy).Contents (Elt F))
  :: StableHlo.binary main_v246 main_v251 main_v252 ((fun l r => Host.dotGeneral dot_S16384x256_S256x768_S16384x768_1_0_0_1_n_n none l r) : (⟨S16384x256, .f32⟩ : BufTy).Contents (Elt F) → (⟨S256x768, .f32⟩ : BufTy).Contents (Elt F) → (⟨S16384x768, .f32⟩ : BufTy).Contents (Elt F))
  :: StableHlo.binary main_v195 main_v252 main_v253 (addf : (⟨S16384x768, .f32⟩ : BufTy).Contents (Elt F) → (⟨S16384x768, .f32⟩ : BufTy).Contents (Elt F) → (⟨S16384x768, .f32⟩ : BufTy).Contents (Elt F))
  :: StableHlo.unary main_arg5 main_v254 (broadcastInDim S16384x768 ![0, 1] bcast_S1x768_S16384x768_0_1 : (⟨S1x768, .f32⟩ : BufTy).Contents (Elt F) → (⟨S16384x768, .f32⟩ : BufTy).Contents (Elt F))
  :: StableHlo.binary main_v253 main_v254 main_v255 (addf : (⟨S16384x768, .f32⟩ : BufTy).Contents (Elt F) → (⟨S16384x768, .f32⟩ : BufTy).Contents (Elt F) → (⟨S16384x768, .f32⟩ : BufTy).Contents (Elt F))
  :: StableHlo.unary main_v255 main_v256 ((extractStridedSlice S16384x256 ![0, 0] · slices_S16384x768_S16384x256_0_0) : (⟨S16384x768, .f32⟩ : BufTy).Contents (Elt F) → (⟨S16384x256, .f32⟩ : BufTy).Contents (Elt F))
  :: StableHlo.unary main_v255 main_v257 ((extractStridedSlice S16384x256 ![0, 256] · slices_S16384x768_S16384x256_0_256) : (⟨S16384x768, .f32⟩ : BufTy).Contents (Elt F) → (⟨S16384x256, .f32⟩ : BufTy).Contents (Elt F))
  :: StableHlo.unary main_v255 main_v258 ((extractStridedSlice S16384x256 ![0, 512] · slices_S16384x768_S16384x256_0_512) : (⟨S16384x768, .f32⟩ : BufTy).Contents (Elt F) → (⟨S16384x256, .f32⟩ : BufTy).Contents (Elt F))
  :: StableHlo.unary main_v256 main_v259 (Host.negf : (⟨S16384x256, .f32⟩ : BufTy).Contents (Elt F) → (⟨S16384x256, .f32⟩ : BufTy).Contents (Elt F))
  :: StableHlo.unary main_v259 main_v260 (Host.exp : (⟨S16384x256, .f32⟩ : BufTy).Contents (Elt F) → (⟨S16384x256, .f32⟩ : BufTy).Contents (Elt F))
  :: StableHlo.nullary main_cst_61 (constant S_ .f32 0x3F800000#32)
  :: StableHlo.unary main_cst_61 main_v261 (broadcastInDim S16384x256 ![] bcast_S_S16384x256 : (⟨S_, .f32⟩ : BufTy).Contents (Elt F) → (⟨S16384x256, .f32⟩ : BufTy).Contents (Elt F))
  :: StableHlo.binary main_v261 main_v260 main_v262 (addf : (⟨S16384x256, .f32⟩ : BufTy).Contents (Elt F) → (⟨S16384x256, .f32⟩ : BufTy).Contents (Elt F) → (⟨S16384x256, .f32⟩ : BufTy).Contents (Elt F))
  :: StableHlo.nullary main_cst_62 (constant S_ .f32 0x3F800000#32)
  :: StableHlo.unary main_cst_62 main_v263 (broadcastInDim S16384x256 ![] bcast_S_S16384x256 : (⟨S_, .f32⟩ : BufTy).Contents (Elt F) → (⟨S16384x256, .f32⟩ : BufTy).Contents (Elt F))
  :: StableHlo.binary main_v263 main_v262 main_v264 (Host.divf : (⟨S16384x256, .f32⟩ : BufTy).Contents (Elt F) → (⟨S16384x256, .f32⟩ : BufTy).Contents (Elt F) → (⟨S16384x256, .f32⟩ : BufTy).Contents (Elt F))
  :: StableHlo.unary main_v258 main_v265 (Host.tanh : (⟨S16384x256, .f32⟩ : BufTy).Contents (Elt F) → (⟨S16384x256, .f32⟩ : BufTy).Contents (Elt F))
  :: StableHlo.binary main_v264 main_v265 main_v266 (mulf : (⟨S16384x256, .f32⟩ : BufTy).Contents (Elt F) → (⟨S16384x256, .f32⟩ : BufTy).Contents (Elt F) → (⟨S16384x256, .f32⟩ : BufTy).Contents (Elt F))
  :: StableHlo.binary main_v266 main_v250 main_v267 (addf : (⟨S16384x256, .f32⟩ : BufTy).Contents (Elt F) → (⟨S16384x256, .f32⟩ : BufTy).Contents (Elt F) → (⟨S16384x256, .f32⟩ : BufTy).Contents (Elt F))
  :: StableHlo.unary main_v257 main_v268 (Host.negf : (⟨S16384x256, .f32⟩ : BufTy).Contents (Elt F) → (⟨S16384x256, .f32⟩ : BufTy).Contents (Elt F))
  :: StableHlo.unary main_v268 main_v269 (Host.exp : (⟨S16384x256, .f32⟩ : BufTy).Contents (Elt F) → (⟨S16384x256, .f32⟩ : BufTy).Contents (Elt F))
  :: StableHlo.nullary main_cst_63 (constant S_ .f32 0x3F800000#32)
  :: StableHlo.unary main_cst_63 main_v270 (broadcastInDim S16384x256 ![] bcast_S_S16384x256 : (⟨S_, .f32⟩ : BufTy).Contents (Elt F) → (⟨S16384x256, .f32⟩ : BufTy).Contents (Elt F))
  :: StableHlo.binary main_v270 main_v269 main_v271 (addf : (⟨S16384x256, .f32⟩ : BufTy).Contents (Elt F) → (⟨S16384x256, .f32⟩ : BufTy).Contents (Elt F) → (⟨S16384x256, .f32⟩ : BufTy).Contents (Elt F))
  :: StableHlo.nullary main_cst_64 (constant S_ .f32 0x3F800000#32)
  :: StableHlo.unary main_cst_64 main_v272 (broadcastInDim S16384x256 ![] bcast_S_S16384x256 : (⟨S_, .f32⟩ : BufTy).Contents (Elt F) → (⟨S16384x256, .f32⟩ : BufTy).Contents (Elt F))
  :: StableHlo.binary main_v272 main_v271 main_v273 (Host.divf : (⟨S16384x256, .f32⟩ : BufTy).Contents (Elt F) → (⟨S16384x256, .f32⟩ : BufTy).Contents (Elt F) → (⟨S16384x256, .f32⟩ : BufTy).Contents (Elt F))
  :: StableHlo.unary main_v267 main_v274 (Host.tanh : (⟨S16384x256, .f32⟩ : BufTy).Contents (Elt F) → (⟨S16384x256, .f32⟩ : BufTy).Contents (Elt F))
  :: StableHlo.binary main_v273 main_v274 main_v275 (mulf : (⟨S16384x256, .f32⟩ : BufTy).Contents (Elt F) → (⟨S16384x256, .f32⟩ : BufTy).Contents (Elt F) → (⟨S16384x256, .f32⟩ : BufTy).Contents (Elt F))
  :: StableHlo.nullary main_c_65 (constantI S_ 32 0#32)
  :: StableHlo.unary main_c_65 main_v276 (broadcastInDim S16384 ![] bcast_S_S16384 : (⟨S_, .i32⟩ : BufTy).Contents (Elt F) → (⟨S16384, .i32⟩ : BufTy).Contents (Elt F))
  :: StableHlo.binary main_v188 main_v276 main_v277 (cmpi .slt : (⟨S16384, .i32⟩ : BufTy).Contents (Elt F) → (⟨S16384, .i32⟩ : BufTy).Contents (Elt F) → (⟨S16384, .i1⟩ : BufTy).Contents (Elt F))
  :: StableHlo.nullary main_c_66 (constantI S_ 32 131040#32)
  :: StableHlo.unary main_c_66 main_v278 (broadcastInDim S16384 ![] bcast_S_S16384 : (⟨S_, .i32⟩ : BufTy).Contents (Elt F) → (⟨S16384, .i32⟩ : BufTy).Contents (Elt F))
  :: StableHlo.binary main_v188 main_v278 main_v279 (addi : (⟨S16384, .i32⟩ : BufTy).Contents (Elt F) → (⟨S16384, .i32⟩ : BufTy).Contents (Elt F) → (⟨S16384, .i32⟩ : BufTy).Contents (Elt F))
  :: StableHlo.ternary main_v277 main_v279 main_v188 main_v280 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v280 main_v281 (broadcastInDim S16384x1 ![0] bcast_S16384_S16384x1_0 : (⟨S16384, .i32⟩ : BufTy).Contents (Elt F) → (⟨S16384x1, .i32⟩ : BufTy).Contents (Elt F))
  :: StableHlo.ternary main_v172 main_v281 main_v275 main_v282 ((fun x i u => Host.scatter scatter_S131040x256_S16384x1_S16384x256_1_0_0_1 (fun _ b => b) x i u) : (⟨S131040x256, .f32⟩ : BufTy).Contents (Elt F) → (⟨S16384x1, .i32⟩ : BufTy).Contents (Elt F) → (⟨S16384x256, .f32⟩ : BufTy).Contents (Elt F) → (⟨S131040x256, .f32⟩ : BufTy).Contents (Elt F))
  :: StableHlo.nullary main_c_67 (constantI S_ 32 0#32)
  :: StableHlo.unary main_c_67 main_v283 (broadcastInDim S16384 ![] bcast_S_S16384 : (⟨S_, .i32⟩ : BufTy).Contents (Elt F) → (⟨S16384, .i32⟩ : BufTy).Contents (Elt F))
  :: StableHlo.binary main_v188 main_v283 main_v284 (cmpi .slt : (⟨S16384, .i32⟩ : BufTy).Contents (Elt F) → (⟨S16384, .i32⟩ : BufTy).Contents (Elt F) → (⟨S16384, .i1⟩ : BufTy).Contents (Elt F))
  :: StableHlo.nullary main_c_68 (constantI S_ 32 131040#32)
  :: StableHlo.unary main_c_68 main_v285 (broadcastInDim S16384 ![] bcast_S_S16384 : (⟨S_, .i32⟩ : BufTy).Contents (Elt F) → (⟨S16384, .i32⟩ : BufTy).Contents (Elt F))
  :: StableHlo.binary main_v188 main_v285 main_v286 (addi : (⟨S16384, .i32⟩ : BufTy).Contents (Elt F) → (⟨S16384, .i32⟩ : BufTy).Contents (Elt F) → (⟨S16384, .i32⟩ : BufTy).Contents (Elt F))
  :: StableHlo.ternary main_v284 main_v286 main_v188 main_v287 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v287 main_v288 (broadcastInDim S16384x1 ![0] bcast_S16384_S16384x1_0 : (⟨S16384, .i32⟩ : BufTy).Contents (Elt F) → (⟨S16384x1, .i32⟩ : BufTy).Contents (Elt F))
  :: [] )
/-- Each touches TensorCore references only (`HostSeg.ofOps` over `StableHlo.tcRefs`, or a subset by `sub_ucRefs`). -/
theorem main_part5_ops0_sub : (main_part5_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
/-- Window 5 of `main` (`main_part5`, statements 301 … 360) is the chain of ITS items ending in the last
    (`Pipeline.chainK`: no closing `pure`, the window's last statement being in tail position), by `chain_rfl`. -/
theorem main_part5_chain (c : Dev nD) : main_part5 (F := F) c = (Pipeline.chainK
  [  ]
  (StableHlo.seq main_part5_ops0) : Prog (TpuEff nD τ sig (Elt F) (Pipeline.Sig Λ₀ (Fin 0) fun p => (pcfgs (F := F) p).Adm) .tc) PUnit) := by
  chain_rfl

/-- 58 host operations of @main, window 6 (statements 361 … 420), in order. -/
abbrev main_part6_ops0 : List (HloOp τ sig (Elt F)) :=
  ( StableHlo.ternary main_v179 main_v288 main_v267 main_v289 ((fun x i u => Host.scatter scatter_S131040x256_S16384x1_S16384x256_1_0_0_1 (fun _ b => b) x i u) : (⟨S131040x256, .f32⟩ : BufTy).Contents (Elt F) → (⟨S16384x1, .i32⟩ : BufTy).Contents (Elt F) → (⟨S16384x256, .f32⟩ : BufTy).Contents (Elt F) → (⟨S131040x256, .f32⟩ : BufTy).Contents (Elt F))
  :: StableHlo.unary main_v16 main_v290 (broadcastInDim S32x1 ![0] bcast_S32_S32x1_0 : (⟨S32, .i32⟩ : BufTy).Contents (Elt F) → (⟨S32x1, .i32⟩ : BufTy).Contents (Elt F))
  :: StableHlo.nullary main_c_69 (constantI S_ 32 255#32)
  :: StableHlo.unary main_c_69 main_v291 (broadcastInDim S32x1 ![] bcast_S_S32x1 : (⟨S_, .i32⟩ : BufTy).Contents (Elt F) → (⟨S32x1, .i32⟩ : BufTy).Contents (Elt F))
  :: StableHlo.binary main_v290 main_v291 main_v292 (addi : (⟨S32x1, .i32⟩ : BufTy).Contents (Elt F) → (⟨S32x1, .i32⟩ : BufTy).Contents (Elt F) → (⟨S32x1, .i32⟩ : BufTy).Contents (Elt F))
  :: StableHlo.nullary main_v293 (iotaInDim S256 32 0)
  :: StableHlo.unary main_v293 main_v294 (broadcastInDim S1x256 ![1] bcast_S256_S1x256_1 : (⟨S256, .i32⟩ : BufTy).Contents (Elt F) → (⟨S1x256, .i32⟩ : BufTy).Contents (Elt F))
  :: StableHlo.unary main_v292 main_v295 (broadcastInDim S32x256 ![0, 1] bcast_S32x1_S32x256_0_1 : (⟨S32x1, .i32⟩ : BufTy).Contents (Elt F) → (⟨S32x256, .i32⟩ : BufTy).Contents (Elt F))
  :: StableHlo.unary main_v294 main_v296 (broadcastInDim S32x256 ![0, 1] bcast_S1x256_S32x256_0_1 : (⟨S1x256, .i32⟩ : BufTy).Contents (Elt F) → (⟨S32x256, .i32⟩ : BufTy).Contents (Elt F))
  :: StableHlo.binary main_v295 main_v296 main_v297 (addi : (⟨S32x256, .i32⟩ : BufTy).Contents (Elt F) → (⟨S32x256, .i32⟩ : BufTy).Contents (Elt F) → (⟨S32x256, .i32⟩ : BufTy).Contents (Elt F))
  :: StableHlo.reshape main_v297 main_v298 rfl shapeCasts_S32x256_S8192
  :: StableHlo.nullary main_c_70 (constantI S_ 32 0#32)
  :: StableHlo.unary main_c_70 main_v299 (broadcastInDim S8192 ![] bcast_S_S8192 : (⟨S_, .i32⟩ : BufTy).Contents (Elt F) → (⟨S8192, .i32⟩ : BufTy).Contents (Elt F))
  :: StableHlo.binary main_v298 main_v299 main_v300 (cmpi .slt : (⟨S8192, .i32⟩ : BufTy).Contents (Elt F) → (⟨S8192, .i32⟩ : BufTy).Contents (Elt F) → (⟨S8192, .i1⟩ : BufTy).Contents (Elt F))
  :: StableHlo.nullary main_c_71 (constantI S_ 32 131040#32)
  :: StableHlo.unary main_c_71 main_v301 (broadcastInDim S8192 ![] bcast_S_S8192 : (⟨S_, .i32⟩ : BufTy).Contents (Elt F) → (⟨S8192, .i32⟩ : BufTy).Contents (Elt F))
  :: StableHlo.binary main_v298 main_v301 main_v302 (addi : (⟨S8192, .i32⟩ : BufTy).Contents (Elt F) → (⟨S8192, .i32⟩ : BufTy).Contents (Elt F) → (⟨S8192, .i32⟩ : BufTy).Contents (Elt F))
  :: StableHlo.ternary main_v300 main_v302 main_v298 main_v303 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v303 main_v304 (broadcastInDim S8192x1 ![0] bcast_S8192_S8192x1_0 : (⟨S8192, .i32⟩ : BufTy).Contents (Elt F) → (⟨S8192x1, .i32⟩ : BufTy).Contents (Elt F))
  :: StableHlo.binary main_v11 main_v304 main_v305 ((fun x i => Host.gather gather_S131040x768_S8192x1_S8192x768_1_0_n_n_0_1_1768 x i) : (⟨S131040x768, .f32⟩ : BufTy).Contents (Elt F) → (⟨S8192x1, .i32⟩ : BufTy).Contents (Elt F) → (⟨S8192x768, .f32⟩ : BufTy).Contents (Elt F))
  :: StableHlo.unary main_v16 main_v306 (broadcastInDim S32x1 ![0] bcast_S32_S32x1_0 : (⟨S32, .i32⟩ : BufTy).Contents (Elt F) → (⟨S32x1, .i32⟩ : BufTy).Contents (Elt F))
  :: StableHlo.nullary main_c_72 (constantI S_ 32 511#32)
  :: StableHlo.unary main_c_72 main_v307 (broadcastInDim S32x1 ![] bcast_S_S32x1 : (⟨S_, .i32⟩ : BufTy).Contents (Elt F) → (⟨S32x1, .i32⟩ : BufTy).Contents (Elt F))
  :: StableHlo.binary main_v306 main_v307 main_v308 (addi : (⟨S32x1, .i32⟩ : BufTy).Contents (Elt F) → (⟨S32x1, .i32⟩ : BufTy).Contents (Elt F) → (⟨S32x1, .i32⟩ : BufTy).Contents (Elt F))
  :: StableHlo.nullary main_v309 (iotaInDim S512 32 0)
  :: StableHlo.unary main_v309 main_v310 (broadcastInDim S1x512 ![1] bcast_S512_S1x512_1 : (⟨S512, .i32⟩ : BufTy).Contents (Elt F) → (⟨S1x512, .i32⟩ : BufTy).Contents (Elt F))
  :: StableHlo.unary main_v308 main_v311 (broadcastInDim S32x512 ![0, 1] bcast_S32x1_S32x512_0_1 : (⟨S32x1, .i32⟩ : BufTy).Contents (Elt F) → (⟨S32x512, .i32⟩ : BufTy).Contents (Elt F))
  :: StableHlo.unary main_v310 main_v312 (broadcastInDim S32x512 ![0, 1] bcast_S1x512_S32x512_0_1 : (⟨S1x512, .i32⟩ : BufTy).Contents (Elt F) → (⟨S32x512, .i32⟩ : BufTy).Contents (Elt F))
  :: StableHlo.binary main_v311 main_v312 main_v313 (addi : (⟨S32x512, .i32⟩ : BufTy).Contents (Elt F) → (⟨S32x512, .i32⟩ : BufTy).Contents (Elt F) → (⟨S32x512, .i32⟩ : BufTy).Contents (Elt F))
  :: StableHlo.reshape main_v313 main_v314 rfl shapeCasts_S32x512_S16384
  :: StableHlo.nullary main_c_73 (constantI S_ 32 0#32)
  :: StableHlo.unary main_c_73 main_v315 (broadcastInDim S16384 ![] bcast_S_S16384 : (⟨S_, .i32⟩ : BufTy).Contents (Elt F) → (⟨S16384, .i32⟩ : BufTy).Contents (Elt F))
  :: StableHlo.binary main_v314 main_v315 main_v316 (cmpi .slt : (⟨S16384, .i32⟩ : BufTy).Contents (Elt F) → (⟨S16384, .i32⟩ : BufTy).Contents (Elt F) → (⟨S16384, .i1⟩ : BufTy).Contents (Elt F))
  :: StableHlo.nullary main_c_74 (constantI S_ 32 131040#32)
  :: StableHlo.unary main_c_74 main_v317 (broadcastInDim S16384 ![] bcast_S_S16384 : (⟨S_, .i32⟩ : BufTy).Contents (Elt F) → (⟨S16384, .i32⟩ : BufTy).Contents (Elt F))
  :: StableHlo.binary main_v314 main_v317 main_v318 (addi : (⟨S16384, .i32⟩ : BufTy).Contents (Elt F) → (⟨S16384, .i32⟩ : BufTy).Contents (Elt F) → (⟨S16384, .i32⟩ : BufTy).Contents (Elt F))
  :: StableHlo.ternary main_v316 main_v318 main_v314 main_v319 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v319 main_v320 (broadcastInDim S16384x1 ![0] bcast_S16384_S16384x1_0 : (⟨S16384, .i32⟩ : BufTy).Contents (Elt F) → (⟨S16384x1, .i32⟩ : BufTy).Contents (Elt F))
  :: StableHlo.binary main_v282 main_v320 main_v321 ((fun x i => Host.gather gather_S131040x256_S16384x1_S16384x256_1_0_n_n_0_1_1256 x i) : (⟨S131040x256, .f32⟩ : BufTy).Contents (Elt F) → (⟨S16384x1, .i32⟩ : BufTy).Contents (Elt F) → (⟨S16384x256, .f32⟩ : BufTy).Contents (Elt F))
  :: StableHlo.nullary main_c_75 (constantI S_ 32 0#32)
  :: StableHlo.unary main_c_75 main_v322 (broadcastInDim S16384 ![] bcast_S_S16384 : (⟨S_, .i32⟩ : BufTy).Contents (Elt F) → (⟨S16384, .i32⟩ : BufTy).Contents (Elt F))
  :: StableHlo.binary main_v314 main_v322 main_v323 (cmpi .slt : (⟨S16384, .i32⟩ : BufTy).Contents (Elt F) → (⟨S16384, .i32⟩ : BufTy).Contents (Elt F) → (⟨S16384, .i1⟩ : BufTy).Contents (Elt F))
  :: StableHlo.nullary main_c_76 (constantI S_ 32 131040#32)
  :: StableHlo.unary main_c_76 main_v324 (broadcastInDim S16384 ![] bcast_S_S16384 : (⟨S_, .i32⟩ : BufTy).Contents (Elt F) → (⟨S16384, .i32⟩ : BufTy).Contents (Elt F))
  :: StableHlo.binary main_v314 main_v324 main_v325 (addi : (⟨S16384, .i32⟩ : BufTy).Contents (Elt F) → (⟨S16384, .i32⟩ : BufTy).Contents (Elt F) → (⟨S16384, .i32⟩ : BufTy).Contents (Elt F))
  :: StableHlo.ternary main_v323 main_v325 main_v314 main_v326 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v326 main_v327 (broadcastInDim S16384x1 ![0] bcast_S16384_S16384x1_0 : (⟨S16384, .i32⟩ : BufTy).Contents (Elt F) → (⟨S16384x1, .i32⟩ : BufTy).Contents (Elt F))
  :: StableHlo.binary main_v289 main_v327 main_v328 ((fun x i => Host.gather gather_S131040x256_S16384x1_S16384x256_1_0_n_n_0_1_1256 x i) : (⟨S131040x256, .f32⟩ : BufTy).Contents (Elt F) → (⟨S16384x1, .i32⟩ : BufTy).Contents (Elt F) → (⟨S16384x256, .f32⟩ : BufTy).Contents (Elt F))
  :: StableHlo.nullary main_c_77 (constantI S_ 32 0#32)
  :: StableHlo.unary main_c_77 main_v329 (broadcastInDim S16384 ![] bcast_S_S16384 : (⟨S_, .i32⟩ : BufTy).Contents (Elt F) → (⟨S16384, .i32⟩ : BufTy).Contents (Elt F))
  :: StableHlo.binary main_v314 main_v329 main_v330 (cmpi .slt : (⟨S16384, .i32⟩ : BufTy).Contents (Elt F) → (⟨S16384, .i32⟩ : BufTy).Contents (Elt F) → (⟨S16384, .i1⟩ : BufTy).Contents (Elt F))
  :: StableHlo.nullary main_c_78 (constantI S_ 32 131040#32)
  :: StableHlo.unary main_c_78 main_v331 (broadcastInDim S16384 ![] bcast_S_S16384 : (⟨S_, .i32⟩ : BufTy).Contents (Elt F) → (⟨S16384, .i32⟩ : BufTy).Contents (Elt F))
  :: StableHlo.binary main_v314 main_v331 main_v332 (addi : (⟨S16384, .i32⟩ : BufTy).Contents (Elt F) → (⟨S16384, .i32⟩ : BufTy).Contents (Elt F) → (⟨S16384, .i32⟩ : BufTy).Contents (Elt F))
  :: StableHlo.ternary main_v330 main_v332 main_v314 main_v333 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F))
  :: StableHlo.unary main_v333 main_v334 (broadcastInDim S16384x1 ![0] bcast_S16384_S16384x1_0 : (⟨S16384, .i32⟩ : BufTy).Contents (Elt F) → (⟨S16384x1, .i32⟩ : BufTy).Contents (Elt F))
  :: StableHlo.binary main_arg1 main_v334 main_v335 ((fun x i => Host.gather gather_S131040_S16384x1_S16384_n_0_n_n_0_1_1 x i) : (⟨S131040, .i32⟩ : BufTy).Contents (Elt F) → (⟨S16384x1, .i32⟩ : BufTy).Contents (Elt F) → (⟨S16384, .i32⟩ : BufTy).Contents (Elt F))
  :: StableHlo.nullary main_c_79 (constantI S_ 32 4095#32)
  :: [] )
/-- Each touches TensorCore references only (`HostSeg.ofOps` over `StableHlo.tcRefs`, or a subset by `sub_ucRefs`). -/
theorem main_part6_ops0_sub : (main_part6_ops0 : List (HloOp τ sig (Elt F))).Forall fun op => op.bufs ⊆ StableHlo.tcRefs τ sig :=
  ⟨StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_4 (main_call4), window 6 (statements 361 … 420), in order. -/
abbrev main_part6_ops1 : List (HloOp τ sig (Elt F)) :=
  [ StableHlo.TRef.unary (.of main_c_79 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S16384, .i32⟩) (broadcastInDim S16384 ![] bcast_S_S16384),
    StableHlo.TRef.binary (.of main_v335 : StableHlo.TRef sig ⟨S16384, .i32⟩) (.of main_call4_v1 : StableHlo.TRef sig ⟨S16384, .i32⟩) (.of main_call4_v2 : StableHlo.TRef sig ⟨S16384, .i32⟩) Host.divsi,
    StableHlo.TRef.unary (.of main_v335 : StableHlo.TRef sig ⟨S16384, .i32⟩) (.of main_call4_v3 : StableHlo.TRef sig ⟨S16384, .i32⟩) signi,
    StableHlo.TRef.unary (.of main_call4_v0 : StableHlo.TRef sig ⟨S_, .i32⟩) (.of main_call4_v4 : StableHlo.TRef sig ⟨S_, .i32⟩) signi,
    StableHlo.TRef.unary (.of main_call4_v4 : StableHlo.TRef sig ⟨S_, .i32⟩) (.of main_call4_v5 : StableHlo.TRef sig ⟨S16384, .i32⟩) (broadcastInDim S16384 ![] bcast_S_S16384),
    StableHlo.TRef.binary (.of main_call4_v3 : StableHlo.TRef sig ⟨S16384, .i32⟩) (.of main_call4_v5 : StableHlo.TRef sig ⟨S16384, .i32⟩) (.of main_call4_v6 : StableHlo.TRef sig ⟨S16384, .i1⟩) (cmpi .ne),
    StableHlo.TRef.unary (.of main_call4_v0 : StableHlo.TRef sig ⟨S_, .i32⟩) (.of main_call4_v7 : StableHlo.TRef sig ⟨S16384, .i32⟩) (broadcastInDim S16384 ![] bcast_S_S16384),
    StableHlo.TRef.binary (.of main_v335 : StableHlo.TRef sig ⟨S16384, .i32⟩) (.of main_call4_v7 : StableHlo.TRef sig ⟨S16384, .i32⟩) (.of main_call4_v8 : StableHlo.TRef sig ⟨S16384, .i32⟩) Host.remsi,
    StableHlo.TRef.nullary (.of main_call4_c : StableHlo.TRef sig ⟨S_, .i32⟩) (constantI S_ 32 0#32),
    StableHlo.TRef.unary (.of main_call4_c : StableHlo.TRef sig ⟨S_, .i32⟩) (.of main_call4_v9 : StableHlo.TRef sig ⟨S16384, .i32⟩) (broadcastInDim S16384 ![] bcast_S_S16384),
    StableHlo.TRef.binary (.of main_call4_v8 : StableHlo.TRef sig ⟨S16384, .i32⟩) (.of main_call4_v9 : StableHlo.TRef sig ⟨S16384, .i32⟩) (.of main_call4_v10 : StableHlo.TRef sig ⟨S16384, .i1⟩) (cmpi .ne),
    StableHlo.TRef.binary (.of main_call4_v6 : StableHlo.TRef sig ⟨S16384, .i1⟩) (.of main_call4_v10 : StableHlo.TRef sig ⟨S16384, .i1⟩) (.of main_call4_v11 : StableHlo.TRef sig ⟨S16384, .i1⟩) andi,
    StableHlo.TRef.nullary (.of main_call4_c_0 : StableHlo.TRef sig ⟨S_, .i32⟩) (constantI S_ 32 1#32),
    StableHlo.TRef.unary (.of main_call4_c_0 : StableHlo.TRef sig ⟨S_, .i32⟩) (.of main_call4_v12 : StableHlo.TRef sig ⟨S16384, .i32⟩) (broadcastInDim S16384 ![] bcast_S_S16384),
    StableHlo.TRef.binary (.of main_call4_v2 : StableHlo.TRef sig ⟨S16384, .i32⟩) (.of main_call4_v12 : StableHlo.TRef sig ⟨S16384, .i32⟩) (.of main_call4_v13 : StableHlo.TRef sig ⟨S16384, .i32⟩) subi,
    StableHlo.TRef.ternary (.of main_call4_v11 : StableHlo.TRef sig ⟨S16384, .i1⟩) (.of main_call4_v13 : StableHlo.TRef sig ⟨S16384, .i32⟩) (.of main_call4_v2 : StableHlo.TRef sig ⟨S16384, .i32⟩) (.of main_v336 : StableHlo.TRef sig ⟨S16384, .i32⟩) select ]
/-- Each touches TensorCore references only (`HostSeg.ofOps` over `StableHlo.tcRefs`, or a subset by `sub_ucRefs`). -/
theorem main_part6_ops1_sub : (main_part6_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 1 host operation of @main, window 6 (statements 361 … 420), in order. -/
abbrev main_part6_ops2 : List (HloOp τ sig (Elt F)) :=
  [ StableHlo.nullary main_c_80 (constantI S_ 32 256#32) ]
/-- Each touches TensorCore references only (`HostSeg.ofOps` over `StableHlo.tcRefs`, or a subset by `sub_ucRefs`). -/
theorem main_part6_ops2_sub : (main_part6_ops2 : List (HloOp τ sig (Elt F))).Forall fun op => op.bufs ⊆ StableHlo.tcRefs τ sig :=
  StableHlo.nullary_bufs_sub ..
/-- Window 6 of `main` (`main_part6`, statements 361 … 420) is the chain of ITS items ending in the last
    (`Pipeline.chainK`: no closing `pure`, the window's last statement being in tail position), by `chain_rfl`. -/
theorem main_part6_chain (c : Dev nD) : main_part6 (F := F) c = (Pipeline.chainK
  [ StableHlo.seq main_part6_ops0,
    StableHlo.seq main_part6_ops1 ]
  (StableHlo.seq main_part6_ops2) : Prog (TpuEff nD τ sig (Elt F) (Pipeline.Sig Λ₀ (Fin 0) fun p => (pcfgs (F := F) p).Adm) .tc) PUnit) := by
  chain_rfl

end Cert.ReferenceIdeal.Gen

end
-- ==== Proof.RefOpsW1.lean ====
/- The reference program's entry function as lists of host operations: some of its windows, each the chain of its pieces. -/
import proofs.«419362_j66683662237734_3_alg».proof.Proof.Gen.ReferenceIdeal
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- 3 host operations of @main, window 7 (statements 421 … 480), in order. -/
abbrev main_part7_ops0 : List (HloOp τ sig (Elt F)) :=
  [ StableHlo.unary main_c_80 main_v337 (broadcastInDim S16384 ![] bcast_S_S16384 : (⟨S_, .i32⟩ : BufTy).Contents (Elt F) → (⟨S16384, .i32⟩ : BufTy).Contents (Elt F)),
    StableHlo.binary main_v336 main_v337 main_v338 (muli : (⟨S16384, .i32⟩ : BufTy).Contents (Elt F) → (⟨S16384, .i32⟩ : BufTy).Contents (Elt F) → (⟨S16384, .i32⟩ : BufTy).Contents (Elt F)),
    StableHlo.nullary main_c_81 (constantI S_ 32 4095#32) ]
/-- Each touches TensorCore references only (`HostSeg.ofOps` over `StableHlo.tcRefs`, or a subset by `sub_ucRefs`). -/
theorem main_part7_ops0_sub : (main_part7_ops0 : List (HloOp τ sig (Elt F))).Forall fun op => op.bufs ⊆ StableHlo.tcRefs τ sig :=
  ⟨StableHlo.unary_bufs_sub .., StableHlo.binary_bufs_sub .., StableHlo.nullary_bufs_sub ..⟩
/-- 21 host operations of @remainder_6 (main_call5), window 7 (statements 421 … 480), in order. -/
abbrev main_part7_ops1 : List (HloOp τ sig (Elt F)) :=
  [ StableHlo.TRef.unary (.of main_c_81 : StableHlo.TRef sig ⟨S_, .i32⟩) (.of main_call5_v0 : StableHlo.TRef sig ⟨S_, .i32⟩) id,
    StableHlo.TRef.nullary (.of main_call5_c : StableHlo.TRef sig ⟨S_, .i32⟩) (constantI S_ 32 0#32),
    StableHlo.TRef.binary (.of main_call5_v0 : StableHlo.TRef sig ⟨S_, .i32⟩) (.of main_call5_c : StableHlo.TRef sig ⟨S_, .i32⟩) (.of main_call5_v1 : StableHlo.TRef sig ⟨S_, .i1⟩) (cmpi .eq),
    StableHlo.TRef.nullary (.of main_call5_c_0 : StableHlo.TRef sig ⟨S_, .i32⟩) (constantI S_ 32 1#32),
    StableHlo.TRef.ternary (.of main_call5_v1 : StableHlo.TRef sig ⟨S_, .i1⟩) (.of main_call5_c_0 : StableHlo.TRef sig ⟨S_, .i32⟩) (.of main_call5_v0 : StableHlo.TRef sig ⟨S_, .i32⟩) (.of main_call5_v2 : StableHlo.TRef sig ⟨S_, .i32⟩) select,
    StableHlo.TRef.unary main_call5_call0.v0 (.of main_call5_v3 : StableHlo.TRef sig ⟨S16384, .i32⟩) (broadcastInDim S16384 ![] bcast_S_S16384),
    StableHlo.TRef.binary (.of main_v335 : StableHlo.TRef sig ⟨S16384, .i32⟩) (.of main_call5_v3 : StableHlo.TRef sig ⟨S16384, .i32⟩) (.of main_call5_v4 : StableHlo.TRef sig ⟨S16384, .i32⟩) Host.remsi,
    StableHlo.TRef.nullary (.of main_call5_c_1 : StableHlo.TRef sig ⟨S_, .i32⟩) (constantI S_ 32 0#32),
    StableHlo.TRef.unary (.of main_call5_c_1 : StableHlo.TRef sig ⟨S_, .i32⟩) (.of main_call5_v5 : StableHlo.TRef sig ⟨S16384, .i32⟩) (broadcastInDim S16384 ![] bcast_S_S16384),
    StableHlo.TRef.binary (.of main_call5_v4 : StableHlo.TRef sig ⟨S16384, .i32⟩) (.of main_call5_v5 : StableHlo.TRef sig ⟨S16384, .i32⟩) (.of main_call5_v6 : StableHlo.TRef sig ⟨S16384, .i1⟩) (cmpi .ne),
    StableHlo.TRef.nullary (.of main_call5_c_2 : StableHlo.TRef sig ⟨S_, .i32⟩) (constantI S_ 32 0#32),
    StableHlo.TRef.unary (.of main_call5_c_2 : StableHlo.TRef sig ⟨S_, .i32⟩) (.of main_call5_v7 : StableHlo.TRef sig ⟨S16384, .i32⟩) (broadcastInDim S16384 ![] bcast_S_S16384),
    StableHlo.TRef.binary (.of main_call5_v4 : StableHlo.TRef sig ⟨S16384, .i32⟩) (.of main_call5_v7 : StableHlo.TRef sig ⟨S16384, .i32⟩) (.of main_call5_v8 : StableHlo.TRef sig ⟨S16384, .i1⟩) (cmpi .slt),
    StableHlo.TRef.nullary (.of main_call5_c_3 : StableHlo.TRef sig ⟨S_, .i32⟩) (constantI S_ 32 0#32),
    StableHlo.TRef.binary main_call5_call0.v0 (.of main_call5_c_3 : StableHlo.TRef sig ⟨S_, .i32⟩) (.of main_call5_v9 : StableHlo.TRef sig ⟨S_, .i1⟩) (cmpi .slt),
    StableHlo.TRef.unary (.of main_call5_v9 : StableHlo.TRef sig ⟨S_, .i1⟩) (.of main_call5_v10 : StableHlo.TRef sig ⟨S16384, .i1⟩) (broadcastInDim S16384 ![] bcast_S_S16384),
    StableHlo.TRef.binary (.of main_call5_v8 : StableHlo.TRef sig ⟨S16384, .i1⟩) (.of main_call5_v10 : StableHlo.TRef sig ⟨S16384, .i1⟩) (.of main_call5_v11 : StableHlo.TRef sig ⟨S16384, .i1⟩) (cmpi .ne),
    StableHlo.TRef.binary (.of main_call5_v11 : StableHlo.TRef sig ⟨S16384, .i1⟩) (.of main_call5_v6 : StableHlo.TRef sig ⟨S16384, .i1⟩) (.of main_call5_v12 : StableHlo.TRef sig ⟨S16384, .i1⟩) andi,
    StableHlo.TRef.unary main_call5_call0.v0 (.of main_call5_v13 : StableHlo.TRef sig ⟨S16384, .i32⟩) (broadcastInDim S16384 ![] bcast_S_S16384),
    StableHlo.TRef.binary (.of main_call5_v4 : StableHlo.TRef sig ⟨S16384, .i32⟩) (.of main_call5_v13 : StableHlo.TRef sig ⟨S16384, .i32⟩) (.of main_call5_v14 : StableHlo.TRef sig ⟨S16384, .i32⟩) addi,
    StableHlo.TRef.ternary (.of main_call5_v12 : StableHlo.TRef sig ⟨S16384, .i1⟩) (.of main_call5_v14 : StableHlo.TRef sig ⟨S16384, .i32⟩) (.of main_call5_v4 : StableHlo.TRef sig ⟨S16384, .i32⟩) (.of main_v339 : StableHlo.TRef sig ⟨S16384, .i32⟩) select ]
/-- Each touches TensorCore references only (`HostSeg.ofOps` over `StableHlo.tcRefs`, or a subset by `sub_ucRefs`). -/
theorem main_part7_ops1_sub : (main_part7_ops1 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 56 host operations of @main, window 7 (statements 421 … 480), in order. -/
abbrev main_part7_ops2 : List (HloOp τ sig (Elt F)) :=
  ( StableHlo.nullary main_c_82 (constantI S_ 32 255#32)
  :: StableHlo.unary main_c_82 main_v340 (broadcastInDim S16384 ![] bcast_S_S16384 : (⟨S_, .i32⟩ : BufTy).Contents (Elt F) → (⟨S16384, .i32⟩ : BufTy).Contents (Elt F))
  :: StableHlo.binary main_v339 main_v340 main_v341 (subi : (⟨S16384, .i32⟩ : BufTy).Contents (Elt F) → (⟨S16384, .i32⟩ : BufTy).Contents (Elt F) → (⟨S16384, .i32⟩ : BufTy).Contents (Elt F))
  :: StableHlo.binary main_v338 main_v341 main_v342 (addi : (⟨S16384, .i32⟩ : BufTy).Contents (Elt F) → (⟨S16384, .i32⟩ : BufTy).Contents (Elt F) → (⟨S16384, .i32⟩ : BufTy).Contents (Elt F))
  :: StableHlo.unary main_arg6 main_v343 ((transpose S256x256 [1, 0] · transposes_S256x256_S256x256_1_0) : (⟨S256x256, .f32⟩ : BufTy).Contents (Elt F) → (⟨S256x256, .f32⟩ : BufTy).Contents (Elt F))
  :: StableHlo.binary main_v321 main_v343 main_v344 ((fun l r => Host.dotGeneral dot_S16384x256_S256x256_S16384x256_1_0_0_1_n_n none l r) : (⟨S16384x256, .f32⟩ : BufTy).Contents (Elt F) → (⟨S256x256, .f32⟩ : BufTy).Contents (Elt F) → (⟨S16384x256, .f32⟩ : BufTy).Contents (Elt F))
  :: StableHlo.unary main_arg7 main_v345 (broadcastInDim S1x256 ![1] bcast_S256_S1x256_1 : (⟨S256, .f32⟩ : BufTy).Contents (Elt F) → (⟨S1x256, .f32⟩ : BufTy).Contents (Elt F))
  :: StableHlo.unary main_v345 main_v346 (broadcastInDim S16384x256 ![0, 1] bcast_S1x256_S16384x256_0_1 : (⟨S1x256, .f32⟩ : BufTy).Contents (Elt F) → (⟨S16384x256, .f32⟩ : BufTy).Contents (Elt F))
  :: StableHlo.binary main_v344 main_v346 main_v347 (addf : (⟨S16384x256, .f32⟩ : BufTy).Contents (Elt F) → (⟨S16384x256, .f32⟩ : BufTy).Contents (Elt F) → (⟨S16384x256, .f32⟩ : BufTy).Contents (Elt F))
  :: StableHlo.unary main_v347 main_v348 (Host.negf : (⟨S16384x256, .f32⟩ : BufTy).Contents (Elt F) → (⟨S16384x256, .f32⟩ : BufTy).Contents (Elt F))
  :: StableHlo.unary main_v348 main_v349 (Host.exp : (⟨S16384x256, .f32⟩ : BufTy).Contents (Elt F) → (⟨S16384x256, .f32⟩ : BufTy).Contents (Elt F))
  :: StableHlo.nullary main_cst_83 (constant S_ .f32 0x3F800000#32)
  :: StableHlo.unary main_cst_83 main_v350 (broadcastInDim S16384x256 ![] bcast_S_S16384x256 : (⟨S_, .f32⟩ : BufTy).Contents (Elt F) → (⟨S16384x256, .f32⟩ : BufTy).Contents (Elt F))
  :: StableHlo.binary main_v350 main_v349 main_v351 (addf : (⟨S16384x256, .f32⟩ : BufTy).Contents (Elt F) → (⟨S16384x256, .f32⟩ : BufTy).Contents (Elt F) → (⟨S16384x256, .f32⟩ : BufTy).Contents (Elt F))
  :: StableHlo.nullary main_cst_84 (constant S_ .f32 0x3F800000#32)
  :: StableHlo.unary main_cst_84 main_v352 (broadcastInDim S16384x256 ![] bcast_S_S16384x256 : (⟨S_, .f32⟩ : BufTy).Contents (Elt F) → (⟨S16384x256, .f32⟩ : BufTy).Contents (Elt F))
  :: StableHlo.binary main_v352 main_v351 main_v353 (Host.divf : (⟨S16384x256, .f32⟩ : BufTy).Contents (Elt F) → (⟨S16384x256, .f32⟩ : BufTy).Contents (Elt F) → (⟨S16384x256, .f32⟩ : BufTy).Contents (Elt F))
  :: StableHlo.nullary main_cst_85 (constant S_ .f32 0x00000000#32)
  :: StableHlo.unary main_cst_85 main_v354 (broadcastInDim S8192x256 ![] bcast_S_S8192x256 : (⟨S_, .f32⟩ : BufTy).Contents (Elt F) → (⟨S8192x256, .f32⟩ : BufTy).Contents (Elt F))
  :: StableHlo.unary main_v342 main_v355 (broadcastInDim S16384x1 ![0] bcast_S16384_S16384x1_0 : (⟨S16384, .i32⟩ : BufTy).Contents (Elt F) → (⟨S16384x1, .i32⟩ : BufTy).Contents (Elt F))
  :: StableHlo.ternary main_v354 main_v355 main_v321 main_v356 ((fun x i u => Host.scatterAdd scatter_S8192x256_S16384x1_S16384x256_1_0_0_1 x i u) : (⟨S8192x256, .f32⟩ : BufTy).Contents (Elt F) → (⟨S16384x1, .i32⟩ : BufTy).Contents (Elt F) → (⟨S16384x256, .f32⟩ : BufTy).Contents (Elt F) → (⟨S8192x256, .f32⟩ : BufTy).Contents (Elt F))
  :: StableHlo.binary main_v353 main_v328 main_v357 (mulf : (⟨S16384x256, .f32⟩ : BufTy).Contents (Elt F) → (⟨S16384x256, .f32⟩ : BufTy).Contents (Elt F) → (⟨S16384x256, .f32⟩ : BufTy).Contents (Elt F))
  :: StableHlo.nullary main_cst_86 (constant S_ .f32 0x00000000#32)
  :: StableHlo.unary main_cst_86 main_v358 (broadcastInDim S8192x256 ![] bcast_S_S8192x256 : (⟨S_, .f32⟩ : BufTy).Contents (Elt F) → (⟨S8192x256, .f32⟩ : BufTy).Contents (Elt F))
  :: StableHlo.unary main_v342 main_v359 (broadcastInDim S16384x1 ![0] bcast_S16384_S16384x1_0 : (⟨S16384, .i32⟩ : BufTy).Contents (Elt F) → (⟨S16384x1, .i32⟩ : BufTy).Contents (Elt F))
  :: StableHlo.ternary main_v358 main_v359 main_v357 main_v360 ((fun x i u => Host.scatterAdd scatter_S8192x256_S16384x1_S16384x256_1_0_0_1 x i u) : (⟨S8192x256, .f32⟩ : BufTy).Contents (Elt F) → (⟨S16384x1, .i32⟩ : BufTy).Contents (Elt F) → (⟨S16384x256, .f32⟩ : BufTy).Contents (Elt F) → (⟨S8192x256, .f32⟩ : BufTy).Contents (Elt F))
  :: StableHlo.unary main_arg4 main_v361 ((transpose S256x768 [1, 0] · transposes_S768x256_S256x768_1_0) : (⟨S768x256, .f32⟩ : BufTy).Contents (Elt F) → (⟨S256x768, .f32⟩ : BufTy).Contents (Elt F))
  :: StableHlo.binary main_v356 main_v361 main_v362 ((fun l r => Host.dotGeneral dot_S8192x256_S256x768_S8192x768_1_0_0_1_n_n none l r) : (⟨S8192x256, .f32⟩ : BufTy).Contents (Elt F) → (⟨S256x768, .f32⟩ : BufTy).Contents (Elt F) → (⟨S8192x768, .f32⟩ : BufTy).Contents (Elt F))
  :: StableHlo.binary main_v305 main_v362 main_v363 (addf : (⟨S8192x768, .f32⟩ : BufTy).Contents (Elt F) → (⟨S8192x768, .f32⟩ : BufTy).Contents (Elt F) → (⟨S8192x768, .f32⟩ : BufTy).Contents (Elt F))
  :: StableHlo.unary main_arg5 main_v364 (broadcastInDim S8192x768 ![0, 1] bcast_S1x768_S8192x768_0_1 : (⟨S1x768, .f32⟩ : BufTy).Contents (Elt F) → (⟨S8192x768, .f32⟩ : BufTy).Contents (Elt F))
  :: StableHlo.binary main_v363 main_v364 main_v365 (addf : (⟨S8192x768, .f32⟩ : BufTy).Contents (Elt F) → (⟨S8192x768, .f32⟩ : BufTy).Contents (Elt F) → (⟨S8192x768, .f32⟩ : BufTy).Contents (Elt F))
  :: StableHlo.unary main_v365 main_v366 ((extractStridedSlice S8192x256 ![0, 0] · slices_S8192x768_S8192x256_0_0) : (⟨S8192x768, .f32⟩ : BufTy).Contents (Elt F) → (⟨S8192x256, .f32⟩ : BufTy).Contents (Elt F))
  :: StableHlo.unary main_v365 main_v367 ((extractStridedSlice S8192x256 ![0, 256] · slices_S8192x768_S8192x256_0_256) : (⟨S8192x768, .f32⟩ : BufTy).Contents (Elt F) → (⟨S8192x256, .f32⟩ : BufTy).Contents (Elt F))
  :: StableHlo.unary main_v365 main_v368 ((extractStridedSlice S8192x256 ![0, 512] · slices_S8192x768_S8192x256_0_512) : (⟨S8192x768, .f32⟩ : BufTy).Contents (Elt F) → (⟨S8192x256, .f32⟩ : BufTy).Contents (Elt F))
  :: StableHlo.unary main_v366 main_v369 (Host.negf : (⟨S8192x256, .f32⟩ : BufTy).Contents (Elt F) → (⟨S8192x256, .f32⟩ : BufTy).Contents (Elt F))
  :: StableHlo.unary main_v369 main_v370 (Host.exp : (⟨S8192x256, .f32⟩ : BufTy).Contents (Elt F) → (⟨S8192x256, .f32⟩ : BufTy).Contents (Elt F))
  :: StableHlo.nullary main_cst_87 (constant S_ .f32 0x3F800000#32)
  :: StableHlo.unary main_cst_87 main_v371 (broadcastInDim S8192x256 ![] bcast_S_S8192x256 : (⟨S_, .f32⟩ : BufTy).Contents (Elt F) → (⟨S8192x256, .f32⟩ : BufTy).Contents (Elt F))
  :: StableHlo.binary main_v371 main_v370 main_v372 (addf : (⟨S8192x256, .f32⟩ : BufTy).Contents (Elt F) → (⟨S8192x256, .f32⟩ : BufTy).Contents (Elt F) → (⟨S8192x256, .f32⟩ : BufTy).Contents (Elt F))
  :: StableHlo.nullary main_cst_88 (constant S_ .f32 0x3F800000#32)
  :: StableHlo.unary main_cst_88 main_v373 (broadcastInDim S8192x256 ![] bcast_S_S8192x256 : (⟨S_, .f32⟩ : BufTy).Contents (Elt F) → (⟨S8192x256, .f32⟩ : BufTy).Contents (Elt F))
  :: StableHlo.binary main_v373 main_v372 main_v374 (Host.divf : (⟨S8192x256, .f32⟩ : BufTy).Contents (Elt F) → (⟨S8192x256, .f32⟩ : BufTy).Contents (Elt F) → (⟨S8192x256, .f32⟩ : BufTy).Contents (Elt F))
  :: StableHlo.unary main_v368 main_v375 (Host.tanh : (⟨S8192x256, .f32⟩ : BufTy).Contents (Elt F) → (⟨S8192x256, .f32⟩ : BufTy).Contents (Elt F))
  :: StableHlo.binary main_v374 main_v375 main_v376 (mulf : (⟨S8192x256, .f32⟩ : BufTy).Contents (Elt F) → (⟨S8192x256, .f32⟩ : BufTy).Contents (Elt F) → (⟨S8192x256, .f32⟩ : BufTy).Contents (Elt F))
  :: StableHlo.binary main_v376 main_v360 main_v377 (addf : (⟨S8192x256, .f32⟩ : BufTy).Contents (Elt F) → (⟨S8192x256, .f32⟩ : BufTy).Contents (Elt F) → (⟨S8192x256, .f32⟩ : BufTy).Contents (Elt F))
  :: StableHlo.unary main_v367 main_v378 (Host.negf : (⟨S8192x256, .f32⟩ : BufTy).Contents (Elt F) → (⟨S8192x256, .f32⟩ : BufTy).Contents (Elt F))
  :: StableHlo.unary main_v378 main_v379 (Host.exp : (⟨S8192x256, .f32⟩ : BufTy).Contents (Elt F) → (⟨S8192x256, .f32⟩ : BufTy).Contents (Elt F))
  :: StableHlo.nullary main_cst_89 (constant S_ .f32 0x3F800000#32)
  :: StableHlo.unary main_cst_89 main_v380 (broadcastInDim S8192x256 ![] bcast_S_S8192x256 : (⟨S_, .f32⟩ : BufTy).Contents (Elt F) → (⟨S8192x256, .f32⟩ : BufTy).Contents (Elt F))
  :: StableHlo.binary main_v380 main_v379 main_v381 (addf : (⟨S8192x256, .f32⟩ : BufTy).Contents (Elt F) → (⟨S8192x256, .f32⟩ : BufTy).Contents (Elt F) → (⟨S8192x256, .f32⟩ : BufTy).Contents (Elt F))
  :: StableHlo.nullary main_cst_90 (constant S_ .f32 0x3F800000#32)
  :: StableHlo.unary main_cst_90 main_v382 (broadcastInDim S8192x256 ![] bcast_S_S8192x256 : (⟨S_, .f32⟩ : BufTy).Contents (Elt F) → (⟨S8192x256, .f32⟩ : BufTy).Contents (Elt F))
  :: StableHlo.binary main_v382 main_v381 main_v383 (Host.divf : (⟨S8192x256, .f32⟩ : BufTy).Contents (Elt F) → (⟨S8192x256, .f32⟩ : BufTy).Contents (Elt F) → (⟨S8192x256, .f32⟩ : BufTy).Contents (Elt F))
  :: StableHlo.unary main_v377 main_v384 (Host.tanh : (⟨S8192x256, .f32⟩ : BufTy).Contents (Elt F) → (⟨S8192x256, .f32⟩ : BufTy).Contents (Elt F))
  :: StableHlo.binary main_v383 main_v384 main_v385 (mulf : (⟨S8192x256, .f32⟩ : BufTy).Contents (Elt F) → (⟨S8192x256, .f32⟩ : BufTy).Contents (Elt F) → (⟨S8192x256, .f32⟩ : BufTy).Contents (Elt F))
  :: StableHlo.nullary main_c_91 (constantI S_ 32 0#32)
  :: [] )
/-- Each touches TensorCore references only (`HostSeg.ofOps` over `StableHlo.tcRefs`, or a subset by `sub_ucRefs`). -/
theorem main_part7_ops2_sub : (main_part7_ops2 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub ..⟩
/-- Window 7 of `main` (`main_part7`, statements 421 … 480) is the chain of ITS items ending in the last
    (`Pipeline.chainK`: no closing `pure`, the window's last statement being in tail position), by `chain_rfl`. -/
theorem main_part7_chain (c : Dev nD) : main_part7 (F := F) c = (Pipeline.chainK
  [ StableHlo.seq main_part7_ops0,
    StableHlo.seq main_part7_ops1 ]
  (StableHlo.seq main_part7_ops2) : Prog (TpuEff nD τ sig (Elt F) (Pipeline.Sig Λ₀ (Fin 0) fun p => (pcfgs (F := F) p).Adm) .tc) PUnit) := by
  chain_rfl

/-- 60 host operations of @main, window 8 (statements 481 … 540), in order. -/
abbrev main_part8_ops0 : List (HloOp τ sig (Elt F)) :=
  ( StableHlo.unary main_c_91 main_v386 (broadcastInDim S8192 ![] bcast_S_S8192 : (⟨S_, .i32⟩ : BufTy).Contents (Elt F) → (⟨S8192, .i32⟩ : BufTy).Contents (Elt F))
  :: StableHlo.binary main_v298 main_v386 main_v387 (cmpi .slt : (⟨S8192, .i32⟩ : BufTy).Contents (Elt F) → (⟨S8192, .i32⟩ : BufTy).Contents (Elt F) → (⟨S8192, .i1⟩ : BufTy).Contents (Elt F))
  :: StableHlo.nullary main_c_92 (constantI S_ 32 131040#32)
  :: StableHlo.unary main_c_92 main_v388 (broadcastInDim S8192 ![] bcast_S_S8192 : (⟨S_, .i32⟩ : BufTy).Contents (Elt F) → (⟨S8192, .i32⟩ : BufTy).Contents (Elt F))
  :: StableHlo.binary main_v298 main_v388 main_v389 (addi : (⟨S8192, .i32⟩ : BufTy).Contents (Elt F) → (⟨S8192, .i32⟩ : BufTy).Contents (Elt F) → (⟨S8192, .i32⟩ : BufTy).Contents (Elt F))
  :: StableHlo.ternary main_v387 main_v389 main_v298 main_v390 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v390 main_v391 (broadcastInDim S8192x1 ![0] bcast_S8192_S8192x1_0 : (⟨S8192, .i32⟩ : BufTy).Contents (Elt F) → (⟨S8192x1, .i32⟩ : BufTy).Contents (Elt F))
  :: StableHlo.ternary main_v282 main_v391 main_v385 main_v392 ((fun x i u => Host.scatter scatter_S131040x256_S8192x1_S8192x256_1_0_0_1 (fun _ b => b) x i u) : (⟨S131040x256, .f32⟩ : BufTy).Contents (Elt F) → (⟨S8192x1, .i32⟩ : BufTy).Contents (Elt F) → (⟨S8192x256, .f32⟩ : BufTy).Contents (Elt F) → (⟨S131040x256, .f32⟩ : BufTy).Contents (Elt F))
  :: StableHlo.nullary main_c_93 (constantI S_ 32 0#32)
  :: StableHlo.unary main_c_93 main_v393 (broadcastInDim S8192 ![] bcast_S_S8192 : (⟨S_, .i32⟩ : BufTy).Contents (Elt F) → (⟨S8192, .i32⟩ : BufTy).Contents (Elt F))
  :: StableHlo.binary main_v298 main_v393 main_v394 (cmpi .slt : (⟨S8192, .i32⟩ : BufTy).Contents (Elt F) → (⟨S8192, .i32⟩ : BufTy).Contents (Elt F) → (⟨S8192, .i1⟩ : BufTy).Contents (Elt F))
  :: StableHlo.nullary main_c_94 (constantI S_ 32 131040#32)
  :: StableHlo.unary main_c_94 main_v395 (broadcastInDim S8192 ![] bcast_S_S8192 : (⟨S_, .i32⟩ : BufTy).Contents (Elt F) → (⟨S8192, .i32⟩ : BufTy).Contents (Elt F))
  :: StableHlo.binary main_v298 main_v395 main_v396 (addi : (⟨S8192, .i32⟩ : BufTy).Contents (Elt F) → (⟨S8192, .i32⟩ : BufTy).Contents (Elt F) → (⟨S8192, .i32⟩ : BufTy).Contents (Elt F))
  :: StableHlo.ternary main_v394 main_v396 main_v298 main_v397 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v397 main_v398 (broadcastInDim S8192x1 ![0] bcast_S8192_S8192x1_0 : (⟨S8192, .i32⟩ : BufTy).Contents (Elt F) → (⟨S8192x1, .i32⟩ : BufTy).Contents (Elt F))
  :: StableHlo.ternary main_v289 main_v398 main_v377 main_v399 ((fun x i u => Host.scatter scatter_S131040x256_S8192x1_S8192x256_1_0_0_1 (fun _ b => b) x i u) : (⟨S131040x256, .f32⟩ : BufTy).Contents (Elt F) → (⟨S8192x1, .i32⟩ : BufTy).Contents (Elt F) → (⟨S8192x256, .f32⟩ : BufTy).Contents (Elt F) → (⟨S131040x256, .f32⟩ : BufTy).Contents (Elt F))
  :: StableHlo.unary main_v16 main_v400 (broadcastInDim S32x1 ![0] bcast_S32_S32x1_0 : (⟨S32, .i32⟩ : BufTy).Contents (Elt F) → (⟨S32x1, .i32⟩ : BufTy).Contents (Elt F))
  :: StableHlo.nullary main_c_95 (constantI S_ 32 127#32)
  :: StableHlo.unary main_c_95 main_v401 (broadcastInDim S32x1 ![] bcast_S_S32x1 : (⟨S_, .i32⟩ : BufTy).Contents (Elt F) → (⟨S32x1, .i32⟩ : BufTy).Contents (Elt F))
  :: StableHlo.binary main_v400 main_v401 main_v402 (addi : (⟨S32x1, .i32⟩ : BufTy).Contents (Elt F) → (⟨S32x1, .i32⟩ : BufTy).Contents (Elt F) → (⟨S32x1, .i32⟩ : BufTy).Contents (Elt F))
  :: StableHlo.nullary main_v403 (iotaInDim S128 32 0)
  :: StableHlo.unary main_v403 main_v404 (broadcastInDim S1x128 ![1] bcast_S128_S1x128_1 : (⟨S128, .i32⟩ : BufTy).Contents (Elt F) → (⟨S1x128, .i32⟩ : BufTy).Contents (Elt F))
  :: StableHlo.unary main_v402 main_v405 (broadcastInDim S32x128 ![0, 1] bcast_S32x1_S32x128_0_1 : (⟨S32x1, .i32⟩ : BufTy).Contents (Elt F) → (⟨S32x128, .i32⟩ : BufTy).Contents (Elt F))
  :: StableHlo.unary main_v404 main_v406 (broadcastInDim S32x128 ![0, 1] bcast_S1x128_S32x128_0_1 : (⟨S1x128, .i32⟩ : BufTy).Contents (Elt F) → (⟨S32x128, .i32⟩ : BufTy).Contents (Elt F))
  :: StableHlo.binary main_v405 main_v406 main_v407 (addi : (⟨S32x128, .i32⟩ : BufTy).Contents (Elt F) → (⟨S32x128, .i32⟩ : BufTy).Contents (Elt F) → (⟨S32x128, .i32⟩ : BufTy).Contents (Elt F))
  :: StableHlo.reshape main_v407 main_v408 rfl shapeCasts_S32x128_S4096
  :: StableHlo.nullary main_c_96 (constantI S_ 32 0#32)
  :: StableHlo.unary main_c_96 main_v409 (broadcastInDim S4096 ![] bcast_S_S4096 : (⟨S_, .i32⟩ : BufTy).Contents (Elt F) → (⟨S4096, .i32⟩ : BufTy).Contents (Elt F))
  :: StableHlo.binary main_v408 main_v409 main_v410 (cmpi .slt : (⟨S4096, .i32⟩ : BufTy).Contents (Elt F) → (⟨S4096, .i32⟩ : BufTy).Contents (Elt F) → (⟨S4096, .i1⟩ : BufTy).Contents (Elt F))
  :: StableHlo.nullary main_c_97 (constantI S_ 32 131040#32)
  :: StableHlo.unary main_c_97 main_v411 (broadcastInDim S4096 ![] bcast_S_S4096 : (⟨S_, .i32⟩ : BufTy).Contents (Elt F) → (⟨S4096, .i32⟩ : BufTy).Contents (Elt F))
  :: StableHlo.binary main_v408 main_v411 main_v412 (addi : (⟨S4096, .i32⟩ : BufTy).Contents (Elt F) → (⟨S4096, .i32⟩ : BufTy).Contents (Elt F) → (⟨S4096, .i32⟩ : BufTy).Contents (Elt F))
  :: StableHlo.ternary main_v410 main_v412 main_v408 main_v413 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v413 main_v414 (broadcastInDim S4096x1 ![0] bcast_S4096_S4096x1_0 : (⟨S4096, .i32⟩ : BufTy).Contents (Elt F) → (⟨S4096x1, .i32⟩ : BufTy).Contents (Elt F))
  :: StableHlo.binary main_v11 main_v414 main_v415 ((fun x i => Host.gather gather_S131040x768_S4096x1_S4096x768_1_0_n_n_0_1_1768 x i) : (⟨S131040x768, .f32⟩ : BufTy).Contents (Elt F) → (⟨S4096x1, .i32⟩ : BufTy).Contents (Elt F) → (⟨S4096x768, .f32⟩ : BufTy).Contents (Elt F))
  :: StableHlo.unary main_v16 main_v416 (broadcastInDim S32x1 ![0] bcast_S32_S32x1_0 : (⟨S32, .i32⟩ : BufTy).Contents (Elt F) → (⟨S32x1, .i32⟩ : BufTy).Contents (Elt F))
  :: StableHlo.nullary main_c_98 (constantI S_ 32 255#32)
  :: StableHlo.unary main_c_98 main_v417 (broadcastInDim S32x1 ![] bcast_S_S32x1 : (⟨S_, .i32⟩ : BufTy).Contents (Elt F) → (⟨S32x1, .i32⟩ : BufTy).Contents (Elt F))
  :: StableHlo.binary main_v416 main_v417 main_v418 (addi : (⟨S32x1, .i32⟩ : BufTy).Contents (Elt F) → (⟨S32x1, .i32⟩ : BufTy).Contents (Elt F) → (⟨S32x1, .i32⟩ : BufTy).Contents (Elt F))
  :: StableHlo.nullary main_v419 (iotaInDim S256 32 0)
  :: StableHlo.unary main_v419 main_v420 (broadcastInDim S1x256 ![1] bcast_S256_S1x256_1 : (⟨S256, .i32⟩ : BufTy).Contents (Elt F) → (⟨S1x256, .i32⟩ : BufTy).Contents (Elt F))
  :: StableHlo.unary main_v418 main_v421 (broadcastInDim S32x256 ![0, 1] bcast_S32x1_S32x256_0_1 : (⟨S32x1, .i32⟩ : BufTy).Contents (Elt F) → (⟨S32x256, .i32⟩ : BufTy).Contents (Elt F))
  :: StableHlo.unary main_v420 main_v422 (broadcastInDim S32x256 ![0, 1] bcast_S1x256_S32x256_0_1 : (⟨S1x256, .i32⟩ : BufTy).Contents (Elt F) → (⟨S32x256, .i32⟩ : BufTy).Contents (Elt F))
  :: StableHlo.binary main_v421 main_v422 main_v423 (addi : (⟨S32x256, .i32⟩ : BufTy).Contents (Elt F) → (⟨S32x256, .i32⟩ : BufTy).Contents (Elt F) → (⟨S32x256, .i32⟩ : BufTy).Contents (Elt F))
  :: StableHlo.reshape main_v423 main_v424 rfl shapeCasts_S32x256_S8192
  :: StableHlo.nullary main_c_99 (constantI S_ 32 0#32)
  :: StableHlo.unary main_c_99 main_v425 (broadcastInDim S8192 ![] bcast_S_S8192 : (⟨S_, .i32⟩ : BufTy).Contents (Elt F) → (⟨S8192, .i32⟩ : BufTy).Contents (Elt F))
  :: StableHlo.binary main_v424 main_v425 main_v426 (cmpi .slt : (⟨S8192, .i32⟩ : BufTy).Contents (Elt F) → (⟨S8192, .i32⟩ : BufTy).Contents (Elt F) → (⟨S8192, .i1⟩ : BufTy).Contents (Elt F))
  :: StableHlo.nullary main_c_100 (constantI S_ 32 131040#32)
  :: StableHlo.unary main_c_100 main_v427 (broadcastInDim S8192 ![] bcast_S_S8192 : (⟨S_, .i32⟩ : BufTy).Contents (Elt F) → (⟨S8192, .i32⟩ : BufTy).Contents (Elt F))
  :: StableHlo.binary main_v424 main_v427 main_v428 (addi : (⟨S8192, .i32⟩ : BufTy).Contents (Elt F) → (⟨S8192, .i32⟩ : BufTy).Contents (Elt F) → (⟨S8192, .i32⟩ : BufTy).Contents (Elt F))
  :: StableHlo.ternary main_v426 main_v428 main_v424 main_v429 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F))
  :: StableHlo.unary main_v429 main_v430 (broadcastInDim S8192x1 ![0] bcast_S8192_S8192x1_0 : (⟨S8192, .i32⟩ : BufTy).Contents (Elt F) → (⟨S8192x1, .i32⟩ : BufTy).Contents (Elt F))
  :: StableHlo.binary main_v392 main_v430 main_v431 ((fun x i => Host.gather gather_S131040x256_S8192x1_S8192x256_1_0_n_n_0_1_1256 x i) : (⟨S131040x256, .f32⟩ : BufTy).Contents (Elt F) → (⟨S8192x1, .i32⟩ : BufTy).Contents (Elt F) → (⟨S8192x256, .f32⟩ : BufTy).Contents (Elt F))
  :: StableHlo.nullary main_c_101 (constantI S_ 32 0#32)
  :: StableHlo.unary main_c_101 main_v432 (broadcastInDim S8192 ![] bcast_S_S8192 : (⟨S_, .i32⟩ : BufTy).Contents (Elt F) → (⟨S8192, .i32⟩ : BufTy).Contents (Elt F))
  :: StableHlo.binary main_v424 main_v432 main_v433 (cmpi .slt : (⟨S8192, .i32⟩ : BufTy).Contents (Elt F) → (⟨S8192, .i32⟩ : BufTy).Contents (Elt F) → (⟨S8192, .i1⟩ : BufTy).Contents (Elt F))
  :: StableHlo.nullary main_c_102 (constantI S_ 32 131040#32)
  :: StableHlo.unary main_c_102 main_v434 (broadcastInDim S8192 ![] bcast_S_S8192 : (⟨S_, .i32⟩ : BufTy).Contents (Elt F) → (⟨S8192, .i32⟩ : BufTy).Contents (Elt F))
  :: [] )
/-- Each touches TensorCore references only (`HostSeg.ofOps` over `StableHlo.tcRefs`, or a subset by `sub_ucRefs`). -/
theorem main_part8_ops0_sub : (main_part8_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩
/-- Window 8 of `main` (`main_part8`, statements 481 … 540) is the chain of ITS items ending in the last
    (`Pipeline.chainK`: no closing `pure`, the window's last statement being in tail position), by `chain_rfl`. -/
theorem main_part8_chain (c : Dev nD) : main_part8 (F := F) c = (Pipeline.chainK
  [  ]
  (StableHlo.seq main_part8_ops0) : Prog (TpuEff nD τ sig (Elt F) (Pipeline.Sig Λ₀ (Fin 0) fun p => (pcfgs (F := F) p).Adm) .tc) PUnit) := by
  chain_rfl

/-- 14 host operations of @main, window 9 (statements 541 … 600), in order. -/
abbrev main_part9_ops0 : List (HloOp τ sig (Elt F)) :=
  [ StableHlo.binary main_v424 main_v434 main_v435 (addi : (⟨S8192, .i32⟩ : BufTy).Contents (Elt F) → (⟨S8192, .i32⟩ : BufTy).Contents (Elt F) → (⟨S8192, .i32⟩ : BufTy).Contents (Elt F)),
    StableHlo.ternary main_v433 main_v435 main_v424 main_v436 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v436 main_v437 (broadcastInDim S8192x1 ![0] bcast_S8192_S8192x1_0 : (⟨S8192, .i32⟩ : BufTy).Contents (Elt F) → (⟨S8192x1, .i32⟩ : BufTy).Contents (Elt F)),
    StableHlo.binary main_v399 main_v437 main_v438 ((fun x i => Host.gather gather_S131040x256_S8192x1_S8192x256_1_0_n_n_0_1_1256 x i) : (⟨S131040x256, .f32⟩ : BufTy).Contents (Elt F) → (⟨S8192x1, .i32⟩ : BufTy).Contents (Elt F) → (⟨S8192x256, .f32⟩ : BufTy).Contents (Elt F)),
    StableHlo.nullary main_c_103 (constantI S_ 32 0#32),
    StableHlo.unary main_c_103 main_v439 (broadcastInDim S8192 ![] bcast_S_S8192 : (⟨S_, .i32⟩ : BufTy).Contents (Elt F) → (⟨S8192, .i32⟩ : BufTy).Contents (Elt F)),
    StableHlo.binary main_v424 main_v439 main_v440 (cmpi .slt : (⟨S8192, .i32⟩ : BufTy).Contents (Elt F) → (⟨S8192, .i32⟩ : BufTy).Contents (Elt F) → (⟨S8192, .i1⟩ : BufTy).Contents (Elt F)),
    StableHlo.nullary main_c_104 (constantI S_ 32 131040#32),
    StableHlo.unary main_c_104 main_v441 (broadcastInDim S8192 ![] bcast_S_S8192 : (⟨S_, .i32⟩ : BufTy).Contents (Elt F) → (⟨S8192, .i32⟩ : BufTy).Contents (Elt F)),
    StableHlo.binary main_v424 main_v441 main_v442 (addi : (⟨S8192, .i32⟩ : BufTy).Contents (Elt F) → (⟨S8192, .i32⟩ : BufTy).Contents (Elt F) → (⟨S8192, .i32⟩ : BufTy).Contents (Elt F)),
    StableHlo.ternary main_v440 main_v442 main_v424 main_v443 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    StableHlo.unary main_v443 main_v444 (broadcastInDim S8192x1 ![0] bcast_S8192_S8192x1_0 : (⟨S8192, .i32⟩ : BufTy).Contents (Elt F) → (⟨S8192x1, .i32⟩ : BufTy).Contents (Elt F)),
    StableHlo.binary main_arg1 main_v444 main_v445 ((fun x i => Host.gather gather_S131040_S8192x1_S8192_n_0_n_n_0_1_1 x i) : (⟨S131040, .i32⟩ : BufTy).Contents (Elt F) → (⟨S8192x1, .i32⟩ : BufTy).Contents (Elt F) → (⟨S8192, .i32⟩ : BufTy).Contents (Elt F)),
    StableHlo.nullary main_c_105 (constantI S_ 32 4095#32) ]
/-- Each touches TensorCore references only (`HostSeg.ofOps` over `StableHlo.tcRefs`, or a subset by `sub_ucRefs`). -/
theorem main_part9_ops0_sub : (main_part9_ops0 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_7 (main_call6), window 9 (statements 541 … 600), in order. -/
abbrev main_part9_ops1 : List (HloOp τ sig (Elt F)) :=
  [ StableHlo.TRef.unary (.of main_c_105 : StableHlo.TRef sig ⟨S_, .i32⟩) (.of main_call6_v0 : StableHlo.TRef sig ⟨S_, .i32⟩) id,
    StableHlo.TRef.unary (.of main_call6_v0 : StableHlo.TRef sig ⟨S_, .i32⟩) (.of main_call6_v1 : StableHlo.TRef sig ⟨S8192, .i32⟩) (broadcastInDim S8192 ![] bcast_S_S8192),
    StableHlo.TRef.binary (.of main_v445 : StableHlo.TRef sig ⟨S8192, .i32⟩) (.of main_call6_v1 : StableHlo.TRef sig ⟨S8192, .i32⟩) (.of main_call6_v2 : StableHlo.TRef sig ⟨S8192, .i32⟩) Host.divsi,
    StableHlo.TRef.unary (.of main_v445 : StableHlo.TRef sig ⟨S8192, .i32⟩) (.of main_call6_v3 : StableHlo.TRef sig ⟨S8192, .i32⟩) signi,
    StableHlo.TRef.unary (.of main_call6_v0 : StableHlo.TRef sig ⟨S_, .i32⟩) (.of main_call6_v4 : StableHlo.TRef sig ⟨S_, .i32⟩) signi,
    StableHlo.TRef.unary (.of main_call6_v4 : StableHlo.TRef sig ⟨S_, .i32⟩) (.of main_call6_v5 : StableHlo.TRef sig ⟨S8192, .i32⟩) (broadcastInDim S8192 ![] bcast_S_S8192),
    StableHlo.TRef.binary (.of main_call6_v3 : StableHlo.TRef sig ⟨S8192, .i32⟩) (.of main_call6_v5 : StableHlo.TRef sig ⟨S8192, .i32⟩) (.of main_call6_v6 : StableHlo.TRef sig ⟨S8192, .i1⟩) (cmpi .ne),
    StableHlo.TRef.unary (.of main_call6_v0 : StableHlo.TRef sig ⟨S_, .i32⟩) (.of main_call6_v7 : StableHlo.TRef sig ⟨S8192, .i32⟩) (broadcastInDim S8192 ![] bcast_S_S8192),
    StableHlo.TRef.binary (.of main_v445 : StableHlo.TRef sig ⟨S8192, .i32⟩) (.of main_call6_v7 : StableHlo.TRef sig ⟨S8192, .i32⟩) (.of main_call6_v8 : StableHlo.TRef sig ⟨S8192, .i32⟩) Host.remsi,
    StableHlo.TRef.nullary (.of main_call6_c : StableHlo.TRef sig ⟨S_, .i32⟩) (constantI S_ 32 0#32),
    StableHlo.TRef.unary (.of main_call6_c : StableHlo.TRef sig ⟨S_, .i32⟩) (.of main_call6_v9 : StableHlo.TRef sig ⟨S8192, .i32⟩) (broadcastInDim S8192 ![] bcast_S_S8192),
    StableHlo.TRef.binary (.of main_call6_v8 : StableHlo.TRef sig ⟨S8192, .i32⟩) (.of main_call6_v9 : StableHlo.TRef sig ⟨S8192, .i32⟩) (.of main_call6_v10 : StableHlo.TRef sig ⟨S8192, .i1⟩) (cmpi .ne),
    StableHlo.TRef.binary (.of main_call6_v6 : StableHlo.TRef sig ⟨S8192, .i1⟩) (.of main_call6_v10 : StableHlo.TRef sig ⟨S8192, .i1⟩) (.of main_call6_v11 : StableHlo.TRef sig ⟨S8192, .i1⟩) andi,
    StableHlo.TRef.nullary (.of main_call6_c_0 : StableHlo.TRef sig ⟨S_, .i32⟩) (constantI S_ 32 1#32),
    StableHlo.TRef.unary (.of main_call6_c_0 : StableHlo.TRef sig ⟨S_, .i32⟩) (.of main_call6_v12 : StableHlo.TRef sig ⟨S8192, .i32⟩) (broadcastInDim S8192 ![] bcast_S_S8192),
    StableHlo.TRef.binary (.of main_call6_v2 : StableHlo.TRef sig ⟨S8192, .i32⟩) (.of main_call6_v12 : StableHlo.TRef sig ⟨S8192, .i32⟩) (.of main_call6_v13 : StableHlo.TRef sig ⟨S8192, .i32⟩) subi,
    StableHlo.TRef.ternary (.of main_call6_v11 : StableHlo.TRef sig ⟨S8192, .i1⟩) (.of main_call6_v13 : StableHlo.TRef sig ⟨S8192, .i32⟩) (.of main_call6_v2 : StableHlo.TRef sig ⟨S8192, .i32⟩) (.of main_v446 : StableHlo.TRef sig ⟨S8192, .i32⟩) select ]
/-- Each touches TensorCore references only (`HostSeg.ofOps` over `StableHlo.tcRefs`, or a subset by `sub_ucRefs`). -/
theorem main_part9_ops1_sub : (main_part9_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 9 (statements 541 … 600), in order. -/
abbrev main_part9_ops2 : List (HloOp τ sig (Elt F)) :=
  [ StableHlo.nullary main_c_106 (constantI S_ 32 128#32),
    StableHlo.unary main_c_106 main_v447 (broadcastInDim S8192 ![] bcast_S_S8192 : (⟨S_, .i32⟩ : BufTy).Contents (Elt F) → (⟨S8192, .i32⟩ : BufTy).Contents (Elt F)),
    StableHlo.binary main_v446 main_v447 main_v448 (muli : (⟨S8192, .i32⟩ : BufTy).Contents (Elt F) → (⟨S8192, .i32⟩ : BufTy).Contents (Elt F) → (⟨S8192, .i32⟩ : BufTy).Contents (Elt F)),
    StableHlo.nullary main_c_107 (constantI S_ 32 4095#32) ]
/-- Each touches TensorCore references only (`HostSeg.ofOps` over `StableHlo.tcRefs`, or a subset by `sub_ucRefs`). -/
theorem main_part9_ops2_sub : (main_part9_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_9 (main_call7), window 9 (statements 541 … 600), in order. -/
abbrev main_part9_ops3 : List (HloOp τ sig (Elt F)) :=
  [ StableHlo.TRef.unary (.of main_c_107 : StableHlo.TRef sig ⟨S_, .i32⟩) (.of main_call7_v0 : StableHlo.TRef sig ⟨S_, .i32⟩) id,
    StableHlo.TRef.nullary (.of main_call7_c : StableHlo.TRef sig ⟨S_, .i32⟩) (constantI S_ 32 0#32),
    StableHlo.TRef.binary (.of main_call7_v0 : StableHlo.TRef sig ⟨S_, .i32⟩) (.of main_call7_c : StableHlo.TRef sig ⟨S_, .i32⟩) (.of main_call7_v1 : StableHlo.TRef sig ⟨S_, .i1⟩) (cmpi .eq),
    StableHlo.TRef.nullary (.of main_call7_c_0 : StableHlo.TRef sig ⟨S_, .i32⟩) (constantI S_ 32 1#32),
    StableHlo.TRef.ternary (.of main_call7_v1 : StableHlo.TRef sig ⟨S_, .i1⟩) (.of main_call7_c_0 : StableHlo.TRef sig ⟨S_, .i32⟩) (.of main_call7_v0 : StableHlo.TRef sig ⟨S_, .i32⟩) (.of main_call7_v2 : StableHlo.TRef sig ⟨S_, .i32⟩) select,
    StableHlo.TRef.unary main_call7_call0.v0 (.of main_call7_v3 : StableHlo.TRef sig ⟨S8192, .i32⟩) (broadcastInDim S8192 ![] bcast_S_S8192),
    StableHlo.TRef.binary (.of main_v445 : StableHlo.TRef sig ⟨S8192, .i32⟩) (.of main_call7_v3 : StableHlo.TRef sig ⟨S8192, .i32⟩) (.of main_call7_v4 : StableHlo.TRef sig ⟨S8192, .i32⟩) Host.remsi,
    StableHlo.TRef.nullary (.of main_call7_c_1 : StableHlo.TRef sig ⟨S_, .i32⟩) (constantI S_ 32 0#32),
    StableHlo.TRef.unary (.of main_call7_c_1 : StableHlo.TRef sig ⟨S_, .i32⟩) (.of main_call7_v5 : StableHlo.TRef sig ⟨S8192, .i32⟩) (broadcastInDim S8192 ![] bcast_S_S8192),
    StableHlo.TRef.binary (.of main_call7_v4 : StableHlo.TRef sig ⟨S8192, .i32⟩) (.of main_call7_v5 : StableHlo.TRef sig ⟨S8192, .i32⟩) (.of main_call7_v6 : StableHlo.TRef sig ⟨S8192, .i1⟩) (cmpi .ne),
    StableHlo.TRef.nullary (.of main_call7_c_2 : StableHlo.TRef sig ⟨S_, .i32⟩) (constantI S_ 32 0#32),
    StableHlo.TRef.unary (.of main_call7_c_2 : StableHlo.TRef sig ⟨S_, .i32⟩) (.of main_call7_v7 : StableHlo.TRef sig ⟨S8192, .i32⟩) (broadcastInDim S8192 ![] bcast_S_S8192),
    StableHlo.TRef.binary (.of main_call7_v4 : StableHlo.TRef sig ⟨S8192, .i32⟩) (.of main_call7_v7 : StableHlo.TRef sig ⟨S8192, .i32⟩) (.of main_call7_v8 : StableHlo.TRef sig ⟨S8192, .i1⟩) (cmpi .slt),
    StableHlo.TRef.nullary (.of main_call7_c_3 : StableHlo.TRef sig ⟨S_, .i32⟩) (constantI S_ 32 0#32),
    StableHlo.TRef.binary main_call7_call0.v0 (.of main_call7_c_3 : StableHlo.TRef sig ⟨S_, .i32⟩) (.of main_call7_v9 : StableHlo.TRef sig ⟨S_, .i1⟩) (cmpi .slt),
    StableHlo.TRef.unary (.of main_call7_v9 : StableHlo.TRef sig ⟨S_, .i1⟩) (.of main_call7_v10 : StableHlo.TRef sig ⟨S8192, .i1⟩) (broadcastInDim S8192 ![] bcast_S_S8192),
    StableHlo.TRef.binary (.of main_call7_v8 : StableHlo.TRef sig ⟨S8192, .i1⟩) (.of main_call7_v10 : StableHlo.TRef sig ⟨S8192, .i1⟩) (.of main_call7_v11 : StableHlo.TRef sig ⟨S8192, .i1⟩) (cmpi .ne),
    StableHlo.TRef.binary (.of main_call7_v11 : StableHlo.TRef sig ⟨S8192, .i1⟩) (.of main_call7_v6 : StableHlo.TRef sig ⟨S8192, .i1⟩) (.of main_call7_v12 : StableHlo.TRef sig ⟨S8192, .i1⟩) andi,
    StableHlo.TRef.unary main_call7_call0.v0 (.of main_call7_v13 : StableHlo.TRef sig ⟨S8192, .i32⟩) (broadcastInDim S8192 ![] bcast_S_S8192),
    StableHlo.TRef.binary (.of main_call7_v4 : StableHlo.TRef sig ⟨S8192, .i32⟩) (.of main_call7_v13 : StableHlo.TRef sig ⟨S8192, .i32⟩) (.of main_call7_v14 : StableHlo.TRef sig ⟨S8192, .i32⟩) addi,
    StableHlo.TRef.ternary (.of main_call7_v12 : StableHlo.TRef sig ⟨S8192, .i1⟩) (.of main_call7_v14 : StableHlo.TRef sig ⟨S8192, .i32⟩) (.of main_call7_v4 : StableHlo.TRef sig ⟨S8192, .i32⟩) (.of main_v449 : StableHlo.TRef sig ⟨S8192, .i32⟩) select ]
/-- Each touches TensorCore references only (`HostSeg.ofOps` over `StableHlo.tcRefs`, or a subset by `sub_ucRefs`). -/
theorem main_part9_ops3_sub : (main_part9_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 40 host operations of @main, window 9 (statements 541 … 600), in order. -/
abbrev main_part9_ops4 : List (HloOp τ sig (Elt F)) :=
  ( StableHlo.nullary main_c_108 (constantI S_ 32 127#32)
  :: StableHlo.unary main_c_108 main_v450 (broadcastInDim S8192 ![] bcast_S_S8192 : (⟨S_, .i32⟩ : BufTy).Contents (Elt F) → (⟨S8192, .i32⟩ : BufTy).Contents (Elt F))
  :: StableHlo.binary main_v449 main_v450 main_v451 (subi : (⟨S8192, .i32⟩ : BufTy).Contents (Elt F) → (⟨S8192, .i32⟩ : BufTy).Contents (Elt F) → (⟨S8192, .i32⟩ : BufTy).Contents (Elt F))
  :: StableHlo.binary main_v448 main_v451 main_v452 (addi : (⟨S8192, .i32⟩ : BufTy).Contents (Elt F) → (⟨S8192, .i32⟩ : BufTy).Contents (Elt F) → (⟨S8192, .i32⟩ : BufTy).Contents (Elt F))
  :: StableHlo.unary main_arg6 main_v453 ((transpose S256x256 [1, 0] · transposes_S256x256_S256x256_1_0) : (⟨S256x256, .f32⟩ : BufTy).Contents (Elt F) → (⟨S256x256, .f32⟩ : BufTy).Contents (Elt F))
  :: StableHlo.binary main_v431 main_v453 main_v454 ((fun l r => Host.dotGeneral dot_S8192x256_S256x256_S8192x256_1_0_0_1_n_n none l r) : (⟨S8192x256, .f32⟩ : BufTy).Contents (Elt F) → (⟨S256x256, .f32⟩ : BufTy).Contents (Elt F) → (⟨S8192x256, .f32⟩ : BufTy).Contents (Elt F))
  :: StableHlo.unary main_arg7 main_v455 (broadcastInDim S1x256 ![1] bcast_S256_S1x256_1 : (⟨S256, .f32⟩ : BufTy).Contents (Elt F) → (⟨S1x256, .f32⟩ : BufTy).Contents (Elt F))
  :: StableHlo.unary main_v455 main_v456 (broadcastInDim S8192x256 ![0, 1] bcast_S1x256_S8192x256_0_1 : (⟨S1x256, .f32⟩ : BufTy).Contents (Elt F) → (⟨S8192x256, .f32⟩ : BufTy).Contents (Elt F))
  :: StableHlo.binary main_v454 main_v456 main_v457 (addf : (⟨S8192x256, .f32⟩ : BufTy).Contents (Elt F) → (⟨S8192x256, .f32⟩ : BufTy).Contents (Elt F) → (⟨S8192x256, .f32⟩ : BufTy).Contents (Elt F))
  :: StableHlo.unary main_v457 main_v458 (Host.negf : (⟨S8192x256, .f32⟩ : BufTy).Contents (Elt F) → (⟨S8192x256, .f32⟩ : BufTy).Contents (Elt F))
  :: StableHlo.unary main_v458 main_v459 (Host.exp : (⟨S8192x256, .f32⟩ : BufTy).Contents (Elt F) → (⟨S8192x256, .f32⟩ : BufTy).Contents (Elt F))
  :: StableHlo.nullary main_cst_109 (constant S_ .f32 0x3F800000#32)
  :: StableHlo.unary main_cst_109 main_v460 (broadcastInDim S8192x256 ![] bcast_S_S8192x256 : (⟨S_, .f32⟩ : BufTy).Contents (Elt F) → (⟨S8192x256, .f32⟩ : BufTy).Contents (Elt F))
  :: StableHlo.binary main_v460 main_v459 main_v461 (addf : (⟨S8192x256, .f32⟩ : BufTy).Contents (Elt F) → (⟨S8192x256, .f32⟩ : BufTy).Contents (Elt F) → (⟨S8192x256, .f32⟩ : BufTy).Contents (Elt F))
  :: StableHlo.nullary main_cst_110 (constant S_ .f32 0x3F800000#32)
  :: StableHlo.unary main_cst_110 main_v462 (broadcastInDim S8192x256 ![] bcast_S_S8192x256 : (⟨S_, .f32⟩ : BufTy).Contents (Elt F) → (⟨S8192x256, .f32⟩ : BufTy).Contents (Elt F))
  :: StableHlo.binary main_v462 main_v461 main_v463 (Host.divf : (⟨S8192x256, .f32⟩ : BufTy).Contents (Elt F) → (⟨S8192x256, .f32⟩ : BufTy).Contents (Elt F) → (⟨S8192x256, .f32⟩ : BufTy).Contents (Elt F))
  :: StableHlo.nullary main_cst_111 (constant S_ .f32 0x00000000#32)
  :: StableHlo.unary main_cst_111 main_v464 (broadcastInDim S4096x256 ![] bcast_S_S4096x256 : (⟨S_, .f32⟩ : BufTy).Contents (Elt F) → (⟨S4096x256, .f32⟩ : BufTy).Contents (Elt F))
  :: StableHlo.unary main_v452 main_v465 (broadcastInDim S8192x1 ![0] bcast_S8192_S8192x1_0 : (⟨S8192, .i32⟩ : BufTy).Contents (Elt F) → (⟨S8192x1, .i32⟩ : BufTy).Contents (Elt F))
  :: StableHlo.ternary main_v464 main_v465 main_v431 main_v466 ((fun x i u => Host.scatterAdd scatter_S4096x256_S8192x1_S8192x256_1_0_0_1 x i u) : (⟨S4096x256, .f32⟩ : BufTy).Contents (Elt F) → (⟨S8192x1, .i32⟩ : BufTy).Contents (Elt F) → (⟨S8192x256, .f32⟩ : BufTy).Contents (Elt F) → (⟨S4096x256, .f32⟩ : BufTy).Contents (Elt F))
  :: StableHlo.binary main_v463 main_v438 main_v467 (mulf : (⟨S8192x256, .f32⟩ : BufTy).Contents (Elt F) → (⟨S8192x256, .f32⟩ : BufTy).Contents (Elt F) → (⟨S8192x256, .f32⟩ : BufTy).Contents (Elt F))
  :: StableHlo.nullary main_cst_112 (constant S_ .f32 0x00000000#32)
  :: StableHlo.unary main_cst_112 main_v468 (broadcastInDim S4096x256 ![] bcast_S_S4096x256 : (⟨S_, .f32⟩ : BufTy).Contents (Elt F) → (⟨S4096x256, .f32⟩ : BufTy).Contents (Elt F))
  :: StableHlo.unary main_v452 main_v469 (broadcastInDim S8192x1 ![0] bcast_S8192_S8192x1_0 : (⟨S8192, .i32⟩ : BufTy).Contents (Elt F) → (⟨S8192x1, .i32⟩ : BufTy).Contents (Elt F))
  :: StableHlo.ternary main_v468 main_v469 main_v467 main_v470 ((fun x i u => Host.scatterAdd scatter_S4096x256_S8192x1_S8192x256_1_0_0_1 x i u) : (⟨S4096x256, .f32⟩ : BufTy).Contents (Elt F) → (⟨S8192x1, .i32⟩ : BufTy).Contents (Elt F) → (⟨S8192x256, .f32⟩ : BufTy).Contents (Elt F) → (⟨S4096x256, .f32⟩ : BufTy).Contents (Elt F))
  :: StableHlo.unary main_arg4 main_v471 ((transpose S256x768 [1, 0] · transposes_S768x256_S256x768_1_0) : (⟨S768x256, .f32⟩ : BufTy).Contents (Elt F) → (⟨S256x768, .f32⟩ : BufTy).Contents (Elt F))
  :: StableHlo.binary main_v466 main_v471 main_v472 ((fun l r => Host.dotGeneral dot_S4096x256_S256x768_S4096x768_1_0_0_1_n_n none l r) : (⟨S4096x256, .f32⟩ : BufTy).Contents (Elt F) → (⟨S256x768, .f32⟩ : BufTy).Contents (Elt F) → (⟨S4096x768, .f32⟩ : BufTy).Contents (Elt F))
  :: StableHlo.binary main_v415 main_v472 main_v473 (addf : (⟨S4096x768, .f32⟩ : BufTy).Contents (Elt F) → (⟨S4096x768, .f32⟩ : BufTy).Contents (Elt F) → (⟨S4096x768, .f32⟩ : BufTy).Contents (Elt F))
  :: StableHlo.unary main_arg5 main_v474 (broadcastInDim S4096x768 ![0, 1] bcast_S1x768_S4096x768_0_1 : (⟨S1x768, .f32⟩ : BufTy).Contents (Elt F) → (⟨S4096x768, .f32⟩ : BufTy).Contents (Elt F))
  :: StableHlo.binary main_v473 main_v474 main_v475 (addf : (⟨S4096x768, .f32⟩ : BufTy).Contents (Elt F) → (⟨S4096x768, .f32⟩ : BufTy).Contents (Elt F) → (⟨S4096x768, .f32⟩ : BufTy).Contents (Elt F))
  :: StableHlo.unary main_v475 main_v476 ((extractStridedSlice S4096x256 ![0, 0] · slices_S4096x768_S4096x256_0_0) : (⟨S4096x768, .f32⟩ : BufTy).Contents (Elt F) → (⟨S4096x256, .f32⟩ : BufTy).Contents (Elt F))
  :: StableHlo.unary main_v475 main_v477 ((extractStridedSlice S4096x256 ![0, 256] · slices_S4096x768_S4096x256_0_256) : (⟨S4096x768, .f32⟩ : BufTy).Contents (Elt F) → (⟨S4096x256, .f32⟩ : BufTy).Contents (Elt F))
  :: StableHlo.unary main_v475 main_v478 ((extractStridedSlice S4096x256 ![0, 512] · slices_S4096x768_S4096x256_0_512) : (⟨S4096x768, .f32⟩ : BufTy).Contents (Elt F) → (⟨S4096x256, .f32⟩ : BufTy).Contents (Elt F))
  :: StableHlo.unary main_v476 main_v479 (Host.negf : (⟨S4096x256, .f32⟩ : BufTy).Contents (Elt F) → (⟨S4096x256, .f32⟩ : BufTy).Contents (Elt F))
  :: StableHlo.unary main_v479 main_v480 (Host.exp : (⟨S4096x256, .f32⟩ : BufTy).Contents (Elt F) → (⟨S4096x256, .f32⟩ : BufTy).Contents (Elt F))
  :: StableHlo.nullary main_cst_113 (constant S_ .f32 0x3F800000#32)
  :: StableHlo.unary main_cst_113 main_v481 (broadcastInDim S4096x256 ![] bcast_S_S4096x256 : (⟨S_, .f32⟩ : BufTy).Contents (Elt F) → (⟨S4096x256, .f32⟩ : BufTy).Contents (Elt F))
  :: StableHlo.binary main_v481 main_v480 main_v482 (addf : (⟨S4096x256, .f32⟩ : BufTy).Contents (Elt F) → (⟨S4096x256, .f32⟩ : BufTy).Contents (Elt F) → (⟨S4096x256, .f32⟩ : BufTy).Contents (Elt F))
  :: StableHlo.nullary main_cst_114 (constant S_ .f32 0x3F800000#32)
  :: [] )
/-- Each touches TensorCore references only (`HostSeg.ofOps` over `StableHlo.tcRefs`, or a subset by `sub_ucRefs`). -/
theorem main_part9_ops4_sub : (main_part9_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub ..⟩
/-- Window 9 of `main` (`main_part9`, statements 541 … 600) is the chain of ITS items ending in the last
    (`Pipeline.chainK`: no closing `pure`, the window's last statement being in tail position), by `chain_rfl`. -/
theorem main_part9_chain (c : Dev nD) : main_part9 (F := F) c = (Pipeline.chainK
  [ StableHlo.seq main_part9_ops0,
    StableHlo.seq main_part9_ops1,
    StableHlo.seq main_part9_ops2,
    StableHlo.seq main_part9_ops3 ]
  (StableHlo.seq main_part9_ops4) : Prog (TpuEff nD τ sig (Elt F) (Pipeline.Sig Λ₀ (Fin 0) fun p => (pcfgs (F := F) p).Adm) .tc) PUnit) := by
  chain_rfl

/-- 60 host operations of @main, window 10 (statements 601 … 660), in order. -/
abbrev main_part10_ops0 : List (HloOp τ sig (Elt F)) :=
  ( StableHlo.unary main_cst_114 main_v483 (broadcastInDim S4096x256 ![] bcast_S_S4096x256 : (⟨S_, .f32⟩ : BufTy).Contents (Elt F) → (⟨S4096x256, .f32⟩ : BufTy).Contents (Elt F))
  :: StableHlo.binary main_v483 main_v482 main_v484 (Host.divf : (⟨S4096x256, .f32⟩ : BufTy).Contents (Elt F) → (⟨S4096x256, .f32⟩ : BufTy).Contents (Elt F) → (⟨S4096x256, .f32⟩ : BufTy).Contents (Elt F))
  :: StableHlo.unary main_v478 main_v485 (Host.tanh : (⟨S4096x256, .f32⟩ : BufTy).Contents (Elt F) → (⟨S4096x256, .f32⟩ : BufTy).Contents (Elt F))
  :: StableHlo.binary main_v484 main_v485 main_v486 (mulf : (⟨S4096x256, .f32⟩ : BufTy).Contents (Elt F) → (⟨S4096x256, .f32⟩ : BufTy).Contents (Elt F) → (⟨S4096x256, .f32⟩ : BufTy).Contents (Elt F))
  :: StableHlo.binary main_v486 main_v470 main_v487 (addf : (⟨S4096x256, .f32⟩ : BufTy).Contents (Elt F) → (⟨S4096x256, .f32⟩ : BufTy).Contents (Elt F) → (⟨S4096x256, .f32⟩ : BufTy).Contents (Elt F))
  :: StableHlo.unary main_v477 main_v488 (Host.negf : (⟨S4096x256, .f32⟩ : BufTy).Contents (Elt F) → (⟨S4096x256, .f32⟩ : BufTy).Contents (Elt F))
  :: StableHlo.unary main_v488 main_v489 (Host.exp : (⟨S4096x256, .f32⟩ : BufTy).Contents (Elt F) → (⟨S4096x256, .f32⟩ : BufTy).Contents (Elt F))
  :: StableHlo.nullary main_cst_115 (constant S_ .f32 0x3F800000#32)
  :: StableHlo.unary main_cst_115 main_v490 (broadcastInDim S4096x256 ![] bcast_S_S4096x256 : (⟨S_, .f32⟩ : BufTy).Contents (Elt F) → (⟨S4096x256, .f32⟩ : BufTy).Contents (Elt F))
  :: StableHlo.binary main_v490 main_v489 main_v491 (addf : (⟨S4096x256, .f32⟩ : BufTy).Contents (Elt F) → (⟨S4096x256, .f32⟩ : BufTy).Contents (Elt F) → (⟨S4096x256, .f32⟩ : BufTy).Contents (Elt F))
  :: StableHlo.nullary main_cst_116 (constant S_ .f32 0x3F800000#32)
  :: StableHlo.unary main_cst_116 main_v492 (broadcastInDim S4096x256 ![] bcast_S_S4096x256 : (⟨S_, .f32⟩ : BufTy).Contents (Elt F) → (⟨S4096x256, .f32⟩ : BufTy).Contents (Elt F))
  :: StableHlo.binary main_v492 main_v491 main_v493 (Host.divf : (⟨S4096x256, .f32⟩ : BufTy).Contents (Elt F) → (⟨S4096x256, .f32⟩ : BufTy).Contents (Elt F) → (⟨S4096x256, .f32⟩ : BufTy).Contents (Elt F))
  :: StableHlo.unary main_v487 main_v494 (Host.tanh : (⟨S4096x256, .f32⟩ : BufTy).Contents (Elt F) → (⟨S4096x256, .f32⟩ : BufTy).Contents (Elt F))
  :: StableHlo.binary main_v493 main_v494 main_v495 (mulf : (⟨S4096x256, .f32⟩ : BufTy).Contents (Elt F) → (⟨S4096x256, .f32⟩ : BufTy).Contents (Elt F) → (⟨S4096x256, .f32⟩ : BufTy).Contents (Elt F))
  :: StableHlo.nullary main_c_117 (constantI S_ 32 0#32)
  :: StableHlo.unary main_c_117 main_v496 (broadcastInDim S4096 ![] bcast_S_S4096 : (⟨S_, .i32⟩ : BufTy).Contents (Elt F) → (⟨S4096, .i32⟩ : BufTy).Contents (Elt F))
  :: StableHlo.binary main_v408 main_v496 main_v497 (cmpi .slt : (⟨S4096, .i32⟩ : BufTy).Contents (Elt F) → (⟨S4096, .i32⟩ : BufTy).Contents (Elt F) → (⟨S4096, .i1⟩ : BufTy).Contents (Elt F))
  :: StableHlo.nullary main_c_118 (constantI S_ 32 131040#32)
  :: StableHlo.unary main_c_118 main_v498 (broadcastInDim S4096 ![] bcast_S_S4096 : (⟨S_, .i32⟩ : BufTy).Contents (Elt F) → (⟨S4096, .i32⟩ : BufTy).Contents (Elt F))
  :: StableHlo.binary main_v408 main_v498 main_v499 (addi : (⟨S4096, .i32⟩ : BufTy).Contents (Elt F) → (⟨S4096, .i32⟩ : BufTy).Contents (Elt F) → (⟨S4096, .i32⟩ : BufTy).Contents (Elt F))
  :: StableHlo.ternary main_v497 main_v499 main_v408 main_v500 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v500 main_v501 (broadcastInDim S4096x1 ![0] bcast_S4096_S4096x1_0 : (⟨S4096, .i32⟩ : BufTy).Contents (Elt F) → (⟨S4096x1, .i32⟩ : BufTy).Contents (Elt F))
  :: StableHlo.ternary main_v392 main_v501 main_v495 main_v502 ((fun x i u => Host.scatter scatter_S131040x256_S4096x1_S4096x256_1_0_0_1 (fun _ b => b) x i u) : (⟨S131040x256, .f32⟩ : BufTy).Contents (Elt F) → (⟨S4096x1, .i32⟩ : BufTy).Contents (Elt F) → (⟨S4096x256, .f32⟩ : BufTy).Contents (Elt F) → (⟨S131040x256, .f32⟩ : BufTy).Contents (Elt F))
  :: StableHlo.nullary main_c_119 (constantI S_ 32 0#32)
  :: StableHlo.unary main_c_119 main_v503 (broadcastInDim S4096 ![] bcast_S_S4096 : (⟨S_, .i32⟩ : BufTy).Contents (Elt F) → (⟨S4096, .i32⟩ : BufTy).Contents (Elt F))
  :: StableHlo.binary main_v408 main_v503 main_v504 (cmpi .slt : (⟨S4096, .i32⟩ : BufTy).Contents (Elt F) → (⟨S4096, .i32⟩ : BufTy).Contents (Elt F) → (⟨S4096, .i1⟩ : BufTy).Contents (Elt F))
  :: StableHlo.nullary main_c_120 (constantI S_ 32 131040#32)
  :: StableHlo.unary main_c_120 main_v505 (broadcastInDim S4096 ![] bcast_S_S4096 : (⟨S_, .i32⟩ : BufTy).Contents (Elt F) → (⟨S4096, .i32⟩ : BufTy).Contents (Elt F))
  :: StableHlo.binary main_v408 main_v505 main_v506 (addi : (⟨S4096, .i32⟩ : BufTy).Contents (Elt F) → (⟨S4096, .i32⟩ : BufTy).Contents (Elt F) → (⟨S4096, .i32⟩ : BufTy).Contents (Elt F))
  :: StableHlo.ternary main_v504 main_v506 main_v408 main_v507 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F))
  :: StableHlo.unary main_v507 main_v508 (broadcastInDim S4096x1 ![0] bcast_S4096_S4096x1_0 : (⟨S4096, .i32⟩ : BufTy).Contents (Elt F) → (⟨S4096x1, .i32⟩ : BufTy).Contents (Elt F))
  :: StableHlo.ternary main_v399 main_v508 main_v487 main_v509 ((fun x i u => Host.scatter scatter_S131040x256_S4096x1_S4096x256_1_0_0_1 (fun _ b => b) x i u) : (⟨S131040x256, .f32⟩ : BufTy).Contents (Elt F) → (⟨S4096x1, .i32⟩ : BufTy).Contents (Elt F) → (⟨S4096x256, .f32⟩ : BufTy).Contents (Elt F) → (⟨S131040x256, .f32⟩ : BufTy).Contents (Elt F))
  :: StableHlo.unary main_v16 main_v510 (broadcastInDim S32x1 ![0] bcast_S32_S32x1_0 : (⟨S32, .i32⟩ : BufTy).Contents (Elt F) → (⟨S32x1, .i32⟩ : BufTy).Contents (Elt F))
  :: StableHlo.nullary main_c_121 (constantI S_ 32 63#32)
  :: StableHlo.unary main_c_121 main_v511 (broadcastInDim S32x1 ![] bcast_S_S32x1 : (⟨S_, .i32⟩ : BufTy).Contents (Elt F) → (⟨S32x1, .i32⟩ : BufTy).Contents (Elt F))
  :: StableHlo.binary main_v510 main_v511 main_v512 (addi : (⟨S32x1, .i32⟩ : BufTy).Contents (Elt F) → (⟨S32x1, .i32⟩ : BufTy).Contents (Elt F) → (⟨S32x1, .i32⟩ : BufTy).Contents (Elt F))
  :: StableHlo.nullary main_v513 (iotaInDim S64 32 0)
  :: StableHlo.unary main_v513 main_v514 (broadcastInDim S1x64 ![1] bcast_S64_S1x64_1 : (⟨S64, .i32⟩ : BufTy).Contents (Elt F) → (⟨S1x64, .i32⟩ : BufTy).Contents (Elt F))
  :: StableHlo.unary main_v512 main_v515 (broadcastInDim S32x64 ![0, 1] bcast_S32x1_S32x64_0_1 : (⟨S32x1, .i32⟩ : BufTy).Contents (Elt F) → (⟨S32x64, .i32⟩ : BufTy).Contents (Elt F))
  :: StableHlo.unary main_v514 main_v516 (broadcastInDim S32x64 ![0, 1] bcast_S1x64_S32x64_0_1 : (⟨S1x64, .i32⟩ : BufTy).Contents (Elt F) → (⟨S32x64, .i32⟩ : BufTy).Contents (Elt F))
  :: StableHlo.binary main_v515 main_v516 main_v517 (addi : (⟨S32x64, .i32⟩ : BufTy).Contents (Elt F) → (⟨S32x64, .i32⟩ : BufTy).Contents (Elt F) → (⟨S32x64, .i32⟩ : BufTy).Contents (Elt F))
  :: StableHlo.reshape main_v517 main_v518 rfl shapeCasts_S32x64_S2048
  :: StableHlo.nullary main_c_122 (constantI S_ 32 0#32)
  :: StableHlo.unary main_c_122 main_v519 (broadcastInDim S2048 ![] bcast_S_S2048 : (⟨S_, .i32⟩ : BufTy).Contents (Elt F) → (⟨S2048, .i32⟩ : BufTy).Contents (Elt F))
  :: StableHlo.binary main_v518 main_v519 main_v520 (cmpi .slt : (⟨S2048, .i32⟩ : BufTy).Contents (Elt F) → (⟨S2048, .i32⟩ : BufTy).Contents (Elt F) → (⟨S2048, .i1⟩ : BufTy).Contents (Elt F))
  :: StableHlo.nullary main_c_123 (constantI S_ 32 131040#32)
  :: StableHlo.unary main_c_123 main_v521 (broadcastInDim S2048 ![] bcast_S_S2048 : (⟨S_, .i32⟩ : BufTy).Contents (Elt F) → (⟨S2048, .i32⟩ : BufTy).Contents (Elt F))
  :: StableHlo.binary main_v518 main_v521 main_v522 (addi : (⟨S2048, .i32⟩ : BufTy).Contents (Elt F) → (⟨S2048, .i32⟩ : BufTy).Contents (Elt F) → (⟨S2048, .i32⟩ : BufTy).Contents (Elt F))
  :: StableHlo.ternary main_v520 main_v522 main_v518 main_v523 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v523 main_v524 (broadcastInDim S2048x1 ![0] bcast_S2048_S2048x1_0 : (⟨S2048, .i32⟩ : BufTy).Contents (Elt F) → (⟨S2048x1, .i32⟩ : BufTy).Contents (Elt F))
  :: StableHlo.binary main_v11 main_v524 main_v525 ((fun x i => Host.gather gather_S131040x768_S2048x1_S2048x768_1_0_n_n_0_1_1768 x i) : (⟨S131040x768, .f32⟩ : BufTy).Contents (Elt F) → (⟨S2048x1, .i32⟩ : BufTy).Contents (Elt F) → (⟨S2048x768, .f32⟩ : BufTy).Contents (Elt F))
  :: StableHlo.unary main_v16 main_v526 (broadcastInDim S32x1 ![0] bcast_S32_S32x1_0 : (⟨S32, .i32⟩ : BufTy).Contents (Elt F) → (⟨S32x1, .i32⟩ : BufTy).Contents (Elt F))
  :: StableHlo.nullary main_c_124 (constantI S_ 32 127#32)
  :: StableHlo.unary main_c_124 main_v527 (broadcastInDim S32x1 ![] bcast_S_S32x1 : (⟨S_, .i32⟩ : BufTy).Contents (Elt F) → (⟨S32x1, .i32⟩ : BufTy).Contents (Elt F))
  :: StableHlo.binary main_v526 main_v527 main_v528 (addi : (⟨S32x1, .i32⟩ : BufTy).Contents (Elt F) → (⟨S32x1, .i32⟩ : BufTy).Contents (Elt F) → (⟨S32x1, .i32⟩ : BufTy).Contents (Elt F))
  :: StableHlo.nullary main_v529 (iotaInDim S128 32 0)
  :: StableHlo.unary main_v529 main_v530 (broadcastInDim S1x128 ![1] bcast_S128_S1x128_1 : (⟨S128, .i32⟩ : BufTy).Contents (Elt F) → (⟨S1x128, .i32⟩ : BufTy).Contents (Elt F))
  :: StableHlo.unary main_v528 main_v531 (broadcastInDim S32x128 ![0, 1] bcast_S32x1_S32x128_0_1 : (⟨S32x1, .i32⟩ : BufTy).Contents (Elt F) → (⟨S32x128, .i32⟩ : BufTy).Contents (Elt F))
  :: StableHlo.unary main_v530 main_v532 (broadcastInDim S32x128 ![0, 1] bcast_S1x128_S32x128_0_1 : (⟨S1x128, .i32⟩ : BufTy).Contents (Elt F) → (⟨S32x128, .i32⟩ : BufTy).Contents (Elt F))
  :: [] )
/-- Each touches TensorCore references only (`HostSeg.ofOps` over `StableHlo.tcRefs`, or a subset by `sub_ucRefs`). -/
theorem main_part10_ops0_sub : (main_part10_ops0 : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub ..⟩
/-- Window 10 of `main` (`main_part10`, statements 601 … 660) is the chain of ITS items ending in the last
    (`Pipeline.chainK`: no closing `pure`, the window's last statement being in tail position), by `chain_rfl`. -/
theorem main_part10_chain (c : Dev nD) : main_part10 (F := F) c = (Pipeline.chainK
  [  ]
  (StableHlo.seq main_part10_ops0) : Prog (TpuEff nD τ sig (Elt F) (Pipeline.Sig Λ₀ (Fin 0) fun p => (pcfgs (F := F) p).Adm) .tc) PUnit) := by
  chain_rfl

/-- 30 host operations of @main, window 11 (statements 661 … 720), in order. -/
abbrev main_part11_ops0 : List (HloOp τ sig (Elt F)) :=
  [ StableHlo.binary main_v531 main_v532 main_v533 (addi : (⟨S32x128, .i32⟩ : BufTy).Contents (Elt F) → (⟨S32x128, .i32⟩ : BufTy).Contents (Elt F) → (⟨S32x128, .i32⟩ : BufTy).Contents (Elt F)),
    StableHlo.reshape main_v533 main_v534 rfl shapeCasts_S32x128_S4096,
    StableHlo.nullary main_c_125 (constantI S_ 32 0#32),
    StableHlo.unary main_c_125 main_v535 (broadcastInDim S4096 ![] bcast_S_S4096 : (⟨S_, .i32⟩ : BufTy).Contents (Elt F) → (⟨S4096, .i32⟩ : BufTy).Contents (Elt F)),
    StableHlo.binary main_v534 main_v535 main_v536 (cmpi .slt : (⟨S4096, .i32⟩ : BufTy).Contents (Elt F) → (⟨S4096, .i32⟩ : BufTy).Contents (Elt F) → (⟨S4096, .i1⟩ : BufTy).Contents (Elt F)),
    StableHlo.nullary main_c_126 (constantI S_ 32 131040#32),
    StableHlo.unary main_c_126 main_v537 (broadcastInDim S4096 ![] bcast_S_S4096 : (⟨S_, .i32⟩ : BufTy).Contents (Elt F) → (⟨S4096, .i32⟩ : BufTy).Contents (Elt F)),
    StableHlo.binary main_v534 main_v537 main_v538 (addi : (⟨S4096, .i32⟩ : BufTy).Contents (Elt F) → (⟨S4096, .i32⟩ : BufTy).Contents (Elt F) → (⟨S4096, .i32⟩ : BufTy).Contents (Elt F)),
    StableHlo.ternary main_v536 main_v538 main_v534 main_v539 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v539 main_v540 (broadcastInDim S4096x1 ![0] bcast_S4096_S4096x1_0 : (⟨S4096, .i32⟩ : BufTy).Contents (Elt F) → (⟨S4096x1, .i32⟩ : BufTy).Contents (Elt F)),
    StableHlo.binary main_v502 main_v540 main_v541 ((fun x i => Host.gather gather_S131040x256_S4096x1_S4096x256_1_0_n_n_0_1_1256 x i) : (⟨S131040x256, .f32⟩ : BufTy).Contents (Elt F) → (⟨S4096x1, .i32⟩ : BufTy).Contents (Elt F) → (⟨S4096x256, .f32⟩ : BufTy).Contents (Elt F)),
    StableHlo.nullary main_c_127 (constantI S_ 32 0#32),
    StableHlo.unary main_c_127 main_v542 (broadcastInDim S4096 ![] bcast_S_S4096 : (⟨S_, .i32⟩ : BufTy).Contents (Elt F) → (⟨S4096, .i32⟩ : BufTy).Contents (Elt F)),
    StableHlo.binary main_v534 main_v542 main_v543 (cmpi .slt : (⟨S4096, .i32⟩ : BufTy).Contents (Elt F) → (⟨S4096, .i32⟩ : BufTy).Contents (Elt F) → (⟨S4096, .i1⟩ : BufTy).Contents (Elt F)),
    StableHlo.nullary main_c_128 (constantI S_ 32 131040#32),
    StableHlo.unary main_c_128 main_v544 (broadcastInDim S4096 ![] bcast_S_S4096 : (⟨S_, .i32⟩ : BufTy).Contents (Elt F) → (⟨S4096, .i32⟩ : BufTy).Contents (Elt F)),
    StableHlo.binary main_v534 main_v544 main_v545 (addi : (⟨S4096, .i32⟩ : BufTy).Contents (Elt F) → (⟨S4096, .i32⟩ : BufTy).Contents (Elt F) → (⟨S4096, .i32⟩ : BufTy).Contents (Elt F)),
    StableHlo.ternary main_v543 main_v545 main_v534 main_v546 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v546 main_v547 (broadcastInDim S4096x1 ![0] bcast_S4096_S4096x1_0 : (⟨S4096, .i32⟩ : BufTy).Contents (Elt F) → (⟨S4096x1, .i32⟩ : BufTy).Contents (Elt F)),
    StableHlo.binary main_v509 main_v547 main_v548 ((fun x i => Host.gather gather_S131040x256_S4096x1_S4096x256_1_0_n_n_0_1_1256 x i) : (⟨S131040x256, .f32⟩ : BufTy).Contents (Elt F) → (⟨S4096x1, .i32⟩ : BufTy).Contents (Elt F) → (⟨S4096x256, .f32⟩ : BufTy).Contents (Elt F)),
    StableHlo.nullary main_c_129 (constantI S_ 32 0#32),
    StableHlo.unary main_c_129 main_v549 (broadcastInDim S4096 ![] bcast_S_S4096 : (⟨S_, .i32⟩ : BufTy).Contents (Elt F) → (⟨S4096, .i32⟩ : BufTy).Contents (Elt F)),
    StableHlo.binary main_v534 main_v549 main_v550 (cmpi .slt : (⟨S4096, .i32⟩ : BufTy).Contents (Elt F) → (⟨S4096, .i32⟩ : BufTy).Contents (Elt F) → (⟨S4096, .i1⟩ : BufTy).Contents (Elt F)),
    StableHlo.nullary main_c_130 (constantI S_ 32 131040#32),
    StableHlo.unary main_c_130 main_v551 (broadcastInDim S4096 ![] bcast_S_S4096 : (⟨S_, .i32⟩ : BufTy).Contents (Elt F) → (⟨S4096, .i32⟩ : BufTy).Contents (Elt F)),
    StableHlo.binary main_v534 main_v551 main_v552 (addi : (⟨S4096, .i32⟩ : BufTy).Contents (Elt F) → (⟨S4096, .i32⟩ : BufTy).Contents (Elt F) → (⟨S4096, .i32⟩ : BufTy).Contents (Elt F)),
    StableHlo.ternary main_v550 main_v552 main_v534 main_v553 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v553 main_v554 (broadcastInDim S4096x1 ![0] bcast_S4096_S4096x1_0 : (⟨S4096, .i32⟩ : BufTy).Contents (Elt F) → (⟨S4096x1, .i32⟩ : BufTy).Contents (Elt F)),
    StableHlo.binary main_arg1 main_v554 main_v555 ((fun x i => Host.gather gather_S131040_S4096x1_S4096_n_0_n_n_0_1_1 x i) : (⟨S131040, .i32⟩ : BufTy).Contents (Elt F) → (⟨S4096x1, .i32⟩ : BufTy).Contents (Elt F) → (⟨S4096, .i32⟩ : BufTy).Contents (Elt F)),
    StableHlo.nullary main_c_131 (constantI S_ 32 4095#32) ]
/-- Each touches TensorCore references only (`HostSeg.ofOps` over `StableHlo.tcRefs`, or a subset by `sub_ucRefs`). -/
theorem main_part11_ops0_sub : (main_part11_ops0 : List (HloOp τ sig (Elt F))).Forall fun op => op.bufs ⊆ StableHlo.tcRefs τ sig :=
  ⟨StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_10 (main_call8), window 11 (statements 661 … 720), in order. -/
abbrev main_part11_ops1 : List (HloOp τ sig (Elt F)) :=
  [ StableHlo.TRef.unary (.of main_c_131 : StableHlo.TRef sig ⟨S_, .i32⟩) (.of main_call8_v0 : StableHlo.TRef sig ⟨S_, .i32⟩) id,
    StableHlo.TRef.unary (.of main_call8_v0 : StableHlo.TRef sig ⟨S_, .i32⟩) (.of main_call8_v1 : StableHlo.TRef sig ⟨S4096, .i32⟩) (broadcastInDim S4096 ![] bcast_S_S4096),
    StableHlo.TRef.binary (.of main_v555 : StableHlo.TRef sig ⟨S4096, .i32⟩) (.of main_call8_v1 : StableHlo.TRef sig ⟨S4096, .i32⟩) (.of main_call8_v2 : StableHlo.TRef sig ⟨S4096, .i32⟩) Host.divsi,
    StableHlo.TRef.unary (.of main_v555 : StableHlo.TRef sig ⟨S4096, .i32⟩) (.of main_call8_v3 : StableHlo.TRef sig ⟨S4096, .i32⟩) signi,
    StableHlo.TRef.unary (.of main_call8_v0 : StableHlo.TRef sig ⟨S_, .i32⟩) (.of main_call8_v4 : StableHlo.TRef sig ⟨S_, .i32⟩) signi,
    StableHlo.TRef.unary (.of main_call8_v4 : StableHlo.TRef sig ⟨S_, .i32⟩) (.of main_call8_v5 : StableHlo.TRef sig ⟨S4096, .i32⟩) (broadcastInDim S4096 ![] bcast_S_S4096),
    StableHlo.TRef.binary (.of main_call8_v3 : StableHlo.TRef sig ⟨S4096, .i32⟩) (.of main_call8_v5 : StableHlo.TRef sig ⟨S4096, .i32⟩) (.of main_call8_v6 : StableHlo.TRef sig ⟨S4096, .i1⟩) (cmpi .ne),
    StableHlo.TRef.unary (.of main_call8_v0 : StableHlo.TRef sig ⟨S_, .i32⟩) (.of main_call8_v7 : StableHlo.TRef sig ⟨S4096, .i32⟩) (broadcastInDim S4096 ![] bcast_S_S4096),
    StableHlo.TRef.binary (.of main_v555 : StableHlo.TRef sig ⟨S4096, .i32⟩) (.of main_call8_v7 : StableHlo.TRef sig ⟨S4096, .i32⟩) (.of main_call8_v8 : StableHlo.TRef sig ⟨S4096, .i32⟩) Host.remsi,
    StableHlo.TRef.nullary (.of main_call8_c : StableHlo.TRef sig ⟨S_, .i32⟩) (constantI S_ 32 0#32),
    StableHlo.TRef.unary (.of main_call8_c : StableHlo.TRef sig ⟨S_, .i32⟩) (.of main_call8_v9 : StableHlo.TRef sig ⟨S4096, .i32⟩) (broadcastInDim S4096 ![] bcast_S_S4096),
    StableHlo.TRef.binary (.of main_call8_v8 : StableHlo.TRef sig ⟨S4096, .i32⟩) (.of main_call8_v9 : StableHlo.TRef sig ⟨S4096, .i32⟩) (.of main_call8_v10 : StableHlo.TRef sig ⟨S4096, .i1⟩) (cmpi .ne),
    StableHlo.TRef.binary (.of main_call8_v6 : StableHlo.TRef sig ⟨S4096, .i1⟩) (.of main_call8_v10 : StableHlo.TRef sig ⟨S4096, .i1⟩) (.of main_call8_v11 : StableHlo.TRef sig ⟨S4096, .i1⟩) andi,
    StableHlo.TRef.nullary (.of main_call8_c_0 : StableHlo.TRef sig ⟨S_, .i32⟩) (constantI S_ 32 1#32),
    StableHlo.TRef.unary (.of main_call8_c_0 : StableHlo.TRef sig ⟨S_, .i32⟩) (.of main_call8_v12 : StableHlo.TRef sig ⟨S4096, .i32⟩) (broadcastInDim S4096 ![] bcast_S_S4096),
    StableHlo.TRef.binary (.of main_call8_v2 : StableHlo.TRef sig ⟨S4096, .i32⟩) (.of main_call8_v12 : StableHlo.TRef sig ⟨S4096, .i32⟩) (.of main_call8_v13 : StableHlo.TRef sig ⟨S4096, .i32⟩) subi,
    StableHlo.TRef.ternary (.of main_call8_v11 : StableHlo.TRef sig ⟨S4096, .i1⟩) (.of main_call8_v13 : StableHlo.TRef sig ⟨S4096, .i32⟩) (.of main_call8_v2 : StableHlo.TRef sig ⟨S4096, .i32⟩) (.of main_v556 : StableHlo.TRef sig ⟨S4096, .i32⟩) select ]
/-- Each touches TensorCore references only (`HostSeg.ofOps` over `StableHlo.tcRefs`, or a subset by `sub_ucRefs`). -/
theorem main_part11_ops1_sub : (main_part11_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 11 (statements 661 … 720), in order. -/
abbrev main_part11_ops2 : List (HloOp τ sig (Elt F)) :=
  [ StableHlo.nullary main_c_132 (constantI S_ 32 64#32),
    StableHlo.unary main_c_132 main_v557 (broadcastInDim S4096 ![] bcast_S_S4096 : (⟨S_, .i32⟩ : BufTy).Contents (Elt F) → (⟨S4096, .i32⟩ : BufTy).Contents (Elt F)),
    StableHlo.binary main_v556 main_v557 main_v558 (muli : (⟨S4096, .i32⟩ : BufTy).Contents (Elt F) → (⟨S4096, .i32⟩ : BufTy).Contents (Elt F) → (⟨S4096, .i32⟩ : BufTy).Contents (Elt F)),
    StableHlo.nullary main_c_133 (constantI S_ 32 4095#32) ]
/-- Each touches TensorCore references only (`HostSeg.ofOps` over `StableHlo.tcRefs`, or a subset by `sub_ucRefs`). -/
theorem main_part11_ops2_sub : (main_part11_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_12 (main_call9), window 11 (statements 661 … 720), in order. -/
abbrev main_part11_ops3 : List (HloOp τ sig (Elt F)) :=
  [ StableHlo.TRef.unary (.of main_c_133 : StableHlo.TRef sig ⟨S_, .i32⟩) (.of main_call9_v0 : StableHlo.TRef sig ⟨S_, .i32⟩) id,
    StableHlo.TRef.nullary (.of main_call9_c : StableHlo.TRef sig ⟨S_, .i32⟩) (constantI S_ 32 0#32),
    StableHlo.TRef.binary (.of main_call9_v0 : StableHlo.TRef sig ⟨S_, .i32⟩) (.of main_call9_c : StableHlo.TRef sig ⟨S_, .i32⟩) (.of main_call9_v1 : StableHlo.TRef sig ⟨S_, .i1⟩) (cmpi .eq),
    StableHlo.TRef.nullary (.of main_call9_c_0 : StableHlo.TRef sig ⟨S_, .i32⟩) (constantI S_ 32 1#32),
    StableHlo.TRef.ternary (.of main_call9_v1 : StableHlo.TRef sig ⟨S_, .i1⟩) (.of main_call9_c_0 : StableHlo.TRef sig ⟨S_, .i32⟩) (.of main_call9_v0 : StableHlo.TRef sig ⟨S_, .i32⟩) (.of main_call9_v2 : StableHlo.TRef sig ⟨S_, .i32⟩) select,
    StableHlo.TRef.unary main_call9_call0.v0 (.of main_call9_v3 : StableHlo.TRef sig ⟨S4096, .i32⟩) (broadcastInDim S4096 ![] bcast_S_S4096),
    StableHlo.TRef.binary (.of main_v555 : StableHlo.TRef sig ⟨S4096, .i32⟩) (.of main_call9_v3 : StableHlo.TRef sig ⟨S4096, .i32⟩) (.of main_call9_v4 : StableHlo.TRef sig ⟨S4096, .i32⟩) Host.remsi,
    StableHlo.TRef.nullary (.of main_call9_c_1 : StableHlo.TRef sig ⟨S_, .i32⟩) (constantI S_ 32 0#32),
    StableHlo.TRef.unary (.of main_call9_c_1 : StableHlo.TRef sig ⟨S_, .i32⟩) (.of main_call9_v5 : StableHlo.TRef sig ⟨S4096, .i32⟩) (broadcastInDim S4096 ![] bcast_S_S4096),
    StableHlo.TRef.binary (.of main_call9_v4 : StableHlo.TRef sig ⟨S4096, .i32⟩) (.of main_call9_v5 : StableHlo.TRef sig ⟨S4096, .i32⟩) (.of main_call9_v6 : StableHlo.TRef sig ⟨S4096, .i1⟩) (cmpi .ne),
    StableHlo.TRef.nullary (.of main_call9_c_2 : StableHlo.TRef sig ⟨S_, .i32⟩) (constantI S_ 32 0#32),
    StableHlo.TRef.unary (.of main_call9_c_2 : StableHlo.TRef sig ⟨S_, .i32⟩) (.of main_call9_v7 : StableHlo.TRef sig ⟨S4096, .i32⟩) (broadcastInDim S4096 ![] bcast_S_S4096),
    StableHlo.TRef.binary (.of main_call9_v4 : StableHlo.TRef sig ⟨S4096, .i32⟩) (.of main_call9_v7 : StableHlo.TRef sig ⟨S4096, .i32⟩) (.of main_call9_v8 : StableHlo.TRef sig ⟨S4096, .i1⟩) (cmpi .slt),
    StableHlo.TRef.nullary (.of main_call9_c_3 : StableHlo.TRef sig ⟨S_, .i32⟩) (constantI S_ 32 0#32),
    StableHlo.TRef.binary main_call9_call0.v0 (.of main_call9_c_3 : StableHlo.TRef sig ⟨S_, .i32⟩) (.of main_call9_v9 : StableHlo.TRef sig ⟨S_, .i1⟩) (cmpi .slt),
    StableHlo.TRef.unary (.of main_call9_v9 : StableHlo.TRef sig ⟨S_, .i1⟩) (.of main_call9_v10 : StableHlo.TRef sig ⟨S4096, .i1⟩) (broadcastInDim S4096 ![] bcast_S_S4096),
    StableHlo.TRef.binary (.of main_call9_v8 : StableHlo.TRef sig ⟨S4096, .i1⟩) (.of main_call9_v10 : StableHlo.TRef sig ⟨S4096, .i1⟩) (.of main_call9_v11 : StableHlo.TRef sig ⟨S4096, .i1⟩) (cmpi .ne),
    StableHlo.TRef.binary (.of main_call9_v11 : StableHlo.TRef sig ⟨S4096, .i1⟩) (.of main_call9_v6 : StableHlo.TRef sig ⟨S4096, .i1⟩) (.of main_call9_v12 : StableHlo.TRef sig ⟨S4096, .i1⟩) andi,
    StableHlo.TRef.unary main_call9_call0.v0 (.of main_call9_v13 : StableHlo.TRef sig ⟨S4096, .i32⟩) (broadcastInDim S4096 ![] bcast_S_S4096),
    StableHlo.TRef.binary (.of main_call9_v4 : StableHlo.TRef sig ⟨S4096, .i32⟩) (.of main_call9_v13 : StableHlo.TRef sig ⟨S4096, .i32⟩) (.of main_call9_v14 : StableHlo.TRef sig ⟨S4096, .i32⟩) addi,
    StableHlo.TRef.ternary (.of main_call9_v12 : StableHlo.TRef sig ⟨S4096, .i1⟩) (.of main_call9_v14 : StableHlo.TRef sig ⟨S4096, .i32⟩) (.of main_call9_v4 : StableHlo.TRef sig ⟨S4096, .i32⟩) (.of main_v559 : StableHlo.TRef sig ⟨S4096, .i32⟩) select ]
/-- Each touches TensorCore references only (`HostSeg.ofOps` over `StableHlo.tcRefs`, or a subset by `sub_ucRefs`). -/
theorem main_part11_ops3_sub : (main_part11_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 24 host operations of @main, window 11 (statements 661 … 720), in order. -/
abbrev main_part11_ops4 : List (HloOp τ sig (Elt F)) :=
  [ StableHlo.nullary main_c_134 (constantI S_ 32 63#32),
    StableHlo.unary main_c_134 main_v560 (broadcastInDim S4096 ![] bcast_S_S4096 : (⟨S_, .i32⟩ : BufTy).Contents (Elt F) → (⟨S4096, .i32⟩ : BufTy).Contents (Elt F)),
    StableHlo.binary main_v559 main_v560 main_v561 (subi : (⟨S4096, .i32⟩ : BufTy).Contents (Elt F) → (⟨S4096, .i32⟩ : BufTy).Contents (Elt F) → (⟨S4096, .i32⟩ : BufTy).Contents (Elt F)),
    StableHlo.binary main_v558 main_v561 main_v562 (addi : (⟨S4096, .i32⟩ : BufTy).Contents (Elt F) → (⟨S4096, .i32⟩ : BufTy).Contents (Elt F) → (⟨S4096, .i32⟩ : BufTy).Contents (Elt F)),
    StableHlo.unary main_arg6 main_v563 ((transpose S256x256 [1, 0] · transposes_S256x256_S256x256_1_0) : (⟨S256x256, .f32⟩ : BufTy).Contents (Elt F) → (⟨S256x256, .f32⟩ : BufTy).Contents (Elt F)),
    StableHlo.binary main_v541 main_v563 main_v564 ((fun l r => Host.dotGeneral dot_S4096x256_S256x256_S4096x256_1_0_0_1_n_n none l r) : (⟨S4096x256, .f32⟩ : BufTy).Contents (Elt F) → (⟨S256x256, .f32⟩ : BufTy).Contents (Elt F) → (⟨S4096x256, .f32⟩ : BufTy).Contents (Elt F)),
    StableHlo.unary main_arg7 main_v565 (broadcastInDim S1x256 ![1] bcast_S256_S1x256_1 : (⟨S256, .f32⟩ : BufTy).Contents (Elt F) → (⟨S1x256, .f32⟩ : BufTy).Contents (Elt F)),
    StableHlo.unary main_v565 main_v566 (broadcastInDim S4096x256 ![0, 1] bcast_S1x256_S4096x256_0_1 : (⟨S1x256, .f32⟩ : BufTy).Contents (Elt F) → (⟨S4096x256, .f32⟩ : BufTy).Contents (Elt F)),
    StableHlo.binary main_v564 main_v566 main_v567 (addf : (⟨S4096x256, .f32⟩ : BufTy).Contents (Elt F) → (⟨S4096x256, .f32⟩ : BufTy).Contents (Elt F) → (⟨S4096x256, .f32⟩ : BufTy).Contents (Elt F)),
    StableHlo.unary main_v567 main_v568 (Host.negf : (⟨S4096x256, .f32⟩ : BufTy).Contents (Elt F) → (⟨S4096x256, .f32⟩ : BufTy).Contents (Elt F)),
    StableHlo.unary main_v568 main_v569 (Host.exp : (⟨S4096x256, .f32⟩ : BufTy).Contents (Elt F) → (⟨S4096x256, .f32⟩ : BufTy).Contents (Elt F)),
    StableHlo.nullary main_cst_135 (constant S_ .f32 0x3F800000#32),
    StableHlo.unary main_cst_135 main_v570 (broadcastInDim S4096x256 ![] bcast_S_S4096x256 : (⟨S_, .f32⟩ : BufTy).Contents (Elt F) → (⟨S4096x256, .f32⟩ : BufTy).Contents (Elt F)),
    StableHlo.binary main_v570 main_v569 main_v571 (addf : (⟨S4096x256, .f32⟩ : BufTy).Contents (Elt F) → (⟨S4096x256, .f32⟩ : BufTy).Contents (Elt F) → (⟨S4096x256, .f32⟩ : BufTy).Contents (Elt F)),
    StableHlo.nullary main_cst_136 (constant S_ .f32 0x3F800000#32),
    StableHlo.unary main_cst_136 main_v572 (broadcastInDim S4096x256 ![] bcast_S_S4096x256 : (⟨S_, .f32⟩ : BufTy).Contents (Elt F) → (⟨S4096x256, .f32⟩ : BufTy).Contents (Elt F)),
    StableHlo.binary main_v572 main_v571 main_v573 (Host.divf : (⟨S4096x256, .f32⟩ : BufTy).Contents (Elt F) → (⟨S4096x256, .f32⟩ : BufTy).Contents (Elt F) → (⟨S4096x256, .f32⟩ : BufTy).Contents (Elt F)),
    StableHlo.nullary main_cst_137 (constant S_ .f32 0x00000000#32),
    StableHlo.unary main_cst_137 main_v574 (broadcastInDim S2048x256 ![] bcast_S_S2048x256 : (⟨S_, .f32⟩ : BufTy).Contents (Elt F) → (⟨S2048x256, .f32⟩ : BufTy).Contents (Elt F)),
    StableHlo.unary main_v562 main_v575 (broadcastInDim S4096x1 ![0] bcast_S4096_S4096x1_0 : (⟨S4096, .i32⟩ : BufTy).Contents (Elt F) → (⟨S4096x1, .i32⟩ : BufTy).Contents (Elt F)),
    StableHlo.ternary main_v574 main_v575 main_v541 main_v576 ((fun x i u => Host.scatterAdd scatter_S2048x256_S4096x1_S4096x256_1_0_0_1 x i u) : (⟨S2048x256, .f32⟩ : BufTy).Contents (Elt F) → (⟨S4096x1, .i32⟩ : BufTy).Contents (Elt F) → (⟨S4096x256, .f32⟩ : BufTy).Contents (Elt F) → (⟨S2048x256, .f32⟩ : BufTy).Contents (Elt F)),
    StableHlo.binary main_v573 main_v548 main_v577 (mulf : (⟨S4096x256, .f32⟩ : BufTy).Contents (Elt F) → (⟨S4096x256, .f32⟩ : BufTy).Contents (Elt F) → (⟨S4096x256, .f32⟩ : BufTy).Contents (Elt F)),
    StableHlo.nullary main_cst_138 (constant S_ .f32 0x00000000#32),
    StableHlo.unary main_cst_138 main_v578 (broadcastInDim S2048x256 ![] bcast_S_S2048x256 : (⟨S_, .f32⟩ : BufTy).Contents (Elt F) → (⟨S2048x256, .f32⟩ : BufTy).Contents (Elt F)) ]
/-- Each touches TensorCore references only (`HostSeg.ofOps` over `StableHlo.tcRefs`, or a subset by `sub_ucRefs`). -/
theorem main_part11_ops4_sub : (main_part11_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub ..⟩
/-- Window 11 of `main` (`main_part11`, statements 661 … 720) is the chain of ITS items ending in the last
    (`Pipeline.chainK`: no closing `pure`, the window's last statement being in tail position), by `chain_rfl`. -/
theorem main_part11_chain (c : Dev nD) : main_part11 (F := F) c = (Pipeline.chainK
  [ StableHlo.seq main_part11_ops0,
    StableHlo.seq main_part11_ops1,
    StableHlo.seq main_part11_ops2,
    StableHlo.seq main_part11_ops3 ]
  (StableHlo.seq main_part11_ops4) : Prog (TpuEff nD τ sig (Elt F) (Pipeline.Sig Λ₀ (Fin 0) fun p => (pcfgs (F := F) p).Adm) .tc) PUnit) := by
  chain_rfl

/-- 60 host operations of @main, window 12 (statements 721 … 780), in order. -/
abbrev main_part12_ops0 : List (HloOp τ sig (Elt F)) :=
  ( StableHlo.unary main_v562 main_v579 (broadcastInDim S4096x1 ![0] bcast_S4096_S4096x1_0 : (⟨S4096, .i32⟩ : BufTy).Contents (Elt F) → (⟨S4096x1, .i32⟩ : BufTy).Contents (Elt F))
  :: StableHlo.ternary main_v578 main_v579 main_v577 main_v580 ((fun x i u => Host.scatterAdd scatter_S2048x256_S4096x1_S4096x256_1_0_0_1 x i u) : (⟨S2048x256, .f32⟩ : BufTy).Contents (Elt F) → (⟨S4096x1, .i32⟩ : BufTy).Contents (Elt F) → (⟨S4096x256, .f32⟩ : BufTy).Contents (Elt F) → (⟨S2048x256, .f32⟩ : BufTy).Contents (Elt F))
  :: StableHlo.unary main_arg4 main_v581 ((transpose S256x768 [1, 0] · transposes_S768x256_S256x768_1_0) : (⟨S768x256, .f32⟩ : BufTy).Contents (Elt F) → (⟨S256x768, .f32⟩ : BufTy).Contents (Elt F))
  :: StableHlo.binary main_v576 main_v581 main_v582 ((fun l r => Host.dotGeneral dot_S2048x256_S256x768_S2048x768_1_0_0_1_n_n none l r) : (⟨S2048x256, .f32⟩ : BufTy).Contents (Elt F) → (⟨S256x768, .f32⟩ : BufTy).Contents (Elt F) → (⟨S2048x768, .f32⟩ : BufTy).Contents (Elt F))
  :: StableHlo.binary main_v525 main_v582 main_v583 (addf : (⟨S2048x768, .f32⟩ : BufTy).Contents (Elt F) → (⟨S2048x768, .f32⟩ : BufTy).Contents (Elt F) → (⟨S2048x768, .f32⟩ : BufTy).Contents (Elt F))
  :: StableHlo.unary main_arg5 main_v584 (broadcastInDim S2048x768 ![0, 1] bcast_S1x768_S2048x768_0_1 : (⟨S1x768, .f32⟩ : BufTy).Contents (Elt F) → (⟨S2048x768, .f32⟩ : BufTy).Contents (Elt F))
  :: StableHlo.binary main_v583 main_v584 main_v585 (addf : (⟨S2048x768, .f32⟩ : BufTy).Contents (Elt F) → (⟨S2048x768, .f32⟩ : BufTy).Contents (Elt F) → (⟨S2048x768, .f32⟩ : BufTy).Contents (Elt F))
  :: StableHlo.unary main_v585 main_v586 ((extractStridedSlice S2048x256 ![0, 0] · slices_S2048x768_S2048x256_0_0) : (⟨S2048x768, .f32⟩ : BufTy).Contents (Elt F) → (⟨S2048x256, .f32⟩ : BufTy).Contents (Elt F))
  :: StableHlo.unary main_v585 main_v587 ((extractStridedSlice S2048x256 ![0, 256] · slices_S2048x768_S2048x256_0_256) : (⟨S2048x768, .f32⟩ : BufTy).Contents (Elt F) → (⟨S2048x256, .f32⟩ : BufTy).Contents (Elt F))
  :: StableHlo.unary main_v585 main_v588 ((extractStridedSlice S2048x256 ![0, 512] · slices_S2048x768_S2048x256_0_512) : (⟨S2048x768, .f32⟩ : BufTy).Contents (Elt F) → (⟨S2048x256, .f32⟩ : BufTy).Contents (Elt F))
  :: StableHlo.unary main_v586 main_v589 (Host.negf : (⟨S2048x256, .f32⟩ : BufTy).Contents (Elt F) → (⟨S2048x256, .f32⟩ : BufTy).Contents (Elt F))
  :: StableHlo.unary main_v589 main_v590 (Host.exp : (⟨S2048x256, .f32⟩ : BufTy).Contents (Elt F) → (⟨S2048x256, .f32⟩ : BufTy).Contents (Elt F))
  :: StableHlo.nullary main_cst_139 (constant S_ .f32 0x3F800000#32)
  :: StableHlo.unary main_cst_139 main_v591 (broadcastInDim S2048x256 ![] bcast_S_S2048x256 : (⟨S_, .f32⟩ : BufTy).Contents (Elt F) → (⟨S2048x256, .f32⟩ : BufTy).Contents (Elt F))
  :: StableHlo.binary main_v591 main_v590 main_v592 (addf : (⟨S2048x256, .f32⟩ : BufTy).Contents (Elt F) → (⟨S2048x256, .f32⟩ : BufTy).Contents (Elt F) → (⟨S2048x256, .f32⟩ : BufTy).Contents (Elt F))
  :: StableHlo.nullary main_cst_140 (constant S_ .f32 0x3F800000#32)
  :: StableHlo.unary main_cst_140 main_v593 (broadcastInDim S2048x256 ![] bcast_S_S2048x256 : (⟨S_, .f32⟩ : BufTy).Contents (Elt F) → (⟨S2048x256, .f32⟩ : BufTy).Contents (Elt F))
  :: StableHlo.binary main_v593 main_v592 main_v594 (Host.divf : (⟨S2048x256, .f32⟩ : BufTy).Contents (Elt F) → (⟨S2048x256, .f32⟩ : BufTy).Contents (Elt F) → (⟨S2048x256, .f32⟩ : BufTy).Contents (Elt F))
  :: StableHlo.unary main_v588 main_v595 (Host.tanh : (⟨S2048x256, .f32⟩ : BufTy).Contents (Elt F) → (⟨S2048x256, .f32⟩ : BufTy).Contents (Elt F))
  :: StableHlo.binary main_v594 main_v595 main_v596 (mulf : (⟨S2048x256, .f32⟩ : BufTy).Contents (Elt F) → (⟨S2048x256, .f32⟩ : BufTy).Contents (Elt F) → (⟨S2048x256, .f32⟩ : BufTy).Contents (Elt F))
  :: StableHlo.binary main_v596 main_v580 main_v597 (addf : (⟨S2048x256, .f32⟩ : BufTy).Contents (Elt F) → (⟨S2048x256, .f32⟩ : BufTy).Contents (Elt F) → (⟨S2048x256, .f32⟩ : BufTy).Contents (Elt F))
  :: StableHlo.unary main_v587 main_v598 (Host.negf : (⟨S2048x256, .f32⟩ : BufTy).Contents (Elt F) → (⟨S2048x256, .f32⟩ : BufTy).Contents (Elt F))
  :: StableHlo.unary main_v598 main_v599 (Host.exp : (⟨S2048x256, .f32⟩ : BufTy).Contents (Elt F) → (⟨S2048x256, .f32⟩ : BufTy).Contents (Elt F))
  :: StableHlo.nullary main_cst_141 (constant S_ .f32 0x3F800000#32)
  :: StableHlo.unary main_cst_141 main_v600 (broadcastInDim S2048x256 ![] bcast_S_S2048x256 : (⟨S_, .f32⟩ : BufTy).Contents (Elt F) → (⟨S2048x256, .f32⟩ : BufTy).Contents (Elt F))
  :: StableHlo.binary main_v600 main_v599 main_v601 (addf : (⟨S2048x256, .f32⟩ : BufTy).Contents (Elt F) → (⟨S2048x256, .f32⟩ : BufTy).Contents (Elt F) → (⟨S2048x256, .f32⟩ : BufTy).Contents (Elt F))
  :: StableHlo.nullary main_cst_142 (constant S_ .f32 0x3F800000#32)
  :: StableHlo.unary main_cst_142 main_v602 (broadcastInDim S2048x256 ![] bcast_S_S2048x256 : (⟨S_, .f32⟩ : BufTy).Contents (Elt F) → (⟨S2048x256, .f32⟩ : BufTy).Contents (Elt F))
  :: StableHlo.binary main_v602 main_v601 main_v603 (Host.divf : (⟨S2048x256, .f32⟩ : BufTy).Contents (Elt F) → (⟨S2048x256, .f32⟩ : BufTy).Contents (Elt F) → (⟨S2048x256, .f32⟩ : BufTy).Contents (Elt F))
  :: StableHlo.unary main_v597 main_v604 (Host.tanh : (⟨S2048x256, .f32⟩ : BufTy).Contents (Elt F) → (⟨S2048x256, .f32⟩ : BufTy).Contents (Elt F))
  :: StableHlo.binary main_v603 main_v604 main_v605 (mulf : (⟨S2048x256, .f32⟩ : BufTy).Contents (Elt F) → (⟨S2048x256, .f32⟩ : BufTy).Contents (Elt F) → (⟨S2048x256, .f32⟩ : BufTy).Contents (Elt F))
  :: StableHlo.nullary main_c_143 (constantI S_ 32 0#32)
  :: StableHlo.unary main_c_143 main_v606 (broadcastInDim S2048 ![] bcast_S_S2048 : (⟨S_, .i32⟩ : BufTy).Contents (Elt F) → (⟨S2048, .i32⟩ : BufTy).Contents (Elt F))
  :: StableHlo.binary main_v518 main_v606 main_v607 (cmpi .slt : (⟨S2048, .i32⟩ : BufTy).Contents (Elt F) → (⟨S2048, .i32⟩ : BufTy).Contents (Elt F) → (⟨S2048, .i1⟩ : BufTy).Contents (Elt F))
  :: StableHlo.nullary main_c_144 (constantI S_ 32 131040#32)
  :: StableHlo.unary main_c_144 main_v608 (broadcastInDim S2048 ![] bcast_S_S2048 : (⟨S_, .i32⟩ : BufTy).Contents (Elt F) → (⟨S2048, .i32⟩ : BufTy).Contents (Elt F))
  :: StableHlo.binary main_v518 main_v608 main_v609 (addi : (⟨S2048, .i32⟩ : BufTy).Contents (Elt F) → (⟨S2048, .i32⟩ : BufTy).Contents (Elt F) → (⟨S2048, .i32⟩ : BufTy).Contents (Elt F))
  :: StableHlo.ternary main_v607 main_v609 main_v518 main_v610 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v610 main_v611 (broadcastInDim S2048x1 ![0] bcast_S2048_S2048x1_0 : (⟨S2048, .i32⟩ : BufTy).Contents (Elt F) → (⟨S2048x1, .i32⟩ : BufTy).Contents (Elt F))
  :: StableHlo.ternary main_v502 main_v611 main_v605 main_v612 ((fun x i u => Host.scatter scatter_S131040x256_S2048x1_S2048x256_1_0_0_1 (fun _ b => b) x i u) : (⟨S131040x256, .f32⟩ : BufTy).Contents (Elt F) → (⟨S2048x1, .i32⟩ : BufTy).Contents (Elt F) → (⟨S2048x256, .f32⟩ : BufTy).Contents (Elt F) → (⟨S131040x256, .f32⟩ : BufTy).Contents (Elt F))
  :: StableHlo.nullary main_c_145 (constantI S_ 32 0#32)
  :: StableHlo.unary main_c_145 main_v613 (broadcastInDim S2048 ![] bcast_S_S2048 : (⟨S_, .i32⟩ : BufTy).Contents (Elt F) → (⟨S2048, .i32⟩ : BufTy).Contents (Elt F))
  :: StableHlo.binary main_v518 main_v613 main_v614 (cmpi .slt : (⟨S2048, .i32⟩ : BufTy).Contents (Elt F) → (⟨S2048, .i32⟩ : BufTy).Contents (Elt F) → (⟨S2048, .i1⟩ : BufTy).Contents (Elt F))
  :: StableHlo.nullary main_c_146 (constantI S_ 32 131040#32)
  :: StableHlo.unary main_c_146 main_v615 (broadcastInDim S2048 ![] bcast_S_S2048 : (⟨S_, .i32⟩ : BufTy).Contents (Elt F) → (⟨S2048, .i32⟩ : BufTy).Contents (Elt F))
  :: StableHlo.binary main_v518 main_v615 main_v616 (addi : (⟨S2048, .i32⟩ : BufTy).Contents (Elt F) → (⟨S2048, .i32⟩ : BufTy).Contents (Elt F) → (⟨S2048, .i32⟩ : BufTy).Contents (Elt F))
  :: StableHlo.ternary main_v614 main_v616 main_v518 main_v617 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v617 main_v618 (broadcastInDim S2048x1 ![0] bcast_S2048_S2048x1_0 : (⟨S2048, .i32⟩ : BufTy).Contents (Elt F) → (⟨S2048x1, .i32⟩ : BufTy).Contents (Elt F))
  :: StableHlo.ternary main_v509 main_v618 main_v597 main_v619 ((fun x i u => Host.scatter scatter_S131040x256_S2048x1_S2048x256_1_0_0_1 (fun _ b => b) x i u) : (⟨S131040x256, .f32⟩ : BufTy).Contents (Elt F) → (⟨S2048x1, .i32⟩ : BufTy).Contents (Elt F) → (⟨S2048x256, .f32⟩ : BufTy).Contents (Elt F) → (⟨S131040x256, .f32⟩ : BufTy).Contents (Elt F))
  :: StableHlo.unary main_v16 main_v620 (broadcastInDim S32x1 ![0] bcast_S32_S32x1_0 : (⟨S32, .i32⟩ : BufTy).Contents (Elt F) → (⟨S32x1, .i32⟩ : BufTy).Contents (Elt F))
  :: StableHlo.nullary main_c_147 (constantI S_ 32 31#32)
  :: StableHlo.unary main_c_147 main_v621 (broadcastInDim S32x1 ![] bcast_S_S32x1 : (⟨S_, .i32⟩ : BufTy).Contents (Elt F) → (⟨S32x1, .i32⟩ : BufTy).Contents (Elt F))
  :: StableHlo.binary main_v620 main_v621 main_v622 (addi : (⟨S32x1, .i32⟩ : BufTy).Contents (Elt F) → (⟨S32x1, .i32⟩ : BufTy).Contents (Elt F) → (⟨S32x1, .i32⟩ : BufTy).Contents (Elt F))
  :: StableHlo.nullary main_v623 (iotaInDim S32 32 0)
  :: StableHlo.unary main_v623 main_v624 (broadcastInDim S1x32 ![1] bcast_S32_S1x32_1 : (⟨S32, .i32⟩ : BufTy).Contents (Elt F) → (⟨S1x32, .i32⟩ : BufTy).Contents (Elt F))
  :: StableHlo.unary main_v622 main_v625 (broadcastInDim S32x32 ![0, 1] bcast_S32x1_S32x32_0_1 : (⟨S32x1, .i32⟩ : BufTy).Contents (Elt F) → (⟨S32x32, .i32⟩ : BufTy).Contents (Elt F))
  :: StableHlo.unary main_v624 main_v626 (broadcastInDim S32x32 ![0, 1] bcast_S1x32_S32x32_0_1 : (⟨S1x32, .i32⟩ : BufTy).Contents (Elt F) → (⟨S32x32, .i32⟩ : BufTy).Contents (Elt F))
  :: StableHlo.binary main_v625 main_v626 main_v627 (addi : (⟨S32x32, .i32⟩ : BufTy).Contents (Elt F) → (⟨S32x32, .i32⟩ : BufTy).Contents (Elt F) → (⟨S32x32, .i32⟩ : BufTy).Contents (Elt F))
  :: StableHlo.reshape main_v627 main_v628 rfl shapeCasts_S32x32_S1024
  :: StableHlo.nullary main_c_148 (constantI S_ 32 0#32)
  :: [] )
/-- Each touches TensorCore references only (`HostSeg.ofOps` over `StableHlo.tcRefs`, or a subset by `sub_ucRefs`). -/
theorem main_part12_ops0_sub : (main_part12_ops0 : List (HloOp τ sig (Elt F))).Forall fun op => op.bufs ⊆ StableHlo.tcRefs τ sig :=
  ⟨StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub ..⟩
/-- Window 12 of `main` (`main_part12`, statements 721 … 780) is the chain of ITS items ending in the last
    (`Pipeline.chainK`: no closing `pure`, the window's last statement being in tail position), by `chain_rfl`. -/
theorem main_part12_chain (c : Dev nD) : main_part12 (F := F) c = (Pipeline.chainK
  [  ]
  (StableHlo.seq main_part12_ops0) : Prog (TpuEff nD τ sig (Elt F) (Pipeline.Sig Λ₀ (Fin 0) fun p => (pcfgs (F := F) p).Adm) .tc) PUnit) := by
  chain_rfl

/-- 46 host operations of @main, window 13 (statements 781 … 840), in order. -/
abbrev main_part13_ops0 : List (HloOp τ sig (Elt F)) :=
  ( StableHlo.unary main_c_148 main_v629 (broadcastInDim S1024 ![] bcast_S_S1024 : (⟨S_, .i32⟩ : BufTy).Contents (Elt F) → (⟨S1024, .i32⟩ : BufTy).Contents (Elt F))
  :: StableHlo.binary main_v628 main_v629 main_v630 (cmpi .slt : (⟨S1024, .i32⟩ : BufTy).Contents (Elt F) → (⟨S1024, .i32⟩ : BufTy).Contents (Elt F) → (⟨S1024, .i1⟩ : BufTy).Contents (Elt F))
  :: StableHlo.nullary main_c_149 (constantI S_ 32 131040#32)
  :: StableHlo.unary main_c_149 main_v631 (broadcastInDim S1024 ![] bcast_S_S1024 : (⟨S_, .i32⟩ : BufTy).Contents (Elt F) → (⟨S1024, .i32⟩ : BufTy).Contents (Elt F))
  :: StableHlo.binary main_v628 main_v631 main_v632 (addi : (⟨S1024, .i32⟩ : BufTy).Contents (Elt F) → (⟨S1024, .i32⟩ : BufTy).Contents (Elt F) → (⟨S1024, .i32⟩ : BufTy).Contents (Elt F))
  :: StableHlo.ternary main_v630 main_v632 main_v628 main_v633 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v633 main_v634 (broadcastInDim S1024x1 ![0] bcast_S1024_S1024x1_0 : (⟨S1024, .i32⟩ : BufTy).Contents (Elt F) → (⟨S1024x1, .i32⟩ : BufTy).Contents (Elt F))
  :: StableHlo.binary main_v11 main_v634 main_v635 ((fun x i => Host.gather gather_S131040x768_S1024x1_S1024x768_1_0_n_n_0_1_1768 x i) : (⟨S131040x768, .f32⟩ : BufTy).Contents (Elt F) → (⟨S1024x1, .i32⟩ : BufTy).Contents (Elt F) → (⟨S1024x768, .f32⟩ : BufTy).Contents (Elt F))
  :: StableHlo.unary main_v16 main_v636 (broadcastInDim S32x1 ![0] bcast_S32_S32x1_0 : (⟨S32, .i32⟩ : BufTy).Contents (Elt F) → (⟨S32x1, .i32⟩ : BufTy).Contents (Elt F))
  :: StableHlo.nullary main_c_150 (constantI S_ 32 63#32)
  :: StableHlo.unary main_c_150 main_v637 (broadcastInDim S32x1 ![] bcast_S_S32x1 : (⟨S_, .i32⟩ : BufTy).Contents (Elt F) → (⟨S32x1, .i32⟩ : BufTy).Contents (Elt F))
  :: StableHlo.binary main_v636 main_v637 main_v638 (addi : (⟨S32x1, .i32⟩ : BufTy).Contents (Elt F) → (⟨S32x1, .i32⟩ : BufTy).Contents (Elt F) → (⟨S32x1, .i32⟩ : BufTy).Contents (Elt F))
  :: StableHlo.nullary main_v639 (iotaInDim S64 32 0)
  :: StableHlo.unary main_v639 main_v640 (broadcastInDim S1x64 ![1] bcast_S64_S1x64_1 : (⟨S64, .i32⟩ : BufTy).Contents (Elt F) → (⟨S1x64, .i32⟩ : BufTy).Contents (Elt F))
  :: StableHlo.unary main_v638 main_v641 (broadcastInDim S32x64 ![0, 1] bcast_S32x1_S32x64_0_1 : (⟨S32x1, .i32⟩ : BufTy).Contents (Elt F) → (⟨S32x64, .i32⟩ : BufTy).Contents (Elt F))
  :: StableHlo.unary main_v640 main_v642 (broadcastInDim S32x64 ![0, 1] bcast_S1x64_S32x64_0_1 : (⟨S1x64, .i32⟩ : BufTy).Contents (Elt F) → (⟨S32x64, .i32⟩ : BufTy).Contents (Elt F))
  :: StableHlo.binary main_v641 main_v642 main_v643 (addi : (⟨S32x64, .i32⟩ : BufTy).Contents (Elt F) → (⟨S32x64, .i32⟩ : BufTy).Contents (Elt F) → (⟨S32x64, .i32⟩ : BufTy).Contents (Elt F))
  :: StableHlo.reshape main_v643 main_v644 rfl shapeCasts_S32x64_S2048
  :: StableHlo.nullary main_c_151 (constantI S_ 32 0#32)
  :: StableHlo.unary main_c_151 main_v645 (broadcastInDim S2048 ![] bcast_S_S2048 : (⟨S_, .i32⟩ : BufTy).Contents (Elt F) → (⟨S2048, .i32⟩ : BufTy).Contents (Elt F))
  :: StableHlo.binary main_v644 main_v645 main_v646 (cmpi .slt : (⟨S2048, .i32⟩ : BufTy).Contents (Elt F) → (⟨S2048, .i32⟩ : BufTy).Contents (Elt F) → (⟨S2048, .i1⟩ : BufTy).Contents (Elt F))
  :: StableHlo.nullary main_c_152 (constantI S_ 32 131040#32)
  :: StableHlo.unary main_c_152 main_v647 (broadcastInDim S2048 ![] bcast_S_S2048 : (⟨S_, .i32⟩ : BufTy).Contents (Elt F) → (⟨S2048, .i32⟩ : BufTy).Contents (Elt F))
  :: StableHlo.binary main_v644 main_v647 main_v648 (addi : (⟨S2048, .i32⟩ : BufTy).Contents (Elt F) → (⟨S2048, .i32⟩ : BufTy).Contents (Elt F) → (⟨S2048, .i32⟩ : BufTy).Contents (Elt F))
  :: StableHlo.ternary main_v646 main_v648 main_v644 main_v649 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v649 main_v650 (broadcastInDim S2048x1 ![0] bcast_S2048_S2048x1_0 : (⟨S2048, .i32⟩ : BufTy).Contents (Elt F) → (⟨S2048x1, .i32⟩ : BufTy).Contents (Elt F))
  :: StableHlo.binary main_v612 main_v650 main_v651 ((fun x i => Host.gather gather_S131040x256_S2048x1_S2048x256_1_0_n_n_0_1_1256 x i) : (⟨S131040x256, .f32⟩ : BufTy).Contents (Elt F) → (⟨S2048x1, .i32⟩ : BufTy).Contents (Elt F) → (⟨S2048x256, .f32⟩ : BufTy).Contents (Elt F))
  :: StableHlo.nullary main_c_153 (constantI S_ 32 0#32)
  :: StableHlo.unary main_c_153 main_v652 (broadcastInDim S2048 ![] bcast_S_S2048 : (⟨S_, .i32⟩ : BufTy).Contents (Elt F) → (⟨S2048, .i32⟩ : BufTy).Contents (Elt F))
  :: StableHlo.binary main_v644 main_v652 main_v653 (cmpi .slt : (⟨S2048, .i32⟩ : BufTy).Contents (Elt F) → (⟨S2048, .i32⟩ : BufTy).Contents (Elt F) → (⟨S2048, .i1⟩ : BufTy).Contents (Elt F))
  :: StableHlo.nullary main_c_154 (constantI S_ 32 131040#32)
  :: StableHlo.unary main_c_154 main_v654 (broadcastInDim S2048 ![] bcast_S_S2048 : (⟨S_, .i32⟩ : BufTy).Contents (Elt F) → (⟨S2048, .i32⟩ : BufTy).Contents (Elt F))
  :: StableHlo.binary main_v644 main_v654 main_v655 (addi : (⟨S2048, .i32⟩ : BufTy).Contents (Elt F) → (⟨S2048, .i32⟩ : BufTy).Contents (Elt F) → (⟨S2048, .i32⟩ : BufTy).Contents (Elt F))
  :: StableHlo.ternary main_v653 main_v655 main_v644 main_v656 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v656 main_v657 (broadcastInDim S2048x1 ![0] bcast_S2048_S2048x1_0 : (⟨S2048, .i32⟩ : BufTy).Contents (Elt F) → (⟨S2048x1, .i32⟩ : BufTy).Contents (Elt F))
  :: StableHlo.binary main_v619 main_v657 main_v658 ((fun x i => Host.gather gather_S131040x256_S2048x1_S2048x256_1_0_n_n_0_1_1256 x i) : (⟨S131040x256, .f32⟩ : BufTy).Contents (Elt F) → (⟨S2048x1, .i32⟩ : BufTy).Contents (Elt F) → (⟨S2048x256, .f32⟩ : BufTy).Contents (Elt F))
  :: StableHlo.nullary main_c_155 (constantI S_ 32 0#32)
  :: StableHlo.unary main_c_155 main_v659 (broadcastInDim S2048 ![] bcast_S_S2048 : (⟨S_, .i32⟩ : BufTy).Contents (Elt F) → (⟨S2048, .i32⟩ : BufTy).Contents (Elt F))
  :: StableHlo.binary main_v644 main_v659 main_v660 (cmpi .slt : (⟨S2048, .i32⟩ : BufTy).Contents (Elt F) → (⟨S2048, .i32⟩ : BufTy).Contents (Elt F) → (⟨S2048, .i1⟩ : BufTy).Contents (Elt F))
  :: StableHlo.nullary main_c_156 (constantI S_ 32 131040#32)
  :: StableHlo.unary main_c_156 main_v661 (broadcastInDim S2048 ![] bcast_S_S2048 : (⟨S_, .i32⟩ : BufTy).Contents (Elt F) → (⟨S2048, .i32⟩ : BufTy).Contents (Elt F))
  :: StableHlo.binary main_v644 main_v661 main_v662 (addi : (⟨S2048, .i32⟩ : BufTy).Contents (Elt F) → (⟨S2048, .i32⟩ : BufTy).Contents (Elt F) → (⟨S2048, .i32⟩ : BufTy).Contents (Elt F))
  :: StableHlo.ternary main_v660 main_v662 main_v644 main_v663 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F))
  :: StableHlo.unary main_v663 main_v664 (broadcastInDim S2048x1 ![0] bcast_S2048_S2048x1_0 : (⟨S2048, .i32⟩ : BufTy).Contents (Elt F) → (⟨S2048x1, .i32⟩ : BufTy).Contents (Elt F))
  :: StableHlo.binary main_arg1 main_v664 main_v665 ((fun x i => Host.gather gather_S131040_S2048x1_S2048_n_0_n_n_0_1_1 x i) : (⟨S131040, .i32⟩ : BufTy).Contents (Elt F) → (⟨S2048x1, .i32⟩ : BufTy).Contents (Elt F) → (⟨S2048, .i32⟩ : BufTy).Contents (Elt F))
  :: StableHlo.nullary main_c_157 (constantI S_ 32 4095#32)
  :: [] )
/-- Each touches TensorCore references only (`HostSeg.ofOps` over `StableHlo.tcRefs`, or a subset by `sub_ucRefs`). -/
theorem main_part13_ops0_sub : (main_part13_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_13 (main_call10), window 13 (statements 781 … 840), in order. -/
abbrev main_part13_ops1 : List (HloOp τ sig (Elt F)) :=
  [ StableHlo.TRef.unary (.of main_c_157 : StableHlo.TRef sig ⟨S_, .i32⟩) (.of main_call10_v0 : StableHlo.TRef sig ⟨S_, .i32⟩) id,
    StableHlo.TRef.unary (.of main_call10_v0 : StableHlo.TRef sig ⟨S_, .i32⟩) (.of main_call10_v1 : StableHlo.TRef sig ⟨S2048, .i32⟩) (broadcastInDim S2048 ![] bcast_S_S2048),
    StableHlo.TRef.binary (.of main_v665 : StableHlo.TRef sig ⟨S2048, .i32⟩) (.of main_call10_v1 : StableHlo.TRef sig ⟨S2048, .i32⟩) (.of main_call10_v2 : StableHlo.TRef sig ⟨S2048, .i32⟩) Host.divsi,
    StableHlo.TRef.unary (.of main_v665 : StableHlo.TRef sig ⟨S2048, .i32⟩) (.of main_call10_v3 : StableHlo.TRef sig ⟨S2048, .i32⟩) signi,
    StableHlo.TRef.unary (.of main_call10_v0 : StableHlo.TRef sig ⟨S_, .i32⟩) (.of main_call10_v4 : StableHlo.TRef sig ⟨S_, .i32⟩) signi,
    StableHlo.TRef.unary (.of main_call10_v4 : StableHlo.TRef sig ⟨S_, .i32⟩) (.of main_call10_v5 : StableHlo.TRef sig ⟨S2048, .i32⟩) (broadcastInDim S2048 ![] bcast_S_S2048),
    StableHlo.TRef.binary (.of main_call10_v3 : StableHlo.TRef sig ⟨S2048, .i32⟩) (.of main_call10_v5 : StableHlo.TRef sig ⟨S2048, .i32⟩) (.of main_call10_v6 : StableHlo.TRef sig ⟨S2048, .i1⟩) (cmpi .ne),
    StableHlo.TRef.unary (.of main_call10_v0 : StableHlo.TRef sig ⟨S_, .i32⟩) (.of main_call10_v7 : StableHlo.TRef sig ⟨S2048, .i32⟩) (broadcastInDim S2048 ![] bcast_S_S2048),
    StableHlo.TRef.binary (.of main_v665 : StableHlo.TRef sig ⟨S2048, .i32⟩) (.of main_call10_v7 : StableHlo.TRef sig ⟨S2048, .i32⟩) (.of main_call10_v8 : StableHlo.TRef sig ⟨S2048, .i32⟩) Host.remsi,
    StableHlo.TRef.nullary (.of main_call10_c : StableHlo.TRef sig ⟨S_, .i32⟩) (constantI S_ 32 0#32),
    StableHlo.TRef.unary (.of main_call10_c : StableHlo.TRef sig ⟨S_, .i32⟩) (.of main_call10_v9 : StableHlo.TRef sig ⟨S2048, .i32⟩) (broadcastInDim S2048 ![] bcast_S_S2048),
    StableHlo.TRef.binary (.of main_call10_v8 : StableHlo.TRef sig ⟨S2048, .i32⟩) (.of main_call10_v9 : StableHlo.TRef sig ⟨S2048, .i32⟩) (.of main_call10_v10 : StableHlo.TRef sig ⟨S2048, .i1⟩) (cmpi .ne),
    StableHlo.TRef.binary (.of main_call10_v6 : StableHlo.TRef sig ⟨S2048, .i1⟩) (.of main_call10_v10 : StableHlo.TRef sig ⟨S2048, .i1⟩) (.of main_call10_v11 : StableHlo.TRef sig ⟨S2048, .i1⟩) andi,
    StableHlo.TRef.nullary (.of main_call10_c_0 : StableHlo.TRef sig ⟨S_, .i32⟩) (constantI S_ 32 1#32),
    StableHlo.TRef.unary (.of main_call10_c_0 : StableHlo.TRef sig ⟨S_, .i32⟩) (.of main_call10_v12 : StableHlo.TRef sig ⟨S2048, .i32⟩) (broadcastInDim S2048 ![] bcast_S_S2048),
    StableHlo.TRef.binary (.of main_call10_v2 : StableHlo.TRef sig ⟨S2048, .i32⟩) (.of main_call10_v12 : StableHlo.TRef sig ⟨S2048, .i32⟩) (.of main_call10_v13 : StableHlo.TRef sig ⟨S2048, .i32⟩) subi,
    StableHlo.TRef.ternary (.of main_call10_v11 : StableHlo.TRef sig ⟨S2048, .i1⟩) (.of main_call10_v13 : StableHlo.TRef sig ⟨S2048, .i32⟩) (.of main_call10_v2 : StableHlo.TRef sig ⟨S2048, .i32⟩) (.of main_v666 : StableHlo.TRef sig ⟨S2048, .i32⟩) select ]
/-- Each touches TensorCore references only (`HostSeg.ofOps` over `StableHlo.tcRefs`, or a subset by `sub_ucRefs`). -/
theorem main_part13_ops1_sub : (main_part13_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 13 (statements 781 … 840), in order. -/
abbrev main_part13_ops2 : List (HloOp τ sig (Elt F)) :=
  [ StableHlo.nullary main_c_158 (constantI S_ 32 32#32),
    StableHlo.unary main_c_158 main_v667 (broadcastInDim S2048 ![] bcast_S_S2048 : (⟨S_, .i32⟩ : BufTy).Contents (Elt F) → (⟨S2048, .i32⟩ : BufTy).Contents (Elt F)),
    StableHlo.binary main_v666 main_v667 main_v668 (muli : (⟨S2048, .i32⟩ : BufTy).Contents (Elt F) → (⟨S2048, .i32⟩ : BufTy).Contents (Elt F) → (⟨S2048, .i32⟩ : BufTy).Contents (Elt F)),
    StableHlo.nullary main_c_159 (constantI S_ 32 4095#32) ]
/-- Each touches TensorCore references only (`HostSeg.ofOps` over `StableHlo.tcRefs`, or a subset by `sub_ucRefs`). -/
theorem main_part13_ops2_sub : (main_part13_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_15 (main_call11), window 13 (statements 781 … 840), in order. -/
abbrev main_part13_ops3 : List (HloOp τ sig (Elt F)) :=
  [ StableHlo.TRef.unary (.of main_c_159 : StableHlo.TRef sig ⟨S_, .i32⟩) (.of main_call11_v0 : StableHlo.TRef sig ⟨S_, .i32⟩) id,
    StableHlo.TRef.nullary (.of main_call11_c : StableHlo.TRef sig ⟨S_, .i32⟩) (constantI S_ 32 0#32),
    StableHlo.TRef.binary (.of main_call11_v0 : StableHlo.TRef sig ⟨S_, .i32⟩) (.of main_call11_c : StableHlo.TRef sig ⟨S_, .i32⟩) (.of main_call11_v1 : StableHlo.TRef sig ⟨S_, .i1⟩) (cmpi .eq),
    StableHlo.TRef.nullary (.of main_call11_c_0 : StableHlo.TRef sig ⟨S_, .i32⟩) (constantI S_ 32 1#32),
    StableHlo.TRef.ternary (.of main_call11_v1 : StableHlo.TRef sig ⟨S_, .i1⟩) (.of main_call11_c_0 : StableHlo.TRef sig ⟨S_, .i32⟩) (.of main_call11_v0 : StableHlo.TRef sig ⟨S_, .i32⟩) (.of main_call11_v2 : StableHlo.TRef sig ⟨S_, .i32⟩) select,
    StableHlo.TRef.unary main_call11_call0.v0 (.of main_call11_v3 : StableHlo.TRef sig ⟨S2048, .i32⟩) (broadcastInDim S2048 ![] bcast_S_S2048),
    StableHlo.TRef.binary (.of main_v665 : StableHlo.TRef sig ⟨S2048, .i32⟩) (.of main_call11_v3 : StableHlo.TRef sig ⟨S2048, .i32⟩) (.of main_call11_v4 : StableHlo.TRef sig ⟨S2048, .i32⟩) Host.remsi,
    StableHlo.TRef.nullary (.of main_call11_c_1 : StableHlo.TRef sig ⟨S_, .i32⟩) (constantI S_ 32 0#32),
    StableHlo.TRef.unary (.of main_call11_c_1 : StableHlo.TRef sig ⟨S_, .i32⟩) (.of main_call11_v5 : StableHlo.TRef sig ⟨S2048, .i32⟩) (broadcastInDim S2048 ![] bcast_S_S2048),
    StableHlo.TRef.binary (.of main_call11_v4 : StableHlo.TRef sig ⟨S2048, .i32⟩) (.of main_call11_v5 : StableHlo.TRef sig ⟨S2048, .i32⟩) (.of main_call11_v6 : StableHlo.TRef sig ⟨S2048, .i1⟩) (cmpi .ne),
    StableHlo.TRef.nullary (.of main_call11_c_2 : StableHlo.TRef sig ⟨S_, .i32⟩) (constantI S_ 32 0#32),
    StableHlo.TRef.unary (.of main_call11_c_2 : StableHlo.TRef sig ⟨S_, .i32⟩) (.of main_call11_v7 : StableHlo.TRef sig ⟨S2048, .i32⟩) (broadcastInDim S2048 ![] bcast_S_S2048),
    StableHlo.TRef.binary (.of main_call11_v4 : StableHlo.TRef sig ⟨S2048, .i32⟩) (.of main_call11_v7 : StableHlo.TRef sig ⟨S2048, .i32⟩) (.of main_call11_v8 : StableHlo.TRef sig ⟨S2048, .i1⟩) (cmpi .slt),
    StableHlo.TRef.nullary (.of main_call11_c_3 : StableHlo.TRef sig ⟨S_, .i32⟩) (constantI S_ 32 0#32),
    StableHlo.TRef.binary main_call11_call0.v0 (.of main_call11_c_3 : StableHlo.TRef sig ⟨S_, .i32⟩) (.of main_call11_v9 : StableHlo.TRef sig ⟨S_, .i1⟩) (cmpi .slt),
    StableHlo.TRef.unary (.of main_call11_v9 : StableHlo.TRef sig ⟨S_, .i1⟩) (.of main_call11_v10 : StableHlo.TRef sig ⟨S2048, .i1⟩) (broadcastInDim S2048 ![] bcast_S_S2048),
    StableHlo.TRef.binary (.of main_call11_v8 : StableHlo.TRef sig ⟨S2048, .i1⟩) (.of main_call11_v10 : StableHlo.TRef sig ⟨S2048, .i1⟩) (.of main_call11_v11 : StableHlo.TRef sig ⟨S2048, .i1⟩) (cmpi .ne),
    StableHlo.TRef.binary (.of main_call11_v11 : StableHlo.TRef sig ⟨S2048, .i1⟩) (.of main_call11_v6 : StableHlo.TRef sig ⟨S2048, .i1⟩) (.of main_call11_v12 : StableHlo.TRef sig ⟨S2048, .i1⟩) andi,
    StableHlo.TRef.unary main_call11_call0.v0 (.of main_call11_v13 : StableHlo.TRef sig ⟨S2048, .i32⟩) (broadcastInDim S2048 ![] bcast_S_S2048),
    StableHlo.TRef.binary (.of main_call11_v4 : StableHlo.TRef sig ⟨S2048, .i32⟩) (.of main_call11_v13 : StableHlo.TRef sig ⟨S2048, .i32⟩) (.of main_call11_v14 : StableHlo.TRef sig ⟨S2048, .i32⟩) addi,
    StableHlo.TRef.ternary (.of main_call11_v12 : StableHlo.TRef sig ⟨S2048, .i1⟩) (.of main_call11_v14 : StableHlo.TRef sig ⟨S2048, .i32⟩) (.of main_call11_v4 : StableHlo.TRef sig ⟨S2048, .i32⟩) (.of main_v669 : StableHlo.TRef sig ⟨S2048, .i32⟩) select ]
/-- Each touches TensorCore references only (`HostSeg.ofOps` over `StableHlo.tcRefs`, or a subset by `sub_ucRefs`). -/
theorem main_part13_ops3_sub : (main_part13_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 8 host operations of @main, window 13 (statements 781 … 840), in order. -/
abbrev main_part13_ops4 : List (HloOp τ sig (Elt F)) :=
  [ StableHlo.nullary main_c_160 (constantI S_ 32 31#32),
    StableHlo.unary main_c_160 main_v670 (broadcastInDim S2048 ![] bcast_S_S2048 : (⟨S_, .i32⟩ : BufTy).Contents (Elt F) → (⟨S2048, .i32⟩ : BufTy).Contents (Elt F)),
    StableHlo.binary main_v669 main_v670 main_v671 (subi : (⟨S2048, .i32⟩ : BufTy).Contents (Elt F) → (⟨S2048, .i32⟩ : BufTy).Contents (Elt F) → (⟨S2048, .i32⟩ : BufTy).Contents (Elt F)),
    StableHlo.binary main_v668 main_v671 main_v672 (addi : (⟨S2048, .i32⟩ : BufTy).Contents (Elt F) → (⟨S2048, .i32⟩ : BufTy).Contents (Elt F) → (⟨S2048, .i32⟩ : BufTy).Contents (Elt F)),
    StableHlo.unary main_arg6 main_v673 ((transpose S256x256 [1, 0] · transposes_S256x256_S256x256_1_0) : (⟨S256x256, .f32⟩ : BufTy).Contents (Elt F) → (⟨S256x256, .f32⟩ : BufTy).Contents (Elt F)),
    StableHlo.binary main_v651 main_v673 main_v674 ((fun l r => Host.dotGeneral dot_S2048x256_S256x256_S2048x256_1_0_0_1_n_n none l r) : (⟨S2048x256, .f32⟩ : BufTy).Contents (Elt F) → (⟨S256x256, .f32⟩ : BufTy).Contents (Elt F) → (⟨S2048x256, .f32⟩ : BufTy).Contents (Elt F)),
    StableHlo.unary main_arg7 main_v675 (broadcastInDim S1x256 ![1] bcast_S256_S1x256_1 : (⟨S256, .f32⟩ : BufTy).Contents (Elt F) → (⟨S1x256, .f32⟩ : BufTy).Contents (Elt F)),
    StableHlo.unary main_v675 main_v676 (broadcastInDim S2048x256 ![0, 1] bcast_S1x256_S2048x256_0_1 : (⟨S1x256, .f32⟩ : BufTy).Contents (Elt F) → (⟨S2048x256, .f32⟩ : BufTy).Contents (Elt F)) ]
/-- Each touches TensorCore references only (`HostSeg.ofOps` over `StableHlo.tcRefs`, or a subset by `sub_ucRefs`). -/
theorem main_part13_ops4_sub : (main_part13_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub ..⟩
/-- Window 13 of `main` (`main_part13`, statements 781 … 840) is the chain of ITS items ending in the last
    (`Pipeline.chainK`: no closing `pure`, the window's last statement being in tail position), by `chain_rfl`. -/
theorem main_part13_chain (c : Dev nD) : main_part13 (F := F) c = (Pipeline.chainK
  [ StableHlo.seq main_part13_ops0,
    StableHlo.seq main_part13_ops1,
    StableHlo.seq main_part13_ops2,
    StableHlo.seq main_part13_ops3 ]
  (StableHlo.seq main_part13_ops4) : Prog (TpuEff nD τ sig (Elt F) (Pipeline.Sig Λ₀ (Fin 0) fun p => (pcfgs (F := F) p).Adm) .tc) PUnit) := by
  chain_rfl

end Cert.ReferenceIdeal.Gen

end
-- ==== Proof.RefOpsW2.lean ====
/- The reference program's entry function as lists of host operations: some of its windows, each the chain of its pieces. -/
import proofs.«419362_j66683662237734_3_alg».proof.Proof.Gen.ReferenceIdeal
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- 60 host operations of @main, window 14 (statements 841 … 900), in order. -/
abbrev main_part14_ops0 : List (HloOp τ sig (Elt F)) :=
  ( StableHlo.binary main_v674 main_v676 main_v677 (addf : (⟨S2048x256, .f32⟩ : BufTy).Contents (Elt F) → (⟨S2048x256, .f32⟩ : BufTy).Contents (Elt F) → (⟨S2048x256, .f32⟩ : BufTy).Contents (Elt F))
  :: StableHlo.unary main_v677 main_v678 (Host.negf : (⟨S2048x256, .f32⟩ : BufTy).Contents (Elt F) → (⟨S2048x256, .f32⟩ : BufTy).Contents (Elt F))
  :: StableHlo.unary main_v678 main_v679 (Host.exp : (⟨S2048x256, .f32⟩ : BufTy).Contents (Elt F) → (⟨S2048x256, .f32⟩ : BufTy).Contents (Elt F))
  :: StableHlo.nullary main_cst_161 (constant S_ .f32 0x3F800000#32)
  :: StableHlo.unary main_cst_161 main_v680 (broadcastInDim S2048x256 ![] bcast_S_S2048x256 : (⟨S_, .f32⟩ : BufTy).Contents (Elt F) → (⟨S2048x256, .f32⟩ : BufTy).Contents (Elt F))
  :: StableHlo.binary main_v680 main_v679 main_v681 (addf : (⟨S2048x256, .f32⟩ : BufTy).Contents (Elt F) → (⟨S2048x256, .f32⟩ : BufTy).Contents (Elt F) → (⟨S2048x256, .f32⟩ : BufTy).Contents (Elt F))
  :: StableHlo.nullary main_cst_162 (constant S_ .f32 0x3F800000#32)
  :: StableHlo.unary main_cst_162 main_v682 (broadcastInDim S2048x256 ![] bcast_S_S2048x256 : (⟨S_, .f32⟩ : BufTy).Contents (Elt F) → (⟨S2048x256, .f32⟩ : BufTy).Contents (Elt F))
  :: StableHlo.binary main_v682 main_v681 main_v683 (Host.divf : (⟨S2048x256, .f32⟩ : BufTy).Contents (Elt F) → (⟨S2048x256, .f32⟩ : BufTy).Contents (Elt F) → (⟨S2048x256, .f32⟩ : BufTy).Contents (Elt F))
  :: StableHlo.nullary main_cst_163 (constant S_ .f32 0x00000000#32)
  :: StableHlo.unary main_cst_163 main_v684 (broadcastInDim S1024x256 ![] bcast_S_S1024x256 : (⟨S_, .f32⟩ : BufTy).Contents (Elt F) → (⟨S1024x256, .f32⟩ : BufTy).Contents (Elt F))
  :: StableHlo.unary main_v672 main_v685 (broadcastInDim S2048x1 ![0] bcast_S2048_S2048x1_0 : (⟨S2048, .i32⟩ : BufTy).Contents (Elt F) → (⟨S2048x1, .i32⟩ : BufTy).Contents (Elt F))
  :: StableHlo.ternary main_v684 main_v685 main_v651 main_v686 ((fun x i u => Host.scatterAdd scatter_S1024x256_S2048x1_S2048x256_1_0_0_1 x i u) : (⟨S1024x256, .f32⟩ : BufTy).Contents (Elt F) → (⟨S2048x1, .i32⟩ : BufTy).Contents (Elt F) → (⟨S2048x256, .f32⟩ : BufTy).Contents (Elt F) → (⟨S1024x256, .f32⟩ : BufTy).Contents (Elt F))
  :: StableHlo.binary main_v683 main_v658 main_v687 (mulf : (⟨S2048x256, .f32⟩ : BufTy).Contents (Elt F) → (⟨S2048x256, .f32⟩ : BufTy).Contents (Elt F) → (⟨S2048x256, .f32⟩ : BufTy).Contents (Elt F))
  :: StableHlo.nullary main_cst_164 (constant S_ .f32 0x00000000#32)
  :: StableHlo.unary main_cst_164 main_v688 (broadcastInDim S1024x256 ![] bcast_S_S1024x256 : (⟨S_, .f32⟩ : BufTy).Contents (Elt F) → (⟨S1024x256, .f32⟩ : BufTy).Contents (Elt F))
  :: StableHlo.unary main_v672 main_v689 (broadcastInDim S2048x1 ![0] bcast_S2048_S2048x1_0 : (⟨S2048, .i32⟩ : BufTy).Contents (Elt F) → (⟨S2048x1, .i32⟩ : BufTy).Contents (Elt F))
  :: StableHlo.ternary main_v688 main_v689 main_v687 main_v690 ((fun x i u => Host.scatterAdd scatter_S1024x256_S2048x1_S2048x256_1_0_0_1 x i u) : (⟨S1024x256, .f32⟩ : BufTy).Contents (Elt F) → (⟨S2048x1, .i32⟩ : BufTy).Contents (Elt F) → (⟨S2048x256, .f32⟩ : BufTy).Contents (Elt F) → (⟨S1024x256, .f32⟩ : BufTy).Contents (Elt F))
  :: StableHlo.unary main_arg4 main_v691 ((transpose S256x768 [1, 0] · transposes_S768x256_S256x768_1_0) : (⟨S768x256, .f32⟩ : BufTy).Contents (Elt F) → (⟨S256x768, .f32⟩ : BufTy).Contents (Elt F))
  :: StableHlo.binary main_v686 main_v691 main_v692 ((fun l r => Host.dotGeneral dot_S1024x256_S256x768_S1024x768_1_0_0_1_n_n none l r) : (⟨S1024x256, .f32⟩ : BufTy).Contents (Elt F) → (⟨S256x768, .f32⟩ : BufTy).Contents (Elt F) → (⟨S1024x768, .f32⟩ : BufTy).Contents (Elt F))
  :: StableHlo.binary main_v635 main_v692 main_v693 (addf : (⟨S1024x768, .f32⟩ : BufTy).Contents (Elt F) → (⟨S1024x768, .f32⟩ : BufTy).Contents (Elt F) → (⟨S1024x768, .f32⟩ : BufTy).Contents (Elt F))
  :: StableHlo.unary main_arg5 main_v694 (broadcastInDim S1024x768 ![0, 1] bcast_S1x768_S1024x768_0_1 : (⟨S1x768, .f32⟩ : BufTy).Contents (Elt F) → (⟨S1024x768, .f32⟩ : BufTy).Contents (Elt F))
  :: StableHlo.binary main_v693 main_v694 main_v695 (addf : (⟨S1024x768, .f32⟩ : BufTy).Contents (Elt F) → (⟨S1024x768, .f32⟩ : BufTy).Contents (Elt F) → (⟨S1024x768, .f32⟩ : BufTy).Contents (Elt F))
  :: StableHlo.unary main_v695 main_v696 ((extractStridedSlice S1024x256 ![0, 0] · slices_S1024x768_S1024x256_0_0) : (⟨S1024x768, .f32⟩ : BufTy).Contents (Elt F) → (⟨S1024x256, .f32⟩ : BufTy).Contents (Elt F))
  :: StableHlo.unary main_v695 main_v697 ((extractStridedSlice S1024x256 ![0, 256] · slices_S1024x768_S1024x256_0_256) : (⟨S1024x768, .f32⟩ : BufTy).Contents (Elt F) → (⟨S1024x256, .f32⟩ : BufTy).Contents (Elt F))
  :: StableHlo.unary main_v695 main_v698 ((extractStridedSlice S1024x256 ![0, 512] · slices_S1024x768_S1024x256_0_512) : (⟨S1024x768, .f32⟩ : BufTy).Contents (Elt F) → (⟨S1024x256, .f32⟩ : BufTy).Contents (Elt F))
  :: StableHlo.unary main_v696 main_v699 (Host.negf : (⟨S1024x256, .f32⟩ : BufTy).Contents (Elt F) → (⟨S1024x256, .f32⟩ : BufTy).Contents (Elt F))
  :: StableHlo.unary main_v699 main_v700 (Host.exp : (⟨S1024x256, .f32⟩ : BufTy).Contents (Elt F) → (⟨S1024x256, .f32⟩ : BufTy).Contents (Elt F))
  :: StableHlo.nullary main_cst_165 (constant S_ .f32 0x3F800000#32)
  :: StableHlo.unary main_cst_165 main_v701 (broadcastInDim S1024x256 ![] bcast_S_S1024x256 : (⟨S_, .f32⟩ : BufTy).Contents (Elt F) → (⟨S1024x256, .f32⟩ : BufTy).Contents (Elt F))
  :: StableHlo.binary main_v701 main_v700 main_v702 (addf : (⟨S1024x256, .f32⟩ : BufTy).Contents (Elt F) → (⟨S1024x256, .f32⟩ : BufTy).Contents (Elt F) → (⟨S1024x256, .f32⟩ : BufTy).Contents (Elt F))
  :: StableHlo.nullary main_cst_166 (constant S_ .f32 0x3F800000#32)
  :: StableHlo.unary main_cst_166 main_v703 (broadcastInDim S1024x256 ![] bcast_S_S1024x256 : (⟨S_, .f32⟩ : BufTy).Contents (Elt F) → (⟨S1024x256, .f32⟩ : BufTy).Contents (Elt F))
  :: StableHlo.binary main_v703 main_v702 main_v704 (Host.divf : (⟨S1024x256, .f32⟩ : BufTy).Contents (Elt F) → (⟨S1024x256, .f32⟩ : BufTy).Contents (Elt F) → (⟨S1024x256, .f32⟩ : BufTy).Contents (Elt F))
  :: StableHlo.unary main_v698 main_v705 (Host.tanh : (⟨S1024x256, .f32⟩ : BufTy).Contents (Elt F) → (⟨S1024x256, .f32⟩ : BufTy).Contents (Elt F))
  :: StableHlo.binary main_v704 main_v705 main_v706 (mulf : (⟨S1024x256, .f32⟩ : BufTy).Contents (Elt F) → (⟨S1024x256, .f32⟩ : BufTy).Contents (Elt F) → (⟨S1024x256, .f32⟩ : BufTy).Contents (Elt F))
  :: StableHlo.binary main_v706 main_v690 main_v707 (addf : (⟨S1024x256, .f32⟩ : BufTy).Contents (Elt F) → (⟨S1024x256, .f32⟩ : BufTy).Contents (Elt F) → (⟨S1024x256, .f32⟩ : BufTy).Contents (Elt F))
  :: StableHlo.unary main_v697 main_v708 (Host.negf : (⟨S1024x256, .f32⟩ : BufTy).Contents (Elt F) → (⟨S1024x256, .f32⟩ : BufTy).Contents (Elt F))
  :: StableHlo.unary main_v708 main_v709 (Host.exp : (⟨S1024x256, .f32⟩ : BufTy).Contents (Elt F) → (⟨S1024x256, .f32⟩ : BufTy).Contents (Elt F))
  :: StableHlo.nullary main_cst_167 (constant S_ .f32 0x3F800000#32)
  :: StableHlo.unary main_cst_167 main_v710 (broadcastInDim S1024x256 ![] bcast_S_S1024x256 : (⟨S_, .f32⟩ : BufTy).Contents (Elt F) → (⟨S1024x256, .f32⟩ : BufTy).Contents (Elt F))
  :: StableHlo.binary main_v710 main_v709 main_v711 (addf : (⟨S1024x256, .f32⟩ : BufTy).Contents (Elt F) → (⟨S1024x256, .f32⟩ : BufTy).Contents (Elt F) → (⟨S1024x256, .f32⟩ : BufTy).Contents (Elt F))
  :: StableHlo.nullary main_cst_168 (constant S_ .f32 0x3F800000#32)
  :: StableHlo.unary main_cst_168 main_v712 (broadcastInDim S1024x256 ![] bcast_S_S1024x256 : (⟨S_, .f32⟩ : BufTy).Contents (Elt F) → (⟨S1024x256, .f32⟩ : BufTy).Contents (Elt F))
  :: StableHlo.binary main_v712 main_v711 main_v713 (Host.divf : (⟨S1024x256, .f32⟩ : BufTy).Contents (Elt F) → (⟨S1024x256, .f32⟩ : BufTy).Contents (Elt F) → (⟨S1024x256, .f32⟩ : BufTy).Contents (Elt F))
  :: StableHlo.unary main_v707 main_v714 (Host.tanh : (⟨S1024x256, .f32⟩ : BufTy).Contents (Elt F) → (⟨S1024x256, .f32⟩ : BufTy).Contents (Elt F))
  :: StableHlo.binary main_v713 main_v714 main_v715 (mulf : (⟨S1024x256, .f32⟩ : BufTy).Contents (Elt F) → (⟨S1024x256, .f32⟩ : BufTy).Contents (Elt F) → (⟨S1024x256, .f32⟩ : BufTy).Contents (Elt F))
  :: StableHlo.nullary main_c_169 (constantI S_ 32 0#32)
  :: StableHlo.unary main_c_169 main_v716 (broadcastInDim S1024 ![] bcast_S_S1024 : (⟨S_, .i32⟩ : BufTy).Contents (Elt F) → (⟨S1024, .i32⟩ : BufTy).Contents (Elt F))
  :: StableHlo.binary main_v628 main_v716 main_v717 (cmpi .slt : (⟨S1024, .i32⟩ : BufTy).Contents (Elt F) → (⟨S1024, .i32⟩ : BufTy).Contents (Elt F) → (⟨S1024, .i1⟩ : BufTy).Contents (Elt F))
  :: StableHlo.nullary main_c_170 (constantI S_ 32 131040#32)
  :: StableHlo.unary main_c_170 main_v718 (broadcastInDim S1024 ![] bcast_S_S1024 : (⟨S_, .i32⟩ : BufTy).Contents (Elt F) → (⟨S1024, .i32⟩ : BufTy).Contents (Elt F))
  :: StableHlo.binary main_v628 main_v718 main_v719 (addi : (⟨S1024, .i32⟩ : BufTy).Contents (Elt F) → (⟨S1024, .i32⟩ : BufTy).Contents (Elt F) → (⟨S1024, .i32⟩ : BufTy).Contents (Elt F))
  :: StableHlo.ternary main_v717 main_v719 main_v628 main_v720 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v720 main_v721 (broadcastInDim S1024x1 ![0] bcast_S1024_S1024x1_0 : (⟨S1024, .i32⟩ : BufTy).Contents (Elt F) → (⟨S1024x1, .i32⟩ : BufTy).Contents (Elt F))
  :: StableHlo.ternary main_v612 main_v721 main_v715 main_v722 ((fun x i u => Host.scatter scatter_S131040x256_S1024x1_S1024x256_1_0_0_1 (fun _ b => b) x i u) : (⟨S131040x256, .f32⟩ : BufTy).Contents (Elt F) → (⟨S1024x1, .i32⟩ : BufTy).Contents (Elt F) → (⟨S1024x256, .f32⟩ : BufTy).Contents (Elt F) → (⟨S131040x256, .f32⟩ : BufTy).Contents (Elt F))
  :: StableHlo.nullary main_c_171 (constantI S_ 32 0#32)
  :: StableHlo.unary main_c_171 main_v723 (broadcastInDim S1024 ![] bcast_S_S1024 : (⟨S_, .i32⟩ : BufTy).Contents (Elt F) → (⟨S1024, .i32⟩ : BufTy).Contents (Elt F))
  :: StableHlo.binary main_v628 main_v723 main_v724 (cmpi .slt : (⟨S1024, .i32⟩ : BufTy).Contents (Elt F) → (⟨S1024, .i32⟩ : BufTy).Contents (Elt F) → (⟨S1024, .i1⟩ : BufTy).Contents (Elt F))
  :: StableHlo.nullary main_c_172 (constantI S_ 32 131040#32)
  :: [] )
/-- Each touches TensorCore references only (`HostSeg.ofOps` over `StableHlo.tcRefs`, or a subset by `sub_ucRefs`). -/
theorem main_part14_ops0_sub : (main_part14_ops0 : List (HloOp τ sig (Elt F))).Forall fun op => op.bufs ⊆ StableHlo.tcRefs τ sig :=
  ⟨StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub ..⟩
/-- Window 14 of `main` (`main_part14`, statements 841 … 900) is the chain of ITS items ending in the last
    (`Pipeline.chainK`: no closing `pure`, the window's last statement being in tail position), by `chain_rfl`. -/
theorem main_part14_chain (c : Dev nD) : main_part14 (F := F) c = (Pipeline.chainK
  [  ]
  (StableHlo.seq main_part14_ops0) : Prog (TpuEff nD τ sig (Elt F) (Pipeline.Sig Λ₀ (Fin 0) fun p => (pcfgs (F := F) p).Adm) .tc) PUnit) := by
  chain_rfl

/-- 60 host operations of @main, window 15 (statements 901 … 960), in order. -/
abbrev main_part15_ops0 : List (HloOp τ sig (Elt F)) :=
  ( StableHlo.unary main_c_172 main_v725 (broadcastInDim S1024 ![] bcast_S_S1024 : (⟨S_, .i32⟩ : BufTy).Contents (Elt F) → (⟨S1024, .i32⟩ : BufTy).Contents (Elt F))
  :: StableHlo.binary main_v628 main_v725 main_v726 (addi : (⟨S1024, .i32⟩ : BufTy).Contents (Elt F) → (⟨S1024, .i32⟩ : BufTy).Contents (Elt F) → (⟨S1024, .i32⟩ : BufTy).Contents (Elt F))
  :: StableHlo.ternary main_v724 main_v726 main_v628 main_v727 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v727 main_v728 (broadcastInDim S1024x1 ![0] bcast_S1024_S1024x1_0 : (⟨S1024, .i32⟩ : BufTy).Contents (Elt F) → (⟨S1024x1, .i32⟩ : BufTy).Contents (Elt F))
  :: StableHlo.ternary main_v619 main_v728 main_v707 main_v729 ((fun x i u => Host.scatter scatter_S131040x256_S1024x1_S1024x256_1_0_0_1 (fun _ b => b) x i u) : (⟨S131040x256, .f32⟩ : BufTy).Contents (Elt F) → (⟨S1024x1, .i32⟩ : BufTy).Contents (Elt F) → (⟨S1024x256, .f32⟩ : BufTy).Contents (Elt F) → (⟨S131040x256, .f32⟩ : BufTy).Contents (Elt F))
  :: StableHlo.unary main_v16 main_v730 (broadcastInDim S32x1 ![0] bcast_S32_S32x1_0 : (⟨S32, .i32⟩ : BufTy).Contents (Elt F) → (⟨S32x1, .i32⟩ : BufTy).Contents (Elt F))
  :: StableHlo.nullary main_c_173 (constantI S_ 32 15#32)
  :: StableHlo.unary main_c_173 main_v731 (broadcastInDim S32x1 ![] bcast_S_S32x1 : (⟨S_, .i32⟩ : BufTy).Contents (Elt F) → (⟨S32x1, .i32⟩ : BufTy).Contents (Elt F))
  :: StableHlo.binary main_v730 main_v731 main_v732 (addi : (⟨S32x1, .i32⟩ : BufTy).Contents (Elt F) → (⟨S32x1, .i32⟩ : BufTy).Contents (Elt F) → (⟨S32x1, .i32⟩ : BufTy).Contents (Elt F))
  :: StableHlo.nullary main_v733 (iotaInDim S16 32 0)
  :: StableHlo.unary main_v733 main_v734 (broadcastInDim S1x16 ![1] bcast_S16_S1x16_1 : (⟨S16, .i32⟩ : BufTy).Contents (Elt F) → (⟨S1x16, .i32⟩ : BufTy).Contents (Elt F))
  :: StableHlo.unary main_v732 main_v735 (broadcastInDim S32x16 ![0, 1] bcast_S32x1_S32x16_0_1 : (⟨S32x1, .i32⟩ : BufTy).Contents (Elt F) → (⟨S32x16, .i32⟩ : BufTy).Contents (Elt F))
  :: StableHlo.unary main_v734 main_v736 (broadcastInDim S32x16 ![0, 1] bcast_S1x16_S32x16_0_1 : (⟨S1x16, .i32⟩ : BufTy).Contents (Elt F) → (⟨S32x16, .i32⟩ : BufTy).Contents (Elt F))
  :: StableHlo.binary main_v735 main_v736 main_v737 (addi : (⟨S32x16, .i32⟩ : BufTy).Contents (Elt F) → (⟨S32x16, .i32⟩ : BufTy).Contents (Elt F) → (⟨S32x16, .i32⟩ : BufTy).Contents (Elt F))
  :: StableHlo.reshape main_v737 main_v738 rfl shapeCasts_S32x16_S512
  :: StableHlo.nullary main_c_174 (constantI S_ 32 0#32)
  :: StableHlo.unary main_c_174 main_v739 (broadcastInDim S512 ![] bcast_S_S512 : (⟨S_, .i32⟩ : BufTy).Contents (Elt F) → (⟨S512, .i32⟩ : BufTy).Contents (Elt F))
  :: StableHlo.binary main_v738 main_v739 main_v740 (cmpi .slt : (⟨S512, .i32⟩ : BufTy).Contents (Elt F) → (⟨S512, .i32⟩ : BufTy).Contents (Elt F) → (⟨S512, .i1⟩ : BufTy).Contents (Elt F))
  :: StableHlo.nullary main_c_175 (constantI S_ 32 131040#32)
  :: StableHlo.unary main_c_175 main_v741 (broadcastInDim S512 ![] bcast_S_S512 : (⟨S_, .i32⟩ : BufTy).Contents (Elt F) → (⟨S512, .i32⟩ : BufTy).Contents (Elt F))
  :: StableHlo.binary main_v738 main_v741 main_v742 (addi : (⟨S512, .i32⟩ : BufTy).Contents (Elt F) → (⟨S512, .i32⟩ : BufTy).Contents (Elt F) → (⟨S512, .i32⟩ : BufTy).Contents (Elt F))
  :: StableHlo.ternary main_v740 main_v742 main_v738 main_v743 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v743 main_v744 (broadcastInDim S512x1 ![0] bcast_S512_S512x1_0 : (⟨S512, .i32⟩ : BufTy).Contents (Elt F) → (⟨S512x1, .i32⟩ : BufTy).Contents (Elt F))
  :: StableHlo.binary main_v11 main_v744 main_v745 ((fun x i => Host.gather gather_S131040x768_S512x1_S512x768_1_0_n_n_0_1_1768 x i) : (⟨S131040x768, .f32⟩ : BufTy).Contents (Elt F) → (⟨S512x1, .i32⟩ : BufTy).Contents (Elt F) → (⟨S512x768, .f32⟩ : BufTy).Contents (Elt F))
  :: StableHlo.unary main_v16 main_v746 (broadcastInDim S32x1 ![0] bcast_S32_S32x1_0 : (⟨S32, .i32⟩ : BufTy).Contents (Elt F) → (⟨S32x1, .i32⟩ : BufTy).Contents (Elt F))
  :: StableHlo.nullary main_c_176 (constantI S_ 32 31#32)
  :: StableHlo.unary main_c_176 main_v747 (broadcastInDim S32x1 ![] bcast_S_S32x1 : (⟨S_, .i32⟩ : BufTy).Contents (Elt F) → (⟨S32x1, .i32⟩ : BufTy).Contents (Elt F))
  :: StableHlo.binary main_v746 main_v747 main_v748 (addi : (⟨S32x1, .i32⟩ : BufTy).Contents (Elt F) → (⟨S32x1, .i32⟩ : BufTy).Contents (Elt F) → (⟨S32x1, .i32⟩ : BufTy).Contents (Elt F))
  :: StableHlo.nullary main_v749 (iotaInDim S32 32 0)
  :: StableHlo.unary main_v749 main_v750 (broadcastInDim S1x32 ![1] bcast_S32_S1x32_1 : (⟨S32, .i32⟩ : BufTy).Contents (Elt F) → (⟨S1x32, .i32⟩ : BufTy).Contents (Elt F))
  :: StableHlo.unary main_v748 main_v751 (broadcastInDim S32x32 ![0, 1] bcast_S32x1_S32x32_0_1 : (⟨S32x1, .i32⟩ : BufTy).Contents (Elt F) → (⟨S32x32, .i32⟩ : BufTy).Contents (Elt F))
  :: StableHlo.unary main_v750 main_v752 (broadcastInDim S32x32 ![0, 1] bcast_S1x32_S32x32_0_1 : (⟨S1x32, .i32⟩ : BufTy).Contents (Elt F) → (⟨S32x32, .i32⟩ : BufTy).Contents (Elt F))
  :: StableHlo.binary main_v751 main_v752 main_v753 (addi : (⟨S32x32, .i32⟩ : BufTy).Contents (Elt F) → (⟨S32x32, .i32⟩ : BufTy).Contents (Elt F) → (⟨S32x32, .i32⟩ : BufTy).Contents (Elt F))
  :: StableHlo.reshape main_v753 main_v754 rfl shapeCasts_S32x32_S1024
  :: StableHlo.nullary main_c_177 (constantI S_ 32 0#32)
  :: StableHlo.unary main_c_177 main_v755 (broadcastInDim S1024 ![] bcast_S_S1024 : (⟨S_, .i32⟩ : BufTy).Contents (Elt F) → (⟨S1024, .i32⟩ : BufTy).Contents (Elt F))
  :: StableHlo.binary main_v754 main_v755 main_v756 (cmpi .slt : (⟨S1024, .i32⟩ : BufTy).Contents (Elt F) → (⟨S1024, .i32⟩ : BufTy).Contents (Elt F) → (⟨S1024, .i1⟩ : BufTy).Contents (Elt F))
  :: StableHlo.nullary main_c_178 (constantI S_ 32 131040#32)
  :: StableHlo.unary main_c_178 main_v757 (broadcastInDim S1024 ![] bcast_S_S1024 : (⟨S_, .i32⟩ : BufTy).Contents (Elt F) → (⟨S1024, .i32⟩ : BufTy).Contents (Elt F))
  :: StableHlo.binary main_v754 main_v757 main_v758 (addi : (⟨S1024, .i32⟩ : BufTy).Contents (Elt F) → (⟨S1024, .i32⟩ : BufTy).Contents (Elt F) → (⟨S1024, .i32⟩ : BufTy).Contents (Elt F))
  :: StableHlo.ternary main_v756 main_v758 main_v754 main_v759 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v759 main_v760 (broadcastInDim S1024x1 ![0] bcast_S1024_S1024x1_0 : (⟨S1024, .i32⟩ : BufTy).Contents (Elt F) → (⟨S1024x1, .i32⟩ : BufTy).Contents (Elt F))
  :: StableHlo.binary main_v722 main_v760 main_v761 ((fun x i => Host.gather gather_S131040x256_S1024x1_S1024x256_1_0_n_n_0_1_1256 x i) : (⟨S131040x256, .f32⟩ : BufTy).Contents (Elt F) → (⟨S1024x1, .i32⟩ : BufTy).Contents (Elt F) → (⟨S1024x256, .f32⟩ : BufTy).Contents (Elt F))
  :: StableHlo.nullary main_c_179 (constantI S_ 32 0#32)
  :: StableHlo.unary main_c_179 main_v762 (broadcastInDim S1024 ![] bcast_S_S1024 : (⟨S_, .i32⟩ : BufTy).Contents (Elt F) → (⟨S1024, .i32⟩ : BufTy).Contents (Elt F))
  :: StableHlo.binary main_v754 main_v762 main_v763 (cmpi .slt : (⟨S1024, .i32⟩ : BufTy).Contents (Elt F) → (⟨S1024, .i32⟩ : BufTy).Contents (Elt F) → (⟨S1024, .i1⟩ : BufTy).Contents (Elt F))
  :: StableHlo.nullary main_c_180 (constantI S_ 32 131040#32)
  :: StableHlo.unary main_c_180 main_v764 (broadcastInDim S1024 ![] bcast_S_S1024 : (⟨S_, .i32⟩ : BufTy).Contents (Elt F) → (⟨S1024, .i32⟩ : BufTy).Contents (Elt F))
  :: StableHlo.binary main_v754 main_v764 main_v765 (addi : (⟨S1024, .i32⟩ : BufTy).Contents (Elt F) → (⟨S1024, .i32⟩ : BufTy).Contents (Elt F) → (⟨S1024, .i32⟩ : BufTy).Contents (Elt F))
  :: StableHlo.ternary main_v763 main_v765 main_v754 main_v766 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v766 main_v767 (broadcastInDim S1024x1 ![0] bcast_S1024_S1024x1_0 : (⟨S1024, .i32⟩ : BufTy).Contents (Elt F) → (⟨S1024x1, .i32⟩ : BufTy).Contents (Elt F))
  :: StableHlo.binary main_v729 main_v767 main_v768 ((fun x i => Host.gather gather_S131040x256_S1024x1_S1024x256_1_0_n_n_0_1_1256 x i) : (⟨S131040x256, .f32⟩ : BufTy).Contents (Elt F) → (⟨S1024x1, .i32⟩ : BufTy).Contents (Elt F) → (⟨S1024x256, .f32⟩ : BufTy).Contents (Elt F))
  :: StableHlo.nullary main_c_181 (constantI S_ 32 0#32)
  :: StableHlo.unary main_c_181 main_v769 (broadcastInDim S1024 ![] bcast_S_S1024 : (⟨S_, .i32⟩ : BufTy).Contents (Elt F) → (⟨S1024, .i32⟩ : BufTy).Contents (Elt F))
  :: StableHlo.binary main_v754 main_v769 main_v770 (cmpi .slt : (⟨S1024, .i32⟩ : BufTy).Contents (Elt F) → (⟨S1024, .i32⟩ : BufTy).Contents (Elt F) → (⟨S1024, .i1⟩ : BufTy).Contents (Elt F))
  :: StableHlo.nullary main_c_182 (constantI S_ 32 131040#32)
  :: StableHlo.unary main_c_182 main_v771 (broadcastInDim S1024 ![] bcast_S_S1024 : (⟨S_, .i32⟩ : BufTy).Contents (Elt F) → (⟨S1024, .i32⟩ : BufTy).Contents (Elt F))
  :: StableHlo.binary main_v754 main_v771 main_v772 (addi : (⟨S1024, .i32⟩ : BufTy).Contents (Elt F) → (⟨S1024, .i32⟩ : BufTy).Contents (Elt F) → (⟨S1024, .i32⟩ : BufTy).Contents (Elt F))
  :: StableHlo.ternary main_v770 main_v772 main_v754 main_v773 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F))
  :: StableHlo.unary main_v773 main_v774 (broadcastInDim S1024x1 ![0] bcast_S1024_S1024x1_0 : (⟨S1024, .i32⟩ : BufTy).Contents (Elt F) → (⟨S1024x1, .i32⟩ : BufTy).Contents (Elt F))
  :: [] )
/-- Each touches TensorCore references only (`HostSeg.ofOps` over `StableHlo.tcRefs`, or a subset by `sub_ucRefs`). -/
theorem main_part15_ops0_sub : (main_part15_ops0 : List (HloOp τ sig (Elt F))).Forall fun op => op.bufs ⊆ StableHlo.tcRefs τ sig :=
  ⟨StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub ..⟩
/-- Window 15 of `main` (`main_part15`, statements 901 … 960) is the chain of ITS items ending in the last
    (`Pipeline.chainK`: no closing `pure`, the window's last statement being in tail position), by `chain_rfl`. -/
theorem main_part15_chain (c : Dev nD) : main_part15 (F := F) c = (Pipeline.chainK
  [  ]
  (StableHlo.seq main_part15_ops0) : Prog (TpuEff nD τ sig (Elt F) (Pipeline.Sig Λ₀ (Fin 0) fun p => (pcfgs (F := F) p).Adm) .tc) PUnit) := by
  chain_rfl

/-- 2 host operations of @main, window 16 (statements 961 … 1020), in order. -/
abbrev main_part16_ops0 : List (HloOp τ sig (Elt F)) :=
  [ StableHlo.binary main_arg1 main_v774 main_v775 ((fun x i => Host.gather gather_S131040_S1024x1_S1024_n_0_n_n_0_1_1 x i) : (⟨S131040, .i32⟩ : BufTy).Contents (Elt F) → (⟨S1024x1, .i32⟩ : BufTy).Contents (Elt F) → (⟨S1024, .i32⟩ : BufTy).Contents (Elt F)),
    StableHlo.nullary main_c_183 (constantI S_ 32 4095#32) ]
/-- Each touches TensorCore references only (`HostSeg.ofOps` over `StableHlo.tcRefs`, or a subset by `sub_ucRefs`). -/
theorem main_part16_ops0_sub : (main_part16_ops0 : List (HloOp τ sig (Elt F))).Forall fun op => op.bufs ⊆ StableHlo.tcRefs τ sig :=
  ⟨StableHlo.binary_bufs_sub .., StableHlo.nullary_bufs_sub ..⟩
/-- 17 host operations of @floor_divide_16 (main_call12), window 16 (statements 961 … 1020), in order. -/
abbrev main_part16_ops1 : List (HloOp τ sig (Elt F)) :=
  [ StableHlo.TRef.unary (.of main_c_183 : StableHlo.TRef sig ⟨S_, .i32⟩) (.of main_call12_v0 : StableHlo.TRef sig ⟨S_, .i32⟩) id,
    StableHlo.TRef.unary (.of main_call12_v0 : StableHlo.TRef sig ⟨S_, .i32⟩) (.of main_call12_v1 : StableHlo.TRef sig ⟨S1024, .i32⟩) (broadcastInDim S1024 ![] bcast_S_S1024),
    StableHlo.TRef.binary (.of main_v775 : StableHlo.TRef sig ⟨S1024, .i32⟩) (.of main_call12_v1 : StableHlo.TRef sig ⟨S1024, .i32⟩) (.of main_call12_v2 : StableHlo.TRef sig ⟨S1024, .i32⟩) Host.divsi,
    StableHlo.TRef.unary (.of main_v775 : StableHlo.TRef sig ⟨S1024, .i32⟩) (.of main_call12_v3 : StableHlo.TRef sig ⟨S1024, .i32⟩) signi,
    StableHlo.TRef.unary (.of main_call12_v0 : StableHlo.TRef sig ⟨S_, .i32⟩) (.of main_call12_v4 : StableHlo.TRef sig ⟨S_, .i32⟩) signi,
    StableHlo.TRef.unary (.of main_call12_v4 : StableHlo.TRef sig ⟨S_, .i32⟩) (.of main_call12_v5 : StableHlo.TRef sig ⟨S1024, .i32⟩) (broadcastInDim S1024 ![] bcast_S_S1024),
    StableHlo.TRef.binary (.of main_call12_v3 : StableHlo.TRef sig ⟨S1024, .i32⟩) (.of main_call12_v5 : StableHlo.TRef sig ⟨S1024, .i32⟩) (.of main_call12_v6 : StableHlo.TRef sig ⟨S1024, .i1⟩) (cmpi .ne),
    StableHlo.TRef.unary (.of main_call12_v0 : StableHlo.TRef sig ⟨S_, .i32⟩) (.of main_call12_v7 : StableHlo.TRef sig ⟨S1024, .i32⟩) (broadcastInDim S1024 ![] bcast_S_S1024),
    StableHlo.TRef.binary (.of main_v775 : StableHlo.TRef sig ⟨S1024, .i32⟩) (.of main_call12_v7 : StableHlo.TRef sig ⟨S1024, .i32⟩) (.of main_call12_v8 : StableHlo.TRef sig ⟨S1024, .i32⟩) Host.remsi,
    StableHlo.TRef.nullary (.of main_call12_c : StableHlo.TRef sig ⟨S_, .i32⟩) (constantI S_ 32 0#32),
    StableHlo.TRef.unary (.of main_call12_c : StableHlo.TRef sig ⟨S_, .i32⟩) (.of main_call12_v9 : StableHlo.TRef sig ⟨S1024, .i32⟩) (broadcastInDim S1024 ![] bcast_S_S1024),
    StableHlo.TRef.binary (.of main_call12_v8 : StableHlo.TRef sig ⟨S1024, .i32⟩) (.of main_call12_v9 : StableHlo.TRef sig ⟨S1024, .i32⟩) (.of main_call12_v10 : StableHlo.TRef sig ⟨S1024, .i1⟩) (cmpi .ne),
    StableHlo.TRef.binary (.of main_call12_v6 : StableHlo.TRef sig ⟨S1024, .i1⟩) (.of main_call12_v10 : StableHlo.TRef sig ⟨S1024, .i1⟩) (.of main_call12_v11 : StableHlo.TRef sig ⟨S1024, .i1⟩) andi,
    StableHlo.TRef.nullary (.of main_call12_c_0 : StableHlo.TRef sig ⟨S_, .i32⟩) (constantI S_ 32 1#32),
    StableHlo.TRef.unary (.of main_call12_c_0 : StableHlo.TRef sig ⟨S_, .i32⟩) (.of main_call12_v12 : StableHlo.TRef sig ⟨S1024, .i32⟩) (broadcastInDim S1024 ![] bcast_S_S1024),
    StableHlo.TRef.binary (.of main_call12_v2 : StableHlo.TRef sig ⟨S1024, .i32⟩) (.of main_call12_v12 : StableHlo.TRef sig ⟨S1024, .i32⟩) (.of main_call12_v13 : StableHlo.TRef sig ⟨S1024, .i32⟩) subi,
    StableHlo.TRef.ternary (.of main_call12_v11 : StableHlo.TRef sig ⟨S1024, .i1⟩) (.of main_call12_v13 : StableHlo.TRef sig ⟨S1024, .i32⟩) (.of main_call12_v2 : StableHlo.TRef sig ⟨S1024, .i32⟩) (.of main_v776 : StableHlo.TRef sig ⟨S1024, .i32⟩) select ]
/-- Each touches TensorCore references only (`HostSeg.ofOps` over `StableHlo.tcRefs`, or a subset by `sub_ucRefs`). -/
theorem main_part16_ops1_sub : (main_part16_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 16 (statements 961 … 1020), in order. -/
abbrev main_part16_ops2 : List (HloOp τ sig (Elt F)) :=
  [ StableHlo.nullary main_c_184 (constantI S_ 32 16#32),
    StableHlo.unary main_c_184 main_v777 (broadcastInDim S1024 ![] bcast_S_S1024 : (⟨S_, .i32⟩ : BufTy).Contents (Elt F) → (⟨S1024, .i32⟩ : BufTy).Contents (Elt F)),
    StableHlo.binary main_v776 main_v777 main_v778 (muli : (⟨S1024, .i32⟩ : BufTy).Contents (Elt F) → (⟨S1024, .i32⟩ : BufTy).Contents (Elt F) → (⟨S1024, .i32⟩ : BufTy).Contents (Elt F)),
    StableHlo.nullary main_c_185 (constantI S_ 32 4095#32) ]
/-- Each touches TensorCore references only (`HostSeg.ofOps` over `StableHlo.tcRefs`, or a subset by `sub_ucRefs`). -/
theorem main_part16_ops2_sub : (main_part16_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_18 (main_call13), window 16 (statements 961 … 1020), in order. -/
abbrev main_part16_ops3 : List (HloOp τ sig (Elt F)) :=
  [ StableHlo.TRef.unary (.of main_c_185 : StableHlo.TRef sig ⟨S_, .i32⟩) (.of main_call13_v0 : StableHlo.TRef sig ⟨S_, .i32⟩) id,
    StableHlo.TRef.nullary (.of main_call13_c : StableHlo.TRef sig ⟨S_, .i32⟩) (constantI S_ 32 0#32),
    StableHlo.TRef.binary (.of main_call13_v0 : StableHlo.TRef sig ⟨S_, .i32⟩) (.of main_call13_c : StableHlo.TRef sig ⟨S_, .i32⟩) (.of main_call13_v1 : StableHlo.TRef sig ⟨S_, .i1⟩) (cmpi .eq),
    StableHlo.TRef.nullary (.of main_call13_c_0 : StableHlo.TRef sig ⟨S_, .i32⟩) (constantI S_ 32 1#32),
    StableHlo.TRef.ternary (.of main_call13_v1 : StableHlo.TRef sig ⟨S_, .i1⟩) (.of main_call13_c_0 : StableHlo.TRef sig ⟨S_, .i32⟩) (.of main_call13_v0 : StableHlo.TRef sig ⟨S_, .i32⟩) (.of main_call13_v2 : StableHlo.TRef sig ⟨S_, .i32⟩) select,
    StableHlo.TRef.unary main_call13_call0.v0 (.of main_call13_v3 : StableHlo.TRef sig ⟨S1024, .i32⟩) (broadcastInDim S1024 ![] bcast_S_S1024),
    StableHlo.TRef.binary (.of main_v775 : StableHlo.TRef sig ⟨S1024, .i32⟩) (.of main_call13_v3 : StableHlo.TRef sig ⟨S1024, .i32⟩) (.of main_call13_v4 : StableHlo.TRef sig ⟨S1024, .i32⟩) Host.remsi,
    StableHlo.TRef.nullary (.of main_call13_c_1 : StableHlo.TRef sig ⟨S_, .i32⟩) (constantI S_ 32 0#32),
    StableHlo.TRef.unary (.of main_call13_c_1 : StableHlo.TRef sig ⟨S_, .i32⟩) (.of main_call13_v5 : StableHlo.TRef sig ⟨S1024, .i32⟩) (broadcastInDim S1024 ![] bcast_S_S1024),
    StableHlo.TRef.binary (.of main_call13_v4 : StableHlo.TRef sig ⟨S1024, .i32⟩) (.of main_call13_v5 : StableHlo.TRef sig ⟨S1024, .i32⟩) (.of main_call13_v6 : StableHlo.TRef sig ⟨S1024, .i1⟩) (cmpi .ne),
    StableHlo.TRef.nullary (.of main_call13_c_2 : StableHlo.TRef sig ⟨S_, .i32⟩) (constantI S_ 32 0#32),
    StableHlo.TRef.unary (.of main_call13_c_2 : StableHlo.TRef sig ⟨S_, .i32⟩) (.of main_call13_v7 : StableHlo.TRef sig ⟨S1024, .i32⟩) (broadcastInDim S1024 ![] bcast_S_S1024),
    StableHlo.TRef.binary (.of main_call13_v4 : StableHlo.TRef sig ⟨S1024, .i32⟩) (.of main_call13_v7 : StableHlo.TRef sig ⟨S1024, .i32⟩) (.of main_call13_v8 : StableHlo.TRef sig ⟨S1024, .i1⟩) (cmpi .slt),
    StableHlo.TRef.nullary (.of main_call13_c_3 : StableHlo.TRef sig ⟨S_, .i32⟩) (constantI S_ 32 0#32),
    StableHlo.TRef.binary main_call13_call0.v0 (.of main_call13_c_3 : StableHlo.TRef sig ⟨S_, .i32⟩) (.of main_call13_v9 : StableHlo.TRef sig ⟨S_, .i1⟩) (cmpi .slt),
    StableHlo.TRef.unary (.of main_call13_v9 : StableHlo.TRef sig ⟨S_, .i1⟩) (.of main_call13_v10 : StableHlo.TRef sig ⟨S1024, .i1⟩) (broadcastInDim S1024 ![] bcast_S_S1024),
    StableHlo.TRef.binary (.of main_call13_v8 : StableHlo.TRef sig ⟨S1024, .i1⟩) (.of main_call13_v10 : StableHlo.TRef sig ⟨S1024, .i1⟩) (.of main_call13_v11 : StableHlo.TRef sig ⟨S1024, .i1⟩) (cmpi .ne),
    StableHlo.TRef.binary (.of main_call13_v11 : StableHlo.TRef sig ⟨S1024, .i1⟩) (.of main_call13_v6 : StableHlo.TRef sig ⟨S1024, .i1⟩) (.of main_call13_v12 : StableHlo.TRef sig ⟨S1024, .i1⟩) andi,
    StableHlo.TRef.unary main_call13_call0.v0 (.of main_call13_v13 : StableHlo.TRef sig ⟨S1024, .i32⟩) (broadcastInDim S1024 ![] bcast_S_S1024),
    StableHlo.TRef.binary (.of main_call13_v4 : StableHlo.TRef sig ⟨S1024, .i32⟩) (.of main_call13_v13 : StableHlo.TRef sig ⟨S1024, .i32⟩) (.of main_call13_v14 : StableHlo.TRef sig ⟨S1024, .i32⟩) addi,
    StableHlo.TRef.ternary (.of main_call13_v12 : StableHlo.TRef sig ⟨S1024, .i1⟩) (.of main_call13_v14 : StableHlo.TRef sig ⟨S1024, .i32⟩) (.of main_call13_v4 : StableHlo.TRef sig ⟨S1024, .i32⟩) (.of main_v779 : StableHlo.TRef sig ⟨S1024, .i32⟩) select ]
/-- Each touches TensorCore references only (`HostSeg.ofOps` over `StableHlo.tcRefs`, or a subset by `sub_ucRefs`). -/
theorem main_part16_ops3_sub : (main_part16_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 52 host operations of @main, window 16 (statements 961 … 1020), in order. -/
abbrev main_part16_ops4 : List (HloOp τ sig (Elt F)) :=
  ( StableHlo.nullary main_c_186 (constantI S_ 32 15#32)
  :: StableHlo.unary main_c_186 main_v780 (broadcastInDim S1024 ![] bcast_S_S1024 : (⟨S_, .i32⟩ : BufTy).Contents (Elt F) → (⟨S1024, .i32⟩ : BufTy).Contents (Elt F))
  :: StableHlo.binary main_v779 main_v780 main_v781 (subi : (⟨S1024, .i32⟩ : BufTy).Contents (Elt F) → (⟨S1024, .i32⟩ : BufTy).Contents (Elt F) → (⟨S1024, .i32⟩ : BufTy).Contents (Elt F))
  :: StableHlo.binary main_v778 main_v781 main_v782 (addi : (⟨S1024, .i32⟩ : BufTy).Contents (Elt F) → (⟨S1024, .i32⟩ : BufTy).Contents (Elt F) → (⟨S1024, .i32⟩ : BufTy).Contents (Elt F))
  :: StableHlo.unary main_arg6 main_v783 ((transpose S256x256 [1, 0] · transposes_S256x256_S256x256_1_0) : (⟨S256x256, .f32⟩ : BufTy).Contents (Elt F) → (⟨S256x256, .f32⟩ : BufTy).Contents (Elt F))
  :: StableHlo.binary main_v761 main_v783 main_v784 ((fun l r => Host.dotGeneral dot_S1024x256_S256x256_S1024x256_1_0_0_1_n_n none l r) : (⟨S1024x256, .f32⟩ : BufTy).Contents (Elt F) → (⟨S256x256, .f32⟩ : BufTy).Contents (Elt F) → (⟨S1024x256, .f32⟩ : BufTy).Contents (Elt F))
  :: StableHlo.unary main_arg7 main_v785 (broadcastInDim S1x256 ![1] bcast_S256_S1x256_1 : (⟨S256, .f32⟩ : BufTy).Contents (Elt F) → (⟨S1x256, .f32⟩ : BufTy).Contents (Elt F))
  :: StableHlo.unary main_v785 main_v786 (broadcastInDim S1024x256 ![0, 1] bcast_S1x256_S1024x256_0_1 : (⟨S1x256, .f32⟩ : BufTy).Contents (Elt F) → (⟨S1024x256, .f32⟩ : BufTy).Contents (Elt F))
  :: StableHlo.binary main_v784 main_v786 main_v787 (addf : (⟨S1024x256, .f32⟩ : BufTy).Contents (Elt F) → (⟨S1024x256, .f32⟩ : BufTy).Contents (Elt F) → (⟨S1024x256, .f32⟩ : BufTy).Contents (Elt F))
  :: StableHlo.unary main_v787 main_v788 (Host.negf : (⟨S1024x256, .f32⟩ : BufTy).Contents (Elt F) → (⟨S1024x256, .f32⟩ : BufTy).Contents (Elt F))
  :: StableHlo.unary main_v788 main_v789 (Host.exp : (⟨S1024x256, .f32⟩ : BufTy).Contents (Elt F) → (⟨S1024x256, .f32⟩ : BufTy).Contents (Elt F))
  :: StableHlo.nullary main_cst_187 (constant S_ .f32 0x3F800000#32)
  :: StableHlo.unary main_cst_187 main_v790 (broadcastInDim S1024x256 ![] bcast_S_S1024x256 : (⟨S_, .f32⟩ : BufTy).Contents (Elt F) → (⟨S1024x256, .f32⟩ : BufTy).Contents (Elt F))
  :: StableHlo.binary main_v790 main_v789 main_v791 (addf : (⟨S1024x256, .f32⟩ : BufTy).Contents (Elt F) → (⟨S1024x256, .f32⟩ : BufTy).Contents (Elt F) → (⟨S1024x256, .f32⟩ : BufTy).Contents (Elt F))
  :: StableHlo.nullary main_cst_188 (constant S_ .f32 0x3F800000#32)
  :: StableHlo.unary main_cst_188 main_v792 (broadcastInDim S1024x256 ![] bcast_S_S1024x256 : (⟨S_, .f32⟩ : BufTy).Contents (Elt F) → (⟨S1024x256, .f32⟩ : BufTy).Contents (Elt F))
  :: StableHlo.binary main_v792 main_v791 main_v793 (Host.divf : (⟨S1024x256, .f32⟩ : BufTy).Contents (Elt F) → (⟨S1024x256, .f32⟩ : BufTy).Contents (Elt F) → (⟨S1024x256, .f32⟩ : BufTy).Contents (Elt F))
  :: StableHlo.nullary main_cst_189 (constant S_ .f32 0x00000000#32)
  :: StableHlo.unary main_cst_189 main_v794 (broadcastInDim S512x256 ![] bcast_S_S512x256 : (⟨S_, .f32⟩ : BufTy).Contents (Elt F) → (⟨S512x256, .f32⟩ : BufTy).Contents (Elt F))
  :: StableHlo.unary main_v782 main_v795 (broadcastInDim S1024x1 ![0] bcast_S1024_S1024x1_0 : (⟨S1024, .i32⟩ : BufTy).Contents (Elt F) → (⟨S1024x1, .i32⟩ : BufTy).Contents (Elt F))
  :: StableHlo.ternary main_v794 main_v795 main_v761 main_v796 ((fun x i u => Host.scatterAdd scatter_S512x256_S1024x1_S1024x256_1_0_0_1 x i u) : (⟨S512x256, .f32⟩ : BufTy).Contents (Elt F) → (⟨S1024x1, .i32⟩ : BufTy).Contents (Elt F) → (⟨S1024x256, .f32⟩ : BufTy).Contents (Elt F) → (⟨S512x256, .f32⟩ : BufTy).Contents (Elt F))
  :: StableHlo.binary main_v793 main_v768 main_v797 (mulf : (⟨S1024x256, .f32⟩ : BufTy).Contents (Elt F) → (⟨S1024x256, .f32⟩ : BufTy).Contents (Elt F) → (⟨S1024x256, .f32⟩ : BufTy).Contents (Elt F))
  :: StableHlo.nullary main_cst_190 (constant S_ .f32 0x00000000#32)
  :: StableHlo.unary main_cst_190 main_v798 (broadcastInDim S512x256 ![] bcast_S_S512x256 : (⟨S_, .f32⟩ : BufTy).Contents (Elt F) → (⟨S512x256, .f32⟩ : BufTy).Contents (Elt F))
  :: StableHlo.unary main_v782 main_v799 (broadcastInDim S1024x1 ![0] bcast_S1024_S1024x1_0 : (⟨S1024, .i32⟩ : BufTy).Contents (Elt F) → (⟨S1024x1, .i32⟩ : BufTy).Contents (Elt F))
  :: StableHlo.ternary main_v798 main_v799 main_v797 main_v800 ((fun x i u => Host.scatterAdd scatter_S512x256_S1024x1_S1024x256_1_0_0_1 x i u) : (⟨S512x256, .f32⟩ : BufTy).Contents (Elt F) → (⟨S1024x1, .i32⟩ : BufTy).Contents (Elt F) → (⟨S1024x256, .f32⟩ : BufTy).Contents (Elt F) → (⟨S512x256, .f32⟩ : BufTy).Contents (Elt F))
  :: StableHlo.unary main_arg4 main_v801 ((transpose S256x768 [1, 0] · transposes_S768x256_S256x768_1_0) : (⟨S768x256, .f32⟩ : BufTy).Contents (Elt F) → (⟨S256x768, .f32⟩ : BufTy).Contents (Elt F))
  :: StableHlo.binary main_v796 main_v801 main_v802 ((fun l r => Host.dotGeneral dot_S512x256_S256x768_S512x768_1_0_0_1_n_n none l r) : (⟨S512x256, .f32⟩ : BufTy).Contents (Elt F) → (⟨S256x768, .f32⟩ : BufTy).Contents (Elt F) → (⟨S512x768, .f32⟩ : BufTy).Contents (Elt F))
  :: StableHlo.binary main_v745 main_v802 main_v803 (addf : (⟨S512x768, .f32⟩ : BufTy).Contents (Elt F) → (⟨S512x768, .f32⟩ : BufTy).Contents (Elt F) → (⟨S512x768, .f32⟩ : BufTy).Contents (Elt F))
  :: StableHlo.unary main_arg5 main_v804 (broadcastInDim S512x768 ![0, 1] bcast_S1x768_S512x768_0_1 : (⟨S1x768, .f32⟩ : BufTy).Contents (Elt F) → (⟨S512x768, .f32⟩ : BufTy).Contents (Elt F))
  :: StableHlo.binary main_v803 main_v804 main_v805 (addf : (⟨S512x768, .f32⟩ : BufTy).Contents (Elt F) → (⟨S512x768, .f32⟩ : BufTy).Contents (Elt F) → (⟨S512x768, .f32⟩ : BufTy).Contents (Elt F))
  :: StableHlo.unary main_v805 main_v806 ((extractStridedSlice S512x256 ![0, 0] · slices_S512x768_S512x256_0_0) : (⟨S512x768, .f32⟩ : BufTy).Contents (Elt F) → (⟨S512x256, .f32⟩ : BufTy).Contents (Elt F))
  :: StableHlo.unary main_v805 main_v807 ((extractStridedSlice S512x256 ![0, 256] · slices_S512x768_S512x256_0_256) : (⟨S512x768, .f32⟩ : BufTy).Contents (Elt F) → (⟨S512x256, .f32⟩ : BufTy).Contents (Elt F))
  :: StableHlo.unary main_v805 main_v808 ((extractStridedSlice S512x256 ![0, 512] · slices_S512x768_S512x256_0_512) : (⟨S512x768, .f32⟩ : BufTy).Contents (Elt F) → (⟨S512x256, .f32⟩ : BufTy).Contents (Elt F))
  :: StableHlo.unary main_v806 main_v809 (Host.negf : (⟨S512x256, .f32⟩ : BufTy).Contents (Elt F) → (⟨S512x256, .f32⟩ : BufTy).Contents (Elt F))
  :: StableHlo.unary main_v809 main_v810 (Host.exp : (⟨S512x256, .f32⟩ : BufTy).Contents (Elt F) → (⟨S512x256, .f32⟩ : BufTy).Contents (Elt F))
  :: StableHlo.nullary main_cst_191 (constant S_ .f32 0x3F800000#32)
  :: StableHlo.unary main_cst_191 main_v811 (broadcastInDim S512x256 ![] bcast_S_S512x256 : (⟨S_, .f32⟩ : BufTy).Contents (Elt F) → (⟨S512x256, .f32⟩ : BufTy).Contents (Elt F))
  :: StableHlo.binary main_v811 main_v810 main_v812 (addf : (⟨S512x256, .f32⟩ : BufTy).Contents (Elt F) → (⟨S512x256, .f32⟩ : BufTy).Contents (Elt F) → (⟨S512x256, .f32⟩ : BufTy).Contents (Elt F))
  :: StableHlo.nullary main_cst_192 (constant S_ .f32 0x3F800000#32)
  :: StableHlo.unary main_cst_192 main_v813 (broadcastInDim S512x256 ![] bcast_S_S512x256 : (⟨S_, .f32⟩ : BufTy).Contents (Elt F) → (⟨S512x256, .f32⟩ : BufTy).Contents (Elt F))
  :: StableHlo.binary main_v813 main_v812 main_v814 (Host.divf : (⟨S512x256, .f32⟩ : BufTy).Contents (Elt F) → (⟨S512x256, .f32⟩ : BufTy).Contents (Elt F) → (⟨S512x256, .f32⟩ : BufTy).Contents (Elt F))
  :: StableHlo.unary main_v808 main_v815 (Host.tanh : (⟨S512x256, .f32⟩ : BufTy).Contents (Elt F) → (⟨S512x256, .f32⟩ : BufTy).Contents (Elt F))
  :: StableHlo.binary main_v814 main_v815 main_v816 (mulf : (⟨S512x256, .f32⟩ : BufTy).Contents (Elt F) → (⟨S512x256, .f32⟩ : BufTy).Contents (Elt F) → (⟨S512x256, .f32⟩ : BufTy).Contents (Elt F))
  :: StableHlo.binary main_v816 main_v800 main_v817 (addf : (⟨S512x256, .f32⟩ : BufTy).Contents (Elt F) → (⟨S512x256, .f32⟩ : BufTy).Contents (Elt F) → (⟨S512x256, .f32⟩ : BufTy).Contents (Elt F))
  :: StableHlo.unary main_v807 main_v818 (Host.negf : (⟨S512x256, .f32⟩ : BufTy).Contents (Elt F) → (⟨S512x256, .f32⟩ : BufTy).Contents (Elt F))
  :: StableHlo.unary main_v818 main_v819 (Host.exp : (⟨S512x256, .f32⟩ : BufTy).Contents (Elt F) → (⟨S512x256, .f32⟩ : BufTy).Contents (Elt F))
  :: StableHlo.nullary main_cst_193 (constant S_ .f32 0x3F800000#32)
  :: StableHlo.unary main_cst_193 main_v820 (broadcastInDim S512x256 ![] bcast_S_S512x256 : (⟨S_, .f32⟩ : BufTy).Contents (Elt F) → (⟨S512x256, .f32⟩ : BufTy).Contents (Elt F))
  :: StableHlo.binary main_v820 main_v819 main_v821 (addf : (⟨S512x256, .f32⟩ : BufTy).Contents (Elt F) → (⟨S512x256, .f32⟩ : BufTy).Contents (Elt F) → (⟨S512x256, .f32⟩ : BufTy).Contents (Elt F))
  :: StableHlo.nullary main_cst_194 (constant S_ .f32 0x3F800000#32)
  :: StableHlo.unary main_cst_194 main_v822 (broadcastInDim S512x256 ![] bcast_S_S512x256 : (⟨S_, .f32⟩ : BufTy).Contents (Elt F) → (⟨S512x256, .f32⟩ : BufTy).Contents (Elt F))
  :: [] )
/-- Each touches TensorCore references only (`HostSeg.ofOps` over `StableHlo.tcRefs`, or a subset by `sub_ucRefs`). -/
theorem main_part16_ops4_sub : (main_part16_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub ..⟩
/-- Window 16 of `main` (`main_part16`, statements 961 … 1020) is the chain of ITS items ending in the last
    (`Pipeline.chainK`: no closing `pure`, the window's last statement being in tail position), by `chain_rfl`. -/
theorem main_part16_chain (c : Dev nD) : main_part16 (F := F) c = (Pipeline.chainK
  [ StableHlo.seq main_part16_ops0,
    StableHlo.seq main_part16_ops1,
    StableHlo.seq main_part16_ops2,
    StableHlo.seq main_part16_ops3 ]
  (StableHlo.seq main_part16_ops4) : Prog (TpuEff nD τ sig (Elt F) (Pipeline.Sig Λ₀ (Fin 0) fun p => (pcfgs (F := F) p).Adm) .tc) PUnit) := by
  chain_rfl

/-- 60 host operations of @main, window 17 (statements 1021 … 1080), in order. -/
abbrev main_part17_ops0 : List (HloOp τ sig (Elt F)) :=
  ( StableHlo.binary main_v822 main_v821 main_v823 (Host.divf : (⟨S512x256, .f32⟩ : BufTy).Contents (Elt F) → (⟨S512x256, .f32⟩ : BufTy).Contents (Elt F) → (⟨S512x256, .f32⟩ : BufTy).Contents (Elt F))
  :: StableHlo.unary main_v817 main_v824 (Host.tanh : (⟨S512x256, .f32⟩ : BufTy).Contents (Elt F) → (⟨S512x256, .f32⟩ : BufTy).Contents (Elt F))
  :: StableHlo.binary main_v823 main_v824 main_v825 (mulf : (⟨S512x256, .f32⟩ : BufTy).Contents (Elt F) → (⟨S512x256, .f32⟩ : BufTy).Contents (Elt F) → (⟨S512x256, .f32⟩ : BufTy).Contents (Elt F))
  :: StableHlo.nullary main_c_195 (constantI S_ 32 0#32)
  :: StableHlo.unary main_c_195 main_v826 (broadcastInDim S512 ![] bcast_S_S512 : (⟨S_, .i32⟩ : BufTy).Contents (Elt F) → (⟨S512, .i32⟩ : BufTy).Contents (Elt F))
  :: StableHlo.binary main_v738 main_v826 main_v827 (cmpi .slt : (⟨S512, .i32⟩ : BufTy).Contents (Elt F) → (⟨S512, .i32⟩ : BufTy).Contents (Elt F) → (⟨S512, .i1⟩ : BufTy).Contents (Elt F))
  :: StableHlo.nullary main_c_196 (constantI S_ 32 131040#32)
  :: StableHlo.unary main_c_196 main_v828 (broadcastInDim S512 ![] bcast_S_S512 : (⟨S_, .i32⟩ : BufTy).Contents (Elt F) → (⟨S512, .i32⟩ : BufTy).Contents (Elt F))
  :: StableHlo.binary main_v738 main_v828 main_v829 (addi : (⟨S512, .i32⟩ : BufTy).Contents (Elt F) → (⟨S512, .i32⟩ : BufTy).Contents (Elt F) → (⟨S512, .i32⟩ : BufTy).Contents (Elt F))
  :: StableHlo.ternary main_v827 main_v829 main_v738 main_v830 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v830 main_v831 (broadcastInDim S512x1 ![0] bcast_S512_S512x1_0 : (⟨S512, .i32⟩ : BufTy).Contents (Elt F) → (⟨S512x1, .i32⟩ : BufTy).Contents (Elt F))
  :: StableHlo.ternary main_v722 main_v831 main_v825 main_v832 ((fun x i u => Host.scatter scatter_S131040x256_S512x1_S512x256_1_0_0_1 (fun _ b => b) x i u) : (⟨S131040x256, .f32⟩ : BufTy).Contents (Elt F) → (⟨S512x1, .i32⟩ : BufTy).Contents (Elt F) → (⟨S512x256, .f32⟩ : BufTy).Contents (Elt F) → (⟨S131040x256, .f32⟩ : BufTy).Contents (Elt F))
  :: StableHlo.nullary main_c_197 (constantI S_ 32 0#32)
  :: StableHlo.unary main_c_197 main_v833 (broadcastInDim S512 ![] bcast_S_S512 : (⟨S_, .i32⟩ : BufTy).Contents (Elt F) → (⟨S512, .i32⟩ : BufTy).Contents (Elt F))
  :: StableHlo.binary main_v738 main_v833 main_v834 (cmpi .slt : (⟨S512, .i32⟩ : BufTy).Contents (Elt F) → (⟨S512, .i32⟩ : BufTy).Contents (Elt F) → (⟨S512, .i1⟩ : BufTy).Contents (Elt F))
  :: StableHlo.nullary main_c_198 (constantI S_ 32 131040#32)
  :: StableHlo.unary main_c_198 main_v835 (broadcastInDim S512 ![] bcast_S_S512 : (⟨S_, .i32⟩ : BufTy).Contents (Elt F) → (⟨S512, .i32⟩ : BufTy).Contents (Elt F))
  :: StableHlo.binary main_v738 main_v835 main_v836 (addi : (⟨S512, .i32⟩ : BufTy).Contents (Elt F) → (⟨S512, .i32⟩ : BufTy).Contents (Elt F) → (⟨S512, .i32⟩ : BufTy).Contents (Elt F))
  :: StableHlo.ternary main_v834 main_v836 main_v738 main_v837 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v837 main_v838 (broadcastInDim S512x1 ![0] bcast_S512_S512x1_0 : (⟨S512, .i32⟩ : BufTy).Contents (Elt F) → (⟨S512x1, .i32⟩ : BufTy).Contents (Elt F))
  :: StableHlo.ternary main_v729 main_v838 main_v817 main_v839 ((fun x i u => Host.scatter scatter_S131040x256_S512x1_S512x256_1_0_0_1 (fun _ b => b) x i u) : (⟨S131040x256, .f32⟩ : BufTy).Contents (Elt F) → (⟨S512x1, .i32⟩ : BufTy).Contents (Elt F) → (⟨S512x256, .f32⟩ : BufTy).Contents (Elt F) → (⟨S131040x256, .f32⟩ : BufTy).Contents (Elt F))
  :: StableHlo.unary main_v16 main_v840 (broadcastInDim S32x1 ![0] bcast_S32_S32x1_0 : (⟨S32, .i32⟩ : BufTy).Contents (Elt F) → (⟨S32x1, .i32⟩ : BufTy).Contents (Elt F))
  :: StableHlo.nullary main_c_199 (constantI S_ 32 7#32)
  :: StableHlo.unary main_c_199 main_v841 (broadcastInDim S32x1 ![] bcast_S_S32x1 : (⟨S_, .i32⟩ : BufTy).Contents (Elt F) → (⟨S32x1, .i32⟩ : BufTy).Contents (Elt F))
  :: StableHlo.binary main_v840 main_v841 main_v842 (addi : (⟨S32x1, .i32⟩ : BufTy).Contents (Elt F) → (⟨S32x1, .i32⟩ : BufTy).Contents (Elt F) → (⟨S32x1, .i32⟩ : BufTy).Contents (Elt F))
  :: StableHlo.nullary main_v843 (iotaInDim S8 32 0)
  :: StableHlo.unary main_v843 main_v844 (broadcastInDim S1x8 ![1] bcast_S8_S1x8_1 : (⟨S8, .i32⟩ : BufTy).Contents (Elt F) → (⟨S1x8, .i32⟩ : BufTy).Contents (Elt F))
  :: StableHlo.unary main_v842 main_v845 (broadcastInDim S32x8 ![0, 1] bcast_S32x1_S32x8_0_1 : (⟨S32x1, .i32⟩ : BufTy).Contents (Elt F) → (⟨S32x8, .i32⟩ : BufTy).Contents (Elt F))
  :: StableHlo.unary main_v844 main_v846 (broadcastInDim S32x8 ![0, 1] bcast_S1x8_S32x8_0_1 : (⟨S1x8, .i32⟩ : BufTy).Contents (Elt F) → (⟨S32x8, .i32⟩ : BufTy).Contents (Elt F))
  :: StableHlo.binary main_v845 main_v846 main_v847 (addi : (⟨S32x8, .i32⟩ : BufTy).Contents (Elt F) → (⟨S32x8, .i32⟩ : BufTy).Contents (Elt F) → (⟨S32x8, .i32⟩ : BufTy).Contents (Elt F))
  :: StableHlo.reshape main_v847 main_v848 rfl shapeCasts_S32x8_S256
  :: StableHlo.nullary main_c_200 (constantI S_ 32 0#32)
  :: StableHlo.unary main_c_200 main_v849 (broadcastInDim S256 ![] bcast_S_S256 : (⟨S_, .i32⟩ : BufTy).Contents (Elt F) → (⟨S256, .i32⟩ : BufTy).Contents (Elt F))
  :: StableHlo.binary main_v848 main_v849 main_v850 (cmpi .slt : (⟨S256, .i32⟩ : BufTy).Contents (Elt F) → (⟨S256, .i32⟩ : BufTy).Contents (Elt F) → (⟨S256, .i1⟩ : BufTy).Contents (Elt F))
  :: StableHlo.nullary main_c_201 (constantI S_ 32 131040#32)
  :: StableHlo.unary main_c_201 main_v851 (broadcastInDim S256 ![] bcast_S_S256 : (⟨S_, .i32⟩ : BufTy).Contents (Elt F) → (⟨S256, .i32⟩ : BufTy).Contents (Elt F))
  :: StableHlo.binary main_v848 main_v851 main_v852 (addi : (⟨S256, .i32⟩ : BufTy).Contents (Elt F) → (⟨S256, .i32⟩ : BufTy).Contents (Elt F) → (⟨S256, .i32⟩ : BufTy).Contents (Elt F))
  :: StableHlo.ternary main_v850 main_v852 main_v848 main_v853 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v853 main_v854 (broadcastInDim S256x1 ![0] bcast_S256_S256x1_0 : (⟨S256, .i32⟩ : BufTy).Contents (Elt F) → (⟨S256x1, .i32⟩ : BufTy).Contents (Elt F))
  :: StableHlo.binary main_v11 main_v854 main_v855 ((fun x i => Host.gather gather_S131040x768_S256x1_S256x768_1_0_n_n_0_1_1768 x i) : (⟨S131040x768, .f32⟩ : BufTy).Contents (Elt F) → (⟨S256x1, .i32⟩ : BufTy).Contents (Elt F) → (⟨S256x768, .f32⟩ : BufTy).Contents (Elt F))
  :: StableHlo.unary main_v16 main_v856 (broadcastInDim S32x1 ![0] bcast_S32_S32x1_0 : (⟨S32, .i32⟩ : BufTy).Contents (Elt F) → (⟨S32x1, .i32⟩ : BufTy).Contents (Elt F))
  :: StableHlo.nullary main_c_202 (constantI S_ 32 15#32)
  :: StableHlo.unary main_c_202 main_v857 (broadcastInDim S32x1 ![] bcast_S_S32x1 : (⟨S_, .i32⟩ : BufTy).Contents (Elt F) → (⟨S32x1, .i32⟩ : BufTy).Contents (Elt F))
  :: StableHlo.binary main_v856 main_v857 main_v858 (addi : (⟨S32x1, .i32⟩ : BufTy).Contents (Elt F) → (⟨S32x1, .i32⟩ : BufTy).Contents (Elt F) → (⟨S32x1, .i32⟩ : BufTy).Contents (Elt F))
  :: StableHlo.nullary main_v859 (iotaInDim S16 32 0)
  :: StableHlo.unary main_v859 main_v860 (broadcastInDim S1x16 ![1] bcast_S16_S1x16_1 : (⟨S16, .i32⟩ : BufTy).Contents (Elt F) → (⟨S1x16, .i32⟩ : BufTy).Contents (Elt F))
  :: StableHlo.unary main_v858 main_v861 (broadcastInDim S32x16 ![0, 1] bcast_S32x1_S32x16_0_1 : (⟨S32x1, .i32⟩ : BufTy).Contents (Elt F) → (⟨S32x16, .i32⟩ : BufTy).Contents (Elt F))
  :: StableHlo.unary main_v860 main_v862 (broadcastInDim S32x16 ![0, 1] bcast_S1x16_S32x16_0_1 : (⟨S1x16, .i32⟩ : BufTy).Contents (Elt F) → (⟨S32x16, .i32⟩ : BufTy).Contents (Elt F))
  :: StableHlo.binary main_v861 main_v862 main_v863 (addi : (⟨S32x16, .i32⟩ : BufTy).Contents (Elt F) → (⟨S32x16, .i32⟩ : BufTy).Contents (Elt F) → (⟨S32x16, .i32⟩ : BufTy).Contents (Elt F))
  :: StableHlo.reshape main_v863 main_v864 rfl shapeCasts_S32x16_S512
  :: StableHlo.nullary main_c_203 (constantI S_ 32 0#32)
  :: StableHlo.unary main_c_203 main_v865 (broadcastInDim S512 ![] bcast_S_S512 : (⟨S_, .i32⟩ : BufTy).Contents (Elt F) → (⟨S512, .i32⟩ : BufTy).Contents (Elt F))
  :: StableHlo.binary main_v864 main_v865 main_v866 (cmpi .slt : (⟨S512, .i32⟩ : BufTy).Contents (Elt F) → (⟨S512, .i32⟩ : BufTy).Contents (Elt F) → (⟨S512, .i1⟩ : BufTy).Contents (Elt F))
  :: StableHlo.nullary main_c_204 (constantI S_ 32 131040#32)
  :: StableHlo.unary main_c_204 main_v867 (broadcastInDim S512 ![] bcast_S_S512 : (⟨S_, .i32⟩ : BufTy).Contents (Elt F) → (⟨S512, .i32⟩ : BufTy).Contents (Elt F))
  :: StableHlo.binary main_v864 main_v867 main_v868 (addi : (⟨S512, .i32⟩ : BufTy).Contents (Elt F) → (⟨S512, .i32⟩ : BufTy).Contents (Elt F) → (⟨S512, .i32⟩ : BufTy).Contents (Elt F))
  :: StableHlo.ternary main_v866 main_v868 main_v864 main_v869 (select : (⟨S512, .i1⟩ : BufTy).Contents (Elt F) → (⟨S512, .i32⟩ : BufTy).Contents (Elt F) → (⟨S512, .i32⟩ : BufTy).Contents (Elt F) → (⟨S512, .i32⟩ : BufTy).Contents (Elt F))
  :: StableHlo.unary main_v869 main_v870 (broadcastInDim S512x1 ![0] bcast_S512_S512x1_0 : (⟨S512, .i32⟩ : BufTy).Contents (Elt F) → (⟨S512x1, .i32⟩ : BufTy).Contents (Elt F))
  :: StableHlo.binary main_v832 main_v870 main_v871 ((fun x i => Host.gather gather_S131040x256_S512x1_S512x256_1_0_n_n_0_1_1256 x i) : (⟨S131040x256, .f32⟩ : BufTy).Contents (Elt F) → (⟨S512x1, .i32⟩ : BufTy).Contents (Elt F) → (⟨S512x256, .f32⟩ : BufTy).Contents (Elt F))
  :: StableHlo.nullary main_c_205 (constantI S_ 32 0#32)
  :: [] )
/-- Each touches TensorCore references only (`HostSeg.ofOps` over `StableHlo.tcRefs`, or a subset by `sub_ucRefs`). -/
theorem main_part17_ops0_sub : (main_part17_ops0 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- Window 17 of `main` (`main_part17`, statements 1021 … 1080) is the chain of ITS items ending in the last
    (`Pipeline.chainK`: no closing `pure`, the window's last statement being in tail position), by `chain_rfl`. -/
theorem main_part17_chain (c : Dev nD) : main_part17 (F := F) c = (Pipeline.chainK
  [  ]
  (StableHlo.seq main_part17_ops0) : Prog (TpuEff nD τ sig (Elt F) (Pipeline.Sig Λ₀ (Fin 0) fun p => (pcfgs (F := F) p).Adm) .tc) PUnit) := by
  chain_rfl

/-- 18 host operations of @main, window 18 (statements 1081 … 1140), in order. -/
abbrev main_part18_ops0 : List (HloOp τ sig (Elt F)) :=
  [ StableHlo.unary main_c_205 main_v872 (broadcastInDim S512 ![] bcast_S_S512 : (⟨S_, .i32⟩ : BufTy).Contents (Elt F) → (⟨S512, .i32⟩ : BufTy).Contents (Elt F)),
    StableHlo.binary main_v864 main_v872 main_v873 (cmpi .slt : (⟨S512, .i32⟩ : BufTy).Contents (Elt F) → (⟨S512, .i32⟩ : BufTy).Contents (Elt F) → (⟨S512, .i1⟩ : BufTy).Contents (Elt F)),
    StableHlo.nullary main_c_206 (constantI S_ 32 131040#32),
    StableHlo.unary main_c_206 main_v874 (broadcastInDim S512 ![] bcast_S_S512 : (⟨S_, .i32⟩ : BufTy).Contents (Elt F) → (⟨S512, .i32⟩ : BufTy).Contents (Elt F)),
    StableHlo.binary main_v864 main_v874 main_v875 (addi : (⟨S512, .i32⟩ : BufTy).Contents (Elt F) → (⟨S512, .i32⟩ : BufTy).Contents (Elt F) → (⟨S512, .i32⟩ : BufTy).Contents (Elt F)),
    StableHlo.ternary main_v873 main_v875 main_v864 main_v876 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v876 main_v877 (broadcastInDim S512x1 ![0] bcast_S512_S512x1_0 : (⟨S512, .i32⟩ : BufTy).Contents (Elt F) → (⟨S512x1, .i32⟩ : BufTy).Contents (Elt F)),
    StableHlo.binary main_v839 main_v877 main_v878 ((fun x i => Host.gather gather_S131040x256_S512x1_S512x256_1_0_n_n_0_1_1256 x i) : (⟨S131040x256, .f32⟩ : BufTy).Contents (Elt F) → (⟨S512x1, .i32⟩ : BufTy).Contents (Elt F) → (⟨S512x256, .f32⟩ : BufTy).Contents (Elt F)),
    StableHlo.nullary main_c_207 (constantI S_ 32 0#32),
    StableHlo.unary main_c_207 main_v879 (broadcastInDim S512 ![] bcast_S_S512 : (⟨S_, .i32⟩ : BufTy).Contents (Elt F) → (⟨S512, .i32⟩ : BufTy).Contents (Elt F)),
    StableHlo.binary main_v864 main_v879 main_v880 (cmpi .slt : (⟨S512, .i32⟩ : BufTy).Contents (Elt F) → (⟨S512, .i32⟩ : BufTy).Contents (Elt F) → (⟨S512, .i1⟩ : BufTy).Contents (Elt F)),
    StableHlo.nullary main_c_208 (constantI S_ 32 131040#32),
    StableHlo.unary main_c_208 main_v881 (broadcastInDim S512 ![] bcast_S_S512 : (⟨S_, .i32⟩ : BufTy).Contents (Elt F) → (⟨S512, .i32⟩ : BufTy).Contents (Elt F)),
    StableHlo.binary main_v864 main_v881 main_v882 (addi : (⟨S512, .i32⟩ : BufTy).Contents (Elt F) → (⟨S512, .i32⟩ : BufTy).Contents (Elt F) → (⟨S512, .i32⟩ : BufTy).Contents (Elt F)),
    StableHlo.ternary main_v880 main_v882 main_v864 main_v883 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    StableHlo.unary main_v883 main_v884 (broadcastInDim S512x1 ![0] bcast_S512_S512x1_0 : (⟨S512, .i32⟩ : BufTy).Contents (Elt F) → (⟨S512x1, .i32⟩ : BufTy).Contents (Elt F)),
    StableHlo.binary main_arg1 main_v884 main_v885 ((fun x i => Host.gather gather_S131040_S512x1_S512_n_0_n_n_0_1_1 x i) : (⟨S131040, .i32⟩ : BufTy).Contents (Elt F) → (⟨S512x1, .i32⟩ : BufTy).Contents (Elt F) → (⟨S512, .i32⟩ : BufTy).Contents (Elt F)),
    StableHlo.nullary main_c_209 (constantI S_ 32 4095#32) ]
/-- Each touches TensorCore references only (`HostSeg.ofOps` over `StableHlo.tcRefs`, or a subset by `sub_ucRefs`). -/
theorem main_part18_ops0_sub : (main_part18_ops0 : List (HloOp τ sig (Elt F))).Forall fun op => op.bufs ⊆ StableHlo.tcRefs τ sig :=
  ⟨StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_19 (main_call14), window 18 (statements 1081 … 1140), in order. -/
abbrev main_part18_ops1 : List (HloOp τ sig (Elt F)) :=
  [ StableHlo.TRef.unary (.of main_c_209 : StableHlo.TRef sig ⟨S_, .i32⟩) (.of main_call14_v0 : StableHlo.TRef sig ⟨S_, .i32⟩) id,
    StableHlo.TRef.unary (.of main_call14_v0 : StableHlo.TRef sig ⟨S_, .i32⟩) (.of main_call14_v1 : StableHlo.TRef sig ⟨S512, .i32⟩) (broadcastInDim S512 ![] bcast_S_S512),
    StableHlo.TRef.binary (.of main_v885 : StableHlo.TRef sig ⟨S512, .i32⟩) (.of main_call14_v1 : StableHlo.TRef sig ⟨S512, .i32⟩) (.of main_call14_v2 : StableHlo.TRef sig ⟨S512, .i32⟩) Host.divsi,
    StableHlo.TRef.unary (.of main_v885 : StableHlo.TRef sig ⟨S512, .i32⟩) (.of main_call14_v3 : StableHlo.TRef sig ⟨S512, .i32⟩) signi,
    StableHlo.TRef.unary (.of main_call14_v0 : StableHlo.TRef sig ⟨S_, .i32⟩) (.of main_call14_v4 : StableHlo.TRef sig ⟨S_, .i32⟩) signi,
    StableHlo.TRef.unary (.of main_call14_v4 : StableHlo.TRef sig ⟨S_, .i32⟩) (.of main_call14_v5 : StableHlo.TRef sig ⟨S512, .i32⟩) (broadcastInDim S512 ![] bcast_S_S512),
    StableHlo.TRef.binary (.of main_call14_v3 : StableHlo.TRef sig ⟨S512, .i32⟩) (.of main_call14_v5 : StableHlo.TRef sig ⟨S512, .i32⟩) (.of main_call14_v6 : StableHlo.TRef sig ⟨S512, .i1⟩) (cmpi .ne),
    StableHlo.TRef.unary (.of main_call14_v0 : StableHlo.TRef sig ⟨S_, .i32⟩) (.of main_call14_v7 : StableHlo.TRef sig ⟨S512, .i32⟩) (broadcastInDim S512 ![] bcast_S_S512),
    StableHlo.TRef.binary (.of main_v885 : StableHlo.TRef sig ⟨S512, .i32⟩) (.of main_call14_v7 : StableHlo.TRef sig ⟨S512, .i32⟩) (.of main_call14_v8 : StableHlo.TRef sig ⟨S512, .i32⟩) Host.remsi,
    StableHlo.TRef.nullary (.of main_call14_c : StableHlo.TRef sig ⟨S_, .i32⟩) (constantI S_ 32 0#32),
    StableHlo.TRef.unary (.of main_call14_c : StableHlo.TRef sig ⟨S_, .i32⟩) (.of main_call14_v9 : StableHlo.TRef sig ⟨S512, .i32⟩) (broadcastInDim S512 ![] bcast_S_S512),
    StableHlo.TRef.binary (.of main_call14_v8 : StableHlo.TRef sig ⟨S512, .i32⟩) (.of main_call14_v9 : StableHlo.TRef sig ⟨S512, .i32⟩) (.of main_call14_v10 : StableHlo.TRef sig ⟨S512, .i1⟩) (cmpi .ne),
    StableHlo.TRef.binary (.of main_call14_v6 : StableHlo.TRef sig ⟨S512, .i1⟩) (.of main_call14_v10 : StableHlo.TRef sig ⟨S512, .i1⟩) (.of main_call14_v11 : StableHlo.TRef sig ⟨S512, .i1⟩) andi,
    StableHlo.TRef.nullary (.of main_call14_c_0 : StableHlo.TRef sig ⟨S_, .i32⟩) (constantI S_ 32 1#32),
    StableHlo.TRef.unary (.of main_call14_c_0 : StableHlo.TRef sig ⟨S_, .i32⟩) (.of main_call14_v12 : StableHlo.TRef sig ⟨S512, .i32⟩) (broadcastInDim S512 ![] bcast_S_S512),
    StableHlo.TRef.binary (.of main_call14_v2 : StableHlo.TRef sig ⟨S512, .i32⟩) (.of main_call14_v12 : StableHlo.TRef sig ⟨S512, .i32⟩) (.of main_call14_v13 : StableHlo.TRef sig ⟨S512, .i32⟩) subi,
    StableHlo.TRef.ternary (.of main_call14_v11 : StableHlo.TRef sig ⟨S512, .i1⟩) (.of main_call14_v13 : StableHlo.TRef sig ⟨S512, .i32⟩) (.of main_call14_v2 : StableHlo.TRef sig ⟨S512, .i32⟩) (.of main_v886 : StableHlo.TRef sig ⟨S512, .i32⟩) select ]
/-- Each touches TensorCore references only (`HostSeg.ofOps` over `StableHlo.tcRefs`, or a subset by `sub_ucRefs`). -/
theorem main_part18_ops1_sub : (main_part18_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 18 (statements 1081 … 1140), in order. -/
abbrev main_part18_ops2 : List (HloOp τ sig (Elt F)) :=
  [ StableHlo.nullary main_c_210 (constantI S_ 32 8#32),
    StableHlo.unary main_c_210 main_v887 (broadcastInDim S512 ![] bcast_S_S512 : (⟨S_, .i32⟩ : BufTy).Contents (Elt F) → (⟨S512, .i32⟩ : BufTy).Contents (Elt F)),
    StableHlo.binary main_v886 main_v887 main_v888 (muli : (⟨S512, .i32⟩ : BufTy).Contents (Elt F) → (⟨S512, .i32⟩ : BufTy).Contents (Elt F) → (⟨S512, .i32⟩ : BufTy).Contents (Elt F)),
    StableHlo.nullary main_c_211 (constantI S_ 32 4095#32) ]
/-- Each touches TensorCore references only (`HostSeg.ofOps` over `StableHlo.tcRefs`, or a subset by `sub_ucRefs`). -/
theorem main_part18_ops2_sub : (main_part18_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_21 (main_call15), window 18 (statements 1081 … 1140), in order. -/
abbrev main_part18_ops3 : List (HloOp τ sig (Elt F)) :=
  [ StableHlo.TRef.unary (.of main_c_211 : StableHlo.TRef sig ⟨S_, .i32⟩) (.of main_call15_v0 : StableHlo.TRef sig ⟨S_, .i32⟩) id,
    StableHlo.TRef.nullary (.of main_call15_c : StableHlo.TRef sig ⟨S_, .i32⟩) (constantI S_ 32 0#32),
    StableHlo.TRef.binary (.of main_call15_v0 : StableHlo.TRef sig ⟨S_, .i32⟩) (.of main_call15_c : StableHlo.TRef sig ⟨S_, .i32⟩) (.of main_call15_v1 : StableHlo.TRef sig ⟨S_, .i1⟩) (cmpi .eq),
    StableHlo.TRef.nullary (.of main_call15_c_0 : StableHlo.TRef sig ⟨S_, .i32⟩) (constantI S_ 32 1#32),
    StableHlo.TRef.ternary (.of main_call15_v1 : StableHlo.TRef sig ⟨S_, .i1⟩) (.of main_call15_c_0 : StableHlo.TRef sig ⟨S_, .i32⟩) (.of main_call15_v0 : StableHlo.TRef sig ⟨S_, .i32⟩) (.of main_call15_v2 : StableHlo.TRef sig ⟨S_, .i32⟩) select,
    StableHlo.TRef.unary main_call15_call0.v0 (.of main_call15_v3 : StableHlo.TRef sig ⟨S512, .i32⟩) (broadcastInDim S512 ![] bcast_S_S512),
    StableHlo.TRef.binary (.of main_v885 : StableHlo.TRef sig ⟨S512, .i32⟩) (.of main_call15_v3 : StableHlo.TRef sig ⟨S512, .i32⟩) (.of main_call15_v4 : StableHlo.TRef sig ⟨S512, .i32⟩) Host.remsi,
    StableHlo.TRef.nullary (.of main_call15_c_1 : StableHlo.TRef sig ⟨S_, .i32⟩) (constantI S_ 32 0#32),
    StableHlo.TRef.unary (.of main_call15_c_1 : StableHlo.TRef sig ⟨S_, .i32⟩) (.of main_call15_v5 : StableHlo.TRef sig ⟨S512, .i32⟩) (broadcastInDim S512 ![] bcast_S_S512),
    StableHlo.TRef.binary (.of main_call15_v4 : StableHlo.TRef sig ⟨S512, .i32⟩) (.of main_call15_v5 : StableHlo.TRef sig ⟨S512, .i32⟩) (.of main_call15_v6 : StableHlo.TRef sig ⟨S512, .i1⟩) (cmpi .ne),
    StableHlo.TRef.nullary (.of main_call15_c_2 : StableHlo.TRef sig ⟨S_, .i32⟩) (constantI S_ 32 0#32),
    StableHlo.TRef.unary (.of main_call15_c_2 : StableHlo.TRef sig ⟨S_, .i32⟩) (.of main_call15_v7 : StableHlo.TRef sig ⟨S512, .i32⟩) (broadcastInDim S512 ![] bcast_S_S512),
    StableHlo.TRef.binary (.of main_call15_v4 : StableHlo.TRef sig ⟨S512, .i32⟩) (.of main_call15_v7 : StableHlo.TRef sig ⟨S512, .i32⟩) (.of main_call15_v8 : StableHlo.TRef sig ⟨S512, .i1⟩) (cmpi .slt),
    StableHlo.TRef.nullary (.of main_call15_c_3 : StableHlo.TRef sig ⟨S_, .i32⟩) (constantI S_ 32 0#32),
    StableHlo.TRef.binary main_call15_call0.v0 (.of main_call15_c_3 : StableHlo.TRef sig ⟨S_, .i32⟩) (.of main_call15_v9 : StableHlo.TRef sig ⟨S_, .i1⟩) (cmpi .slt),
    StableHlo.TRef.unary (.of main_call15_v9 : StableHlo.TRef sig ⟨S_, .i1⟩) (.of main_call15_v10 : StableHlo.TRef sig ⟨S512, .i1⟩) (broadcastInDim S512 ![] bcast_S_S512),
    StableHlo.TRef.binary (.of main_call15_v8 : StableHlo.TRef sig ⟨S512, .i1⟩) (.of main_call15_v10 : StableHlo.TRef sig ⟨S512, .i1⟩) (.of main_call15_v11 : StableHlo.TRef sig ⟨S512, .i1⟩) (cmpi .ne),
    StableHlo.TRef.binary (.of main_call15_v11 : StableHlo.TRef sig ⟨S512, .i1⟩) (.of main_call15_v6 : StableHlo.TRef sig ⟨S512, .i1⟩) (.of main_call15_v12 : StableHlo.TRef sig ⟨S512, .i1⟩) andi,
    StableHlo.TRef.unary main_call15_call0.v0 (.of main_call15_v13 : StableHlo.TRef sig ⟨S512, .i32⟩) (broadcastInDim S512 ![] bcast_S_S512),
    StableHlo.TRef.binary (.of main_call15_v4 : StableHlo.TRef sig ⟨S512, .i32⟩) (.of main_call15_v13 : StableHlo.TRef sig ⟨S512, .i32⟩) (.of main_call15_v14 : StableHlo.TRef sig ⟨S512, .i32⟩) addi,
    StableHlo.TRef.ternary (.of main_call15_v12 : StableHlo.TRef sig ⟨S512, .i1⟩) (.of main_call15_v14 : StableHlo.TRef sig ⟨S512, .i32⟩) (.of main_call15_v4 : StableHlo.TRef sig ⟨S512, .i32⟩) (.of main_v889 : StableHlo.TRef sig ⟨S512, .i32⟩) select ]
/-- Each touches TensorCore references only (`HostSeg.ofOps` over `StableHlo.tcRefs`, or a subset by `sub_ucRefs`). -/
theorem main_part18_ops3_sub : (main_part18_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 36 host operations of @main, window 18 (statements 1081 … 1140), in order. -/
abbrev main_part18_ops4 : List (HloOp τ sig (Elt F)) :=
  ( StableHlo.nullary main_c_212 (constantI S_ 32 7#32)
  :: StableHlo.unary main_c_212 main_v890 (broadcastInDim S512 ![] bcast_S_S512 : (⟨S_, .i32⟩ : BufTy).Contents (Elt F) → (⟨S512, .i32⟩ : BufTy).Contents (Elt F))
  :: StableHlo.binary main_v889 main_v890 main_v891 (subi : (⟨S512, .i32⟩ : BufTy).Contents (Elt F) → (⟨S512, .i32⟩ : BufTy).Contents (Elt F) → (⟨S512, .i32⟩ : BufTy).Contents (Elt F))
  :: StableHlo.binary main_v888 main_v891 main_v892 (addi : (⟨S512, .i32⟩ : BufTy).Contents (Elt F) → (⟨S512, .i32⟩ : BufTy).Contents (Elt F) → (⟨S512, .i32⟩ : BufTy).Contents (Elt F))
  :: StableHlo.unary main_arg6 main_v893 ((transpose S256x256 [1, 0] · transposes_S256x256_S256x256_1_0) : (⟨S256x256, .f32⟩ : BufTy).Contents (Elt F) → (⟨S256x256, .f32⟩ : BufTy).Contents (Elt F))
  :: StableHlo.binary main_v871 main_v893 main_v894 ((fun l r => Host.dotGeneral dot_S512x256_S256x256_S512x256_1_0_0_1_n_n none l r) : (⟨S512x256, .f32⟩ : BufTy).Contents (Elt F) → (⟨S256x256, .f32⟩ : BufTy).Contents (Elt F) → (⟨S512x256, .f32⟩ : BufTy).Contents (Elt F))
  :: StableHlo.unary main_arg7 main_v895 (broadcastInDim S1x256 ![1] bcast_S256_S1x256_1 : (⟨S256, .f32⟩ : BufTy).Contents (Elt F) → (⟨S1x256, .f32⟩ : BufTy).Contents (Elt F))
  :: StableHlo.unary main_v895 main_v896 (broadcastInDim S512x256 ![0, 1] bcast_S1x256_S512x256_0_1 : (⟨S1x256, .f32⟩ : BufTy).Contents (Elt F) → (⟨S512x256, .f32⟩ : BufTy).Contents (Elt F))
  :: StableHlo.binary main_v894 main_v896 main_v897 (addf : (⟨S512x256, .f32⟩ : BufTy).Contents (Elt F) → (⟨S512x256, .f32⟩ : BufTy).Contents (Elt F) → (⟨S512x256, .f32⟩ : BufTy).Contents (Elt F))
  :: StableHlo.unary main_v897 main_v898 (Host.negf : (⟨S512x256, .f32⟩ : BufTy).Contents (Elt F) → (⟨S512x256, .f32⟩ : BufTy).Contents (Elt F))
  :: StableHlo.unary main_v898 main_v899 (Host.exp : (⟨S512x256, .f32⟩ : BufTy).Contents (Elt F) → (⟨S512x256, .f32⟩ : BufTy).Contents (Elt F))
  :: StableHlo.nullary main_cst_213 (constant S_ .f32 0x3F800000#32)
  :: StableHlo.unary main_cst_213 main_v900 (broadcastInDim S512x256 ![] bcast_S_S512x256 : (⟨S_, .f32⟩ : BufTy).Contents (Elt F) → (⟨S512x256, .f32⟩ : BufTy).Contents (Elt F))
  :: StableHlo.binary main_v900 main_v899 main_v901 (addf : (⟨S512x256, .f32⟩ : BufTy).Contents (Elt F) → (⟨S512x256, .f32⟩ : BufTy).Contents (Elt F) → (⟨S512x256, .f32⟩ : BufTy).Contents (Elt F))
  :: StableHlo.nullary main_cst_214 (constant S_ .f32 0x3F800000#32)
  :: StableHlo.unary main_cst_214 main_v902 (broadcastInDim S512x256 ![] bcast_S_S512x256 : (⟨S_, .f32⟩ : BufTy).Contents (Elt F) → (⟨S512x256, .f32⟩ : BufTy).Contents (Elt F))
  :: StableHlo.binary main_v902 main_v901 main_v903 (Host.divf : (⟨S512x256, .f32⟩ : BufTy).Contents (Elt F) → (⟨S512x256, .f32⟩ : BufTy).Contents (Elt F) → (⟨S512x256, .f32⟩ : BufTy).Contents (Elt F))
  :: StableHlo.nullary main_cst_215 (constant S_ .f32 0x00000000#32)
  :: StableHlo.unary main_cst_215 main_v904 (broadcastInDim S256x256 ![] bcast_S_S256x256 : (⟨S_, .f32⟩ : BufTy).Contents (Elt F) → (⟨S256x256, .f32⟩ : BufTy).Contents (Elt F))
  :: StableHlo.unary main_v892 main_v905 (broadcastInDim S512x1 ![0] bcast_S512_S512x1_0 : (⟨S512, .i32⟩ : BufTy).Contents (Elt F) → (⟨S512x1, .i32⟩ : BufTy).Contents (Elt F))
  :: StableHlo.ternary main_v904 main_v905 main_v871 main_v906 ((fun x i u => Host.scatterAdd scatter_S256x256_S512x1_S512x256_1_0_0_1 x i u) : (⟨S256x256, .f32⟩ : BufTy).Contents (Elt F) → (⟨S512x1, .i32⟩ : BufTy).Contents (Elt F) → (⟨S512x256, .f32⟩ : BufTy).Contents (Elt F) → (⟨S256x256, .f32⟩ : BufTy).Contents (Elt F))
  :: StableHlo.binary main_v903 main_v878 main_v907 (mulf : (⟨S512x256, .f32⟩ : BufTy).Contents (Elt F) → (⟨S512x256, .f32⟩ : BufTy).Contents (Elt F) → (⟨S512x256, .f32⟩ : BufTy).Contents (Elt F))
  :: StableHlo.nullary main_cst_216 (constant S_ .f32 0x00000000#32)
  :: StableHlo.unary main_cst_216 main_v908 (broadcastInDim S256x256 ![] bcast_S_S256x256 : (⟨S_, .f32⟩ : BufTy).Contents (Elt F) → (⟨S256x256, .f32⟩ : BufTy).Contents (Elt F))
  :: StableHlo.unary main_v892 main_v909 (broadcastInDim S512x1 ![0] bcast_S512_S512x1_0 : (⟨S512, .i32⟩ : BufTy).Contents (Elt F) → (⟨S512x1, .i32⟩ : BufTy).Contents (Elt F))
  :: StableHlo.ternary main_v908 main_v909 main_v907 main_v910 ((fun x i u => Host.scatterAdd scatter_S256x256_S512x1_S512x256_1_0_0_1 x i u) : (⟨S256x256, .f32⟩ : BufTy).Contents (Elt F) → (⟨S512x1, .i32⟩ : BufTy).Contents (Elt F) → (⟨S512x256, .f32⟩ : BufTy).Contents (Elt F) → (⟨S256x256, .f32⟩ : BufTy).Contents (Elt F))
  :: StableHlo.unary main_arg4 main_v911 ((transpose S256x768 [1, 0] · transposes_S768x256_S256x768_1_0) : (⟨S768x256, .f32⟩ : BufTy).Contents (Elt F) → (⟨S256x768, .f32⟩ : BufTy).Contents (Elt F))
  :: StableHlo.binary main_v906 main_v911 main_v912 ((fun l r => Host.dotGeneral dot_S256x256_S256x768_S256x768_1_0_0_1_n_n none l r) : (⟨S256x256, .f32⟩ : BufTy).Contents (Elt F) → (⟨S256x768, .f32⟩ : BufTy).Contents (Elt F) → (⟨S256x768, .f32⟩ : BufTy).Contents (Elt F))
  :: StableHlo.binary main_v855 main_v912 main_v913 (addf : (⟨S256x768, .f32⟩ : BufTy).Contents (Elt F) → (⟨S256x768, .f32⟩ : BufTy).Contents (Elt F) → (⟨S256x768, .f32⟩ : BufTy).Contents (Elt F))
  :: StableHlo.unary main_arg5 main_v914 (broadcastInDim S256x768 ![0, 1] bcast_S1x768_S256x768_0_1 : (⟨S1x768, .f32⟩ : BufTy).Contents (Elt F) → (⟨S256x768, .f32⟩ : BufTy).Contents (Elt F))
  :: StableHlo.binary main_v913 main_v914 main_v915 (addf : (⟨S256x768, .f32⟩ : BufTy).Contents (Elt F) → (⟨S256x768, .f32⟩ : BufTy).Contents (Elt F) → (⟨S256x768, .f32⟩ : BufTy).Contents (Elt F))
  :: StableHlo.unary main_v915 main_v916 ((extractStridedSlice S256x256 ![0, 0] · slices_S256x768_S256x256_0_0) : (⟨S256x768, .f32⟩ : BufTy).Contents (Elt F) → (⟨S256x256, .f32⟩ : BufTy).Contents (Elt F))
  :: StableHlo.unary main_v915 main_v917 ((extractStridedSlice S256x256 ![0, 256] · slices_S256x768_S256x256_0_256) : (⟨S256x768, .f32⟩ : BufTy).Contents (Elt F) → (⟨S256x256, .f32⟩ : BufTy).Contents (Elt F))
  :: StableHlo.unary main_v915 main_v918 ((extractStridedSlice S256x256 ![0, 512] · slices_S256x768_S256x256_0_512) : (⟨S256x768, .f32⟩ : BufTy).Contents (Elt F) → (⟨S256x256, .f32⟩ : BufTy).Contents (Elt F))
  :: StableHlo.unary main_v916 main_v919 (Host.negf : (⟨S256x256, .f32⟩ : BufTy).Contents (Elt F) → (⟨S256x256, .f32⟩ : BufTy).Contents (Elt F))
  :: StableHlo.unary main_v919 main_v920 (Host.exp : (⟨S256x256, .f32⟩ : BufTy).Contents (Elt F) → (⟨S256x256, .f32⟩ : BufTy).Contents (Elt F))
  :: [] )
/-- Each touches TensorCore references only (`HostSeg.ofOps` over `StableHlo.tcRefs`, or a subset by `sub_ucRefs`). -/
theorem main_part18_ops4_sub : (main_part18_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub ..⟩
/-- Window 18 of `main` (`main_part18`, statements 1081 … 1140) is the chain of ITS items ending in the last
    (`Pipeline.chainK`: no closing `pure`, the window's last statement being in tail position), by `chain_rfl`. -/
theorem main_part18_chain (c : Dev nD) : main_part18 (F := F) c = (Pipeline.chainK
  [ StableHlo.seq main_part18_ops0,
    StableHlo.seq main_part18_ops1,
    StableHlo.seq main_part18_ops2,
    StableHlo.seq main_part18_ops3 ]
  (StableHlo.seq main_part18_ops4) : Prog (TpuEff nD τ sig (Elt F) (Pipeline.Sig Λ₀ (Fin 0) fun p => (pcfgs (F := F) p).Adm) .tc) PUnit) := by
  chain_rfl

/-- 60 host operations of @main, window 19 (statements 1141 … 1200), in order. -/
abbrev main_part19_ops0 : List (HloOp τ sig (Elt F)) :=
  ( StableHlo.nullary main_cst_217 (constant S_ .f32 0x3F800000#32)
  :: StableHlo.unary main_cst_217 main_v921 (broadcastInDim S256x256 ![] bcast_S_S256x256 : (⟨S_, .f32⟩ : BufTy).Contents (Elt F) → (⟨S256x256, .f32⟩ : BufTy).Contents (Elt F))
  :: StableHlo.binary main_v921 main_v920 main_v922 (addf : (⟨S256x256, .f32⟩ : BufTy).Contents (Elt F) → (⟨S256x256, .f32⟩ : BufTy).Contents (Elt F) → (⟨S256x256, .f32⟩ : BufTy).Contents (Elt F))
  :: StableHlo.nullary main_cst_218 (constant S_ .f32 0x3F800000#32)
  :: StableHlo.unary main_cst_218 main_v923 (broadcastInDim S256x256 ![] bcast_S_S256x256 : (⟨S_, .f32⟩ : BufTy).Contents (Elt F) → (⟨S256x256, .f32⟩ : BufTy).Contents (Elt F))
  :: StableHlo.binary main_v923 main_v922 main_v924 (Host.divf : (⟨S256x256, .f32⟩ : BufTy).Contents (Elt F) → (⟨S256x256, .f32⟩ : BufTy).Contents (Elt F) → (⟨S256x256, .f32⟩ : BufTy).Contents (Elt F))
  :: StableHlo.unary main_v918 main_v925 (Host.tanh : (⟨S256x256, .f32⟩ : BufTy).Contents (Elt F) → (⟨S256x256, .f32⟩ : BufTy).Contents (Elt F))
  :: StableHlo.binary main_v924 main_v925 main_v926 (mulf : (⟨S256x256, .f32⟩ : BufTy).Contents (Elt F) → (⟨S256x256, .f32⟩ : BufTy).Contents (Elt F) → (⟨S256x256, .f32⟩ : BufTy).Contents (Elt F))
  :: StableHlo.binary main_v926 main_v910 main_v927 (addf : (⟨S256x256, .f32⟩ : BufTy).Contents (Elt F) → (⟨S256x256, .f32⟩ : BufTy).Contents (Elt F) → (⟨S256x256, .f32⟩ : BufTy).Contents (Elt F))
  :: StableHlo.unary main_v917 main_v928 (Host.negf : (⟨S256x256, .f32⟩ : BufTy).Contents (Elt F) → (⟨S256x256, .f32⟩ : BufTy).Contents (Elt F))
  :: StableHlo.unary main_v928 main_v929 (Host.exp : (⟨S256x256, .f32⟩ : BufTy).Contents (Elt F) → (⟨S256x256, .f32⟩ : BufTy).Contents (Elt F))
  :: StableHlo.nullary main_cst_219 (constant S_ .f32 0x3F800000#32)
  :: StableHlo.unary main_cst_219 main_v930 (broadcastInDim S256x256 ![] bcast_S_S256x256 : (⟨S_, .f32⟩ : BufTy).Contents (Elt F) → (⟨S256x256, .f32⟩ : BufTy).Contents (Elt F))
  :: StableHlo.binary main_v930 main_v929 main_v931 (addf : (⟨S256x256, .f32⟩ : BufTy).Contents (Elt F) → (⟨S256x256, .f32⟩ : BufTy).Contents (Elt F) → (⟨S256x256, .f32⟩ : BufTy).Contents (Elt F))
  :: StableHlo.nullary main_cst_220 (constant S_ .f32 0x3F800000#32)
  :: StableHlo.unary main_cst_220 main_v932 (broadcastInDim S256x256 ![] bcast_S_S256x256 : (⟨S_, .f32⟩ : BufTy).Contents (Elt F) → (⟨S256x256, .f32⟩ : BufTy).Contents (Elt F))
  :: StableHlo.binary main_v932 main_v931 main_v933 (Host.divf : (⟨S256x256, .f32⟩ : BufTy).Contents (Elt F) → (⟨S256x256, .f32⟩ : BufTy).Contents (Elt F) → (⟨S256x256, .f32⟩ : BufTy).Contents (Elt F))
  :: StableHlo.unary main_v927 main_v934 (Host.tanh : (⟨S256x256, .f32⟩ : BufTy).Contents (Elt F) → (⟨S256x256, .f32⟩ : BufTy).Contents (Elt F))
  :: StableHlo.binary main_v933 main_v934 main_v935 (mulf : (⟨S256x256, .f32⟩ : BufTy).Contents (Elt F) → (⟨S256x256, .f32⟩ : BufTy).Contents (Elt F) → (⟨S256x256, .f32⟩ : BufTy).Contents (Elt F))
  :: StableHlo.nullary main_c_221 (constantI S_ 32 0#32)
  :: StableHlo.unary main_c_221 main_v936 (broadcastInDim S256 ![] bcast_S_S256 : (⟨S_, .i32⟩ : BufTy).Contents (Elt F) → (⟨S256, .i32⟩ : BufTy).Contents (Elt F))
  :: StableHlo.binary main_v848 main_v936 main_v937 (cmpi .slt : (⟨S256, .i32⟩ : BufTy).Contents (Elt F) → (⟨S256, .i32⟩ : BufTy).Contents (Elt F) → (⟨S256, .i1⟩ : BufTy).Contents (Elt F))
  :: StableHlo.nullary main_c_222 (constantI S_ 32 131040#32)
  :: StableHlo.unary main_c_222 main_v938 (broadcastInDim S256 ![] bcast_S_S256 : (⟨S_, .i32⟩ : BufTy).Contents (Elt F) → (⟨S256, .i32⟩ : BufTy).Contents (Elt F))
  :: StableHlo.binary main_v848 main_v938 main_v939 (addi : (⟨S256, .i32⟩ : BufTy).Contents (Elt F) → (⟨S256, .i32⟩ : BufTy).Contents (Elt F) → (⟨S256, .i32⟩ : BufTy).Contents (Elt F))
  :: StableHlo.ternary main_v937 main_v939 main_v848 main_v940 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v940 main_v941 (broadcastInDim S256x1 ![0] bcast_S256_S256x1_0 : (⟨S256, .i32⟩ : BufTy).Contents (Elt F) → (⟨S256x1, .i32⟩ : BufTy).Contents (Elt F))
  :: StableHlo.ternary main_v832 main_v941 main_v935 main_v942 ((fun x i u => Host.scatter scatter_S131040x256_S256x1_S256x256_1_0_0_1 (fun _ b => b) x i u) : (⟨S131040x256, .f32⟩ : BufTy).Contents (Elt F) → (⟨S256x1, .i32⟩ : BufTy).Contents (Elt F) → (⟨S256x256, .f32⟩ : BufTy).Contents (Elt F) → (⟨S131040x256, .f32⟩ : BufTy).Contents (Elt F))
  :: StableHlo.nullary main_c_223 (constantI S_ 32 0#32)
  :: StableHlo.unary main_c_223 main_v943 (broadcastInDim S256 ![] bcast_S_S256 : (⟨S_, .i32⟩ : BufTy).Contents (Elt F) → (⟨S256, .i32⟩ : BufTy).Contents (Elt F))
  :: StableHlo.binary main_v848 main_v943 main_v944 (cmpi .slt : (⟨S256, .i32⟩ : BufTy).Contents (Elt F) → (⟨S256, .i32⟩ : BufTy).Contents (Elt F) → (⟨S256, .i1⟩ : BufTy).Contents (Elt F))
  :: StableHlo.nullary main_c_224 (constantI S_ 32 131040#32)
  :: StableHlo.unary main_c_224 main_v945 (broadcastInDim S256 ![] bcast_S_S256 : (⟨S_, .i32⟩ : BufTy).Contents (Elt F) → (⟨S256, .i32⟩ : BufTy).Contents (Elt F))
  :: StableHlo.binary main_v848 main_v945 main_v946 (addi : (⟨S256, .i32⟩ : BufTy).Contents (Elt F) → (⟨S256, .i32⟩ : BufTy).Contents (Elt F) → (⟨S256, .i32⟩ : BufTy).Contents (Elt F))
  :: StableHlo.ternary main_v944 main_v946 main_v848 main_v947 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v947 main_v948 (broadcastInDim S256x1 ![0] bcast_S256_S256x1_0 : (⟨S256, .i32⟩ : BufTy).Contents (Elt F) → (⟨S256x1, .i32⟩ : BufTy).Contents (Elt F))
  :: StableHlo.ternary main_v839 main_v948 main_v927 main_v949 ((fun x i u => Host.scatter scatter_S131040x256_S256x1_S256x256_1_0_0_1 (fun _ b => b) x i u) : (⟨S131040x256, .f32⟩ : BufTy).Contents (Elt F) → (⟨S256x1, .i32⟩ : BufTy).Contents (Elt F) → (⟨S256x256, .f32⟩ : BufTy).Contents (Elt F) → (⟨S131040x256, .f32⟩ : BufTy).Contents (Elt F))
  :: StableHlo.unary main_v16 main_v950 (broadcastInDim S32x1 ![0] bcast_S32_S32x1_0 : (⟨S32, .i32⟩ : BufTy).Contents (Elt F) → (⟨S32x1, .i32⟩ : BufTy).Contents (Elt F))
  :: StableHlo.nullary main_c_225 (constantI S_ 32 3#32)
  :: StableHlo.unary main_c_225 main_v951 (broadcastInDim S32x1 ![] bcast_S_S32x1 : (⟨S_, .i32⟩ : BufTy).Contents (Elt F) → (⟨S32x1, .i32⟩ : BufTy).Contents (Elt F))
  :: StableHlo.binary main_v950 main_v951 main_v952 (addi : (⟨S32x1, .i32⟩ : BufTy).Contents (Elt F) → (⟨S32x1, .i32⟩ : BufTy).Contents (Elt F) → (⟨S32x1, .i32⟩ : BufTy).Contents (Elt F))
  :: StableHlo.nullary main_v953 (iotaInDim S4 32 0)
  :: StableHlo.unary main_v953 main_v954 (broadcastInDim S1x4 ![1] bcast_S4_S1x4_1 : (⟨S4, .i32⟩ : BufTy).Contents (Elt F) → (⟨S1x4, .i32⟩ : BufTy).Contents (Elt F))
  :: StableHlo.unary main_v952 main_v955 (broadcastInDim S32x4 ![0, 1] bcast_S32x1_S32x4_0_1 : (⟨S32x1, .i32⟩ : BufTy).Contents (Elt F) → (⟨S32x4, .i32⟩ : BufTy).Contents (Elt F))
  :: StableHlo.unary main_v954 main_v956 (broadcastInDim S32x4 ![0, 1] bcast_S1x4_S32x4_0_1 : (⟨S1x4, .i32⟩ : BufTy).Contents (Elt F) → (⟨S32x4, .i32⟩ : BufTy).Contents (Elt F))
  :: StableHlo.binary main_v955 main_v956 main_v957 (addi : (⟨S32x4, .i32⟩ : BufTy).Contents (Elt F) → (⟨S32x4, .i32⟩ : BufTy).Contents (Elt F) → (⟨S32x4, .i32⟩ : BufTy).Contents (Elt F))
  :: StableHlo.reshape main_v957 main_v958 rfl shapeCasts_S32x4_S128
  :: StableHlo.nullary main_c_226 (constantI S_ 32 0#32)
  :: StableHlo.unary main_c_226 main_v959 (broadcastInDim S128 ![] bcast_S_S128 : (⟨S_, .i32⟩ : BufTy).Contents (Elt F) → (⟨S128, .i32⟩ : BufTy).Contents (Elt F))
  :: StableHlo.binary main_v958 main_v959 main_v960 (cmpi .slt : (⟨S128, .i32⟩ : BufTy).Contents (Elt F) → (⟨S128, .i32⟩ : BufTy).Contents (Elt F) → (⟨S128, .i1⟩ : BufTy).Contents (Elt F))
  :: StableHlo.nullary main_c_227 (constantI S_ 32 131040#32)
  :: StableHlo.unary main_c_227 main_v961 (broadcastInDim S128 ![] bcast_S_S128 : (⟨S_, .i32⟩ : BufTy).Contents (Elt F) → (⟨S128, .i32⟩ : BufTy).Contents (Elt F))
  :: StableHlo.binary main_v958 main_v961 main_v962 (addi : (⟨S128, .i32⟩ : BufTy).Contents (Elt F) → (⟨S128, .i32⟩ : BufTy).Contents (Elt F) → (⟨S128, .i32⟩ : BufTy).Contents (Elt F))
  :: StableHlo.ternary main_v960 main_v962 main_v958 main_v963 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v963 main_v964 (broadcastInDim S128x1 ![0] bcast_S128_S128x1_0 : (⟨S128, .i32⟩ : BufTy).Contents (Elt F) → (⟨S128x1, .i32⟩ : BufTy).Contents (Elt F))
  :: StableHlo.binary main_v11 main_v964 main_v965 ((fun x i => Host.gather gather_S131040x768_S128x1_S128x768_1_0_n_n_0_1_1768 x i) : (⟨S131040x768, .f32⟩ : BufTy).Contents (Elt F) → (⟨S128x1, .i32⟩ : BufTy).Contents (Elt F) → (⟨S128x768, .f32⟩ : BufTy).Contents (Elt F))
  :: StableHlo.unary main_v16 main_v966 (broadcastInDim S32x1 ![0] bcast_S32_S32x1_0 : (⟨S32, .i32⟩ : BufTy).Contents (Elt F) → (⟨S32x1, .i32⟩ : BufTy).Contents (Elt F))
  :: StableHlo.nullary main_c_228 (constantI S_ 32 7#32)
  :: StableHlo.unary main_c_228 main_v967 (broadcastInDim S32x1 ![] bcast_S_S32x1 : (⟨S_, .i32⟩ : BufTy).Contents (Elt F) → (⟨S32x1, .i32⟩ : BufTy).Contents (Elt F))
  :: StableHlo.binary main_v966 main_v967 main_v968 (addi : (⟨S32x1, .i32⟩ : BufTy).Contents (Elt F) → (⟨S32x1, .i32⟩ : BufTy).Contents (Elt F) → (⟨S32x1, .i32⟩ : BufTy).Contents (Elt F))
  :: [] )
/-- Each touches TensorCore references only (`HostSeg.ofOps` over `StableHlo.tcRefs`, or a subset by `sub_ucRefs`). -/
theorem main_part19_ops0_sub : (main_part19_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub ..⟩
/-- Window 19 of `main` (`main_part19`, statements 1141 … 1200) is the chain of ITS items ending in the last
    (`Pipeline.chainK`: no closing `pure`, the window's last statement being in tail position), by `chain_rfl`. -/
theorem main_part19_chain (c : Dev nD) : main_part19 (F := F) c = (Pipeline.chainK
  [  ]
  (StableHlo.seq main_part19_ops0) : Prog (TpuEff nD τ sig (Elt F) (Pipeline.Sig Λ₀ (Fin 0) fun p => (pcfgs (F := F) p).Adm) .tc) PUnit) := by
  chain_rfl

/-- 34 host operations of @main, window 20 (statements 1201 … 1260), in order. -/
abbrev main_part20_ops0 : List (HloOp τ sig (Elt F)) :=
  ( StableHlo.nullary main_v969 (iotaInDim S8 32 0)
  :: StableHlo.unary main_v969 main_v970 (broadcastInDim S1x8 ![1] bcast_S8_S1x8_1 : (⟨S8, .i32⟩ : BufTy).Contents (Elt F) → (⟨S1x8, .i32⟩ : BufTy).Contents (Elt F))
  :: StableHlo.unary main_v968 main_v971 (broadcastInDim S32x8 ![0, 1] bcast_S32x1_S32x8_0_1 : (⟨S32x1, .i32⟩ : BufTy).Contents (Elt F) → (⟨S32x8, .i32⟩ : BufTy).Contents (Elt F))
  :: StableHlo.unary main_v970 main_v972 (broadcastInDim S32x8 ![0, 1] bcast_S1x8_S32x8_0_1 : (⟨S1x8, .i32⟩ : BufTy).Contents (Elt F) → (⟨S32x8, .i32⟩ : BufTy).Contents (Elt F))
  :: StableHlo.binary main_v971 main_v972 main_v973 (addi : (⟨S32x8, .i32⟩ : BufTy).Contents (Elt F) → (⟨S32x8, .i32⟩ : BufTy).Contents (Elt F) → (⟨S32x8, .i32⟩ : BufTy).Contents (Elt F))
  :: StableHlo.reshape main_v973 main_v974 rfl shapeCasts_S32x8_S256
  :: StableHlo.nullary main_c_229 (constantI S_ 32 0#32)
  :: StableHlo.unary main_c_229 main_v975 (broadcastInDim S256 ![] bcast_S_S256 : (⟨S_, .i32⟩ : BufTy).Contents (Elt F) → (⟨S256, .i32⟩ : BufTy).Contents (Elt F))
  :: StableHlo.binary main_v974 main_v975 main_v976 (cmpi .slt : (⟨S256, .i32⟩ : BufTy).Contents (Elt F) → (⟨S256, .i32⟩ : BufTy).Contents (Elt F) → (⟨S256, .i1⟩ : BufTy).Contents (Elt F))
  :: StableHlo.nullary main_c_230 (constantI S_ 32 131040#32)
  :: StableHlo.unary main_c_230 main_v977 (broadcastInDim S256 ![] bcast_S_S256 : (⟨S_, .i32⟩ : BufTy).Contents (Elt F) → (⟨S256, .i32⟩ : BufTy).Contents (Elt F))
  :: StableHlo.binary main_v974 main_v977 main_v978 (addi : (⟨S256, .i32⟩ : BufTy).Contents (Elt F) → (⟨S256, .i32⟩ : BufTy).Contents (Elt F) → (⟨S256, .i32⟩ : BufTy).Contents (Elt F))
  :: StableHlo.ternary main_v976 main_v978 main_v974 main_v979 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v979 main_v980 (broadcastInDim S256x1 ![0] bcast_S256_S256x1_0 : (⟨S256, .i32⟩ : BufTy).Contents (Elt F) → (⟨S256x1, .i32⟩ : BufTy).Contents (Elt F))
  :: StableHlo.binary main_v942 main_v980 main_v981 ((fun x i => Host.gather gather_S131040x256_S256x1_S256x256_1_0_n_n_0_1_1256 x i) : (⟨S131040x256, .f32⟩ : BufTy).Contents (Elt F) → (⟨S256x1, .i32⟩ : BufTy).Contents (Elt F) → (⟨S256x256, .f32⟩ : BufTy).Contents (Elt F))
  :: StableHlo.nullary main_c_231 (constantI S_ 32 0#32)
  :: StableHlo.unary main_c_231 main_v982 (broadcastInDim S256 ![] bcast_S_S256 : (⟨S_, .i32⟩ : BufTy).Contents (Elt F) → (⟨S256, .i32⟩ : BufTy).Contents (Elt F))
  :: StableHlo.binary main_v974 main_v982 main_v983 (cmpi .slt : (⟨S256, .i32⟩ : BufTy).Contents (Elt F) → (⟨S256, .i32⟩ : BufTy).Contents (Elt F) → (⟨S256, .i1⟩ : BufTy).Contents (Elt F))
  :: StableHlo.nullary main_c_232 (constantI S_ 32 131040#32)
  :: StableHlo.unary main_c_232 main_v984 (broadcastInDim S256 ![] bcast_S_S256 : (⟨S_, .i32⟩ : BufTy).Contents (Elt F) → (⟨S256, .i32⟩ : BufTy).Contents (Elt F))
  :: StableHlo.binary main_v974 main_v984 main_v985 (addi : (⟨S256, .i32⟩ : BufTy).Contents (Elt F) → (⟨S256, .i32⟩ : BufTy).Contents (Elt F) → (⟨S256, .i32⟩ : BufTy).Contents (Elt F))
  :: StableHlo.ternary main_v983 main_v985 main_v974 main_v986 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v986 main_v987 (broadcastInDim S256x1 ![0] bcast_S256_S256x1_0 : (⟨S256, .i32⟩ : BufTy).Contents (Elt F) → (⟨S256x1, .i32⟩ : BufTy).Contents (Elt F))
  :: StableHlo.binary main_v949 main_v987 main_v988 ((fun x i => Host.gather gather_S131040x256_S256x1_S256x256_1_0_n_n_0_1_1256 x i) : (⟨S131040x256, .f32⟩ : BufTy).Contents (Elt F) → (⟨S256x1, .i32⟩ : BufTy).Contents (Elt F) → (⟨S256x256, .f32⟩ : BufTy).Contents (Elt F))
  :: StableHlo.nullary main_c_233 (constantI S_ 32 0#32)
  :: StableHlo.unary main_c_233 main_v989 (broadcastInDim S256 ![] bcast_S_S256 : (⟨S_, .i32⟩ : BufTy).Contents (Elt F) → (⟨S256, .i32⟩ : BufTy).Contents (Elt F))
  :: StableHlo.binary main_v974 main_v989 main_v990 (cmpi .slt : (⟨S256, .i32⟩ : BufTy).Contents (Elt F) → (⟨S256, .i32⟩ : BufTy).Contents (Elt F) → (⟨S256, .i1⟩ : BufTy).Contents (Elt F))
  :: StableHlo.nullary main_c_234 (constantI S_ 32 131040#32)
  :: StableHlo.unary main_c_234 main_v991 (broadcastInDim S256 ![] bcast_S_S256 : (⟨S_, .i32⟩ : BufTy).Contents (Elt F) → (⟨S256, .i32⟩ : BufTy).Contents (Elt F))
  :: StableHlo.binary main_v974 main_v991 main_v992 (addi : (⟨S256, .i32⟩ : BufTy).Contents (Elt F) → (⟨S256, .i32⟩ : BufTy).Contents (Elt F) → (⟨S256, .i32⟩ : BufTy).Contents (Elt F))
  :: StableHlo.ternary main_v990 main_v992 main_v974 main_v993 (select : (⟨S256, .i1⟩ : BufTy).Contents (Elt F) → (⟨S256, .i32⟩ : BufTy).Contents (Elt F) → (⟨S256, .i32⟩ : BufTy).Contents (Elt F) → (⟨S256, .i32⟩ : BufTy).Contents (Elt F))
  :: StableHlo.unary main_v993 main_v994 (broadcastInDim S256x1 ![0] bcast_S256_S256x1_0 : (⟨S256, .i32⟩ : BufTy).Contents (Elt F) → (⟨S256x1, .i32⟩ : BufTy).Contents (Elt F))
  :: StableHlo.binary main_arg1 main_v994 main_v995 ((fun x i => Host.gather gather_S131040_S256x1_S256_n_0_n_n_0_1_1 x i) : (⟨S131040, .i32⟩ : BufTy).Contents (Elt F) → (⟨S256x1, .i32⟩ : BufTy).Contents (Elt F) → (⟨S256, .i32⟩ : BufTy).Contents (Elt F))
  :: StableHlo.nullary main_c_235 (constantI S_ 32 4095#32)
  :: [] )
/-- Each touches TensorCore references only (`HostSeg.ofOps` over `StableHlo.tcRefs`, or a subset by `sub_ucRefs`). -/
theorem main_part20_ops0_sub : (main_part20_ops0 : List (HloOp τ sig (Elt F))).Forall fun op => op.bufs ⊆ StableHlo.tcRefs τ sig :=
  ⟨StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_22 (main_call16), window 20 (statements 1201 … 1260), in order. -/
abbrev main_part20_ops1 : List (HloOp τ sig (Elt F)) :=
  [ StableHlo.TRef.unary (.of main_c_235 : StableHlo.TRef sig ⟨S_, .i32⟩) (.of main_call16_v0 : StableHlo.TRef sig ⟨S_, .i32⟩) id,
    StableHlo.TRef.unary (.of main_call16_v0 : StableHlo.TRef sig ⟨S_, .i32⟩) (.of main_call16_v1 : StableHlo.TRef sig ⟨S256, .i32⟩) (broadcastInDim S256 ![] bcast_S_S256),
    StableHlo.TRef.binary (.of main_v995 : StableHlo.TRef sig ⟨S256, .i32⟩) (.of main_call16_v1 : StableHlo.TRef sig ⟨S256, .i32⟩) (.of main_call16_v2 : StableHlo.TRef sig ⟨S256, .i32⟩) Host.divsi,
    StableHlo.TRef.unary (.of main_v995 : StableHlo.TRef sig ⟨S256, .i32⟩) (.of main_call16_v3 : StableHlo.TRef sig ⟨S256, .i32⟩) signi,
    StableHlo.TRef.unary (.of main_call16_v0 : StableHlo.TRef sig ⟨S_, .i32⟩) (.of main_call16_v4 : StableHlo.TRef sig ⟨S_, .i32⟩) signi,
    StableHlo.TRef.unary (.of main_call16_v4 : StableHlo.TRef sig ⟨S_, .i32⟩) (.of main_call16_v5 : StableHlo.TRef sig ⟨S256, .i32⟩) (broadcastInDim S256 ![] bcast_S_S256),
    StableHlo.TRef.binary (.of main_call16_v3 : StableHlo.TRef sig ⟨S256, .i32⟩) (.of main_call16_v5 : StableHlo.TRef sig ⟨S256, .i32⟩) (.of main_call16_v6 : StableHlo.TRef sig ⟨S256, .i1⟩) (cmpi .ne),
    StableHlo.TRef.unary (.of main_call16_v0 : StableHlo.TRef sig ⟨S_, .i32⟩) (.of main_call16_v7 : StableHlo.TRef sig ⟨S256, .i32⟩) (broadcastInDim S256 ![] bcast_S_S256),
    StableHlo.TRef.binary (.of main_v995 : StableHlo.TRef sig ⟨S256, .i32⟩) (.of main_call16_v7 : StableHlo.TRef sig ⟨S256, .i32⟩) (.of main_call16_v8 : StableHlo.TRef sig ⟨S256, .i32⟩) Host.remsi,
    StableHlo.TRef.nullary (.of main_call16_c : StableHlo.TRef sig ⟨S_, .i32⟩) (constantI S_ 32 0#32),
    StableHlo.TRef.unary (.of main_call16_c : StableHlo.TRef sig ⟨S_, .i32⟩) (.of main_call16_v9 : StableHlo.TRef sig ⟨S256, .i32⟩) (broadcastInDim S256 ![] bcast_S_S256),
    StableHlo.TRef.binary (.of main_call16_v8 : StableHlo.TRef sig ⟨S256, .i32⟩) (.of main_call16_v9 : StableHlo.TRef sig ⟨S256, .i32⟩) (.of main_call16_v10 : StableHlo.TRef sig ⟨S256, .i1⟩) (cmpi .ne),
    StableHlo.TRef.binary (.of main_call16_v6 : StableHlo.TRef sig ⟨S256, .i1⟩) (.of main_call16_v10 : StableHlo.TRef sig ⟨S256, .i1⟩) (.of main_call16_v11 : StableHlo.TRef sig ⟨S256, .i1⟩) andi,
    StableHlo.TRef.nullary (.of main_call16_c_0 : StableHlo.TRef sig ⟨S_, .i32⟩) (constantI S_ 32 1#32),
    StableHlo.TRef.unary (.of main_call16_c_0 : StableHlo.TRef sig ⟨S_, .i32⟩) (.of main_call16_v12 : StableHlo.TRef sig ⟨S256, .i32⟩) (broadcastInDim S256 ![] bcast_S_S256),
    StableHlo.TRef.binary (.of main_call16_v2 : StableHlo.TRef sig ⟨S256, .i32⟩) (.of main_call16_v12 : StableHlo.TRef sig ⟨S256, .i32⟩) (.of main_call16_v13 : StableHlo.TRef sig ⟨S256, .i32⟩) subi,
    StableHlo.TRef.ternary (.of main_call16_v11 : StableHlo.TRef sig ⟨S256, .i1⟩) (.of main_call16_v13 : StableHlo.TRef sig ⟨S256, .i32⟩) (.of main_call16_v2 : StableHlo.TRef sig ⟨S256, .i32⟩) (.of main_v996 : StableHlo.TRef sig ⟨S256, .i32⟩) select ]
/-- Each touches TensorCore references only (`HostSeg.ofOps` over `StableHlo.tcRefs`, or a subset by `sub_ucRefs`). -/
theorem main_part20_ops1_sub : (main_part20_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 20 (statements 1201 … 1260), in order. -/
abbrev main_part20_ops2 : List (HloOp τ sig (Elt F)) :=
  [ StableHlo.nullary main_c_236 (constantI S_ 32 4#32),
    StableHlo.unary main_c_236 main_v997 (broadcastInDim S256 ![] bcast_S_S256 : (⟨S_, .i32⟩ : BufTy).Contents (Elt F) → (⟨S256, .i32⟩ : BufTy).Contents (Elt F)),
    StableHlo.binary main_v996 main_v997 main_v998 (muli : (⟨S256, .i32⟩ : BufTy).Contents (Elt F) → (⟨S256, .i32⟩ : BufTy).Contents (Elt F) → (⟨S256, .i32⟩ : BufTy).Contents (Elt F)),
    StableHlo.nullary main_c_237 (constantI S_ 32 4095#32) ]
/-- Each touches TensorCore references only (`HostSeg.ofOps` over `StableHlo.tcRefs`, or a subset by `sub_ucRefs`). -/
theorem main_part20_ops2_sub : (main_part20_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_24 (main_call17), window 20 (statements 1201 … 1260), in order. -/
abbrev main_part20_ops3 : List (HloOp τ sig (Elt F)) :=
  [ StableHlo.TRef.unary (.of main_c_237 : StableHlo.TRef sig ⟨S_, .i32⟩) (.of main_call17_v0 : StableHlo.TRef sig ⟨S_, .i32⟩) id,
    StableHlo.TRef.nullary (.of main_call17_c : StableHlo.TRef sig ⟨S_, .i32⟩) (constantI S_ 32 0#32),
    StableHlo.TRef.binary (.of main_call17_v0 : StableHlo.TRef sig ⟨S_, .i32⟩) (.of main_call17_c : StableHlo.TRef sig ⟨S_, .i32⟩) (.of main_call17_v1 : StableHlo.TRef sig ⟨S_, .i1⟩) (cmpi .eq),
    StableHlo.TRef.nullary (.of main_call17_c_0 : StableHlo.TRef sig ⟨S_, .i32⟩) (constantI S_ 32 1#32),
    StableHlo.TRef.ternary (.of main_call17_v1 : StableHlo.TRef sig ⟨S_, .i1⟩) (.of main_call17_c_0 : StableHlo.TRef sig ⟨S_, .i32⟩) (.of main_call17_v0 : StableHlo.TRef sig ⟨S_, .i32⟩) (.of main_call17_v2 : StableHlo.TRef sig ⟨S_, .i32⟩) select,
    StableHlo.TRef.unary main_call17_call0.v0 (.of main_call17_v3 : StableHlo.TRef sig ⟨S256, .i32⟩) (broadcastInDim S256 ![] bcast_S_S256),
    StableHlo.TRef.binary (.of main_v995 : StableHlo.TRef sig ⟨S256, .i32⟩) (.of main_call17_v3 : StableHlo.TRef sig ⟨S256, .i32⟩) (.of main_call17_v4 : StableHlo.TRef sig ⟨S256, .i32⟩) Host.remsi,
    StableHlo.TRef.nullary (.of main_call17_c_1 : StableHlo.TRef sig ⟨S_, .i32⟩) (constantI S_ 32 0#32),
    StableHlo.TRef.unary (.of main_call17_c_1 : StableHlo.TRef sig ⟨S_, .i32⟩) (.of main_call17_v5 : StableHlo.TRef sig ⟨S256, .i32⟩) (broadcastInDim S256 ![] bcast_S_S256),
    StableHlo.TRef.binary (.of main_call17_v4 : StableHlo.TRef sig ⟨S256, .i32⟩) (.of main_call17_v5 : StableHlo.TRef sig ⟨S256, .i32⟩) (.of main_call17_v6 : StableHlo.TRef sig ⟨S256, .i1⟩) (cmpi .ne),
    StableHlo.TRef.nullary (.of main_call17_c_2 : StableHlo.TRef sig ⟨S_, .i32⟩) (constantI S_ 32 0#32),
    StableHlo.TRef.unary (.of main_call17_c_2 : StableHlo.TRef sig ⟨S_, .i32⟩) (.of main_call17_v7 : StableHlo.TRef sig ⟨S256, .i32⟩) (broadcastInDim S256 ![] bcast_S_S256),
    StableHlo.TRef.binary (.of main_call17_v4 : StableHlo.TRef sig ⟨S256, .i32⟩) (.of main_call17_v7 : StableHlo.TRef sig ⟨S256, .i32⟩) (.of main_call17_v8 : StableHlo.TRef sig ⟨S256, .i1⟩) (cmpi .slt),
    StableHlo.TRef.nullary (.of main_call17_c_3 : StableHlo.TRef sig ⟨S_, .i32⟩) (constantI S_ 32 0#32),
    StableHlo.TRef.binary main_call17_call0.v0 (.of main_call17_c_3 : StableHlo.TRef sig ⟨S_, .i32⟩) (.of main_call17_v9 : StableHlo.TRef sig ⟨S_, .i1⟩) (cmpi .slt),
    StableHlo.TRef.unary (.of main_call17_v9 : StableHlo.TRef sig ⟨S_, .i1⟩) (.of main_call17_v10 : StableHlo.TRef sig ⟨S256, .i1⟩) (broadcastInDim S256 ![] bcast_S_S256),
    StableHlo.TRef.binary (.of main_call17_v8 : StableHlo.TRef sig ⟨S256, .i1⟩) (.of main_call17_v10 : StableHlo.TRef sig ⟨S256, .i1⟩) (.of main_call17_v11 : StableHlo.TRef sig ⟨S256, .i1⟩) (cmpi .ne),
    StableHlo.TRef.binary (.of main_call17_v11 : StableHlo.TRef sig ⟨S256, .i1⟩) (.of main_call17_v6 : StableHlo.TRef sig ⟨S256, .i1⟩) (.of main_call17_v12 : StableHlo.TRef sig ⟨S256, .i1⟩) andi,
    StableHlo.TRef.unary main_call17_call0.v0 (.of main_call17_v13 : StableHlo.TRef sig ⟨S256, .i32⟩) (broadcastInDim S256 ![] bcast_S_S256),
    StableHlo.TRef.binary (.of main_call17_v4 : StableHlo.TRef sig ⟨S256, .i32⟩) (.of main_call17_v13 : StableHlo.TRef sig ⟨S256, .i32⟩) (.of main_call17_v14 : StableHlo.TRef sig ⟨S256, .i32⟩) addi,
    StableHlo.TRef.ternary (.of main_call17_v12 : StableHlo.TRef sig ⟨S256, .i1⟩) (.of main_call17_v14 : StableHlo.TRef sig ⟨S256, .i32⟩) (.of main_call17_v4 : StableHlo.TRef sig ⟨S256, .i32⟩) (.of main_v999 : StableHlo.TRef sig ⟨S256, .i32⟩) select ]
/-- Each touches TensorCore references only (`HostSeg.ofOps` over `StableHlo.tcRefs`, or a subset by `sub_ucRefs`). -/
theorem main_part20_ops3_sub : (main_part20_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 20 host operations of @main, window 20 (statements 1201 … 1260), in order. -/
abbrev main_part20_ops4 : List (HloOp τ sig (Elt F)) :=
  [ StableHlo.nullary main_c_238 (constantI S_ 32 3#32),
    StableHlo.unary main_c_238 main_v1000 (broadcastInDim S256 ![] bcast_S_S256 : (⟨S_, .i32⟩ : BufTy).Contents (Elt F) → (⟨S256, .i32⟩ : BufTy).Contents (Elt F)),
    StableHlo.binary main_v999 main_v1000 main_v1001 (subi : (⟨S256, .i32⟩ : BufTy).Contents (Elt F) → (⟨S256, .i32⟩ : BufTy).Contents (Elt F) → (⟨S256, .i32⟩ : BufTy).Contents (Elt F)),
    StableHlo.binary main_v998 main_v1001 main_v1002 (addi : (⟨S256, .i32⟩ : BufTy).Contents (Elt F) → (⟨S256, .i32⟩ : BufTy).Contents (Elt F) → (⟨S256, .i32⟩ : BufTy).Contents (Elt F)),
    StableHlo.unary main_arg6 main_v1003 ((transpose S256x256 [1, 0] · transposes_S256x256_S256x256_1_0) : (⟨S256x256, .f32⟩ : BufTy).Contents (Elt F) → (⟨S256x256, .f32⟩ : BufTy).Contents (Elt F)),
    StableHlo.binary main_v981 main_v1003 main_v1004 ((fun l r => Host.dotGeneral dot_S256x256_S256x256_S256x256_1_0_0_1_n_n none l r) : (⟨S256x256, .f32⟩ : BufTy).Contents (Elt F) → (⟨S256x256, .f32⟩ : BufTy).Contents (Elt F) → (⟨S256x256, .f32⟩ : BufTy).Contents (Elt F)),
    StableHlo.unary main_arg7 main_v1005 (broadcastInDim S1x256 ![1] bcast_S256_S1x256_1 : (⟨S256, .f32⟩ : BufTy).Contents (Elt F) → (⟨S1x256, .f32⟩ : BufTy).Contents (Elt F)),
    StableHlo.unary main_v1005 main_v1006 (broadcastInDim S256x256 ![0, 1] bcast_S1x256_S256x256_0_1 : (⟨S1x256, .f32⟩ : BufTy).Contents (Elt F) → (⟨S256x256, .f32⟩ : BufTy).Contents (Elt F)),
    StableHlo.binary main_v1004 main_v1006 main_v1007 (addf : (⟨S256x256, .f32⟩ : BufTy).Contents (Elt F) → (⟨S256x256, .f32⟩ : BufTy).Contents (Elt F) → (⟨S256x256, .f32⟩ : BufTy).Contents (Elt F)),
    StableHlo.unary main_v1007 main_v1008 (Host.negf : (⟨S256x256, .f32⟩ : BufTy).Contents (Elt F) → (⟨S256x256, .f32⟩ : BufTy).Contents (Elt F)),
    StableHlo.unary main_v1008 main_v1009 (Host.exp : (⟨S256x256, .f32⟩ : BufTy).Contents (Elt F) → (⟨S256x256, .f32⟩ : BufTy).Contents (Elt F)),
    StableHlo.nullary main_cst_239 (constant S_ .f32 0x3F800000#32),
    StableHlo.unary main_cst_239 main_v1010 (broadcastInDim S256x256 ![] bcast_S_S256x256 : (⟨S_, .f32⟩ : BufTy).Contents (Elt F) → (⟨S256x256, .f32⟩ : BufTy).Contents (Elt F)),
    StableHlo.binary main_v1010 main_v1009 main_v1011 (addf : (⟨S256x256, .f32⟩ : BufTy).Contents (Elt F) → (⟨S256x256, .f32⟩ : BufTy).Contents (Elt F) → (⟨S256x256, .f32⟩ : BufTy).Contents (Elt F)),
    StableHlo.nullary main_cst_240 (constant S_ .f32 0x3F800000#32),
    StableHlo.unary main_cst_240 main_v1012 (broadcastInDim S256x256 ![] bcast_S_S256x256 : (⟨S_, .f32⟩ : BufTy).Contents (Elt F) → (⟨S256x256, .f32⟩ : BufTy).Contents (Elt F)),
    StableHlo.binary main_v1012 main_v1011 main_v1013 (Host.divf : (⟨S256x256, .f32⟩ : BufTy).Contents (Elt F) → (⟨S256x256, .f32⟩ : BufTy).Contents (Elt F) → (⟨S256x256, .f32⟩ : BufTy).Contents (Elt F)),
    StableHlo.nullary main_cst_241 (constant S_ .f32 0x00000000#32),
    StableHlo.unary main_cst_241 main_v1014 (broadcastInDim S128x256 ![] bcast_S_S128x256 : (⟨S_, .f32⟩ : BufTy).Contents (Elt F) → (⟨S128x256, .f32⟩ : BufTy).Contents (Elt F)),
    StableHlo.unary main_v1002 main_v1015 (broadcastInDim S256x1 ![0] bcast_S256_S256x1_0 : (⟨S256, .i32⟩ : BufTy).Contents (Elt F) → (⟨S256x1, .i32⟩ : BufTy).Contents (Elt F)) ]
/-- Each touches TensorCore references only (`HostSeg.ofOps` over `StableHlo.tcRefs`, or a subset by `sub_ucRefs`). -/
theorem main_part20_ops4_sub : (main_part20_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub ..⟩
/-- Window 20 of `main` (`main_part20`, statements 1201 … 1260) is the chain of ITS items ending in the last
    (`Pipeline.chainK`: no closing `pure`, the window's last statement being in tail position), by `chain_rfl`. -/
theorem main_part20_chain (c : Dev nD) : main_part20 (F := F) c = (Pipeline.chainK
  [ StableHlo.seq main_part20_ops0,
    StableHlo.seq main_part20_ops1,
    StableHlo.seq main_part20_ops2,
    StableHlo.seq main_part20_ops3 ]
  (StableHlo.seq main_part20_ops4) : Prog (TpuEff nD τ sig (Elt F) (Pipeline.Sig Λ₀ (Fin 0) fun p => (pcfgs (F := F) p).Adm) .tc) PUnit) := by
  chain_rfl

end Cert.ReferenceIdeal.Gen

end
-- ==== Proof.RefOpsW3.lean ====
/- The reference program's entry function as lists of host operations: some of its windows, each the chain of its pieces. -/
import proofs.«419362_j66683662237734_3_alg».proof.Proof.Gen.ReferenceIdeal
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- 60 host operations of @main, window 21 (statements 1261 … 1320), in order. -/
abbrev main_part21_ops0 : List (HloOp τ sig (Elt F)) :=
  ( StableHlo.ternary main_v1014 main_v1015 main_v981 main_v1016 ((fun x i u => Host.scatterAdd scatter_S128x256_S256x1_S256x256_1_0_0_1 x i u) : (⟨S128x256, .f32⟩ : BufTy).Contents (Elt F) → (⟨S256x1, .i32⟩ : BufTy).Contents (Elt F) → (⟨S256x256, .f32⟩ : BufTy).Contents (Elt F) → (⟨S128x256, .f32⟩ : BufTy).Contents (Elt F))
  :: StableHlo.binary main_v1013 main_v988 main_v1017 (mulf : (⟨S256x256, .f32⟩ : BufTy).Contents (Elt F) → (⟨S256x256, .f32⟩ : BufTy).Contents (Elt F) → (⟨S256x256, .f32⟩ : BufTy).Contents (Elt F))
  :: StableHlo.nullary main_cst_242 (constant S_ .f32 0x00000000#32)
  :: StableHlo.unary main_cst_242 main_v1018 (broadcastInDim S128x256 ![] bcast_S_S128x256 : (⟨S_, .f32⟩ : BufTy).Contents (Elt F) → (⟨S128x256, .f32⟩ : BufTy).Contents (Elt F))
  :: StableHlo.unary main_v1002 main_v1019 (broadcastInDim S256x1 ![0] bcast_S256_S256x1_0 : (⟨S256, .i32⟩ : BufTy).Contents (Elt F) → (⟨S256x1, .i32⟩ : BufTy).Contents (Elt F))
  :: StableHlo.ternary main_v1018 main_v1019 main_v1017 main_v1020 ((fun x i u => Host.scatterAdd scatter_S128x256_S256x1_S256x256_1_0_0_1 x i u) : (⟨S128x256, .f32⟩ : BufTy).Contents (Elt F) → (⟨S256x1, .i32⟩ : BufTy).Contents (Elt F) → (⟨S256x256, .f32⟩ : BufTy).Contents (Elt F) → (⟨S128x256, .f32⟩ : BufTy).Contents (Elt F))
  :: StableHlo.unary main_arg4 main_v1021 ((transpose S256x768 [1, 0] · transposes_S768x256_S256x768_1_0) : (⟨S768x256, .f32⟩ : BufTy).Contents (Elt F) → (⟨S256x768, .f32⟩ : BufTy).Contents (Elt F))
  :: StableHlo.binary main_v1016 main_v1021 main_v1022 ((fun l r => Host.dotGeneral dot_S128x256_S256x768_S128x768_1_0_0_1_n_n none l r) : (⟨S128x256, .f32⟩ : BufTy).Contents (Elt F) → (⟨S256x768, .f32⟩ : BufTy).Contents (Elt F) → (⟨S128x768, .f32⟩ : BufTy).Contents (Elt F))
  :: StableHlo.binary main_v965 main_v1022 main_v1023 (addf : (⟨S128x768, .f32⟩ : BufTy).Contents (Elt F) → (⟨S128x768, .f32⟩ : BufTy).Contents (Elt F) → (⟨S128x768, .f32⟩ : BufTy).Contents (Elt F))
  :: StableHlo.unary main_arg5 main_v1024 (broadcastInDim S128x768 ![0, 1] bcast_S1x768_S128x768_0_1 : (⟨S1x768, .f32⟩ : BufTy).Contents (Elt F) → (⟨S128x768, .f32⟩ : BufTy).Contents (Elt F))
  :: StableHlo.binary main_v1023 main_v1024 main_v1025 (addf : (⟨S128x768, .f32⟩ : BufTy).Contents (Elt F) → (⟨S128x768, .f32⟩ : BufTy).Contents (Elt F) → (⟨S128x768, .f32⟩ : BufTy).Contents (Elt F))
  :: StableHlo.unary main_v1025 main_v1026 ((extractStridedSlice S128x256 ![0, 0] · slices_S128x768_S128x256_0_0) : (⟨S128x768, .f32⟩ : BufTy).Contents (Elt F) → (⟨S128x256, .f32⟩ : BufTy).Contents (Elt F))
  :: StableHlo.unary main_v1025 main_v1027 ((extractStridedSlice S128x256 ![0, 256] · slices_S128x768_S128x256_0_256) : (⟨S128x768, .f32⟩ : BufTy).Contents (Elt F) → (⟨S128x256, .f32⟩ : BufTy).Contents (Elt F))
  :: StableHlo.unary main_v1025 main_v1028 ((extractStridedSlice S128x256 ![0, 512] · slices_S128x768_S128x256_0_512) : (⟨S128x768, .f32⟩ : BufTy).Contents (Elt F) → (⟨S128x256, .f32⟩ : BufTy).Contents (Elt F))
  :: StableHlo.unary main_v1026 main_v1029 (Host.negf : (⟨S128x256, .f32⟩ : BufTy).Contents (Elt F) → (⟨S128x256, .f32⟩ : BufTy).Contents (Elt F))
  :: StableHlo.unary main_v1029 main_v1030 (Host.exp : (⟨S128x256, .f32⟩ : BufTy).Contents (Elt F) → (⟨S128x256, .f32⟩ : BufTy).Contents (Elt F))
  :: StableHlo.nullary main_cst_243 (constant S_ .f32 0x3F800000#32)
  :: StableHlo.unary main_cst_243 main_v1031 (broadcastInDim S128x256 ![] bcast_S_S128x256 : (⟨S_, .f32⟩ : BufTy).Contents (Elt F) → (⟨S128x256, .f32⟩ : BufTy).Contents (Elt F))
  :: StableHlo.binary main_v1031 main_v1030 main_v1032 (addf : (⟨S128x256, .f32⟩ : BufTy).Contents (Elt F) → (⟨S128x256, .f32⟩ : BufTy).Contents (Elt F) → (⟨S128x256, .f32⟩ : BufTy).Contents (Elt F))
  :: StableHlo.nullary main_cst_244 (constant S_ .f32 0x3F800000#32)
  :: StableHlo.unary main_cst_244 main_v1033 (broadcastInDim S128x256 ![] bcast_S_S128x256 : (⟨S_, .f32⟩ : BufTy).Contents (Elt F) → (⟨S128x256, .f32⟩ : BufTy).Contents (Elt F))
  :: StableHlo.binary main_v1033 main_v1032 main_v1034 (Host.divf : (⟨S128x256, .f32⟩ : BufTy).Contents (Elt F) → (⟨S128x256, .f32⟩ : BufTy).Contents (Elt F) → (⟨S128x256, .f32⟩ : BufTy).Contents (Elt F))
  :: StableHlo.unary main_v1028 main_v1035 (Host.tanh : (⟨S128x256, .f32⟩ : BufTy).Contents (Elt F) → (⟨S128x256, .f32⟩ : BufTy).Contents (Elt F))
  :: StableHlo.binary main_v1034 main_v1035 main_v1036 (mulf : (⟨S128x256, .f32⟩ : BufTy).Contents (Elt F) → (⟨S128x256, .f32⟩ : BufTy).Contents (Elt F) → (⟨S128x256, .f32⟩ : BufTy).Contents (Elt F))
  :: StableHlo.binary main_v1036 main_v1020 main_v1037 (addf : (⟨S128x256, .f32⟩ : BufTy).Contents (Elt F) → (⟨S128x256, .f32⟩ : BufTy).Contents (Elt F) → (⟨S128x256, .f32⟩ : BufTy).Contents (Elt F))
  :: StableHlo.unary main_v1027 main_v1038 (Host.negf : (⟨S128x256, .f32⟩ : BufTy).Contents (Elt F) → (⟨S128x256, .f32⟩ : BufTy).Contents (Elt F))
  :: StableHlo.unary main_v1038 main_v1039 (Host.exp : (⟨S128x256, .f32⟩ : BufTy).Contents (Elt F) → (⟨S128x256, .f32⟩ : BufTy).Contents (Elt F))
  :: StableHlo.nullary main_cst_245 (constant S_ .f32 0x3F800000#32)
  :: StableHlo.unary main_cst_245 main_v1040 (broadcastInDim S128x256 ![] bcast_S_S128x256 : (⟨S_, .f32⟩ : BufTy).Contents (Elt F) → (⟨S128x256, .f32⟩ : BufTy).Contents (Elt F))
  :: StableHlo.binary main_v1040 main_v1039 main_v1041 (addf : (⟨S128x256, .f32⟩ : BufTy).Contents (Elt F) → (⟨S128x256, .f32⟩ : BufTy).Contents (Elt F) → (⟨S128x256, .f32⟩ : BufTy).Contents (Elt F))
  :: StableHlo.nullary main_cst_246 (constant S_ .f32 0x3F800000#32)
  :: StableHlo.unary main_cst_246 main_v1042 (broadcastInDim S128x256 ![] bcast_S_S128x256 : (⟨S_, .f32⟩ : BufTy).Contents (Elt F) → (⟨S128x256, .f32⟩ : BufTy).Contents (Elt F))
  :: StableHlo.binary main_v1042 main_v1041 main_v1043 (Host.divf : (⟨S128x256, .f32⟩ : BufTy).Contents (Elt F) → (⟨S128x256, .f32⟩ : BufTy).Contents (Elt F) → (⟨S128x256, .f32⟩ : BufTy).Contents (Elt F))
  :: StableHlo.unary main_v1037 main_v1044 (Host.tanh : (⟨S128x256, .f32⟩ : BufTy).Contents (Elt F) → (⟨S128x256, .f32⟩ : BufTy).Contents (Elt F))
  :: StableHlo.binary main_v1043 main_v1044 main_v1045 (mulf : (⟨S128x256, .f32⟩ : BufTy).Contents (Elt F) → (⟨S128x256, .f32⟩ : BufTy).Contents (Elt F) → (⟨S128x256, .f32⟩ : BufTy).Contents (Elt F))
  :: StableHlo.nullary main_c_247 (constantI S_ 32 0#32)
  :: StableHlo.unary main_c_247 main_v1046 (broadcastInDim S128 ![] bcast_S_S128 : (⟨S_, .i32⟩ : BufTy).Contents (Elt F) → (⟨S128, .i32⟩ : BufTy).Contents (Elt F))
  :: StableHlo.binary main_v958 main_v1046 main_v1047 (cmpi .slt : (⟨S128, .i32⟩ : BufTy).Contents (Elt F) → (⟨S128, .i32⟩ : BufTy).Contents (Elt F) → (⟨S128, .i1⟩ : BufTy).Contents (Elt F))
  :: StableHlo.nullary main_c_248 (constantI S_ 32 131040#32)
  :: StableHlo.unary main_c_248 main_v1048 (broadcastInDim S128 ![] bcast_S_S128 : (⟨S_, .i32⟩ : BufTy).Contents (Elt F) → (⟨S128, .i32⟩ : BufTy).Contents (Elt F))
  :: StableHlo.binary main_v958 main_v1048 main_v1049 (addi : (⟨S128, .i32⟩ : BufTy).Contents (Elt F) → (⟨S128, .i32⟩ : BufTy).Contents (Elt F) → (⟨S128, .i32⟩ : BufTy).Contents (Elt F))
  :: StableHlo.ternary main_v1047 main_v1049 main_v958 main_v1050 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1050 main_v1051 (broadcastInDim S128x1 ![0] bcast_S128_S128x1_0 : (⟨S128, .i32⟩ : BufTy).Contents (Elt F) → (⟨S128x1, .i32⟩ : BufTy).Contents (Elt F))
  :: StableHlo.ternary main_v942 main_v1051 main_v1045 main_v1052 ((fun x i u => Host.scatter scatter_S131040x256_S128x1_S128x256_1_0_0_1 (fun _ b => b) x i u) : (⟨S131040x256, .f32⟩ : BufTy).Contents (Elt F) → (⟨S128x1, .i32⟩ : BufTy).Contents (Elt F) → (⟨S128x256, .f32⟩ : BufTy).Contents (Elt F) → (⟨S131040x256, .f32⟩ : BufTy).Contents (Elt F))
  :: StableHlo.nullary main_c_249 (constantI S_ 32 0#32)
  :: StableHlo.unary main_c_249 main_v1053 (broadcastInDim S128 ![] bcast_S_S128 : (⟨S_, .i32⟩ : BufTy).Contents (Elt F) → (⟨S128, .i32⟩ : BufTy).Contents (Elt F))
  :: StableHlo.binary main_v958 main_v1053 main_v1054 (cmpi .slt : (⟨S128, .i32⟩ : BufTy).Contents (Elt F) → (⟨S128, .i32⟩ : BufTy).Contents (Elt F) → (⟨S128, .i1⟩ : BufTy).Contents (Elt F))
  :: StableHlo.nullary main_c_250 (constantI S_ 32 131040#32)
  :: StableHlo.unary main_c_250 main_v1055 (broadcastInDim S128 ![] bcast_S_S128 : (⟨S_, .i32⟩ : BufTy).Contents (Elt F) → (⟨S128, .i32⟩ : BufTy).Contents (Elt F))
  :: StableHlo.binary main_v958 main_v1055 main_v1056 (addi : (⟨S128, .i32⟩ : BufTy).Contents (Elt F) → (⟨S128, .i32⟩ : BufTy).Contents (Elt F) → (⟨S128, .i32⟩ : BufTy).Contents (Elt F))
  :: StableHlo.ternary main_v1054 main_v1056 main_v958 main_v1057 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1057 main_v1058 (broadcastInDim S128x1 ![0] bcast_S128_S128x1_0 : (⟨S128, .i32⟩ : BufTy).Contents (Elt F) → (⟨S128x1, .i32⟩ : BufTy).Contents (Elt F))
  :: StableHlo.ternary main_v949 main_v1058 main_v1037 main_v1059 ((fun x i u => Host.scatter scatter_S131040x256_S128x1_S128x256_1_0_0_1 (fun _ b => b) x i u) : (⟨S131040x256, .f32⟩ : BufTy).Contents (Elt F) → (⟨S128x1, .i32⟩ : BufTy).Contents (Elt F) → (⟨S128x256, .f32⟩ : BufTy).Contents (Elt F) → (⟨S131040x256, .f32⟩ : BufTy).Contents (Elt F))
  :: StableHlo.unary main_v16 main_v1060 (broadcastInDim S32x1 ![0] bcast_S32_S32x1_0 : (⟨S32, .i32⟩ : BufTy).Contents (Elt F) → (⟨S32x1, .i32⟩ : BufTy).Contents (Elt F))
  :: StableHlo.nullary main_c_251 (constantI S_ 32 1#32)
  :: StableHlo.unary main_c_251 main_v1061 (broadcastInDim S32x1 ![] bcast_S_S32x1 : (⟨S_, .i32⟩ : BufTy).Contents (Elt F) → (⟨S32x1, .i32⟩ : BufTy).Contents (Elt F))
  :: StableHlo.binary main_v1060 main_v1061 main_v1062 (addi : (⟨S32x1, .i32⟩ : BufTy).Contents (Elt F) → (⟨S32x1, .i32⟩ : BufTy).Contents (Elt F) → (⟨S32x1, .i32⟩ : BufTy).Contents (Elt F))
  :: StableHlo.nullary main_v1063 (iotaInDim S2 32 0)
  :: StableHlo.unary main_v1063 main_v1064 (broadcastInDim S1x2 ![1] bcast_S2_S1x2_1 : (⟨S2, .i32⟩ : BufTy).Contents (Elt F) → (⟨S1x2, .i32⟩ : BufTy).Contents (Elt F))
  :: StableHlo.unary main_v1062 main_v1065 (broadcastInDim S32x2 ![0, 1] bcast_S32x1_S32x2_0_1 : (⟨S32x1, .i32⟩ : BufTy).Contents (Elt F) → (⟨S32x2, .i32⟩ : BufTy).Contents (Elt F))
  :: [] )
/-- Each touches TensorCore references only (`HostSeg.ofOps` over `StableHlo.tcRefs`, or a subset by `sub_ucRefs`). -/
theorem main_part21_ops0_sub : (main_part21_ops0 : List (HloOp τ sig (Elt F))).Forall fun op => op.bufs ⊆ StableHlo.tcRefs τ sig :=
  ⟨StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub ..⟩
/-- Window 21 of `main` (`main_part21`, statements 1261 … 1320) is the chain of ITS items ending in the last
    (`Pipeline.chainK`: no closing `pure`, the window's last statement being in tail position), by `chain_rfl`. -/
theorem main_part21_chain (c : Dev nD) : main_part21 (F := F) c = (Pipeline.chainK
  [  ]
  (StableHlo.seq main_part21_ops0) : Prog (TpuEff nD τ sig (Elt F) (Pipeline.Sig Λ₀ (Fin 0) fun p => (pcfgs (F := F) p).Adm) .tc) PUnit) := by
  chain_rfl

/-- 50 host operations of @main, window 22 (statements 1321 … 1380), in order. -/
abbrev main_part22_ops0 : List (HloOp τ sig (Elt F)) :=
  ( StableHlo.unary main_v1064 main_v1066 (broadcastInDim S32x2 ![0, 1] bcast_S1x2_S32x2_0_1 : (⟨S1x2, .i32⟩ : BufTy).Contents (Elt F) → (⟨S32x2, .i32⟩ : BufTy).Contents (Elt F))
  :: StableHlo.binary main_v1065 main_v1066 main_v1067 (addi : (⟨S32x2, .i32⟩ : BufTy).Contents (Elt F) → (⟨S32x2, .i32⟩ : BufTy).Contents (Elt F) → (⟨S32x2, .i32⟩ : BufTy).Contents (Elt F))
  :: StableHlo.reshape main_v1067 main_v1068 rfl shapeCasts_S32x2_S64
  :: StableHlo.nullary main_c_252 (constantI S_ 32 0#32)
  :: StableHlo.unary main_c_252 main_v1069 (broadcastInDim S64 ![] bcast_S_S64 : (⟨S_, .i32⟩ : BufTy).Contents (Elt F) → (⟨S64, .i32⟩ : BufTy).Contents (Elt F))
  :: StableHlo.binary main_v1068 main_v1069 main_v1070 (cmpi .slt : (⟨S64, .i32⟩ : BufTy).Contents (Elt F) → (⟨S64, .i32⟩ : BufTy).Contents (Elt F) → (⟨S64, .i1⟩ : BufTy).Contents (Elt F))
  :: StableHlo.nullary main_c_253 (constantI S_ 32 131040#32)
  :: StableHlo.unary main_c_253 main_v1071 (broadcastInDim S64 ![] bcast_S_S64 : (⟨S_, .i32⟩ : BufTy).Contents (Elt F) → (⟨S64, .i32⟩ : BufTy).Contents (Elt F))
  :: StableHlo.binary main_v1068 main_v1071 main_v1072 (addi : (⟨S64, .i32⟩ : BufTy).Contents (Elt F) → (⟨S64, .i32⟩ : BufTy).Contents (Elt F) → (⟨S64, .i32⟩ : BufTy).Contents (Elt F))
  :: StableHlo.ternary main_v1070 main_v1072 main_v1068 main_v1073 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1073 main_v1074 (broadcastInDim S64x1 ![0] bcast_S64_S64x1_0 : (⟨S64, .i32⟩ : BufTy).Contents (Elt F) → (⟨S64x1, .i32⟩ : BufTy).Contents (Elt F))
  :: StableHlo.binary main_v11 main_v1074 main_v1075 ((fun x i => Host.gather gather_S131040x768_S64x1_S64x768_1_0_n_n_0_1_1768 x i) : (⟨S131040x768, .f32⟩ : BufTy).Contents (Elt F) → (⟨S64x1, .i32⟩ : BufTy).Contents (Elt F) → (⟨S64x768, .f32⟩ : BufTy).Contents (Elt F))
  :: StableHlo.unary main_v16 main_v1076 (broadcastInDim S32x1 ![0] bcast_S32_S32x1_0 : (⟨S32, .i32⟩ : BufTy).Contents (Elt F) → (⟨S32x1, .i32⟩ : BufTy).Contents (Elt F))
  :: StableHlo.nullary main_c_254 (constantI S_ 32 3#32)
  :: StableHlo.unary main_c_254 main_v1077 (broadcastInDim S32x1 ![] bcast_S_S32x1 : (⟨S_, .i32⟩ : BufTy).Contents (Elt F) → (⟨S32x1, .i32⟩ : BufTy).Contents (Elt F))
  :: StableHlo.binary main_v1076 main_v1077 main_v1078 (addi : (⟨S32x1, .i32⟩ : BufTy).Contents (Elt F) → (⟨S32x1, .i32⟩ : BufTy).Contents (Elt F) → (⟨S32x1, .i32⟩ : BufTy).Contents (Elt F))
  :: StableHlo.nullary main_v1079 (iotaInDim S4 32 0)
  :: StableHlo.unary main_v1079 main_v1080 (broadcastInDim S1x4 ![1] bcast_S4_S1x4_1 : (⟨S4, .i32⟩ : BufTy).Contents (Elt F) → (⟨S1x4, .i32⟩ : BufTy).Contents (Elt F))
  :: StableHlo.unary main_v1078 main_v1081 (broadcastInDim S32x4 ![0, 1] bcast_S32x1_S32x4_0_1 : (⟨S32x1, .i32⟩ : BufTy).Contents (Elt F) → (⟨S32x4, .i32⟩ : BufTy).Contents (Elt F))
  :: StableHlo.unary main_v1080 main_v1082 (broadcastInDim S32x4 ![0, 1] bcast_S1x4_S32x4_0_1 : (⟨S1x4, .i32⟩ : BufTy).Contents (Elt F) → (⟨S32x4, .i32⟩ : BufTy).Contents (Elt F))
  :: StableHlo.binary main_v1081 main_v1082 main_v1083 (addi : (⟨S32x4, .i32⟩ : BufTy).Contents (Elt F) → (⟨S32x4, .i32⟩ : BufTy).Contents (Elt F) → (⟨S32x4, .i32⟩ : BufTy).Contents (Elt F))
  :: StableHlo.reshape main_v1083 main_v1084 rfl shapeCasts_S32x4_S128
  :: StableHlo.nullary main_c_255 (constantI S_ 32 0#32)
  :: StableHlo.unary main_c_255 main_v1085 (broadcastInDim S128 ![] bcast_S_S128 : (⟨S_, .i32⟩ : BufTy).Contents (Elt F) → (⟨S128, .i32⟩ : BufTy).Contents (Elt F))
  :: StableHlo.binary main_v1084 main_v1085 main_v1086 (cmpi .slt : (⟨S128, .i32⟩ : BufTy).Contents (Elt F) → (⟨S128, .i32⟩ : BufTy).Contents (Elt F) → (⟨S128, .i1⟩ : BufTy).Contents (Elt F))
  :: StableHlo.nullary main_c_256 (constantI S_ 32 131040#32)
  :: StableHlo.unary main_c_256 main_v1087 (broadcastInDim S128 ![] bcast_S_S128 : (⟨S_, .i32⟩ : BufTy).Contents (Elt F) → (⟨S128, .i32⟩ : BufTy).Contents (Elt F))
  :: StableHlo.binary main_v1084 main_v1087 main_v1088 (addi : (⟨S128, .i32⟩ : BufTy).Contents (Elt F) → (⟨S128, .i32⟩ : BufTy).Contents (Elt F) → (⟨S128, .i32⟩ : BufTy).Contents (Elt F))
  :: StableHlo.ternary main_v1086 main_v1088 main_v1084 main_v1089 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1089 main_v1090 (broadcastInDim S128x1 ![0] bcast_S128_S128x1_0 : (⟨S128, .i32⟩ : BufTy).Contents (Elt F) → (⟨S128x1, .i32⟩ : BufTy).Contents (Elt F))
  :: StableHlo.binary main_v1052 main_v1090 main_v1091 ((fun x i => Host.gather gather_S131040x256_S128x1_S128x256_1_0_n_n_0_1_1256 x i) : (⟨S131040x256, .f32⟩ : BufTy).Contents (Elt F) → (⟨S128x1, .i32⟩ : BufTy).Contents (Elt F) → (⟨S128x256, .f32⟩ : BufTy).Contents (Elt F))
  :: StableHlo.nullary main_c_257 (constantI S_ 32 0#32)
  :: StableHlo.unary main_c_257 main_v1092 (broadcastInDim S128 ![] bcast_S_S128 : (⟨S_, .i32⟩ : BufTy).Contents (Elt F) → (⟨S128, .i32⟩ : BufTy).Contents (Elt F))
  :: StableHlo.binary main_v1084 main_v1092 main_v1093 (cmpi .slt : (⟨S128, .i32⟩ : BufTy).Contents (Elt F) → (⟨S128, .i32⟩ : BufTy).Contents (Elt F) → (⟨S128, .i1⟩ : BufTy).Contents (Elt F))
  :: StableHlo.nullary main_c_258 (constantI S_ 32 131040#32)
  :: StableHlo.unary main_c_258 main_v1094 (broadcastInDim S128 ![] bcast_S_S128 : (⟨S_, .i32⟩ : BufTy).Contents (Elt F) → (⟨S128, .i32⟩ : BufTy).Contents (Elt F))
  :: StableHlo.binary main_v1084 main_v1094 main_v1095 (addi : (⟨S128, .i32⟩ : BufTy).Contents (Elt F) → (⟨S128, .i32⟩ : BufTy).Contents (Elt F) → (⟨S128, .i32⟩ : BufTy).Contents (Elt F))
  :: StableHlo.ternary main_v1093 main_v1095 main_v1084 main_v1096 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1096 main_v1097 (broadcastInDim S128x1 ![0] bcast_S128_S128x1_0 : (⟨S128, .i32⟩ : BufTy).Contents (Elt F) → (⟨S128x1, .i32⟩ : BufTy).Contents (Elt F))
  :: StableHlo.binary main_v1059 main_v1097 main_v1098 ((fun x i => Host.gather gather_S131040x256_S128x1_S128x256_1_0_n_n_0_1_1256 x i) : (⟨S131040x256, .f32⟩ : BufTy).Contents (Elt F) → (⟨S128x1, .i32⟩ : BufTy).Contents (Elt F) → (⟨S128x256, .f32⟩ : BufTy).Contents (Elt F))
  :: StableHlo.nullary main_c_259 (constantI S_ 32 0#32)
  :: StableHlo.unary main_c_259 main_v1099 (broadcastInDim S128 ![] bcast_S_S128 : (⟨S_, .i32⟩ : BufTy).Contents (Elt F) → (⟨S128, .i32⟩ : BufTy).Contents (Elt F))
  :: StableHlo.binary main_v1084 main_v1099 main_v1100 (cmpi .slt : (⟨S128, .i32⟩ : BufTy).Contents (Elt F) → (⟨S128, .i32⟩ : BufTy).Contents (Elt F) → (⟨S128, .i1⟩ : BufTy).Contents (Elt F))
  :: StableHlo.nullary main_c_260 (constantI S_ 32 131040#32)
  :: StableHlo.unary main_c_260 main_v1101 (broadcastInDim S128 ![] bcast_S_S128 : (⟨S_, .i32⟩ : BufTy).Contents (Elt F) → (⟨S128, .i32⟩ : BufTy).Contents (Elt F))
  :: StableHlo.binary main_v1084 main_v1101 main_v1102 (addi : (⟨S128, .i32⟩ : BufTy).Contents (Elt F) → (⟨S128, .i32⟩ : BufTy).Contents (Elt F) → (⟨S128, .i32⟩ : BufTy).Contents (Elt F))
  :: StableHlo.ternary main_v1100 main_v1102 main_v1084 main_v1103 (select : (⟨S128, .i1⟩ : BufTy).Contents (Elt F) → (⟨S128, .i32⟩ : BufTy).Contents (Elt F) → (⟨S128, .i32⟩ : BufTy).Contents (Elt F) → (⟨S128, .i32⟩ : BufTy).Contents (Elt F))
  :: StableHlo.unary main_v1103 main_v1104 (broadcastInDim S128x1 ![0] bcast_S128_S128x1_0 : (⟨S128, .i32⟩ : BufTy).Contents (Elt F) → (⟨S128x1, .i32⟩ : BufTy).Contents (Elt F))
  :: StableHlo.binary main_arg1 main_v1104 main_v1105 ((fun x i => Host.gather gather_S131040_S128x1_S128_n_0_n_n_0_1_1 x i) : (⟨S131040, .i32⟩ : BufTy).Contents (Elt F) → (⟨S128x1, .i32⟩ : BufTy).Contents (Elt F) → (⟨S128, .i32⟩ : BufTy).Contents (Elt F))
  :: StableHlo.nullary main_c_261 (constantI S_ 32 4095#32)
  :: [] )
/-- Each touches TensorCore references only (`HostSeg.ofOps` over `StableHlo.tcRefs`, or a subset by `sub_ucRefs`). -/
theorem main_part22_ops0_sub : (main_part22_ops0 : List (HloOp τ sig (Elt F))).Forall fun op => op.bufs ⊆ StableHlo.tcRefs τ sig :=
  ⟨StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub ..⟩
/-- 17 host operations of @floor_divide_25 (main_call18), window 22 (statements 1321 … 1380), in order. -/
abbrev main_part22_ops1 : List (HloOp τ sig (Elt F)) :=
  [ StableHlo.TRef.unary (.of main_c_261 : StableHlo.TRef sig ⟨S_, .i32⟩) (.of main_call18_v0 : StableHlo.TRef sig ⟨S_, .i32⟩) id,
    StableHlo.TRef.unary (.of main_call18_v0 : StableHlo.TRef sig ⟨S_, .i32⟩) (.of main_call18_v1 : StableHlo.TRef sig ⟨S128, .i32⟩) (broadcastInDim S128 ![] bcast_S_S128),
    StableHlo.TRef.binary (.of main_v1105 : StableHlo.TRef sig ⟨S128, .i32⟩) (.of main_call18_v1 : StableHlo.TRef sig ⟨S128, .i32⟩) (.of main_call18_v2 : StableHlo.TRef sig ⟨S128, .i32⟩) Host.divsi,
    StableHlo.TRef.unary (.of main_v1105 : StableHlo.TRef sig ⟨S128, .i32⟩) (.of main_call18_v3 : StableHlo.TRef sig ⟨S128, .i32⟩) signi,
    StableHlo.TRef.unary (.of main_call18_v0 : StableHlo.TRef sig ⟨S_, .i32⟩) (.of main_call18_v4 : StableHlo.TRef sig ⟨S_, .i32⟩) signi,
    StableHlo.TRef.unary (.of main_call18_v4 : StableHlo.TRef sig ⟨S_, .i32⟩) (.of main_call18_v5 : StableHlo.TRef sig ⟨S128, .i32⟩) (broadcastInDim S128 ![] bcast_S_S128),
    StableHlo.TRef.binary (.of main_call18_v3 : StableHlo.TRef sig ⟨S128, .i32⟩) (.of main_call18_v5 : StableHlo.TRef sig ⟨S128, .i32⟩) (.of main_call18_v6 : StableHlo.TRef sig ⟨S128, .i1⟩) (cmpi .ne),
    StableHlo.TRef.unary (.of main_call18_v0 : StableHlo.TRef sig ⟨S_, .i32⟩) (.of main_call18_v7 : StableHlo.TRef sig ⟨S128, .i32⟩) (broadcastInDim S128 ![] bcast_S_S128),
    StableHlo.TRef.binary (.of main_v1105 : StableHlo.TRef sig ⟨S128, .i32⟩) (.of main_call18_v7 : StableHlo.TRef sig ⟨S128, .i32⟩) (.of main_call18_v8 : StableHlo.TRef sig ⟨S128, .i32⟩) Host.remsi,
    StableHlo.TRef.nullary (.of main_call18_c : StableHlo.TRef sig ⟨S_, .i32⟩) (constantI S_ 32 0#32),
    StableHlo.TRef.unary (.of main_call18_c : StableHlo.TRef sig ⟨S_, .i32⟩) (.of main_call18_v9 : StableHlo.TRef sig ⟨S128, .i32⟩) (broadcastInDim S128 ![] bcast_S_S128),
    StableHlo.TRef.binary (.of main_call18_v8 : StableHlo.TRef sig ⟨S128, .i32⟩) (.of main_call18_v9 : StableHlo.TRef sig ⟨S128, .i32⟩) (.of main_call18_v10 : StableHlo.TRef sig ⟨S128, .i1⟩) (cmpi .ne),
    StableHlo.TRef.binary (.of main_call18_v6 : StableHlo.TRef sig ⟨S128, .i1⟩) (.of main_call18_v10 : StableHlo.TRef sig ⟨S128, .i1⟩) (.of main_call18_v11 : StableHlo.TRef sig ⟨S128, .i1⟩) andi,
    StableHlo.TRef.nullary (.of main_call18_c_0 : StableHlo.TRef sig ⟨S_, .i32⟩) (constantI S_ 32 1#32),
    StableHlo.TRef.unary (.of main_call18_c_0 : StableHlo.TRef sig ⟨S_, .i32⟩) (.of main_call18_v12 : StableHlo.TRef sig ⟨S128, .i32⟩) (broadcastInDim S128 ![] bcast_S_S128),
    StableHlo.TRef.binary (.of main_call18_v2 : StableHlo.TRef sig ⟨S128, .i32⟩) (.of main_call18_v12 : StableHlo.TRef sig ⟨S128, .i32⟩) (.of main_call18_v13 : StableHlo.TRef sig ⟨S128, .i32⟩) subi,
    StableHlo.TRef.ternary (.of main_call18_v11 : StableHlo.TRef sig ⟨S128, .i1⟩) (.of main_call18_v13 : StableHlo.TRef sig ⟨S128, .i32⟩) (.of main_call18_v2 : StableHlo.TRef sig ⟨S128, .i32⟩) (.of main_v1106 : StableHlo.TRef sig ⟨S128, .i32⟩) select ]
/-- Each touches TensorCore references only (`HostSeg.ofOps` over `StableHlo.tcRefs`, or a subset by `sub_ucRefs`). -/
theorem main_part22_ops1_sub : (main_part22_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 22 (statements 1321 … 1380), in order. -/
abbrev main_part22_ops2 : List (HloOp τ sig (Elt F)) :=
  [ StableHlo.nullary main_c_262 (constantI S_ 32 2#32),
    StableHlo.unary main_c_262 main_v1107 (broadcastInDim S128 ![] bcast_S_S128 : (⟨S_, .i32⟩ : BufTy).Contents (Elt F) → (⟨S128, .i32⟩ : BufTy).Contents (Elt F)),
    StableHlo.binary main_v1106 main_v1107 main_v1108 (muli : (⟨S128, .i32⟩ : BufTy).Contents (Elt F) → (⟨S128, .i32⟩ : BufTy).Contents (Elt F) → (⟨S128, .i32⟩ : BufTy).Contents (Elt F)),
    StableHlo.nullary main_c_263 (constantI S_ 32 4095#32) ]
/-- Each touches TensorCore references only (`HostSeg.ofOps` over `StableHlo.tcRefs`, or a subset by `sub_ucRefs`). -/
theorem main_part22_ops2_sub : (main_part22_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_27 (main_call19), window 22 (statements 1321 … 1380), in order. -/
abbrev main_part22_ops3 : List (HloOp τ sig (Elt F)) :=
  [ StableHlo.TRef.unary (.of main_c_263 : StableHlo.TRef sig ⟨S_, .i32⟩) (.of main_call19_v0 : StableHlo.TRef sig ⟨S_, .i32⟩) id,
    StableHlo.TRef.nullary (.of main_call19_c : StableHlo.TRef sig ⟨S_, .i32⟩) (constantI S_ 32 0#32),
    StableHlo.TRef.binary (.of main_call19_v0 : StableHlo.TRef sig ⟨S_, .i32⟩) (.of main_call19_c : StableHlo.TRef sig ⟨S_, .i32⟩) (.of main_call19_v1 : StableHlo.TRef sig ⟨S_, .i1⟩) (cmpi .eq),
    StableHlo.TRef.nullary (.of main_call19_c_0 : StableHlo.TRef sig ⟨S_, .i32⟩) (constantI S_ 32 1#32),
    StableHlo.TRef.ternary (.of main_call19_v1 : StableHlo.TRef sig ⟨S_, .i1⟩) (.of main_call19_c_0 : StableHlo.TRef sig ⟨S_, .i32⟩) (.of main_call19_v0 : StableHlo.TRef sig ⟨S_, .i32⟩) (.of main_call19_v2 : StableHlo.TRef sig ⟨S_, .i32⟩) select,
    StableHlo.TRef.unary main_call19_call0.v0 (.of main_call19_v3 : StableHlo.TRef sig ⟨S128, .i32⟩) (broadcastInDim S128 ![] bcast_S_S128),
    StableHlo.TRef.binary (.of main_v1105 : StableHlo.TRef sig ⟨S128, .i32⟩) (.of main_call19_v3 : StableHlo.TRef sig ⟨S128, .i32⟩) (.of main_call19_v4 : StableHlo.TRef sig ⟨S128, .i32⟩) Host.remsi,
    StableHlo.TRef.nullary (.of main_call19_c_1 : StableHlo.TRef sig ⟨S_, .i32⟩) (constantI S_ 32 0#32),
    StableHlo.TRef.unary (.of main_call19_c_1 : StableHlo.TRef sig ⟨S_, .i32⟩) (.of main_call19_v5 : StableHlo.TRef sig ⟨S128, .i32⟩) (broadcastInDim S128 ![] bcast_S_S128),
    StableHlo.TRef.binary (.of main_call19_v4 : StableHlo.TRef sig ⟨S128, .i32⟩) (.of main_call19_v5 : StableHlo.TRef sig ⟨S128, .i32⟩) (.of main_call19_v6 : StableHlo.TRef sig ⟨S128, .i1⟩) (cmpi .ne),
    StableHlo.TRef.nullary (.of main_call19_c_2 : StableHlo.TRef sig ⟨S_, .i32⟩) (constantI S_ 32 0#32),
    StableHlo.TRef.unary (.of main_call19_c_2 : StableHlo.TRef sig ⟨S_, .i32⟩) (.of main_call19_v7 : StableHlo.TRef sig ⟨S128, .i32⟩) (broadcastInDim S128 ![] bcast_S_S128),
    StableHlo.TRef.binary (.of main_call19_v4 : StableHlo.TRef sig ⟨S128, .i32⟩) (.of main_call19_v7 : StableHlo.TRef sig ⟨S128, .i32⟩) (.of main_call19_v8 : StableHlo.TRef sig ⟨S128, .i1⟩) (cmpi .slt),
    StableHlo.TRef.nullary (.of main_call19_c_3 : StableHlo.TRef sig ⟨S_, .i32⟩) (constantI S_ 32 0#32),
    StableHlo.TRef.binary main_call19_call0.v0 (.of main_call19_c_3 : StableHlo.TRef sig ⟨S_, .i32⟩) (.of main_call19_v9 : StableHlo.TRef sig ⟨S_, .i1⟩) (cmpi .slt),
    StableHlo.TRef.unary (.of main_call19_v9 : StableHlo.TRef sig ⟨S_, .i1⟩) (.of main_call19_v10 : StableHlo.TRef sig ⟨S128, .i1⟩) (broadcastInDim S128 ![] bcast_S_S128),
    StableHlo.TRef.binary (.of main_call19_v8 : StableHlo.TRef sig ⟨S128, .i1⟩) (.of main_call19_v10 : StableHlo.TRef sig ⟨S128, .i1⟩) (.of main_call19_v11 : StableHlo.TRef sig ⟨S128, .i1⟩) (cmpi .ne),
    StableHlo.TRef.binary (.of main_call19_v11 : StableHlo.TRef sig ⟨S128, .i1⟩) (.of main_call19_v6 : StableHlo.TRef sig ⟨S128, .i1⟩) (.of main_call19_v12 : StableHlo.TRef sig ⟨S128, .i1⟩) andi,
    StableHlo.TRef.unary main_call19_call0.v0 (.of main_call19_v13 : StableHlo.TRef sig ⟨S128, .i32⟩) (broadcastInDim S128 ![] bcast_S_S128),
    StableHlo.TRef.binary (.of main_call19_v4 : StableHlo.TRef sig ⟨S128, .i32⟩) (.of main_call19_v13 : StableHlo.TRef sig ⟨S128, .i32⟩) (.of main_call19_v14 : StableHlo.TRef sig ⟨S128, .i32⟩) addi,
    StableHlo.TRef.ternary (.of main_call19_v12 : StableHlo.TRef sig ⟨S128, .i1⟩) (.of main_call19_v14 : StableHlo.TRef sig ⟨S128, .i32⟩) (.of main_call19_v4 : StableHlo.TRef sig ⟨S128, .i32⟩) (.of main_v1109 : StableHlo.TRef sig ⟨S128, .i32⟩) select ]
/-- Each touches TensorCore references only (`HostSeg.ofOps` over `StableHlo.tcRefs`, or a subset by `sub_ucRefs`). -/
theorem main_part22_ops3_sub : (main_part22_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 4 host operations of @main, window 22 (statements 1321 … 1380), in order. -/
abbrev main_part22_ops4 : List (HloOp τ sig (Elt F)) :=
  [ StableHlo.nullary main_c_264 (constantI S_ 32 1#32),
    StableHlo.unary main_c_264 main_v1110 (broadcastInDim S128 ![] bcast_S_S128 : (⟨S_, .i32⟩ : BufTy).Contents (Elt F) → (⟨S128, .i32⟩ : BufTy).Contents (Elt F)),
    StableHlo.binary main_v1109 main_v1110 main_v1111 (subi : (⟨S128, .i32⟩ : BufTy).Contents (Elt F) → (⟨S128, .i32⟩ : BufTy).Contents (Elt F) → (⟨S128, .i32⟩ : BufTy).Contents (Elt F)),
    StableHlo.binary main_v1108 main_v1111 main_v1112 (addi : (⟨S128, .i32⟩ : BufTy).Contents (Elt F) → (⟨S128, .i32⟩ : BufTy).Contents (Elt F) → (⟨S128, .i32⟩ : BufTy).Contents (Elt F)) ]
/-- Each touches TensorCore references only (`HostSeg.ofOps` over `StableHlo.tcRefs`, or a subset by `sub_ucRefs`). -/
theorem main_part22_ops4_sub : (main_part22_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub ..⟩
/-- Window 22 of `main` (`main_part22`, statements 1321 … 1380) is the chain of ITS items ending in the last
    (`Pipeline.chainK`: no closing `pure`, the window's last statement being in tail position), by `chain_rfl`. -/
theorem main_part22_chain (c : Dev nD) : main_part22 (F := F) c = (Pipeline.chainK
  [ StableHlo.seq main_part22_ops0,
    StableHlo.seq main_part22_ops1,
    StableHlo.seq main_part22_ops2,
    StableHlo.seq main_part22_ops3 ]
  (StableHlo.seq main_part22_ops4) : Prog (TpuEff nD τ sig (Elt F) (Pipeline.Sig Λ₀ (Fin 0) fun p => (pcfgs (F := F) p).Adm) .tc) PUnit) := by
  chain_rfl

/-- 60 host operations of @main, window 23 (statements 1381 … 1440), in order. -/
abbrev main_part23_ops0 : List (HloOp τ sig (Elt F)) :=
  ( StableHlo.unary main_arg6 main_v1113 ((transpose S256x256 [1, 0] · transposes_S256x256_S256x256_1_0) : (⟨S256x256, .f32⟩ : BufTy).Contents (Elt F) → (⟨S256x256, .f32⟩ : BufTy).Contents (Elt F))
  :: StableHlo.binary main_v1091 main_v1113 main_v1114 ((fun l r => Host.dotGeneral dot_S128x256_S256x256_S128x256_1_0_0_1_n_n none l r) : (⟨S128x256, .f32⟩ : BufTy).Contents (Elt F) → (⟨S256x256, .f32⟩ : BufTy).Contents (Elt F) → (⟨S128x256, .f32⟩ : BufTy).Contents (Elt F))
  :: StableHlo.unary main_arg7 main_v1115 (broadcastInDim S1x256 ![1] bcast_S256_S1x256_1 : (⟨S256, .f32⟩ : BufTy).Contents (Elt F) → (⟨S1x256, .f32⟩ : BufTy).Contents (Elt F))
  :: StableHlo.unary main_v1115 main_v1116 (broadcastInDim S128x256 ![0, 1] bcast_S1x256_S128x256_0_1 : (⟨S1x256, .f32⟩ : BufTy).Contents (Elt F) → (⟨S128x256, .f32⟩ : BufTy).Contents (Elt F))
  :: StableHlo.binary main_v1114 main_v1116 main_v1117 (addf : (⟨S128x256, .f32⟩ : BufTy).Contents (Elt F) → (⟨S128x256, .f32⟩ : BufTy).Contents (Elt F) → (⟨S128x256, .f32⟩ : BufTy).Contents (Elt F))
  :: StableHlo.unary main_v1117 main_v1118 (Host.negf : (⟨S128x256, .f32⟩ : BufTy).Contents (Elt F) → (⟨S128x256, .f32⟩ : BufTy).Contents (Elt F))
  :: StableHlo.unary main_v1118 main_v1119 (Host.exp : (⟨S128x256, .f32⟩ : BufTy).Contents (Elt F) → (⟨S128x256, .f32⟩ : BufTy).Contents (Elt F))
  :: StableHlo.nullary main_cst_265 (constant S_ .f32 0x3F800000#32)
  :: StableHlo.unary main_cst_265 main_v1120 (broadcastInDim S128x256 ![] bcast_S_S128x256 : (⟨S_, .f32⟩ : BufTy).Contents (Elt F) → (⟨S128x256, .f32⟩ : BufTy).Contents (Elt F))
  :: StableHlo.binary main_v1120 main_v1119 main_v1121 (addf : (⟨S128x256, .f32⟩ : BufTy).Contents (Elt F) → (⟨S128x256, .f32⟩ : BufTy).Contents (Elt F) → (⟨S128x256, .f32⟩ : BufTy).Contents (Elt F))
  :: StableHlo.nullary main_cst_266 (constant S_ .f32 0x3F800000#32)
  :: StableHlo.unary main_cst_266 main_v1122 (broadcastInDim S128x256 ![] bcast_S_S128x256 : (⟨S_, .f32⟩ : BufTy).Contents (Elt F) → (⟨S128x256, .f32⟩ : BufTy).Contents (Elt F))
  :: StableHlo.binary main_v1122 main_v1121 main_v1123 (Host.divf : (⟨S128x256, .f32⟩ : BufTy).Contents (Elt F) → (⟨S128x256, .f32⟩ : BufTy).Contents (Elt F) → (⟨S128x256, .f32⟩ : BufTy).Contents (Elt F))
  :: StableHlo.nullary main_cst_267 (constant S_ .f32 0x00000000#32)
  :: StableHlo.unary main_cst_267 main_v1124 (broadcastInDim S64x256 ![] bcast_S_S64x256 : (⟨S_, .f32⟩ : BufTy).Contents (Elt F) → (⟨S64x256, .f32⟩ : BufTy).Contents (Elt F))
  :: StableHlo.unary main_v1112 main_v1125 (broadcastInDim S128x1 ![0] bcast_S128_S128x1_0 : (⟨S128, .i32⟩ : BufTy).Contents (Elt F) → (⟨S128x1, .i32⟩ : BufTy).Contents (Elt F))
  :: StableHlo.ternary main_v1124 main_v1125 main_v1091 main_v1126 ((fun x i u => Host.scatterAdd scatter_S64x256_S128x1_S128x256_1_0_0_1 x i u) : (⟨S64x256, .f32⟩ : BufTy).Contents (Elt F) → (⟨S128x1, .i32⟩ : BufTy).Contents (Elt F) → (⟨S128x256, .f32⟩ : BufTy).Contents (Elt F) → (⟨S64x256, .f32⟩ : BufTy).Contents (Elt F))
  :: StableHlo.binary main_v1123 main_v1098 main_v1127 (mulf : (⟨S128x256, .f32⟩ : BufTy).Contents (Elt F) → (⟨S128x256, .f32⟩ : BufTy).Contents (Elt F) → (⟨S128x256, .f32⟩ : BufTy).Contents (Elt F))
  :: StableHlo.nullary main_cst_268 (constant S_ .f32 0x00000000#32)
  :: StableHlo.unary main_cst_268 main_v1128 (broadcastInDim S64x256 ![] bcast_S_S64x256 : (⟨S_, .f32⟩ : BufTy).Contents (Elt F) → (⟨S64x256, .f32⟩ : BufTy).Contents (Elt F))
  :: StableHlo.unary main_v1112 main_v1129 (broadcastInDim S128x1 ![0] bcast_S128_S128x1_0 : (⟨S128, .i32⟩ : BufTy).Contents (Elt F) → (⟨S128x1, .i32⟩ : BufTy).Contents (Elt F))
  :: StableHlo.ternary main_v1128 main_v1129 main_v1127 main_v1130 ((fun x i u => Host.scatterAdd scatter_S64x256_S128x1_S128x256_1_0_0_1 x i u) : (⟨S64x256, .f32⟩ : BufTy).Contents (Elt F) → (⟨S128x1, .i32⟩ : BufTy).Contents (Elt F) → (⟨S128x256, .f32⟩ : BufTy).Contents (Elt F) → (⟨S64x256, .f32⟩ : BufTy).Contents (Elt F))
  :: StableHlo.unary main_arg4 main_v1131 ((transpose S256x768 [1, 0] · transposes_S768x256_S256x768_1_0) : (⟨S768x256, .f32⟩ : BufTy).Contents (Elt F) → (⟨S256x768, .f32⟩ : BufTy).Contents (Elt F))
  :: StableHlo.binary main_v1126 main_v1131 main_v1132 ((fun l r => Host.dotGeneral dot_S64x256_S256x768_S64x768_1_0_0_1_n_n none l r) : (⟨S64x256, .f32⟩ : BufTy).Contents (Elt F) → (⟨S256x768, .f32⟩ : BufTy).Contents (Elt F) → (⟨S64x768, .f32⟩ : BufTy).Contents (Elt F))
  :: StableHlo.binary main_v1075 main_v1132 main_v1133 (addf : (⟨S64x768, .f32⟩ : BufTy).Contents (Elt F) → (⟨S64x768, .f32⟩ : BufTy).Contents (Elt F) → (⟨S64x768, .f32⟩ : BufTy).Contents (Elt F))
  :: StableHlo.unary main_arg5 main_v1134 (broadcastInDim S64x768 ![0, 1] bcast_S1x768_S64x768_0_1 : (⟨S1x768, .f32⟩ : BufTy).Contents (Elt F) → (⟨S64x768, .f32⟩ : BufTy).Contents (Elt F))
  :: StableHlo.binary main_v1133 main_v1134 main_v1135 (addf : (⟨S64x768, .f32⟩ : BufTy).Contents (Elt F) → (⟨S64x768, .f32⟩ : BufTy).Contents (Elt F) → (⟨S64x768, .f32⟩ : BufTy).Contents (Elt F))
  :: StableHlo.unary main_v1135 main_v1136 ((extractStridedSlice S64x256 ![0, 0] · slices_S64x768_S64x256_0_0) : (⟨S64x768, .f32⟩ : BufTy).Contents (Elt F) → (⟨S64x256, .f32⟩ : BufTy).Contents (Elt F))
  :: StableHlo.unary main_v1135 main_v1137 ((extractStridedSlice S64x256 ![0, 256] · slices_S64x768_S64x256_0_256) : (⟨S64x768, .f32⟩ : BufTy).Contents (Elt F) → (⟨S64x256, .f32⟩ : BufTy).Contents (Elt F))
  :: StableHlo.unary main_v1135 main_v1138 ((extractStridedSlice S64x256 ![0, 512] · slices_S64x768_S64x256_0_512) : (⟨S64x768, .f32⟩ : BufTy).Contents (Elt F) → (⟨S64x256, .f32⟩ : BufTy).Contents (Elt F))
  :: StableHlo.unary main_v1136 main_v1139 (Host.negf : (⟨S64x256, .f32⟩ : BufTy).Contents (Elt F) → (⟨S64x256, .f32⟩ : BufTy).Contents (Elt F))
  :: StableHlo.unary main_v1139 main_v1140 (Host.exp : (⟨S64x256, .f32⟩ : BufTy).Contents (Elt F) → (⟨S64x256, .f32⟩ : BufTy).Contents (Elt F))
  :: StableHlo.nullary main_cst_269 (constant S_ .f32 0x3F800000#32)
  :: StableHlo.unary main_cst_269 main_v1141 (broadcastInDim S64x256 ![] bcast_S_S64x256 : (⟨S_, .f32⟩ : BufTy).Contents (Elt F) → (⟨S64x256, .f32⟩ : BufTy).Contents (Elt F))
  :: StableHlo.binary main_v1141 main_v1140 main_v1142 (addf : (⟨S64x256, .f32⟩ : BufTy).Contents (Elt F) → (⟨S64x256, .f32⟩ : BufTy).Contents (Elt F) → (⟨S64x256, .f32⟩ : BufTy).Contents (Elt F))
  :: StableHlo.nullary main_cst_270 (constant S_ .f32 0x3F800000#32)
  :: StableHlo.unary main_cst_270 main_v1143 (broadcastInDim S64x256 ![] bcast_S_S64x256 : (⟨S_, .f32⟩ : BufTy).Contents (Elt F) → (⟨S64x256, .f32⟩ : BufTy).Contents (Elt F))
  :: StableHlo.binary main_v1143 main_v1142 main_v1144 (Host.divf : (⟨S64x256, .f32⟩ : BufTy).Contents (Elt F) → (⟨S64x256, .f32⟩ : BufTy).Contents (Elt F) → (⟨S64x256, .f32⟩ : BufTy).Contents (Elt F))
  :: StableHlo.unary main_v1138 main_v1145 (Host.tanh : (⟨S64x256, .f32⟩ : BufTy).Contents (Elt F) → (⟨S64x256, .f32⟩ : BufTy).Contents (Elt F))
  :: StableHlo.binary main_v1144 main_v1145 main_v1146 (mulf : (⟨S64x256, .f32⟩ : BufTy).Contents (Elt F) → (⟨S64x256, .f32⟩ : BufTy).Contents (Elt F) → (⟨S64x256, .f32⟩ : BufTy).Contents (Elt F))
  :: StableHlo.binary main_v1146 main_v1130 main_v1147 (addf : (⟨S64x256, .f32⟩ : BufTy).Contents (Elt F) → (⟨S64x256, .f32⟩ : BufTy).Contents (Elt F) → (⟨S64x256, .f32⟩ : BufTy).Contents (Elt F))
  :: StableHlo.unary main_v1137 main_v1148 (Host.negf : (⟨S64x256, .f32⟩ : BufTy).Contents (Elt F) → (⟨S64x256, .f32⟩ : BufTy).Contents (Elt F))
  :: StableHlo.unary main_v1148 main_v1149 (Host.exp : (⟨S64x256, .f32⟩ : BufTy).Contents (Elt F) → (⟨S64x256, .f32⟩ : BufTy).Contents (Elt F))
  :: StableHlo.nullary main_cst_271 (constant S_ .f32 0x3F800000#32)
  :: StableHlo.unary main_cst_271 main_v1150 (broadcastInDim S64x256 ![] bcast_S_S64x256 : (⟨S_, .f32⟩ : BufTy).Contents (Elt F) → (⟨S64x256, .f32⟩ : BufTy).Contents (Elt F))
  :: StableHlo.binary main_v1150 main_v1149 main_v1151 (addf : (⟨S64x256, .f32⟩ : BufTy).Contents (Elt F) → (⟨S64x256, .f32⟩ : BufTy).Contents (Elt F) → (⟨S64x256, .f32⟩ : BufTy).Contents (Elt F))
  :: StableHlo.nullary main_cst_272 (constant S_ .f32 0x3F800000#32)
  :: StableHlo.unary main_cst_272 main_v1152 (broadcastInDim S64x256 ![] bcast_S_S64x256 : (⟨S_, .f32⟩ : BufTy).Contents (Elt F) → (⟨S64x256, .f32⟩ : BufTy).Contents (Elt F))
  :: StableHlo.binary main_v1152 main_v1151 main_v1153 (Host.divf : (⟨S64x256, .f32⟩ : BufTy).Contents (Elt F) → (⟨S64x256, .f32⟩ : BufTy).Contents (Elt F) → (⟨S64x256, .f32⟩ : BufTy).Contents (Elt F))
  :: StableHlo.unary main_v1147 main_v1154 (Host.tanh : (⟨S64x256, .f32⟩ : BufTy).Contents (Elt F) → (⟨S64x256, .f32⟩ : BufTy).Contents (Elt F))
  :: StableHlo.binary main_v1153 main_v1154 main_v1155 (mulf : (⟨S64x256, .f32⟩ : BufTy).Contents (Elt F) → (⟨S64x256, .f32⟩ : BufTy).Contents (Elt F) → (⟨S64x256, .f32⟩ : BufTy).Contents (Elt F))
  :: StableHlo.nullary main_c_273 (constantI S_ 32 0#32)
  :: StableHlo.unary main_c_273 main_v1156 (broadcastInDim S64 ![] bcast_S_S64 : (⟨S_, .i32⟩ : BufTy).Contents (Elt F) → (⟨S64, .i32⟩ : BufTy).Contents (Elt F))
  :: StableHlo.binary main_v1068 main_v1156 main_v1157 (cmpi .slt : (⟨S64, .i32⟩ : BufTy).Contents (Elt F) → (⟨S64, .i32⟩ : BufTy).Contents (Elt F) → (⟨S64, .i1⟩ : BufTy).Contents (Elt F))
  :: StableHlo.nullary main_c_274 (constantI S_ 32 131040#32)
  :: StableHlo.unary main_c_274 main_v1158 (broadcastInDim S64 ![] bcast_S_S64 : (⟨S_, .i32⟩ : BufTy).Contents (Elt F) → (⟨S64, .i32⟩ : BufTy).Contents (Elt F))
  :: StableHlo.binary main_v1068 main_v1158 main_v1159 (addi : (⟨S64, .i32⟩ : BufTy).Contents (Elt F) → (⟨S64, .i32⟩ : BufTy).Contents (Elt F) → (⟨S64, .i32⟩ : BufTy).Contents (Elt F))
  :: StableHlo.ternary main_v1157 main_v1159 main_v1068 main_v1160 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1160 main_v1161 (broadcastInDim S64x1 ![0] bcast_S64_S64x1_0 : (⟨S64, .i32⟩ : BufTy).Contents (Elt F) → (⟨S64x1, .i32⟩ : BufTy).Contents (Elt F))
  :: StableHlo.ternary main_v1052 main_v1161 main_v1155 main_v1162 ((fun x i u => Host.scatter scatter_S131040x256_S64x1_S64x256_1_0_0_1 (fun _ b => b) x i u) : (⟨S131040x256, .f32⟩ : BufTy).Contents (Elt F) → (⟨S64x1, .i32⟩ : BufTy).Contents (Elt F) → (⟨S64x256, .f32⟩ : BufTy).Contents (Elt F) → (⟨S131040x256, .f32⟩ : BufTy).Contents (Elt F))
  :: [] )
/-- Each touches TensorCore references only (`HostSeg.ofOps` over `StableHlo.tcRefs`, or a subset by `sub_ucRefs`). -/
theorem main_part23_ops0_sub : (main_part23_ops0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub ..⟩
/-- Window 23 of `main` (`main_part23`, statements 1381 … 1440) is the chain of ITS items ending in the last
    (`Pipeline.chainK`: no closing `pure`, the window's last statement being in tail position), by `chain_rfl`. -/
theorem main_part23_chain (c : Dev nD) : main_part23 (F := F) c = (Pipeline.chainK
  [  ]
  (StableHlo.seq main_part23_ops0) : Prog (TpuEff nD τ sig (Elt F) (Pipeline.Sig Λ₀ (Fin 0) fun p => (pcfgs (F := F) p).Adm) .tc) PUnit) := by
  chain_rfl

/-- 60 host operations of @main, window 24 (statements 1441 … 1500), in order. -/
abbrev main_part24_ops0 : List (HloOp τ sig (Elt F)) :=
  ( StableHlo.nullary main_c_275 (constantI S_ 32 0#32)
  :: StableHlo.unary main_c_275 main_v1163 (broadcastInDim S64 ![] bcast_S_S64 : (⟨S_, .i32⟩ : BufTy).Contents (Elt F) → (⟨S64, .i32⟩ : BufTy).Contents (Elt F))
  :: StableHlo.binary main_v1068 main_v1163 main_v1164 (cmpi .slt : (⟨S64, .i32⟩ : BufTy).Contents (Elt F) → (⟨S64, .i32⟩ : BufTy).Contents (Elt F) → (⟨S64, .i1⟩ : BufTy).Contents (Elt F))
  :: StableHlo.nullary main_c_276 (constantI S_ 32 131040#32)
  :: StableHlo.unary main_c_276 main_v1165 (broadcastInDim S64 ![] bcast_S_S64 : (⟨S_, .i32⟩ : BufTy).Contents (Elt F) → (⟨S64, .i32⟩ : BufTy).Contents (Elt F))
  :: StableHlo.binary main_v1068 main_v1165 main_v1166 (addi : (⟨S64, .i32⟩ : BufTy).Contents (Elt F) → (⟨S64, .i32⟩ : BufTy).Contents (Elt F) → (⟨S64, .i32⟩ : BufTy).Contents (Elt F))
  :: StableHlo.ternary main_v1164 main_v1166 main_v1068 main_v1167 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1167 main_v1168 (broadcastInDim S64x1 ![0] bcast_S64_S64x1_0 : (⟨S64, .i32⟩ : BufTy).Contents (Elt F) → (⟨S64x1, .i32⟩ : BufTy).Contents (Elt F))
  :: StableHlo.ternary main_v1059 main_v1168 main_v1147 main_v1169 ((fun x i u => Host.scatter scatter_S131040x256_S64x1_S64x256_1_0_0_1 (fun _ b => b) x i u) : (⟨S131040x256, .f32⟩ : BufTy).Contents (Elt F) → (⟨S64x1, .i32⟩ : BufTy).Contents (Elt F) → (⟨S64x256, .f32⟩ : BufTy).Contents (Elt F) → (⟨S131040x256, .f32⟩ : BufTy).Contents (Elt F))
  :: StableHlo.unary main_v16 main_v1170 (broadcastInDim S32x1 ![0] bcast_S32_S32x1_0 : (⟨S32, .i32⟩ : BufTy).Contents (Elt F) → (⟨S32x1, .i32⟩ : BufTy).Contents (Elt F))
  :: StableHlo.nullary main_c_277 (constantI S_ 32 0#32)
  :: StableHlo.unary main_c_277 main_v1171 (broadcastInDim S32x1 ![] bcast_S_S32x1 : (⟨S_, .i32⟩ : BufTy).Contents (Elt F) → (⟨S32x1, .i32⟩ : BufTy).Contents (Elt F))
  :: StableHlo.binary main_v1170 main_v1171 main_v1172 (addi : (⟨S32x1, .i32⟩ : BufTy).Contents (Elt F) → (⟨S32x1, .i32⟩ : BufTy).Contents (Elt F) → (⟨S32x1, .i32⟩ : BufTy).Contents (Elt F))
  :: StableHlo.nullary main_v1173 (iotaInDim S1 32 0)
  :: StableHlo.unary main_v1173 main_v1174 (broadcastInDim S1x1 ![1] bcast_S1_S1x1_1 : (⟨S1, .i32⟩ : BufTy).Contents (Elt F) → (⟨S1x1, .i32⟩ : BufTy).Contents (Elt F))
  :: StableHlo.unary main_v1174 main_v1175 (broadcastInDim S32x1 ![0, 1] bcast_S1x1_S32x1_0_1 : (⟨S1x1, .i32⟩ : BufTy).Contents (Elt F) → (⟨S32x1, .i32⟩ : BufTy).Contents (Elt F))
  :: StableHlo.binary main_v1172 main_v1175 main_v1176 (addi : (⟨S32x1, .i32⟩ : BufTy).Contents (Elt F) → (⟨S32x1, .i32⟩ : BufTy).Contents (Elt F) → (⟨S32x1, .i32⟩ : BufTy).Contents (Elt F))
  :: StableHlo.reshape main_v1176 main_v1177 rfl shapeCasts_S32x1_S32
  :: StableHlo.nullary main_c_278 (constantI S_ 32 0#32)
  :: StableHlo.unary main_c_278 main_v1178 (broadcastInDim S32 ![] bcast_S_S32 : (⟨S_, .i32⟩ : BufTy).Contents (Elt F) → (⟨S32, .i32⟩ : BufTy).Contents (Elt F))
  :: StableHlo.binary main_v1177 main_v1178 main_v1179 (cmpi .slt : (⟨S32, .i32⟩ : BufTy).Contents (Elt F) → (⟨S32, .i32⟩ : BufTy).Contents (Elt F) → (⟨S32, .i1⟩ : BufTy).Contents (Elt F))
  :: StableHlo.nullary main_c_279 (constantI S_ 32 131040#32)
  :: StableHlo.unary main_c_279 main_v1180 (broadcastInDim S32 ![] bcast_S_S32 : (⟨S_, .i32⟩ : BufTy).Contents (Elt F) → (⟨S32, .i32⟩ : BufTy).Contents (Elt F))
  :: StableHlo.binary main_v1177 main_v1180 main_v1181 (addi : (⟨S32, .i32⟩ : BufTy).Contents (Elt F) → (⟨S32, .i32⟩ : BufTy).Contents (Elt F) → (⟨S32, .i32⟩ : BufTy).Contents (Elt F))
  :: StableHlo.ternary main_v1179 main_v1181 main_v1177 main_v1182 (select : (⟨S32, .i1⟩ : BufTy).Contents (Elt F) → (⟨S32, .i32⟩ : BufTy).Contents (Elt F) → (⟨S32, .i32⟩ : BufTy).Contents (Elt F) → (⟨S32, .i32⟩ : BufTy).Contents (Elt F))
  :: StableHlo.unary main_v1182 main_v1183 (broadcastInDim S32x1 ![0] bcast_S32_S32x1_0 : (⟨S32, .i32⟩ : BufTy).Contents (Elt F) → (⟨S32x1, .i32⟩ : BufTy).Contents (Elt F))
  :: StableHlo.binary main_v11 main_v1183 main_v1184 ((fun x i => Host.gather gather_S131040x768_S32x1_S32x768_1_0_n_n_0_1_1768 x i) : (⟨S131040x768, .f32⟩ : BufTy).Contents (Elt F) → (⟨S32x1, .i32⟩ : BufTy).Contents (Elt F) → (⟨S32x768, .f32⟩ : BufTy).Contents (Elt F))
  :: StableHlo.unary main_v16 main_v1185 (broadcastInDim S32x1 ![0] bcast_S32_S32x1_0 : (⟨S32, .i32⟩ : BufTy).Contents (Elt F) → (⟨S32x1, .i32⟩ : BufTy).Contents (Elt F))
  :: StableHlo.nullary main_c_280 (constantI S_ 32 1#32)
  :: StableHlo.unary main_c_280 main_v1186 (broadcastInDim S32x1 ![] bcast_S_S32x1 : (⟨S_, .i32⟩ : BufTy).Contents (Elt F) → (⟨S32x1, .i32⟩ : BufTy).Contents (Elt F))
  :: StableHlo.binary main_v1185 main_v1186 main_v1187 (addi : (⟨S32x1, .i32⟩ : BufTy).Contents (Elt F) → (⟨S32x1, .i32⟩ : BufTy).Contents (Elt F) → (⟨S32x1, .i32⟩ : BufTy).Contents (Elt F))
  :: StableHlo.nullary main_v1188 (iotaInDim S2 32 0)
  :: StableHlo.unary main_v1188 main_v1189 (broadcastInDim S1x2 ![1] bcast_S2_S1x2_1 : (⟨S2, .i32⟩ : BufTy).Contents (Elt F) → (⟨S1x2, .i32⟩ : BufTy).Contents (Elt F))
  :: StableHlo.unary main_v1187 main_v1190 (broadcastInDim S32x2 ![0, 1] bcast_S32x1_S32x2_0_1 : (⟨S32x1, .i32⟩ : BufTy).Contents (Elt F) → (⟨S32x2, .i32⟩ : BufTy).Contents (Elt F))
  :: StableHlo.unary main_v1189 main_v1191 (broadcastInDim S32x2 ![0, 1] bcast_S1x2_S32x2_0_1 : (⟨S1x2, .i32⟩ : BufTy).Contents (Elt F) → (⟨S32x2, .i32⟩ : BufTy).Contents (Elt F))
  :: StableHlo.binary main_v1190 main_v1191 main_v1192 (addi : (⟨S32x2, .i32⟩ : BufTy).Contents (Elt F) → (⟨S32x2, .i32⟩ : BufTy).Contents (Elt F) → (⟨S32x2, .i32⟩ : BufTy).Contents (Elt F))
  :: StableHlo.reshape main_v1192 main_v1193 rfl shapeCasts_S32x2_S64
  :: StableHlo.nullary main_c_281 (constantI S_ 32 0#32)
  :: StableHlo.unary main_c_281 main_v1194 (broadcastInDim S64 ![] bcast_S_S64 : (⟨S_, .i32⟩ : BufTy).Contents (Elt F) → (⟨S64, .i32⟩ : BufTy).Contents (Elt F))
  :: StableHlo.binary main_v1193 main_v1194 main_v1195 (cmpi .slt : (⟨S64, .i32⟩ : BufTy).Contents (Elt F) → (⟨S64, .i32⟩ : BufTy).Contents (Elt F) → (⟨S64, .i1⟩ : BufTy).Contents (Elt F))
  :: StableHlo.nullary main_c_282 (constantI S_ 32 131040#32)
  :: StableHlo.unary main_c_282 main_v1196 (broadcastInDim S64 ![] bcast_S_S64 : (⟨S_, .i32⟩ : BufTy).Contents (Elt F) → (⟨S64, .i32⟩ : BufTy).Contents (Elt F))
  :: StableHlo.binary main_v1193 main_v1196 main_v1197 (addi : (⟨S64, .i32⟩ : BufTy).Contents (Elt F) → (⟨S64, .i32⟩ : BufTy).Contents (Elt F) → (⟨S64, .i32⟩ : BufTy).Contents (Elt F))
  :: StableHlo.ternary main_v1195 main_v1197 main_v1193 main_v1198 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1198 main_v1199 (broadcastInDim S64x1 ![0] bcast_S64_S64x1_0 : (⟨S64, .i32⟩ : BufTy).Contents (Elt F) → (⟨S64x1, .i32⟩ : BufTy).Contents (Elt F))
  :: StableHlo.binary main_v1162 main_v1199 main_v1200 ((fun x i => Host.gather gather_S131040x256_S64x1_S64x256_1_0_n_n_0_1_1256 x i) : (⟨S131040x256, .f32⟩ : BufTy).Contents (Elt F) → (⟨S64x1, .i32⟩ : BufTy).Contents (Elt F) → (⟨S64x256, .f32⟩ : BufTy).Contents (Elt F))
  :: StableHlo.nullary main_c_283 (constantI S_ 32 0#32)
  :: StableHlo.unary main_c_283 main_v1201 (broadcastInDim S64 ![] bcast_S_S64 : (⟨S_, .i32⟩ : BufTy).Contents (Elt F) → (⟨S64, .i32⟩ : BufTy).Contents (Elt F))
  :: StableHlo.binary main_v1193 main_v1201 main_v1202 (cmpi .slt : (⟨S64, .i32⟩ : BufTy).Contents (Elt F) → (⟨S64, .i32⟩ : BufTy).Contents (Elt F) → (⟨S64, .i1⟩ : BufTy).Contents (Elt F))
  :: StableHlo.nullary main_c_284 (constantI S_ 32 131040#32)
  :: StableHlo.unary main_c_284 main_v1203 (broadcastInDim S64 ![] bcast_S_S64 : (⟨S_, .i32⟩ : BufTy).Contents (Elt F) → (⟨S64, .i32⟩ : BufTy).Contents (Elt F))
  :: StableHlo.binary main_v1193 main_v1203 main_v1204 (addi : (⟨S64, .i32⟩ : BufTy).Contents (Elt F) → (⟨S64, .i32⟩ : BufTy).Contents (Elt F) → (⟨S64, .i32⟩ : BufTy).Contents (Elt F))
  :: StableHlo.ternary main_v1202 main_v1204 main_v1193 main_v1205 (select : (⟨S64, .i1⟩ : BufTy).Contents (Elt F) → (⟨S64, .i32⟩ : BufTy).Contents (Elt F) → (⟨S64, .i32⟩ : BufTy).Contents (Elt F) → (⟨S64, .i32⟩ : BufTy).Contents (Elt F))
  :: StableHlo.unary main_v1205 main_v1206 (broadcastInDim S64x1 ![0] bcast_S64_S64x1_0 : (⟨S64, .i32⟩ : BufTy).Contents (Elt F) → (⟨S64x1, .i32⟩ : BufTy).Contents (Elt F))
  :: StableHlo.binary main_v1169 main_v1206 main_v1207 ((fun x i => Host.gather gather_S131040x256_S64x1_S64x256_1_0_n_n_0_1_1256 x i) : (⟨S131040x256, .f32⟩ : BufTy).Contents (Elt F) → (⟨S64x1, .i32⟩ : BufTy).Contents (Elt F) → (⟨S64x256, .f32⟩ : BufTy).Contents (Elt F))
  :: StableHlo.nullary main_c_285 (constantI S_ 32 0#32)
  :: StableHlo.unary main_c_285 main_v1208 (broadcastInDim S64 ![] bcast_S_S64 : (⟨S_, .i32⟩ : BufTy).Contents (Elt F) → (⟨S64, .i32⟩ : BufTy).Contents (Elt F))
  :: StableHlo.binary main_v1193 main_v1208 main_v1209 (cmpi .slt : (⟨S64, .i32⟩ : BufTy).Contents (Elt F) → (⟨S64, .i32⟩ : BufTy).Contents (Elt F) → (⟨S64, .i1⟩ : BufTy).Contents (Elt F))
  :: StableHlo.nullary main_c_286 (constantI S_ 32 131040#32)
  :: StableHlo.unary main_c_286 main_v1210 (broadcastInDim S64 ![] bcast_S_S64 : (⟨S_, .i32⟩ : BufTy).Contents (Elt F) → (⟨S64, .i32⟩ : BufTy).Contents (Elt F))
  :: [] )
/-- Each touches TensorCore references only (`HostSeg.ofOps` over `StableHlo.tcRefs`, or a subset by `sub_ucRefs`). -/
theorem main_part24_ops0_sub : (main_part24_ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub ..⟩
/-- Window 24 of `main` (`main_part24`, statements 1441 … 1500) is the chain of ITS items ending in the last
    (`Pipeline.chainK`: no closing `pure`, the window's last statement being in tail position), by `chain_rfl`. -/
theorem main_part24_chain (c : Dev nD) : main_part24 (F := F) c = (Pipeline.chainK
  [  ]
  (StableHlo.seq main_part24_ops0) : Prog (TpuEff nD τ sig (Elt F) (Pipeline.Sig Λ₀ (Fin 0) fun p => (pcfgs (F := F) p).Adm) .tc) PUnit) := by
  chain_rfl

/-- 5 host operations of @main, window 25 (statements 1501 … 1560), in order. -/
abbrev main_part25_ops0 : List (HloOp τ sig (Elt F)) :=
  [ StableHlo.binary main_v1193 main_v1210 main_v1211 (addi : (⟨S64, .i32⟩ : BufTy).Contents (Elt F) → (⟨S64, .i32⟩ : BufTy).Contents (Elt F) → (⟨S64, .i32⟩ : BufTy).Contents (Elt F)),
    StableHlo.ternary main_v1209 main_v1211 main_v1193 main_v1212 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    StableHlo.unary main_v1212 main_v1213 (broadcastInDim S64x1 ![0] bcast_S64_S64x1_0 : (⟨S64, .i32⟩ : BufTy).Contents (Elt F) → (⟨S64x1, .i32⟩ : BufTy).Contents (Elt F)),
    StableHlo.binary main_arg1 main_v1213 main_v1214 ((fun x i => Host.gather gather_S131040_S64x1_S64_n_0_n_n_0_1_1 x i) : (⟨S131040, .i32⟩ : BufTy).Contents (Elt F) → (⟨S64x1, .i32⟩ : BufTy).Contents (Elt F) → (⟨S64, .i32⟩ : BufTy).Contents (Elt F)),
    StableHlo.nullary main_c_287 (constantI S_ 32 4095#32) ]
/-- Each touches TensorCore references only (`HostSeg.ofOps` over `StableHlo.tcRefs`, or a subset by `sub_ucRefs`). -/
theorem main_part25_ops0_sub : (main_part25_ops0 : List (HloOp τ sig (Elt F))).Forall fun op => op.bufs ⊆ StableHlo.tcRefs τ sig :=
  ⟨StableHlo.binary_bufs_sub .., StableHlo.ternary_bufs_sub .., StableHlo.unary_bufs_sub .., StableHlo.binary_bufs_sub .., StableHlo.nullary_bufs_sub ..⟩
/-- 17 host operations of @floor_divide_28 (main_call20), window 25 (statements 1501 … 1560), in order. -/
abbrev main_part25_ops1 : List (HloOp τ sig (Elt F)) :=
  [ StableHlo.TRef.unary (.of main_c_287 : StableHlo.TRef sig ⟨S_, .i32⟩) (.of main_call20_v0 : StableHlo.TRef sig ⟨S_, .i32⟩) id,
    StableHlo.TRef.unary (.of main_call20_v0 : StableHlo.TRef sig ⟨S_, .i32⟩) (.of main_call20_v1 : StableHlo.TRef sig ⟨S64, .i32⟩) (broadcastInDim S64 ![] bcast_S_S64),
    StableHlo.TRef.binary (.of main_v1214 : StableHlo.TRef sig ⟨S64, .i32⟩) (.of main_call20_v1 : StableHlo.TRef sig ⟨S64, .i32⟩) (.of main_call20_v2 : StableHlo.TRef sig ⟨S64, .i32⟩) Host.divsi,
    StableHlo.TRef.unary (.of main_v1214 : StableHlo.TRef sig ⟨S64, .i32⟩) (.of main_call20_v3 : StableHlo.TRef sig ⟨S64, .i32⟩) signi,
    StableHlo.TRef.unary (.of main_call20_v0 : StableHlo.TRef sig ⟨S_, .i32⟩) (.of main_call20_v4 : StableHlo.TRef sig ⟨S_, .i32⟩) signi,
    StableHlo.TRef.unary (.of main_call20_v4 : StableHlo.TRef sig ⟨S_, .i32⟩) (.of main_call20_v5 : StableHlo.TRef sig ⟨S64, .i32⟩) (broadcastInDim S64 ![] bcast_S_S64),
    StableHlo.TRef.binary (.of main_call20_v3 : StableHlo.TRef sig ⟨S64, .i32⟩) (.of main_call20_v5 : StableHlo.TRef sig ⟨S64, .i32⟩) (.of main_call20_v6 : StableHlo.TRef sig ⟨S64, .i1⟩) (cmpi .ne),
    StableHlo.TRef.unary (.of main_call20_v0 : StableHlo.TRef sig ⟨S_, .i32⟩) (.of main_call20_v7 : StableHlo.TRef sig ⟨S64, .i32⟩) (broadcastInDim S64 ![] bcast_S_S64),
    StableHlo.TRef.binary (.of main_v1214 : StableHlo.TRef sig ⟨S64, .i32⟩) (.of main_call20_v7 : StableHlo.TRef sig ⟨S64, .i32⟩) (.of main_call20_v8 : StableHlo.TRef sig ⟨S64, .i32⟩) Host.remsi,
    StableHlo.TRef.nullary (.of main_call20_c : StableHlo.TRef sig ⟨S_, .i32⟩) (constantI S_ 32 0#32),
    StableHlo.TRef.unary (.of main_call20_c : StableHlo.TRef sig ⟨S_, .i32⟩) (.of main_call20_v9 : StableHlo.TRef sig ⟨S64, .i32⟩) (broadcastInDim S64 ![] bcast_S_S64),
    StableHlo.TRef.binary (.of main_call20_v8 : StableHlo.TRef sig ⟨S64, .i32⟩) (.of main_call20_v9 : StableHlo.TRef sig ⟨S64, .i32⟩) (.of main_call20_v10 : StableHlo.TRef sig ⟨S64, .i1⟩) (cmpi .ne),
    StableHlo.TRef.binary (.of main_call20_v6 : StableHlo.TRef sig ⟨S64, .i1⟩) (.of main_call20_v10 : StableHlo.TRef sig ⟨S64, .i1⟩) (.of main_call20_v11 : StableHlo.TRef sig ⟨S64, .i1⟩) andi,
    StableHlo.TRef.nullary (.of main_call20_c_0 : StableHlo.TRef sig ⟨S_, .i32⟩) (constantI S_ 32 1#32),
    StableHlo.TRef.unary (.of main_call20_c_0 : StableHlo.TRef sig ⟨S_, .i32⟩) (.of main_call20_v12 : StableHlo.TRef sig ⟨S64, .i32⟩) (broadcastInDim S64 ![] bcast_S_S64),
    StableHlo.TRef.binary (.of main_call20_v2 : StableHlo.TRef sig ⟨S64, .i32⟩) (.of main_call20_v12 : StableHlo.TRef sig ⟨S64, .i32⟩) (.of main_call20_v13 : StableHlo.TRef sig ⟨S64, .i32⟩) subi,
    StableHlo.TRef.ternary (.of main_call20_v11 : StableHlo.TRef sig ⟨S64, .i1⟩) (.of main_call20_v13 : StableHlo.TRef sig ⟨S64, .i32⟩) (.of main_call20_v2 : StableHlo.TRef sig ⟨S64, .i32⟩) (.of main_v1215 : StableHlo.TRef sig ⟨S64, .i32⟩) select ]
/-- Each touches TensorCore references only (`HostSeg.ofOps` over `StableHlo.tcRefs`, or a subset by `sub_ucRefs`). -/
theorem main_part25_ops1_sub : (main_part25_ops1 : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub ..⟩
/-- 4 host operations of @main, window 25 (statements 1501 … 1560), in order. -/
abbrev main_part25_ops2 : List (HloOp τ sig (Elt F)) :=
  [ StableHlo.nullary main_c_288 (constantI S_ 32 1#32),
    StableHlo.unary main_c_288 main_v1216 (broadcastInDim S64 ![] bcast_S_S64 : (⟨S_, .i32⟩ : BufTy).Contents (Elt F) → (⟨S64, .i32⟩ : BufTy).Contents (Elt F)),
    StableHlo.binary main_v1215 main_v1216 main_v1217 (muli : (⟨S64, .i32⟩ : BufTy).Contents (Elt F) → (⟨S64, .i32⟩ : BufTy).Contents (Elt F) → (⟨S64, .i32⟩ : BufTy).Contents (Elt F)),
    StableHlo.nullary main_c_289 (constantI S_ 32 4095#32) ]
/-- Each touches TensorCore references only (`HostSeg.ofOps` over `StableHlo.tcRefs`, or a subset by `sub_ucRefs`). -/
theorem main_part25_ops2_sub : (main_part25_ops2 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub ..⟩
/-- 21 host operations of @remainder_30 (main_call21), window 25 (statements 1501 … 1560), in order. -/
abbrev main_part25_ops3 : List (HloOp τ sig (Elt F)) :=
  [ StableHlo.TRef.unary (.of main_c_289 : StableHlo.TRef sig ⟨S_, .i32⟩) (.of main_call21_v0 : StableHlo.TRef sig ⟨S_, .i32⟩) id,
    StableHlo.TRef.nullary (.of main_call21_c : StableHlo.TRef sig ⟨S_, .i32⟩) (constantI S_ 32 0#32),
    StableHlo.TRef.binary (.of main_call21_v0 : StableHlo.TRef sig ⟨S_, .i32⟩) (.of main_call21_c : StableHlo.TRef sig ⟨S_, .i32⟩) (.of main_call21_v1 : StableHlo.TRef sig ⟨S_, .i1⟩) (cmpi .eq),
    StableHlo.TRef.nullary (.of main_call21_c_0 : StableHlo.TRef sig ⟨S_, .i32⟩) (constantI S_ 32 1#32),
    StableHlo.TRef.ternary (.of main_call21_v1 : StableHlo.TRef sig ⟨S_, .i1⟩) (.of main_call21_c_0 : StableHlo.TRef sig ⟨S_, .i32⟩) (.of main_call21_v0 : StableHlo.TRef sig ⟨S_, .i32⟩) (.of main_call21_v2 : StableHlo.TRef sig ⟨S_, .i32⟩) select,
    StableHlo.TRef.unary main_call21_call0.v0 (.of main_call21_v3 : StableHlo.TRef sig ⟨S64, .i32⟩) (broadcastInDim S64 ![] bcast_S_S64),
    StableHlo.TRef.binary (.of main_v1214 : StableHlo.TRef sig ⟨S64, .i32⟩) (.of main_call21_v3 : StableHlo.TRef sig ⟨S64, .i32⟩) (.of main_call21_v4 : StableHlo.TRef sig ⟨S64, .i32⟩) Host.remsi,
    StableHlo.TRef.nullary (.of main_call21_c_1 : StableHlo.TRef sig ⟨S_, .i32⟩) (constantI S_ 32 0#32),
    StableHlo.TRef.unary (.of main_call21_c_1 : StableHlo.TRef sig ⟨S_, .i32⟩) (.of main_call21_v5 : StableHlo.TRef sig ⟨S64, .i32⟩) (broadcastInDim S64 ![] bcast_S_S64),
    StableHlo.TRef.binary (.of main_call21_v4 : StableHlo.TRef sig ⟨S64, .i32⟩) (.of main_call21_v5 : StableHlo.TRef sig ⟨S64, .i32⟩) (.of main_call21_v6 : StableHlo.TRef sig ⟨S64, .i1⟩) (cmpi .ne),
    StableHlo.TRef.nullary (.of main_call21_c_2 : StableHlo.TRef sig ⟨S_, .i32⟩) (constantI S_ 32 0#32),
    StableHlo.TRef.unary (.of main_call21_c_2 : StableHlo.TRef sig ⟨S_, .i32⟩) (.of main_call21_v7 : StableHlo.TRef sig ⟨S64, .i32⟩) (broadcastInDim S64 ![] bcast_S_S64),
    StableHlo.TRef.binary (.of main_call21_v4 : StableHlo.TRef sig ⟨S64, .i32⟩) (.of main_call21_v7 : StableHlo.TRef sig ⟨S64, .i32⟩) (.of main_call21_v8 : StableHlo.TRef sig ⟨S64, .i1⟩) (cmpi .slt),
    StableHlo.TRef.nullary (.of main_call21_c_3 : StableHlo.TRef sig ⟨S_, .i32⟩) (constantI S_ 32 0#32),
    StableHlo.TRef.binary main_call21_call0.v0 (.of main_call21_c_3 : StableHlo.TRef sig ⟨S_, .i32⟩) (.of main_call21_v9 : StableHlo.TRef sig ⟨S_, .i1⟩) (cmpi .slt),
    StableHlo.TRef.unary (.of main_call21_v9 : StableHlo.TRef sig ⟨S_, .i1⟩) (.of main_call21_v10 : StableHlo.TRef sig ⟨S64, .i1⟩) (broadcastInDim S64 ![] bcast_S_S64),
    StableHlo.TRef.binary (.of main_call21_v8 : StableHlo.TRef sig ⟨S64, .i1⟩) (.of main_call21_v10 : StableHlo.TRef sig ⟨S64, .i1⟩) (.of main_call21_v11 : StableHlo.TRef sig ⟨S64, .i1⟩) (cmpi .ne),
    StableHlo.TRef.binary (.of main_call21_v11 : StableHlo.TRef sig ⟨S64, .i1⟩) (.of main_call21_v6 : StableHlo.TRef sig ⟨S64, .i1⟩) (.of main_call21_v12 : StableHlo.TRef sig ⟨S64, .i1⟩) andi,
    StableHlo.TRef.unary main_call21_call0.v0 (.of main_call21_v13 : StableHlo.TRef sig ⟨S64, .i32⟩) (broadcastInDim S64 ![] bcast_S_S64),
    StableHlo.TRef.binary (.of main_call21_v4 : StableHlo.TRef sig ⟨S64, .i32⟩) (.of main_call21_v13 : StableHlo.TRef sig ⟨S64, .i32⟩) (.of main_call21_v14 : StableHlo.TRef sig ⟨S64, .i32⟩) addi,
    StableHlo.TRef.ternary (.of main_call21_v12 : StableHlo.TRef sig ⟨S64, .i1⟩) (.of main_call21_v14 : StableHlo.TRef sig ⟨S64, .i32⟩) (.of main_call21_v4 : StableHlo.TRef sig ⟨S64, .i32⟩) (.of main_v1218 : StableHlo.TRef sig ⟨S64, .i32⟩) select ]
/-- Each touches TensorCore references only (`HostSeg.ofOps` over `StableHlo.tcRefs`, or a subset by `sub_ucRefs`). -/
theorem main_part25_ops3_sub : (main_part25_ops3 : List (HloOp τ sig (Elt F))).Forall fun op => op.bufs ⊆ StableHlo.tcRefs τ sig :=
  ⟨StableHlo.unary_bufs_sub .., StableHlo.nullary_bufs_sub .., StableHlo.binary_bufs_sub .., StableHlo.nullary_bufs_sub .., StableHlo.ternary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.binary_bufs_sub .., StableHlo.unary_bufs_sub .., StableHlo.binary_bufs_sub .., StableHlo.binary_bufs_sub .., StableHlo.unary_bufs_sub .., StableHlo.binary_bufs_sub .., StableHlo.ternary_bufs_sub ..⟩
/-- 49 host operations of @main, window 25 (statements 1501 … 1560), in order. -/
abbrev main_part25_ops4 : List (HloOp τ sig (Elt F)) :=
  ( StableHlo.nullary main_c_290 (constantI S_ 32 0#32)
  :: StableHlo.unary main_c_290 main_v1219 (broadcastInDim S64 ![] bcast_S_S64 : (⟨S_, .i32⟩ : BufTy).Contents (Elt F) → (⟨S64, .i32⟩ : BufTy).Contents (Elt F))
  :: StableHlo.binary main_v1218 main_v1219 main_v1220 (subi : (⟨S64, .i32⟩ : BufTy).Contents (Elt F) → (⟨S64, .i32⟩ : BufTy).Contents (Elt F) → (⟨S64, .i32⟩ : BufTy).Contents (Elt F))
  :: StableHlo.binary main_v1217 main_v1220 main_v1221 (addi : (⟨S64, .i32⟩ : BufTy).Contents (Elt F) → (⟨S64, .i32⟩ : BufTy).Contents (Elt F) → (⟨S64, .i32⟩ : BufTy).Contents (Elt F))
  :: StableHlo.unary main_arg6 main_v1222 ((transpose S256x256 [1, 0] · transposes_S256x256_S256x256_1_0) : (⟨S256x256, .f32⟩ : BufTy).Contents (Elt F) → (⟨S256x256, .f32⟩ : BufTy).Contents (Elt F))
  :: StableHlo.binary main_v1200 main_v1222 main_v1223 ((fun l r => Host.dotGeneral dot_S64x256_S256x256_S64x256_1_0_0_1_n_n none l r) : (⟨S64x256, .f32⟩ : BufTy).Contents (Elt F) → (⟨S256x256, .f32⟩ : BufTy).Contents (Elt F) → (⟨S64x256, .f32⟩ : BufTy).Contents (Elt F))
  :: StableHlo.unary main_arg7 main_v1224 (broadcastInDim S1x256 ![1] bcast_S256_S1x256_1 : (⟨S256, .f32⟩ : BufTy).Contents (Elt F) → (⟨S1x256, .f32⟩ : BufTy).Contents (Elt F))
  :: StableHlo.unary main_v1224 main_v1225 (broadcastInDim S64x256 ![0, 1] bcast_S1x256_S64x256_0_1 : (⟨S1x256, .f32⟩ : BufTy).Contents (Elt F) → (⟨S64x256, .f32⟩ : BufTy).Contents (Elt F))
  :: StableHlo.binary main_v1223 main_v1225 main_v1226 (addf : (⟨S64x256, .f32⟩ : BufTy).Contents (Elt F) → (⟨S64x256, .f32⟩ : BufTy).Contents (Elt F) → (⟨S64x256, .f32⟩ : BufTy).Contents (Elt F))
  :: StableHlo.unary main_v1226 main_v1227 (Host.negf : (⟨S64x256, .f32⟩ : BufTy).Contents (Elt F) → (⟨S64x256, .f32⟩ : BufTy).Contents (Elt F))
  :: StableHlo.unary main_v1227 main_v1228 (Host.exp : (⟨S64x256, .f32⟩ : BufTy).Contents (Elt F) → (⟨S64x256, .f32⟩ : BufTy).Contents (Elt F))
  :: StableHlo.nullary main_cst_291 (constant S_ .f32 0x3F800000#32)
  :: StableHlo.unary main_cst_291 main_v1229 (broadcastInDim S64x256 ![] bcast_S_S64x256 : (⟨S_, .f32⟩ : BufTy).Contents (Elt F) → (⟨S64x256, .f32⟩ : BufTy).Contents (Elt F))
  :: StableHlo.binary main_v1229 main_v1228 main_v1230 (addf : (⟨S64x256, .f32⟩ : BufTy).Contents (Elt F) → (⟨S64x256, .f32⟩ : BufTy).Contents (Elt F) → (⟨S64x256, .f32⟩ : BufTy).Contents (Elt F))
  :: StableHlo.nullary main_cst_292 (constant S_ .f32 0x3F800000#32)
  :: StableHlo.unary main_cst_292 main_v1231 (broadcastInDim S64x256 ![] bcast_S_S64x256 : (⟨S_, .f32⟩ : BufTy).Contents (Elt F) → (⟨S64x256, .f32⟩ : BufTy).Contents (Elt F))
  :: StableHlo.binary main_v1231 main_v1230 main_v1232 (Host.divf : (⟨S64x256, .f32⟩ : BufTy).Contents (Elt F) → (⟨S64x256, .f32⟩ : BufTy).Contents (Elt F) → (⟨S64x256, .f32⟩ : BufTy).Contents (Elt F))
  :: StableHlo.nullary main_cst_293 (constant S_ .f32 0x00000000#32)
  :: StableHlo.unary main_cst_293 main_v1233 (broadcastInDim S32x256 ![] bcast_S_S32x256 : (⟨S_, .f32⟩ : BufTy).Contents (Elt F) → (⟨S32x256, .f32⟩ : BufTy).Contents (Elt F))
  :: StableHlo.unary main_v1221 main_v1234 (broadcastInDim S64x1 ![0] bcast_S64_S64x1_0 : (⟨S64, .i32⟩ : BufTy).Contents (Elt F) → (⟨S64x1, .i32⟩ : BufTy).Contents (Elt F))
  :: StableHlo.ternary main_v1233 main_v1234 main_v1200 main_v1235 ((fun x i u => Host.scatterAdd scatter_S32x256_S64x1_S64x256_1_0_0_1 x i u) : (⟨S32x256, .f32⟩ : BufTy).Contents (Elt F) → (⟨S64x1, .i32⟩ : BufTy).Contents (Elt F) → (⟨S64x256, .f32⟩ : BufTy).Contents (Elt F) → (⟨S32x256, .f32⟩ : BufTy).Contents (Elt F))
  :: StableHlo.binary main_v1232 main_v1207 main_v1236 (mulf : (⟨S64x256, .f32⟩ : BufTy).Contents (Elt F) → (⟨S64x256, .f32⟩ : BufTy).Contents (Elt F) → (⟨S64x256, .f32⟩ : BufTy).Contents (Elt F))
  :: StableHlo.nullary main_cst_294 (constant S_ .f32 0x00000000#32)
  :: StableHlo.unary main_cst_294 main_v1237 (broadcastInDim S32x256 ![] bcast_S_S32x256 : (⟨S_, .f32⟩ : BufTy).Contents (Elt F) → (⟨S32x256, .f32⟩ : BufTy).Contents (Elt F))
  :: StableHlo.unary main_v1221 main_v1238 (broadcastInDim S64x1 ![0] bcast_S64_S64x1_0 : (⟨S64, .i32⟩ : BufTy).Contents (Elt F) → (⟨S64x1, .i32⟩ : BufTy).Contents (Elt F))
  :: StableHlo.ternary main_v1237 main_v1238 main_v1236 main_v1239 ((fun x i u => Host.scatterAdd scatter_S32x256_S64x1_S64x256_1_0_0_1 x i u) : (⟨S32x256, .f32⟩ : BufTy).Contents (Elt F) → (⟨S64x1, .i32⟩ : BufTy).Contents (Elt F) → (⟨S64x256, .f32⟩ : BufTy).Contents (Elt F) → (⟨S32x256, .f32⟩ : BufTy).Contents (Elt F))
  :: StableHlo.unary main_arg4 main_v1240 ((transpose S256x768 [1, 0] · transposes_S768x256_S256x768_1_0) : (⟨S768x256, .f32⟩ : BufTy).Contents (Elt F) → (⟨S256x768, .f32⟩ : BufTy).Contents (Elt F))
  :: StableHlo.binary main_v1235 main_v1240 main_v1241 ((fun l r => Host.dotGeneral dot_S32x256_S256x768_S32x768_1_0_0_1_n_n none l r) : (⟨S32x256, .f32⟩ : BufTy).Contents (Elt F) → (⟨S256x768, .f32⟩ : BufTy).Contents (Elt F) → (⟨S32x768, .f32⟩ : BufTy).Contents (Elt F))
  :: StableHlo.binary main_v1184 main_v1241 main_v1242 (addf : (⟨S32x768, .f32⟩ : BufTy).Contents (Elt F) → (⟨S32x768, .f32⟩ : BufTy).Contents (Elt F) → (⟨S32x768, .f32⟩ : BufTy).Contents (Elt F))
  :: StableHlo.unary main_arg5 main_v1243 (broadcastInDim S32x768 ![0, 1] bcast_S1x768_S32x768_0_1 : (⟨S1x768, .f32⟩ : BufTy).Contents (Elt F) → (⟨S32x768, .f32⟩ : BufTy).Contents (Elt F))
  :: StableHlo.binary main_v1242 main_v1243 main_v1244 (addf : (⟨S32x768, .f32⟩ : BufTy).Contents (Elt F) → (⟨S32x768, .f32⟩ : BufTy).Contents (Elt F) → (⟨S32x768, .f32⟩ : BufTy).Contents (Elt F))
  :: StableHlo.unary main_v1244 main_v1245 ((extractStridedSlice S32x256 ![0, 0] · slices_S32x768_S32x256_0_0) : (⟨S32x768, .f32⟩ : BufTy).Contents (Elt F) → (⟨S32x256, .f32⟩ : BufTy).Contents (Elt F))
  :: StableHlo.unary main_v1244 main_v1246 ((extractStridedSlice S32x256 ![0, 256] · slices_S32x768_S32x256_0_256) : (⟨S32x768, .f32⟩ : BufTy).Contents (Elt F) → (⟨S32x256, .f32⟩ : BufTy).Contents (Elt F))
  :: StableHlo.unary main_v1244 main_v1247 ((extractStridedSlice S32x256 ![0, 512] · slices_S32x768_S32x256_0_512) : (⟨S32x768, .f32⟩ : BufTy).Contents (Elt F) → (⟨S32x256, .f32⟩ : BufTy).Contents (Elt F))
  :: StableHlo.unary main_v1245 main_v1248 (Host.negf : (⟨S32x256, .f32⟩ : BufTy).Contents (Elt F) → (⟨S32x256, .f32⟩ : BufTy).Contents (Elt F))
  :: StableHlo.unary main_v1248 main_v1249 (Host.exp : (⟨S32x256, .f32⟩ : BufTy).Contents (Elt F) → (⟨S32x256, .f32⟩ : BufTy).Contents (Elt F))
  :: StableHlo.nullary main_cst_295 (constant S_ .f32 0x3F800000#32)
  :: StableHlo.unary main_cst_295 main_v1250 (broadcastInDim S32x256 ![] bcast_S_S32x256 : (⟨S_, .f32⟩ : BufTy).Contents (Elt F) → (⟨S32x256, .f32⟩ : BufTy).Contents (Elt F))
  :: StableHlo.binary main_v1250 main_v1249 main_v1251 (addf : (⟨S32x256, .f32⟩ : BufTy).Contents (Elt F) → (⟨S32x256, .f32⟩ : BufTy).Contents (Elt F) → (⟨S32x256, .f32⟩ : BufTy).Contents (Elt F))
  :: StableHlo.nullary main_cst_296 (constant S_ .f32 0x3F800000#32)
  :: StableHlo.unary main_cst_296 main_v1252 (broadcastInDim S32x256 ![] bcast_S_S32x256 : (⟨S_, .f32⟩ : BufTy).Contents (Elt F) → (⟨S32x256, .f32⟩ : BufTy).Contents (Elt F))
  :: StableHlo.binary main_v1252 main_v1251 main_v1253 (Host.divf : (⟨S32x256, .f32⟩ : BufTy).Contents (Elt F) → (⟨S32x256, .f32⟩ : BufTy).Contents (Elt F) → (⟨S32x256, .f32⟩ : BufTy).Contents (Elt F))
  :: StableHlo.unary main_v1247 main_v1254 (Host.tanh : (⟨S32x256, .f32⟩ : BufTy).Contents (Elt F) → (⟨S32x256, .f32⟩ : BufTy).Contents (Elt F))
  :: StableHlo.binary main_v1253 main_v1254 main_v1255 (mulf : (⟨S32x256, .f32⟩ : BufTy).Contents (Elt F) → (⟨S32x256, .f32⟩ : BufTy).Contents (Elt F) → (⟨S32x256, .f32⟩ : BufTy).Contents (Elt F))
  :: StableHlo.binary main_v1255 main_v1239 main_v1256 (addf : (⟨S32x256, .f32⟩ : BufTy).Contents (Elt F) → (⟨S32x256, .f32⟩ : BufTy).Contents (Elt F) → (⟨S32x256, .f32⟩ : BufTy).Contents (Elt F))
  :: StableHlo.unary main_v1246 main_v1257 (Host.negf : (⟨S32x256, .f32⟩ : BufTy).Contents (Elt F) → (⟨S32x256, .f32⟩ : BufTy).Contents (Elt F))
  :: StableHlo.unary main_v1257 main_v1258 (Host.exp : (⟨S32x256, .f32⟩ : BufTy).Contents (Elt F) → (⟨S32x256, .f32⟩ : BufTy).Contents (Elt F))
  :: StableHlo.nullary main_cst_297 (constant S_ .f32 0x3F800000#32)
  :: StableHlo.unary main_cst_297 main_v1259 (broadcastInDim S32x256 ![] bcast_S_S32x256 : (⟨S_, .f32⟩ : BufTy).Contents (Elt F) → (⟨S32x256, .f32⟩ : BufTy).Contents (Elt F))
  :: [] )
/-- Each touches TensorCore references only (`HostSeg.ofOps` over `StableHlo.tcRefs`, or a subset by `sub_ucRefs`). -/
theorem main_part25_ops4_sub : (main_part25_ops4 : List (HloOp τ sig (Elt F))).Forall fun op => op.bufs ⊆ StableHlo.tcRefs τ sig :=
  ⟨StableHlo.nullary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.unary_bufs_sub .., StableHlo.ternary_bufs_sub .., StableHlo.binary_bufs_sub .., StableHlo.nullary_bufs_sub .., StableHlo.unary_bufs_sub .., StableHlo.unary_bufs_sub .., StableHlo.ternary_bufs_sub .., StableHlo.unary_bufs_sub .., StableHlo.binary_bufs_sub .., StableHlo.binary_bufs_sub .., StableHlo.unary_bufs_sub .., StableHlo.binary_bufs_sub .., StableHlo.unary_bufs_sub .., StableHlo.unary_bufs_sub .., StableHlo.unary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub ..⟩
/-- Window 25 of `main` (`main_part25`, statements 1501 … 1560) is the chain of ITS items ending in the last
    (`Pipeline.chainK`: no closing `pure`, the window's last statement being in tail position), by `chain_rfl`. -/
theorem main_part25_chain (c : Dev nD) : main_part25 (F := F) c = (Pipeline.chainK
  [ StableHlo.seq main_part25_ops0,
    StableHlo.seq main_part25_ops1,
    StableHlo.seq main_part25_ops2,
    StableHlo.seq main_part25_ops3 ]
  (StableHlo.seq main_part25_ops4) : Prog (TpuEff nD τ sig (Elt F) (Pipeline.Sig Λ₀ (Fin 0) fun p => (pcfgs (F := F) p).Adm) .tc) PUnit) := by
  chain_rfl

/-- 38 host operations of @main, window 26 (statements 1561 … 1599), in order. -/
abbrev main_part26_ops0 : List (HloOp τ sig (Elt F)) :=
  ( StableHlo.binary main_v1259 main_v1258 main_v1260 (addf : (⟨S32x256, .f32⟩ : BufTy).Contents (Elt F) → (⟨S32x256, .f32⟩ : BufTy).Contents (Elt F) → (⟨S32x256, .f32⟩ : BufTy).Contents (Elt F))
  :: StableHlo.nullary main_cst_298 (constant S_ .f32 0x3F800000#32)
  :: StableHlo.unary main_cst_298 main_v1261 (broadcastInDim S32x256 ![] bcast_S_S32x256 : (⟨S_, .f32⟩ : BufTy).Contents (Elt F) → (⟨S32x256, .f32⟩ : BufTy).Contents (Elt F))
  :: StableHlo.binary main_v1261 main_v1260 main_v1262 (Host.divf : (⟨S32x256, .f32⟩ : BufTy).Contents (Elt F) → (⟨S32x256, .f32⟩ : BufTy).Contents (Elt F) → (⟨S32x256, .f32⟩ : BufTy).Contents (Elt F))
  :: StableHlo.unary main_v1256 main_v1263 (Host.tanh : (⟨S32x256, .f32⟩ : BufTy).Contents (Elt F) → (⟨S32x256, .f32⟩ : BufTy).Contents (Elt F))
  :: StableHlo.binary main_v1262 main_v1263 main_v1264 (mulf : (⟨S32x256, .f32⟩ : BufTy).Contents (Elt F) → (⟨S32x256, .f32⟩ : BufTy).Contents (Elt F) → (⟨S32x256, .f32⟩ : BufTy).Contents (Elt F))
  :: StableHlo.nullary main_c_299 (constantI S_ 32 0#32)
  :: StableHlo.unary main_c_299 main_v1265 (broadcastInDim S32 ![] bcast_S_S32 : (⟨S_, .i32⟩ : BufTy).Contents (Elt F) → (⟨S32, .i32⟩ : BufTy).Contents (Elt F))
  :: StableHlo.binary main_v1177 main_v1265 main_v1266 (cmpi .slt : (⟨S32, .i32⟩ : BufTy).Contents (Elt F) → (⟨S32, .i32⟩ : BufTy).Contents (Elt F) → (⟨S32, .i1⟩ : BufTy).Contents (Elt F))
  :: StableHlo.nullary main_c_300 (constantI S_ 32 131040#32)
  :: StableHlo.unary main_c_300 main_v1267 (broadcastInDim S32 ![] bcast_S_S32 : (⟨S_, .i32⟩ : BufTy).Contents (Elt F) → (⟨S32, .i32⟩ : BufTy).Contents (Elt F))
  :: StableHlo.binary main_v1177 main_v1267 main_v1268 (addi : (⟨S32, .i32⟩ : BufTy).Contents (Elt F) → (⟨S32, .i32⟩ : BufTy).Contents (Elt F) → (⟨S32, .i32⟩ : BufTy).Contents (Elt F))
  :: StableHlo.ternary main_v1266 main_v1268 main_v1177 main_v1269 (select : (⟨S32, .i1⟩ : BufTy).Contents (Elt F) → (⟨S32, .i32⟩ : BufTy).Contents (Elt F) → (⟨S32, .i32⟩ : BufTy).Contents (Elt F) → (⟨S32, .i32⟩ : BufTy).Contents (Elt F))
  :: StableHlo.unary main_v1269 main_v1270 (broadcastInDim S32x1 ![0] bcast_S32_S32x1_0 : (⟨S32, .i32⟩ : BufTy).Contents (Elt F) → (⟨S32x1, .i32⟩ : BufTy).Contents (Elt F))
  :: StableHlo.ternary main_v1162 main_v1270 main_v1264 main_v1271 ((fun x i u => Host.scatter scatter_S131040x256_S32x1_S32x256_1_0_0_1 (fun _ b => b) x i u) : (⟨S131040x256, .f32⟩ : BufTy).Contents (Elt F) → (⟨S32x1, .i32⟩ : BufTy).Contents (Elt F) → (⟨S32x256, .f32⟩ : BufTy).Contents (Elt F) → (⟨S131040x256, .f32⟩ : BufTy).Contents (Elt F))
  :: StableHlo.nullary main_c_301 (constantI S_ 32 0#32)
  :: StableHlo.unary main_c_301 main_v1272 (broadcastInDim S32 ![] bcast_S_S32 : (⟨S_, .i32⟩ : BufTy).Contents (Elt F) → (⟨S32, .i32⟩ : BufTy).Contents (Elt F))
  :: StableHlo.binary main_v1177 main_v1272 main_v1273 (cmpi .slt : (⟨S32, .i32⟩ : BufTy).Contents (Elt F) → (⟨S32, .i32⟩ : BufTy).Contents (Elt F) → (⟨S32, .i1⟩ : BufTy).Contents (Elt F))
  :: StableHlo.nullary main_c_302 (constantI S_ 32 131040#32)
  :: StableHlo.unary main_c_302 main_v1274 (broadcastInDim S32 ![] bcast_S_S32 : (⟨S_, .i32⟩ : BufTy).Contents (Elt F) → (⟨S32, .i32⟩ : BufTy).Contents (Elt F))
  :: StableHlo.binary main_v1177 main_v1274 main_v1275 (addi : (⟨S32, .i32⟩ : BufTy).Contents (Elt F) → (⟨S32, .i32⟩ : BufTy).Contents (Elt F) → (⟨S32, .i32⟩ : BufTy).Contents (Elt F))
  :: StableHlo.ternary main_v1273 main_v1275 main_v1177 main_v1276 (select : (⟨S32, .i1⟩ : BufTy).Contents (Elt F) → (⟨S32, .i32⟩ : BufTy).Contents (Elt F) → (⟨S32, .i32⟩ : BufTy).Contents (Elt F) → (⟨S32, .i32⟩ : BufTy).Contents (Elt F))
  :: StableHlo.unary main_v1276 main_v1277 (broadcastInDim S32x1 ![0] bcast_S32_S32x1_0 : (⟨S32, .i32⟩ : BufTy).Contents (Elt F) → (⟨S32x1, .i32⟩ : BufTy).Contents (Elt F))
  :: StableHlo.ternary main_v1169 main_v1277 main_v1256 main_v1278 ((fun x i u => Host.scatter scatter_S131040x256_S32x1_S32x256_1_0_0_1 (fun _ b => b) x i u) : (⟨S131040x256, .f32⟩ : BufTy).Contents (Elt F) → (⟨S32x1, .i32⟩ : BufTy).Contents (Elt F) → (⟨S32x256, .f32⟩ : BufTy).Contents (Elt F) → (⟨S131040x256, .f32⟩ : BufTy).Contents (Elt F))
  :: StableHlo.nullary main_c_303 (constantI S_ 32 0#32)
  :: StableHlo.unary main_c_303 main_v1279 (broadcastInDim S32 ![] bcast_S_S32 : (⟨S_, .i32⟩ : BufTy).Contents (Elt F) → (⟨S32, .i32⟩ : BufTy).Contents (Elt F))
  :: StableHlo.binary main_v16 main_v1279 main_v1280 (cmpi .slt : (⟨S32, .i32⟩ : BufTy).Contents (Elt F) → (⟨S32, .i32⟩ : BufTy).Contents (Elt F) → (⟨S32, .i1⟩ : BufTy).Contents (Elt F))
  :: StableHlo.nullary main_c_304 (constantI S_ 32 131040#32)
  :: StableHlo.unary main_c_304 main_v1281 (broadcastInDim S32 ![] bcast_S_S32 : (⟨S_, .i32⟩ : BufTy).Contents (Elt F) → (⟨S32, .i32⟩ : BufTy).Contents (Elt F))
  :: StableHlo.binary main_v16 main_v1281 main_v1282 (addi : (⟨S32, .i32⟩ : BufTy).Contents (Elt F) → (⟨S32, .i32⟩ : BufTy).Contents (Elt F) → (⟨S32, .i32⟩ : BufTy).Contents (Elt F))
  :: StableHlo.ternary main_v1280 main_v1282 main_v16 main_v1283 (select : (⟨S32, .i1⟩ : BufTy).Contents (Elt F) → (⟨S32, .i32⟩ : BufTy).Contents (Elt F) → (⟨S32, .i32⟩ : BufTy).Contents (Elt F) → (⟨S32, .i32⟩ : BufTy).Contents (Elt F))
  :: StableHlo.unary main_v1283 main_v1284 (broadcastInDim S32x1 ![0] bcast_S32_S32x1_0 : (⟨S32, .i32⟩ : BufTy).Contents (Elt F) → (⟨S32x1, .i32⟩ : BufTy).Contents (Elt F))
  :: StableHlo.binary main_v1271 main_v1284 main_v1285 ((fun x i => Host.gather gather_S131040x256_S32x1_S32x256_1_0_n_n_0_1_1256 x i) : (⟨S131040x256, .f32⟩ : BufTy).Contents (Elt F) → (⟨S32x1, .i32⟩ : BufTy).Contents (Elt F) → (⟨S32x256, .f32⟩ : BufTy).Contents (Elt F))
  :: StableHlo.unary main_arg8 main_v1286 ((transpose S256x104 [1, 0] · transposes_S104x256_S256x104_1_0) : (⟨S104x256, .f32⟩ : BufTy).Contents (Elt F) → (⟨S256x104, .f32⟩ : BufTy).Contents (Elt F))
  :: StableHlo.binary main_v1285 main_v1286 main_v1287 ((fun l r => Host.dotGeneral dot_S32x256_S256x104_S32x104_1_0_0_1_n_n none l r) : (⟨S32x256, .f32⟩ : BufTy).Contents (Elt F) → (⟨S256x104, .f32⟩ : BufTy).Contents (Elt F) → (⟨S32x104, .f32⟩ : BufTy).Contents (Elt F))
  :: StableHlo.unary main_arg9 main_v1288 (broadcastInDim S1x104 ![1] bcast_S104_S1x104_1 : (⟨S104, .f32⟩ : BufTy).Contents (Elt F) → (⟨S1x104, .f32⟩ : BufTy).Contents (Elt F))
  :: StableHlo.unary main_v1288 main_v1289 (broadcastInDim S32x104 ![0, 1] bcast_S1x104_S32x104_0_1 : (⟨S1x104, .f32⟩ : BufTy).Contents (Elt F) → (⟨S32x104, .f32⟩ : BufTy).Contents (Elt F))
  :: StableHlo.binary main_v1287 main_v1289 main_v1290 (addf : (⟨S32x104, .f32⟩ : BufTy).Contents (Elt F) → (⟨S32x104, .f32⟩ : BufTy).Contents (Elt F) → (⟨S32x104, .f32⟩ : BufTy).Contents (Elt F))
  :: [] )
/-- Each touches TensorCore references only (`HostSeg.ofOps` over `StableHlo.tcRefs`, or a subset by `sub_ucRefs`). -/
theorem main_part26_ops0_sub : (main_part26_ops0 : List (HloOp τ sig (Elt F))).Forall fun op => op.bufs ⊆ StableHlo.tcRefs τ sig :=
  ⟨StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.binary_bufs_sub .., StableHlo.unary_bufs_sub .., StableHlo.binary_bufs_sub .., StableHlo.unary_bufs_sub .., StableHlo.unary_bufs_sub .., StableHlo.binary_bufs_sub ..⟩
/-- The last window of `main` (`main_part26`, statements 1561 … 1599) is the chain of ITS items, by `chain_rfl`. -/
theorem main_part26_chain (c : Dev nD) : main_part26 (F := F) c = (Pipeline.chain
  [ StableHlo.seq main_part26_ops0 ] : Prog (TpuEff nD τ sig (Elt F) (Pipeline.Sig Λ₀ (Fin 0) fun p => (pcfgs (F := F) p).Adm) .tc) PUnit) := by
  chain_rfl

end Cert.ReferenceIdeal.Gen

end
-- ==== Proof.RefOps.lean ====
/- The reference program's entry function as the chain of its stretches of host operations. -/
import proofs.«419362_j66683662237734_3_alg».proof.Proof.RefOpsS0
import proofs.«419362_j66683662237734_3_alg».proof.Proof.RefOpsS1
import proofs.«419362_j66683662237734_3_alg».proof.Proof.RefOpsS2
import proofs.«419362_j66683662237734_3_alg».proof.Proof.RefOpsS3
import proofs.«419362_j66683662237734_3_alg».proof.Proof.RefOpsW0
import proofs.«419362_j66683662237734_3_alg».proof.Proof.RefOpsW1
import proofs.«419362_j66683662237734_3_alg».proof.Proof.RefOpsW2
import proofs.«419362_j66683662237734_3_alg».proof.Proof.RefOpsW3
import Idealize.ShloMosaic.Lib.Pipeline.Kit
import Idealize.ShloMosaic.Lib.Pipeline.Regions

-- the launch kit's decided enumerations over 2004 references and a 146-operation host stretch's `::` list recurse past the default depth
set_option maxRecDepth 9696

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-- `main` is the chain of its WINDOWS' items (a stretch a window boundary cuts is two items): assembled from the
    windows' equations as `main_chain` is, the closing `chain_rfl` between equal item lists — the form a certificate of a
    long block runs its segments over (`Seg.run_eq_chain`; `CSeg.runL` under host loops), each window piece with its `_sub`. -/
theorem main_chain_windows (c : Dev nD) : main (F := F) c = (Pipeline.chain
  [ StableHlo.seq main_part0_ops0,
    StableHlo.seq main_part1_ops0,
    StableHlo.seq main_part2_ops0,
    StableHlo.seq main_part2_ops1,
    StableHlo.seq main_part2_ops2,
    StableHlo.seq main_part2_ops3,
    StableHlo.seq main_part2_ops4,
    StableHlo.seq main_part3_ops0,
    StableHlo.seq main_part4_ops0,
    StableHlo.seq main_part4_ops1,
    StableHlo.seq main_part4_ops2,
    StableHlo.seq main_part4_ops3,
    StableHlo.seq main_part4_ops4,
    StableHlo.seq main_part5_ops0,
    StableHlo.seq main_part6_ops0,
    StableHlo.seq main_part6_ops1,
    StableHlo.seq main_part6_ops2,
    StableHlo.seq main_part7_ops0,
    StableHlo.seq main_part7_ops1,
    StableHlo.seq main_part7_ops2,
    StableHlo.seq main_part8_ops0,
    StableHlo.seq main_part9_ops0,
    StableHlo.seq main_part9_ops1,
    StableHlo.seq main_part9_ops2,
    StableHlo.seq main_part9_ops3,
    StableHlo.seq main_part9_ops4,
    StableHlo.seq main_part10_ops0,
    StableHlo.seq main_part11_ops0,
    StableHlo.seq main_part11_ops1,
    StableHlo.seq main_part11_ops2,
    StableHlo.seq main_part11_ops3,
    StableHlo.seq main_part11_ops4,
    StableHlo.seq main_part12_ops0,
    StableHlo.seq main_part13_ops0,
    StableHlo.seq main_part13_ops1,
    StableHlo.seq main_part13_ops2,
    StableHlo.seq main_part13_ops3,
    StableHlo.seq main_part13_ops4,
    StableHlo.seq main_part14_ops0,
    StableHlo.seq main_part15_ops0,
    StableHlo.seq main_part16_ops0,
    StableHlo.seq main_part16_ops1,
    StableHlo.seq main_part16_ops2,
    StableHlo.seq main_part16_ops3,
    StableHlo.seq main_part16_ops4,
    StableHlo.seq main_part17_ops0,
    StableHlo.seq main_part18_ops0,
    StableHlo.seq main_part18_ops1,
    StableHlo.seq main_part18_ops2,
    StableHlo.seq main_part18_ops3,
    StableHlo.seq main_part18_ops4,
    StableHlo.seq main_part19_ops0,
    StableHlo.seq main_part20_ops0,
    StableHlo.seq main_part20_ops1,
    StableHlo.seq main_part20_ops2,
    StableHlo.seq main_part20_ops3,
    StableHlo.seq main_part20_ops4,
    StableHlo.seq main_part21_ops0,
    StableHlo.seq main_part22_ops0,
    StableHlo.seq main_part22_ops1,
    StableHlo.seq main_part22_ops2,
    StableHlo.seq main_part22_ops3,
    StableHlo.seq main_part22_ops4,
    StableHlo.seq main_part23_ops0,
    StableHlo.seq main_part24_ops0,
    StableHlo.seq main_part25_ops0,
    StableHlo.seq main_part25_ops1,
    StableHlo.seq main_part25_ops2,
    StableHlo.seq main_part25_ops3,
    StableHlo.seq main_part25_ops4,
    StableHlo.seq main_part26_ops0 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c >>= fun _ => main_part14 (F := F) c >>= fun _ => main_part15 (F := F) c >>= fun _ => main_part16 (F := F) c >>= fun _ => main_part17 (F := F) c >>= fun _ => main_part18 (F := F) c >>= fun _ => main_part19 (F := F) c >>= fun _ => main_part20 (F := F) c >>= fun _ => main_part21 (F := F) c >>= fun _ => main_part22 (F := F) c >>= fun _ => main_part23 (F := F) c >>= fun _ => main_part24 (F := F) c >>= fun _ => main_part25 (F := F) c >>= fun _ => main_part26 (F := F) c) = _
  rewrite [main_part26_chain, main_part25_chain, Pipeline.chainK_bind_chain, main_part24_chain, Pipeline.chainK_bind_chain, main_part23_chain, Pipeline.chainK_bind_chain, main_part22_chain, Pipeline.chainK_bind_chain, main_part21_chain, Pipeline.chainK_bind_chain, main_part20_chain, Pipeline.chainK_bind_chain, main_part19_chain, Pipeline.chainK_bind_chain, main_part18_chain, Pipeline.chainK_bind_chain, main_part17_chain, Pipeline.chainK_bind_chain, main_part16_chain, Pipeline.chainK_bind_chain, main_part15_chain, Pipeline.chainK_bind_chain, main_part14_chain, Pipeline.chainK_bind_chain, main_part13_chain, Pipeline.chainK_bind_chain, main_part12_chain, Pipeline.chainK_bind_chain, main_part11_chain, Pipeline.chainK_bind_chain, main_part10_chain, Pipeline.chainK_bind_chain, main_part9_chain, Pipeline.chainK_bind_chain, main_part8_chain, Pipeline.chainK_bind_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

/-- `main` is the chain of its items (`Pipeline.chain`): operation stretches, regions, loops and branches in
    order, a module-local function called from it a stretch of its own. Assembled from its 27 windows'
    equations (`main_partJ_chain`, each by `chain_rfl`): the last window's, then each earlier one's followed by
    `Pipeline.chainK_bind_chain`, then `chain_rfl` between two chains of the same operations — a stretch a window
    boundary cuts is two items on the windows' side, one here (Lib/Pipeline/Regions.lean). That last step has the kernel
    re-derive each cut, a cost that grows with the windows: a certificate of a block of many windows takes `main_chain_windows`
    (the same chain cut at the boundaries) and keeps this one as the statement of what the block computes. -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    StableHlo.seq hostOps0_5,
    StableHlo.seq hostOps0_6,
    StableHlo.seq hostOps0_7,
    StableHlo.seq hostOps0_8,
    StableHlo.seq hostOps0_9,
    StableHlo.seq hostOps0_10,
    StableHlo.seq hostOps0_11,
    StableHlo.seq hostOps0_12,
    StableHlo.seq hostOps0_13,
    StableHlo.seq hostOps0_14,
    StableHlo.seq hostOps0_15,
    StableHlo.seq hostOps0_16,
    StableHlo.seq hostOps0_17,
    StableHlo.seq hostOps0_18,
    StableHlo.seq hostOps0_19,
    StableHlo.seq hostOps0_20,
    StableHlo.seq hostOps0_21,
    StableHlo.seq hostOps0_22,
    StableHlo.seq hostOps0_23,
    StableHlo.seq hostOps0_24,
    StableHlo.seq hostOps0_25,
    StableHlo.seq hostOps0_26,
    StableHlo.seq hostOps0_27,
    StableHlo.seq hostOps0_28,
    StableHlo.seq hostOps0_29,
    StableHlo.seq hostOps0_30,
    StableHlo.seq hostOps0_31,
    StableHlo.seq hostOps0_32,
    StableHlo.seq hostOps0_33,
    StableHlo.seq hostOps0_34,
    StableHlo.seq hostOps0_35,
    StableHlo.seq hostOps0_36,
    StableHlo.seq hostOps0_37,
    StableHlo.seq hostOps0_38,
    StableHlo.seq hostOps0_39,
    StableHlo.seq hostOps0_40,
    StableHlo.seq hostOps0_41,
    StableHlo.seq hostOps0_42,
    StableHlo.seq hostOps0_43,
    StableHlo.seq hostOps0_44 ] : Prog (TpuEff nD τ sig (Elt F) (Pipeline.Sig Λ₀ (Fin 0) fun p => (pcfgs (F := F) p).Adm) .tc) PUnit) := by
  show (main_part0 (F := F) c >>= fun _ => main_part1 (F := F) c >>= fun _ => main_part2 (F := F) c >>= fun _ => main_part3 (F := F) c >>= fun _ => main_part4 (F := F) c >>= fun _ => main_part5 (F := F) c >>= fun _ => main_part6 (F := F) c >>= fun _ => main_part7 (F := F) c >>= fun _ => main_part8 (F := F) c >>= fun _ => main_part9 (F := F) c >>= fun _ => main_part10 (F := F) c >>= fun _ => main_part11 (F := F) c >>= fun _ => main_part12 (F := F) c >>= fun _ => main_part13 (F := F) c >>= fun _ => main_part14 (F := F) c >>= fun _ => main_part15 (F := F) c >>= fun _ => main_part16 (F := F) c >>= fun _ => main_part17 (F := F) c >>= fun _ => main_part18 (F := F) c >>= fun _ => main_part19 (F := F) c >>= fun _ => main_part20 (F := F) c >>= fun _ => main_part21 (F := F) c >>= fun _ => main_part22 (F := F) c >>= fun _ => main_part23 (F := F) c >>= fun _ => main_part24 (F := F) c >>= fun _ => main_part25 (F := F) c >>= fun _ => main_part26 (F := F) c) = _
  rewrite [main_part26_chain, main_part25_chain, Pipeline.chainK_bind_chain, main_part24_chain, Pipeline.chainK_bind_chain, main_part23_chain, Pipeline.chainK_bind_chain, main_part22_chain, Pipeline.chainK_bind_chain, main_part21_chain, Pipeline.chainK_bind_chain, main_part20_chain, Pipeline.chainK_bind_chain, main_part19_chain, Pipeline.chainK_bind_chain, main_part18_chain, Pipeline.chainK_bind_chain, main_part17_chain, Pipeline.chainK_bind_chain, main_part16_chain, Pipeline.chainK_bind_chain, main_part15_chain, Pipeline.chainK_bind_chain, main_part14_chain, Pipeline.chainK_bind_chain, main_part13_chain, Pipeline.chainK_bind_chain, main_part12_chain, Pipeline.chainK_bind_chain, main_part11_chain, Pipeline.chainK_bind_chain, main_part10_chain, Pipeline.chainK_bind_chain, main_part9_chain, Pipeline.chainK_bind_chain, main_part8_chain, Pipeline.chainK_bind_chain, main_part7_chain, Pipeline.chainK_bind_chain, main_part6_chain, Pipeline.chainK_bind_chain, main_part5_chain, Pipeline.chainK_bind_chain, main_part4_chain, Pipeline.chainK_bind_chain, main_part3_chain, Pipeline.chainK_bind_chain, main_part2_chain, Pipeline.chainK_bind_chain, main_part1_chain, Pipeline.chainK_bind_chain, main_part0_chain, Pipeline.chainK_bind_chain]
  chain_rfl

-- no `main_segs` (the loop-free kit's `Seg.run` equation) for this @main: more than 64 host operations; a certificate takes `main_chain` (Lib/Pipeline/RegionsLoop.lean)

end Cert.ReferenceIdeal.Gen

end
-- ==== Proof.RefLib.lean ====
/-
  Straight lines of host operations run one after the other: the chain of several lines is their concatenation run as
  one line, the fold of the concatenation is the folds in a row, a property of every operation of every line is a
  property of every operation of the concatenation, and a line whose operations write, in order, the references of a
  list writes nothing outside that list.
-/
import Idealize.ShloMosaic.Lib.StableHlo.Run
import Idealize.ShloMosaic.Lib.Pipeline.Regions
import Idealize.ShloMosaic.Lib.Pipeline.Frame

noncomputable section

namespace Cert.ReferenceIdeal.RefRun

open Idealize.ShloMosaic Idealize.ShloMosaic.StableHlo Idealize.SL.Sem

variable {nD : Nat} {τ : Topo} {sig : RefSig} {Val : EltTy → Type} {Λ : Labels}

/-- The chain of several lines is their concatenation run as one line. -/
theorem chain_map_seq : ∀ (ls : List (List (HloOp τ sig Val))),
    (Pipeline.chain (ls.map fun l => (seq l : Prog (TpuEff nD τ sig Val Λ .tc) PUnit))) = seq ls.flatten
  | [] => rfl
  | l :: ls => by rw [List.map_cons, Pipeline.chain_cons, List.flatten_cons, seq_append, chain_map_seq ls]

/-- The fold over several lines in a row: each line's fold applied to what the lines before it leave. -/
def afterAll : List (List (HloOp τ sig Val)) → Valuation τ sig Val → Valuation τ sig Val
  | [], V => V
  | l :: ls, V => afterAll ls (after l V)

@[simp] theorem afterAll_nil (V : Valuation τ sig Val) : afterAll [] V = V := rfl
@[simp] theorem afterAll_cons (l : List (HloOp τ sig Val)) (ls : List (List (HloOp τ sig Val))) (V : Valuation τ sig Val) :
    afterAll (l :: ls) V = afterAll ls (after l V) := rfl

/-- The folds in a row are the fold of the concatenation. -/
theorem afterAll_eq_after_flatten : ∀ (ls : List (List (HloOp τ sig Val))) (V : Valuation τ sig Val),
    afterAll ls V = after ls.flatten V
  | [], _ => rfl
  | l :: ls, V => by rw [afterAll_cons, List.flatten_cons, StableHlo.after_append, afterAll_eq_after_flatten ls]

/-- What holds of every element of every list holds of every element of the concatenation. -/
theorem forall_flatten {α : Type} {p : α → Prop} (ls : List (List α)) (h : ls.Forall fun l => l.Forall p) :
    ls.flatten.Forall p :=
  List.forall_iff_forall_mem.mpr fun a ha => by
    obtain ⟨l, hl, hal⟩ := List.mem_flatten.mp ha
    exact List.forall_iff_forall_mem.mp (List.forall_iff_forall_mem.mp h l hl) a hal

/-- A line whose operations write, in order, exactly the references of the list W writes only references of W. -/
theorem writes_sub_of_forall₂ {ops : List (HloOp τ sig Val)} {W : List (Ref sig .tc)}
    (h : List.Forall₂ (fun op r => op.writes = {Proc.devRef (τ := τ) .tc r}) ops W) :
    ops.Forall fun op => op.writes ⊆ (W.map (Proc.devRef (τ := τ) .tc)).toFinset := by
  rw [List.forall_iff_forall_mem]
  induction h with
  | nil => intro op hop; exact absurd hop List.not_mem_nil
  | @cons o r os rs hx _ ih =>
    intro op hop
    rcases List.mem_cons.mp hop with rfl | hop
    · rw [hx, Finset.singleton_subset_iff, List.mem_toFinset]
      exact List.mem_map_of_mem List.mem_cons_self
    · intro x hx'
      have := ih op hop hx'
      rw [List.mem_toFinset] at this ⊢
      rw [List.map_cons]
      exact List.mem_cons_of_mem _ this

end Cert.ReferenceIdeal.RefRun

end
-- ==== Proof.RefTab.lean ====
/- Per stretch of the reference program's entry function: the references it writes, one per operation, and that none of its
   operations allocates a buffer; the stretches in order; and the buffer contents after each stretch as a chain of folds
   from the launch contents, with: a reference a stretch does not write keeps its contents over it. -/
import proofs.«419362_j66683662237734_3_alg».proof.Proof.RefOpsS0
import proofs.«419362_j66683662237734_3_alg».proof.Proof.RefOpsS1
import proofs.«419362_j66683662237734_3_alg».proof.Proof.RefOpsS2
import proofs.«419362_j66683662237734_3_alg».proof.Proof.RefOpsS3
import proofs.«419362_j66683662237734_3_alg».proof.Proof.RefLib

-- the launch kit's decided enumerations over 2004 references and a 146-operation host stretch's `::` list recurse past the default depth
set_option maxRecDepth 9696

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The references stretch 0 writes, one per operation, in order. -/
abbrev wr_0 : List (Ref sig .tc) :=
  [ main_c, main_v0, main_cst, main_v1, main_v2, main_c_0, main_v3, main_v4,
    main_c_1, main_v5, main_v6, main_v7, main_v8, main_v9, main_v10, main_v11,
    main_cst_2, main_v12, main_cst_3, main_v13, main_v14, main_c_4, main_v15, main_v16,
    main_v17, main_c_5, main_v18, main_v19, main_v20, main_v21, main_v22, main_v23,
    main_v24, main_v25, main_c_6, main_v26, main_v27, main_c_7, main_v28, main_v29,
    main_v30, main_v31, main_v32, main_cst_8, main_v33, main_v34, main_v35, main_v36,
    main_v37, main_v38, main_v39, main_v40, main_cst_9, main_v41, main_v42, main_cst_10,
    main_v43, main_v44, main_v45, main_v46, main_v47, main_v48, main_v49, main_cst_11,
    main_v50, main_v51, main_cst_12, main_v52, main_v53, main_v54, main_v55, main_c_13,
    main_v56, main_v57, main_c_14, main_v58, main_v59, main_v60, main_v61, main_v62,
    main_c_15, main_v63, main_v64, main_c_16, main_v65, main_v66, main_v67, main_v68,
    main_v69, main_v70, main_c_17, main_v71, main_v72, main_v73, main_v74, main_v75,
    main_v76, main_v77, main_v78, main_c_18, main_v79, main_v80, main_c_19, main_v81,
    main_v82, main_v83, main_v84, main_v85, main_v86, main_c_20, main_v87, main_v88,
    main_v89, main_v90, main_v91, main_v92, main_v93, main_v94, main_c_21, main_v95,
    main_v96, main_c_22, main_v97, main_v98, main_v99, main_v100, main_v101, main_c_23,
    main_v102, main_v103, main_c_24, main_v104, main_v105, main_v106, main_v107, main_v108,
    main_c_25, main_v109, main_v110, main_c_26, main_v111, main_v112, main_v113, main_v114,
    main_v115, main_c_27 ]
set_option maxHeartbeats 40000000 in
/-- Operation by operation, stretch 0 writes exactly those. -/
theorem hostOps0_wr : List.Forall₂ (fun op r => op.writes = {Proc.devRef (τ := τ) .tc r}) (hostOps0 : List (HloOp τ sig (Elt F))) wr_0 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))))))))))))))))))
/-- Stretch 0 writes only those. -/
theorem hostOps0_writes : (hostOps0 : List (HloOp τ sig (Elt F))).Forall fun op => op.writes ⊆ ((wr_0).map (Proc.devRef (τ := τ) .tc)).toFinset :=
  writes_sub_of_forall₂ hostOps0_wr
set_option maxHeartbeats 40000000 in
/-- No operation of stretch 0 allocates a buffer. -/
theorem hostOps0_fresh : (hostOps0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 1 writes, one per operation, in order. -/
abbrev wr_1 : List (Ref sig .tc) :=
  [ main_call0_v0, main_call0_v1, main_call0_v2, main_call0_v3, main_call0_v4, main_call0_v5, main_call0_v6, main_call0_v7,
    main_call0_v8, main_call0_c, main_call0_v9, main_call0_v10, main_call0_v11, main_call0_c_0, main_call0_v12, main_call0_v13,
    main_v116 ]
set_option maxHeartbeats 40000000 in
/-- Operation by operation, stretch 1 writes exactly those. -/
theorem hostOps0_1_wr : List.Forall₂ (fun op r => op.writes = {Proc.devRef (τ := τ) .tc r}) (hostOps0_1 : List (HloOp τ sig (Elt F))) wr_1 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 1 writes only those. -/
theorem hostOps0_1_writes : (hostOps0_1 : List (HloOp τ sig (Elt F))).Forall fun op => op.writes ⊆ ((wr_1).map (Proc.devRef (τ := τ) .tc)).toFinset :=
  writes_sub_of_forall₂ hostOps0_1_wr
set_option maxHeartbeats 40000000 in
/-- No operation of stretch 1 allocates a buffer. -/
theorem hostOps0_1_fresh : (hostOps0_1 : List (HloOp τ sig (Elt F))).Forall fun op => op.fresh = ∅ :=
  ⟨rfl, rfl, rfl, rfl, rfl, rfl, rfl, rfl, rfl, rfl, rfl, rfl, rfl, rfl, rfl, rfl, rfl⟩

/-- The references stretch 2 writes, one per operation, in order. -/
abbrev wr_2 : List (Ref sig .tc) :=
  [ main_c_28, main_v117, main_v118, main_c_29 ]
set_option maxHeartbeats 40000000 in
/-- Operation by operation, stretch 2 writes exactly those. -/
theorem hostOps0_2_wr : List.Forall₂ (fun op r => op.writes = {Proc.devRef (τ := τ) .tc r}) (hostOps0_2 : List (HloOp τ sig (Elt F))) wr_2 :=
  (.cons rfl (.cons rfl (.cons rfl (.cons rfl .nil))))
/-- Stretch 2 writes only those. -/
theorem hostOps0_2_writes : (hostOps0_2 : List (HloOp τ sig (Elt F))).Forall fun op => op.writes ⊆ ((wr_2).map (Proc.devRef (τ := τ) .tc)).toFinset :=
  writes_sub_of_forall₂ hostOps0_2_wr
set_option maxHeartbeats 40000000 in
/-- No operation of stretch 2 allocates a buffer. -/
theorem hostOps0_2_fresh : (hostOps0_2 : List (HloOp τ sig (Elt F))).Forall fun op => op.fresh = ∅ :=
  ⟨rfl, rfl, rfl, rfl⟩

/-- The references stretch 3 writes, one per operation, in order. -/
abbrev wr_3 : List (Ref sig .tc) :=
  [ main_call1_v0, main_call1_c, main_call1_v1, main_call1_c_0, main_call1_v2, main_call1_v3, main_call1_v4, main_call1_c_1,
    main_call1_v5, main_call1_v6, main_call1_c_2, main_call1_v7, main_call1_v8, main_call1_c_3, main_call1_v9, main_call1_v10,
    main_call1_v11, main_call1_v12, main_call1_v13, main_call1_v14, main_v119 ]
set_option maxHeartbeats 40000000 in
/-- Operation by operation, stretch 3 writes exactly those. -/
theorem hostOps0_3_wr : List.Forall₂ (fun op r => op.writes = {Proc.devRef (τ := τ) .tc r}) (hostOps0_3 : List (HloOp τ sig (Elt F))) wr_3 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 3 writes only those. -/
theorem hostOps0_3_writes : (hostOps0_3 : List (HloOp τ sig (Elt F))).Forall fun op => op.writes ⊆ ((wr_3).map (Proc.devRef (τ := τ) .tc)).toFinset :=
  writes_sub_of_forall₂ hostOps0_3_wr
set_option maxHeartbeats 40000000 in
/-- No operation of stretch 3 allocates a buffer. -/
theorem hostOps0_3_fresh : (hostOps0_3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 4 writes, one per operation, in order. -/
abbrev wr_4 : List (Ref sig .tc) :=
  [ main_c_30, main_v120, main_v121, main_v122, main_v123, main_v124, main_v125, main_v126,
    main_v127, main_v128, main_v129, main_cst_31, main_v130, main_v131, main_cst_32, main_v132,
    main_v133, main_cst_33, main_v134, main_v135, main_v136, main_v137, main_cst_34, main_v138,
    main_v139, main_v140, main_v141, main_v142, main_v143, main_v144, main_v145, main_v146,
    main_v147, main_v148, main_v149, main_v150, main_cst_35, main_v151, main_v152, main_cst_36,
    main_v153, main_v154, main_v155, main_v156, main_v157, main_v158, main_v159, main_cst_37,
    main_v160, main_v161, main_cst_38, main_v162, main_v163, main_v164, main_v165, main_c_39,
    main_v166, main_v167, main_c_40, main_v168, main_v169, main_v170, main_v171, main_v172,
    main_c_41, main_v173, main_v174, main_c_42, main_v175, main_v176, main_v177, main_v178,
    main_v179, main_v180, main_c_43, main_v181, main_v182, main_v183, main_v184, main_v185,
    main_v186, main_v187, main_v188, main_c_44, main_v189, main_v190, main_c_45, main_v191,
    main_v192, main_v193, main_v194, main_v195, main_v196, main_c_46, main_v197, main_v198,
    main_v199, main_v200, main_v201, main_v202, main_v203, main_v204, main_c_47, main_v205,
    main_v206, main_c_48, main_v207, main_v208, main_v209, main_v210, main_v211, main_c_49,
    main_v212, main_v213, main_c_50, main_v214, main_v215, main_v216, main_v217, main_v218,
    main_c_51, main_v219, main_v220, main_c_52, main_v221, main_v222, main_v223, main_v224,
    main_v225, main_c_53 ]
set_option maxHeartbeats 40000000 in
/-- Operation by operation, stretch 4 writes exactly those. -/
theorem hostOps0_4_wr : List.Forall₂ (fun op r => op.writes = {Proc.devRef (τ := τ) .tc r}) (hostOps0_4 : List (HloOp τ sig (Elt F))) wr_4 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 4 writes only those. -/
theorem hostOps0_4_writes : (hostOps0_4 : List (HloOp τ sig (Elt F))).Forall fun op => op.writes ⊆ ((wr_4).map (Proc.devRef (τ := τ) .tc)).toFinset :=
  writes_sub_of_forall₂ hostOps0_4_wr
set_option maxHeartbeats 40000000 in
/-- No operation of stretch 4 allocates a buffer. -/
theorem hostOps0_4_fresh : (hostOps0_4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 5 writes, one per operation, in order. -/
abbrev wr_5 : List (Ref sig .tc) :=
  [ main_call2_v0, main_call2_v1, main_call2_v2, main_call2_v3, main_call2_v4, main_call2_v5, main_call2_v6, main_call2_v7,
    main_call2_v8, main_call2_c, main_call2_v9, main_call2_v10, main_call2_v11, main_call2_c_0, main_call2_v12, main_call2_v13,
    main_v226 ]
set_option maxHeartbeats 40000000 in
/-- Operation by operation, stretch 5 writes exactly those. -/
theorem hostOps0_5_wr : List.Forall₂ (fun op r => op.writes = {Proc.devRef (τ := τ) .tc r}) (hostOps0_5 : List (HloOp τ sig (Elt F))) wr_5 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 5 writes only those. -/
theorem hostOps0_5_writes : (hostOps0_5 : List (HloOp τ sig (Elt F))).Forall fun op => op.writes ⊆ ((wr_5).map (Proc.devRef (τ := τ) .tc)).toFinset :=
  writes_sub_of_forall₂ hostOps0_5_wr
set_option maxHeartbeats 40000000 in
/-- No operation of stretch 5 allocates a buffer. -/
theorem hostOps0_5_fresh : (hostOps0_5 : List (HloOp τ sig (Elt F))).Forall fun op => op.fresh = ∅ :=
  ⟨rfl, rfl, rfl, rfl, rfl, rfl, rfl, rfl, rfl, rfl, rfl, rfl, rfl, rfl, rfl, rfl, rfl⟩

/-- The references stretch 6 writes, one per operation, in order. -/
abbrev wr_6 : List (Ref sig .tc) :=
  [ main_c_54, main_v227, main_v228, main_c_55 ]
set_option maxHeartbeats 40000000 in
/-- Operation by operation, stretch 6 writes exactly those. -/
theorem hostOps0_6_wr : List.Forall₂ (fun op r => op.writes = {Proc.devRef (τ := τ) .tc r}) (hostOps0_6 : List (HloOp τ sig (Elt F))) wr_6 :=
  (.cons rfl (.cons rfl (.cons rfl (.cons rfl .nil))))
/-- Stretch 6 writes only those. -/
theorem hostOps0_6_writes : (hostOps0_6 : List (HloOp τ sig (Elt F))).Forall fun op => op.writes ⊆ ((wr_6).map (Proc.devRef (τ := τ) .tc)).toFinset :=
  writes_sub_of_forall₂ hostOps0_6_wr
set_option maxHeartbeats 40000000 in
/-- No operation of stretch 6 allocates a buffer. -/
theorem hostOps0_6_fresh : (hostOps0_6 : List (HloOp τ sig (Elt F))).Forall fun op => op.fresh = ∅ :=
  ⟨rfl, rfl, rfl, rfl⟩

/-- The references stretch 7 writes, one per operation, in order. -/
abbrev wr_7 : List (Ref sig .tc) :=
  [ main_call3_v0, main_call3_c, main_call3_v1, main_call3_c_0, main_call3_v2, main_call3_v3, main_call3_v4, main_call3_c_1,
    main_call3_v5, main_call3_v6, main_call3_c_2, main_call3_v7, main_call3_v8, main_call3_c_3, main_call3_v9, main_call3_v10,
    main_call3_v11, main_call3_v12, main_call3_v13, main_call3_v14, main_v229 ]
set_option maxHeartbeats 40000000 in
/-- Operation by operation, stretch 7 writes exactly those. -/
theorem hostOps0_7_wr : List.Forall₂ (fun op r => op.writes = {Proc.devRef (τ := τ) .tc r}) (hostOps0_7 : List (HloOp τ sig (Elt F))) wr_7 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 7 writes only those. -/
theorem hostOps0_7_writes : (hostOps0_7 : List (HloOp τ sig (Elt F))).Forall fun op => op.writes ⊆ ((wr_7).map (Proc.devRef (τ := τ) .tc)).toFinset :=
  writes_sub_of_forall₂ hostOps0_7_wr
set_option maxHeartbeats 40000000 in
/-- No operation of stretch 7 allocates a buffer. -/
theorem hostOps0_7_fresh : (hostOps0_7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 8 writes, one per operation, in order. -/
abbrev wr_8 : List (Ref sig .tc) :=
  [ main_c_56, main_v230, main_v231, main_v232, main_v233, main_v234, main_v235, main_v236,
    main_v237, main_v238, main_v239, main_cst_57, main_v240, main_v241, main_cst_58, main_v242,
    main_v243, main_cst_59, main_v244, main_v245, main_v246, main_v247, main_cst_60, main_v248,
    main_v249, main_v250, main_v251, main_v252, main_v253, main_v254, main_v255, main_v256,
    main_v257, main_v258, main_v259, main_v260, main_cst_61, main_v261, main_v262, main_cst_62,
    main_v263, main_v264, main_v265, main_v266, main_v267, main_v268, main_v269, main_cst_63,
    main_v270, main_v271, main_cst_64, main_v272, main_v273, main_v274, main_v275, main_c_65,
    main_v276, main_v277, main_c_66, main_v278, main_v279, main_v280, main_v281, main_v282,
    main_c_67, main_v283, main_v284, main_c_68, main_v285, main_v286, main_v287, main_v288,
    main_v289, main_v290, main_c_69, main_v291, main_v292, main_v293, main_v294, main_v295,
    main_v296, main_v297, main_v298, main_c_70, main_v299, main_v300, main_c_71, main_v301,
    main_v302, main_v303, main_v304, main_v305, main_v306, main_c_72, main_v307, main_v308,
    main_v309, main_v310, main_v311, main_v312, main_v313, main_v314, main_c_73, main_v315,
    main_v316, main_c_74, main_v317, main_v318, main_v319, main_v320, main_v321, main_c_75,
    main_v322, main_v323, main_c_76, main_v324, main_v325, main_v326, main_v327, main_v328,
    main_c_77, main_v329, main_v330, main_c_78, main_v331, main_v332, main_v333, main_v334,
    main_v335, main_c_79 ]
set_option maxHeartbeats 40000000 in
/-- Operation by operation, stretch 8 writes exactly those. -/
theorem hostOps0_8_wr : List.Forall₂ (fun op r => op.writes = {Proc.devRef (τ := τ) .tc r}) (hostOps0_8 : List (HloOp τ sig (Elt F))) wr_8 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 8 writes only those. -/
theorem hostOps0_8_writes : (hostOps0_8 : List (HloOp τ sig (Elt F))).Forall fun op => op.writes ⊆ ((wr_8).map (Proc.devRef (τ := τ) .tc)).toFinset :=
  writes_sub_of_forall₂ hostOps0_8_wr
set_option maxHeartbeats 40000000 in
/-- No operation of stretch 8 allocates a buffer. -/
theorem hostOps0_8_fresh : (hostOps0_8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 9 writes, one per operation, in order. -/
abbrev wr_9 : List (Ref sig .tc) :=
  [ main_call4_v0, main_call4_v1, main_call4_v2, main_call4_v3, main_call4_v4, main_call4_v5, main_call4_v6, main_call4_v7,
    main_call4_v8, main_call4_c, main_call4_v9, main_call4_v10, main_call4_v11, main_call4_c_0, main_call4_v12, main_call4_v13,
    main_v336 ]
set_option maxHeartbeats 40000000 in
/-- Operation by operation, stretch 9 writes exactly those. -/
theorem hostOps0_9_wr : List.Forall₂ (fun op r => op.writes = {Proc.devRef (τ := τ) .tc r}) (hostOps0_9 : List (HloOp τ sig (Elt F))) wr_9 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 9 writes only those. -/
theorem hostOps0_9_writes : (hostOps0_9 : List (HloOp τ sig (Elt F))).Forall fun op => op.writes ⊆ ((wr_9).map (Proc.devRef (τ := τ) .tc)).toFinset :=
  writes_sub_of_forall₂ hostOps0_9_wr
set_option maxHeartbeats 40000000 in
/-- No operation of stretch 9 allocates a buffer. -/
theorem hostOps0_9_fresh : (hostOps0_9 : List (HloOp τ sig (Elt F))).Forall fun op => op.fresh = ∅ :=
  ⟨rfl, rfl, rfl, rfl, rfl, rfl, rfl, rfl, rfl, rfl, rfl, rfl, rfl, rfl, rfl, rfl, rfl⟩

/-- The references stretch 10 writes, one per operation, in order. -/
abbrev wr_10 : List (Ref sig .tc) :=
  [ main_c_80, main_v337, main_v338, main_c_81 ]
set_option maxHeartbeats 40000000 in
/-- Operation by operation, stretch 10 writes exactly those. -/
theorem hostOps0_10_wr : List.Forall₂ (fun op r => op.writes = {Proc.devRef (τ := τ) .tc r}) (hostOps0_10 : List (HloOp τ sig (Elt F))) wr_10 :=
  (.cons rfl (.cons rfl (.cons rfl (.cons rfl .nil))))
/-- Stretch 10 writes only those. -/
theorem hostOps0_10_writes : (hostOps0_10 : List (HloOp τ sig (Elt F))).Forall fun op => op.writes ⊆ ((wr_10).map (Proc.devRef (τ := τ) .tc)).toFinset :=
  writes_sub_of_forall₂ hostOps0_10_wr
set_option maxHeartbeats 40000000 in
/-- No operation of stretch 10 allocates a buffer. -/
theorem hostOps0_10_fresh : (hostOps0_10 : List (HloOp τ sig (Elt F))).Forall fun op => op.fresh = ∅ :=
  ⟨rfl, rfl, rfl, rfl⟩

/-- The references stretch 11 writes, one per operation, in order. -/
abbrev wr_11 : List (Ref sig .tc) :=
  [ main_call5_v0, main_call5_c, main_call5_v1, main_call5_c_0, main_call5_v2, main_call5_v3, main_call5_v4, main_call5_c_1,
    main_call5_v5, main_call5_v6, main_call5_c_2, main_call5_v7, main_call5_v8, main_call5_c_3, main_call5_v9, main_call5_v10,
    main_call5_v11, main_call5_v12, main_call5_v13, main_call5_v14, main_v339 ]
set_option maxHeartbeats 40000000 in
/-- Operation by operation, stretch 11 writes exactly those. -/
theorem hostOps0_11_wr : List.Forall₂ (fun op r => op.writes = {Proc.devRef (τ := τ) .tc r}) (hostOps0_11 : List (HloOp τ sig (Elt F))) wr_11 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 11 writes only those. -/
theorem hostOps0_11_writes : (hostOps0_11 : List (HloOp τ sig (Elt F))).Forall fun op => op.writes ⊆ ((wr_11).map (Proc.devRef (τ := τ) .tc)).toFinset :=
  writes_sub_of_forall₂ hostOps0_11_wr
set_option maxHeartbeats 40000000 in
/-- No operation of stretch 11 allocates a buffer. -/
theorem hostOps0_11_fresh : (hostOps0_11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 12 writes, one per operation, in order. -/
abbrev wr_12 : List (Ref sig .tc) :=
  [ main_c_82, main_v340, main_v341, main_v342, main_v343, main_v344, main_v345, main_v346,
    main_v347, main_v348, main_v349, main_cst_83, main_v350, main_v351, main_cst_84, main_v352,
    main_v353, main_cst_85, main_v354, main_v355, main_v356, main_v357, main_cst_86, main_v358,
    main_v359, main_v360, main_v361, main_v362, main_v363, main_v364, main_v365, main_v366,
    main_v367, main_v368, main_v369, main_v370, main_cst_87, main_v371, main_v372, main_cst_88,
    main_v373, main_v374, main_v375, main_v376, main_v377, main_v378, main_v379, main_cst_89,
    main_v380, main_v381, main_cst_90, main_v382, main_v383, main_v384, main_v385, main_c_91,
    main_v386, main_v387, main_c_92, main_v388, main_v389, main_v390, main_v391, main_v392,
    main_c_93, main_v393, main_v394, main_c_94, main_v395, main_v396, main_v397, main_v398,
    main_v399, main_v400, main_c_95, main_v401, main_v402, main_v403, main_v404, main_v405,
    main_v406, main_v407, main_v408, main_c_96, main_v409, main_v410, main_c_97, main_v411,
    main_v412, main_v413, main_v414, main_v415, main_v416, main_c_98, main_v417, main_v418,
    main_v419, main_v420, main_v421, main_v422, main_v423, main_v424, main_c_99, main_v425,
    main_v426, main_c_100, main_v427, main_v428, main_v429, main_v430, main_v431, main_c_101,
    main_v432, main_v433, main_c_102, main_v434, main_v435, main_v436, main_v437, main_v438,
    main_c_103, main_v439, main_v440, main_c_104, main_v441, main_v442, main_v443, main_v444,
    main_v445, main_c_105 ]
set_option maxHeartbeats 40000000 in
/-- Operation by operation, stretch 12 writes exactly those. -/
theorem hostOps0_12_wr : List.Forall₂ (fun op r => op.writes = {Proc.devRef (τ := τ) .tc r}) (hostOps0_12 : List (HloOp τ sig (Elt F))) wr_12 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 12 writes only those. -/
theorem hostOps0_12_writes : (hostOps0_12 : List (HloOp τ sig (Elt F))).Forall fun op => op.writes ⊆ ((wr_12).map (Proc.devRef (τ := τ) .tc)).toFinset :=
  writes_sub_of_forall₂ hostOps0_12_wr
set_option maxHeartbeats 40000000 in
/-- No operation of stretch 12 allocates a buffer. -/
theorem hostOps0_12_fresh : (hostOps0_12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 13 writes, one per operation, in order. -/
abbrev wr_13 : List (Ref sig .tc) :=
  [ main_call6_v0, main_call6_v1, main_call6_v2, main_call6_v3, main_call6_v4, main_call6_v5, main_call6_v6, main_call6_v7,
    main_call6_v8, main_call6_c, main_call6_v9, main_call6_v10, main_call6_v11, main_call6_c_0, main_call6_v12, main_call6_v13,
    main_v446 ]
set_option maxHeartbeats 40000000 in
/-- Operation by operation, stretch 13 writes exactly those. -/
theorem hostOps0_13_wr : List.Forall₂ (fun op r => op.writes = {Proc.devRef (τ := τ) .tc r}) (hostOps0_13 : List (HloOp τ sig (Elt F))) wr_13 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 13 writes only those. -/
theorem hostOps0_13_writes : (hostOps0_13 : List (HloOp τ sig (Elt F))).Forall fun op => op.writes ⊆ ((wr_13).map (Proc.devRef (τ := τ) .tc)).toFinset :=
  writes_sub_of_forall₂ hostOps0_13_wr
set_option maxHeartbeats 40000000 in
/-- No operation of stretch 13 allocates a buffer. -/
theorem hostOps0_13_fresh : (hostOps0_13 : List (HloOp τ sig (Elt F))).Forall fun op => op.fresh = ∅ :=
  ⟨rfl, rfl, rfl, rfl, rfl, rfl, rfl, rfl, rfl, rfl, rfl, rfl, rfl, rfl, rfl, rfl, rfl⟩

/-- The references stretch 14 writes, one per operation, in order. -/
abbrev wr_14 : List (Ref sig .tc) :=
  [ main_c_106, main_v447, main_v448, main_c_107 ]
set_option maxHeartbeats 40000000 in
/-- Operation by operation, stretch 14 writes exactly those. -/
theorem hostOps0_14_wr : List.Forall₂ (fun op r => op.writes = {Proc.devRef (τ := τ) .tc r}) (hostOps0_14 : List (HloOp τ sig (Elt F))) wr_14 :=
  (.cons rfl (.cons rfl (.cons rfl (.cons rfl .nil))))
/-- Stretch 14 writes only those. -/
theorem hostOps0_14_writes : (hostOps0_14 : List (HloOp τ sig (Elt F))).Forall fun op => op.writes ⊆ ((wr_14).map (Proc.devRef (τ := τ) .tc)).toFinset :=
  writes_sub_of_forall₂ hostOps0_14_wr
set_option maxHeartbeats 40000000 in
/-- No operation of stretch 14 allocates a buffer. -/
theorem hostOps0_14_fresh : (hostOps0_14 : List (HloOp τ sig (Elt F))).Forall fun op => op.fresh = ∅ :=
  ⟨rfl, rfl, rfl, rfl⟩

/-- The references stretch 15 writes, one per operation, in order. -/
abbrev wr_15 : List (Ref sig .tc) :=
  [ main_call7_v0, main_call7_c, main_call7_v1, main_call7_c_0, main_call7_v2, main_call7_v3, main_call7_v4, main_call7_c_1,
    main_call7_v5, main_call7_v6, main_call7_c_2, main_call7_v7, main_call7_v8, main_call7_c_3, main_call7_v9, main_call7_v10,
    main_call7_v11, main_call7_v12, main_call7_v13, main_call7_v14, main_v449 ]
set_option maxHeartbeats 40000000 in
/-- Operation by operation, stretch 15 writes exactly those. -/
theorem hostOps0_15_wr : List.Forall₂ (fun op r => op.writes = {Proc.devRef (τ := τ) .tc r}) (hostOps0_15 : List (HloOp τ sig (Elt F))) wr_15 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 15 writes only those. -/
theorem hostOps0_15_writes : (hostOps0_15 : List (HloOp τ sig (Elt F))).Forall fun op => op.writes ⊆ ((wr_15).map (Proc.devRef (τ := τ) .tc)).toFinset :=
  writes_sub_of_forall₂ hostOps0_15_wr
set_option maxHeartbeats 40000000 in
/-- No operation of stretch 15 allocates a buffer. -/
theorem hostOps0_15_fresh : (hostOps0_15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 16 writes, one per operation, in order. -/
abbrev wr_16 : List (Ref sig .tc) :=
  [ main_c_108, main_v450, main_v451, main_v452, main_v453, main_v454, main_v455, main_v456,
    main_v457, main_v458, main_v459, main_cst_109, main_v460, main_v461, main_cst_110, main_v462,
    main_v463, main_cst_111, main_v464, main_v465, main_v466, main_v467, main_cst_112, main_v468,
    main_v469, main_v470, main_v471, main_v472, main_v473, main_v474, main_v475, main_v476,
    main_v477, main_v478, main_v479, main_v480, main_cst_113, main_v481, main_v482, main_cst_114,
    main_v483, main_v484, main_v485, main_v486, main_v487, main_v488, main_v489, main_cst_115,
    main_v490, main_v491, main_cst_116, main_v492, main_v493, main_v494, main_v495, main_c_117,
    main_v496, main_v497, main_c_118, main_v498, main_v499, main_v500, main_v501, main_v502,
    main_c_119, main_v503, main_v504, main_c_120, main_v505, main_v506, main_v507, main_v508,
    main_v509, main_v510, main_c_121, main_v511, main_v512, main_v513, main_v514, main_v515,
    main_v516, main_v517, main_v518, main_c_122, main_v519, main_v520, main_c_123, main_v521,
    main_v522, main_v523, main_v524, main_v525, main_v526, main_c_124, main_v527, main_v528,
    main_v529, main_v530, main_v531, main_v532, main_v533, main_v534, main_c_125, main_v535,
    main_v536, main_c_126, main_v537, main_v538, main_v539, main_v540, main_v541, main_c_127,
    main_v542, main_v543, main_c_128, main_v544, main_v545, main_v546, main_v547, main_v548,
    main_c_129, main_v549, main_v550, main_c_130, main_v551, main_v552, main_v553, main_v554,
    main_v555, main_c_131 ]
set_option maxHeartbeats 40000000 in
/-- Operation by operation, stretch 16 writes exactly those. -/
theorem hostOps0_16_wr : List.Forall₂ (fun op r => op.writes = {Proc.devRef (τ := τ) .tc r}) (hostOps0_16 : List (HloOp τ sig (Elt F))) wr_16 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 16 writes only those. -/
theorem hostOps0_16_writes : (hostOps0_16 : List (HloOp τ sig (Elt F))).Forall fun op => op.writes ⊆ ((wr_16).map (Proc.devRef (τ := τ) .tc)).toFinset :=
  writes_sub_of_forall₂ hostOps0_16_wr
set_option maxHeartbeats 40000000 in
/-- No operation of stretch 16 allocates a buffer. -/
theorem hostOps0_16_fresh : (hostOps0_16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 17 writes, one per operation, in order. -/
abbrev wr_17 : List (Ref sig .tc) :=
  [ main_call8_v0, main_call8_v1, main_call8_v2, main_call8_v3, main_call8_v4, main_call8_v5, main_call8_v6, main_call8_v7,
    main_call8_v8, main_call8_c, main_call8_v9, main_call8_v10, main_call8_v11, main_call8_c_0, main_call8_v12, main_call8_v13,
    main_v556 ]
set_option maxHeartbeats 40000000 in
/-- Operation by operation, stretch 17 writes exactly those. -/
theorem hostOps0_17_wr : List.Forall₂ (fun op r => op.writes = {Proc.devRef (τ := τ) .tc r}) (hostOps0_17 : List (HloOp τ sig (Elt F))) wr_17 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 17 writes only those. -/
theorem hostOps0_17_writes : (hostOps0_17 : List (HloOp τ sig (Elt F))).Forall fun op => op.writes ⊆ ((wr_17).map (Proc.devRef (τ := τ) .tc)).toFinset :=
  writes_sub_of_forall₂ hostOps0_17_wr
set_option maxHeartbeats 40000000 in
/-- No operation of stretch 17 allocates a buffer. -/
theorem hostOps0_17_fresh : (hostOps0_17 : List (HloOp τ sig (Elt F))).Forall fun op => op.fresh = ∅ :=
  ⟨rfl, rfl, rfl, rfl, rfl, rfl, rfl, rfl, rfl, rfl, rfl, rfl, rfl, rfl, rfl, rfl, rfl⟩

/-- The references stretch 18 writes, one per operation, in order. -/
abbrev wr_18 : List (Ref sig .tc) :=
  [ main_c_132, main_v557, main_v558, main_c_133 ]
set_option maxHeartbeats 40000000 in
/-- Operation by operation, stretch 18 writes exactly those. -/
theorem hostOps0_18_wr : List.Forall₂ (fun op r => op.writes = {Proc.devRef (τ := τ) .tc r}) (hostOps0_18 : List (HloOp τ sig (Elt F))) wr_18 :=
  (.cons rfl (.cons rfl (.cons rfl (.cons rfl .nil))))
/-- Stretch 18 writes only those. -/
theorem hostOps0_18_writes : (hostOps0_18 : List (HloOp τ sig (Elt F))).Forall fun op => op.writes ⊆ ((wr_18).map (Proc.devRef (τ := τ) .tc)).toFinset :=
  writes_sub_of_forall₂ hostOps0_18_wr
set_option maxHeartbeats 40000000 in
/-- No operation of stretch 18 allocates a buffer. -/
theorem hostOps0_18_fresh : (hostOps0_18 : List (HloOp τ sig (Elt F))).Forall fun op => op.fresh = ∅ :=
  ⟨rfl, rfl, rfl, rfl⟩

/-- The references stretch 19 writes, one per operation, in order. -/
abbrev wr_19 : List (Ref sig .tc) :=
  [ main_call9_v0, main_call9_c, main_call9_v1, main_call9_c_0, main_call9_v2, main_call9_v3, main_call9_v4, main_call9_c_1,
    main_call9_v5, main_call9_v6, main_call9_c_2, main_call9_v7, main_call9_v8, main_call9_c_3, main_call9_v9, main_call9_v10,
    main_call9_v11, main_call9_v12, main_call9_v13, main_call9_v14, main_v559 ]
set_option maxHeartbeats 40000000 in
/-- Operation by operation, stretch 19 writes exactly those. -/
theorem hostOps0_19_wr : List.Forall₂ (fun op r => op.writes = {Proc.devRef (τ := τ) .tc r}) (hostOps0_19 : List (HloOp τ sig (Elt F))) wr_19 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 19 writes only those. -/
theorem hostOps0_19_writes : (hostOps0_19 : List (HloOp τ sig (Elt F))).Forall fun op => op.writes ⊆ ((wr_19).map (Proc.devRef (τ := τ) .tc)).toFinset :=
  writes_sub_of_forall₂ hostOps0_19_wr
set_option maxHeartbeats 40000000 in
/-- No operation of stretch 19 allocates a buffer. -/
theorem hostOps0_19_fresh : (hostOps0_19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 20 writes, one per operation, in order. -/
abbrev wr_20 : List (Ref sig .tc) :=
  [ main_c_134, main_v560, main_v561, main_v562, main_v563, main_v564, main_v565, main_v566,
    main_v567, main_v568, main_v569, main_cst_135, main_v570, main_v571, main_cst_136, main_v572,
    main_v573, main_cst_137, main_v574, main_v575, main_v576, main_v577, main_cst_138, main_v578,
    main_v579, main_v580, main_v581, main_v582, main_v583, main_v584, main_v585, main_v586,
    main_v587, main_v588, main_v589, main_v590, main_cst_139, main_v591, main_v592, main_cst_140,
    main_v593, main_v594, main_v595, main_v596, main_v597, main_v598, main_v599, main_cst_141,
    main_v600, main_v601, main_cst_142, main_v602, main_v603, main_v604, main_v605, main_c_143,
    main_v606, main_v607, main_c_144, main_v608, main_v609, main_v610, main_v611, main_v612,
    main_c_145, main_v613, main_v614, main_c_146, main_v615, main_v616, main_v617, main_v618,
    main_v619, main_v620, main_c_147, main_v621, main_v622, main_v623, main_v624, main_v625,
    main_v626, main_v627, main_v628, main_c_148, main_v629, main_v630, main_c_149, main_v631,
    main_v632, main_v633, main_v634, main_v635, main_v636, main_c_150, main_v637, main_v638,
    main_v639, main_v640, main_v641, main_v642, main_v643, main_v644, main_c_151, main_v645,
    main_v646, main_c_152, main_v647, main_v648, main_v649, main_v650, main_v651, main_c_153,
    main_v652, main_v653, main_c_154, main_v654, main_v655, main_v656, main_v657, main_v658,
    main_c_155, main_v659, main_v660, main_c_156, main_v661, main_v662, main_v663, main_v664,
    main_v665, main_c_157 ]
set_option maxHeartbeats 40000000 in
/-- Operation by operation, stretch 20 writes exactly those. -/
theorem hostOps0_20_wr : List.Forall₂ (fun op r => op.writes = {Proc.devRef (τ := τ) .tc r}) (hostOps0_20 : List (HloOp τ sig (Elt F))) wr_20 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 20 writes only those. -/
theorem hostOps0_20_writes : (hostOps0_20 : List (HloOp τ sig (Elt F))).Forall fun op => op.writes ⊆ ((wr_20).map (Proc.devRef (τ := τ) .tc)).toFinset :=
  writes_sub_of_forall₂ hostOps0_20_wr
set_option maxHeartbeats 40000000 in
/-- No operation of stretch 20 allocates a buffer. -/
theorem hostOps0_20_fresh : (hostOps0_20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 21 writes, one per operation, in order. -/
abbrev wr_21 : List (Ref sig .tc) :=
  [ main_call10_v0, main_call10_v1, main_call10_v2, main_call10_v3, main_call10_v4, main_call10_v5, main_call10_v6, main_call10_v7,
    main_call10_v8, main_call10_c, main_call10_v9, main_call10_v10, main_call10_v11, main_call10_c_0, main_call10_v12, main_call10_v13,
    main_v666 ]
set_option maxHeartbeats 40000000 in
/-- Operation by operation, stretch 21 writes exactly those. -/
theorem hostOps0_21_wr : List.Forall₂ (fun op r => op.writes = {Proc.devRef (τ := τ) .tc r}) (hostOps0_21 : List (HloOp τ sig (Elt F))) wr_21 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 21 writes only those. -/
theorem hostOps0_21_writes : (hostOps0_21 : List (HloOp τ sig (Elt F))).Forall fun op => op.writes ⊆ ((wr_21).map (Proc.devRef (τ := τ) .tc)).toFinset :=
  writes_sub_of_forall₂ hostOps0_21_wr
set_option maxHeartbeats 40000000 in
/-- No operation of stretch 21 allocates a buffer. -/
theorem hostOps0_21_fresh : (hostOps0_21 : List (HloOp τ sig (Elt F))).Forall fun op => op.fresh = ∅ :=
  ⟨rfl, rfl, rfl, rfl, rfl, rfl, rfl, rfl, rfl, rfl, rfl, rfl, rfl, rfl, rfl, rfl, rfl⟩

/-- The references stretch 22 writes, one per operation, in order. -/
abbrev wr_22 : List (Ref sig .tc) :=
  [ main_c_158, main_v667, main_v668, main_c_159 ]
set_option maxHeartbeats 40000000 in
/-- Operation by operation, stretch 22 writes exactly those. -/
theorem hostOps0_22_wr : List.Forall₂ (fun op r => op.writes = {Proc.devRef (τ := τ) .tc r}) (hostOps0_22 : List (HloOp τ sig (Elt F))) wr_22 :=
  (.cons rfl (.cons rfl (.cons rfl (.cons rfl .nil))))
/-- Stretch 22 writes only those. -/
theorem hostOps0_22_writes : (hostOps0_22 : List (HloOp τ sig (Elt F))).Forall fun op => op.writes ⊆ ((wr_22).map (Proc.devRef (τ := τ) .tc)).toFinset :=
  writes_sub_of_forall₂ hostOps0_22_wr
set_option maxHeartbeats 40000000 in
/-- No operation of stretch 22 allocates a buffer. -/
theorem hostOps0_22_fresh : (hostOps0_22 : List (HloOp τ sig (Elt F))).Forall fun op => op.fresh = ∅ :=
  ⟨rfl, rfl, rfl, rfl⟩

/-- The references stretch 23 writes, one per operation, in order. -/
abbrev wr_23 : List (Ref sig .tc) :=
  [ main_call11_v0, main_call11_c, main_call11_v1, main_call11_c_0, main_call11_v2, main_call11_v3, main_call11_v4, main_call11_c_1,
    main_call11_v5, main_call11_v6, main_call11_c_2, main_call11_v7, main_call11_v8, main_call11_c_3, main_call11_v9, main_call11_v10,
    main_call11_v11, main_call11_v12, main_call11_v13, main_call11_v14, main_v669 ]
set_option maxHeartbeats 40000000 in
/-- Operation by operation, stretch 23 writes exactly those. -/
theorem hostOps0_23_wr : List.Forall₂ (fun op r => op.writes = {Proc.devRef (τ := τ) .tc r}) (hostOps0_23 : List (HloOp τ sig (Elt F))) wr_23 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 23 writes only those. -/
theorem hostOps0_23_writes : (hostOps0_23 : List (HloOp τ sig (Elt F))).Forall fun op => op.writes ⊆ ((wr_23).map (Proc.devRef (τ := τ) .tc)).toFinset :=
  writes_sub_of_forall₂ hostOps0_23_wr
set_option maxHeartbeats 40000000 in
/-- No operation of stretch 23 allocates a buffer. -/
theorem hostOps0_23_fresh : (hostOps0_23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 24 writes, one per operation, in order. -/
abbrev wr_24 : List (Ref sig .tc) :=
  [ main_c_160, main_v670, main_v671, main_v672, main_v673, main_v674, main_v675, main_v676,
    main_v677, main_v678, main_v679, main_cst_161, main_v680, main_v681, main_cst_162, main_v682,
    main_v683, main_cst_163, main_v684, main_v685, main_v686, main_v687, main_cst_164, main_v688,
    main_v689, main_v690, main_v691, main_v692, main_v693, main_v694, main_v695, main_v696,
    main_v697, main_v698, main_v699, main_v700, main_cst_165, main_v701, main_v702, main_cst_166,
    main_v703, main_v704, main_v705, main_v706, main_v707, main_v708, main_v709, main_cst_167,
    main_v710, main_v711, main_cst_168, main_v712, main_v713, main_v714, main_v715, main_c_169,
    main_v716, main_v717, main_c_170, main_v718, main_v719, main_v720, main_v721, main_v722,
    main_c_171, main_v723, main_v724, main_c_172, main_v725, main_v726, main_v727, main_v728,
    main_v729, main_v730, main_c_173, main_v731, main_v732, main_v733, main_v734, main_v735,
    main_v736, main_v737, main_v738, main_c_174, main_v739, main_v740, main_c_175, main_v741,
    main_v742, main_v743, main_v744, main_v745, main_v746, main_c_176, main_v747, main_v748,
    main_v749, main_v750, main_v751, main_v752, main_v753, main_v754, main_c_177, main_v755,
    main_v756, main_c_178, main_v757, main_v758, main_v759, main_v760, main_v761, main_c_179,
    main_v762, main_v763, main_c_180, main_v764, main_v765, main_v766, main_v767, main_v768,
    main_c_181, main_v769, main_v770, main_c_182, main_v771, main_v772, main_v773, main_v774,
    main_v775, main_c_183 ]
set_option maxHeartbeats 40000000 in
/-- Operation by operation, stretch 24 writes exactly those. -/
theorem hostOps0_24_wr : List.Forall₂ (fun op r => op.writes = {Proc.devRef (τ := τ) .tc r}) (hostOps0_24 : List (HloOp τ sig (Elt F))) wr_24 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 24 writes only those. -/
theorem hostOps0_24_writes : (hostOps0_24 : List (HloOp τ sig (Elt F))).Forall fun op => op.writes ⊆ ((wr_24).map (Proc.devRef (τ := τ) .tc)).toFinset :=
  writes_sub_of_forall₂ hostOps0_24_wr
set_option maxHeartbeats 40000000 in
/-- No operation of stretch 24 allocates a buffer. -/
theorem hostOps0_24_fresh : (hostOps0_24 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 25 writes, one per operation, in order. -/
abbrev wr_25 : List (Ref sig .tc) :=
  [ main_call12_v0, main_call12_v1, main_call12_v2, main_call12_v3, main_call12_v4, main_call12_v5, main_call12_v6, main_call12_v7,
    main_call12_v8, main_call12_c, main_call12_v9, main_call12_v10, main_call12_v11, main_call12_c_0, main_call12_v12, main_call12_v13,
    main_v776 ]
set_option maxHeartbeats 40000000 in
/-- Operation by operation, stretch 25 writes exactly those. -/
theorem hostOps0_25_wr : List.Forall₂ (fun op r => op.writes = {Proc.devRef (τ := τ) .tc r}) (hostOps0_25 : List (HloOp τ sig (Elt F))) wr_25 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 25 writes only those. -/
theorem hostOps0_25_writes : (hostOps0_25 : List (HloOp τ sig (Elt F))).Forall fun op => op.writes ⊆ ((wr_25).map (Proc.devRef (τ := τ) .tc)).toFinset :=
  writes_sub_of_forall₂ hostOps0_25_wr
set_option maxHeartbeats 40000000 in
/-- No operation of stretch 25 allocates a buffer. -/
theorem hostOps0_25_fresh : (hostOps0_25 : List (HloOp τ sig (Elt F))).Forall fun op => op.fresh = ∅ :=
  ⟨rfl, rfl, rfl, rfl, rfl, rfl, rfl, rfl, rfl, rfl, rfl, rfl, rfl, rfl, rfl, rfl, rfl⟩

/-- The references stretch 26 writes, one per operation, in order. -/
abbrev wr_26 : List (Ref sig .tc) :=
  [ main_c_184, main_v777, main_v778, main_c_185 ]
set_option maxHeartbeats 40000000 in
/-- Operation by operation, stretch 26 writes exactly those. -/
theorem hostOps0_26_wr : List.Forall₂ (fun op r => op.writes = {Proc.devRef (τ := τ) .tc r}) (hostOps0_26 : List (HloOp τ sig (Elt F))) wr_26 :=
  (.cons rfl (.cons rfl (.cons rfl (.cons rfl .nil))))
/-- Stretch 26 writes only those. -/
theorem hostOps0_26_writes : (hostOps0_26 : List (HloOp τ sig (Elt F))).Forall fun op => op.writes ⊆ ((wr_26).map (Proc.devRef (τ := τ) .tc)).toFinset :=
  writes_sub_of_forall₂ hostOps0_26_wr
set_option maxHeartbeats 40000000 in
/-- No operation of stretch 26 allocates a buffer. -/
theorem hostOps0_26_fresh : (hostOps0_26 : List (HloOp τ sig (Elt F))).Forall fun op => op.fresh = ∅ :=
  ⟨rfl, rfl, rfl, rfl⟩

/-- The references stretch 27 writes, one per operation, in order. -/
abbrev wr_27 : List (Ref sig .tc) :=
  [ main_call13_v0, main_call13_c, main_call13_v1, main_call13_c_0, main_call13_v2, main_call13_v3, main_call13_v4, main_call13_c_1,
    main_call13_v5, main_call13_v6, main_call13_c_2, main_call13_v7, main_call13_v8, main_call13_c_3, main_call13_v9, main_call13_v10,
    main_call13_v11, main_call13_v12, main_call13_v13, main_call13_v14, main_v779 ]
set_option maxHeartbeats 40000000 in
/-- Operation by operation, stretch 27 writes exactly those. -/
theorem hostOps0_27_wr : List.Forall₂ (fun op r => op.writes = {Proc.devRef (τ := τ) .tc r}) (hostOps0_27 : List (HloOp τ sig (Elt F))) wr_27 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 27 writes only those. -/
theorem hostOps0_27_writes : (hostOps0_27 : List (HloOp τ sig (Elt F))).Forall fun op => op.writes ⊆ ((wr_27).map (Proc.devRef (τ := τ) .tc)).toFinset :=
  writes_sub_of_forall₂ hostOps0_27_wr
set_option maxHeartbeats 40000000 in
/-- No operation of stretch 27 allocates a buffer. -/
theorem hostOps0_27_fresh : (hostOps0_27 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 28 writes, one per operation, in order. -/
abbrev wr_28 : List (Ref sig .tc) :=
  [ main_c_186, main_v780, main_v781, main_v782, main_v783, main_v784, main_v785, main_v786,
    main_v787, main_v788, main_v789, main_cst_187, main_v790, main_v791, main_cst_188, main_v792,
    main_v793, main_cst_189, main_v794, main_v795, main_v796, main_v797, main_cst_190, main_v798,
    main_v799, main_v800, main_v801, main_v802, main_v803, main_v804, main_v805, main_v806,
    main_v807, main_v808, main_v809, main_v810, main_cst_191, main_v811, main_v812, main_cst_192,
    main_v813, main_v814, main_v815, main_v816, main_v817, main_v818, main_v819, main_cst_193,
    main_v820, main_v821, main_cst_194, main_v822, main_v823, main_v824, main_v825, main_c_195,
    main_v826, main_v827, main_c_196, main_v828, main_v829, main_v830, main_v831, main_v832,
    main_c_197, main_v833, main_v834, main_c_198, main_v835, main_v836, main_v837, main_v838,
    main_v839, main_v840, main_c_199, main_v841, main_v842, main_v843, main_v844, main_v845,
    main_v846, main_v847, main_v848, main_c_200, main_v849, main_v850, main_c_201, main_v851,
    main_v852, main_v853, main_v854, main_v855, main_v856, main_c_202, main_v857, main_v858,
    main_v859, main_v860, main_v861, main_v862, main_v863, main_v864, main_c_203, main_v865,
    main_v866, main_c_204, main_v867, main_v868, main_v869, main_v870, main_v871, main_c_205,
    main_v872, main_v873, main_c_206, main_v874, main_v875, main_v876, main_v877, main_v878,
    main_c_207, main_v879, main_v880, main_c_208, main_v881, main_v882, main_v883, main_v884,
    main_v885, main_c_209 ]
set_option maxHeartbeats 40000000 in
/-- Operation by operation, stretch 28 writes exactly those. -/
theorem hostOps0_28_wr : List.Forall₂ (fun op r => op.writes = {Proc.devRef (τ := τ) .tc r}) (hostOps0_28 : List (HloOp τ sig (Elt F))) wr_28 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 28 writes only those. -/
theorem hostOps0_28_writes : (hostOps0_28 : List (HloOp τ sig (Elt F))).Forall fun op => op.writes ⊆ ((wr_28).map (Proc.devRef (τ := τ) .tc)).toFinset :=
  writes_sub_of_forall₂ hostOps0_28_wr
set_option maxHeartbeats 40000000 in
/-- No operation of stretch 28 allocates a buffer. -/
theorem hostOps0_28_fresh : (hostOps0_28 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 29 writes, one per operation, in order. -/
abbrev wr_29 : List (Ref sig .tc) :=
  [ main_call14_v0, main_call14_v1, main_call14_v2, main_call14_v3, main_call14_v4, main_call14_v5, main_call14_v6, main_call14_v7,
    main_call14_v8, main_call14_c, main_call14_v9, main_call14_v10, main_call14_v11, main_call14_c_0, main_call14_v12, main_call14_v13,
    main_v886 ]
set_option maxHeartbeats 40000000 in
/-- Operation by operation, stretch 29 writes exactly those. -/
theorem hostOps0_29_wr : List.Forall₂ (fun op r => op.writes = {Proc.devRef (τ := τ) .tc r}) (hostOps0_29 : List (HloOp τ sig (Elt F))) wr_29 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 29 writes only those. -/
theorem hostOps0_29_writes : (hostOps0_29 : List (HloOp τ sig (Elt F))).Forall fun op => op.writes ⊆ ((wr_29).map (Proc.devRef (τ := τ) .tc)).toFinset :=
  writes_sub_of_forall₂ hostOps0_29_wr
set_option maxHeartbeats 40000000 in
/-- No operation of stretch 29 allocates a buffer. -/
theorem hostOps0_29_fresh : (hostOps0_29 : List (HloOp τ sig (Elt F))).Forall fun op => op.fresh = ∅ :=
  ⟨rfl, rfl, rfl, rfl, rfl, rfl, rfl, rfl, rfl, rfl, rfl, rfl, rfl, rfl, rfl, rfl, rfl⟩

/-- The references stretch 30 writes, one per operation, in order. -/
abbrev wr_30 : List (Ref sig .tc) :=
  [ main_c_210, main_v887, main_v888, main_c_211 ]
set_option maxHeartbeats 40000000 in
/-- Operation by operation, stretch 30 writes exactly those. -/
theorem hostOps0_30_wr : List.Forall₂ (fun op r => op.writes = {Proc.devRef (τ := τ) .tc r}) (hostOps0_30 : List (HloOp τ sig (Elt F))) wr_30 :=
  (.cons rfl (.cons rfl (.cons rfl (.cons rfl .nil))))
/-- Stretch 30 writes only those. -/
theorem hostOps0_30_writes : (hostOps0_30 : List (HloOp τ sig (Elt F))).Forall fun op => op.writes ⊆ ((wr_30).map (Proc.devRef (τ := τ) .tc)).toFinset :=
  writes_sub_of_forall₂ hostOps0_30_wr
set_option maxHeartbeats 40000000 in
/-- No operation of stretch 30 allocates a buffer. -/
theorem hostOps0_30_fresh : (hostOps0_30 : List (HloOp τ sig (Elt F))).Forall fun op => op.fresh = ∅ :=
  ⟨rfl, rfl, rfl, rfl⟩

/-- The references stretch 31 writes, one per operation, in order. -/
abbrev wr_31 : List (Ref sig .tc) :=
  [ main_call15_v0, main_call15_c, main_call15_v1, main_call15_c_0, main_call15_v2, main_call15_v3, main_call15_v4, main_call15_c_1,
    main_call15_v5, main_call15_v6, main_call15_c_2, main_call15_v7, main_call15_v8, main_call15_c_3, main_call15_v9, main_call15_v10,
    main_call15_v11, main_call15_v12, main_call15_v13, main_call15_v14, main_v889 ]
set_option maxHeartbeats 40000000 in
/-- Operation by operation, stretch 31 writes exactly those. -/
theorem hostOps0_31_wr : List.Forall₂ (fun op r => op.writes = {Proc.devRef (τ := τ) .tc r}) (hostOps0_31 : List (HloOp τ sig (Elt F))) wr_31 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 31 writes only those. -/
theorem hostOps0_31_writes : (hostOps0_31 : List (HloOp τ sig (Elt F))).Forall fun op => op.writes ⊆ ((wr_31).map (Proc.devRef (τ := τ) .tc)).toFinset :=
  writes_sub_of_forall₂ hostOps0_31_wr
set_option maxHeartbeats 40000000 in
/-- No operation of stretch 31 allocates a buffer. -/
theorem hostOps0_31_fresh : (hostOps0_31 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 32 writes, one per operation, in order. -/
abbrev wr_32 : List (Ref sig .tc) :=
  [ main_c_212, main_v890, main_v891, main_v892, main_v893, main_v894, main_v895, main_v896,
    main_v897, main_v898, main_v899, main_cst_213, main_v900, main_v901, main_cst_214, main_v902,
    main_v903, main_cst_215, main_v904, main_v905, main_v906, main_v907, main_cst_216, main_v908,
    main_v909, main_v910, main_v911, main_v912, main_v913, main_v914, main_v915, main_v916,
    main_v917, main_v918, main_v919, main_v920, main_cst_217, main_v921, main_v922, main_cst_218,
    main_v923, main_v924, main_v925, main_v926, main_v927, main_v928, main_v929, main_cst_219,
    main_v930, main_v931, main_cst_220, main_v932, main_v933, main_v934, main_v935, main_c_221,
    main_v936, main_v937, main_c_222, main_v938, main_v939, main_v940, main_v941, main_v942,
    main_c_223, main_v943, main_v944, main_c_224, main_v945, main_v946, main_v947, main_v948,
    main_v949, main_v950, main_c_225, main_v951, main_v952, main_v953, main_v954, main_v955,
    main_v956, main_v957, main_v958, main_c_226, main_v959, main_v960, main_c_227, main_v961,
    main_v962, main_v963, main_v964, main_v965, main_v966, main_c_228, main_v967, main_v968,
    main_v969, main_v970, main_v971, main_v972, main_v973, main_v974, main_c_229, main_v975,
    main_v976, main_c_230, main_v977, main_v978, main_v979, main_v980, main_v981, main_c_231,
    main_v982, main_v983, main_c_232, main_v984, main_v985, main_v986, main_v987, main_v988,
    main_c_233, main_v989, main_v990, main_c_234, main_v991, main_v992, main_v993, main_v994,
    main_v995, main_c_235 ]
set_option maxHeartbeats 40000000 in
/-- Operation by operation, stretch 32 writes exactly those. -/
theorem hostOps0_32_wr : List.Forall₂ (fun op r => op.writes = {Proc.devRef (τ := τ) .tc r}) (hostOps0_32 : List (HloOp τ sig (Elt F))) wr_32 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 32 writes only those. -/
theorem hostOps0_32_writes : (hostOps0_32 : List (HloOp τ sig (Elt F))).Forall fun op => op.writes ⊆ ((wr_32).map (Proc.devRef (τ := τ) .tc)).toFinset :=
  writes_sub_of_forall₂ hostOps0_32_wr
set_option maxHeartbeats 40000000 in
/-- No operation of stretch 32 allocates a buffer. -/
theorem hostOps0_32_fresh : (hostOps0_32 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 33 writes, one per operation, in order. -/
abbrev wr_33 : List (Ref sig .tc) :=
  [ main_call16_v0, main_call16_v1, main_call16_v2, main_call16_v3, main_call16_v4, main_call16_v5, main_call16_v6, main_call16_v7,
    main_call16_v8, main_call16_c, main_call16_v9, main_call16_v10, main_call16_v11, main_call16_c_0, main_call16_v12, main_call16_v13,
    main_v996 ]
set_option maxHeartbeats 40000000 in
/-- Operation by operation, stretch 33 writes exactly those. -/
theorem hostOps0_33_wr : List.Forall₂ (fun op r => op.writes = {Proc.devRef (τ := τ) .tc r}) (hostOps0_33 : List (HloOp τ sig (Elt F))) wr_33 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 33 writes only those. -/
theorem hostOps0_33_writes : (hostOps0_33 : List (HloOp τ sig (Elt F))).Forall fun op => op.writes ⊆ ((wr_33).map (Proc.devRef (τ := τ) .tc)).toFinset :=
  writes_sub_of_forall₂ hostOps0_33_wr
set_option maxHeartbeats 40000000 in
/-- No operation of stretch 33 allocates a buffer. -/
theorem hostOps0_33_fresh : (hostOps0_33 : List (HloOp τ sig (Elt F))).Forall fun op => op.fresh = ∅ :=
  ⟨rfl, rfl, rfl, rfl, rfl, rfl, rfl, rfl, rfl, rfl, rfl, rfl, rfl, rfl, rfl, rfl, rfl⟩

/-- The references stretch 34 writes, one per operation, in order. -/
abbrev wr_34 : List (Ref sig .tc) :=
  [ main_c_236, main_v997, main_v998, main_c_237 ]
set_option maxHeartbeats 40000000 in
/-- Operation by operation, stretch 34 writes exactly those. -/
theorem hostOps0_34_wr : List.Forall₂ (fun op r => op.writes = {Proc.devRef (τ := τ) .tc r}) (hostOps0_34 : List (HloOp τ sig (Elt F))) wr_34 :=
  (.cons rfl (.cons rfl (.cons rfl (.cons rfl .nil))))
/-- Stretch 34 writes only those. -/
theorem hostOps0_34_writes : (hostOps0_34 : List (HloOp τ sig (Elt F))).Forall fun op => op.writes ⊆ ((wr_34).map (Proc.devRef (τ := τ) .tc)).toFinset :=
  writes_sub_of_forall₂ hostOps0_34_wr
set_option maxHeartbeats 40000000 in
/-- No operation of stretch 34 allocates a buffer. -/
theorem hostOps0_34_fresh : (hostOps0_34 : List (HloOp τ sig (Elt F))).Forall fun op => op.fresh = ∅ :=
  ⟨rfl, rfl, rfl, rfl⟩

/-- The references stretch 35 writes, one per operation, in order. -/
abbrev wr_35 : List (Ref sig .tc) :=
  [ main_call17_v0, main_call17_c, main_call17_v1, main_call17_c_0, main_call17_v2, main_call17_v3, main_call17_v4, main_call17_c_1,
    main_call17_v5, main_call17_v6, main_call17_c_2, main_call17_v7, main_call17_v8, main_call17_c_3, main_call17_v9, main_call17_v10,
    main_call17_v11, main_call17_v12, main_call17_v13, main_call17_v14, main_v999 ]
set_option maxHeartbeats 40000000 in
/-- Operation by operation, stretch 35 writes exactly those. -/
theorem hostOps0_35_wr : List.Forall₂ (fun op r => op.writes = {Proc.devRef (τ := τ) .tc r}) (hostOps0_35 : List (HloOp τ sig (Elt F))) wr_35 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 35 writes only those. -/
theorem hostOps0_35_writes : (hostOps0_35 : List (HloOp τ sig (Elt F))).Forall fun op => op.writes ⊆ ((wr_35).map (Proc.devRef (τ := τ) .tc)).toFinset :=
  writes_sub_of_forall₂ hostOps0_35_wr
set_option maxHeartbeats 40000000 in
/-- No operation of stretch 35 allocates a buffer. -/
theorem hostOps0_35_fresh : (hostOps0_35 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 36 writes, one per operation, in order. -/
abbrev wr_36 : List (Ref sig .tc) :=
  [ main_c_238, main_v1000, main_v1001, main_v1002, main_v1003, main_v1004, main_v1005, main_v1006,
    main_v1007, main_v1008, main_v1009, main_cst_239, main_v1010, main_v1011, main_cst_240, main_v1012,
    main_v1013, main_cst_241, main_v1014, main_v1015, main_v1016, main_v1017, main_cst_242, main_v1018,
    main_v1019, main_v1020, main_v1021, main_v1022, main_v1023, main_v1024, main_v1025, main_v1026,
    main_v1027, main_v1028, main_v1029, main_v1030, main_cst_243, main_v1031, main_v1032, main_cst_244,
    main_v1033, main_v1034, main_v1035, main_v1036, main_v1037, main_v1038, main_v1039, main_cst_245,
    main_v1040, main_v1041, main_cst_246, main_v1042, main_v1043, main_v1044, main_v1045, main_c_247,
    main_v1046, main_v1047, main_c_248, main_v1048, main_v1049, main_v1050, main_v1051, main_v1052,
    main_c_249, main_v1053, main_v1054, main_c_250, main_v1055, main_v1056, main_v1057, main_v1058,
    main_v1059, main_v1060, main_c_251, main_v1061, main_v1062, main_v1063, main_v1064, main_v1065,
    main_v1066, main_v1067, main_v1068, main_c_252, main_v1069, main_v1070, main_c_253, main_v1071,
    main_v1072, main_v1073, main_v1074, main_v1075, main_v1076, main_c_254, main_v1077, main_v1078,
    main_v1079, main_v1080, main_v1081, main_v1082, main_v1083, main_v1084, main_c_255, main_v1085,
    main_v1086, main_c_256, main_v1087, main_v1088, main_v1089, main_v1090, main_v1091, main_c_257,
    main_v1092, main_v1093, main_c_258, main_v1094, main_v1095, main_v1096, main_v1097, main_v1098,
    main_c_259, main_v1099, main_v1100, main_c_260, main_v1101, main_v1102, main_v1103, main_v1104,
    main_v1105, main_c_261 ]
set_option maxHeartbeats 40000000 in
/-- Operation by operation, stretch 36 writes exactly those. -/
theorem hostOps0_36_wr : List.Forall₂ (fun op r => op.writes = {Proc.devRef (τ := τ) .tc r}) (hostOps0_36 : List (HloOp τ sig (Elt F))) wr_36 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil))))))))))))))))))))))))))))))))))))))))))))))))))))))))))))))))))))))))))))))))))))))))))))))))))))))))))))))))))))))))))))))))))
/-- Stretch 36 writes only those. -/
theorem hostOps0_36_writes : (hostOps0_36 : List (HloOp τ sig (Elt F))).Forall fun op => op.writes ⊆ ((wr_36).map (Proc.devRef (τ := τ) .tc)).toFinset :=
  writes_sub_of_forall₂ hostOps0_36_wr
set_option maxHeartbeats 40000000 in
/-- No operation of stretch 36 allocates a buffer. -/
theorem hostOps0_36_fresh : (hostOps0_36 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 37 writes, one per operation, in order. -/
abbrev wr_37 : List (Ref sig .tc) :=
  [ main_call18_v0, main_call18_v1, main_call18_v2, main_call18_v3, main_call18_v4, main_call18_v5, main_call18_v6, main_call18_v7,
    main_call18_v8, main_call18_c, main_call18_v9, main_call18_v10, main_call18_v11, main_call18_c_0, main_call18_v12, main_call18_v13,
    main_v1106 ]
set_option maxHeartbeats 40000000 in
/-- Operation by operation, stretch 37 writes exactly those. -/
theorem hostOps0_37_wr : List.Forall₂ (fun op r => op.writes = {Proc.devRef (τ := τ) .tc r}) (hostOps0_37 : List (HloOp τ sig (Elt F))) wr_37 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 37 writes only those. -/
theorem hostOps0_37_writes : (hostOps0_37 : List (HloOp τ sig (Elt F))).Forall fun op => op.writes ⊆ ((wr_37).map (Proc.devRef (τ := τ) .tc)).toFinset :=
  writes_sub_of_forall₂ hostOps0_37_wr
set_option maxHeartbeats 40000000 in
/-- No operation of stretch 37 allocates a buffer. -/
theorem hostOps0_37_fresh : (hostOps0_37 : List (HloOp τ sig (Elt F))).Forall fun op => op.fresh = ∅ :=
  ⟨rfl, rfl, rfl, rfl, rfl, rfl, rfl, rfl, rfl, rfl, rfl, rfl, rfl, rfl, rfl, rfl, rfl⟩

/-- The references stretch 38 writes, one per operation, in order. -/
abbrev wr_38 : List (Ref sig .tc) :=
  [ main_c_262, main_v1107, main_v1108, main_c_263 ]
set_option maxHeartbeats 40000000 in
/-- Operation by operation, stretch 38 writes exactly those. -/
theorem hostOps0_38_wr : List.Forall₂ (fun op r => op.writes = {Proc.devRef (τ := τ) .tc r}) (hostOps0_38 : List (HloOp τ sig (Elt F))) wr_38 :=
  (.cons rfl (.cons rfl (.cons rfl (.cons rfl .nil))))
/-- Stretch 38 writes only those. -/
theorem hostOps0_38_writes : (hostOps0_38 : List (HloOp τ sig (Elt F))).Forall fun op => op.writes ⊆ ((wr_38).map (Proc.devRef (τ := τ) .tc)).toFinset :=
  writes_sub_of_forall₂ hostOps0_38_wr
set_option maxHeartbeats 40000000 in
/-- No operation of stretch 38 allocates a buffer. -/
theorem hostOps0_38_fresh : (hostOps0_38 : List (HloOp τ sig (Elt F))).Forall fun op => op.fresh = ∅ :=
  ⟨rfl, rfl, rfl, rfl⟩

/-- The references stretch 39 writes, one per operation, in order. -/
abbrev wr_39 : List (Ref sig .tc) :=
  [ main_call19_v0, main_call19_c, main_call19_v1, main_call19_c_0, main_call19_v2, main_call19_v3, main_call19_v4, main_call19_c_1,
    main_call19_v5, main_call19_v6, main_call19_c_2, main_call19_v7, main_call19_v8, main_call19_c_3, main_call19_v9, main_call19_v10,
    main_call19_v11, main_call19_v12, main_call19_v13, main_call19_v14, main_v1109 ]
set_option maxHeartbeats 40000000 in
/-- Operation by operation, stretch 39 writes exactly those. -/
theorem hostOps0_39_wr : List.Forall₂ (fun op r => op.writes = {Proc.devRef (τ := τ) .tc r}) (hostOps0_39 : List (HloOp τ sig (Elt F))) wr_39 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 39 writes only those. -/
theorem hostOps0_39_writes : (hostOps0_39 : List (HloOp τ sig (Elt F))).Forall fun op => op.writes ⊆ ((wr_39).map (Proc.devRef (τ := τ) .tc)).toFinset :=
  writes_sub_of_forall₂ hostOps0_39_wr
set_option maxHeartbeats 40000000 in
/-- No operation of stretch 39 allocates a buffer. -/
theorem hostOps0_39_fresh : (hostOps0_39 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 40 writes, one per operation, in order. -/
abbrev wr_40 : List (Ref sig .tc) :=
  [ main_c_264, main_v1110, main_v1111, main_v1112, main_v1113, main_v1114, main_v1115, main_v1116,
    main_v1117, main_v1118, main_v1119, main_cst_265, main_v1120, main_v1121, main_cst_266, main_v1122,
    main_v1123, main_cst_267, main_v1124, main_v1125, main_v1126, main_v1127, main_cst_268, main_v1128,
    main_v1129, main_v1130, main_v1131, main_v1132, main_v1133, main_v1134, main_v1135, main_v1136,
    main_v1137, main_v1138, main_v1139, main_v1140, main_cst_269, main_v1141, main_v1142, main_cst_270,
    main_v1143, main_v1144, main_v1145, main_v1146, main_v1147, main_v1148, main_v1149, main_cst_271,
    main_v1150, main_v1151, main_cst_272, main_v1152, main_v1153, main_v1154, main_v1155, main_c_273,
    main_v1156, main_v1157, main_c_274, main_v1158, main_v1159, main_v1160, main_v1161, main_v1162,
    main_c_275, main_v1163, main_v1164, main_c_276, main_v1165, main_v1166, main_v1167, main_v1168,
    main_v1169, main_v1170, main_c_277, main_v1171, main_v1172, main_v1173, main_v1174, main_v1175,
    main_v1176, main_v1177, main_c_278, main_v1178, main_v1179, main_c_279, main_v1180, main_v1181,
    main_v1182, main_v1183, main_v1184, main_v1185, main_c_280, main_v1186, main_v1187, main_v1188,
    main_v1189, main_v1190, main_v1191, main_v1192, main_v1193, main_c_281, main_v1194, main_v1195,
    main_c_282, main_v1196, main_v1197, main_v1198, main_v1199, main_v1200, main_c_283, main_v1201,
    main_v1202, main_c_284, main_v1203, main_v1204, main_v1205, main_v1206, main_v1207, main_c_285,
    main_v1208, main_v1209, main_c_286, main_v1210, main_v1211, main_v1212, main_v1213, main_v1214,
    main_c_287 ]
set_option maxHeartbeats 40000000 in
/-- Operation by operation, stretch 40 writes exactly those. -/
theorem hostOps0_40_wr : List.Forall₂ (fun op r => op.writes = {Proc.devRef (τ := τ) .tc r}) (hostOps0_40 : List (HloOp τ sig (Elt F))) wr_40 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))))))))))))))))))))))))))))))))))))))))))))))))))))))))))))))))))))))))
/-- Stretch 40 writes only those. -/
theorem hostOps0_40_writes : (hostOps0_40 : List (HloOp τ sig (Elt F))).Forall fun op => op.writes ⊆ ((wr_40).map (Proc.devRef (τ := τ) .tc)).toFinset :=
  writes_sub_of_forall₂ hostOps0_40_wr
set_option maxHeartbeats 40000000 in
/-- No operation of stretch 40 allocates a buffer. -/
theorem hostOps0_40_fresh : (hostOps0_40 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The references stretch 41 writes, one per operation, in order. -/
abbrev wr_41 : List (Ref sig .tc) :=
  [ main_call20_v0, main_call20_v1, main_call20_v2, main_call20_v3, main_call20_v4, main_call20_v5, main_call20_v6, main_call20_v7,
    main_call20_v8, main_call20_c, main_call20_v9, main_call20_v10, main_call20_v11, main_call20_c_0, main_call20_v12, main_call20_v13,
    main_v1215 ]
set_option maxHeartbeats 40000000 in
/-- Operation by operation, stretch 41 writes exactly those. -/
theorem hostOps0_41_wr : List.Forall₂ (fun op r => op.writes = {Proc.devRef (τ := τ) .tc r}) (hostOps0_41 : List (HloOp τ sig (Elt F))) wr_41 :=
  (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))
/-- Stretch 41 writes only those. -/
theorem hostOps0_41_writes : (hostOps0_41 : List (HloOp τ sig (Elt F))).Forall fun op => op.writes ⊆ ((wr_41).map (Proc.devRef (τ := τ) .tc)).toFinset :=
  writes_sub_of_forall₂ hostOps0_41_wr
set_option maxHeartbeats 40000000 in
/-- No operation of stretch 41 allocates a buffer. -/
theorem hostOps0_41_fresh : (hostOps0_41 : List (HloOp τ sig (Elt F))).Forall fun op => op.fresh = ∅ :=
  ⟨rfl, rfl, rfl, rfl, rfl, rfl, rfl, rfl, rfl, rfl, rfl, rfl, rfl, rfl, rfl, rfl, rfl⟩

/-- The references stretch 42 writes, one per operation, in order. -/
abbrev wr_42 : List (Ref sig .tc) :=
  [ main_c_288, main_v1216, main_v1217, main_c_289 ]
set_option maxHeartbeats 40000000 in
/-- Operation by operation, stretch 42 writes exactly those. -/
theorem hostOps0_42_wr : List.Forall₂ (fun op r => op.writes = {Proc.devRef (τ := τ) .tc r}) (hostOps0_42 : List (HloOp τ sig (Elt F))) wr_42 :=
  (.cons rfl (.cons rfl (.cons rfl (.cons rfl .nil))))
/-- Stretch 42 writes only those. -/
theorem hostOps0_42_writes : (hostOps0_42 : List (HloOp τ sig (Elt F))).Forall fun op => op.writes ⊆ ((wr_42).map (Proc.devRef (τ := τ) .tc)).toFinset :=
  writes_sub_of_forall₂ hostOps0_42_wr
set_option maxHeartbeats 40000000 in
/-- No operation of stretch 42 allocates a buffer. -/
theorem hostOps0_42_fresh : (hostOps0_42 : List (HloOp τ sig (Elt F))).Forall fun op => op.fresh = ∅ :=
  ⟨rfl, rfl, rfl, rfl⟩

/-- The references stretch 43 writes, one per operation, in order. -/
abbrev wr_43 : List (Ref sig .tc) :=
  [ main_call21_v0, main_call21_c, main_call21_v1, main_call21_c_0, main_call21_v2, main_call21_v3, main_call21_v4, main_call21_c_1,
    main_call21_v5, main_call21_v6, main_call21_c_2, main_call21_v7, main_call21_v8, main_call21_c_3, main_call21_v9, main_call21_v10,
    main_call21_v11, main_call21_v12, main_call21_v13, main_call21_v14, main_v1218 ]
set_option maxHeartbeats 40000000 in
/-- Operation by operation, stretch 43 writes exactly those. -/
theorem hostOps0_43_wr : List.Forall₂ (fun op r => op.writes = {Proc.devRef (τ := τ) .tc r}) (hostOps0_43 : List (HloOp τ sig (Elt F))) wr_43 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))
/-- Stretch 43 writes only those. -/
theorem hostOps0_43_writes : (hostOps0_43 : List (HloOp τ sig (Elt F))).Forall fun op => op.writes ⊆ ((wr_43).map (Proc.devRef (τ := τ) .tc)).toFinset :=
  writes_sub_of_forall₂ hostOps0_43_wr
set_option maxHeartbeats 40000000 in
/-- No operation of stretch 43 allocates a buffer. -/
theorem hostOps0_43_fresh : (hostOps0_43 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩

/-- The references stretch 44 writes, one per operation, in order. -/
abbrev wr_44 : List (Ref sig .tc) :=
  [ main_c_290, main_v1219, main_v1220, main_v1221, main_v1222, main_v1223, main_v1224, main_v1225,
    main_v1226, main_v1227, main_v1228, main_cst_291, main_v1229, main_v1230, main_cst_292, main_v1231,
    main_v1232, main_cst_293, main_v1233, main_v1234, main_v1235, main_v1236, main_cst_294, main_v1237,
    main_v1238, main_v1239, main_v1240, main_v1241, main_v1242, main_v1243, main_v1244, main_v1245,
    main_v1246, main_v1247, main_v1248, main_v1249, main_cst_295, main_v1250, main_v1251, main_cst_296,
    main_v1252, main_v1253, main_v1254, main_v1255, main_v1256, main_v1257, main_v1258, main_cst_297,
    main_v1259, main_v1260, main_cst_298, main_v1261, main_v1262, main_v1263, main_v1264, main_c_299,
    main_v1265, main_v1266, main_c_300, main_v1267, main_v1268, main_v1269, main_v1270, main_v1271,
    main_c_301, main_v1272, main_v1273, main_c_302, main_v1274, main_v1275, main_v1276, main_v1277,
    main_v1278, main_c_303, main_v1279, main_v1280, main_c_304, main_v1281, main_v1282, main_v1283,
    main_v1284, main_v1285, main_v1286, main_v1287, main_v1288, main_v1289, main_v1290 ]
set_option maxHeartbeats 40000000 in
/-- Operation by operation, stretch 44 writes exactly those. -/
theorem hostOps0_44_wr : List.Forall₂ (fun op r => op.writes = {Proc.devRef (τ := τ) .tc r}) (hostOps0_44 : List (HloOp τ sig (Elt F))) wr_44 :=
  (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl .nil)))))))))))))))))))))))))))))))))))))))))))))))))))))))))))))))))))))))))))))))))))))))
/-- Stretch 44 writes only those. -/
theorem hostOps0_44_writes : (hostOps0_44 : List (HloOp τ sig (Elt F))).Forall fun op => op.writes ⊆ ((wr_44).map (Proc.devRef (τ := τ) .tc)).toFinset :=
  writes_sub_of_forall₂ hostOps0_44_wr
set_option maxHeartbeats 40000000 in
/-- No operation of stretch 44 allocates a buffer. -/
theorem hostOps0_44_fresh : (hostOps0_44 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- The stretches, in order. -/
abbrev items : List (List (HloOp τ sig (Elt F))) :=
  [ hostOps0, hostOps0_1, hostOps0_2, hostOps0_3, hostOps0_4, hostOps0_5, hostOps0_6, hostOps0_7,
    hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23,
    hostOps0_24, hostOps0_25, hostOps0_26, hostOps0_27, hostOps0_28, hostOps0_29, hostOps0_30, hostOps0_31,
    hostOps0_32, hostOps0_33, hostOps0_34, hostOps0_35, hostOps0_36, hostOps0_37, hostOps0_38, hostOps0_39,
    hostOps0_40, hostOps0_41, hostOps0_42, hostOps0_43, hostOps0_44 ]
/-- Every operation of every stretch touches TensorCore references only. -/
theorem items_sub : (items (F := F)).flatten.Forall fun op => op.bufs ⊆ tcRefs τ sig :=
  forall_flatten _ ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub, hostOps0_20_sub, hostOps0_21_sub, hostOps0_22_sub, hostOps0_23_sub, hostOps0_24_sub, hostOps0_25_sub, hostOps0_26_sub, hostOps0_27_sub, hostOps0_28_sub, hostOps0_29_sub, hostOps0_30_sub, hostOps0_31_sub, hostOps0_32_sub, hostOps0_33_sub, hostOps0_34_sub, hostOps0_35_sub, hostOps0_36_sub, hostOps0_37_sub, hostOps0_38_sub, hostOps0_39_sub, hostOps0_40_sub, hostOps0_41_sub, hostOps0_42_sub, hostOps0_43_sub, hostOps0_44_sub⟩
/-- No operation of any stretch allocates a buffer. -/
theorem items_fresh : (items (F := F)).flatten.Forall fun op => op.fresh = ∅ :=
  forall_flatten _ ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh, hostOps0_20_fresh, hostOps0_21_fresh, hostOps0_22_fresh, hostOps0_23_fresh, hostOps0_24_fresh, hostOps0_25_fresh, hostOps0_26_fresh, hostOps0_27_fresh, hostOps0_28_fresh, hostOps0_29_fresh, hostOps0_30_fresh, hostOps0_31_fresh, hostOps0_32_fresh, hostOps0_33_fresh, hostOps0_34_fresh, hostOps0_35_fresh, hostOps0_36_fresh, hostOps0_37_fresh, hostOps0_38_fresh, hostOps0_39_fresh, hostOps0_40_fresh, hostOps0_41_fresh, hostOps0_42_fresh, hostOps0_43_fresh, hostOps0_44_fresh⟩

/-! ## The buffer contents after each stretch: a literal chain of folds from the launch contents -/

/-- The device's buffer contents at launch. -/
def R0 (m : (ℓ : Loc nD τ sig) → Buf (Elt F) ℓ) (c : Dev nD) : Valuation τ sig (Elt F) := launchContents m c
theorem R0_eq (m : (ℓ : Loc nD τ sig) → Buf (Elt F) ℓ) (c : Dev nD) : R0 m c = launchContents m c := rfl

/-- The device's buffer contents after stretch 0. -/
def R1 (m : (ℓ : Loc nD τ sig) → Buf (Elt F) ℓ) (c : Dev nD) : Valuation τ sig (Elt F) := after hostOps0 (R0 m c)
theorem R1_eq (m : (ℓ : Loc nD τ sig) → Buf (Elt F) ℓ) (c : Dev nD) : R1 m c = after hostOps0 (R0 m c) := rfl
/-- A reference stretch 0 does not write holds after it what it held before. -/
theorem R1_keep (m : (ℓ : Loc nD τ sig) → Buf (Elt F) ℓ) (c : Dev nD) {r : Ref sig .tc} (hr : r ∉ wr_0) :
    R1 m c (Proc.devRef .tc r) = R0 m c (Proc.devRef .tc r) :=
  after_of_writes_sub hostOps0 (R0 m c) hostOps0_writes hr

/-- The device's buffer contents after stretch 1. -/
def R2 (m : (ℓ : Loc nD τ sig) → Buf (Elt F) ℓ) (c : Dev nD) : Valuation τ sig (Elt F) := after hostOps0_1 (R1 m c)
theorem R2_eq (m : (ℓ : Loc nD τ sig) → Buf (Elt F) ℓ) (c : Dev nD) : R2 m c = after hostOps0_1 (R1 m c) := rfl
/-- A reference stretch 1 does not write holds after it what it held before. -/
theorem R2_keep (m : (ℓ : Loc nD τ sig) → Buf (Elt F) ℓ) (c : Dev nD) {r : Ref sig .tc} (hr : r ∉ wr_1) :
    R2 m c (Proc.devRef .tc r) = R1 m c (Proc.devRef .tc r) :=
  after_of_writes_sub hostOps0_1 (R1 m c) hostOps0_1_writes hr

/-- The device's buffer contents after stretch 2. -/
def R3 (m : (ℓ : Loc nD τ sig) → Buf (Elt F) ℓ) (c : Dev nD) : Valuation τ sig (Elt F) := after hostOps0_2 (R2 m c)
theorem R3_eq (m : (ℓ : Loc nD τ sig) → Buf (Elt F) ℓ) (c : Dev nD) : R3 m c = after hostOps0_2 (R2 m c) := rfl
/-- A reference stretch 2 does not write holds after it what it held before. -/
theorem R3_keep (m : (ℓ : Loc nD τ sig) → Buf (Elt F) ℓ) (c : Dev nD) {r : Ref sig .tc} (hr : r ∉ wr_2) :
    R3 m c (Proc.devRef .tc r) = R2 m c (Proc.devRef .tc r) :=
  after_of_writes_sub hostOps0_2 (R2 m c) hostOps0_2_writes hr

/-- The device's buffer contents after stretch 3. -/
def R4 (m : (ℓ : Loc nD τ sig) → Buf (Elt F) ℓ) (c : Dev nD) : Valuation τ sig (Elt F) := after hostOps0_3 (R3 m c)
theorem R4_eq (m : (ℓ : Loc nD τ sig) → Buf (Elt F) ℓ) (c : Dev nD) : R4 m c = after hostOps0_3 (R3 m c) := rfl
/-- A reference stretch 3 does not write holds after it what it held before. -/
theorem R4_keep (m : (ℓ : Loc nD τ sig) → Buf (Elt F) ℓ) (c : Dev nD) {r : Ref sig .tc} (hr : r ∉ wr_3) :
    R4 m c (Proc.devRef .tc r) = R3 m c (Proc.devRef .tc r) :=
  after_of_writes_sub hostOps0_3 (R3 m c) hostOps0_3_writes hr

/-- The device's buffer contents after stretch 4. -/
def R5 (m : (ℓ : Loc nD τ sig) → Buf (Elt F) ℓ) (c : Dev nD) : Valuation τ sig (Elt F) := after hostOps0_4 (R4 m c)
theorem R5_eq (m : (ℓ : Loc nD τ sig) → Buf (Elt F) ℓ) (c : Dev nD) : R5 m c = after hostOps0_4 (R4 m c) := rfl
/-- A reference stretch 4 does not write holds after it what it held before. -/
theorem R5_keep (m : (ℓ : Loc nD τ sig) → Buf (Elt F) ℓ) (c : Dev nD) {r : Ref sig .tc} (hr : r ∉ wr_4) :
    R5 m c (Proc.devRef .tc r) = R4 m c (Proc.devRef .tc r) :=
  after_of_writes_sub hostOps0_4 (R4 m c) hostOps0_4_writes hr

/-- The device's buffer contents after stretch 5. -/
def R6 (m : (ℓ : Loc nD τ sig) → Buf (Elt F) ℓ) (c : Dev nD) : Valuation τ sig (Elt F) := after hostOps0_5 (R5 m c)
theorem R6_eq (m : (ℓ : Loc nD τ sig) → Buf (Elt F) ℓ) (c : Dev nD) : R6 m c = after hostOps0_5 (R5 m c) := rfl
/-- A reference stretch 5 does not write holds after it what it held before. -/
theorem R6_keep (m : (ℓ : Loc nD τ sig) → Buf (Elt F) ℓ) (c : Dev nD) {r : Ref sig .tc} (hr : r ∉ wr_5) :
    R6 m c (Proc.devRef .tc r) = R5 m c (Proc.devRef .tc r) :=
  after_of_writes_sub hostOps0_5 (R5 m c) hostOps0_5_writes hr

/-- The device's buffer contents after stretch 6. -/
def R7 (m : (ℓ : Loc nD τ sig) → Buf (Elt F) ℓ) (c : Dev nD) : Valuation τ sig (Elt F) := after hostOps0_6 (R6 m c)
theorem R7_eq (m : (ℓ : Loc nD τ sig) → Buf (Elt F) ℓ) (c : Dev nD) : R7 m c = after hostOps0_6 (R6 m c) := rfl
/-- A reference stretch 6 does not write holds after it what it held before. -/
theorem R7_keep (m : (ℓ : Loc nD τ sig) → Buf (Elt F) ℓ) (c : Dev nD) {r : Ref sig .tc} (hr : r ∉ wr_6) :
    R7 m c (Proc.devRef .tc r) = R6 m c (Proc.devRef .tc r) :=
  after_of_writes_sub hostOps0_6 (R6 m c) hostOps0_6_writes hr

/-- The device's buffer contents after stretch 7. -/
def R8 (m : (ℓ : Loc nD τ sig) → Buf (Elt F) ℓ) (c : Dev nD) : Valuation τ sig (Elt F) := after hostOps0_7 (R7 m c)
theorem R8_eq (m : (ℓ : Loc nD τ sig) → Buf (Elt F) ℓ) (c : Dev nD) : R8 m c = after hostOps0_7 (R7 m c) := rfl
/-- A reference stretch 7 does not write holds after it what it held before. -/
theorem R8_keep (m : (ℓ : Loc nD τ sig) → Buf (Elt F) ℓ) (c : Dev nD) {r : Ref sig .tc} (hr : r ∉ wr_7) :
    R8 m c (Proc.devRef .tc r) = R7 m c (Proc.devRef .tc r) :=
  after_of_writes_sub hostOps0_7 (R7 m c) hostOps0_7_writes hr

/-- The device's buffer contents after stretch 8. -/
def R9 (m : (ℓ : Loc nD τ sig) → Buf (Elt F) ℓ) (c : Dev nD) : Valuation τ sig (Elt F) := after hostOps0_8 (R8 m c)
theorem R9_eq (m : (ℓ : Loc nD τ sig) → Buf (Elt F) ℓ) (c : Dev nD) : R9 m c = after hostOps0_8 (R8 m c) := rfl
/-- A reference stretch 8 does not write holds after it what it held before. -/
theorem R9_keep (m : (ℓ : Loc nD τ sig) → Buf (Elt F) ℓ) (c : Dev nD) {r : Ref sig .tc} (hr : r ∉ wr_8) :
    R9 m c (Proc.devRef .tc r) = R8 m c (Proc.devRef .tc r) :=
  after_of_writes_sub hostOps0_8 (R8 m c) hostOps0_8_writes hr

/-- The device's buffer contents after stretch 9. -/
def R10 (m : (ℓ : Loc nD τ sig) → Buf (Elt F) ℓ) (c : Dev nD) : Valuation τ sig (Elt F) := after hostOps0_9 (R9 m c)
theorem R10_eq (m : (ℓ : Loc nD τ sig) → Buf (Elt F) ℓ) (c : Dev nD) : R10 m c = after hostOps0_9 (R9 m c) := rfl
/-- A reference stretch 9 does not write holds after it what it held before. -/
theorem R10_keep (m : (ℓ : Loc nD τ sig) → Buf (Elt F) ℓ) (c : Dev nD) {r : Ref sig .tc} (hr : r ∉ wr_9) :
    R10 m c (Proc.devRef .tc r) = R9 m c (Proc.devRef .tc r) :=
  after_of_writes_sub hostOps0_9 (R9 m c) hostOps0_9_writes hr

/-- The device's buffer contents after stretch 10. -/
def R11 (m : (ℓ : Loc nD τ sig) → Buf (Elt F) ℓ) (c : Dev nD) : Valuation τ sig (Elt F) := after hostOps0_10 (R10 m c)
theorem R11_eq (m : (ℓ : Loc nD τ sig) → Buf (Elt F) ℓ) (c : Dev nD) : R11 m c = after hostOps0_10 (R10 m c) := rfl
/-- A reference stretch 10 does not write holds after it what it held before. -/
theorem R11_keep (m : (ℓ : Loc nD τ sig) → Buf (Elt F) ℓ) (c : Dev nD) {r : Ref sig .tc} (hr : r ∉ wr_10) :
    R11 m c (Proc.devRef .tc r) = R10 m c (Proc.devRef .tc r) :=
  after_of_writes_sub hostOps0_10 (R10 m c) hostOps0_10_writes hr

/-- The device's buffer contents after stretch 11. -/
def R12 (m : (ℓ : Loc nD τ sig) → Buf (Elt F) ℓ) (c : Dev nD) : Valuation τ sig (Elt F) := after hostOps0_11 (R11 m c)
theorem R12_eq (m : (ℓ : Loc nD τ sig) → Buf (Elt F) ℓ) (c : Dev nD) : R12 m c = after hostOps0_11 (R11 m c) := rfl
/-- A reference stretch 11 does not write holds after it what it held before. -/
theorem R12_keep (m : (ℓ : Loc nD τ sig) → Buf (Elt F) ℓ) (c : Dev nD) {r : Ref sig .tc} (hr : r ∉ wr_11) :
    R12 m c (Proc.devRef .tc r) = R11 m c (Proc.devRef .tc r) :=
  after_of_writes_sub hostOps0_11 (R11 m c) hostOps0_11_writes hr

/-- The device's buffer contents after stretch 12. -/
def R13 (m : (ℓ : Loc nD τ sig) → Buf (Elt F) ℓ) (c : Dev nD) : Valuation τ sig (Elt F) := after hostOps0_12 (R12 m c)
theorem R13_eq (m : (ℓ : Loc nD τ sig) → Buf (Elt F) ℓ) (c : Dev nD) : R13 m c = after hostOps0_12 (R12 m c) := rfl
/-- A reference stretch 12 does not write holds after it what it held before. -/
theorem R13_keep (m : (ℓ : Loc nD τ sig) → Buf (Elt F) ℓ) (c : Dev nD) {r : Ref sig .tc} (hr : r ∉ wr_12) :
    R13 m c (Proc.devRef .tc r) = R12 m c (Proc.devRef .tc r) :=
  after_of_writes_sub hostOps0_12 (R12 m c) hostOps0_12_writes hr

/-- The device's buffer contents after stretch 13. -/
def R14 (m : (ℓ : Loc nD τ sig) → Buf (Elt F) ℓ) (c : Dev nD) : Valuation τ sig (Elt F) := after hostOps0_13 (R13 m c)
theorem R14_eq (m : (ℓ : Loc nD τ sig) → Buf (Elt F) ℓ) (c : Dev nD) : R14 m c = after hostOps0_13 (R13 m c) := rfl
/-- A reference stretch 13 does not write holds after it what it held before. -/
theorem R14_keep (m : (ℓ : Loc nD τ sig) → Buf (Elt F) ℓ) (c : Dev nD) {r : Ref sig .tc} (hr : r ∉ wr_13) :
    R14 m c (Proc.devRef .tc r) = R13 m c (Proc.devRef .tc r) :=
  after_of_writes_sub hostOps0_13 (R13 m c) hostOps0_13_writes hr

/-- The device's buffer contents after stretch 14. -/
def R15 (m : (ℓ : Loc nD τ sig) → Buf (Elt F) ℓ) (c : Dev nD) : Valuation τ sig (Elt F) := after hostOps0_14 (R14 m c)
theorem R15_eq (m : (ℓ : Loc nD τ sig) → Buf (Elt F) ℓ) (c : Dev nD) : R15 m c = after hostOps0_14 (R14 m c) := rfl
/-- A reference stretch 14 does not write holds after it what it held before. -/
theorem R15_keep (m : (ℓ : Loc nD τ sig) → Buf (Elt F) ℓ) (c : Dev nD) {r : Ref sig .tc} (hr : r ∉ wr_14) :
    R15 m c (Proc.devRef .tc r) = R14 m c (Proc.devRef .tc r) :=
  after_of_writes_sub hostOps0_14 (R14 m c) hostOps0_14_writes hr

/-- The device's buffer contents after stretch 15. -/
def R16 (m : (ℓ : Loc nD τ sig) → Buf (Elt F) ℓ) (c : Dev nD) : Valuation τ sig (Elt F) := after hostOps0_15 (R15 m c)
theorem R16_eq (m : (ℓ : Loc nD τ sig) → Buf (Elt F) ℓ) (c : Dev nD) : R16 m c = after hostOps0_15 (R15 m c) := rfl
/-- A reference stretch 15 does not write holds after it what it held before. -/
theorem R16_keep (m : (ℓ : Loc nD τ sig) → Buf (Elt F) ℓ) (c : Dev nD) {r : Ref sig .tc} (hr : r ∉ wr_15) :
    R16 m c (Proc.devRef .tc r) = R15 m c (Proc.devRef .tc r) :=
  after_of_writes_sub hostOps0_15 (R15 m c) hostOps0_15_writes hr

/-- The device's buffer contents after stretch 16. -/
def R17 (m : (ℓ : Loc nD τ sig) → Buf (Elt F) ℓ) (c : Dev nD) : Valuation τ sig (Elt F) := after hostOps0_16 (R16 m c)
theorem R17_eq (m : (ℓ : Loc nD τ sig) → Buf (Elt F) ℓ) (c : Dev nD) : R17 m c = after hostOps0_16 (R16 m c) := rfl
/-- A reference stretch 16 does not write holds after it what it held before. -/
theorem R17_keep (m : (ℓ : Loc nD τ sig) → Buf (Elt F) ℓ) (c : Dev nD) {r : Ref sig .tc} (hr : r ∉ wr_16) :
    R17 m c (Proc.devRef .tc r) = R16 m c (Proc.devRef .tc r) :=
  after_of_writes_sub hostOps0_16 (R16 m c) hostOps0_16_writes hr

/-- The device's buffer contents after stretch 17. -/
def R18 (m : (ℓ : Loc nD τ sig) → Buf (Elt F) ℓ) (c : Dev nD) : Valuation τ sig (Elt F) := after hostOps0_17 (R17 m c)
theorem R18_eq (m : (ℓ : Loc nD τ sig) → Buf (Elt F) ℓ) (c : Dev nD) : R18 m c = after hostOps0_17 (R17 m c) := rfl
/-- A reference stretch 17 does not write holds after it what it held before. -/
theorem R18_keep (m : (ℓ : Loc nD τ sig) → Buf (Elt F) ℓ) (c : Dev nD) {r : Ref sig .tc} (hr : r ∉ wr_17) :
    R18 m c (Proc.devRef .tc r) = R17 m c (Proc.devRef .tc r) :=
  after_of_writes_sub hostOps0_17 (R17 m c) hostOps0_17_writes hr

/-- The device's buffer contents after stretch 18. -/
def R19 (m : (ℓ : Loc nD τ sig) → Buf (Elt F) ℓ) (c : Dev nD) : Valuation τ sig (Elt F) := after hostOps0_18 (R18 m c)
theorem R19_eq (m : (ℓ : Loc nD τ sig) → Buf (Elt F) ℓ) (c : Dev nD) : R19 m c = after hostOps0_18 (R18 m c) := rfl
/-- A reference stretch 18 does not write holds after it what it held before. -/
theorem R19_keep (m : (ℓ : Loc nD τ sig) → Buf (Elt F) ℓ) (c : Dev nD) {r : Ref sig .tc} (hr : r ∉ wr_18) :
    R19 m c (Proc.devRef .tc r) = R18 m c (Proc.devRef .tc r) :=
  after_of_writes_sub hostOps0_18 (R18 m c) hostOps0_18_writes hr

/-- The device's buffer contents after stretch 19. -/
def R20 (m : (ℓ : Loc nD τ sig) → Buf (Elt F) ℓ) (c : Dev nD) : Valuation τ sig (Elt F) := after hostOps0_19 (R19 m c)
theorem R20_eq (m : (ℓ : Loc nD τ sig) → Buf (Elt F) ℓ) (c : Dev nD) : R20 m c = after hostOps0_19 (R19 m c) := rfl
/-- A reference stretch 19 does not write holds after it what it held before. -/
theorem R20_keep (m : (ℓ : Loc nD τ sig) → Buf (Elt F) ℓ) (c : Dev nD) {r : Ref sig .tc} (hr : r ∉ wr_19) :
    R20 m c (Proc.devRef .tc r) = R19 m c (Proc.devRef .tc r) :=
  after_of_writes_sub hostOps0_19 (R19 m c) hostOps0_19_writes hr

/-- The device's buffer contents after stretch 20. -/
def R21 (m : (ℓ : Loc nD τ sig) → Buf (Elt F) ℓ) (c : Dev nD) : Valuation τ sig (Elt F) := after hostOps0_20 (R20 m c)
theorem R21_eq (m : (ℓ : Loc nD τ sig) → Buf (Elt F) ℓ) (c : Dev nD) : R21 m c = after hostOps0_20 (R20 m c) := rfl
/-- A reference stretch 20 does not write holds after it what it held before. -/
theorem R21_keep (m : (ℓ : Loc nD τ sig) → Buf (Elt F) ℓ) (c : Dev nD) {r : Ref sig .tc} (hr : r ∉ wr_20) :
    R21 m c (Proc.devRef .tc r) = R20 m c (Proc.devRef .tc r) :=
  after_of_writes_sub hostOps0_20 (R20 m c) hostOps0_20_writes hr

/-- The device's buffer contents after stretch 21. -/
def R22 (m : (ℓ : Loc nD τ sig) → Buf (Elt F) ℓ) (c : Dev nD) : Valuation τ sig (Elt F) := after hostOps0_21 (R21 m c)
theorem R22_eq (m : (ℓ : Loc nD τ sig) → Buf (Elt F) ℓ) (c : Dev nD) : R22 m c = after hostOps0_21 (R21 m c) := rfl
/-- A reference stretch 21 does not write holds after it what it held before. -/
theorem R22_keep (m : (ℓ : Loc nD τ sig) → Buf (Elt F) ℓ) (c : Dev nD) {r : Ref sig .tc} (hr : r ∉ wr_21) :
    R22 m c (Proc.devRef .tc r) = R21 m c (Proc.devRef .tc r) :=
  after_of_writes_sub hostOps0_21 (R21 m c) hostOps0_21_writes hr

/-- The device's buffer contents after stretch 22. -/
def R23 (m : (ℓ : Loc nD τ sig) → Buf (Elt F) ℓ) (c : Dev nD) : Valuation τ sig (Elt F) := after hostOps0_22 (R22 m c)
theorem R23_eq (m : (ℓ : Loc nD τ sig) → Buf (Elt F) ℓ) (c : Dev nD) : R23 m c = after hostOps0_22 (R22 m c) := rfl
/-- A reference stretch 22 does not write holds after it what it held before. -/
theorem R23_keep (m : (ℓ : Loc nD τ sig) → Buf (Elt F) ℓ) (c : Dev nD) {r : Ref sig .tc} (hr : r ∉ wr_22) :
    R23 m c (Proc.devRef .tc r) = R22 m c (Proc.devRef .tc r) :=
  after_of_writes_sub hostOps0_22 (R22 m c) hostOps0_22_writes hr

/-- The device's buffer contents after stretch 23. -/
def R24 (m : (ℓ : Loc nD τ sig) → Buf (Elt F) ℓ) (c : Dev nD) : Valuation τ sig (Elt F) := after hostOps0_23 (R23 m c)
theorem R24_eq (m : (ℓ : Loc nD τ sig) → Buf (Elt F) ℓ) (c : Dev nD) : R24 m c = after hostOps0_23 (R23 m c) := rfl
/-- A reference stretch 23 does not write holds after it what it held before. -/
theorem R24_keep (m : (ℓ : Loc nD τ sig) → Buf (Elt F) ℓ) (c : Dev nD) {r : Ref sig .tc} (hr : r ∉ wr_23) :
    R24 m c (Proc.devRef .tc r) = R23 m c (Proc.devRef .tc r) :=
  after_of_writes_sub hostOps0_23 (R23 m c) hostOps0_23_writes hr

/-- The device's buffer contents after stretch 24. -/
def R25 (m : (ℓ : Loc nD τ sig) → Buf (Elt F) ℓ) (c : Dev nD) : Valuation τ sig (Elt F) := after hostOps0_24 (R24 m c)
theorem R25_eq (m : (ℓ : Loc nD τ sig) → Buf (Elt F) ℓ) (c : Dev nD) : R25 m c = after hostOps0_24 (R24 m c) := rfl
/-- A reference stretch 24 does not write holds after it what it held before. -/
theorem R25_keep (m : (ℓ : Loc nD τ sig) → Buf (Elt F) ℓ) (c : Dev nD) {r : Ref sig .tc} (hr : r ∉ wr_24) :
    R25 m c (Proc.devRef .tc r) = R24 m c (Proc.devRef .tc r) :=
  after_of_writes_sub hostOps0_24 (R24 m c) hostOps0_24_writes hr

/-- The device's buffer contents after stretch 25. -/
def R26 (m : (ℓ : Loc nD τ sig) → Buf (Elt F) ℓ) (c : Dev nD) : Valuation τ sig (Elt F) := after hostOps0_25 (R25 m c)
theorem R26_eq (m : (ℓ : Loc nD τ sig) → Buf (Elt F) ℓ) (c : Dev nD) : R26 m c = after hostOps0_25 (R25 m c) := rfl
/-- A reference stretch 25 does not write holds after it what it held before. -/
theorem R26_keep (m : (ℓ : Loc nD τ sig) → Buf (Elt F) ℓ) (c : Dev nD) {r : Ref sig .tc} (hr : r ∉ wr_25) :
    R26 m c (Proc.devRef .tc r) = R25 m c (Proc.devRef .tc r) :=
  after_of_writes_sub hostOps0_25 (R25 m c) hostOps0_25_writes hr

/-- The device's buffer contents after stretch 26. -/
def R27 (m : (ℓ : Loc nD τ sig) → Buf (Elt F) ℓ) (c : Dev nD) : Valuation τ sig (Elt F) := after hostOps0_26 (R26 m c)
theorem R27_eq (m : (ℓ : Loc nD τ sig) → Buf (Elt F) ℓ) (c : Dev nD) : R27 m c = after hostOps0_26 (R26 m c) := rfl
/-- A reference stretch 26 does not write holds after it what it held before. -/
theorem R27_keep (m : (ℓ : Loc nD τ sig) → Buf (Elt F) ℓ) (c : Dev nD) {r : Ref sig .tc} (hr : r ∉ wr_26) :
    R27 m c (Proc.devRef .tc r) = R26 m c (Proc.devRef .tc r) :=
  after_of_writes_sub hostOps0_26 (R26 m c) hostOps0_26_writes hr

/-- The device's buffer contents after stretch 27. -/
def R28 (m : (ℓ : Loc nD τ sig) → Buf (Elt F) ℓ) (c : Dev nD) : Valuation τ sig (Elt F) := after hostOps0_27 (R27 m c)
theorem R28_eq (m : (ℓ : Loc nD τ sig) → Buf (Elt F) ℓ) (c : Dev nD) : R28 m c = after hostOps0_27 (R27 m c) := rfl
/-- A reference stretch 27 does not write holds after it what it held before. -/
theorem R28_keep (m : (ℓ : Loc nD τ sig) → Buf (Elt F) ℓ) (c : Dev nD) {r : Ref sig .tc} (hr : r ∉ wr_27) :
    R28 m c (Proc.devRef .tc r) = R27 m c (Proc.devRef .tc r) :=
  after_of_writes_sub hostOps0_27 (R27 m c) hostOps0_27_writes hr

/-- The device's buffer contents after stretch 28. -/
def R29 (m : (ℓ : Loc nD τ sig) → Buf (Elt F) ℓ) (c : Dev nD) : Valuation τ sig (Elt F) := after hostOps0_28 (R28 m c)
theorem R29_eq (m : (ℓ : Loc nD τ sig) → Buf (Elt F) ℓ) (c : Dev nD) : R29 m c = after hostOps0_28 (R28 m c) := rfl
/-- A reference stretch 28 does not write holds after it what it held before. -/
theorem R29_keep (m : (ℓ : Loc nD τ sig) → Buf (Elt F) ℓ) (c : Dev nD) {r : Ref sig .tc} (hr : r ∉ wr_28) :
    R29 m c (Proc.devRef .tc r) = R28 m c (Proc.devRef .tc r) :=
  after_of_writes_sub hostOps0_28 (R28 m c) hostOps0_28_writes hr

/-- The device's buffer contents after stretch 29. -/
def R30 (m : (ℓ : Loc nD τ sig) → Buf (Elt F) ℓ) (c : Dev nD) : Valuation τ sig (Elt F) := after hostOps0_29 (R29 m c)
theorem R30_eq (m : (ℓ : Loc nD τ sig) → Buf (Elt F) ℓ) (c : Dev nD) : R30 m c = after hostOps0_29 (R29 m c) := rfl
/-- A reference stretch 29 does not write holds after it what it held before. -/
theorem R30_keep (m : (ℓ : Loc nD τ sig) → Buf (Elt F) ℓ) (c : Dev nD) {r : Ref sig .tc} (hr : r ∉ wr_29) :
    R30 m c (Proc.devRef .tc r) = R29 m c (Proc.devRef .tc r) :=
  after_of_writes_sub hostOps0_29 (R29 m c) hostOps0_29_writes hr

/-- The device's buffer contents after stretch 30. -/
def R31 (m : (ℓ : Loc nD τ sig) → Buf (Elt F) ℓ) (c : Dev nD) : Valuation τ sig (Elt F) := after hostOps0_30 (R30 m c)
theorem R31_eq (m : (ℓ : Loc nD τ sig) → Buf (Elt F) ℓ) (c : Dev nD) : R31 m c = after hostOps0_30 (R30 m c) := rfl
/-- A reference stretch 30 does not write holds after it what it held before. -/
theorem R31_keep (m : (ℓ : Loc nD τ sig) → Buf (Elt F) ℓ) (c : Dev nD) {r : Ref sig .tc} (hr : r ∉ wr_30) :
    R31 m c (Proc.devRef .tc r) = R30 m c (Proc.devRef .tc r) :=
  after_of_writes_sub hostOps0_30 (R30 m c) hostOps0_30_writes hr

/-- The device's buffer contents after stretch 31. -/
def R32 (m : (ℓ : Loc nD τ sig) → Buf (Elt F) ℓ) (c : Dev nD) : Valuation τ sig (Elt F) := after hostOps0_31 (R31 m c)
theorem R32_eq (m : (ℓ : Loc nD τ sig) → Buf (Elt F) ℓ) (c : Dev nD) : R32 m c = after hostOps0_31 (R31 m c) := rfl
/-- A reference stretch 31 does not write holds after it what it held before. -/
theorem R32_keep (m : (ℓ : Loc nD τ sig) → Buf (Elt F) ℓ) (c : Dev nD) {r : Ref sig .tc} (hr : r ∉ wr_31) :
    R32 m c (Proc.devRef .tc r) = R31 m c (Proc.devRef .tc r) :=
  after_of_writes_sub hostOps0_31 (R31 m c) hostOps0_31_writes hr

/-- The device's buffer contents after stretch 32. -/
def R33 (m : (ℓ : Loc nD τ sig) → Buf (Elt F) ℓ) (c : Dev nD) : Valuation τ sig (Elt F) := after hostOps0_32 (R32 m c)
theorem R33_eq (m : (ℓ : Loc nD τ sig) → Buf (Elt F) ℓ) (c : Dev nD) : R33 m c = after hostOps0_32 (R32 m c) := rfl
/-- A reference stretch 32 does not write holds after it what it held before. -/
theorem R33_keep (m : (ℓ : Loc nD τ sig) → Buf (Elt F) ℓ) (c : Dev nD) {r : Ref sig .tc} (hr : r ∉ wr_32) :
    R33 m c (Proc.devRef .tc r) = R32 m c (Proc.devRef .tc r) :=
  after_of_writes_sub hostOps0_32 (R32 m c) hostOps0_32_writes hr

/-- The device's buffer contents after stretch 33. -/
def R34 (m : (ℓ : Loc nD τ sig) → Buf (Elt F) ℓ) (c : Dev nD) : Valuation τ sig (Elt F) := after hostOps0_33 (R33 m c)
theorem R34_eq (m : (ℓ : Loc nD τ sig) → Buf (Elt F) ℓ) (c : Dev nD) : R34 m c = after hostOps0_33 (R33 m c) := rfl
/-- A reference stretch 33 does not write holds after it what it held before. -/
theorem R34_keep (m : (ℓ : Loc nD τ sig) → Buf (Elt F) ℓ) (c : Dev nD) {r : Ref sig .tc} (hr : r ∉ wr_33) :
    R34 m c (Proc.devRef .tc r) = R33 m c (Proc.devRef .tc r) :=
  after_of_writes_sub hostOps0_33 (R33 m c) hostOps0_33_writes hr

/-- The device's buffer contents after stretch 34. -/
def R35 (m : (ℓ : Loc nD τ sig) → Buf (Elt F) ℓ) (c : Dev nD) : Valuation τ sig (Elt F) := after hostOps0_34 (R34 m c)
theorem R35_eq (m : (ℓ : Loc nD τ sig) → Buf (Elt F) ℓ) (c : Dev nD) : R35 m c = after hostOps0_34 (R34 m c) := rfl
/-- A reference stretch 34 does not write holds after it what it held before. -/
theorem R35_keep (m : (ℓ : Loc nD τ sig) → Buf (Elt F) ℓ) (c : Dev nD) {r : Ref sig .tc} (hr : r ∉ wr_34) :
    R35 m c (Proc.devRef .tc r) = R34 m c (Proc.devRef .tc r) :=
  after_of_writes_sub hostOps0_34 (R34 m c) hostOps0_34_writes hr

/-- The device's buffer contents after stretch 35. -/
def R36 (m : (ℓ : Loc nD τ sig) → Buf (Elt F) ℓ) (c : Dev nD) : Valuation τ sig (Elt F) := after hostOps0_35 (R35 m c)
theorem R36_eq (m : (ℓ : Loc nD τ sig) → Buf (Elt F) ℓ) (c : Dev nD) : R36 m c = after hostOps0_35 (R35 m c) := rfl
/-- A reference stretch 35 does not write holds after it what it held before. -/
theorem R36_keep (m : (ℓ : Loc nD τ sig) → Buf (Elt F) ℓ) (c : Dev nD) {r : Ref sig .tc} (hr : r ∉ wr_35) :
    R36 m c (Proc.devRef .tc r) = R35 m c (Proc.devRef .tc r) :=
  after_of_writes_sub hostOps0_35 (R35 m c) hostOps0_35_writes hr

/-- The device's buffer contents after stretch 36. -/
def R37 (m : (ℓ : Loc nD τ sig) → Buf (Elt F) ℓ) (c : Dev nD) : Valuation τ sig (Elt F) := after hostOps0_36 (R36 m c)
theorem R37_eq (m : (ℓ : Loc nD τ sig) → Buf (Elt F) ℓ) (c : Dev nD) : R37 m c = after hostOps0_36 (R36 m c) := rfl
/-- A reference stretch 36 does not write holds after it what it held before. -/
theorem R37_keep (m : (ℓ : Loc nD τ sig) → Buf (Elt F) ℓ) (c : Dev nD) {r : Ref sig .tc} (hr : r ∉ wr_36) :
    R37 m c (Proc.devRef .tc r) = R36 m c (Proc.devRef .tc r) :=
  after_of_writes_sub hostOps0_36 (R36 m c) hostOps0_36_writes hr

/-- The device's buffer contents after stretch 37. -/
def R38 (m : (ℓ : Loc nD τ sig) → Buf (Elt F) ℓ) (c : Dev nD) : Valuation τ sig (Elt F) := after hostOps0_37 (R37 m c)
theorem R38_eq (m : (ℓ : Loc nD τ sig) → Buf (Elt F) ℓ) (c : Dev nD) : R38 m c = after hostOps0_37 (R37 m c) := rfl
/-- A reference stretch 37 does not write holds after it what it held before. -/
theorem R38_keep (m : (ℓ : Loc nD τ sig) → Buf (Elt F) ℓ) (c : Dev nD) {r : Ref sig .tc} (hr : r ∉ wr_37) :
    R38 m c (Proc.devRef .tc r) = R37 m c (Proc.devRef .tc r) :=
  after_of_writes_sub hostOps0_37 (R37 m c) hostOps0_37_writes hr

/-- The device's buffer contents after stretch 38. -/
def R39 (m : (ℓ : Loc nD τ sig) → Buf (Elt F) ℓ) (c : Dev nD) : Valuation τ sig (Elt F) := after hostOps0_38 (R38 m c)
theorem R39_eq (m : (ℓ : Loc nD τ sig) → Buf (Elt F) ℓ) (c : Dev nD) : R39 m c = after hostOps0_38 (R38 m c) := rfl
/-- A reference stretch 38 does not write holds after it what it held before. -/
theorem R39_keep (m : (ℓ : Loc nD τ sig) → Buf (Elt F) ℓ) (c : Dev nD) {r : Ref sig .tc} (hr : r ∉ wr_38) :
    R39 m c (Proc.devRef .tc r) = R38 m c (Proc.devRef .tc r) :=
  after_of_writes_sub hostOps0_38 (R38 m c) hostOps0_38_writes hr

/-- The device's buffer contents after stretch 39. -/
def R40 (m : (ℓ : Loc nD τ sig) → Buf (Elt F) ℓ) (c : Dev nD) : Valuation τ sig (Elt F) := after hostOps0_39 (R39 m c)
theorem R40_eq (m : (ℓ : Loc nD τ sig) → Buf (Elt F) ℓ) (c : Dev nD) : R40 m c = after hostOps0_39 (R39 m c) := rfl
/-- A reference stretch 39 does not write holds after it what it held before. -/
theorem R40_keep (m : (ℓ : Loc nD τ sig) → Buf (Elt F) ℓ) (c : Dev nD) {r : Ref sig .tc} (hr : r ∉ wr_39) :
    R40 m c (Proc.devRef .tc r) = R39 m c (Proc.devRef .tc r) :=
  after_of_writes_sub hostOps0_39 (R39 m c) hostOps0_39_writes hr

/-- The device's buffer contents after stretch 40. -/
def R41 (m : (ℓ : Loc nD τ sig) → Buf (Elt F) ℓ) (c : Dev nD) : Valuation τ sig (Elt F) := after hostOps0_40 (R40 m c)
theorem R41_eq (m : (ℓ : Loc nD τ sig) → Buf (Elt F) ℓ) (c : Dev nD) : R41 m c = after hostOps0_40 (R40 m c) := rfl
/-- A reference stretch 40 does not write holds after it what it held before. -/
theorem R41_keep (m : (ℓ : Loc nD τ sig) → Buf (Elt F) ℓ) (c : Dev nD) {r : Ref sig .tc} (hr : r ∉ wr_40) :
    R41 m c (Proc.devRef .tc r) = R40 m c (Proc.devRef .tc r) :=
  after_of_writes_sub hostOps0_40 (R40 m c) hostOps0_40_writes hr

/-- The device's buffer contents after stretch 41. -/
def R42 (m : (ℓ : Loc nD τ sig) → Buf (Elt F) ℓ) (c : Dev nD) : Valuation τ sig (Elt F) := after hostOps0_41 (R41 m c)
theorem R42_eq (m : (ℓ : Loc nD τ sig) → Buf (Elt F) ℓ) (c : Dev nD) : R42 m c = after hostOps0_41 (R41 m c) := rfl
/-- A reference stretch 41 does not write holds after it what it held before. -/
theorem R42_keep (m : (ℓ : Loc nD τ sig) → Buf (Elt F) ℓ) (c : Dev nD) {r : Ref sig .tc} (hr : r ∉ wr_41) :
    R42 m c (Proc.devRef .tc r) = R41 m c (Proc.devRef .tc r) :=
  after_of_writes_sub hostOps0_41 (R41 m c) hostOps0_41_writes hr

/-- The device's buffer contents after stretch 42. -/
def R43 (m : (ℓ : Loc nD τ sig) → Buf (Elt F) ℓ) (c : Dev nD) : Valuation τ sig (Elt F) := after hostOps0_42 (R42 m c)
theorem R43_eq (m : (ℓ : Loc nD τ sig) → Buf (Elt F) ℓ) (c : Dev nD) : R43 m c = after hostOps0_42 (R42 m c) := rfl
/-- A reference stretch 42 does not write holds after it what it held before. -/
theorem R43_keep (m : (ℓ : Loc nD τ sig) → Buf (Elt F) ℓ) (c : Dev nD) {r : Ref sig .tc} (hr : r ∉ wr_42) :
    R43 m c (Proc.devRef .tc r) = R42 m c (Proc.devRef .tc r) :=
  after_of_writes_sub hostOps0_42 (R42 m c) hostOps0_42_writes hr

/-- The device's buffer contents after stretch 43. -/
def R44 (m : (ℓ : Loc nD τ sig) → Buf (Elt F) ℓ) (c : Dev nD) : Valuation τ sig (Elt F) := after hostOps0_43 (R43 m c)
theorem R44_eq (m : (ℓ : Loc nD τ sig) → Buf (Elt F) ℓ) (c : Dev nD) : R44 m c = after hostOps0_43 (R43 m c) := rfl
/-- A reference stretch 43 does not write holds after it what it held before. -/
theorem R44_keep (m : (ℓ : Loc nD τ sig) → Buf (Elt F) ℓ) (c : Dev nD) {r : Ref sig .tc} (hr : r ∉ wr_43) :
    R44 m c (Proc.devRef .tc r) = R43 m c (Proc.devRef .tc r) :=
  after_of_writes_sub hostOps0_43 (R43 m c) hostOps0_43_writes hr

/-- The device's buffer contents after stretch 44. -/
def R45 (m : (ℓ : Loc nD τ sig) → Buf (Elt F) ℓ) (c : Dev nD) : Valuation τ sig (Elt F) := after hostOps0_44 (R44 m c)
theorem R45_eq (m : (ℓ : Loc nD τ sig) → Buf (Elt F) ℓ) (c : Dev nD) : R45 m c = after hostOps0_44 (R44 m c) := rfl
/-- A reference stretch 44 does not write holds after it what it held before. -/
theorem R45_keep (m : (ℓ : Loc nD τ sig) → Buf (Elt F) ℓ) (c : Dev nD) {r : Ref sig .tc} (hr : r ∉ wr_44) :
    R45 m c (Proc.devRef .tc r) = R44 m c (Proc.devRef .tc r) :=
  after_of_writes_sub hostOps0_44 (R44 m c) hostOps0_44_writes hr

/-- The contents after the last stretch are the fold of all the stretches' operations over the launch contents. -/
theorem R45_eq_after (m : (ℓ : Loc nD τ sig) → Buf (Elt F) ℓ) (c : Dev nD) : R45 m c = after (items (F := F)).flatten (launchContents m c) := by
  rw [← afterAll_eq_after_flatten]
  simp only [R45_eq, R44_eq, R43_eq, R42_eq, R41_eq, R40_eq, R39_eq, R38_eq, R37_eq, R36_eq, R35_eq, R34_eq, R33_eq, R32_eq, R31_eq, R30_eq, R29_eq, R28_eq, R27_eq, R26_eq, R25_eq, R24_eq, R23_eq, R22_eq, R21_eq, R20_eq, R19_eq, R18_eq, R17_eq, R16_eq, R15_eq, R14_eq, R13_eq, R12_eq, R11_eq, R10_eq, R9_eq, R8_eq, R7_eq, R6_eq, R5_eq, R4_eq, R3_eq, R2_eq, R1_eq, R0_eq, items, afterAll_cons, afterAll_nil]

/-! ## The arguments: no stretch writes one, so each holds at the end what it held at launch -/

theorem R45_arg0 (m : (ℓ : Loc nD τ sig) → Buf (Elt F) ℓ) (c : Dev nD) : R45 m c (Proc.devRef .tc main_arg0) = m ((c.tc : Thread nD τ).loc main_arg0) :=
  (R45_keep m c (r := main_arg0) (by decide)).trans <|
    (R44_keep m c (r := main_arg0) (by decide)).trans <|
    (R43_keep m c (r := main_arg0) (by decide)).trans <|
    (R42_keep m c (r := main_arg0) (by decide)).trans <|
    (R41_keep m c (r := main_arg0) (by decide)).trans <|
    (R40_keep m c (r := main_arg0) (by decide)).trans <|
    (R39_keep m c (r := main_arg0) (by decide)).trans <|
    (R38_keep m c (r := main_arg0) (by decide)).trans <|
    (R37_keep m c (r := main_arg0) (by decide)).trans <|
    (R36_keep m c (r := main_arg0) (by decide)).trans <|
    (R35_keep m c (r := main_arg0) (by decide)).trans <|
    (R34_keep m c (r := main_arg0) (by decide)).trans <|
    (R33_keep m c (r := main_arg0) (by decide)).trans <|
    (R32_keep m c (r := main_arg0) (by decide)).trans <|
    (R31_keep m c (r := main_arg0) (by decide)).trans <|
    (R30_keep m c (r := main_arg0) (by decide)).trans <|
    (R29_keep m c (r := main_arg0) (by decide)).trans <|
    (R28_keep m c (r := main_arg0) (by decide)).trans <|
    (R27_keep m c (r := main_arg0) (by decide)).trans <|
    (R26_keep m c (r := main_arg0) (by decide)).trans <|
    (R25_keep m c (r := main_arg0) (by decide)).trans <|
    (R24_keep m c (r := main_arg0) (by decide)).trans <|
    (R23_keep m c (r := main_arg0) (by decide)).trans <|
    (R22_keep m c (r := main_arg0) (by decide)).trans <|
    (R21_keep m c (r := main_arg0) (by decide)).trans <|
    (R20_keep m c (r := main_arg0) (by decide)).trans <|
    (R19_keep m c (r := main_arg0) (by decide)).trans <|
    (R18_keep m c (r := main_arg0) (by decide)).trans <|
    (R17_keep m c (r := main_arg0) (by decide)).trans <|
    (R16_keep m c (r := main_arg0) (by decide)).trans <|
    (R15_keep m c (r := main_arg0) (by decide)).trans <|
    (R14_keep m c (r := main_arg0) (by decide)).trans <|
    (R13_keep m c (r := main_arg0) (by decide)).trans <|
    (R12_keep m c (r := main_arg0) (by decide)).trans <|
    (R11_keep m c (r := main_arg0) (by decide)).trans <|
    (R10_keep m c (r := main_arg0) (by decide)).trans <|
    (R9_keep m c (r := main_arg0) (by decide)).trans <|
    (R8_keep m c (r := main_arg0) (by decide)).trans <|
    (R7_keep m c (r := main_arg0) (by decide)).trans <|
    (R6_keep m c (r := main_arg0) (by decide)).trans <|
    (R5_keep m c (r := main_arg0) (by decide)).trans <|
    (R4_keep m c (r := main_arg0) (by decide)).trans <|
    (R3_keep m c (r := main_arg0) (by decide)).trans <|
    (R2_keep m c (r := main_arg0) (by decide)).trans <|
    (R1_keep m c (r := main_arg0) (by decide)).trans <|
    rfl

theorem R45_arg1 (m : (ℓ : Loc nD τ sig) → Buf (Elt F) ℓ) (c : Dev nD) : R45 m c (Proc.devRef .tc main_arg1) = m ((c.tc : Thread nD τ).loc main_arg1) :=
  (R45_keep m c (r := main_arg1) (by decide)).trans <|
    (R44_keep m c (r := main_arg1) (by decide)).trans <|
    (R43_keep m c (r := main_arg1) (by decide)).trans <|
    (R42_keep m c (r := main_arg1) (by decide)).trans <|
    (R41_keep m c (r := main_arg1) (by decide)).trans <|
    (R40_keep m c (r := main_arg1) (by decide)).trans <|
    (R39_keep m c (r := main_arg1) (by decide)).trans <|
    (R38_keep m c (r := main_arg1) (by decide)).trans <|
    (R37_keep m c (r := main_arg1) (by decide)).trans <|
    (R36_keep m c (r := main_arg1) (by decide)).trans <|
    (R35_keep m c (r := main_arg1) (by decide)).trans <|
    (R34_keep m c (r := main_arg1) (by decide)).trans <|
    (R33_keep m c (r := main_arg1) (by decide)).trans <|
    (R32_keep m c (r := main_arg1) (by decide)).trans <|
    (R31_keep m c (r := main_arg1) (by decide)).trans <|
    (R30_keep m c (r := main_arg1) (by decide)).trans <|
    (R29_keep m c (r := main_arg1) (by decide)).trans <|
    (R28_keep m c (r := main_arg1) (by decide)).trans <|
    (R27_keep m c (r := main_arg1) (by decide)).trans <|
    (R26_keep m c (r := main_arg1) (by decide)).trans <|
    (R25_keep m c (r := main_arg1) (by decide)).trans <|
    (R24_keep m c (r := main_arg1) (by decide)).trans <|
    (R23_keep m c (r := main_arg1) (by decide)).trans <|
    (R22_keep m c (r := main_arg1) (by decide)).trans <|
    (R21_keep m c (r := main_arg1) (by decide)).trans <|
    (R20_keep m c (r := main_arg1) (by decide)).trans <|
    (R19_keep m c (r := main_arg1) (by decide)).trans <|
    (R18_keep m c (r := main_arg1) (by decide)).trans <|
    (R17_keep m c (r := main_arg1) (by decide)).trans <|
    (R16_keep m c (r := main_arg1) (by decide)).trans <|
    (R15_keep m c (r := main_arg1) (by decide)).trans <|
    (R14_keep m c (r := main_arg1) (by decide)).trans <|
    (R13_keep m c (r := main_arg1) (by decide)).trans <|
    (R12_keep m c (r := main_arg1) (by decide)).trans <|
    (R11_keep m c (r := main_arg1) (by decide)).trans <|
    (R10_keep m c (r := main_arg1) (by decide)).trans <|
    (R9_keep m c (r := main_arg1) (by decide)).trans <|
    (R8_keep m c (r := main_arg1) (by decide)).trans <|
    (R7_keep m c (r := main_arg1) (by decide)).trans <|
    (R6_keep m c (r := main_arg1) (by decide)).trans <|
    (R5_keep m c (r := main_arg1) (by decide)).trans <|
    (R4_keep m c (r := main_arg1) (by decide)).trans <|
    (R3_keep m c (r := main_arg1) (by decide)).trans <|
    (R2_keep m c (r := main_arg1) (by decide)).trans <|
    (R1_keep m c (r := main_arg1) (by decide)).trans <|
    rfl

theorem R45_arg2 (m : (ℓ : Loc nD τ sig) → Buf (Elt F) ℓ) (c : Dev nD) : R45 m c (Proc.devRef .tc main_arg2) = m ((c.tc : Thread nD τ).loc main_arg2) :=
  (R45_keep m c (r := main_arg2) (by decide)).trans <|
    (R44_keep m c (r := main_arg2) (by decide)).trans <|
    (R43_keep m c (r := main_arg2) (by decide)).trans <|
    (R42_keep m c (r := main_arg2) (by decide)).trans <|
    (R41_keep m c (r := main_arg2) (by decide)).trans <|
    (R40_keep m c (r := main_arg2) (by decide)).trans <|
    (R39_keep m c (r := main_arg2) (by decide)).trans <|
    (R38_keep m c (r := main_arg2) (by decide)).trans <|
    (R37_keep m c (r := main_arg2) (by decide)).trans <|
    (R36_keep m c (r := main_arg2) (by decide)).trans <|
    (R35_keep m c (r := main_arg2) (by decide)).trans <|
    (R34_keep m c (r := main_arg2) (by decide)).trans <|
    (R33_keep m c (r := main_arg2) (by decide)).trans <|
    (R32_keep m c (r := main_arg2) (by decide)).trans <|
    (R31_keep m c (r := main_arg2) (by decide)).trans <|
    (R30_keep m c (r := main_arg2) (by decide)).trans <|
    (R29_keep m c (r := main_arg2) (by decide)).trans <|
    (R28_keep m c (r := main_arg2) (by decide)).trans <|
    (R27_keep m c (r := main_arg2) (by decide)).trans <|
    (R26_keep m c (r := main_arg2) (by decide)).trans <|
    (R25_keep m c (r := main_arg2) (by decide)).trans <|
    (R24_keep m c (r := main_arg2) (by decide)).trans <|
    (R23_keep m c (r := main_arg2) (by decide)).trans <|
    (R22_keep m c (r := main_arg2) (by decide)).trans <|
    (R21_keep m c (r := main_arg2) (by decide)).trans <|
    (R20_keep m c (r := main_arg2) (by decide)).trans <|
    (R19_keep m c (r := main_arg2) (by decide)).trans <|
    (R18_keep m c (r := main_arg2) (by decide)).trans <|
    (R17_keep m c (r := main_arg2) (by decide)).trans <|
    (R16_keep m c (r := main_arg2) (by decide)).trans <|
    (R15_keep m c (r := main_arg2) (by decide)).trans <|
    (R14_keep m c (r := main_arg2) (by decide)).trans <|
    (R13_keep m c (r := main_arg2) (by decide)).trans <|
    (R12_keep m c (r := main_arg2) (by decide)).trans <|
    (R11_keep m c (r := main_arg2) (by decide)).trans <|
    (R10_keep m c (r := main_arg2) (by decide)).trans <|
    (R9_keep m c (r := main_arg2) (by decide)).trans <|
    (R8_keep m c (r := main_arg2) (by decide)).trans <|
    (R7_keep m c (r := main_arg2) (by decide)).trans <|
    (R6_keep m c (r := main_arg2) (by decide)).trans <|
    (R5_keep m c (r := main_arg2) (by decide)).trans <|
    (R4_keep m c (r := main_arg2) (by decide)).trans <|
    (R3_keep m c (r := main_arg2) (by decide)).trans <|
    (R2_keep m c (r := main_arg2) (by decide)).trans <|
    (R1_keep m c (r := main_arg2) (by decide)).trans <|
    rfl

theorem R45_arg3 (m : (ℓ : Loc nD τ sig) → Buf (Elt F) ℓ) (c : Dev nD) : R45 m c (Proc.devRef .tc main_arg3) = m ((c.tc : Thread nD τ).loc main_arg3) :=
  (R45_keep m c (r := main_arg3) (by decide)).trans <|
    (R44_keep m c (r := main_arg3) (by decide)).trans <|
    (R43_keep m c (r := main_arg3) (by decide)).trans <|
    (R42_keep m c (r := main_arg3) (by decide)).trans <|
    (R41_keep m c (r := main_arg3) (by decide)).trans <|
    (R40_keep m c (r := main_arg3) (by decide)).trans <|
    (R39_keep m c (r := main_arg3) (by decide)).trans <|
    (R38_keep m c (r := main_arg3) (by decide)).trans <|
    (R37_keep m c (r := main_arg3) (by decide)).trans <|
    (R36_keep m c (r := main_arg3) (by decide)).trans <|
    (R35_keep m c (r := main_arg3) (by decide)).trans <|
    (R34_keep m c (r := main_arg3) (by decide)).trans <|
    (R33_keep m c (r := main_arg3) (by decide)).trans <|
    (R32_keep m c (r := main_arg3) (by decide)).trans <|
    (R31_keep m c (r := main_arg3) (by decide)).trans <|
    (R30_keep m c (r := main_arg3) (by decide)).trans <|
    (R29_keep m c (r := main_arg3) (by decide)).trans <|
    (R28_keep m c (r := main_arg3) (by decide)).trans <|
    (R27_keep m c (r := main_arg3) (by decide)).trans <|
    (R26_keep m c (r := main_arg3) (by decide)).trans <|
    (R25_keep m c (r := main_arg3) (by decide)).trans <|
    (R24_keep m c (r := main_arg3) (by decide)).trans <|
    (R23_keep m c (r := main_arg3) (by decide)).trans <|
    (R22_keep m c (r := main_arg3) (by decide)).trans <|
    (R21_keep m c (r := main_arg3) (by decide)).trans <|
    (R20_keep m c (r := main_arg3) (by decide)).trans <|
    (R19_keep m c (r := main_arg3) (by decide)).trans <|
    (R18_keep m c (r := main_arg3) (by decide)).trans <|
    (R17_keep m c (r := main_arg3) (by decide)).trans <|
    (R16_keep m c (r := main_arg3) (by decide)).trans <|
    (R15_keep m c (r := main_arg3) (by decide)).trans <|
    (R14_keep m c (r := main_arg3) (by decide)).trans <|
    (R13_keep m c (r := main_arg3) (by decide)).trans <|
    (R12_keep m c (r := main_arg3) (by decide)).trans <|
    (R11_keep m c (r := main_arg3) (by decide)).trans <|
    (R10_keep m c (r := main_arg3) (by decide)).trans <|
    (R9_keep m c (r := main_arg3) (by decide)).trans <|
    (R8_keep m c (r := main_arg3) (by decide)).trans <|
    (R7_keep m c (r := main_arg3) (by decide)).trans <|
    (R6_keep m c (r := main_arg3) (by decide)).trans <|
    (R5_keep m c (r := main_arg3) (by decide)).trans <|
    (R4_keep m c (r := main_arg3) (by decide)).trans <|
    (R3_keep m c (r := main_arg3) (by decide)).trans <|
    (R2_keep m c (r := main_arg3) (by decide)).trans <|
    (R1_keep m c (r := main_arg3) (by decide)).trans <|
    rfl

theorem R45_arg4 (m : (ℓ : Loc nD τ sig) → Buf (Elt F) ℓ) (c : Dev nD) : R45 m c (Proc.devRef .tc main_arg4) = m ((c.tc : Thread nD τ).loc main_arg4) :=
  (R45_keep m c (r := main_arg4) (by decide)).trans <|
    (R44_keep m c (r := main_arg4) (by decide)).trans <|
    (R43_keep m c (r := main_arg4) (by decide)).trans <|
    (R42_keep m c (r := main_arg4) (by decide)).trans <|
    (R41_keep m c (r := main_arg4) (by decide)).trans <|
    (R40_keep m c (r := main_arg4) (by decide)).trans <|
    (R39_keep m c (r := main_arg4) (by decide)).trans <|
    (R38_keep m c (r := main_arg4) (by decide)).trans <|
    (R37_keep m c (r := main_arg4) (by decide)).trans <|
    (R36_keep m c (r := main_arg4) (by decide)).trans <|
    (R35_keep m c (r := main_arg4) (by decide)).trans <|
    (R34_keep m c (r := main_arg4) (by decide)).trans <|
    (R33_keep m c (r := main_arg4) (by decide)).trans <|
    (R32_keep m c (r := main_arg4) (by decide)).trans <|
    (R31_keep m c (r := main_arg4) (by decide)).trans <|
    (R30_keep m c (r := main_arg4) (by decide)).trans <|
    (R29_keep m c (r := main_arg4) (by decide)).trans <|
    (R28_keep m c (r := main_arg4) (by decide)).trans <|
    (R27_keep m c (r := main_arg4) (by decide)).trans <|
    (R26_keep m c (r := main_arg4) (by decide)).trans <|
    (R25_keep m c (r := main_arg4) (by decide)).trans <|
    (R24_keep m c (r := main_arg4) (by decide)).trans <|
    (R23_keep m c (r := main_arg4) (by decide)).trans <|
    (R22_keep m c (r := main_arg4) (by decide)).trans <|
    (R21_keep m c (r := main_arg4) (by decide)).trans <|
    (R20_keep m c (r := main_arg4) (by decide)).trans <|
    (R19_keep m c (r := main_arg4) (by decide)).trans <|
    (R18_keep m c (r := main_arg4) (by decide)).trans <|
    (R17_keep m c (r := main_arg4) (by decide)).trans <|
    (R16_keep m c (r := main_arg4) (by decide)).trans <|
    (R15_keep m c (r := main_arg4) (by decide)).trans <|
    (R14_keep m c (r := main_arg4) (by decide)).trans <|
    (R13_keep m c (r := main_arg4) (by decide)).trans <|
    (R12_keep m c (r := main_arg4) (by decide)).trans <|
    (R11_keep m c (r := main_arg4) (by decide)).trans <|
    (R10_keep m c (r := main_arg4) (by decide)).trans <|
    (R9_keep m c (r := main_arg4) (by decide)).trans <|
    (R8_keep m c (r := main_arg4) (by decide)).trans <|
    (R7_keep m c (r := main_arg4) (by decide)).trans <|
    (R6_keep m c (r := main_arg4) (by decide)).trans <|
    (R5_keep m c (r := main_arg4) (by decide)).trans <|
    (R4_keep m c (r := main_arg4) (by decide)).trans <|
    (R3_keep m c (r := main_arg4) (by decide)).trans <|
    (R2_keep m c (r := main_arg4) (by decide)).trans <|
    (R1_keep m c (r := main_arg4) (by decide)).trans <|
    rfl

theorem R45_arg5 (m : (ℓ : Loc nD τ sig) → Buf (Elt F) ℓ) (c : Dev nD) : R45 m c (Proc.devRef .tc main_arg5) = m ((c.tc : Thread nD τ).loc main_arg5) :=
  (R45_keep m c (r := main_arg5) (by decide)).trans <|
    (R44_keep m c (r := main_arg5) (by decide)).trans <|
    (R43_keep m c (r := main_arg5) (by decide)).trans <|
    (R42_keep m c (r := main_arg5) (by decide)).trans <|
    (R41_keep m c (r := main_arg5) (by decide)).trans <|
    (R40_keep m c (r := main_arg5) (by decide)).trans <|
    (R39_keep m c (r := main_arg5) (by decide)).trans <|
    (R38_keep m c (r := main_arg5) (by decide)).trans <|
    (R37_keep m c (r := main_arg5) (by decide)).trans <|
    (R36_keep m c (r := main_arg5) (by decide)).trans <|
    (R35_keep m c (r := main_arg5) (by decide)).trans <|
    (R34_keep m c (r := main_arg5) (by decide)).trans <|
    (R33_keep m c (r := main_arg5) (by decide)).trans <|
    (R32_keep m c (r := main_arg5) (by decide)).trans <|
    (R31_keep m c (r := main_arg5) (by decide)).trans <|
    (R30_keep m c (r := main_arg5) (by decide)).trans <|
    (R29_keep m c (r := main_arg5) (by decide)).trans <|
    (R28_keep m c (r := main_arg5) (by decide)).trans <|
    (R27_keep m c (r := main_arg5) (by decide)).trans <|
    (R26_keep m c (r := main_arg5) (by decide)).trans <|
    (R25_keep m c (r := main_arg5) (by decide)).trans <|
    (R24_keep m c (r := main_arg5) (by decide)).trans <|
    (R23_keep m c (r := main_arg5) (by decide)).trans <|
    (R22_keep m c (r := main_arg5) (by decide)).trans <|
    (R21_keep m c (r := main_arg5) (by decide)).trans <|
    (R20_keep m c (r := main_arg5) (by decide)).trans <|
    (R19_keep m c (r := main_arg5) (by decide)).trans <|
    (R18_keep m c (r := main_arg5) (by decide)).trans <|
    (R17_keep m c (r := main_arg5) (by decide)).trans <|
    (R16_keep m c (r := main_arg5) (by decide)).trans <|
    (R15_keep m c (r := main_arg5) (by decide)).trans <|
    (R14_keep m c (r := main_arg5) (by decide)).trans <|
    (R13_keep m c (r := main_arg5) (by decide)).trans <|
    (R12_keep m c (r := main_arg5) (by decide)).trans <|
    (R11_keep m c (r := main_arg5) (by decide)).trans <|
    (R10_keep m c (r := main_arg5) (by decide)).trans <|
    (R9_keep m c (r := main_arg5) (by decide)).trans <|
    (R8_keep m c (r := main_arg5) (by decide)).trans <|
    (R7_keep m c (r := main_arg5) (by decide)).trans <|
    (R6_keep m c (r := main_arg5) (by decide)).trans <|
    (R5_keep m c (r := main_arg5) (by decide)).trans <|
    (R4_keep m c (r := main_arg5) (by decide)).trans <|
    (R3_keep m c (r := main_arg5) (by decide)).trans <|
    (R2_keep m c (r := main_arg5) (by decide)).trans <|
    (R1_keep m c (r := main_arg5) (by decide)).trans <|
    rfl

theorem R45_arg6 (m : (ℓ : Loc nD τ sig) → Buf (Elt F) ℓ) (c : Dev nD) : R45 m c (Proc.devRef .tc main_arg6) = m ((c.tc : Thread nD τ).loc main_arg6) :=
  (R45_keep m c (r := main_arg6) (by decide)).trans <|
    (R44_keep m c (r := main_arg6) (by decide)).trans <|
    (R43_keep m c (r := main_arg6) (by decide)).trans <|
    (R42_keep m c (r := main_arg6) (by decide)).trans <|
    (R41_keep m c (r := main_arg6) (by decide)).trans <|
    (R40_keep m c (r := main_arg6) (by decide)).trans <|
    (R39_keep m c (r := main_arg6) (by decide)).trans <|
    (R38_keep m c (r := main_arg6) (by decide)).trans <|
    (R37_keep m c (r := main_arg6) (by decide)).trans <|
    (R36_keep m c (r := main_arg6) (by decide)).trans <|
    (R35_keep m c (r := main_arg6) (by decide)).trans <|
    (R34_keep m c (r := main_arg6) (by decide)).trans <|
    (R33_keep m c (r := main_arg6) (by decide)).trans <|
    (R32_keep m c (r := main_arg6) (by decide)).trans <|
    (R31_keep m c (r := main_arg6) (by decide)).trans <|
    (R30_keep m c (r := main_arg6) (by decide)).trans <|
    (R29_keep m c (r := main_arg6) (by decide)).trans <|
    (R28_keep m c (r := main_arg6) (by decide)).trans <|
    (R27_keep m c (r := main_arg6) (by decide)).trans <|
    (R26_keep m c (r := main_arg6) (by decide)).trans <|
    (R25_keep m c (r := main_arg6) (by decide)).trans <|
    (R24_keep m c (r := main_arg6) (by decide)).trans <|
    (R23_keep m c (r := main_arg6) (by decide)).trans <|
    (R22_keep m c (r := main_arg6) (by decide)).trans <|
    (R21_keep m c (r := main_arg6) (by decide)).trans <|
    (R20_keep m c (r := main_arg6) (by decide)).trans <|
    (R19_keep m c (r := main_arg6) (by decide)).trans <|
    (R18_keep m c (r := main_arg6) (by decide)).trans <|
    (R17_keep m c (r := main_arg6) (by decide)).trans <|
    (R16_keep m c (r := main_arg6) (by decide)).trans <|
    (R15_keep m c (r := main_arg6) (by decide)).trans <|
    (R14_keep m c (r := main_arg6) (by decide)).trans <|
    (R13_keep m c (r := main_arg6) (by decide)).trans <|
    (R12_keep m c (r := main_arg6) (by decide)).trans <|
    (R11_keep m c (r := main_arg6) (by decide)).trans <|
    (R10_keep m c (r := main_arg6) (by decide)).trans <|
    (R9_keep m c (r := main_arg6) (by decide)).trans <|
    (R8_keep m c (r := main_arg6) (by decide)).trans <|
    (R7_keep m c (r := main_arg6) (by decide)).trans <|
    (R6_keep m c (r := main_arg6) (by decide)).trans <|
    (R5_keep m c (r := main_arg6) (by decide)).trans <|
    (R4_keep m c (r := main_arg6) (by decide)).trans <|
    (R3_keep m c (r := main_arg6) (by decide)).trans <|
    (R2_keep m c (r := main_arg6) (by decide)).trans <|
    (R1_keep m c (r := main_arg6) (by decide)).trans <|
    rfl

theorem R45_arg7 (m : (ℓ : Loc nD τ sig) → Buf (Elt F) ℓ) (c : Dev nD) : R45 m c (Proc.devRef .tc main_arg7) = m ((c.tc : Thread nD τ).loc main_arg7) :=
  (R45_keep m c (r := main_arg7) (by decide)).trans <|
    (R44_keep m c (r := main_arg7) (by decide)).trans <|
    (R43_keep m c (r := main_arg7) (by decide)).trans <|
    (R42_keep m c (r := main_arg7) (by decide)).trans <|
    (R41_keep m c (r := main_arg7) (by decide)).trans <|
    (R40_keep m c (r := main_arg7) (by decide)).trans <|
    (R39_keep m c (r := main_arg7) (by decide)).trans <|
    (R38_keep m c (r := main_arg7) (by decide)).trans <|
    (R37_keep m c (r := main_arg7) (by decide)).trans <|
    (R36_keep m c (r := main_arg7) (by decide)).trans <|
    (R35_keep m c (r := main_arg7) (by decide)).trans <|
    (R34_keep m c (r := main_arg7) (by decide)).trans <|
    (R33_keep m c (r := main_arg7) (by decide)).trans <|
    (R32_keep m c (r := main_arg7) (by decide)).trans <|
    (R31_keep m c (r := main_arg7) (by decide)).trans <|
    (R30_keep m c (r := main_arg7) (by decide)).trans <|
    (R29_keep m c (r := main_arg7) (by decide)).trans <|
    (R28_keep m c (r := main_arg7) (by decide)).trans <|
    (R27_keep m c (r := main_arg7) (by decide)).trans <|
    (R26_keep m c (r := main_arg7) (by decide)).trans <|
    (R25_keep m c (r := main_arg7) (by decide)).trans <|
    (R24_keep m c (r := main_arg7) (by decide)).trans <|
    (R23_keep m c (r := main_arg7) (by decide)).trans <|
    (R22_keep m c (r := main_arg7) (by decide)).trans <|
    (R21_keep m c (r := main_arg7) (by decide)).trans <|
    (R20_keep m c (r := main_arg7) (by decide)).trans <|
    (R19_keep m c (r := main_arg7) (by decide)).trans <|
    (R18_keep m c (r := main_arg7) (by decide)).trans <|
    (R17_keep m c (r := main_arg7) (by decide)).trans <|
    (R16_keep m c (r := main_arg7) (by decide)).trans <|
    (R15_keep m c (r := main_arg7) (by decide)).trans <|
    (R14_keep m c (r := main_arg7) (by decide)).trans <|
    (R13_keep m c (r := main_arg7) (by decide)).trans <|
    (R12_keep m c (r := main_arg7) (by decide)).trans <|
    (R11_keep m c (r := main_arg7) (by decide)).trans <|
    (R10_keep m c (r := main_arg7) (by decide)).trans <|
    (R9_keep m c (r := main_arg7) (by decide)).trans <|
    (R8_keep m c (r := main_arg7) (by decide)).trans <|
    (R7_keep m c (r := main_arg7) (by decide)).trans <|
    (R6_keep m c (r := main_arg7) (by decide)).trans <|
    (R5_keep m c (r := main_arg7) (by decide)).trans <|
    (R4_keep m c (r := main_arg7) (by decide)).trans <|
    (R3_keep m c (r := main_arg7) (by decide)).trans <|
    (R2_keep m c (r := main_arg7) (by decide)).trans <|
    (R1_keep m c (r := main_arg7) (by decide)).trans <|
    rfl

theorem R45_arg8 (m : (ℓ : Loc nD τ sig) → Buf (Elt F) ℓ) (c : Dev nD) : R45 m c (Proc.devRef .tc main_arg8) = m ((c.tc : Thread nD τ).loc main_arg8) :=
  (R45_keep m c (r := main_arg8) (by decide)).trans <|
    (R44_keep m c (r := main_arg8) (by decide)).trans <|
    (R43_keep m c (r := main_arg8) (by decide)).trans <|
    (R42_keep m c (r := main_arg8) (by decide)).trans <|
    (R41_keep m c (r := main_arg8) (by decide)).trans <|
    (R40_keep m c (r := main_arg8) (by decide)).trans <|
    (R39_keep m c (r := main_arg8) (by decide)).trans <|
    (R38_keep m c (r := main_arg8) (by decide)).trans <|
    (R37_keep m c (r := main_arg8) (by decide)).trans <|
    (R36_keep m c (r := main_arg8) (by decide)).trans <|
    (R35_keep m c (r := main_arg8) (by decide)).trans <|
    (R34_keep m c (r := main_arg8) (by decide)).trans <|
    (R33_keep m c (r := main_arg8) (by decide)).trans <|
    (R32_keep m c (r := main_arg8) (by decide)).trans <|
    (R31_keep m c (r := main_arg8) (by decide)).trans <|
    (R30_keep m c (r := main_arg8) (by decide)).trans <|
    (R29_keep m c (r := main_arg8) (by decide)).trans <|
    (R28_keep m c (r := main_arg8) (by decide)).trans <|
    (R27_keep m c (r := main_arg8) (by decide)).trans <|
    (R26_keep m c (r := main_arg8) (by decide)).trans <|
    (R25_keep m c (r := main_arg8) (by decide)).trans <|
    (R24_keep m c (r := main_arg8) (by decide)).trans <|
    (R23_keep m c (r := main_arg8) (by decide)).trans <|
    (R22_keep m c (r := main_arg8) (by decide)).trans <|
    (R21_keep m c (r := main_arg8) (by decide)).trans <|
    (R20_keep m c (r := main_arg8) (by decide)).trans <|
    (R19_keep m c (r := main_arg8) (by decide)).trans <|
    (R18_keep m c (r := main_arg8) (by decide)).trans <|
    (R17_keep m c (r := main_arg8) (by decide)).trans <|
    (R16_keep m c (r := main_arg8) (by decide)).trans <|
    (R15_keep m c (r := main_arg8) (by decide)).trans <|
    (R14_keep m c (r := main_arg8) (by decide)).trans <|
    (R13_keep m c (r := main_arg8) (by decide)).trans <|
    (R12_keep m c (r := main_arg8) (by decide)).trans <|
    (R11_keep m c (r := main_arg8) (by decide)).trans <|
    (R10_keep m c (r := main_arg8) (by decide)).trans <|
    (R9_keep m c (r := main_arg8) (by decide)).trans <|
    (R8_keep m c (r := main_arg8) (by decide)).trans <|
    (R7_keep m c (r := main_arg8) (by decide)).trans <|
    (R6_keep m c (r := main_arg8) (by decide)).trans <|
    (R5_keep m c (r := main_arg8) (by decide)).trans <|
    (R4_keep m c (r := main_arg8) (by decide)).trans <|
    (R3_keep m c (r := main_arg8) (by decide)).trans <|
    (R2_keep m c (r := main_arg8) (by decide)).trans <|
    (R1_keep m c (r := main_arg8) (by decide)).trans <|
    rfl

theorem R45_arg9 (m : (ℓ : Loc nD τ sig) → Buf (Elt F) ℓ) (c : Dev nD) : R45 m c (Proc.devRef .tc main_arg9) = m ((c.tc : Thread nD τ).loc main_arg9) :=
  (R45_keep m c (r := main_arg9) (by decide)).trans <|
    (R44_keep m c (r := main_arg9) (by decide)).trans <|
    (R43_keep m c (r := main_arg9) (by decide)).trans <|
    (R42_keep m c (r := main_arg9) (by decide)).trans <|
    (R41_keep m c (r := main_arg9) (by decide)).trans <|
    (R40_keep m c (r := main_arg9) (by decide)).trans <|
    (R39_keep m c (r := main_arg9) (by decide)).trans <|
    (R38_keep m c (r := main_arg9) (by decide)).trans <|
    (R37_keep m c (r := main_arg9) (by decide)).trans <|
    (R36_keep m c (r := main_arg9) (by decide)).trans <|
    (R35_keep m c (r := main_arg9) (by decide)).trans <|
    (R34_keep m c (r := main_arg9) (by decide)).trans <|
    (R33_keep m c (r := main_arg9) (by decide)).trans <|
    (R32_keep m c (r := main_arg9) (by decide)).trans <|
    (R31_keep m c (r := main_arg9) (by decide)).trans <|
    (R30_keep m c (r := main_arg9) (by decide)).trans <|
    (R29_keep m c (r := main_arg9) (by decide)).trans <|
    (R28_keep m c (r := main_arg9) (by decide)).trans <|
    (R27_keep m c (r := main_arg9) (by decide)).trans <|
    (R26_keep m c (r := main_arg9) (by decide)).trans <|
    (R25_keep m c (r := main_arg9) (by decide)).trans <|
    (R24_keep m c (r := main_arg9) (by decide)).trans <|
    (R23_keep m c (r := main_arg9) (by decide)).trans <|
    (R22_keep m c (r := main_arg9) (by decide)).trans <|
    (R21_keep m c (r := main_arg9) (by decide)).trans <|
    (R20_keep m c (r := main_arg9) (by decide)).trans <|
    (R19_keep m c (r := main_arg9) (by decide)).trans <|
    (R18_keep m c (r := main_arg9) (by decide)).trans <|
    (R17_keep m c (r := main_arg9) (by decide)).trans <|
    (R16_keep m c (r := main_arg9) (by decide)).trans <|
    (R15_keep m c (r := main_arg9) (by decide)).trans <|
    (R14_keep m c (r := main_arg9) (by decide)).trans <|
    (R13_keep m c (r := main_arg9) (by decide)).trans <|
    (R12_keep m c (r := main_arg9) (by decide)).trans <|
    (R11_keep m c (r := main_arg9) (by decide)).trans <|
    (R10_keep m c (r := main_arg9) (by decide)).trans <|
    (R9_keep m c (r := main_arg9) (by decide)).trans <|
    (R8_keep m c (r := main_arg9) (by decide)).trans <|
    (R7_keep m c (r := main_arg9) (by decide)).trans <|
    (R6_keep m c (r := main_arg9) (by decide)).trans <|
    (R5_keep m c (r := main_arg9) (by decide)).trans <|
    (R4_keep m c (r := main_arg9) (by decide)).trans <|
    (R3_keep m c (r := main_arg9) (by decide)).trans <|
    (R2_keep m c (r := main_arg9) (by decide)).trans <|
    (R1_keep m c (r := main_arg9) (by decide)).trans <|
    rfl

end Cert.ReferenceIdeal.RefRun

end
-- ==== Proof.RefRun.lean ====
/-
  The reference program's run. Its entry function is the chain of its stretches of host operations, hence one straight
  line: their concatenation. The signature scopes no buffer and no semaphore, so from any memory with zero counters every
  weakly fair execution terminates with every TensorCore buffer at the fold of the stretches over its launch contents
  (the last of the chain of folds R0, R1, …, R45); no stretch writes an argument, so the arguments end as launched.
-/
import proofs.«419362_j66683662237734_3_alg».proof.Proof.RefOps
import proofs.«419362_j66683662237734_3_alg».proof.Proof.RefTab

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The entry function is the stretches' concatenation run as one straight line. -/
theorem main_eq (c : Dev nD) : main (F := F) c = seq (items (F := F)).flatten :=
  (main_chain c).trans (chain_map_seq items)

/-- No TensorCore buffer is scoped: every buffer is a tensor value's, in HBM. -/
theorem scopedRefs_eq : (Finset.univ.filter fun b : Ref sig .tc => b.isScoped) = ∅ :=
  Finset.filter_eq_empty_iff.mpr fun b _ => by
    rcases b with ⟨sp, i, h⟩
    cases sp <;> first | exact Bool.false_ne_true | exact i.elim0

/-- There is no semaphore, so none is scoped. -/
theorem scopedSems_eq : (Finset.univ.filter fun sm : SemLoc sig => sm.isScoped .tc) = ∅ :=
  Finset.filter_eq_empty_iff.mpr fun sm _ => by
    rcases sm with ⟨s⟩ | ⟨s⟩
    · exact s.elim0
    · exact s.elim0

/-- On every device, for any float values, from any memory with zero counters: every weakly fair execution of the entry
    function terminates, and every TensorCore buffer ends at the fold of all the stretches over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = R45 m c (Proc.devRef .tc b) :=
  (θ_run defs _ _).mono (fun _ h c b => (h c b).trans (by rw [R45_eq_after]))
    (run_seq scopedRefs_eq scopedSems_eq defs main (fun _ => (items (F := F)).flatten) main_eq (fun _ => items_sub) m ρ
      (fun _ => List.forall_iff_forall_mem.mp items_fresh))

/-- The run, with the arguments read back: they end as launched. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      ⟨(h c main_arg0).trans (R45_arg0 m c), (h c main_arg1).trans (R45_arg1 m c), (h c main_arg2).trans (R45_arg2 m c),
       (h c main_arg3).trans (R45_arg3 m c), (h c main_arg4).trans (R45_arg4 m c), (h c main_arg5).trans (R45_arg5 m c),
       (h c main_arg6).trans (R45_arg6 m c), (h c main_arg7).trans (R45_arg7 m c), (h c main_arg8).trans (R45_arg8 m c),
       (h c main_arg9).trans (R45_arg9 m c)⟩)
    (run m ρ)

end Cert.ReferenceIdeal.RefRun

end
-- ==== Proof.Spec.lean ====
/-
  The mathematics of one level of the tree recurrence, free of both programs.

  A level has `M` nodes and `Mc` children. Every child `k` is routed to a parent slot `tgt k` (or to none).
  The fused kernel passes, per node, the 512 numbers `[h | f(h) * c]` to the parent level, where
  `f(h) = logistic (h · U_f^T + b_f)` is the child's forget gate; the parent sums those rows per slot. The
  reference keeps `h` and `c` apart, sums `h` and `f(h) * c` per slot, and adds the three terms of the
  pre-activation in another order. `Inv` says the kernel's 512-wide array is the reference's pair packed that
  way; `step` carries it from the children's level to the parents', `leaf` starts it at the deepest level and
  `classify` reads the root level. Only commutativity and associativity of `+` on the extended reals are used,
  so nothing here needs finiteness.
-/
import Idealize.ShloMosaic.PureOps.Ideal
import Idealize.ShloMosaic.Lib.ValueIdx

noncomputable section

open scoped BigOperators

namespace Cert.TreeLstm

open Idealize.ShloMosaic Idealize.ShloMosaic.ValueIdx

/-- A rank-2 array of extended reals. -/
abbrev A2 (m n : Nat) : Type := (⟨2, ![m, n]⟩ : Shape).Idx → EReal
/-- A rank-1 array of extended reals. -/
abbrev A1 (n : Nat) : Type := (⟨1, ![n]⟩ : Shape).Idx → EReal

/-- Column `j` of the input gate's third of a 768-wide row. -/
abbrev c0 (j : Fin 256) : Fin 768 := ⟨j.val, by omega⟩
/-- Column `j` of the output gate's third. -/
abbrev c1 (j : Fin 256) : Fin 768 := ⟨256 + j.val, by omega⟩
/-- Column `j` of the update's third. -/
abbrev c2 (j : Fin 256) : Fin 768 := ⟨512 + j.val, by omega⟩
/-- Column `j` of the left half (`h`) of a 512-wide row. -/
abbrev lo (j : Fin 256) : Fin 512 := ⟨j.val, by omega⟩
/-- Column `j` of the right half (`f * c`) of a 512-wide row. -/
abbrev hi (j : Fin 256) : Fin 512 := ⟨256 + j.val, by omega⟩

/-- The weights, as the programs' argument arrays hold them (none transposed). -/
structure Wts where
  W : A2 768 256
  U : A2 768 256
  bI : A2 1 768
  Uf : A2 256 256
  bF : A1 256

variable {M Mc : Nat}

/-- A node's forget gate from its own `h` row: `logistic (h · U_f^T + b_f)`. -/
def fgate (w : Wts) (h : A2 M 256) (i : Fin M) (j : Fin 256) : EReal :=
  Ideal.logistic ((∑ k : Fin 256, h (ix2 i k) * w.Uf (ix2 j k)) + w.bF (ix1 j))

/-- The kernel's 512-wide level array `HC` is the pair `(h, c)` packed as `[h | f(h) * c]`. -/
def Inv (w : Wts) (HC : A2 M 512) (h c : A2 M 256) : Prop :=
  ∀ (i : Fin M) (j : Fin 256), HC (ix2 i (lo j)) = h (ix2 i j) ∧ HC (ix2 i (hi j)) = fgate w h i j * c (ix2 i j)

/-- The children routed to slot `i`. -/
abbrev kids (tgt : Fin Mc → Option (Fin M)) (i : Fin M) : Finset (Fin Mc) := Finset.univ.filter fun k => tgt k = some i

/-- ONE LEVEL. From the children's packed array to the parents': the kernel sums the packed rows per slot and
    adds `x·W^T + b` first and `h̃·U^T` second; the reference sums `h` and `f * c` apart and adds `x·W^T`,
    `h̃·U^T`, `b` in that order. The two pre-activations agree by commutativity and associativity of `+`. -/
theorem step (w : Wts) (X : A2 M 256) (tgt : Fin Mc → Option (Fin M))
    (HCin : A2 Mc 512) (hch cch : A2 Mc 256) (hin : Inv w HCin hch cch)
    (agg HCout : A2 M 512) (zk : A2 M 768) (ck hk : A2 M 256)
    (hagg : ∀ i n, agg (ix2 i n) = ∑ k ∈ kids tgt i, HCin (ix2 k n))
    (hzk : ∀ i n, zk (ix2 i n) = ((∑ k : Fin 256, X (ix2 i k) * w.W (ix2 n k)) + w.bI (ix2 0 n))
      + ∑ k : Fin 256, agg (ix2 i (lo k)) * w.U (ix2 n k))
    (hck : ∀ i j, ck (ix2 i j) = Ideal.logistic (zk (ix2 i (c0 j))) * Ideal.tanh (zk (ix2 i (c2 j))) + agg (ix2 i (hi j)))
    (hhk : ∀ i j, hk (ix2 i j) = Ideal.logistic (zk (ix2 i (c1 j))) * Ideal.tanh (ck (ix2 i j)))
    (hout : ∀ i j, HCout (ix2 i (lo j)) = hk (ix2 i j) ∧ HCout (ix2 i (hi j)) = fgate w hk i j * ck (ix2 i j))
    (ioun z : A2 M 768) (f : A2 Mc 256) (htild cagg cnew hnew : A2 M 256)
    (hioun : ∀ i n, ioun (ix2 i n) = ∑ k : Fin 256, X (ix2 i k) * w.W (ix2 n k))
    (hf : ∀ k j, f (ix2 k j) = fgate w hch k j)
    (hht : ∀ i j, htild (ix2 i j) = ∑ k ∈ kids tgt i, hch (ix2 k j))
    (hca : ∀ i j, cagg (ix2 i j) = ∑ k ∈ kids tgt i, f (ix2 k j) * cch (ix2 k j))
    (hz : ∀ i n, z (ix2 i n) = (ioun (ix2 i n) + ∑ k : Fin 256, htild (ix2 i k) * w.U (ix2 n k)) + w.bI (ix2 0 n))
    (hc : ∀ i j, cnew (ix2 i j) = Ideal.logistic (z (ix2 i (c0 j))) * Ideal.tanh (z (ix2 i (c2 j))) + cagg (ix2 i j))
    (hh : ∀ i j, hnew (ix2 i j) = Ideal.logistic (z (ix2 i (c1 j))) * Ideal.tanh (cnew (ix2 i j))) :
    Inv w HCout hnew cnew := by
  have hlo : ∀ i j, agg (ix2 i (lo j)) = htild (ix2 i j) := fun i j => by
    rw [hagg, hht]; exact Finset.sum_congr rfl fun k _ => (hin k j).1
  have hhi : ∀ i j, agg (ix2 i (hi j)) = cagg (ix2 i j) := fun i j => by
    rw [hagg, hca]; exact Finset.sum_congr rfl fun k _ => by rw [(hin k j).2, hf]
  have hzz : ∀ i n, zk (ix2 i n) = z (ix2 i n) := fun i n => by
    rw [hzk, hz, hioun]
    have : ∑ k : Fin 256, agg (ix2 i (lo k)) * w.U (ix2 n k) = ∑ k : Fin 256, htild (ix2 i k) * w.U (ix2 n k) :=
      Finset.sum_congr rfl fun k _ => by rw [hlo]
    rw [this, add_assoc, add_assoc, add_comm (w.bI (ix2 0 n))]
  have hcc : ∀ i j, ck (ix2 i j) = cnew (ix2 i j) := fun i j => by rw [hck, hc, hzz, hzz, hhi]
  have hhh : ∀ i j, hk (ix2 i j) = hnew (ix2 i j) := fun i j => by rw [hhk, hh, hzz, hcc]
  have hfun : hk = hnew := funext fun y => by rw [eq_ix2 y]; exact hhh _ _
  intro i j
  refine ⟨(hout i j).1.trans (hhh i j), ?_⟩
  rw [(hout i j).2, hcc, hfun]

/-- THE DEEPEST LEVEL: no children; the reference adds a zero cell state. -/
theorem leaf (w : Wts) (X : A2 M 256)
    (HCout : A2 M 512) (zk : A2 M 768) (ck hk : A2 M 256)
    (hzk : ∀ i n, zk (ix2 i n) = (∑ k : Fin 256, X (ix2 i k) * w.W (ix2 n k)) + w.bI (ix2 0 n))
    (hck : ∀ i j, ck (ix2 i j) = Ideal.logistic (zk (ix2 i (c0 j))) * Ideal.tanh (zk (ix2 i (c2 j))))
    (hhk : ∀ i j, hk (ix2 i j) = Ideal.logistic (zk (ix2 i (c1 j))) * Ideal.tanh (ck (ix2 i j)))
    (hout : ∀ i j, HCout (ix2 i (lo j)) = hk (ix2 i j) ∧ HCout (ix2 i (hi j)) = fgate w hk i j * ck (ix2 i j))
    (ioun z : A2 M 768) (cnew hnew : A2 M 256)
    (hioun : ∀ i n, ioun (ix2 i n) = ∑ k : Fin 256, X (ix2 i k) * w.W (ix2 n k))
    (hz : ∀ i n, z (ix2 i n) = ioun (ix2 i n) + w.bI (ix2 0 n))
    (hc : ∀ i j, cnew (ix2 i j) = Ideal.logistic (z (ix2 i (c0 j))) * Ideal.tanh (z (ix2 i (c2 j))) + 0)
    (hh : ∀ i j, hnew (ix2 i j) = Ideal.logistic (z (ix2 i (c1 j))) * Ideal.tanh (cnew (ix2 i j))) :
    Inv w HCout hnew cnew := by
  have hzz : ∀ i n, zk (ix2 i n) = z (ix2 i n) := fun i n => by rw [hzk, hz, hioun]
  have hcc : ∀ i j, ck (ix2 i j) = cnew (ix2 i j) := fun i j => by rw [hck, hc, hzz, hzz, add_zero]
  have hhh : ∀ i j, hk (ix2 i j) = hnew (ix2 i j) := fun i j => by rw [hhk, hh, hzz, hcc]
  have hfun : hk = hnew := funext fun y => by rw [eq_ix2 y]; exact hhh _ _
  intro i j
  refine ⟨(hout i j).1.trans (hhh i j), ?_⟩
  rw [(hout i j).2, hcc, hfun]

/-- THE ROOTS: both classifiers are `h_root · lin_w^T + lin_b`; the kernel reads `h_root` as the left half of the
    root level's packed array. -/
theorem classify {C : Nat} (w : Wts) (HC : A2 M 512) (h c : A2 M 256) (hinv : Inv w HC h c)
    (linw : A2 C 256) (linb : A1 C) (outk outr : A2 M C)
    (hk : ∀ i n, outk (ix2 i n) = (∑ k : Fin 256, HC (ix2 i (lo k)) * linw (ix2 n k)) + linb (ix1 n))
    (hr : ∀ i n, outr (ix2 i n) = (∑ k : Fin 256, h (ix2 i k) * linw (ix2 n k)) + linb (ix1 n)) :
    outk = outr := by
  funext y
  obtain ⟨p, q, rfl⟩ : ∃ (p : Fin M) (q : Fin C), y = ix2 p q := ⟨y 0, y 1, eq_ix2 y⟩
  rw [hk, hr]
  congr 1
  exact Finset.sum_congr rfl fun k _ => by rw [(hinv _ k).1]

/-! ## The kernel's row function, by name

What one grid point of the fused kernel computes for node `i`, written over the level's whole arrays: the
pre-activation `kerZ`, the cell state `kerC`, the hidden state `kerH`. A region's value lemma states its output
array through these names, and `stepK` / `leafK` are `step` / `leaf` with the kernel's half given in that form. -/

/-- The forget gate of a node from its `h` row. -/
def fgateRow (w : Wts) (h : Fin 256 → EReal) (j : Fin 256) : EReal :=
  Ideal.logistic ((∑ k : Fin 256, h k * w.Uf (ix2 j k)) + w.bF (ix1 j))

theorem fgate_eq (w : Wts) (h : A2 M 256) (i : Fin M) (j : Fin 256) : fgate w h i j = fgateRow w (fun k => h (ix2 i k)) j := rfl

/-- The kernel's pre-activation of node `i`, column `n`: `(x·W^T + b) + agg_h·U^T`. -/
def kerZ (w : Wts) (X : A2 M 256) (agg : A2 M 512) (i : Fin M) (n : Fin 768) : EReal :=
  ((∑ k : Fin 256, X (ix2 i k) * w.W (ix2 n k)) + w.bI (ix2 0 n)) + ∑ k : Fin 256, agg (ix2 i (lo k)) * w.U (ix2 n k)
/-- The kernel's new cell state. -/
def kerC (w : Wts) (X : A2 M 256) (agg : A2 M 512) (i : Fin M) (j : Fin 256) : EReal :=
  Ideal.logistic (kerZ w X agg i (c0 j)) * Ideal.tanh (kerZ w X agg i (c2 j)) + agg (ix2 i (hi j))
/-- The kernel's new hidden state. -/
def kerH (w : Wts) (X : A2 M 256) (agg : A2 M 512) (i : Fin M) (j : Fin 256) : EReal :=
  Ideal.logistic (kerZ w X agg i (c1 j)) * Ideal.tanh (kerC w X agg i j)

/-- The leaf kernel's pre-activation: `x·W^T + b`. -/
def leafZ (w : Wts) (X : A2 M 256) (i : Fin M) (n : Fin 768) : EReal :=
  (∑ k : Fin 256, X (ix2 i k) * w.W (ix2 n k)) + w.bI (ix2 0 n)
def leafC (w : Wts) (X : A2 M 256) (i : Fin M) (j : Fin 256) : EReal :=
  Ideal.logistic (leafZ w X i (c0 j)) * Ideal.tanh (leafZ w X i (c2 j))
def leafH (w : Wts) (X : A2 M 256) (i : Fin M) (j : Fin 256) : EReal :=
  Ideal.logistic (leafZ w X i (c1 j)) * Ideal.tanh (leafC w X i j)

/-- `step`, the kernel's half given through `kerH` / `kerC`. -/
theorem stepK (w : Wts) (X : A2 M 256) (tgt : Fin Mc → Option (Fin M))
    (HCin : A2 Mc 512) (hch cch : A2 Mc 256) (hin : Inv w HCin hch cch)
    (agg HCout : A2 M 512)
    (hagg : ∀ i n, agg (ix2 i n) = ∑ k ∈ kids tgt i, HCin (ix2 k n))
    (hout : ∀ i j, HCout (ix2 i (lo j)) = kerH w X agg i j
      ∧ HCout (ix2 i (hi j)) = fgateRow w (kerH w X agg i) j * kerC w X agg i j)
    (ioun z : A2 M 768) (f : A2 Mc 256) (htild cagg cnew hnew : A2 M 256)
    (hioun : ∀ i n, ioun (ix2 i n) = ∑ k : Fin 256, X (ix2 i k) * w.W (ix2 n k))
    (hf : ∀ k j, f (ix2 k j) = fgate w hch k j)
    (hht : ∀ i j, htild (ix2 i j) = ∑ k ∈ kids tgt i, hch (ix2 k j))
    (hca : ∀ i j, cagg (ix2 i j) = ∑ k ∈ kids tgt i, f (ix2 k j) * cch (ix2 k j))
    (hz : ∀ i n, z (ix2 i n) = (ioun (ix2 i n) + ∑ k : Fin 256, htild (ix2 i k) * w.U (ix2 n k)) + w.bI (ix2 0 n))
    (hc : ∀ i j, cnew (ix2 i j) = Ideal.logistic (z (ix2 i (c0 j))) * Ideal.tanh (z (ix2 i (c2 j))) + cagg (ix2 i j))
    (hh : ∀ i j, hnew (ix2 i j) = Ideal.logistic (z (ix2 i (c1 j))) * Ideal.tanh (cnew (ix2 i j))) :
    Inv w HCout hnew cnew :=
  step w X tgt HCin hch cch hin agg HCout (fun y => kerZ w X agg (y 0) (y 1)) (fun y => kerC w X agg (y 0) (y 1))
    (fun y => kerH w X agg (y 0) (y 1)) hagg (fun _ _ => rfl) (fun _ _ => rfl) (fun _ _ => rfl) hout
    ioun z f htild cagg cnew hnew hioun hf hht hca hz hc hh

/-- `leaf`, the kernel's half given through `leafH` / `leafC`. -/
theorem leafK (w : Wts) (X : A2 M 256) (HCout : A2 M 512)
    (hout : ∀ i j, HCout (ix2 i (lo j)) = leafH w X i j
      ∧ HCout (ix2 i (hi j)) = fgateRow w (leafH w X i) j * leafC w X i j)
    (ioun z : A2 M 768) (cnew hnew : A2 M 256)
    (hioun : ∀ i n, ioun (ix2 i n) = ∑ k : Fin 256, X (ix2 i k) * w.W (ix2 n k))
    (hz : ∀ i n, z (ix2 i n) = ioun (ix2 i n) + w.bI (ix2 0 n))
    (hc : ∀ i j, cnew (ix2 i j) = Ideal.logistic (z (ix2 i (c0 j))) * Ideal.tanh (z (ix2 i (c2 j))) + 0)
    (hh : ∀ i j, hnew (ix2 i j) = Ideal.logistic (z (ix2 i (c1 j))) * Ideal.tanh (cnew (ix2 i j))) :
    Inv w HCout hnew cnew :=
  leaf w X HCout (fun y => leafZ w X (y 0) (y 1)) (fun y => leafC w X (y 0) (y 1)) (fun y => leafH w X (y 0) (y 1))
    (fun _ _ => rfl) (fun _ _ => rfl) (fun _ _ => rfl) hout ioun z cnew hnew hioun hz hc hh

/-! ## Node numbering

Graph `b` (of 32) owns the 4095 consecutive node ids from `4095 * b`; level `d` has `nd = 2^d` nodes per graph, at
offsets `start = 2^d - 1` … . Slot `i = b * nd + j` of a level's `32 * nd` rows is node `4095 * b + start + j`. -/

/-- The node id of slot `i` of a level with `nd` nodes per graph starting at offset `start`. -/
def node (nd start M : Nat) (hM : M = 32 * nd) (hs : start + nd ≤ 4095) (i : Fin M) : Fin 131040 :=
  ⟨4095 * (i.val / nd) + start + i.val % nd, by
    have hi := i.isLt
    rcases Nat.eq_zero_or_pos nd with h0 | hpos
    · subst h0; omega
    · have h1 : i.val / nd < 32 := Nat.div_lt_of_lt_mul (by have : i.val < 32 * nd := hM ▸ hi; rwa [Nat.mul_comm] at this)
      have h2 : i.val % nd < nd := Nat.mod_lt _ hpos
      omega⟩

theorem node_val (nd start M : Nat) (hM : M = 32 * nd) (hs : start + nd ≤ 4095) (i : Fin M) :
    (node nd start M hM hs i).val = 4095 * (i.val / nd) + start + i.val % nd := rfl

/-- Distinct slots are distinct nodes. -/
theorem node_injective (nd start M : Nat) (hM : M = 32 * nd) (hs : start + nd ≤ 4095) (hpos : 0 < nd) :
    Function.Injective (node nd start M hM hs) := by
  intro i i' h
  have hv := congrArg Fin.val h
  simp only [node_val] at hv
  have h2 : i.val % nd < nd := Nat.mod_lt _ hpos
  have h2' : i'.val % nd < nd := Nat.mod_lt _ hpos
  have hq : i.val / nd = i'.val / nd := by omega
  have hr : i.val % nd = i'.val % nd := by omega
  exact Fin.ext (by rw [← Nat.div_add_mod i.val nd, ← Nat.div_add_mod i'.val nd, hq, hr])

end Cert.TreeLstm

end
-- ==== Proof.LibRows.lean ====
/-
  Row gathers and row scatters read at an index. A gather of whole rows of an `N × C` table by a column of `M`
  signed start indices reads, at `(i, j)`, the table at row `clamp (idx i)` and column `j`; a scatter of `M` whole
  rows lands row `k` at row `idx k` when that is inside the table and drops it otherwise. At the ideal instance the
  accumulating scatter is the table plus the sum of the rows that land on each row; the replacing scatter, when no two
  rows land on one row, leaves each landed row in place, so gathering with the same in-range, pairwise distinct
  indices gives the scattered rows back.
-/
import Idealize.ShloMosaic.PureOps.Ideal
import Idealize.ShloMosaic.Lib.ValueIdx

noncomputable section

open scoped BigOperators

namespace Cert.TreeLstm.Rows

open Idealize.ShloMosaic Idealize.ShloMosaic.ValueIdx

/-- The row a signed word names among `N` rows, if it is one of them (a scatter drops an update otherwise). -/
def rowTarget (N : Nat) (v : BitVec 32) : Option (Fin N) :=
  if h : 0 ≤ v.toInt ∧ v.toInt < N then some ⟨v.toInt.toNat, by omega⟩ else none

/-- The row a gather reads for a signed start index: clamped into `[0, N - 1]`. -/
def clampRow (N : Nat) (hN : 0 < N) (v : BitVec 32) : Fin N := ⟨min v.toInt.toNat (N - 1), by omega⟩

theorem clampRow_of_target {N : Nat} (hN : 0 < N) {v : BitVec 32} {r : Fin N} (h : rowTarget N v = some r) :
    clampRow N hN v = r := by
  unfold rowTarget at h
  split at h
  · rename_i hv
    obtain rfl := Option.some.inj h
    refine Fin.ext ?_
    show min v.toInt.toNat (N - 1) = v.toInt.toNat
    omega
  · exact absurd h (by simp)

/-- Two words naming the same row are the same word. -/
theorem rowTarget_inj {N : Nat} {v v' : BitVec 32} {r : Fin N} (h : rowTarget N v = some r) (h' : rowTarget N v' = some r) :
    v = v' := by
  unfold rowTarget at h h'
  split at h
  · rename_i hv
    split at h'
    · rename_i hv'
      have e : v.toInt.toNat = v'.toInt.toNat := by
        have := (Option.some.inj h).trans (Option.some.inj h').symm
        exact congrArg Fin.val this
      exact BitVec.eq_of_toInt_eq (by omega)
    · exact absurd h' (by simp)
  · exact absurd h (by simp)

variable {N M C : Nat}

/-- Dimension numbers of "take whole rows": `x[idx]` for a rank-2 table and a column of indices. -/
def IsRowGather (d : GatherDims ⟨2, ![N, C]⟩ ⟨2, ![M, 1]⟩ ⟨2, ![M, C]⟩) : Prop :=
  d.offsetDims = [1] ∧ d.collapsedSliceDims = [0] ∧ d.operandBatchingDims = [] ∧ d.startIndicesBatchingDims = []
    ∧ d.startIndexMap = [0] ∧ d.indexVectorDim = 1 ∧ d.sliceSizes = ![1, C]

/-- Dimension numbers of "take elements" of a rank-1 table by a column of indices. -/
def IsVecGather (d : GatherDims ⟨1, ![N]⟩ ⟨2, ![M, 1]⟩ ⟨1, ![M]⟩) : Prop :=
  d.offsetDims = [] ∧ d.collapsedSliceDims = [0] ∧ d.operandBatchingDims = [] ∧ d.startIndicesBatchingDims = []
    ∧ d.startIndexMap = [0] ∧ d.indexVectorDim = 1 ∧ d.sliceSizes = ![1]

/-- Dimension numbers of "put whole rows": `x.at[idx].set(v)` / `.add(v)` for a column of indices. -/
def IsRowScatter (s : ScatterDims ⟨2, ![N, C]⟩ ⟨2, ![M, 1]⟩ ⟨2, ![M, C]⟩) : Prop :=
  s.updateWindowDims = [1] ∧ s.insertedWindowDims = [0] ∧ s.scatterDimsToOperandDims = [0] ∧ s.indexVectorDim = 1

theorem gather_rows_apply {α : Type} (d : GatherDims ⟨2, ![N, C]⟩ ⟨2, ![M, 1]⟩ ⟨2, ![M, C]⟩) (hd : IsRowGather d) (hN : 0 < N)
    (x : (⟨2, ![N, C]⟩ : Shape).Idx → α) (idx : IVec ⟨2, ![M, 1]⟩ 32) (i : Fin M) (j : Fin C) :
    Host.gather d x idx (ix2 i j) = x (ix2 (clampRow N hN (idx (ix2 i 0))) j) := by
  obtain ⟨od, cd, ob, sb, sm, iv, ss, wf⟩ := d
  obtain ⟨h1, h2, h3, h4, h5, h6, h7⟩ := hd
  dsimp only at h1 h2 h3 h4 h5 h6 h7
  subst h1 h2 h3 h4 h5 h6 h7
  unfold Host.gather
  congr 1
  funext a
  refine Fin.ext ?_
  match a with
  | ⟨0, _⟩ =>
    show GatherDims.start _ (ix2 i j) idx 0 + GatherDims.batchCoord _ (ix2 i j) 0 + GatherDims.offCoord _ (ix2 i j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have hsi : GatherDims.siIdx (⟨[1], [0], [], [], [0], 1, ![1, C], wf⟩ : GatherDims ⟨2, ![N, C]⟩ ⟨2, ![M, 1]⟩ ⟨2, ![M, C]⟩) (ix2 i j)
        ⟨List.idxOf (0 : Fin 2) [0], List.idxOf_lt_length_iff.2 (List.mem_singleton.mpr rfl)⟩ = ix2 i 0 := by
      funext b; refine Fin.ext ?_
      match b with
      | ⟨0, _⟩ => rfl
      | ⟨1, _⟩ => rfl
    rw [hsi]
    rfl
  | ⟨1, _⟩ =>
    show GatherDims.start _ (ix2 i j) idx 1 + GatherDims.batchCoord _ (ix2 i j) 1 + GatherDims.offCoord _ (ix2 i j) 1 = _
    rw [GatherDims.batchCoord_eq_zero _ _ _ List.not_mem_nil]
    have hst : GatherDims.start (⟨[1], [0], [], [], [0], 1, ![1, C], wf⟩ : GatherDims ⟨2, ![N, C]⟩ ⟨2, ![M, 1]⟩ ⟨2, ![M, C]⟩) (ix2 i j) idx 1 = 0 := by
      unfold GatherDims.start
      rw [dif_neg (show (1 : Fin 2) ∉ [0] by decide)]
    rw [hst]
    simp only [Nat.add_zero, Nat.zero_add]
    rfl

theorem gather_vec_apply {α : Type} (d : GatherDims ⟨1, ![N]⟩ ⟨2, ![M, 1]⟩ ⟨1, ![M]⟩) (hd : IsVecGather d) (hN : 0 < N)
    (x : (⟨1, ![N]⟩ : Shape).Idx → α) (idx : IVec ⟨2, ![M, 1]⟩ 32) (i : Fin M) :
    Host.gather d x idx (ix1 i) = x (ix1 (clampRow N hN (idx (ix2 i 0)))) := by
  obtain ⟨od, cd, ob, sb, sm, iv, ss, wf⟩ := d
  obtain ⟨h1, h2, h3, h4, h5, h6, h7⟩ := hd
  dsimp only at h1 h2 h3 h4 h5 h6 h7
  subst h1 h2 h3 h4 h5 h6 h7
  unfold Host.gather
  congr 1
  funext a
  obtain rfl : a = 0 := Subsingleton.elim _ _
  refine Fin.ext ?_
  show GatherDims.start _ (ix1 i) idx 0 + GatherDims.batchCoord _ (ix1 i) 0 + GatherDims.offCoord _ (ix1 i) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  have hsi : GatherDims.siIdx (⟨[], [0], [], [], [0], 1, ![1], wf⟩ : GatherDims ⟨1, ![N]⟩ ⟨2, ![M, 1]⟩ ⟨1, ![M]⟩) (ix1 i)
      ⟨List.idxOf (0 : Fin 1) [0], List.idxOf_lt_length_iff.2 (List.mem_singleton.mpr rfl)⟩ = ix2 i 0 := by
    funext b; refine Fin.ext ?_
    match b with
    | ⟨0, _⟩ => rfl
    | ⟨1, _⟩ => rfl
  rw [hsi]
  rfl

/-- Where the element `(k, j)` of the rows lands: in column `j` of the row its index names, if it names one. -/
theorem resultIdx?_rows (s : ScatterDims ⟨2, ![N, C]⟩ ⟨2, ![M, 1]⟩ ⟨2, ![M, C]⟩) (hs : IsRowScatter s)
    (idx : IVec ⟨2, ![M, 1]⟩ 32) (k : Fin M) (j : Fin C) :
    s.resultIdx? (ix2 k j) idx = (rowTarget N (idx (ix2 k 0))).map fun r => ix2 r j := by
  obtain ⟨uw, iw, sd, iv, wf⟩ := s
  obtain ⟨h1, h2, h3, h4⟩ := hs
  dsimp only at h1 h2 h3 h4
  subst h1 h2 h3 h4
  have hs0 : ScatterDims.start (⟨[1], [0], [0], 1, wf⟩ : ScatterDims ⟨2, ![N, C]⟩ ⟨2, ![M, 1]⟩ ⟨2, ![M, C]⟩) (ix2 k j) idx 0
      = (idx (ix2 k 0)).toInt := by
    unfold ScatterDims.start
    rw [dif_pos (List.mem_singleton.mpr rfl)]
    have hsi : ScatterDims.siIdx (⟨[1], [0], [0], 1, wf⟩ : ScatterDims ⟨2, ![N, C]⟩ ⟨2, ![M, 1]⟩ ⟨2, ![M, C]⟩) (ix2 k j)
        ⟨List.idxOf (0 : Fin 2) [0], List.idxOf_lt_length_iff.2 (List.mem_singleton.mpr rfl)⟩ = ix2 k 0 := by
      funext b; refine Fin.ext ?_
      match b with
      | ⟨0, _⟩ => rfl
      | ⟨1, _⟩ => rfl
    rw [hsi]
  have hs1 : ScatterDims.start (⟨[1], [0], [0], 1, wf⟩ : ScatterDims ⟨2, ![N, C]⟩ ⟨2, ![M, 1]⟩ ⟨2, ![M, C]⟩) (ix2 k j) idx 1 = 0 := by
    unfold ScatterDims.start
    rw [dif_neg (show (1 : Fin 2) ∉ [0] by decide)]
  have hw0 : ScatterDims.window (⟨[1], [0], [0], 1, wf⟩ : ScatterDims ⟨2, ![N, C]⟩ ⟨2, ![M, 1]⟩ ⟨2, ![M, C]⟩) (ix2 k j) 0 = 0 := rfl
  have hw1 : ScatterDims.window (⟨[1], [0], [0], 1, wf⟩ : ScatterDims ⟨2, ![N, C]⟩ ⟨2, ![M, 1]⟩ ⟨2, ![M, C]⟩) (ix2 k j) 1 = j.val := rfl
  have hsz0 : (⟨2, ![N, C]⟩ : Shape).size 0 = N := rfl
  have hsz1 : (⟨2, ![N, C]⟩ : Shape).size 1 = C := rfl
  unfold ScatterDims.resultIdx? rowTarget
  by_cases hv : 0 ≤ (idx (ix2 k 0)).toInt ∧ (idx (ix2 k 0)).toInt < N
  · have hall : ∀ a : Fin 2, 0 ≤ ScatterDims.start (⟨[1], [0], [0], 1, wf⟩ : ScatterDims ⟨2, ![N, C]⟩ ⟨2, ![M, 1]⟩ ⟨2, ![M, C]⟩) (ix2 k j) idx a
          + (ScatterDims.window (⟨[1], [0], [0], 1, wf⟩ : ScatterDims ⟨2, ![N, C]⟩ ⟨2, ![M, 1]⟩ ⟨2, ![M, C]⟩) (ix2 k j) a : Int)
        ∧ ScatterDims.start (⟨[1], [0], [0], 1, wf⟩ : ScatterDims ⟨2, ![N, C]⟩ ⟨2, ![M, 1]⟩ ⟨2, ![M, C]⟩) (ix2 k j) idx a
          + (ScatterDims.window (⟨[1], [0], [0], 1, wf⟩ : ScatterDims ⟨2, ![N, C]⟩ ⟨2, ![M, 1]⟩ ⟨2, ![M, C]⟩) (ix2 k j) a : Int)
          < ((⟨2, ![N, C]⟩ : Shape).size a : Int) := by
      intro a
      match a with
      | ⟨0, _⟩ =>
        show 0 ≤ ScatterDims.start (⟨[1], [0], [0], 1, wf⟩ : ScatterDims ⟨2, ![N, C]⟩ ⟨2, ![M, 1]⟩ ⟨2, ![M, C]⟩) (ix2 k j) idx 0 + (ScatterDims.window (⟨[1], [0], [0], 1, wf⟩ : ScatterDims ⟨2, ![N, C]⟩ ⟨2, ![M, 1]⟩ ⟨2, ![M, C]⟩) (ix2 k j) 0 : Int)
          ∧ ScatterDims.start (⟨[1], [0], [0], 1, wf⟩ : ScatterDims ⟨2, ![N, C]⟩ ⟨2, ![M, 1]⟩ ⟨2, ![M, C]⟩) (ix2 k j) idx 0 + (ScatterDims.window (⟨[1], [0], [0], 1, wf⟩ : ScatterDims ⟨2, ![N, C]⟩ ⟨2, ![M, 1]⟩ ⟨2, ![M, C]⟩) (ix2 k j) 0 : Int) < ((⟨2, ![N, C]⟩ : Shape).size 0 : Int)
        rw [hs0, hw0, hsz0]; omega
      | ⟨1, _⟩ =>
        show 0 ≤ ScatterDims.start (⟨[1], [0], [0], 1, wf⟩ : ScatterDims ⟨2, ![N, C]⟩ ⟨2, ![M, 1]⟩ ⟨2, ![M, C]⟩) (ix2 k j) idx 1 + (ScatterDims.window (⟨[1], [0], [0], 1, wf⟩ : ScatterDims ⟨2, ![N, C]⟩ ⟨2, ![M, 1]⟩ ⟨2, ![M, C]⟩) (ix2 k j) 1 : Int)
          ∧ ScatterDims.start (⟨[1], [0], [0], 1, wf⟩ : ScatterDims ⟨2, ![N, C]⟩ ⟨2, ![M, 1]⟩ ⟨2, ![M, C]⟩) (ix2 k j) idx 1 + (ScatterDims.window (⟨[1], [0], [0], 1, wf⟩ : ScatterDims ⟨2, ![N, C]⟩ ⟨2, ![M, 1]⟩ ⟨2, ![M, C]⟩) (ix2 k j) 1 : Int) < ((⟨2, ![N, C]⟩ : Shape).size 1 : Int)
        rw [hs1, hw1, hsz1]; have := j.isLt; omega
    rw [dif_pos hall, dif_pos hv]
    show some _ = some _
    congr 1
    funext a
    refine Fin.ext ?_
    match a with
    | ⟨0, _⟩ =>
      show (ScatterDims.start (⟨[1], [0], [0], 1, wf⟩ : ScatterDims ⟨2, ![N, C]⟩ ⟨2, ![M, 1]⟩ ⟨2, ![M, C]⟩) (ix2 k j) idx 0 + (ScatterDims.window (⟨[1], [0], [0], 1, wf⟩ : ScatterDims ⟨2, ![N, C]⟩ ⟨2, ![M, 1]⟩ ⟨2, ![M, C]⟩) (ix2 k j) 0 : Int)).toNat = (idx (ix2 k 0)).toInt.toNat
      rw [hs0, hw0]; simp
    | ⟨1, _⟩ =>
      show (ScatterDims.start (⟨[1], [0], [0], 1, wf⟩ : ScatterDims ⟨2, ![N, C]⟩ ⟨2, ![M, 1]⟩ ⟨2, ![M, C]⟩) (ix2 k j) idx 1 + (ScatterDims.window (⟨[1], [0], [0], 1, wf⟩ : ScatterDims ⟨2, ![N, C]⟩ ⟨2, ![M, 1]⟩ ⟨2, ![M, C]⟩) (ix2 k j) 1 : Int)).toNat = j.val
      rw [hs1, hw1]; simp
  · have hnall : ¬ ∀ a : Fin 2, 0 ≤ ScatterDims.start (⟨[1], [0], [0], 1, wf⟩ : ScatterDims ⟨2, ![N, C]⟩ ⟨2, ![M, 1]⟩ ⟨2, ![M, C]⟩) (ix2 k j) idx a
          + (ScatterDims.window (⟨[1], [0], [0], 1, wf⟩ : ScatterDims ⟨2, ![N, C]⟩ ⟨2, ![M, 1]⟩ ⟨2, ![M, C]⟩) (ix2 k j) a : Int)
        ∧ ScatterDims.start (⟨[1], [0], [0], 1, wf⟩ : ScatterDims ⟨2, ![N, C]⟩ ⟨2, ![M, 1]⟩ ⟨2, ![M, C]⟩) (ix2 k j) idx a
          + (ScatterDims.window (⟨[1], [0], [0], 1, wf⟩ : ScatterDims ⟨2, ![N, C]⟩ ⟨2, ![M, 1]⟩ ⟨2, ![M, C]⟩) (ix2 k j) a : Int)
          < ((⟨2, ![N, C]⟩ : Shape).size a : Int) := by
      intro h
      have h0 := h 0
      rw [hs0, hw0, hsz0] at h0
      exact hv (by omega)
    rw [dif_neg hnall, dif_neg hv]
    rfl

/-- The element `(k, j')` of the rows lands on `(r, j)` exactly when its index names row `r` and `j' = j`. -/
theorem resultIdx?_rows_eq_some (s : ScatterDims ⟨2, ![N, C]⟩ ⟨2, ![M, 1]⟩ ⟨2, ![M, C]⟩) (hs : IsRowScatter s)
    (idx : IVec ⟨2, ![M, 1]⟩ 32) (k : Fin M) (j' : Fin C) (r : Fin N) (j : Fin C) :
    s.resultIdx? (ix2 k j') idx = some (ix2 r j) ↔ rowTarget N (idx (ix2 k 0)) = some r ∧ j' = j := by
  rw [resultIdx?_rows s hs]
  constructor
  · intro h
    cases ht : rowTarget N (idx (ix2 k 0)) with
    | none => rw [ht] at h; exact absurd h (by simp)
    | some r' =>
      rw [ht] at h
      have e : ix2 r' j' = ix2 r j := Option.some.inj h
      exact ⟨congrArg some (congrFun e 0), congrFun e 1⟩
  · rintro ⟨ht, rfl⟩
    rw [ht]; rfl

/-- The accumulating row scatter at the ideal instance: the table's element plus the sum, over the rows that land on
    this row, of their elements in this column. -/
theorem scatterAdd_rows_apply (s : ScatterDims ⟨2, ![N, C]⟩ ⟨2, ![M, 1]⟩ ⟨2, ![M, C]⟩) (hs : IsRowScatter s)
    (x : FVec Ideal ⟨2, ![N, C]⟩ .f32) (idx : IVec ⟨2, ![M, 1]⟩ 32) (upd : FVec Ideal ⟨2, ![M, C]⟩ .f32) (r : Fin N) (j : Fin C) :
    Host.scatterAdd (F := Ideal) s x idx upd (ix2 r j)
      = x (ix2 r j) + ∑ k ∈ Finset.univ.filter (fun k : Fin M => rowTarget N (idx (ix2 k 0)) = some r), upd (ix2 k j) := by
  show x (ix2 r j) + ∑ y ∈ Finset.univ.filter (fun y => s.resultIdx? y idx = some (ix2 r j)), upd y = _
  congr 1
  refine Finset.sum_nbij' (fun y => (idxEquiv2 y).1) (fun k => ix2 k j) ?_ ?_ ?_ ?_ ?_
  · intro y hy
    obtain ⟨k, j', rfl⟩ : ∃ (k : Fin M) (j' : Fin C), y = ix2 k j' := ⟨y 0, y 1, eq_ix2 y⟩
    rw [Finset.mem_filter] at hy ⊢
    exact ⟨Finset.mem_univ _, ((resultIdx?_rows_eq_some s hs idx k j' r j).1 hy.2).1⟩
  · intro k hk
    rw [Finset.mem_filter] at hk ⊢
    exact ⟨Finset.mem_univ _, (resultIdx?_rows_eq_some s hs idx k j r j).2 ⟨hk.2, rfl⟩⟩
  · intro y hy
    obtain ⟨k, j', rfl⟩ : ∃ (k : Fin M) (j' : Fin C), y = ix2 k j' := ⟨y 0, y 1, eq_ix2 y⟩
    rw [Finset.mem_filter] at hy
    obtain rfl := ((resultIdx?_rows_eq_some s hs idx k j' r j).1 hy.2).2
    rfl
  · intro k _
    rfl
  · intro y hy
    obtain ⟨k, j', rfl⟩ : ∃ (k : Fin M) (j' : Fin C), y = ix2 k j' := ⟨y 0, y 1, eq_ix2 y⟩
    rw [Finset.mem_filter] at hy
    obtain rfl := ((resultIdx?_rows_eq_some s hs idx k j' r j).1 hy.2).2
    rfl

/-- A left fold whose step leaves the value at `i` alone on the entries outside `P` keeps it over a list none of whose
    entries is in `P`. -/
theorem foldl_miss {ι κ α : Type} (step : (ι → α) → κ → (ι → α)) (P : κ → Prop) (i : ι)
    (hmiss : ∀ r n, ¬ P n → step r n i = r i) (l : List κ) (h : ∀ n ∈ l, ¬ P n) (x : ι → α) :
    l.foldl step x i = x i := by
  induction l generalizing x with
  | nil => rfl
  | cons a l ih =>
    rw [List.foldl_cons, ih (fun n hn => h n (List.mem_cons_of_mem a hn)), hmiss x a (h a List.mem_cons_self)]

/-- A left fold whose step writes `u n` at `i` on the entries in `P` and leaves the value at `i` alone on the others, over
    a list without repeats with exactly one entry `n₀` in `P`, ends with `u n₀` at `i`. -/
theorem foldl_hit {ι κ α : Type} (step : (ι → α) → κ → (ι → α)) (P : κ → Prop) (u : κ → α) (i : ι)
    (hhit : ∀ r n, P n → step r n i = u n) (hmiss : ∀ r n, ¬ P n → step r n i = r i)
    (n₀ : κ) (l : List κ) (hnd : l.Nodup) (hmem : n₀ ∈ l) (h₀ : P n₀) (huniq : ∀ n ∈ l, P n → n = n₀) (x : ι → α) :
    l.foldl step x i = u n₀ := by
  induction l generalizing x with
  | nil => exact absurd hmem List.not_mem_nil
  | cons a l ih =>
    rw [List.foldl_cons]
    have hnd' := List.nodup_cons.1 hnd
    by_cases ha : a = n₀
    · subst ha
      rw [foldl_miss step P i hmiss l (fun n hn hp => hnd'.1 (huniq n (List.mem_cons_of_mem a hn) hp ▸ hn)), hhit x a h₀]
    · have hm : n₀ ∈ l := by
        rcases List.mem_cons.1 hmem with h | h
        · exact absurd h.symm ha
        · exact h
      exact ih hnd'.2 hm (fun n hn => huniq n (List.mem_cons_of_mem a hn)) _

/-- A replacing scatter, read at an element that exactly one update element lands on: that update element. -/
theorem scatter_set_hit {s si u : Shape} {w : Nat} {α : Type} (d : ScatterDims s si u) (x : s.Idx → α) (idx : IVec si w)
    (upd : u.Idx → α) (i : s.Idx) (y₀ : u.Idx) (h₀ : d.resultIdx? y₀ idx = some i)
    (huniq : ∀ y, d.resultIdx? y idx = some i → y = y₀) :
    Host.scatter d (fun _ b => b) x idx upd i = upd y₀ := by
  unfold Host.scatter
  refine (foldl_hit _ (fun n => d.resultIdx? (u.rowMajor.symm n) idx = some i) (fun n => upd (u.rowMajor.symm n)) i ?_ ?_
    (u.rowMajor y₀) _ (List.nodup_finRange _) (List.mem_finRange _) ?_ ?_ x).trans ?_
  · intro r n hn
    have hn' : d.resultIdx? (u.rowMajor.symm n) idx = some i := hn
    simp only [hn']
    exact if_pos trivial
  · intro r n hn
    have hn' : ¬ d.resultIdx? (u.rowMajor.symm n) idx = some i := hn
    beta_reduce
    cases h : d.resultIdx? (u.rowMajor.symm n) idx with
    | none => rfl
    | some i' => exact if_neg (fun e => hn' (by rw [h, e]))
  · show d.resultIdx? (u.rowMajor.symm (u.rowMajor y₀)) idx = some i
    rw [Equiv.symm_apply_apply]; exact h₀
  · intro n _ hn
    have := huniq _ hn
    rw [← this, Equiv.apply_symm_apply]
  · show upd (u.rowMajor.symm (u.rowMajor y₀)) = upd y₀
    rw [Equiv.symm_apply_apply]

/-- The replacing row scatter, no two rows landing on one row: a landed row is in place. -/
theorem scatter_rows_hit {α : Type} (s : ScatterDims ⟨2, ![N, C]⟩ ⟨2, ![M, 1]⟩ ⟨2, ![M, C]⟩) (hs : IsRowScatter s)
    (x : (⟨2, ![N, C]⟩ : Shape).Idx → α) (idx : IVec ⟨2, ![M, 1]⟩ 32) (upd : (⟨2, ![M, C]⟩ : Shape).Idx → α)
    (hinj : ∀ k k' : Fin M, ∀ r : Fin N, rowTarget N (idx (ix2 k 0)) = some r → rowTarget N (idx (ix2 k' 0)) = some r → k = k')
    (k : Fin M) (r : Fin N) (hk : rowTarget N (idx (ix2 k 0)) = some r) (j : Fin C) :
    Host.scatter s (fun _ b => b) x idx upd (ix2 r j) = upd (ix2 k j) := by
  refine scatter_set_hit s x idx upd (ix2 r j) (ix2 k j) ((resultIdx?_rows_eq_some s hs idx k j r j).2 ⟨hk, rfl⟩) ?_
  intro y hy
  obtain ⟨k', j', rfl⟩ : ∃ (k' : Fin M) (j' : Fin C), y = ix2 k' j' := ⟨y 0, y 1, eq_ix2 y⟩
  obtain ⟨ht, hj⟩ := (resultIdx?_rows_eq_some s hs idx k' j' r j).1 hy
  rw [hinj k' k r ht hk, hj]

/-- Gathering with the indices just scattered with (all inside the table, pairwise distinct) gives the rows back. -/
theorem gather_scatter_rows {α : Type} (d : GatherDims ⟨2, ![N, C]⟩ ⟨2, ![M, 1]⟩ ⟨2, ![M, C]⟩) (hd : IsRowGather d)
    (s : ScatterDims ⟨2, ![N, C]⟩ ⟨2, ![M, 1]⟩ ⟨2, ![M, C]⟩) (hs : IsRowScatter s) (hN : 0 < N)
    (x : (⟨2, ![N, C]⟩ : Shape).Idx → α) (idx idx' : IVec ⟨2, ![M, 1]⟩ 32) (upd : (⟨2, ![M, C]⟩ : Shape).Idx → α)
    (hsame : ∀ k : Fin M, idx' (ix2 k 0) = idx (ix2 k 0))
    (hin : ∀ k : Fin M, ∃ r : Fin N, rowTarget N (idx (ix2 k 0)) = some r)
    (hinj : ∀ k k' : Fin M, idx (ix2 k 0) = idx (ix2 k' 0) → k = k') :
    Host.gather d (Host.scatter s (fun _ b => b) x idx upd) idx' = upd := by
  funext y
  obtain ⟨k, j, rfl⟩ : ∃ (k : Fin M) (j : Fin C), y = ix2 k j := ⟨y 0, y 1, eq_ix2 y⟩
  rw [gather_rows_apply d hd hN _ idx' k j, hsame k]
  obtain ⟨r, hr⟩ := hin k
  rw [clampRow_of_target hN hr]
  exact scatter_rows_hit s hs x idx upd (fun k₁ k₂ r' h₁ h₂ => hinj k₁ k₂ (rowTarget_inj h₁ h₂)) k r hr j

end Cert.TreeLstm.Rows

end
-- ==== Proof.LibGlue.lean ====
/-
  The per-level glue, free of both programs. Every level's rows are the nodes `node nd start` of the 131040-node
  arrays: the kernel's token rows and parent words are the shared arrays read at those nodes, the reference's
  per-level arrays are its whole-forest arrays read at those nodes, and the routing word of a child is the same
  function of the same parent words on both sides. With that, one level of either program is one use of
  `stepK`, the deepest level one use of `leafK`, and the classifier one use of `classify`.
-/
import proofs.«419362_j66683662237734_3_alg».proof.Proof.Spec
import proofs.«419362_j66683662237734_3_alg».proof.Proof.LibRows

noncomputable section

open scoped BigOperators

namespace Cert.TreeLstm.Glue

open Idealize.ShloMosaic Idealize.ShloMosaic.ValueIdx Cert.TreeLstm

/-- The reference's per-level input projection is the kernel's: both read the shared token rows at the level's nodes. -/
theorem ioun_eq {M : Nat} (nd start : Nat) (hM : M = 32 * nd) (hs : start + nd ≤ 4095) (w : Wts) (G : A2 131040 256)
    (XK : A2 M 256) (hXK : ∀ i k, XK (ix2 i k) = G (ix2 (node nd start M hM hs i) k))
    (iou : A2 131040 768) (ioun : A2 M 768)
    (hiou : ∀ a n, iou (ix2 a n) = ∑ k : Fin 256, G (ix2 a k) * w.W (ix2 n k))
    (hioun : ∀ i n, ioun (ix2 i n) = iou (ix2 (node nd start M hM hs i) n)) (i : Fin M) (n : Fin 768) :
    ioun (ix2 i n) = ∑ k : Fin 256, XK (ix2 i k) * w.W (ix2 n k) := by
  rw [hioun, hiou]
  exact Finset.sum_congr rfl fun k _ => by rw [hXK]

/-- ONE LEVEL, from what each program's side delivers: the children's arrays of the reference are the previous
    level's pair, the two routings are one function of one array of parent words, and the two input projections
    read the same token rows. -/
theorem level_glue {M Mc : Nat} (nd start ndc startc : Nat) (hM : M = 32 * nd) (hs : start + nd ≤ 4095)
    (hMc : Mc = 32 * ndc) (hsc : startc + ndc ≤ 4095) (hndc : 0 < ndc) (w : Wts)
    (G : A2 131040 256) (par : (⟨1, ![131040]⟩ : Shape).Idx → BitVec 32)
    (segFun : IVec ⟨1, ![Mc]⟩ 32 → IVec ⟨1, ![Mc]⟩ 32)
    (HCin : A2 Mc 512) (XK : A2 M 256) (pK segK : IVec ⟨1, ![Mc]⟩ 32) (agg HCout : A2 M 512)
    (hXK : ∀ i k, XK (ix2 i k) = G (ix2 (node nd start M hM hs i) k))
    (hpK : ∀ q, pK (ix1 q) = par (ix1 (node ndc startc Mc hMc hsc q)))
    (hsegK : segK = segFun pK)
    (haggK : ∀ i n, agg (ix2 i n) = ∑ k ∈ kids (fun k : Fin Mc => Rows.rowTarget M (segK (ix1 k))) i, HCin (ix2 k n))
    (houtK : ∀ i j, HCout (ix2 i (lo j)) = kerH w XK agg i j
      ∧ HCout (ix2 i (hi j)) = fgateRow w (kerH w XK agg i) j * kerC w XK agg i j)
    (harr carr : A2 131040 256) (iou : A2 131040 768) (hch cch f : A2 Mc 256) (pR segR : IVec ⟨1, ![Mc]⟩ 32)
    (ioun z : A2 M 768) (htild cagg cnew hnew : A2 M 256)
    (hiou : ∀ a n, iou (ix2 a n) = ∑ k : Fin 256, G (ix2 a k) * w.W (ix2 n k))
    (hioun : ∀ i n, ioun (ix2 i n) = iou (ix2 (node nd start M hM hs i) n))
    (hhch : ∀ k j, hch (ix2 k j) = harr (ix2 (node ndc startc Mc hMc hsc k) j))
    (hcch : ∀ k j, cch (ix2 k j) = carr (ix2 (node ndc startc Mc hMc hsc k) j))
    (hpR : ∀ q, pR (ix1 q) = par (ix1 (node ndc startc Mc hMc hsc q)))
    (hsegR : segR = segFun pR)
    (hf : ∀ k j, f (ix2 k j) = fgate w hch k j)
    (hht : ∀ i j, htild (ix2 i j) = ∑ k ∈ kids (fun k : Fin Mc => Rows.rowTarget M (segR (ix1 k))) i, hch (ix2 k j))
    (hca : ∀ i j, cagg (ix2 i j)
      = ∑ k ∈ kids (fun k : Fin Mc => Rows.rowTarget M (segR (ix1 k))) i, f (ix2 k j) * cch (ix2 k j))
    (hz : ∀ i n, z (ix2 i n) = (ioun (ix2 i n) + ∑ k : Fin 256, htild (ix2 i k) * w.U (ix2 n k)) + w.bI (ix2 0 n))
    (hc : ∀ i j, cnew (ix2 i j) = Ideal.logistic (z (ix2 i (c0 j))) * Ideal.tanh (z (ix2 i (c2 j))) + cagg (ix2 i j))
    (hh : ∀ i j, hnew (ix2 i j) = Ideal.logistic (z (ix2 i (c1 j))) * Ideal.tanh (cnew (ix2 i j)))
    (hprev cprev : A2 Mc 256)
    (hph : ∀ k j, harr (ix2 (node ndc startc Mc hMc hsc k) j) = hprev (ix2 k j))
    (hpc : ∀ k j, carr (ix2 (node ndc startc Mc hMc hsc k) j) = cprev (ix2 k j))
    (hin : Inv w HCin hprev cprev) :
    Inv w HCout hnew cnew := by
  have hp : pR = pK := funext fun y => by
    obtain ⟨q, rfl⟩ : ∃ q : Fin Mc, y = ix1 q := ⟨y 0, eq_ix1 y⟩
    rw [hpR, hpK]
  have hseg : segR = segK := by rw [hsegR, hsegK, hp]
  have hhp : hch = hprev := funext fun y => by
    obtain ⟨k, j, rfl⟩ : ∃ (k : Fin Mc) (j : Fin 256), y = ix2 k j := ⟨y 0, y 1, eq_ix2 y⟩
    rw [hhch, hph]
  have hcp : cch = cprev := funext fun y => by
    obtain ⟨k, j, rfl⟩ : ∃ (k : Fin Mc) (j : Fin 256), y = ix2 k j := ⟨y 0, y 1, eq_ix2 y⟩
    rw [hcch, hpc]
  rw [← hhp, ← hcp] at hin
  rw [hseg] at hht hca
  exact stepK w XK (fun k => Rows.rowTarget M (segK (ix1 k))) HCin hch cch hin agg HCout haggK houtK
    ioun z f htild cagg cnew hnew (ioun_eq nd start hM hs w G XK hXK iou ioun hiou hioun) hf hht hca hz hc hh

/-- THE DEEPEST LEVEL, from what each program's side delivers. -/
theorem leaf_glue {M : Nat} (nd start : Nat) (hM : M = 32 * nd) (hs : start + nd ≤ 4095) (w : Wts)
    (G : A2 131040 256) (XK : A2 M 256) (HCout : A2 M 512)
    (hXK : ∀ i k, XK (ix2 i k) = G (ix2 (node nd start M hM hs i) k))
    (houtK : ∀ i j, HCout (ix2 i (lo j)) = leafH w XK i j
      ∧ HCout (ix2 i (hi j)) = fgateRow w (leafH w XK i) j * leafC w XK i j)
    (iou : A2 131040 768) (ioun z : A2 M 768) (cnew hnew : A2 M 256)
    (hiou : ∀ a n, iou (ix2 a n) = ∑ k : Fin 256, G (ix2 a k) * w.W (ix2 n k))
    (hioun : ∀ i n, ioun (ix2 i n) = iou (ix2 (node nd start M hM hs i) n))
    (hz : ∀ i n, z (ix2 i n) = ioun (ix2 i n) + w.bI (ix2 0 n))
    (hc : ∀ i j, cnew (ix2 i j) = Ideal.logistic (z (ix2 i (c0 j))) * Ideal.tanh (z (ix2 i (c2 j))) + 0)
    (hh : ∀ i j, hnew (ix2 i j) = Ideal.logistic (z (ix2 i (c1 j))) * Ideal.tanh (cnew (ix2 i j))) :
    Inv w HCout hnew cnew :=
  leafK w XK HCout houtK ioun z cnew hnew (ioun_eq nd start hM hs w G XK hXK iou ioun hiou hioun) hz hc hh

/-- THE ROOTS, from what each program's side delivers: the kernel's root rows are the left half of the root
    level's packed array, the reference's are its `h` array at the 32 root nodes. -/
theorem root_glue (w : Wts) (HC : A2 32 512) (h c : A2 32 256) (hinv : Inv w HC h c)
    (roots : A2 32 256) (hroots : ∀ i k, roots (ix2 i k) = HC (ix2 i (lo k)))
    (outK : A2 32 104) (linw : A2 104 256) (linb : A1 104)
    (hK : ∀ i n, outK (ix2 i n) = (∑ k : Fin 256, roots (ix2 i k) * linw (ix2 n k)) + linb (ix1 n))
    (harr : A2 131040 256) (rootsR : A2 32 256)
    (hrR : ∀ i k, rootsR (ix2 i k) = harr (ix2 (node 1 0 32 rfl (by omega) i) k))
    (hph : ∀ i k, harr (ix2 (node 1 0 32 rfl (by omega) i) k) = h (ix2 i k))
    (outR : A2 32 104)
    (hR : ∀ i n, outR (ix2 i n) = (∑ k : Fin 256, rootsR (ix2 i k) * linw (ix2 n k)) + linb (ix1 n)) :
    outK = outR :=
  classify w HC h c hinv linw linb outK outR
    (fun i n => by
      rw [hK]; congr 1
      exact Finset.sum_congr rfl fun k _ => by rw [hroots])
    (fun i n => by
      rw [hR]; congr 1
      exact Finset.sum_congr rfl fun k _ => by rw [hrR, hph])

end Cert.TreeLstm.Glue

end
-- ==== Proof.LibChain.lean ====
/-
  The chain of levels, free of both programs. A level's state is the pair (kernel's packed level array,
  reference's whole-forest `h` and `c` arrays read at the level's nodes) with `Inv` between them. What the
  kernel's side and the reference's side deliver about one level are two propositions over shared data (weights,
  token rows, parent words, routing function); from both and the children's state follows the level's state.
-/
import proofs.«419362_j66683662237734_3_alg».proof.Proof.LibGlue

noncomputable section

open scoped BigOperators

namespace Cert.TreeLstm.Chain

open Idealize.ShloMosaic Idealize.ShloMosaic.ValueIdx Cert.TreeLstm

/-- A whole-forest array read at a level's nodes. -/
def atLevel {M C : Nat} (nd start : Nat) (hM : M = 32 * nd) (hs : start + nd ≤ 4095) (arr : A2 131040 C) : A2 M C :=
  fun y => arr (ix2 (node nd start M hM hs (y 0)) (y 1))

theorem atLevel_apply {M C : Nat} (nd start : Nat) (hM : M = 32 * nd) (hs : start + nd ≤ 4095) (arr : A2 131040 C)
    (i : Fin M) (j : Fin C) : atLevel nd start hM hs arr (ix2 i j) = arr (ix2 (node nd start M hM hs i) j) := rfl

/-- A level's state: the kernel's packed array against the reference's two arrays at the level's nodes. -/
def State {M : Nat} (nd start : Nat) (hM : M = 32 * nd) (hs : start + nd ≤ 4095) (w : Wts) (HC : A2 M 512)
    (harr carr : A2 131040 256) : Prop :=
  Inv w HC (atLevel nd start hM hs harr) (atLevel nd start hM hs carr)

/-- What the kernel's side delivers about a level with children: its token rows, parent words and routing, the
    per-slot sums of the children's packed array, and its output array through `kerH` / `kerC`. -/
def KLevel {M Mc : Nat} (nd start ndc startc : Nat) (hM : M = 32 * nd) (hs : start + nd ≤ 4095)
    (hMc : Mc = 32 * ndc) (hsc : startc + ndc ≤ 4095) (w : Wts)
    (G : A2 131040 256) (par : (⟨1, ![131040]⟩ : Shape).Idx → BitVec 32)
    (segFun : IVec ⟨1, ![Mc]⟩ 32 → IVec ⟨1, ![Mc]⟩ 32) (HCin : A2 Mc 512) (HCout : A2 M 512) : Prop :=
  ∃ (XK : A2 M 256) (pK segK : IVec ⟨1, ![Mc]⟩ 32) (agg : A2 M 512),
    (∀ i k, XK (ix2 i k) = G (ix2 (node nd start M hM hs i) k))
    ∧ (∀ q, pK (ix1 q) = par (ix1 (node ndc startc Mc hMc hsc q)))
    ∧ segK = segFun pK
    ∧ (∀ i n, agg (ix2 i n) = ∑ k ∈ kids (fun k : Fin Mc => Rows.rowTarget M (segK (ix1 k))) i, HCin (ix2 k n))
    ∧ (∀ i j, HCout (ix2 i (lo j)) = kerH w XK agg i j
        ∧ HCout (ix2 i (hi j)) = fgateRow w (kerH w XK agg i) j * kerC w XK agg i j)

/-- What the reference's side delivers about a level with children, from the arrays `harr`, `carr` it finds to the
    arrays `harr'`, `carr'` it leaves: the level's new rows are in place at the level's nodes. -/
def RLevel {M Mc : Nat} (nd start ndc startc : Nat) (hM : M = 32 * nd) (hs : start + nd ≤ 4095)
    (hMc : Mc = 32 * ndc) (hsc : startc + ndc ≤ 4095) (w : Wts)
    (G : A2 131040 256) (par : (⟨1, ![131040]⟩ : Shape).Idx → BitVec 32)
    (segFun : IVec ⟨1, ![Mc]⟩ 32 → IVec ⟨1, ![Mc]⟩ 32) (harr carr harr' carr' : A2 131040 256) : Prop :=
  ∃ (iou : A2 131040 768) (hch cch f : A2 Mc 256) (pR segR : IVec ⟨1, ![Mc]⟩ 32)
    (ioun z : A2 M 768) (htild cagg cnew hnew : A2 M 256),
    (∀ a n, iou (ix2 a n) = ∑ k : Fin 256, G (ix2 a k) * w.W (ix2 n k))
    ∧ (∀ i n, ioun (ix2 i n) = iou (ix2 (node nd start M hM hs i) n))
    ∧ (∀ k j, hch (ix2 k j) = harr (ix2 (node ndc startc Mc hMc hsc k) j))
    ∧ (∀ k j, cch (ix2 k j) = carr (ix2 (node ndc startc Mc hMc hsc k) j))
    ∧ (∀ q, pR (ix1 q) = par (ix1 (node ndc startc Mc hMc hsc q)))
    ∧ segR = segFun pR
    ∧ (∀ k j, f (ix2 k j) = fgate w hch k j)
    ∧ (∀ i j, htild (ix2 i j) = ∑ k ∈ kids (fun k : Fin Mc => Rows.rowTarget M (segR (ix1 k))) i, hch (ix2 k j))
    ∧ (∀ i j, cagg (ix2 i j)
        = ∑ k ∈ kids (fun k : Fin Mc => Rows.rowTarget M (segR (ix1 k))) i, f (ix2 k j) * cch (ix2 k j))
    ∧ (∀ i n, z (ix2 i n) = (ioun (ix2 i n) + ∑ k : Fin 256, htild (ix2 i k) * w.U (ix2 n k)) + w.bI (ix2 0 n))
    ∧ (∀ i j, cnew (ix2 i j) = Ideal.logistic (z (ix2 i (c0 j))) * Ideal.tanh (z (ix2 i (c2 j))) + cagg (ix2 i j))
    ∧ (∀ i j, hnew (ix2 i j) = Ideal.logistic (z (ix2 i (c1 j))) * Ideal.tanh (cnew (ix2 i j)))
    ∧ (∀ i j, harr' (ix2 (node nd start M hM hs i) j) = hnew (ix2 i j))
    ∧ (∀ i j, carr' (ix2 (node nd start M hM hs i) j) = cnew (ix2 i j))

/-- ONE LEVEL OF THE CHAIN. -/
theorem level {M Mc : Nat} (nd start ndc startc : Nat) (hM : M = 32 * nd) (hs : start + nd ≤ 4095)
    (hMc : Mc = 32 * ndc) (hsc : startc + ndc ≤ 4095) (hndc : 0 < ndc) (w : Wts)
    (G : A2 131040 256) (par : (⟨1, ![131040]⟩ : Shape).Idx → BitVec 32)
    (segFun : IVec ⟨1, ![Mc]⟩ 32 → IVec ⟨1, ![Mc]⟩ 32) (HCin : A2 Mc 512) (HCout : A2 M 512)
    (harr carr harr' carr' : A2 131040 256)
    (hK : KLevel nd start ndc startc hM hs hMc hsc w G par segFun HCin HCout)
    (hR : RLevel nd start ndc startc hM hs hMc hsc w G par segFun harr carr harr' carr')
    (hin : State ndc startc hMc hsc w HCin harr carr) :
    State nd start hM hs w HCout harr' carr' := by
  obtain ⟨XK, pK, segK, agg, hXK, hpK, hsegK, haggK, houtK⟩ := hK
  obtain ⟨iou, hch, cch, f, pR, segR, ioun, z, htild, cagg, cnew, hnew, hiou, hioun, hhch, hcch, hpR, hsegR, hf, hht, hca,
    hz, hc, hh, hH, hC⟩ := hR
  have key := Glue.level_glue nd start ndc startc hM hs hMc hsc hndc w G par segFun HCin XK pK segK agg HCout hXK hpK hsegK
    haggK houtK harr carr iou hch cch f pR segR ioun z htild cagg cnew hnew hiou hioun hhch hcch hpR hsegR hf hht hca hz hc hh
    (atLevel ndc startc hMc hsc harr) (atLevel ndc startc hMc hsc carr) (fun _ _ => rfl) (fun _ _ => rfl) hin
  have e1 : atLevel nd start hM hs harr' = hnew := funext fun y => by
    obtain ⟨i, j, rfl⟩ : ∃ (i : Fin M) (j : Fin 256), y = ix2 i j := ⟨y 0, y 1, eq_ix2 y⟩
    exact hH i j
  have e2 : atLevel nd start hM hs carr' = cnew := funext fun y => by
    obtain ⟨i, j, rfl⟩ : ∃ (i : Fin M) (j : Fin 256), y = ix2 i j := ⟨y 0, y 1, eq_ix2 y⟩
    exact hC i j
  unfold State
  rw [e1, e2]
  exact key

/-- What the kernel's side delivers about the deepest level. -/
def KLeaf {M : Nat} (nd start : Nat) (hM : M = 32 * nd) (hs : start + nd ≤ 4095) (w : Wts) (G : A2 131040 256)
    (HCout : A2 M 512) : Prop :=
  ∃ XK : A2 M 256, (∀ i k, XK (ix2 i k) = G (ix2 (node nd start M hM hs i) k))
    ∧ (∀ i j, HCout (ix2 i (lo j)) = leafH w XK i j
        ∧ HCout (ix2 i (hi j)) = fgateRow w (leafH w XK i) j * leafC w XK i j)

/-- What the reference's side delivers about the deepest level: the arrays it leaves hold the level's rows. -/
def RLeaf {M : Nat} (nd start : Nat) (hM : M = 32 * nd) (hs : start + nd ≤ 4095) (w : Wts) (G : A2 131040 256)
    (harr' carr' : A2 131040 256) : Prop :=
  ∃ (iou : A2 131040 768) (ioun z : A2 M 768) (cnew hnew : A2 M 256),
    (∀ a n, iou (ix2 a n) = ∑ k : Fin 256, G (ix2 a k) * w.W (ix2 n k))
    ∧ (∀ i n, ioun (ix2 i n) = iou (ix2 (node nd start M hM hs i) n))
    ∧ (∀ i n, z (ix2 i n) = ioun (ix2 i n) + w.bI (ix2 0 n))
    ∧ (∀ i j, cnew (ix2 i j) = Ideal.logistic (z (ix2 i (c0 j))) * Ideal.tanh (z (ix2 i (c2 j))) + 0)
    ∧ (∀ i j, hnew (ix2 i j) = Ideal.logistic (z (ix2 i (c1 j))) * Ideal.tanh (cnew (ix2 i j)))
    ∧ (∀ i j, harr' (ix2 (node nd start M hM hs i) j) = hnew (ix2 i j))
    ∧ (∀ i j, carr' (ix2 (node nd start M hM hs i) j) = cnew (ix2 i j))

/-- THE CHAIN'S START. -/
theorem leaf {M : Nat} (nd start : Nat) (hM : M = 32 * nd) (hs : start + nd ≤ 4095) (w : Wts) (G : A2 131040 256)
    (HCout : A2 M 512) (harr' carr' : A2 131040 256)
    (hK : KLeaf nd start hM hs w G HCout) (hR : RLeaf nd start hM hs w G harr' carr') :
    State nd start hM hs w HCout harr' carr' := by
  obtain ⟨XK, hXK, houtK⟩ := hK
  obtain ⟨iou, ioun, z, cnew, hnew, hiou, hioun, hz, hc, hh, hH, hC⟩ := hR
  have key := Glue.leaf_glue nd start hM hs w G XK HCout hXK houtK iou ioun z cnew hnew hiou hioun hz hc hh
  have e1 : atLevel nd start hM hs harr' = hnew := funext fun y => by
    obtain ⟨i, j, rfl⟩ : ∃ (i : Fin M) (j : Fin 256), y = ix2 i j := ⟨y 0, y 1, eq_ix2 y⟩
    exact hH i j
  have e2 : atLevel nd start hM hs carr' = cnew := funext fun y => by
    obtain ⟨i, j, rfl⟩ : ∃ (i : Fin M) (j : Fin 256), y = ix2 i j := ⟨y 0, y 1, eq_ix2 y⟩
    exact hC i j
  unfold State
  rw [e1, e2]
  exact key

/-- THE CHAIN'S END: from the root level's state, the two classifiers' outputs are equal. -/
theorem root (w : Wts) (HC : A2 32 512) (harr carr : A2 131040 256)
    (hst : State 1 0 (rfl : 32 = 32 * 1) (by omega) w HC harr carr)
    (roots : A2 32 256) (hroots : ∀ i k, roots (ix2 i k) = HC (ix2 i (lo k)))
    (outK : A2 32 104) (linw : A2 104 256) (linb : A1 104)
    (hK : ∀ i n, outK (ix2 i n) = (∑ k : Fin 256, roots (ix2 i k) * linw (ix2 n k)) + linb (ix1 n))
    (rootsR : A2 32 256)
    (hrR : ∀ i k, rootsR (ix2 i k) = harr (ix2 (node 1 0 32 rfl (by omega) i) k))
    (outR : A2 32 104)
    (hR : ∀ i n, outR (ix2 i n) = (∑ k : Fin 256, rootsR (ix2 i k) * linw (ix2 n k)) + linb (ix1 n)) :
    outK = outR :=
  Glue.root_glue w HC _ _ hst roots hroots outK linw linb hK harr rootsR hrR (fun _ _ => rfl) outR hR

end Cert.TreeLstm.Chain

end
-- ==== Proof.RLvlLib.lean ====
/-
  The operations of one level of the reference's tree recurrence, read at an index, at the ideal values and for a level
  of any size: a product with a transposed weight matrix is the sum over the contracted coordinate of the products of
  the entries; a bias row or a bias vector broadcast to every row reads the bias at the column; a column made of a
  vector reads the vector; a slice of columns reads the column shifted by the offset; the quotient of one by one plus
  the exponential of the negation is the logistic function; and the accumulating scatter of the children's rows into
  an array of zeros is, per parent slot, the sum over the children routed to the slot.
-/
import Idealize.ShloMosaic.PureOps.Ideal
import Idealize.ShloMosaic.PureOps.Ideal.Laws
import Idealize.ShloMosaic.Lib.ValueIdx
import Idealize.ShloMosaic.Lib.IdealHost
import Idealize.ShloMosaic.Lib.StackMember
import Idealize.ShloMosaic.Lib.Pipeline.Value
import proofs.«419362_j66683662237734_3_alg».proof.Proof.Spec
import proofs.«419362_j66683662237734_3_alg».proof.Proof.LibRows

noncomputable section

open scoped BigOperators

namespace Cert.ReferenceIdeal.LvlLib

open Idealize.ShloMosaic Idealize.ShloMosaic.ValueIdx Cert.TreeLstm Cert.TreeLstm.Rows

/-- The contents of a float buffer of shape `S`, as an array of extended reals. -/
abbrev fbuf (S : Shape) (x : S.Idx → EReal) : S.Idx → EReal := x
/-- The contents of a 32-bit integer buffer of shape `S`, as an array of words. -/
abbrev ibuf (S : Shape) (x : S.Idx → BitVec 32) : S.Idx → BitVec 32 := x

variable {M K N C W : Nat}

/-- `A · Bᵀ` at `(i, n)`: the sum over `k` of `A (i, k) * B (n, k)`. -/
theorem dot_transposed_apply (d : DotDims ⟨2, ![M, K]⟩ ⟨2, ![K, N]⟩ ⟨2, ![M, N]⟩) (hd : d = DotDims.plain M K N)
    (ht : (⟨2, ![N, K]⟩ : Shape).Transposes [1, 0] ⟨2, ![K, N]⟩)
    (A : FVec Ideal ⟨2, ![M, K]⟩ .f32) (B : FVec Ideal ⟨2, ![N, K]⟩ .f32) (i : Fin M) (n : Fin N) :
    Host.dotGeneral d none A (transpose ⟨2, ![K, N]⟩ [1, 0] B ht) (ix2 i n) = ∑ k : Fin K, A (ix2 i k) * B (ix2 n k) := by
  subst hd
  rw [StackMember.dotGeneral_plain_apply]
  refine Finset.sum_congr rfl fun k _ => ?_
  rw [transpose_apply [1, 0] B ht (ix2 k n) (ix2 n k) (fun b => match b with | ⟨0, _⟩ => rfl | ⟨1, _⟩ => rfl)]

/-- A one-row array broadcast to every row reads its row at the column. -/
theorem bcast_row_apply {α : Type} (h : (⟨2, ![1, C]⟩ : Shape).BroadcastsInDim ⟨2, ![M, C]⟩ ![0, 1])
    (x : (⟨2, ![1, C]⟩ : Shape).Idx → α) (i : Fin M) (n : Fin C) :
    broadcastInDim ⟨2, ![M, C]⟩ ![0, 1] h x (ix2 i n) = x (ix2 0 n) :=
  broadcastInDim_apply _ h x (ix2 i n) (ix2 0 n) fun a => match a with
    | ⟨0, _⟩ => rfl
    | ⟨1, _⟩ => by
      show n.val = if C = 1 then 0 else n.val
      split
      · have := n.isLt; omega
      · rfl

/-- A vector made a one-row array reads the vector at the column. -/
theorem bcast_vec_row_apply {α : Type} (h : (⟨1, ![C]⟩ : Shape).BroadcastsInDim ⟨2, ![1, C]⟩ ![1])
    (x : (⟨1, ![C]⟩ : Shape).Idx → α) (n : Fin C) :
    broadcastInDim ⟨2, ![1, C]⟩ ![1] h x (ix2 0 n) = x (ix1 n) :=
  broadcastInDim_apply _ h x (ix2 0 n) (ix1 n) fun a => match a with
    | ⟨0, _⟩ => by
      show n.val = if C = 1 then 0 else n.val
      split
      · have := n.isLt; omega
      · rfl

/-- A vector broadcast to every row (through a one-row array) reads the vector at the column. -/
theorem bcast_vec_rows_apply {α : Type} (h1 : (⟨1, ![C]⟩ : Shape).BroadcastsInDim ⟨2, ![1, C]⟩ ![1])
    (h2 : (⟨2, ![1, C]⟩ : Shape).BroadcastsInDim ⟨2, ![M, C]⟩ ![0, 1])
    (x : (⟨1, ![C]⟩ : Shape).Idx → α) (i : Fin M) (n : Fin C) :
    broadcastInDim ⟨2, ![M, C]⟩ ![0, 1] h2 (broadcastInDim ⟨2, ![1, C]⟩ ![1] h1 x) (ix2 i n) = x (ix1 n) := by
  rw [bcast_row_apply, bcast_vec_row_apply]

/-- A vector made a one-column array reads the vector at the row. -/
theorem bcast_col_apply {α : Type} (h : (⟨1, ![M]⟩ : Shape).BroadcastsInDim ⟨2, ![M, 1]⟩ ![0])
    (x : (⟨1, ![M]⟩ : Shape).Idx → α) (k : Fin M) :
    broadcastInDim ⟨2, ![M, 1]⟩ ![0] h x (ix2 k 0) = x (ix1 k) :=
  broadcastInDim_apply _ h x (ix2 k 0) (ix1 k) fun a => match a with
    | ⟨0, _⟩ => by
      show k.val = if M = 1 then 0 else k.val
      split
      · have := k.isLt; omega
      · rfl

/-- A slice of `W` columns from column `off` reads the column `off + j`. -/
theorem slice_cols_apply {α : Type} (off : Nat) (h : (⟨2, ![M, C]⟩ : Shape).Slices ![0, off] ⟨2, ![M, W]⟩)
    (x : (⟨2, ![M, C]⟩ : Shape).Idx → α) (i : Fin M) (j : Fin W) (c : Fin C) (hc : c.val = off + j.val) :
    extractStridedSlice ⟨2, ![M, W]⟩ ![0, off] x h (ix2 i j) = x (ix2 i c) :=
  extractStridedSlice_apply _ x h (ix2 i j) (ix2 i c) fun a => match a with
    | ⟨0, _⟩ => (Nat.zero_add _).symm
    | ⟨1, _⟩ => hc

/-- `1 / (1 + exp (-x))` in the host's operations, the ones broadcast scalars, is the logistic function at each
    element. -/
theorem logistic_host_apply {s : Shape} (h h' : (⟨0, ![]⟩ : Shape).BroadcastsInDim s ![]) (x : FVec Ideal s .f32) (i : s.Idx) :
    Host.divf (broadcastInDim s ![] h (constant (F := Ideal) ⟨0, ![]⟩ .f32 0x3F800000#32))
      (addf (broadcastInDim s ![] h' (constant (F := Ideal) ⟨0, ![]⟩ .f32 0x3F800000#32)) (Host.exp (Host.negf x))) i
      = Ideal.logistic (x i) := by
  rw [hostDivf_apply, addf_apply, broadcastInDim_scalar_apply, constant_apply, Ideal.ofBits_one_f32]
  rfl

/-- The host's hyperbolic tangent at an element. -/
theorem tanh_host_apply {s : Shape} (x : FVec Ideal s .f32) (i : s.Idx) : Host.tanh x i = Ideal.tanh (x i) := rfl

/-- The accumulating scatter of `Mc` rows into `M` rows of zeros, the row indices a vector made a column: at
    `(i, j)` the sum, over the rows `k` whose index names row `i`, of `upd (k, j)`. -/
theorem scatterAdd_zeros_apply {Mc : Nat} (s : ScatterDims ⟨2, ![M, C]⟩ ⟨2, ![Mc, 1]⟩ ⟨2, ![Mc, C]⟩) (hs : IsRowScatter s)
    (hz : (⟨0, ![]⟩ : Shape).BroadcastsInDim ⟨2, ![M, C]⟩ ![])
    (hcol : (⟨1, ![Mc]⟩ : Shape).BroadcastsInDim ⟨2, ![Mc, 1]⟩ ![0])
    (seg : IVec ⟨1, ![Mc]⟩ 32) (upd : FVec Ideal ⟨2, ![Mc, C]⟩ .f32) (i : Fin M) (j : Fin C) :
    Host.scatterAdd (F := Ideal) s (broadcastInDim ⟨2, ![M, C]⟩ ![] hz (constant (F := Ideal) ⟨0, ![]⟩ .f32 0x00000000#32))
        (broadcastInDim ⟨2, ![Mc, 1]⟩ ![0] hcol seg) upd (ix2 i j)
      = ∑ k ∈ kids (fun k : Fin Mc => rowTarget M (seg (ix1 k))) i, upd (ix2 k j) := by
  rw [scatterAdd_rows_apply s hs, broadcastInDim_scalar_apply, constant_apply, Ideal.ofBits_zero_f32, zero_add]
  refine Finset.sum_congr (Finset.filter_congr fun k _ => ?_) fun _ _ => rfl
  rw [bcast_col_apply]

end Cert.ReferenceIdeal.LvlLib

end
-- ==== Proof.LibLine.lean ====
/-
  One operation read out of a straight line of host operations.

  A line in which every operation writes one reference, listed in order as `W`, leaves a reference outside `W`
  as it found it. So for the operation at position `k`: a reference that no operation from position `k` on writes
  holds at the end of the line what it held just before position `k`, and the reference the operation writes, if
  no later operation writes it again, holds at the end the operation's function of its operands' contents just
  before position `k`. When the operands are themselves not written from position `k` on, that is the function of
  the operands' contents at the END of the line: the operation's defining equation, stated of the final contents
  alone.
-/
import Idealize.ShloMosaic.Lib.StableHlo.Run

noncomputable section

namespace Cert.ReferenceIdeal.Line

open Idealize.ShloMosaic Idealize.ShloMosaic.StableHlo Idealize.SL.Sem

variable {τ : Topo} {sig : RefSig} {Val : EltTy → Type}

/-- `W` lists, in order, the one reference each operation of the line writes. -/
abbrev Writes (ops : List (HloOp τ sig Val)) (W : List (Ref sig .tc)) : Prop :=
  List.Forall₂ (fun op r => op.writes = {Proc.devRef (τ := τ) .tc r}) ops W

/-- The contents after two lines in a row. -/
theorem after_app : ∀ (l₁ l₂ : List (HloOp τ sig Val)) (V : Valuation τ sig Val),
    after (l₁ ++ l₂) V = after l₂ (after l₁ V)
  | [], _, _ => rfl
  | op :: l₁, l₂, V => by rw [List.cons_append, after_cons, after_cons, after_app l₁ l₂]

/-- A reference the line does not write keeps its contents. -/
theorem keep {ops : List (HloOp τ sig Val)} {W : List (Ref sig .tc)} (h : Writes ops W) :
    ∀ (V : Valuation τ sig Val) {r : Ref sig .tc}, r ∉ W → after ops V (Proc.devRef .tc r) = V (Proc.devRef .tc r) := by
  induction h with
  | nil => intro V r _; rfl
  | @cons op y ops W hx _ ih =>
    intro V r hr
    rw [after_cons, ih _ (fun hm => hr (List.mem_cons_of_mem _ hm)), op.result_of_not_mem V]
    rw [hx, Finset.mem_singleton]
    exact devRef_ne_of_ne fun he => hr (he ▸ List.mem_cons_self)

/-- The line cut at position `k`. -/
theorem split_at {ops : List (HloOp τ sig Val)} {k : Nat} {op : HloOp τ sig Val} (hop : ops[k]? = some op) :
    ops = ops.take k ++ op :: ops.drop (k + 1) := by
  obtain ⟨h, rfl⟩ := List.getElem?_eq_some_iff.mp hop
  rw [← List.drop_eq_getElem_cons h, List.take_append_drop]

/-- A reference not written from position `k` on holds at the end what it held before position `k`. -/
theorem operand {ops : List (HloOp τ sig Val)} {W : List (Ref sig .tc)} (hW : Writes ops W) (k : Nat)
    (V : Valuation τ sig Val) {r : Ref sig .tc} (hr : r ∉ W.drop k) :
    after ops V (Proc.devRef .tc r) = after (ops.take k) V (Proc.devRef .tc r) := by
  conv_lhs => rw [← List.take_append_drop k ops]
  rw [after_app]
  exact keep (List.forall₂_drop k hW) _ hr

/-- The reference written at position `k`, not written again, holds at the end that operation's result. -/
theorem result_at {ops : List (HloOp τ sig Val)} {W : List (Ref sig .tc)} (hW : Writes ops W) {k : Nat}
    {op : HloOp τ sig Val} (hop : ops[k]? = some op) (V : Valuation τ sig Val) {y : Ref sig .tc} (hy : y ∉ W.drop (k + 1)) :
    after ops V (Proc.devRef .tc y) = op.result (after (ops.take k) V) (Proc.devRef .tc y) := by
  conv_lhs => rw [split_at hop]
  rw [after_app, after_cons]
  exact keep (List.forall₂_drop (k + 1) hW) _ hy

variable {ops : List (HloOp τ sig Val)} {W : List (Ref sig .tc)}

/-- A constant's defining equation, of the final contents. -/
theorem nullary_at (hW : Writes ops W) (k : Nat) (V : Valuation τ sig Val) {y : Ref sig .tc} {v : y.ty.Contents Val} {hy}
    (hop : ops[k]? = some (nullary y v hy)) (hy' : y ∉ W.drop (k + 1)) :
    after ops V (Proc.devRef .tc y) = v := by
  rw [result_at hW hop V hy', nullary_result]

/-- A one-operand operation's defining equation, of the final contents. -/
theorem unary_at (hW : Writes ops W) (k : Nat) (V : Valuation τ sig Val) {x y : Ref sig .tc}
    {f : x.ty.Contents Val → y.ty.Contents Val} {hx hy}
    (hop : ops[k]? = some (unary x y f hx hy)) (hy' : y ∉ W.drop (k + 1)) (hx' : x ∉ W.drop k) :
    after ops V (Proc.devRef .tc y) = f (after ops V (Proc.devRef .tc x)) := by
  rw [result_at hW hop V hy', unary_result, operand hW k V hx']

/-- A two-operand operation's defining equation, of the final contents. -/
theorem binary_at (hW : Writes ops W) (k : Nat) (V : Valuation τ sig Val) {a b y : Ref sig .tc}
    {f : a.ty.Contents Val → b.ty.Contents Val → y.ty.Contents Val} {ha hb hy}
    (hop : ops[k]? = some (binary a b y f ha hb hy)) (hy' : y ∉ W.drop (k + 1)) (ha' : a ∉ W.drop k) (hb' : b ∉ W.drop k) :
    after ops V (Proc.devRef .tc y) = f (after ops V (Proc.devRef .tc a)) (after ops V (Proc.devRef .tc b)) := by
  rw [result_at hW hop V hy', binary_result, operand hW k V ha', operand hW k V hb']

/-- A three-operand operation's defining equation, of the final contents. -/
theorem ternary_at (hW : Writes ops W) (k : Nat) (V : Valuation τ sig Val) {c a b y : Ref sig .tc}
    {f : c.ty.Contents Val → a.ty.Contents Val → b.ty.Contents Val → y.ty.Contents Val} {hc ha hb hy}
    (hop : ops[k]? = some (ternary c a b y f hc ha hb hy)) (hy' : y ∉ W.drop (k + 1))
    (hc' : c ∉ W.drop k) (ha' : a ∉ W.drop k) (hb' : b ∉ W.drop k) :
    after ops V (Proc.devRef .tc y)
      = f (after ops V (Proc.devRef .tc c)) (after ops V (Proc.devRef .tc a)) (after ops V (Proc.devRef .tc b)) := by
  rw [result_at hW hop V hy', ternary_result, operand hW k V hc', operand hW k V ha', operand hW k V hb']

/-- A reshape's defining equation, of the final contents. -/
theorem reshape_at (hW : Writes ops W) (k : Nat) (V : Valuation τ sig Val) {x y : Ref sig .tc}
    {he : x.ty.elt = y.ty.elt} {hn : x.ty.shape.ShapeCasts y.ty.shape} {hx hy}
    (hop : ops[k]? = some (reshape x y he hn hx hy)) (hy' : y ∉ W.drop (k + 1)) (hx' : x ∉ W.drop k) :
    after ops V (Proc.devRef .tc y) = fun i => he ▸ shapeCast y.ty.shape (after ops V (Proc.devRef .tc x)) hn i := by
  rw [result_at hW hop V hy', reshape_result, operand hW k V hx']

end Cert.ReferenceIdeal.Line

end
-- ==== Proof.KPreHost.lean ====
/-
  The first host stretch of the fused program, read at an index.

  Before the leaf level's region the program prepares, from its argument arrays: the embedding table with its padding
  row (row 19999) set to zero; the token ids with a negative id counted from the end of the table; the gathered
  embedding rows `x : [131040, 256]`; the four weight matrices transposed (`W_iou^T`, `U_f^T`, `U_iou^T`, `lin_w^T`);
  the two bias vectors as one-row matrices; the rows and the parent ids regrouped per graph (`[32, 4095, …]`); and the
  deepest level's rows, the last 2048 nodes of each graph, as one `[65536, 256]` array. Each of the 29 operations
  writes one array once, so at the end of the stretch every array satisfies its operation's defining equation over
  the final contents, and an argument array holds what it held at the start. Composing those equations, every
  prepared array is a re-indexing of an argument array (the narrowing to the short float format is the identity on
  the extended reals), stated here entry by entry from ANY contents `W` the stretch starts at. Row `i` of the deepest
  level is node `4095 * (i / 2048) + 2047 + i % 2048`.
-/
import proofs.«419362_j66683662237734_3_alg».proof.Proof.Gen.KernelIdeal.Launch
import proofs.«419362_j66683662237734_3_alg».proof.Proof.Spec
import proofs.«419362_j66683662237734_3_alg».proof.Proof.LibLine
import Idealize.ShloMosaic.Lib.StableHlo.Run
import Idealize.ShloMosaic.Lib.Pipeline.Value
import Idealize.ShloMosaic.Lib.ValueLayout

set_option maxRecDepth 16384

noncomputable section

namespace Cert.KernelIdeal.Pre

open Cert.KernelIdeal Cert.KernelIdeal.Gen
open Idealize.ShloMosaic Idealize.ShloMosaic.TcCoe Idealize.ShloMosaic.ValueIdx
open Idealize.ShloMosaic.StableHlo (after)
open Cert.ReferenceIdeal (Line.Writes Line.keep Line.nullary_at Line.unary_at Line.binary_at Line.ternary_at Line.reshape_at)

/-! ## Reshapes and the level slice read at an index -/

section Index
variable {α : Type}

/-- `[131040, C]` viewed as `[32, 4095, C]`: entry `(b, q, k)` is row `4095 * b + q`, column `k`. -/
theorem cast_rows_apply {C : Nat} (x : (⟨2, ![131040, C]⟩ : Shape).Idx → α)
    (h : (⟨2, ![131040, C]⟩ : Shape).ShapeCasts ⟨3, ![32, 4095, C]⟩) (b : Fin 32) (q : Fin 4095) (k : Fin C) :
    shapeCast ⟨3, ![32, 4095, C]⟩ x h (ix3 b q k) = x (ix2 ⟨4095 * b.val + q.val, by omega⟩ k) :=
  shapeCast_apply x h _ _ (by
    rw [Shape.rowMajor_val_two, Shape.rowMajor_val_three]
    show (4095 * b.val + q.val) * C + k.val = (b.val * 4095 + q.val) * C + k.val
    rw [Nat.mul_comm 4095 b.val])

/-- `[131040]` viewed as `[32, 4095]`: entry `(b, q)` is entry `4095 * b + q`. -/
theorem cast_vec_apply (x : (⟨1, ![131040]⟩ : Shape).Idx → α)
    (h : (⟨1, ![131040]⟩ : Shape).ShapeCasts ⟨2, ![32, 4095]⟩) (b : Fin 32) (q : Fin 4095) :
    shapeCast ⟨2, ![32, 4095]⟩ x h (ix2 b q) = x (ix1 ⟨4095 * b.val + q.val, by omega⟩) :=
  shapeCast_apply x h _ _ (by
    rw [Shape.rowMajor_val_one, Shape.rowMajor_val_two]
    show 4095 * b.val + q.val = b.val * 4095 + q.val
    rw [Nat.mul_comm 4095 b.val])

/-- `[32, nd, C]` viewed as `[32 * nd, C]`: row `i` is graph `i / nd`, position `i % nd`. -/
theorem cast_level_apply {nd M C : Nat} (hnd : 0 < nd) (hM : M = 32 * nd) (x : (⟨3, ![32, nd, C]⟩ : Shape).Idx → α)
    (h : (⟨3, ![32, nd, C]⟩ : Shape).ShapeCasts ⟨2, ![M, C]⟩) (i : Fin M) (k : Fin C) :
    shapeCast ⟨2, ![M, C]⟩ x h (ix2 i k)
      = x (ix3 ⟨i.val / nd, Nat.div_lt_of_lt_mul (by have := i.isLt; omega)⟩
            ⟨i.val % nd, Nat.mod_lt _ hnd⟩ k) :=
  shapeCast_apply x h _ _ (by
    rw [Shape.rowMajor_val_two, Shape.rowMajor_val_three]
    show ((i.val / nd) * nd + i.val % nd) * C + k.val = i.val * C + k.val
    rw [Nat.mul_comm (i.val / nd) nd, Nat.div_add_mod])

end Index

/-! ## The gathered rows as one term of the table and the token ids -/

section Terms
variable {F : FTy → Type} [FloatOps F]

/-- The embedding table with its padding row (row 19999) replaced by zeros. -/
def embZ (emb : FVec F S20000x256 .f32) : FVec F S20000x256 .f32 :=
  Host.scatter scatter_S20000x256_S1_S256_0_0_0_0 (fun _ b => b) emb
    (broadcastInDim S1 ![] bcast_S_S1 (constantI S_ 32 19999#32))
    (broadcastInDim S256 ![] bcast_S_S256 (constant S_ .f32 0x00000000#32))

/-- The token ids as a column, a negative id counted from the end of the table (`id + 20000`). -/
def tokCol (xs : IVec S131040 32) : IVec S131040x1 32 :=
  broadcastInDim S131040x1 ![0] bcast_S131040_S131040x1_0
    (select (cmpi .slt xs (broadcastInDim S131040 ![] bcast_S_S131040 (constantI S_ 32 0#32)))
      (addi xs (broadcastInDim S131040 ![] bcast_S_S131040 (constantI S_ 32 20000#32))) xs)

/-- The gathered embedding rows: row `p` is the (zero-padded, narrowed) table's row named by token `p`. -/
def G (emb : FVec F S20000x256 .f32) (xs : IVec S131040 32) : FVec F S131040x256 .bf16 :=
  Host.gather gather_S20000x256_S131040x1_S131040x256_1_0_n_n_0_1_1256
    (truncf .bf16 (embZ emb) bitsLt_bf16_f32) (tokCol xs)

end Terms

/-- The narrowing is the identity on the extended reals: the rows are gathered from the zero-padded table itself. -/
theorem G_eq (emb : S20000x256.Idx → EReal) (xs : IVec S131040 32) :
    G (F := Ideal) emb xs
      = Host.gather gather_S20000x256_S131040x1_S131040x256_1_0_n_n_0_1_1256 (embZ (F := Ideal) emb) (tokCol xs) := rfl

/-- The same with the table's and the ids' preparation written out. -/
theorem G_eq' (emb : S20000x256.Idx → EReal) (xs : IVec S131040 32) :
    G (F := Ideal) emb xs = fun y => Host.gather gather_S20000x256_S131040x1_S131040x256_1_0_n_n_0_1_1256
      (Host.scatter scatter_S20000x256_S1_S256_0_0_0_0 (fun _ b => b) emb
        (broadcastInDim S1 ![] bcast_S_S1 (constantI S_ 32 19999#32))
        (broadcastInDim S256 ![] bcast_S_S256 (constant (F := Ideal) S_ .f32 0x00000000#32)))
      (broadcastInDim S131040x1 ![0] bcast_S131040_S131040x1_0
        (select (cmpi .slt xs (broadcastInDim S131040 ![] bcast_S_S131040 (constantI S_ 32 0#32)))
          (addi xs (broadcastInDim S131040 ![] bcast_S_S131040 (constantI S_ 32 20000#32))) xs)) y := rfl

/-! ## Every operation's defining equation over the final contents -/

section Line
variable {F : FTy → Type} [FloatOps F]

/-- The arrays the stretch writes, in order. -/
abbrev wr0 : List (Ref sig .tc) :=
  [main_call0_c, main_call0_v0, main_call0_cst, main_call0_v1, main_call0_v2, main_call0_v3, main_call0_c_0, main_call0_v4, main_call0_v5, main_call0_c_1, main_call0_v6, main_call0_v7, main_call0_v8, main_call0_v9, main_call0_v10, main_call0_v11, main_call0_v12, main_call0_v13, main_call0_v14, main_call0_v15, main_call0_v16, main_call0_v17, main_call0_v18, main_call0_v19, main_call0_v20, main_call0_v21, main_call0_v22, main_call0_v23, main_call0_v24]

/-- Each of the stretch's operations writes exactly the array listed for it. -/
theorem hW0 : Line.Writes (τ := τ) (hostOps0 (F := F)) wr0 := by
  unfold hostOps0 wr0
  repeat (first | exact List.Forall₂.nil | refine List.Forall₂.cons rfl ?_)

variable (W : Valuation τ sig (Elt F))

/-- The TensorCore's contents after the first host stretch, started at contents `W`. -/
abbrev H : Valuation τ sig (Elt F) := after (hostOps0 (F := F)) W

theorem e_arg0 : H W (Proc.devRef .tc main_arg0) = W (Proc.devRef .tc main_arg0) := Line.keep hW0 W (by decide)
theorem e_arg1 : H W (Proc.devRef .tc main_arg1) = W (Proc.devRef .tc main_arg1) := Line.keep hW0 W (by decide)
theorem e_arg2 : H W (Proc.devRef .tc main_arg2) = W (Proc.devRef .tc main_arg2) := Line.keep hW0 W (by decide)
theorem e_arg3 : H W (Proc.devRef .tc main_arg3) = W (Proc.devRef .tc main_arg3) := Line.keep hW0 W (by decide)
theorem e_arg4 : H W (Proc.devRef .tc main_arg4) = W (Proc.devRef .tc main_arg4) := Line.keep hW0 W (by decide)
theorem e_arg6 : H W (Proc.devRef .tc main_arg6) = W (Proc.devRef .tc main_arg6) := Line.keep hW0 W (by decide)
theorem e_arg7 : H W (Proc.devRef .tc main_arg7) = W (Proc.devRef .tc main_arg7) := Line.keep hW0 W (by decide)
theorem e_arg8 : H W (Proc.devRef .tc main_arg8) = W (Proc.devRef .tc main_arg8) := Line.keep hW0 W (by decide)
theorem e_arg9 : H W (Proc.devRef .tc main_arg9) = W (Proc.devRef .tc main_arg9) := Line.keep hW0 W (by decide)

theorem e_c : H W (Proc.devRef .tc main_call0_c) = constantI S_ 32 19999#32 := by
  have h := Line.nullary_at hW0 0 W rfl (by decide)
  exact h
theorem e_v0 : H W (Proc.devRef .tc main_call0_v0) = broadcastInDim S1 ![] bcast_S_S1 (H W (Proc.devRef .tc main_call0_c)) := by
  have h := Line.unary_at hW0 1 W rfl (by decide) (by decide)
  exact h
theorem e_cst : H W (Proc.devRef .tc main_call0_cst) = constant S_ .f32 0x00000000#32 := by
  have h := Line.nullary_at hW0 2 W rfl (by decide)
  exact h
theorem e_v1 : H W (Proc.devRef .tc main_call0_v1) = broadcastInDim S256 ![] bcast_S_S256 (H W (Proc.devRef .tc main_call0_cst)) := by
  have h := Line.unary_at hW0 3 W rfl (by decide) (by decide)
  exact h
theorem e_v2 : H W (Proc.devRef .tc main_call0_v2) = Host.scatter scatter_S20000x256_S1_S256_0_0_0_0 (fun _ b => b) (H W (Proc.devRef .tc main_arg2)) (H W (Proc.devRef .tc main_call0_v0)) (H W (Proc.devRef .tc main_call0_v1)) := by
  have h := Line.ternary_at hW0 4 W rfl (by decide) (by decide) (by decide) (by decide)
  simp only [StableHlo.TRef.toBuf, StableHlo.TRef.ofBuf, cast_eq] at h
  exact h
theorem e_v3 : H W (Proc.devRef .tc main_call0_v3) = truncf .bf16 (H W (Proc.devRef .tc main_call0_v2)) bitsLt_bf16_f32 := by
  have h := Line.unary_at hW0 5 W rfl (by decide) (by decide)
  exact h
theorem e_c_0 : H W (Proc.devRef .tc main_call0_c_0) = constantI S_ 32 0#32 := by
  have h := Line.nullary_at hW0 6 W rfl (by decide)
  exact h
theorem e_v4 : H W (Proc.devRef .tc main_call0_v4) = broadcastInDim S131040 ![] bcast_S_S131040 (H W (Proc.devRef .tc main_call0_c_0)) := by
  have h := Line.unary_at hW0 7 W rfl (by decide) (by decide)
  exact h
theorem e_v5 : H W (Proc.devRef .tc main_call0_v5) = cmpi .slt (H W (Proc.devRef .tc main_arg0)) (H W (Proc.devRef .tc main_call0_v4)) :=
  Line.binary_at hW0 8 W rfl (by decide) (by decide) (by decide)
theorem e_c_1 : H W (Proc.devRef .tc main_call0_c_1) = constantI S_ 32 20000#32 := by
  have h := Line.nullary_at hW0 9 W rfl (by decide)
  exact h
theorem e_v6 : H W (Proc.devRef .tc main_call0_v6) = broadcastInDim S131040 ![] bcast_S_S131040 (H W (Proc.devRef .tc main_call0_c_1)) := by
  have h := Line.unary_at hW0 10 W rfl (by decide) (by decide)
  exact h
theorem e_v7 : H W (Proc.devRef .tc main_call0_v7) = addi (H W (Proc.devRef .tc main_arg0)) (H W (Proc.devRef .tc main_call0_v6)) := by
  have h := Line.binary_at hW0 11 W rfl (by decide) (by decide) (by decide)
  exact h
theorem e_v8 : H W (Proc.devRef .tc main_call0_v8) = select (H W (Proc.devRef .tc main_call0_v5)) (H W (Proc.devRef .tc main_call0_v7)) (H W (Proc.devRef .tc main_arg0)) :=
  Line.ternary_at hW0 12 W rfl (by decide) (by decide) (by decide) (by decide)
theorem e_v9 : H W (Proc.devRef .tc main_call0_v9) = broadcastInDim S131040x1 ![0] bcast_S131040_S131040x1_0 (H W (Proc.devRef .tc main_call0_v8)) := by
  have h := Line.unary_at hW0 13 W rfl (by decide) (by decide)
  exact h
theorem e_v10 : H W (Proc.devRef .tc main_call0_v10) = Host.gather gather_S20000x256_S131040x1_S131040x256_1_0_n_n_0_1_1256 (H W (Proc.devRef .tc main_call0_v3)) (H W (Proc.devRef .tc main_call0_v9)) := by
  have h := Line.binary_at hW0 14 W rfl (by decide) (by decide) (by decide)
  exact h
theorem e_v11 : H W (Proc.devRef .tc main_call0_v11) = transpose S256x768 [1, 0] (H W (Proc.devRef .tc main_arg3)) transposes_S768x256_S256x768_1_0 := by
  have h := Line.unary_at hW0 15 W rfl (by decide) (by decide)
  exact h
theorem e_v12 : H W (Proc.devRef .tc main_call0_v12) = truncf .bf16 (H W (Proc.devRef .tc main_call0_v11)) bitsLt_bf16_f32 := by
  have h := Line.unary_at hW0 16 W rfl (by decide) (by decide)
  exact h
theorem e_v13 : H W (Proc.devRef .tc main_call0_v13) = transpose S256x256 [1, 0] (H W (Proc.devRef .tc main_arg6)) transposes_S256x256_S256x256_1_0 := by
  have h := Line.unary_at hW0 17 W rfl (by decide) (by decide)
  exact h
theorem e_v14 : H W (Proc.devRef .tc main_call0_v14) = truncf .bf16 (H W (Proc.devRef .tc main_call0_v13)) bitsLt_bf16_f32 := by
  have h := Line.unary_at hW0 18 W rfl (by decide) (by decide)
  exact h
theorem e_v15 : H W (Proc.devRef .tc main_call0_v15) = transpose S256x768 [1, 0] (H W (Proc.devRef .tc main_arg4)) transposes_S768x256_S256x768_1_0 := by
  have h := Line.unary_at hW0 19 W rfl (by decide) (by decide)
  exact h
theorem e_v16 : H W (Proc.devRef .tc main_call0_v16) = truncf .bf16 (H W (Proc.devRef .tc main_call0_v15)) bitsLt_bf16_f32 := by
  have h := Line.unary_at hW0 20 W rfl (by decide) (by decide)
  exact h
theorem e_v17 : H W (Proc.devRef .tc main_call0_v17) = transpose S256x104 [1, 0] (H W (Proc.devRef .tc main_arg8)) transposes_S104x256_S256x104_1_0 := by
  have h := Line.unary_at hW0 21 W rfl (by decide) (by decide)
  exact h
theorem e_v18 : H W (Proc.devRef .tc main_call0_v18) = truncf .bf16 (H W (Proc.devRef .tc main_call0_v17)) bitsLt_bf16_f32 := by
  have h := Line.unary_at hW0 22 W rfl (by decide) (by decide)
  exact h
theorem e_v19 : H W (Proc.devRef .tc main_call0_v19) = fun i => shapeCast S1x256 (H W (Proc.devRef .tc main_arg7)) shapeCasts_S256_S1x256 i := by
  have h := Line.reshape_at hW0 23 W rfl (by decide) (by decide)
  exact h
theorem e_v20 : H W (Proc.devRef .tc main_call0_v20) = fun i => shapeCast S1x104 (H W (Proc.devRef .tc main_arg9)) shapeCasts_S104_S1x104 i := by
  have h := Line.reshape_at hW0 24 W rfl (by decide) (by decide)
  exact h
theorem e_v21 : H W (Proc.devRef .tc main_call0_v21) = fun i => shapeCast S32x4095x256 (H W (Proc.devRef .tc main_call0_v10)) shapeCasts_S131040x256_S32x4095x256 i := by
  have h := Line.reshape_at hW0 25 W rfl (by decide) (by decide)
  exact h
theorem e_v22 : H W (Proc.devRef .tc main_call0_v22) = fun i => shapeCast S32x4095 (H W (Proc.devRef .tc main_arg1)) shapeCasts_S131040_S32x4095 i := by
  have h := Line.reshape_at hW0 26 W rfl (by decide) (by decide)
  exact h
theorem e_v23 : H W (Proc.devRef .tc main_call0_v23) = extractStridedSlice S32x2048x256 ![0, 2047, 0] (H W (Proc.devRef .tc main_call0_v21)) slices_S32x4095x256_S32x2048x256_0_2047_0 := by
  have h := Line.unary_at hW0 27 W rfl (by decide) (by decide)
  exact h
theorem e_v24 : H W (Proc.devRef .tc main_call0_v24) = fun i => shapeCast S65536x256 (H W (Proc.devRef .tc main_call0_v23)) shapeCasts_S32x2048x256_S65536x256 i := by
  have h := Line.reshape_at hW0 28 W rfl (by decide) (by decide)
  exact h

/-- The gathered rows are `G` of the table argument and the token-id argument. -/
theorem host_v10_eq : H W (Proc.devRef .tc main_call0_v10) = G (W (Proc.devRef .tc main_arg2)) (W (Proc.devRef .tc main_arg0)) := by
  rw [e_v10, e_v3, e_v2, e_v0, e_c, e_v1, e_cst, e_v9, e_v8, e_v5, e_v4, e_c_0, e_v7, e_v6, e_c_1, e_arg2, e_arg0]
  rfl

end Line

/-! ## The prepared arrays entry by entry, on the extended reals -/

variable (W : Valuation τ sig (Elt Ideal))

/-- `W_iou^T`: entry `(k, n)` is `W_iou (n, k)`. -/
theorem host_v12 (k : Fin 256) (n : Fin 768) :
    (H W (Proc.devRef .tc main_call0_v12) : S256x768.Idx → EReal) (ix2 k n)
      = (W (Proc.devRef .tc main_arg3) : S768x256.Idx → EReal) (ix2 n k) := by
  rw [e_v12, truncf_apply, e_v11, transpose_ix2_apply, e_arg3]

/-- `U_iou^T`: entry `(k, n)` is `U_iou (n, k)`. -/
theorem host_v16 (k : Fin 256) (n : Fin 768) :
    (H W (Proc.devRef .tc main_call0_v16) : S256x768.Idx → EReal) (ix2 k n)
      = (W (Proc.devRef .tc main_arg4) : S768x256.Idx → EReal) (ix2 n k) := by
  rw [e_v16, truncf_apply, e_v15, transpose_ix2_apply, e_arg4]

/-- `U_f^T`: entry `(k, j)` is `U_f (j, k)`. -/
theorem host_v14 (k j : Fin 256) :
    (H W (Proc.devRef .tc main_call0_v14) : S256x256.Idx → EReal) (ix2 k j)
      = (W (Proc.devRef .tc main_arg6) : S256x256.Idx → EReal) (ix2 j k) := by
  rw [e_v14, truncf_apply, e_v13, transpose_ix2_apply, e_arg6]

/-- `lin_w^T`: entry `(k, n)` is `lin_w (n, k)`. -/
theorem host_v18 (k : Fin 256) (n : Fin 104) :
    (H W (Proc.devRef .tc main_call0_v18) : S256x104.Idx → EReal) (ix2 k n)
      = (W (Proc.devRef .tc main_arg8) : S104x256.Idx → EReal) (ix2 n k) := by
  rw [e_v18, truncf_apply, e_v17, transpose_ix2_apply, e_arg8]

/-- `U_f_b` as a row: entry `(0, j)` is `U_f_b j`. -/
theorem host_v19 (j : Fin 256) :
    (H W (Proc.devRef .tc main_call0_v19) : S1x256.Idx → EReal) (ix2 0 j)
      = (W (Proc.devRef .tc main_arg7) : S256.Idx → EReal) (ix1 j) := by
  rw [e_v19, e_arg7]; exact shapeCast_a_1a_apply _ _ 0 j

/-- `lin_b` as a row: entry `(0, n)` is `lin_b n`. -/
theorem host_v20 (n : Fin 104) :
    (H W (Proc.devRef .tc main_call0_v20) : S1x104.Idx → EReal) (ix2 0 n)
      = (W (Proc.devRef .tc main_arg9) : S104.Idx → EReal) (ix1 n) := by
  rw [e_v20, e_arg9]; exact shapeCast_a_1a_apply _ _ 0 n

/-- Graph `b`'s node `q` is row `4095 * b + q` of the gathered rows. -/
theorem host_v21 (b : Fin 32) (q : Fin 4095) (k : Fin 256) :
    (H W (Proc.devRef .tc main_call0_v21) : S32x4095x256.Idx → EReal) (ix3 b q k)
      = (H W (Proc.devRef .tc main_call0_v10) : S131040x256.Idx → EReal) (ix2 ⟨4095 * b.val + q.val, by omega⟩ k) := by
  rw [e_v21]; exact cast_rows_apply _ _ b q k

/-- Graph `b`'s node `q` has the parent id of node `4095 * b + q`. -/
theorem host_v22 (b : Fin 32) (q : Fin 4095) :
    (H W (Proc.devRef .tc main_call0_v22) : S32x4095.Idx → BitVec 32) (ix2 b q)
      = (W (Proc.devRef .tc main_arg1) : S131040.Idx → BitVec 32) (ix1 ⟨4095 * b.val + q.val, by omega⟩) := by
  rw [e_v22, e_arg1]; exact cast_vec_apply _ _ b q

/-- Row `i` of the deepest level is the gathered row of node `4095 * (i / 2048) + 2047 + i % 2048`. -/
theorem host_v24 (i : Fin 65536) (k : Fin 256) :
    (H W (Proc.devRef .tc main_call0_v24) : S65536x256.Idx → EReal) (ix2 i k)
      = (H W (Proc.devRef .tc main_call0_v10) : S131040x256.Idx → EReal)
          (ix2 (Cert.TreeLstm.node 2048 2047 65536 rfl (by omega) i) k) := by
  rw [e_v24, e_v23]
  refine (cast_level_apply (nd := 2048) (M := 65536) (C := 256) (by omega) rfl _ _ i k).trans ?_
  refine (slice3_axis1_eq 2047 _ _ _ _ _).trans ?_
  refine (host_v21 W _ _ k).trans ?_
  exact congrArg (fun r => (H W (Proc.devRef .tc main_call0_v10) : S131040x256.Idx → EReal) (ix2 r k))
    (Fin.ext (by
      show 4095 * (i.val / 2048) + (2047 + i.val % 2048) = 4095 * (i.val / 2048) + 2047 + i.val % 2048
      omega))

end Cert.KernelIdeal.Pre
-- ==== Proof.KPersist.lean ====
/-
  The arrays the first host stretch prepares, and the bias argument `b_iou`, at every later region's entry.

  Each later stretch writes 55 fresh arrays of its own (the last one a single one), none of them one of these; a
  region writes back only its one output array, and an array it reads through an input window comes out as it went
  in. So across each region and the stretch after it each of these arrays keeps its contents, and by induction on
  the boundaries it holds at every region's entry what it held at region 0's.
-/
import proofs.«419362_j66683662237734_3_alg».proof.Proof.KernelIdealFrameP
import proofs.«419362_j66683662237734_3_alg».proof.Proof.KPreHost

set_option maxRecDepth 16384

noncomputable section

namespace Cert.KernelIdeal.Pre

open Cert.KernelIdeal Cert.KernelIdeal.Gen
open Idealize.ShloMosaic Idealize.ShloMosaic.TcCoe
open Idealize.ShloMosaic.Pipeline (Dat Cfg Window)
open Cert.ReferenceIdeal (Line.Writes Line.keep)

variable {F : FTy → Type} [FloatOps F]

/-- The arrays the stretch before region 1 writes, in order. -/
abbrev wr1 : List (Ref sig .tc) :=
  [main_call0_v26, main_call0_v27, main_call0_v28, main_call0_v29, main_call0_c_2, main_call0_call0_v0, main_call0_call0_v1, main_call0_call0_v2, main_call0_call0_v3, main_call0_call0_v4, main_call0_call0_v5, main_call0_call0_v6, main_call0_call0_v7, main_call0_call0_v8, main_call0_call0_c, main_call0_call0_v9, main_call0_call0_v10, main_call0_call0_v11, main_call0_call0_c_0, main_call0_call0_v12, main_call0_call0_v13, main_call0_v30, main_call0_c_3, main_call0_v31, main_call0_v32, main_call0_c_4, main_call0_call1_v0, main_call0_call1_c, main_call0_call1_v1, main_call0_call1_c_0, main_call0_call1_v2, main_call0_call1_v3, main_call0_call1_v4, main_call0_call1_c_1, main_call0_call1_v5, main_call0_call1_v6, main_call0_call1_c_2, main_call0_call1_v7, main_call0_call1_v8, main_call0_call1_c_3, main_call0_call1_v9, main_call0_call1_v10, main_call0_call1_v11, main_call0_call1_v12, main_call0_call1_v13, main_call0_call1_v14, main_call0_v33, main_call0_c_5, main_call0_v34, main_call0_v35, main_call0_v36, main_call0_cst_6, main_call0_v37, main_call0_v38, main_call0_v39]
/-- Each of its operations writes exactly the array listed for it. -/
theorem hW1 : Line.Writes (τ := τ) (hostOps1 (F := F)) wr1 := by
  unfold hostOps1 wr1
  repeat (first | exact List.Forall₂.nil | refine List.Forall₂.cons rfl ?_)

/-- The arrays the stretch before region 2 writes, in order. -/
abbrev wr2 : List (Ref sig .tc) :=
  [main_call0_v41, main_call0_v42, main_call0_v43, main_call0_v44, main_call0_c_7, main_call0_call2_v0, main_call0_call2_v1, main_call0_call2_v2, main_call0_call2_v3, main_call0_call2_v4, main_call0_call2_v5, main_call0_call2_v6, main_call0_call2_v7, main_call0_call2_v8, main_call0_call2_c, main_call0_call2_v9, main_call0_call2_v10, main_call0_call2_v11, main_call0_call2_c_0, main_call0_call2_v12, main_call0_call2_v13, main_call0_v45, main_call0_c_8, main_call0_v46, main_call0_v47, main_call0_c_9, main_call0_call3_v0, main_call0_call3_c, main_call0_call3_v1, main_call0_call3_c_0, main_call0_call3_v2, main_call0_call3_v3, main_call0_call3_v4, main_call0_call3_c_1, main_call0_call3_v5, main_call0_call3_v6, main_call0_call3_c_2, main_call0_call3_v7, main_call0_call3_v8, main_call0_call3_c_3, main_call0_call3_v9, main_call0_call3_v10, main_call0_call3_v11, main_call0_call3_v12, main_call0_call3_v13, main_call0_call3_v14, main_call0_v48, main_call0_c_10, main_call0_v49, main_call0_v50, main_call0_v51, main_call0_cst_11, main_call0_v52, main_call0_v53, main_call0_v54]
/-- Each of its operations writes exactly the array listed for it. -/
theorem hW2 : Line.Writes (τ := τ) (hostOps2 (F := F)) wr2 := by
  unfold hostOps2 wr2
  repeat (first | exact List.Forall₂.nil | refine List.Forall₂.cons rfl ?_)

/-- The arrays the stretch before region 3 writes, in order. -/
abbrev wr3 : List (Ref sig .tc) :=
  [main_call0_v56, main_call0_v57, main_call0_v58, main_call0_v59, main_call0_c_12, main_call0_call4_v0, main_call0_call4_v1, main_call0_call4_v2, main_call0_call4_v3, main_call0_call4_v4, main_call0_call4_v5, main_call0_call4_v6, main_call0_call4_v7, main_call0_call4_v8, main_call0_call4_c, main_call0_call4_v9, main_call0_call4_v10, main_call0_call4_v11, main_call0_call4_c_0, main_call0_call4_v12, main_call0_call4_v13, main_call0_v60, main_call0_c_13, main_call0_v61, main_call0_v62, main_call0_c_14, main_call0_call5_v0, main_call0_call5_c, main_call0_call5_v1, main_call0_call5_c_0, main_call0_call5_v2, main_call0_call5_v3, main_call0_call5_v4, main_call0_call5_c_1, main_call0_call5_v5, main_call0_call5_v6, main_call0_call5_c_2, main_call0_call5_v7, main_call0_call5_v8, main_call0_call5_c_3, main_call0_call5_v9, main_call0_call5_v10, main_call0_call5_v11, main_call0_call5_v12, main_call0_call5_v13, main_call0_call5_v14, main_call0_v63, main_call0_c_15, main_call0_v64, main_call0_v65, main_call0_v66, main_call0_cst_16, main_call0_v67, main_call0_v68, main_call0_v69]
/-- Each of its operations writes exactly the array listed for it. -/
theorem hW3 : Line.Writes (τ := τ) (hostOps3 (F := F)) wr3 := by
  unfold hostOps3 wr3
  repeat (first | exact List.Forall₂.nil | refine List.Forall₂.cons rfl ?_)

/-- The arrays the stretch before region 4 writes, in order. -/
abbrev wr4 : List (Ref sig .tc) :=
  [main_call0_v71, main_call0_v72, main_call0_v73, main_call0_v74, main_call0_c_17, main_call0_call6_v0, main_call0_call6_v1, main_call0_call6_v2, main_call0_call6_v3, main_call0_call6_v4, main_call0_call6_v5, main_call0_call6_v6, main_call0_call6_v7, main_call0_call6_v8, main_call0_call6_c, main_call0_call6_v9, main_call0_call6_v10, main_call0_call6_v11, main_call0_call6_c_0, main_call0_call6_v12, main_call0_call6_v13, main_call0_v75, main_call0_c_18, main_call0_v76, main_call0_v77, main_call0_c_19, main_call0_call7_v0, main_call0_call7_c, main_call0_call7_v1, main_call0_call7_c_0, main_call0_call7_v2, main_call0_call7_v3, main_call0_call7_v4, main_call0_call7_c_1, main_call0_call7_v5, main_call0_call7_v6, main_call0_call7_c_2, main_call0_call7_v7, main_call0_call7_v8, main_call0_call7_c_3, main_call0_call7_v9, main_call0_call7_v10, main_call0_call7_v11, main_call0_call7_v12, main_call0_call7_v13, main_call0_call7_v14, main_call0_v78, main_call0_c_20, main_call0_v79, main_call0_v80, main_call0_v81, main_call0_cst_21, main_call0_v82, main_call0_v83, main_call0_v84]
/-- Each of its operations writes exactly the array listed for it. -/
theorem hW4 : Line.Writes (τ := τ) (hostOps4 (F := F)) wr4 := by
  unfold hostOps4 wr4
  repeat (first | exact List.Forall₂.nil | refine List.Forall₂.cons rfl ?_)

/-- The arrays the stretch before region 5 writes, in order. -/
abbrev wr5 : List (Ref sig .tc) :=
  [main_call0_v86, main_call0_v87, main_call0_v88, main_call0_v89, main_call0_c_22, main_call0_call8_v0, main_call0_call8_v1, main_call0_call8_v2, main_call0_call8_v3, main_call0_call8_v4, main_call0_call8_v5, main_call0_call8_v6, main_call0_call8_v7, main_call0_call8_v8, main_call0_call8_c, main_call0_call8_v9, main_call0_call8_v10, main_call0_call8_v11, main_call0_call8_c_0, main_call0_call8_v12, main_call0_call8_v13, main_call0_v90, main_call0_c_23, main_call0_v91, main_call0_v92, main_call0_c_24, main_call0_call9_v0, main_call0_call9_c, main_call0_call9_v1, main_call0_call9_c_0, main_call0_call9_v2, main_call0_call9_v3, main_call0_call9_v4, main_call0_call9_c_1, main_call0_call9_v5, main_call0_call9_v6, main_call0_call9_c_2, main_call0_call9_v7, main_call0_call9_v8, main_call0_call9_c_3, main_call0_call9_v9, main_call0_call9_v10, main_call0_call9_v11, main_call0_call9_v12, main_call0_call9_v13, main_call0_call9_v14, main_call0_v93, main_call0_c_25, main_call0_v94, main_call0_v95, main_call0_v96, main_call0_cst_26, main_call0_v97, main_call0_v98, main_call0_v99]
/-- Each of its operations writes exactly the array listed for it. -/
theorem hW5 : Line.Writes (τ := τ) (hostOps5 (F := F)) wr5 := by
  unfold hostOps5 wr5
  repeat (first | exact List.Forall₂.nil | refine List.Forall₂.cons rfl ?_)

/-- The arrays the stretch before region 6 writes, in order. -/
abbrev wr6 : List (Ref sig .tc) :=
  [main_call0_v101, main_call0_v102, main_call0_v103, main_call0_v104, main_call0_c_27, main_call0_call10_v0, main_call0_call10_v1, main_call0_call10_v2, main_call0_call10_v3, main_call0_call10_v4, main_call0_call10_v5, main_call0_call10_v6, main_call0_call10_v7, main_call0_call10_v8, main_call0_call10_c, main_call0_call10_v9, main_call0_call10_v10, main_call0_call10_v11, main_call0_call10_c_0, main_call0_call10_v12, main_call0_call10_v13, main_call0_v105, main_call0_c_28, main_call0_v106, main_call0_v107, main_call0_c_29, main_call0_call11_v0, main_call0_call11_c, main_call0_call11_v1, main_call0_call11_c_0, main_call0_call11_v2, main_call0_call11_v3, main_call0_call11_v4, main_call0_call11_c_1, main_call0_call11_v5, main_call0_call11_v6, main_call0_call11_c_2, main_call0_call11_v7, main_call0_call11_v8, main_call0_call11_c_3, main_call0_call11_v9, main_call0_call11_v10, main_call0_call11_v11, main_call0_call11_v12, main_call0_call11_v13, main_call0_call11_v14, main_call0_v108, main_call0_c_30, main_call0_v109, main_call0_v110, main_call0_v111, main_call0_cst_31, main_call0_v112, main_call0_v113, main_call0_v114]
/-- Each of its operations writes exactly the array listed for it. -/
theorem hW6 : Line.Writes (τ := τ) (hostOps6 (F := F)) wr6 := by
  unfold hostOps6 wr6
  repeat (first | exact List.Forall₂.nil | refine List.Forall₂.cons rfl ?_)

/-- The arrays the stretch before region 7 writes, in order. -/
abbrev wr7 : List (Ref sig .tc) :=
  [main_call0_v116, main_call0_v117, main_call0_v118, main_call0_v119, main_call0_c_32, main_call0_call12_v0, main_call0_call12_v1, main_call0_call12_v2, main_call0_call12_v3, main_call0_call12_v4, main_call0_call12_v5, main_call0_call12_v6, main_call0_call12_v7, main_call0_call12_v8, main_call0_call12_c, main_call0_call12_v9, main_call0_call12_v10, main_call0_call12_v11, main_call0_call12_c_0, main_call0_call12_v12, main_call0_call12_v13, main_call0_v120, main_call0_c_33, main_call0_v121, main_call0_v122, main_call0_c_34, main_call0_call13_v0, main_call0_call13_c, main_call0_call13_v1, main_call0_call13_c_0, main_call0_call13_v2, main_call0_call13_v3, main_call0_call13_v4, main_call0_call13_c_1, main_call0_call13_v5, main_call0_call13_v6, main_call0_call13_c_2, main_call0_call13_v7, main_call0_call13_v8, main_call0_call13_c_3, main_call0_call13_v9, main_call0_call13_v10, main_call0_call13_v11, main_call0_call13_v12, main_call0_call13_v13, main_call0_call13_v14, main_call0_v123, main_call0_c_35, main_call0_v124, main_call0_v125, main_call0_v126, main_call0_cst_36, main_call0_v127, main_call0_v128, main_call0_v129]
/-- Each of its operations writes exactly the array listed for it. -/
theorem hW7 : Line.Writes (τ := τ) (hostOps7 (F := F)) wr7 := by
  unfold hostOps7 wr7
  repeat (first | exact List.Forall₂.nil | refine List.Forall₂.cons rfl ?_)

/-- The arrays the stretch before region 8 writes, in order. -/
abbrev wr8 : List (Ref sig .tc) :=
  [main_call0_v131, main_call0_v132, main_call0_v133, main_call0_v134, main_call0_c_37, main_call0_call14_v0, main_call0_call14_v1, main_call0_call14_v2, main_call0_call14_v3, main_call0_call14_v4, main_call0_call14_v5, main_call0_call14_v6, main_call0_call14_v7, main_call0_call14_v8, main_call0_call14_c, main_call0_call14_v9, main_call0_call14_v10, main_call0_call14_v11, main_call0_call14_c_0, main_call0_call14_v12, main_call0_call14_v13, main_call0_v135, main_call0_c_38, main_call0_v136, main_call0_v137, main_call0_c_39, main_call0_call15_v0, main_call0_call15_c, main_call0_call15_v1, main_call0_call15_c_0, main_call0_call15_v2, main_call0_call15_v3, main_call0_call15_v4, main_call0_call15_c_1, main_call0_call15_v5, main_call0_call15_v6, main_call0_call15_c_2, main_call0_call15_v7, main_call0_call15_v8, main_call0_call15_c_3, main_call0_call15_v9, main_call0_call15_v10, main_call0_call15_v11, main_call0_call15_v12, main_call0_call15_v13, main_call0_call15_v14, main_call0_v138, main_call0_c_40, main_call0_v139, main_call0_v140, main_call0_v141, main_call0_cst_41, main_call0_v142, main_call0_v143, main_call0_v144]
/-- Each of its operations writes exactly the array listed for it. -/
theorem hW8 : Line.Writes (τ := τ) (hostOps8 (F := F)) wr8 := by
  unfold hostOps8 wr8
  repeat (first | exact List.Forall₂.nil | refine List.Forall₂.cons rfl ?_)

/-- The arrays the stretch before region 9 writes, in order. -/
abbrev wr9 : List (Ref sig .tc) :=
  [main_call0_v146, main_call0_v147, main_call0_v148, main_call0_v149, main_call0_c_42, main_call0_call16_v0, main_call0_call16_v1, main_call0_call16_v2, main_call0_call16_v3, main_call0_call16_v4, main_call0_call16_v5, main_call0_call16_v6, main_call0_call16_v7, main_call0_call16_v8, main_call0_call16_c, main_call0_call16_v9, main_call0_call16_v10, main_call0_call16_v11, main_call0_call16_c_0, main_call0_call16_v12, main_call0_call16_v13, main_call0_v150, main_call0_c_43, main_call0_v151, main_call0_v152, main_call0_c_44, main_call0_call17_v0, main_call0_call17_c, main_call0_call17_v1, main_call0_call17_c_0, main_call0_call17_v2, main_call0_call17_v3, main_call0_call17_v4, main_call0_call17_c_1, main_call0_call17_v5, main_call0_call17_v6, main_call0_call17_c_2, main_call0_call17_v7, main_call0_call17_v8, main_call0_call17_c_3, main_call0_call17_v9, main_call0_call17_v10, main_call0_call17_v11, main_call0_call17_v12, main_call0_call17_v13, main_call0_call17_v14, main_call0_v153, main_call0_c_45, main_call0_v154, main_call0_v155, main_call0_v156, main_call0_cst_46, main_call0_v157, main_call0_v158, main_call0_v159]
/-- Each of its operations writes exactly the array listed for it. -/
theorem hW9 : Line.Writes (τ := τ) (hostOps9 (F := F)) wr9 := by
  unfold hostOps9 wr9
  repeat (first | exact List.Forall₂.nil | refine List.Forall₂.cons rfl ?_)

/-- The arrays the stretch before region 10 writes, in order. -/
abbrev wr10 : List (Ref sig .tc) :=
  [main_call0_v161, main_call0_v162, main_call0_v163, main_call0_v164, main_call0_c_47, main_call0_call18_v0, main_call0_call18_v1, main_call0_call18_v2, main_call0_call18_v3, main_call0_call18_v4, main_call0_call18_v5, main_call0_call18_v6, main_call0_call18_v7, main_call0_call18_v8, main_call0_call18_c, main_call0_call18_v9, main_call0_call18_v10, main_call0_call18_v11, main_call0_call18_c_0, main_call0_call18_v12, main_call0_call18_v13, main_call0_v165, main_call0_c_48, main_call0_v166, main_call0_v167, main_call0_c_49, main_call0_call19_v0, main_call0_call19_c, main_call0_call19_v1, main_call0_call19_c_0, main_call0_call19_v2, main_call0_call19_v3, main_call0_call19_v4, main_call0_call19_c_1, main_call0_call19_v5, main_call0_call19_v6, main_call0_call19_c_2, main_call0_call19_v7, main_call0_call19_v8, main_call0_call19_c_3, main_call0_call19_v9, main_call0_call19_v10, main_call0_call19_v11, main_call0_call19_v12, main_call0_call19_v13, main_call0_call19_v14, main_call0_v168, main_call0_c_50, main_call0_v169, main_call0_v170, main_call0_v171, main_call0_cst_51, main_call0_v172, main_call0_v173, main_call0_v174]
/-- Each of its operations writes exactly the array listed for it. -/
theorem hW10 : Line.Writes (τ := τ) (hostOps10 (F := F)) wr10 := by
  unfold hostOps10 wr10
  repeat (first | exact List.Forall₂.nil | refine List.Forall₂.cons rfl ?_)

/-- The arrays the stretch before region 11 writes, in order. -/
abbrev wr11 : List (Ref sig .tc) :=
  [main_call0_v176, main_call0_v177, main_call0_v178, main_call0_v179, main_call0_c_52, main_call0_call20_v0, main_call0_call20_v1, main_call0_call20_v2, main_call0_call20_v3, main_call0_call20_v4, main_call0_call20_v5, main_call0_call20_v6, main_call0_call20_v7, main_call0_call20_v8, main_call0_call20_c, main_call0_call20_v9, main_call0_call20_v10, main_call0_call20_v11, main_call0_call20_c_0, main_call0_call20_v12, main_call0_call20_v13, main_call0_v180, main_call0_c_53, main_call0_v181, main_call0_v182, main_call0_c_54, main_call0_call21_v0, main_call0_call21_c, main_call0_call21_v1, main_call0_call21_c_0, main_call0_call21_v2, main_call0_call21_v3, main_call0_call21_v4, main_call0_call21_c_1, main_call0_call21_v5, main_call0_call21_v6, main_call0_call21_c_2, main_call0_call21_v7, main_call0_call21_v8, main_call0_call21_c_3, main_call0_call21_v9, main_call0_call21_v10, main_call0_call21_v11, main_call0_call21_v12, main_call0_call21_v13, main_call0_call21_v14, main_call0_v183, main_call0_c_55, main_call0_v184, main_call0_v185, main_call0_v186, main_call0_cst_56, main_call0_v187, main_call0_v188, main_call0_v189]
/-- Each of its operations writes exactly the array listed for it. -/
theorem hW11 : Line.Writes (τ := τ) (hostOps11 (F := F)) wr11 := by
  unfold hostOps11 wr11
  repeat (first | exact List.Forall₂.nil | refine List.Forall₂.cons rfl ?_)

/-- The arrays the stretch before region 12 writes, in order. -/
abbrev wr12 : List (Ref sig .tc) :=
  [main_call0_v191]
/-- Each of its operations writes exactly the array listed for it. -/
theorem hW12 : Line.Writes (τ := τ) (hostOps12 (F := F)) wr12 := by
  unfold hostOps12 wr12
  repeat (first | exact List.Forall₂.nil | refine List.Forall₂.cons rfl ?_)

variable (m : (ℓ : Loc nD τ sig) → Buf (Elt F) ℓ) (ρ : Dev nD → PrngReg) (c : Dev nD)

/-- The first stretch leaves the bias argument as launched. -/
theorem V1_arg5 : V1 m ρ c main_arg5 = m ((c : Thread nD τ).loc main_arg5) :=
  Line.keep hW0 (W0 m ρ c) (by decide)

/-! ### Across region 0 and the stretch after it -/

theorem V3_v10 : V3 m ρ c main_call0_v10 = V1 m ρ c main_call0_v10 :=
  ((Line.keep hW1 (W2 m ρ c) (by decide)).trans (W2_of_ne m ρ c main_call0_v10 (by decide)))
theorem V3_v12 : V3 m ρ c main_call0_v12 = V1 m ρ c main_call0_v12 :=
  ((Line.keep hW1 (W2 m ρ c) (by decide)).trans ((W2_arr m ρ c 1).trans (((dat0 (V1 m ρ) c).arrAt_in 1 rfl _).trans (A_eq0 (V1 m ρ) c 1))))
theorem V3_v14 : V3 m ρ c main_call0_v14 = V1 m ρ c main_call0_v14 :=
  ((Line.keep hW1 (W2 m ρ c) (by decide)).trans ((W2_arr m ρ c 3).trans (((dat0 (V1 m ρ) c).arrAt_in 3 rfl _).trans (A_eq0 (V1 m ρ) c 3))))
theorem V3_v16 : V3 m ρ c main_call0_v16 = V1 m ρ c main_call0_v16 :=
  ((Line.keep hW1 (W2 m ρ c) (by decide)).trans (W2_of_ne m ρ c main_call0_v16 (by decide)))
theorem V3_v18 : V3 m ρ c main_call0_v18 = V1 m ρ c main_call0_v18 :=
  ((Line.keep hW1 (W2 m ρ c) (by decide)).trans (W2_of_ne m ρ c main_call0_v18 (by decide)))
theorem V3_v19 : V3 m ρ c main_call0_v19 = V1 m ρ c main_call0_v19 :=
  ((Line.keep hW1 (W2 m ρ c) (by decide)).trans ((W2_arr m ρ c 4).trans (((dat0 (V1 m ρ) c).arrAt_in 4 rfl _).trans (A_eq0 (V1 m ρ) c 4))))
theorem V3_v20 : V3 m ρ c main_call0_v20 = V1 m ρ c main_call0_v20 :=
  ((Line.keep hW1 (W2 m ρ c) (by decide)).trans (W2_of_ne m ρ c main_call0_v20 (by decide)))
theorem V3_v21 : V3 m ρ c main_call0_v21 = V1 m ρ c main_call0_v21 :=
  ((Line.keep hW1 (W2 m ρ c) (by decide)).trans (W2_of_ne m ρ c main_call0_v21 (by decide)))
theorem V3_v22 : V3 m ρ c main_call0_v22 = V1 m ρ c main_call0_v22 :=
  ((Line.keep hW1 (W2 m ρ c) (by decide)).trans (W2_of_ne m ρ c main_call0_v22 (by decide)))
theorem V3_arg5 : V3 m ρ c main_arg5 = V1 m ρ c main_arg5 :=
  ((Line.keep hW1 (W2 m ρ c) (by decide)).trans ((W2_arr m ρ c 2).trans (((dat0 (V1 m ρ) c).arrAt_in 2 rfl _).trans (A_eq0 (V1 m ρ) c 2))))

/-! ### Across region 1 and the stretch after it -/

theorem V5_v10 : V5 m ρ c main_call0_v10 = V1 m ρ c main_call0_v10 :=
  ((Line.keep hW2 (W4 m ρ c) (by decide)).trans (W4_of_ne m ρ c main_call0_v10 (by decide))).trans (V3_v10 m ρ c)
theorem V5_v12 : V5 m ρ c main_call0_v12 = V1 m ρ c main_call0_v12 :=
  ((Line.keep hW2 (W4 m ρ c) (by decide)).trans ((W4_arr m ρ c 1).trans (((dat1 (V3 m ρ) c).arrAt_in 1 rfl _).trans (A_eq1 (V3 m ρ) c 1)))).trans (V3_v12 m ρ c)
theorem V5_v14 : V5 m ρ c main_call0_v14 = V1 m ρ c main_call0_v14 :=
  ((Line.keep hW2 (W4 m ρ c) (by decide)).trans ((W4_arr m ρ c 5).trans (((dat1 (V3 m ρ) c).arrAt_in 5 rfl _).trans (A_eq1 (V3 m ρ) c 5)))).trans (V3_v14 m ρ c)
theorem V5_v16 : V5 m ρ c main_call0_v16 = V1 m ρ c main_call0_v16 :=
  ((Line.keep hW2 (W4 m ρ c) (by decide)).trans ((W4_arr m ρ c 4).trans (((dat1 (V3 m ρ) c).arrAt_in 4 rfl _).trans (A_eq1 (V3 m ρ) c 4)))).trans (V3_v16 m ρ c)
theorem V5_v18 : V5 m ρ c main_call0_v18 = V1 m ρ c main_call0_v18 :=
  ((Line.keep hW2 (W4 m ρ c) (by decide)).trans (W4_of_ne m ρ c main_call0_v18 (by decide))).trans (V3_v18 m ρ c)
theorem V5_v19 : V5 m ρ c main_call0_v19 = V1 m ρ c main_call0_v19 :=
  ((Line.keep hW2 (W4 m ρ c) (by decide)).trans ((W4_arr m ρ c 6).trans (((dat1 (V3 m ρ) c).arrAt_in 6 rfl _).trans (A_eq1 (V3 m ρ) c 6)))).trans (V3_v19 m ρ c)
theorem V5_v20 : V5 m ρ c main_call0_v20 = V1 m ρ c main_call0_v20 :=
  ((Line.keep hW2 (W4 m ρ c) (by decide)).trans (W4_of_ne m ρ c main_call0_v20 (by decide))).trans (V3_v20 m ρ c)
theorem V5_v21 : V5 m ρ c main_call0_v21 = V1 m ρ c main_call0_v21 :=
  ((Line.keep hW2 (W4 m ρ c) (by decide)).trans (W4_of_ne m ρ c main_call0_v21 (by decide))).trans (V3_v21 m ρ c)
theorem V5_v22 : V5 m ρ c main_call0_v22 = V1 m ρ c main_call0_v22 :=
  ((Line.keep hW2 (W4 m ρ c) (by decide)).trans (W4_of_ne m ρ c main_call0_v22 (by decide))).trans (V3_v22 m ρ c)
theorem V5_arg5 : V5 m ρ c main_arg5 = V1 m ρ c main_arg5 :=
  ((Line.keep hW2 (W4 m ρ c) (by decide)).trans ((W4_arr m ρ c 2).trans (((dat1 (V3 m ρ) c).arrAt_in 2 rfl _).trans (A_eq1 (V3 m ρ) c 2)))).trans (V3_arg5 m ρ c)

/-! ### Across region 2 and the stretch after it -/

theorem V7_v10 : V7 m ρ c main_call0_v10 = V1 m ρ c main_call0_v10 :=
  ((Line.keep hW3 (W6 m ρ c) (by decide)).trans (W6_of_ne m ρ c main_call0_v10 (by decide))).trans (V5_v10 m ρ c)
theorem V7_v12 : V7 m ρ c main_call0_v12 = V1 m ρ c main_call0_v12 :=
  ((Line.keep hW3 (W6 m ρ c) (by decide)).trans ((W6_arr m ρ c 1).trans (((dat2 (V5 m ρ) c).arrAt_in 1 rfl _).trans (A_eq2 (V5 m ρ) c 1)))).trans (V5_v12 m ρ c)
theorem V7_v14 : V7 m ρ c main_call0_v14 = V1 m ρ c main_call0_v14 :=
  ((Line.keep hW3 (W6 m ρ c) (by decide)).trans ((W6_arr m ρ c 5).trans (((dat2 (V5 m ρ) c).arrAt_in 5 rfl _).trans (A_eq2 (V5 m ρ) c 5)))).trans (V5_v14 m ρ c)
theorem V7_v16 : V7 m ρ c main_call0_v16 = V1 m ρ c main_call0_v16 :=
  ((Line.keep hW3 (W6 m ρ c) (by decide)).trans ((W6_arr m ρ c 4).trans (((dat2 (V5 m ρ) c).arrAt_in 4 rfl _).trans (A_eq2 (V5 m ρ) c 4)))).trans (V5_v16 m ρ c)
theorem V7_v18 : V7 m ρ c main_call0_v18 = V1 m ρ c main_call0_v18 :=
  ((Line.keep hW3 (W6 m ρ c) (by decide)).trans (W6_of_ne m ρ c main_call0_v18 (by decide))).trans (V5_v18 m ρ c)
theorem V7_v19 : V7 m ρ c main_call0_v19 = V1 m ρ c main_call0_v19 :=
  ((Line.keep hW3 (W6 m ρ c) (by decide)).trans ((W6_arr m ρ c 6).trans (((dat2 (V5 m ρ) c).arrAt_in 6 rfl _).trans (A_eq2 (V5 m ρ) c 6)))).trans (V5_v19 m ρ c)
theorem V7_v20 : V7 m ρ c main_call0_v20 = V1 m ρ c main_call0_v20 :=
  ((Line.keep hW3 (W6 m ρ c) (by decide)).trans (W6_of_ne m ρ c main_call0_v20 (by decide))).trans (V5_v20 m ρ c)
theorem V7_v21 : V7 m ρ c main_call0_v21 = V1 m ρ c main_call0_v21 :=
  ((Line.keep hW3 (W6 m ρ c) (by decide)).trans (W6_of_ne m ρ c main_call0_v21 (by decide))).trans (V5_v21 m ρ c)
theorem V7_v22 : V7 m ρ c main_call0_v22 = V1 m ρ c main_call0_v22 :=
  ((Line.keep hW3 (W6 m ρ c) (by decide)).trans (W6_of_ne m ρ c main_call0_v22 (by decide))).trans (V5_v22 m ρ c)
theorem V7_arg5 : V7 m ρ c main_arg5 = V1 m ρ c main_arg5 :=
  ((Line.keep hW3 (W6 m ρ c) (by decide)).trans ((W6_arr m ρ c 2).trans (((dat2 (V5 m ρ) c).arrAt_in 2 rfl _).trans (A_eq2 (V5 m ρ) c 2)))).trans (V5_arg5 m ρ c)

/-! ### Across region 3 and the stretch after it -/

theorem V9_v10 : V9 m ρ c main_call0_v10 = V1 m ρ c main_call0_v10 :=
  ((Line.keep hW4 (W8 m ρ c) (by decide)).trans (W8_of_ne m ρ c main_call0_v10 (by decide))).trans (V7_v10 m ρ c)
theorem V9_v12 : V9 m ρ c main_call0_v12 = V1 m ρ c main_call0_v12 :=
  ((Line.keep hW4 (W8 m ρ c) (by decide)).trans ((W8_arr m ρ c 1).trans (((dat3 (V7 m ρ) c).arrAt_in 1 rfl _).trans (A_eq3 (V7 m ρ) c 1)))).trans (V7_v12 m ρ c)
theorem V9_v14 : V9 m ρ c main_call0_v14 = V1 m ρ c main_call0_v14 :=
  ((Line.keep hW4 (W8 m ρ c) (by decide)).trans ((W8_arr m ρ c 5).trans (((dat3 (V7 m ρ) c).arrAt_in 5 rfl _).trans (A_eq3 (V7 m ρ) c 5)))).trans (V7_v14 m ρ c)
theorem V9_v16 : V9 m ρ c main_call0_v16 = V1 m ρ c main_call0_v16 :=
  ((Line.keep hW4 (W8 m ρ c) (by decide)).trans ((W8_arr m ρ c 4).trans (((dat3 (V7 m ρ) c).arrAt_in 4 rfl _).trans (A_eq3 (V7 m ρ) c 4)))).trans (V7_v16 m ρ c)
theorem V9_v18 : V9 m ρ c main_call0_v18 = V1 m ρ c main_call0_v18 :=
  ((Line.keep hW4 (W8 m ρ c) (by decide)).trans (W8_of_ne m ρ c main_call0_v18 (by decide))).trans (V7_v18 m ρ c)
theorem V9_v19 : V9 m ρ c main_call0_v19 = V1 m ρ c main_call0_v19 :=
  ((Line.keep hW4 (W8 m ρ c) (by decide)).trans ((W8_arr m ρ c 6).trans (((dat3 (V7 m ρ) c).arrAt_in 6 rfl _).trans (A_eq3 (V7 m ρ) c 6)))).trans (V7_v19 m ρ c)
theorem V9_v20 : V9 m ρ c main_call0_v20 = V1 m ρ c main_call0_v20 :=
  ((Line.keep hW4 (W8 m ρ c) (by decide)).trans (W8_of_ne m ρ c main_call0_v20 (by decide))).trans (V7_v20 m ρ c)
theorem V9_v21 : V9 m ρ c main_call0_v21 = V1 m ρ c main_call0_v21 :=
  ((Line.keep hW4 (W8 m ρ c) (by decide)).trans (W8_of_ne m ρ c main_call0_v21 (by decide))).trans (V7_v21 m ρ c)
theorem V9_v22 : V9 m ρ c main_call0_v22 = V1 m ρ c main_call0_v22 :=
  ((Line.keep hW4 (W8 m ρ c) (by decide)).trans (W8_of_ne m ρ c main_call0_v22 (by decide))).trans (V7_v22 m ρ c)
theorem V9_arg5 : V9 m ρ c main_arg5 = V1 m ρ c main_arg5 :=
  ((Line.keep hW4 (W8 m ρ c) (by decide)).trans ((W8_arr m ρ c 2).trans (((dat3 (V7 m ρ) c).arrAt_in 2 rfl _).trans (A_eq3 (V7 m ρ) c 2)))).trans (V7_arg5 m ρ c)

/-! ### Across region 4 and the stretch after it -/

theorem V11_v10 : V11 m ρ c main_call0_v10 = V1 m ρ c main_call0_v10 :=
  ((Line.keep hW5 (W10 m ρ c) (by decide)).trans (W10_of_ne m ρ c main_call0_v10 (by decide))).trans (V9_v10 m ρ c)
theorem V11_v12 : V11 m ρ c main_call0_v12 = V1 m ρ c main_call0_v12 :=
  ((Line.keep hW5 (W10 m ρ c) (by decide)).trans ((W10_arr m ρ c 1).trans (((dat4 (V9 m ρ) c).arrAt_in 1 rfl _).trans (A_eq4 (V9 m ρ) c 1)))).trans (V9_v12 m ρ c)
theorem V11_v14 : V11 m ρ c main_call0_v14 = V1 m ρ c main_call0_v14 :=
  ((Line.keep hW5 (W10 m ρ c) (by decide)).trans ((W10_arr m ρ c 5).trans (((dat4 (V9 m ρ) c).arrAt_in 5 rfl _).trans (A_eq4 (V9 m ρ) c 5)))).trans (V9_v14 m ρ c)
theorem V11_v16 : V11 m ρ c main_call0_v16 = V1 m ρ c main_call0_v16 :=
  ((Line.keep hW5 (W10 m ρ c) (by decide)).trans ((W10_arr m ρ c 4).trans (((dat4 (V9 m ρ) c).arrAt_in 4 rfl _).trans (A_eq4 (V9 m ρ) c 4)))).trans (V9_v16 m ρ c)
theorem V11_v18 : V11 m ρ c main_call0_v18 = V1 m ρ c main_call0_v18 :=
  ((Line.keep hW5 (W10 m ρ c) (by decide)).trans (W10_of_ne m ρ c main_call0_v18 (by decide))).trans (V9_v18 m ρ c)
theorem V11_v19 : V11 m ρ c main_call0_v19 = V1 m ρ c main_call0_v19 :=
  ((Line.keep hW5 (W10 m ρ c) (by decide)).trans ((W10_arr m ρ c 6).trans (((dat4 (V9 m ρ) c).arrAt_in 6 rfl _).trans (A_eq4 (V9 m ρ) c 6)))).trans (V9_v19 m ρ c)
theorem V11_v20 : V11 m ρ c main_call0_v20 = V1 m ρ c main_call0_v20 :=
  ((Line.keep hW5 (W10 m ρ c) (by decide)).trans (W10_of_ne m ρ c main_call0_v20 (by decide))).trans (V9_v20 m ρ c)
theorem V11_v21 : V11 m ρ c main_call0_v21 = V1 m ρ c main_call0_v21 :=
  ((Line.keep hW5 (W10 m ρ c) (by decide)).trans (W10_of_ne m ρ c main_call0_v21 (by decide))).trans (V9_v21 m ρ c)
theorem V11_v22 : V11 m ρ c main_call0_v22 = V1 m ρ c main_call0_v22 :=
  ((Line.keep hW5 (W10 m ρ c) (by decide)).trans (W10_of_ne m ρ c main_call0_v22 (by decide))).trans (V9_v22 m ρ c)
theorem V11_arg5 : V11 m ρ c main_arg5 = V1 m ρ c main_arg5 :=
  ((Line.keep hW5 (W10 m ρ c) (by decide)).trans ((W10_arr m ρ c 2).trans (((dat4 (V9 m ρ) c).arrAt_in 2 rfl _).trans (A_eq4 (V9 m ρ) c 2)))).trans (V9_arg5 m ρ c)

/-! ### Across region 5 and the stretch after it -/

theorem V13_v10 : V13 m ρ c main_call0_v10 = V1 m ρ c main_call0_v10 :=
  ((Line.keep hW6 (W12 m ρ c) (by decide)).trans (W12_of_ne m ρ c main_call0_v10 (by decide))).trans (V11_v10 m ρ c)
theorem V13_v12 : V13 m ρ c main_call0_v12 = V1 m ρ c main_call0_v12 :=
  ((Line.keep hW6 (W12 m ρ c) (by decide)).trans ((W12_arr m ρ c 1).trans (((dat5 (V11 m ρ) c).arrAt_in 1 rfl _).trans (A_eq5 (V11 m ρ) c 1)))).trans (V11_v12 m ρ c)
theorem V13_v14 : V13 m ρ c main_call0_v14 = V1 m ρ c main_call0_v14 :=
  ((Line.keep hW6 (W12 m ρ c) (by decide)).trans ((W12_arr m ρ c 5).trans (((dat5 (V11 m ρ) c).arrAt_in 5 rfl _).trans (A_eq5 (V11 m ρ) c 5)))).trans (V11_v14 m ρ c)
theorem V13_v16 : V13 m ρ c main_call0_v16 = V1 m ρ c main_call0_v16 :=
  ((Line.keep hW6 (W12 m ρ c) (by decide)).trans ((W12_arr m ρ c 4).trans (((dat5 (V11 m ρ) c).arrAt_in 4 rfl _).trans (A_eq5 (V11 m ρ) c 4)))).trans (V11_v16 m ρ c)
theorem V13_v18 : V13 m ρ c main_call0_v18 = V1 m ρ c main_call0_v18 :=
  ((Line.keep hW6 (W12 m ρ c) (by decide)).trans (W12_of_ne m ρ c main_call0_v18 (by decide))).trans (V11_v18 m ρ c)
theorem V13_v19 : V13 m ρ c main_call0_v19 = V1 m ρ c main_call0_v19 :=
  ((Line.keep hW6 (W12 m ρ c) (by decide)).trans ((W12_arr m ρ c 6).trans (((dat5 (V11 m ρ) c).arrAt_in 6 rfl _).trans (A_eq5 (V11 m ρ) c 6)))).trans (V11_v19 m ρ c)
theorem V13_v20 : V13 m ρ c main_call0_v20 = V1 m ρ c main_call0_v20 :=
  ((Line.keep hW6 (W12 m ρ c) (by decide)).trans (W12_of_ne m ρ c main_call0_v20 (by decide))).trans (V11_v20 m ρ c)
theorem V13_v21 : V13 m ρ c main_call0_v21 = V1 m ρ c main_call0_v21 :=
  ((Line.keep hW6 (W12 m ρ c) (by decide)).trans (W12_of_ne m ρ c main_call0_v21 (by decide))).trans (V11_v21 m ρ c)
theorem V13_v22 : V13 m ρ c main_call0_v22 = V1 m ρ c main_call0_v22 :=
  ((Line.keep hW6 (W12 m ρ c) (by decide)).trans (W12_of_ne m ρ c main_call0_v22 (by decide))).trans (V11_v22 m ρ c)
theorem V13_arg5 : V13 m ρ c main_arg5 = V1 m ρ c main_arg5 :=
  ((Line.keep hW6 (W12 m ρ c) (by decide)).trans ((W12_arr m ρ c 2).trans (((dat5 (V11 m ρ) c).arrAt_in 2 rfl _).trans (A_eq5 (V11 m ρ) c 2)))).trans (V11_arg5 m ρ c)

/-! ### Across region 6 and the stretch after it -/

theorem V15_v10 : V15 m ρ c main_call0_v10 = V1 m ρ c main_call0_v10 :=
  ((Line.keep hW7 (W14 m ρ c) (by decide)).trans (W14_of_ne m ρ c main_call0_v10 (by decide))).trans (V13_v10 m ρ c)
theorem V15_v12 : V15 m ρ c main_call0_v12 = V1 m ρ c main_call0_v12 :=
  ((Line.keep hW7 (W14 m ρ c) (by decide)).trans ((W14_arr m ρ c 1).trans (((dat6 (V13 m ρ) c).arrAt_in 1 rfl _).trans (A_eq6 (V13 m ρ) c 1)))).trans (V13_v12 m ρ c)
theorem V15_v14 : V15 m ρ c main_call0_v14 = V1 m ρ c main_call0_v14 :=
  ((Line.keep hW7 (W14 m ρ c) (by decide)).trans ((W14_arr m ρ c 5).trans (((dat6 (V13 m ρ) c).arrAt_in 5 rfl _).trans (A_eq6 (V13 m ρ) c 5)))).trans (V13_v14 m ρ c)
theorem V15_v16 : V15 m ρ c main_call0_v16 = V1 m ρ c main_call0_v16 :=
  ((Line.keep hW7 (W14 m ρ c) (by decide)).trans ((W14_arr m ρ c 4).trans (((dat6 (V13 m ρ) c).arrAt_in 4 rfl _).trans (A_eq6 (V13 m ρ) c 4)))).trans (V13_v16 m ρ c)
theorem V15_v18 : V15 m ρ c main_call0_v18 = V1 m ρ c main_call0_v18 :=
  ((Line.keep hW7 (W14 m ρ c) (by decide)).trans (W14_of_ne m ρ c main_call0_v18 (by decide))).trans (V13_v18 m ρ c)
theorem V15_v19 : V15 m ρ c main_call0_v19 = V1 m ρ c main_call0_v19 :=
  ((Line.keep hW7 (W14 m ρ c) (by decide)).trans ((W14_arr m ρ c 6).trans (((dat6 (V13 m ρ) c).arrAt_in 6 rfl _).trans (A_eq6 (V13 m ρ) c 6)))).trans (V13_v19 m ρ c)
theorem V15_v20 : V15 m ρ c main_call0_v20 = V1 m ρ c main_call0_v20 :=
  ((Line.keep hW7 (W14 m ρ c) (by decide)).trans (W14_of_ne m ρ c main_call0_v20 (by decide))).trans (V13_v20 m ρ c)
theorem V15_v21 : V15 m ρ c main_call0_v21 = V1 m ρ c main_call0_v21 :=
  ((Line.keep hW7 (W14 m ρ c) (by decide)).trans (W14_of_ne m ρ c main_call0_v21 (by decide))).trans (V13_v21 m ρ c)
theorem V15_v22 : V15 m ρ c main_call0_v22 = V1 m ρ c main_call0_v22 :=
  ((Line.keep hW7 (W14 m ρ c) (by decide)).trans (W14_of_ne m ρ c main_call0_v22 (by decide))).trans (V13_v22 m ρ c)
theorem V15_arg5 : V15 m ρ c main_arg5 = V1 m ρ c main_arg5 :=
  ((Line.keep hW7 (W14 m ρ c) (by decide)).trans ((W14_arr m ρ c 2).trans (((dat6 (V13 m ρ) c).arrAt_in 2 rfl _).trans (A_eq6 (V13 m ρ) c 2)))).trans (V13_arg5 m ρ c)

/-! ### Across region 7 and the stretch after it -/

theorem V17_v10 : V17 m ρ c main_call0_v10 = V1 m ρ c main_call0_v10 :=
  ((Line.keep hW8 (W16 m ρ c) (by decide)).trans (W16_of_ne m ρ c main_call0_v10 (by decide))).trans (V15_v10 m ρ c)
theorem V17_v12 : V17 m ρ c main_call0_v12 = V1 m ρ c main_call0_v12 :=
  ((Line.keep hW8 (W16 m ρ c) (by decide)).trans ((W16_arr m ρ c 1).trans (((dat7 (V15 m ρ) c).arrAt_in 1 rfl _).trans (A_eq7 (V15 m ρ) c 1)))).trans (V15_v12 m ρ c)
theorem V17_v14 : V17 m ρ c main_call0_v14 = V1 m ρ c main_call0_v14 :=
  ((Line.keep hW8 (W16 m ρ c) (by decide)).trans ((W16_arr m ρ c 5).trans (((dat7 (V15 m ρ) c).arrAt_in 5 rfl _).trans (A_eq7 (V15 m ρ) c 5)))).trans (V15_v14 m ρ c)
theorem V17_v16 : V17 m ρ c main_call0_v16 = V1 m ρ c main_call0_v16 :=
  ((Line.keep hW8 (W16 m ρ c) (by decide)).trans ((W16_arr m ρ c 4).trans (((dat7 (V15 m ρ) c).arrAt_in 4 rfl _).trans (A_eq7 (V15 m ρ) c 4)))).trans (V15_v16 m ρ c)
theorem V17_v18 : V17 m ρ c main_call0_v18 = V1 m ρ c main_call0_v18 :=
  ((Line.keep hW8 (W16 m ρ c) (by decide)).trans (W16_of_ne m ρ c main_call0_v18 (by decide))).trans (V15_v18 m ρ c)
theorem V17_v19 : V17 m ρ c main_call0_v19 = V1 m ρ c main_call0_v19 :=
  ((Line.keep hW8 (W16 m ρ c) (by decide)).trans ((W16_arr m ρ c 6).trans (((dat7 (V15 m ρ) c).arrAt_in 6 rfl _).trans (A_eq7 (V15 m ρ) c 6)))).trans (V15_v19 m ρ c)
theorem V17_v20 : V17 m ρ c main_call0_v20 = V1 m ρ c main_call0_v20 :=
  ((Line.keep hW8 (W16 m ρ c) (by decide)).trans (W16_of_ne m ρ c main_call0_v20 (by decide))).trans (V15_v20 m ρ c)
theorem V17_v21 : V17 m ρ c main_call0_v21 = V1 m ρ c main_call0_v21 :=
  ((Line.keep hW8 (W16 m ρ c) (by decide)).trans (W16_of_ne m ρ c main_call0_v21 (by decide))).trans (V15_v21 m ρ c)
theorem V17_v22 : V17 m ρ c main_call0_v22 = V1 m ρ c main_call0_v22 :=
  ((Line.keep hW8 (W16 m ρ c) (by decide)).trans (W16_of_ne m ρ c main_call0_v22 (by decide))).trans (V15_v22 m ρ c)
theorem V17_arg5 : V17 m ρ c main_arg5 = V1 m ρ c main_arg5 :=
  ((Line.keep hW8 (W16 m ρ c) (by decide)).trans ((W16_arr m ρ c 2).trans (((dat7 (V15 m ρ) c).arrAt_in 2 rfl _).trans (A_eq7 (V15 m ρ) c 2)))).trans (V15_arg5 m ρ c)

/-! ### Across region 8 and the stretch after it -/

theorem V19_v10 : V19 m ρ c main_call0_v10 = V1 m ρ c main_call0_v10 :=
  ((Line.keep hW9 (W18 m ρ c) (by decide)).trans (W18_of_ne m ρ c main_call0_v10 (by decide))).trans (V17_v10 m ρ c)
theorem V19_v12 : V19 m ρ c main_call0_v12 = V1 m ρ c main_call0_v12 :=
  ((Line.keep hW9 (W18 m ρ c) (by decide)).trans ((W18_arr m ρ c 1).trans (((dat8 (V17 m ρ) c).arrAt_in 1 rfl _).trans (A_eq8 (V17 m ρ) c 1)))).trans (V17_v12 m ρ c)
theorem V19_v14 : V19 m ρ c main_call0_v14 = V1 m ρ c main_call0_v14 :=
  ((Line.keep hW9 (W18 m ρ c) (by decide)).trans ((W18_arr m ρ c 5).trans (((dat8 (V17 m ρ) c).arrAt_in 5 rfl _).trans (A_eq8 (V17 m ρ) c 5)))).trans (V17_v14 m ρ c)
theorem V19_v16 : V19 m ρ c main_call0_v16 = V1 m ρ c main_call0_v16 :=
  ((Line.keep hW9 (W18 m ρ c) (by decide)).trans ((W18_arr m ρ c 4).trans (((dat8 (V17 m ρ) c).arrAt_in 4 rfl _).trans (A_eq8 (V17 m ρ) c 4)))).trans (V17_v16 m ρ c)
theorem V19_v18 : V19 m ρ c main_call0_v18 = V1 m ρ c main_call0_v18 :=
  ((Line.keep hW9 (W18 m ρ c) (by decide)).trans (W18_of_ne m ρ c main_call0_v18 (by decide))).trans (V17_v18 m ρ c)
theorem V19_v19 : V19 m ρ c main_call0_v19 = V1 m ρ c main_call0_v19 :=
  ((Line.keep hW9 (W18 m ρ c) (by decide)).trans ((W18_arr m ρ c 6).trans (((dat8 (V17 m ρ) c).arrAt_in 6 rfl _).trans (A_eq8 (V17 m ρ) c 6)))).trans (V17_v19 m ρ c)
theorem V19_v20 : V19 m ρ c main_call0_v20 = V1 m ρ c main_call0_v20 :=
  ((Line.keep hW9 (W18 m ρ c) (by decide)).trans (W18_of_ne m ρ c main_call0_v20 (by decide))).trans (V17_v20 m ρ c)
theorem V19_v21 : V19 m ρ c main_call0_v21 = V1 m ρ c main_call0_v21 :=
  ((Line.keep hW9 (W18 m ρ c) (by decide)).trans (W18_of_ne m ρ c main_call0_v21 (by decide))).trans (V17_v21 m ρ c)
theorem V19_v22 : V19 m ρ c main_call0_v22 = V1 m ρ c main_call0_v22 :=
  ((Line.keep hW9 (W18 m ρ c) (by decide)).trans (W18_of_ne m ρ c main_call0_v22 (by decide))).trans (V17_v22 m ρ c)
theorem V19_arg5 : V19 m ρ c main_arg5 = V1 m ρ c main_arg5 :=
  ((Line.keep hW9 (W18 m ρ c) (by decide)).trans ((W18_arr m ρ c 2).trans (((dat8 (V17 m ρ) c).arrAt_in 2 rfl _).trans (A_eq8 (V17 m ρ) c 2)))).trans (V17_arg5 m ρ c)

/-! ### Across region 9 and the stretch after it -/

theorem V21_v10 : V21 m ρ c main_call0_v10 = V1 m ρ c main_call0_v10 :=
  ((Line.keep hW10 (W20 m ρ c) (by decide)).trans (W20_of_ne m ρ c main_call0_v10 (by decide))).trans (V19_v10 m ρ c)
theorem V21_v12 : V21 m ρ c main_call0_v12 = V1 m ρ c main_call0_v12 :=
  ((Line.keep hW10 (W20 m ρ c) (by decide)).trans ((W20_arr m ρ c 1).trans (((dat9 (V19 m ρ) c).arrAt_in 1 rfl _).trans (A_eq9 (V19 m ρ) c 1)))).trans (V19_v12 m ρ c)
theorem V21_v14 : V21 m ρ c main_call0_v14 = V1 m ρ c main_call0_v14 :=
  ((Line.keep hW10 (W20 m ρ c) (by decide)).trans ((W20_arr m ρ c 5).trans (((dat9 (V19 m ρ) c).arrAt_in 5 rfl _).trans (A_eq9 (V19 m ρ) c 5)))).trans (V19_v14 m ρ c)
theorem V21_v16 : V21 m ρ c main_call0_v16 = V1 m ρ c main_call0_v16 :=
  ((Line.keep hW10 (W20 m ρ c) (by decide)).trans ((W20_arr m ρ c 4).trans (((dat9 (V19 m ρ) c).arrAt_in 4 rfl _).trans (A_eq9 (V19 m ρ) c 4)))).trans (V19_v16 m ρ c)
theorem V21_v18 : V21 m ρ c main_call0_v18 = V1 m ρ c main_call0_v18 :=
  ((Line.keep hW10 (W20 m ρ c) (by decide)).trans (W20_of_ne m ρ c main_call0_v18 (by decide))).trans (V19_v18 m ρ c)
theorem V21_v19 : V21 m ρ c main_call0_v19 = V1 m ρ c main_call0_v19 :=
  ((Line.keep hW10 (W20 m ρ c) (by decide)).trans ((W20_arr m ρ c 6).trans (((dat9 (V19 m ρ) c).arrAt_in 6 rfl _).trans (A_eq9 (V19 m ρ) c 6)))).trans (V19_v19 m ρ c)
theorem V21_v20 : V21 m ρ c main_call0_v20 = V1 m ρ c main_call0_v20 :=
  ((Line.keep hW10 (W20 m ρ c) (by decide)).trans (W20_of_ne m ρ c main_call0_v20 (by decide))).trans (V19_v20 m ρ c)
theorem V21_v21 : V21 m ρ c main_call0_v21 = V1 m ρ c main_call0_v21 :=
  ((Line.keep hW10 (W20 m ρ c) (by decide)).trans (W20_of_ne m ρ c main_call0_v21 (by decide))).trans (V19_v21 m ρ c)
theorem V21_v22 : V21 m ρ c main_call0_v22 = V1 m ρ c main_call0_v22 :=
  ((Line.keep hW10 (W20 m ρ c) (by decide)).trans (W20_of_ne m ρ c main_call0_v22 (by decide))).trans (V19_v22 m ρ c)
theorem V21_arg5 : V21 m ρ c main_arg5 = V1 m ρ c main_arg5 :=
  ((Line.keep hW10 (W20 m ρ c) (by decide)).trans ((W20_arr m ρ c 2).trans (((dat9 (V19 m ρ) c).arrAt_in 2 rfl _).trans (A_eq9 (V19 m ρ) c 2)))).trans (V19_arg5 m ρ c)

/-! ### Across region 10 and the stretch after it -/

theorem V23_v10 : V23 m ρ c main_call0_v10 = V1 m ρ c main_call0_v10 :=
  ((Line.keep hW11 (W22 m ρ c) (by decide)).trans (W22_of_ne m ρ c main_call0_v10 (by decide))).trans (V21_v10 m ρ c)
theorem V23_v12 : V23 m ρ c main_call0_v12 = V1 m ρ c main_call0_v12 :=
  ((Line.keep hW11 (W22 m ρ c) (by decide)).trans ((W22_arr m ρ c 1).trans (((dat10 (V21 m ρ) c).arrAt_in 1 rfl _).trans (A_eq10 (V21 m ρ) c 1)))).trans (V21_v12 m ρ c)
theorem V23_v14 : V23 m ρ c main_call0_v14 = V1 m ρ c main_call0_v14 :=
  ((Line.keep hW11 (W22 m ρ c) (by decide)).trans ((W22_arr m ρ c 5).trans (((dat10 (V21 m ρ) c).arrAt_in 5 rfl _).trans (A_eq10 (V21 m ρ) c 5)))).trans (V21_v14 m ρ c)
theorem V23_v16 : V23 m ρ c main_call0_v16 = V1 m ρ c main_call0_v16 :=
  ((Line.keep hW11 (W22 m ρ c) (by decide)).trans ((W22_arr m ρ c 4).trans (((dat10 (V21 m ρ) c).arrAt_in 4 rfl _).trans (A_eq10 (V21 m ρ) c 4)))).trans (V21_v16 m ρ c)
theorem V23_v18 : V23 m ρ c main_call0_v18 = V1 m ρ c main_call0_v18 :=
  ((Line.keep hW11 (W22 m ρ c) (by decide)).trans (W22_of_ne m ρ c main_call0_v18 (by decide))).trans (V21_v18 m ρ c)
theorem V23_v19 : V23 m ρ c main_call0_v19 = V1 m ρ c main_call0_v19 :=
  ((Line.keep hW11 (W22 m ρ c) (by decide)).trans ((W22_arr m ρ c 6).trans (((dat10 (V21 m ρ) c).arrAt_in 6 rfl _).trans (A_eq10 (V21 m ρ) c 6)))).trans (V21_v19 m ρ c)
theorem V23_v20 : V23 m ρ c main_call0_v20 = V1 m ρ c main_call0_v20 :=
  ((Line.keep hW11 (W22 m ρ c) (by decide)).trans (W22_of_ne m ρ c main_call0_v20 (by decide))).trans (V21_v20 m ρ c)
theorem V23_v21 : V23 m ρ c main_call0_v21 = V1 m ρ c main_call0_v21 :=
  ((Line.keep hW11 (W22 m ρ c) (by decide)).trans (W22_of_ne m ρ c main_call0_v21 (by decide))).trans (V21_v21 m ρ c)
theorem V23_v22 : V23 m ρ c main_call0_v22 = V1 m ρ c main_call0_v22 :=
  ((Line.keep hW11 (W22 m ρ c) (by decide)).trans (W22_of_ne m ρ c main_call0_v22 (by decide))).trans (V21_v22 m ρ c)
theorem V23_arg5 : V23 m ρ c main_arg5 = V1 m ρ c main_arg5 :=
  ((Line.keep hW11 (W22 m ρ c) (by decide)).trans ((W22_arr m ρ c 2).trans (((dat10 (V21 m ρ) c).arrAt_in 2 rfl _).trans (A_eq10 (V21 m ρ) c 2)))).trans (V21_arg5 m ρ c)

/-! ### Across region 11 and the stretch after it -/

theorem V25_v10 : V25 m ρ c main_call0_v10 = V1 m ρ c main_call0_v10 :=
  ((Line.keep hW12 (W24 m ρ c) (by decide)).trans (W24_of_ne m ρ c main_call0_v10 (by decide))).trans (V23_v10 m ρ c)
theorem V25_v12 : V25 m ρ c main_call0_v12 = V1 m ρ c main_call0_v12 :=
  ((Line.keep hW12 (W24 m ρ c) (by decide)).trans ((W24_arr m ρ c 1).trans (((dat11 (V23 m ρ) c).arrAt_in 1 rfl _).trans (A_eq11 (V23 m ρ) c 1)))).trans (V23_v12 m ρ c)
theorem V25_v14 : V25 m ρ c main_call0_v14 = V1 m ρ c main_call0_v14 :=
  ((Line.keep hW12 (W24 m ρ c) (by decide)).trans ((W24_arr m ρ c 5).trans (((dat11 (V23 m ρ) c).arrAt_in 5 rfl _).trans (A_eq11 (V23 m ρ) c 5)))).trans (V23_v14 m ρ c)
theorem V25_v16 : V25 m ρ c main_call0_v16 = V1 m ρ c main_call0_v16 :=
  ((Line.keep hW12 (W24 m ρ c) (by decide)).trans ((W24_arr m ρ c 4).trans (((dat11 (V23 m ρ) c).arrAt_in 4 rfl _).trans (A_eq11 (V23 m ρ) c 4)))).trans (V23_v16 m ρ c)
theorem V25_v18 : V25 m ρ c main_call0_v18 = V1 m ρ c main_call0_v18 :=
  ((Line.keep hW12 (W24 m ρ c) (by decide)).trans (W24_of_ne m ρ c main_call0_v18 (by decide))).trans (V23_v18 m ρ c)
theorem V25_v19 : V25 m ρ c main_call0_v19 = V1 m ρ c main_call0_v19 :=
  ((Line.keep hW12 (W24 m ρ c) (by decide)).trans ((W24_arr m ρ c 6).trans (((dat11 (V23 m ρ) c).arrAt_in 6 rfl _).trans (A_eq11 (V23 m ρ) c 6)))).trans (V23_v19 m ρ c)
theorem V25_v20 : V25 m ρ c main_call0_v20 = V1 m ρ c main_call0_v20 :=
  ((Line.keep hW12 (W24 m ρ c) (by decide)).trans (W24_of_ne m ρ c main_call0_v20 (by decide))).trans (V23_v20 m ρ c)
theorem V25_v21 : V25 m ρ c main_call0_v21 = V1 m ρ c main_call0_v21 :=
  ((Line.keep hW12 (W24 m ρ c) (by decide)).trans (W24_of_ne m ρ c main_call0_v21 (by decide))).trans (V23_v21 m ρ c)
theorem V25_v22 : V25 m ρ c main_call0_v22 = V1 m ρ c main_call0_v22 :=
  ((Line.keep hW12 (W24 m ρ c) (by decide)).trans (W24_of_ne m ρ c main_call0_v22 (by decide))).trans (V23_v22 m ρ c)
theorem V25_arg5 : V25 m ρ c main_arg5 = V1 m ρ c main_arg5 :=
  ((Line.keep hW12 (W24 m ρ c) (by decide)).trans ((W24_arr m ρ c 2).trans (((dat11 (V23 m ρ) c).arrAt_in 2 rfl _).trans (A_eq11 (V23 m ρ) c 2)))).trans (V23_arg5 m ρ c)

end Cert.KernelIdeal.Pre
-- ==== Proof.KPre.lean ====
/-
  What the fused program's first region finds in the arrays its first host stretch prepared.

  Region 0 is entered with the contents the first stretch leaves from the launch memory, so each prepared array is,
  entry by entry, the re-indexing of an argument array that the stretch's operations spell out: the transposed
  weights (`W_iou^T`, `U_iou^T`, `U_f^T`, `lin_w^T`), the biases `U_f_b` and `lin_b` as rows, the gathered embedding
  rows as one term `G` of the table and the token ids, the rows and the parent ids per graph, and the deepest
  level's rows (row `i` is node `4095 * (i / 2048) + 2047 + i % 2048`). That these arrays still hold the same at
  every later region's entry is the persistence table this module re-exports.
-/
import proofs.«419362_j66683662237734_3_alg».proof.Proof.KernelIdealFrameP
import proofs.«419362_j66683662237734_3_alg».proof.Proof.KPreHost
import proofs.«419362_j66683662237734_3_alg».proof.Proof.KPersist

set_option maxRecDepth 16384

noncomputable section

namespace Cert.KernelIdeal.Pre

open Cert.KernelIdeal Cert.KernelIdeal.Gen
open Idealize.ShloMosaic Idealize.ShloMosaic.TcCoe Idealize.ShloMosaic.ValueIdx

variable (m : (ℓ : Loc nD τ sig) → Buf (Elt Ideal) ℓ) (ρ : Dev nD → PrngReg) (c : Dev nD)

/-- `W_iou^T`: entry `(k, n)` is `W_iou (n, k)`. -/
theorem v12_at (k : Fin 256) (n : Fin 768) :
    (V1 m ρ c main_call0_v12 : S256x768.Idx → EReal) (ix2 k n)
      = (m ((c : Thread nD τ).loc main_arg3) : S768x256.Idx → EReal) (ix2 n k) := host_v12 (W0 m ρ c) k n

/-- `U_iou^T`: entry `(k, n)` is `U_iou (n, k)`. -/
theorem v16_at (k : Fin 256) (n : Fin 768) :
    (V1 m ρ c main_call0_v16 : S256x768.Idx → EReal) (ix2 k n)
      = (m ((c : Thread nD τ).loc main_arg4) : S768x256.Idx → EReal) (ix2 n k) := host_v16 (W0 m ρ c) k n

/-- `U_f^T`: entry `(k, j)` is `U_f (j, k)`. -/
theorem v14_at (k j : Fin 256) :
    (V1 m ρ c main_call0_v14 : S256x256.Idx → EReal) (ix2 k j)
      = (m ((c : Thread nD τ).loc main_arg6) : S256x256.Idx → EReal) (ix2 j k) := host_v14 (W0 m ρ c) k j

/-- `lin_w^T`: entry `(k, n)` is `lin_w (n, k)`. -/
theorem v18_at (k : Fin 256) (n : Fin 104) :
    (V1 m ρ c main_call0_v18 : S256x104.Idx → EReal) (ix2 k n)
      = (m ((c : Thread nD τ).loc main_arg8) : S104x256.Idx → EReal) (ix2 n k) := host_v18 (W0 m ρ c) k n

/-- `U_f_b` as a row: entry `(0, j)` is `U_f_b j`. -/
theorem v19_at (j : Fin 256) :
    (V1 m ρ c main_call0_v19 : S1x256.Idx → EReal) (ix2 0 j)
      = (m ((c : Thread nD τ).loc main_arg7) : S256.Idx → EReal) (ix1 j) := host_v19 (W0 m ρ c) j

/-- `lin_b` as a row: entry `(0, n)` is `lin_b n`. -/
theorem v20_at (n : Fin 104) :
    (V1 m ρ c main_call0_v20 : S1x104.Idx → EReal) (ix2 0 n)
      = (m ((c : Thread nD τ).loc main_arg9) : S104.Idx → EReal) (ix1 n) := host_v20 (W0 m ρ c) n

/-- Graph `b`'s node `q` is row `4095 * b + q` of the gathered rows. -/
theorem v21_at (b : Fin 32) (q : Fin 4095) (k : Fin 256) :
    (V1 m ρ c main_call0_v21 : S32x4095x256.Idx → EReal) (ix3 b q k)
      = (V1 m ρ c main_call0_v10 : S131040x256.Idx → EReal) (ix2 ⟨4095 * b.val + q.val, by omega⟩ k) :=
  host_v21 (W0 m ρ c) b q k

/-- Graph `b`'s node `q` has the parent id of node `4095 * b + q`. -/
theorem v22_at (b : Fin 32) (q : Fin 4095) :
    (V1 m ρ c main_call0_v22 : S32x4095.Idx → BitVec 32) (ix2 b q)
      = (m ((c : Thread nD τ).loc main_arg1) : S131040.Idx → BitVec 32) (ix1 ⟨4095 * b.val + q.val, by omega⟩) :=
  host_v22 (W0 m ρ c) b q

/-- Row `i` of the deepest level is the gathered row of node `4095 * (i / 2048) + 2047 + i % 2048`. -/
theorem v24_at (i : Fin 65536) (k : Fin 256) :
    (V1 m ρ c main_call0_v24 : S65536x256.Idx → EReal) (ix2 i k)
      = (V1 m ρ c main_call0_v10 : S131040x256.Idx → EReal)
          (ix2 (Cert.TreeLstm.node 2048 2047 65536 rfl (by omega) i) k) := host_v24 (W0 m ρ c) i k

/-- The gathered rows are `G` of the table argument and the token-id argument. -/
theorem v10_eq :
    (V1 m ρ c main_call0_v10 : S131040x256.Idx → EReal)
      = G (F := Ideal) (m ((c : Thread nD τ).loc main_arg2)) (m ((c : Thread nD τ).loc main_arg0)) :=
  host_v10_eq (W0 m ρ c)

end Cert.KernelIdeal.Pre
-- ==== Proof.KReg0.lean ====
/-
  The leaf region of the kernel: level 11 of the forest, 65536 nodes, 64 grid points of 1024 rows each. A point
  loads its 1024 rows of the input array and, whole, the transposed input weights `[256, 768]`, the input bias row,
  the transposed forget-gate weights `[256, 256]` and the forget-gate bias row; it computes the pre-activation
  `z = x · W^T + b`, the cell state `c = logistic z_i * tanh z_u`, the hidden state `h = logistic z_o * tanh c` and the
  forget gate of its own hidden state `f = logistic (h · U_f^T + b_f)`, and stores `h` into columns 0 … 255 and
  `f * c` into columns 256 … 511 of its 1024 rows of the output. So after the region the output array holds, per
  node, the specification's leaf hidden state in the left half and forget gate times cell state in the right half.
  In order: the two contractions' index maps coordinate by coordinate and the products read at an index; the four
  computed values at an index; one row of a block in the specification's names; the two stores at an index; each
  block as rows of its array; the write-back of a point; the cover of the output array by the 64 blocks.
-/
import proofs.«419362_j66683662237734_3_alg».proof.Proof.KernelIdealFrameP
import proofs.«419362_j66683662237734_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Reg0

open Idealize.ShloMosaic Idealize.ShloMosaic.TcCoe Idealize.ShloMosaic.ValueIdx Idealize.SL.Sem
open Idealize.ShloMosaic.Pipeline (Dat)
open Cert.KernelIdeal Cert.KernelIdeal.Gen
open Cert.TreeLstm (lo hi c0 c1 c2)

/-! ## The two contractions, coordinate by coordinate -/

theorem zlhs_0 (j : S1024x768.Idx) (k : dot_S1024x256_S256x768_S1024x768_1_0_0_1_n_n.contr.Idx) :
    (dot_S1024x256_S256x768_S1024x768_1_0_0_1_n_n.lhsIdx j k 0 : ℕ) = j 0 := by
  simp [DotDims.lhsIdx, dot_S1024x256_S256x768_S1024x768_1_0_0_1_n_n]; rfl
theorem zlhs_1 (j : S1024x768.Idx) (k : dot_S1024x256_S256x768_S1024x768_1_0_0_1_n_n.contr.Idx) :
    (dot_S1024x256_S256x768_S1024x768_1_0_0_1_n_n.lhsIdx j k 1 : ℕ) = k ⟨0, by decide⟩ := by
  simp [DotDims.lhsIdx, dot_S1024x256_S256x768_S1024x768_1_0_0_1_n_n]; rfl
theorem zrhs_0 (j : S1024x768.Idx) (k : dot_S1024x256_S256x768_S1024x768_1_0_0_1_n_n.contr.Idx) :
    (dot_S1024x256_S256x768_S1024x768_1_0_0_1_n_n.rhsIdx j k 0 : ℕ) = k ⟨0, by decide⟩ := by
  simp [DotDims.rhsIdx, dot_S1024x256_S256x768_S1024x768_1_0_0_1_n_n]; rfl
theorem zrhs_1 (j : S1024x768.Idx) (k : dot_S1024x256_S256x768_S1024x768_1_0_0_1_n_n.contr.Idx) :
    (dot_S1024x256_S256x768_S1024x768_1_0_0_1_n_n.rhsIdx j k 1 : ℕ) = j 1 := by
  simp [DotDims.rhsIdx, dot_S1024x256_S256x768_S1024x768_1_0_0_1_n_n]; rfl

theorem zmm_apply (a : FVec Ideal S1024x256 .bf16) (b : FVec Ideal S256x768 .bf16) (i : Fin 1024) (n : Fin 768) :
    matmul dot_S1024x256_S256x768_S1024x768_1_0_0_1_n_n none a b (constant S1024x768 .f32 0x00000000#32) (ix2 i n)
      = ∑ k : Fin 256, a (ix2 i k) * b (ix2 k n) := by
  simp only [matmul]
  rw [Ideal.matmul_constant_zero_apply,
    ← Equiv.sum_comp (contrEquiv1 dot_S1024x256_S256x768_S1024x768_1_0_0_1_n_n 256 rfl rfl).symm]
  refine Finset.sum_congr rfl fun k _ => ?_
  have hl : dot_S1024x256_S256x768_S1024x768_1_0_0_1_n_n.lhsIdx (ix2 i n)
      ((contrEquiv1 dot_S1024x256_S256x768_S1024x768_1_0_0_1_n_n 256 rfl rfl).symm k) = ix2 i k := by
    funext ax; apply Fin.ext
    match ax with
    | ⟨0, _⟩ => exact zlhs_0 _ _
    | ⟨1, _⟩ => exact (zlhs_1 _ _).trans (contrEquiv1_symm_val _ 256 rfl rfl k)
  have hr : dot_S1024x256_S256x768_S1024x768_1_0_0_1_n_n.rhsIdx (ix2 i n)
      ((contrEquiv1 dot_S1024x256_S256x768_S1024x768_1_0_0_1_n_n 256 rfl rfl).symm k) = ix2 k n := by
    funext ax; apply Fin.ext
    match ax with
    | ⟨0, _⟩ => exact (zrhs_0 _ _).trans (contrEquiv1_symm_val _ 256 rfl rfl k)
    | ⟨1, _⟩ => exact zrhs_1 _ _
  rw [hl, hr]

theorem flhs_0 (j : S1024x256.Idx) (k : dot_S1024x256_S256x256_S1024x256_1_0_0_1_n_n.contr.Idx) :
    (dot_S1024x256_S256x256_S1024x256_1_0_0_1_n_n.lhsIdx j k 0 : ℕ) = j 0 := by
  simp [DotDims.lhsIdx, dot_S1024x256_S256x256_S1024x256_1_0_0_1_n_n]; rfl
theorem flhs_1 (j : S1024x256.Idx) (k : dot_S1024x256_S256x256_S1024x256_1_0_0_1_n_n.contr.Idx) :
    (dot_S1024x256_S256x256_S1024x256_1_0_0_1_n_n.lhsIdx j k 1 : ℕ) = k ⟨0, by decide⟩ := by
  simp [DotDims.lhsIdx, dot_S1024x256_S256x256_S1024x256_1_0_0_1_n_n]; rfl
theorem frhs_0 (j : S1024x256.Idx) (k : dot_S1024x256_S256x256_S1024x256_1_0_0_1_n_n.contr.Idx) :
    (dot_S1024x256_S256x256_S1024x256_1_0_0_1_n_n.rhsIdx j k 0 : ℕ) = k ⟨0, by decide⟩ := by
  simp [DotDims.rhsIdx, dot_S1024x256_S256x256_S1024x256_1_0_0_1_n_n]; rfl
theorem frhs_1 (j : S1024x256.Idx) (k : dot_S1024x256_S256x256_S1024x256_1_0_0_1_n_n.contr.Idx) :
    (dot_S1024x256_S256x256_S1024x256_1_0_0_1_n_n.rhsIdx j k 1 : ℕ) = j 1 := by
  simp [DotDims.rhsIdx, dot_S1024x256_S256x256_S1024x256_1_0_0_1_n_n]; rfl

theorem fmm_apply (a : FVec Ideal S1024x256 .bf16) (b : FVec Ideal S256x256 .bf16) (i : Fin 1024) (n : Fin 256) :
    matmul dot_S1024x256_S256x256_S1024x256_1_0_0_1_n_n none a b (constant S1024x256 .f32 0x00000000#32) (ix2 i n)
      = ∑ k : Fin 256, a (ix2 i k) * b (ix2 k n) := by
  simp only [matmul]
  rw [Ideal.matmul_constant_zero_apply,
    ← Equiv.sum_comp (contrEquiv1 dot_S1024x256_S256x256_S1024x256_1_0_0_1_n_n 256 rfl rfl).symm]
  refine Finset.sum_congr rfl fun k _ => ?_
  have hl : dot_S1024x256_S256x256_S1024x256_1_0_0_1_n_n.lhsIdx (ix2 i n)
      ((contrEquiv1 dot_S1024x256_S256x256_S1024x256_1_0_0_1_n_n 256 rfl rfl).symm k) = ix2 i k := by
    funext ax; apply Fin.ext
    match ax with
    | ⟨0, _⟩ => exact flhs_0 _ _
    | ⟨1, _⟩ => exact (flhs_1 _ _).trans (contrEquiv1_symm_val _ 256 rfl rfl k)
  have hr : dot_S1024x256_S256x256_S1024x256_1_0_0_1_n_n.rhsIdx (ix2 i n)
      ((contrEquiv1 dot_S1024x256_S256x256_S1024x256_1_0_0_1_n_n 256 rfl rfl).symm k) = ix2 k n := by
    funext ax; apply Fin.ext
    match ax with
    | ⟨0, _⟩ => exact (frhs_0 _ _).trans (contrEquiv1_symm_val _ 256 rfl rfl k)
    | ⟨1, _⟩ => exact frhs_1 _ _
  rw [hl, hr]

/-! ## The payloads at an index -/

/-- The pre-activation at row `r`, column `n`: row `r` of the first block against column `n` of the second, plus the
    bias row's entry. -/
theorem pay1_apply (x0 : FVec Ideal S1024x256 .bf16) (x1 : FVec Ideal S256x768 .bf16) (x2 : FVec Ideal S1x768 .f32)
    (r : Fin 1024) (n : Fin 768) :
    k0_pay1 (F := Ideal) x0 x1 x2 (ix2 r n) = (∑ k : Fin 256, x0 (ix2 r k) * x1 (ix2 k n)) + x2 (ix2 (0 : Fin 1) n) := by
  unfold k0_pay1
  rw [shapeCast_self, shapeCast_self, addf_apply, zmm_apply, broadcastTo_1b_ab_apply]

/-- The cell state at row `r`, column `j`: the input gate's third times the update's third. -/
theorem pay2_apply (x0 : FVec Ideal S1024x256 .bf16) (x1 : FVec Ideal S256x768 .bf16) (x2 : FVec Ideal S1x768 .f32)
    (r : Fin 1024) (j : Fin 256) :
    k0_pay2 (F := Ideal) x0 x1 x2 (ix2 r j)
      = Ideal.logistic (k0_pay1 (F := Ideal) x0 x1 x2 (ix2 r (c0 j)))
        * Ideal.tanh (k0_pay1 (F := Ideal) x0 x1 x2 (ix2 r (c2 j))) := by
  unfold k0_pay2
  rw [mulf_apply]
  refine congrArg₂ (· * ·) (congrArg Ideal.logistic ?_) (congrArg Ideal.tanh ?_)
  · exact slice2_axis1_apply 0 _ _ r j _ (by simp)
  · exact slice2_axis1_apply 512 _ _ r j _ rfl

/-- The hidden state at row `r`, column `j`: the output gate's third times the squashed cell state. -/
theorem pay3_apply (x0 : FVec Ideal S1024x256 .bf16) (x1 : FVec Ideal S256x768 .bf16) (x2 : FVec Ideal S1x768 .f32)
    (r : Fin 1024) (j : Fin 256) :
    k0_pay3 (F := Ideal) x0 x1 x2 (ix2 r j)
      = Ideal.logistic (k0_pay1 (F := Ideal) x0 x1 x2 (ix2 r (c1 j)))
        * Ideal.tanh (k0_pay2 (F := Ideal) x0 x1 x2 (ix2 r j)) := by
  unfold k0_pay3
  rw [mulf_apply]
  refine congrArg₂ (· * ·) (congrArg Ideal.logistic ?_) rfl
  exact slice2_axis1_apply 256 _ _ r j _ rfl

/-- The forget gate of the row's own hidden state, times the cell state, at row `r`, column `j`. -/
theorem pay4_apply (x0 : FVec Ideal S1024x256 .bf16) (x1 : FVec Ideal S256x768 .bf16) (x2 : FVec Ideal S1x768 .f32)
    (x3 : FVec Ideal S256x256 .bf16) (x4 : FVec Ideal S1x256 .f32) (r : Fin 1024) (j : Fin 256) :
    k0_pay4 (F := Ideal) x0 x1 x2 x3 x4 (ix2 r j)
      = Ideal.logistic ((∑ k : Fin 256, k0_pay3 (F := Ideal) x0 x1 x2 (ix2 r k) * x3 (ix2 k j)) + x4 (ix2 (0 : Fin 1) j))
        * k0_pay2 (F := Ideal) x0 x1 x2 (ix2 r j) := by
  unfold k0_pay4
  rw [mulf_apply]
  refine congrArg₂ (· * ·) (congrArg Ideal.logistic ?_) rfl
  rw [shapeCast_self, shapeCast_self, addf_apply, fmm_apply, broadcastTo_1b_ab_apply]
  rfl

/-! ## One row of a block, in the specification's names -/

/-- Where row `r` of the first block is row `i` of the level's input array, and the weights' blocks are the transposes
    (and the bias rows the rows) the specification's weights name: the four values the body computes at row `r` are
    the specification's pre-activation, cell state, hidden state and forget gate times cell state of node `i`. -/
theorem point {M : Nat} (w : Cert.TreeLstm.Wts) (X : Cert.TreeLstm.A2 M 256) (i : Fin M)
    (x0 : FVec Ideal S1024x256 .bf16) (x1 : FVec Ideal S256x768 .bf16) (x2 : FVec Ideal S1x768 .f32)
    (x3 : FVec Ideal S256x256 .bf16) (x4 : FVec Ideal S1x256 .f32) (r : Fin 1024)
    (h0 : ∀ k : Fin 256, x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ k j : Fin 256, x3 (ix2 k j) = w.Uf (ix2 j k))
    (h4 : ∀ j : Fin 256, x4 (ix2 (0 : Fin 1) j) = w.bF (ix1 j)) :
    (∀ j : Fin 256, k0_pay3 (F := Ideal) x0 x1 x2 (ix2 r j) = Cert.TreeLstm.leafH w X i j)
    ∧ (∀ j : Fin 256, k0_pay4 (F := Ideal) x0 x1 x2 x3 x4 (ix2 r j)
        = Cert.TreeLstm.fgateRow w (Cert.TreeLstm.leafH w X i) j * Cert.TreeLstm.leafC w X i j) := by
  have hz1 : ∀ n : Fin 768, k0_pay1 (F := Ideal) x0 x1 x2 (ix2 r n) = Cert.TreeLstm.leafZ w X i n := fun n => by
    rw [pay1_apply, h2]
    exact congrArg (· + w.bI (ix2 (0 : Fin 1) n)) (Finset.sum_congr rfl fun k _ => by rw [h0, h1])
  have hc : ∀ j : Fin 256, k0_pay2 (F := Ideal) x0 x1 x2 (ix2 r j) = Cert.TreeLstm.leafC w X i j := fun j => by
    rw [pay2_apply, hz1, hz1]; rfl
  have hh : ∀ j : Fin 256, k0_pay3 (F := Ideal) x0 x1 x2 (ix2 r j) = Cert.TreeLstm.leafH w X i j := fun j => by
    rw [pay3_apply, hz1, hc]; rfl
  refine ⟨hh, fun j => ?_⟩
  rw [pay4_apply, hc, h4]
  refine congrArg (· * Cert.TreeLstm.leafC w X i j) (congrArg Ideal.logistic ?_)
  exact congrArg (· + w.bF (ix1 j)) (Finset.sum_congr rfl fun k _ => by rw [hh, h3])

/-! ## The two stores at an index -/

theorem hz : (![0, 0] : Fin 2 → Nat) = fun _ => 0 := funext fun a => by fin_cases a <;> rfl

theorem emb_lo (r : Fin 1024) (j : Fin 256) : r0_5.emb (ix2 r j) = ix2 r (lo j) := by
  funext a; apply Fin.ext
  match a with
  | ⟨0, _⟩ => show 0 + 1 * r.val = r.val; omega
  | ⟨1, _⟩ => show 0 + 1 * j.val = j.val; omega

theorem emb_hi (r : Fin 1024) (j : Fin 256) : r0_6.emb (ix2 r j) = ix2 r (hi j) := by
  funext a; apply Fin.ext
  match a with
  | ⟨0, _⟩ => show 0 + 1 * r.val = r.val; omega
  | ⟨1, _⟩ => show 256 + 1 * j.val = 256 + j.val; omega

theorem not_mem_hi (r : Fin 1024) (j : Fin 256) : ix2 r (lo j) ∉ r0_6.set := by
  rw [Rect.mem_set_unit]
  intro h
  have h1 : 256 ≤ j.val := (h 1).1
  have := j.isLt
  omega

/-- The later store holds columns 256 and up, the earlier one columns below 256: a left-half index reads the earlier
    store's payload, -/
theorem canon_lo (P4 P3 : FVec Ideal S1024x256 .f32) (r : Fin 1024) (j : Fin 256) :
    View.canon ([⟨r0_6, P4⟩, ⟨r0_5, P3⟩] : List (View.Piece (Elt Ideal) S1024x512 .f32)) (ix2 r (lo j)) = P3 (ix2 r j) := by
  rw [View.canon_cons_of_not_mem (⟨r0_6, P4⟩ : View.Piece (Elt Ideal) S1024x512 .f32) [⟨r0_5, P3⟩] (not_mem_hi r j),
    ← emb_lo r j]
  exact View.canon_cons_emb (Val := Elt Ideal) (e := .f32) r0_5 P3 [] (ix2 r j)

/-- a right-half index the later one's. -/
theorem canon_hi (P4 P3 : FVec Ideal S1024x256 .f32) (r : Fin 1024) (j : Fin 256) :
    View.canon ([⟨r0_6, P4⟩, ⟨r0_5, P3⟩] : List (View.Piece (Elt Ideal) S1024x512 .f32)) (ix2 r (hi j)) = P4 (ix2 r j) := by
  rw [← emb_hi r j]
  exact View.canon_cons_emb (Val := Elt Ideal) (e := .f32) r0_6 P4 [⟨r0_5, P3⟩] (ix2 r j)

/-- A 512-wide row index is a left-half or a right-half one. -/
theorem col_cases (q : Fin 512) : (∃ j : Fin 256, q = lo j) ∨ (∃ j : Fin 256, q = hi j) := by
  by_cases h : q.val < 256
  · exact .inl ⟨⟨q.val, h⟩, Fin.ext rfl⟩
  · exact .inr ⟨⟨q.val - 256, by have := q.isLt; omega⟩, Fin.ext (by show q.val = 256 + (q.val - 256); omega)⟩

/-- The output's staging buffer after the body, at a left-half index: the hidden state there. -/
theorem out_lo (x0 : FVec Ideal S1024x256 .bf16) (x1 : FVec Ideal S256x768 .bf16) (x2 : FVec Ideal S1x768 .f32)
    (x3 : FVec Ideal S256x256 .bf16) (x4 : FVec Ideal S1x256 .f32) (r : Fin 1024) (j : Fin 256) :
    out0_5 (F := Ideal) x0 x1 x2 x3 x4 (ix2 r (lo j)) = k0_pay3 (F := Ideal) x0 x1 x2 (ix2 r j) := by
  unfold out0_5
  simp only [View.ld_unit_zero (S := S1024x256) hz, View.ld_unit_zero (S := S256x768) hz, View.ld_unit_zero (S := S1x768) hz,
    View.ld_unit_zero (S := S256x256) hz, View.ld_unit_zero (S := S1x256) hz]
  exact canon_lo _ _ r j

/-- At a right-half index: the forget gate times the cell state there. -/
theorem out_hi (x0 : FVec Ideal S1024x256 .bf16) (x1 : FVec Ideal S256x768 .bf16) (x2 : FVec Ideal S1x768 .f32)
    (x3 : FVec Ideal S256x256 .bf16) (x4 : FVec Ideal S1x256 .f32) (r : Fin 1024) (j : Fin 256) :
    out0_5 (F := Ideal) x0 x1 x2 x3 x4 (ix2 r (hi j)) = k0_pay4 (F := Ideal) x0 x1 x2 x3 x4 (ix2 r j) := by
  unfold out0_5
  simp only [View.ld_unit_zero (S := S1024x256) hz, View.ld_unit_zero (S := S256x768) hz, View.ld_unit_zero (S := S1x768) hz,
    View.ld_unit_zero (S := S256x256) hz, View.ld_unit_zero (S := S1x256) hz]
  exact canon_hi _ _ r j

/-- So the buffer after the body is any function that agrees with the two payloads on the two halves. -/
theorem out_eq_of (x0 : FVec Ideal S1024x256 .bf16) (x1 : FVec Ideal S256x768 .bf16) (x2 : FVec Ideal S1x768 .f32)
    (x3 : FVec Ideal S256x256 .bf16) (x4 : FVec Ideal S1x256 .f32) (Gb : FVec Ideal S1024x512 .f32)
    (hlo : ∀ (r : Fin 1024) (j : Fin 256), Gb (ix2 r (lo j)) = k0_pay3 (F := Ideal) x0 x1 x2 (ix2 r j))
    (hhi : ∀ (r : Fin 1024) (j : Fin 256), Gb (ix2 r (hi j)) = k0_pay4 (F := Ideal) x0 x1 x2 x3 x4 (ix2 r j)) :
    out0_5 (F := Ideal) x0 x1 x2 x3 x4 = Gb := by
  funext y
  obtain ⟨r, q, rfl⟩ : ∃ (r : Fin 1024) (q : Fin 512), y = ix2 r q := ⟨y 0, y 1, eq_ix2 y⟩
  rcases col_cases q with ⟨j, rfl⟩ | ⟨j, rfl⟩
  · rw [out_lo, hlo]
  · rw [out_hi, hhi]

/-! ## From the blocks to the arrays -/

section Arrays

variable (V : (c : Dev nD) → (b : Ref sig .tc) → Buf (Elt Ideal) ((c : Thread nD τ).loc b))

/-- The level's input rows as the region finds them. -/
abbrev xs (c : Dev nD) : Cert.TreeLstm.A2 65536 256 := V c main_call0_v24
/-- The transposed input weights as the region finds them. -/
abbrev wT (c : Dev nD) : FVec Ideal S256x768 .bf16 := V c main_call0_v12
/-- The input bias row as the region finds it. -/
abbrev bI (c : Dev nD) : FVec Ideal S1x768 .f32 := V c main_arg5
/-- The transposed forget-gate weights as the region finds them. -/
abbrev ufT (c : Dev nD) : FVec Ideal S256x256 .bf16 := V c main_call0_v14
/-- The forget-gate bias row as the region finds it. -/
abbrev bF (c : Dev nD) : FVec Ideal S1x256 .f32 := V c main_call0_v19

/-- The printed index maps over the 64 points: the input rows' and the output's blocks are block `t` of their arrays,
    the weights' and biases' blocks are block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Row `r` of the first window's block at point `t` is row `1024 t + r` of the input array. -/
theorem blk0_apply (c : Dev nD) (t : Fin cfg0.N) (r : Fin 1024) (k : Fin 256) (i : Fin 65536)
    (hi : i.val = 1024 * t.val + r.val) :
    (iblk0 V c 0 t : Vec Ideal S1024x256 .bf16) (ix2 r k) = xs V c (ix2 i k) := by
  obtain ⟨e0, e1, -⟩ := idx_facts t
  show V c main_call0_v24 _ = V c main_call0_v24 (ix2 i k)
  refine congrArg (V c main_call0_v24) (funext fun a => Fin.ext ?_)
  match a with
  | ⟨0, _⟩ => show win0_0.index t (0 : Fin 2) * 1024 + 1 * r.val = i.val; omega
  | ⟨1, _⟩ => show win0_0.index t (1 : Fin 2) * 256 + 1 * k.val = k.val; omega

/-- The second window's block is the whole array of input weights. -/
theorem blk1 (c : Dev nD) (t : Fin cfg0.N) : (iblk0 V c 1 t : Vec Ideal S256x768 .bf16) = wT V c := by
  obtain ⟨-, -, e0, e1, -⟩ := idx_facts t
  funext y
  show V c main_call0_v12 (((cfg0.win 1).blk t).view.emb y) = V c main_call0_v12 y
  refine congrArg (V c main_call0_v12) (funext fun a => Fin.ext ?_)
  match a with
  | ⟨0, _⟩ => show win0_1.index t (0 : Fin 2) * 256 + 1 * (y 0).val = (y 0).val; omega
  | ⟨1, _⟩ => show win0_1.index t (1 : Fin 2) * 768 + 1 * (y 1).val = (y 1).val; omega

/-- The third window's block is the whole input bias row. -/
theorem blk2 (c : Dev nD) (t : Fin cfg0.N) : (iblk0 V c 2 t : Vec Ideal S1x768 .f32) = bI V c := by
  obtain ⟨-, -, -, -, e0, e1, -⟩ := idx_facts t
  funext y
  show V c main_arg5 (((cfg0.win 2).blk t).view.emb y) = V c main_arg5 y
  refine congrArg (V c main_arg5) (funext fun a => Fin.ext ?_)
  match a with
  | ⟨0, _⟩ => show win0_2.index t (0 : Fin 2) * 1 + 1 * (y 0).val = (y 0).val; omega
  | ⟨1, _⟩ => show win0_2.index t (1 : Fin 2) * 768 + 1 * (y 1).val = (y 1).val; omega

/-- The fourth window's block is the whole array of forget-gate weights. -/
theorem blk3 (c : Dev nD) (t : Fin cfg0.N) : (iblk0 V c 3 t : Vec Ideal S256x256 .bf16) = ufT V c := by
  obtain ⟨-, -, -, -, -, -, e0, e1, -⟩ := idx_facts t
  funext y
  show V c main_call0_v14 (((cfg0.win 3).blk t).view.emb y) = V c main_call0_v14 y
  refine congrArg (V c main_call0_v14) (funext fun a => Fin.ext ?_)
  match a with
  | ⟨0, _⟩ => show win0_3.index t (0 : Fin 2) * 256 + 1 * (y 0).val = (y 0).val; omega
  | ⟨1, _⟩ => show win0_3.index t (1 : Fin 2) * 256 + 1 * (y 1).val = (y 1).val; omega

/-- The fifth window's block is the whole forget-gate bias row. -/
theorem blk4 (c : Dev nD) (t : Fin cfg0.N) : (iblk0 V c 4 t : Vec Ideal S1x256 .f32) = bF V c := by
  obtain ⟨-, -, -, -, -, -, -, -, e0, e1, -⟩ := idx_facts t
  funext y
  show V c main_call0_v19 (((cfg0.win 4).blk t).view.emb y) = V c main_call0_v19 y
  refine congrArg (V c main_call0_v19) (funext fun a => Fin.ext ?_)
  match a with
  | ⟨0, _⟩ => show win0_4.index t (0 : Fin 2) * 1 + 1 * (y 0).val = (y 0).val; omega
  | ⟨1, _⟩ => show win0_4.index t (1 : Fin 2) * 256 + 1 * (y 1).val = (y 1).val; omega

variable (w : Cert.TreeLstm.Wts)

/-- What the output array ends holding: per node, the hidden state in the left half and the forget gate of that
    hidden state times the cell state in the right half. -/
def G (c : Dev nD) : Cert.TreeLstm.A2 65536 512 := fun y =>
  if h : (y 1).val < 256 then Cert.TreeLstm.leafH w (xs V c) (y 0) ⟨(y 1).val, h⟩
  else Cert.TreeLstm.fgateRow w (Cert.TreeLstm.leafH w (xs V c) (y 0))
      ⟨(y 1).val - 256, by have : (y 1).val < 512 := (y 1).isLt; omega⟩
    * Cert.TreeLstm.leafC w (xs V c) (y 0) ⟨(y 1).val - 256, by have : (y 1).val < 512 := (y 1).isLt; omega⟩

theorem G_lo (c : Dev nD) (i : Fin 65536) (j : Fin 256) :
    G V w c (ix2 i (lo j)) = Cert.TreeLstm.leafH w (xs V c) i j := by
  unfold G
  exact dif_pos j.isLt

theorem G_hi (c : Dev nD) (i : Fin 65536) (j : Fin 256) :
    G V w c (ix2 i (hi j))
      = Cert.TreeLstm.fgateRow w (Cert.TreeLstm.leafH w (xs V c) i) j * Cert.TreeLstm.leafC w (xs V c) i j := by
  have hj : ∀ h : 256 + j.val - 256 < 256, (⟨256 + j.val - 256, h⟩ : Fin 256) = j := fun h =>
    Fin.ext (by show 256 + j.val - 256 = j.val; omega)
  unfold G
  refine (dif_neg (show ¬ (256 + j.val < 256) by omega)).trans ?_
  show Cert.TreeLstm.fgateRow w (Cert.TreeLstm.leafH w (xs V c) i) ⟨256 + j.val - 256, _⟩
    * Cert.TreeLstm.leafC w (xs V c) i ⟨256 + j.val - 256, _⟩ = _
  rw [hj]

/-- An index of the output array is in point `t`'s block iff each coordinate is in the block's range. -/
theorem mem_blk (t : Fin cfg0.N) (i : S65536x512.Idx) :
    i ∈ ((cfg0.win 5).blk t).view.set ↔ ∀ a : Fin 2, win0_5.index t a * S1024x512.size a ≤ (i a).val
      ∧ (i a).val < win0_5.index t a * S1024x512.size a + S1024x512.size a := by
  show i ∈ ((View.whole main_call0_v25).slice (win0_5.rect t)).set ↔ _
  rw [View.set_slice_whole, Rect.mem_set_unit]
  exact Iff.rfl

/-- Row `i` lies in the block of point `i / 1024`: the 64 blocks cover the output array. -/
theorem cover (i : S65536x512.Idx) : ∃ t : Fin cfg0.N, (cfg0.win 5).flush t = true ∧ i ∈ ((cfg0.win 5).blk t).view.set := by
  have h0 : (i 0).val < 65536 := (i 0).isLt
  have h1 : (i 1).val < 512 := (i 1).isLt
  have hN : cfg0.N = 64 := N_0
  let t : Fin cfg0.N := ⟨(i 0).val / 1024, by rw [hN]; omega⟩
  have htv : t.val = (i 0).val / 1024 := rfl
  refine ⟨t, flush0_5 t, ?_⟩
  obtain ⟨-, -, -, -, -, -, -, -, -, -, e0, e1⟩ := idx_facts t
  rw [mem_blk]
  intro a
  match a with
  | ⟨0, _⟩ => show win0_5.index t (0 : Fin 2) * 1024 ≤ (i 0).val ∧ (i 0).val < win0_5.index t (0 : Fin 2) * 1024 + 1024; omega
  | ⟨1, _⟩ => show win0_5.index t (1 : Fin 2) * 512 ≤ (i 1).val ∧ (i 1).val < win0_5.index t (1 : Fin 2) * 512 + 512; omega

variable (c : Dev nD)
variable (hWt : ∀ (k : Fin 256) (n : Fin 768), wT V c (ix2 k n) = w.W (ix2 n k))
  (hb : ∀ n : Fin 768, bI V c (ix2 (0 : Fin 1) n) = w.bI (ix2 (0 : Fin 1) n))
  (hUft : ∀ k j : Fin 256, ufT V c (ix2 k j) = w.Uf (ix2 j k))
  (hbF : ∀ j : Fin 256, bF V c (ix2 (0 : Fin 1) j) = w.bF (ix1 j))

include hWt hb hUft hbF

/-- WHAT POINT `t` WRITES BACK is block `t` of `G`: rows `1024 t … 1024 t + 1023`. -/
theorem flushed_eq (t : Fin cfg0.N) :
    (dat0 V c).flushed 5 t = ((cfg0.win 5).blk t).view.read (Elt Ideal) (G V w c) := by
  show (cfg0.win 5).cut (grid0.coords t) ((dat0 V c).after 5 t) = _
  rw [after0_5, blk1 V c t, blk2 V c t, blk3 V c t, blk4 V c t]
  obtain ⟨-, -, -, -, -, -, -, -, -, -, e0, e1⟩ := idx_facts t
  have ht : t.val < 64 := lt_of_lt_of_eq t.isLt N_0
  have hrow : ∀ r : Fin 1024, 1024 * t.val + r.val < 65536 := fun r => by have := r.isLt; omega
  funext y
  show out0_5 (F := Ideal) (iblk0 V c 0 t) (wT V c) (bI V c) (ufT V c) (bF V c) y
    = G V w c (((cfg0.win 5).blk t).view.emb y)
  refine congrFun (out_eq_of (iblk0 V c 0 t) (wT V c) (bI V c) (ufT V c) (bF V c)
    (fun y => G V w c (((cfg0.win 5).blk t).view.emb y)) (fun r j => ?_) (fun r j => ?_)) y
  · have hemb : ((cfg0.win 5).blk t).view.emb (ix2 r (lo j)) = ix2 (⟨1024 * t.val + r.val, hrow r⟩ : Fin 65536) (lo j) := by
      funext a; apply Fin.ext
      match a with
      | ⟨0, _⟩ => show win0_5.index t (0 : Fin 2) * 1024 + 1 * r.val = 1024 * t.val + r.val; omega
      | ⟨1, _⟩ => show win0_5.index t (1 : Fin 2) * 512 + 1 * j.val = j.val; omega
    show G V w c (((cfg0.win 5).blk t).view.emb (ix2 r (lo j))) = _
    rw [hemb, G_lo]
    exact ((point w (xs V c) ⟨1024 * t.val + r.val, hrow r⟩ (iblk0 V c 0 t) (wT V c) (bI V c) (ufT V c) (bF V c) r
      (fun k => blk0_apply V c t r k ⟨1024 * t.val + r.val, hrow r⟩ rfl) hWt hb hUft hbF).1 j).symm
  · have hemb : ((cfg0.win 5).blk t).view.emb (ix2 r (hi j)) = ix2 (⟨1024 * t.val + r.val, hrow r⟩ : Fin 65536) (hi j) := by
      funext a; apply Fin.ext
      match a with
      | ⟨0, _⟩ => show win0_5.index t (0 : Fin 2) * 1024 + 1 * r.val = 1024 * t.val + r.val; omega
      | ⟨1, _⟩ => show win0_5.index t (1 : Fin 2) * 512 + 1 * (256 + j.val) = 256 + j.val; omega
    show G V w c (((cfg0.win 5).blk t).view.emb (ix2 r (hi j))) = _
    rw [hemb, G_hi]
    exact ((point w (xs V c) ⟨1024 * t.val + r.val, hrow r⟩ (iblk0 V c 0 t) (wT V c) (bI V c) (ufT V c) (bF V c) r
      (fun k => blk0_apply V c t r k ⟨1024 * t.val + r.val, hrow r⟩ rfl) hWt hb hUft hbF).2 j).symm

/-- The output array after the region is `G`. -/
theorem arr_eq : ((dat0 V c).arrAt 5 cfg0.N : Cert.TreeLstm.A2 65536 512) = G V w c :=
  (dat0 V c).arrAt_eq_of_cover 5 (G V w c) (fun t _ => flushed_eq V w c hWt hb hUft hbF t) cover

/-- THE LEAF LEVEL'S VALUE. Where the region finds the weights' arrays to be the transposes, and the bias rows the
    rows, that the specification's weights name, its output array holds per node `i` the hidden state of the leaf
    recurrence in the left half and the forget gate of that hidden state times the cell state in the right half. -/
theorem value (i : Fin 65536) (j : Fin 256) :
    ((dat0 V c).arrAt 5 cfg0.N : Cert.TreeLstm.A2 65536 512) (ix2 i (lo j)) = Cert.TreeLstm.leafH w (xs V c) i j
    ∧ ((dat0 V c).arrAt 5 cfg0.N : Cert.TreeLstm.A2 65536 512) (ix2 i (hi j))
        = Cert.TreeLstm.fgateRow w (Cert.TreeLstm.leafH w (xs V c) i) j * Cert.TreeLstm.leafC w (xs V c) i j :=
  ⟨(congrFun (arr_eq V w c hWt hb hUft hbF) (ix2 i (lo j))).trans (G_lo V w c i j),
   (congrFun (arr_eq V w c hWt hb hUft hbF) (ix2 i (hi j))).trans (G_hi V w c i j)⟩

end Arrays

end Cert.KernelIdeal.Reg0

end
-- ==== Proof.KReg12.lean ====
/-
  The classifier region of the kernel. Its grid has one point, whose blocks are the whole arrays: the root level's
  hidden states `[32, 256]`, the transposed classifier weights `[256, 104]` and the bias row `[1, 104]`; the body
  stores, whole, the product of the first two into a zero accumulator plus the bias row broadcast down the rows.
  So after the region the output array is, index by index, `(∑ k, roots (i, k) * weights (k, n)) + bias (0, n)` of the
  arrays the region finds on entry: first the contraction's index maps coordinate by coordinate and the product
  read at an index, then the stored value at an index, then each block as its array, the one write-back, and the
  cover of the output array by the one point's block.
-/
import proofs.«419362_j66683662237734_3_alg».proof.Proof.KernelIdealFrameP
import proofs.«419362_j66683662237734_3_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Reg12

open Idealize.ShloMosaic Idealize.ShloMosaic.TcCoe Idealize.ShloMosaic.ValueIdx Idealize.SL.Sem
open Idealize.ShloMosaic.Pipeline (Dat)
open Cert.KernelIdeal Cert.KernelIdeal.Gen

/-! ## The contraction, coordinate by coordinate -/

theorem lhs_0 (j : S32x104.Idx) (k : dot_S32x256_S256x104_S32x104_1_0_0_1_n_n.contr.Idx) :
    (dot_S32x256_S256x104_S32x104_1_0_0_1_n_n.lhsIdx j k 0 : ℕ) = j 0 := by
  simp [DotDims.lhsIdx, dot_S32x256_S256x104_S32x104_1_0_0_1_n_n]; rfl
theorem lhs_1 (j : S32x104.Idx) (k : dot_S32x256_S256x104_S32x104_1_0_0_1_n_n.contr.Idx) :
    (dot_S32x256_S256x104_S32x104_1_0_0_1_n_n.lhsIdx j k 1 : ℕ) = k ⟨0, by decide⟩ := by
  simp [DotDims.lhsIdx, dot_S32x256_S256x104_S32x104_1_0_0_1_n_n]; rfl
theorem rhs_0 (j : S32x104.Idx) (k : dot_S32x256_S256x104_S32x104_1_0_0_1_n_n.contr.Idx) :
    (dot_S32x256_S256x104_S32x104_1_0_0_1_n_n.rhsIdx j k 0 : ℕ) = k ⟨0, by decide⟩ := by
  simp [DotDims.rhsIdx, dot_S32x256_S256x104_S32x104_1_0_0_1_n_n]; rfl
theorem rhs_1 (j : S32x104.Idx) (k : dot_S32x256_S256x104_S32x104_1_0_0_1_n_n.contr.Idx) :
    (dot_S32x256_S256x104_S32x104_1_0_0_1_n_n.rhsIdx j k 1 : ℕ) = j 1 := by
  simp [DotDims.rhsIdx, dot_S32x256_S256x104_S32x104_1_0_0_1_n_n]; rfl

theorem mm_apply (a : FVec Ideal S32x256 .bf16) (b : FVec Ideal S256x104 .bf16) (i : Fin 32) (n : Fin 104) :
    matmul dot_S32x256_S256x104_S32x104_1_0_0_1_n_n none a b (constant S32x104 .f32 0x00000000#32) (ix2 i n)
      = ∑ k : Fin 256, a (ix2 i k) * b (ix2 k n) := by
  simp only [matmul]
  rw [Ideal.matmul_constant_zero_apply,
    ← Equiv.sum_comp (contrEquiv1 dot_S32x256_S256x104_S32x104_1_0_0_1_n_n 256 rfl rfl).symm]
  refine Finset.sum_congr rfl fun k _ => ?_
  have hl : dot_S32x256_S256x104_S32x104_1_0_0_1_n_n.lhsIdx (ix2 i n)
      ((contrEquiv1 dot_S32x256_S256x104_S32x104_1_0_0_1_n_n 256 rfl rfl).symm k) = ix2 i k := by
    funext ax; apply Fin.ext
    match ax with
    | ⟨0, _⟩ => exact lhs_0 _ _
    | ⟨1, _⟩ => exact (lhs_1 _ _).trans (contrEquiv1_symm_val _ 256 rfl rfl k)
  have hr : dot_S32x256_S256x104_S32x104_1_0_0_1_n_n.rhsIdx (ix2 i n)
      ((contrEquiv1 dot_S32x256_S256x104_S32x104_1_0_0_1_n_n 256 rfl rfl).symm k) = ix2 k n := by
    funext ax; apply Fin.ext
    match ax with
    | ⟨0, _⟩ => exact (rhs_0 _ _).trans (contrEquiv1_symm_val _ 256 rfl rfl k)
    | ⟨1, _⟩ => exact rhs_1 _ _
  rw [hl, hr]

/-! ## The stored value at an index -/

/-- At `(i, n)` the body stores row `i` of the first block against column `n` of the second, plus the bias row's
    entry `n` (the narrowing of the first block to the second's format is the identity on extended reals). -/
theorem pay1_apply (x0 : FVec Ideal S32x256 .f32) (x1 : FVec Ideal S256x104 .bf16) (x2 : FVec Ideal S1x104 .f32)
    (i : Fin 32) (n : Fin 104) :
    k12_pay1 (F := Ideal) x0 x1 x2 (ix2 i n) = (∑ k : Fin 256, x0 (ix2 i k) * x1 (ix2 k n)) + x2 (ix2 (0 : Fin 1) n) := by
  unfold k12_pay1
  rw [shapeCast_self, shapeCast_self, shapeCast_self, addf_apply, mm_apply, broadcastTo_1b_ab_apply]
  rfl

theorem hz : (![0, 0] : Fin 2 → Nat) = fun _ => 0 := funext fun a => by fin_cases a <;> rfl

/-- The one store covers the staging buffer, and each load reads its block whole: the buffer after the body is the
    stored value of the three blocks. -/
theorem out_eq (x0 : FVec Ideal S32x256 .f32) (x1 : FVec Ideal S256x104 .bf16) (x2 : FVec Ideal S1x104 .f32) :
    out12_3 (F := Ideal) x0 x1 x2 = k12_pay1 (F := Ideal) x0 x1 x2 := by
  unfold out12_3
  rw [View.canon_unit_zero hz]
  simp only [View.ld_unit_zero (S := S32x256) hz, View.ld_unit_zero (S := S256x104) hz, View.ld_unit_zero (S := S1x104) hz]

/-! ## From the one point's blocks to the arrays -/

section Arrays

variable (V : (c : Dev nD) → (b : Ref sig .tc) → Buf (Elt Ideal) ((c : Thread nD τ).loc b))

/-- The root level's hidden states as the region finds them. -/
abbrev roots (c : Dev nD) : FVec Ideal S32x256 .f32 := V c main_call0_v191
/-- The transposed classifier weights as the region finds them. -/
abbrev wT (c : Dev nD) : FVec Ideal S256x104 .bf16 := V c main_call0_v18
/-- The bias row as the region finds it. -/
abbrev bias (c : Dev nD) : FVec Ideal S1x104 .f32 := V c main_call0_v20

/-- Every window's block index is `(0, 0)` at the grid's one point. -/
theorem idx_facts : ∀ t : Fin cfg12.N, win12_0.index t (0 : Fin 2) = 0 ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0 :=
  (by decide +kernel : ∀ t : Fin grid12.N, _)

/-- The first window's block is the whole array of hidden states. -/
theorem blk0 (c : Dev nD) (t : Fin cfg12.N) : (iblk12 V c 0 t : Vec Ideal S32x256 .f32) = roots V c := by
  obtain ⟨e0, e1, -⟩ := idx_facts t
  funext y
  show V c main_call0_v191 (((cfg12.win 0).blk t).view.emb y) = V c main_call0_v191 y
  refine congrArg (V c main_call0_v191) (funext fun a => Fin.ext ?_)
  match a with
  | ⟨0, _⟩ => show win12_0.index t (0 : Fin 2) * 32 + 1 * (y 0).val = (y 0).val; omega
  | ⟨1, _⟩ => show win12_0.index t (1 : Fin 2) * 256 + 1 * (y 1).val = (y 1).val; omega

/-- The second window's block is the whole array of weights. -/
theorem blk1 (c : Dev nD) (t : Fin cfg12.N) : (iblk12 V c 1 t : Vec Ideal S256x104 .bf16) = wT V c := by
  obtain ⟨-, -, e0, e1, -⟩ := idx_facts t
  funext y
  show V c main_call0_v18 (((cfg12.win 1).blk t).view.emb y) = V c main_call0_v18 y
  refine congrArg (V c main_call0_v18) (funext fun a => Fin.ext ?_)
  match a with
  | ⟨0, _⟩ => show win12_1.index t (0 : Fin 2) * 256 + 1 * (y 0).val = (y 0).val; omega
  | ⟨1, _⟩ => show win12_1.index t (1 : Fin 2) * 104 + 1 * (y 1).val = (y 1).val; omega

/-- The third window's block is the whole bias row. -/
theorem blk2 (c : Dev nD) (t : Fin cfg12.N) : (iblk12 V c 2 t : Vec Ideal S1x104 .f32) = bias V c := by
  obtain ⟨-, -, -, -, e0, e1, -⟩ := idx_facts t
  funext y
  show V c main_call0_v20 (((cfg12.win 2).blk t).view.emb y) = V c main_call0_v20 y
  refine congrArg (V c main_call0_v20) (funext fun a => Fin.ext ?_)
  match a with
  | ⟨0, _⟩ => show win12_2.index t (0 : Fin 2) * 1 + 1 * (y 0).val = (y 0).val; omega
  | ⟨1, _⟩ => show win12_2.index t (1 : Fin 2) * 104 + 1 * (y 1).val = (y 1).val; omega

/-- What the output array ends holding: the stored value of the three entry arrays. -/
abbrev G (c : Dev nD) : FVec Ideal S32x104 .f32 := k12_pay1 (F := Ideal) (roots V c) (wT V c) (bias V c)

/-- What the one point writes back is its block of `G`. -/
theorem flushed_eq (c : Dev nD) (t : Fin cfg12.N) :
    (dat12 V c).flushed 3 t = ((cfg12.win 3).blk t).view.read (Elt Ideal) (G V c) := by
  show (cfg12.win 3).cut (grid12.coords t) ((dat12 V c).after 3 t) = _
  rw [after12_3, blk0 V c t, blk1 V c t, blk2 V c t, out_eq]
  obtain ⟨-, -, -, -, -, -, e0, e1⟩ := idx_facts t
  funext y
  show G V c y = G V c (((cfg12.win 3).blk t).view.emb y)
  refine congrArg (G V c) (funext fun a => Fin.ext ?_)
  match a with
  | ⟨0, _⟩ => show (y 0).val = win12_3.index t (0 : Fin 2) * 32 + 1 * (y 0).val; omega
  | ⟨1, _⟩ => show (y 1).val = win12_3.index t (1 : Fin 2) * 104 + 1 * (y 1).val; omega

/-- An index of the output array is in the point's block iff each coordinate is in the block's range. -/
theorem mem_blk (t : Fin cfg12.N) (i : S32x104.Idx) :
    i ∈ ((cfg12.win 3).blk t).view.set ↔ ∀ a : Fin 2, win12_3.index t a * S32x104.size a ≤ (i a).val
      ∧ (i a).val < win12_3.index t a * S32x104.size a + S32x104.size a := by
  show i ∈ ((View.whole main_v0).slice (win12_3.rect t)).set ↔ _
  rw [View.set_slice_whole, Rect.mem_set_unit]
  exact Iff.rfl

/-- The one point's block is the whole output array. -/
theorem cover (i : S32x104.Idx) : ∃ t : Fin cfg12.N, (cfg12.win 3).flush t = true ∧ i ∈ ((cfg12.win 3).blk t).view.set := by
  refine ⟨t12_0, flush12_3 t12_0, ?_⟩
  obtain ⟨-, -, -, -, -, -, e0, e1⟩ := idx_facts t12_0
  rw [mem_blk]
  intro a
  have h0 : (i 0).val < 32 := (i 0).isLt
  have h1 : (i 1).val < 104 := (i 1).isLt
  match a with
  | ⟨0, _⟩ => show win12_3.index t12_0 (0 : Fin 2) * 32 ≤ (i 0).val ∧ (i 0).val < win12_3.index t12_0 (0 : Fin 2) * 32 + 32; omega
  | ⟨1, _⟩ => show win12_3.index t12_0 (1 : Fin 2) * 104 ≤ (i 1).val ∧ (i 1).val < win12_3.index t12_0 (1 : Fin 2) * 104 + 104; omega

/-- The output array after the region is `G`. -/
theorem arr_eq (c : Dev nD) : ((dat12 V c).arrAt 3 cfg12.N : S32x104.Idx → EReal) = G V c :=
  (dat12 V c).arrAt_eq_of_cover 3 (G V c) (fun t _ => flushed_eq V c t) (cover)

/-- THE CLASSIFIER'S VALUE. Where the region finds the weights' array to be the transpose of `linw` and the bias
    row to be `linb`, its output array is `roots · linw^T + linb`, index by index. -/
theorem value (c : Dev nD) (linw : Cert.TreeLstm.A2 104 256) (linb : Cert.TreeLstm.A1 104)
    (hL : ∀ (k : Fin 256) (n : Fin 104), wT V c (ix2 k n) = linw (ix2 n k))
    (hB : ∀ n : Fin 104, bias V c (ix2 (0 : Fin 1) n) = linb (ix1 n)) (i : Fin 32) (n : Fin 104) :
    ((dat12 V c).arrAt 3 cfg12.N : S32x104.Idx → EReal) (ix2 i n)
      = (∑ k : Fin 256, roots V c (ix2 i k) * linw (ix2 n k)) + linb (ix1 n) := by
  refine (congrFun (arr_eq V c) (ix2 i n)).trans ?_
  show k12_pay1 (F := Ideal) (roots V c) (wT V c) (bias V c) (ix2 i n) = _
  rw [pay1_apply, hB]
  exact congrArg (· + linb (ix1 n)) (Finset.sum_congr rfl fun k _ => by rw [hL])

end Arrays

end Cert.KernelIdeal.Reg12

end
-- ==== Proof.BridgeK.lean ====
/-
  The fused kernel's side of every level, in the chain's terms. The weights, the gathered token rows and the parent
  words are read off the launch memory; each region's output array is the level's packed array. The deepest region
  delivers `KLeaf`, each update region with the host arithmetic before it delivers `KLevel` from the level below,
  and the classifier reads the left half of the root level's packed array.
-/
import proofs.«419362_j66683662237734_3_alg».proof.Proof.KernelIdealFrameP
import proofs.«419362_j66683662237734_3_alg».proof.Proof.LibChain
import proofs.«419362_j66683662237734_3_alg».proof.Proof.RLvlLib
import proofs.«419362_j66683662237734_3_alg».proof.Proof.KPre
import proofs.«419362_j66683662237734_3_alg».proof.Proof.KReg0
import proofs.«419362_j66683662237734_3_alg».proof.Proof.KReg12

set_option maxRecDepth 4000

noncomputable section

open scoped BigOperators

namespace Cert.BridgeK

open Cert.KernelIdeal Cert.KernelIdeal.Gen Cert.TreeLstm
open Idealize.ShloMosaic Idealize.ShloMosaic.TcCoe Idealize.ShloMosaic.ValueIdx

variable (m : (ℓ : Loc nD τ sig) → Buf (Elt Ideal) ℓ) (ρ : Dev nD → PrngReg) (c : Dev nD)

/-- The weights as the launch memory holds them. -/
def wK : Wts where
  W := m ((c : Thread nD τ).loc main_arg3)
  U := m ((c : Thread nD τ).loc main_arg4)
  bI := m ((c : Thread nD τ).loc main_arg5)
  Uf := m ((c : Thread nD τ).loc main_arg6)
  bF := m ((c : Thread nD τ).loc main_arg7)

/-- The gathered token rows. -/
def GK : A2 131040 256 := Pre.G (F := Ideal) (m ((c : Thread nD τ).loc main_arg2)) (m ((c : Thread nD τ).loc main_arg0))

/-- The parent words. -/
def parK : (⟨1, ![131040]⟩ : Shape).Idx → BitVec 32 := m ((c : Thread nD τ).loc main_arg1)

/-- The classifier's weights and bias. -/
def linwK : A2 104 256 := m ((c : Thread nD τ).loc main_arg8)
def linbK : A1 104 := m ((c : Thread nD τ).loc main_arg9)

/-! ## The packed level arrays: each region's output array at the region's exit -/

/-- The deepest level's packed array: region 0's output at its exit. -/
def HC0 : A2 65536 512 := W2 m ρ c (Proc.devRef .tc main_call0_v25)
/-- Level 10's packed array: region 1's output at its exit. -/
def HC1 : A2 32768 512 := W4 m ρ c (Proc.devRef .tc main_call0_v40)
/-- Level 9's packed array: region 2's output at its exit. -/
def HC2 : A2 16384 512 := W6 m ρ c (Proc.devRef .tc main_call0_v55)
/-- Level 8's packed array: region 3's output at its exit. -/
def HC3 : A2 8192 512 := W8 m ρ c (Proc.devRef .tc main_call0_v70)
/-- Level 7's packed array: region 4's output at its exit. -/
def HC4 : A2 4096 512 := W10 m ρ c (Proc.devRef .tc main_call0_v85)
/-- Level 6's packed array: region 5's output at its exit. -/
def HC5 : A2 2048 512 := W12 m ρ c (Proc.devRef .tc main_call0_v100)
/-- Level 5's packed array: region 6's output at its exit. -/
def HC6 : A2 1024 512 := W14 m ρ c (Proc.devRef .tc main_call0_v115)
/-- Level 4's packed array: region 7's output at its exit. -/
def HC7 : A2 512 512 := W16 m ρ c (Proc.devRef .tc main_call0_v130)
/-- Level 3's packed array: region 8's output at its exit. -/
def HC8 : A2 256 512 := W18 m ρ c (Proc.devRef .tc main_call0_v145)
/-- Level 2's packed array: region 9's output at its exit. -/
def HC9 : A2 128 512 := W20 m ρ c (Proc.devRef .tc main_call0_v160)
/-- Level 1's packed array: region 10's output at its exit. -/
def HC10 : A2 64 512 := W22 m ρ c (Proc.devRef .tc main_call0_v175)
/-- Level 0's packed array: region 11's output at its exit. -/
def HC11 : A2 32 512 := W24 m ρ c (Proc.devRef .tc main_call0_v190)

/-! ## The deepest level -/

theorem kleaf : Chain.KLeaf 2048 2047 (rfl : 65536 = 32 * 2048) (by omega) (wK m c) (GK m c) (HC0 m ρ c) := by
  refine ⟨Reg0.xs (V1 m ρ) c, fun i k => ?_, fun i j => ?_⟩
  · refine (Pre.v24_at m ρ c i k).trans ?_
    exact congrFun (Pre.v10_eq m ρ c) _
  · have e : HC0 m ρ c = ((dat0 (V1 m ρ) c).arrAt 5 cfg0.N : A2 65536 512) := W2_arr m ρ c 5
    rw [e]
    exact Reg0.value (V1 m ρ) (wK m c) c (Pre.v12_at m ρ c)
      (fun n => congrFun (Pre.V1_arg5 m ρ c) (ix2 (0 : Fin 1) n)) (Pre.v14_at m ρ c) (Pre.v19_at m ρ c) i j

/-! ## The classifier -/

/-- The classifier's input rows, as the classifier's region finds them. -/
def rootsK : A2 32 256 := V25 m ρ c main_call0_v191

/-- The classifier's input rows are the left half of the root level's packed array. -/
theorem kroots (i : Fin 32) (k : Fin 256) :
    rootsK m ρ c (ix2 i k) = HC11 m ρ c (ix2 i (lo k)) := by
  show (V25 m ρ c main_call0_v191 : A2 32 256) (ix2 i k) = HC11 m ρ c (ix2 i (lo k))
  have e : (V25 m ρ c main_call0_v191 : A2 32 256)
      = extractStridedSlice S32x256 ![0, 0] (W24 m ρ c (Proc.devRef .tc main_call0_v190) : A2 32 512) slices_S32x512_S32x256_0_0 := by
    dsimp only [V25, W25, hostOps12]; after_results; rfl
  rw [e]
  exact Cert.ReferenceIdeal.LvlLib.slice_cols_apply 0 slices_S32x512_S32x256_0_0 _ i k (lo k) (Nat.zero_add _).symm

/-- The kernel's result, index by index. -/
theorem kout (i : Fin 32) (n : Fin 104) :
    (W26 m ρ c (Proc.devRef .tc main_v0) : A2 32 104) (ix2 i n)
      = (∑ k : Fin 256, rootsK m ρ c (ix2 i k) * linwK m c (ix2 n k)) + linbK m c (ix1 n) := by
  have e : (W26 m ρ c (Proc.devRef .tc main_v0) : A2 32 104) = ((dat12 (V25 m ρ) c).arrAt 3 cfg12.N : A2 32 104) :=
    W26_arr m ρ c 3
  rw [e]
  exact Reg12.value (V25 m ρ) c (linwK m c) (linbK m c)
    (fun k n => (congrFun (Pre.V25_v18 m ρ c) (ix2 k n)).trans (Pre.v18_at m ρ c k n))
    (fun n => (congrFun (Pre.V25_v20 m ρ c) (ix2 (0 : Fin 1) n)).trans (Pre.v20_at m ρ c n)) i n

end Cert.BridgeK

end
-- ==== Proof.KStrLib.lean ====
/-
  Reading one level's host arithmetic at an index, free of the program.

  A level's window of the token rows is rows `off … off + n - 1` of each of `B` graphs' `L` rows, flattened to
  `B * n` rows: flat row `i` is row `off + i % n` of graph `i / n`. The children's parent ids are cut the same
  way out of a `B × L` table. The per-slot sum of the children's rows is an accumulating row scatter into zeros by
  the column of slot numbers: slot `i` receives the rows of the children routed to it.
-/
import Idealize.ShloMosaic.Lib.ValueLayout
import Idealize.ShloMosaic.PureOps.Ideal.Laws
import proofs.«419362_j66683662237734_3_alg».proof.Proof.Spec
import proofs.«419362_j66683662237734_3_alg».proof.Proof.LibRows

noncomputable section

open scoped BigOperators

namespace Cert.TreeLstm.Str

open Idealize.ShloMosaic Idealize.ShloMosaic.ValueIdx Cert.TreeLstm Cert.TreeLstm.Rows

variable {α : Type}

/-- Rows `off … off + n - 1` of each graph of a `B × L × C` array, flattened to `M = B * n` rows: flat row `i`,
    column `k` is graph `i / n`, row `off + i % n`, column `k`. -/
theorem flat3_slice_apply {B L n C M : Nat} (off : Nat) (x : (⟨3, ![B, L, C]⟩ : Shape).Idx → α)
    (hs : (⟨3, ![B, L, C]⟩ : Shape).Slices ![0, off, 0] ⟨3, ![B, n, C]⟩)
    (hc : (⟨3, ![B, n, C]⟩ : Shape).ShapeCasts ⟨2, ![M, C]⟩)
    (i : Fin M) (k : Fin C) (hn : 0 < n) (hb : i.val / n < B) (hl : off + i.val % n < L) :
    shapeCast ⟨2, ![M, C]⟩ (extractStridedSlice ⟨3, ![B, n, C]⟩ ![0, off, 0] x hs) hc (ix2 i k)
      = x (ix3 ⟨i.val / n, hb⟩ ⟨off + i.val % n, hl⟩ k) := by
  have hm : i.val % n < n := Nat.mod_lt _ hn
  refine (shapeCast_apply _ hc (ix2 i k) (ix3 ⟨i.val / n, hb⟩ ⟨i.val % n, hm⟩ k) ?_).trans ?_
  · rw [Shape.rowMajor_val_three, Shape.rowMajor_val_two]
    show (i.val / n * n + i.val % n) * C + k.val = i.val * C + k.val
    rw [Nat.div_add_mod' i.val n]
  · exact slice3_axis1_apply off x hs _ _ _ _ rfl

/-- Columns `off … off + n - 1` of each row of a `B × L` table, flattened to `M = B * n` entries: entry `q` is row
    `q / n`, column `off + q % n`. -/
theorem flat2_slice_apply {B L n M : Nat} (off : Nat) (x : (⟨2, ![B, L]⟩ : Shape).Idx → α)
    (hs : (⟨2, ![B, L]⟩ : Shape).Slices ![0, off] ⟨2, ![B, n]⟩)
    (hc : (⟨2, ![B, n]⟩ : Shape).ShapeCasts ⟨1, ![M]⟩)
    (q : Fin M) (hn : 0 < n) (hb : q.val / n < B) (hl : off + q.val % n < L) :
    shapeCast ⟨1, ![M]⟩ (extractStridedSlice ⟨2, ![B, n]⟩ ![0, off] x hs) hc (ix1 q)
      = x (ix2 ⟨q.val / n, hb⟩ ⟨off + q.val % n, hl⟩) := by
  have hm : q.val % n < n := Nat.mod_lt _ hn
  refine (shapeCast_apply _ hc (ix1 q) (ix2 ⟨q.val / n, hb⟩ ⟨q.val % n, hm⟩) ?_).trans ?_
  · rw [Shape.rowMajor_val_two, Shape.rowMajor_val_one]
    show q.val / n * n + q.val % n = q.val
    exact Nat.div_add_mod' q.val n
  · exact slice2_axis1_apply off x hs _ _ _ rfl

/-- A vector laid out as a one-column matrix reads, at row `k`, the vector at `k`. -/
theorem col_apply {M : Nat} (v : (⟨1, ![M]⟩ : Shape).Idx → α)
    (h : (⟨1, ![M]⟩ : Shape).BroadcastsInDim ⟨2, ![M, 1]⟩ (![0] : Fin 1 → Fin (⟨2, ![M, 1]⟩ : Shape).rank)) (k : Fin M) :
    broadcastInDim ⟨2, ![M, 1]⟩ ![0] h v (ix2 k 0) = v (ix1 k) :=
  broadcastInDim_apply _ h v _ _ fun a => by
    match a with
    | ⟨0, _⟩ =>
      show k.val = if M = 1 then 0 else k.val
      split
      · have := k.isLt; omega
      · rfl

/-- The all-zeros array of any shape reads zero. -/
theorem zeros_apply {t : Shape} (dims : Fin (⟨0, ![]⟩ : Shape).rank → Fin t.rank)
    (h : (⟨0, ![]⟩ : Shape).BroadcastsInDim t dims) (j : t.Idx) :
    broadcastInDim t dims h (constant (F := Ideal) ⟨0, ![]⟩ .f32 0x00000000#32) j = (0 : EReal) :=
  (broadcastInDim_apply dims h _ j ix0 fun a => a.elim0).trans Ideal.ofBits_zero_f32

/-- The per-slot sum: the children's rows scattered with accumulation into zeros by the column of slot numbers.
    Slot `i` holds the sum of the rows of the children whose slot number names it. -/
theorem segsum_apply {N M C : Nat} (s : ScatterDims ⟨2, ![N, C]⟩ ⟨2, ![M, 1]⟩ ⟨2, ![M, C]⟩) (hs : IsRowScatter s)
    (dims : Fin (⟨0, ![]⟩ : Shape).rank → Fin (⟨2, ![N, C]⟩ : Shape).rank)
    (hz : (⟨0, ![]⟩ : Shape).BroadcastsInDim ⟨2, ![N, C]⟩ dims)
    (hcol : (⟨1, ![M]⟩ : Shape).BroadcastsInDim ⟨2, ![M, 1]⟩ (![0] : Fin 1 → Fin (⟨2, ![M, 1]⟩ : Shape).rank))
    (seg : IVec ⟨1, ![M]⟩ 32) (upd : FVec Ideal ⟨2, ![M, C]⟩ .f32) (i : Fin N) (n : Fin C) :
    Host.scatterAdd (F := Ideal) s
        (broadcastInDim ⟨2, ![N, C]⟩ dims hz (constant (F := Ideal) ⟨0, ![]⟩ .f32 0x00000000#32))
        (broadcastInDim ⟨2, ![M, 1]⟩ ![0] hcol seg) upd (ix2 i n)
      = ∑ k ∈ kids (fun k : Fin M => rowTarget N (seg (ix1 k))) i, upd (ix2 k n) := by
  rw [scatterAdd_rows_apply s hs, zeros_apply, zero_add]
  refine Finset.sum_congr (Finset.filter_congr fun k _ => ?_) fun _ _ => rfl
  rw [col_apply]

end Cert.TreeLstm.Str

end
-- ==== Proof.KStr1.lean ====
/-
  The host arithmetic before the level with 1024 nodes per graph of the fused kernel, read off the program.

  From the contents at the stretch's entry it cuts the level's window of the token rows (1024 rows of each graph from
  row 1023 on, flattened to 32768 rows) and the children's parent ids (2048 entries of each graph from entry 2047 on,
  flattened to 65536), turns each parent id `p` into the parent's slot `(p div 4095) * 1024 + (p mod 4095 - 1023)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str1

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps1 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S65536x512 .f32 := Win (Proc.devRef .tc main_call0_v25)
abbrev xOut : Vec Ideal S32768x256 .bf16 := Wout (Proc.devRef .tc main_call0_v27)
abbrev pOut : IVec S65536 32 := Wout (Proc.devRef .tc main_call0_v29)
abbrev segOut : IVec S65536 32 := Wout (Proc.devRef .tc main_call0_v36)
abbrev aggOut : Vec Ideal S32768x512 .f32 := Wout (Proc.devRef .tc main_call0_v39)

/-- The parent's slot from the parent's node id `p`: `(p div 4095) * 1024 + (p mod 4095 - 1023)`, the flooring
    quotient and the non-negative remainder written through the truncating ones as the program writes them. -/
def segFun (p : IVec S65536 32) : IVec S65536 32 :=
  addi
    (muli
      (select (andi (cmpi .ne (signi p) (broadcastInDim S65536 ![] bcast_S_S65536 (signi (id (constantI S_ 32 4095#32))))) (cmpi .ne (Host.remsi p (broadcastInDim S65536 ![] bcast_S_S65536 (id (constantI S_ 32 4095#32)))) (broadcastInDim S65536 ![] bcast_S_S65536 (constantI S_ 32 0#32))))
        (subi (Host.divsi p (broadcastInDim S65536 ![] bcast_S_S65536 (id (constantI S_ 32 4095#32)))) (broadcastInDim S65536 ![] bcast_S_S65536 (constantI S_ 32 1#32)))
        (Host.divsi p (broadcastInDim S65536 ![] bcast_S_S65536 (id (constantI S_ 32 4095#32)))))
      (broadcastInDim S65536 ![] bcast_S_S65536 (constantI S_ 32 1024#32)))
    (subi
      (select (andi (cmpi .ne (cmpi .slt (Host.remsi p (broadcastInDim S65536 ![] bcast_S_S65536 (select (cmpi .eq (id (constantI S_ 32 4095#32)) (constantI S_ 32 0#32)) (constantI S_ 32 1#32) (id (constantI S_ 32 4095#32))))) (broadcastInDim S65536 ![] bcast_S_S65536 (constantI S_ 32 0#32))) (broadcastInDim S65536 ![] bcast_S_S65536 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S65536 ![] bcast_S_S65536 (select (cmpi .eq (id (constantI S_ 32 4095#32)) (constantI S_ 32 0#32)) (constantI S_ 32 1#32) (id (constantI S_ 32 4095#32))))) (broadcastInDim S65536 ![] bcast_S_S65536 (constantI S_ 32 0#32))))
        (addi (Host.remsi p (broadcastInDim S65536 ![] bcast_S_S65536 (select (cmpi .eq (id (constantI S_ 32 4095#32)) (constantI S_ 32 0#32)) (constantI S_ 32 1#32) (id (constantI S_ 32 4095#32))))) (broadcastInDim S65536 ![] bcast_S_S65536 (select (cmpi .eq (id (constantI S_ 32 4095#32)) (constantI S_ 32 0#32)) (constantI S_ 32 1#32) (id (constantI S_ 32 4095#32)))))
        (Host.remsi p (broadcastInDim S65536 ![] bcast_S_S65536 (select (cmpi .eq (id (constantI S_ 32 4095#32)) (constantI S_ 32 0#32)) (constantI S_ 32 1#32) (id (constantI S_ 32 4095#32))))))
      (broadcastInDim S65536 ![] bcast_S_S65536 (constantI S_ 32 1023#32)))

/-- The level's token window: flat row `i` is row `1023 + i % 1024` of graph `i / 1024`. -/
theorem x_apply (i : Fin 32768) (k : Fin 256) :
    xOut Win (ix2 i k)
      = tokIn Win (ix3 ⟨i.val / 1024, by omega⟩ ⟨1023 + i.val % 1024, by omega⟩ k) := by
  have e : xOut Win = shapeCast S32768x256 (extractStridedSlice S32x1024x256 ![0, 1023, 0] (tokIn Win)
      slices_S32x4095x256_S32x1024x256_0_1023_0) shapeCasts_S32x1024x256_S32768x256 := by
    dsimp only [xOut, tokIn, hostOps1]
    after_results_simp
    rfl
  rw [e]
  exact flat3_slice_apply 1023 (tokIn Win) _ _ i k (by decide) _ _

/-- The children's parent ids: entry `q` is entry `2047 + q % 2048` of graph `q / 2048`. -/
theorem p_apply (q : Fin 65536) :
    pOut Win (ix1 q)
      = parIn Win (ix2 ⟨q.val / 2048, by omega⟩ ⟨2047 + q.val % 2048, by omega⟩) := by
  have e : pOut Win = shapeCast S65536 (extractStridedSlice S32x2048 ![0, 2047] (parIn Win)
      slices_S32x4095_S32x2048_0_2047) shapeCasts_S32x2048_S65536 := by
    dsimp only [pOut, parIn, hostOps1]
    after_results_simp
    rfl
  rw [e]
  exact flat2_slice_apply 2047 (parIn Win) _ _ q (by decide) _ _

/-- The slot numbers are `segFun` of the parent ids. -/
theorem seg_eq :
    segOut Win = segFun (pOut Win) := by
  dsimp only [segOut, pOut, hostOps1]
  after_results_simp
  rfl

/-- The per-slot sums, as the scatter that computes them. -/
theorem agg_eq :
    aggOut Win
      = Host.scatterAdd (F := Ideal) scatter_S32768x512_S65536x1_S65536x512_1_0_0_1
          (broadcastInDim S32768x512 ![] bcast_S_S32768x512 (constant (F := Ideal) S_ .f32 0x00000000#32))
          (broadcastInDim S65536x1 ![0] bcast_S65536_S65536x1_0 (segOut Win))
          (hcIn Win) := by
  dsimp only [aggOut, segOut, hcIn, hostOps1]
  after_results_simp
  rfl

/-- Slot `i` holds the sum of the packed rows of the children routed to it. -/
theorem agg_apply (i : Fin 32768) (n : Fin 512) :
    aggOut Win (ix2 i n)
      = ∑ k ∈ kids (fun k : Fin 65536 => rowTarget 32768 (segOut Win (ix1 k))) i, hcIn Win (ix2 k n) := by
  rw [agg_eq]
  exact segsum_apply scatter_S32768x512_S65536x1_S65536x512_1_0_0_1 ⟨rfl, rfl, rfl, rfl⟩ _ bcast_S_S32768x512
    bcast_S65536_S65536x1_0 (segOut Win) (hcIn Win) i n

/-! ## What the stretch leaves alone -/

/-- The arrays the stretch writes. -/
noncomputable def written : List (Ref sig .tc) :=
  [main_call0_v26, main_call0_v27, main_call0_v28, main_call0_v29, main_call0_c_2, main_call0_call0_v0,
   main_call0_call0_v1, main_call0_call0_v2, main_call0_call0_v3, main_call0_call0_v4, main_call0_call0_v5,
   main_call0_call0_v6, main_call0_call0_v7, main_call0_call0_v8, main_call0_call0_c, main_call0_call0_v9,
   main_call0_call0_v10, main_call0_call0_v11, main_call0_call0_c_0, main_call0_call0_v12, main_call0_call0_v13,
   main_call0_v30, main_call0_c_3, main_call0_v31, main_call0_v32, main_call0_c_4, main_call0_call1_v0,
   main_call0_call1_c, main_call0_call1_v1, main_call0_call1_c_0, main_call0_call1_v2, main_call0_call1_v3,
   main_call0_call1_v4, main_call0_call1_c_1, main_call0_call1_v5, main_call0_call1_v6, main_call0_call1_c_2,
   main_call0_call1_v7, main_call0_call1_v8, main_call0_call1_c_3, main_call0_call1_v9, main_call0_call1_v10,
   main_call0_call1_v11, main_call0_call1_v12, main_call0_call1_v13, main_call0_call1_v14, main_call0_v33,
   main_call0_c_5, main_call0_v34, main_call0_v35, main_call0_v36, main_call0_cst_6, main_call0_v37,
   main_call0_v38, main_call0_v39]

/-- An array the stretch does not write holds after it what it held before. -/
theorem keep (r : Ref sig .tc) (hr : r ∉ written) : Wout (Proc.devRef .tc r) = Win (Proc.devRef .tc r) := by
  refine after_of_writes_sub (W := written) hostOps1 Win ?_ hr
  simp only [hostOps1, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v25 : Wout (Proc.devRef .tc main_call0_v25) = Win (Proc.devRef .tc main_call0_v25) := keep Win _ (by decide)
theorem keep_arg5 : Wout (Proc.devRef .tc main_arg5) = Win (Proc.devRef .tc main_arg5) := keep Win _ (by decide)

end Cert.KernelIdeal.Str1

end
-- ==== Proof.KRow1.lean ====
/-
  The update kernel's body at level 10 (blocks of 1024 rows), read at one element.

  The body's five payloads, over variables of the block shapes: the pre-activation [1024,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 1024; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg1

open Cert.KernelIdeal Cert.KernelIdeal.Gen Cert.TreeLstm
open Idealize.ShloMosaic Idealize.ShloMosaic.ValueIdx

/-! ## The two contractions at an index -/

/-- [1024,256] × [256,768] into zeros, at (r, n): the sum over the 256 contracted coordinates. -/
theorem matmul_1024x256_256x768_apply (a : FVec Ideal S1024x256 .bf16) (b : FVec Ideal S256x768 .bf16) (r : Fin 1024) (n : Fin 768) :
    matmul dot_S1024x256_S256x768_S1024x768_1_0_0_1_n_n none a b (constant (F := Ideal) S1024x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x768_S1024x768_1_0_0_1_n_n 256 rfl rfl).symm]
  refine Finset.sum_congr rfl fun k _ => ?_
  have ck := contrEquiv1_symm_val dot_S1024x256_S256x768_S1024x768_1_0_0_1_n_n 256 rfl rfl k
  have l2 : dot_S1024x256_S256x768_S1024x768_1_0_0_1_n_n.lhsIdx (ix2 r n)
      ((contrEquiv1 dot_S1024x256_S256x768_S1024x768_1_0_0_1_n_n 256 rfl rfl).symm k) = ix2 r k := by
    funext ax; apply Fin.ext
    match ax with
    | ⟨0, _⟩ => simp [DotDims.lhsIdx, dot_S1024x256_S256x768_S1024x768_1_0_0_1_n_n]; rfl
    | ⟨1, _⟩ => simp [DotDims.lhsIdx, dot_S1024x256_S256x768_S1024x768_1_0_0_1_n_n]; exact ck
  have r2 : dot_S1024x256_S256x768_S1024x768_1_0_0_1_n_n.rhsIdx (ix2 r n)
      ((contrEquiv1 dot_S1024x256_S256x768_S1024x768_1_0_0_1_n_n 256 rfl rfl).symm k) = ix2 k n := by
    funext ax; apply Fin.ext
    match ax with
    | ⟨0, _⟩ => simp [DotDims.rhsIdx, dot_S1024x256_S256x768_S1024x768_1_0_0_1_n_n]; exact ck
    | ⟨1, _⟩ => simp [DotDims.rhsIdx, dot_S1024x256_S256x768_S1024x768_1_0_0_1_n_n]; rfl
  rw [l2, r2]

/-- [1024,256] × [256,256] into zeros, at (r, n): the sum over the 256 contracted coordinates. -/
theorem matmul_1024x256_256x256_apply (a : FVec Ideal S1024x256 .bf16) (b : FVec Ideal S256x256 .bf16) (r : Fin 1024) (n : Fin 256) :
    matmul dot_S1024x256_S256x256_S1024x256_1_0_0_1_n_n none a b (constant (F := Ideal) S1024x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x256_S1024x256_1_0_0_1_n_n 256 rfl rfl).symm]
  refine Finset.sum_congr rfl fun k _ => ?_
  have ck := contrEquiv1_symm_val dot_S1024x256_S256x256_S1024x256_1_0_0_1_n_n 256 rfl rfl k
  have l2 : dot_S1024x256_S256x256_S1024x256_1_0_0_1_n_n.lhsIdx (ix2 r n)
      ((contrEquiv1 dot_S1024x256_S256x256_S1024x256_1_0_0_1_n_n 256 rfl rfl).symm k) = ix2 r k := by
    funext ax; apply Fin.ext
    match ax with
    | ⟨0, _⟩ => simp [DotDims.lhsIdx, dot_S1024x256_S256x256_S1024x256_1_0_0_1_n_n]; rfl
    | ⟨1, _⟩ => simp [DotDims.lhsIdx, dot_S1024x256_S256x256_S1024x256_1_0_0_1_n_n]; exact ck
  have r2 : dot_S1024x256_S256x256_S1024x256_1_0_0_1_n_n.rhsIdx (ix2 r n)
      ((contrEquiv1 dot_S1024x256_S256x256_S1024x256_1_0_0_1_n_n 256 rfl rfl).symm k) = ix2 k n := by
    funext ax; apply Fin.ext
    match ax with
    | ⟨0, _⟩ => simp [DotDims.rhsIdx, dot_S1024x256_S256x256_S1024x256_1_0_0_1_n_n]; exact ck
    | ⟨1, _⟩ => simp [DotDims.rhsIdx, dot_S1024x256_S256x256_S1024x256_1_0_0_1_n_n]; rfl
  rw [l2, r2]

/-! ## The payloads at an index -/

/-- The pre-activation at (r, n): (x·Wt + b) + h̃·Ut. -/
theorem pay2_apply (v0 : Vec Ideal S1024x256 .bf16) (v2 : Vec Ideal S256x768 .bf16) (v5 : Vec Ideal S1x768 .f32)
    (v8 : Vec Ideal S1024x256 .f32) (v13 : Vec Ideal S256x768 .bf16) (r : Fin 1024) (n : Fin 768) :
    k1_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k1_pay2
  simp only [shapeCast_self]
  refine (addf_apply _ _ _).trans ?_
  refine congrArg₂ (· + ·) ((addf_apply _ _ _).trans (congrArg₂ (· + ·) ?_ ?_)) ?_
  · exact matmul_1024x256_256x768_apply v0 v2 r n
  · exact broadcastTo_1b_ab_apply v5 broadcasts_S1x768_S1024x768 r n
  · exact matmul_1024x256_256x768_apply _ v13 r n

/-- The cell state at (r, j): logistic z₀ * tanh z₂ + c̃. -/
theorem pay3_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k1_pay3 v0 v2 v5 v8 v10 v13 (ix2 r j)
      = Ideal.logistic (k1_pay2 v0 v2 v5 v8 v13 (ix2 r (c0 j))) * Ideal.tanh (k1_pay2 v0 v2 v5 v8 v13 (ix2 r (c2 j)))
        + v10 (ix2 r j) := by
  unfold k1_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k1_pay2 v0 v2 v5 v8 v13) slices_S1024x768_o0_0_S1024x256 r j (c0 j) (Nat.zero_add _).symm)
  · exact congrArg Ideal.tanh
      (slice2_axis1_apply 512 (k1_pay2 v0 v2 v5 v8 v13) slices_S1024x768_o0_512_S1024x256 r j (c2 j) rfl)

/-- The hidden state at (r, j): logistic z₁ * tanh c. -/
theorem pay4_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k1_pay4 v0 v2 v5 v8 v10 v13 (ix2 r j)
      = Ideal.logistic (k1_pay2 v0 v2 v5 v8 v13 (ix2 r (c1 j))) * Ideal.tanh (k1_pay3 v0 v2 v5 v8 v10 v13 (ix2 r j)) := by
  unfold k1_pay4
  refine (mulf_apply _ _ _).trans (congrArg₂ (· * ·) ?_ rfl)
  exact congrArg Ideal.logistic
    (slice2_axis1_apply 256 (k1_pay2 v0 v2 v5 v8 v13) slices_S1024x768_o0_256_S1024x256 r j (c1 j) rfl)

/-- The forget gate of the hidden state just computed, at (r, j): logistic (h·Uft + bF). -/
theorem pay5_apply (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024) (j : Fin 256) :
    k1_pay5 v0 v2 v5 v8 v10 v13 v28 v31 (ix2 r j)
      = Ideal.logistic ((∑ k : Fin 256, k1_pay4 v0 v2 v5 v8 v10 v13 (ix2 r k) * v28 (ix2 k j)) + v31 (ix2 (0 : Fin 1) j)) := by
  unfold k1_pay5
  simp only [shapeCast_self]
  refine congrArg Ideal.logistic ((addf_apply _ _ _).trans (congrArg₂ (· + ·) ?_ ?_))
  · exact matmul_1024x256_256x256_apply _ v28 r j
  · exact broadcastTo_1b_ab_apply v31 broadcasts_S1x256_S1024x256 r j

/-- The right half's stored value at (r, j): the gate times the cell state. -/
theorem pay1_apply (v23 v35 : FVec Ideal S1024x256 .f32) (r : Fin 1024) (j : Fin 256) :
    k1_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k1_pay4 v0 v2 v5 v8 v10 v13 (ix2 r j) = kerH w X agg i j
    ∧ k1_pay1 (k1_pay3 v0 v2 v5 v8 v10 v13) (k1_pay5 v0 v2 v5 v8 v10 v13 v28 v31) (ix2 r j)
        = fgateRow w (kerH w X agg i) j * kerC w X agg i j := by
  have hz : ∀ n : Fin 768, k1_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k1_pay3 v0 v2 v5 v8 v10 v13 (ix2 r j) = kerC w X agg i j := fun j => by
    rw [pay3_apply, hz, hz, h10]; rfl
  have hh : ∀ j : Fin 256, k1_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg1

end
-- ==== Proof.KReg1.lean ====
/-
  Region 1 of the kernel's run — the update kernel at level 10: 32768 nodes, 32 grid points, blocks of 1024 rows —:
  the output array main_call0_v40 : [32768,512] after the region, element by element, for ANY contents V at the
  region's entry.

  What the body leaves in the output block, at (r, lo j) and at (r, hi j): the two stores cover columns 0..255 and
  256..511, the later one listed first; the agg block is loaded in its two halves. One row of a block is one node:
  row r of point t's blocks is row 1024 * t + r of the arrays X = main_call0_v27 and agg = main_call0_v39, the weight
  windows' blocks are their whole arrays. So point t writes back block t of the level's packed array
  [kerH | fgateRow (kerH) * kerC]; the 32 blocks tile the array; hence the array after the region is that packed array.
-/
import proofs.«419362_j66683662237734_3_alg».proof.Proof.KernelIdealFrameP
import proofs.«419362_j66683662237734_3_alg».proof.Proof.KRow1
import Idealize.ShloMosaic.Lib.Pipeline.Value

set_option maxRecDepth 16384

noncomputable section

open scoped BigOperators

namespace Cert.KernelIdeal.Reg1

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S1024x512 .f32) (r : Fin 1024) (k : Fin 256) :
    (View.ld x3 r1_3 : Vec Ideal S1024x256 .f32) (ix2 r k) = x3 (ix2 r (lo k)) := by
  show x3 (r1_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S1024x512 .f32) (r : Fin 1024) (k : Fin 256) :
    (View.ld x3 r1_4 : Vec Ideal S1024x256 .f32) (ix2 r k) = x3 (ix2 r (hi k)) := by
  show x3 (r1_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 1024) (j : Fin 256) : (ix2 r (lo j) : S1024x512.Idx) = r1_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 1024) (j : Fin 256) : (ix2 r (hi j) : S1024x512.Idx) = r1_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S1024x256 .f32) (r : Fin 1024) (j : Fin 256) :
    View.canon [(⟨r1_4, p1⟩ : View.Piece (Elt Ideal) S1024x512 .f32), ⟨r1_3, p0⟩] (ix2 r (lo j)) = p0 (ix2 r j) := by
  have hnot : (ix2 r (lo j) : S1024x512.Idx) ∉ (⟨r1_4, p1⟩ : View.Piece (Elt Ideal) S1024x512 .f32).1.set := by
    show (ix2 r (lo j) : S1024x512.Idx) ∉ r1_4.set
    rw [Rect.mem_set_unit]
    intro h
    have h1 : 256 ≤ j.val := (h 1).1
    have := j.isLt
    omega
  rw [View.canon_cons_of_not_mem (⟨r1_4, p1⟩ : View.Piece (Elt Ideal) S1024x512 .f32) [⟨r1_3, p0⟩] hnot, emb_left r j]
  exact View.canon_cons_emb r1_3 p0 [] (ix2 r j)

/-- At column hi j the right store's payload shows. -/
theorem canon2_right (p1 p0 : Vec Ideal S1024x256 .f32) (r : Fin 1024) (j : Fin 256) :
    View.canon [(⟨r1_4, p1⟩ : View.Piece (Elt Ideal) S1024x512 .f32), ⟨r1_3, p0⟩] (ix2 r (hi j)) = p1 (ix2 r j) := by
  rw [emb_right r j]
  exact View.canon_cons_emb r1_4 p1 [⟨r1_3, p0⟩] (ix2 r j)

/-- The left half of the output block holds the hidden state's payload. -/
theorem out1_7_left (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out1_7 x0 x1 x2 x3 x4 x5 x6 (ix2 r (lo j))
      = k1_pay4 x0 x1 x2 (View.ld x3 r1_3) (View.ld x3 r1_4) x4 (ix2 r j) := by
  unfold out1_7
  simp only [View.ld_unit_zero (S := S1024x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out1_7_right (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out1_7 x0 x1 x2 x3 x4 x5 x6 (ix2 r (hi j))
      = k1_pay1 (k1_pay3 x0 x1 x2 (View.ld x3 r1_3) (View.ld x3 r1_4) x4)
          (k1_pay5 x0 x1 x2 (View.ld x3 r1_3) (View.ld x3 r1_4) x4 x5 x6) (ix2 r j) := by
  unfold out1_7
  simp only [View.ld_unit_zero (S := S1024x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 32768 256) (agg : A2 32768 512) : A2 32768 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 32768 256) (agg : A2 32768 512) (i : Fin 32768) (j : Fin 256) :
    packed w X agg (ix2 i (lo j)) = kerH w X agg i j := by
  unfold packed
  exact dif_pos j.isLt

theorem packed_hi (w : Wts) (X : A2 32768 256) (agg : A2 32768 512) (i : Fin 32768) (j : Fin 256) :
    packed w X agg (ix2 i (hi j)) = fgateRow w (kerH w X agg i) j * kerC w X agg i j := by
  have hn : ¬ ((ix2 i (hi j) : (⟨2, ![32768, 512]⟩ : Shape).Idx) 1).val < 256 := by
    show ¬ (256 + j.val < 256); omega
  have e : ∀ h, (⟨((ix2 i (hi j) : (⟨2, ![32768, 512]⟩ : Shape).Idx) 1).val - 256, h⟩ : Fin 256) = j :=
    fun h => Fin.ext (by show 256 + j.val - 256 = j.val; omega)
  unfold packed
  rw [dif_neg hn, e]

/-- One block at an index: if row r of the blocks is row 1024 * T + r of X and agg and the weight blocks hold the
    transposed weights, the output block at y is the packed array at g, where g is y moved down 1024 * T rows. -/
theorem block_at (w : Wts) (X : A2 32768 256) (agg : A2 32768 512)
    (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (T : Nat)
    (h0 : ∀ (r : Fin 1024) (k : Fin 256) (i : Fin 32768), i.val = 1024 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 1024) (q : Fin 512) (i : Fin 32768), i.val = 1024 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S1024x512.Idx) (g : S32768x512.Idx) (hg0 : (g 0).val = 1024 * T + (y 0).val) (hg1 : (g 1).val = (y 1).val) :
    out1_7 x0 x1 x2 x3 x4 x5 x6 y = packed w X agg g := by
  obtain ⟨r, q, rfl⟩ : ∃ (r : Fin 1024) (q : Fin 512), y = ix2 r q := ⟨y 0, y 1, eq_ix2 y⟩
  obtain ⟨i, q', rfl⟩ : ∃ (i : Fin 32768) (q' : Fin 512), g = ix2 i q' := ⟨g 0, g 1, eq_ix2 g⟩
  have hir : i.val = 1024 * T + r.val := hg0
  obtain rfl : q' = q := Fin.ext hg1
  have hrow := fun j : Fin 256 => row w X agg i x0 x1 x2 (View.ld x3 r1_3) (View.ld x3 r1_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out1_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out1_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 32768 256 := V c main_call0_v27
/-- The children's packed rows summed per node, as the region finds them. -/
abbrev aggarr (c : Dev nD) : A2 32768 512 := V c main_call0_v39

/-- The windows' blocks at point t, typed by their block shapes. -/
abbrev b0 (c : Dev nD) (t : Fin cfg1.N) : Vec Ideal S1024x256 .bf16 := iblk1 V c 0 t
abbrev b1 (c : Dev nD) (t : Fin cfg1.N) : Vec Ideal S256x768 .bf16 := iblk1 V c 1 t
abbrev b2 (c : Dev nD) (t : Fin cfg1.N) : Vec Ideal S1x768 .f32 := iblk1 V c 2 t
abbrev b3 (c : Dev nD) (t : Fin cfg1.N) : Vec Ideal S1024x512 .f32 := iblk1 V c 3 t
abbrev b4 (c : Dev nD) (t : Fin cfg1.N) : Vec Ideal S256x768 .bf16 := iblk1 V c 4 t
abbrev b5 (c : Dev nD) (t : Fin cfg1.N) : Vec Ideal S256x256 .bf16 := iblk1 V c 5 t
abbrev b6 (c : Dev nD) (t : Fin cfg1.N) : Vec Ideal S1x256 .f32 := iblk1 V c 6 t

/-- The printed index maps over the grid: the row windows 0, 3, 7 are at block (t, 0), the weight windows at (0, 0). -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row r of point t's X block is row 1024 * t + r of X. -/
theorem read0 (c : Dev nD) (t : Fin cfg1.N) (r : Fin 1024) (k : Fin 256) (i : Fin 32768) (hir : i.val = 1024 * t.val + r.val) :
    b0 V c t (ix2 r k) = Xarr V c (ix2 i k) := by
  obtain ⟨e0, e1, -⟩ := idx_facts t
  show ((cfg1.win 0).blk t).view.read (Elt Ideal) (V c main_call0_v27) (ix2 r k) = V c main_call0_v27 (ix2 i k)
  rw [View.read_apply]
  show V c main_call0_v27 _ = V c main_call0_v27 _
  refine congrArg (V c main_call0_v27) (funext fun a => Fin.ext ?_)
  match a with
  | ⟨0, _⟩ => show win1_0.index t (0 : Fin 2) * 1024 + 1 * r.val = i.val; rw [e0, hir]; omega
  | ⟨1, _⟩ => show win1_0.index t (1 : Fin 2) * 256 + 1 * k.val = k.val; rw [e1]; omega

/-- Row r of point t's agg block is row 1024 * t + r of agg. -/
theorem read3 (c : Dev nD) (t : Fin cfg1.N) (r : Fin 1024) (q : Fin 512) (i : Fin 32768) (hir : i.val = 1024 * t.val + r.val) :
    b3 V c t (ix2 r q) = aggarr V c (ix2 i q) := by
  obtain ⟨-, -, -, -, -, -, e0, e1, -⟩ := idx_facts t
  show ((cfg1.win 3).blk t).view.read (Elt Ideal) (V c main_call0_v39) (ix2 r q) = V c main_call0_v39 (ix2 i q)
  rw [View.read_apply]
  show V c main_call0_v39 _ = V c main_call0_v39 _
  refine congrArg (V c main_call0_v39) (funext fun a => Fin.ext ?_)
  match a with
  | ⟨0, _⟩ => show win1_3.index t (0 : Fin 2) * 1024 + 1 * r.val = i.val; rw [e0, hir]; omega
  | ⟨1, _⟩ => show win1_3.index t (1 : Fin 2) * 512 + 1 * q.val = q.val; rw [e1]; omega

/-- The W block at any point is the whole array main_call0_v12. -/
theorem read1 (c : Dev nD) (t : Fin cfg1.N) (k : Fin 256) (n : Fin 768) :
    b1 V c t (ix2 k n) = (V c main_call0_v12 : A2 256 768) (ix2 k n) := by
  obtain ⟨-, -, e0, e1, -⟩ := idx_facts t
  show ((cfg1.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win1_1.index t (0 : Fin 2) * 256 + 1 * k.val = k.val; rw [e0]; omega
  | ⟨1, _⟩ => show win1_1.index t (1 : Fin 2) * 768 + 1 * n.val = n.val; rw [e1]; omega

/-- The bias block at any point is the whole array main_arg5. -/
theorem read2 (c : Dev nD) (t : Fin cfg1.N) (z : Fin 1) (n : Fin 768) :
    b2 V c t (ix2 z n) = (V c main_arg5 : A2 1 768) (ix2 z n) := by
  obtain ⟨-, -, -, -, e0, e1, -⟩ := idx_facts t
  show ((cfg1.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win1_2.index t (0 : Fin 2) * 1 + 1 * z.val = z.val; rw [e0]; omega
  | ⟨1, _⟩ => show win1_2.index t (1 : Fin 2) * 768 + 1 * n.val = n.val; rw [e1]; omega

/-- The U block at any point is the whole array main_call0_v16. -/
theorem read4 (c : Dev nD) (t : Fin cfg1.N) (k : Fin 256) (n : Fin 768) :
    b4 V c t (ix2 k n) = (V c main_call0_v16 : A2 256 768) (ix2 k n) := by
  obtain ⟨-, -, -, -, -, -, -, -, e0, e1, -⟩ := idx_facts t
  show ((cfg1.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win1_4.index t (0 : Fin 2) * 256 + 1 * k.val = k.val; rw [e0]; omega
  | ⟨1, _⟩ => show win1_4.index t (1 : Fin 2) * 768 + 1 * n.val = n.val; rw [e1]; omega

/-- The U_f block at any point is the whole array main_call0_v14. -/
theorem read5 (c : Dev nD) (t : Fin cfg1.N) (k j : Fin 256) :
    b5 V c t (ix2 k j) = (V c main_call0_v14 : A2 256 256) (ix2 k j) := by
  obtain ⟨-, -, -, -, -, -, -, -, -, -, e0, e1, -⟩ := idx_facts t
  show ((cfg1.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win1_5.index t (0 : Fin 2) * 256 + 1 * k.val = k.val; rw [e0]; omega
  | ⟨1, _⟩ => show win1_5.index t (1 : Fin 2) * 256 + 1 * j.val = j.val; rw [e1]; omega

/-- The b_f block at any point is the whole array main_call0_v19. -/
theorem read6 (c : Dev nD) (t : Fin cfg1.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg1.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win1_6.index t (0 : Fin 2) * 1 + 1 * z.val = z.val; rw [e0]; omega
  | ⟨1, _⟩ => show win1_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg1.N) :
    (dat1 V c).flushed 7 t = ((cfg1.win 7).blk t).view.read (Elt Ideal) (packed w (Xarr V c) (aggarr V c)) := by
  show (cfg1.win 7).cut (grid1.coords t) ((dat1 V c).after 7 t) = _
  rw [after1_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg1.win 7).xinj (grid1.coords t) y) (((cfg1.win 7).blk t).view.emb y)
    (by show win1_7.index t (0 : Fin 2) * 1024 + 1 * (y 0).val = 1024 * t.val + (y 0).val; rw [e0]; omega)
    (by show win1_7.index t (1 : Fin 2) * 512 + 1 * (y 1).val = (y 1).val; rw [e1]; omega)

/-- An index of the array is in point t's block iff each coordinate is in the block's range on its axis. -/
theorem mem_blk (t : Fin cfg1.N) (i : S32768x512.Idx) :
    i ∈ ((cfg1.win 7).blk t).view.set ↔ ∀ a : Fin 2, win1_7.index t a * S1024x512.size a ≤ (i a).val
      ∧ (i a).val < win1_7.index t a * S1024x512.size a + S1024x512.size a := by
  show i ∈ ((View.whole main_call0_v40).slice (win1_7.rect t)).set ↔ _
  rw [View.set_slice_whole, Rect.mem_set_unit]
  exact Iff.rfl

/-- The 32 blocks of 1024 rows tile the array: row i is in the block of point i / 1024. -/
theorem cover (i : S32768x512.Idx) : ∃ t : Fin cfg1.N, (cfg1.win 7).flush t = true ∧ i ∈ ((cfg1.win 7).blk t).view.set := by
  have hi0 : (i 0).val < 32768 := idx2_lt0 i
  have hi1 : (i 1).val < 512 := idx2_lt1 i
  refine ⟨⟨(i 0).val / 1024, by rw [show cfg1.N = 32 from N_1]; omega⟩, flush1_7 _, ?_⟩
  rw [mem_blk]
  obtain ⟨-, -, -, -, -, -, -, -, -, -, -, -, -, -, e0, e1⟩ := idx_facts ⟨(i 0).val / 1024, by rw [show cfg1.N = 32 from N_1]; omega⟩
  intro a
  match a with
  | ⟨0, _⟩ =>
    show win1_7.index _ (0 : Fin 2) * 1024 ≤ (i 0).val ∧ (i 0).val < win1_7.index _ (0 : Fin 2) * 1024 + 1024
    rw [e0]; show (i 0).val / 1024 * 1024 ≤ (i 0).val ∧ (i 0).val < (i 0).val / 1024 * 1024 + 1024; omega
  | ⟨1, _⟩ =>
    show win1_7.index _ (1 : Fin 2) * 512 ≤ (i 1).val ∧ (i 1).val < win1_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat1 V c).arrAt 7 cfg1.N = packed w (Xarr V c) (aggarr V c) :=
  (dat1 V c).arrAt_eq_of_cover 7 (packed w (Xarr V c) (aggarr V c))
    (fun t _ => flushed_eq V c w hWt hb hUt hUft hbF t) (cover)

/-- THE VALUE OF THE REGION: after it, row i of main_call0_v40 is [kerH | fgateRow (kerH) * kerC] of node i. -/
theorem region1_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 32768) (j : Fin 256) :
    ((dat1 V c).arrAt 7 cfg1.N : A2 32768 512) (ix2 i (lo j)) = kerH w (Xarr V c) (aggarr V c) i j
    ∧ ((dat1 V c).arrAt 7 cfg1.N : A2 32768 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg1

end
-- ==== Proof.BridgeK1.lean ====
/-
  Level 10 of the fused kernel in the chain's terms: the host arithmetic before region 1 cuts the level's token rows
  and the children's parent words out of the carried arrays, routes each child to its parent's slot and sums the
  children's packed rows per slot; region 1 turns the sums into the level's packed array.
-/
import proofs.«419362_j66683662237734_3_alg».proof.Proof.BridgeK
import proofs.«419362_j66683662237734_3_alg».proof.Proof.KStr1
import proofs.«419362_j66683662237734_3_alg».proof.Proof.KReg1

set_option maxRecDepth 4000

noncomputable section

open scoped BigOperators

namespace Cert.BridgeK

open Cert.KernelIdeal Cert.KernelIdeal.Gen Cert.TreeLstm
open Idealize.ShloMosaic Idealize.ShloMosaic.TcCoe Idealize.ShloMosaic.ValueIdx

variable (m : (ℓ : Loc nD τ sig) → Buf (Elt Ideal) ℓ) (ρ : Dev nD → PrngReg) (c : Dev nD)

theorem klevel1 : Chain.KLevel 1024 1023 2048 2047 (rfl : 32768 = 32 * 1024) (by omega) (rfl : 65536 = 32 * 2048) (by omega)
    (wK m c) (GK m c) (parK m c) Str1.segFun (HC0 m ρ c) (HC1 m ρ c) := by
  refine ⟨Str1.xOut (W2 m ρ c), Str1.pOut (W2 m ρ c), Str1.segOut (W2 m ρ c), Str1.aggOut (W2 m ρ c), ?_, ?_, ?_, ?_, ?_⟩
  · intro i k
    refine (Str1.x_apply (W2 m ρ c) i k).trans ?_
    refine (congrFun (W2_of_ne m ρ c main_call0_v21 (by decide)) _).trans ?_
    refine (Pre.v21_at m ρ c _ _ k).trans ?_
    refine (congrFun (Pre.v10_eq m ρ c) _).trans ?_
    exact congrArg (fun a => GK m c (ix2 a k)) (Fin.ext (by
      show 4095 * (i.val / 1024) + (1023 + i.val % 1024) = 4095 * (i.val / 1024) + 1023 + i.val % 1024
      omega))
  · intro q
    refine (Str1.p_apply (W2 m ρ c) q).trans ?_
    refine (congrFun (W2_of_ne m ρ c main_call0_v22 (by decide)) _).trans ?_
    refine (Pre.v22_at m ρ c _ _).trans ?_
    exact congrArg (fun a => parK m c (ix1 a)) (Fin.ext (by
      show 4095 * (q.val / 2048) + (2047 + q.val % 2048) = 4095 * (q.val / 2048) + 2047 + q.val % 2048
      omega))
  · exact Str1.seg_eq (W2 m ρ c)
  · intro i n
    exact Str1.agg_apply (W2 m ρ c) i n
  · intro i j
    have e : HC1 m ρ c = ((dat1 (V3 m ρ) c).arrAt 7 cfg1.N : A2 32768 512) := W4_arr m ρ c 7
    rw [e]
    exact Reg1.region1_value (V3 m ρ) c (wK m c)
      (fun k n => (congrFun (Pre.V3_v12 m ρ c) (ix2 k n)).trans (Pre.v12_at m ρ c k n))
      (fun n => (congrFun (Pre.V3_arg5 m ρ c) (ix2 (0 : Fin 1) n)).trans (congrFun (Pre.V1_arg5 m ρ c) (ix2 (0 : Fin 1) n)))
      (fun k n => (congrFun (Pre.V3_v16 m ρ c) (ix2 k n)).trans (Pre.v16_at m ρ c k n))
      (fun k j => (congrFun (Pre.V3_v14 m ρ c) (ix2 k j)).trans (Pre.v14_at m ρ c k j))
      (fun j => (congrFun (Pre.V3_v19 m ρ c) (ix2 (0 : Fin 1) j)).trans (Pre.v19_at m ρ c j)) i j

end Cert.BridgeK

end
-- ==== Proof.KStr2.lean ====
/-
  The host arithmetic before the level with 512 nodes per graph of the fused kernel, read off the program.

  From the contents at the stretch's entry it cuts the level's window of the token rows (512 rows of each graph from
  row 511 on, flattened to 16384 rows) and the children's parent ids (1024 entries of each graph from entry 1023 on,
  flattened to 32768), turns each parent id `p` into the parent's slot `(p div 4095) * 512 + (p mod 4095 - 511)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str2

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps2 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S32768x512 .f32 := Win (Proc.devRef .tc main_call0_v40)
abbrev xOut : Vec Ideal S16384x256 .bf16 := Wout (Proc.devRef .tc main_call0_v42)
abbrev pOut : IVec S32768 32 := Wout (Proc.devRef .tc main_call0_v44)
abbrev segOut : IVec S32768 32 := Wout (Proc.devRef .tc main_call0_v51)
abbrev aggOut : Vec Ideal S16384x512 .f32 := Wout (Proc.devRef .tc main_call0_v54)

/-- The parent's slot from the parent's node id `p`: `(p div 4095) * 512 + (p mod 4095 - 511)`, the flooring
    quotient and the non-negative remainder written through the truncating ones as the program writes them. -/
def segFun (p : IVec S32768 32) : IVec S32768 32 :=
  addi
    (muli
      (select (andi (cmpi .ne (signi p) (broadcastInDim S32768 ![] bcast_S_S32768 (signi (id (constantI S_ 32 4095#32))))) (cmpi .ne (Host.remsi p (broadcastInDim S32768 ![] bcast_S_S32768 (id (constantI S_ 32 4095#32)))) (broadcastInDim S32768 ![] bcast_S_S32768 (constantI S_ 32 0#32))))
        (subi (Host.divsi p (broadcastInDim S32768 ![] bcast_S_S32768 (id (constantI S_ 32 4095#32)))) (broadcastInDim S32768 ![] bcast_S_S32768 (constantI S_ 32 1#32)))
        (Host.divsi p (broadcastInDim S32768 ![] bcast_S_S32768 (id (constantI S_ 32 4095#32)))))
      (broadcastInDim S32768 ![] bcast_S_S32768 (constantI S_ 32 512#32)))
    (subi
      (select (andi (cmpi .ne (cmpi .slt (Host.remsi p (broadcastInDim S32768 ![] bcast_S_S32768 (select (cmpi .eq (id (constantI S_ 32 4095#32)) (constantI S_ 32 0#32)) (constantI S_ 32 1#32) (id (constantI S_ 32 4095#32))))) (broadcastInDim S32768 ![] bcast_S_S32768 (constantI S_ 32 0#32))) (broadcastInDim S32768 ![] bcast_S_S32768 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S32768 ![] bcast_S_S32768 (select (cmpi .eq (id (constantI S_ 32 4095#32)) (constantI S_ 32 0#32)) (constantI S_ 32 1#32) (id (constantI S_ 32 4095#32))))) (broadcastInDim S32768 ![] bcast_S_S32768 (constantI S_ 32 0#32))))
        (addi (Host.remsi p (broadcastInDim S32768 ![] bcast_S_S32768 (select (cmpi .eq (id (constantI S_ 32 4095#32)) (constantI S_ 32 0#32)) (constantI S_ 32 1#32) (id (constantI S_ 32 4095#32))))) (broadcastInDim S32768 ![] bcast_S_S32768 (select (cmpi .eq (id (constantI S_ 32 4095#32)) (constantI S_ 32 0#32)) (constantI S_ 32 1#32) (id (constantI S_ 32 4095#32)))))
        (Host.remsi p (broadcastInDim S32768 ![] bcast_S_S32768 (select (cmpi .eq (id (constantI S_ 32 4095#32)) (constantI S_ 32 0#32)) (constantI S_ 32 1#32) (id (constantI S_ 32 4095#32))))))
      (broadcastInDim S32768 ![] bcast_S_S32768 (constantI S_ 32 511#32)))

/-- The level's token window: flat row `i` is row `511 + i % 512` of graph `i / 512`. -/
theorem x_apply (i : Fin 16384) (k : Fin 256) :
    xOut Win (ix2 i k)
      = tokIn Win (ix3 ⟨i.val / 512, by omega⟩ ⟨511 + i.val % 512, by omega⟩ k) := by
  have e : xOut Win = shapeCast S16384x256 (extractStridedSlice S32x512x256 ![0, 511, 0] (tokIn Win)
      slices_S32x4095x256_S32x512x256_0_511_0) shapeCasts_S32x512x256_S16384x256 := by
    dsimp only [xOut, tokIn, hostOps2]
    after_results_simp
    rfl
  rw [e]
  exact flat3_slice_apply 511 (tokIn Win) _ _ i k (by decide) _ _

/-- The children's parent ids: entry `q` is entry `1023 + q % 1024` of graph `q / 1024`. -/
theorem p_apply (q : Fin 32768) :
    pOut Win (ix1 q)
      = parIn Win (ix2 ⟨q.val / 1024, by omega⟩ ⟨1023 + q.val % 1024, by omega⟩) := by
  have e : pOut Win = shapeCast S32768 (extractStridedSlice S32x1024 ![0, 1023] (parIn Win)
      slices_S32x4095_S32x1024_0_1023) shapeCasts_S32x1024_S32768 := by
    dsimp only [pOut, parIn, hostOps2]
    after_results_simp
    rfl
  rw [e]
  exact flat2_slice_apply 1023 (parIn Win) _ _ q (by decide) _ _

/-- The slot numbers are `segFun` of the parent ids. -/
theorem seg_eq :
    segOut Win = segFun (pOut Win) := by
  dsimp only [segOut, pOut, hostOps2]
  after_results_simp
  rfl

/-- The per-slot sums, as the scatter that computes them. -/
theorem agg_eq :
    aggOut Win
      = Host.scatterAdd (F := Ideal) scatter_S16384x512_S32768x1_S32768x512_1_0_0_1
          (broadcastInDim S16384x512 ![] bcast_S_S16384x512 (constant (F := Ideal) S_ .f32 0x00000000#32))
          (broadcastInDim S32768x1 ![0] bcast_S32768_S32768x1_0 (segOut Win))
          (hcIn Win) := by
  dsimp only [aggOut, segOut, hcIn, hostOps2]
  after_results_simp
  rfl

/-- Slot `i` holds the sum of the packed rows of the children routed to it. -/
theorem agg_apply (i : Fin 16384) (n : Fin 512) :
    aggOut Win (ix2 i n)
      = ∑ k ∈ kids (fun k : Fin 32768 => rowTarget 16384 (segOut Win (ix1 k))) i, hcIn Win (ix2 k n) := by
  rw [agg_eq]
  exact segsum_apply scatter_S16384x512_S32768x1_S32768x512_1_0_0_1 ⟨rfl, rfl, rfl, rfl⟩ _ bcast_S_S16384x512
    bcast_S32768_S32768x1_0 (segOut Win) (hcIn Win) i n

/-! ## What the stretch leaves alone -/

/-- The arrays the stretch writes. -/
noncomputable def written : List (Ref sig .tc) :=
  [main_call0_v41, main_call0_v42, main_call0_v43, main_call0_v44, main_call0_c_7, main_call0_call2_v0,
   main_call0_call2_v1, main_call0_call2_v2, main_call0_call2_v3, main_call0_call2_v4, main_call0_call2_v5,
   main_call0_call2_v6, main_call0_call2_v7, main_call0_call2_v8, main_call0_call2_c, main_call0_call2_v9,
   main_call0_call2_v10, main_call0_call2_v11, main_call0_call2_c_0, main_call0_call2_v12, main_call0_call2_v13,
   main_call0_v45, main_call0_c_8, main_call0_v46, main_call0_v47, main_call0_c_9, main_call0_call3_v0,
   main_call0_call3_c, main_call0_call3_v1, main_call0_call3_c_0, main_call0_call3_v2, main_call0_call3_v3,
   main_call0_call3_v4, main_call0_call3_c_1, main_call0_call3_v5, main_call0_call3_v6, main_call0_call3_c_2,
   main_call0_call3_v7, main_call0_call3_v8, main_call0_call3_c_3, main_call0_call3_v9, main_call0_call3_v10,
   main_call0_call3_v11, main_call0_call3_v12, main_call0_call3_v13, main_call0_call3_v14, main_call0_v48,
   main_call0_c_10, main_call0_v49, main_call0_v50, main_call0_v51, main_call0_cst_11, main_call0_v52,
   main_call0_v53, main_call0_v54]

/-- An array the stretch does not write holds after it what it held before. -/
theorem keep (r : Ref sig .tc) (hr : r ∉ written) : Wout (Proc.devRef .tc r) = Win (Proc.devRef .tc r) := by
  refine after_of_writes_sub (W := written) hostOps2 Win ?_ hr
  simp only [hostOps2, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v40 : Wout (Proc.devRef .tc main_call0_v40) = Win (Proc.devRef .tc main_call0_v40) := keep Win _ (by decide)
theorem keep_arg5 : Wout (Proc.devRef .tc main_arg5) = Win (Proc.devRef .tc main_arg5) := keep Win _ (by decide)

end Cert.KernelIdeal.Str2

end
-- ==== Proof.KRow2.lean ====
/-
  The update kernel's body at level 9 (blocks of 1024 rows), read at one element.

  The body's five payloads, over variables of the block shapes: the pre-activation [1024,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 1024; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg2

open Cert.KernelIdeal Cert.KernelIdeal.Gen Cert.TreeLstm
open Idealize.ShloMosaic Idealize.ShloMosaic.ValueIdx

/-! ## The two contractions at an index -/

/-- [1024,256] × [256,768] into zeros, at (r, n): the sum over the 256 contracted coordinates. -/
theorem matmul_1024x256_256x768_apply (a : FVec Ideal S1024x256 .bf16) (b : FVec Ideal S256x768 .bf16) (r : Fin 1024) (n : Fin 768) :
    matmul dot_S1024x256_S256x768_S1024x768_1_0_0_1_n_n none a b (constant (F := Ideal) S1024x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x768_S1024x768_1_0_0_1_n_n 256 rfl rfl).symm]
  refine Finset.sum_congr rfl fun k _ => ?_
  have ck := contrEquiv1_symm_val dot_S1024x256_S256x768_S1024x768_1_0_0_1_n_n 256 rfl rfl k
  have l2 : dot_S1024x256_S256x768_S1024x768_1_0_0_1_n_n.lhsIdx (ix2 r n)
      ((contrEquiv1 dot_S1024x256_S256x768_S1024x768_1_0_0_1_n_n 256 rfl rfl).symm k) = ix2 r k := by
    funext ax; apply Fin.ext
    match ax with
    | ⟨0, _⟩ => simp [DotDims.lhsIdx, dot_S1024x256_S256x768_S1024x768_1_0_0_1_n_n]; rfl
    | ⟨1, _⟩ => simp [DotDims.lhsIdx, dot_S1024x256_S256x768_S1024x768_1_0_0_1_n_n]; exact ck
  have r2 : dot_S1024x256_S256x768_S1024x768_1_0_0_1_n_n.rhsIdx (ix2 r n)
      ((contrEquiv1 dot_S1024x256_S256x768_S1024x768_1_0_0_1_n_n 256 rfl rfl).symm k) = ix2 k n := by
    funext ax; apply Fin.ext
    match ax with
    | ⟨0, _⟩ => simp [DotDims.rhsIdx, dot_S1024x256_S256x768_S1024x768_1_0_0_1_n_n]; exact ck
    | ⟨1, _⟩ => simp [DotDims.rhsIdx, dot_S1024x256_S256x768_S1024x768_1_0_0_1_n_n]; rfl
  rw [l2, r2]

/-- [1024,256] × [256,256] into zeros, at (r, n): the sum over the 256 contracted coordinates. -/
theorem matmul_1024x256_256x256_apply (a : FVec Ideal S1024x256 .bf16) (b : FVec Ideal S256x256 .bf16) (r : Fin 1024) (n : Fin 256) :
    matmul dot_S1024x256_S256x256_S1024x256_1_0_0_1_n_n none a b (constant (F := Ideal) S1024x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x256_S1024x256_1_0_0_1_n_n 256 rfl rfl).symm]
  refine Finset.sum_congr rfl fun k _ => ?_
  have ck := contrEquiv1_symm_val dot_S1024x256_S256x256_S1024x256_1_0_0_1_n_n 256 rfl rfl k
  have l2 : dot_S1024x256_S256x256_S1024x256_1_0_0_1_n_n.lhsIdx (ix2 r n)
      ((contrEquiv1 dot_S1024x256_S256x256_S1024x256_1_0_0_1_n_n 256 rfl rfl).symm k) = ix2 r k := by
    funext ax; apply Fin.ext
    match ax with
    | ⟨0, _⟩ => simp [DotDims.lhsIdx, dot_S1024x256_S256x256_S1024x256_1_0_0_1_n_n]; rfl
    | ⟨1, _⟩ => simp [DotDims.lhsIdx, dot_S1024x256_S256x256_S1024x256_1_0_0_1_n_n]; exact ck
  have r2 : dot_S1024x256_S256x256_S1024x256_1_0_0_1_n_n.rhsIdx (ix2 r n)
      ((contrEquiv1 dot_S1024x256_S256x256_S1024x256_1_0_0_1_n_n 256 rfl rfl).symm k) = ix2 k n := by
    funext ax; apply Fin.ext
    match ax with
    | ⟨0, _⟩ => simp [DotDims.rhsIdx, dot_S1024x256_S256x256_S1024x256_1_0_0_1_n_n]; exact ck
    | ⟨1, _⟩ => simp [DotDims.rhsIdx, dot_S1024x256_S256x256_S1024x256_1_0_0_1_n_n]; rfl
  rw [l2, r2]

/-! ## The payloads at an index -/

/-- The pre-activation at (r, n): (x·Wt + b) + h̃·Ut. -/
theorem pay2_apply (v0 : Vec Ideal S1024x256 .bf16) (v2 : Vec Ideal S256x768 .bf16) (v5 : Vec Ideal S1x768 .f32)
    (v8 : Vec Ideal S1024x256 .f32) (v13 : Vec Ideal S256x768 .bf16) (r : Fin 1024) (n : Fin 768) :
    k2_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k2_pay2
  simp only [shapeCast_self]
  refine (addf_apply _ _ _).trans ?_
  refine congrArg₂ (· + ·) ((addf_apply _ _ _).trans (congrArg₂ (· + ·) ?_ ?_)) ?_
  · exact matmul_1024x256_256x768_apply v0 v2 r n
  · exact broadcastTo_1b_ab_apply v5 broadcasts_S1x768_S1024x768 r n
  · exact matmul_1024x256_256x768_apply _ v13 r n

/-- The cell state at (r, j): logistic z₀ * tanh z₂ + c̃. -/
theorem pay3_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k2_pay3 v0 v2 v5 v8 v10 v13 (ix2 r j)
      = Ideal.logistic (k2_pay2 v0 v2 v5 v8 v13 (ix2 r (c0 j))) * Ideal.tanh (k2_pay2 v0 v2 v5 v8 v13 (ix2 r (c2 j)))
        + v10 (ix2 r j) := by
  unfold k2_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k2_pay2 v0 v2 v5 v8 v13) slices_S1024x768_o0_0_S1024x256 r j (c0 j) (Nat.zero_add _).symm)
  · exact congrArg Ideal.tanh
      (slice2_axis1_apply 512 (k2_pay2 v0 v2 v5 v8 v13) slices_S1024x768_o0_512_S1024x256 r j (c2 j) rfl)

/-- The hidden state at (r, j): logistic z₁ * tanh c. -/
theorem pay4_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k2_pay4 v0 v2 v5 v8 v10 v13 (ix2 r j)
      = Ideal.logistic (k2_pay2 v0 v2 v5 v8 v13 (ix2 r (c1 j))) * Ideal.tanh (k2_pay3 v0 v2 v5 v8 v10 v13 (ix2 r j)) := by
  unfold k2_pay4
  refine (mulf_apply _ _ _).trans (congrArg₂ (· * ·) ?_ rfl)
  exact congrArg Ideal.logistic
    (slice2_axis1_apply 256 (k2_pay2 v0 v2 v5 v8 v13) slices_S1024x768_o0_256_S1024x256 r j (c1 j) rfl)

/-- The forget gate of the hidden state just computed, at (r, j): logistic (h·Uft + bF). -/
theorem pay5_apply (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024) (j : Fin 256) :
    k2_pay5 v0 v2 v5 v8 v10 v13 v28 v31 (ix2 r j)
      = Ideal.logistic ((∑ k : Fin 256, k2_pay4 v0 v2 v5 v8 v10 v13 (ix2 r k) * v28 (ix2 k j)) + v31 (ix2 (0 : Fin 1) j)) := by
  unfold k2_pay5
  simp only [shapeCast_self]
  refine congrArg Ideal.logistic ((addf_apply _ _ _).trans (congrArg₂ (· + ·) ?_ ?_))
  · exact matmul_1024x256_256x256_apply _ v28 r j
  · exact broadcastTo_1b_ab_apply v31 broadcasts_S1x256_S1024x256 r j

/-- The right half's stored value at (r, j): the gate times the cell state. -/
theorem pay1_apply (v23 v35 : FVec Ideal S1024x256 .f32) (r : Fin 1024) (j : Fin 256) :
    k2_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k2_pay4 v0 v2 v5 v8 v10 v13 (ix2 r j) = kerH w X agg i j
    ∧ k2_pay1 (k2_pay3 v0 v2 v5 v8 v10 v13) (k2_pay5 v0 v2 v5 v8 v10 v13 v28 v31) (ix2 r j)
        = fgateRow w (kerH w X agg i) j * kerC w X agg i j := by
  have hz : ∀ n : Fin 768, k2_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k2_pay3 v0 v2 v5 v8 v10 v13 (ix2 r j) = kerC w X agg i j := fun j => by
    rw [pay3_apply, hz, hz, h10]; rfl
  have hh : ∀ j : Fin 256, k2_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg2

end
-- ==== Proof.KReg2.lean ====
/-
  Region 2 of the kernel's run — the update kernel at level 9: 16384 nodes, 16 grid points, blocks of 1024 rows —:
  the output array main_call0_v55 : [16384,512] after the region, element by element, for ANY contents V at the
  region's entry.

  What the body leaves in the output block, at (r, lo j) and at (r, hi j): the two stores cover columns 0..255 and
  256..511, the later one listed first; the agg block is loaded in its two halves. One row of a block is one node:
  row r of point t's blocks is row 1024 * t + r of the arrays X = main_call0_v42 and agg = main_call0_v54, the weight
  windows' blocks are their whole arrays. So point t writes back block t of the level's packed array
  [kerH | fgateRow (kerH) * kerC]; the 16 blocks tile the array; hence the array after the region is that packed array.
-/
import proofs.«419362_j66683662237734_3_alg».proof.Proof.KernelIdealFrameP
import proofs.«419362_j66683662237734_3_alg».proof.Proof.KRow2
import Idealize.ShloMosaic.Lib.Pipeline.Value

set_option maxRecDepth 16384

noncomputable section

open scoped BigOperators

namespace Cert.KernelIdeal.Reg2

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S1024x512 .f32) (r : Fin 1024) (k : Fin 256) :
    (View.ld x3 r2_3 : Vec Ideal S1024x256 .f32) (ix2 r k) = x3 (ix2 r (lo k)) := by
  show x3 (r2_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S1024x512 .f32) (r : Fin 1024) (k : Fin 256) :
    (View.ld x3 r2_4 : Vec Ideal S1024x256 .f32) (ix2 r k) = x3 (ix2 r (hi k)) := by
  show x3 (r2_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 1024) (j : Fin 256) : (ix2 r (lo j) : S1024x512.Idx) = r2_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 1024) (j : Fin 256) : (ix2 r (hi j) : S1024x512.Idx) = r2_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S1024x256 .f32) (r : Fin 1024) (j : Fin 256) :
    View.canon [(⟨r2_4, p1⟩ : View.Piece (Elt Ideal) S1024x512 .f32), ⟨r2_3, p0⟩] (ix2 r (lo j)) = p0 (ix2 r j) := by
  have hnot : (ix2 r (lo j) : S1024x512.Idx) ∉ (⟨r2_4, p1⟩ : View.Piece (Elt Ideal) S1024x512 .f32).1.set := by
    show (ix2 r (lo j) : S1024x512.Idx) ∉ r2_4.set
    rw [Rect.mem_set_unit]
    intro h
    have h1 : 256 ≤ j.val := (h 1).1
    have := j.isLt
    omega
  rw [View.canon_cons_of_not_mem (⟨r2_4, p1⟩ : View.Piece (Elt Ideal) S1024x512 .f32) [⟨r2_3, p0⟩] hnot, emb_left r j]
  exact View.canon_cons_emb r2_3 p0 [] (ix2 r j)

/-- At column hi j the right store's payload shows. -/
theorem canon2_right (p1 p0 : Vec Ideal S1024x256 .f32) (r : Fin 1024) (j : Fin 256) :
    View.canon [(⟨r2_4, p1⟩ : View.Piece (Elt Ideal) S1024x512 .f32), ⟨r2_3, p0⟩] (ix2 r (hi j)) = p1 (ix2 r j) := by
  rw [emb_right r j]
  exact View.canon_cons_emb r2_4 p1 [⟨r2_3, p0⟩] (ix2 r j)

/-- The left half of the output block holds the hidden state's payload. -/
theorem out2_7_left (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out2_7 x0 x1 x2 x3 x4 x5 x6 (ix2 r (lo j))
      = k2_pay4 x0 x1 x2 (View.ld x3 r2_3) (View.ld x3 r2_4) x4 (ix2 r j) := by
  unfold out2_7
  simp only [View.ld_unit_zero (S := S1024x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out2_7_right (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out2_7 x0 x1 x2 x3 x4 x5 x6 (ix2 r (hi j))
      = k2_pay1 (k2_pay3 x0 x1 x2 (View.ld x3 r2_3) (View.ld x3 r2_4) x4)
          (k2_pay5 x0 x1 x2 (View.ld x3 r2_3) (View.ld x3 r2_4) x4 x5 x6) (ix2 r j) := by
  unfold out2_7
  simp only [View.ld_unit_zero (S := S1024x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 16384 256) (agg : A2 16384 512) : A2 16384 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 16384 256) (agg : A2 16384 512) (i : Fin 16384) (j : Fin 256) :
    packed w X agg (ix2 i (lo j)) = kerH w X agg i j := by
  unfold packed
  exact dif_pos j.isLt

theorem packed_hi (w : Wts) (X : A2 16384 256) (agg : A2 16384 512) (i : Fin 16384) (j : Fin 256) :
    packed w X agg (ix2 i (hi j)) = fgateRow w (kerH w X agg i) j * kerC w X agg i j := by
  have hn : ¬ ((ix2 i (hi j) : (⟨2, ![16384, 512]⟩ : Shape).Idx) 1).val < 256 := by
    show ¬ (256 + j.val < 256); omega
  have e : ∀ h, (⟨((ix2 i (hi j) : (⟨2, ![16384, 512]⟩ : Shape).Idx) 1).val - 256, h⟩ : Fin 256) = j :=
    fun h => Fin.ext (by show 256 + j.val - 256 = j.val; omega)
  unfold packed
  rw [dif_neg hn, e]

/-- One block at an index: if row r of the blocks is row 1024 * T + r of X and agg and the weight blocks hold the
    transposed weights, the output block at y is the packed array at g, where g is y moved down 1024 * T rows. -/
theorem block_at (w : Wts) (X : A2 16384 256) (agg : A2 16384 512)
    (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (T : Nat)
    (h0 : ∀ (r : Fin 1024) (k : Fin 256) (i : Fin 16384), i.val = 1024 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 1024) (q : Fin 512) (i : Fin 16384), i.val = 1024 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S1024x512.Idx) (g : S16384x512.Idx) (hg0 : (g 0).val = 1024 * T + (y 0).val) (hg1 : (g 1).val = (y 1).val) :
    out2_7 x0 x1 x2 x3 x4 x5 x6 y = packed w X agg g := by
  obtain ⟨r, q, rfl⟩ : ∃ (r : Fin 1024) (q : Fin 512), y = ix2 r q := ⟨y 0, y 1, eq_ix2 y⟩
  obtain ⟨i, q', rfl⟩ : ∃ (i : Fin 16384) (q' : Fin 512), g = ix2 i q' := ⟨g 0, g 1, eq_ix2 g⟩
  have hir : i.val = 1024 * T + r.val := hg0
  obtain rfl : q' = q := Fin.ext hg1
  have hrow := fun j : Fin 256 => row w X agg i x0 x1 x2 (View.ld x3 r2_3) (View.ld x3 r2_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out2_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out2_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 16384 256 := V c main_call0_v42
/-- The children's packed rows summed per node, as the region finds them. -/
abbrev aggarr (c : Dev nD) : A2 16384 512 := V c main_call0_v54

/-- The windows' blocks at point t, typed by their block shapes. -/
abbrev b0 (c : Dev nD) (t : Fin cfg2.N) : Vec Ideal S1024x256 .bf16 := iblk2 V c 0 t
abbrev b1 (c : Dev nD) (t : Fin cfg2.N) : Vec Ideal S256x768 .bf16 := iblk2 V c 1 t
abbrev b2 (c : Dev nD) (t : Fin cfg2.N) : Vec Ideal S1x768 .f32 := iblk2 V c 2 t
abbrev b3 (c : Dev nD) (t : Fin cfg2.N) : Vec Ideal S1024x512 .f32 := iblk2 V c 3 t
abbrev b4 (c : Dev nD) (t : Fin cfg2.N) : Vec Ideal S256x768 .bf16 := iblk2 V c 4 t
abbrev b5 (c : Dev nD) (t : Fin cfg2.N) : Vec Ideal S256x256 .bf16 := iblk2 V c 5 t
abbrev b6 (c : Dev nD) (t : Fin cfg2.N) : Vec Ideal S1x256 .f32 := iblk2 V c 6 t

/-- The printed index maps over the grid: the row windows 0, 3, 7 are at block (t, 0), the weight windows at (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row r of point t's X block is row 1024 * t + r of X. -/
theorem read0 (c : Dev nD) (t : Fin cfg2.N) (r : Fin 1024) (k : Fin 256) (i : Fin 16384) (hir : i.val = 1024 * t.val + r.val) :
    b0 V c t (ix2 r k) = Xarr V c (ix2 i k) := by
  obtain ⟨e0, e1, -⟩ := idx_facts t
  show ((cfg2.win 0).blk t).view.read (Elt Ideal) (V c main_call0_v42) (ix2 r k) = V c main_call0_v42 (ix2 i k)
  rw [View.read_apply]
  show V c main_call0_v42 _ = V c main_call0_v42 _
  refine congrArg (V c main_call0_v42) (funext fun a => Fin.ext ?_)
  match a with
  | ⟨0, _⟩ => show win2_0.index t (0 : Fin 2) * 1024 + 1 * r.val = i.val; rw [e0, hir]; omega
  | ⟨1, _⟩ => show win2_0.index t (1 : Fin 2) * 256 + 1 * k.val = k.val; rw [e1]; omega

/-- Row r of point t's agg block is row 1024 * t + r of agg. -/
theorem read3 (c : Dev nD) (t : Fin cfg2.N) (r : Fin 1024) (q : Fin 512) (i : Fin 16384) (hir : i.val = 1024 * t.val + r.val) :
    b3 V c t (ix2 r q) = aggarr V c (ix2 i q) := by
  obtain ⟨-, -, -, -, -, -, e0, e1, -⟩ := idx_facts t
  show ((cfg2.win 3).blk t).view.read (Elt Ideal) (V c main_call0_v54) (ix2 r q) = V c main_call0_v54 (ix2 i q)
  rw [View.read_apply]
  show V c main_call0_v54 _ = V c main_call0_v54 _
  refine congrArg (V c main_call0_v54) (funext fun a => Fin.ext ?_)
  match a with
  | ⟨0, _⟩ => show win2_3.index t (0 : Fin 2) * 1024 + 1 * r.val = i.val; rw [e0, hir]; omega
  | ⟨1, _⟩ => show win2_3.index t (1 : Fin 2) * 512 + 1 * q.val = q.val; rw [e1]; omega

/-- The W block at any point is the whole array main_call0_v12. -/
theorem read1 (c : Dev nD) (t : Fin cfg2.N) (k : Fin 256) (n : Fin 768) :
    b1 V c t (ix2 k n) = (V c main_call0_v12 : A2 256 768) (ix2 k n) := by
  obtain ⟨-, -, e0, e1, -⟩ := idx_facts t
  show ((cfg2.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win2_1.index t (0 : Fin 2) * 256 + 1 * k.val = k.val; rw [e0]; omega
  | ⟨1, _⟩ => show win2_1.index t (1 : Fin 2) * 768 + 1 * n.val = n.val; rw [e1]; omega

/-- The bias block at any point is the whole array main_arg5. -/
theorem read2 (c : Dev nD) (t : Fin cfg2.N) (z : Fin 1) (n : Fin 768) :
    b2 V c t (ix2 z n) = (V c main_arg5 : A2 1 768) (ix2 z n) := by
  obtain ⟨-, -, -, -, e0, e1, -⟩ := idx_facts t
  show ((cfg2.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win2_2.index t (0 : Fin 2) * 1 + 1 * z.val = z.val; rw [e0]; omega
  | ⟨1, _⟩ => show win2_2.index t (1 : Fin 2) * 768 + 1 * n.val = n.val; rw [e1]; omega

/-- The U block at any point is the whole array main_call0_v16. -/
theorem read4 (c : Dev nD) (t : Fin cfg2.N) (k : Fin 256) (n : Fin 768) :
    b4 V c t (ix2 k n) = (V c main_call0_v16 : A2 256 768) (ix2 k n) := by
  obtain ⟨-, -, -, -, -, -, -, -, e0, e1, -⟩ := idx_facts t
  show ((cfg2.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win2_4.index t (0 : Fin 2) * 256 + 1 * k.val = k.val; rw [e0]; omega
  | ⟨1, _⟩ => show win2_4.index t (1 : Fin 2) * 768 + 1 * n.val = n.val; rw [e1]; omega

/-- The U_f block at any point is the whole array main_call0_v14. -/
theorem read5 (c : Dev nD) (t : Fin cfg2.N) (k j : Fin 256) :
    b5 V c t (ix2 k j) = (V c main_call0_v14 : A2 256 256) (ix2 k j) := by
  obtain ⟨-, -, -, -, -, -, -, -, -, -, e0, e1, -⟩ := idx_facts t
  show ((cfg2.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win2_5.index t (0 : Fin 2) * 256 + 1 * k.val = k.val; rw [e0]; omega
  | ⟨1, _⟩ => show win2_5.index t (1 : Fin 2) * 256 + 1 * j.val = j.val; rw [e1]; omega

/-- The b_f block at any point is the whole array main_call0_v19. -/
theorem read6 (c : Dev nD) (t : Fin cfg2.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg2.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win2_6.index t (0 : Fin 2) * 1 + 1 * z.val = z.val; rw [e0]; omega
  | ⟨1, _⟩ => show win2_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg2.N) :
    (dat2 V c).flushed 7 t = ((cfg2.win 7).blk t).view.read (Elt Ideal) (packed w (Xarr V c) (aggarr V c)) := by
  show (cfg2.win 7).cut (grid2.coords t) ((dat2 V c).after 7 t) = _
  rw [after2_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg2.win 7).xinj (grid2.coords t) y) (((cfg2.win 7).blk t).view.emb y)
    (by show win2_7.index t (0 : Fin 2) * 1024 + 1 * (y 0).val = 1024 * t.val + (y 0).val; rw [e0]; omega)
    (by show win2_7.index t (1 : Fin 2) * 512 + 1 * (y 1).val = (y 1).val; rw [e1]; omega)

/-- An index of the array is in point t's block iff each coordinate is in the block's range on its axis. -/
theorem mem_blk (t : Fin cfg2.N) (i : S16384x512.Idx) :
    i ∈ ((cfg2.win 7).blk t).view.set ↔ ∀ a : Fin 2, win2_7.index t a * S1024x512.size a ≤ (i a).val
      ∧ (i a).val < win2_7.index t a * S1024x512.size a + S1024x512.size a := by
  show i ∈ ((View.whole main_call0_v55).slice (win2_7.rect t)).set ↔ _
  rw [View.set_slice_whole, Rect.mem_set_unit]
  exact Iff.rfl

/-- The 16 blocks of 1024 rows tile the array: row i is in the block of point i / 1024. -/
theorem cover (i : S16384x512.Idx) : ∃ t : Fin cfg2.N, (cfg2.win 7).flush t = true ∧ i ∈ ((cfg2.win 7).blk t).view.set := by
  have hi0 : (i 0).val < 16384 := idx2_lt0 i
  have hi1 : (i 1).val < 512 := idx2_lt1 i
  refine ⟨⟨(i 0).val / 1024, by rw [show cfg2.N = 16 from N_2]; omega⟩, flush2_7 _, ?_⟩
  rw [mem_blk]
  obtain ⟨-, -, -, -, -, -, -, -, -, -, -, -, -, -, e0, e1⟩ := idx_facts ⟨(i 0).val / 1024, by rw [show cfg2.N = 16 from N_2]; omega⟩
  intro a
  match a with
  | ⟨0, _⟩ =>
    show win2_7.index _ (0 : Fin 2) * 1024 ≤ (i 0).val ∧ (i 0).val < win2_7.index _ (0 : Fin 2) * 1024 + 1024
    rw [e0]; show (i 0).val / 1024 * 1024 ≤ (i 0).val ∧ (i 0).val < (i 0).val / 1024 * 1024 + 1024; omega
  | ⟨1, _⟩ =>
    show win2_7.index _ (1 : Fin 2) * 512 ≤ (i 1).val ∧ (i 1).val < win2_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat2 V c).arrAt 7 cfg2.N = packed w (Xarr V c) (aggarr V c) :=
  (dat2 V c).arrAt_eq_of_cover 7 (packed w (Xarr V c) (aggarr V c))
    (fun t _ => flushed_eq V c w hWt hb hUt hUft hbF t) (cover)

/-- THE VALUE OF THE REGION: after it, row i of main_call0_v55 is [kerH | fgateRow (kerH) * kerC] of node i. -/
theorem region2_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 16384) (j : Fin 256) :
    ((dat2 V c).arrAt 7 cfg2.N : A2 16384 512) (ix2 i (lo j)) = kerH w (Xarr V c) (aggarr V c) i j
    ∧ ((dat2 V c).arrAt 7 cfg2.N : A2 16384 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg2

end
-- ==== Proof.KStr3.lean ====
/-
  The host arithmetic before the level with 256 nodes per graph of the fused kernel, read off the program.

  From the contents at the stretch's entry it cuts the level's window of the token rows (256 rows of each graph from
  row 255 on, flattened to 8192 rows) and the children's parent ids (512 entries of each graph from entry 511 on,
  flattened to 16384), turns each parent id `p` into the parent's slot `(p div 4095) * 256 + (p mod 4095 - 255)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str3

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps3 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S16384x512 .f32 := Win (Proc.devRef .tc main_call0_v55)
abbrev xOut : Vec Ideal S8192x256 .bf16 := Wout (Proc.devRef .tc main_call0_v57)
abbrev pOut : IVec S16384 32 := Wout (Proc.devRef .tc main_call0_v59)
abbrev segOut : IVec S16384 32 := Wout (Proc.devRef .tc main_call0_v66)
abbrev aggOut : Vec Ideal S8192x512 .f32 := Wout (Proc.devRef .tc main_call0_v69)

/-- The parent's slot from the parent's node id `p`: `(p div 4095) * 256 + (p mod 4095 - 255)`, the flooring
    quotient and the non-negative remainder written through the truncating ones as the program writes them. -/
def segFun (p : IVec S16384 32) : IVec S16384 32 :=
  addi
    (muli
      (select (andi (cmpi .ne (signi p) (broadcastInDim S16384 ![] bcast_S_S16384 (signi (id (constantI S_ 32 4095#32))))) (cmpi .ne (Host.remsi p (broadcastInDim S16384 ![] bcast_S_S16384 (id (constantI S_ 32 4095#32)))) (broadcastInDim S16384 ![] bcast_S_S16384 (constantI S_ 32 0#32))))
        (subi (Host.divsi p (broadcastInDim S16384 ![] bcast_S_S16384 (id (constantI S_ 32 4095#32)))) (broadcastInDim S16384 ![] bcast_S_S16384 (constantI S_ 32 1#32)))
        (Host.divsi p (broadcastInDim S16384 ![] bcast_S_S16384 (id (constantI S_ 32 4095#32)))))
      (broadcastInDim S16384 ![] bcast_S_S16384 (constantI S_ 32 256#32)))
    (subi
      (select (andi (cmpi .ne (cmpi .slt (Host.remsi p (broadcastInDim S16384 ![] bcast_S_S16384 (select (cmpi .eq (id (constantI S_ 32 4095#32)) (constantI S_ 32 0#32)) (constantI S_ 32 1#32) (id (constantI S_ 32 4095#32))))) (broadcastInDim S16384 ![] bcast_S_S16384 (constantI S_ 32 0#32))) (broadcastInDim S16384 ![] bcast_S_S16384 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S16384 ![] bcast_S_S16384 (select (cmpi .eq (id (constantI S_ 32 4095#32)) (constantI S_ 32 0#32)) (constantI S_ 32 1#32) (id (constantI S_ 32 4095#32))))) (broadcastInDim S16384 ![] bcast_S_S16384 (constantI S_ 32 0#32))))
        (addi (Host.remsi p (broadcastInDim S16384 ![] bcast_S_S16384 (select (cmpi .eq (id (constantI S_ 32 4095#32)) (constantI S_ 32 0#32)) (constantI S_ 32 1#32) (id (constantI S_ 32 4095#32))))) (broadcastInDim S16384 ![] bcast_S_S16384 (select (cmpi .eq (id (constantI S_ 32 4095#32)) (constantI S_ 32 0#32)) (constantI S_ 32 1#32) (id (constantI S_ 32 4095#32)))))
        (Host.remsi p (broadcastInDim S16384 ![] bcast_S_S16384 (select (cmpi .eq (id (constantI S_ 32 4095#32)) (constantI S_ 32 0#32)) (constantI S_ 32 1#32) (id (constantI S_ 32 4095#32))))))
      (broadcastInDim S16384 ![] bcast_S_S16384 (constantI S_ 32 255#32)))

/-- The level's token window: flat row `i` is row `255 + i % 256` of graph `i / 256`. -/
theorem x_apply (i : Fin 8192) (k : Fin 256) :
    xOut Win (ix2 i k)
      = tokIn Win (ix3 ⟨i.val / 256, by omega⟩ ⟨255 + i.val % 256, by omega⟩ k) := by
  have e : xOut Win = shapeCast S8192x256 (extractStridedSlice S32x256x256 ![0, 255, 0] (tokIn Win)
      slices_S32x4095x256_S32x256x256_0_255_0) shapeCasts_S32x256x256_S8192x256 := by
    dsimp only [xOut, tokIn, hostOps3]
    after_results_simp
    rfl
  rw [e]
  exact flat3_slice_apply 255 (tokIn Win) _ _ i k (by decide) _ _

/-- The children's parent ids: entry `q` is entry `511 + q % 512` of graph `q / 512`. -/
theorem p_apply (q : Fin 16384) :
    pOut Win (ix1 q)
      = parIn Win (ix2 ⟨q.val / 512, by omega⟩ ⟨511 + q.val % 512, by omega⟩) := by
  have e : pOut Win = shapeCast S16384 (extractStridedSlice S32x512 ![0, 511] (parIn Win)
      slices_S32x4095_S32x512_0_511) shapeCasts_S32x512_S16384 := by
    dsimp only [pOut, parIn, hostOps3]
    after_results_simp
    rfl
  rw [e]
  exact flat2_slice_apply 511 (parIn Win) _ _ q (by decide) _ _

/-- The slot numbers are `segFun` of the parent ids. -/
theorem seg_eq :
    segOut Win = segFun (pOut Win) := by
  dsimp only [segOut, pOut, hostOps3]
  after_results_simp
  rfl

/-- The per-slot sums, as the scatter that computes them. -/
theorem agg_eq :
    aggOut Win
      = Host.scatterAdd (F := Ideal) scatter_S8192x512_S16384x1_S16384x512_1_0_0_1
          (broadcastInDim S8192x512 ![] bcast_S_S8192x512 (constant (F := Ideal) S_ .f32 0x00000000#32))
          (broadcastInDim S16384x1 ![0] bcast_S16384_S16384x1_0 (segOut Win))
          (hcIn Win) := by
  dsimp only [aggOut, segOut, hcIn, hostOps3]
  after_results_simp
  rfl

/-- Slot `i` holds the sum of the packed rows of the children routed to it. -/
theorem agg_apply (i : Fin 8192) (n : Fin 512) :
    aggOut Win (ix2 i n)
      = ∑ k ∈ kids (fun k : Fin 16384 => rowTarget 8192 (segOut Win (ix1 k))) i, hcIn Win (ix2 k n) := by
  rw [agg_eq]
  exact segsum_apply scatter_S8192x512_S16384x1_S16384x512_1_0_0_1 ⟨rfl, rfl, rfl, rfl⟩ _ bcast_S_S8192x512
    bcast_S16384_S16384x1_0 (segOut Win) (hcIn Win) i n

/-! ## What the stretch leaves alone -/

/-- The arrays the stretch writes. -/
noncomputable def written : List (Ref sig .tc) :=
  [main_call0_v56, main_call0_v57, main_call0_v58, main_call0_v59, main_call0_c_12, main_call0_call4_v0,
   main_call0_call4_v1, main_call0_call4_v2, main_call0_call4_v3, main_call0_call4_v4, main_call0_call4_v5,
   main_call0_call4_v6, main_call0_call4_v7, main_call0_call4_v8, main_call0_call4_c, main_call0_call4_v9,
   main_call0_call4_v10, main_call0_call4_v11, main_call0_call4_c_0, main_call0_call4_v12, main_call0_call4_v13,
   main_call0_v60, main_call0_c_13, main_call0_v61, main_call0_v62, main_call0_c_14, main_call0_call5_v0,
   main_call0_call5_c, main_call0_call5_v1, main_call0_call5_c_0, main_call0_call5_v2, main_call0_call5_v3,
   main_call0_call5_v4, main_call0_call5_c_1, main_call0_call5_v5, main_call0_call5_v6, main_call0_call5_c_2,
   main_call0_call5_v7, main_call0_call5_v8, main_call0_call5_c_3, main_call0_call5_v9, main_call0_call5_v10,
   main_call0_call5_v11, main_call0_call5_v12, main_call0_call5_v13, main_call0_call5_v14, main_call0_v63,
   main_call0_c_15, main_call0_v64, main_call0_v65, main_call0_v66, main_call0_cst_16, main_call0_v67,
   main_call0_v68, main_call0_v69]

/-- An array the stretch does not write holds after it what it held before. -/
theorem keep (r : Ref sig .tc) (hr : r ∉ written) : Wout (Proc.devRef .tc r) = Win (Proc.devRef .tc r) := by
  refine after_of_writes_sub (W := written) hostOps3 Win ?_ hr
  simp only [hostOps3, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v55 : Wout (Proc.devRef .tc main_call0_v55) = Win (Proc.devRef .tc main_call0_v55) := keep Win _ (by decide)
theorem keep_arg5 : Wout (Proc.devRef .tc main_arg5) = Win (Proc.devRef .tc main_arg5) := keep Win _ (by decide)

end Cert.KernelIdeal.Str3

end
-- ==== Proof.KRow3.lean ====
/-
  The update kernel's body at level 8 (blocks of 1024 rows), read at one element.

  The body's five payloads, over variables of the block shapes: the pre-activation [1024,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 1024; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg3

open Cert.KernelIdeal Cert.KernelIdeal.Gen Cert.TreeLstm
open Idealize.ShloMosaic Idealize.ShloMosaic.ValueIdx

/-! ## The two contractions at an index -/

/-- [1024,256] × [256,768] into zeros, at (r, n): the sum over the 256 contracted coordinates. -/
theorem matmul_1024x256_256x768_apply (a : FVec Ideal S1024x256 .bf16) (b : FVec Ideal S256x768 .bf16) (r : Fin 1024) (n : Fin 768) :
    matmul dot_S1024x256_S256x768_S1024x768_1_0_0_1_n_n none a b (constant (F := Ideal) S1024x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x768_S1024x768_1_0_0_1_n_n 256 rfl rfl).symm]
  refine Finset.sum_congr rfl fun k _ => ?_
  have ck := contrEquiv1_symm_val dot_S1024x256_S256x768_S1024x768_1_0_0_1_n_n 256 rfl rfl k
  have l2 : dot_S1024x256_S256x768_S1024x768_1_0_0_1_n_n.lhsIdx (ix2 r n)
      ((contrEquiv1 dot_S1024x256_S256x768_S1024x768_1_0_0_1_n_n 256 rfl rfl).symm k) = ix2 r k := by
    funext ax; apply Fin.ext
    match ax with
    | ⟨0, _⟩ => simp [DotDims.lhsIdx, dot_S1024x256_S256x768_S1024x768_1_0_0_1_n_n]; rfl
    | ⟨1, _⟩ => simp [DotDims.lhsIdx, dot_S1024x256_S256x768_S1024x768_1_0_0_1_n_n]; exact ck
  have r2 : dot_S1024x256_S256x768_S1024x768_1_0_0_1_n_n.rhsIdx (ix2 r n)
      ((contrEquiv1 dot_S1024x256_S256x768_S1024x768_1_0_0_1_n_n 256 rfl rfl).symm k) = ix2 k n := by
    funext ax; apply Fin.ext
    match ax with
    | ⟨0, _⟩ => simp [DotDims.rhsIdx, dot_S1024x256_S256x768_S1024x768_1_0_0_1_n_n]; exact ck
    | ⟨1, _⟩ => simp [DotDims.rhsIdx, dot_S1024x256_S256x768_S1024x768_1_0_0_1_n_n]; rfl
  rw [l2, r2]

/-- [1024,256] × [256,256] into zeros, at (r, n): the sum over the 256 contracted coordinates. -/
theorem matmul_1024x256_256x256_apply (a : FVec Ideal S1024x256 .bf16) (b : FVec Ideal S256x256 .bf16) (r : Fin 1024) (n : Fin 256) :
    matmul dot_S1024x256_S256x256_S1024x256_1_0_0_1_n_n none a b (constant (F := Ideal) S1024x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x256_S1024x256_1_0_0_1_n_n 256 rfl rfl).symm]
  refine Finset.sum_congr rfl fun k _ => ?_
  have ck := contrEquiv1_symm_val dot_S1024x256_S256x256_S1024x256_1_0_0_1_n_n 256 rfl rfl k
  have l2 : dot_S1024x256_S256x256_S1024x256_1_0_0_1_n_n.lhsIdx (ix2 r n)
      ((contrEquiv1 dot_S1024x256_S256x256_S1024x256_1_0_0_1_n_n 256 rfl rfl).symm k) = ix2 r k := by
    funext ax; apply Fin.ext
    match ax with
    | ⟨0, _⟩ => simp [DotDims.lhsIdx, dot_S1024x256_S256x256_S1024x256_1_0_0_1_n_n]; rfl
    | ⟨1, _⟩ => simp [DotDims.lhsIdx, dot_S1024x256_S256x256_S1024x256_1_0_0_1_n_n]; exact ck
  have r2 : dot_S1024x256_S256x256_S1024x256_1_0_0_1_n_n.rhsIdx (ix2 r n)
      ((contrEquiv1 dot_S1024x256_S256x256_S1024x256_1_0_0_1_n_n 256 rfl rfl).symm k) = ix2 k n := by
    funext ax; apply Fin.ext
    match ax with
    | ⟨0, _⟩ => simp [DotDims.rhsIdx, dot_S1024x256_S256x256_S1024x256_1_0_0_1_n_n]; exact ck
    | ⟨1, _⟩ => simp [DotDims.rhsIdx, dot_S1024x256_S256x256_S1024x256_1_0_0_1_n_n]; rfl
  rw [l2, r2]

/-! ## The payloads at an index -/

/-- The pre-activation at (r, n): (x·Wt + b) + h̃·Ut. -/
theorem pay2_apply (v0 : Vec Ideal S1024x256 .bf16) (v2 : Vec Ideal S256x768 .bf16) (v5 : Vec Ideal S1x768 .f32)
    (v8 : Vec Ideal S1024x256 .f32) (v13 : Vec Ideal S256x768 .bf16) (r : Fin 1024) (n : Fin 768) :
    k3_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k3_pay2
  simp only [shapeCast_self]
  refine (addf_apply _ _ _).trans ?_
  refine congrArg₂ (· + ·) ((addf_apply _ _ _).trans (congrArg₂ (· + ·) ?_ ?_)) ?_
  · exact matmul_1024x256_256x768_apply v0 v2 r n
  · exact broadcastTo_1b_ab_apply v5 broadcasts_S1x768_S1024x768 r n
  · exact matmul_1024x256_256x768_apply _ v13 r n

/-- The cell state at (r, j): logistic z₀ * tanh z₂ + c̃. -/
theorem pay3_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k3_pay3 v0 v2 v5 v8 v10 v13 (ix2 r j)
      = Ideal.logistic (k3_pay2 v0 v2 v5 v8 v13 (ix2 r (c0 j))) * Ideal.tanh (k3_pay2 v0 v2 v5 v8 v13 (ix2 r (c2 j)))
        + v10 (ix2 r j) := by
  unfold k3_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k3_pay2 v0 v2 v5 v8 v13) slices_S1024x768_o0_0_S1024x256 r j (c0 j) (Nat.zero_add _).symm)
  · exact congrArg Ideal.tanh
      (slice2_axis1_apply 512 (k3_pay2 v0 v2 v5 v8 v13) slices_S1024x768_o0_512_S1024x256 r j (c2 j) rfl)

/-- The hidden state at (r, j): logistic z₁ * tanh c. -/
theorem pay4_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k3_pay4 v0 v2 v5 v8 v10 v13 (ix2 r j)
      = Ideal.logistic (k3_pay2 v0 v2 v5 v8 v13 (ix2 r (c1 j))) * Ideal.tanh (k3_pay3 v0 v2 v5 v8 v10 v13 (ix2 r j)) := by
  unfold k3_pay4
  refine (mulf_apply _ _ _).trans (congrArg₂ (· * ·) ?_ rfl)
  exact congrArg Ideal.logistic
    (slice2_axis1_apply 256 (k3_pay2 v0 v2 v5 v8 v13) slices_S1024x768_o0_256_S1024x256 r j (c1 j) rfl)

/-- The forget gate of the hidden state just computed, at (r, j): logistic (h·Uft + bF). -/
theorem pay5_apply (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024) (j : Fin 256) :
    k3_pay5 v0 v2 v5 v8 v10 v13 v28 v31 (ix2 r j)
      = Ideal.logistic ((∑ k : Fin 256, k3_pay4 v0 v2 v5 v8 v10 v13 (ix2 r k) * v28 (ix2 k j)) + v31 (ix2 (0 : Fin 1) j)) := by
  unfold k3_pay5
  simp only [shapeCast_self]
  refine congrArg Ideal.logistic ((addf_apply _ _ _).trans (congrArg₂ (· + ·) ?_ ?_))
  · exact matmul_1024x256_256x256_apply _ v28 r j
  · exact broadcastTo_1b_ab_apply v31 broadcasts_S1x256_S1024x256 r j

/-- The right half's stored value at (r, j): the gate times the cell state. -/
theorem pay1_apply (v23 v35 : FVec Ideal S1024x256 .f32) (r : Fin 1024) (j : Fin 256) :
    k3_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k3_pay4 v0 v2 v5 v8 v10 v13 (ix2 r j) = kerH w X agg i j
    ∧ k3_pay1 (k3_pay3 v0 v2 v5 v8 v10 v13) (k3_pay5 v0 v2 v5 v8 v10 v13 v28 v31) (ix2 r j)
        = fgateRow w (kerH w X agg i) j * kerC w X agg i j := by
  have hz : ∀ n : Fin 768, k3_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k3_pay3 v0 v2 v5 v8 v10 v13 (ix2 r j) = kerC w X agg i j := fun j => by
    rw [pay3_apply, hz, hz, h10]; rfl
  have hh : ∀ j : Fin 256, k3_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg3

end
-- ==== Proof.KReg3.lean ====
/-
  Region 3 of the kernel's run — the update kernel at level 8: 8192 nodes, 8 grid points, blocks of 1024 rows —:
  the output array main_call0_v70 : [8192,512] after the region, element by element, for ANY contents V at the
  region's entry.

  What the body leaves in the output block, at (r, lo j) and at (r, hi j): the two stores cover columns 0..255 and
  256..511, the later one listed first; the agg block is loaded in its two halves. One row of a block is one node:
  row r of point t's blocks is row 1024 * t + r of the arrays X = main_call0_v57 and agg = main_call0_v69, the weight
  windows' blocks are their whole arrays. So point t writes back block t of the level's packed array
  [kerH | fgateRow (kerH) * kerC]; the 8 blocks tile the array; hence the array after the region is that packed array.
-/
import proofs.«419362_j66683662237734_3_alg».proof.Proof.KernelIdealFrameP
import proofs.«419362_j66683662237734_3_alg».proof.Proof.KRow3
import Idealize.ShloMosaic.Lib.Pipeline.Value

set_option maxRecDepth 16384

noncomputable section

open scoped BigOperators

namespace Cert.KernelIdeal.Reg3

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S1024x512 .f32) (r : Fin 1024) (k : Fin 256) :
    (View.ld x3 r3_3 : Vec Ideal S1024x256 .f32) (ix2 r k) = x3 (ix2 r (lo k)) := by
  show x3 (r3_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S1024x512 .f32) (r : Fin 1024) (k : Fin 256) :
    (View.ld x3 r3_4 : Vec Ideal S1024x256 .f32) (ix2 r k) = x3 (ix2 r (hi k)) := by
  show x3 (r3_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 1024) (j : Fin 256) : (ix2 r (lo j) : S1024x512.Idx) = r3_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 1024) (j : Fin 256) : (ix2 r (hi j) : S1024x512.Idx) = r3_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S1024x256 .f32) (r : Fin 1024) (j : Fin 256) :
    View.canon [(⟨r3_4, p1⟩ : View.Piece (Elt Ideal) S1024x512 .f32), ⟨r3_3, p0⟩] (ix2 r (lo j)) = p0 (ix2 r j) := by
  have hnot : (ix2 r (lo j) : S1024x512.Idx) ∉ (⟨r3_4, p1⟩ : View.Piece (Elt Ideal) S1024x512 .f32).1.set := by
    show (ix2 r (lo j) : S1024x512.Idx) ∉ r3_4.set
    rw [Rect.mem_set_unit]
    intro h
    have h1 : 256 ≤ j.val := (h 1).1
    have := j.isLt
    omega
  rw [View.canon_cons_of_not_mem (⟨r3_4, p1⟩ : View.Piece (Elt Ideal) S1024x512 .f32) [⟨r3_3, p0⟩] hnot, emb_left r j]
  exact View.canon_cons_emb r3_3 p0 [] (ix2 r j)

/-- At column hi j the right store's payload shows. -/
theorem canon2_right (p1 p0 : Vec Ideal S1024x256 .f32) (r : Fin 1024) (j : Fin 256) :
    View.canon [(⟨r3_4, p1⟩ : View.Piece (Elt Ideal) S1024x512 .f32), ⟨r3_3, p0⟩] (ix2 r (hi j)) = p1 (ix2 r j) := by
  rw [emb_right r j]
  exact View.canon_cons_emb r3_4 p1 [⟨r3_3, p0⟩] (ix2 r j)

/-- The left half of the output block holds the hidden state's payload. -/
theorem out3_7_left (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out3_7 x0 x1 x2 x3 x4 x5 x6 (ix2 r (lo j))
      = k3_pay4 x0 x1 x2 (View.ld x3 r3_3) (View.ld x3 r3_4) x4 (ix2 r j) := by
  unfold out3_7
  simp only [View.ld_unit_zero (S := S1024x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out3_7_right (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out3_7 x0 x1 x2 x3 x4 x5 x6 (ix2 r (hi j))
      = k3_pay1 (k3_pay3 x0 x1 x2 (View.ld x3 r3_3) (View.ld x3 r3_4) x4)
          (k3_pay5 x0 x1 x2 (View.ld x3 r3_3) (View.ld x3 r3_4) x4 x5 x6) (ix2 r j) := by
  unfold out3_7
  simp only [View.ld_unit_zero (S := S1024x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 8192 256) (agg : A2 8192 512) : A2 8192 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 8192 256) (agg : A2 8192 512) (i : Fin 8192) (j : Fin 256) :
    packed w X agg (ix2 i (lo j)) = kerH w X agg i j := by
  unfold packed
  exact dif_pos j.isLt

theorem packed_hi (w : Wts) (X : A2 8192 256) (agg : A2 8192 512) (i : Fin 8192) (j : Fin 256) :
    packed w X agg (ix2 i (hi j)) = fgateRow w (kerH w X agg i) j * kerC w X agg i j := by
  have hn : ¬ ((ix2 i (hi j) : (⟨2, ![8192, 512]⟩ : Shape).Idx) 1).val < 256 := by
    show ¬ (256 + j.val < 256); omega
  have e : ∀ h, (⟨((ix2 i (hi j) : (⟨2, ![8192, 512]⟩ : Shape).Idx) 1).val - 256, h⟩ : Fin 256) = j :=
    fun h => Fin.ext (by show 256 + j.val - 256 = j.val; omega)
  unfold packed
  rw [dif_neg hn, e]

/-- One block at an index: if row r of the blocks is row 1024 * T + r of X and agg and the weight blocks hold the
    transposed weights, the output block at y is the packed array at g, where g is y moved down 1024 * T rows. -/
theorem block_at (w : Wts) (X : A2 8192 256) (agg : A2 8192 512)
    (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (T : Nat)
    (h0 : ∀ (r : Fin 1024) (k : Fin 256) (i : Fin 8192), i.val = 1024 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 1024) (q : Fin 512) (i : Fin 8192), i.val = 1024 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S1024x512.Idx) (g : S8192x512.Idx) (hg0 : (g 0).val = 1024 * T + (y 0).val) (hg1 : (g 1).val = (y 1).val) :
    out3_7 x0 x1 x2 x3 x4 x5 x6 y = packed w X agg g := by
  obtain ⟨r, q, rfl⟩ : ∃ (r : Fin 1024) (q : Fin 512), y = ix2 r q := ⟨y 0, y 1, eq_ix2 y⟩
  obtain ⟨i, q', rfl⟩ : ∃ (i : Fin 8192) (q' : Fin 512), g = ix2 i q' := ⟨g 0, g 1, eq_ix2 g⟩
  have hir : i.val = 1024 * T + r.val := hg0
  obtain rfl : q' = q := Fin.ext hg1
  have hrow := fun j : Fin 256 => row w X agg i x0 x1 x2 (View.ld x3 r3_3) (View.ld x3 r3_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out3_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out3_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 8192 256 := V c main_call0_v57
/-- The children's packed rows summed per node, as the region finds them. -/
abbrev aggarr (c : Dev nD) : A2 8192 512 := V c main_call0_v69

/-- The windows' blocks at point t, typed by their block shapes. -/
abbrev b0 (c : Dev nD) (t : Fin cfg3.N) : Vec Ideal S1024x256 .bf16 := iblk3 V c 0 t
abbrev b1 (c : Dev nD) (t : Fin cfg3.N) : Vec Ideal S256x768 .bf16 := iblk3 V c 1 t
abbrev b2 (c : Dev nD) (t : Fin cfg3.N) : Vec Ideal S1x768 .f32 := iblk3 V c 2 t
abbrev b3 (c : Dev nD) (t : Fin cfg3.N) : Vec Ideal S1024x512 .f32 := iblk3 V c 3 t
abbrev b4 (c : Dev nD) (t : Fin cfg3.N) : Vec Ideal S256x768 .bf16 := iblk3 V c 4 t
abbrev b5 (c : Dev nD) (t : Fin cfg3.N) : Vec Ideal S256x256 .bf16 := iblk3 V c 5 t
abbrev b6 (c : Dev nD) (t : Fin cfg3.N) : Vec Ideal S1x256 .f32 := iblk3 V c 6 t

/-- The printed index maps over the grid: the row windows 0, 3, 7 are at block (t, 0), the weight windows at (0, 0). -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row r of point t's X block is row 1024 * t + r of X. -/
theorem read0 (c : Dev nD) (t : Fin cfg3.N) (r : Fin 1024) (k : Fin 256) (i : Fin 8192) (hir : i.val = 1024 * t.val + r.val) :
    b0 V c t (ix2 r k) = Xarr V c (ix2 i k) := by
  obtain ⟨e0, e1, -⟩ := idx_facts t
  show ((cfg3.win 0).blk t).view.read (Elt Ideal) (V c main_call0_v57) (ix2 r k) = V c main_call0_v57 (ix2 i k)
  rw [View.read_apply]
  show V c main_call0_v57 _ = V c main_call0_v57 _
  refine congrArg (V c main_call0_v57) (funext fun a => Fin.ext ?_)
  match a with
  | ⟨0, _⟩ => show win3_0.index t (0 : Fin 2) * 1024 + 1 * r.val = i.val; rw [e0, hir]; omega
  | ⟨1, _⟩ => show win3_0.index t (1 : Fin 2) * 256 + 1 * k.val = k.val; rw [e1]; omega

/-- Row r of point t's agg block is row 1024 * t + r of agg. -/
theorem read3 (c : Dev nD) (t : Fin cfg3.N) (r : Fin 1024) (q : Fin 512) (i : Fin 8192) (hir : i.val = 1024 * t.val + r.val) :
    b3 V c t (ix2 r q) = aggarr V c (ix2 i q) := by
  obtain ⟨-, -, -, -, -, -, e0, e1, -⟩ := idx_facts t
  show ((cfg3.win 3).blk t).view.read (Elt Ideal) (V c main_call0_v69) (ix2 r q) = V c main_call0_v69 (ix2 i q)
  rw [View.read_apply]
  show V c main_call0_v69 _ = V c main_call0_v69 _
  refine congrArg (V c main_call0_v69) (funext fun a => Fin.ext ?_)
  match a with
  | ⟨0, _⟩ => show win3_3.index t (0 : Fin 2) * 1024 + 1 * r.val = i.val; rw [e0, hir]; omega
  | ⟨1, _⟩ => show win3_3.index t (1 : Fin 2) * 512 + 1 * q.val = q.val; rw [e1]; omega

/-- The W block at any point is the whole array main_call0_v12. -/
theorem read1 (c : Dev nD) (t : Fin cfg3.N) (k : Fin 256) (n : Fin 768) :
    b1 V c t (ix2 k n) = (V c main_call0_v12 : A2 256 768) (ix2 k n) := by
  obtain ⟨-, -, e0, e1, -⟩ := idx_facts t
  show ((cfg3.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win3_1.index t (0 : Fin 2) * 256 + 1 * k.val = k.val; rw [e0]; omega
  | ⟨1, _⟩ => show win3_1.index t (1 : Fin 2) * 768 + 1 * n.val = n.val; rw [e1]; omega

/-- The bias block at any point is the whole array main_arg5. -/
theorem read2 (c : Dev nD) (t : Fin cfg3.N) (z : Fin 1) (n : Fin 768) :
    b2 V c t (ix2 z n) = (V c main_arg5 : A2 1 768) (ix2 z n) := by
  obtain ⟨-, -, -, -, e0, e1, -⟩ := idx_facts t
  show ((cfg3.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win3_2.index t (0 : Fin 2) * 1 + 1 * z.val = z.val; rw [e0]; omega
  | ⟨1, _⟩ => show win3_2.index t (1 : Fin 2) * 768 + 1 * n.val = n.val; rw [e1]; omega

/-- The U block at any point is the whole array main_call0_v16. -/
theorem read4 (c : Dev nD) (t : Fin cfg3.N) (k : Fin 256) (n : Fin 768) :
    b4 V c t (ix2 k n) = (V c main_call0_v16 : A2 256 768) (ix2 k n) := by
  obtain ⟨-, -, -, -, -, -, -, -, e0, e1, -⟩ := idx_facts t
  show ((cfg3.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win3_4.index t (0 : Fin 2) * 256 + 1 * k.val = k.val; rw [e0]; omega
  | ⟨1, _⟩ => show win3_4.index t (1 : Fin 2) * 768 + 1 * n.val = n.val; rw [e1]; omega

/-- The U_f block at any point is the whole array main_call0_v14. -/
theorem read5 (c : Dev nD) (t : Fin cfg3.N) (k j : Fin 256) :
    b5 V c t (ix2 k j) = (V c main_call0_v14 : A2 256 256) (ix2 k j) := by
  obtain ⟨-, -, -, -, -, -, -, -, -, -, e0, e1, -⟩ := idx_facts t
  show ((cfg3.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win3_5.index t (0 : Fin 2) * 256 + 1 * k.val = k.val; rw [e0]; omega
  | ⟨1, _⟩ => show win3_5.index t (1 : Fin 2) * 256 + 1 * j.val = j.val; rw [e1]; omega

/-- The b_f block at any point is the whole array main_call0_v19. -/
theorem read6 (c : Dev nD) (t : Fin cfg3.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg3.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win3_6.index t (0 : Fin 2) * 1 + 1 * z.val = z.val; rw [e0]; omega
  | ⟨1, _⟩ => show win3_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg3.N) :
    (dat3 V c).flushed 7 t = ((cfg3.win 7).blk t).view.read (Elt Ideal) (packed w (Xarr V c) (aggarr V c)) := by
  show (cfg3.win 7).cut (grid3.coords t) ((dat3 V c).after 7 t) = _
  rw [after3_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg3.win 7).xinj (grid3.coords t) y) (((cfg3.win 7).blk t).view.emb y)
    (by show win3_7.index t (0 : Fin 2) * 1024 + 1 * (y 0).val = 1024 * t.val + (y 0).val; rw [e0]; omega)
    (by show win3_7.index t (1 : Fin 2) * 512 + 1 * (y 1).val = (y 1).val; rw [e1]; omega)

/-- An index of the array is in point t's block iff each coordinate is in the block's range on its axis. -/
theorem mem_blk (t : Fin cfg3.N) (i : S8192x512.Idx) :
    i ∈ ((cfg3.win 7).blk t).view.set ↔ ∀ a : Fin 2, win3_7.index t a * S1024x512.size a ≤ (i a).val
      ∧ (i a).val < win3_7.index t a * S1024x512.size a + S1024x512.size a := by
  show i ∈ ((View.whole main_call0_v70).slice (win3_7.rect t)).set ↔ _
  rw [View.set_slice_whole, Rect.mem_set_unit]
  exact Iff.rfl

/-- The 8 blocks of 1024 rows tile the array: row i is in the block of point i / 1024. -/
theorem cover (i : S8192x512.Idx) : ∃ t : Fin cfg3.N, (cfg3.win 7).flush t = true ∧ i ∈ ((cfg3.win 7).blk t).view.set := by
  have hi0 : (i 0).val < 8192 := idx2_lt0 i
  have hi1 : (i 1).val < 512 := idx2_lt1 i
  refine ⟨⟨(i 0).val / 1024, by rw [show cfg3.N = 8 from N_3]; omega⟩, flush3_7 _, ?_⟩
  rw [mem_blk]
  obtain ⟨-, -, -, -, -, -, -, -, -, -, -, -, -, -, e0, e1⟩ := idx_facts ⟨(i 0).val / 1024, by rw [show cfg3.N = 8 from N_3]; omega⟩
  intro a
  match a with
  | ⟨0, _⟩ =>
    show win3_7.index _ (0 : Fin 2) * 1024 ≤ (i 0).val ∧ (i 0).val < win3_7.index _ (0 : Fin 2) * 1024 + 1024
    rw [e0]; show (i 0).val / 1024 * 1024 ≤ (i 0).val ∧ (i 0).val < (i 0).val / 1024 * 1024 + 1024; omega
  | ⟨1, _⟩ =>
    show win3_7.index _ (1 : Fin 2) * 512 ≤ (i 1).val ∧ (i 1).val < win3_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat3 V c).arrAt 7 cfg3.N = packed w (Xarr V c) (aggarr V c) :=
  (dat3 V c).arrAt_eq_of_cover 7 (packed w (Xarr V c) (aggarr V c))
    (fun t _ => flushed_eq V c w hWt hb hUt hUft hbF t) (cover)

/-- THE VALUE OF THE REGION: after it, row i of main_call0_v70 is [kerH | fgateRow (kerH) * kerC] of node i. -/
theorem region3_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 8192) (j : Fin 256) :
    ((dat3 V c).arrAt 7 cfg3.N : A2 8192 512) (ix2 i (lo j)) = kerH w (Xarr V c) (aggarr V c) i j
    ∧ ((dat3 V c).arrAt 7 cfg3.N : A2 8192 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg3

end
-- ==== Proof.KStr4.lean ====
/-
  The host arithmetic before the level with 128 nodes per graph of the fused kernel, read off the program.

  From the contents at the stretch's entry it cuts the level's window of the token rows (128 rows of each graph from
  row 127 on, flattened to 4096 rows) and the children's parent ids (256 entries of each graph from entry 255 on,
  flattened to 8192), turns each parent id `p` into the parent's slot `(p div 4095) * 128 + (p mod 4095 - 127)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str4

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps4 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S8192x512 .f32 := Win (Proc.devRef .tc main_call0_v70)
abbrev xOut : Vec Ideal S4096x256 .bf16 := Wout (Proc.devRef .tc main_call0_v72)
abbrev pOut : IVec S8192 32 := Wout (Proc.devRef .tc main_call0_v74)
abbrev segOut : IVec S8192 32 := Wout (Proc.devRef .tc main_call0_v81)
abbrev aggOut : Vec Ideal S4096x512 .f32 := Wout (Proc.devRef .tc main_call0_v84)

/-- The parent's slot from the parent's node id `p`: `(p div 4095) * 128 + (p mod 4095 - 127)`, the flooring
    quotient and the non-negative remainder written through the truncating ones as the program writes them. -/
def segFun (p : IVec S8192 32) : IVec S8192 32 :=
  addi
    (muli
      (select (andi (cmpi .ne (signi p) (broadcastInDim S8192 ![] bcast_S_S8192 (signi (id (constantI S_ 32 4095#32))))) (cmpi .ne (Host.remsi p (broadcastInDim S8192 ![] bcast_S_S8192 (id (constantI S_ 32 4095#32)))) (broadcastInDim S8192 ![] bcast_S_S8192 (constantI S_ 32 0#32))))
        (subi (Host.divsi p (broadcastInDim S8192 ![] bcast_S_S8192 (id (constantI S_ 32 4095#32)))) (broadcastInDim S8192 ![] bcast_S_S8192 (constantI S_ 32 1#32)))
        (Host.divsi p (broadcastInDim S8192 ![] bcast_S_S8192 (id (constantI S_ 32 4095#32)))))
      (broadcastInDim S8192 ![] bcast_S_S8192 (constantI S_ 32 128#32)))
    (subi
      (select (andi (cmpi .ne (cmpi .slt (Host.remsi p (broadcastInDim S8192 ![] bcast_S_S8192 (select (cmpi .eq (id (constantI S_ 32 4095#32)) (constantI S_ 32 0#32)) (constantI S_ 32 1#32) (id (constantI S_ 32 4095#32))))) (broadcastInDim S8192 ![] bcast_S_S8192 (constantI S_ 32 0#32))) (broadcastInDim S8192 ![] bcast_S_S8192 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S8192 ![] bcast_S_S8192 (select (cmpi .eq (id (constantI S_ 32 4095#32)) (constantI S_ 32 0#32)) (constantI S_ 32 1#32) (id (constantI S_ 32 4095#32))))) (broadcastInDim S8192 ![] bcast_S_S8192 (constantI S_ 32 0#32))))
        (addi (Host.remsi p (broadcastInDim S8192 ![] bcast_S_S8192 (select (cmpi .eq (id (constantI S_ 32 4095#32)) (constantI S_ 32 0#32)) (constantI S_ 32 1#32) (id (constantI S_ 32 4095#32))))) (broadcastInDim S8192 ![] bcast_S_S8192 (select (cmpi .eq (id (constantI S_ 32 4095#32)) (constantI S_ 32 0#32)) (constantI S_ 32 1#32) (id (constantI S_ 32 4095#32)))))
        (Host.remsi p (broadcastInDim S8192 ![] bcast_S_S8192 (select (cmpi .eq (id (constantI S_ 32 4095#32)) (constantI S_ 32 0#32)) (constantI S_ 32 1#32) (id (constantI S_ 32 4095#32))))))
      (broadcastInDim S8192 ![] bcast_S_S8192 (constantI S_ 32 127#32)))

/-- The level's token window: flat row `i` is row `127 + i % 128` of graph `i / 128`. -/
theorem x_apply (i : Fin 4096) (k : Fin 256) :
    xOut Win (ix2 i k)
      = tokIn Win (ix3 ⟨i.val / 128, by omega⟩ ⟨127 + i.val % 128, by omega⟩ k) := by
  have e : xOut Win = shapeCast S4096x256 (extractStridedSlice S32x128x256 ![0, 127, 0] (tokIn Win)
      slices_S32x4095x256_S32x128x256_0_127_0) shapeCasts_S32x128x256_S4096x256 := by
    dsimp only [xOut, tokIn, hostOps4]
    after_results_simp
    rfl
  rw [e]
  exact flat3_slice_apply 127 (tokIn Win) _ _ i k (by decide) _ _

/-- The children's parent ids: entry `q` is entry `255 + q % 256` of graph `q / 256`. -/
theorem p_apply (q : Fin 8192) :
    pOut Win (ix1 q)
      = parIn Win (ix2 ⟨q.val / 256, by omega⟩ ⟨255 + q.val % 256, by omega⟩) := by
  have e : pOut Win = shapeCast S8192 (extractStridedSlice S32x256 ![0, 255] (parIn Win)
      slices_S32x4095_S32x256_0_255) shapeCasts_S32x256_S8192 := by
    dsimp only [pOut, parIn, hostOps4]
    after_results_simp
    rfl
  rw [e]
  exact flat2_slice_apply 255 (parIn Win) _ _ q (by decide) _ _

/-- The slot numbers are `segFun` of the parent ids. -/
theorem seg_eq :
    segOut Win = segFun (pOut Win) := by
  dsimp only [segOut, pOut, hostOps4]
  after_results_simp
  rfl

/-- The per-slot sums, as the scatter that computes them. -/
theorem agg_eq :
    aggOut Win
      = Host.scatterAdd (F := Ideal) scatter_S4096x512_S8192x1_S8192x512_1_0_0_1
          (broadcastInDim S4096x512 ![] bcast_S_S4096x512 (constant (F := Ideal) S_ .f32 0x00000000#32))
          (broadcastInDim S8192x1 ![0] bcast_S8192_S8192x1_0 (segOut Win))
          (hcIn Win) := by
  dsimp only [aggOut, segOut, hcIn, hostOps4]
  after_results_simp
  rfl

/-- Slot `i` holds the sum of the packed rows of the children routed to it. -/
theorem agg_apply (i : Fin 4096) (n : Fin 512) :
    aggOut Win (ix2 i n)
      = ∑ k ∈ kids (fun k : Fin 8192 => rowTarget 4096 (segOut Win (ix1 k))) i, hcIn Win (ix2 k n) := by
  rw [agg_eq]
  exact segsum_apply scatter_S4096x512_S8192x1_S8192x512_1_0_0_1 ⟨rfl, rfl, rfl, rfl⟩ _ bcast_S_S4096x512
    bcast_S8192_S8192x1_0 (segOut Win) (hcIn Win) i n

/-! ## What the stretch leaves alone -/

/-- The arrays the stretch writes. -/
noncomputable def written : List (Ref sig .tc) :=
  [main_call0_v71, main_call0_v72, main_call0_v73, main_call0_v74, main_call0_c_17, main_call0_call6_v0,
   main_call0_call6_v1, main_call0_call6_v2, main_call0_call6_v3, main_call0_call6_v4, main_call0_call6_v5,
   main_call0_call6_v6, main_call0_call6_v7, main_call0_call6_v8, main_call0_call6_c, main_call0_call6_v9,
   main_call0_call6_v10, main_call0_call6_v11, main_call0_call6_c_0, main_call0_call6_v12, main_call0_call6_v13,
   main_call0_v75, main_call0_c_18, main_call0_v76, main_call0_v77, main_call0_c_19, main_call0_call7_v0,
   main_call0_call7_c, main_call0_call7_v1, main_call0_call7_c_0, main_call0_call7_v2, main_call0_call7_v3,
   main_call0_call7_v4, main_call0_call7_c_1, main_call0_call7_v5, main_call0_call7_v6, main_call0_call7_c_2,
   main_call0_call7_v7, main_call0_call7_v8, main_call0_call7_c_3, main_call0_call7_v9, main_call0_call7_v10,
   main_call0_call7_v11, main_call0_call7_v12, main_call0_call7_v13, main_call0_call7_v14, main_call0_v78,
   main_call0_c_20, main_call0_v79, main_call0_v80, main_call0_v81, main_call0_cst_21, main_call0_v82,
   main_call0_v83, main_call0_v84]

/-- An array the stretch does not write holds after it what it held before. -/
theorem keep (r : Ref sig .tc) (hr : r ∉ written) : Wout (Proc.devRef .tc r) = Win (Proc.devRef .tc r) := by
  refine after_of_writes_sub (W := written) hostOps4 Win ?_ hr
  simp only [hostOps4, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v70 : Wout (Proc.devRef .tc main_call0_v70) = Win (Proc.devRef .tc main_call0_v70) := keep Win _ (by decide)
theorem keep_arg5 : Wout (Proc.devRef .tc main_arg5) = Win (Proc.devRef .tc main_arg5) := keep Win _ (by decide)

end Cert.KernelIdeal.Str4

end
-- ==== Proof.KRow4.lean ====
/-
  The update kernel's body at level 7 (blocks of 1024 rows), read at one element.

  The body's five payloads, over variables of the block shapes: the pre-activation [1024,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 1024; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg4

open Cert.KernelIdeal Cert.KernelIdeal.Gen Cert.TreeLstm
open Idealize.ShloMosaic Idealize.ShloMosaic.ValueIdx

/-! ## The two contractions at an index -/

/-- [1024,256] × [256,768] into zeros, at (r, n): the sum over the 256 contracted coordinates. -/
theorem matmul_1024x256_256x768_apply (a : FVec Ideal S1024x256 .bf16) (b : FVec Ideal S256x768 .bf16) (r : Fin 1024) (n : Fin 768) :
    matmul dot_S1024x256_S256x768_S1024x768_1_0_0_1_n_n none a b (constant (F := Ideal) S1024x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x768_S1024x768_1_0_0_1_n_n 256 rfl rfl).symm]
  refine Finset.sum_congr rfl fun k _ => ?_
  have ck := contrEquiv1_symm_val dot_S1024x256_S256x768_S1024x768_1_0_0_1_n_n 256 rfl rfl k
  have l2 : dot_S1024x256_S256x768_S1024x768_1_0_0_1_n_n.lhsIdx (ix2 r n)
      ((contrEquiv1 dot_S1024x256_S256x768_S1024x768_1_0_0_1_n_n 256 rfl rfl).symm k) = ix2 r k := by
    funext ax; apply Fin.ext
    match ax with
    | ⟨0, _⟩ => simp [DotDims.lhsIdx, dot_S1024x256_S256x768_S1024x768_1_0_0_1_n_n]; rfl
    | ⟨1, _⟩ => simp [DotDims.lhsIdx, dot_S1024x256_S256x768_S1024x768_1_0_0_1_n_n]; exact ck
  have r2 : dot_S1024x256_S256x768_S1024x768_1_0_0_1_n_n.rhsIdx (ix2 r n)
      ((contrEquiv1 dot_S1024x256_S256x768_S1024x768_1_0_0_1_n_n 256 rfl rfl).symm k) = ix2 k n := by
    funext ax; apply Fin.ext
    match ax with
    | ⟨0, _⟩ => simp [DotDims.rhsIdx, dot_S1024x256_S256x768_S1024x768_1_0_0_1_n_n]; exact ck
    | ⟨1, _⟩ => simp [DotDims.rhsIdx, dot_S1024x256_S256x768_S1024x768_1_0_0_1_n_n]; rfl
  rw [l2, r2]

/-- [1024,256] × [256,256] into zeros, at (r, n): the sum over the 256 contracted coordinates. -/
theorem matmul_1024x256_256x256_apply (a : FVec Ideal S1024x256 .bf16) (b : FVec Ideal S256x256 .bf16) (r : Fin 1024) (n : Fin 256) :
    matmul dot_S1024x256_S256x256_S1024x256_1_0_0_1_n_n none a b (constant (F := Ideal) S1024x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x256_S1024x256_1_0_0_1_n_n 256 rfl rfl).symm]
  refine Finset.sum_congr rfl fun k _ => ?_
  have ck := contrEquiv1_symm_val dot_S1024x256_S256x256_S1024x256_1_0_0_1_n_n 256 rfl rfl k
  have l2 : dot_S1024x256_S256x256_S1024x256_1_0_0_1_n_n.lhsIdx (ix2 r n)
      ((contrEquiv1 dot_S1024x256_S256x256_S1024x256_1_0_0_1_n_n 256 rfl rfl).symm k) = ix2 r k := by
    funext ax; apply Fin.ext
    match ax with
    | ⟨0, _⟩ => simp [DotDims.lhsIdx, dot_S1024x256_S256x256_S1024x256_1_0_0_1_n_n]; rfl
    | ⟨1, _⟩ => simp [DotDims.lhsIdx, dot_S1024x256_S256x256_S1024x256_1_0_0_1_n_n]; exact ck
  have r2 : dot_S1024x256_S256x256_S1024x256_1_0_0_1_n_n.rhsIdx (ix2 r n)
      ((contrEquiv1 dot_S1024x256_S256x256_S1024x256_1_0_0_1_n_n 256 rfl rfl).symm k) = ix2 k n := by
    funext ax; apply Fin.ext
    match ax with
    | ⟨0, _⟩ => simp [DotDims.rhsIdx, dot_S1024x256_S256x256_S1024x256_1_0_0_1_n_n]; exact ck
    | ⟨1, _⟩ => simp [DotDims.rhsIdx, dot_S1024x256_S256x256_S1024x256_1_0_0_1_n_n]; rfl
  rw [l2, r2]

/-! ## The payloads at an index -/

/-- The pre-activation at (r, n): (x·Wt + b) + h̃·Ut. -/
theorem pay2_apply (v0 : Vec Ideal S1024x256 .bf16) (v2 : Vec Ideal S256x768 .bf16) (v5 : Vec Ideal S1x768 .f32)
    (v8 : Vec Ideal S1024x256 .f32) (v13 : Vec Ideal S256x768 .bf16) (r : Fin 1024) (n : Fin 768) :
    k4_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k4_pay2
  simp only [shapeCast_self]
  refine (addf_apply _ _ _).trans ?_
  refine congrArg₂ (· + ·) ((addf_apply _ _ _).trans (congrArg₂ (· + ·) ?_ ?_)) ?_
  · exact matmul_1024x256_256x768_apply v0 v2 r n
  · exact broadcastTo_1b_ab_apply v5 broadcasts_S1x768_S1024x768 r n
  · exact matmul_1024x256_256x768_apply _ v13 r n

/-- The cell state at (r, j): logistic z₀ * tanh z₂ + c̃. -/
theorem pay3_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k4_pay3 v0 v2 v5 v8 v10 v13 (ix2 r j)
      = Ideal.logistic (k4_pay2 v0 v2 v5 v8 v13 (ix2 r (c0 j))) * Ideal.tanh (k4_pay2 v0 v2 v5 v8 v13 (ix2 r (c2 j)))
        + v10 (ix2 r j) := by
  unfold k4_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k4_pay2 v0 v2 v5 v8 v13) slices_S1024x768_o0_0_S1024x256 r j (c0 j) (Nat.zero_add _).symm)
  · exact congrArg Ideal.tanh
      (slice2_axis1_apply 512 (k4_pay2 v0 v2 v5 v8 v13) slices_S1024x768_o0_512_S1024x256 r j (c2 j) rfl)

/-- The hidden state at (r, j): logistic z₁ * tanh c. -/
theorem pay4_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k4_pay4 v0 v2 v5 v8 v10 v13 (ix2 r j)
      = Ideal.logistic (k4_pay2 v0 v2 v5 v8 v13 (ix2 r (c1 j))) * Ideal.tanh (k4_pay3 v0 v2 v5 v8 v10 v13 (ix2 r j)) := by
  unfold k4_pay4
  refine (mulf_apply _ _ _).trans (congrArg₂ (· * ·) ?_ rfl)
  exact congrArg Ideal.logistic
    (slice2_axis1_apply 256 (k4_pay2 v0 v2 v5 v8 v13) slices_S1024x768_o0_256_S1024x256 r j (c1 j) rfl)

/-- The forget gate of the hidden state just computed, at (r, j): logistic (h·Uft + bF). -/
theorem pay5_apply (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024) (j : Fin 256) :
    k4_pay5 v0 v2 v5 v8 v10 v13 v28 v31 (ix2 r j)
      = Ideal.logistic ((∑ k : Fin 256, k4_pay4 v0 v2 v5 v8 v10 v13 (ix2 r k) * v28 (ix2 k j)) + v31 (ix2 (0 : Fin 1) j)) := by
  unfold k4_pay5
  simp only [shapeCast_self]
  refine congrArg Ideal.logistic ((addf_apply _ _ _).trans (congrArg₂ (· + ·) ?_ ?_))
  · exact matmul_1024x256_256x256_apply _ v28 r j
  · exact broadcastTo_1b_ab_apply v31 broadcasts_S1x256_S1024x256 r j

/-- The right half's stored value at (r, j): the gate times the cell state. -/
theorem pay1_apply (v23 v35 : FVec Ideal S1024x256 .f32) (r : Fin 1024) (j : Fin 256) :
    k4_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k4_pay4 v0 v2 v5 v8 v10 v13 (ix2 r j) = kerH w X agg i j
    ∧ k4_pay1 (k4_pay3 v0 v2 v5 v8 v10 v13) (k4_pay5 v0 v2 v5 v8 v10 v13 v28 v31) (ix2 r j)
        = fgateRow w (kerH w X agg i) j * kerC w X agg i j := by
  have hz : ∀ n : Fin 768, k4_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k4_pay3 v0 v2 v5 v8 v10 v13 (ix2 r j) = kerC w X agg i j := fun j => by
    rw [pay3_apply, hz, hz, h10]; rfl
  have hh : ∀ j : Fin 256, k4_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg4

end
-- ==== Proof.KReg4.lean ====
/-
  Region 4 of the kernel's run — the update kernel at level 7: 4096 nodes, 4 grid points, blocks of 1024 rows —:
  the output array main_call0_v85 : [4096,512] after the region, element by element, for ANY contents V at the
  region's entry.

  What the body leaves in the output block, at (r, lo j) and at (r, hi j): the two stores cover columns 0..255 and
  256..511, the later one listed first; the agg block is loaded in its two halves. One row of a block is one node:
  row r of point t's blocks is row 1024 * t + r of the arrays X = main_call0_v72 and agg = main_call0_v84, the weight
  windows' blocks are their whole arrays. So point t writes back block t of the level's packed array
  [kerH | fgateRow (kerH) * kerC]; the 4 blocks tile the array; hence the array after the region is that packed array.
-/
import proofs.«419362_j66683662237734_3_alg».proof.Proof.KernelIdealFrameP
import proofs.«419362_j66683662237734_3_alg».proof.Proof.KRow4
import Idealize.ShloMosaic.Lib.Pipeline.Value

set_option maxRecDepth 16384

noncomputable section

open scoped BigOperators

namespace Cert.KernelIdeal.Reg4

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S1024x512 .f32) (r : Fin 1024) (k : Fin 256) :
    (View.ld x3 r4_3 : Vec Ideal S1024x256 .f32) (ix2 r k) = x3 (ix2 r (lo k)) := by
  show x3 (r4_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S1024x512 .f32) (r : Fin 1024) (k : Fin 256) :
    (View.ld x3 r4_4 : Vec Ideal S1024x256 .f32) (ix2 r k) = x3 (ix2 r (hi k)) := by
  show x3 (r4_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 1024) (j : Fin 256) : (ix2 r (lo j) : S1024x512.Idx) = r4_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 1024) (j : Fin 256) : (ix2 r (hi j) : S1024x512.Idx) = r4_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S1024x256 .f32) (r : Fin 1024) (j : Fin 256) :
    View.canon [(⟨r4_4, p1⟩ : View.Piece (Elt Ideal) S1024x512 .f32), ⟨r4_3, p0⟩] (ix2 r (lo j)) = p0 (ix2 r j) := by
  have hnot : (ix2 r (lo j) : S1024x512.Idx) ∉ (⟨r4_4, p1⟩ : View.Piece (Elt Ideal) S1024x512 .f32).1.set := by
    show (ix2 r (lo j) : S1024x512.Idx) ∉ r4_4.set
    rw [Rect.mem_set_unit]
    intro h
    have h1 : 256 ≤ j.val := (h 1).1
    have := j.isLt
    omega
  rw [View.canon_cons_of_not_mem (⟨r4_4, p1⟩ : View.Piece (Elt Ideal) S1024x512 .f32) [⟨r4_3, p0⟩] hnot, emb_left r j]
  exact View.canon_cons_emb r4_3 p0 [] (ix2 r j)

/-- At column hi j the right store's payload shows. -/
theorem canon2_right (p1 p0 : Vec Ideal S1024x256 .f32) (r : Fin 1024) (j : Fin 256) :
    View.canon [(⟨r4_4, p1⟩ : View.Piece (Elt Ideal) S1024x512 .f32), ⟨r4_3, p0⟩] (ix2 r (hi j)) = p1 (ix2 r j) := by
  rw [emb_right r j]
  exact View.canon_cons_emb r4_4 p1 [⟨r4_3, p0⟩] (ix2 r j)

/-- The left half of the output block holds the hidden state's payload. -/
theorem out4_7_left (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out4_7 x0 x1 x2 x3 x4 x5 x6 (ix2 r (lo j))
      = k4_pay4 x0 x1 x2 (View.ld x3 r4_3) (View.ld x3 r4_4) x4 (ix2 r j) := by
  unfold out4_7
  simp only [View.ld_unit_zero (S := S1024x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out4_7_right (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out4_7 x0 x1 x2 x3 x4 x5 x6 (ix2 r (hi j))
      = k4_pay1 (k4_pay3 x0 x1 x2 (View.ld x3 r4_3) (View.ld x3 r4_4) x4)
          (k4_pay5 x0 x1 x2 (View.ld x3 r4_3) (View.ld x3 r4_4) x4 x5 x6) (ix2 r j) := by
  unfold out4_7
  simp only [View.ld_unit_zero (S := S1024x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 4096 256) (agg : A2 4096 512) : A2 4096 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 4096 256) (agg : A2 4096 512) (i : Fin 4096) (j : Fin 256) :
    packed w X agg (ix2 i (lo j)) = kerH w X agg i j := by
  unfold packed
  exact dif_pos j.isLt

theorem packed_hi (w : Wts) (X : A2 4096 256) (agg : A2 4096 512) (i : Fin 4096) (j : Fin 256) :
    packed w X agg (ix2 i (hi j)) = fgateRow w (kerH w X agg i) j * kerC w X agg i j := by
  have hn : ¬ ((ix2 i (hi j) : (⟨2, ![4096, 512]⟩ : Shape).Idx) 1).val < 256 := by
    show ¬ (256 + j.val < 256); omega
  have e : ∀ h, (⟨((ix2 i (hi j) : (⟨2, ![4096, 512]⟩ : Shape).Idx) 1).val - 256, h⟩ : Fin 256) = j :=
    fun h => Fin.ext (by show 256 + j.val - 256 = j.val; omega)
  unfold packed
  rw [dif_neg hn, e]

/-- One block at an index: if row r of the blocks is row 1024 * T + r of X and agg and the weight blocks hold the
    transposed weights, the output block at y is the packed array at g, where g is y moved down 1024 * T rows. -/
theorem block_at (w : Wts) (X : A2 4096 256) (agg : A2 4096 512)
    (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (T : Nat)
    (h0 : ∀ (r : Fin 1024) (k : Fin 256) (i : Fin 4096), i.val = 1024 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 1024) (q : Fin 512) (i : Fin 4096), i.val = 1024 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S1024x512.Idx) (g : S4096x512.Idx) (hg0 : (g 0).val = 1024 * T + (y 0).val) (hg1 : (g 1).val = (y 1).val) :
    out4_7 x0 x1 x2 x3 x4 x5 x6 y = packed w X agg g := by
  obtain ⟨r, q, rfl⟩ : ∃ (r : Fin 1024) (q : Fin 512), y = ix2 r q := ⟨y 0, y 1, eq_ix2 y⟩
  obtain ⟨i, q', rfl⟩ : ∃ (i : Fin 4096) (q' : Fin 512), g = ix2 i q' := ⟨g 0, g 1, eq_ix2 g⟩
  have hir : i.val = 1024 * T + r.val := hg0
  obtain rfl : q' = q := Fin.ext hg1
  have hrow := fun j : Fin 256 => row w X agg i x0 x1 x2 (View.ld x3 r4_3) (View.ld x3 r4_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out4_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out4_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 4096 256 := V c main_call0_v72
/-- The children's packed rows summed per node, as the region finds them. -/
abbrev aggarr (c : Dev nD) : A2 4096 512 := V c main_call0_v84

/-- The windows' blocks at point t, typed by their block shapes. -/
abbrev b0 (c : Dev nD) (t : Fin cfg4.N) : Vec Ideal S1024x256 .bf16 := iblk4 V c 0 t
abbrev b1 (c : Dev nD) (t : Fin cfg4.N) : Vec Ideal S256x768 .bf16 := iblk4 V c 1 t
abbrev b2 (c : Dev nD) (t : Fin cfg4.N) : Vec Ideal S1x768 .f32 := iblk4 V c 2 t
abbrev b3 (c : Dev nD) (t : Fin cfg4.N) : Vec Ideal S1024x512 .f32 := iblk4 V c 3 t
abbrev b4 (c : Dev nD) (t : Fin cfg4.N) : Vec Ideal S256x768 .bf16 := iblk4 V c 4 t
abbrev b5 (c : Dev nD) (t : Fin cfg4.N) : Vec Ideal S256x256 .bf16 := iblk4 V c 5 t
abbrev b6 (c : Dev nD) (t : Fin cfg4.N) : Vec Ideal S1x256 .f32 := iblk4 V c 6 t

/-- The printed index maps over the grid: the row windows 0, 3, 7 are at block (t, 0), the weight windows at (0, 0). -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row r of point t's X block is row 1024 * t + r of X. -/
theorem read0 (c : Dev nD) (t : Fin cfg4.N) (r : Fin 1024) (k : Fin 256) (i : Fin 4096) (hir : i.val = 1024 * t.val + r.val) :
    b0 V c t (ix2 r k) = Xarr V c (ix2 i k) := by
  obtain ⟨e0, e1, -⟩ := idx_facts t
  show ((cfg4.win 0).blk t).view.read (Elt Ideal) (V c main_call0_v72) (ix2 r k) = V c main_call0_v72 (ix2 i k)
  rw [View.read_apply]
  show V c main_call0_v72 _ = V c main_call0_v72 _
  refine congrArg (V c main_call0_v72) (funext fun a => Fin.ext ?_)
  match a with
  | ⟨0, _⟩ => show win4_0.index t (0 : Fin 2) * 1024 + 1 * r.val = i.val; rw [e0, hir]; omega
  | ⟨1, _⟩ => show win4_0.index t (1 : Fin 2) * 256 + 1 * k.val = k.val; rw [e1]; omega

/-- Row r of point t's agg block is row 1024 * t + r of agg. -/
theorem read3 (c : Dev nD) (t : Fin cfg4.N) (r : Fin 1024) (q : Fin 512) (i : Fin 4096) (hir : i.val = 1024 * t.val + r.val) :
    b3 V c t (ix2 r q) = aggarr V c (ix2 i q) := by
  obtain ⟨-, -, -, -, -, -, e0, e1, -⟩ := idx_facts t
  show ((cfg4.win 3).blk t).view.read (Elt Ideal) (V c main_call0_v84) (ix2 r q) = V c main_call0_v84 (ix2 i q)
  rw [View.read_apply]
  show V c main_call0_v84 _ = V c main_call0_v84 _
  refine congrArg (V c main_call0_v84) (funext fun a => Fin.ext ?_)
  match a with
  | ⟨0, _⟩ => show win4_3.index t (0 : Fin 2) * 1024 + 1 * r.val = i.val; rw [e0, hir]; omega
  | ⟨1, _⟩ => show win4_3.index t (1 : Fin 2) * 512 + 1 * q.val = q.val; rw [e1]; omega

/-- The W block at any point is the whole array main_call0_v12. -/
theorem read1 (c : Dev nD) (t : Fin cfg4.N) (k : Fin 256) (n : Fin 768) :
    b1 V c t (ix2 k n) = (V c main_call0_v12 : A2 256 768) (ix2 k n) := by
  obtain ⟨-, -, e0, e1, -⟩ := idx_facts t
  show ((cfg4.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win4_1.index t (0 : Fin 2) * 256 + 1 * k.val = k.val; rw [e0]; omega
  | ⟨1, _⟩ => show win4_1.index t (1 : Fin 2) * 768 + 1 * n.val = n.val; rw [e1]; omega

/-- The bias block at any point is the whole array main_arg5. -/
theorem read2 (c : Dev nD) (t : Fin cfg4.N) (z : Fin 1) (n : Fin 768) :
    b2 V c t (ix2 z n) = (V c main_arg5 : A2 1 768) (ix2 z n) := by
  obtain ⟨-, -, -, -, e0, e1, -⟩ := idx_facts t
  show ((cfg4.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win4_2.index t (0 : Fin 2) * 1 + 1 * z.val = z.val; rw [e0]; omega
  | ⟨1, _⟩ => show win4_2.index t (1 : Fin 2) * 768 + 1 * n.val = n.val; rw [e1]; omega

/-- The U block at any point is the whole array main_call0_v16. -/
theorem read4 (c : Dev nD) (t : Fin cfg4.N) (k : Fin 256) (n : Fin 768) :
    b4 V c t (ix2 k n) = (V c main_call0_v16 : A2 256 768) (ix2 k n) := by
  obtain ⟨-, -, -, -, -, -, -, -, e0, e1, -⟩ := idx_facts t
  show ((cfg4.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win4_4.index t (0 : Fin 2) * 256 + 1 * k.val = k.val; rw [e0]; omega
  | ⟨1, _⟩ => show win4_4.index t (1 : Fin 2) * 768 + 1 * n.val = n.val; rw [e1]; omega

/-- The U_f block at any point is the whole array main_call0_v14. -/
theorem read5 (c : Dev nD) (t : Fin cfg4.N) (k j : Fin 256) :
    b5 V c t (ix2 k j) = (V c main_call0_v14 : A2 256 256) (ix2 k j) := by
  obtain ⟨-, -, -, -, -, -, -, -, -, -, e0, e1, -⟩ := idx_facts t
  show ((cfg4.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win4_5.index t (0 : Fin 2) * 256 + 1 * k.val = k.val; rw [e0]; omega
  | ⟨1, _⟩ => show win4_5.index t (1 : Fin 2) * 256 + 1 * j.val = j.val; rw [e1]; omega

/-- The b_f block at any point is the whole array main_call0_v19. -/
theorem read6 (c : Dev nD) (t : Fin cfg4.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg4.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win4_6.index t (0 : Fin 2) * 1 + 1 * z.val = z.val; rw [e0]; omega
  | ⟨1, _⟩ => show win4_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg4.N) :
    (dat4 V c).flushed 7 t = ((cfg4.win 7).blk t).view.read (Elt Ideal) (packed w (Xarr V c) (aggarr V c)) := by
  show (cfg4.win 7).cut (grid4.coords t) ((dat4 V c).after 7 t) = _
  rw [after4_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg4.win 7).xinj (grid4.coords t) y) (((cfg4.win 7).blk t).view.emb y)
    (by show win4_7.index t (0 : Fin 2) * 1024 + 1 * (y 0).val = 1024 * t.val + (y 0).val; rw [e0]; omega)
    (by show win4_7.index t (1 : Fin 2) * 512 + 1 * (y 1).val = (y 1).val; rw [e1]; omega)

/-- An index of the array is in point t's block iff each coordinate is in the block's range on its axis. -/
theorem mem_blk (t : Fin cfg4.N) (i : S4096x512.Idx) :
    i ∈ ((cfg4.win 7).blk t).view.set ↔ ∀ a : Fin 2, win4_7.index t a * S1024x512.size a ≤ (i a).val
      ∧ (i a).val < win4_7.index t a * S1024x512.size a + S1024x512.size a := by
  show i ∈ ((View.whole main_call0_v85).slice (win4_7.rect t)).set ↔ _
  rw [View.set_slice_whole, Rect.mem_set_unit]
  exact Iff.rfl

/-- The 4 blocks of 1024 rows tile the array: row i is in the block of point i / 1024. -/
theorem cover (i : S4096x512.Idx) : ∃ t : Fin cfg4.N, (cfg4.win 7).flush t = true ∧ i ∈ ((cfg4.win 7).blk t).view.set := by
  have hi0 : (i 0).val < 4096 := idx2_lt0 i
  have hi1 : (i 1).val < 512 := idx2_lt1 i
  refine ⟨⟨(i 0).val / 1024, by rw [show cfg4.N = 4 from N_4]; omega⟩, flush4_7 _, ?_⟩
  rw [mem_blk]
  obtain ⟨-, -, -, -, -, -, -, -, -, -, -, -, -, -, e0, e1⟩ := idx_facts ⟨(i 0).val / 1024, by rw [show cfg4.N = 4 from N_4]; omega⟩
  intro a
  match a with
  | ⟨0, _⟩ =>
    show win4_7.index _ (0 : Fin 2) * 1024 ≤ (i 0).val ∧ (i 0).val < win4_7.index _ (0 : Fin 2) * 1024 + 1024
    rw [e0]; show (i 0).val / 1024 * 1024 ≤ (i 0).val ∧ (i 0).val < (i 0).val / 1024 * 1024 + 1024; omega
  | ⟨1, _⟩ =>
    show win4_7.index _ (1 : Fin 2) * 512 ≤ (i 1).val ∧ (i 1).val < win4_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat4 V c).arrAt 7 cfg4.N = packed w (Xarr V c) (aggarr V c) :=
  (dat4 V c).arrAt_eq_of_cover 7 (packed w (Xarr V c) (aggarr V c))
    (fun t _ => flushed_eq V c w hWt hb hUt hUft hbF t) (cover)

/-- THE VALUE OF THE REGION: after it, row i of main_call0_v85 is [kerH | fgateRow (kerH) * kerC] of node i. -/
theorem region4_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 4096) (j : Fin 256) :
    ((dat4 V c).arrAt 7 cfg4.N : A2 4096 512) (ix2 i (lo j)) = kerH w (Xarr V c) (aggarr V c) i j
    ∧ ((dat4 V c).arrAt 7 cfg4.N : A2 4096 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg4

end
-- ==== Proof.KStr5.lean ====
/-
  The host arithmetic before the level with 64 nodes per graph of the fused kernel, read off the program.

  From the contents at the stretch's entry it cuts the level's window of the token rows (64 rows of each graph from
  row 63 on, flattened to 2048 rows) and the children's parent ids (128 entries of each graph from entry 127 on,
  flattened to 4096), turns each parent id `p` into the parent's slot `(p div 4095) * 64 + (p mod 4095 - 63)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str5

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps5 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S4096x512 .f32 := Win (Proc.devRef .tc main_call0_v85)
abbrev xOut : Vec Ideal S2048x256 .bf16 := Wout (Proc.devRef .tc main_call0_v87)
abbrev pOut : IVec S4096 32 := Wout (Proc.devRef .tc main_call0_v89)
abbrev segOut : IVec S4096 32 := Wout (Proc.devRef .tc main_call0_v96)
abbrev aggOut : Vec Ideal S2048x512 .f32 := Wout (Proc.devRef .tc main_call0_v99)

/-- The parent's slot from the parent's node id `p`: `(p div 4095) * 64 + (p mod 4095 - 63)`, the flooring
    quotient and the non-negative remainder written through the truncating ones as the program writes them. -/
def segFun (p : IVec S4096 32) : IVec S4096 32 :=
  addi
    (muli
      (select (andi (cmpi .ne (signi p) (broadcastInDim S4096 ![] bcast_S_S4096 (signi (id (constantI S_ 32 4095#32))))) (cmpi .ne (Host.remsi p (broadcastInDim S4096 ![] bcast_S_S4096 (id (constantI S_ 32 4095#32)))) (broadcastInDim S4096 ![] bcast_S_S4096 (constantI S_ 32 0#32))))
        (subi (Host.divsi p (broadcastInDim S4096 ![] bcast_S_S4096 (id (constantI S_ 32 4095#32)))) (broadcastInDim S4096 ![] bcast_S_S4096 (constantI S_ 32 1#32)))
        (Host.divsi p (broadcastInDim S4096 ![] bcast_S_S4096 (id (constantI S_ 32 4095#32)))))
      (broadcastInDim S4096 ![] bcast_S_S4096 (constantI S_ 32 64#32)))
    (subi
      (select (andi (cmpi .ne (cmpi .slt (Host.remsi p (broadcastInDim S4096 ![] bcast_S_S4096 (select (cmpi .eq (id (constantI S_ 32 4095#32)) (constantI S_ 32 0#32)) (constantI S_ 32 1#32) (id (constantI S_ 32 4095#32))))) (broadcastInDim S4096 ![] bcast_S_S4096 (constantI S_ 32 0#32))) (broadcastInDim S4096 ![] bcast_S_S4096 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S4096 ![] bcast_S_S4096 (select (cmpi .eq (id (constantI S_ 32 4095#32)) (constantI S_ 32 0#32)) (constantI S_ 32 1#32) (id (constantI S_ 32 4095#32))))) (broadcastInDim S4096 ![] bcast_S_S4096 (constantI S_ 32 0#32))))
        (addi (Host.remsi p (broadcastInDim S4096 ![] bcast_S_S4096 (select (cmpi .eq (id (constantI S_ 32 4095#32)) (constantI S_ 32 0#32)) (constantI S_ 32 1#32) (id (constantI S_ 32 4095#32))))) (broadcastInDim S4096 ![] bcast_S_S4096 (select (cmpi .eq (id (constantI S_ 32 4095#32)) (constantI S_ 32 0#32)) (constantI S_ 32 1#32) (id (constantI S_ 32 4095#32)))))
        (Host.remsi p (broadcastInDim S4096 ![] bcast_S_S4096 (select (cmpi .eq (id (constantI S_ 32 4095#32)) (constantI S_ 32 0#32)) (constantI S_ 32 1#32) (id (constantI S_ 32 4095#32))))))
      (broadcastInDim S4096 ![] bcast_S_S4096 (constantI S_ 32 63#32)))

/-- The level's token window: flat row `i` is row `63 + i % 64` of graph `i / 64`. -/
theorem x_apply (i : Fin 2048) (k : Fin 256) :
    xOut Win (ix2 i k)
      = tokIn Win (ix3 ⟨i.val / 64, by omega⟩ ⟨63 + i.val % 64, by omega⟩ k) := by
  have e : xOut Win = shapeCast S2048x256 (extractStridedSlice S32x64x256 ![0, 63, 0] (tokIn Win)
      slices_S32x4095x256_S32x64x256_0_63_0) shapeCasts_S32x64x256_S2048x256 := by
    dsimp only [xOut, tokIn, hostOps5]
    after_results_simp
    rfl
  rw [e]
  exact flat3_slice_apply 63 (tokIn Win) _ _ i k (by decide) _ _

/-- The children's parent ids: entry `q` is entry `127 + q % 128` of graph `q / 128`. -/
theorem p_apply (q : Fin 4096) :
    pOut Win (ix1 q)
      = parIn Win (ix2 ⟨q.val / 128, by omega⟩ ⟨127 + q.val % 128, by omega⟩) := by
  have e : pOut Win = shapeCast S4096 (extractStridedSlice S32x128 ![0, 127] (parIn Win)
      slices_S32x4095_S32x128_0_127) shapeCasts_S32x128_S4096 := by
    dsimp only [pOut, parIn, hostOps5]
    after_results_simp
    rfl
  rw [e]
  exact flat2_slice_apply 127 (parIn Win) _ _ q (by decide) _ _

/-- The slot numbers are `segFun` of the parent ids. -/
theorem seg_eq :
    segOut Win = segFun (pOut Win) := by
  dsimp only [segOut, pOut, hostOps5]
  after_results_simp
  rfl

/-- The per-slot sums, as the scatter that computes them. -/
theorem agg_eq :
    aggOut Win
      = Host.scatterAdd (F := Ideal) scatter_S2048x512_S4096x1_S4096x512_1_0_0_1
          (broadcastInDim S2048x512 ![] bcast_S_S2048x512 (constant (F := Ideal) S_ .f32 0x00000000#32))
          (broadcastInDim S4096x1 ![0] bcast_S4096_S4096x1_0 (segOut Win))
          (hcIn Win) := by
  dsimp only [aggOut, segOut, hcIn, hostOps5]
  after_results_simp
  rfl

/-- Slot `i` holds the sum of the packed rows of the children routed to it. -/
theorem agg_apply (i : Fin 2048) (n : Fin 512) :
    aggOut Win (ix2 i n)
      = ∑ k ∈ kids (fun k : Fin 4096 => rowTarget 2048 (segOut Win (ix1 k))) i, hcIn Win (ix2 k n) := by
  rw [agg_eq]
  exact segsum_apply scatter_S2048x512_S4096x1_S4096x512_1_0_0_1 ⟨rfl, rfl, rfl, rfl⟩ _ bcast_S_S2048x512
    bcast_S4096_S4096x1_0 (segOut Win) (hcIn Win) i n

/-! ## What the stretch leaves alone -/

/-- The arrays the stretch writes. -/
noncomputable def written : List (Ref sig .tc) :=
  [main_call0_v86, main_call0_v87, main_call0_v88, main_call0_v89, main_call0_c_22, main_call0_call8_v0,
   main_call0_call8_v1, main_call0_call8_v2, main_call0_call8_v3, main_call0_call8_v4, main_call0_call8_v5,
   main_call0_call8_v6, main_call0_call8_v7, main_call0_call8_v8, main_call0_call8_c, main_call0_call8_v9,
   main_call0_call8_v10, main_call0_call8_v11, main_call0_call8_c_0, main_call0_call8_v12, main_call0_call8_v13,
   main_call0_v90, main_call0_c_23, main_call0_v91, main_call0_v92, main_call0_c_24, main_call0_call9_v0,
   main_call0_call9_c, main_call0_call9_v1, main_call0_call9_c_0, main_call0_call9_v2, main_call0_call9_v3,
   main_call0_call9_v4, main_call0_call9_c_1, main_call0_call9_v5, main_call0_call9_v6, main_call0_call9_c_2,
   main_call0_call9_v7, main_call0_call9_v8, main_call0_call9_c_3, main_call0_call9_v9, main_call0_call9_v10,
   main_call0_call9_v11, main_call0_call9_v12, main_call0_call9_v13, main_call0_call9_v14, main_call0_v93,
   main_call0_c_25, main_call0_v94, main_call0_v95, main_call0_v96, main_call0_cst_26, main_call0_v97,
   main_call0_v98, main_call0_v99]

/-- An array the stretch does not write holds after it what it held before. -/
theorem keep (r : Ref sig .tc) (hr : r ∉ written) : Wout (Proc.devRef .tc r) = Win (Proc.devRef .tc r) := by
  refine after_of_writes_sub (W := written) hostOps5 Win ?_ hr
  simp only [hostOps5, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v85 : Wout (Proc.devRef .tc main_call0_v85) = Win (Proc.devRef .tc main_call0_v85) := keep Win _ (by decide)
theorem keep_arg5 : Wout (Proc.devRef .tc main_arg5) = Win (Proc.devRef .tc main_arg5) := keep Win _ (by decide)

end Cert.KernelIdeal.Str5

end
-- ==== Proof.KRow5.lean ====
/-
  The update kernel's body at level 6 (blocks of 1024 rows), read at one element.

  The body's five payloads, over variables of the block shapes: the pre-activation [1024,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 1024; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg5

open Cert.KernelIdeal Cert.KernelIdeal.Gen Cert.TreeLstm
open Idealize.ShloMosaic Idealize.ShloMosaic.ValueIdx

/-! ## The two contractions at an index -/

/-- [1024,256] × [256,768] into zeros, at (r, n): the sum over the 256 contracted coordinates. -/
theorem matmul_1024x256_256x768_apply (a : FVec Ideal S1024x256 .bf16) (b : FVec Ideal S256x768 .bf16) (r : Fin 1024) (n : Fin 768) :
    matmul dot_S1024x256_S256x768_S1024x768_1_0_0_1_n_n none a b (constant (F := Ideal) S1024x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x768_S1024x768_1_0_0_1_n_n 256 rfl rfl).symm]
  refine Finset.sum_congr rfl fun k _ => ?_
  have ck := contrEquiv1_symm_val dot_S1024x256_S256x768_S1024x768_1_0_0_1_n_n 256 rfl rfl k
  have l2 : dot_S1024x256_S256x768_S1024x768_1_0_0_1_n_n.lhsIdx (ix2 r n)
      ((contrEquiv1 dot_S1024x256_S256x768_S1024x768_1_0_0_1_n_n 256 rfl rfl).symm k) = ix2 r k := by
    funext ax; apply Fin.ext
    match ax with
    | ⟨0, _⟩ => simp [DotDims.lhsIdx, dot_S1024x256_S256x768_S1024x768_1_0_0_1_n_n]; rfl
    | ⟨1, _⟩ => simp [DotDims.lhsIdx, dot_S1024x256_S256x768_S1024x768_1_0_0_1_n_n]; exact ck
  have r2 : dot_S1024x256_S256x768_S1024x768_1_0_0_1_n_n.rhsIdx (ix2 r n)
      ((contrEquiv1 dot_S1024x256_S256x768_S1024x768_1_0_0_1_n_n 256 rfl rfl).symm k) = ix2 k n := by
    funext ax; apply Fin.ext
    match ax with
    | ⟨0, _⟩ => simp [DotDims.rhsIdx, dot_S1024x256_S256x768_S1024x768_1_0_0_1_n_n]; exact ck
    | ⟨1, _⟩ => simp [DotDims.rhsIdx, dot_S1024x256_S256x768_S1024x768_1_0_0_1_n_n]; rfl
  rw [l2, r2]

/-- [1024,256] × [256,256] into zeros, at (r, n): the sum over the 256 contracted coordinates. -/
theorem matmul_1024x256_256x256_apply (a : FVec Ideal S1024x256 .bf16) (b : FVec Ideal S256x256 .bf16) (r : Fin 1024) (n : Fin 256) :
    matmul dot_S1024x256_S256x256_S1024x256_1_0_0_1_n_n none a b (constant (F := Ideal) S1024x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x256_S1024x256_1_0_0_1_n_n 256 rfl rfl).symm]
  refine Finset.sum_congr rfl fun k _ => ?_
  have ck := contrEquiv1_symm_val dot_S1024x256_S256x256_S1024x256_1_0_0_1_n_n 256 rfl rfl k
  have l2 : dot_S1024x256_S256x256_S1024x256_1_0_0_1_n_n.lhsIdx (ix2 r n)
      ((contrEquiv1 dot_S1024x256_S256x256_S1024x256_1_0_0_1_n_n 256 rfl rfl).symm k) = ix2 r k := by
    funext ax; apply Fin.ext
    match ax with
    | ⟨0, _⟩ => simp [DotDims.lhsIdx, dot_S1024x256_S256x256_S1024x256_1_0_0_1_n_n]; rfl
    | ⟨1, _⟩ => simp [DotDims.lhsIdx, dot_S1024x256_S256x256_S1024x256_1_0_0_1_n_n]; exact ck
  have r2 : dot_S1024x256_S256x256_S1024x256_1_0_0_1_n_n.rhsIdx (ix2 r n)
      ((contrEquiv1 dot_S1024x256_S256x256_S1024x256_1_0_0_1_n_n 256 rfl rfl).symm k) = ix2 k n := by
    funext ax; apply Fin.ext
    match ax with
    | ⟨0, _⟩ => simp [DotDims.rhsIdx, dot_S1024x256_S256x256_S1024x256_1_0_0_1_n_n]; exact ck
    | ⟨1, _⟩ => simp [DotDims.rhsIdx, dot_S1024x256_S256x256_S1024x256_1_0_0_1_n_n]; rfl
  rw [l2, r2]

/-! ## The payloads at an index -/

/-- The pre-activation at (r, n): (x·Wt + b) + h̃·Ut. -/
theorem pay2_apply (v0 : Vec Ideal S1024x256 .bf16) (v2 : Vec Ideal S256x768 .bf16) (v5 : Vec Ideal S1x768 .f32)
    (v8 : Vec Ideal S1024x256 .f32) (v13 : Vec Ideal S256x768 .bf16) (r : Fin 1024) (n : Fin 768) :
    k5_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k5_pay2
  simp only [shapeCast_self]
  refine (addf_apply _ _ _).trans ?_
  refine congrArg₂ (· + ·) ((addf_apply _ _ _).trans (congrArg₂ (· + ·) ?_ ?_)) ?_
  · exact matmul_1024x256_256x768_apply v0 v2 r n
  · exact broadcastTo_1b_ab_apply v5 broadcasts_S1x768_S1024x768 r n
  · exact matmul_1024x256_256x768_apply _ v13 r n

/-- The cell state at (r, j): logistic z₀ * tanh z₂ + c̃. -/
theorem pay3_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k5_pay3 v0 v2 v5 v8 v10 v13 (ix2 r j)
      = Ideal.logistic (k5_pay2 v0 v2 v5 v8 v13 (ix2 r (c0 j))) * Ideal.tanh (k5_pay2 v0 v2 v5 v8 v13 (ix2 r (c2 j)))
        + v10 (ix2 r j) := by
  unfold k5_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k5_pay2 v0 v2 v5 v8 v13) slices_S1024x768_o0_0_S1024x256 r j (c0 j) (Nat.zero_add _).symm)
  · exact congrArg Ideal.tanh
      (slice2_axis1_apply 512 (k5_pay2 v0 v2 v5 v8 v13) slices_S1024x768_o0_512_S1024x256 r j (c2 j) rfl)

/-- The hidden state at (r, j): logistic z₁ * tanh c. -/
theorem pay4_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k5_pay4 v0 v2 v5 v8 v10 v13 (ix2 r j)
      = Ideal.logistic (k5_pay2 v0 v2 v5 v8 v13 (ix2 r (c1 j))) * Ideal.tanh (k5_pay3 v0 v2 v5 v8 v10 v13 (ix2 r j)) := by
  unfold k5_pay4
  refine (mulf_apply _ _ _).trans (congrArg₂ (· * ·) ?_ rfl)
  exact congrArg Ideal.logistic
    (slice2_axis1_apply 256 (k5_pay2 v0 v2 v5 v8 v13) slices_S1024x768_o0_256_S1024x256 r j (c1 j) rfl)

/-- The forget gate of the hidden state just computed, at (r, j): logistic (h·Uft + bF). -/
theorem pay5_apply (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024) (j : Fin 256) :
    k5_pay5 v0 v2 v5 v8 v10 v13 v28 v31 (ix2 r j)
      = Ideal.logistic ((∑ k : Fin 256, k5_pay4 v0 v2 v5 v8 v10 v13 (ix2 r k) * v28 (ix2 k j)) + v31 (ix2 (0 : Fin 1) j)) := by
  unfold k5_pay5
  simp only [shapeCast_self]
  refine congrArg Ideal.logistic ((addf_apply _ _ _).trans (congrArg₂ (· + ·) ?_ ?_))
  · exact matmul_1024x256_256x256_apply _ v28 r j
  · exact broadcastTo_1b_ab_apply v31 broadcasts_S1x256_S1024x256 r j

/-- The right half's stored value at (r, j): the gate times the cell state. -/
theorem pay1_apply (v23 v35 : FVec Ideal S1024x256 .f32) (r : Fin 1024) (j : Fin 256) :
    k5_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k5_pay4 v0 v2 v5 v8 v10 v13 (ix2 r j) = kerH w X agg i j
    ∧ k5_pay1 (k5_pay3 v0 v2 v5 v8 v10 v13) (k5_pay5 v0 v2 v5 v8 v10 v13 v28 v31) (ix2 r j)
        = fgateRow w (kerH w X agg i) j * kerC w X agg i j := by
  have hz : ∀ n : Fin 768, k5_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k5_pay3 v0 v2 v5 v8 v10 v13 (ix2 r j) = kerC w X agg i j := fun j => by
    rw [pay3_apply, hz, hz, h10]; rfl
  have hh : ∀ j : Fin 256, k5_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg5

end
-- ==== Proof.KReg5.lean ====
/-
  Region 5 of the kernel's run — the update kernel at level 6: 2048 nodes, 2 grid points, blocks of 1024 rows —:
  the output array main_call0_v100 : [2048,512] after the region, element by element, for ANY contents V at the
  region's entry.

  What the body leaves in the output block, at (r, lo j) and at (r, hi j): the two stores cover columns 0..255 and
  256..511, the later one listed first; the agg block is loaded in its two halves. One row of a block is one node:
  row r of point t's blocks is row 1024 * t + r of the arrays X = main_call0_v87 and agg = main_call0_v99, the weight
  windows' blocks are their whole arrays. So point t writes back block t of the level's packed array
  [kerH | fgateRow (kerH) * kerC]; the 2 blocks tile the array; hence the array after the region is that packed array.
-/
import proofs.«419362_j66683662237734_3_alg».proof.Proof.KernelIdealFrameP
import proofs.«419362_j66683662237734_3_alg».proof.Proof.KRow5
import Idealize.ShloMosaic.Lib.Pipeline.Value

set_option maxRecDepth 16384

noncomputable section

open scoped BigOperators

namespace Cert.KernelIdeal.Reg5

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S1024x512 .f32) (r : Fin 1024) (k : Fin 256) :
    (View.ld x3 r5_3 : Vec Ideal S1024x256 .f32) (ix2 r k) = x3 (ix2 r (lo k)) := by
  show x3 (r5_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S1024x512 .f32) (r : Fin 1024) (k : Fin 256) :
    (View.ld x3 r5_4 : Vec Ideal S1024x256 .f32) (ix2 r k) = x3 (ix2 r (hi k)) := by
  show x3 (r5_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 1024) (j : Fin 256) : (ix2 r (lo j) : S1024x512.Idx) = r5_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 1024) (j : Fin 256) : (ix2 r (hi j) : S1024x512.Idx) = r5_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S1024x256 .f32) (r : Fin 1024) (j : Fin 256) :
    View.canon [(⟨r5_4, p1⟩ : View.Piece (Elt Ideal) S1024x512 .f32), ⟨r5_3, p0⟩] (ix2 r (lo j)) = p0 (ix2 r j) := by
  have hnot : (ix2 r (lo j) : S1024x512.Idx) ∉ (⟨r5_4, p1⟩ : View.Piece (Elt Ideal) S1024x512 .f32).1.set := by
    show (ix2 r (lo j) : S1024x512.Idx) ∉ r5_4.set
    rw [Rect.mem_set_unit]
    intro h
    have h1 : 256 ≤ j.val := (h 1).1
    have := j.isLt
    omega
  rw [View.canon_cons_of_not_mem (⟨r5_4, p1⟩ : View.Piece (Elt Ideal) S1024x512 .f32) [⟨r5_3, p0⟩] hnot, emb_left r j]
  exact View.canon_cons_emb r5_3 p0 [] (ix2 r j)

/-- At column hi j the right store's payload shows. -/
theorem canon2_right (p1 p0 : Vec Ideal S1024x256 .f32) (r : Fin 1024) (j : Fin 256) :
    View.canon [(⟨r5_4, p1⟩ : View.Piece (Elt Ideal) S1024x512 .f32), ⟨r5_3, p0⟩] (ix2 r (hi j)) = p1 (ix2 r j) := by
  rw [emb_right r j]
  exact View.canon_cons_emb r5_4 p1 [⟨r5_3, p0⟩] (ix2 r j)

/-- The left half of the output block holds the hidden state's payload. -/
theorem out5_7_left (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out5_7 x0 x1 x2 x3 x4 x5 x6 (ix2 r (lo j))
      = k5_pay4 x0 x1 x2 (View.ld x3 r5_3) (View.ld x3 r5_4) x4 (ix2 r j) := by
  unfold out5_7
  simp only [View.ld_unit_zero (S := S1024x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out5_7_right (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out5_7 x0 x1 x2 x3 x4 x5 x6 (ix2 r (hi j))
      = k5_pay1 (k5_pay3 x0 x1 x2 (View.ld x3 r5_3) (View.ld x3 r5_4) x4)
          (k5_pay5 x0 x1 x2 (View.ld x3 r5_3) (View.ld x3 r5_4) x4 x5 x6) (ix2 r j) := by
  unfold out5_7
  simp only [View.ld_unit_zero (S := S1024x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 2048 256) (agg : A2 2048 512) : A2 2048 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 2048 256) (agg : A2 2048 512) (i : Fin 2048) (j : Fin 256) :
    packed w X agg (ix2 i (lo j)) = kerH w X agg i j := by
  unfold packed
  exact dif_pos j.isLt

theorem packed_hi (w : Wts) (X : A2 2048 256) (agg : A2 2048 512) (i : Fin 2048) (j : Fin 256) :
    packed w X agg (ix2 i (hi j)) = fgateRow w (kerH w X agg i) j * kerC w X agg i j := by
  have hn : ¬ ((ix2 i (hi j) : (⟨2, ![2048, 512]⟩ : Shape).Idx) 1).val < 256 := by
    show ¬ (256 + j.val < 256); omega
  have e : ∀ h, (⟨((ix2 i (hi j) : (⟨2, ![2048, 512]⟩ : Shape).Idx) 1).val - 256, h⟩ : Fin 256) = j :=
    fun h => Fin.ext (by show 256 + j.val - 256 = j.val; omega)
  unfold packed
  rw [dif_neg hn, e]

/-- One block at an index: if row r of the blocks is row 1024 * T + r of X and agg and the weight blocks hold the
    transposed weights, the output block at y is the packed array at g, where g is y moved down 1024 * T rows. -/
theorem block_at (w : Wts) (X : A2 2048 256) (agg : A2 2048 512)
    (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (T : Nat)
    (h0 : ∀ (r : Fin 1024) (k : Fin 256) (i : Fin 2048), i.val = 1024 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 1024) (q : Fin 512) (i : Fin 2048), i.val = 1024 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S1024x512.Idx) (g : S2048x512.Idx) (hg0 : (g 0).val = 1024 * T + (y 0).val) (hg1 : (g 1).val = (y 1).val) :
    out5_7 x0 x1 x2 x3 x4 x5 x6 y = packed w X agg g := by
  obtain ⟨r, q, rfl⟩ : ∃ (r : Fin 1024) (q : Fin 512), y = ix2 r q := ⟨y 0, y 1, eq_ix2 y⟩
  obtain ⟨i, q', rfl⟩ : ∃ (i : Fin 2048) (q' : Fin 512), g = ix2 i q' := ⟨g 0, g 1, eq_ix2 g⟩
  have hir : i.val = 1024 * T + r.val := hg0
  obtain rfl : q' = q := Fin.ext hg1
  have hrow := fun j : Fin 256 => row w X agg i x0 x1 x2 (View.ld x3 r5_3) (View.ld x3 r5_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out5_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out5_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 2048 256 := V c main_call0_v87
/-- The children's packed rows summed per node, as the region finds them. -/
abbrev aggarr (c : Dev nD) : A2 2048 512 := V c main_call0_v99

/-- The windows' blocks at point t, typed by their block shapes. -/
abbrev b0 (c : Dev nD) (t : Fin cfg5.N) : Vec Ideal S1024x256 .bf16 := iblk5 V c 0 t
abbrev b1 (c : Dev nD) (t : Fin cfg5.N) : Vec Ideal S256x768 .bf16 := iblk5 V c 1 t
abbrev b2 (c : Dev nD) (t : Fin cfg5.N) : Vec Ideal S1x768 .f32 := iblk5 V c 2 t
abbrev b3 (c : Dev nD) (t : Fin cfg5.N) : Vec Ideal S1024x512 .f32 := iblk5 V c 3 t
abbrev b4 (c : Dev nD) (t : Fin cfg5.N) : Vec Ideal S256x768 .bf16 := iblk5 V c 4 t
abbrev b5 (c : Dev nD) (t : Fin cfg5.N) : Vec Ideal S256x256 .bf16 := iblk5 V c 5 t
abbrev b6 (c : Dev nD) (t : Fin cfg5.N) : Vec Ideal S1x256 .f32 := iblk5 V c 6 t

/-- The printed index maps over the grid: the row windows 0, 3, 7 are at block (t, 0), the weight windows at (0, 0). -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Row r of point t's X block is row 1024 * t + r of X. -/
theorem read0 (c : Dev nD) (t : Fin cfg5.N) (r : Fin 1024) (k : Fin 256) (i : Fin 2048) (hir : i.val = 1024 * t.val + r.val) :
    b0 V c t (ix2 r k) = Xarr V c (ix2 i k) := by
  obtain ⟨e0, e1, -⟩ := idx_facts t
  show ((cfg5.win 0).blk t).view.read (Elt Ideal) (V c main_call0_v87) (ix2 r k) = V c main_call0_v87 (ix2 i k)
  rw [View.read_apply]
  show V c main_call0_v87 _ = V c main_call0_v87 _
  refine congrArg (V c main_call0_v87) (funext fun a => Fin.ext ?_)
  match a with
  | ⟨0, _⟩ => show win5_0.index t (0 : Fin 2) * 1024 + 1 * r.val = i.val; rw [e0, hir]; omega
  | ⟨1, _⟩ => show win5_0.index t (1 : Fin 2) * 256 + 1 * k.val = k.val; rw [e1]; omega

/-- Row r of point t's agg block is row 1024 * t + r of agg. -/
theorem read3 (c : Dev nD) (t : Fin cfg5.N) (r : Fin 1024) (q : Fin 512) (i : Fin 2048) (hir : i.val = 1024 * t.val + r.val) :
    b3 V c t (ix2 r q) = aggarr V c (ix2 i q) := by
  obtain ⟨-, -, -, -, -, -, e0, e1, -⟩ := idx_facts t
  show ((cfg5.win 3).blk t).view.read (Elt Ideal) (V c main_call0_v99) (ix2 r q) = V c main_call0_v99 (ix2 i q)
  rw [View.read_apply]
  show V c main_call0_v99 _ = V c main_call0_v99 _
  refine congrArg (V c main_call0_v99) (funext fun a => Fin.ext ?_)
  match a with
  | ⟨0, _⟩ => show win5_3.index t (0 : Fin 2) * 1024 + 1 * r.val = i.val; rw [e0, hir]; omega
  | ⟨1, _⟩ => show win5_3.index t (1 : Fin 2) * 512 + 1 * q.val = q.val; rw [e1]; omega

/-- The W block at any point is the whole array main_call0_v12. -/
theorem read1 (c : Dev nD) (t : Fin cfg5.N) (k : Fin 256) (n : Fin 768) :
    b1 V c t (ix2 k n) = (V c main_call0_v12 : A2 256 768) (ix2 k n) := by
  obtain ⟨-, -, e0, e1, -⟩ := idx_facts t
  show ((cfg5.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win5_1.index t (0 : Fin 2) * 256 + 1 * k.val = k.val; rw [e0]; omega
  | ⟨1, _⟩ => show win5_1.index t (1 : Fin 2) * 768 + 1 * n.val = n.val; rw [e1]; omega

/-- The bias block at any point is the whole array main_arg5. -/
theorem read2 (c : Dev nD) (t : Fin cfg5.N) (z : Fin 1) (n : Fin 768) :
    b2 V c t (ix2 z n) = (V c main_arg5 : A2 1 768) (ix2 z n) := by
  obtain ⟨-, -, -, -, e0, e1, -⟩ := idx_facts t
  show ((cfg5.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win5_2.index t (0 : Fin 2) * 1 + 1 * z.val = z.val; rw [e0]; omega
  | ⟨1, _⟩ => show win5_2.index t (1 : Fin 2) * 768 + 1 * n.val = n.val; rw [e1]; omega

/-- The U block at any point is the whole array main_call0_v16. -/
theorem read4 (c : Dev nD) (t : Fin cfg5.N) (k : Fin 256) (n : Fin 768) :
    b4 V c t (ix2 k n) = (V c main_call0_v16 : A2 256 768) (ix2 k n) := by
  obtain ⟨-, -, -, -, -, -, -, -, e0, e1, -⟩ := idx_facts t
  show ((cfg5.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win5_4.index t (0 : Fin 2) * 256 + 1 * k.val = k.val; rw [e0]; omega
  | ⟨1, _⟩ => show win5_4.index t (1 : Fin 2) * 768 + 1 * n.val = n.val; rw [e1]; omega

/-- The U_f block at any point is the whole array main_call0_v14. -/
theorem read5 (c : Dev nD) (t : Fin cfg5.N) (k j : Fin 256) :
    b5 V c t (ix2 k j) = (V c main_call0_v14 : A2 256 256) (ix2 k j) := by
  obtain ⟨-, -, -, -, -, -, -, -, -, -, e0, e1, -⟩ := idx_facts t
  show ((cfg5.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win5_5.index t (0 : Fin 2) * 256 + 1 * k.val = k.val; rw [e0]; omega
  | ⟨1, _⟩ => show win5_5.index t (1 : Fin 2) * 256 + 1 * j.val = j.val; rw [e1]; omega

/-- The b_f block at any point is the whole array main_call0_v19. -/
theorem read6 (c : Dev nD) (t : Fin cfg5.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg5.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win5_6.index t (0 : Fin 2) * 1 + 1 * z.val = z.val; rw [e0]; omega
  | ⟨1, _⟩ => show win5_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg5.N) :
    (dat5 V c).flushed 7 t = ((cfg5.win 7).blk t).view.read (Elt Ideal) (packed w (Xarr V c) (aggarr V c)) := by
  show (cfg5.win 7).cut (grid5.coords t) ((dat5 V c).after 7 t) = _
  rw [after5_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg5.win 7).xinj (grid5.coords t) y) (((cfg5.win 7).blk t).view.emb y)
    (by show win5_7.index t (0 : Fin 2) * 1024 + 1 * (y 0).val = 1024 * t.val + (y 0).val; rw [e0]; omega)
    (by show win5_7.index t (1 : Fin 2) * 512 + 1 * (y 1).val = (y 1).val; rw [e1]; omega)

/-- An index of the array is in point t's block iff each coordinate is in the block's range on its axis. -/
theorem mem_blk (t : Fin cfg5.N) (i : S2048x512.Idx) :
    i ∈ ((cfg5.win 7).blk t).view.set ↔ ∀ a : Fin 2, win5_7.index t a * S1024x512.size a ≤ (i a).val
      ∧ (i a).val < win5_7.index t a * S1024x512.size a + S1024x512.size a := by
  show i ∈ ((View.whole main_call0_v100).slice (win5_7.rect t)).set ↔ _
  rw [View.set_slice_whole, Rect.mem_set_unit]
  exact Iff.rfl

/-- The 2 blocks of 1024 rows tile the array: row i is in the block of point i / 1024. -/
theorem cover (i : S2048x512.Idx) : ∃ t : Fin cfg5.N, (cfg5.win 7).flush t = true ∧ i ∈ ((cfg5.win 7).blk t).view.set := by
  have hi0 : (i 0).val < 2048 := idx2_lt0 i
  have hi1 : (i 1).val < 512 := idx2_lt1 i
  refine ⟨⟨(i 0).val / 1024, by rw [show cfg5.N = 2 from N_5]; omega⟩, flush5_7 _, ?_⟩
  rw [mem_blk]
  obtain ⟨-, -, -, -, -, -, -, -, -, -, -, -, -, -, e0, e1⟩ := idx_facts ⟨(i 0).val / 1024, by rw [show cfg5.N = 2 from N_5]; omega⟩
  intro a
  match a with
  | ⟨0, _⟩ =>
    show win5_7.index _ (0 : Fin 2) * 1024 ≤ (i 0).val ∧ (i 0).val < win5_7.index _ (0 : Fin 2) * 1024 + 1024
    rw [e0]; show (i 0).val / 1024 * 1024 ≤ (i 0).val ∧ (i 0).val < (i 0).val / 1024 * 1024 + 1024; omega
  | ⟨1, _⟩ =>
    show win5_7.index _ (1 : Fin 2) * 512 ≤ (i 1).val ∧ (i 1).val < win5_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat5 V c).arrAt 7 cfg5.N = packed w (Xarr V c) (aggarr V c) :=
  (dat5 V c).arrAt_eq_of_cover 7 (packed w (Xarr V c) (aggarr V c))
    (fun t _ => flushed_eq V c w hWt hb hUt hUft hbF t) (cover)

/-- THE VALUE OF THE REGION: after it, row i of main_call0_v100 is [kerH | fgateRow (kerH) * kerC] of node i. -/
theorem region5_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 2048) (j : Fin 256) :
    ((dat5 V c).arrAt 7 cfg5.N : A2 2048 512) (ix2 i (lo j)) = kerH w (Xarr V c) (aggarr V c) i j
    ∧ ((dat5 V c).arrAt 7 cfg5.N : A2 2048 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg5

end
-- ==== Proof.KStr6.lean ====
/-
  The host arithmetic before the level with 32 nodes per graph of the fused kernel, read off the program.

  From the contents at the stretch's entry it cuts the level's window of the token rows (32 rows of each graph from
  row 31 on, flattened to 1024 rows) and the children's parent ids (64 entries of each graph from entry 63 on,
  flattened to 2048), turns each parent id `p` into the parent's slot `(p div 4095) * 32 + (p mod 4095 - 31)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str6

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps6 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S2048x512 .f32 := Win (Proc.devRef .tc main_call0_v100)
abbrev xOut : Vec Ideal S1024x256 .bf16 := Wout (Proc.devRef .tc main_call0_v102)
abbrev pOut : IVec S2048 32 := Wout (Proc.devRef .tc main_call0_v104)
abbrev segOut : IVec S2048 32 := Wout (Proc.devRef .tc main_call0_v111)
abbrev aggOut : Vec Ideal S1024x512 .f32 := Wout (Proc.devRef .tc main_call0_v114)

/-- The parent's slot from the parent's node id `p`: `(p div 4095) * 32 + (p mod 4095 - 31)`, the flooring
    quotient and the non-negative remainder written through the truncating ones as the program writes them. -/
def segFun (p : IVec S2048 32) : IVec S2048 32 :=
  addi
    (muli
      (select (andi (cmpi .ne (signi p) (broadcastInDim S2048 ![] bcast_S_S2048 (signi (id (constantI S_ 32 4095#32))))) (cmpi .ne (Host.remsi p (broadcastInDim S2048 ![] bcast_S_S2048 (id (constantI S_ 32 4095#32)))) (broadcastInDim S2048 ![] bcast_S_S2048 (constantI S_ 32 0#32))))
        (subi (Host.divsi p (broadcastInDim S2048 ![] bcast_S_S2048 (id (constantI S_ 32 4095#32)))) (broadcastInDim S2048 ![] bcast_S_S2048 (constantI S_ 32 1#32)))
        (Host.divsi p (broadcastInDim S2048 ![] bcast_S_S2048 (id (constantI S_ 32 4095#32)))))
      (broadcastInDim S2048 ![] bcast_S_S2048 (constantI S_ 32 32#32)))
    (subi
      (select (andi (cmpi .ne (cmpi .slt (Host.remsi p (broadcastInDim S2048 ![] bcast_S_S2048 (select (cmpi .eq (id (constantI S_ 32 4095#32)) (constantI S_ 32 0#32)) (constantI S_ 32 1#32) (id (constantI S_ 32 4095#32))))) (broadcastInDim S2048 ![] bcast_S_S2048 (constantI S_ 32 0#32))) (broadcastInDim S2048 ![] bcast_S_S2048 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S2048 ![] bcast_S_S2048 (select (cmpi .eq (id (constantI S_ 32 4095#32)) (constantI S_ 32 0#32)) (constantI S_ 32 1#32) (id (constantI S_ 32 4095#32))))) (broadcastInDim S2048 ![] bcast_S_S2048 (constantI S_ 32 0#32))))
        (addi (Host.remsi p (broadcastInDim S2048 ![] bcast_S_S2048 (select (cmpi .eq (id (constantI S_ 32 4095#32)) (constantI S_ 32 0#32)) (constantI S_ 32 1#32) (id (constantI S_ 32 4095#32))))) (broadcastInDim S2048 ![] bcast_S_S2048 (select (cmpi .eq (id (constantI S_ 32 4095#32)) (constantI S_ 32 0#32)) (constantI S_ 32 1#32) (id (constantI S_ 32 4095#32)))))
        (Host.remsi p (broadcastInDim S2048 ![] bcast_S_S2048 (select (cmpi .eq (id (constantI S_ 32 4095#32)) (constantI S_ 32 0#32)) (constantI S_ 32 1#32) (id (constantI S_ 32 4095#32))))))
      (broadcastInDim S2048 ![] bcast_S_S2048 (constantI S_ 32 31#32)))

/-- The level's token window: flat row `i` is row `31 + i % 32` of graph `i / 32`. -/
theorem x_apply (i : Fin 1024) (k : Fin 256) :
    xOut Win (ix2 i k)
      = tokIn Win (ix3 ⟨i.val / 32, by omega⟩ ⟨31 + i.val % 32, by omega⟩ k) := by
  have e : xOut Win = shapeCast S1024x256 (extractStridedSlice S32x32x256 ![0, 31, 0] (tokIn Win)
      slices_S32x4095x256_S32x32x256_0_31_0) shapeCasts_S32x32x256_S1024x256 := by
    dsimp only [xOut, tokIn, hostOps6]
    after_results_simp
    rfl
  rw [e]
  exact flat3_slice_apply 31 (tokIn Win) _ _ i k (by decide) _ _

/-- The children's parent ids: entry `q` is entry `63 + q % 64` of graph `q / 64`. -/
theorem p_apply (q : Fin 2048) :
    pOut Win (ix1 q)
      = parIn Win (ix2 ⟨q.val / 64, by omega⟩ ⟨63 + q.val % 64, by omega⟩) := by
  have e : pOut Win = shapeCast S2048 (extractStridedSlice S32x64 ![0, 63] (parIn Win)
      slices_S32x4095_S32x64_0_63) shapeCasts_S32x64_S2048 := by
    dsimp only [pOut, parIn, hostOps6]
    after_results_simp
    rfl
  rw [e]
  exact flat2_slice_apply 63 (parIn Win) _ _ q (by decide) _ _

/-- The slot numbers are `segFun` of the parent ids. -/
theorem seg_eq :
    segOut Win = segFun (pOut Win) := by
  dsimp only [segOut, pOut, hostOps6]
  after_results_simp
  rfl

/-- The per-slot sums, as the scatter that computes them. -/
theorem agg_eq :
    aggOut Win
      = Host.scatterAdd (F := Ideal) scatter_S1024x512_S2048x1_S2048x512_1_0_0_1
          (broadcastInDim S1024x512 ![] bcast_S_S1024x512 (constant (F := Ideal) S_ .f32 0x00000000#32))
          (broadcastInDim S2048x1 ![0] bcast_S2048_S2048x1_0 (segOut Win))
          (hcIn Win) := by
  dsimp only [aggOut, segOut, hcIn, hostOps6]
  after_results_simp
  rfl

/-- Slot `i` holds the sum of the packed rows of the children routed to it. -/
theorem agg_apply (i : Fin 1024) (n : Fin 512) :
    aggOut Win (ix2 i n)
      = ∑ k ∈ kids (fun k : Fin 2048 => rowTarget 1024 (segOut Win (ix1 k))) i, hcIn Win (ix2 k n) := by
  rw [agg_eq]
  exact segsum_apply scatter_S1024x512_S2048x1_S2048x512_1_0_0_1 ⟨rfl, rfl, rfl, rfl⟩ _ bcast_S_S1024x512
    bcast_S2048_S2048x1_0 (segOut Win) (hcIn Win) i n

/-! ## What the stretch leaves alone -/

/-- The arrays the stretch writes. -/
noncomputable def written : List (Ref sig .tc) :=
  [main_call0_v101, main_call0_v102, main_call0_v103, main_call0_v104, main_call0_c_27, main_call0_call10_v0,
   main_call0_call10_v1, main_call0_call10_v2, main_call0_call10_v3, main_call0_call10_v4, main_call0_call10_v5,
   main_call0_call10_v6, main_call0_call10_v7, main_call0_call10_v8, main_call0_call10_c, main_call0_call10_v9,
   main_call0_call10_v10, main_call0_call10_v11, main_call0_call10_c_0, main_call0_call10_v12, main_call0_call10_v13,
   main_call0_v105, main_call0_c_28, main_call0_v106, main_call0_v107, main_call0_c_29, main_call0_call11_v0,
   main_call0_call11_c, main_call0_call11_v1, main_call0_call11_c_0, main_call0_call11_v2, main_call0_call11_v3,
   main_call0_call11_v4, main_call0_call11_c_1, main_call0_call11_v5, main_call0_call11_v6, main_call0_call11_c_2,
   main_call0_call11_v7, main_call0_call11_v8, main_call0_call11_c_3, main_call0_call11_v9, main_call0_call11_v10,
   main_call0_call11_v11, main_call0_call11_v12, main_call0_call11_v13, main_call0_call11_v14, main_call0_v108,
   main_call0_c_30, main_call0_v109, main_call0_v110, main_call0_v111, main_call0_cst_31, main_call0_v112,
   main_call0_v113, main_call0_v114]

/-- An array the stretch does not write holds after it what it held before. -/
theorem keep (r : Ref sig .tc) (hr : r ∉ written) : Wout (Proc.devRef .tc r) = Win (Proc.devRef .tc r) := by
  refine after_of_writes_sub (W := written) hostOps6 Win ?_ hr
  simp only [hostOps6, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v100 : Wout (Proc.devRef .tc main_call0_v100) = Win (Proc.devRef .tc main_call0_v100) := keep Win _ (by decide)
theorem keep_arg5 : Wout (Proc.devRef .tc main_arg5) = Win (Proc.devRef .tc main_arg5) := keep Win _ (by decide)

end Cert.KernelIdeal.Str6

end
-- ==== Proof.KRow6.lean ====
/-
  The update kernel's body at level 5 (blocks of 1024 rows), read at one element.

  The body's five payloads, over variables of the block shapes: the pre-activation [1024,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 1024; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg6

open Cert.KernelIdeal Cert.KernelIdeal.Gen Cert.TreeLstm
open Idealize.ShloMosaic Idealize.ShloMosaic.ValueIdx

/-! ## The two contractions at an index -/

/-- [1024,256] × [256,768] into zeros, at (r, n): the sum over the 256 contracted coordinates. -/
theorem matmul_1024x256_256x768_apply (a : FVec Ideal S1024x256 .bf16) (b : FVec Ideal S256x768 .bf16) (r : Fin 1024) (n : Fin 768) :
    matmul dot_S1024x256_S256x768_S1024x768_1_0_0_1_n_n none a b (constant (F := Ideal) S1024x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x768_S1024x768_1_0_0_1_n_n 256 rfl rfl).symm]
  refine Finset.sum_congr rfl fun k _ => ?_
  have ck := contrEquiv1_symm_val dot_S1024x256_S256x768_S1024x768_1_0_0_1_n_n 256 rfl rfl k
  have l2 : dot_S1024x256_S256x768_S1024x768_1_0_0_1_n_n.lhsIdx (ix2 r n)
      ((contrEquiv1 dot_S1024x256_S256x768_S1024x768_1_0_0_1_n_n 256 rfl rfl).symm k) = ix2 r k := by
    funext ax; apply Fin.ext
    match ax with
    | ⟨0, _⟩ => simp [DotDims.lhsIdx, dot_S1024x256_S256x768_S1024x768_1_0_0_1_n_n]; rfl
    | ⟨1, _⟩ => simp [DotDims.lhsIdx, dot_S1024x256_S256x768_S1024x768_1_0_0_1_n_n]; exact ck
  have r2 : dot_S1024x256_S256x768_S1024x768_1_0_0_1_n_n.rhsIdx (ix2 r n)
      ((contrEquiv1 dot_S1024x256_S256x768_S1024x768_1_0_0_1_n_n 256 rfl rfl).symm k) = ix2 k n := by
    funext ax; apply Fin.ext
    match ax with
    | ⟨0, _⟩ => simp [DotDims.rhsIdx, dot_S1024x256_S256x768_S1024x768_1_0_0_1_n_n]; exact ck
    | ⟨1, _⟩ => simp [DotDims.rhsIdx, dot_S1024x256_S256x768_S1024x768_1_0_0_1_n_n]; rfl
  rw [l2, r2]

/-- [1024,256] × [256,256] into zeros, at (r, n): the sum over the 256 contracted coordinates. -/
theorem matmul_1024x256_256x256_apply (a : FVec Ideal S1024x256 .bf16) (b : FVec Ideal S256x256 .bf16) (r : Fin 1024) (n : Fin 256) :
    matmul dot_S1024x256_S256x256_S1024x256_1_0_0_1_n_n none a b (constant (F := Ideal) S1024x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S1024x256_S256x256_S1024x256_1_0_0_1_n_n 256 rfl rfl).symm]
  refine Finset.sum_congr rfl fun k _ => ?_
  have ck := contrEquiv1_symm_val dot_S1024x256_S256x256_S1024x256_1_0_0_1_n_n 256 rfl rfl k
  have l2 : dot_S1024x256_S256x256_S1024x256_1_0_0_1_n_n.lhsIdx (ix2 r n)
      ((contrEquiv1 dot_S1024x256_S256x256_S1024x256_1_0_0_1_n_n 256 rfl rfl).symm k) = ix2 r k := by
    funext ax; apply Fin.ext
    match ax with
    | ⟨0, _⟩ => simp [DotDims.lhsIdx, dot_S1024x256_S256x256_S1024x256_1_0_0_1_n_n]; rfl
    | ⟨1, _⟩ => simp [DotDims.lhsIdx, dot_S1024x256_S256x256_S1024x256_1_0_0_1_n_n]; exact ck
  have r2 : dot_S1024x256_S256x256_S1024x256_1_0_0_1_n_n.rhsIdx (ix2 r n)
      ((contrEquiv1 dot_S1024x256_S256x256_S1024x256_1_0_0_1_n_n 256 rfl rfl).symm k) = ix2 k n := by
    funext ax; apply Fin.ext
    match ax with
    | ⟨0, _⟩ => simp [DotDims.rhsIdx, dot_S1024x256_S256x256_S1024x256_1_0_0_1_n_n]; exact ck
    | ⟨1, _⟩ => simp [DotDims.rhsIdx, dot_S1024x256_S256x256_S1024x256_1_0_0_1_n_n]; rfl
  rw [l2, r2]

/-! ## The payloads at an index -/

/-- The pre-activation at (r, n): (x·Wt + b) + h̃·Ut. -/
theorem pay2_apply (v0 : Vec Ideal S1024x256 .bf16) (v2 : Vec Ideal S256x768 .bf16) (v5 : Vec Ideal S1x768 .f32)
    (v8 : Vec Ideal S1024x256 .f32) (v13 : Vec Ideal S256x768 .bf16) (r : Fin 1024) (n : Fin 768) :
    k6_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k6_pay2
  simp only [shapeCast_self]
  refine (addf_apply _ _ _).trans ?_
  refine congrArg₂ (· + ·) ((addf_apply _ _ _).trans (congrArg₂ (· + ·) ?_ ?_)) ?_
  · exact matmul_1024x256_256x768_apply v0 v2 r n
  · exact broadcastTo_1b_ab_apply v5 broadcasts_S1x768_S1024x768 r n
  · exact matmul_1024x256_256x768_apply _ v13 r n

/-- The cell state at (r, j): logistic z₀ * tanh z₂ + c̃. -/
theorem pay3_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k6_pay3 v0 v2 v5 v8 v10 v13 (ix2 r j)
      = Ideal.logistic (k6_pay2 v0 v2 v5 v8 v13 (ix2 r (c0 j))) * Ideal.tanh (k6_pay2 v0 v2 v5 v8 v13 (ix2 r (c2 j)))
        + v10 (ix2 r j) := by
  unfold k6_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k6_pay2 v0 v2 v5 v8 v13) slices_S1024x768_o0_0_S1024x256 r j (c0 j) (Nat.zero_add _).symm)
  · exact congrArg Ideal.tanh
      (slice2_axis1_apply 512 (k6_pay2 v0 v2 v5 v8 v13) slices_S1024x768_o0_512_S1024x256 r j (c2 j) rfl)

/-- The hidden state at (r, j): logistic z₁ * tanh c. -/
theorem pay4_apply (v0 : Vec Ideal S1024x256 .bf16) (v2 : Vec Ideal S256x768 .bf16) (v5 : Vec Ideal S1x768 .f32)
    (v8 v10 : Vec Ideal S1024x256 .f32) (v13 : Vec Ideal S256x768 .bf16) (r : Fin 1024) (j : Fin 256) :
    k6_pay4 v0 v2 v5 v8 v10 v13 (ix2 r j)
      = Ideal.logistic (k6_pay2 v0 v2 v5 v8 v13 (ix2 r (c1 j))) * Ideal.tanh (k6_pay3 v0 v2 v5 v8 v10 v13 (ix2 r j)) := by
  unfold k6_pay4
  refine (mulf_apply _ _ _).trans (congrArg₂ (· * ·) ?_ rfl)
  exact congrArg Ideal.logistic
    (slice2_axis1_apply 256 (k6_pay2 v0 v2 v5 v8 v13) slices_S1024x768_o0_256_S1024x256 r j (c1 j) rfl)

/-- The forget gate of the hidden state just computed, at (r, j): logistic (h·Uft + bF). -/
theorem pay5_apply (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024) (j : Fin 256) :
    k6_pay5 v0 v2 v5 v8 v10 v13 v28 v31 (ix2 r j)
      = Ideal.logistic ((∑ k : Fin 256, k6_pay4 v0 v2 v5 v8 v10 v13 (ix2 r k) * v28 (ix2 k j)) + v31 (ix2 (0 : Fin 1) j)) := by
  unfold k6_pay5
  simp only [shapeCast_self]
  refine congrArg Ideal.logistic ((addf_apply _ _ _).trans (congrArg₂ (· + ·) ?_ ?_))
  · exact matmul_1024x256_256x256_apply _ v28 r j
  · exact broadcastTo_1b_ab_apply v31 broadcasts_S1x256_S1024x256 r j

/-- The right half's stored value at (r, j): the gate times the cell state. -/
theorem pay1_apply (v23 v35 : FVec Ideal S1024x256 .f32) (r : Fin 1024) (j : Fin 256) :
    k6_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S1024x256 .bf16) (v2 : Vec Ideal S256x768 .bf16) (v5 : Vec Ideal S1x768 .f32)
    (v8 v10 : Vec Ideal S1024x256 .f32) (v13 : Vec Ideal S256x768 .bf16) (v28 : Vec Ideal S256x256 .bf16) (v31 : Vec Ideal S1x256 .f32)
    (r : Fin 1024)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k6_pay4 v0 v2 v5 v8 v10 v13 (ix2 r j) = kerH w X agg i j
    ∧ k6_pay1 (k6_pay3 v0 v2 v5 v8 v10 v13) (k6_pay5 v0 v2 v5 v8 v10 v13 v28 v31) (ix2 r j)
        = fgateRow w (kerH w X agg i) j * kerC w X agg i j := by
  have hz : ∀ n : Fin 768, k6_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k6_pay3 v0 v2 v5 v8 v10 v13 (ix2 r j) = kerC w X agg i j := fun j => by
    rw [pay3_apply, hz, hz, h10]; rfl
  have hh : ∀ j : Fin 256, k6_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg6

end
-- ==== Proof.KReg6.lean ====
/-
  Region 6 of the kernel's run — the update kernel at level 5: 1024 nodes, 1 grid points, blocks of 1024 rows —:
  the output array main_call0_v115 : [1024,512] after the region, element by element, for ANY contents V at the
  region's entry.

  What the body leaves in the output block, at (r, lo j) and at (r, hi j): the two stores cover columns 0..255 and
  256..511, the later one listed first; the agg block is loaded in its two halves. One row of a block is one node:
  row r of point t's blocks is row 1024 * t + r of the arrays X = main_call0_v102 and agg = main_call0_v114, the weight
  windows' blocks are their whole arrays. So point t writes back block t of the level's packed array
  [kerH | fgateRow (kerH) * kerC]; the 1 blocks tile the array; hence the array after the region is that packed array.
-/
import proofs.«419362_j66683662237734_3_alg».proof.Proof.KernelIdealFrameP
import proofs.«419362_j66683662237734_3_alg».proof.Proof.KRow6
import Idealize.ShloMosaic.Lib.Pipeline.Value

set_option maxRecDepth 16384

noncomputable section

open scoped BigOperators

namespace Cert.KernelIdeal.Reg6

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S1024x512 .f32) (r : Fin 1024) (k : Fin 256) :
    (View.ld x3 r6_3 : Vec Ideal S1024x256 .f32) (ix2 r k) = x3 (ix2 r (lo k)) := by
  show x3 (r6_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S1024x512 .f32) (r : Fin 1024) (k : Fin 256) :
    (View.ld x3 r6_4 : Vec Ideal S1024x256 .f32) (ix2 r k) = x3 (ix2 r (hi k)) := by
  show x3 (r6_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 1024) (j : Fin 256) : (ix2 r (lo j) : S1024x512.Idx) = r6_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 1024) (j : Fin 256) : (ix2 r (hi j) : S1024x512.Idx) = r6_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S1024x256 .f32) (r : Fin 1024) (j : Fin 256) :
    View.canon [(⟨r6_4, p1⟩ : View.Piece (Elt Ideal) S1024x512 .f32), ⟨r6_3, p0⟩] (ix2 r (lo j)) = p0 (ix2 r j) := by
  have hnot : (ix2 r (lo j) : S1024x512.Idx) ∉ (⟨r6_4, p1⟩ : View.Piece (Elt Ideal) S1024x512 .f32).1.set := by
    show (ix2 r (lo j) : S1024x512.Idx) ∉ r6_4.set
    rw [Rect.mem_set_unit]
    intro h
    have h1 : 256 ≤ j.val := (h 1).1
    have := j.isLt
    omega
  rw [View.canon_cons_of_not_mem (⟨r6_4, p1⟩ : View.Piece (Elt Ideal) S1024x512 .f32) [⟨r6_3, p0⟩] hnot, emb_left r j]
  exact View.canon_cons_emb r6_3 p0 [] (ix2 r j)

/-- At column hi j the right store's payload shows. -/
theorem canon2_right (p1 p0 : Vec Ideal S1024x256 .f32) (r : Fin 1024) (j : Fin 256) :
    View.canon [(⟨r6_4, p1⟩ : View.Piece (Elt Ideal) S1024x512 .f32), ⟨r6_3, p0⟩] (ix2 r (hi j)) = p1 (ix2 r j) := by
  rw [emb_right r j]
  exact View.canon_cons_emb r6_4 p1 [⟨r6_3, p0⟩] (ix2 r j)

/-- The left half of the output block holds the hidden state's payload. -/
theorem out6_7_left (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out6_7 x0 x1 x2 x3 x4 x5 x6 (ix2 r (lo j))
      = k6_pay4 x0 x1 x2 (View.ld x3 r6_3) (View.ld x3 r6_4) x4 (ix2 r j) := by
  unfold out6_7
  simp only [View.ld_unit_zero (S := S1024x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out6_7_right (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (r : Fin 1024) (j : Fin 256) :
    out6_7 x0 x1 x2 x3 x4 x5 x6 (ix2 r (hi j))
      = k6_pay1 (k6_pay3 x0 x1 x2 (View.ld x3 r6_3) (View.ld x3 r6_4) x4)
          (k6_pay5 x0 x1 x2 (View.ld x3 r6_3) (View.ld x3 r6_4) x4 x5 x6) (ix2 r j) := by
  unfold out6_7
  simp only [View.ld_unit_zero (S := S1024x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 1024 256) (agg : A2 1024 512) : A2 1024 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 1024 256) (agg : A2 1024 512) (i : Fin 1024) (j : Fin 256) :
    packed w X agg (ix2 i (lo j)) = kerH w X agg i j := by
  unfold packed
  exact dif_pos j.isLt

theorem packed_hi (w : Wts) (X : A2 1024 256) (agg : A2 1024 512) (i : Fin 1024) (j : Fin 256) :
    packed w X agg (ix2 i (hi j)) = fgateRow w (kerH w X agg i) j * kerC w X agg i j := by
  have hn : ¬ ((ix2 i (hi j) : (⟨2, ![1024, 512]⟩ : Shape).Idx) 1).val < 256 := by
    show ¬ (256 + j.val < 256); omega
  have e : ∀ h, (⟨((ix2 i (hi j) : (⟨2, ![1024, 512]⟩ : Shape).Idx) 1).val - 256, h⟩ : Fin 256) = j :=
    fun h => Fin.ext (by show 256 + j.val - 256 = j.val; omega)
  unfold packed
  rw [dif_neg hn, e]

/-- One block at an index: if row r of the blocks is row 1024 * T + r of X and agg and the weight blocks hold the
    transposed weights, the output block at y is the packed array at g, where g is y moved down 1024 * T rows. -/
theorem block_at (w : Wts) (X : A2 1024 256) (agg : A2 1024 512)
    (x0 : Vec Ideal S1024x256 .bf16) (x1 : Vec Ideal S256x768 .bf16) (x2 : Vec Ideal S1x768 .f32) (x3 : Vec Ideal S1024x512 .f32)
    (x4 : Vec Ideal S256x768 .bf16) (x5 : Vec Ideal S256x256 .bf16) (x6 : Vec Ideal S1x256 .f32) (T : Nat)
    (h0 : ∀ (r : Fin 1024) (k : Fin 256) (i : Fin 1024), i.val = 1024 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 1024) (q : Fin 512) (i : Fin 1024), i.val = 1024 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S1024x512.Idx) (g : S1024x512.Idx) (hg0 : (g 0).val = 1024 * T + (y 0).val) (hg1 : (g 1).val = (y 1).val) :
    out6_7 x0 x1 x2 x3 x4 x5 x6 y = packed w X agg g := by
  obtain ⟨r, q, rfl⟩ : ∃ (r : Fin 1024) (q : Fin 512), y = ix2 r q := ⟨y 0, y 1, eq_ix2 y⟩
  obtain ⟨i, q', rfl⟩ : ∃ (i : Fin 1024) (q' : Fin 512), g = ix2 i q' := ⟨g 0, g 1, eq_ix2 g⟩
  have hir : i.val = 1024 * T + r.val := hg0
  obtain rfl : q' = q := Fin.ext hg1
  have hrow := fun j : Fin 256 => row w X agg i x0 x1 x2 (View.ld x3 r6_3) (View.ld x3 r6_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out6_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out6_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 1024 256 := V c main_call0_v102
/-- The children's packed rows summed per node, as the region finds them. -/
abbrev aggarr (c : Dev nD) : A2 1024 512 := V c main_call0_v114

/-- The windows' blocks at point t, typed by their block shapes. -/
abbrev b0 (c : Dev nD) (t : Fin cfg6.N) : Vec Ideal S1024x256 .bf16 := iblk6 V c 0 t
abbrev b1 (c : Dev nD) (t : Fin cfg6.N) : Vec Ideal S256x768 .bf16 := iblk6 V c 1 t
abbrev b2 (c : Dev nD) (t : Fin cfg6.N) : Vec Ideal S1x768 .f32 := iblk6 V c 2 t
abbrev b3 (c : Dev nD) (t : Fin cfg6.N) : Vec Ideal S1024x512 .f32 := iblk6 V c 3 t
abbrev b4 (c : Dev nD) (t : Fin cfg6.N) : Vec Ideal S256x768 .bf16 := iblk6 V c 4 t
abbrev b5 (c : Dev nD) (t : Fin cfg6.N) : Vec Ideal S256x256 .bf16 := iblk6 V c 5 t
abbrev b6 (c : Dev nD) (t : Fin cfg6.N) : Vec Ideal S1x256 .f32 := iblk6 V c 6 t

/-- The printed index maps over the grid: the row windows 0, 3, 7 are at block (t, 0), the weight windows at (0, 0). -/
theorem idx_facts : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = t.val ∧ win6_7.index t (1 : Fin 2) = 0 :=
  (by decide +kernel : ∀ t : Fin grid6.N, _)

/-- Row r of point t's X block is row 1024 * t + r of X. -/
theorem read0 (c : Dev nD) (t : Fin cfg6.N) (r : Fin 1024) (k : Fin 256) (i : Fin 1024) (hir : i.val = 1024 * t.val + r.val) :
    b0 V c t (ix2 r k) = Xarr V c (ix2 i k) := by
  obtain ⟨e0, e1, -⟩ := idx_facts t
  show ((cfg6.win 0).blk t).view.read (Elt Ideal) (V c main_call0_v102) (ix2 r k) = V c main_call0_v102 (ix2 i k)
  rw [View.read_apply]
  show V c main_call0_v102 _ = V c main_call0_v102 _
  refine congrArg (V c main_call0_v102) (funext fun a => Fin.ext ?_)
  match a with
  | ⟨0, _⟩ => show win6_0.index t (0 : Fin 2) * 1024 + 1 * r.val = i.val; rw [e0, hir]; omega
  | ⟨1, _⟩ => show win6_0.index t (1 : Fin 2) * 256 + 1 * k.val = k.val; rw [e1]; omega

/-- Row r of point t's agg block is row 1024 * t + r of agg. -/
theorem read3 (c : Dev nD) (t : Fin cfg6.N) (r : Fin 1024) (q : Fin 512) (i : Fin 1024) (hir : i.val = 1024 * t.val + r.val) :
    b3 V c t (ix2 r q) = aggarr V c (ix2 i q) := by
  obtain ⟨-, -, -, -, -, -, e0, e1, -⟩ := idx_facts t
  show ((cfg6.win 3).blk t).view.read (Elt Ideal) (V c main_call0_v114) (ix2 r q) = V c main_call0_v114 (ix2 i q)
  rw [View.read_apply]
  show V c main_call0_v114 _ = V c main_call0_v114 _
  refine congrArg (V c main_call0_v114) (funext fun a => Fin.ext ?_)
  match a with
  | ⟨0, _⟩ => show win6_3.index t (0 : Fin 2) * 1024 + 1 * r.val = i.val; rw [e0, hir]; omega
  | ⟨1, _⟩ => show win6_3.index t (1 : Fin 2) * 512 + 1 * q.val = q.val; rw [e1]; omega

/-- The W block at any point is the whole array main_call0_v12. -/
theorem read1 (c : Dev nD) (t : Fin cfg6.N) (k : Fin 256) (n : Fin 768) :
    b1 V c t (ix2 k n) = (V c main_call0_v12 : A2 256 768) (ix2 k n) := by
  obtain ⟨-, -, e0, e1, -⟩ := idx_facts t
  show ((cfg6.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win6_1.index t (0 : Fin 2) * 256 + 1 * k.val = k.val; rw [e0]; omega
  | ⟨1, _⟩ => show win6_1.index t (1 : Fin 2) * 768 + 1 * n.val = n.val; rw [e1]; omega

/-- The bias block at any point is the whole array main_arg5. -/
theorem read2 (c : Dev nD) (t : Fin cfg6.N) (z : Fin 1) (n : Fin 768) :
    b2 V c t (ix2 z n) = (V c main_arg5 : A2 1 768) (ix2 z n) := by
  obtain ⟨-, -, -, -, e0, e1, -⟩ := idx_facts t
  show ((cfg6.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win6_2.index t (0 : Fin 2) * 1 + 1 * z.val = z.val; rw [e0]; omega
  | ⟨1, _⟩ => show win6_2.index t (1 : Fin 2) * 768 + 1 * n.val = n.val; rw [e1]; omega

/-- The U block at any point is the whole array main_call0_v16. -/
theorem read4 (c : Dev nD) (t : Fin cfg6.N) (k : Fin 256) (n : Fin 768) :
    b4 V c t (ix2 k n) = (V c main_call0_v16 : A2 256 768) (ix2 k n) := by
  obtain ⟨-, -, -, -, -, -, -, -, e0, e1, -⟩ := idx_facts t
  show ((cfg6.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win6_4.index t (0 : Fin 2) * 256 + 1 * k.val = k.val; rw [e0]; omega
  | ⟨1, _⟩ => show win6_4.index t (1 : Fin 2) * 768 + 1 * n.val = n.val; rw [e1]; omega

/-- The U_f block at any point is the whole array main_call0_v14. -/
theorem read5 (c : Dev nD) (t : Fin cfg6.N) (k j : Fin 256) :
    b5 V c t (ix2 k j) = (V c main_call0_v14 : A2 256 256) (ix2 k j) := by
  obtain ⟨-, -, -, -, -, -, -, -, -, -, e0, e1, -⟩ := idx_facts t
  show ((cfg6.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win6_5.index t (0 : Fin 2) * 256 + 1 * k.val = k.val; rw [e0]; omega
  | ⟨1, _⟩ => show win6_5.index t (1 : Fin 2) * 256 + 1 * j.val = j.val; rw [e1]; omega

/-- The b_f block at any point is the whole array main_call0_v19. -/
theorem read6 (c : Dev nD) (t : Fin cfg6.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg6.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win6_6.index t (0 : Fin 2) * 1 + 1 * z.val = z.val; rw [e0]; omega
  | ⟨1, _⟩ => show win6_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg6.N) :
    (dat6 V c).flushed 7 t = ((cfg6.win 7).blk t).view.read (Elt Ideal) (packed w (Xarr V c) (aggarr V c)) := by
  show (cfg6.win 7).cut (grid6.coords t) ((dat6 V c).after 7 t) = _
  rw [after6_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg6.win 7).xinj (grid6.coords t) y) (((cfg6.win 7).blk t).view.emb y)
    (by show win6_7.index t (0 : Fin 2) * 1024 + 1 * (y 0).val = 1024 * t.val + (y 0).val; rw [e0]; omega)
    (by show win6_7.index t (1 : Fin 2) * 512 + 1 * (y 1).val = (y 1).val; rw [e1]; omega)

/-- An index of the array is in point t's block iff each coordinate is in the block's range on its axis. -/
theorem mem_blk (t : Fin cfg6.N) (i : S1024x512.Idx) :
    i ∈ ((cfg6.win 7).blk t).view.set ↔ ∀ a : Fin 2, win6_7.index t a * S1024x512.size a ≤ (i a).val
      ∧ (i a).val < win6_7.index t a * S1024x512.size a + S1024x512.size a := by
  show i ∈ ((View.whole main_call0_v115).slice (win6_7.rect t)).set ↔ _
  rw [View.set_slice_whole, Rect.mem_set_unit]
  exact Iff.rfl

/-- The 1 blocks of 1024 rows tile the array: row i is in the block of point i / 1024. -/
theorem cover (i : S1024x512.Idx) : ∃ t : Fin cfg6.N, (cfg6.win 7).flush t = true ∧ i ∈ ((cfg6.win 7).blk t).view.set := by
  have hi0 : (i 0).val < 1024 := idx2_lt0 i
  have hi1 : (i 1).val < 512 := idx2_lt1 i
  refine ⟨⟨(i 0).val / 1024, by rw [show cfg6.N = 1 from N_6]; omega⟩, flush6_7 _, ?_⟩
  rw [mem_blk]
  obtain ⟨-, -, -, -, -, -, -, -, -, -, -, -, -, -, e0, e1⟩ := idx_facts ⟨(i 0).val / 1024, by rw [show cfg6.N = 1 from N_6]; omega⟩
  intro a
  match a with
  | ⟨0, _⟩ =>
    show win6_7.index _ (0 : Fin 2) * 1024 ≤ (i 0).val ∧ (i 0).val < win6_7.index _ (0 : Fin 2) * 1024 + 1024
    rw [e0]; show (i 0).val / 1024 * 1024 ≤ (i 0).val ∧ (i 0).val < (i 0).val / 1024 * 1024 + 1024; omega
  | ⟨1, _⟩ =>
    show win6_7.index _ (1 : Fin 2) * 512 ≤ (i 1).val ∧ (i 1).val < win6_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat6 V c).arrAt 7 cfg6.N = packed w (Xarr V c) (aggarr V c) :=
  (dat6 V c).arrAt_eq_of_cover 7 (packed w (Xarr V c) (aggarr V c))
    (fun t _ => flushed_eq V c w hWt hb hUt hUft hbF t) (cover)

/-- THE VALUE OF THE REGION: after it, row i of main_call0_v115 is [kerH | fgateRow (kerH) * kerC] of node i. -/
theorem region6_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 1024) (j : Fin 256) :
    ((dat6 V c).arrAt 7 cfg6.N : A2 1024 512) (ix2 i (lo j)) = kerH w (Xarr V c) (aggarr V c) i j
    ∧ ((dat6 V c).arrAt 7 cfg6.N : A2 1024 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg6

end
-- ==== Proof.KStr7.lean ====
/-
  The host arithmetic before the level with 16 nodes per graph of the fused kernel, read off the program.

  From the contents at the stretch's entry it cuts the level's window of the token rows (16 rows of each graph from
  row 15 on, flattened to 512 rows) and the children's parent ids (32 entries of each graph from entry 31 on,
  flattened to 1024), turns each parent id `p` into the parent's slot `(p div 4095) * 16 + (p mod 4095 - 15)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str7

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps7 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S1024x512 .f32 := Win (Proc.devRef .tc main_call0_v115)
abbrev xOut : Vec Ideal S512x256 .bf16 := Wout (Proc.devRef .tc main_call0_v117)
abbrev pOut : IVec S1024 32 := Wout (Proc.devRef .tc main_call0_v119)
abbrev segOut : IVec S1024 32 := Wout (Proc.devRef .tc main_call0_v126)
abbrev aggOut : Vec Ideal S512x512 .f32 := Wout (Proc.devRef .tc main_call0_v129)

/-- The parent's slot from the parent's node id `p`: `(p div 4095) * 16 + (p mod 4095 - 15)`, the flooring
    quotient and the non-negative remainder written through the truncating ones as the program writes them. -/
def segFun (p : IVec S1024 32) : IVec S1024 32 :=
  addi
    (muli
      (select (andi (cmpi .ne (signi p) (broadcastInDim S1024 ![] bcast_S_S1024 (signi (id (constantI S_ 32 4095#32))))) (cmpi .ne (Host.remsi p (broadcastInDim S1024 ![] bcast_S_S1024 (id (constantI S_ 32 4095#32)))) (broadcastInDim S1024 ![] bcast_S_S1024 (constantI S_ 32 0#32))))
        (subi (Host.divsi p (broadcastInDim S1024 ![] bcast_S_S1024 (id (constantI S_ 32 4095#32)))) (broadcastInDim S1024 ![] bcast_S_S1024 (constantI S_ 32 1#32)))
        (Host.divsi p (broadcastInDim S1024 ![] bcast_S_S1024 (id (constantI S_ 32 4095#32)))))
      (broadcastInDim S1024 ![] bcast_S_S1024 (constantI S_ 32 16#32)))
    (subi
      (select (andi (cmpi .ne (cmpi .slt (Host.remsi p (broadcastInDim S1024 ![] bcast_S_S1024 (select (cmpi .eq (id (constantI S_ 32 4095#32)) (constantI S_ 32 0#32)) (constantI S_ 32 1#32) (id (constantI S_ 32 4095#32))))) (broadcastInDim S1024 ![] bcast_S_S1024 (constantI S_ 32 0#32))) (broadcastInDim S1024 ![] bcast_S_S1024 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S1024 ![] bcast_S_S1024 (select (cmpi .eq (id (constantI S_ 32 4095#32)) (constantI S_ 32 0#32)) (constantI S_ 32 1#32) (id (constantI S_ 32 4095#32))))) (broadcastInDim S1024 ![] bcast_S_S1024 (constantI S_ 32 0#32))))
        (addi (Host.remsi p (broadcastInDim S1024 ![] bcast_S_S1024 (select (cmpi .eq (id (constantI S_ 32 4095#32)) (constantI S_ 32 0#32)) (constantI S_ 32 1#32) (id (constantI S_ 32 4095#32))))) (broadcastInDim S1024 ![] bcast_S_S1024 (select (cmpi .eq (id (constantI S_ 32 4095#32)) (constantI S_ 32 0#32)) (constantI S_ 32 1#32) (id (constantI S_ 32 4095#32)))))
        (Host.remsi p (broadcastInDim S1024 ![] bcast_S_S1024 (select (cmpi .eq (id (constantI S_ 32 4095#32)) (constantI S_ 32 0#32)) (constantI S_ 32 1#32) (id (constantI S_ 32 4095#32))))))
      (broadcastInDim S1024 ![] bcast_S_S1024 (constantI S_ 32 15#32)))

/-- The level's token window: flat row `i` is row `15 + i % 16` of graph `i / 16`. -/
theorem x_apply (i : Fin 512) (k : Fin 256) :
    xOut Win (ix2 i k)
      = tokIn Win (ix3 ⟨i.val / 16, by omega⟩ ⟨15 + i.val % 16, by omega⟩ k) := by
  have e : xOut Win = shapeCast S512x256 (extractStridedSlice S32x16x256 ![0, 15, 0] (tokIn Win)
      slices_S32x4095x256_S32x16x256_0_15_0) shapeCasts_S32x16x256_S512x256 := by
    dsimp only [xOut, tokIn, hostOps7]
    after_results_simp
    rfl
  rw [e]
  exact flat3_slice_apply 15 (tokIn Win) _ _ i k (by decide) _ _

/-- The children's parent ids: entry `q` is entry `31 + q % 32` of graph `q / 32`. -/
theorem p_apply (q : Fin 1024) :
    pOut Win (ix1 q)
      = parIn Win (ix2 ⟨q.val / 32, by omega⟩ ⟨31 + q.val % 32, by omega⟩) := by
  have e : pOut Win = shapeCast S1024 (extractStridedSlice S32x32 ![0, 31] (parIn Win)
      slices_S32x4095_S32x32_0_31) shapeCasts_S32x32_S1024 := by
    dsimp only [pOut, parIn, hostOps7]
    after_results_simp
    rfl
  rw [e]
  exact flat2_slice_apply 31 (parIn Win) _ _ q (by decide) _ _

/-- The slot numbers are `segFun` of the parent ids. -/
theorem seg_eq :
    segOut Win = segFun (pOut Win) := by
  dsimp only [segOut, pOut, hostOps7]
  after_results_simp
  rfl

/-- The per-slot sums, as the scatter that computes them. -/
theorem agg_eq :
    aggOut Win
      = Host.scatterAdd (F := Ideal) scatter_S512x512_S1024x1_S1024x512_1_0_0_1
          (broadcastInDim S512x512 ![] bcast_S_S512x512 (constant (F := Ideal) S_ .f32 0x00000000#32))
          (broadcastInDim S1024x1 ![0] bcast_S1024_S1024x1_0 (segOut Win))
          (hcIn Win) := by
  dsimp only [aggOut, segOut, hcIn, hostOps7]
  after_results_simp
  rfl

/-- Slot `i` holds the sum of the packed rows of the children routed to it. -/
theorem agg_apply (i : Fin 512) (n : Fin 512) :
    aggOut Win (ix2 i n)
      = ∑ k ∈ kids (fun k : Fin 1024 => rowTarget 512 (segOut Win (ix1 k))) i, hcIn Win (ix2 k n) := by
  rw [agg_eq]
  exact segsum_apply scatter_S512x512_S1024x1_S1024x512_1_0_0_1 ⟨rfl, rfl, rfl, rfl⟩ _ bcast_S_S512x512
    bcast_S1024_S1024x1_0 (segOut Win) (hcIn Win) i n

/-! ## What the stretch leaves alone -/

/-- The arrays the stretch writes. -/
noncomputable def written : List (Ref sig .tc) :=
  [main_call0_v116, main_call0_v117, main_call0_v118, main_call0_v119, main_call0_c_32, main_call0_call12_v0,
   main_call0_call12_v1, main_call0_call12_v2, main_call0_call12_v3, main_call0_call12_v4, main_call0_call12_v5,
   main_call0_call12_v6, main_call0_call12_v7, main_call0_call12_v8, main_call0_call12_c, main_call0_call12_v9,
   main_call0_call12_v10, main_call0_call12_v11, main_call0_call12_c_0, main_call0_call12_v12, main_call0_call12_v13,
   main_call0_v120, main_call0_c_33, main_call0_v121, main_call0_v122, main_call0_c_34, main_call0_call13_v0,
   main_call0_call13_c, main_call0_call13_v1, main_call0_call13_c_0, main_call0_call13_v2, main_call0_call13_v3,
   main_call0_call13_v4, main_call0_call13_c_1, main_call0_call13_v5, main_call0_call13_v6, main_call0_call13_c_2,
   main_call0_call13_v7, main_call0_call13_v8, main_call0_call13_c_3, main_call0_call13_v9, main_call0_call13_v10,
   main_call0_call13_v11, main_call0_call13_v12, main_call0_call13_v13, main_call0_call13_v14, main_call0_v123,
   main_call0_c_35, main_call0_v124, main_call0_v125, main_call0_v126, main_call0_cst_36, main_call0_v127,
   main_call0_v128, main_call0_v129]

/-- An array the stretch does not write holds after it what it held before. -/
theorem keep (r : Ref sig .tc) (hr : r ∉ written) : Wout (Proc.devRef .tc r) = Win (Proc.devRef .tc r) := by
  refine after_of_writes_sub (W := written) hostOps7 Win ?_ hr
  simp only [hostOps7, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v115 : Wout (Proc.devRef .tc main_call0_v115) = Win (Proc.devRef .tc main_call0_v115) := keep Win _ (by decide)
theorem keep_arg5 : Wout (Proc.devRef .tc main_arg5) = Win (Proc.devRef .tc main_arg5) := keep Win _ (by decide)

end Cert.KernelIdeal.Str7

end
-- ==== Proof.KRow7.lean ====
/-
  The update kernel's body at level 4 (blocks of 512 rows), read at one element.

  The body's five payloads, over variables of the block shapes: the pre-activation [512,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 512; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg7

open Cert.KernelIdeal Cert.KernelIdeal.Gen Cert.TreeLstm
open Idealize.ShloMosaic Idealize.ShloMosaic.ValueIdx

/-! ## The two contractions at an index -/

/-- [512,256] × [256,768] into zeros, at (r, n): the sum over the 256 contracted coordinates. -/
theorem matmul_512x256_256x768_apply (a : FVec Ideal S512x256 .bf16) (b : FVec Ideal S256x768 .bf16) (r : Fin 512) (n : Fin 768) :
    matmul dot_S512x256_S256x768_S512x768_1_0_0_1_n_n none a b (constant (F := Ideal) S512x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S512x256_S256x768_S512x768_1_0_0_1_n_n 256 rfl rfl).symm]
  refine Finset.sum_congr rfl fun k _ => ?_
  have ck := contrEquiv1_symm_val dot_S512x256_S256x768_S512x768_1_0_0_1_n_n 256 rfl rfl k
  have l2 : dot_S512x256_S256x768_S512x768_1_0_0_1_n_n.lhsIdx (ix2 r n)
      ((contrEquiv1 dot_S512x256_S256x768_S512x768_1_0_0_1_n_n 256 rfl rfl).symm k) = ix2 r k := by
    funext ax; apply Fin.ext
    match ax with
    | ⟨0, _⟩ => simp [DotDims.lhsIdx, dot_S512x256_S256x768_S512x768_1_0_0_1_n_n]; rfl
    | ⟨1, _⟩ => simp [DotDims.lhsIdx, dot_S512x256_S256x768_S512x768_1_0_0_1_n_n]; exact ck
  have r2 : dot_S512x256_S256x768_S512x768_1_0_0_1_n_n.rhsIdx (ix2 r n)
      ((contrEquiv1 dot_S512x256_S256x768_S512x768_1_0_0_1_n_n 256 rfl rfl).symm k) = ix2 k n := by
    funext ax; apply Fin.ext
    match ax with
    | ⟨0, _⟩ => simp [DotDims.rhsIdx, dot_S512x256_S256x768_S512x768_1_0_0_1_n_n]; exact ck
    | ⟨1, _⟩ => simp [DotDims.rhsIdx, dot_S512x256_S256x768_S512x768_1_0_0_1_n_n]; rfl
  rw [l2, r2]

/-- [512,256] × [256,256] into zeros, at (r, n): the sum over the 256 contracted coordinates. -/
theorem matmul_512x256_256x256_apply (a : FVec Ideal S512x256 .bf16) (b : FVec Ideal S256x256 .bf16) (r : Fin 512) (n : Fin 256) :
    matmul dot_S512x256_S256x256_S512x256_1_0_0_1_n_n none a b (constant (F := Ideal) S512x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S512x256_S256x256_S512x256_1_0_0_1_n_n 256 rfl rfl).symm]
  refine Finset.sum_congr rfl fun k _ => ?_
  have ck := contrEquiv1_symm_val dot_S512x256_S256x256_S512x256_1_0_0_1_n_n 256 rfl rfl k
  have l2 : dot_S512x256_S256x256_S512x256_1_0_0_1_n_n.lhsIdx (ix2 r n)
      ((contrEquiv1 dot_S512x256_S256x256_S512x256_1_0_0_1_n_n 256 rfl rfl).symm k) = ix2 r k := by
    funext ax; apply Fin.ext
    match ax with
    | ⟨0, _⟩ => simp [DotDims.lhsIdx, dot_S512x256_S256x256_S512x256_1_0_0_1_n_n]; rfl
    | ⟨1, _⟩ => simp [DotDims.lhsIdx, dot_S512x256_S256x256_S512x256_1_0_0_1_n_n]; exact ck
  have r2 : dot_S512x256_S256x256_S512x256_1_0_0_1_n_n.rhsIdx (ix2 r n)
      ((contrEquiv1 dot_S512x256_S256x256_S512x256_1_0_0_1_n_n 256 rfl rfl).symm k) = ix2 k n := by
    funext ax; apply Fin.ext
    match ax with
    | ⟨0, _⟩ => simp [DotDims.rhsIdx, dot_S512x256_S256x256_S512x256_1_0_0_1_n_n]; exact ck
    | ⟨1, _⟩ => simp [DotDims.rhsIdx, dot_S512x256_S256x256_S512x256_1_0_0_1_n_n]; rfl
  rw [l2, r2]

/-! ## The payloads at an index -/

/-- The pre-activation at (r, n): (x·Wt + b) + h̃·Ut. -/
theorem pay2_apply (v0 : Vec Ideal S512x256 .bf16) (v2 : Vec Ideal S256x768 .bf16) (v5 : Vec Ideal S1x768 .f32)
    (v8 : Vec Ideal S512x256 .f32) (v13 : Vec Ideal S256x768 .bf16) (r : Fin 512) (n : Fin 768) :
    k7_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k7_pay2
  simp only [shapeCast_self]
  refine (addf_apply _ _ _).trans ?_
  refine congrArg₂ (· + ·) ((addf_apply _ _ _).trans (congrArg₂ (· + ·) ?_ ?_)) ?_
  · exact matmul_512x256_256x768_apply v0 v2 r n
  · exact broadcastTo_1b_ab_apply v5 broadcasts_S1x768_S512x768 r n
  · exact matmul_512x256_256x768_apply _ v13 r n

/-- The cell state at (r, j): logistic z₀ * tanh z₂ + c̃. -/
theorem pay3_apply (v0 : Vec Ideal S512x256 .bf16) (v2 : Vec Ideal S256x768 .bf16) (v5 : Vec Ideal S1x768 .f32)
    (v8 v10 : Vec Ideal S512x256 .f32) (v13 : Vec Ideal S256x768 .bf16) (r : Fin 512) (j : Fin 256) :
    k7_pay3 v0 v2 v5 v8 v10 v13 (ix2 r j)
      = Ideal.logistic (k7_pay2 v0 v2 v5 v8 v13 (ix2 r (c0 j))) * Ideal.tanh (k7_pay2 v0 v2 v5 v8 v13 (ix2 r (c2 j)))
        + v10 (ix2 r j) := by
  unfold k7_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k7_pay2 v0 v2 v5 v8 v13) slices_S512x768_o0_0_S512x256 r j (c0 j) (Nat.zero_add _).symm)
  · exact congrArg Ideal.tanh
      (slice2_axis1_apply 512 (k7_pay2 v0 v2 v5 v8 v13) slices_S512x768_o0_512_S512x256 r j (c2 j) rfl)

/-- The hidden state at (r, j): logistic z₁ * tanh c. -/
theorem pay4_apply (v0 : Vec Ideal S512x256 .bf16) (v2 : Vec Ideal S256x768 .bf16) (v5 : Vec Ideal S1x768 .f32)
    (v8 v10 : Vec Ideal S512x256 .f32) (v13 : Vec Ideal S256x768 .bf16) (r : Fin 512) (j : Fin 256) :
    k7_pay4 v0 v2 v5 v8 v10 v13 (ix2 r j)
      = Ideal.logistic (k7_pay2 v0 v2 v5 v8 v13 (ix2 r (c1 j))) * Ideal.tanh (k7_pay3 v0 v2 v5 v8 v10 v13 (ix2 r j)) := by
  unfold k7_pay4
  refine (mulf_apply _ _ _).trans (congrArg₂ (· * ·) ?_ rfl)
  exact congrArg Ideal.logistic
    (slice2_axis1_apply 256 (k7_pay2 v0 v2 v5 v8 v13) slices_S512x768_o0_256_S512x256 r j (c1 j) rfl)

/-- The forget gate of the hidden state just computed, at (r, j): logistic (h·Uft + bF). -/
theorem pay5_apply (v0 : Vec Ideal S512x256 .bf16) (v2 : Vec Ideal S256x768 .bf16) (v5 : Vec Ideal S1x768 .f32)
    (v8 v10 : Vec Ideal S512x256 .f32) (v13 : Vec Ideal S256x768 .bf16) (v28 : Vec Ideal S256x256 .bf16) (v31 : Vec Ideal S1x256 .f32)
    (r : Fin 512) (j : Fin 256) :
    k7_pay5 v0 v2 v5 v8 v10 v13 v28 v31 (ix2 r j)
      = Ideal.logistic ((∑ k : Fin 256, k7_pay4 v0 v2 v5 v8 v10 v13 (ix2 r k) * v28 (ix2 k j)) + v31 (ix2 (0 : Fin 1) j)) := by
  unfold k7_pay5
  simp only [shapeCast_self]
  refine congrArg Ideal.logistic ((addf_apply _ _ _).trans (congrArg₂ (· + ·) ?_ ?_))
  · exact matmul_512x256_256x256_apply _ v28 r j
  · exact broadcastTo_1b_ab_apply v31 broadcasts_S1x256_S512x256 r j

/-- The right half's stored value at (r, j): the gate times the cell state. -/
theorem pay1_apply (v23 v35 : FVec Ideal S512x256 .f32) (r : Fin 512) (j : Fin 256) :
    k7_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S512x256 .bf16) (v2 : Vec Ideal S256x768 .bf16) (v5 : Vec Ideal S1x768 .f32)
    (v8 v10 : Vec Ideal S512x256 .f32) (v13 : Vec Ideal S256x768 .bf16) (v28 : Vec Ideal S256x256 .bf16) (v31 : Vec Ideal S1x256 .f32)
    (r : Fin 512)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k7_pay4 v0 v2 v5 v8 v10 v13 (ix2 r j) = kerH w X agg i j
    ∧ k7_pay1 (k7_pay3 v0 v2 v5 v8 v10 v13) (k7_pay5 v0 v2 v5 v8 v10 v13 v28 v31) (ix2 r j)
        = fgateRow w (kerH w X agg i) j * kerC w X agg i j := by
  have hz : ∀ n : Fin 768, k7_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k7_pay3 v0 v2 v5 v8 v10 v13 (ix2 r j) = kerC w X agg i j := fun j => by
    rw [pay3_apply, hz, hz, h10]; rfl
  have hh : ∀ j : Fin 256, k7_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg7

end
-- ==== Proof.KReg7.lean ====
/-
  Region 7 of the kernel's run — the update kernel at level 4: 512 nodes, 1 grid points, blocks of 512 rows —:
  the output array main_call0_v130 : [512,512] after the region, element by element, for ANY contents V at the
  region's entry.

  What the body leaves in the output block, at (r, lo j) and at (r, hi j): the two stores cover columns 0..255 and
  256..511, the later one listed first; the agg block is loaded in its two halves. One row of a block is one node:
  row r of point t's blocks is row 512 * t + r of the arrays X = main_call0_v117 and agg = main_call0_v129, the weight
  windows' blocks are their whole arrays. So point t writes back block t of the level's packed array
  [kerH | fgateRow (kerH) * kerC]; the 1 blocks tile the array; hence the array after the region is that packed array.
-/
import proofs.«419362_j66683662237734_3_alg».proof.Proof.KernelIdealFrameP
import proofs.«419362_j66683662237734_3_alg».proof.Proof.KRow7
import Idealize.ShloMosaic.Lib.Pipeline.Value

set_option maxRecDepth 16384

noncomputable section

open scoped BigOperators

namespace Cert.KernelIdeal.Reg7

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S512x512 .f32) (r : Fin 512) (k : Fin 256) :
    (View.ld x3 r7_3 : Vec Ideal S512x256 .f32) (ix2 r k) = x3 (ix2 r (lo k)) := by
  show x3 (r7_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S512x512 .f32) (r : Fin 512) (k : Fin 256) :
    (View.ld x3 r7_4 : Vec Ideal S512x256 .f32) (ix2 r k) = x3 (ix2 r (hi k)) := by
  show x3 (r7_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 512) (j : Fin 256) : (ix2 r (lo j) : S512x512.Idx) = r7_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 512) (j : Fin 256) : (ix2 r (hi j) : S512x512.Idx) = r7_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S512x256 .f32) (r : Fin 512) (j : Fin 256) :
    View.canon [(⟨r7_4, p1⟩ : View.Piece (Elt Ideal) S512x512 .f32), ⟨r7_3, p0⟩] (ix2 r (lo j)) = p0 (ix2 r j) := by
  have hnot : (ix2 r (lo j) : S512x512.Idx) ∉ (⟨r7_4, p1⟩ : View.Piece (Elt Ideal) S512x512 .f32).1.set := by
    show (ix2 r (lo j) : S512x512.Idx) ∉ r7_4.set
    rw [Rect.mem_set_unit]
    intro h
    have h1 : 256 ≤ j.val := (h 1).1
    have := j.isLt
    omega
  rw [View.canon_cons_of_not_mem (⟨r7_4, p1⟩ : View.Piece (Elt Ideal) S512x512 .f32) [⟨r7_3, p0⟩] hnot, emb_left r j]
  exact View.canon_cons_emb r7_3 p0 [] (ix2 r j)

/-- At column hi j the right store's payload shows. -/
theorem canon2_right (p1 p0 : Vec Ideal S512x256 .f32) (r : Fin 512) (j : Fin 256) :
    View.canon [(⟨r7_4, p1⟩ : View.Piece (Elt Ideal) S512x512 .f32), ⟨r7_3, p0⟩] (ix2 r (hi j)) = p1 (ix2 r j) := by
  rw [emb_right r j]
  exact View.canon_cons_emb r7_4 p1 [⟨r7_3, p0⟩] (ix2 r j)

/-- The left half of the output block holds the hidden state's payload. -/
theorem out7_7_left (x0 : Vec Ideal S512x256 .bf16) (x1 : Vec Ideal S256x768 .bf16) (x2 : Vec Ideal S1x768 .f32) (x3 : Vec Ideal S512x512 .f32)
    (x4 : Vec Ideal S256x768 .bf16) (x5 : Vec Ideal S256x256 .bf16) (x6 : Vec Ideal S1x256 .f32) (r : Fin 512) (j : Fin 256) :
    out7_7 x0 x1 x2 x3 x4 x5 x6 (ix2 r (lo j))
      = k7_pay4 x0 x1 x2 (View.ld x3 r7_3) (View.ld x3 r7_4) x4 (ix2 r j) := by
  unfold out7_7
  simp only [View.ld_unit_zero (S := S512x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out7_7_right (x0 : Vec Ideal S512x256 .bf16) (x1 : Vec Ideal S256x768 .bf16) (x2 : Vec Ideal S1x768 .f32) (x3 : Vec Ideal S512x512 .f32)
    (x4 : Vec Ideal S256x768 .bf16) (x5 : Vec Ideal S256x256 .bf16) (x6 : Vec Ideal S1x256 .f32) (r : Fin 512) (j : Fin 256) :
    out7_7 x0 x1 x2 x3 x4 x5 x6 (ix2 r (hi j))
      = k7_pay1 (k7_pay3 x0 x1 x2 (View.ld x3 r7_3) (View.ld x3 r7_4) x4)
          (k7_pay5 x0 x1 x2 (View.ld x3 r7_3) (View.ld x3 r7_4) x4 x5 x6) (ix2 r j) := by
  unfold out7_7
  simp only [View.ld_unit_zero (S := S512x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 512 256) (agg : A2 512 512) : A2 512 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 512 256) (agg : A2 512 512) (i : Fin 512) (j : Fin 256) :
    packed w X agg (ix2 i (lo j)) = kerH w X agg i j := by
  unfold packed
  exact dif_pos j.isLt

theorem packed_hi (w : Wts) (X : A2 512 256) (agg : A2 512 512) (i : Fin 512) (j : Fin 256) :
    packed w X agg (ix2 i (hi j)) = fgateRow w (kerH w X agg i) j * kerC w X agg i j := by
  have hn : ¬ ((ix2 i (hi j) : (⟨2, ![512, 512]⟩ : Shape).Idx) 1).val < 256 := by
    show ¬ (256 + j.val < 256); omega
  have e : ∀ h, (⟨((ix2 i (hi j) : (⟨2, ![512, 512]⟩ : Shape).Idx) 1).val - 256, h⟩ : Fin 256) = j :=
    fun h => Fin.ext (by show 256 + j.val - 256 = j.val; omega)
  unfold packed
  rw [dif_neg hn, e]

/-- One block at an index: if row r of the blocks is row 512 * T + r of X and agg and the weight blocks hold the
    transposed weights, the output block at y is the packed array at g, where g is y moved down 512 * T rows. -/
theorem block_at (w : Wts) (X : A2 512 256) (agg : A2 512 512)
    (x0 : Vec Ideal S512x256 .bf16) (x1 : Vec Ideal S256x768 .bf16) (x2 : Vec Ideal S1x768 .f32) (x3 : Vec Ideal S512x512 .f32)
    (x4 : Vec Ideal S256x768 .bf16) (x5 : Vec Ideal S256x256 .bf16) (x6 : Vec Ideal S1x256 .f32) (T : Nat)
    (h0 : ∀ (r : Fin 512) (k : Fin 256) (i : Fin 512), i.val = 512 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 512) (q : Fin 512) (i : Fin 512), i.val = 512 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S512x512.Idx) (g : S512x512.Idx) (hg0 : (g 0).val = 512 * T + (y 0).val) (hg1 : (g 1).val = (y 1).val) :
    out7_7 x0 x1 x2 x3 x4 x5 x6 y = packed w X agg g := by
  obtain ⟨r, q, rfl⟩ : ∃ (r : Fin 512) (q : Fin 512), y = ix2 r q := ⟨y 0, y 1, eq_ix2 y⟩
  obtain ⟨i, q', rfl⟩ : ∃ (i : Fin 512) (q' : Fin 512), g = ix2 i q' := ⟨g 0, g 1, eq_ix2 g⟩
  have hir : i.val = 512 * T + r.val := hg0
  obtain rfl : q' = q := Fin.ext hg1
  have hrow := fun j : Fin 256 => row w X agg i x0 x1 x2 (View.ld x3 r7_3) (View.ld x3 r7_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out7_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out7_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 512 256 := V c main_call0_v117
/-- The children's packed rows summed per node, as the region finds them. -/
abbrev aggarr (c : Dev nD) : A2 512 512 := V c main_call0_v129

/-- The windows' blocks at point t, typed by their block shapes. -/
abbrev b0 (c : Dev nD) (t : Fin cfg7.N) : Vec Ideal S512x256 .bf16 := iblk7 V c 0 t
abbrev b1 (c : Dev nD) (t : Fin cfg7.N) : Vec Ideal S256x768 .bf16 := iblk7 V c 1 t
abbrev b2 (c : Dev nD) (t : Fin cfg7.N) : Vec Ideal S1x768 .f32 := iblk7 V c 2 t
abbrev b3 (c : Dev nD) (t : Fin cfg7.N) : Vec Ideal S512x512 .f32 := iblk7 V c 3 t
abbrev b4 (c : Dev nD) (t : Fin cfg7.N) : Vec Ideal S256x768 .bf16 := iblk7 V c 4 t
abbrev b5 (c : Dev nD) (t : Fin cfg7.N) : Vec Ideal S256x256 .bf16 := iblk7 V c 5 t
abbrev b6 (c : Dev nD) (t : Fin cfg7.N) : Vec Ideal S1x256 .f32 := iblk7 V c 6 t

/-- The printed index maps over the grid: the row windows 0, 3, 7 are at block (t, 0), the weight windows at (0, 0). -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Row r of point t's X block is row 512 * t + r of X. -/
theorem read0 (c : Dev nD) (t : Fin cfg7.N) (r : Fin 512) (k : Fin 256) (i : Fin 512) (hir : i.val = 512 * t.val + r.val) :
    b0 V c t (ix2 r k) = Xarr V c (ix2 i k) := by
  obtain ⟨e0, e1, -⟩ := idx_facts t
  show ((cfg7.win 0).blk t).view.read (Elt Ideal) (V c main_call0_v117) (ix2 r k) = V c main_call0_v117 (ix2 i k)
  rw [View.read_apply]
  show V c main_call0_v117 _ = V c main_call0_v117 _
  refine congrArg (V c main_call0_v117) (funext fun a => Fin.ext ?_)
  match a with
  | ⟨0, _⟩ => show win7_0.index t (0 : Fin 2) * 512 + 1 * r.val = i.val; rw [e0, hir]; omega
  | ⟨1, _⟩ => show win7_0.index t (1 : Fin 2) * 256 + 1 * k.val = k.val; rw [e1]; omega

/-- Row r of point t's agg block is row 512 * t + r of agg. -/
theorem read3 (c : Dev nD) (t : Fin cfg7.N) (r : Fin 512) (q : Fin 512) (i : Fin 512) (hir : i.val = 512 * t.val + r.val) :
    b3 V c t (ix2 r q) = aggarr V c (ix2 i q) := by
  obtain ⟨-, -, -, -, -, -, e0, e1, -⟩ := idx_facts t
  show ((cfg7.win 3).blk t).view.read (Elt Ideal) (V c main_call0_v129) (ix2 r q) = V c main_call0_v129 (ix2 i q)
  rw [View.read_apply]
  show V c main_call0_v129 _ = V c main_call0_v129 _
  refine congrArg (V c main_call0_v129) (funext fun a => Fin.ext ?_)
  match a with
  | ⟨0, _⟩ => show win7_3.index t (0 : Fin 2) * 512 + 1 * r.val = i.val; rw [e0, hir]; omega
  | ⟨1, _⟩ => show win7_3.index t (1 : Fin 2) * 512 + 1 * q.val = q.val; rw [e1]; omega

/-- The W block at any point is the whole array main_call0_v12. -/
theorem read1 (c : Dev nD) (t : Fin cfg7.N) (k : Fin 256) (n : Fin 768) :
    b1 V c t (ix2 k n) = (V c main_call0_v12 : A2 256 768) (ix2 k n) := by
  obtain ⟨-, -, e0, e1, -⟩ := idx_facts t
  show ((cfg7.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win7_1.index t (0 : Fin 2) * 256 + 1 * k.val = k.val; rw [e0]; omega
  | ⟨1, _⟩ => show win7_1.index t (1 : Fin 2) * 768 + 1 * n.val = n.val; rw [e1]; omega

/-- The bias block at any point is the whole array main_arg5. -/
theorem read2 (c : Dev nD) (t : Fin cfg7.N) (z : Fin 1) (n : Fin 768) :
    b2 V c t (ix2 z n) = (V c main_arg5 : A2 1 768) (ix2 z n) := by
  obtain ⟨-, -, -, -, e0, e1, -⟩ := idx_facts t
  show ((cfg7.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win7_2.index t (0 : Fin 2) * 1 + 1 * z.val = z.val; rw [e0]; omega
  | ⟨1, _⟩ => show win7_2.index t (1 : Fin 2) * 768 + 1 * n.val = n.val; rw [e1]; omega

/-- The U block at any point is the whole array main_call0_v16. -/
theorem read4 (c : Dev nD) (t : Fin cfg7.N) (k : Fin 256) (n : Fin 768) :
    b4 V c t (ix2 k n) = (V c main_call0_v16 : A2 256 768) (ix2 k n) := by
  obtain ⟨-, -, -, -, -, -, -, -, e0, e1, -⟩ := idx_facts t
  show ((cfg7.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win7_4.index t (0 : Fin 2) * 256 + 1 * k.val = k.val; rw [e0]; omega
  | ⟨1, _⟩ => show win7_4.index t (1 : Fin 2) * 768 + 1 * n.val = n.val; rw [e1]; omega

/-- The U_f block at any point is the whole array main_call0_v14. -/
theorem read5 (c : Dev nD) (t : Fin cfg7.N) (k j : Fin 256) :
    b5 V c t (ix2 k j) = (V c main_call0_v14 : A2 256 256) (ix2 k j) := by
  obtain ⟨-, -, -, -, -, -, -, -, -, -, e0, e1, -⟩ := idx_facts t
  show ((cfg7.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win7_5.index t (0 : Fin 2) * 256 + 1 * k.val = k.val; rw [e0]; omega
  | ⟨1, _⟩ => show win7_5.index t (1 : Fin 2) * 256 + 1 * j.val = j.val; rw [e1]; omega

/-- The b_f block at any point is the whole array main_call0_v19. -/
theorem read6 (c : Dev nD) (t : Fin cfg7.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg7.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win7_6.index t (0 : Fin 2) * 1 + 1 * z.val = z.val; rw [e0]; omega
  | ⟨1, _⟩ => show win7_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg7.N) :
    (dat7 V c).flushed 7 t = ((cfg7.win 7).blk t).view.read (Elt Ideal) (packed w (Xarr V c) (aggarr V c)) := by
  show (cfg7.win 7).cut (grid7.coords t) ((dat7 V c).after 7 t) = _
  rw [after7_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg7.win 7).xinj (grid7.coords t) y) (((cfg7.win 7).blk t).view.emb y)
    (by show win7_7.index t (0 : Fin 2) * 512 + 1 * (y 0).val = 512 * t.val + (y 0).val; rw [e0]; omega)
    (by show win7_7.index t (1 : Fin 2) * 512 + 1 * (y 1).val = (y 1).val; rw [e1]; omega)

/-- An index of the array is in point t's block iff each coordinate is in the block's range on its axis. -/
theorem mem_blk (t : Fin cfg7.N) (i : S512x512.Idx) :
    i ∈ ((cfg7.win 7).blk t).view.set ↔ ∀ a : Fin 2, win7_7.index t a * S512x512.size a ≤ (i a).val
      ∧ (i a).val < win7_7.index t a * S512x512.size a + S512x512.size a := by
  show i ∈ ((View.whole main_call0_v130).slice (win7_7.rect t)).set ↔ _
  rw [View.set_slice_whole, Rect.mem_set_unit]
  exact Iff.rfl

/-- The 1 blocks of 512 rows tile the array: row i is in the block of point i / 512. -/
theorem cover (i : S512x512.Idx) : ∃ t : Fin cfg7.N, (cfg7.win 7).flush t = true ∧ i ∈ ((cfg7.win 7).blk t).view.set := by
  have hi0 : (i 0).val < 512 := idx2_lt0 i
  have hi1 : (i 1).val < 512 := idx2_lt1 i
  refine ⟨⟨(i 0).val / 512, by rw [show cfg7.N = 1 from N_7]; omega⟩, flush7_7 _, ?_⟩
  rw [mem_blk]
  obtain ⟨-, -, -, -, -, -, -, -, -, -, -, -, -, -, e0, e1⟩ := idx_facts ⟨(i 0).val / 512, by rw [show cfg7.N = 1 from N_7]; omega⟩
  intro a
  match a with
  | ⟨0, _⟩ =>
    show win7_7.index _ (0 : Fin 2) * 512 ≤ (i 0).val ∧ (i 0).val < win7_7.index _ (0 : Fin 2) * 512 + 512
    rw [e0]; show (i 0).val / 512 * 512 ≤ (i 0).val ∧ (i 0).val < (i 0).val / 512 * 512 + 512; omega
  | ⟨1, _⟩ =>
    show win7_7.index _ (1 : Fin 2) * 512 ≤ (i 1).val ∧ (i 1).val < win7_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat7 V c).arrAt 7 cfg7.N = packed w (Xarr V c) (aggarr V c) :=
  (dat7 V c).arrAt_eq_of_cover 7 (packed w (Xarr V c) (aggarr V c))
    (fun t _ => flushed_eq V c w hWt hb hUt hUft hbF t) (cover)

/-- THE VALUE OF THE REGION: after it, row i of main_call0_v130 is [kerH | fgateRow (kerH) * kerC] of node i. -/
theorem region7_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 512) (j : Fin 256) :
    ((dat7 V c).arrAt 7 cfg7.N : A2 512 512) (ix2 i (lo j)) = kerH w (Xarr V c) (aggarr V c) i j
    ∧ ((dat7 V c).arrAt 7 cfg7.N : A2 512 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg7

end
-- ==== Proof.KStr8.lean ====
/-
  The host arithmetic before the level with 8 nodes per graph of the fused kernel, read off the program.

  From the contents at the stretch's entry it cuts the level's window of the token rows (8 rows of each graph from
  row 7 on, flattened to 256 rows) and the children's parent ids (16 entries of each graph from entry 15 on,
  flattened to 512), turns each parent id `p` into the parent's slot `(p div 4095) * 8 + (p mod 4095 - 7)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str8

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps8 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S512x512 .f32 := Win (Proc.devRef .tc main_call0_v130)
abbrev xOut : Vec Ideal S256x256 .bf16 := Wout (Proc.devRef .tc main_call0_v132)
abbrev pOut : IVec S512 32 := Wout (Proc.devRef .tc main_call0_v134)
abbrev segOut : IVec S512 32 := Wout (Proc.devRef .tc main_call0_v141)
abbrev aggOut : Vec Ideal S256x512 .f32 := Wout (Proc.devRef .tc main_call0_v144)

/-- The parent's slot from the parent's node id `p`: `(p div 4095) * 8 + (p mod 4095 - 7)`, the flooring
    quotient and the non-negative remainder written through the truncating ones as the program writes them. -/
def segFun (p : IVec S512 32) : IVec S512 32 :=
  addi
    (muli
      (select (andi (cmpi .ne (signi p) (broadcastInDim S512 ![] bcast_S_S512 (signi (id (constantI S_ 32 4095#32))))) (cmpi .ne (Host.remsi p (broadcastInDim S512 ![] bcast_S_S512 (id (constantI S_ 32 4095#32)))) (broadcastInDim S512 ![] bcast_S_S512 (constantI S_ 32 0#32))))
        (subi (Host.divsi p (broadcastInDim S512 ![] bcast_S_S512 (id (constantI S_ 32 4095#32)))) (broadcastInDim S512 ![] bcast_S_S512 (constantI S_ 32 1#32)))
        (Host.divsi p (broadcastInDim S512 ![] bcast_S_S512 (id (constantI S_ 32 4095#32)))))
      (broadcastInDim S512 ![] bcast_S_S512 (constantI S_ 32 8#32)))
    (subi
      (select (andi (cmpi .ne (cmpi .slt (Host.remsi p (broadcastInDim S512 ![] bcast_S_S512 (select (cmpi .eq (id (constantI S_ 32 4095#32)) (constantI S_ 32 0#32)) (constantI S_ 32 1#32) (id (constantI S_ 32 4095#32))))) (broadcastInDim S512 ![] bcast_S_S512 (constantI S_ 32 0#32))) (broadcastInDim S512 ![] bcast_S_S512 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S512 ![] bcast_S_S512 (select (cmpi .eq (id (constantI S_ 32 4095#32)) (constantI S_ 32 0#32)) (constantI S_ 32 1#32) (id (constantI S_ 32 4095#32))))) (broadcastInDim S512 ![] bcast_S_S512 (constantI S_ 32 0#32))))
        (addi (Host.remsi p (broadcastInDim S512 ![] bcast_S_S512 (select (cmpi .eq (id (constantI S_ 32 4095#32)) (constantI S_ 32 0#32)) (constantI S_ 32 1#32) (id (constantI S_ 32 4095#32))))) (broadcastInDim S512 ![] bcast_S_S512 (select (cmpi .eq (id (constantI S_ 32 4095#32)) (constantI S_ 32 0#32)) (constantI S_ 32 1#32) (id (constantI S_ 32 4095#32)))))
        (Host.remsi p (broadcastInDim S512 ![] bcast_S_S512 (select (cmpi .eq (id (constantI S_ 32 4095#32)) (constantI S_ 32 0#32)) (constantI S_ 32 1#32) (id (constantI S_ 32 4095#32))))))
      (broadcastInDim S512 ![] bcast_S_S512 (constantI S_ 32 7#32)))

/-- The level's token window: flat row `i` is row `7 + i % 8` of graph `i / 8`. -/
theorem x_apply (i : Fin 256) (k : Fin 256) :
    xOut Win (ix2 i k)
      = tokIn Win (ix3 ⟨i.val / 8, by omega⟩ ⟨7 + i.val % 8, by omega⟩ k) := by
  have e : xOut Win = shapeCast S256x256 (extractStridedSlice S32x8x256 ![0, 7, 0] (tokIn Win)
      slices_S32x4095x256_S32x8x256_0_7_0) shapeCasts_S32x8x256_S256x256 := by
    dsimp only [xOut, tokIn, hostOps8]
    after_results_simp
    rfl
  rw [e]
  exact flat3_slice_apply 7 (tokIn Win) _ _ i k (by decide) _ _

/-- The children's parent ids: entry `q` is entry `15 + q % 16` of graph `q / 16`. -/
theorem p_apply (q : Fin 512) :
    pOut Win (ix1 q)
      = parIn Win (ix2 ⟨q.val / 16, by omega⟩ ⟨15 + q.val % 16, by omega⟩) := by
  have e : pOut Win = shapeCast S512 (extractStridedSlice S32x16 ![0, 15] (parIn Win)
      slices_S32x4095_S32x16_0_15) shapeCasts_S32x16_S512 := by
    dsimp only [pOut, parIn, hostOps8]
    after_results_simp
    rfl
  rw [e]
  exact flat2_slice_apply 15 (parIn Win) _ _ q (by decide) _ _

/-- The slot numbers are `segFun` of the parent ids. -/
theorem seg_eq :
    segOut Win = segFun (pOut Win) := by
  dsimp only [segOut, pOut, hostOps8]
  after_results_simp
  rfl

/-- The per-slot sums, as the scatter that computes them. -/
theorem agg_eq :
    aggOut Win
      = Host.scatterAdd (F := Ideal) scatter_S256x512_S512x1_S512x512_1_0_0_1
          (broadcastInDim S256x512 ![] bcast_S_S256x512 (constant (F := Ideal) S_ .f32 0x00000000#32))
          (broadcastInDim S512x1 ![0] bcast_S512_S512x1_0 (segOut Win))
          (hcIn Win) := by
  dsimp only [aggOut, segOut, hcIn, hostOps8]
  after_results_simp
  rfl

/-- Slot `i` holds the sum of the packed rows of the children routed to it. -/
theorem agg_apply (i : Fin 256) (n : Fin 512) :
    aggOut Win (ix2 i n)
      = ∑ k ∈ kids (fun k : Fin 512 => rowTarget 256 (segOut Win (ix1 k))) i, hcIn Win (ix2 k n) := by
  rw [agg_eq]
  exact segsum_apply scatter_S256x512_S512x1_S512x512_1_0_0_1 ⟨rfl, rfl, rfl, rfl⟩ _ bcast_S_S256x512
    bcast_S512_S512x1_0 (segOut Win) (hcIn Win) i n

/-! ## What the stretch leaves alone -/

/-- The arrays the stretch writes. -/
noncomputable def written : List (Ref sig .tc) :=
  [main_call0_v131, main_call0_v132, main_call0_v133, main_call0_v134, main_call0_c_37, main_call0_call14_v0,
   main_call0_call14_v1, main_call0_call14_v2, main_call0_call14_v3, main_call0_call14_v4, main_call0_call14_v5,
   main_call0_call14_v6, main_call0_call14_v7, main_call0_call14_v8, main_call0_call14_c, main_call0_call14_v9,
   main_call0_call14_v10, main_call0_call14_v11, main_call0_call14_c_0, main_call0_call14_v12, main_call0_call14_v13,
   main_call0_v135, main_call0_c_38, main_call0_v136, main_call0_v137, main_call0_c_39, main_call0_call15_v0,
   main_call0_call15_c, main_call0_call15_v1, main_call0_call15_c_0, main_call0_call15_v2, main_call0_call15_v3,
   main_call0_call15_v4, main_call0_call15_c_1, main_call0_call15_v5, main_call0_call15_v6, main_call0_call15_c_2,
   main_call0_call15_v7, main_call0_call15_v8, main_call0_call15_c_3, main_call0_call15_v9, main_call0_call15_v10,
   main_call0_call15_v11, main_call0_call15_v12, main_call0_call15_v13, main_call0_call15_v14, main_call0_v138,
   main_call0_c_40, main_call0_v139, main_call0_v140, main_call0_v141, main_call0_cst_41, main_call0_v142,
   main_call0_v143, main_call0_v144]

/-- An array the stretch does not write holds after it what it held before. -/
theorem keep (r : Ref sig .tc) (hr : r ∉ written) : Wout (Proc.devRef .tc r) = Win (Proc.devRef .tc r) := by
  refine after_of_writes_sub (W := written) hostOps8 Win ?_ hr
  simp only [hostOps8, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v130 : Wout (Proc.devRef .tc main_call0_v130) = Win (Proc.devRef .tc main_call0_v130) := keep Win _ (by decide)
theorem keep_arg5 : Wout (Proc.devRef .tc main_arg5) = Win (Proc.devRef .tc main_arg5) := keep Win _ (by decide)

end Cert.KernelIdeal.Str8

end
-- ==== Proof.KRow8.lean ====
/-
  The update kernel's body at level 3 (blocks of 256 rows), read at one element.

  The body's five payloads, over variables of the block shapes: the pre-activation [256,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 256; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg8

open Cert.KernelIdeal Cert.KernelIdeal.Gen Cert.TreeLstm
open Idealize.ShloMosaic Idealize.ShloMosaic.ValueIdx

/-! ## The two contractions at an index -/

/-- [256,256] × [256,768] into zeros, at (r, n): the sum over the 256 contracted coordinates. -/
theorem matmul_256x256_256x768_apply (a : FVec Ideal S256x256 .bf16) (b : FVec Ideal S256x768 .bf16) (r : Fin 256) (n : Fin 768) :
    matmul dot_S256x256_S256x768_S256x768_1_0_0_1_n_n none a b (constant (F := Ideal) S256x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S256x256_S256x768_S256x768_1_0_0_1_n_n 256 rfl rfl).symm]
  refine Finset.sum_congr rfl fun k _ => ?_
  have ck := contrEquiv1_symm_val dot_S256x256_S256x768_S256x768_1_0_0_1_n_n 256 rfl rfl k
  have l2 : dot_S256x256_S256x768_S256x768_1_0_0_1_n_n.lhsIdx (ix2 r n)
      ((contrEquiv1 dot_S256x256_S256x768_S256x768_1_0_0_1_n_n 256 rfl rfl).symm k) = ix2 r k := by
    funext ax; apply Fin.ext
    match ax with
    | ⟨0, _⟩ => simp [DotDims.lhsIdx, dot_S256x256_S256x768_S256x768_1_0_0_1_n_n]; rfl
    | ⟨1, _⟩ => simp [DotDims.lhsIdx, dot_S256x256_S256x768_S256x768_1_0_0_1_n_n]; exact ck
  have r2 : dot_S256x256_S256x768_S256x768_1_0_0_1_n_n.rhsIdx (ix2 r n)
      ((contrEquiv1 dot_S256x256_S256x768_S256x768_1_0_0_1_n_n 256 rfl rfl).symm k) = ix2 k n := by
    funext ax; apply Fin.ext
    match ax with
    | ⟨0, _⟩ => simp [DotDims.rhsIdx, dot_S256x256_S256x768_S256x768_1_0_0_1_n_n]; exact ck
    | ⟨1, _⟩ => simp [DotDims.rhsIdx, dot_S256x256_S256x768_S256x768_1_0_0_1_n_n]; rfl
  rw [l2, r2]

/-- [256,256] × [256,256] into zeros, at (r, n): the sum over the 256 contracted coordinates. -/
theorem matmul_256x256_256x256_apply (a : FVec Ideal S256x256 .bf16) (b : FVec Ideal S256x256 .bf16) (r : Fin 256) (n : Fin 256) :
    matmul dot_S256x256_S256x256_S256x256_1_0_0_1_n_n none a b (constant (F := Ideal) S256x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S256x256_S256x256_S256x256_1_0_0_1_n_n 256 rfl rfl).symm]
  refine Finset.sum_congr rfl fun k _ => ?_
  have ck := contrEquiv1_symm_val dot_S256x256_S256x256_S256x256_1_0_0_1_n_n 256 rfl rfl k
  have l2 : dot_S256x256_S256x256_S256x256_1_0_0_1_n_n.lhsIdx (ix2 r n)
      ((contrEquiv1 dot_S256x256_S256x256_S256x256_1_0_0_1_n_n 256 rfl rfl).symm k) = ix2 r k := by
    funext ax; apply Fin.ext
    match ax with
    | ⟨0, _⟩ => simp [DotDims.lhsIdx, dot_S256x256_S256x256_S256x256_1_0_0_1_n_n]; rfl
    | ⟨1, _⟩ => simp [DotDims.lhsIdx, dot_S256x256_S256x256_S256x256_1_0_0_1_n_n]; exact ck
  have r2 : dot_S256x256_S256x256_S256x256_1_0_0_1_n_n.rhsIdx (ix2 r n)
      ((contrEquiv1 dot_S256x256_S256x256_S256x256_1_0_0_1_n_n 256 rfl rfl).symm k) = ix2 k n := by
    funext ax; apply Fin.ext
    match ax with
    | ⟨0, _⟩ => simp [DotDims.rhsIdx, dot_S256x256_S256x256_S256x256_1_0_0_1_n_n]; exact ck
    | ⟨1, _⟩ => simp [DotDims.rhsIdx, dot_S256x256_S256x256_S256x256_1_0_0_1_n_n]; rfl
  rw [l2, r2]

/-! ## The payloads at an index -/

/-- The pre-activation at (r, n): (x·Wt + b) + h̃·Ut. -/
theorem pay2_apply (v0 : Vec Ideal S256x256 .bf16) (v2 : Vec Ideal S256x768 .bf16) (v5 : Vec Ideal S1x768 .f32)
    (v8 : Vec Ideal S256x256 .f32) (v13 : Vec Ideal S256x768 .bf16) (r : Fin 256) (n : Fin 768) :
    k8_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k8_pay2
  simp only [shapeCast_self]
  refine (addf_apply _ _ _).trans ?_
  refine congrArg₂ (· + ·) ((addf_apply _ _ _).trans (congrArg₂ (· + ·) ?_ ?_)) ?_
  · exact matmul_256x256_256x768_apply v0 v2 r n
  · exact broadcastTo_1b_ab_apply v5 broadcasts_S1x768_S256x768 r n
  · exact matmul_256x256_256x768_apply _ v13 r n

/-- The cell state at (r, j): logistic z₀ * tanh z₂ + c̃. -/
theorem pay3_apply (v0 : Vec Ideal S256x256 .bf16) (v2 : Vec Ideal S256x768 .bf16) (v5 : Vec Ideal S1x768 .f32)
    (v8 v10 : Vec Ideal S256x256 .f32) (v13 : Vec Ideal S256x768 .bf16) (r : Fin 256) (j : Fin 256) :
    k8_pay3 v0 v2 v5 v8 v10 v13 (ix2 r j)
      = Ideal.logistic (k8_pay2 v0 v2 v5 v8 v13 (ix2 r (c0 j))) * Ideal.tanh (k8_pay2 v0 v2 v5 v8 v13 (ix2 r (c2 j)))
        + v10 (ix2 r j) := by
  unfold k8_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k8_pay2 v0 v2 v5 v8 v13) slices_S256x768_o0_0_S256x256 r j (c0 j) (Nat.zero_add _).symm)
  · exact congrArg Ideal.tanh
      (slice2_axis1_apply 512 (k8_pay2 v0 v2 v5 v8 v13) slices_S256x768_o0_512_S256x256 r j (c2 j) rfl)

/-- The hidden state at (r, j): logistic z₁ * tanh c. -/
theorem pay4_apply (v0 : Vec Ideal S256x256 .bf16) (v2 : Vec Ideal S256x768 .bf16) (v5 : Vec Ideal S1x768 .f32)
    (v8 v10 : Vec Ideal S256x256 .f32) (v13 : Vec Ideal S256x768 .bf16) (r : Fin 256) (j : Fin 256) :
    k8_pay4 v0 v2 v5 v8 v10 v13 (ix2 r j)
      = Ideal.logistic (k8_pay2 v0 v2 v5 v8 v13 (ix2 r (c1 j))) * Ideal.tanh (k8_pay3 v0 v2 v5 v8 v10 v13 (ix2 r j)) := by
  unfold k8_pay4
  refine (mulf_apply _ _ _).trans (congrArg₂ (· * ·) ?_ rfl)
  exact congrArg Ideal.logistic
    (slice2_axis1_apply 256 (k8_pay2 v0 v2 v5 v8 v13) slices_S256x768_o0_256_S256x256 r j (c1 j) rfl)

/-- The forget gate of the hidden state just computed, at (r, j): logistic (h·Uft + bF). -/
theorem pay5_apply (v0 : Vec Ideal S256x256 .bf16) (v2 : Vec Ideal S256x768 .bf16) (v5 : Vec Ideal S1x768 .f32)
    (v8 v10 : Vec Ideal S256x256 .f32) (v13 : Vec Ideal S256x768 .bf16) (v28 : Vec Ideal S256x256 .bf16) (v31 : Vec Ideal S1x256 .f32)
    (r : Fin 256) (j : Fin 256) :
    k8_pay5 v0 v2 v5 v8 v10 v13 v28 v31 (ix2 r j)
      = Ideal.logistic ((∑ k : Fin 256, k8_pay4 v0 v2 v5 v8 v10 v13 (ix2 r k) * v28 (ix2 k j)) + v31 (ix2 (0 : Fin 1) j)) := by
  unfold k8_pay5
  simp only [shapeCast_self]
  refine congrArg Ideal.logistic ((addf_apply _ _ _).trans (congrArg₂ (· + ·) ?_ ?_))
  · exact matmul_256x256_256x256_apply _ v28 r j
  · exact broadcastTo_1b_ab_apply v31 broadcasts_S1x256_S256x256 r j

/-- The right half's stored value at (r, j): the gate times the cell state. -/
theorem pay1_apply (v23 v35 : FVec Ideal S256x256 .f32) (r : Fin 256) (j : Fin 256) :
    k8_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S256x256 .bf16) (v2 : Vec Ideal S256x768 .bf16) (v5 : Vec Ideal S1x768 .f32)
    (v8 v10 : Vec Ideal S256x256 .f32) (v13 : Vec Ideal S256x768 .bf16) (v28 : Vec Ideal S256x256 .bf16) (v31 : Vec Ideal S1x256 .f32)
    (r : Fin 256)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k8_pay4 v0 v2 v5 v8 v10 v13 (ix2 r j) = kerH w X agg i j
    ∧ k8_pay1 (k8_pay3 v0 v2 v5 v8 v10 v13) (k8_pay5 v0 v2 v5 v8 v10 v13 v28 v31) (ix2 r j)
        = fgateRow w (kerH w X agg i) j * kerC w X agg i j := by
  have hz : ∀ n : Fin 768, k8_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k8_pay3 v0 v2 v5 v8 v10 v13 (ix2 r j) = kerC w X agg i j := fun j => by
    rw [pay3_apply, hz, hz, h10]; rfl
  have hh : ∀ j : Fin 256, k8_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg8

end
-- ==== Proof.KReg8.lean ====
/-
  Region 8 of the kernel's run — the update kernel at level 3: 256 nodes, 1 grid points, blocks of 256 rows —:
  the output array main_call0_v145 : [256,512] after the region, element by element, for ANY contents V at the
  region's entry.

  What the body leaves in the output block, at (r, lo j) and at (r, hi j): the two stores cover columns 0..255 and
  256..511, the later one listed first; the agg block is loaded in its two halves. One row of a block is one node:
  row r of point t's blocks is row 256 * t + r of the arrays X = main_call0_v132 and agg = main_call0_v144, the weight
  windows' blocks are their whole arrays. So point t writes back block t of the level's packed array
  [kerH | fgateRow (kerH) * kerC]; the 1 blocks tile the array; hence the array after the region is that packed array.
-/
import proofs.«419362_j66683662237734_3_alg».proof.Proof.KernelIdealFrameP
import proofs.«419362_j66683662237734_3_alg».proof.Proof.KRow8
import Idealize.ShloMosaic.Lib.Pipeline.Value

set_option maxRecDepth 16384

noncomputable section

open scoped BigOperators

namespace Cert.KernelIdeal.Reg8

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S256x512 .f32) (r : Fin 256) (k : Fin 256) :
    (View.ld x3 r8_3 : Vec Ideal S256x256 .f32) (ix2 r k) = x3 (ix2 r (lo k)) := by
  show x3 (r8_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S256x512 .f32) (r : Fin 256) (k : Fin 256) :
    (View.ld x3 r8_4 : Vec Ideal S256x256 .f32) (ix2 r k) = x3 (ix2 r (hi k)) := by
  show x3 (r8_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 256) (j : Fin 256) : (ix2 r (lo j) : S256x512.Idx) = r8_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 256) (j : Fin 256) : (ix2 r (hi j) : S256x512.Idx) = r8_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S256x256 .f32) (r : Fin 256) (j : Fin 256) :
    View.canon [(⟨r8_4, p1⟩ : View.Piece (Elt Ideal) S256x512 .f32), ⟨r8_3, p0⟩] (ix2 r (lo j)) = p0 (ix2 r j) := by
  have hnot : (ix2 r (lo j) : S256x512.Idx) ∉ (⟨r8_4, p1⟩ : View.Piece (Elt Ideal) S256x512 .f32).1.set := by
    show (ix2 r (lo j) : S256x512.Idx) ∉ r8_4.set
    rw [Rect.mem_set_unit]
    intro h
    have h1 : 256 ≤ j.val := (h 1).1
    have := j.isLt
    omega
  rw [View.canon_cons_of_not_mem (⟨r8_4, p1⟩ : View.Piece (Elt Ideal) S256x512 .f32) [⟨r8_3, p0⟩] hnot, emb_left r j]
  exact View.canon_cons_emb r8_3 p0 [] (ix2 r j)

/-- At column hi j the right store's payload shows. -/
theorem canon2_right (p1 p0 : Vec Ideal S256x256 .f32) (r : Fin 256) (j : Fin 256) :
    View.canon [(⟨r8_4, p1⟩ : View.Piece (Elt Ideal) S256x512 .f32), ⟨r8_3, p0⟩] (ix2 r (hi j)) = p1 (ix2 r j) := by
  rw [emb_right r j]
  exact View.canon_cons_emb r8_4 p1 [⟨r8_3, p0⟩] (ix2 r j)

/-- The left half of the output block holds the hidden state's payload. -/
theorem out8_7_left (x0 : Vec Ideal S256x256 .bf16) (x1 : Vec Ideal S256x768 .bf16) (x2 : Vec Ideal S1x768 .f32) (x3 : Vec Ideal S256x512 .f32)
    (x4 : Vec Ideal S256x768 .bf16) (x5 : Vec Ideal S256x256 .bf16) (x6 : Vec Ideal S1x256 .f32) (r : Fin 256) (j : Fin 256) :
    out8_7 x0 x1 x2 x3 x4 x5 x6 (ix2 r (lo j))
      = k8_pay4 x0 x1 x2 (View.ld x3 r8_3) (View.ld x3 r8_4) x4 (ix2 r j) := by
  unfold out8_7
  simp only [View.ld_unit_zero (S := S256x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out8_7_right (x0 : Vec Ideal S256x256 .bf16) (x1 : Vec Ideal S256x768 .bf16) (x2 : Vec Ideal S1x768 .f32) (x3 : Vec Ideal S256x512 .f32)
    (x4 : Vec Ideal S256x768 .bf16) (x5 : Vec Ideal S256x256 .bf16) (x6 : Vec Ideal S1x256 .f32) (r : Fin 256) (j : Fin 256) :
    out8_7 x0 x1 x2 x3 x4 x5 x6 (ix2 r (hi j))
      = k8_pay1 (k8_pay3 x0 x1 x2 (View.ld x3 r8_3) (View.ld x3 r8_4) x4)
          (k8_pay5 x0 x1 x2 (View.ld x3 r8_3) (View.ld x3 r8_4) x4 x5 x6) (ix2 r j) := by
  unfold out8_7
  simp only [View.ld_unit_zero (S := S256x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 256 256) (agg : A2 256 512) : A2 256 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 256 256) (agg : A2 256 512) (i : Fin 256) (j : Fin 256) :
    packed w X agg (ix2 i (lo j)) = kerH w X agg i j := by
  unfold packed
  exact dif_pos j.isLt

theorem packed_hi (w : Wts) (X : A2 256 256) (agg : A2 256 512) (i : Fin 256) (j : Fin 256) :
    packed w X agg (ix2 i (hi j)) = fgateRow w (kerH w X agg i) j * kerC w X agg i j := by
  have hn : ¬ ((ix2 i (hi j) : (⟨2, ![256, 512]⟩ : Shape).Idx) 1).val < 256 := by
    show ¬ (256 + j.val < 256); omega
  have e : ∀ h, (⟨((ix2 i (hi j) : (⟨2, ![256, 512]⟩ : Shape).Idx) 1).val - 256, h⟩ : Fin 256) = j :=
    fun h => Fin.ext (by show 256 + j.val - 256 = j.val; omega)
  unfold packed
  rw [dif_neg hn, e]

/-- One block at an index: if row r of the blocks is row 256 * T + r of X and agg and the weight blocks hold the
    transposed weights, the output block at y is the packed array at g, where g is y moved down 256 * T rows. -/
theorem block_at (w : Wts) (X : A2 256 256) (agg : A2 256 512)
    (x0 : Vec Ideal S256x256 .bf16) (x1 : Vec Ideal S256x768 .bf16) (x2 : Vec Ideal S1x768 .f32) (x3 : Vec Ideal S256x512 .f32)
    (x4 : Vec Ideal S256x768 .bf16) (x5 : Vec Ideal S256x256 .bf16) (x6 : Vec Ideal S1x256 .f32) (T : Nat)
    (h0 : ∀ (r : Fin 256) (k : Fin 256) (i : Fin 256), i.val = 256 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 256) (q : Fin 512) (i : Fin 256), i.val = 256 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S256x512.Idx) (g : S256x512.Idx) (hg0 : (g 0).val = 256 * T + (y 0).val) (hg1 : (g 1).val = (y 1).val) :
    out8_7 x0 x1 x2 x3 x4 x5 x6 y = packed w X agg g := by
  obtain ⟨r, q, rfl⟩ : ∃ (r : Fin 256) (q : Fin 512), y = ix2 r q := ⟨y 0, y 1, eq_ix2 y⟩
  obtain ⟨i, q', rfl⟩ : ∃ (i : Fin 256) (q' : Fin 512), g = ix2 i q' := ⟨g 0, g 1, eq_ix2 g⟩
  have hir : i.val = 256 * T + r.val := hg0
  obtain rfl : q' = q := Fin.ext hg1
  have hrow := fun j : Fin 256 => row w X agg i x0 x1 x2 (View.ld x3 r8_3) (View.ld x3 r8_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out8_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out8_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 256 256 := V c main_call0_v132
/-- The children's packed rows summed per node, as the region finds them. -/
abbrev aggarr (c : Dev nD) : A2 256 512 := V c main_call0_v144

/-- The windows' blocks at point t, typed by their block shapes. -/
abbrev b0 (c : Dev nD) (t : Fin cfg8.N) : Vec Ideal S256x256 .bf16 := iblk8 V c 0 t
abbrev b1 (c : Dev nD) (t : Fin cfg8.N) : Vec Ideal S256x768 .bf16 := iblk8 V c 1 t
abbrev b2 (c : Dev nD) (t : Fin cfg8.N) : Vec Ideal S1x768 .f32 := iblk8 V c 2 t
abbrev b3 (c : Dev nD) (t : Fin cfg8.N) : Vec Ideal S256x512 .f32 := iblk8 V c 3 t
abbrev b4 (c : Dev nD) (t : Fin cfg8.N) : Vec Ideal S256x768 .bf16 := iblk8 V c 4 t
abbrev b5 (c : Dev nD) (t : Fin cfg8.N) : Vec Ideal S256x256 .bf16 := iblk8 V c 5 t
abbrev b6 (c : Dev nD) (t : Fin cfg8.N) : Vec Ideal S1x256 .f32 := iblk8 V c 6 t

/-- The printed index maps over the grid: the row windows 0, 3, 7 are at block (t, 0), the weight windows at (0, 0). -/
theorem idx_facts : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = t.val ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

/-- Row r of point t's X block is row 256 * t + r of X. -/
theorem read0 (c : Dev nD) (t : Fin cfg8.N) (r : Fin 256) (k : Fin 256) (i : Fin 256) (hir : i.val = 256 * t.val + r.val) :
    b0 V c t (ix2 r k) = Xarr V c (ix2 i k) := by
  obtain ⟨e0, e1, -⟩ := idx_facts t
  show ((cfg8.win 0).blk t).view.read (Elt Ideal) (V c main_call0_v132) (ix2 r k) = V c main_call0_v132 (ix2 i k)
  rw [View.read_apply]
  show V c main_call0_v132 _ = V c main_call0_v132 _
  refine congrArg (V c main_call0_v132) (funext fun a => Fin.ext ?_)
  match a with
  | ⟨0, _⟩ => show win8_0.index t (0 : Fin 2) * 256 + 1 * r.val = i.val; rw [e0, hir]; omega
  | ⟨1, _⟩ => show win8_0.index t (1 : Fin 2) * 256 + 1 * k.val = k.val; rw [e1]; omega

/-- Row r of point t's agg block is row 256 * t + r of agg. -/
theorem read3 (c : Dev nD) (t : Fin cfg8.N) (r : Fin 256) (q : Fin 512) (i : Fin 256) (hir : i.val = 256 * t.val + r.val) :
    b3 V c t (ix2 r q) = aggarr V c (ix2 i q) := by
  obtain ⟨-, -, -, -, -, -, e0, e1, -⟩ := idx_facts t
  show ((cfg8.win 3).blk t).view.read (Elt Ideal) (V c main_call0_v144) (ix2 r q) = V c main_call0_v144 (ix2 i q)
  rw [View.read_apply]
  show V c main_call0_v144 _ = V c main_call0_v144 _
  refine congrArg (V c main_call0_v144) (funext fun a => Fin.ext ?_)
  match a with
  | ⟨0, _⟩ => show win8_3.index t (0 : Fin 2) * 256 + 1 * r.val = i.val; rw [e0, hir]; omega
  | ⟨1, _⟩ => show win8_3.index t (1 : Fin 2) * 512 + 1 * q.val = q.val; rw [e1]; omega

/-- The W block at any point is the whole array main_call0_v12. -/
theorem read1 (c : Dev nD) (t : Fin cfg8.N) (k : Fin 256) (n : Fin 768) :
    b1 V c t (ix2 k n) = (V c main_call0_v12 : A2 256 768) (ix2 k n) := by
  obtain ⟨-, -, e0, e1, -⟩ := idx_facts t
  show ((cfg8.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win8_1.index t (0 : Fin 2) * 256 + 1 * k.val = k.val; rw [e0]; omega
  | ⟨1, _⟩ => show win8_1.index t (1 : Fin 2) * 768 + 1 * n.val = n.val; rw [e1]; omega

/-- The bias block at any point is the whole array main_arg5. -/
theorem read2 (c : Dev nD) (t : Fin cfg8.N) (z : Fin 1) (n : Fin 768) :
    b2 V c t (ix2 z n) = (V c main_arg5 : A2 1 768) (ix2 z n) := by
  obtain ⟨-, -, -, -, e0, e1, -⟩ := idx_facts t
  show ((cfg8.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win8_2.index t (0 : Fin 2) * 1 + 1 * z.val = z.val; rw [e0]; omega
  | ⟨1, _⟩ => show win8_2.index t (1 : Fin 2) * 768 + 1 * n.val = n.val; rw [e1]; omega

/-- The U block at any point is the whole array main_call0_v16. -/
theorem read4 (c : Dev nD) (t : Fin cfg8.N) (k : Fin 256) (n : Fin 768) :
    b4 V c t (ix2 k n) = (V c main_call0_v16 : A2 256 768) (ix2 k n) := by
  obtain ⟨-, -, -, -, -, -, -, -, e0, e1, -⟩ := idx_facts t
  show ((cfg8.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win8_4.index t (0 : Fin 2) * 256 + 1 * k.val = k.val; rw [e0]; omega
  | ⟨1, _⟩ => show win8_4.index t (1 : Fin 2) * 768 + 1 * n.val = n.val; rw [e1]; omega

/-- The U_f block at any point is the whole array main_call0_v14. -/
theorem read5 (c : Dev nD) (t : Fin cfg8.N) (k j : Fin 256) :
    b5 V c t (ix2 k j) = (V c main_call0_v14 : A2 256 256) (ix2 k j) := by
  obtain ⟨-, -, -, -, -, -, -, -, -, -, e0, e1, -⟩ := idx_facts t
  show ((cfg8.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win8_5.index t (0 : Fin 2) * 256 + 1 * k.val = k.val; rw [e0]; omega
  | ⟨1, _⟩ => show win8_5.index t (1 : Fin 2) * 256 + 1 * j.val = j.val; rw [e1]; omega

/-- The b_f block at any point is the whole array main_call0_v19. -/
theorem read6 (c : Dev nD) (t : Fin cfg8.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg8.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win8_6.index t (0 : Fin 2) * 1 + 1 * z.val = z.val; rw [e0]; omega
  | ⟨1, _⟩ => show win8_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg8.N) :
    (dat8 V c).flushed 7 t = ((cfg8.win 7).blk t).view.read (Elt Ideal) (packed w (Xarr V c) (aggarr V c)) := by
  show (cfg8.win 7).cut (grid8.coords t) ((dat8 V c).after 7 t) = _
  rw [after8_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg8.win 7).xinj (grid8.coords t) y) (((cfg8.win 7).blk t).view.emb y)
    (by show win8_7.index t (0 : Fin 2) * 256 + 1 * (y 0).val = 256 * t.val + (y 0).val; rw [e0]; omega)
    (by show win8_7.index t (1 : Fin 2) * 512 + 1 * (y 1).val = (y 1).val; rw [e1]; omega)

/-- An index of the array is in point t's block iff each coordinate is in the block's range on its axis. -/
theorem mem_blk (t : Fin cfg8.N) (i : S256x512.Idx) :
    i ∈ ((cfg8.win 7).blk t).view.set ↔ ∀ a : Fin 2, win8_7.index t a * S256x512.size a ≤ (i a).val
      ∧ (i a).val < win8_7.index t a * S256x512.size a + S256x512.size a := by
  show i ∈ ((View.whole main_call0_v145).slice (win8_7.rect t)).set ↔ _
  rw [View.set_slice_whole, Rect.mem_set_unit]
  exact Iff.rfl

/-- The 1 blocks of 256 rows tile the array: row i is in the block of point i / 256. -/
theorem cover (i : S256x512.Idx) : ∃ t : Fin cfg8.N, (cfg8.win 7).flush t = true ∧ i ∈ ((cfg8.win 7).blk t).view.set := by
  have hi0 : (i 0).val < 256 := idx2_lt0 i
  have hi1 : (i 1).val < 512 := idx2_lt1 i
  refine ⟨⟨(i 0).val / 256, by rw [show cfg8.N = 1 from N_8]; omega⟩, flush8_7 _, ?_⟩
  rw [mem_blk]
  obtain ⟨-, -, -, -, -, -, -, -, -, -, -, -, -, -, e0, e1⟩ := idx_facts ⟨(i 0).val / 256, by rw [show cfg8.N = 1 from N_8]; omega⟩
  intro a
  match a with
  | ⟨0, _⟩ =>
    show win8_7.index _ (0 : Fin 2) * 256 ≤ (i 0).val ∧ (i 0).val < win8_7.index _ (0 : Fin 2) * 256 + 256
    rw [e0]; show (i 0).val / 256 * 256 ≤ (i 0).val ∧ (i 0).val < (i 0).val / 256 * 256 + 256; omega
  | ⟨1, _⟩ =>
    show win8_7.index _ (1 : Fin 2) * 512 ≤ (i 1).val ∧ (i 1).val < win8_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat8 V c).arrAt 7 cfg8.N = packed w (Xarr V c) (aggarr V c) :=
  (dat8 V c).arrAt_eq_of_cover 7 (packed w (Xarr V c) (aggarr V c))
    (fun t _ => flushed_eq V c w hWt hb hUt hUft hbF t) (cover)

/-- THE VALUE OF THE REGION: after it, row i of main_call0_v145 is [kerH | fgateRow (kerH) * kerC] of node i. -/
theorem region8_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 256) (j : Fin 256) :
    ((dat8 V c).arrAt 7 cfg8.N : A2 256 512) (ix2 i (lo j)) = kerH w (Xarr V c) (aggarr V c) i j
    ∧ ((dat8 V c).arrAt 7 cfg8.N : A2 256 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg8

end
-- ==== Proof.KStr9.lean ====
/-
  The host arithmetic before the level with 4 nodes per graph of the fused kernel, read off the program.

  From the contents at the stretch's entry it cuts the level's window of the token rows (4 rows of each graph from
  row 3 on, flattened to 128 rows) and the children's parent ids (8 entries of each graph from entry 7 on,
  flattened to 256), turns each parent id `p` into the parent's slot `(p div 4095) * 4 + (p mod 4095 - 3)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str9

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps9 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S256x512 .f32 := Win (Proc.devRef .tc main_call0_v145)
abbrev xOut : Vec Ideal S128x256 .bf16 := Wout (Proc.devRef .tc main_call0_v147)
abbrev pOut : IVec S256 32 := Wout (Proc.devRef .tc main_call0_v149)
abbrev segOut : IVec S256 32 := Wout (Proc.devRef .tc main_call0_v156)
abbrev aggOut : Vec Ideal S128x512 .f32 := Wout (Proc.devRef .tc main_call0_v159)

/-- The parent's slot from the parent's node id `p`: `(p div 4095) * 4 + (p mod 4095 - 3)`, the flooring
    quotient and the non-negative remainder written through the truncating ones as the program writes them. -/
def segFun (p : IVec S256 32) : IVec S256 32 :=
  addi
    (muli
      (select (andi (cmpi .ne (signi p) (broadcastInDim S256 ![] bcast_S_S256 (signi (id (constantI S_ 32 4095#32))))) (cmpi .ne (Host.remsi p (broadcastInDim S256 ![] bcast_S_S256 (id (constantI S_ 32 4095#32)))) (broadcastInDim S256 ![] bcast_S_S256 (constantI S_ 32 0#32))))
        (subi (Host.divsi p (broadcastInDim S256 ![] bcast_S_S256 (id (constantI S_ 32 4095#32)))) (broadcastInDim S256 ![] bcast_S_S256 (constantI S_ 32 1#32)))
        (Host.divsi p (broadcastInDim S256 ![] bcast_S_S256 (id (constantI S_ 32 4095#32)))))
      (broadcastInDim S256 ![] bcast_S_S256 (constantI S_ 32 4#32)))
    (subi
      (select (andi (cmpi .ne (cmpi .slt (Host.remsi p (broadcastInDim S256 ![] bcast_S_S256 (select (cmpi .eq (id (constantI S_ 32 4095#32)) (constantI S_ 32 0#32)) (constantI S_ 32 1#32) (id (constantI S_ 32 4095#32))))) (broadcastInDim S256 ![] bcast_S_S256 (constantI S_ 32 0#32))) (broadcastInDim S256 ![] bcast_S_S256 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S256 ![] bcast_S_S256 (select (cmpi .eq (id (constantI S_ 32 4095#32)) (constantI S_ 32 0#32)) (constantI S_ 32 1#32) (id (constantI S_ 32 4095#32))))) (broadcastInDim S256 ![] bcast_S_S256 (constantI S_ 32 0#32))))
        (addi (Host.remsi p (broadcastInDim S256 ![] bcast_S_S256 (select (cmpi .eq (id (constantI S_ 32 4095#32)) (constantI S_ 32 0#32)) (constantI S_ 32 1#32) (id (constantI S_ 32 4095#32))))) (broadcastInDim S256 ![] bcast_S_S256 (select (cmpi .eq (id (constantI S_ 32 4095#32)) (constantI S_ 32 0#32)) (constantI S_ 32 1#32) (id (constantI S_ 32 4095#32)))))
        (Host.remsi p (broadcastInDim S256 ![] bcast_S_S256 (select (cmpi .eq (id (constantI S_ 32 4095#32)) (constantI S_ 32 0#32)) (constantI S_ 32 1#32) (id (constantI S_ 32 4095#32))))))
      (broadcastInDim S256 ![] bcast_S_S256 (constantI S_ 32 3#32)))

/-- The level's token window: flat row `i` is row `3 + i % 4` of graph `i / 4`. -/
theorem x_apply (i : Fin 128) (k : Fin 256) :
    xOut Win (ix2 i k)
      = tokIn Win (ix3 ⟨i.val / 4, by omega⟩ ⟨3 + i.val % 4, by omega⟩ k) := by
  have e : xOut Win = shapeCast S128x256 (extractStridedSlice S32x4x256 ![0, 3, 0] (tokIn Win)
      slices_S32x4095x256_S32x4x256_0_3_0) shapeCasts_S32x4x256_S128x256 := by
    dsimp only [xOut, tokIn, hostOps9]
    after_results_simp
    rfl
  rw [e]
  exact flat3_slice_apply 3 (tokIn Win) _ _ i k (by decide) _ _

/-- The children's parent ids: entry `q` is entry `7 + q % 8` of graph `q / 8`. -/
theorem p_apply (q : Fin 256) :
    pOut Win (ix1 q)
      = parIn Win (ix2 ⟨q.val / 8, by omega⟩ ⟨7 + q.val % 8, by omega⟩) := by
  have e : pOut Win = shapeCast S256 (extractStridedSlice S32x8 ![0, 7] (parIn Win)
      slices_S32x4095_S32x8_0_7) shapeCasts_S32x8_S256 := by
    dsimp only [pOut, parIn, hostOps9]
    after_results_simp
    rfl
  rw [e]
  exact flat2_slice_apply 7 (parIn Win) _ _ q (by decide) _ _

/-- The slot numbers are `segFun` of the parent ids. -/
theorem seg_eq :
    segOut Win = segFun (pOut Win) := by
  dsimp only [segOut, pOut, hostOps9]
  after_results_simp
  rfl

/-- The per-slot sums, as the scatter that computes them. -/
theorem agg_eq :
    aggOut Win
      = Host.scatterAdd (F := Ideal) scatter_S128x512_S256x1_S256x512_1_0_0_1
          (broadcastInDim S128x512 ![] bcast_S_S128x512 (constant (F := Ideal) S_ .f32 0x00000000#32))
          (broadcastInDim S256x1 ![0] bcast_S256_S256x1_0 (segOut Win))
          (hcIn Win) := by
  dsimp only [aggOut, segOut, hcIn, hostOps9]
  after_results_simp
  rfl

/-- Slot `i` holds the sum of the packed rows of the children routed to it. -/
theorem agg_apply (i : Fin 128) (n : Fin 512) :
    aggOut Win (ix2 i n)
      = ∑ k ∈ kids (fun k : Fin 256 => rowTarget 128 (segOut Win (ix1 k))) i, hcIn Win (ix2 k n) := by
  rw [agg_eq]
  exact segsum_apply scatter_S128x512_S256x1_S256x512_1_0_0_1 ⟨rfl, rfl, rfl, rfl⟩ _ bcast_S_S128x512
    bcast_S256_S256x1_0 (segOut Win) (hcIn Win) i n

/-! ## What the stretch leaves alone -/

/-- The arrays the stretch writes. -/
noncomputable def written : List (Ref sig .tc) :=
  [main_call0_v146, main_call0_v147, main_call0_v148, main_call0_v149, main_call0_c_42, main_call0_call16_v0,
   main_call0_call16_v1, main_call0_call16_v2, main_call0_call16_v3, main_call0_call16_v4, main_call0_call16_v5,
   main_call0_call16_v6, main_call0_call16_v7, main_call0_call16_v8, main_call0_call16_c, main_call0_call16_v9,
   main_call0_call16_v10, main_call0_call16_v11, main_call0_call16_c_0, main_call0_call16_v12, main_call0_call16_v13,
   main_call0_v150, main_call0_c_43, main_call0_v151, main_call0_v152, main_call0_c_44, main_call0_call17_v0,
   main_call0_call17_c, main_call0_call17_v1, main_call0_call17_c_0, main_call0_call17_v2, main_call0_call17_v3,
   main_call0_call17_v4, main_call0_call17_c_1, main_call0_call17_v5, main_call0_call17_v6, main_call0_call17_c_2,
   main_call0_call17_v7, main_call0_call17_v8, main_call0_call17_c_3, main_call0_call17_v9, main_call0_call17_v10,
   main_call0_call17_v11, main_call0_call17_v12, main_call0_call17_v13, main_call0_call17_v14, main_call0_v153,
   main_call0_c_45, main_call0_v154, main_call0_v155, main_call0_v156, main_call0_cst_46, main_call0_v157,
   main_call0_v158, main_call0_v159]

/-- An array the stretch does not write holds after it what it held before. -/
theorem keep (r : Ref sig .tc) (hr : r ∉ written) : Wout (Proc.devRef .tc r) = Win (Proc.devRef .tc r) := by
  refine after_of_writes_sub (W := written) hostOps9 Win ?_ hr
  simp only [hostOps9, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v145 : Wout (Proc.devRef .tc main_call0_v145) = Win (Proc.devRef .tc main_call0_v145) := keep Win _ (by decide)
theorem keep_arg5 : Wout (Proc.devRef .tc main_arg5) = Win (Proc.devRef .tc main_arg5) := keep Win _ (by decide)

end Cert.KernelIdeal.Str9

end
-- ==== Proof.KRow9.lean ====
/-
  The update kernel's body at level 2 (blocks of 128 rows), read at one element.

  The body's five payloads, over variables of the block shapes: the pre-activation [128,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 128; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg9

open Cert.KernelIdeal Cert.KernelIdeal.Gen Cert.TreeLstm
open Idealize.ShloMosaic Idealize.ShloMosaic.ValueIdx

/-! ## The two contractions at an index -/

/-- [128,256] × [256,768] into zeros, at (r, n): the sum over the 256 contracted coordinates. -/
theorem matmul_128x256_256x768_apply (a : FVec Ideal S128x256 .bf16) (b : FVec Ideal S256x768 .bf16) (r : Fin 128) (n : Fin 768) :
    matmul dot_S128x256_S256x768_S128x768_1_0_0_1_n_n none a b (constant (F := Ideal) S128x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S128x256_S256x768_S128x768_1_0_0_1_n_n 256 rfl rfl).symm]
  refine Finset.sum_congr rfl fun k _ => ?_
  have ck := contrEquiv1_symm_val dot_S128x256_S256x768_S128x768_1_0_0_1_n_n 256 rfl rfl k
  have l2 : dot_S128x256_S256x768_S128x768_1_0_0_1_n_n.lhsIdx (ix2 r n)
      ((contrEquiv1 dot_S128x256_S256x768_S128x768_1_0_0_1_n_n 256 rfl rfl).symm k) = ix2 r k := by
    funext ax; apply Fin.ext
    match ax with
    | ⟨0, _⟩ => simp [DotDims.lhsIdx, dot_S128x256_S256x768_S128x768_1_0_0_1_n_n]; rfl
    | ⟨1, _⟩ => simp [DotDims.lhsIdx, dot_S128x256_S256x768_S128x768_1_0_0_1_n_n]; exact ck
  have r2 : dot_S128x256_S256x768_S128x768_1_0_0_1_n_n.rhsIdx (ix2 r n)
      ((contrEquiv1 dot_S128x256_S256x768_S128x768_1_0_0_1_n_n 256 rfl rfl).symm k) = ix2 k n := by
    funext ax; apply Fin.ext
    match ax with
    | ⟨0, _⟩ => simp [DotDims.rhsIdx, dot_S128x256_S256x768_S128x768_1_0_0_1_n_n]; exact ck
    | ⟨1, _⟩ => simp [DotDims.rhsIdx, dot_S128x256_S256x768_S128x768_1_0_0_1_n_n]; rfl
  rw [l2, r2]

/-- [128,256] × [256,256] into zeros, at (r, n): the sum over the 256 contracted coordinates. -/
theorem matmul_128x256_256x256_apply (a : FVec Ideal S128x256 .bf16) (b : FVec Ideal S256x256 .bf16) (r : Fin 128) (n : Fin 256) :
    matmul dot_S128x256_S256x256_S128x256_1_0_0_1_n_n none a b (constant (F := Ideal) S128x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S128x256_S256x256_S128x256_1_0_0_1_n_n 256 rfl rfl).symm]
  refine Finset.sum_congr rfl fun k _ => ?_
  have ck := contrEquiv1_symm_val dot_S128x256_S256x256_S128x256_1_0_0_1_n_n 256 rfl rfl k
  have l2 : dot_S128x256_S256x256_S128x256_1_0_0_1_n_n.lhsIdx (ix2 r n)
      ((contrEquiv1 dot_S128x256_S256x256_S128x256_1_0_0_1_n_n 256 rfl rfl).symm k) = ix2 r k := by
    funext ax; apply Fin.ext
    match ax with
    | ⟨0, _⟩ => simp [DotDims.lhsIdx, dot_S128x256_S256x256_S128x256_1_0_0_1_n_n]; rfl
    | ⟨1, _⟩ => simp [DotDims.lhsIdx, dot_S128x256_S256x256_S128x256_1_0_0_1_n_n]; exact ck
  have r2 : dot_S128x256_S256x256_S128x256_1_0_0_1_n_n.rhsIdx (ix2 r n)
      ((contrEquiv1 dot_S128x256_S256x256_S128x256_1_0_0_1_n_n 256 rfl rfl).symm k) = ix2 k n := by
    funext ax; apply Fin.ext
    match ax with
    | ⟨0, _⟩ => simp [DotDims.rhsIdx, dot_S128x256_S256x256_S128x256_1_0_0_1_n_n]; exact ck
    | ⟨1, _⟩ => simp [DotDims.rhsIdx, dot_S128x256_S256x256_S128x256_1_0_0_1_n_n]; rfl
  rw [l2, r2]

/-! ## The payloads at an index -/

/-- The pre-activation at (r, n): (x·Wt + b) + h̃·Ut. -/
theorem pay2_apply (v0 : Vec Ideal S128x256 .bf16) (v2 : Vec Ideal S256x768 .bf16) (v5 : Vec Ideal S1x768 .f32)
    (v8 : Vec Ideal S128x256 .f32) (v13 : Vec Ideal S256x768 .bf16) (r : Fin 128) (n : Fin 768) :
    k9_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k9_pay2
  simp only [shapeCast_self]
  refine (addf_apply _ _ _).trans ?_
  refine congrArg₂ (· + ·) ((addf_apply _ _ _).trans (congrArg₂ (· + ·) ?_ ?_)) ?_
  · exact matmul_128x256_256x768_apply v0 v2 r n
  · exact broadcastTo_1b_ab_apply v5 broadcasts_S1x768_S128x768 r n
  · exact matmul_128x256_256x768_apply _ v13 r n

/-- The cell state at (r, j): logistic z₀ * tanh z₂ + c̃. -/
theorem pay3_apply (v0 : Vec Ideal S128x256 .bf16) (v2 : Vec Ideal S256x768 .bf16) (v5 : Vec Ideal S1x768 .f32)
    (v8 v10 : Vec Ideal S128x256 .f32) (v13 : Vec Ideal S256x768 .bf16) (r : Fin 128) (j : Fin 256) :
    k9_pay3 v0 v2 v5 v8 v10 v13 (ix2 r j)
      = Ideal.logistic (k9_pay2 v0 v2 v5 v8 v13 (ix2 r (c0 j))) * Ideal.tanh (k9_pay2 v0 v2 v5 v8 v13 (ix2 r (c2 j)))
        + v10 (ix2 r j) := by
  unfold k9_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k9_pay2 v0 v2 v5 v8 v13) slices_S128x768_o0_0_S128x256 r j (c0 j) (Nat.zero_add _).symm)
  · exact congrArg Ideal.tanh
      (slice2_axis1_apply 512 (k9_pay2 v0 v2 v5 v8 v13) slices_S128x768_o0_512_S128x256 r j (c2 j) rfl)

/-- The hidden state at (r, j): logistic z₁ * tanh c. -/
theorem pay4_apply (v0 : Vec Ideal S128x256 .bf16) (v2 : Vec Ideal S256x768 .bf16) (v5 : Vec Ideal S1x768 .f32)
    (v8 v10 : Vec Ideal S128x256 .f32) (v13 : Vec Ideal S256x768 .bf16) (r : Fin 128) (j : Fin 256) :
    k9_pay4 v0 v2 v5 v8 v10 v13 (ix2 r j)
      = Ideal.logistic (k9_pay2 v0 v2 v5 v8 v13 (ix2 r (c1 j))) * Ideal.tanh (k9_pay3 v0 v2 v5 v8 v10 v13 (ix2 r j)) := by
  unfold k9_pay4
  refine (mulf_apply _ _ _).trans (congrArg₂ (· * ·) ?_ rfl)
  exact congrArg Ideal.logistic
    (slice2_axis1_apply 256 (k9_pay2 v0 v2 v5 v8 v13) slices_S128x768_o0_256_S128x256 r j (c1 j) rfl)

/-- The forget gate of the hidden state just computed, at (r, j): logistic (h·Uft + bF). -/
theorem pay5_apply (v0 : Vec Ideal S128x256 .bf16) (v2 : Vec Ideal S256x768 .bf16) (v5 : Vec Ideal S1x768 .f32)
    (v8 v10 : Vec Ideal S128x256 .f32) (v13 : Vec Ideal S256x768 .bf16) (v28 : Vec Ideal S256x256 .bf16) (v31 : Vec Ideal S1x256 .f32)
    (r : Fin 128) (j : Fin 256) :
    k9_pay5 v0 v2 v5 v8 v10 v13 v28 v31 (ix2 r j)
      = Ideal.logistic ((∑ k : Fin 256, k9_pay4 v0 v2 v5 v8 v10 v13 (ix2 r k) * v28 (ix2 k j)) + v31 (ix2 (0 : Fin 1) j)) := by
  unfold k9_pay5
  simp only [shapeCast_self]
  refine congrArg Ideal.logistic ((addf_apply _ _ _).trans (congrArg₂ (· + ·) ?_ ?_))
  · exact matmul_128x256_256x256_apply _ v28 r j
  · exact broadcastTo_1b_ab_apply v31 broadcasts_S1x256_S128x256 r j

/-- The right half's stored value at (r, j): the gate times the cell state. -/
theorem pay1_apply (v23 v35 : FVec Ideal S128x256 .f32) (r : Fin 128) (j : Fin 256) :
    k9_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S128x256 .bf16) (v2 : Vec Ideal S256x768 .bf16) (v5 : Vec Ideal S1x768 .f32)
    (v8 v10 : Vec Ideal S128x256 .f32) (v13 : Vec Ideal S256x768 .bf16) (v28 : Vec Ideal S256x256 .bf16) (v31 : Vec Ideal S1x256 .f32)
    (r : Fin 128)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k9_pay4 v0 v2 v5 v8 v10 v13 (ix2 r j) = kerH w X agg i j
    ∧ k9_pay1 (k9_pay3 v0 v2 v5 v8 v10 v13) (k9_pay5 v0 v2 v5 v8 v10 v13 v28 v31) (ix2 r j)
        = fgateRow w (kerH w X agg i) j * kerC w X agg i j := by
  have hz : ∀ n : Fin 768, k9_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k9_pay3 v0 v2 v5 v8 v10 v13 (ix2 r j) = kerC w X agg i j := fun j => by
    rw [pay3_apply, hz, hz, h10]; rfl
  have hh : ∀ j : Fin 256, k9_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg9

end
-- ==== Proof.KReg9.lean ====
/-
  Region 9 of the kernel's run — the update kernel at level 2: 128 nodes, 1 grid points, blocks of 128 rows —:
  the output array main_call0_v160 : [128,512] after the region, element by element, for ANY contents V at the
  region's entry.

  What the body leaves in the output block, at (r, lo j) and at (r, hi j): the two stores cover columns 0..255 and
  256..511, the later one listed first; the agg block is loaded in its two halves. One row of a block is one node:
  row r of point t's blocks is row 128 * t + r of the arrays X = main_call0_v147 and agg = main_call0_v159, the weight
  windows' blocks are their whole arrays. So point t writes back block t of the level's packed array
  [kerH | fgateRow (kerH) * kerC]; the 1 blocks tile the array; hence the array after the region is that packed array.
-/
import proofs.«419362_j66683662237734_3_alg».proof.Proof.KernelIdealFrameP
import proofs.«419362_j66683662237734_3_alg».proof.Proof.KRow9
import Idealize.ShloMosaic.Lib.Pipeline.Value

set_option maxRecDepth 16384

noncomputable section

open scoped BigOperators

namespace Cert.KernelIdeal.Reg9

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S128x512 .f32) (r : Fin 128) (k : Fin 256) :
    (View.ld x3 r9_3 : Vec Ideal S128x256 .f32) (ix2 r k) = x3 (ix2 r (lo k)) := by
  show x3 (r9_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S128x512 .f32) (r : Fin 128) (k : Fin 256) :
    (View.ld x3 r9_4 : Vec Ideal S128x256 .f32) (ix2 r k) = x3 (ix2 r (hi k)) := by
  show x3 (r9_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 128) (j : Fin 256) : (ix2 r (lo j) : S128x512.Idx) = r9_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 128) (j : Fin 256) : (ix2 r (hi j) : S128x512.Idx) = r9_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S128x256 .f32) (r : Fin 128) (j : Fin 256) :
    View.canon [(⟨r9_4, p1⟩ : View.Piece (Elt Ideal) S128x512 .f32), ⟨r9_3, p0⟩] (ix2 r (lo j)) = p0 (ix2 r j) := by
  have hnot : (ix2 r (lo j) : S128x512.Idx) ∉ (⟨r9_4, p1⟩ : View.Piece (Elt Ideal) S128x512 .f32).1.set := by
    show (ix2 r (lo j) : S128x512.Idx) ∉ r9_4.set
    rw [Rect.mem_set_unit]
    intro h
    have h1 : 256 ≤ j.val := (h 1).1
    have := j.isLt
    omega
  rw [View.canon_cons_of_not_mem (⟨r9_4, p1⟩ : View.Piece (Elt Ideal) S128x512 .f32) [⟨r9_3, p0⟩] hnot, emb_left r j]
  exact View.canon_cons_emb r9_3 p0 [] (ix2 r j)

/-- At column hi j the right store's payload shows. -/
theorem canon2_right (p1 p0 : Vec Ideal S128x256 .f32) (r : Fin 128) (j : Fin 256) :
    View.canon [(⟨r9_4, p1⟩ : View.Piece (Elt Ideal) S128x512 .f32), ⟨r9_3, p0⟩] (ix2 r (hi j)) = p1 (ix2 r j) := by
  rw [emb_right r j]
  exact View.canon_cons_emb r9_4 p1 [⟨r9_3, p0⟩] (ix2 r j)

/-- The left half of the output block holds the hidden state's payload. -/
theorem out9_7_left (x0 : Vec Ideal S128x256 .bf16) (x1 : Vec Ideal S256x768 .bf16) (x2 : Vec Ideal S1x768 .f32) (x3 : Vec Ideal S128x512 .f32)
    (x4 : Vec Ideal S256x768 .bf16) (x5 : Vec Ideal S256x256 .bf16) (x6 : Vec Ideal S1x256 .f32) (r : Fin 128) (j : Fin 256) :
    out9_7 x0 x1 x2 x3 x4 x5 x6 (ix2 r (lo j))
      = k9_pay4 x0 x1 x2 (View.ld x3 r9_3) (View.ld x3 r9_4) x4 (ix2 r j) := by
  unfold out9_7
  simp only [View.ld_unit_zero (S := S128x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out9_7_right (x0 : Vec Ideal S128x256 .bf16) (x1 : Vec Ideal S256x768 .bf16) (x2 : Vec Ideal S1x768 .f32) (x3 : Vec Ideal S128x512 .f32)
    (x4 : Vec Ideal S256x768 .bf16) (x5 : Vec Ideal S256x256 .bf16) (x6 : Vec Ideal S1x256 .f32) (r : Fin 128) (j : Fin 256) :
    out9_7 x0 x1 x2 x3 x4 x5 x6 (ix2 r (hi j))
      = k9_pay1 (k9_pay3 x0 x1 x2 (View.ld x3 r9_3) (View.ld x3 r9_4) x4)
          (k9_pay5 x0 x1 x2 (View.ld x3 r9_3) (View.ld x3 r9_4) x4 x5 x6) (ix2 r j) := by
  unfold out9_7
  simp only [View.ld_unit_zero (S := S128x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 128 256) (agg : A2 128 512) : A2 128 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 128 256) (agg : A2 128 512) (i : Fin 128) (j : Fin 256) :
    packed w X agg (ix2 i (lo j)) = kerH w X agg i j := by
  unfold packed
  exact dif_pos j.isLt

theorem packed_hi (w : Wts) (X : A2 128 256) (agg : A2 128 512) (i : Fin 128) (j : Fin 256) :
    packed w X agg (ix2 i (hi j)) = fgateRow w (kerH w X agg i) j * kerC w X agg i j := by
  have hn : ¬ ((ix2 i (hi j) : (⟨2, ![128, 512]⟩ : Shape).Idx) 1).val < 256 := by
    show ¬ (256 + j.val < 256); omega
  have e : ∀ h, (⟨((ix2 i (hi j) : (⟨2, ![128, 512]⟩ : Shape).Idx) 1).val - 256, h⟩ : Fin 256) = j :=
    fun h => Fin.ext (by show 256 + j.val - 256 = j.val; omega)
  unfold packed
  rw [dif_neg hn, e]

/-- One block at an index: if row r of the blocks is row 128 * T + r of X and agg and the weight blocks hold the
    transposed weights, the output block at y is the packed array at g, where g is y moved down 128 * T rows. -/
theorem block_at (w : Wts) (X : A2 128 256) (agg : A2 128 512)
    (x0 : Vec Ideal S128x256 .bf16) (x1 : Vec Ideal S256x768 .bf16) (x2 : Vec Ideal S1x768 .f32) (x3 : Vec Ideal S128x512 .f32)
    (x4 : Vec Ideal S256x768 .bf16) (x5 : Vec Ideal S256x256 .bf16) (x6 : Vec Ideal S1x256 .f32) (T : Nat)
    (h0 : ∀ (r : Fin 128) (k : Fin 256) (i : Fin 128), i.val = 128 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 128) (q : Fin 512) (i : Fin 128), i.val = 128 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S128x512.Idx) (g : S128x512.Idx) (hg0 : (g 0).val = 128 * T + (y 0).val) (hg1 : (g 1).val = (y 1).val) :
    out9_7 x0 x1 x2 x3 x4 x5 x6 y = packed w X agg g := by
  obtain ⟨r, q, rfl⟩ : ∃ (r : Fin 128) (q : Fin 512), y = ix2 r q := ⟨y 0, y 1, eq_ix2 y⟩
  obtain ⟨i, q', rfl⟩ : ∃ (i : Fin 128) (q' : Fin 512), g = ix2 i q' := ⟨g 0, g 1, eq_ix2 g⟩
  have hir : i.val = 128 * T + r.val := hg0
  obtain rfl : q' = q := Fin.ext hg1
  have hrow := fun j : Fin 256 => row w X agg i x0 x1 x2 (View.ld x3 r9_3) (View.ld x3 r9_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out9_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out9_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 128 256 := V c main_call0_v147
/-- The children's packed rows summed per node, as the region finds them. -/
abbrev aggarr (c : Dev nD) : A2 128 512 := V c main_call0_v159

/-- The windows' blocks at point t, typed by their block shapes. -/
abbrev b0 (c : Dev nD) (t : Fin cfg9.N) : Vec Ideal S128x256 .bf16 := iblk9 V c 0 t
abbrev b1 (c : Dev nD) (t : Fin cfg9.N) : Vec Ideal S256x768 .bf16 := iblk9 V c 1 t
abbrev b2 (c : Dev nD) (t : Fin cfg9.N) : Vec Ideal S1x768 .f32 := iblk9 V c 2 t
abbrev b3 (c : Dev nD) (t : Fin cfg9.N) : Vec Ideal S128x512 .f32 := iblk9 V c 3 t
abbrev b4 (c : Dev nD) (t : Fin cfg9.N) : Vec Ideal S256x768 .bf16 := iblk9 V c 4 t
abbrev b5 (c : Dev nD) (t : Fin cfg9.N) : Vec Ideal S256x256 .bf16 := iblk9 V c 5 t
abbrev b6 (c : Dev nD) (t : Fin cfg9.N) : Vec Ideal S1x256 .f32 := iblk9 V c 6 t

/-- The printed index maps over the grid: the row windows 0, 3, 7 are at block (t, 0), the weight windows at (0, 0). -/
theorem idx_facts : ∀ t : Fin cfg9.N,
    win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0
    ∧ win9_4.index t (0 : Fin 2) = 0 ∧ win9_4.index t (1 : Fin 2) = 0
    ∧ win9_5.index t (0 : Fin 2) = 0 ∧ win9_5.index t (1 : Fin 2) = 0
    ∧ win9_6.index t (0 : Fin 2) = 0 ∧ win9_6.index t (1 : Fin 2) = 0
    ∧ win9_7.index t (0 : Fin 2) = t.val ∧ win9_7.index t (1 : Fin 2) = 0 :=
  (by decide +kernel : ∀ t : Fin grid9.N, _)

/-- Row r of point t's X block is row 128 * t + r of X. -/
theorem read0 (c : Dev nD) (t : Fin cfg9.N) (r : Fin 128) (k : Fin 256) (i : Fin 128) (hir : i.val = 128 * t.val + r.val) :
    b0 V c t (ix2 r k) = Xarr V c (ix2 i k) := by
  obtain ⟨e0, e1, -⟩ := idx_facts t
  show ((cfg9.win 0).blk t).view.read (Elt Ideal) (V c main_call0_v147) (ix2 r k) = V c main_call0_v147 (ix2 i k)
  rw [View.read_apply]
  show V c main_call0_v147 _ = V c main_call0_v147 _
  refine congrArg (V c main_call0_v147) (funext fun a => Fin.ext ?_)
  match a with
  | ⟨0, _⟩ => show win9_0.index t (0 : Fin 2) * 128 + 1 * r.val = i.val; rw [e0, hir]; omega
  | ⟨1, _⟩ => show win9_0.index t (1 : Fin 2) * 256 + 1 * k.val = k.val; rw [e1]; omega

/-- Row r of point t's agg block is row 128 * t + r of agg. -/
theorem read3 (c : Dev nD) (t : Fin cfg9.N) (r : Fin 128) (q : Fin 512) (i : Fin 128) (hir : i.val = 128 * t.val + r.val) :
    b3 V c t (ix2 r q) = aggarr V c (ix2 i q) := by
  obtain ⟨-, -, -, -, -, -, e0, e1, -⟩ := idx_facts t
  show ((cfg9.win 3).blk t).view.read (Elt Ideal) (V c main_call0_v159) (ix2 r q) = V c main_call0_v159 (ix2 i q)
  rw [View.read_apply]
  show V c main_call0_v159 _ = V c main_call0_v159 _
  refine congrArg (V c main_call0_v159) (funext fun a => Fin.ext ?_)
  match a with
  | ⟨0, _⟩ => show win9_3.index t (0 : Fin 2) * 128 + 1 * r.val = i.val; rw [e0, hir]; omega
  | ⟨1, _⟩ => show win9_3.index t (1 : Fin 2) * 512 + 1 * q.val = q.val; rw [e1]; omega

/-- The W block at any point is the whole array main_call0_v12. -/
theorem read1 (c : Dev nD) (t : Fin cfg9.N) (k : Fin 256) (n : Fin 768) :
    b1 V c t (ix2 k n) = (V c main_call0_v12 : A2 256 768) (ix2 k n) := by
  obtain ⟨-, -, e0, e1, -⟩ := idx_facts t
  show ((cfg9.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win9_1.index t (0 : Fin 2) * 256 + 1 * k.val = k.val; rw [e0]; omega
  | ⟨1, _⟩ => show win9_1.index t (1 : Fin 2) * 768 + 1 * n.val = n.val; rw [e1]; omega

/-- The bias block at any point is the whole array main_arg5. -/
theorem read2 (c : Dev nD) (t : Fin cfg9.N) (z : Fin 1) (n : Fin 768) :
    b2 V c t (ix2 z n) = (V c main_arg5 : A2 1 768) (ix2 z n) := by
  obtain ⟨-, -, -, -, e0, e1, -⟩ := idx_facts t
  show ((cfg9.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win9_2.index t (0 : Fin 2) * 1 + 1 * z.val = z.val; rw [e0]; omega
  | ⟨1, _⟩ => show win9_2.index t (1 : Fin 2) * 768 + 1 * n.val = n.val; rw [e1]; omega

/-- The U block at any point is the whole array main_call0_v16. -/
theorem read4 (c : Dev nD) (t : Fin cfg9.N) (k : Fin 256) (n : Fin 768) :
    b4 V c t (ix2 k n) = (V c main_call0_v16 : A2 256 768) (ix2 k n) := by
  obtain ⟨-, -, -, -, -, -, -, -, e0, e1, -⟩ := idx_facts t
  show ((cfg9.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win9_4.index t (0 : Fin 2) * 256 + 1 * k.val = k.val; rw [e0]; omega
  | ⟨1, _⟩ => show win9_4.index t (1 : Fin 2) * 768 + 1 * n.val = n.val; rw [e1]; omega

/-- The U_f block at any point is the whole array main_call0_v14. -/
theorem read5 (c : Dev nD) (t : Fin cfg9.N) (k j : Fin 256) :
    b5 V c t (ix2 k j) = (V c main_call0_v14 : A2 256 256) (ix2 k j) := by
  obtain ⟨-, -, -, -, -, -, -, -, -, -, e0, e1, -⟩ := idx_facts t
  show ((cfg9.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win9_5.index t (0 : Fin 2) * 256 + 1 * k.val = k.val; rw [e0]; omega
  | ⟨1, _⟩ => show win9_5.index t (1 : Fin 2) * 256 + 1 * j.val = j.val; rw [e1]; omega

/-- The b_f block at any point is the whole array main_call0_v19. -/
theorem read6 (c : Dev nD) (t : Fin cfg9.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg9.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win9_6.index t (0 : Fin 2) * 1 + 1 * z.val = z.val; rw [e0]; omega
  | ⟨1, _⟩ => show win9_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg9.N) :
    (dat9 V c).flushed 7 t = ((cfg9.win 7).blk t).view.read (Elt Ideal) (packed w (Xarr V c) (aggarr V c)) := by
  show (cfg9.win 7).cut (grid9.coords t) ((dat9 V c).after 7 t) = _
  rw [after9_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg9.win 7).xinj (grid9.coords t) y) (((cfg9.win 7).blk t).view.emb y)
    (by show win9_7.index t (0 : Fin 2) * 128 + 1 * (y 0).val = 128 * t.val + (y 0).val; rw [e0]; omega)
    (by show win9_7.index t (1 : Fin 2) * 512 + 1 * (y 1).val = (y 1).val; rw [e1]; omega)

/-- An index of the array is in point t's block iff each coordinate is in the block's range on its axis. -/
theorem mem_blk (t : Fin cfg9.N) (i : S128x512.Idx) :
    i ∈ ((cfg9.win 7).blk t).view.set ↔ ∀ a : Fin 2, win9_7.index t a * S128x512.size a ≤ (i a).val
      ∧ (i a).val < win9_7.index t a * S128x512.size a + S128x512.size a := by
  show i ∈ ((View.whole main_call0_v160).slice (win9_7.rect t)).set ↔ _
  rw [View.set_slice_whole, Rect.mem_set_unit]
  exact Iff.rfl

/-- The 1 blocks of 128 rows tile the array: row i is in the block of point i / 128. -/
theorem cover (i : S128x512.Idx) : ∃ t : Fin cfg9.N, (cfg9.win 7).flush t = true ∧ i ∈ ((cfg9.win 7).blk t).view.set := by
  have hi0 : (i 0).val < 128 := idx2_lt0 i
  have hi1 : (i 1).val < 512 := idx2_lt1 i
  refine ⟨⟨(i 0).val / 128, by rw [show cfg9.N = 1 from N_9]; omega⟩, flush9_7 _, ?_⟩
  rw [mem_blk]
  obtain ⟨-, -, -, -, -, -, -, -, -, -, -, -, -, -, e0, e1⟩ := idx_facts ⟨(i 0).val / 128, by rw [show cfg9.N = 1 from N_9]; omega⟩
  intro a
  match a with
  | ⟨0, _⟩ =>
    show win9_7.index _ (0 : Fin 2) * 128 ≤ (i 0).val ∧ (i 0).val < win9_7.index _ (0 : Fin 2) * 128 + 128
    rw [e0]; show (i 0).val / 128 * 128 ≤ (i 0).val ∧ (i 0).val < (i 0).val / 128 * 128 + 128; omega
  | ⟨1, _⟩ =>
    show win9_7.index _ (1 : Fin 2) * 512 ≤ (i 1).val ∧ (i 1).val < win9_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat9 V c).arrAt 7 cfg9.N = packed w (Xarr V c) (aggarr V c) :=
  (dat9 V c).arrAt_eq_of_cover 7 (packed w (Xarr V c) (aggarr V c))
    (fun t _ => flushed_eq V c w hWt hb hUt hUft hbF t) (cover)

/-- THE VALUE OF THE REGION: after it, row i of main_call0_v160 is [kerH | fgateRow (kerH) * kerC] of node i. -/
theorem region9_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 128) (j : Fin 256) :
    ((dat9 V c).arrAt 7 cfg9.N : A2 128 512) (ix2 i (lo j)) = kerH w (Xarr V c) (aggarr V c) i j
    ∧ ((dat9 V c).arrAt 7 cfg9.N : A2 128 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg9

end
-- ==== Proof.KStr10.lean ====
/-
  The host arithmetic before the level with 2 nodes per graph of the fused kernel, read off the program.

  From the contents at the stretch's entry it cuts the level's window of the token rows (2 rows of each graph from
  row 1 on, flattened to 64 rows) and the children's parent ids (4 entries of each graph from entry 3 on,
  flattened to 128), turns each parent id `p` into the parent's slot `(p div 4095) * 2 + (p mod 4095 - 1)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str10

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps10 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S128x512 .f32 := Win (Proc.devRef .tc main_call0_v160)
abbrev xOut : Vec Ideal S64x256 .bf16 := Wout (Proc.devRef .tc main_call0_v162)
abbrev pOut : IVec S128 32 := Wout (Proc.devRef .tc main_call0_v164)
abbrev segOut : IVec S128 32 := Wout (Proc.devRef .tc main_call0_v171)
abbrev aggOut : Vec Ideal S64x512 .f32 := Wout (Proc.devRef .tc main_call0_v174)

/-- The parent's slot from the parent's node id `p`: `(p div 4095) * 2 + (p mod 4095 - 1)`, the flooring
    quotient and the non-negative remainder written through the truncating ones as the program writes them. -/
def segFun (p : IVec S128 32) : IVec S128 32 :=
  addi
    (muli
      (select (andi (cmpi .ne (signi p) (broadcastInDim S128 ![] bcast_S_S128 (signi (id (constantI S_ 32 4095#32))))) (cmpi .ne (Host.remsi p (broadcastInDim S128 ![] bcast_S_S128 (id (constantI S_ 32 4095#32)))) (broadcastInDim S128 ![] bcast_S_S128 (constantI S_ 32 0#32))))
        (subi (Host.divsi p (broadcastInDim S128 ![] bcast_S_S128 (id (constantI S_ 32 4095#32)))) (broadcastInDim S128 ![] bcast_S_S128 (constantI S_ 32 1#32)))
        (Host.divsi p (broadcastInDim S128 ![] bcast_S_S128 (id (constantI S_ 32 4095#32)))))
      (broadcastInDim S128 ![] bcast_S_S128 (constantI S_ 32 2#32)))
    (subi
      (select (andi (cmpi .ne (cmpi .slt (Host.remsi p (broadcastInDim S128 ![] bcast_S_S128 (select (cmpi .eq (id (constantI S_ 32 4095#32)) (constantI S_ 32 0#32)) (constantI S_ 32 1#32) (id (constantI S_ 32 4095#32))))) (broadcastInDim S128 ![] bcast_S_S128 (constantI S_ 32 0#32))) (broadcastInDim S128 ![] bcast_S_S128 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S128 ![] bcast_S_S128 (select (cmpi .eq (id (constantI S_ 32 4095#32)) (constantI S_ 32 0#32)) (constantI S_ 32 1#32) (id (constantI S_ 32 4095#32))))) (broadcastInDim S128 ![] bcast_S_S128 (constantI S_ 32 0#32))))
        (addi (Host.remsi p (broadcastInDim S128 ![] bcast_S_S128 (select (cmpi .eq (id (constantI S_ 32 4095#32)) (constantI S_ 32 0#32)) (constantI S_ 32 1#32) (id (constantI S_ 32 4095#32))))) (broadcastInDim S128 ![] bcast_S_S128 (select (cmpi .eq (id (constantI S_ 32 4095#32)) (constantI S_ 32 0#32)) (constantI S_ 32 1#32) (id (constantI S_ 32 4095#32)))))
        (Host.remsi p (broadcastInDim S128 ![] bcast_S_S128 (select (cmpi .eq (id (constantI S_ 32 4095#32)) (constantI S_ 32 0#32)) (constantI S_ 32 1#32) (id (constantI S_ 32 4095#32))))))
      (broadcastInDim S128 ![] bcast_S_S128 (constantI S_ 32 1#32)))

/-- The level's token window: flat row `i` is row `1 + i % 2` of graph `i / 2`. -/
theorem x_apply (i : Fin 64) (k : Fin 256) :
    xOut Win (ix2 i k)
      = tokIn Win (ix3 ⟨i.val / 2, by omega⟩ ⟨1 + i.val % 2, by omega⟩ k) := by
  have e : xOut Win = shapeCast S64x256 (extractStridedSlice S32x2x256 ![0, 1, 0] (tokIn Win)
      slices_S32x4095x256_S32x2x256_0_1_0) shapeCasts_S32x2x256_S64x256 := by
    dsimp only [xOut, tokIn, hostOps10]
    after_results_simp
    rfl
  rw [e]
  exact flat3_slice_apply 1 (tokIn Win) _ _ i k (by decide) _ _

/-- The children's parent ids: entry `q` is entry `3 + q % 4` of graph `q / 4`. -/
theorem p_apply (q : Fin 128) :
    pOut Win (ix1 q)
      = parIn Win (ix2 ⟨q.val / 4, by omega⟩ ⟨3 + q.val % 4, by omega⟩) := by
  have e : pOut Win = shapeCast S128 (extractStridedSlice S32x4 ![0, 3] (parIn Win)
      slices_S32x4095_S32x4_0_3) shapeCasts_S32x4_S128 := by
    dsimp only [pOut, parIn, hostOps10]
    after_results_simp
    rfl
  rw [e]
  exact flat2_slice_apply 3 (parIn Win) _ _ q (by decide) _ _

/-- The slot numbers are `segFun` of the parent ids. -/
theorem seg_eq :
    segOut Win = segFun (pOut Win) := by
  dsimp only [segOut, pOut, hostOps10]
  after_results_simp
  rfl

/-- The per-slot sums, as the scatter that computes them. -/
theorem agg_eq :
    aggOut Win
      = Host.scatterAdd (F := Ideal) scatter_S64x512_S128x1_S128x512_1_0_0_1
          (broadcastInDim S64x512 ![] bcast_S_S64x512 (constant (F := Ideal) S_ .f32 0x00000000#32))
          (broadcastInDim S128x1 ![0] bcast_S128_S128x1_0 (segOut Win))
          (hcIn Win) := by
  dsimp only [aggOut, segOut, hcIn, hostOps10]
  after_results_simp
  rfl

/-- Slot `i` holds the sum of the packed rows of the children routed to it. -/
theorem agg_apply (i : Fin 64) (n : Fin 512) :
    aggOut Win (ix2 i n)
      = ∑ k ∈ kids (fun k : Fin 128 => rowTarget 64 (segOut Win (ix1 k))) i, hcIn Win (ix2 k n) := by
  rw [agg_eq]
  exact segsum_apply scatter_S64x512_S128x1_S128x512_1_0_0_1 ⟨rfl, rfl, rfl, rfl⟩ _ bcast_S_S64x512
    bcast_S128_S128x1_0 (segOut Win) (hcIn Win) i n

/-! ## What the stretch leaves alone -/

/-- The arrays the stretch writes. -/
noncomputable def written : List (Ref sig .tc) :=
  [main_call0_v161, main_call0_v162, main_call0_v163, main_call0_v164, main_call0_c_47, main_call0_call18_v0,
   main_call0_call18_v1, main_call0_call18_v2, main_call0_call18_v3, main_call0_call18_v4, main_call0_call18_v5,
   main_call0_call18_v6, main_call0_call18_v7, main_call0_call18_v8, main_call0_call18_c, main_call0_call18_v9,
   main_call0_call18_v10, main_call0_call18_v11, main_call0_call18_c_0, main_call0_call18_v12, main_call0_call18_v13,
   main_call0_v165, main_call0_c_48, main_call0_v166, main_call0_v167, main_call0_c_49, main_call0_call19_v0,
   main_call0_call19_c, main_call0_call19_v1, main_call0_call19_c_0, main_call0_call19_v2, main_call0_call19_v3,
   main_call0_call19_v4, main_call0_call19_c_1, main_call0_call19_v5, main_call0_call19_v6, main_call0_call19_c_2,
   main_call0_call19_v7, main_call0_call19_v8, main_call0_call19_c_3, main_call0_call19_v9, main_call0_call19_v10,
   main_call0_call19_v11, main_call0_call19_v12, main_call0_call19_v13, main_call0_call19_v14, main_call0_v168,
   main_call0_c_50, main_call0_v169, main_call0_v170, main_call0_v171, main_call0_cst_51, main_call0_v172,
   main_call0_v173, main_call0_v174]

/-- An array the stretch does not write holds after it what it held before. -/
theorem keep (r : Ref sig .tc) (hr : r ∉ written) : Wout (Proc.devRef .tc r) = Win (Proc.devRef .tc r) := by
  refine after_of_writes_sub (W := written) hostOps10 Win ?_ hr
  simp only [hostOps10, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v160 : Wout (Proc.devRef .tc main_call0_v160) = Win (Proc.devRef .tc main_call0_v160) := keep Win _ (by decide)
theorem keep_arg5 : Wout (Proc.devRef .tc main_arg5) = Win (Proc.devRef .tc main_arg5) := keep Win _ (by decide)

end Cert.KernelIdeal.Str10

end
-- ==== Proof.KRow10.lean ====
/-
  The update kernel's body at level 1 (blocks of 64 rows), read at one element.

  The body's five payloads, over variables of the block shapes: the pre-activation [64,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 64; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg10

open Cert.KernelIdeal Cert.KernelIdeal.Gen Cert.TreeLstm
open Idealize.ShloMosaic Idealize.ShloMosaic.ValueIdx

/-! ## The two contractions at an index -/

/-- [64,256] × [256,768] into zeros, at (r, n): the sum over the 256 contracted coordinates. -/
theorem matmul_64x256_256x768_apply (a : FVec Ideal S64x256 .bf16) (b : FVec Ideal S256x768 .bf16) (r : Fin 64) (n : Fin 768) :
    matmul dot_S64x256_S256x768_S64x768_1_0_0_1_n_n none a b (constant (F := Ideal) S64x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S64x256_S256x768_S64x768_1_0_0_1_n_n 256 rfl rfl).symm]
  refine Finset.sum_congr rfl fun k _ => ?_
  have ck := contrEquiv1_symm_val dot_S64x256_S256x768_S64x768_1_0_0_1_n_n 256 rfl rfl k
  have l2 : dot_S64x256_S256x768_S64x768_1_0_0_1_n_n.lhsIdx (ix2 r n)
      ((contrEquiv1 dot_S64x256_S256x768_S64x768_1_0_0_1_n_n 256 rfl rfl).symm k) = ix2 r k := by
    funext ax; apply Fin.ext
    match ax with
    | ⟨0, _⟩ => simp [DotDims.lhsIdx, dot_S64x256_S256x768_S64x768_1_0_0_1_n_n]; rfl
    | ⟨1, _⟩ => simp [DotDims.lhsIdx, dot_S64x256_S256x768_S64x768_1_0_0_1_n_n]; exact ck
  have r2 : dot_S64x256_S256x768_S64x768_1_0_0_1_n_n.rhsIdx (ix2 r n)
      ((contrEquiv1 dot_S64x256_S256x768_S64x768_1_0_0_1_n_n 256 rfl rfl).symm k) = ix2 k n := by
    funext ax; apply Fin.ext
    match ax with
    | ⟨0, _⟩ => simp [DotDims.rhsIdx, dot_S64x256_S256x768_S64x768_1_0_0_1_n_n]; exact ck
    | ⟨1, _⟩ => simp [DotDims.rhsIdx, dot_S64x256_S256x768_S64x768_1_0_0_1_n_n]; rfl
  rw [l2, r2]

/-- [64,256] × [256,256] into zeros, at (r, n): the sum over the 256 contracted coordinates. -/
theorem matmul_64x256_256x256_apply (a : FVec Ideal S64x256 .bf16) (b : FVec Ideal S256x256 .bf16) (r : Fin 64) (n : Fin 256) :
    matmul dot_S64x256_S256x256_S64x256_1_0_0_1_n_n none a b (constant (F := Ideal) S64x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S64x256_S256x256_S64x256_1_0_0_1_n_n 256 rfl rfl).symm]
  refine Finset.sum_congr rfl fun k _ => ?_
  have ck := contrEquiv1_symm_val dot_S64x256_S256x256_S64x256_1_0_0_1_n_n 256 rfl rfl k
  have l2 : dot_S64x256_S256x256_S64x256_1_0_0_1_n_n.lhsIdx (ix2 r n)
      ((contrEquiv1 dot_S64x256_S256x256_S64x256_1_0_0_1_n_n 256 rfl rfl).symm k) = ix2 r k := by
    funext ax; apply Fin.ext
    match ax with
    | ⟨0, _⟩ => simp [DotDims.lhsIdx, dot_S64x256_S256x256_S64x256_1_0_0_1_n_n]; rfl
    | ⟨1, _⟩ => simp [DotDims.lhsIdx, dot_S64x256_S256x256_S64x256_1_0_0_1_n_n]; exact ck
  have r2 : dot_S64x256_S256x256_S64x256_1_0_0_1_n_n.rhsIdx (ix2 r n)
      ((contrEquiv1 dot_S64x256_S256x256_S64x256_1_0_0_1_n_n 256 rfl rfl).symm k) = ix2 k n := by
    funext ax; apply Fin.ext
    match ax with
    | ⟨0, _⟩ => simp [DotDims.rhsIdx, dot_S64x256_S256x256_S64x256_1_0_0_1_n_n]; exact ck
    | ⟨1, _⟩ => simp [DotDims.rhsIdx, dot_S64x256_S256x256_S64x256_1_0_0_1_n_n]; rfl
  rw [l2, r2]

/-! ## The payloads at an index -/

/-- The pre-activation at (r, n): (x·Wt + b) + h̃·Ut. -/
theorem pay2_apply (v0 : Vec Ideal S64x256 .bf16) (v2 : Vec Ideal S256x768 .bf16) (v5 : Vec Ideal S1x768 .f32)
    (v8 : Vec Ideal S64x256 .f32) (v13 : Vec Ideal S256x768 .bf16) (r : Fin 64) (n : Fin 768) :
    k10_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k10_pay2
  simp only [shapeCast_self]
  refine (addf_apply _ _ _).trans ?_
  refine congrArg₂ (· + ·) ((addf_apply _ _ _).trans (congrArg₂ (· + ·) ?_ ?_)) ?_
  · exact matmul_64x256_256x768_apply v0 v2 r n
  · exact broadcastTo_1b_ab_apply v5 broadcasts_S1x768_S64x768 r n
  · exact matmul_64x256_256x768_apply _ v13 r n

/-- The cell state at (r, j): logistic z₀ * tanh z₂ + c̃. -/
theorem pay3_apply (v0 : Vec Ideal S64x256 .bf16) (v2 : Vec Ideal S256x768 .bf16) (v5 : Vec Ideal S1x768 .f32)
    (v8 v10 : Vec Ideal S64x256 .f32) (v13 : Vec Ideal S256x768 .bf16) (r : Fin 64) (j : Fin 256) :
    k10_pay3 v0 v2 v5 v8 v10 v13 (ix2 r j)
      = Ideal.logistic (k10_pay2 v0 v2 v5 v8 v13 (ix2 r (c0 j))) * Ideal.tanh (k10_pay2 v0 v2 v5 v8 v13 (ix2 r (c2 j)))
        + v10 (ix2 r j) := by
  unfold k10_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k10_pay2 v0 v2 v5 v8 v13) slices_S64x768_o0_0_S64x256 r j (c0 j) (Nat.zero_add _).symm)
  · exact congrArg Ideal.tanh
      (slice2_axis1_apply 512 (k10_pay2 v0 v2 v5 v8 v13) slices_S64x768_o0_512_S64x256 r j (c2 j) rfl)

/-- The hidden state at (r, j): logistic z₁ * tanh c. -/
theorem pay4_apply (v0 : Vec Ideal S64x256 .bf16) (v2 : Vec Ideal S256x768 .bf16) (v5 : Vec Ideal S1x768 .f32)
    (v8 v10 : Vec Ideal S64x256 .f32) (v13 : Vec Ideal S256x768 .bf16) (r : Fin 64) (j : Fin 256) :
    k10_pay4 v0 v2 v5 v8 v10 v13 (ix2 r j)
      = Ideal.logistic (k10_pay2 v0 v2 v5 v8 v13 (ix2 r (c1 j))) * Ideal.tanh (k10_pay3 v0 v2 v5 v8 v10 v13 (ix2 r j)) := by
  unfold k10_pay4
  refine (mulf_apply _ _ _).trans (congrArg₂ (· * ·) ?_ rfl)
  exact congrArg Ideal.logistic
    (slice2_axis1_apply 256 (k10_pay2 v0 v2 v5 v8 v13) slices_S64x768_o0_256_S64x256 r j (c1 j) rfl)

/-- The forget gate of the hidden state just computed, at (r, j): logistic (h·Uft + bF). -/
theorem pay5_apply (v0 : Vec Ideal S64x256 .bf16) (v2 : Vec Ideal S256x768 .bf16) (v5 : Vec Ideal S1x768 .f32)
    (v8 v10 : Vec Ideal S64x256 .f32) (v13 : Vec Ideal S256x768 .bf16) (v28 : Vec Ideal S256x256 .bf16) (v31 : Vec Ideal S1x256 .f32)
    (r : Fin 64) (j : Fin 256) :
    k10_pay5 v0 v2 v5 v8 v10 v13 v28 v31 (ix2 r j)
      = Ideal.logistic ((∑ k : Fin 256, k10_pay4 v0 v2 v5 v8 v10 v13 (ix2 r k) * v28 (ix2 k j)) + v31 (ix2 (0 : Fin 1) j)) := by
  unfold k10_pay5
  simp only [shapeCast_self]
  refine congrArg Ideal.logistic ((addf_apply _ _ _).trans (congrArg₂ (· + ·) ?_ ?_))
  · exact matmul_64x256_256x256_apply _ v28 r j
  · exact broadcastTo_1b_ab_apply v31 broadcasts_S1x256_S64x256 r j

/-- The right half's stored value at (r, j): the gate times the cell state. -/
theorem pay1_apply (v23 v35 : FVec Ideal S64x256 .f32) (r : Fin 64) (j : Fin 256) :
    k10_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S64x256 .bf16) (v2 : Vec Ideal S256x768 .bf16) (v5 : Vec Ideal S1x768 .f32)
    (v8 v10 : Vec Ideal S64x256 .f32) (v13 : Vec Ideal S256x768 .bf16) (v28 : Vec Ideal S256x256 .bf16) (v31 : Vec Ideal S1x256 .f32)
    (r : Fin 64)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k10_pay4 v0 v2 v5 v8 v10 v13 (ix2 r j) = kerH w X agg i j
    ∧ k10_pay1 (k10_pay3 v0 v2 v5 v8 v10 v13) (k10_pay5 v0 v2 v5 v8 v10 v13 v28 v31) (ix2 r j)
        = fgateRow w (kerH w X agg i) j * kerC w X agg i j := by
  have hz : ∀ n : Fin 768, k10_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k10_pay3 v0 v2 v5 v8 v10 v13 (ix2 r j) = kerC w X agg i j := fun j => by
    rw [pay3_apply, hz, hz, h10]; rfl
  have hh : ∀ j : Fin 256, k10_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg10

end
-- ==== Proof.KReg10.lean ====
/-
  Region 10 of the kernel's run — the update kernel at level 1: 64 nodes, 1 grid points, blocks of 64 rows —:
  the output array main_call0_v175 : [64,512] after the region, element by element, for ANY contents V at the
  region's entry.

  What the body leaves in the output block, at (r, lo j) and at (r, hi j): the two stores cover columns 0..255 and
  256..511, the later one listed first; the agg block is loaded in its two halves. One row of a block is one node:
  row r of point t's blocks is row 64 * t + r of the arrays X = main_call0_v162 and agg = main_call0_v174, the weight
  windows' blocks are their whole arrays. So point t writes back block t of the level's packed array
  [kerH | fgateRow (kerH) * kerC]; the 1 blocks tile the array; hence the array after the region is that packed array.
-/
import proofs.«419362_j66683662237734_3_alg».proof.Proof.KernelIdealFrameP
import proofs.«419362_j66683662237734_3_alg».proof.Proof.KRow10
import Idealize.ShloMosaic.Lib.Pipeline.Value

set_option maxRecDepth 16384

noncomputable section

open scoped BigOperators

namespace Cert.KernelIdeal.Reg10

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S64x512 .f32) (r : Fin 64) (k : Fin 256) :
    (View.ld x3 r10_3 : Vec Ideal S64x256 .f32) (ix2 r k) = x3 (ix2 r (lo k)) := by
  show x3 (r10_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S64x512 .f32) (r : Fin 64) (k : Fin 256) :
    (View.ld x3 r10_4 : Vec Ideal S64x256 .f32) (ix2 r k) = x3 (ix2 r (hi k)) := by
  show x3 (r10_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 64) (j : Fin 256) : (ix2 r (lo j) : S64x512.Idx) = r10_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 64) (j : Fin 256) : (ix2 r (hi j) : S64x512.Idx) = r10_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S64x256 .f32) (r : Fin 64) (j : Fin 256) :
    View.canon [(⟨r10_4, p1⟩ : View.Piece (Elt Ideal) S64x512 .f32), ⟨r10_3, p0⟩] (ix2 r (lo j)) = p0 (ix2 r j) := by
  have hnot : (ix2 r (lo j) : S64x512.Idx) ∉ (⟨r10_4, p1⟩ : View.Piece (Elt Ideal) S64x512 .f32).1.set := by
    show (ix2 r (lo j) : S64x512.Idx) ∉ r10_4.set
    rw [Rect.mem_set_unit]
    intro h
    have h1 : 256 ≤ j.val := (h 1).1
    have := j.isLt
    omega
  rw [View.canon_cons_of_not_mem (⟨r10_4, p1⟩ : View.Piece (Elt Ideal) S64x512 .f32) [⟨r10_3, p0⟩] hnot, emb_left r j]
  exact View.canon_cons_emb r10_3 p0 [] (ix2 r j)

/-- At column hi j the right store's payload shows. -/
theorem canon2_right (p1 p0 : Vec Ideal S64x256 .f32) (r : Fin 64) (j : Fin 256) :
    View.canon [(⟨r10_4, p1⟩ : View.Piece (Elt Ideal) S64x512 .f32), ⟨r10_3, p0⟩] (ix2 r (hi j)) = p1 (ix2 r j) := by
  rw [emb_right r j]
  exact View.canon_cons_emb r10_4 p1 [⟨r10_3, p0⟩] (ix2 r j)

/-- The left half of the output block holds the hidden state's payload. -/
theorem out10_7_left (x0 : Vec Ideal S64x256 .bf16) (x1 : Vec Ideal S256x768 .bf16) (x2 : Vec Ideal S1x768 .f32) (x3 : Vec Ideal S64x512 .f32)
    (x4 : Vec Ideal S256x768 .bf16) (x5 : Vec Ideal S256x256 .bf16) (x6 : Vec Ideal S1x256 .f32) (r : Fin 64) (j : Fin 256) :
    out10_7 x0 x1 x2 x3 x4 x5 x6 (ix2 r (lo j))
      = k10_pay4 x0 x1 x2 (View.ld x3 r10_3) (View.ld x3 r10_4) x4 (ix2 r j) := by
  unfold out10_7
  simp only [View.ld_unit_zero (S := S64x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out10_7_right (x0 : Vec Ideal S64x256 .bf16) (x1 : Vec Ideal S256x768 .bf16) (x2 : Vec Ideal S1x768 .f32) (x3 : Vec Ideal S64x512 .f32)
    (x4 : Vec Ideal S256x768 .bf16) (x5 : Vec Ideal S256x256 .bf16) (x6 : Vec Ideal S1x256 .f32) (r : Fin 64) (j : Fin 256) :
    out10_7 x0 x1 x2 x3 x4 x5 x6 (ix2 r (hi j))
      = k10_pay1 (k10_pay3 x0 x1 x2 (View.ld x3 r10_3) (View.ld x3 r10_4) x4)
          (k10_pay5 x0 x1 x2 (View.ld x3 r10_3) (View.ld x3 r10_4) x4 x5 x6) (ix2 r j) := by
  unfold out10_7
  simp only [View.ld_unit_zero (S := S64x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 64 256) (agg : A2 64 512) : A2 64 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 64 256) (agg : A2 64 512) (i : Fin 64) (j : Fin 256) :
    packed w X agg (ix2 i (lo j)) = kerH w X agg i j := by
  unfold packed
  exact dif_pos j.isLt

theorem packed_hi (w : Wts) (X : A2 64 256) (agg : A2 64 512) (i : Fin 64) (j : Fin 256) :
    packed w X agg (ix2 i (hi j)) = fgateRow w (kerH w X agg i) j * kerC w X agg i j := by
  have hn : ¬ ((ix2 i (hi j) : (⟨2, ![64, 512]⟩ : Shape).Idx) 1).val < 256 := by
    show ¬ (256 + j.val < 256); omega
  have e : ∀ h, (⟨((ix2 i (hi j) : (⟨2, ![64, 512]⟩ : Shape).Idx) 1).val - 256, h⟩ : Fin 256) = j :=
    fun h => Fin.ext (by show 256 + j.val - 256 = j.val; omega)
  unfold packed
  rw [dif_neg hn, e]

/-- One block at an index: if row r of the blocks is row 64 * T + r of X and agg and the weight blocks hold the
    transposed weights, the output block at y is the packed array at g, where g is y moved down 64 * T rows. -/
theorem block_at (w : Wts) (X : A2 64 256) (agg : A2 64 512)
    (x0 : Vec Ideal S64x256 .bf16) (x1 : Vec Ideal S256x768 .bf16) (x2 : Vec Ideal S1x768 .f32) (x3 : Vec Ideal S64x512 .f32)
    (x4 : Vec Ideal S256x768 .bf16) (x5 : Vec Ideal S256x256 .bf16) (x6 : Vec Ideal S1x256 .f32) (T : Nat)
    (h0 : ∀ (r : Fin 64) (k : Fin 256) (i : Fin 64), i.val = 64 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 64) (q : Fin 512) (i : Fin 64), i.val = 64 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S64x512.Idx) (g : S64x512.Idx) (hg0 : (g 0).val = 64 * T + (y 0).val) (hg1 : (g 1).val = (y 1).val) :
    out10_7 x0 x1 x2 x3 x4 x5 x6 y = packed w X agg g := by
  obtain ⟨r, q, rfl⟩ : ∃ (r : Fin 64) (q : Fin 512), y = ix2 r q := ⟨y 0, y 1, eq_ix2 y⟩
  obtain ⟨i, q', rfl⟩ : ∃ (i : Fin 64) (q' : Fin 512), g = ix2 i q' := ⟨g 0, g 1, eq_ix2 g⟩
  have hir : i.val = 64 * T + r.val := hg0
  obtain rfl : q' = q := Fin.ext hg1
  have hrow := fun j : Fin 256 => row w X agg i x0 x1 x2 (View.ld x3 r10_3) (View.ld x3 r10_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out10_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out10_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 64 256 := V c main_call0_v162
/-- The children's packed rows summed per node, as the region finds them. -/
abbrev aggarr (c : Dev nD) : A2 64 512 := V c main_call0_v174

/-- The windows' blocks at point t, typed by their block shapes. -/
abbrev b0 (c : Dev nD) (t : Fin cfg10.N) : Vec Ideal S64x256 .bf16 := iblk10 V c 0 t
abbrev b1 (c : Dev nD) (t : Fin cfg10.N) : Vec Ideal S256x768 .bf16 := iblk10 V c 1 t
abbrev b2 (c : Dev nD) (t : Fin cfg10.N) : Vec Ideal S1x768 .f32 := iblk10 V c 2 t
abbrev b3 (c : Dev nD) (t : Fin cfg10.N) : Vec Ideal S64x512 .f32 := iblk10 V c 3 t
abbrev b4 (c : Dev nD) (t : Fin cfg10.N) : Vec Ideal S256x768 .bf16 := iblk10 V c 4 t
abbrev b5 (c : Dev nD) (t : Fin cfg10.N) : Vec Ideal S256x256 .bf16 := iblk10 V c 5 t
abbrev b6 (c : Dev nD) (t : Fin cfg10.N) : Vec Ideal S1x256 .f32 := iblk10 V c 6 t

/-- The printed index maps over the grid: the row windows 0, 3, 7 are at block (t, 0), the weight windows at (0, 0). -/
theorem idx_facts : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0
    ∧ win10_4.index t (0 : Fin 2) = 0 ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0
    ∧ win10_7.index t (0 : Fin 2) = t.val ∧ win10_7.index t (1 : Fin 2) = 0 :=
  (by decide +kernel : ∀ t : Fin grid10.N, _)

/-- Row r of point t's X block is row 64 * t + r of X. -/
theorem read0 (c : Dev nD) (t : Fin cfg10.N) (r : Fin 64) (k : Fin 256) (i : Fin 64) (hir : i.val = 64 * t.val + r.val) :
    b0 V c t (ix2 r k) = Xarr V c (ix2 i k) := by
  obtain ⟨e0, e1, -⟩ := idx_facts t
  show ((cfg10.win 0).blk t).view.read (Elt Ideal) (V c main_call0_v162) (ix2 r k) = V c main_call0_v162 (ix2 i k)
  rw [View.read_apply]
  show V c main_call0_v162 _ = V c main_call0_v162 _
  refine congrArg (V c main_call0_v162) (funext fun a => Fin.ext ?_)
  match a with
  | ⟨0, _⟩ => show win10_0.index t (0 : Fin 2) * 64 + 1 * r.val = i.val; rw [e0, hir]; omega
  | ⟨1, _⟩ => show win10_0.index t (1 : Fin 2) * 256 + 1 * k.val = k.val; rw [e1]; omega

/-- Row r of point t's agg block is row 64 * t + r of agg. -/
theorem read3 (c : Dev nD) (t : Fin cfg10.N) (r : Fin 64) (q : Fin 512) (i : Fin 64) (hir : i.val = 64 * t.val + r.val) :
    b3 V c t (ix2 r q) = aggarr V c (ix2 i q) := by
  obtain ⟨-, -, -, -, -, -, e0, e1, -⟩ := idx_facts t
  show ((cfg10.win 3).blk t).view.read (Elt Ideal) (V c main_call0_v174) (ix2 r q) = V c main_call0_v174 (ix2 i q)
  rw [View.read_apply]
  show V c main_call0_v174 _ = V c main_call0_v174 _
  refine congrArg (V c main_call0_v174) (funext fun a => Fin.ext ?_)
  match a with
  | ⟨0, _⟩ => show win10_3.index t (0 : Fin 2) * 64 + 1 * r.val = i.val; rw [e0, hir]; omega
  | ⟨1, _⟩ => show win10_3.index t (1 : Fin 2) * 512 + 1 * q.val = q.val; rw [e1]; omega

/-- The W block at any point is the whole array main_call0_v12. -/
theorem read1 (c : Dev nD) (t : Fin cfg10.N) (k : Fin 256) (n : Fin 768) :
    b1 V c t (ix2 k n) = (V c main_call0_v12 : A2 256 768) (ix2 k n) := by
  obtain ⟨-, -, e0, e1, -⟩ := idx_facts t
  show ((cfg10.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win10_1.index t (0 : Fin 2) * 256 + 1 * k.val = k.val; rw [e0]; omega
  | ⟨1, _⟩ => show win10_1.index t (1 : Fin 2) * 768 + 1 * n.val = n.val; rw [e1]; omega

/-- The bias block at any point is the whole array main_arg5. -/
theorem read2 (c : Dev nD) (t : Fin cfg10.N) (z : Fin 1) (n : Fin 768) :
    b2 V c t (ix2 z n) = (V c main_arg5 : A2 1 768) (ix2 z n) := by
  obtain ⟨-, -, -, -, e0, e1, -⟩ := idx_facts t
  show ((cfg10.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win10_2.index t (0 : Fin 2) * 1 + 1 * z.val = z.val; rw [e0]; omega
  | ⟨1, _⟩ => show win10_2.index t (1 : Fin 2) * 768 + 1 * n.val = n.val; rw [e1]; omega

/-- The U block at any point is the whole array main_call0_v16. -/
theorem read4 (c : Dev nD) (t : Fin cfg10.N) (k : Fin 256) (n : Fin 768) :
    b4 V c t (ix2 k n) = (V c main_call0_v16 : A2 256 768) (ix2 k n) := by
  obtain ⟨-, -, -, -, -, -, -, -, e0, e1, -⟩ := idx_facts t
  show ((cfg10.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win10_4.index t (0 : Fin 2) * 256 + 1 * k.val = k.val; rw [e0]; omega
  | ⟨1, _⟩ => show win10_4.index t (1 : Fin 2) * 768 + 1 * n.val = n.val; rw [e1]; omega

/-- The U_f block at any point is the whole array main_call0_v14. -/
theorem read5 (c : Dev nD) (t : Fin cfg10.N) (k j : Fin 256) :
    b5 V c t (ix2 k j) = (V c main_call0_v14 : A2 256 256) (ix2 k j) := by
  obtain ⟨-, -, -, -, -, -, -, -, -, -, e0, e1, -⟩ := idx_facts t
  show ((cfg10.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win10_5.index t (0 : Fin 2) * 256 + 1 * k.val = k.val; rw [e0]; omega
  | ⟨1, _⟩ => show win10_5.index t (1 : Fin 2) * 256 + 1 * j.val = j.val; rw [e1]; omega

/-- The b_f block at any point is the whole array main_call0_v19. -/
theorem read6 (c : Dev nD) (t : Fin cfg10.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg10.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win10_6.index t (0 : Fin 2) * 1 + 1 * z.val = z.val; rw [e0]; omega
  | ⟨1, _⟩ => show win10_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg10.N) :
    (dat10 V c).flushed 7 t = ((cfg10.win 7).blk t).view.read (Elt Ideal) (packed w (Xarr V c) (aggarr V c)) := by
  show (cfg10.win 7).cut (grid10.coords t) ((dat10 V c).after 7 t) = _
  rw [after10_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg10.win 7).xinj (grid10.coords t) y) (((cfg10.win 7).blk t).view.emb y)
    (by show win10_7.index t (0 : Fin 2) * 64 + 1 * (y 0).val = 64 * t.val + (y 0).val; rw [e0]; omega)
    (by show win10_7.index t (1 : Fin 2) * 512 + 1 * (y 1).val = (y 1).val; rw [e1]; omega)

/-- An index of the array is in point t's block iff each coordinate is in the block's range on its axis. -/
theorem mem_blk (t : Fin cfg10.N) (i : S64x512.Idx) :
    i ∈ ((cfg10.win 7).blk t).view.set ↔ ∀ a : Fin 2, win10_7.index t a * S64x512.size a ≤ (i a).val
      ∧ (i a).val < win10_7.index t a * S64x512.size a + S64x512.size a := by
  show i ∈ ((View.whole main_call0_v175).slice (win10_7.rect t)).set ↔ _
  rw [View.set_slice_whole, Rect.mem_set_unit]
  exact Iff.rfl

/-- The 1 blocks of 64 rows tile the array: row i is in the block of point i / 64. -/
theorem cover (i : S64x512.Idx) : ∃ t : Fin cfg10.N, (cfg10.win 7).flush t = true ∧ i ∈ ((cfg10.win 7).blk t).view.set := by
  have hi0 : (i 0).val < 64 := idx2_lt0 i
  have hi1 : (i 1).val < 512 := idx2_lt1 i
  refine ⟨⟨(i 0).val / 64, by rw [show cfg10.N = 1 from N_10]; omega⟩, flush10_7 _, ?_⟩
  rw [mem_blk]
  obtain ⟨-, -, -, -, -, -, -, -, -, -, -, -, -, -, e0, e1⟩ := idx_facts ⟨(i 0).val / 64, by rw [show cfg10.N = 1 from N_10]; omega⟩
  intro a
  match a with
  | ⟨0, _⟩ =>
    show win10_7.index _ (0 : Fin 2) * 64 ≤ (i 0).val ∧ (i 0).val < win10_7.index _ (0 : Fin 2) * 64 + 64
    rw [e0]; show (i 0).val / 64 * 64 ≤ (i 0).val ∧ (i 0).val < (i 0).val / 64 * 64 + 64; omega
  | ⟨1, _⟩ =>
    show win10_7.index _ (1 : Fin 2) * 512 ≤ (i 1).val ∧ (i 1).val < win10_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat10 V c).arrAt 7 cfg10.N = packed w (Xarr V c) (aggarr V c) :=
  (dat10 V c).arrAt_eq_of_cover 7 (packed w (Xarr V c) (aggarr V c))
    (fun t _ => flushed_eq V c w hWt hb hUt hUft hbF t) (cover)

/-- THE VALUE OF THE REGION: after it, row i of main_call0_v175 is [kerH | fgateRow (kerH) * kerC] of node i. -/
theorem region10_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 64) (j : Fin 256) :
    ((dat10 V c).arrAt 7 cfg10.N : A2 64 512) (ix2 i (lo j)) = kerH w (Xarr V c) (aggarr V c) i j
    ∧ ((dat10 V c).arrAt 7 cfg10.N : A2 64 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg10

end
-- ==== Proof.KStr11.lean ====
/-
  The host arithmetic before the level with 1 nodes per graph of the fused kernel, read off the program.

  From the contents at the stretch's entry it cuts the level's window of the token rows (1 rows of each graph from
  row 0 on, flattened to 32 rows) and the children's parent ids (2 entries of each graph from entry 1 on,
  flattened to 64), turns each parent id `p` into the parent's slot `(p div 4095) * 1 + (p mod 4095 - 0)`,
  and sums the children's packed rows per slot. Every other array it leaves as it was.
-/
import proofs.«419362_j66683662237734_3_alg».proof.Proof.Gen.KernelIdeal.Launch
import proofs.«419362_j66683662237734_3_alg».proof.Proof.KStrLib

set_option maxRecDepth 3604

noncomputable section

open scoped BigOperators

namespace Cert.KernelIdeal.Str11

open Idealize.ShloMosaic Idealize.ShloMosaic.ValueIdx Idealize.ShloMosaic.StableHlo
open Cert.KernelIdeal Cert.KernelIdeal.Gen Cert.TreeLstm Cert.TreeLstm.Rows Cert.TreeLstm.Str

variable (Win : Valuation τ sig (Elt Ideal))

/-- The contents after the stretch, from contents `Win` at its entry. -/
local notation "Wout" => StableHlo.after (hostOps11 (F := Ideal)) Win

/-- The arrays the stretch reads and writes, each at its literal type. -/
abbrev tokIn : Vec Ideal S32x4095x256 .bf16 := Win (Proc.devRef .tc main_call0_v21)
abbrev parIn : IVec S32x4095 32 := Win (Proc.devRef .tc main_call0_v22)
abbrev hcIn : Vec Ideal S64x512 .f32 := Win (Proc.devRef .tc main_call0_v175)
abbrev xOut : Vec Ideal S32x256 .bf16 := Wout (Proc.devRef .tc main_call0_v177)
abbrev pOut : IVec S64 32 := Wout (Proc.devRef .tc main_call0_v179)
abbrev segOut : IVec S64 32 := Wout (Proc.devRef .tc main_call0_v186)
abbrev aggOut : Vec Ideal S32x512 .f32 := Wout (Proc.devRef .tc main_call0_v189)

/-- The parent's slot from the parent's node id `p`: `(p div 4095) * 1 + (p mod 4095 - 0)`, the flooring
    quotient and the non-negative remainder written through the truncating ones as the program writes them. -/
def segFun (p : IVec S64 32) : IVec S64 32 :=
  addi
    (muli
      (select (andi (cmpi .ne (signi p) (broadcastInDim S64 ![] bcast_S_S64 (signi (id (constantI S_ 32 4095#32))))) (cmpi .ne (Host.remsi p (broadcastInDim S64 ![] bcast_S_S64 (id (constantI S_ 32 4095#32)))) (broadcastInDim S64 ![] bcast_S_S64 (constantI S_ 32 0#32))))
        (subi (Host.divsi p (broadcastInDim S64 ![] bcast_S_S64 (id (constantI S_ 32 4095#32)))) (broadcastInDim S64 ![] bcast_S_S64 (constantI S_ 32 1#32)))
        (Host.divsi p (broadcastInDim S64 ![] bcast_S_S64 (id (constantI S_ 32 4095#32)))))
      (broadcastInDim S64 ![] bcast_S_S64 (constantI S_ 32 1#32)))
    (subi
      (select (andi (cmpi .ne (cmpi .slt (Host.remsi p (broadcastInDim S64 ![] bcast_S_S64 (select (cmpi .eq (id (constantI S_ 32 4095#32)) (constantI S_ 32 0#32)) (constantI S_ 32 1#32) (id (constantI S_ 32 4095#32))))) (broadcastInDim S64 ![] bcast_S_S64 (constantI S_ 32 0#32))) (broadcastInDim S64 ![] bcast_S_S64 (cmpi .slt (select (cmpi .eq (id (constantI S_ 32 4095#32)) (constantI S_ 32 0#32)) (constantI S_ 32 1#32) (id (constantI S_ 32 4095#32))) (constantI S_ 32 0#32)))) (cmpi .ne (Host.remsi p (broadcastInDim S64 ![] bcast_S_S64 (select (cmpi .eq (id (constantI S_ 32 4095#32)) (constantI S_ 32 0#32)) (constantI S_ 32 1#32) (id (constantI S_ 32 4095#32))))) (broadcastInDim S64 ![] bcast_S_S64 (constantI S_ 32 0#32))))
        (addi (Host.remsi p (broadcastInDim S64 ![] bcast_S_S64 (select (cmpi .eq (id (constantI S_ 32 4095#32)) (constantI S_ 32 0#32)) (constantI S_ 32 1#32) (id (constantI S_ 32 4095#32))))) (broadcastInDim S64 ![] bcast_S_S64 (select (cmpi .eq (id (constantI S_ 32 4095#32)) (constantI S_ 32 0#32)) (constantI S_ 32 1#32) (id (constantI S_ 32 4095#32)))))
        (Host.remsi p (broadcastInDim S64 ![] bcast_S_S64 (select (cmpi .eq (id (constantI S_ 32 4095#32)) (constantI S_ 32 0#32)) (constantI S_ 32 1#32) (id (constantI S_ 32 4095#32))))))
      (broadcastInDim S64 ![] bcast_S_S64 (constantI S_ 32 0#32)))

/-- The level's token window: flat row `i` is row `0 + i % 1` of graph `i / 1`. -/
theorem x_apply (i : Fin 32) (k : Fin 256) :
    xOut Win (ix2 i k)
      = tokIn Win (ix3 ⟨i.val / 1, by omega⟩ ⟨0 + i.val % 1, by omega⟩ k) := by
  have e : xOut Win = shapeCast S32x256 (extractStridedSlice S32x1x256 ![0, 0, 0] (tokIn Win)
      slices_S32x4095x256_S32x1x256_0_0_0) shapeCasts_S32x1x256_S32x256 := by
    dsimp only [xOut, tokIn, hostOps11]
    after_results_simp
    rfl
  rw [e]
  exact flat3_slice_apply 0 (tokIn Win) _ _ i k (by decide) _ _

/-- The children's parent ids: entry `q` is entry `1 + q % 2` of graph `q / 2`. -/
theorem p_apply (q : Fin 64) :
    pOut Win (ix1 q)
      = parIn Win (ix2 ⟨q.val / 2, by omega⟩ ⟨1 + q.val % 2, by omega⟩) := by
  have e : pOut Win = shapeCast S64 (extractStridedSlice S32x2 ![0, 1] (parIn Win)
      slices_S32x4095_S32x2_0_1) shapeCasts_S32x2_S64 := by
    dsimp only [pOut, parIn, hostOps11]
    after_results_simp
    rfl
  rw [e]
  exact flat2_slice_apply 1 (parIn Win) _ _ q (by decide) _ _

/-- The slot numbers are `segFun` of the parent ids. -/
theorem seg_eq :
    segOut Win = segFun (pOut Win) := by
  dsimp only [segOut, pOut, hostOps11]
  after_results_simp
  rfl

/-- The per-slot sums, as the scatter that computes them. -/
theorem agg_eq :
    aggOut Win
      = Host.scatterAdd (F := Ideal) scatter_S32x512_S64x1_S64x512_1_0_0_1
          (broadcastInDim S32x512 ![] bcast_S_S32x512 (constant (F := Ideal) S_ .f32 0x00000000#32))
          (broadcastInDim S64x1 ![0] bcast_S64_S64x1_0 (segOut Win))
          (hcIn Win) := by
  dsimp only [aggOut, segOut, hcIn, hostOps11]
  after_results_simp
  rfl

/-- Slot `i` holds the sum of the packed rows of the children routed to it. -/
theorem agg_apply (i : Fin 32) (n : Fin 512) :
    aggOut Win (ix2 i n)
      = ∑ k ∈ kids (fun k : Fin 64 => rowTarget 32 (segOut Win (ix1 k))) i, hcIn Win (ix2 k n) := by
  rw [agg_eq]
  exact segsum_apply scatter_S32x512_S64x1_S64x512_1_0_0_1 ⟨rfl, rfl, rfl, rfl⟩ _ bcast_S_S32x512
    bcast_S64_S64x1_0 (segOut Win) (hcIn Win) i n

/-! ## What the stretch leaves alone -/

/-- The arrays the stretch writes. -/
noncomputable def written : List (Ref sig .tc) :=
  [main_call0_v176, main_call0_v177, main_call0_v178, main_call0_v179, main_call0_c_52, main_call0_call20_v0,
   main_call0_call20_v1, main_call0_call20_v2, main_call0_call20_v3, main_call0_call20_v4, main_call0_call20_v5,
   main_call0_call20_v6, main_call0_call20_v7, main_call0_call20_v8, main_call0_call20_c, main_call0_call20_v9,
   main_call0_call20_v10, main_call0_call20_v11, main_call0_call20_c_0, main_call0_call20_v12, main_call0_call20_v13,
   main_call0_v180, main_call0_c_53, main_call0_v181, main_call0_v182, main_call0_c_54, main_call0_call21_v0,
   main_call0_call21_c, main_call0_call21_v1, main_call0_call21_c_0, main_call0_call21_v2, main_call0_call21_v3,
   main_call0_call21_v4, main_call0_call21_c_1, main_call0_call21_v5, main_call0_call21_v6, main_call0_call21_c_2,
   main_call0_call21_v7, main_call0_call21_v8, main_call0_call21_c_3, main_call0_call21_v9, main_call0_call21_v10,
   main_call0_call21_v11, main_call0_call21_v12, main_call0_call21_v13, main_call0_call21_v14, main_call0_v183,
   main_call0_c_55, main_call0_v184, main_call0_v185, main_call0_v186, main_call0_cst_56, main_call0_v187,
   main_call0_v188, main_call0_v189]

/-- An array the stretch does not write holds after it what it held before. -/
theorem keep (r : Ref sig .tc) (hr : r ∉ written) : Wout (Proc.devRef .tc r) = Win (Proc.devRef .tc r) := by
  refine after_of_writes_sub (W := written) hostOps11 Win ?_ hr
  simp only [hostOps11, List.Forall, nullary_writes, unary_writes, binary_writes, ternary_writes, reshape_writes,
    Finset.singleton_subset_iff, List.mem_toFinset]
  repeat' apply And.intro
  all_goals exact List.mem_map_of_mem (by decide)

theorem keep_v12 : Wout (Proc.devRef .tc main_call0_v12) = Win (Proc.devRef .tc main_call0_v12) := keep Win _ (by decide)
theorem keep_v14 : Wout (Proc.devRef .tc main_call0_v14) = Win (Proc.devRef .tc main_call0_v14) := keep Win _ (by decide)
theorem keep_v16 : Wout (Proc.devRef .tc main_call0_v16) = Win (Proc.devRef .tc main_call0_v16) := keep Win _ (by decide)
theorem keep_v18 : Wout (Proc.devRef .tc main_call0_v18) = Win (Proc.devRef .tc main_call0_v18) := keep Win _ (by decide)
theorem keep_v19 : Wout (Proc.devRef .tc main_call0_v19) = Win (Proc.devRef .tc main_call0_v19) := keep Win _ (by decide)
theorem keep_v20 : Wout (Proc.devRef .tc main_call0_v20) = Win (Proc.devRef .tc main_call0_v20) := keep Win _ (by decide)
theorem keep_v21 : Wout (Proc.devRef .tc main_call0_v21) = Win (Proc.devRef .tc main_call0_v21) := keep Win _ (by decide)
theorem keep_v22 : Wout (Proc.devRef .tc main_call0_v22) = Win (Proc.devRef .tc main_call0_v22) := keep Win _ (by decide)
theorem keep_v175 : Wout (Proc.devRef .tc main_call0_v175) = Win (Proc.devRef .tc main_call0_v175) := keep Win _ (by decide)
theorem keep_arg5 : Wout (Proc.devRef .tc main_arg5) = Win (Proc.devRef .tc main_arg5) := keep Win _ (by decide)

end Cert.KernelIdeal.Str11

end
-- ==== Proof.KRow11.lean ====
/-
  The update kernel's body at level 0 (blocks of 32 rows), read at one element.

  The body's five payloads, over variables of the block shapes: the pre-activation [32,768]
  (x·Wt + b) + h̃·Ut, the cell state logistic z₀ * tanh z₂ + c̃, the hidden state logistic z₁ * tanh c,
  the forget gate logistic (h·Uft + bF) of the hidden state just computed, and the product f * c stored in
  the right half. Each is read at (r, j) with r : Fin 32; a matmul into the zero splat is the plain sum
  over the 256 contracted coordinates. The last theorem says: if row r of the blocks is row i of the level's
  arrays and the weight blocks hold the transposed weights, the two stored values are kerH and
  fgateRow (kerH …) * kerC of the specification.
-/
import proofs.«419362_j66683662237734_3_alg».proof.Proof.Gen.KernelIdeal.Skeleton
import proofs.«419362_j66683662237734_3_alg».proof.Proof.Spec
import Idealize.ShloMosaic.Lib.ValueLayout
import Idealize.ShloMosaic.PureOps.Ideal.Laws

noncomputable section

open scoped BigOperators

namespace Cert.KernelIdeal.Reg11

open Cert.KernelIdeal Cert.KernelIdeal.Gen Cert.TreeLstm
open Idealize.ShloMosaic Idealize.ShloMosaic.ValueIdx

/-! ## The two contractions at an index -/

/-- [32,256] × [256,768] into zeros, at (r, n): the sum over the 256 contracted coordinates. -/
theorem matmul_32x256_256x768_apply (a : FVec Ideal S32x256 .bf16) (b : FVec Ideal S256x768 .bf16) (r : Fin 32) (n : Fin 768) :
    matmul dot_S32x256_S256x768_S32x768_1_0_0_1_n_n none a b (constant (F := Ideal) S32x768 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S32x256_S256x768_S32x768_1_0_0_1_n_n 256 rfl rfl).symm]
  refine Finset.sum_congr rfl fun k _ => ?_
  have ck := contrEquiv1_symm_val dot_S32x256_S256x768_S32x768_1_0_0_1_n_n 256 rfl rfl k
  have l2 : dot_S32x256_S256x768_S32x768_1_0_0_1_n_n.lhsIdx (ix2 r n)
      ((contrEquiv1 dot_S32x256_S256x768_S32x768_1_0_0_1_n_n 256 rfl rfl).symm k) = ix2 r k := by
    funext ax; apply Fin.ext
    match ax with
    | ⟨0, _⟩ => simp [DotDims.lhsIdx, dot_S32x256_S256x768_S32x768_1_0_0_1_n_n]; rfl
    | ⟨1, _⟩ => simp [DotDims.lhsIdx, dot_S32x256_S256x768_S32x768_1_0_0_1_n_n]; exact ck
  have r2 : dot_S32x256_S256x768_S32x768_1_0_0_1_n_n.rhsIdx (ix2 r n)
      ((contrEquiv1 dot_S32x256_S256x768_S32x768_1_0_0_1_n_n 256 rfl rfl).symm k) = ix2 k n := by
    funext ax; apply Fin.ext
    match ax with
    | ⟨0, _⟩ => simp [DotDims.rhsIdx, dot_S32x256_S256x768_S32x768_1_0_0_1_n_n]; exact ck
    | ⟨1, _⟩ => simp [DotDims.rhsIdx, dot_S32x256_S256x768_S32x768_1_0_0_1_n_n]; rfl
  rw [l2, r2]

/-- [32,256] × [256,256] into zeros, at (r, n): the sum over the 256 contracted coordinates. -/
theorem matmul_32x256_256x256_apply (a : FVec Ideal S32x256 .bf16) (b : FVec Ideal S256x256 .bf16) (r : Fin 32) (n : Fin 256) :
    matmul dot_S32x256_S256x256_S32x256_1_0_0_1_n_n none a b (constant (F := Ideal) S32x256 .f32 0x00000000#32) (ix2 r n)
      = ∑ k : Fin 256, a (ix2 r k) * b (ix2 k n) := by
  show FloatOps.matmul _ none a b _ (ix2 r n) = _
  rw [Ideal.matmul_constant_zero_apply,
    ← Equiv.sum_comp (contrEquiv1 dot_S32x256_S256x256_S32x256_1_0_0_1_n_n 256 rfl rfl).symm]
  refine Finset.sum_congr rfl fun k _ => ?_
  have ck := contrEquiv1_symm_val dot_S32x256_S256x256_S32x256_1_0_0_1_n_n 256 rfl rfl k
  have l2 : dot_S32x256_S256x256_S32x256_1_0_0_1_n_n.lhsIdx (ix2 r n)
      ((contrEquiv1 dot_S32x256_S256x256_S32x256_1_0_0_1_n_n 256 rfl rfl).symm k) = ix2 r k := by
    funext ax; apply Fin.ext
    match ax with
    | ⟨0, _⟩ => simp [DotDims.lhsIdx, dot_S32x256_S256x256_S32x256_1_0_0_1_n_n]; rfl
    | ⟨1, _⟩ => simp [DotDims.lhsIdx, dot_S32x256_S256x256_S32x256_1_0_0_1_n_n]; exact ck
  have r2 : dot_S32x256_S256x256_S32x256_1_0_0_1_n_n.rhsIdx (ix2 r n)
      ((contrEquiv1 dot_S32x256_S256x256_S32x256_1_0_0_1_n_n 256 rfl rfl).symm k) = ix2 k n := by
    funext ax; apply Fin.ext
    match ax with
    | ⟨0, _⟩ => simp [DotDims.rhsIdx, dot_S32x256_S256x256_S32x256_1_0_0_1_n_n]; exact ck
    | ⟨1, _⟩ => simp [DotDims.rhsIdx, dot_S32x256_S256x256_S32x256_1_0_0_1_n_n]; rfl
  rw [l2, r2]

/-! ## The payloads at an index -/

/-- The pre-activation at (r, n): (x·Wt + b) + h̃·Ut. -/
theorem pay2_apply (v0 : Vec Ideal S32x256 .bf16) (v2 : Vec Ideal S256x768 .bf16) (v5 : Vec Ideal S1x768 .f32)
    (v8 : Vec Ideal S32x256 .f32) (v13 : Vec Ideal S256x768 .bf16) (r : Fin 32) (n : Fin 768) :
    k11_pay2 v0 v2 v5 v8 v13 (ix2 r n)
      = ((∑ k : Fin 256, v0 (ix2 r k) * v2 (ix2 k n)) + v5 (ix2 (0 : Fin 1) n)) + ∑ k : Fin 256, v8 (ix2 r k) * v13 (ix2 k n) := by
  unfold k11_pay2
  simp only [shapeCast_self]
  refine (addf_apply _ _ _).trans ?_
  refine congrArg₂ (· + ·) ((addf_apply _ _ _).trans (congrArg₂ (· + ·) ?_ ?_)) ?_
  · exact matmul_32x256_256x768_apply v0 v2 r n
  · exact broadcastTo_1b_ab_apply v5 broadcasts_S1x768_S32x768 r n
  · exact matmul_32x256_256x768_apply _ v13 r n

/-- The cell state at (r, j): logistic z₀ * tanh z₂ + c̃. -/
theorem pay3_apply (v0 : Vec Ideal S32x256 .bf16) (v2 : Vec Ideal S256x768 .bf16) (v5 : Vec Ideal S1x768 .f32)
    (v8 v10 : Vec Ideal S32x256 .f32) (v13 : Vec Ideal S256x768 .bf16) (r : Fin 32) (j : Fin 256) :
    k11_pay3 v0 v2 v5 v8 v10 v13 (ix2 r j)
      = Ideal.logistic (k11_pay2 v0 v2 v5 v8 v13 (ix2 r (c0 j))) * Ideal.tanh (k11_pay2 v0 v2 v5 v8 v13 (ix2 r (c2 j)))
        + v10 (ix2 r j) := by
  unfold k11_pay3
  simp only [shapeCast_self]
  refine (addf_apply _ _ _).trans ?_
  refine congrArg₂ (· + ·) ((mulf_apply _ _ _).trans (congrArg₂ (· * ·) ?_ ?_)) rfl
  · exact congrArg Ideal.logistic
      (slice2_axis1_apply 0 (k11_pay2 v0 v2 v5 v8 v13) slices_S32x768_o0_0_S32x256 r j (c0 j) (Nat.zero_add _).symm)
  · exact congrArg Ideal.tanh
      (slice2_axis1_apply 512 (k11_pay2 v0 v2 v5 v8 v13) slices_S32x768_o0_512_S32x256 r j (c2 j) rfl)

/-- The hidden state at (r, j): logistic z₁ * tanh c. -/
theorem pay4_apply (v0 : Vec Ideal S32x256 .bf16) (v2 : Vec Ideal S256x768 .bf16) (v5 : Vec Ideal S1x768 .f32)
    (v8 v10 : Vec Ideal S32x256 .f32) (v13 : Vec Ideal S256x768 .bf16) (r : Fin 32) (j : Fin 256) :
    k11_pay4 v0 v2 v5 v8 v10 v13 (ix2 r j)
      = Ideal.logistic (k11_pay2 v0 v2 v5 v8 v13 (ix2 r (c1 j))) * Ideal.tanh (k11_pay3 v0 v2 v5 v8 v10 v13 (ix2 r j)) := by
  unfold k11_pay4
  refine (mulf_apply _ _ _).trans (congrArg₂ (· * ·) ?_ rfl)
  exact congrArg Ideal.logistic
    (slice2_axis1_apply 256 (k11_pay2 v0 v2 v5 v8 v13) slices_S32x768_o0_256_S32x256 r j (c1 j) rfl)

/-- The forget gate of the hidden state just computed, at (r, j): logistic (h·Uft + bF). -/
theorem pay5_apply (v0 : Vec Ideal S32x256 .bf16) (v2 : Vec Ideal S256x768 .bf16) (v5 : Vec Ideal S1x768 .f32)
    (v8 v10 : Vec Ideal S32x256 .f32) (v13 : Vec Ideal S256x768 .bf16) (v28 : Vec Ideal S256x256 .bf16) (v31 : Vec Ideal S1x256 .f32)
    (r : Fin 32) (j : Fin 256) :
    k11_pay5 v0 v2 v5 v8 v10 v13 v28 v31 (ix2 r j)
      = Ideal.logistic ((∑ k : Fin 256, k11_pay4 v0 v2 v5 v8 v10 v13 (ix2 r k) * v28 (ix2 k j)) + v31 (ix2 (0 : Fin 1) j)) := by
  unfold k11_pay5
  simp only [shapeCast_self]
  refine congrArg Ideal.logistic ((addf_apply _ _ _).trans (congrArg₂ (· + ·) ?_ ?_))
  · exact matmul_32x256_256x256_apply _ v28 r j
  · exact broadcastTo_1b_ab_apply v31 broadcasts_S1x256_S32x256 r j

/-- The right half's stored value at (r, j): the gate times the cell state. -/
theorem pay1_apply (v23 v35 : FVec Ideal S32x256 .f32) (r : Fin 32) (j : Fin 256) :
    k11_pay1 v23 v35 (ix2 r j) = v35 (ix2 r j) * v23 (ix2 r j) := rfl

/-! ## One row of a block is one node of the level -/

/-- If row r of the input blocks is row i of the level's arrays X and agg (the agg block read in its two halves), and the
    weight blocks hold the transposed weights, then at (r, j) the left store holds kerH and the right store holds
    fgateRow (kerH) * kerC of node i. -/
theorem row {M : Nat} (w : Wts) (X : A2 M 256) (agg : A2 M 512) (i : Fin M)
    (v0 : Vec Ideal S32x256 .bf16) (v2 : Vec Ideal S256x768 .bf16) (v5 : Vec Ideal S1x768 .f32)
    (v8 v10 : Vec Ideal S32x256 .f32) (v13 : Vec Ideal S256x768 .bf16) (v28 : Vec Ideal S256x256 .bf16) (v31 : Vec Ideal S1x256 .f32)
    (r : Fin 32)
    (h0 : ∀ k : Fin 256, v0 (ix2 r k) = X (ix2 i k))
    (h2 : ∀ (k : Fin 256) (n : Fin 768), v2 (ix2 k n) = w.W (ix2 n k))
    (h5 : ∀ n : Fin 768, v5 (ix2 (0 : Fin 1) n) = w.bI (ix2 (0 : Fin 1) n))
    (h8 : ∀ k : Fin 256, v8 (ix2 r k) = agg (ix2 i (lo k)))
    (h10 : ∀ j : Fin 256, v10 (ix2 r j) = agg (ix2 i (hi j)))
    (h13 : ∀ (k : Fin 256) (n : Fin 768), v13 (ix2 k n) = w.U (ix2 n k))
    (h28 : ∀ k j : Fin 256, v28 (ix2 k j) = w.Uf (ix2 j k))
    (h31 : ∀ j : Fin 256, v31 (ix2 (0 : Fin 1) j) = w.bF (ix1 j)) (j : Fin 256) :
    k11_pay4 v0 v2 v5 v8 v10 v13 (ix2 r j) = kerH w X agg i j
    ∧ k11_pay1 (k11_pay3 v0 v2 v5 v8 v10 v13) (k11_pay5 v0 v2 v5 v8 v10 v13 v28 v31) (ix2 r j)
        = fgateRow w (kerH w X agg i) j * kerC w X agg i j := by
  have hz : ∀ n : Fin 768, k11_pay2 v0 v2 v5 v8 v13 (ix2 r n) = kerZ w X agg i n := fun n => by
    rw [pay2_apply]; unfold kerZ
    refine congrArg₂ (· + ·) (congrArg₂ (· + ·) ?_ (h5 n)) ?_
    · exact Finset.sum_congr rfl fun k _ => by rw [h0, h2]
    · exact Finset.sum_congr rfl fun k _ => by rw [h8, h13]
  have hc : ∀ j : Fin 256, k11_pay3 v0 v2 v5 v8 v10 v13 (ix2 r j) = kerC w X agg i j := fun j => by
    rw [pay3_apply, hz, hz, h10]; rfl
  have hh : ∀ j : Fin 256, k11_pay4 v0 v2 v5 v8 v10 v13 (ix2 r j) = kerH w X agg i j := fun j => by
    rw [pay4_apply, hz, hc]; rfl
  refine ⟨hh j, ?_⟩
  rw [pay1_apply, pay5_apply, hc]
  refine congrArg (· * kerC w X agg i j) ?_
  unfold fgateRow
  refine congrArg Ideal.logistic (congrArg₂ (· + ·) ?_ (h31 j))
  exact Finset.sum_congr rfl fun k _ => by rw [hh, h28]

end Cert.KernelIdeal.Reg11

end
-- ==== Proof.KReg11.lean ====
/-
  Region 11 of the kernel's run — the update kernel at level 0: 32 nodes, 1 grid points, blocks of 32 rows —:
  the output array main_call0_v190 : [32,512] after the region, element by element, for ANY contents V at the
  region's entry.

  What the body leaves in the output block, at (r, lo j) and at (r, hi j): the two stores cover columns 0..255 and
  256..511, the later one listed first; the agg block is loaded in its two halves. One row of a block is one node:
  row r of point t's blocks is row 32 * t + r of the arrays X = main_call0_v177 and agg = main_call0_v189, the weight
  windows' blocks are their whole arrays. So point t writes back block t of the level's packed array
  [kerH | fgateRow (kerH) * kerC]; the 1 blocks tile the array; hence the array after the region is that packed array.
-/
import proofs.«419362_j66683662237734_3_alg».proof.Proof.KernelIdealFrameP
import proofs.«419362_j66683662237734_3_alg».proof.Proof.KRow11
import Idealize.ShloMosaic.Lib.Pipeline.Value

set_option maxRecDepth 16384

noncomputable section

open scoped BigOperators

namespace Cert.KernelIdeal.Reg11

open Cert.KernelIdeal Cert.KernelIdeal.Gen Cert.TreeLstm
open Idealize.ShloMosaic Idealize.ShloMosaic.TcCoe Idealize.ShloMosaic.ValueIdx Idealize.SL.Sem
open Idealize.ShloMosaic.Pipeline (Dat)

/-! ## The body's output block at an index -/

theorem hz : (![0, 0] : Fin 2 → Nat) = fun _ => 0 := funext fun a => by fin_cases a <;> rfl

/-- The agg block's left half at (r, k) is the block at (r, lo k). -/
theorem ld_left (x3 : Vec Ideal S32x512 .f32) (r : Fin 32) (k : Fin 256) :
    (View.ld x3 r11_3 : Vec Ideal S32x256 .f32) (ix2 r k) = x3 (ix2 r (lo k)) := by
  show x3 (r11_3.emb (ix2 r k)) = x3 (ix2 r (lo k))
  refine congrArg x3 (funext fun a => Fin.ext ?_)
  match a with
  | ⟨0, _⟩ => show 0 + 1 * r.val = r.val; omega
  | ⟨1, _⟩ => show 0 + 1 * k.val = k.val; omega

/-- The agg block's right half at (r, k) is the block at (r, hi k). -/
theorem ld_right (x3 : Vec Ideal S32x512 .f32) (r : Fin 32) (k : Fin 256) :
    (View.ld x3 r11_4 : Vec Ideal S32x256 .f32) (ix2 r k) = x3 (ix2 r (hi k)) := by
  show x3 (r11_4.emb (ix2 r k)) = x3 (ix2 r (hi k))
  refine congrArg x3 (funext fun a => Fin.ext ?_)
  match a with
  | ⟨0, _⟩ => show 0 + 1 * r.val = r.val; omega
  | ⟨1, _⟩ => show 256 + 1 * k.val = 256 + k.val; omega

/-- Column lo j of the output block is column j of the left store's rectangle. -/
theorem emb_left (r : Fin 32) (j : Fin 256) : (ix2 r (lo j) : S32x512.Idx) = r11_3.emb (ix2 r j) :=
  funext fun a => Fin.ext (by
    match a with
    | ⟨0, _⟩ => show r.val = 0 + 1 * r.val; omega
    | ⟨1, _⟩ => show j.val = 0 + 1 * j.val; omega)

/-- Column hi j of the output block is column j of the right store's rectangle. -/
theorem emb_right (r : Fin 32) (j : Fin 256) : (ix2 r (hi j) : S32x512.Idx) = r11_4.emb (ix2 r j) :=
  funext fun a => Fin.ext (by
    match a with
    | ⟨0, _⟩ => show r.val = 0 + 1 * r.val; omega
    | ⟨1, _⟩ => show 256 + j.val = 256 + 1 * j.val; omega)

/-- The two stores' pieces, the right one listed first: at column lo j the left store's payload shows. -/
theorem canon2_left (p1 p0 : Vec Ideal S32x256 .f32) (r : Fin 32) (j : Fin 256) :
    View.canon [(⟨r11_4, p1⟩ : View.Piece (Elt Ideal) S32x512 .f32), ⟨r11_3, p0⟩] (ix2 r (lo j)) = p0 (ix2 r j) := by
  have hnot : (ix2 r (lo j) : S32x512.Idx) ∉ (⟨r11_4, p1⟩ : View.Piece (Elt Ideal) S32x512 .f32).1.set := by
    show (ix2 r (lo j) : S32x512.Idx) ∉ r11_4.set
    rw [Rect.mem_set_unit]
    intro h
    have h1 : 256 ≤ j.val := (h 1).1
    have := j.isLt
    omega
  rw [View.canon_cons_of_not_mem (⟨r11_4, p1⟩ : View.Piece (Elt Ideal) S32x512 .f32) [⟨r11_3, p0⟩] hnot, emb_left r j]
  exact View.canon_cons_emb r11_3 p0 [] (ix2 r j)

/-- At column hi j the right store's payload shows. -/
theorem canon2_right (p1 p0 : Vec Ideal S32x256 .f32) (r : Fin 32) (j : Fin 256) :
    View.canon [(⟨r11_4, p1⟩ : View.Piece (Elt Ideal) S32x512 .f32), ⟨r11_3, p0⟩] (ix2 r (hi j)) = p1 (ix2 r j) := by
  rw [emb_right r j]
  exact View.canon_cons_emb r11_4 p1 [⟨r11_3, p0⟩] (ix2 r j)

/-- The left half of the output block holds the hidden state's payload. -/
theorem out11_7_left (x0 : Vec Ideal S32x256 .bf16) (x1 : Vec Ideal S256x768 .bf16) (x2 : Vec Ideal S1x768 .f32) (x3 : Vec Ideal S32x512 .f32)
    (x4 : Vec Ideal S256x768 .bf16) (x5 : Vec Ideal S256x256 .bf16) (x6 : Vec Ideal S1x256 .f32) (r : Fin 32) (j : Fin 256) :
    out11_7 x0 x1 x2 x3 x4 x5 x6 (ix2 r (lo j))
      = k11_pay4 x0 x1 x2 (View.ld x3 r11_3) (View.ld x3 r11_4) x4 (ix2 r j) := by
  unfold out11_7
  simp only [View.ld_unit_zero (S := S32x256) hz, View.ld_unit_zero (S := S256x768) hz, View.ld_unit_zero (S := S1x768) hz,
    View.ld_unit_zero (S := S256x256) hz, View.ld_unit_zero (S := S1x256) hz]
  exact canon2_left _ _ r j

/-- The right half of the output block holds the gate times the cell state. -/
theorem out11_7_right (x0 : Vec Ideal S32x256 .bf16) (x1 : Vec Ideal S256x768 .bf16) (x2 : Vec Ideal S1x768 .f32) (x3 : Vec Ideal S32x512 .f32)
    (x4 : Vec Ideal S256x768 .bf16) (x5 : Vec Ideal S256x256 .bf16) (x6 : Vec Ideal S1x256 .f32) (r : Fin 32) (j : Fin 256) :
    out11_7 x0 x1 x2 x3 x4 x5 x6 (ix2 r (hi j))
      = k11_pay1 (k11_pay3 x0 x1 x2 (View.ld x3 r11_3) (View.ld x3 r11_4) x4)
          (k11_pay5 x0 x1 x2 (View.ld x3 r11_3) (View.ld x3 r11_4) x4 x5 x6) (ix2 r j) := by
  unfold out11_7
  simp only [View.ld_unit_zero (S := S32x256) hz, View.ld_unit_zero (S := S256x768) hz, View.ld_unit_zero (S := S1x768) hz,
    View.ld_unit_zero (S := S256x256) hz, View.ld_unit_zero (S := S1x256) hz]
  exact canon2_right _ _ r j

/-! ## The level's packed array, and one block row of it -/

/-- The level's packed array [h | f(h) * c] as the kernel computes it from X and agg. -/
def packed (w : Wts) (X : A2 32 256) (agg : A2 32 512) : A2 32 512 := fun y =>
  if h : (y 1).val < 256 then kerH w X agg (y 0) ⟨(y 1).val, h⟩
  else fgateRow w (kerH w X agg (y 0)) ⟨(y 1).val - 256, by have := idx2_lt1 y; omega⟩
        * kerC w X agg (y 0) ⟨(y 1).val - 256, by have := idx2_lt1 y; omega⟩

theorem packed_lo (w : Wts) (X : A2 32 256) (agg : A2 32 512) (i : Fin 32) (j : Fin 256) :
    packed w X agg (ix2 i (lo j)) = kerH w X agg i j := by
  unfold packed
  exact dif_pos j.isLt

theorem packed_hi (w : Wts) (X : A2 32 256) (agg : A2 32 512) (i : Fin 32) (j : Fin 256) :
    packed w X agg (ix2 i (hi j)) = fgateRow w (kerH w X agg i) j * kerC w X agg i j := by
  have hn : ¬ ((ix2 i (hi j) : (⟨2, ![32, 512]⟩ : Shape).Idx) 1).val < 256 := by
    show ¬ (256 + j.val < 256); omega
  have e : ∀ h, (⟨((ix2 i (hi j) : (⟨2, ![32, 512]⟩ : Shape).Idx) 1).val - 256, h⟩ : Fin 256) = j :=
    fun h => Fin.ext (by show 256 + j.val - 256 = j.val; omega)
  unfold packed
  rw [dif_neg hn, e]

/-- One block at an index: if row r of the blocks is row 32 * T + r of X and agg and the weight blocks hold the
    transposed weights, the output block at y is the packed array at g, where g is y moved down 32 * T rows. -/
theorem block_at (w : Wts) (X : A2 32 256) (agg : A2 32 512)
    (x0 : Vec Ideal S32x256 .bf16) (x1 : Vec Ideal S256x768 .bf16) (x2 : Vec Ideal S1x768 .f32) (x3 : Vec Ideal S32x512 .f32)
    (x4 : Vec Ideal S256x768 .bf16) (x5 : Vec Ideal S256x256 .bf16) (x6 : Vec Ideal S1x256 .f32) (T : Nat)
    (h0 : ∀ (r : Fin 32) (k : Fin 256) (i : Fin 32), i.val = 32 * T + r.val → x0 (ix2 r k) = X (ix2 i k))
    (h1 : ∀ (k : Fin 256) (n : Fin 768), x1 (ix2 k n) = w.W (ix2 n k))
    (h2 : ∀ n : Fin 768, x2 (ix2 (0 : Fin 1) n) = w.bI (ix2 (0 : Fin 1) n))
    (h3 : ∀ (r : Fin 32) (q : Fin 512) (i : Fin 32), i.val = 32 * T + r.val → x3 (ix2 r q) = agg (ix2 i q))
    (h4 : ∀ (k : Fin 256) (n : Fin 768), x4 (ix2 k n) = w.U (ix2 n k))
    (h5 : ∀ k j : Fin 256, x5 (ix2 k j) = w.Uf (ix2 j k))
    (h6 : ∀ j : Fin 256, x6 (ix2 (0 : Fin 1) j) = w.bF (ix1 j))
    (y : S32x512.Idx) (g : S32x512.Idx) (hg0 : (g 0).val = 32 * T + (y 0).val) (hg1 : (g 1).val = (y 1).val) :
    out11_7 x0 x1 x2 x3 x4 x5 x6 y = packed w X agg g := by
  obtain ⟨r, q, rfl⟩ : ∃ (r : Fin 32) (q : Fin 512), y = ix2 r q := ⟨y 0, y 1, eq_ix2 y⟩
  obtain ⟨i, q', rfl⟩ : ∃ (i : Fin 32) (q' : Fin 512), g = ix2 i q' := ⟨g 0, g 1, eq_ix2 g⟩
  have hir : i.val = 32 * T + r.val := hg0
  obtain rfl : q' = q := Fin.ext hg1
  have hrow := fun j : Fin 256 => row w X agg i x0 x1 x2 (View.ld x3 r11_3) (View.ld x3 r11_4) x4 x5 x6 r
    (fun k => h0 r k i hir) h1 h2 (fun k => (ld_left x3 r k).trans (h3 r (lo k) i hir))
    (fun j => (ld_right x3 r j).trans (h3 r (hi j) i hir)) h4 h5 h6 j
  by_cases hq : q'.val < 256
  · have eq : q' = lo ⟨q'.val, hq⟩ := Fin.ext rfl
    rw [eq, out11_7_left, packed_lo]
    exact (hrow _).1
  · have hq2 : q'.val - 256 < 256 := by have := q'.isLt; omega
    have eq : q' = hi ⟨q'.val - 256, hq2⟩ := Fin.ext (by show q'.val = 256 + (q'.val - 256); omega)
    rw [eq, out11_7_right, packed_hi]
    exact (hrow _).2

/-! ## The windows' blocks at a point, read off the arrays -/

section Region

variable (V : (c : Dev nD) → (b : Ref sig .tc) → Buf (Elt Ideal) ((c : Thread nD τ).loc b))

/-- The node features of the level, as the region finds them. -/
abbrev Xarr (c : Dev nD) : A2 32 256 := V c main_call0_v177
/-- The children's packed rows summed per node, as the region finds them. -/
abbrev aggarr (c : Dev nD) : A2 32 512 := V c main_call0_v189

/-- The windows' blocks at point t, typed by their block shapes. -/
abbrev b0 (c : Dev nD) (t : Fin cfg11.N) : Vec Ideal S32x256 .bf16 := iblk11 V c 0 t
abbrev b1 (c : Dev nD) (t : Fin cfg11.N) : Vec Ideal S256x768 .bf16 := iblk11 V c 1 t
abbrev b2 (c : Dev nD) (t : Fin cfg11.N) : Vec Ideal S1x768 .f32 := iblk11 V c 2 t
abbrev b3 (c : Dev nD) (t : Fin cfg11.N) : Vec Ideal S32x512 .f32 := iblk11 V c 3 t
abbrev b4 (c : Dev nD) (t : Fin cfg11.N) : Vec Ideal S256x768 .bf16 := iblk11 V c 4 t
abbrev b5 (c : Dev nD) (t : Fin cfg11.N) : Vec Ideal S256x256 .bf16 := iblk11 V c 5 t
abbrev b6 (c : Dev nD) (t : Fin cfg11.N) : Vec Ideal S1x256 .f32 := iblk11 V c 6 t

/-- The printed index maps over the grid: the row windows 0, 3, 7 are at block (t, 0), the weight windows at (0, 0). -/
theorem idx_facts : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = t.val ∧ win11_7.index t (1 : Fin 2) = 0 :=
  (by decide +kernel : ∀ t : Fin grid11.N, _)

/-- Row r of point t's X block is row 32 * t + r of X. -/
theorem read0 (c : Dev nD) (t : Fin cfg11.N) (r : Fin 32) (k : Fin 256) (i : Fin 32) (hir : i.val = 32 * t.val + r.val) :
    b0 V c t (ix2 r k) = Xarr V c (ix2 i k) := by
  obtain ⟨e0, e1, -⟩ := idx_facts t
  show ((cfg11.win 0).blk t).view.read (Elt Ideal) (V c main_call0_v177) (ix2 r k) = V c main_call0_v177 (ix2 i k)
  rw [View.read_apply]
  show V c main_call0_v177 _ = V c main_call0_v177 _
  refine congrArg (V c main_call0_v177) (funext fun a => Fin.ext ?_)
  match a with
  | ⟨0, _⟩ => show win11_0.index t (0 : Fin 2) * 32 + 1 * r.val = i.val; rw [e0, hir]; omega
  | ⟨1, _⟩ => show win11_0.index t (1 : Fin 2) * 256 + 1 * k.val = k.val; rw [e1]; omega

/-- Row r of point t's agg block is row 32 * t + r of agg. -/
theorem read3 (c : Dev nD) (t : Fin cfg11.N) (r : Fin 32) (q : Fin 512) (i : Fin 32) (hir : i.val = 32 * t.val + r.val) :
    b3 V c t (ix2 r q) = aggarr V c (ix2 i q) := by
  obtain ⟨-, -, -, -, -, -, e0, e1, -⟩ := idx_facts t
  show ((cfg11.win 3).blk t).view.read (Elt Ideal) (V c main_call0_v189) (ix2 r q) = V c main_call0_v189 (ix2 i q)
  rw [View.read_apply]
  show V c main_call0_v189 _ = V c main_call0_v189 _
  refine congrArg (V c main_call0_v189) (funext fun a => Fin.ext ?_)
  match a with
  | ⟨0, _⟩ => show win11_3.index t (0 : Fin 2) * 32 + 1 * r.val = i.val; rw [e0, hir]; omega
  | ⟨1, _⟩ => show win11_3.index t (1 : Fin 2) * 512 + 1 * q.val = q.val; rw [e1]; omega

/-- The W block at any point is the whole array main_call0_v12. -/
theorem read1 (c : Dev nD) (t : Fin cfg11.N) (k : Fin 256) (n : Fin 768) :
    b1 V c t (ix2 k n) = (V c main_call0_v12 : A2 256 768) (ix2 k n) := by
  obtain ⟨-, -, e0, e1, -⟩ := idx_facts t
  show ((cfg11.win 1).blk t).view.read (Elt Ideal) (V c main_call0_v12) (ix2 k n) = V c main_call0_v12 (ix2 k n)
  rw [View.read_apply]
  show V c main_call0_v12 _ = V c main_call0_v12 _
  refine congrArg (V c main_call0_v12) (funext fun a => Fin.ext ?_)
  match a with
  | ⟨0, _⟩ => show win11_1.index t (0 : Fin 2) * 256 + 1 * k.val = k.val; rw [e0]; omega
  | ⟨1, _⟩ => show win11_1.index t (1 : Fin 2) * 768 + 1 * n.val = n.val; rw [e1]; omega

/-- The bias block at any point is the whole array main_arg5. -/
theorem read2 (c : Dev nD) (t : Fin cfg11.N) (z : Fin 1) (n : Fin 768) :
    b2 V c t (ix2 z n) = (V c main_arg5 : A2 1 768) (ix2 z n) := by
  obtain ⟨-, -, -, -, e0, e1, -⟩ := idx_facts t
  show ((cfg11.win 2).blk t).view.read (Elt Ideal) (V c main_arg5) (ix2 z n) = V c main_arg5 (ix2 z n)
  rw [View.read_apply]
  show V c main_arg5 _ = V c main_arg5 _
  refine congrArg (V c main_arg5) (funext fun a => Fin.ext ?_)
  match a with
  | ⟨0, _⟩ => show win11_2.index t (0 : Fin 2) * 1 + 1 * z.val = z.val; rw [e0]; omega
  | ⟨1, _⟩ => show win11_2.index t (1 : Fin 2) * 768 + 1 * n.val = n.val; rw [e1]; omega

/-- The U block at any point is the whole array main_call0_v16. -/
theorem read4 (c : Dev nD) (t : Fin cfg11.N) (k : Fin 256) (n : Fin 768) :
    b4 V c t (ix2 k n) = (V c main_call0_v16 : A2 256 768) (ix2 k n) := by
  obtain ⟨-, -, -, -, -, -, -, -, e0, e1, -⟩ := idx_facts t
  show ((cfg11.win 4).blk t).view.read (Elt Ideal) (V c main_call0_v16) (ix2 k n) = V c main_call0_v16 (ix2 k n)
  rw [View.read_apply]
  show V c main_call0_v16 _ = V c main_call0_v16 _
  refine congrArg (V c main_call0_v16) (funext fun a => Fin.ext ?_)
  match a with
  | ⟨0, _⟩ => show win11_4.index t (0 : Fin 2) * 256 + 1 * k.val = k.val; rw [e0]; omega
  | ⟨1, _⟩ => show win11_4.index t (1 : Fin 2) * 768 + 1 * n.val = n.val; rw [e1]; omega

/-- The U_f block at any point is the whole array main_call0_v14. -/
theorem read5 (c : Dev nD) (t : Fin cfg11.N) (k j : Fin 256) :
    b5 V c t (ix2 k j) = (V c main_call0_v14 : A2 256 256) (ix2 k j) := by
  obtain ⟨-, -, -, -, -, -, -, -, -, -, e0, e1, -⟩ := idx_facts t
  show ((cfg11.win 5).blk t).view.read (Elt Ideal) (V c main_call0_v14) (ix2 k j) = V c main_call0_v14 (ix2 k j)
  rw [View.read_apply]
  show V c main_call0_v14 _ = V c main_call0_v14 _
  refine congrArg (V c main_call0_v14) (funext fun a => Fin.ext ?_)
  match a with
  | ⟨0, _⟩ => show win11_5.index t (0 : Fin 2) * 256 + 1 * k.val = k.val; rw [e0]; omega
  | ⟨1, _⟩ => show win11_5.index t (1 : Fin 2) * 256 + 1 * j.val = j.val; rw [e1]; omega

/-- The b_f block at any point is the whole array main_call0_v19. -/
theorem read6 (c : Dev nD) (t : Fin cfg11.N) (z : Fin 1) (j : Fin 256) :
    b6 V c t (ix2 z j) = (V c main_call0_v19 : A2 1 256) (ix2 z j) := by
  obtain ⟨-, -, -, -, -, -, -, -, -, -, -, -, e0, e1, -⟩ := idx_facts t
  show ((cfg11.win 6).blk t).view.read (Elt Ideal) (V c main_call0_v19) (ix2 z j) = V c main_call0_v19 (ix2 z j)
  rw [View.read_apply]
  show V c main_call0_v19 _ = V c main_call0_v19 _
  refine congrArg (V c main_call0_v19) (funext fun a => Fin.ext ?_)
  match a with
  | ⟨0, _⟩ => show win11_6.index t (0 : Fin 2) * 1 + 1 * z.val = z.val; rw [e0]; omega
  | ⟨1, _⟩ => show win11_6.index t (1 : Fin 2) * 256 + 1 * j.val = j.val; rw [e1]; omega

/-! ## From blocks to the array -/

/-- WHAT POINT t WRITES BACK is block t of the packed array of X and agg as the region finds them. -/
theorem flushed_eq (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (t : Fin cfg11.N) :
    (dat11 V c).flushed 7 t = ((cfg11.win 7).blk t).view.read (Elt Ideal) (packed w (Xarr V c) (aggarr V c)) := by
  show (cfg11.win 7).cut (grid11.coords t) ((dat11 V c).after 7 t) = _
  rw [after11_7]
  obtain ⟨-, -, -, -, -, -, -, -, -, -, -, -, -, -, e0, e1⟩ := idx_facts t
  funext y
  exact block_at w (Xarr V c) (aggarr V c) (b0 V c t) (b1 V c t) (b2 V c t) (b3 V c t) (b4 V c t) (b5 V c t) (b6 V c t) t.val
    (fun r k i hir => read0 V c t r k i hir)
    (fun k n => (read1 V c t k n).trans (hWt k n))
    (fun n => (read2 V c t 0 n).trans (hb n))
    (fun r q i hir => read3 V c t r q i hir)
    (fun k n => (read4 V c t k n).trans (hUt k n))
    (fun k j => (read5 V c t k j).trans (hUft k j))
    (fun j => (read6 V c t 0 j).trans (hbF j))
    ((cfg11.win 7).xinj (grid11.coords t) y) (((cfg11.win 7).blk t).view.emb y)
    (by show win11_7.index t (0 : Fin 2) * 32 + 1 * (y 0).val = 32 * t.val + (y 0).val; rw [e0]; omega)
    (by show win11_7.index t (1 : Fin 2) * 512 + 1 * (y 1).val = (y 1).val; rw [e1]; omega)

/-- An index of the array is in point t's block iff each coordinate is in the block's range on its axis. -/
theorem mem_blk (t : Fin cfg11.N) (i : S32x512.Idx) :
    i ∈ ((cfg11.win 7).blk t).view.set ↔ ∀ a : Fin 2, win11_7.index t a * S32x512.size a ≤ (i a).val
      ∧ (i a).val < win11_7.index t a * S32x512.size a + S32x512.size a := by
  show i ∈ ((View.whole main_call0_v190).slice (win11_7.rect t)).set ↔ _
  rw [View.set_slice_whole, Rect.mem_set_unit]
  exact Iff.rfl

/-- The 1 blocks of 32 rows tile the array: row i is in the block of point i / 32. -/
theorem cover (i : S32x512.Idx) : ∃ t : Fin cfg11.N, (cfg11.win 7).flush t = true ∧ i ∈ ((cfg11.win 7).blk t).view.set := by
  have hi0 : (i 0).val < 32 := idx2_lt0 i
  have hi1 : (i 1).val < 512 := idx2_lt1 i
  refine ⟨⟨(i 0).val / 32, by rw [show cfg11.N = 1 from N_11]; omega⟩, flush11_7 _, ?_⟩
  rw [mem_blk]
  obtain ⟨-, -, -, -, -, -, -, -, -, -, -, -, -, -, e0, e1⟩ := idx_facts ⟨(i 0).val / 32, by rw [show cfg11.N = 1 from N_11]; omega⟩
  intro a
  match a with
  | ⟨0, _⟩ =>
    show win11_7.index _ (0 : Fin 2) * 32 ≤ (i 0).val ∧ (i 0).val < win11_7.index _ (0 : Fin 2) * 32 + 32
    rw [e0]; show (i 0).val / 32 * 32 ≤ (i 0).val ∧ (i 0).val < (i 0).val / 32 * 32 + 32; omega
  | ⟨1, _⟩ =>
    show win11_7.index _ (1 : Fin 2) * 512 ≤ (i 1).val ∧ (i 1).val < win11_7.index _ (1 : Fin 2) * 512 + 512
    rw [e1]; omega

/-- THE ARRAY after the region is the packed array of X and agg as the region finds them. -/
theorem final (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j)) :
    (dat11 V c).arrAt 7 cfg11.N = packed w (Xarr V c) (aggarr V c) :=
  (dat11 V c).arrAt_eq_of_cover 7 (packed w (Xarr V c) (aggarr V c))
    (fun t _ => flushed_eq V c w hWt hb hUt hUft hbF t) (cover)

/-- THE VALUE OF THE REGION: after it, row i of main_call0_v190 is [kerH | fgateRow (kerH) * kerC] of node i. -/
theorem region11_value (c : Dev nD) (w : Wts)
    (hWt : ∀ (k : Fin 256) (n : Fin 768), (V c main_call0_v12 : A2 256 768) (ix2 k n) = w.W (ix2 n k))
    (hb : ∀ n : Fin 768, (V c main_arg5 : A2 1 768) (ix2 (0 : Fin 1) n) = w.bI (ix2 (0 : Fin 1) n))
    (hUt : ∀ (k : Fin 256) (n : Fin 768), (V c main_call0_v16 : A2 256 768) (ix2 k n) = w.U (ix2 n k))
    (hUft : ∀ k j : Fin 256, (V c main_call0_v14 : A2 256 256) (ix2 k j) = w.Uf (ix2 j k))
    (hbF : ∀ j : Fin 256, (V c main_call0_v19 : A2 1 256) (ix2 (0 : Fin 1) j) = w.bF (ix1 j))
    (i : Fin 32) (j : Fin 256) :
    ((dat11 V c).arrAt 7 cfg11.N : A2 32 512) (ix2 i (lo j)) = kerH w (Xarr V c) (aggarr V c) i j
    ∧ ((dat11 V c).arrAt 7 cfg11.N : A2 32 512) (ix2 i (hi j))
        = fgateRow w (kerH w (Xarr V c) (aggarr V c) i) j * kerC w (Xarr V c) (aggarr V c) i j := by
  rw [final V c w hWt hb hUt hUft hbF]
  exact ⟨packed_lo w _ _ i j, packed_hi w _ _ i j⟩

end Region

end Cert.KernelIdeal.Reg11

end
-- ==== Proof.BridgeKRest.lean ====
/-
  Levels 9 down to 0 of the fused kernel in the chain's terms: for each, the host arithmetic before the
  region cuts the level's token rows and the children's parent words out of the carried arrays, routes each
  child to its parent's slot and sums the children's packed rows per slot; the region turns the sums into the
  level's packed array. One theorem per level, the level-10 theorem re-instantiated at the level's sizes.
-/
import proofs.«419362_j66683662237734_3_alg».proof.Proof.BridgeK
import proofs.«419362_j66683662237734_3_alg».proof.Proof.KStr2
import proofs.«419362_j66683662237734_3_alg».proof.Proof.KReg2
import proofs.«419362_j66683662237734_3_alg».proof.Proof.KStr3
import proofs.«419362_j66683662237734_3_alg».proof.Proof.KReg3
import proofs.«419362_j66683662237734_3_alg».proof.Proof.KStr4
import proofs.«419362_j66683662237734_3_alg».proof.Proof.KReg4
import proofs.«419362_j66683662237734_3_alg».proof.Proof.KStr5
import proofs.«419362_j66683662237734_3_alg».proof.Proof.KReg5
import proofs.«419362_j66683662237734_3_alg».proof.Proof.KStr6
import proofs.«419362_j66683662237734_3_alg».proof.Proof.KReg6
import proofs.«419362_j66683662237734_3_alg».proof.Proof.KStr7
import proofs.«419362_j66683662237734_3_alg».proof.Proof.KReg7
import proofs.«419362_j66683662237734_3_alg».proof.Proof.KStr8
import proofs.«419362_j66683662237734_3_alg».proof.Proof.KReg8
import proofs.«419362_j66683662237734_3_alg».proof.Proof.KStr9
import proofs.«419362_j66683662237734_3_alg».proof.Proof.KReg9
import proofs.«419362_j66683662237734_3_alg».proof.Proof.KStr10
import proofs.«419362_j66683662237734_3_alg».proof.Proof.KReg10
import proofs.«419362_j66683662237734_3_alg».proof.Proof.KStr11
import proofs.«419362_j66683662237734_3_alg».proof.Proof.KReg11

set_option maxRecDepth 4000

noncomputable section

open scoped BigOperators

namespace Cert.BridgeK

open Cert.KernelIdeal Cert.KernelIdeal.Gen Cert.TreeLstm
open Idealize.ShloMosaic Idealize.ShloMosaic.TcCoe Idealize.ShloMosaic.ValueIdx

variable (m : (ℓ : Loc nD τ sig) → Buf (Elt Ideal) ℓ) (ρ : Dev nD → PrngReg) (c : Dev nD)

/-! ## Level 9: region 2 -/

theorem klevel2 : Chain.KLevel 512 511 1024 1023 (rfl : 16384 = 32 * 512) (by omega) (rfl : 32768 = 32 * 1024) (by omega)
    (wK m c) (GK m c) (parK m c) Str2.segFun (HC1 m ρ c) (HC2 m ρ c) := by
  refine ⟨Str2.xOut (W4 m ρ c), Str2.pOut (W4 m ρ c), Str2.segOut (W4 m ρ c), Str2.aggOut (W4 m ρ c), ?_, ?_, ?_, ?_, ?_⟩
  · intro i k
    refine (Str2.x_apply (W4 m ρ c) i k).trans ?_
    refine (congrFun ((W4_of_ne m ρ c main_call0_v21 (by decide)).trans (Pre.V3_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 512) + (511 + i.val % 512) = 4095 * (i.val / 512) + 511 + i.val % 512
      omega))
  · intro q
    refine (Str2.p_apply (W4 m ρ c) q).trans ?_
    refine (congrFun ((W4_of_ne m ρ c main_call0_v22 (by decide)).trans (Pre.V3_v22 m ρ c)) _).trans ?_
    refine (Pre.v22_at m ρ c _ _).trans ?_
    exact congrArg (fun a => parK m c (ix1 a)) (Fin.ext (by
      show 4095 * (q.val / 1024) + (1023 + q.val % 1024) = 4095 * (q.val / 1024) + 1023 + q.val % 1024
      omega))
  · exact Str2.seg_eq (W4 m ρ c)
  · intro i n
    exact Str2.agg_apply (W4 m ρ c) i n
  · intro i j
    have e : HC2 m ρ c = ((dat2 (V5 m ρ) c).arrAt 7 cfg2.N : A2 16384 512) := W6_arr m ρ c 7
    rw [e]
    exact Reg2.region2_value (V5 m ρ) c (wK m c)
      (fun k n => (congrFun (Pre.V5_v12 m ρ c) (ix2 k n)).trans (Pre.v12_at m ρ c k n))
      (fun n => (congrFun (Pre.V5_arg5 m ρ c) (ix2 (0 : Fin 1) n)).trans (congrFun (Pre.V1_arg5 m ρ c) (ix2 (0 : Fin 1) n)))
      (fun k n => (congrFun (Pre.V5_v16 m ρ c) (ix2 k n)).trans (Pre.v16_at m ρ c k n))
      (fun k j => (congrFun (Pre.V5_v14 m ρ c) (ix2 k j)).trans (Pre.v14_at m ρ c k j))
      (fun j => (congrFun (Pre.V5_v19 m ρ c) (ix2 (0 : Fin 1) j)).trans (Pre.v19_at m ρ c j)) i j

/-! ## Level 8: region 3 -/

theorem klevel3 : Chain.KLevel 256 255 512 511 (rfl : 8192 = 32 * 256) (by omega) (rfl : 16384 = 32 * 512) (by omega)
    (wK m c) (GK m c) (parK m c) Str3.segFun (HC2 m ρ c) (HC3 m ρ c) := by
  refine ⟨Str3.xOut (W6 m ρ c), Str3.pOut (W6 m ρ c), Str3.segOut (W6 m ρ c), Str3.aggOut (W6 m ρ c), ?_, ?_, ?_, ?_, ?_⟩
  · intro i k
    refine (Str3.x_apply (W6 m ρ c) i k).trans ?_
    refine (congrFun ((W6_of_ne m ρ c main_call0_v21 (by decide)).trans (Pre.V5_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 256) + (255 + i.val % 256) = 4095 * (i.val / 256) + 255 + i.val % 256
      omega))
  · intro q
    refine (Str3.p_apply (W6 m ρ c) q).trans ?_
    refine (congrFun ((W6_of_ne m ρ c main_call0_v22 (by decide)).trans (Pre.V5_v22 m ρ c)) _).trans ?_
    refine (Pre.v22_at m ρ c _ _).trans ?_
    exact congrArg (fun a => parK m c (ix1 a)) (Fin.ext (by
      show 4095 * (q.val / 512) + (511 + q.val % 512) = 4095 * (q.val / 512) + 511 + q.val % 512
      omega))
  · exact Str3.seg_eq (W6 m ρ c)
  · intro i n
    exact Str3.agg_apply (W6 m ρ c) i n
  · intro i j
    have e : HC3 m ρ c = ((dat3 (V7 m ρ) c).arrAt 7 cfg3.N : A2 8192 512) := W8_arr m ρ c 7
    rw [e]
    exact Reg3.region3_value (V7 m ρ) c (wK m c)
      (fun k n => (congrFun (Pre.V7_v12 m ρ c) (ix2 k n)).trans (Pre.v12_at m ρ c k n))
      (fun n => (congrFun (Pre.V7_arg5 m ρ c) (ix2 (0 : Fin 1) n)).trans (congrFun (Pre.V1_arg5 m ρ c) (ix2 (0 : Fin 1) n)))
      (fun k n => (congrFun (Pre.V7_v16 m ρ c) (ix2 k n)).trans (Pre.v16_at m ρ c k n))
      (fun k j => (congrFun (Pre.V7_v14 m ρ c) (ix2 k j)).trans (Pre.v14_at m ρ c k j))
      (fun j => (congrFun (Pre.V7_v19 m ρ c) (ix2 (0 : Fin 1) j)).trans (Pre.v19_at m ρ c j)) i j

/-! ## Level 7: region 4 -/

theorem klevel4 : Chain.KLevel 128 127 256 255 (rfl : 4096 = 32 * 128) (by omega) (rfl : 8192 = 32 * 256) (by omega)
    (wK m c) (GK m c) (parK m c) Str4.segFun (HC3 m ρ c) (HC4 m ρ c) := by
  refine ⟨Str4.xOut (W8 m ρ c), Str4.pOut (W8 m ρ c), Str4.segOut (W8 m ρ c), Str4.aggOut (W8 m ρ c), ?_, ?_, ?_, ?_, ?_⟩
  · intro i k
    refine (Str4.x_apply (W8 m ρ c) i k).trans ?_
    refine (congrFun ((W8_of_ne m ρ c main_call0_v21 (by decide)).trans (Pre.V7_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 128) + (127 + i.val % 128) = 4095 * (i.val / 128) + 127 + i.val % 128
      omega))
  · intro q
    refine (Str4.p_apply (W8 m ρ c) q).trans ?_
    refine (congrFun ((W8_of_ne m ρ c main_call0_v22 (by decide)).trans (Pre.V7_v22 m ρ c)) _).trans ?_
    refine (Pre.v22_at m ρ c _ _).trans ?_
    exact congrArg (fun a => parK m c (ix1 a)) (Fin.ext (by
      show 4095 * (q.val / 256) + (255 + q.val % 256) = 4095 * (q.val / 256) + 255 + q.val % 256
      omega))
  · exact Str4.seg_eq (W8 m ρ c)
  · intro i n
    exact Str4.agg_apply (W8 m ρ c) i n
  · intro i j
    have e : HC4 m ρ c = ((dat4 (V9 m ρ) c).arrAt 7 cfg4.N : A2 4096 512) := W10_arr m ρ c 7
    rw [e]
    exact Reg4.region4_value (V9 m ρ) c (wK m c)
      (fun k n => (congrFun (Pre.V9_v12 m ρ c) (ix2 k n)).trans (Pre.v12_at m ρ c k n))
      (fun n => (congrFun (Pre.V9_arg5 m ρ c) (ix2 (0 : Fin 1) n)).trans (congrFun (Pre.V1_arg5 m ρ c) (ix2 (0 : Fin 1) n)))
      (fun k n => (congrFun (Pre.V9_v16 m ρ c) (ix2 k n)).trans (Pre.v16_at m ρ c k n))
      (fun k j => (congrFun (Pre.V9_v14 m ρ c) (ix2 k j)).trans (Pre.v14_at m ρ c k j))
      (fun j => (congrFun (Pre.V9_v19 m ρ c) (ix2 (0 : Fin 1) j)).trans (Pre.v19_at m ρ c j)) i j

/-! ## Level 6: region 5 -/

theorem klevel5 : Chain.KLevel 64 63 128 127 (rfl : 2048 = 32 * 64) (by omega) (rfl : 4096 = 32 * 128) (by omega)
    (wK m c) (GK m c) (parK m c) Str5.segFun (HC4 m ρ c) (HC5 m ρ c) := by
  refine ⟨Str5.xOut (W10 m ρ c), Str5.pOut (W10 m ρ c), Str5.segOut (W10 m ρ c), Str5.aggOut (W10 m ρ c), ?_, ?_, ?_, ?_, ?_⟩
  · intro i k
    refine (Str5.x_apply (W10 m ρ c) i k).trans ?_
    refine (congrFun ((W10_of_ne m ρ c main_call0_v21 (by decide)).trans (Pre.V9_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 64) + (63 + i.val % 64) = 4095 * (i.val / 64) + 63 + i.val % 64
      omega))
  · intro q
    refine (Str5.p_apply (W10 m ρ c) q).trans ?_
    refine (congrFun ((W10_of_ne m ρ c main_call0_v22 (by decide)).trans (Pre.V9_v22 m ρ c)) _).trans ?_
    refine (Pre.v22_at m ρ c _ _).trans ?_
    exact congrArg (fun a => parK m c (ix1 a)) (Fin.ext (by
      show 4095 * (q.val / 128) + (127 + q.val % 128) = 4095 * (q.val / 128) + 127 + q.val % 128
      omega))
  · exact Str5.seg_eq (W10 m ρ c)
  · intro i n
    exact Str5.agg_apply (W10 m ρ c) i n
  · intro i j
    have e : HC5 m ρ c = ((dat5 (V11 m ρ) c).arrAt 7 cfg5.N : A2 2048 512) := W12_arr m ρ c 7
    rw [e]
    exact Reg5.region5_value (V11 m ρ) c (wK m c)
      (fun k n => (congrFun (Pre.V11_v12 m ρ c) (ix2 k n)).trans (Pre.v12_at m ρ c k n))
      (fun n => (congrFun (Pre.V11_arg5 m ρ c) (ix2 (0 : Fin 1) n)).trans (congrFun (Pre.V1_arg5 m ρ c) (ix2 (0 : Fin 1) n)))
      (fun k n => (congrFun (Pre.V11_v16 m ρ c) (ix2 k n)).trans (Pre.v16_at m ρ c k n))
      (fun k j => (congrFun (Pre.V11_v14 m ρ c) (ix2 k j)).trans (Pre.v14_at m ρ c k j))
      (fun j => (congrFun (Pre.V11_v19 m ρ c) (ix2 (0 : Fin 1) j)).trans (Pre.v19_at m ρ c j)) i j

/-! ## Level 5: region 6 -/

theorem klevel6 : Chain.KLevel 32 31 64 63 (rfl : 1024 = 32 * 32) (by omega) (rfl : 2048 = 32 * 64) (by omega)
    (wK m c) (GK m c) (parK m c) Str6.segFun (HC5 m ρ c) (HC6 m ρ c) := by
  refine ⟨Str6.xOut (W12 m ρ c), Str6.pOut (W12 m ρ c), Str6.segOut (W12 m ρ c), Str6.aggOut (W12 m ρ c), ?_, ?_, ?_, ?_, ?_⟩
  · intro i k
    refine (Str6.x_apply (W12 m ρ c) i k).trans ?_
    refine (congrFun ((W12_of_ne m ρ c main_call0_v21 (by decide)).trans (Pre.V11_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 32) + (31 + i.val % 32) = 4095 * (i.val / 32) + 31 + i.val % 32
      omega))
  · intro q
    refine (Str6.p_apply (W12 m ρ c) q).trans ?_
    refine (congrFun ((W12_of_ne m ρ c main_call0_v22 (by decide)).trans (Pre.V11_v22 m ρ c)) _).trans ?_
    refine (Pre.v22_at m ρ c _ _).trans ?_
    exact congrArg (fun a => parK m c (ix1 a)) (Fin.ext (by
      show 4095 * (q.val / 64) + (63 + q.val % 64) = 4095 * (q.val / 64) + 63 + q.val % 64
      omega))
  · exact Str6.seg_eq (W12 m ρ c)
  · intro i n
    exact Str6.agg_apply (W12 m ρ c) i n
  · intro i j
    have e : HC6 m ρ c = ((dat6 (V13 m ρ) c).arrAt 7 cfg6.N : A2 1024 512) := W14_arr m ρ c 7
    rw [e]
    exact Reg6.region6_value (V13 m ρ) c (wK m c)
      (fun k n => (congrFun (Pre.V13_v12 m ρ c) (ix2 k n)).trans (Pre.v12_at m ρ c k n))
      (fun n => (congrFun (Pre.V13_arg5 m ρ c) (ix2 (0 : Fin 1) n)).trans (congrFun (Pre.V1_arg5 m ρ c) (ix2 (0 : Fin 1) n)))
      (fun k n => (congrFun (Pre.V13_v16 m ρ c) (ix2 k n)).trans (Pre.v16_at m ρ c k n))
      (fun k j => (congrFun (Pre.V13_v14 m ρ c) (ix2 k j)).trans (Pre.v14_at m ρ c k j))
      (fun j => (congrFun (Pre.V13_v19 m ρ c) (ix2 (0 : Fin 1) j)).trans (Pre.v19_at m ρ c j)) i j

/-! ## Level 4: region 7 -/

theorem klevel7 : Chain.KLevel 16 15 32 31 (rfl : 512 = 32 * 16) (by omega) (rfl : 1024 = 32 * 32) (by omega)
    (wK m c) (GK m c) (parK m c) Str7.segFun (HC6 m ρ c) (HC7 m ρ c) := by
  refine ⟨Str7.xOut (W14 m ρ c), Str7.pOut (W14 m ρ c), Str7.segOut (W14 m ρ c), Str7.aggOut (W14 m ρ c), ?_, ?_, ?_, ?_, ?_⟩
  · intro i k
    refine (Str7.x_apply (W14 m ρ c) i k).trans ?_
    refine (congrFun ((W14_of_ne m ρ c main_call0_v21 (by decide)).trans (Pre.V13_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 16) + (15 + i.val % 16) = 4095 * (i.val / 16) + 15 + i.val % 16
      omega))
  · intro q
    refine (Str7.p_apply (W14 m ρ c) q).trans ?_
    refine (congrFun ((W14_of_ne m ρ c main_call0_v22 (by decide)).trans (Pre.V13_v22 m ρ c)) _).trans ?_
    refine (Pre.v22_at m ρ c _ _).trans ?_
    exact congrArg (fun a => parK m c (ix1 a)) (Fin.ext (by
      show 4095 * (q.val / 32) + (31 + q.val % 32) = 4095 * (q.val / 32) + 31 + q.val % 32
      omega))
  · exact Str7.seg_eq (W14 m ρ c)
  · intro i n
    exact Str7.agg_apply (W14 m ρ c) i n
  · intro i j
    have e : HC7 m ρ c = ((dat7 (V15 m ρ) c).arrAt 7 cfg7.N : A2 512 512) := W16_arr m ρ c 7
    rw [e]
    exact Reg7.region7_value (V15 m ρ) c (wK m c)
      (fun k n => (congrFun (Pre.V15_v12 m ρ c) (ix2 k n)).trans (Pre.v12_at m ρ c k n))
      (fun n => (congrFun (Pre.V15_arg5 m ρ c) (ix2 (0 : Fin 1) n)).trans (congrFun (Pre.V1_arg5 m ρ c) (ix2 (0 : Fin 1) n)))
      (fun k n => (congrFun (Pre.V15_v16 m ρ c) (ix2 k n)).trans (Pre.v16_at m ρ c k n))
      (fun k j => (congrFun (Pre.V15_v14 m ρ c) (ix2 k j)).trans (Pre.v14_at m ρ c k j))
      (fun j => (congrFun (Pre.V15_v19 m ρ c) (ix2 (0 : Fin 1) j)).trans (Pre.v19_at m ρ c j)) i j

/-! ## Level 3: region 8 -/

theorem klevel8 : Chain.KLevel 8 7 16 15 (rfl : 256 = 32 * 8) (by omega) (rfl : 512 = 32 * 16) (by omega)
    (wK m c) (GK m c) (parK m c) Str8.segFun (HC7 m ρ c) (HC8 m ρ c) := by
  refine ⟨Str8.xOut (W16 m ρ c), Str8.pOut (W16 m ρ c), Str8.segOut (W16 m ρ c), Str8.aggOut (W16 m ρ c), ?_, ?_, ?_, ?_, ?_⟩
  · intro i k
    refine (Str8.x_apply (W16 m ρ c) i k).trans ?_
    refine (congrFun ((W16_of_ne m ρ c main_call0_v21 (by decide)).trans (Pre.V15_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 8) + (7 + i.val % 8) = 4095 * (i.val / 8) + 7 + i.val % 8
      omega))
  · intro q
    refine (Str8.p_apply (W16 m ρ c) q).trans ?_
    refine (congrFun ((W16_of_ne m ρ c main_call0_v22 (by decide)).trans (Pre.V15_v22 m ρ c)) _).trans ?_
    refine (Pre.v22_at m ρ c _ _).trans ?_
    exact congrArg (fun a => parK m c (ix1 a)) (Fin.ext (by
      show 4095 * (q.val / 16) + (15 + q.val % 16) = 4095 * (q.val / 16) + 15 + q.val % 16
      omega))
  · exact Str8.seg_eq (W16 m ρ c)
  · intro i n
    exact Str8.agg_apply (W16 m ρ c) i n
  · intro i j
    have e : HC8 m ρ c = ((dat8 (V17 m ρ) c).arrAt 7 cfg8.N : A2 256 512) := W18_arr m ρ c 7
    rw [e]
    exact Reg8.region8_value (V17 m ρ) c (wK m c)
      (fun k n => (congrFun (Pre.V17_v12 m ρ c) (ix2 k n)).trans (Pre.v12_at m ρ c k n))
      (fun n => (congrFun (Pre.V17_arg5 m ρ c) (ix2 (0 : Fin 1) n)).trans (congrFun (Pre.V1_arg5 m ρ c) (ix2 (0 : Fin 1) n)))
      (fun k n => (congrFun (Pre.V17_v16 m ρ c) (ix2 k n)).trans (Pre.v16_at m ρ c k n))
      (fun k j => (congrFun (Pre.V17_v14 m ρ c) (ix2 k j)).trans (Pre.v14_at m ρ c k j))
      (fun j => (congrFun (Pre.V17_v19 m ρ c) (ix2 (0 : Fin 1) j)).trans (Pre.v19_at m ρ c j)) i j

/-! ## Level 2: region 9 -/

theorem klevel9 : Chain.KLevel 4 3 8 7 (rfl : 128 = 32 * 4) (by omega) (rfl : 256 = 32 * 8) (by omega)
    (wK m c) (GK m c) (parK m c) Str9.segFun (HC8 m ρ c) (HC9 m ρ c) := by
  refine ⟨Str9.xOut (W18 m ρ c), Str9.pOut (W18 m ρ c), Str9.segOut (W18 m ρ c), Str9.aggOut (W18 m ρ c), ?_, ?_, ?_, ?_, ?_⟩
  · intro i k
    refine (Str9.x_apply (W18 m ρ c) i k).trans ?_
    refine (congrFun ((W18_of_ne m ρ c main_call0_v21 (by decide)).trans (Pre.V17_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 4) + (3 + i.val % 4) = 4095 * (i.val / 4) + 3 + i.val % 4
      omega))
  · intro q
    refine (Str9.p_apply (W18 m ρ c) q).trans ?_
    refine (congrFun ((W18_of_ne m ρ c main_call0_v22 (by decide)).trans (Pre.V17_v22 m ρ c)) _).trans ?_
    refine (Pre.v22_at m ρ c _ _).trans ?_
    exact congrArg (fun a => parK m c (ix1 a)) (Fin.ext (by
      show 4095 * (q.val / 8) + (7 + q.val % 8) = 4095 * (q.val / 8) + 7 + q.val % 8
      omega))
  · exact Str9.seg_eq (W18 m ρ c)
  · intro i n
    exact Str9.agg_apply (W18 m ρ c) i n
  · intro i j
    have e : HC9 m ρ c = ((dat9 (V19 m ρ) c).arrAt 7 cfg9.N : A2 128 512) := W20_arr m ρ c 7
    rw [e]
    exact Reg9.region9_value (V19 m ρ) c (wK m c)
      (fun k n => (congrFun (Pre.V19_v12 m ρ c) (ix2 k n)).trans (Pre.v12_at m ρ c k n))
      (fun n => (congrFun (Pre.V19_arg5 m ρ c) (ix2 (0 : Fin 1) n)).trans (congrFun (Pre.V1_arg5 m ρ c) (ix2 (0 : Fin 1) n)))
      (fun k n => (congrFun (Pre.V19_v16 m ρ c) (ix2 k n)).trans (Pre.v16_at m ρ c k n))
      (fun k j => (congrFun (Pre.V19_v14 m ρ c) (ix2 k j)).trans (Pre.v14_at m ρ c k j))
      (fun j => (congrFun (Pre.V19_v19 m ρ c) (ix2 (0 : Fin 1) j)).trans (Pre.v19_at m ρ c j)) i j

/-! ## Level 1: region 10 -/

theorem klevel10 : Chain.KLevel 2 1 4 3 (rfl : 64 = 32 * 2) (by omega) (rfl : 128 = 32 * 4) (by omega)
    (wK m c) (GK m c) (parK m c) Str10.segFun (HC9 m ρ c) (HC10 m ρ c) := by
  refine ⟨Str10.xOut (W20 m ρ c), Str10.pOut (W20 m ρ c), Str10.segOut (W20 m ρ c), Str10.aggOut (W20 m ρ c), ?_, ?_, ?_, ?_, ?_⟩
  · intro i k
    refine (Str10.x_apply (W20 m ρ c) i k).trans ?_
    refine (congrFun ((W20_of_ne m ρ c main_call0_v21 (by decide)).trans (Pre.V19_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 2) + (1 + i.val % 2) = 4095 * (i.val / 2) + 1 + i.val % 2
      omega))
  · intro q
    refine (Str10.p_apply (W20 m ρ c) q).trans ?_
    refine (congrFun ((W20_of_ne m ρ c main_call0_v22 (by decide)).trans (Pre.V19_v22 m ρ c)) _).trans ?_
    refine (Pre.v22_at m ρ c _ _).trans ?_
    exact congrArg (fun a => parK m c (ix1 a)) (Fin.ext (by
      show 4095 * (q.val / 4) + (3 + q.val % 4) = 4095 * (q.val / 4) + 3 + q.val % 4
      omega))
  · exact Str10.seg_eq (W20 m ρ c)
  · intro i n
    exact Str10.agg_apply (W20 m ρ c) i n
  · intro i j
    have e : HC10 m ρ c = ((dat10 (V21 m ρ) c).arrAt 7 cfg10.N : A2 64 512) := W22_arr m ρ c 7
    rw [e]
    exact Reg10.region10_value (V21 m ρ) c (wK m c)
      (fun k n => (congrFun (Pre.V21_v12 m ρ c) (ix2 k n)).trans (Pre.v12_at m ρ c k n))
      (fun n => (congrFun (Pre.V21_arg5 m ρ c) (ix2 (0 : Fin 1) n)).trans (congrFun (Pre.V1_arg5 m ρ c) (ix2 (0 : Fin 1) n)))
      (fun k n => (congrFun (Pre.V21_v16 m ρ c) (ix2 k n)).trans (Pre.v16_at m ρ c k n))
      (fun k j => (congrFun (Pre.V21_v14 m ρ c) (ix2 k j)).trans (Pre.v14_at m ρ c k j))
      (fun j => (congrFun (Pre.V21_v19 m ρ c) (ix2 (0 : Fin 1) j)).trans (Pre.v19_at m ρ c j)) i j

/-! ## Level 0: region 11 -/

theorem klevel11 : Chain.KLevel 1 0 2 1 (rfl : 32 = 32 * 1) (by omega) (rfl : 64 = 32 * 2) (by omega)
    (wK m c) (GK m c) (parK m c) Str11.segFun (HC10 m ρ c) (HC11 m ρ c) := by
  refine ⟨Str11.xOut (W22 m ρ c), Str11.pOut (W22 m ρ c), Str11.segOut (W22 m ρ c), Str11.aggOut (W22 m ρ c), ?_, ?_, ?_, ?_, ?_⟩
  · intro i k
    refine (Str11.x_apply (W22 m ρ c) i k).trans ?_
    refine (congrFun ((W22_of_ne m ρ c main_call0_v21 (by decide)).trans (Pre.V21_v21 m ρ c)) _).trans ?_
    refine (Pre.v21_at m ρ c _ _ k).trans ?_
    refine (congrFun (Pre.v10_eq m ρ c) _).trans ?_
    exact congrArg (fun a => GK m c (ix2 a k)) (Fin.ext (by
      show 4095 * (i.val / 1) + (0 + i.val % 1) = 4095 * (i.val / 1) + 0 + i.val % 1
      omega))
  · intro q
    refine (Str11.p_apply (W22 m ρ c) q).trans ?_
    refine (congrFun ((W22_of_ne m ρ c main_call0_v22 (by decide)).trans (Pre.V21_v22 m ρ c)) _).trans ?_
    refine (Pre.v22_at m ρ c _ _).trans ?_
    exact congrArg (fun a => parK m c (ix1 a)) (Fin.ext (by
      show 4095 * (q.val / 2) + (1 + q.val % 2) = 4095 * (q.val / 2) + 1 + q.val % 2
      omega))
  · exact Str11.seg_eq (W22 m ρ c)
  · intro i n
    exact Str11.agg_apply (W22 m ρ c) i n
  · intro i j
    have e : HC11 m ρ c = ((dat11 (V23 m ρ) c).arrAt 7 cfg11.N : A2 32 512) := W24_arr m ρ c 7
    rw [e]
    exact Reg11.region11_value (V23 m ρ) c (wK m c)
      (fun k n => (congrFun (Pre.V23_v12 m ρ c) (ix2 k n)).trans (Pre.v12_at m ρ c k n))
      (fun n => (congrFun (Pre.V23_arg5 m ρ c) (ix2 (0 : Fin 1) n)).trans (congrFun (Pre.V1_arg5 m ρ c) (ix2 (0 : Fin 1) n)))
      (fun k n => (congrFun (Pre.V23_v16 m ρ c) (ix2 k n)).trans (Pre.v16_at m ρ c k n))
      (fun k j => (congrFun (Pre.V23_v14 m ρ c) (ix2 k j)).trans (Pre.v14_at m ρ c k j))
      (fun j => (congrFun (Pre.V23_v19 m ρ c) (ix2 (0 : Fin 1) j)).trans (Pre.v19_at m ρ c j)) i j

end Cert.BridgeK

end
-- ==== Proof.RefCarry.lean ====
/- What no later stretch of the reference program writes, at the head of every level of the tree (after 4, 8, …, 44
   stretches; one more for the first stretch's product): the arguments hold their launch contents, and the token rows'
   product with the input weights and the per-graph offsets hold what the first stretch left. -/
import proofs.«419362_j66683662237734_3_alg».proof.Proof.RefTab

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

theorem carry_arg1_R4 (m : (ℓ : Loc nD τ sig) → Buf (Elt F) ℓ) (c : Dev nD) : R4 m c (Proc.devRef .tc main_arg1) = m ((c.tc : Thread nD τ).loc main_arg1) :=
  (R4_keep m c (r := main_arg1) (by decide)).trans <|
    (R3_keep m c (r := main_arg1) (by decide)).trans <|
    (R2_keep m c (r := main_arg1) (by decide)).trans <|
    (R1_keep m c (r := main_arg1) (by decide)).trans <|
    rfl

theorem carry_arg1_R8 (m : (ℓ : Loc nD τ sig) → Buf (Elt F) ℓ) (c : Dev nD) : R8 m c (Proc.devRef .tc main_arg1) = m ((c.tc : Thread nD τ).loc main_arg1) :=
  (R8_keep m c (r := main_arg1) (by decide)).trans <|
    (R7_keep m c (r := main_arg1) (by decide)).trans <|
    (R6_keep m c (r := main_arg1) (by decide)).trans <|
    (R5_keep m c (r := main_arg1) (by decide)).trans <|
    carry_arg1_R4 m c

theorem carry_arg1_R12 (m : (ℓ : Loc nD τ sig) → Buf (Elt F) ℓ) (c : Dev nD) : R12 m c (Proc.devRef .tc main_arg1) = m ((c.tc : Thread nD τ).loc main_arg1) :=
  (R12_keep m c (r := main_arg1) (by decide)).trans <|
    (R11_keep m c (r := main_arg1) (by decide)).trans <|
    (R10_keep m c (r := main_arg1) (by decide)).trans <|
    (R9_keep m c (r := main_arg1) (by decide)).trans <|
    carry_arg1_R8 m c

theorem carry_arg1_R16 (m : (ℓ : Loc nD τ sig) → Buf (Elt F) ℓ) (c : Dev nD) : R16 m c (Proc.devRef .tc main_arg1) = m ((c.tc : Thread nD τ).loc main_arg1) :=
  (R16_keep m c (r := main_arg1) (by decide)).trans <|
    (R15_keep m c (r := main_arg1) (by decide)).trans <|
    (R14_keep m c (r := main_arg1) (by decide)).trans <|
    (R13_keep m c (r := main_arg1) (by decide)).trans <|
    carry_arg1_R12 m c

theorem carry_arg1_R20 (m : (ℓ : Loc nD τ sig) → Buf (Elt F) ℓ) (c : Dev nD) : R20 m c (Proc.devRef .tc main_arg1) = m ((c.tc : Thread nD τ).loc main_arg1) :=
  (R20_keep m c (r := main_arg1) (by decide)).trans <|
    (R19_keep m c (r := main_arg1) (by decide)).trans <|
    (R18_keep m c (r := main_arg1) (by decide)).trans <|
    (R17_keep m c (r := main_arg1) (by decide)).trans <|
    carry_arg1_R16 m c

theorem carry_arg1_R24 (m : (ℓ : Loc nD τ sig) → Buf (Elt F) ℓ) (c : Dev nD) : R24 m c (Proc.devRef .tc main_arg1) = m ((c.tc : Thread nD τ).loc main_arg1) :=
  (R24_keep m c (r := main_arg1) (by decide)).trans <|
    (R23_keep m c (r := main_arg1) (by decide)).trans <|
    (R22_keep m c (r := main_arg1) (by decide)).trans <|
    (R21_keep m c (r := main_arg1) (by decide)).trans <|
    carry_arg1_R20 m c

theorem carry_arg1_R28 (m : (ℓ : Loc nD τ sig) → Buf (Elt F) ℓ) (c : Dev nD) : R28 m c (Proc.devRef .tc main_arg1) = m ((c.tc : Thread nD τ).loc main_arg1) :=
  (R28_keep m c (r := main_arg1) (by decide)).trans <|
    (R27_keep m c (r := main_arg1) (by decide)).trans <|
    (R26_keep m c (r := main_arg1) (by decide)).trans <|
    (R25_keep m c (r := main_arg1) (by decide)).trans <|
    carry_arg1_R24 m c

theorem carry_arg1_R32 (m : (ℓ : Loc nD τ sig) → Buf (Elt F) ℓ) (c : Dev nD) : R32 m c (Proc.devRef .tc main_arg1) = m ((c.tc : Thread nD τ).loc main_arg1) :=
  (R32_keep m c (r := main_arg1) (by decide)).trans <|
    (R31_keep m c (r := main_arg1) (by decide)).trans <|
    (R30_keep m c (r := main_arg1) (by decide)).trans <|
    (R29_keep m c (r := main_arg1) (by decide)).trans <|
    carry_arg1_R28 m c

theorem carry_arg1_R36 (m : (ℓ : Loc nD τ sig) → Buf (Elt F) ℓ) (c : Dev nD) : R36 m c (Proc.devRef .tc main_arg1) = m ((c.tc : Thread nD τ).loc main_arg1) :=
  (R36_keep m c (r := main_arg1) (by decide)).trans <|
    (R35_keep m c (r := main_arg1) (by decide)).trans <|
    (R34_keep m c (r := main_arg1) (by decide)).trans <|
    (R33_keep m c (r := main_arg1) (by decide)).trans <|
    carry_arg1_R32 m c

theorem carry_arg1_R40 (m : (ℓ : Loc nD τ sig) → Buf (Elt F) ℓ) (c : Dev nD) : R40 m c (Proc.devRef .tc main_arg1) = m ((c.tc : Thread nD τ).loc main_arg1) :=
  (R40_keep m c (r := main_arg1) (by decide)).trans <|
    (R39_keep m c (r := main_arg1) (by decide)).trans <|
    (R38_keep m c (r := main_arg1) (by decide)).trans <|
    (R37_keep m c (r := main_arg1) (by decide)).trans <|
    carry_arg1_R36 m c

theorem carry_arg1_R44 (m : (ℓ : Loc nD τ sig) → Buf (Elt F) ℓ) (c : Dev nD) : R44 m c (Proc.devRef .tc main_arg1) = m ((c.tc : Thread nD τ).loc main_arg1) :=
  (R44_keep m c (r := main_arg1) (by decide)).trans <|
    (R43_keep m c (r := main_arg1) (by decide)).trans <|
    (R42_keep m c (r := main_arg1) (by decide)).trans <|
    (R41_keep m c (r := main_arg1) (by decide)).trans <|
    carry_arg1_R40 m c

theorem carry_arg4_R4 (m : (ℓ : Loc nD τ sig) → Buf (Elt F) ℓ) (c : Dev nD) : R4 m c (Proc.devRef .tc main_arg4) = m ((c.tc : Thread nD τ).loc main_arg4) :=
  (R4_keep m c (r := main_arg4) (by decide)).trans <|
    (R3_keep m c (r := main_arg4) (by decide)).trans <|
    (R2_keep m c (r := main_arg4) (by decide)).trans <|
    (R1_keep m c (r := main_arg4) (by decide)).trans <|
    rfl

theorem carry_arg4_R8 (m : (ℓ : Loc nD τ sig) → Buf (Elt F) ℓ) (c : Dev nD) : R8 m c (Proc.devRef .tc main_arg4) = m ((c.tc : Thread nD τ).loc main_arg4) :=
  (R8_keep m c (r := main_arg4) (by decide)).trans <|
    (R7_keep m c (r := main_arg4) (by decide)).trans <|
    (R6_keep m c (r := main_arg4) (by decide)).trans <|
    (R5_keep m c (r := main_arg4) (by decide)).trans <|
    carry_arg4_R4 m c

theorem carry_arg4_R12 (m : (ℓ : Loc nD τ sig) → Buf (Elt F) ℓ) (c : Dev nD) : R12 m c (Proc.devRef .tc main_arg4) = m ((c.tc : Thread nD τ).loc main_arg4) :=
  (R12_keep m c (r := main_arg4) (by decide)).trans <|
    (R11_keep m c (r := main_arg4) (by decide)).trans <|
    (R10_keep m c (r := main_arg4) (by decide)).trans <|
    (R9_keep m c (r := main_arg4) (by decide)).trans <|
    carry_arg4_R8 m c

theorem carry_arg4_R16 (m : (ℓ : Loc nD τ sig) → Buf (Elt F) ℓ) (c : Dev nD) : R16 m c (Proc.devRef .tc main_arg4) = m ((c.tc : Thread nD τ).loc main_arg4) :=
  (R16_keep m c (r := main_arg4) (by decide)).trans <|
    (R15_keep m c (r := main_arg4) (by decide)).trans <|
    (R14_keep m c (r := main_arg4) (by decide)).trans <|
    (R13_keep m c (r := main_arg4) (by decide)).trans <|
    carry_arg4_R12 m c

theorem carry_arg4_R20 (m : (ℓ : Loc nD τ sig) → Buf (Elt F) ℓ) (c : Dev nD) : R20 m c (Proc.devRef .tc main_arg4) = m ((c.tc : Thread nD τ).loc main_arg4) :=
  (R20_keep m c (r := main_arg4) (by decide)).trans <|
    (R19_keep m c (r := main_arg4) (by decide)).trans <|
    (R18_keep m c (r := main_arg4) (by decide)).trans <|
    (R17_keep m c (r := main_arg4) (by decide)).trans <|
    carry_arg4_R16 m c

theorem carry_arg4_R24 (m : (ℓ : Loc nD τ sig) → Buf (Elt F) ℓ) (c : Dev nD) : R24 m c (Proc.devRef .tc main_arg4) = m ((c.tc : Thread nD τ).loc main_arg4) :=
  (R24_keep m c (r := main_arg4) (by decide)).trans <|
    (R23_keep m c (r := main_arg4) (by decide)).trans <|
    (R22_keep m c (r := main_arg4) (by decide)).trans <|
    (R21_keep m c (r := main_arg4) (by decide)).trans <|
    carry_arg4_R20 m c

theorem carry_arg4_R28 (m : (ℓ : Loc nD τ sig) → Buf (Elt F) ℓ) (c : Dev nD) : R28 m c (Proc.devRef .tc main_arg4) = m ((c.tc : Thread nD τ).loc main_arg4) :=
  (R28_keep m c (r := main_arg4) (by decide)).trans <|
    (R27_keep m c (r := main_arg4) (by decide)).trans <|
    (R26_keep m c (r := main_arg4) (by decide)).trans <|
    (R25_keep m c (r := main_arg4) (by decide)).trans <|
    carry_arg4_R24 m c

theorem carry_arg4_R32 (m : (ℓ : Loc nD τ sig) → Buf (Elt F) ℓ) (c : Dev nD) : R32 m c (Proc.devRef .tc main_arg4) = m ((c.tc : Thread nD τ).loc main_arg4) :=
  (R32_keep m c (r := main_arg4) (by decide)).trans <|
    (R31_keep m c (r := main_arg4) (by decide)).trans <|
    (R30_keep m c (r := main_arg4) (by decide)).trans <|
    (R29_keep m c (r := main_arg4) (by decide)).trans <|
    carry_arg4_R28 m c

theorem carry_arg4_R36 (m : (ℓ : Loc nD τ sig) → Buf (Elt F) ℓ) (c : Dev nD) : R36 m c (Proc.devRef .tc main_arg4) = m ((c.tc : Thread nD τ).loc main_arg4) :=
  (R36_keep m c (r := main_arg4) (by decide)).trans <|
    (R35_keep m c (r := main_arg4) (by decide)).trans <|
    (R34_keep m c (r := main_arg4) (by decide)).trans <|
    (R33_keep m c (r := main_arg4) (by decide)).trans <|
    carry_arg4_R32 m c

theorem carry_arg4_R40 (m : (ℓ : Loc nD τ sig) → Buf (Elt F) ℓ) (c : Dev nD) : R40 m c (Proc.devRef .tc main_arg4) = m ((c.tc : Thread nD τ).loc main_arg4) :=
  (R40_keep m c (r := main_arg4) (by decide)).trans <|
    (R39_keep m c (r := main_arg4) (by decide)).trans <|
    (R38_keep m c (r := main_arg4) (by decide)).trans <|
    (R37_keep m c (r := main_arg4) (by decide)).trans <|
    carry_arg4_R36 m c

theorem carry_arg4_R44 (m : (ℓ : Loc nD τ sig) → Buf (Elt F) ℓ) (c : Dev nD) : R44 m c (Proc.devRef .tc main_arg4) = m ((c.tc : Thread nD τ).loc main_arg4) :=
  (R44_keep m c (r := main_arg4) (by decide)).trans <|
    (R43_keep m c (r := main_arg4) (by decide)).trans <|
    (R42_keep m c (r := main_arg4) (by decide)).trans <|
    (R41_keep m c (r := main_arg4) (by decide)).trans <|
    carry_arg4_R40 m c

theorem carry_arg5_R4 (m : (ℓ : Loc nD τ sig) → Buf (Elt F) ℓ) (c : Dev nD) : R4 m c (Proc.devRef .tc main_arg5) = m ((c.tc : Thread nD τ).loc main_arg5) :=
  (R4_keep m c (r := main_arg5) (by decide)).trans <|
    (R3_keep m c (r := main_arg5) (by decide)).trans <|
    (R2_keep m c (r := main_arg5) (by decide)).trans <|
    (R1_keep m c (r := main_arg5) (by decide)).trans <|
    rfl

theorem carry_arg5_R8 (m : (ℓ : Loc nD τ sig) → Buf (Elt F) ℓ) (c : Dev nD) : R8 m c (Proc.devRef .tc main_arg5) = m ((c.tc : Thread nD τ).loc main_arg5) :=
  (R8_keep m c (r := main_arg5) (by decide)).trans <|
    (R7_keep m c (r := main_arg5) (by decide)).trans <|
    (R6_keep m c (r := main_arg5) (by decide)).trans <|
    (R5_keep m c (r := main_arg5) (by decide)).trans <|
    carry_arg5_R4 m c

theorem carry_arg5_R12 (m : (ℓ : Loc nD τ sig) → Buf (Elt F) ℓ) (c : Dev nD) : R12 m c (Proc.devRef .tc main_arg5) = m ((c.tc : Thread nD τ).loc main_arg5) :=
  (R12_keep m c (r := main_arg5) (by decide)).trans <|
    (R11_keep m c (r := main_arg5) (by decide)).trans <|
    (R10_keep m c (r := main_arg5) (by decide)).trans <|
    (R9_keep m c (r := main_arg5) (by decide)).trans <|
    carry_arg5_R8 m c

theorem carry_arg5_R16 (m : (ℓ : Loc nD τ sig) → Buf (Elt F) ℓ) (c : Dev nD) : R16 m c (Proc.devRef .tc main_arg5) = m ((c.tc : Thread nD τ).loc main_arg5) :=
  (R16_keep m c (r := main_arg5) (by decide)).trans <|
    (R15_keep m c (r := main_arg5) (by decide)).trans <|
    (R14_keep m c (r := main_arg5) (by decide)).trans <|
    (R13_keep m c (r := main_arg5) (by decide)).trans <|
    carry_arg5_R12 m c

theorem carry_arg5_R20 (m : (ℓ : Loc nD τ sig) → Buf (Elt F) ℓ) (c : Dev nD) : R20 m c (Proc.devRef .tc main_arg5) = m ((c.tc : Thread nD τ).loc main_arg5) :=
  (R20_keep m c (r := main_arg5) (by decide)).trans <|
    (R19_keep m c (r := main_arg5) (by decide)).trans <|
    (R18_keep m c (r := main_arg5) (by decide)).trans <|
    (R17_keep m c (r := main_arg5) (by decide)).trans <|
    carry_arg5_R16 m c

theorem carry_arg5_R24 (m : (ℓ : Loc nD τ sig) → Buf (Elt F) ℓ) (c : Dev nD) : R24 m c (Proc.devRef .tc main_arg5) = m ((c.tc : Thread nD τ).loc main_arg5) :=
  (R24_keep m c (r := main_arg5) (by decide)).trans <|
    (R23_keep m c (r := main_arg5) (by decide)).trans <|
    (R22_keep m c (r := main_arg5) (by decide)).trans <|
    (R21_keep m c (r := main_arg5) (by decide)).trans <|
    carry_arg5_R20 m c

theorem carry_arg5_R28 (m : (ℓ : Loc nD τ sig) → Buf (Elt F) ℓ) (c : Dev nD) : R28 m c (Proc.devRef .tc main_arg5) = m ((c.tc : Thread nD τ).loc main_arg5) :=
  (R28_keep m c (r := main_arg5) (by decide)).trans <|
    (R27_keep m c (r := main_arg5) (by decide)).trans <|
    (R26_keep m c (r := main_arg5) (by decide)).trans <|
    (R25_keep m c (r := main_arg5) (by decide)).trans <|
    carry_arg5_R24 m c

theorem carry_arg5_R32 (m : (ℓ : Loc nD τ sig) → Buf (Elt F) ℓ) (c : Dev nD) : R32 m c (Proc.devRef .tc main_arg5) = m ((c.tc : Thread nD τ).loc main_arg5) :=
  (R32_keep m c (r := main_arg5) (by decide)).trans <|
    (R31_keep m c (r := main_arg5) (by decide)).trans <|
    (R30_keep m c (r := main_arg5) (by decide)).trans <|
    (R29_keep m c (r := main_arg5) (by decide)).trans <|
    carry_arg5_R28 m c

theorem carry_arg5_R36 (m : (ℓ : Loc nD τ sig) → Buf (Elt F) ℓ) (c : Dev nD) : R36 m c (Proc.devRef .tc main_arg5) = m ((c.tc : Thread nD τ).loc main_arg5) :=
  (R36_keep m c (r := main_arg5) (by decide)).trans <|
    (R35_keep m c (r := main_arg5) (by decide)).trans <|
    (R34_keep m c (r := main_arg5) (by decide)).trans <|
    (R33_keep m c (r := main_arg5) (by decide)).trans <|
    carry_arg5_R32 m c

theorem carry_arg5_R40 (m : (ℓ : Loc nD τ sig) → Buf (Elt F) ℓ) (c : Dev nD) : R40 m c (Proc.devRef .tc main_arg5) = m ((c.tc : Thread nD τ).loc main_arg5) :=
  (R40_keep m c (r := main_arg5) (by decide)).trans <|
    (R39_keep m c (r := main_arg5) (by decide)).trans <|
    (R38_keep m c (r := main_arg5) (by decide)).trans <|
    (R37_keep m c (r := main_arg5) (by decide)).trans <|
    carry_arg5_R36 m c

theorem carry_arg5_R44 (m : (ℓ : Loc nD τ sig) → Buf (Elt F) ℓ) (c : Dev nD) : R44 m c (Proc.devRef .tc main_arg5) = m ((c.tc : Thread nD τ).loc main_arg5) :=
  (R44_keep m c (r := main_arg5) (by decide)).trans <|
    (R43_keep m c (r := main_arg5) (by decide)).trans <|
    (R42_keep m c (r := main_arg5) (by decide)).trans <|
    (R41_keep m c (r := main_arg5) (by decide)).trans <|
    carry_arg5_R40 m c

theorem carry_arg6_R4 (m : (ℓ : Loc nD τ sig) → Buf (Elt F) ℓ) (c : Dev nD) : R4 m c (Proc.devRef .tc main_arg6) = m ((c.tc : Thread nD τ).loc main_arg6) :=
  (R4_keep m c (r := main_arg6) (by decide)).trans <|
    (R3_keep m c (r := main_arg6) (by decide)).trans <|
    (R2_keep m c (r := main_arg6) (by decide)).trans <|
    (R1_keep m c (r := main_arg6) (by decide)).trans <|
    rfl

theorem carry_arg6_R8 (m : (ℓ : Loc nD τ sig) → Buf (Elt F) ℓ) (c : Dev nD) : R8 m c (Proc.devRef .tc main_arg6) = m ((c.tc : Thread nD τ).loc main_arg6) :=
  (R8_keep m c (r := main_arg6) (by decide)).trans <|
    (R7_keep m c (r := main_arg6) (by decide)).trans <|
    (R6_keep m c (r := main_arg6) (by decide)).trans <|
    (R5_keep m c (r := main_arg6) (by decide)).trans <|
    carry_arg6_R4 m c

theorem carry_arg6_R12 (m : (ℓ : Loc nD τ sig) → Buf (Elt F) ℓ) (c : Dev nD) : R12 m c (Proc.devRef .tc main_arg6) = m ((c.tc : Thread nD τ).loc main_arg6) :=
  (R12_keep m c (r := main_arg6) (by decide)).trans <|
    (R11_keep m c (r := main_arg6) (by decide)).trans <|
    (R10_keep m c (r := main_arg6) (by decide)).trans <|
    (R9_keep m c (r := main_arg6) (by decide)).trans <|
    carry_arg6_R8 m c

theorem carry_arg6_R16 (m : (ℓ : Loc nD τ sig) → Buf (Elt F) ℓ) (c : Dev nD) : R16 m c (Proc.devRef .tc main_arg6) = m ((c.tc : Thread nD τ).loc main_arg6) :=
  (R16_keep m c (r := main_arg6) (by decide)).trans <|
    (R15_keep m c (r := main_arg6) (by decide)).trans <|
    (R14_keep m c (r := main_arg6) (by decide)).trans <|
    (R13_keep m c (r := main_arg6) (by decide)).trans <|
    carry_arg6_R12 m c

theorem carry_arg6_R20 (m : (ℓ : Loc nD τ sig) → Buf (Elt F) ℓ) (c : Dev nD) : R20 m c (Proc.devRef .tc main_arg6) = m ((c.tc : Thread nD τ).loc main_arg6) :=
  (R20_keep m c (r := main_arg6) (by decide)).trans <|
    (R19_keep m c (r := main_arg6) (by decide)).trans <|
    (R18_keep m c (r := main_arg6) (by decide)).trans <|
    (R17_keep m c (r := main_arg6) (by decide)).trans <|
    carry_arg6_R16 m c

theorem carry_arg6_R24 (m : (ℓ : Loc nD τ sig) → Buf (Elt F) ℓ) (c : Dev nD) : R24 m c (Proc.devRef .tc main_arg6) = m ((c.tc : Thread nD τ).loc main_arg6) :=
  (R24_keep m c (r := main_arg6) (by decide)).trans <|
    (R23_keep m c (r := main_arg6) (by decide)).trans <|
    (R22_keep m c (r := main_arg6) (by decide)).trans <|
    (R21_keep m c (r := main_arg6) (by decide)).trans <|
    carry_arg6_R20 m c

theorem carry_arg6_R28 (m : (ℓ : Loc nD τ sig) → Buf (Elt F) ℓ) (c : Dev nD) : R28 m c (Proc.devRef .tc main_arg6) = m ((c.tc : Thread nD τ).loc main_arg6) :=
  (R28_keep m c (r := main_arg6) (by decide)).trans <|
    (R27_keep m c (r := main_arg6) (by decide)).trans <|
    (R26_keep m c (r := main_arg6) (by decide)).trans <|
    (R25_keep m c (r := main_arg6) (by decide)).trans <|
    carry_arg6_R24 m c

theorem carry_arg6_R32 (m : (ℓ : Loc nD τ sig) → Buf (Elt F) ℓ) (c : Dev nD) : R32 m c (Proc.devRef .tc main_arg6) = m ((c.tc : Thread nD τ).loc main_arg6) :=
  (R32_keep m c (r := main_arg6) (by decide)).trans <|
    (R31_keep m c (r := main_arg6) (by decide)).trans <|
    (R30_keep m c (r := main_arg6) (by decide)).trans <|
    (R29_keep m c (r := main_arg6) (by decide)).trans <|
    carry_arg6_R28 m c

theorem carry_arg6_R36 (m : (ℓ : Loc nD τ sig) → Buf (Elt F) ℓ) (c : Dev nD) : R36 m c (Proc.devRef .tc main_arg6) = m ((c.tc : Thread nD τ).loc main_arg6) :=
  (R36_keep m c (r := main_arg6) (by decide)).trans <|
    (R35_keep m c (r := main_arg6) (by decide)).trans <|
    (R34_keep m c (r := main_arg6) (by decide)).trans <|
    (R33_keep m c (r := main_arg6) (by decide)).trans <|
    carry_arg6_R32 m c

theorem carry_arg6_R40 (m : (ℓ : Loc nD τ sig) → Buf (Elt F) ℓ) (c : Dev nD) : R40 m c (Proc.devRef .tc main_arg6) = m ((c.tc : Thread nD τ).loc main_arg6) :=
  (R40_keep m c (r := main_arg6) (by decide)).trans <|
    (R39_keep m c (r := main_arg6) (by decide)).trans <|
    (R38_keep m c (r := main_arg6) (by decide)).trans <|
    (R37_keep m c (r := main_arg6) (by decide)).trans <|
    carry_arg6_R36 m c

theorem carry_arg6_R44 (m : (ℓ : Loc nD τ sig) → Buf (Elt F) ℓ) (c : Dev nD) : R44 m c (Proc.devRef .tc main_arg6) = m ((c.tc : Thread nD τ).loc main_arg6) :=
  (R44_keep m c (r := main_arg6) (by decide)).trans <|
    (R43_keep m c (r := main_arg6) (by decide)).trans <|
    (R42_keep m c (r := main_arg6) (by decide)).trans <|
    (R41_keep m c (r := main_arg6) (by decide)).trans <|
    carry_arg6_R40 m c

theorem carry_arg7_R4 (m : (ℓ : Loc nD τ sig) → Buf (Elt F) ℓ) (c : Dev nD) : R4 m c (Proc.devRef .tc main_arg7) = m ((c.tc : Thread nD τ).loc main_arg7) :=
  (R4_keep m c (r := main_arg7) (by decide)).trans <|
    (R3_keep m c (r := main_arg7) (by decide)).trans <|
    (R2_keep m c (r := main_arg7) (by decide)).trans <|
    (R1_keep m c (r := main_arg7) (by decide)).trans <|
    rfl

theorem carry_arg7_R8 (m : (ℓ : Loc nD τ sig) → Buf (Elt F) ℓ) (c : Dev nD) : R8 m c (Proc.devRef .tc main_arg7) = m ((c.tc : Thread nD τ).loc main_arg7) :=
  (R8_keep m c (r := main_arg7) (by decide)).trans <|
    (R7_keep m c (r := main_arg7) (by decide)).trans <|
    (R6_keep m c (r := main_arg7) (by decide)).trans <|
    (R5_keep m c (r := main_arg7) (by decide)).trans <|
    carry_arg7_R4 m c

theorem carry_arg7_R12 (m : (ℓ : Loc nD τ sig) → Buf (Elt F) ℓ) (c : Dev nD) : R12 m c (Proc.devRef .tc main_arg7) = m ((c.tc : Thread nD τ).loc main_arg7) :=
  (R12_keep m c (r := main_arg7) (by decide)).trans <|
    (R11_keep m c (r := main_arg7) (by decide)).trans <|
    (R10_keep m c (r := main_arg7) (by decide)).trans <|
    (R9_keep m c (r := main_arg7) (by decide)).trans <|
    carry_arg7_R8 m c

theorem carry_arg7_R16 (m : (ℓ : Loc nD τ sig) → Buf (Elt F) ℓ) (c : Dev nD) : R16 m c (Proc.devRef .tc main_arg7) = m ((c.tc : Thread nD τ).loc main_arg7) :=
  (R16_keep m c (r := main_arg7) (by decide)).trans <|
    (R15_keep m c (r := main_arg7) (by decide)).trans <|
    (R14_keep m c (r := main_arg7) (by decide)).trans <|
    (R13_keep m c (r := main_arg7) (by decide)).trans <|
    carry_arg7_R12 m c

theorem carry_arg7_R20 (m : (ℓ : Loc nD τ sig) → Buf (Elt F) ℓ) (c : Dev nD) : R20 m c (Proc.devRef .tc main_arg7) = m ((c.tc : Thread nD τ).loc main_arg7) :=
  (R20_keep m c (r := main_arg7) (by decide)).trans <|
    (R19_keep m c (r := main_arg7) (by decide)).trans <|
    (R18_keep m c (r := main_arg7) (by decide)).trans <|
    (R17_keep m c (r := main_arg7) (by decide)).trans <|
    carry_arg7_R16 m c

theorem carry_arg7_R24 (m : (ℓ : Loc nD τ sig) → Buf (Elt F) ℓ) (c : Dev nD) : R24 m c (Proc.devRef .tc main_arg7) = m ((c.tc : Thread nD τ).loc main_arg7) :=
  (R24_keep m c (r := main_arg7) (by decide)).trans <|
    (R23_keep m c (r := main_arg7) (by decide)).trans <|
    (R22_keep m c (r := main_arg7) (by decide)).trans <|
    (R21_keep m c (r := main_arg7) (by decide)).trans <|
    carry_arg7_R20 m c

theorem carry_arg7_R28 (m : (ℓ : Loc nD τ sig) → Buf (Elt F) ℓ) (c : Dev nD) : R28 m c (Proc.devRef .tc main_arg7) = m ((c.tc : Thread nD τ).loc main_arg7) :=
  (R28_keep m c (r := main_arg7) (by decide)).trans <|
    (R27_keep m c (r := main_arg7) (by decide)).trans <|
    (R26_keep m c (r := main_arg7) (by decide)).trans <|
    (R25_keep m c (r := main_arg7) (by decide)).trans <|
    carry_arg7_R24 m c

theorem carry_arg7_R32 (m : (ℓ : Loc nD τ sig) → Buf (Elt F) ℓ) (c : Dev nD) : R32 m c (Proc.devRef .tc main_arg7) = m ((c.tc : Thread nD τ).loc main_arg7) :=
  (R32_keep m c (r := main_arg7) (by decide)).trans <|
    (R31_keep m c (r := main_arg7) (by decide)).trans <|
    (R30_keep m c (r := main_arg7) (by decide)).trans <|
    (R29_keep m c (r := main_arg7) (by decide)).trans <|
    carry_arg7_R28 m c

theorem carry_arg7_R36 (m : (ℓ : Loc nD τ sig) → Buf (Elt F) ℓ) (c : Dev nD) : R36 m c (Proc.devRef .tc main_arg7) = m ((c.tc : Thread nD τ).loc main_arg7) :=
  (R36_keep m c (r := main_arg7) (by decide)).trans <|
    (R35_keep m c (r := main_arg7) (by decide)).trans <|
    (R34_keep m c (r := main_arg7) (by decide)).trans <|
    (R33_keep m c (r := main_arg7) (by decide)).trans <|
    carry_arg7_R32 m c

theorem carry_arg7_R40 (m : (ℓ : Loc nD τ sig) → Buf (Elt F) ℓ) (c : Dev nD) : R40 m c (Proc.devRef .tc main_arg7) = m ((c.tc : Thread nD τ).loc main_arg7) :=
  (R40_keep m c (r := main_arg7) (by decide)).trans <|
    (R39_keep m c (r := main_arg7) (by decide)).trans <|
    (R38_keep m c (r := main_arg7) (by decide)).trans <|
    (R37_keep m c (r := main_arg7) (by decide)).trans <|
    carry_arg7_R36 m c

theorem carry_arg7_R44 (m : (ℓ : Loc nD τ sig) → Buf (Elt F) ℓ) (c : Dev nD) : R44 m c (Proc.devRef .tc main_arg7) = m ((c.tc : Thread nD τ).loc main_arg7) :=
  (R44_keep m c (r := main_arg7) (by decide)).trans <|
    (R43_keep m c (r := main_arg7) (by decide)).trans <|
    (R42_keep m c (r := main_arg7) (by decide)).trans <|
    (R41_keep m c (r := main_arg7) (by decide)).trans <|
    carry_arg7_R40 m c

theorem carry_arg8_R4 (m : (ℓ : Loc nD τ sig) → Buf (Elt F) ℓ) (c : Dev nD) : R4 m c (Proc.devRef .tc main_arg8) = m ((c.tc : Thread nD τ).loc main_arg8) :=
  (R4_keep m c (r := main_arg8) (by decide)).trans <|
    (R3_keep m c (r := main_arg8) (by decide)).trans <|
    (R2_keep m c (r := main_arg8) (by decide)).trans <|
    (R1_keep m c (r := main_arg8) (by decide)).trans <|
    rfl

theorem carry_arg8_R8 (m : (ℓ : Loc nD τ sig) → Buf (Elt F) ℓ) (c : Dev nD) : R8 m c (Proc.devRef .tc main_arg8) = m ((c.tc : Thread nD τ).loc main_arg8) :=
  (R8_keep m c (r := main_arg8) (by decide)).trans <|
    (R7_keep m c (r := main_arg8) (by decide)).trans <|
    (R6_keep m c (r := main_arg8) (by decide)).trans <|
    (R5_keep m c (r := main_arg8) (by decide)).trans <|
    carry_arg8_R4 m c

theorem carry_arg8_R12 (m : (ℓ : Loc nD τ sig) → Buf (Elt F) ℓ) (c : Dev nD) : R12 m c (Proc.devRef .tc main_arg8) = m ((c.tc : Thread nD τ).loc main_arg8) :=
  (R12_keep m c (r := main_arg8) (by decide)).trans <|
    (R11_keep m c (r := main_arg8) (by decide)).trans <|
    (R10_keep m c (r := main_arg8) (by decide)).trans <|
    (R9_keep m c (r := main_arg8) (by decide)).trans <|
    carry_arg8_R8 m c

theorem carry_arg8_R16 (m : (ℓ : Loc nD τ sig) → Buf (Elt F) ℓ) (c : Dev nD) : R16 m c (Proc.devRef .tc main_arg8) = m ((c.tc : Thread nD τ).loc main_arg8) :=
  (R16_keep m c (r := main_arg8) (by decide)).trans <|
    (R15_keep m c (r := main_arg8) (by decide)).trans <|
    (R14_keep m c (r := main_arg8) (by decide)).trans <|
    (R13_keep m c (r := main_arg8) (by decide)).trans <|
    carry_arg8_R12 m c

theorem carry_arg8_R20 (m : (ℓ : Loc nD τ sig) → Buf (Elt F) ℓ) (c : Dev nD) : R20 m c (Proc.devRef .tc main_arg8) = m ((c.tc : Thread nD τ).loc main_arg8) :=
  (R20_keep m c (r := main_arg8) (by decide)).trans <|
    (R19_keep m c (r := main_arg8) (by decide)).trans <|
    (R18_keep m c (r := main_arg8) (by decide)).trans <|
    (R17_keep m c (r := main_arg8) (by decide)).trans <|
    carry_arg8_R16 m c

theorem carry_arg8_R24 (m : (ℓ : Loc nD τ sig) → Buf (Elt F) ℓ) (c : Dev nD) : R24 m c (Proc.devRef .tc main_arg8) = m ((c.tc : Thread nD τ).loc main_arg8) :=
  (R24_keep m c (r := main_arg8) (by decide)).trans <|
    (R23_keep m c (r := main_arg8) (by decide)).trans <|
    (R22_keep m c (r := main_arg8) (by decide)).trans <|
    (R21_keep m c (r := main_arg8) (by decide)).trans <|
    carry_arg8_R20 m c

theorem carry_arg8_R28 (m : (ℓ : Loc nD τ sig) → Buf (Elt F) ℓ) (c : Dev nD) : R28 m c (Proc.devRef .tc main_arg8) = m ((c.tc : Thread nD τ).loc main_arg8) :=
  (R28_keep m c (r := main_arg8) (by decide)).trans <|
    (R27_keep m c (r := main_arg8) (by decide)).trans <|
    (R26_keep m c (r := main_arg8) (by decide)).trans <|
    (R25_keep m c (r := main_arg8) (by decide)).trans <|
    carry_arg8_R24 m c

theorem carry_arg8_R32 (m : (ℓ : Loc nD τ sig) → Buf (Elt F) ℓ) (c : Dev nD) : R32 m c (Proc.devRef .tc main_arg8) = m ((c.tc : Thread nD τ).loc main_arg8) :=
  (R32_keep m c (r := main_arg8) (by decide)).trans <|
    (R31_keep m c (r := main_arg8) (by decide)).trans <|
    (R30_keep m c (r := main_arg8) (by decide)).trans <|
    (R29_keep m c (r := main_arg8) (by decide)).trans <|
    carry_arg8_R28 m c

theorem carry_arg8_R36 (m : (ℓ : Loc nD τ sig) → Buf (Elt F) ℓ) (c : Dev nD) : R36 m c (Proc.devRef .tc main_arg8) = m ((c.tc : Thread nD τ).loc main_arg8) :=
  (R36_keep m c (r := main_arg8) (by decide)).trans <|
    (R35_keep m c (r := main_arg8) (by decide)).trans <|
    (R34_keep m c (r := main_arg8) (by decide)).trans <|
    (R33_keep m c (r := main_arg8) (by decide)).trans <|
    carry_arg8_R32 m c

theorem carry_arg8_R40 (m : (ℓ : Loc nD τ sig) → Buf (Elt F) ℓ) (c : Dev nD) : R40 m c (Proc.devRef .tc main_arg8) = m ((c.tc : Thread nD τ).loc main_arg8) :=
  (R40_keep m c (r := main_arg8) (by decide)).trans <|
    (R39_keep m c (r := main_arg8) (by decide)).trans <|
    (R38_keep m c (r := main_arg8) (by decide)).trans <|
    (R37_keep m c (r := main_arg8) (by decide)).trans <|
    carry_arg8_R36 m c

theorem carry_arg8_R44 (m : (ℓ : Loc nD τ sig) → Buf (Elt F) ℓ) (c : Dev nD) : R44 m c (Proc.devRef .tc main_arg8) = m ((c.tc : Thread nD τ).loc main_arg8) :=
  (R44_keep m c (r := main_arg8) (by decide)).trans <|
    (R43_keep m c (r := main_arg8) (by decide)).trans <|
    (R42_keep m c (r := main_arg8) (by decide)).trans <|
    (R41_keep m c (r := main_arg8) (by decide)).trans <|
    carry_arg8_R40 m c

theorem carry_arg9_R4 (m : (ℓ : Loc nD τ sig) → Buf (Elt F) ℓ) (c : Dev nD) : R4 m c (Proc.devRef .tc main_arg9) = m ((c.tc : Thread nD τ).loc main_arg9) :=
  (R4_keep m c (r := main_arg9) (by decide)).trans <|
    (R3_keep m c (r := main_arg9) (by decide)).trans <|
    (R2_keep m c (r := main_arg9) (by decide)).trans <|
    (R1_keep m c (r := main_arg9) (by decide)).trans <|
    rfl

theorem carry_arg9_R8 (m : (ℓ : Loc nD τ sig) → Buf (Elt F) ℓ) (c : Dev nD) : R8 m c (Proc.devRef .tc main_arg9) = m ((c.tc : Thread nD τ).loc main_arg9) :=
  (R8_keep m c (r := main_arg9) (by decide)).trans <|
    (R7_keep m c (r := main_arg9) (by decide)).trans <|
    (R6_keep m c (r := main_arg9) (by decide)).trans <|
    (R5_keep m c (r := main_arg9) (by decide)).trans <|
    carry_arg9_R4 m c

theorem carry_arg9_R12 (m : (ℓ : Loc nD τ sig) → Buf (Elt F) ℓ) (c : Dev nD) : R12 m c (Proc.devRef .tc main_arg9) = m ((c.tc : Thread nD τ).loc main_arg9) :=
  (R12_keep m c (r := main_arg9) (by decide)).trans <|
    (R11_keep m c (r := main_arg9) (by decide)).trans <|
    (R10_keep m c (r := main_arg9) (by decide)).trans <|
    (R9_keep m c (r := main_arg9) (by decide)).trans <|
    carry_arg9_R8 m c

theorem carry_arg9_R16 (m : (ℓ : Loc nD τ sig) → Buf (Elt F) ℓ) (c : Dev nD) : R16 m c (Proc.devRef .tc main_arg9) = m ((c.tc : Thread nD τ).loc main_arg9) :=
  (R16_keep m c (r := main_arg9) (by decide)).trans <|
    (R15_keep m c (r := main_arg9) (by decide)).trans <|
    (R14_keep m c (r := main_arg9) (by decide)).trans <|
    (R13_keep m c (r := main_arg9) (by decide)).trans <|
    carry_arg9_R12 m c

theorem carry_arg9_R20 (m : (ℓ : Loc nD τ sig) → Buf (Elt F) ℓ) (c : Dev nD) : R20 m c (Proc.devRef .tc main_arg9) = m ((c.tc : Thread nD τ).loc main_arg9) :=
  (R20_keep m c (r := main_arg9) (by decide)).trans <|
    (R19_keep m c (r := main_arg9) (by decide)).trans <|
    (R18_keep m c (r := main_arg9) (by decide)).trans <|
    (R17_keep m c (r := main_arg9) (by decide)).trans <|
    carry_arg9_R16 m c

theorem carry_arg9_R24 (m : (ℓ : Loc nD τ sig) → Buf (Elt F) ℓ) (c : Dev nD) : R24 m c (Proc.devRef .tc main_arg9) = m ((c.tc : Thread nD τ).loc main_arg9) :=
  (R24_keep m c (r := main_arg9) (by decide)).trans <|
    (R23_keep m c (r := main_arg9) (by decide)).trans <|
    (R22_keep m c (r := main_arg9) (by decide)).trans <|
    (R21_keep m c (r := main_arg9) (by decide)).trans <|
    carry_arg9_R20 m c

theorem carry_arg9_R28 (m : (ℓ : Loc nD τ sig) → Buf (Elt F) ℓ) (c : Dev nD) : R28 m c (Proc.devRef .tc main_arg9) = m ((c.tc : Thread nD τ).loc main_arg9) :=
  (R28_keep m c (r := main_arg9) (by decide)).trans <|
    (R27_keep m c (r := main_arg9) (by decide)).trans <|
    (R26_keep m c (r := main_arg9) (by decide)).trans <|
    (R25_keep m c (r := main_arg9) (by decide)).trans <|
    carry_arg9_R24 m c

theorem carry_arg9_R32 (m : (ℓ : Loc nD τ sig) → Buf (Elt F) ℓ) (c : Dev nD) : R32 m c (Proc.devRef .tc main_arg9) = m ((c.tc : Thread nD τ).loc main_arg9) :=
  (R32_keep m c (r := main_arg9) (by decide)).trans <|
    (R31_keep m c (r := main_arg9) (by decide)).trans <|
    (R30_keep m c (r := main_arg9) (by decide)).trans <|
    (R29_keep m c (r := main_arg9) (by decide)).trans <|
    carry_arg9_R28 m c

theorem carry_arg9_R36 (m : (ℓ : Loc nD τ sig) → Buf (Elt F) ℓ) (c : Dev nD) : R36 m c (Proc.devRef .tc main_arg9) = m ((c.tc : Thread nD τ).loc main_arg9) :=
  (R36_keep m c (r := main_arg9) (by decide)).trans <|
    (R35_keep m c (r := main_arg9) (by decide)).trans <|
    (R34_keep m c (r := main_arg9) (by decide)).trans <|
    (R33_keep m c (r := main_arg9) (by decide)).trans <|
    carry_arg9_R32 m c

theorem carry_arg9_R40 (m : (ℓ : Loc nD τ sig) → Buf (Elt F) ℓ) (c : Dev nD) : R40 m c (Proc.devRef .tc main_arg9) = m ((c.tc : Thread nD τ).loc main_arg9) :=
  (R40_keep m c (r := main_arg9) (by decide)).trans <|
    (R39_keep m c (r := main_arg9) (by decide)).trans <|
    (R38_keep m c (r := main_arg9) (by decide)).trans <|
    (R37_keep m c (r := main_arg9) (by decide)).trans <|
    carry_arg9_R36 m c

theorem carry_arg9_R44 (m : (ℓ : Loc nD τ sig) → Buf (Elt F) ℓ) (c : Dev nD) : R44 m c (Proc.devRef .tc main_arg9) = m ((c.tc : Thread nD τ).loc main_arg9) :=
  (R44_keep m c (r := main_arg9) (by decide)).trans <|
    (R43_keep m c (r := main_arg9) (by decide)).trans <|
    (R42_keep m c (r := main_arg9) (by decide)).trans <|
    (R41_keep m c (r := main_arg9) (by decide)).trans <|
    carry_arg9_R40 m c

theorem carry_v11_R5 (m : (ℓ : Loc nD τ sig) → Buf (Elt F) ℓ) (c : Dev nD) : R5 m c (Proc.devRef .tc main_v11) = R1 m c (Proc.devRef .tc main_v11) :=
  (R5_keep m c (r := main_v11) (by decide)).trans <|
    (R4_keep m c (r := main_v11) (by decide)).trans <|
    (R3_keep m c (r := main_v11) (by decide)).trans <|
    R2_keep m c (r := main_v11) (by decide)

theorem carry_v11_R9 (m : (ℓ : Loc nD τ sig) → Buf (Elt F) ℓ) (c : Dev nD) : R9 m c (Proc.devRef .tc main_v11) = R1 m c (Proc.devRef .tc main_v11) :=
  (R9_keep m c (r := main_v11) (by decide)).trans <|
    (R8_keep m c (r := main_v11) (by decide)).trans <|
    (R7_keep m c (r := main_v11) (by decide)).trans <|
    (R6_keep m c (r := main_v11) (by decide)).trans <|
    carry_v11_R5 m c

theorem carry_v11_R13 (m : (ℓ : Loc nD τ sig) → Buf (Elt F) ℓ) (c : Dev nD) : R13 m c (Proc.devRef .tc main_v11) = R1 m c (Proc.devRef .tc main_v11) :=
  (R13_keep m c (r := main_v11) (by decide)).trans <|
    (R12_keep m c (r := main_v11) (by decide)).trans <|
    (R11_keep m c (r := main_v11) (by decide)).trans <|
    (R10_keep m c (r := main_v11) (by decide)).trans <|
    carry_v11_R9 m c

theorem carry_v11_R17 (m : (ℓ : Loc nD τ sig) → Buf (Elt F) ℓ) (c : Dev nD) : R17 m c (Proc.devRef .tc main_v11) = R1 m c (Proc.devRef .tc main_v11) :=
  (R17_keep m c (r := main_v11) (by decide)).trans <|
    (R16_keep m c (r := main_v11) (by decide)).trans <|
    (R15_keep m c (r := main_v11) (by decide)).trans <|
    (R14_keep m c (r := main_v11) (by decide)).trans <|
    carry_v11_R13 m c

theorem carry_v11_R21 (m : (ℓ : Loc nD τ sig) → Buf (Elt F) ℓ) (c : Dev nD) : R21 m c (Proc.devRef .tc main_v11) = R1 m c (Proc.devRef .tc main_v11) :=
  (R21_keep m c (r := main_v11) (by decide)).trans <|
    (R20_keep m c (r := main_v11) (by decide)).trans <|
    (R19_keep m c (r := main_v11) (by decide)).trans <|
    (R18_keep m c (r := main_v11) (by decide)).trans <|
    carry_v11_R17 m c

theorem carry_v11_R25 (m : (ℓ : Loc nD τ sig) → Buf (Elt F) ℓ) (c : Dev nD) : R25 m c (Proc.devRef .tc main_v11) = R1 m c (Proc.devRef .tc main_v11) :=
  (R25_keep m c (r := main_v11) (by decide)).trans <|
    (R24_keep m c (r := main_v11) (by decide)).trans <|
    (R23_keep m c (r := main_v11) (by decide)).trans <|
    (R22_keep m c (r := main_v11) (by decide)).trans <|
    carry_v11_R21 m c

theorem carry_v11_R29 (m : (ℓ : Loc nD τ sig) → Buf (Elt F) ℓ) (c : Dev nD) : R29 m c (Proc.devRef .tc main_v11) = R1 m c (Proc.devRef .tc main_v11) :=
  (R29_keep m c (r := main_v11) (by decide)).trans <|
    (R28_keep m c (r := main_v11) (by decide)).trans <|
    (R27_keep m c (r := main_v11) (by decide)).trans <|
    (R26_keep m c (r := main_v11) (by decide)).trans <|
    carry_v11_R25 m c

theorem carry_v11_R33 (m : (ℓ : Loc nD τ sig) → Buf (Elt F) ℓ) (c : Dev nD) : R33 m c (Proc.devRef .tc main_v11) = R1 m c (Proc.devRef .tc main_v11) :=
  (R33_keep m c (r := main_v11) (by decide)).trans <|
    (R32_keep m c (r := main_v11) (by decide)).trans <|
    (R31_keep m c (r := main_v11) (by decide)).trans <|
    (R30_keep m c (r := main_v11) (by decide)).trans <|
    carry_v11_R29 m c

theorem carry_v11_R37 (m : (ℓ : Loc nD τ sig) → Buf (Elt F) ℓ) (c : Dev nD) : R37 m c (Proc.devRef .tc main_v11) = R1 m c (Proc.devRef .tc main_v11) :=
  (R37_keep m c (r := main_v11) (by decide)).trans <|
    (R36_keep m c (r := main_v11) (by decide)).trans <|
    (R35_keep m c (r := main_v11) (by decide)).trans <|
    (R34_keep m c (r := main_v11) (by decide)).trans <|
    carry_v11_R33 m c

theorem carry_v11_R41 (m : (ℓ : Loc nD τ sig) → Buf (Elt F) ℓ) (c : Dev nD) : R41 m c (Proc.devRef .tc main_v11) = R1 m c (Proc.devRef .tc main_v11) :=
  (R41_keep m c (r := main_v11) (by decide)).trans <|
    (R40_keep m c (r := main_v11) (by decide)).trans <|
    (R39_keep m c (r := main_v11) (by decide)).trans <|
    (R38_keep m c (r := main_v11) (by decide)).trans <|
    carry_v11_R37 m c

theorem carry_v16_R4 (m : (ℓ : Loc nD τ sig) → Buf (Elt F) ℓ) (c : Dev nD) : R4 m c (Proc.devRef .tc main_v16) = R1 m c (Proc.devRef .tc main_v16) :=
  (R4_keep m c (r := main_v16) (by decide)).trans <|
    (R3_keep m c (r := main_v16) (by decide)).trans <|
    R2_keep m c (r := main_v16) (by decide)

theorem carry_v16_R8 (m : (ℓ : Loc nD τ sig) → Buf (Elt F) ℓ) (c : Dev nD) : R8 m c (Proc.devRef .tc main_v16) = R1 m c (Proc.devRef .tc main_v16) :=
  (R8_keep m c (r := main_v16) (by decide)).trans <|
    (R7_keep m c (r := main_v16) (by decide)).trans <|
    (R6_keep m c (r := main_v16) (by decide)).trans <|
    (R5_keep m c (r := main_v16) (by decide)).trans <|
    carry_v16_R4 m c

theorem carry_v16_R12 (m : (ℓ : Loc nD τ sig) → Buf (Elt F) ℓ) (c : Dev nD) : R12 m c (Proc.devRef .tc main_v16) = R1 m c (Proc.devRef .tc main_v16) :=
  (R12_keep m c (r := main_v16) (by decide)).trans <|
    (R11_keep m c (r := main_v16) (by decide)).trans <|
    (R10_keep m c (r := main_v16) (by decide)).trans <|
    (R9_keep m c (r := main_v16) (by decide)).trans <|
    carry_v16_R8 m c

theorem carry_v16_R16 (m : (ℓ : Loc nD τ sig) → Buf (Elt F) ℓ) (c : Dev nD) : R16 m c (Proc.devRef .tc main_v16) = R1 m c (Proc.devRef .tc main_v16) :=
  (R16_keep m c (r := main_v16) (by decide)).trans <|
    (R15_keep m c (r := main_v16) (by decide)).trans <|
    (R14_keep m c (r := main_v16) (by decide)).trans <|
    (R13_keep m c (r := main_v16) (by decide)).trans <|
    carry_v16_R12 m c

theorem carry_v16_R20 (m : (ℓ : Loc nD τ sig) → Buf (Elt F) ℓ) (c : Dev nD) : R20 m c (Proc.devRef .tc main_v16) = R1 m c (Proc.devRef .tc main_v16) :=
  (R20_keep m c (r := main_v16) (by decide)).trans <|
    (R19_keep m c (r := main_v16) (by decide)).trans <|
    (R18_keep m c (r := main_v16) (by decide)).trans <|
    (R17_keep m c (r := main_v16) (by decide)).trans <|
    carry_v16_R16 m c

theorem carry_v16_R24 (m : (ℓ : Loc nD τ sig) → Buf (Elt F) ℓ) (c : Dev nD) : R24 m c (Proc.devRef .tc main_v16) = R1 m c (Proc.devRef .tc main_v16) :=
  (R24_keep m c (r := main_v16) (by decide)).trans <|
    (R23_keep m c (r := main_v16) (by decide)).trans <|
    (R22_keep m c (r := main_v16) (by decide)).trans <|
    (R21_keep m c (r := main_v16) (by decide)).trans <|
    carry_v16_R20 m c

theorem carry_v16_R28 (m : (ℓ : Loc nD τ sig) → Buf (Elt F) ℓ) (c : Dev nD) : R28 m c (Proc.devRef .tc main_v16) = R1 m c (Proc.devRef .tc main_v16) :=
  (R28_keep m c (r := main_v16) (by decide)).trans <|
    (R27_keep m c (r := main_v16) (by decide)).trans <|
    (R26_keep m c (r := main_v16) (by decide)).trans <|
    (R25_keep m c (r := main_v16) (by decide)).trans <|
    carry_v16_R24 m c

theorem carry_v16_R32 (m : (ℓ : Loc nD τ sig) → Buf (Elt F) ℓ) (c : Dev nD) : R32 m c (Proc.devRef .tc main_v16) = R1 m c (Proc.devRef .tc main_v16) :=
  (R32_keep m c (r := main_v16) (by decide)).trans <|
    (R31_keep m c (r := main_v16) (by decide)).trans <|
    (R30_keep m c (r := main_v16) (by decide)).trans <|
    (R29_keep m c (r := main_v16) (by decide)).trans <|
    carry_v16_R28 m c

theorem carry_v16_R36 (m : (ℓ : Loc nD τ sig) → Buf (Elt F) ℓ) (c : Dev nD) : R36 m c (Proc.devRef .tc main_v16) = R1 m c (Proc.devRef .tc main_v16) :=
  (R36_keep m c (r := main_v16) (by decide)).trans <|
    (R35_keep m c (r := main_v16) (by decide)).trans <|
    (R34_keep m c (r := main_v16) (by decide)).trans <|
    (R33_keep m c (r := main_v16) (by decide)).trans <|
    carry_v16_R32 m c

theorem carry_v16_R40 (m : (ℓ : Loc nD τ sig) → Buf (Elt F) ℓ) (c : Dev nD) : R40 m c (Proc.devRef .tc main_v16) = R1 m c (Proc.devRef .tc main_v16) :=
  (R40_keep m c (r := main_v16) (by decide)).trans <|
    (R39_keep m c (r := main_v16) (by decide)).trans <|
    (R38_keep m c (r := main_v16) (by decide)).trans <|
    (R37_keep m c (r := main_v16) (by decide)).trans <|
    carry_v16_R36 m c

theorem carry_v16_R44 (m : (ℓ : Loc nD τ sig) → Buf (Elt F) ℓ) (c : Dev nD) : R44 m c (Proc.devRef .tc main_v16) = R1 m c (Proc.devRef .tc main_v16) :=
  (R44_keep m c (r := main_v16) (by decide)).trans <|
    (R43_keep m c (r := main_v16) (by decide)).trans <|
    (R42_keep m c (r := main_v16) (by decide)).trans <|
    (R41_keep m c (r := main_v16) (by decide)).trans <|
    carry_v16_R40 m c

end Cert.ReferenceIdeal.RefRun

end
-- ==== Proof.LibGates.lean ====
/-
  The host's elementwise lines of one tree level, read at an index, for any number of rows.

  A scalar broadcast to a shape reads the scalar everywhere; a `[1, C]` row broadcast over `M` rows reads the row; a
  length-`C` vector made a `[1, C]` row reads the vector. The host spells the logistic function as
  `1 / (1 + exp (-x))` over splats of one: at the extended reals that quotient is `Ideal.logistic`. The product
  `x · W^T` of a row-major `M × K` array with the transpose of an `N × K` weight is, at `(a, n)`, the sum over `k` of
  `x (a, k) * W (n, k)`.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.IdealHost
import Idealize.ShloMosaic.Lib.StackMember
import proofs.«419362_j66683662237734_3_alg».proof.Proof.Spec

noncomputable section

open scoped BigOperators

namespace Cert.TreeLstm.Gates

open Idealize.ShloMosaic Idealize.ShloMosaic.ValueIdx Cert.TreeLstm

/-- A scalar broadcast to any shape reads the scalar everywhere. -/
theorem splat_apply {α : Type} {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply _ h x j ix0 fun a => a.elim0

/-- The splat of the f32 zero is `0` everywhere. -/
theorem zeros_apply {t : Shape} (h : (⟨0, ![]⟩ : Shape).BroadcastsInDim t (![] : Fin 0 → Fin t.rank)) (j : t.Idx) :
    broadcastInDim t ![] h (constant (F := Ideal) ⟨0, ![]⟩ .f32 0x00000000#32) j = 0 := by
  rw [splat_apply]; exact Ideal.ofBits_zero_f32

/-- The splat of the f32 one is `1` everywhere. -/
theorem ones_apply {t : Shape} (h : (⟨0, ![]⟩ : Shape).BroadcastsInDim t (![] : Fin 0 → Fin t.rank)) (j : t.Idx) :
    broadcastInDim t ![] h (constant (F := Ideal) ⟨0, ![]⟩ .f32 0x3F800000#32) j = 1 := by
  rw [splat_apply]; exact Ideal.ofBits_one_f32

/-- A `[1, C]` row broadcast over `M` rows reads, at `(i, n)`, the row at `n`. -/
theorem row_bcast_apply {α : Type} {M C : Nat}
    (h : (⟨2, ![1, C]⟩ : Shape).BroadcastsInDim ⟨2, ![M, C]⟩ (![0, 1] : Fin 2 → Fin 2))
    (b : (⟨2, ![1, C]⟩ : Shape).Idx → α) (i : Fin M) (n : Fin C) :
    broadcastInDim ⟨2, ![M, C]⟩ ![0, 1] h b (ix2 i n) = b (ix2 (0 : Fin 1) n) := by
  refine broadcastInDim_apply _ h b (ix2 i n) (ix2 (0 : Fin 1) n) fun ax => ?_
  match ax with
  | ⟨0, _⟩ => rfl
  | ⟨1, _⟩ =>
    show n.val = if C = 1 then 0 else n.val
    split
    · have := n.isLt; omega
    · rfl

/-- A length-`C` vector made a `[1, C]` row reads, at `(0, n)`, the vector at `n`. -/
theorem vec_row_apply {α : Type} {C : Nat}
    (h : (⟨1, ![C]⟩ : Shape).BroadcastsInDim ⟨2, ![1, C]⟩ (![1] : Fin 1 → Fin 2))
    (b : (⟨1, ![C]⟩ : Shape).Idx → α) (n : Fin C) :
    broadcastInDim ⟨2, ![1, C]⟩ ![1] h b (ix2 (0 : Fin 1) n) = b (ix1 n) := by
  refine broadcastInDim_apply _ h b (ix2 (0 : Fin 1) n) (ix1 n) fun ax => ?_
  match ax with
  | ⟨0, _⟩ =>
    show n.val = if C = 1 then 0 else n.val
    split
    · have := n.isLt; omega
    · rfl

/-- The host's `1 / (1 + exp (-x))` over splats of one is the logistic function, elementwise. -/
theorem sigmoid_apply {t : Shape} (h1 h2 : (⟨0, ![]⟩ : Shape).BroadcastsInDim t (![] : Fin 0 → Fin t.rank))
    (x : FVec Ideal t .f32) (j : t.Idx) :
    Host.divf (broadcastInDim t ![] h1 (constant (F := Ideal) ⟨0, ![]⟩ .f32 0x3F800000#32))
        (addf (broadcastInDim t ![] h2 (constant (F := Ideal) ⟨0, ![]⟩ .f32 0x3F800000#32)) (Host.exp (Host.negf x))) j
      = Ideal.logistic (x j) := by
  show FloatOps.hostDivf (broadcastInDim t ![] h1 (constant (F := Ideal) ⟨0, ![]⟩ .f32 0x3F800000#32) j)
      (FloatOps.addf (broadcastInDim t ![] h2 (constant (F := Ideal) ⟨0, ![]⟩ .f32 0x3F800000#32) j)
        (FloatOps.hostUnary .exp (FloatOps.hostNegf (x j)))) = _
  rw [ones_apply]
  rfl

/-- The host's hyperbolic tangent, elementwise. -/
theorem tanh_apply {t : Shape} (x : FVec Ideal t .f32) (j : t.Idx) : Host.tanh x j = Ideal.tanh (x j) := rfl

/-- `x · W^T`: the plain product with the transpose of an `N × K` weight, at `(a, n)`. -/
theorem dot_transpose_apply {M K N : Nat} (d : DotDims ⟨2, ![M, K]⟩ ⟨2, ![K, N]⟩ ⟨2, ![M, N]⟩)
    (hd : d = DotDims.plain M K N) (ht : (⟨2, ![N, K]⟩ : Shape).Transposes [1, 0] ⟨2, ![K, N]⟩)
    (x : FVec Ideal ⟨2, ![M, K]⟩ .f32) (Wt : FVec Ideal ⟨2, ![N, K]⟩ .f32) (a : Fin M) (n : Fin N) :
    Host.dotGeneral d none x (transpose ⟨2, ![K, N]⟩ [1, 0] Wt ht) (ix2 a n) = ∑ k : Fin K, x (ix2 a k) * Wt (ix2 n k) := by
  subst hd
  rw [StackMember.dotGeneral_plain_apply]
  exact Finset.sum_congr rfl fun k _ => by rw [transpose_ix2_apply]

end Cert.TreeLstm.Gates

end
-- ==== Proof.LibNodeIdx.lean ====
/-
  The 32-bit words of the node ids. Graph `b` of 32 owns the ids from `4095 * b`; slot `i = b * nd + j` of a level with
  `nd` nodes per graph from offset `start` is node `4095 * b + start + j`. The index arithmetic makes the word
  `b * 4095 + start + j` in 32 bits; it never wraps (every id is below 131040), so as a signed integer it is the node
  id, the wrap-around normalisation `n < 0 ? n + 131040 : n` leaves it alone, a gather or scatter indexed by it
  reads or lands on the node's row of a 131040-row table, and distinct slots get distinct words. Then the vector
  operations that make the ids — an iota times 4095, two broadcasts to a grid, a sum, a flattening, the
  normalisation and a broadcast to a column — are read at an index.
-/
import proofs.«419362_j66683662237734_3_alg».proof.Proof.Spec
import proofs.«419362_j66683662237734_3_alg».proof.Proof.LibRows
import Idealize.ShloMosaic.Lib.ValueIdx
import Idealize.ShloMosaic.Lib.Pipeline.Value

noncomputable section

namespace Cert.TreeLstm.NodeIdx

open Idealize.ShloMosaic Idealize.ShloMosaic.ValueIdx

/-! ## The word of a node id -/

/-- The 32-bit word of the node id of slot `i` of a level with `nd` nodes per graph from offset `start`:
    `(i / nd) * 4095 + start + i % nd`, associated as the index arithmetic adds it. -/
def nodeWord (nd start i : Nat) : BitVec 32 :=
  (BitVec.ofNat 32 (i / nd) * 4095#32 + BitVec.ofNat 32 start) + BitVec.ofNat 32 (i % nd)

/-- The word `q * 4095 + start + r` as a natural number, nothing wrapping. -/
theorem word_toNat (q start r : Nat) (hq : q < 32) (hs : start + r < 4095) :
    ((BitVec.ofNat 32 q * 4095#32 + BitVec.ofNat 32 start) + BitVec.ofNat 32 r).toNat = 4095 * q + start + r := by
  simp only [BitVec.toNat_add, BitVec.toNat_mul, BitVec.toNat_ofNat]
  omega

theorem div_lt_32 {nd M : Nat} (hM : M = 32 * nd) (i : Fin M) : i.val / nd < 32 := by
  have hi : i.val < nd * 32 := by have := i.isLt; omega
  exact Nat.div_lt_of_lt_mul hi

theorem pos_of_fin {nd M : Nat} (hM : M = 32 * nd) (i : Fin M) : 0 < nd := by
  have := i.isLt
  rcases Nat.eq_zero_or_pos nd with h0 | h
  · subst h0; omega
  · exact h

theorem mod_lt_nd {nd M : Nat} (hM : M = 32 * nd) (i : Fin M) : i.val % nd < nd := Nat.mod_lt _ (pos_of_fin hM i)

/-- The node word as a natural number. -/
theorem nodeWord_toNat {nd start M : Nat} (hM : M = 32 * nd) (hs : start + nd ≤ 4095) (i : Fin M) :
    (nodeWord nd start i.val).toNat = 4095 * (i.val / nd) + start + i.val % nd := by
  have h2 := mod_lt_nd hM i
  exact word_toNat _ _ _ (div_lt_32 hM i) (by omega)

/-- The node word as a signed integer: the node id (below `131040`, so nothing wraps). -/
theorem nodeWord_toInt {nd start M : Nat} (hM : M = 32 * nd) (hs : start + nd ≤ 4095) (i : Fin M) :
    (nodeWord nd start i.val).toInt = ((4095 * (i.val / nd) + start + i.val % nd : Nat) : Int) := by
  have h1 := div_lt_32 hM i
  have h2 := mod_lt_nd hM i
  rw [BitVec.toInt_eq_toNat_of_lt (by rw [nodeWord_toNat hM hs i]; omega), nodeWord_toNat hM hs i]

/-- The same, through `Cert.TreeLstm.node`. -/
theorem nodeWord_toInt_eq_node {nd start M : Nat} (hM : M = 32 * nd) (hs : start + nd ≤ 4095) (i : Fin M) :
    (nodeWord nd start i.val).toInt = (((Cert.TreeLstm.node nd start M hM hs i).val : Nat) : Int) := by
  rw [nodeWord_toInt hM hs i, Cert.TreeLstm.node_val]

theorem nodeWord_nonneg {nd start M : Nat} (hM : M = 32 * nd) (hs : start + nd ≤ 4095) (i : Fin M) :
    0 ≤ (nodeWord nd start i.val).toInt := by
  rw [nodeWord_toInt hM hs i]; exact Int.natCast_nonneg _

/-! ## The wrap-around normalisation leaves it alone -/

/-- `w < 0 ? w + n : w` is `w` for a word that is not negative as a signed integer. -/
theorem norm_of_nonneg (w n : BitVec 32) (h : 0 ≤ w.toInt) :
    Scalar.select (IntOp.cmpi .slt w 0#32) (IntOp.addi w n) w = w := by
  have hs : w.slt 0#32 = false := by
    unfold BitVec.slt
    exact decide_eq_false (by rw [BitVec.toInt_zero]; omega)
  have hc : IntOp.cmpi .slt w 0#32 = 0#1 := by
    show BitVec.ofBool (w.slt 0#32) = 0#1
    rw [hs]; rfl
  rw [hc, select_zero]

theorem norm_nodeWord {nd start M : Nat} (hM : M = 32 * nd) (hs : start + nd ≤ 4095) (i : Fin M) (n : BitVec 32) :
    Scalar.select (IntOp.cmpi .slt (nodeWord nd start i.val) 0#32) (IntOp.addi (nodeWord nd start i.val) n) (nodeWord nd start i.val)
      = nodeWord nd start i.val :=
  norm_of_nonneg _ _ (nodeWord_nonneg hM hs i)

/-! ## The row it names among the 131040 rows -/

/-- A scatter with the node word lands on the node's row. -/
theorem rowTarget_nodeWord {nd start M : Nat} (hM : M = 32 * nd) (hs : start + nd ≤ 4095) (i : Fin M) :
    Cert.TreeLstm.Rows.rowTarget 131040 (nodeWord nd start i.val) = some (Cert.TreeLstm.node nd start M hM hs i) := by
  have hv := nodeWord_toInt_eq_node hM hs i
  have hlt := (Cert.TreeLstm.node nd start M hM hs i).isLt
  unfold Cert.TreeLstm.Rows.rowTarget
  rw [dif_pos (by rw [hv]; omega)]
  refine congrArg some (Fin.ext ?_)
  show (nodeWord nd start i.val).toInt.toNat = _
  rw [hv]; exact Int.toNat_natCast _

/-- A gather with the node word reads the node's row. -/
theorem clampRow_nodeWord {nd start M : Nat} (hM : M = 32 * nd) (hs : start + nd ≤ 4095) (i : Fin M) (hN : 0 < 131040) :
    Cert.TreeLstm.Rows.clampRow 131040 hN (nodeWord nd start i.val) = Cert.TreeLstm.node nd start M hM hs i :=
  Cert.TreeLstm.Rows.clampRow_of_target hN (rowTarget_nodeWord hM hs i)

/-- Distinct slots have distinct node words. -/
theorem nodeWord_injective {nd start M : Nat} (hM : M = 32 * nd) (hs : start + nd ≤ 4095) (i i' : Fin M)
    (h : nodeWord nd start i.val = nodeWord nd start i'.val) : i = i' := by
  have h1 := rowTarget_nodeWord hM hs i
  rw [h, rowTarget_nodeWord hM hs i'] at h1
  exact Cert.TreeLstm.node_injective nd start M hM hs (pos_of_fin hM i) (Option.some.inj h1).symm

/-- No two slots' words land on one row. -/
theorem rowTarget_nodeWord_injective {nd start M : Nat} (hM : M = 32 * nd) (hs : start + nd ≤ 4095) (i i' : Fin M) (r : Fin 131040)
    (h : Cert.TreeLstm.Rows.rowTarget 131040 (nodeWord nd start i.val) = some r)
    (h' : Cert.TreeLstm.Rows.rowTarget 131040 (nodeWord nd start i'.val) = some r) : i = i' := by
  rw [rowTarget_nodeWord hM hs i] at h
  rw [rowTarget_nodeWord hM hs i'] at h'
  exact Cert.TreeLstm.node_injective nd start M hM hs (pos_of_fin hM i) (Option.some.inj (h.trans h'.symm))

/-- The slots whose word lands on row `r`: the slot of node `r`, if `r` is a node of this level. -/
theorem rowTarget_nodeWord_eq_iff {nd start M : Nat} (hM : M = 32 * nd) (hs : start + nd ≤ 4095) (i : Fin M) (r : Fin 131040) :
    Cert.TreeLstm.Rows.rowTarget 131040 (nodeWord nd start i.val) = some r ↔ Cert.TreeLstm.node nd start M hM hs i = r := by
  rw [rowTarget_nodeWord hM hs i]
  exact ⟨Option.some.inj, congrArg some⟩

/-! ## The index vectors read at an index

The reference makes a level's node ids as `(offs[:, None] + start + arange(nd)).reshape(-1)` with
`offs = arange(32) * 4095`, normalises them (`n < 0 ? n + 131040 : n`) and broadcasts them to a column. Each step is
read at an index here, over any extents `nd` and `M = 32 * nd` and any proofs of the shape relations. -/

section Vectors

/-- The scalar shape, a vector's and a matrix's. -/
abbrev Sc : Shape := ⟨0, ![]⟩
abbrev V1 (n : Nat) : Shape := ⟨1, ![n]⟩
abbrev V2 (m n : Nat) : Shape := ⟨2, ![m, n]⟩

variable {nd M : Nat}

/-- An integer sum at an index. -/
theorem addi_apply {s : Shape} {w : Nat} (x y : IVec s w) (i : s.Idx) : addi x y i = x i + y i := rfl

/-- `offs = arange(32) * 4095` at `b`. -/
theorem offs_apply (h0 : Sc.BroadcastsInDim (V1 32) ![]) (b : Fin 32) :
    muli (iotaInDim (V1 32) 32 0) (broadcastInDim (V1 32) ![] h0 (constantI Sc 32 4095#32)) (ix1 b)
      = BitVec.ofNat 32 b.val * 4095#32 := rfl

/-- A broadcast scalar constant reads the constant. -/
theorem bcastConst_apply {t : Shape} (dims : Fin Sc.rank → Fin t.rank) (h : Sc.BroadcastsInDim t dims) (s : BitVec 32) (j : t.Idx) :
    broadcastInDim t dims h (constantI Sc 32 s) j = s := rfl

/-- `offs[:, None] + start + arange(nd)` at `(b, j)`. -/
theorem grid_apply (offs : IVec (V1 32) 32) (s : BitVec 32)
    (h1 : (V1 32).BroadcastsInDim (V2 32 1) ![0]) (h2 : Sc.BroadcastsInDim (V2 32 1) ![])
    (h4 : (V1 nd).BroadcastsInDim (V2 1 nd) ![1]) (h5 : (V2 32 1).BroadcastsInDim (V2 32 nd) ![0, 1])
    (h6 : (V2 1 nd).BroadcastsInDim (V2 32 nd) ![0, 1]) (b : Fin 32) (j : Fin nd) :
    addi (broadcastInDim (V2 32 nd) ![0, 1] h5
            (addi (broadcastInDim (V2 32 1) ![0] h1 offs) (broadcastInDim (V2 32 1) ![] h2 (constantI Sc 32 s))))
         (broadcastInDim (V2 32 nd) ![0, 1] h6 (broadcastInDim (V2 1 nd) ![1] h4 (iotaInDim (V1 nd) 32 0))) (ix2 b j)
      = (offs (ix1 b) + s) + BitVec.ofNat 32 j.val := by
  have hj := j.isLt
  rw [addi_apply]
  rw [broadcastInDim_apply (s := V2 32 1) ![0, 1] h5 _ (ix2 b j) (ix2 b 0) (fun a => match a with | ⟨0, _⟩ => rfl | ⟨1, _⟩ => rfl)]
  rw [broadcastInDim_apply (s := V2 1 nd) ![0, 1] h6 _ (ix2 b j) (ix2 0 j) (fun a => match a with
    | ⟨0, _⟩ => rfl
    | ⟨1, _⟩ => by
      show j.val = if nd = 1 then 0 else j.val
      split
      · omega
      · rfl)]
  rw [broadcastInDim_apply (s := V1 nd) ![1] h4 _ (ix2 (0 : Fin 1) j) (ix1 j) (fun a => match a with
    | ⟨0, _⟩ => by
      show j.val = if nd = 1 then 0 else j.val
      split
      · omega
      · rfl)]
  rw [addi_apply, bcastConst_apply]
  rw [broadcastInDim_apply (s := V1 32) ![0] h1 offs (ix2 b (0 : Fin 1)) (ix1 b) (fun a => match a with | ⟨0, _⟩ => rfl)]
  rfl

/-- The reshape `[32, nd] → [32 * nd]` at `i`: row `i / nd`, column `i % nd`. -/
theorem flatten_apply {α : Type} (hM : M = 32 * nd) (x : (V2 32 nd).Idx → α) (hc : (V2 32 nd).ShapeCasts (V1 M)) (i : Fin M) :
    shapeCast (V1 M) x hc (ix1 i) = x (ix2 ⟨i.val / nd, div_lt_32 hM i⟩ ⟨i.val % nd, mod_lt_nd hM i⟩) := by
  refine shapeCast_apply x hc (ix1 i) _ ?_
  rw [Shape.rowMajor_val_two, Shape.rowMajor_val_one]
  show i.val / nd * nd + i.val % nd = i.val
  exact Nat.div_add_mod' i.val nd

/-- The flattened node ids at `i`: the node word. -/
theorem nids_apply (hM : M = 32 * nd) (start : Nat) (offs : IVec (V1 32) 32)
    (hoffs : ∀ b : Fin 32, offs (ix1 b) = BitVec.ofNat 32 b.val * 4095#32)
    (h1 : (V1 32).BroadcastsInDim (V2 32 1) ![0]) (h2 : Sc.BroadcastsInDim (V2 32 1) ![])
    (h4 : (V1 nd).BroadcastsInDim (V2 1 nd) ![1]) (h5 : (V2 32 1).BroadcastsInDim (V2 32 nd) ![0, 1])
    (h6 : (V2 1 nd).BroadcastsInDim (V2 32 nd) ![0, 1]) (hc : (V2 32 nd).ShapeCasts (V1 M)) (i : Fin M) :
    shapeCast (V1 M)
      (addi (broadcastInDim (V2 32 nd) ![0, 1] h5
              (addi (broadcastInDim (V2 32 1) ![0] h1 offs) (broadcastInDim (V2 32 1) ![] h2 (constantI Sc 32 (BitVec.ofNat 32 start)))))
            (broadcastInDim (V2 32 nd) ![0, 1] h6 (broadcastInDim (V2 1 nd) ![1] h4 (iotaInDim (V1 nd) 32 0)))) hc (ix1 i)
      = nodeWord nd start i.val := by
  rw [flatten_apply hM _ hc i, grid_apply offs _ h1 h2 h4 h5 h6, hoffs]
  rfl

/-- With one node per graph the start column is already the grid: `offs[:, None] + start + arange(1)` at `(b, j)`. -/
theorem grid0_apply (offs : IVec (V1 32) 32) (s : BitVec 32)
    (h1 : (V1 32).BroadcastsInDim (V2 32 1) ![0]) (h2 : Sc.BroadcastsInDim (V2 32 1) ![])
    (h4 : (V1 1).BroadcastsInDim (V2 1 1) ![1]) (h6 : (V2 1 1).BroadcastsInDim (V2 32 1) ![0, 1]) (b : Fin 32) (j : Fin 1) :
    addi (addi (broadcastInDim (V2 32 1) ![0] h1 offs) (broadcastInDim (V2 32 1) ![] h2 (constantI Sc 32 s)))
         (broadcastInDim (V2 32 1) ![0, 1] h6 (broadcastInDim (V2 1 1) ![1] h4 (iotaInDim (V1 1) 32 0))) (ix2 b j)
      = (offs (ix1 b) + s) + BitVec.ofNat 32 j.val := by
  have hj : j.val = 0 := by have := j.isLt; omega
  rw [addi_apply, addi_apply, bcastConst_apply]
  rw [broadcastInDim_apply (s := V1 32) ![0] h1 offs (ix2 b j) (ix1 b) (fun a => match a with | ⟨0, _⟩ => rfl)]
  rw [broadcastInDim_apply (s := V2 1 1) ![0, 1] h6 _ (ix2 b j) (ix2 (0 : Fin 1) (0 : Fin 1))
    (fun a => match a with | ⟨0, _⟩ => rfl | ⟨1, _⟩ => rfl)]
  rw [broadcastInDim_apply (s := V1 1) ![1] h4 _ (ix2 (0 : Fin 1) (0 : Fin 1)) (ix1 (0 : Fin 1)) (fun a => match a with | ⟨0, _⟩ => rfl)]
  rw [hj]
  rfl

/-- The flattened node ids of a level with one node per graph, at `i`: the node word. -/
theorem nids0_apply (start : Nat) (offs : IVec (V1 32) 32)
    (hoffs : ∀ b : Fin 32, offs (ix1 b) = BitVec.ofNat 32 b.val * 4095#32)
    (h1 : (V1 32).BroadcastsInDim (V2 32 1) ![0]) (h2 : Sc.BroadcastsInDim (V2 32 1) ![])
    (h4 : (V1 1).BroadcastsInDim (V2 1 1) ![1]) (h6 : (V2 1 1).BroadcastsInDim (V2 32 1) ![0, 1])
    (hc : (V2 32 1).ShapeCasts (V1 32)) (i : Fin 32) :
    shapeCast (V1 32)
      (addi (addi (broadcastInDim (V2 32 1) ![0] h1 offs) (broadcastInDim (V2 32 1) ![] h2 (constantI Sc 32 (BitVec.ofNat 32 start))))
            (broadcastInDim (V2 32 1) ![0, 1] h6 (broadcastInDim (V2 1 1) ![1] h4 (iotaInDim (V1 1) 32 0)))) hc (ix1 i)
      = nodeWord 1 start i.val := by
  rw [flatten_apply (nd := 1) rfl _ hc i, grid0_apply offs _ h1 h2 h4 h6, hoffs]
  rfl

/-- The normalised ids as a column, at `(i, 0)`: the id itself when it is not negative. -/
theorem normCol_apply (x : IVec (V1 M) 32) (n : BitVec 32)
    (h7 : Sc.BroadcastsInDim (V1 M) ![]) (h8 : Sc.BroadcastsInDim (V1 M) ![]) (h9 : (V1 M).BroadcastsInDim (V2 M 1) ![0])
    (i : Fin M) (hx : 0 ≤ (x (ix1 i)).toInt) :
    broadcastInDim (V2 M 1) ![0] h9
      (select (cmpi .slt x (broadcastInDim (V1 M) ![] h7 (constantI Sc 32 0#32)))
        (addi x (broadcastInDim (V1 M) ![] h8 (constantI Sc 32 n))) x) (ix2 i (0 : Fin 1)) = x (ix1 i) := by
  have hi := i.isLt
  rw [broadcastInDim_apply (s := V1 M) ![0] h9 _ (ix2 i (0 : Fin 1)) (ix1 i) (fun a => match a with
    | ⟨0, _⟩ => by
      show i.val = if M = 1 then 0 else i.val
      split
      · omega
      · rfl)]
  exact norm_of_nonneg _ _ hx

/-- The normalised ids as a column at `(i, 0)`, when the id is a node word. -/
theorem normCol_nodeWord {start : Nat} (hM : M = 32 * nd) (hs : start + nd ≤ 4095) (x : IVec (V1 M) 32) (n : BitVec 32)
    (h7 : Sc.BroadcastsInDim (V1 M) ![]) (h8 : Sc.BroadcastsInDim (V1 M) ![]) (h9 : (V1 M).BroadcastsInDim (V2 M 1) ![0])
    (i : Fin M) (hx : x (ix1 i) = nodeWord nd start i.val) :
    broadcastInDim (V2 M 1) ![0] h9
      (select (cmpi .slt x (broadcastInDim (V1 M) ![] h7 (constantI Sc 32 0#32)))
        (addi x (broadcastInDim (V1 M) ![] h8 (constantI Sc 32 n))) x) (ix2 i (0 : Fin 1)) = nodeWord nd start i.val :=
  (normCol_apply x n h7 h8 h9 i (by rw [hx]; exact nodeWord_nonneg hM hs i)).trans hx

/-- With one node per graph from offset 0 the node word of slot `i` is `i * 4095`. -/
theorem nodeWord_one_zero (i : Nat) : nodeWord 1 0 i = BitVec.ofNat 32 i * 4095#32 := by
  unfold nodeWord
  rw [Nat.div_one, Nat.mod_one]
  show (BitVec.ofNat 32 i * 4095#32 + 0#32) + 0#32 = _
  rw [BitVec.add_zero, BitVec.add_zero]

end Vectors

end Cert.TreeLstm.NodeIdx
end
-- ==== Proof.RLeaf.lean ====
/-
  The reference's first lines, its deepest level and its classifier, read index by index.

  The first stretch of the reference's entry function zeroes one row of the embedding table, normalises the token
  ids, gathers the token rows (one named term `G` of the two argument arrays), multiplies them by the transposed
  input weight (the array `iou`), and runs the deepest level: it gathers `iou` at the level's nodes, adds the bias
  row, splits the 768 columns in three, forms the cell state `logistic i * tanh u + 0` and the hidden state
  `logistic o * tanh c`, and writes both into the whole-forest arrays at the level's nodes. The last stretch gathers
  the whole-forest hidden array at the 32 roots and applies the classifier `roots · lin_w^T + lin_b`.

  Part 1 reads each operation's defining equation out of the two stretches (any float instance); part 2 reads
  those equations at an index at the extended reals. The node ids of the three index columns of the deepest level
  and of the root column are hypotheses here: they are a fact of the integer lines alone.
-/
import proofs.«419362_j66683662237734_3_alg».proof.Proof.RefTab
import proofs.«419362_j66683662237734_3_alg».proof.Proof.LibLine
import proofs.«419362_j66683662237734_3_alg».proof.Proof.LibGates
import proofs.«419362_j66683662237734_3_alg».proof.Proof.LibRows
import proofs.«419362_j66683662237734_3_alg».proof.Proof.LibNodeIdx
import proofs.«419362_j66683662237734_3_alg».proof.Proof.LibChain
import Idealize.ShloMosaic.Lib.ValueIdx
import Idealize.ShloMosaic.Lib.ValueLayout

set_option maxRecDepth 9696

noncomputable section

open scoped BigOperators

namespace Cert.ReferenceIdeal.Leaf

open Cert.ReferenceIdeal Cert.ReferenceIdeal.Gen Cert.ReferenceIdeal.RefRun
open Idealize.ShloMosaic Idealize.ShloMosaic.ValueIdx Idealize.SL.Sem
open Cert.TreeLstm

/-! ## Part 1: the defining equations, for any float instance -/

section Defining

variable {F : FTy → Type} [FloatOps F] (Win : Valuation τ sig (Elt F))

/-! ### The first stretch: the prelude and the deepest level -/

theorem d_main_c : (StableHlo.after hostOps0 Win (Proc.devRef .tc main_c))
    = (constantI S_ 32 19999#32) :=
  Line.nullary_at hostOps0_wr 0 Win rfl (by decide)

theorem d_main_v0 : (StableHlo.after hostOps0 Win (Proc.devRef .tc main_v0))
    = (broadcastInDim S1 ![] bcast_S_S1 : (⟨S_, .i32⟩ : BufTy).Contents (Elt F) → (⟨S1, .i32⟩ : BufTy).Contents (Elt F)) (StableHlo.after hostOps0 Win (Proc.devRef .tc main_c)) :=
  Line.unary_at hostOps0_wr 1 Win rfl (by decide) (by decide)

theorem d_main_cst : (StableHlo.after hostOps0 Win (Proc.devRef .tc main_cst))
    = (constant S_ .f32 0x00000000#32) :=
  Line.nullary_at hostOps0_wr 2 Win rfl (by decide)

theorem d_main_v1 : (StableHlo.after hostOps0 Win (Proc.devRef .tc main_v1))
    = (broadcastInDim S256 ![] bcast_S_S256 : (⟨S_, .f32⟩ : BufTy).Contents (Elt F) → (⟨S256, .f32⟩ : BufTy).Contents (Elt F)) (StableHlo.after hostOps0 Win (Proc.devRef .tc main_cst)) :=
  Line.unary_at hostOps0_wr 3 Win rfl (by decide) (by decide)

theorem d_main_v2 : (StableHlo.after hostOps0 Win (Proc.devRef .tc main_v2))
    = Host.scatter scatter_S20000x256_S1_S256_0_0_0_0 (fun _ b => b) (StableHlo.after hostOps0 Win (Proc.devRef .tc main_arg2)) (StableHlo.after hostOps0 Win (Proc.devRef .tc main_v0)) (StableHlo.after hostOps0 Win (Proc.devRef .tc main_v1)) :=
  Line.ternary_at hostOps0_wr 4 Win rfl (by decide) (by decide) (by decide) (by decide)

theorem d_main_c_0 : (StableHlo.after hostOps0 Win (Proc.devRef .tc main_c_0))
    = (constantI S_ 32 0#32) :=
  Line.nullary_at hostOps0_wr 5 Win rfl (by decide)

theorem d_main_v3 : (StableHlo.after hostOps0 Win (Proc.devRef .tc main_v3))
    = (broadcastInDim S131040 ![] bcast_S_S131040 : (⟨S_, .i32⟩ : BufTy).Contents (Elt F) → (⟨S131040, .i32⟩ : BufTy).Contents (Elt F)) (StableHlo.after hostOps0 Win (Proc.devRef .tc main_c_0)) :=
  Line.unary_at hostOps0_wr 6 Win rfl (by decide) (by decide)

theorem d_main_v4 : (StableHlo.after hostOps0 Win (Proc.devRef .tc main_v4))
    = (cmpi .slt : (⟨S131040, .i32⟩ : BufTy).Contents (Elt F) → (⟨S131040, .i32⟩ : BufTy).Contents (Elt F) → (⟨S131040, .i1⟩ : BufTy).Contents (Elt F)) (StableHlo.after hostOps0 Win (Proc.devRef .tc main_arg0)) (StableHlo.after hostOps0 Win (Proc.devRef .tc main_v3)) :=
  Line.binary_at hostOps0_wr 7 Win rfl (by decide) (by decide) (by decide)

theorem d_main_c_1 : (StableHlo.after hostOps0 Win (Proc.devRef .tc main_c_1))
    = (constantI S_ 32 20000#32) :=
  Line.nullary_at hostOps0_wr 8 Win rfl (by decide)

theorem d_main_v5 : (StableHlo.after hostOps0 Win (Proc.devRef .tc main_v5))
    = (broadcastInDim S131040 ![] bcast_S_S131040 : (⟨S_, .i32⟩ : BufTy).Contents (Elt F) → (⟨S131040, .i32⟩ : BufTy).Contents (Elt F)) (StableHlo.after hostOps0 Win (Proc.devRef .tc main_c_1)) :=
  Line.unary_at hostOps0_wr 9 Win rfl (by decide) (by decide)

theorem d_main_v6 : (StableHlo.after hostOps0 Win (Proc.devRef .tc main_v6))
    = (addi : (⟨S131040, .i32⟩ : BufTy).Contents (Elt F) → (⟨S131040, .i32⟩ : BufTy).Contents (Elt F) → (⟨S131040, .i32⟩ : BufTy).Contents (Elt F)) (StableHlo.after hostOps0 Win (Proc.devRef .tc main_arg0)) (StableHlo.after hostOps0 Win (Proc.devRef .tc main_v5)) :=
  Line.binary_at hostOps0_wr 10 Win rfl (by decide) (by decide) (by decide)

theorem d_main_v7 : (StableHlo.after hostOps0 Win (Proc.devRef .tc main_v7))
    = (select : (⟨S131040, .i1⟩ : BufTy).Contents (Elt F) → (⟨S131040, .i32⟩ : BufTy).Contents (Elt F) → (⟨S131040, .i32⟩ : BufTy).Contents (Elt F) → (⟨S131040, .i32⟩ : BufTy).Contents (Elt F)) (StableHlo.after hostOps0 Win (Proc.devRef .tc main_v4)) (StableHlo.after hostOps0 Win (Proc.devRef .tc main_v6)) (StableHlo.after hostOps0 Win (Proc.devRef .tc main_arg0)) :=
  Line.ternary_at hostOps0_wr 11 Win rfl (by decide) (by decide) (by decide) (by decide)

theorem d_main_v8 : (StableHlo.after hostOps0 Win (Proc.devRef .tc main_v8))
    = (broadcastInDim S131040x1 ![0] bcast_S131040_S131040x1_0 : (⟨S131040, .i32⟩ : BufTy).Contents (Elt F) → (⟨S131040x1, .i32⟩ : BufTy).Contents (Elt F)) (StableHlo.after hostOps0 Win (Proc.devRef .tc main_v7)) :=
  Line.unary_at hostOps0_wr 12 Win rfl (by decide) (by decide)

theorem d_main_v9 : (StableHlo.after hostOps0 Win (Proc.devRef .tc main_v9))
    = Host.gather gather_S20000x256_S131040x1_S131040x256_1_0_n_n_0_1_1256 (StableHlo.after hostOps0 Win (Proc.devRef .tc main_v2)) (StableHlo.after hostOps0 Win (Proc.devRef .tc main_v8)) :=
  Line.binary_at hostOps0_wr 13 Win rfl (by decide) (by decide) (by decide)

theorem d_main_v10 : (StableHlo.after hostOps0 Win (Proc.devRef .tc main_v10))
    = transpose S256x768 [1, 0] (StableHlo.after hostOps0 Win (Proc.devRef .tc main_arg3)) transposes_S768x256_S256x768_1_0 :=
  Line.unary_at hostOps0_wr 14 Win rfl (by decide) (by decide)

theorem d_main_v11 : (StableHlo.after hostOps0 Win (Proc.devRef .tc main_v11))
    = Host.dotGeneral dot_S131040x256_S256x768_S131040x768_1_0_0_1_n_n none (StableHlo.after hostOps0 Win (Proc.devRef .tc main_v9)) (StableHlo.after hostOps0 Win (Proc.devRef .tc main_v10)) :=
  Line.binary_at hostOps0_wr 15 Win rfl (by decide) (by decide) (by decide)

theorem d_main_v32 : (StableHlo.after hostOps0 Win (Proc.devRef .tc main_v32))
    = Host.gather gather_S131040x768_S65536x1_S65536x768_1_0_n_n_0_1_1768 (StableHlo.after hostOps0 Win (Proc.devRef .tc main_v11)) (StableHlo.after hostOps0 Win (Proc.devRef .tc main_v31)) :=
  Line.binary_at hostOps0_wr 42 Win rfl (by decide) (by decide) (by decide)

theorem d_main_cst_8 : (StableHlo.after hostOps0 Win (Proc.devRef .tc main_cst_8))
    = (constant S_ .f32 0x00000000#32) :=
  Line.nullary_at hostOps0_wr 43 Win rfl (by decide)

theorem d_main_v33 : (StableHlo.after hostOps0 Win (Proc.devRef .tc main_v33))
    = (broadcastInDim S65536x256 ![] bcast_S_S65536x256 : (⟨S_, .f32⟩ : BufTy).Contents (Elt F) → (⟨S65536x256, .f32⟩ : BufTy).Contents (Elt F)) (StableHlo.after hostOps0 Win (Proc.devRef .tc main_cst_8)) :=
  Line.unary_at hostOps0_wr 44 Win rfl (by decide) (by decide)

theorem d_main_v34 : (StableHlo.after hostOps0 Win (Proc.devRef .tc main_v34))
    = (broadcastInDim S65536x768 ![0, 1] bcast_S1x768_S65536x768_0_1 : (⟨S1x768, .f32⟩ : BufTy).Contents (Elt F) → (⟨S65536x768, .f32⟩ : BufTy).Contents (Elt F)) (StableHlo.after hostOps0 Win (Proc.devRef .tc main_arg5)) :=
  Line.unary_at hostOps0_wr 45 Win rfl (by decide) (by decide)

theorem d_main_v35 : (StableHlo.after hostOps0 Win (Proc.devRef .tc main_v35))
    = (addf : (⟨S65536x768, .f32⟩ : BufTy).Contents (Elt F) → (⟨S65536x768, .f32⟩ : BufTy).Contents (Elt F) → (⟨S65536x768, .f32⟩ : BufTy).Contents (Elt F)) (StableHlo.after hostOps0 Win (Proc.devRef .tc main_v32)) (StableHlo.after hostOps0 Win (Proc.devRef .tc main_v34)) :=
  Line.binary_at hostOps0_wr 46 Win rfl (by decide) (by decide) (by decide)

theorem d_main_v36 : (StableHlo.after hostOps0 Win (Proc.devRef .tc main_v36))
    = extractStridedSlice S65536x256 ![0, 0] (StableHlo.after hostOps0 Win (Proc.devRef .tc main_v35)) slices_S65536x768_S65536x256_0_0 :=
  Line.unary_at hostOps0_wr 47 Win rfl (by decide) (by decide)

theorem d_main_v37 : (StableHlo.after hostOps0 Win (Proc.devRef .tc main_v37))
    = extractStridedSlice S65536x256 ![0, 256] (StableHlo.after hostOps0 Win (Proc.devRef .tc main_v35)) slices_S65536x768_S65536x256_0_256 :=
  Line.unary_at hostOps0_wr 48 Win rfl (by decide) (by decide)

theorem d_main_v38 : (StableHlo.after hostOps0 Win (Proc.devRef .tc main_v38))
    = extractStridedSlice S65536x256 ![0, 512] (StableHlo.after hostOps0 Win (Proc.devRef .tc main_v35)) slices_S65536x768_S65536x256_0_512 :=
  Line.unary_at hostOps0_wr 49 Win rfl (by decide) (by decide)

theorem d_main_v39 : (StableHlo.after hostOps0 Win (Proc.devRef .tc main_v39))
    = (Host.negf : (⟨S65536x256, .f32⟩ : BufTy).Contents (Elt F) → (⟨S65536x256, .f32⟩ : BufTy).Contents (Elt F)) (StableHlo.after hostOps0 Win (Proc.devRef .tc main_v36)) :=
  Line.unary_at hostOps0_wr 50 Win rfl (by decide) (by decide)

theorem d_main_v40 : (StableHlo.after hostOps0 Win (Proc.devRef .tc main_v40))
    = (Host.exp : (⟨S65536x256, .f32⟩ : BufTy).Contents (Elt F) → (⟨S65536x256, .f32⟩ : BufTy).Contents (Elt F)) (StableHlo.after hostOps0 Win (Proc.devRef .tc main_v39)) :=
  Line.unary_at hostOps0_wr 51 Win rfl (by decide) (by decide)

theorem d_main_cst_9 : (StableHlo.after hostOps0 Win (Proc.devRef .tc main_cst_9))
    = (constant S_ .f32 0x3F800000#32) :=
  Line.nullary_at hostOps0_wr 52 Win rfl (by decide)

theorem d_main_v41 : (StableHlo.after hostOps0 Win (Proc.devRef .tc main_v41))
    = (broadcastInDim S65536x256 ![] bcast_S_S65536x256 : (⟨S_, .f32⟩ : BufTy).Contents (Elt F) → (⟨S65536x256, .f32⟩ : BufTy).Contents (Elt F)) (StableHlo.after hostOps0 Win (Proc.devRef .tc main_cst_9)) :=
  Line.unary_at hostOps0_wr 53 Win rfl (by decide) (by decide)

theorem d_main_v42 : (StableHlo.after hostOps0 Win (Proc.devRef .tc main_v42))
    = (addf : (⟨S65536x256, .f32⟩ : BufTy).Contents (Elt F) → (⟨S65536x256, .f32⟩ : BufTy).Contents (Elt F) → (⟨S65536x256, .f32⟩ : BufTy).Contents (Elt F)) (StableHlo.after hostOps0 Win (Proc.devRef .tc main_v41)) (StableHlo.after hostOps0 Win (Proc.devRef .tc main_v40)) :=
  Line.binary_at hostOps0_wr 54 Win rfl (by decide) (by decide) (by decide)

theorem d_main_cst_10 : (StableHlo.after hostOps0 Win (Proc.devRef .tc main_cst_10))
    = (constant S_ .f32 0x3F800000#32) :=
  Line.nullary_at hostOps0_wr 55 Win rfl (by decide)

theorem d_main_v43 : (StableHlo.after hostOps0 Win (Proc.devRef .tc main_v43))
    = (broadcastInDim S65536x256 ![] bcast_S_S65536x256 : (⟨S_, .f32⟩ : BufTy).Contents (Elt F) → (⟨S65536x256, .f32⟩ : BufTy).Contents (Elt F)) (StableHlo.after hostOps0 Win (Proc.devRef .tc main_cst_10)) :=
  Line.unary_at hostOps0_wr 56 Win rfl (by decide) (by decide)

theorem d_main_v44 : (StableHlo.after hostOps0 Win (Proc.devRef .tc main_v44))
    = (Host.divf : (⟨S65536x256, .f32⟩ : BufTy).Contents (Elt F) → (⟨S65536x256, .f32⟩ : BufTy).Contents (Elt F) → (⟨S65536x256, .f32⟩ : BufTy).Contents (Elt F)) (StableHlo.after hostOps0 Win (Proc.devRef .tc main_v43)) (StableHlo.after hostOps0 Win (Proc.devRef .tc main_v42)) :=
  Line.binary_at hostOps0_wr 57 Win rfl (by decide) (by decide) (by decide)

theorem d_main_v45 : (StableHlo.after hostOps0 Win (Proc.devRef .tc main_v45))
    = (Host.tanh : (⟨S65536x256, .f32⟩ : BufTy).Contents (Elt F) → (⟨S65536x256, .f32⟩ : BufTy).Contents (Elt F)) (StableHlo.after hostOps0 Win (Proc.devRef .tc main_v38)) :=
  Line.unary_at hostOps0_wr 58 Win rfl (by decide) (by decide)

theorem d_main_v46 : (StableHlo.after hostOps0 Win (Proc.devRef .tc main_v46))
    = (mulf : (⟨S65536x256, .f32⟩ : BufTy).Contents (Elt F) → (⟨S65536x256, .f32⟩ : BufTy).Contents (Elt F) → (⟨S65536x256, .f32⟩ : BufTy).Contents (Elt F)) (StableHlo.after hostOps0 Win (Proc.devRef .tc main_v44)) (StableHlo.after hostOps0 Win (Proc.devRef .tc main_v45)) :=
  Line.binary_at hostOps0_wr 59 Win rfl (by decide) (by decide) (by decide)

theorem d_main_v47 : (StableHlo.after hostOps0 Win (Proc.devRef .tc main_v47))
    = (addf : (⟨S65536x256, .f32⟩ : BufTy).Contents (Elt F) → (⟨S65536x256, .f32⟩ : BufTy).Contents (Elt F) → (⟨S65536x256, .f32⟩ : BufTy).Contents (Elt F)) (StableHlo.after hostOps0 Win (Proc.devRef .tc main_v46)) (StableHlo.after hostOps0 Win (Proc.devRef .tc main_v33)) :=
  Line.binary_at hostOps0_wr 60 Win rfl (by decide) (by decide) (by decide)

theorem d_main_v48 : (StableHlo.after hostOps0 Win (Proc.devRef .tc main_v48))
    = (Host.negf : (⟨S65536x256, .f32⟩ : BufTy).Contents (Elt F) → (⟨S65536x256, .f32⟩ : BufTy).Contents (Elt F)) (StableHlo.after hostOps0 Win (Proc.devRef .tc main_v37)) :=
  Line.unary_at hostOps0_wr 61 Win rfl (by decide) (by decide)

theorem d_main_v49 : (StableHlo.after hostOps0 Win (Proc.devRef .tc main_v49))
    = (Host.exp : (⟨S65536x256, .f32⟩ : BufTy).Contents (Elt F) → (⟨S65536x256, .f32⟩ : BufTy).Contents (Elt F)) (StableHlo.after hostOps0 Win (Proc.devRef .tc main_v48)) :=
  Line.unary_at hostOps0_wr 62 Win rfl (by decide) (by decide)

theorem d_main_cst_11 : (StableHlo.after hostOps0 Win (Proc.devRef .tc main_cst_11))
    = (constant S_ .f32 0x3F800000#32) :=
  Line.nullary_at hostOps0_wr 63 Win rfl (by decide)

theorem d_main_v50 : (StableHlo.after hostOps0 Win (Proc.devRef .tc main_v50))
    = (broadcastInDim S65536x256 ![] bcast_S_S65536x256 : (⟨S_, .f32⟩ : BufTy).Contents (Elt F) → (⟨S65536x256, .f32⟩ : BufTy).Contents (Elt F)) (StableHlo.after hostOps0 Win (Proc.devRef .tc main_cst_11)) :=
  Line.unary_at hostOps0_wr 64 Win rfl (by decide) (by decide)

theorem d_main_v51 : (StableHlo.after hostOps0 Win (Proc.devRef .tc main_v51))
    = (addf : (⟨S65536x256, .f32⟩ : BufTy).Contents (Elt F) → (⟨S65536x256, .f32⟩ : BufTy).Contents (Elt F) → (⟨S65536x256, .f32⟩ : BufTy).Contents (Elt F)) (StableHlo.after hostOps0 Win (Proc.devRef .tc main_v50)) (StableHlo.after hostOps0 Win (Proc.devRef .tc main_v49)) :=
  Line.binary_at hostOps0_wr 65 Win rfl (by decide) (by decide) (by decide)

theorem d_main_cst_12 : (StableHlo.after hostOps0 Win (Proc.devRef .tc main_cst_12))
    = (constant S_ .f32 0x3F800000#32) :=
  Line.nullary_at hostOps0_wr 66 Win rfl (by decide)

theorem d_main_v52 : (StableHlo.after hostOps0 Win (Proc.devRef .tc main_v52))
    = (broadcastInDim S65536x256 ![] bcast_S_S65536x256 : (⟨S_, .f32⟩ : BufTy).Contents (Elt F) → (⟨S65536x256, .f32⟩ : BufTy).Contents (Elt F)) (StableHlo.after hostOps0 Win (Proc.devRef .tc main_cst_12)) :=
  Line.unary_at hostOps0_wr 67 Win rfl (by decide) (by decide)

theorem d_main_v53 : (StableHlo.after hostOps0 Win (Proc.devRef .tc main_v53))
    = (Host.divf : (⟨S65536x256, .f32⟩ : BufTy).Contents (Elt F) → (⟨S65536x256, .f32⟩ : BufTy).Contents (Elt F) → (⟨S65536x256, .f32⟩ : BufTy).Contents (Elt F)) (StableHlo.after hostOps0 Win (Proc.devRef .tc main_v52)) (StableHlo.after hostOps0 Win (Proc.devRef .tc main_v51)) :=
  Line.binary_at hostOps0_wr 68 Win rfl (by decide) (by decide) (by decide)

theorem d_main_v54 : (StableHlo.after hostOps0 Win (Proc.devRef .tc main_v54))
    = (Host.tanh : (⟨S65536x256, .f32⟩ : BufTy).Contents (Elt F) → (⟨S65536x256, .f32⟩ : BufTy).Contents (Elt F)) (StableHlo.after hostOps0 Win (Proc.devRef .tc main_v47)) :=
  Line.unary_at hostOps0_wr 69 Win rfl (by decide) (by decide)

theorem d_main_v55 : (StableHlo.after hostOps0 Win (Proc.devRef .tc main_v55))
    = (mulf : (⟨S65536x256, .f32⟩ : BufTy).Contents (Elt F) → (⟨S65536x256, .f32⟩ : BufTy).Contents (Elt F) → (⟨S65536x256, .f32⟩ : BufTy).Contents (Elt F)) (StableHlo.after hostOps0 Win (Proc.devRef .tc main_v53)) (StableHlo.after hostOps0 Win (Proc.devRef .tc main_v54)) :=
  Line.binary_at hostOps0_wr 70 Win rfl (by decide) (by decide) (by decide)

theorem d_main_v62 : (StableHlo.after hostOps0 Win (Proc.devRef .tc main_v62))
    = Host.scatter scatter_S131040x256_S65536x1_S65536x256_1_0_0_1 (fun _ b => b) (StableHlo.after hostOps0 Win (Proc.devRef .tc main_v12)) (StableHlo.after hostOps0 Win (Proc.devRef .tc main_v61)) (StableHlo.after hostOps0 Win (Proc.devRef .tc main_v55)) :=
  Line.ternary_at hostOps0_wr 79 Win rfl (by decide) (by decide) (by decide) (by decide)

theorem d_main_v69 : (StableHlo.after hostOps0 Win (Proc.devRef .tc main_v69))
    = Host.scatter scatter_S131040x256_S65536x1_S65536x256_1_0_0_1 (fun _ b => b) (StableHlo.after hostOps0 Win (Proc.devRef .tc main_v13)) (StableHlo.after hostOps0 Win (Proc.devRef .tc main_v68)) (StableHlo.after hostOps0 Win (Proc.devRef .tc main_v47)) :=
  Line.ternary_at hostOps0_wr 88 Win rfl (by decide) (by decide) (by decide) (by decide)

/-- The first stretch writes no argument array. -/
theorem k_main_arg0 : StableHlo.after hostOps0 Win (Proc.devRef .tc main_arg0) = Win (Proc.devRef .tc main_arg0) :=
  Line.keep hostOps0_wr Win (by decide)
theorem k_main_arg2 : StableHlo.after hostOps0 Win (Proc.devRef .tc main_arg2) = Win (Proc.devRef .tc main_arg2) :=
  Line.keep hostOps0_wr Win (by decide)
theorem k_main_arg3 : StableHlo.after hostOps0 Win (Proc.devRef .tc main_arg3) = Win (Proc.devRef .tc main_arg3) :=
  Line.keep hostOps0_wr Win (by decide)
theorem k_main_arg5 : StableHlo.after hostOps0 Win (Proc.devRef .tc main_arg5) = Win (Proc.devRef .tc main_arg5) :=
  Line.keep hostOps0_wr Win (by decide)

/-! ### The last stretch: the classifier -/

theorem d_main_v1285 : (StableHlo.after hostOps0_44 Win (Proc.devRef .tc main_v1285))
    = Host.gather gather_S131040x256_S32x1_S32x256_1_0_n_n_0_1_1256 (StableHlo.after hostOps0_44 Win (Proc.devRef .tc main_v1271)) (StableHlo.after hostOps0_44 Win (Proc.devRef .tc main_v1284)) :=
  Line.binary_at hostOps0_44_wr 81 Win rfl (by decide) (by decide) (by decide)

theorem d_main_v1286 : (StableHlo.after hostOps0_44 Win (Proc.devRef .tc main_v1286))
    = transpose S256x104 [1, 0] (StableHlo.after hostOps0_44 Win (Proc.devRef .tc main_arg8)) transposes_S104x256_S256x104_1_0 :=
  Line.unary_at hostOps0_44_wr 82 Win rfl (by decide) (by decide)

theorem d_main_v1287 : (StableHlo.after hostOps0_44 Win (Proc.devRef .tc main_v1287))
    = Host.dotGeneral dot_S32x256_S256x104_S32x104_1_0_0_1_n_n none (StableHlo.after hostOps0_44 Win (Proc.devRef .tc main_v1285)) (StableHlo.after hostOps0_44 Win (Proc.devRef .tc main_v1286)) :=
  Line.binary_at hostOps0_44_wr 83 Win rfl (by decide) (by decide) (by decide)

theorem d_main_v1288 : (StableHlo.after hostOps0_44 Win (Proc.devRef .tc main_v1288))
    = (broadcastInDim S1x104 ![1] bcast_S104_S1x104_1 : (⟨S104, .f32⟩ : BufTy).Contents (Elt F) → (⟨S1x104, .f32⟩ : BufTy).Contents (Elt F)) (StableHlo.after hostOps0_44 Win (Proc.devRef .tc main_arg9)) :=
  Line.unary_at hostOps0_44_wr 84 Win rfl (by decide) (by decide)

theorem d_main_v1289 : (StableHlo.after hostOps0_44 Win (Proc.devRef .tc main_v1289))
    = (broadcastInDim S32x104 ![0, 1] bcast_S1x104_S32x104_0_1 : (⟨S1x104, .f32⟩ : BufTy).Contents (Elt F) → (⟨S32x104, .f32⟩ : BufTy).Contents (Elt F)) (StableHlo.after hostOps0_44 Win (Proc.devRef .tc main_v1288)) :=
  Line.unary_at hostOps0_44_wr 85 Win rfl (by decide) (by decide)

theorem d_main_v1290 : (StableHlo.after hostOps0_44 Win (Proc.devRef .tc main_v1290))
    = (addf : (⟨S32x104, .f32⟩ : BufTy).Contents (Elt F) → (⟨S32x104, .f32⟩ : BufTy).Contents (Elt F) → (⟨S32x104, .f32⟩ : BufTy).Contents (Elt F)) (StableHlo.after hostOps0_44 Win (Proc.devRef .tc main_v1287)) (StableHlo.after hostOps0_44 Win (Proc.devRef .tc main_v1289)) :=
  Line.binary_at hostOps0_44_wr 86 Win rfl (by decide) (by decide) (by decide)

/-- The last stretch writes no argument array. -/
theorem k44_main_arg8 : StableHlo.after hostOps0_44 Win (Proc.devRef .tc main_arg8) = Win (Proc.devRef .tc main_arg8) :=
  Line.keep hostOps0_44_wr Win (by decide)
theorem k44_main_arg9 : StableHlo.after hostOps0_44 Win (Proc.devRef .tc main_arg9) = Win (Proc.devRef .tc main_arg9) :=
  Line.keep hostOps0_44_wr Win (by decide)

/-- The token rows as one term of the embedding table and the token ids: row 19999 of the table zeroed, the ids
    normalised (`x < 0 ? x + 20000 : x`) and made a column, the table's rows gathered at that column. -/
def G (emb : (⟨S20000x256, .f32⟩ : BufTy).Contents (Elt F)) (xs : (⟨S131040, .i32⟩ : BufTy).Contents (Elt F)) :
    (⟨S131040x256, .f32⟩ : BufTy).Contents (Elt F) :=
  (Host.gather gather_S20000x256_S131040x1_S131040x256_1_0_n_n_0_1_1256 (Host.scatter scatter_S20000x256_S1_S256_0_0_0_0 (fun _ b => b) emb ((broadcastInDim S1 ![] bcast_S_S1 : (⟨S_, .i32⟩ : BufTy).Contents (Elt F) → (⟨S1, .i32⟩ : BufTy).Contents (Elt F)) (constantI S_ 32 19999#32)) ((broadcastInDim S256 ![] bcast_S_S256 : (⟨S_, .f32⟩ : BufTy).Contents (Elt F) → (⟨S256, .f32⟩ : BufTy).Contents (Elt F)) (constant S_ .f32 0x00000000#32))) ((broadcastInDim S131040x1 ![0] bcast_S131040_S131040x1_0 : (⟨S131040, .i32⟩ : BufTy).Contents (Elt F) → (⟨S131040x1, .i32⟩ : BufTy).Contents (Elt F)) ((select : (⟨S131040, .i1⟩ : BufTy).Contents (Elt F) → (⟨S131040, .i32⟩ : BufTy).Contents (Elt F) → (⟨S131040, .i32⟩ : BufTy).Contents (Elt F) → (⟨S131040, .i32⟩ : BufTy).Contents (Elt F)) ((cmpi .slt : (⟨S131040, .i32⟩ : BufTy).Contents (Elt F) → (⟨S131040, .i32⟩ : BufTy).Contents (Elt F) → (⟨S131040, .i1⟩ : BufTy).Contents (Elt F)) xs ((broadcastInDim S131040 ![] bcast_S_S131040 : (⟨S_, .i32⟩ : BufTy).Contents (Elt F) → (⟨S131040, .i32⟩ : BufTy).Contents (Elt F)) (constantI S_ 32 0#32))) ((addi : (⟨S131040, .i32⟩ : BufTy).Contents (Elt F) → (⟨S131040, .i32⟩ : BufTy).Contents (Elt F) → (⟨S131040, .i32⟩ : BufTy).Contents (Elt F)) xs ((broadcastInDim S131040 ![] bcast_S_S131040 : (⟨S_, .i32⟩ : BufTy).Contents (Elt F) → (⟨S131040, .i32⟩ : BufTy).Contents (Elt F)) (constantI S_ 32 20000#32))) xs)))

/-- The token rows the first stretch leaves are that term of the two argument arrays. -/
theorem v9_eq : StableHlo.after hostOps0 Win (Proc.devRef .tc main_v9)
    = G (Win (Proc.devRef .tc main_arg2)) (Win (Proc.devRef .tc main_arg0)) := by
  rw [d_main_v9 Win, d_main_v2 Win, d_main_v0 Win, d_main_c Win, d_main_v1 Win, d_main_cst Win, d_main_v8 Win, d_main_v7 Win,
    d_main_v4 Win, d_main_v3 Win, d_main_c_0 Win, d_main_v6 Win, d_main_v5 Win, d_main_c_1 Win, k_main_arg2 Win, k_main_arg0 Win]
  rfl

end Defining

/-! ## Part 2: at the extended reals, index by index -/

section AtIdeal

variable (Win : Valuation τ sig (Elt Ideal))

set_option quotPrecheck false in
local notation "A₀" b:max => StableHlo.after hostOps0 Win (Proc.devRef Proc.tc b)
set_option quotPrecheck false in
local notation "A₄₄" b:max => StableHlo.after hostOps0_44 Win (Proc.devRef Proc.tc b)

/-- A rank-2 float buffer's contents as an array of extended reals: the same function, its type spelled out, so that
    sums and products of its entries are the extended reals'. -/
abbrev rd2 {m n : Nat} (x : A2 m n) : A2 m n := x
/-- A rank-1 float buffer's contents as an array of extended reals. -/
abbrev rd1 {n : Nat} (x : A1 n) : A1 n := x

/-- The deepest level's gather of `iou` takes whole rows. -/
theorem isRowGather_iou : Rows.IsRowGather gather_S131040x768_S65536x1_S65536x768_1_0_n_n_0_1_1768 := by
  unfold Rows.IsRowGather; exact ⟨rfl, rfl, rfl, rfl, rfl, rfl, rfl⟩
/-- The deepest level's scatters put whole rows. -/
theorem isRowScatter_hc : Rows.IsRowScatter scatter_S131040x256_S65536x1_S65536x256_1_0_0_1 := by
  unfold Rows.IsRowScatter; exact ⟨rfl, rfl, rfl, rfl⟩
/-- The classifier's gather of the roots takes whole rows. -/
theorem isRowGather_roots : Rows.IsRowGather gather_S131040x256_S32x1_S32x256_1_0_n_n_0_1_1256 := by
  unfold Rows.IsRowGather; exact ⟨rfl, rfl, rfl, rfl, rfl, rfl, rfl⟩

/-- `iou = x_vec · W_iou^T`, at every node and column. -/
theorem iou_eq (w : Wts) (hW : w.W = (Win (Proc.devRef .tc main_arg3) : A2 768 256)) (a : Fin 131040) (n : Fin 768) :
    rd2 (m := 131040) (n := 768) (A₀ main_v11) (ix2 a n)
      = ∑ k : Fin 256, rd2 (m := 131040) (n := 256) (A₀ main_v9) (ix2 a k) * w.W (ix2 n k) := by
  dsimp only [rd2]
  rw [d_main_v11 Win, d_main_v10 Win, k_main_arg3 Win, hW]
  exact Gates.dot_transpose_apply dot_S131040x256_S256x768_S131040x768_1_0_0_1_n_n rfl transposes_S768x256_S256x768_1_0 _ _ a n

/-- The deepest level's rows of `iou` are `iou` at the level's nodes. -/
theorem ioun_eq (hidx31 : ∀ i : Fin 65536, (A₀ main_v31 : IVec ⟨2, ![65536, 1]⟩ 32) (ix2 i 0) = NodeIdx.nodeWord 2048 2047 i.val)
    (i : Fin 65536) (n : Fin 768) :
    (A₀ main_v32 : A2 65536 768) (ix2 i n) = (A₀ main_v11 : A2 131040 768) (ix2 (node 2048 2047 65536 rfl (by omega) i) n) := by
  rw [d_main_v32 Win, Rows.gather_rows_apply gather_S131040x768_S65536x1_S65536x768_1_0_n_n_0_1_1768 isRowGather_iou (by omega : 0 < 131040),
    hidx31, NodeIdx.clampRow_nodeWord (nd := 2048) (start := 2047) (M := 65536) rfl (by omega) i _]

/-- The pre-activation: the gathered rows plus the bias row. -/
theorem z_eq (w : Wts) (hbI : w.bI = (Win (Proc.devRef .tc main_arg5) : A2 1 768)) (i : Fin 65536) (n : Fin 768) :
    rd2 (m := 65536) (n := 768) (A₀ main_v35) (ix2 i n) = rd2 (m := 65536) (n := 768) (A₀ main_v32) (ix2 i n) + w.bI (ix2 0 n) := by
  dsimp only [rd2]
  rw [d_main_v35 Win, addf_apply, d_main_v34 Win, k_main_arg5 Win, Gates.row_bcast_apply, hbI]

/-- The new cell state: `logistic i * tanh u` plus the zero array. -/
theorem c_eq (i : Fin 65536) (j : Fin 256) :
    (A₀ main_v47 : A2 65536 256) (ix2 i j)
      = Ideal.logistic ((A₀ main_v35 : A2 65536 768) (ix2 i (c0 j))) * Ideal.tanh ((A₀ main_v35 : A2 65536 768) (ix2 i (c2 j))) + 0 := by
  rw [d_main_v47 Win, addf_apply, d_main_v33 Win, d_main_cst_8 Win, Gates.zeros_apply,
    d_main_v46 Win, mulf_apply, d_main_v44 Win, d_main_v43 Win, d_main_cst_10 Win, d_main_v42 Win, d_main_v41 Win, d_main_cst_9 Win,
    d_main_v40 Win, d_main_v39 Win, Gates.sigmoid_apply, d_main_v36 Win,
    slice2_axis1_apply 0 _ slices_S65536x768_S65536x256_0_0 i j (c0 j) (Nat.zero_add _).symm,
    d_main_v45 Win, Gates.tanh_apply, d_main_v38 Win,
    slice2_axis1_apply 512 _ slices_S65536x768_S65536x256_0_512 i j (c2 j) rfl]

/-- The new hidden state: `logistic o * tanh c`. -/
theorem h_eq (i : Fin 65536) (j : Fin 256) :
    (A₀ main_v55 : A2 65536 256) (ix2 i j)
      = Ideal.logistic ((A₀ main_v35 : A2 65536 768) (ix2 i (c1 j))) * Ideal.tanh ((A₀ main_v47 : A2 65536 256) (ix2 i j)) := by
  rw [d_main_v55 Win, mulf_apply, d_main_v53 Win, d_main_v52 Win, d_main_cst_12 Win, d_main_v51 Win, d_main_v50 Win, d_main_cst_11 Win,
    d_main_v49 Win, d_main_v48 Win, Gates.sigmoid_apply, d_main_v37 Win,
    slice2_axis1_apply 256 _ slices_S65536x768_S65536x256_0_256 i j (c1 j) rfl,
    d_main_v54 Win, Gates.tanh_apply]

/-- The hidden rows land in the whole-forest array at the level's nodes. -/
theorem harr_eq (hidx61 : ∀ i : Fin 65536, (A₀ main_v61 : IVec ⟨2, ![65536, 1]⟩ 32) (ix2 i 0) = NodeIdx.nodeWord 2048 2047 i.val)
    (i : Fin 65536) (j : Fin 256) :
    (A₀ main_v62 : A2 131040 256) (ix2 (node 2048 2047 65536 rfl (by omega) i) j) = (A₀ main_v55 : A2 65536 256) (ix2 i j) := by
  rw [d_main_v62 Win]
  refine Rows.scatter_rows_hit scatter_S131040x256_S65536x1_S65536x256_1_0_0_1 isRowScatter_hc _ _ _ (fun k k' r h h' => ?_) i _ ?_ j
  · rw [hidx61] at h h'
    exact NodeIdx.rowTarget_nodeWord_injective (nd := 2048) (start := 2047) (M := 65536) rfl (by omega) k k' r h h'
  · rw [hidx61]
    exact NodeIdx.rowTarget_nodeWord (nd := 2048) (start := 2047) (M := 65536) rfl (by omega) i

/-- The cell rows land in the whole-forest array at the level's nodes. -/
theorem carr_eq (hidx68 : ∀ i : Fin 65536, (A₀ main_v68 : IVec ⟨2, ![65536, 1]⟩ 32) (ix2 i 0) = NodeIdx.nodeWord 2048 2047 i.val)
    (i : Fin 65536) (j : Fin 256) :
    (A₀ main_v69 : A2 131040 256) (ix2 (node 2048 2047 65536 rfl (by omega) i) j) = (A₀ main_v47 : A2 65536 256) (ix2 i j) := by
  rw [d_main_v69 Win]
  refine Rows.scatter_rows_hit scatter_S131040x256_S65536x1_S65536x256_1_0_0_1 isRowScatter_hc _ _ _ (fun k k' r h h' => ?_) i _ ?_ j
  · rw [hidx68] at h h'
    exact NodeIdx.rowTarget_nodeWord_injective (nd := 2048) (start := 2047) (M := 65536) rfl (by omega) k k' r h h'
  · rw [hidx68]
    exact NodeIdx.rowTarget_nodeWord (nd := 2048) (start := 2047) (M := 65536) rfl (by omega) i

/-- THE DEEPEST LEVEL, as the chain consumes it: the token rows `main_v9`, and the whole-forest hidden and cell
    arrays `main_v62`, `main_v69` the first stretch leaves. -/
theorem rleaf (w : Wts) (hW : w.W = (Win (Proc.devRef .tc main_arg3) : A2 768 256))
    (hbI : w.bI = (Win (Proc.devRef .tc main_arg5) : A2 1 768))
    (hidx31 : ∀ i : Fin 65536, (A₀ main_v31 : IVec ⟨2, ![65536, 1]⟩ 32) (ix2 i 0) = NodeIdx.nodeWord 2048 2047 i.val)
    (hidx61 : ∀ i : Fin 65536, (A₀ main_v61 : IVec ⟨2, ![65536, 1]⟩ 32) (ix2 i 0) = NodeIdx.nodeWord 2048 2047 i.val)
    (hidx68 : ∀ i : Fin 65536, (A₀ main_v68 : IVec ⟨2, ![65536, 1]⟩ 32) (ix2 i 0) = NodeIdx.nodeWord 2048 2047 i.val) :
    Chain.RLeaf 2048 2047 (rfl : 65536 = 32 * 2048) (by omega) w (A₀ main_v9) (A₀ main_v62) (A₀ main_v69) := by
  unfold Chain.RLeaf
  exact ⟨A₀ main_v11, A₀ main_v32, A₀ main_v35, A₀ main_v47, A₀ main_v55, iou_eq Win w hW, ioun_eq Win hidx31, z_eq Win w hbI,
    c_eq Win, h_eq Win, harr_eq Win hidx61, carr_eq Win hidx68⟩

/-- THE ROOTS the classifier reads are the whole-forest hidden array at the 32 root nodes. -/
theorem roots_eq (hidx1284 : ∀ i : Fin 32, (A₄₄ main_v1284 : IVec ⟨2, ![32, 1]⟩ 32) (ix2 i 0) = NodeIdx.nodeWord 1 0 i.val)
    (i : Fin 32) (k : Fin 256) :
    (A₄₄ main_v1285 : A2 32 256) (ix2 i k) = (A₄₄ main_v1271 : A2 131040 256) (ix2 (node 1 0 32 rfl (by omega) i) k) := by
  rw [d_main_v1285 Win, Rows.gather_rows_apply gather_S131040x256_S32x1_S32x256_1_0_n_n_0_1_1256 isRowGather_roots (by omega : 0 < 131040),
    hidx1284, NodeIdx.clampRow_nodeWord (nd := 1) (start := 0) (M := 32) rfl (by omega) i _]

/-- THE CLASSIFIER: `roots · lin_w^T + lin_b`. -/
theorem out_eq (i : Fin 32) (n : Fin 104) :
    rd2 (m := 32) (n := 104) (A₄₄ main_v1290) (ix2 i n)
      = (∑ k : Fin 256, rd2 (m := 32) (n := 256) (A₄₄ main_v1285) (ix2 i k) * rd2 (m := 104) (n := 256) (Win (Proc.devRef .tc main_arg8)) (ix2 n k))
        + rd1 (n := 104) (Win (Proc.devRef .tc main_arg9)) (ix1 n) := by
  dsimp only [rd2, rd1]
  rw [d_main_v1290 Win, addf_apply, d_main_v1289 Win, Gates.row_bcast_apply, d_main_v1288 Win, Gates.vec_row_apply, k44_main_arg9 Win,
    d_main_v1287 Win, d_main_v1286 Win, k44_main_arg8 Win,
    Gates.dot_transpose_apply dot_S32x256_S256x104_S32x104_1_0_0_1_n_n rfl transposes_S104x256_S256x104_1_0 _ _ i n]

end AtIdeal

end Cert.ReferenceIdeal.Leaf

end
-- ==== Proof.RIdxTac.lean ====
/-
  Two rewriting tactics for reading the reference's index vectors out of a stretch of host operations, one operation's
  defining equation at a time. A normalisation `n < 0 ? n + 131040 : n` followed by the broadcast to a column is eight
  operations in a row (a zero, its broadcast, the comparison, the constant 131040, its broadcast, the sum, the select,
  the column); a level's flattened ids are ten in a row (the offsets as a column, the level's start, its broadcast,
  their sum, an iota, the iota as a row, the two broadcasts to the grid, their sum, the flattening), nine at the
  level with one node per graph (the start column is the grid already). Each tactic rewrites the goal by those
  operations' equations, last operation first, given the line's write list and the position of the first.
-/
import proofs.«419362_j66683662237734_3_alg».proof.Proof.LibLine

namespace Cert.ReferenceIdeal.Idx

open Cert.ReferenceIdeal.Line

open Lean in
macro "normCol_eqs" hW:term:max p:num : tactic => do
  let n := p.getNat
  let k (i : Nat) : NumLit := Syntax.mkNumLit (toString (n + i))
  `(tactic| rw [unary_at $hW $(k 7) _ rfl (by decide) (by decide),
      ternary_at $hW $(k 6) _ rfl (by decide) (by decide) (by decide) (by decide),
      binary_at $hW $(k 5) _ rfl (by decide) (by decide) (by decide),
      unary_at $hW $(k 4) _ rfl (by decide) (by decide),
      nullary_at $hW $(k 3) _ rfl (by decide),
      binary_at $hW $(k 2) _ rfl (by decide) (by decide) (by decide),
      unary_at $hW $(k 1) _ rfl (by decide) (by decide),
      nullary_at $hW $(k 0) _ rfl (by decide)])

open Lean in
macro "nids_eqs" hW:term:max p:num : tactic => do
  let n := p.getNat
  let k (i : Nat) : NumLit := Syntax.mkNumLit (toString (n + i))
  `(tactic| rw [reshape_at $hW $(k 9) _ rfl (by decide) (by decide),
      binary_at $hW $(k 8) _ rfl (by decide) (by decide) (by decide),
      unary_at $hW $(k 7) _ rfl (by decide) (by decide),
      unary_at $hW $(k 6) _ rfl (by decide) (by decide),
      unary_at $hW $(k 5) _ rfl (by decide) (by decide),
      nullary_at $hW $(k 4) _ rfl (by decide),
      binary_at $hW $(k 3) _ rfl (by decide) (by decide) (by decide),
      unary_at $hW $(k 2) _ rfl (by decide) (by decide),
      nullary_at $hW $(k 1) _ rfl (by decide),
      unary_at $hW $(k 0) _ rfl (by decide) (by decide)])

open Lean in
macro "nids0_eqs" hW:term:max p:num : tactic => do
  let n := p.getNat
  let k (i : Nat) : NumLit := Syntax.mkNumLit (toString (n + i))
  `(tactic| rw [reshape_at $hW $(k 8) _ rfl (by decide) (by decide),
      binary_at $hW $(k 7) _ rfl (by decide) (by decide) (by decide),
      unary_at $hW $(k 6) _ rfl (by decide) (by decide),
      unary_at $hW $(k 5) _ rfl (by decide) (by decide),
      nullary_at $hW $(k 4) _ rfl (by decide),
      binary_at $hW $(k 3) _ rfl (by decide) (by decide) (by decide),
      unary_at $hW $(k 2) _ rfl (by decide) (by decide),
      nullary_at $hW $(k 1) _ rfl (by decide),
      unary_at $hW $(k 0) _ rfl (by decide) (by decide)])

end Cert.ReferenceIdeal.Idx
-- ==== Proof.RIdx0.lean ====
/-
  The reference's index vectors in its first stretch of host operations, read at an index. The stretch makes the
  offsets `arange(32) * 4095`, the deepest level's node ids and their three normalised columns, and for the level
  above it the node ids with one normalised column and the children's ids with three. Each id is the node word of its
  slot, whatever the contents at the stretch's entry: every operation involved is an iota, a constant or integer
  arithmetic on those.
-/
import proofs.«419362_j66683662237734_3_alg».proof.Proof.RefOpsS0
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references the first stretch writes, one per operation, in order. -/
abbrev W0 : List (Ref sig .tc) :=
  [main_c, main_v0, main_cst, main_v1, main_v2, main_c_0, main_v3, main_v4,
    main_c_1, main_v5, main_v6, main_v7, main_v8, main_v9, main_v10, main_v11,
    main_cst_2, main_v12, main_cst_3, main_v13, main_v14, main_c_4, main_v15, main_v16,
    main_v17, main_c_5, main_v18, main_v19, main_v20, main_v21, main_v22, main_v23,
    main_v24, main_v25, main_c_6, main_v26, main_v27, main_c_7, main_v28, main_v29,
    main_v30, main_v31, main_v32, main_cst_8, main_v33, main_v34, main_v35, main_v36,
    main_v37, main_v38, main_v39, main_v40, main_cst_9, main_v41, main_v42, main_cst_10,
    main_v43, main_v44, main_v45, main_v46, main_v47, main_v48, main_v49, main_cst_11,
    main_v50, main_v51, main_cst_12, main_v52, main_v53, main_v54, main_v55, main_c_13,
    main_v56, main_v57, main_c_14, main_v58, main_v59, main_v60, main_v61, main_v62,
    main_c_15, main_v63, main_v64, main_c_16, main_v65, main_v66, main_v67, main_v68,
    main_v69, main_v70, main_c_17, main_v71, main_v72, main_v73, main_v74, main_v75,
    main_v76, main_v77, main_v78, main_c_18, main_v79, main_v80, main_c_19, main_v81,
    main_v82, main_v83, main_v84, main_v85, main_v86, main_c_20, main_v87, main_v88,
    main_v89, main_v90, main_v91, main_v92, main_v93, main_v94, main_c_21, main_v95,
    main_v96, main_c_22, main_v97, main_v98, main_v99, main_v100, main_v101, main_c_23,
    main_v102, main_v103, main_c_24, main_v104, main_v105, main_v106, main_v107, main_v108,
    main_c_25, main_v109, main_v110, main_c_26, main_v111, main_v112, main_v113, main_v114,
    main_v115, main_c_27 ]

set_option maxHeartbeats 4000000 in
theorem writes0 : Writes (hostOps0 : List (HloOp τ sig (Elt F))) W0 := by
  repeat (first | exact .nil | refine .cons rfl ?_)

variable (Win : Valuation τ sig (Elt F))

/-- The offsets: graph `b`'s ids start at `4095 * b`. -/
theorem s0_v16 (b : Fin 32) :
    after hostOps0 Win (Proc.devRef .tc main_v16) (ix1 b) = BitVec.ofNat 32 b.val * 4095#32 := by
  rw [binary_at writes0 23 _ rfl (by decide) (by decide) (by decide),
    nullary_at writes0 20 _ rfl (by decide),
    unary_at writes0 22 _ rfl (by decide) (by decide),
    nullary_at writes0 21 _ rfl (by decide)]
  rfl

/-! ### The deepest level: 2048 nodes per graph from offset 2047 -/

theorem s0_v25 (i : Fin 65536) :
    after hostOps0 Win (Proc.devRef .tc main_v25) (ix1 i) = nodeWord 2048 2047 i.val := by
  nids_eqs writes0 24
  exact nids_apply (nd := 2048) rfl 2047 _ (s0_v16 Win) _ _ _ _ _ _ i

theorem s0_v31 (i : Fin 65536) :
    after hostOps0 Win (Proc.devRef .tc main_v31) (ix2 i 0) = nodeWord 2048 2047 i.val := by
  normCol_eqs writes0 34
  exact normCol_nodeWord (nd := 2048) rfl (by omega) _ _ _ _ _ i (s0_v25 Win i)

theorem s0_v61 (i : Fin 65536) :
    after hostOps0 Win (Proc.devRef .tc main_v61) (ix2 i 0) = nodeWord 2048 2047 i.val := by
  normCol_eqs writes0 71
  exact normCol_nodeWord (nd := 2048) rfl (by omega) _ _ _ _ _ i (s0_v25 Win i)

theorem s0_v68 (i : Fin 65536) :
    after hostOps0 Win (Proc.devRef .tc main_v68) (ix2 i 0) = nodeWord 2048 2047 i.val := by
  normCol_eqs writes0 80
  exact normCol_nodeWord (nd := 2048) rfl (by omega) _ _ _ _ _ i (s0_v25 Win i)

/-! ### The level above: 1024 nodes per graph from offset 1023, its children the deepest level's nodes -/

theorem s0_v78 (i : Fin 32768) :
    after hostOps0 Win (Proc.devRef .tc main_v78) (ix1 i) = nodeWord 1024 1023 i.val := by
  nids_eqs writes0 89
  exact nids_apply (nd := 1024) rfl 1023 _ (s0_v16 Win) _ _ _ _ _ _ i

theorem s0_v84 (i : Fin 32768) :
    after hostOps0 Win (Proc.devRef .tc main_v84) (ix2 i 0) = nodeWord 1024 1023 i.val := by
  normCol_eqs writes0 99
  exact normCol_nodeWord (nd := 1024) rfl (by omega) _ _ _ _ _ i (s0_v78 Win i)

theorem s0_v94 (i : Fin 65536) :
    after hostOps0 Win (Proc.devRef .tc main_v94) (ix1 i) = nodeWord 2048 2047 i.val := by
  nids_eqs writes0 108
  exact nids_apply (nd := 2048) rfl 2047 _ (s0_v16 Win) _ _ _ _ _ _ i

theorem s0_v100 (i : Fin 65536) :
    after hostOps0 Win (Proc.devRef .tc main_v100) (ix2 i 0) = nodeWord 2048 2047 i.val := by
  normCol_eqs writes0 118
  exact normCol_nodeWord (nd := 2048) rfl (by omega) _ _ _ _ _ i (s0_v94 Win i)

theorem s0_v107 (i : Fin 65536) :
    after hostOps0 Win (Proc.devRef .tc main_v107) (ix2 i 0) = nodeWord 2048 2047 i.val := by
  normCol_eqs writes0 127
  exact normCol_nodeWord (nd := 2048) rfl (by omega) _ _ _ _ _ i (s0_v94 Win i)

theorem s0_v114 (i : Fin 65536) :
    after hostOps0 Win (Proc.devRef .tc main_v114) (ix2 i 0) = nodeWord 2048 2047 i.val := by
  normCol_eqs writes0 136
  exact normCol_nodeWord (nd := 2048) rfl (by omega) _ _ _ _ _ i (s0_v94 Win i)

end Cert.ReferenceIdeal.Idx

end
-- ==== Proof.RIdx44.lean ====
/-
  The reference's index vectors in its last stretch of host operations, read at an index. The stretch normalises the
  root level's node ids twice more (for the two scatters of its new rows) and, for the classifier's gather of the
  root rows, normalises the offsets `arange(32) * 4095` themselves: with one node per graph from offset 0 the offset
  of graph `i` is the node word of slot `i`. The root level's ids and the offsets were made before the stretch and
  are taken from its entry contents.
-/
import proofs.«419362_j66683662237734_3_alg».proof.Proof.RefOpsS3
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W44 : List (Ref sig .tc) :=
  [main_c_290, main_v1219, main_v1220, main_v1221, main_v1222, main_v1223, main_v1224, main_v1225,
    main_v1226, main_v1227, main_v1228, main_cst_291, main_v1229, main_v1230, main_cst_292, main_v1231,
    main_v1232, main_cst_293, main_v1233, main_v1234, main_v1235, main_v1236, main_cst_294, main_v1237,
    main_v1238, main_v1239, main_v1240, main_v1241, main_v1242, main_v1243, main_v1244, main_v1245,
    main_v1246, main_v1247, main_v1248, main_v1249, main_cst_295, main_v1250, main_v1251, main_cst_296,
    main_v1252, main_v1253, main_v1254, main_v1255, main_v1256, main_v1257, main_v1258, main_cst_297,
    main_v1259, main_v1260, main_cst_298, main_v1261, main_v1262, main_v1263, main_v1264, main_c_299,
    main_v1265, main_v1266, main_c_300, main_v1267, main_v1268, main_v1269, main_v1270, main_v1271,
    main_c_301, main_v1272, main_v1273, main_c_302, main_v1274, main_v1275, main_v1276, main_v1277,
    main_v1278, main_c_303, main_v1279, main_v1280, main_c_304, main_v1281, main_v1282, main_v1283,
    main_v1284, main_v1285, main_v1286, main_v1287, main_v1288, main_v1289, main_v1290 ]

set_option maxHeartbeats 4000000 in
theorem writes44 : Writes (hostOps0_44 : List (HloOp τ sig (Elt F))) W44 := by
  repeat (first | exact .nil | refine .cons rfl ?_)

variable (Win : Valuation τ sig (Elt F))

theorem s44_v1270 (hids : ∀ i : Fin 32, Win (Proc.devRef .tc main_v1177) (ix1 i) = nodeWord 1 0 i.val) (i : Fin 32) :
    after hostOps0_44 Win (Proc.devRef .tc main_v1270) (ix2 i 0) = nodeWord 1 0 i.val := by
  normCol_eqs writes44 55
  rw [keep writes44 Win (r := main_v1177) (by decide)]
  exact normCol_nodeWord (nd := 1) rfl (by omega) _ _ _ _ _ i (hids i)

theorem s44_v1277 (hids : ∀ i : Fin 32, Win (Proc.devRef .tc main_v1177) (ix1 i) = nodeWord 1 0 i.val) (i : Fin 32) :
    after hostOps0_44 Win (Proc.devRef .tc main_v1277) (ix2 i 0) = nodeWord 1 0 i.val := by
  normCol_eqs writes44 64
  rw [keep writes44 Win (r := main_v1177) (by decide)]
  exact normCol_nodeWord (nd := 1) rfl (by omega) _ _ _ _ _ i (hids i)

theorem s44_v1284 (h16 : ∀ b : Fin 32, Win (Proc.devRef .tc main_v16) (ix1 b) = BitVec.ofNat 32 b.val * 4095#32) (i : Fin 32) :
    after hostOps0_44 Win (Proc.devRef .tc main_v1284) (ix2 i 0) = nodeWord 1 0 i.val := by
  normCol_eqs writes44 73
  rw [keep writes44 Win (r := main_v16) (by decide)]
  exact normCol_nodeWord (nd := 1) rfl (by omega) _ _ _ _ _ i ((h16 i).trans (nodeWord_one_zero i.val).symm)

end Cert.ReferenceIdeal.Idx

end
-- ==== Proof.BridgeRBase.lean ====
/-
  The reference's side of the chain of levels, read off its run. The weights, the token ids, the embedding table, the
  parent words and the classifier's weights are the launch contents of the argument arrays; the token rows are the
  first stretch's gather of the table; the whole-forest hidden and cell arrays after each level are the buffers the
  level's two row scatters write. Here: the product of the token rows with the input weights as the first stretch
  leaves it, the deepest level, the roots and the classifier (the per-graph offsets and the classifier's arguments
  read, after 44 stretches, as the first stretch and the launch left them).
-/
import proofs.«419362_j66683662237734_3_alg».proof.Proof.RefCarry
import proofs.«419362_j66683662237734_3_alg».proof.Proof.RLeaf
import proofs.«419362_j66683662237734_3_alg».proof.Proof.RIdx0
import proofs.«419362_j66683662237734_3_alg».proof.Proof.RIdx44
import proofs.«419362_j66683662237734_3_alg».proof.Proof.LibChain

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-! ## The shared data, as the launch memory holds it -/

/-- The weights: the input weights, the recurrent weights, the bias row, the forget gate's weights and its bias. -/
def wR : Wts :=
  ⟨m' ((c.tc : Thread nD τ).loc main_arg3), m' ((c.tc : Thread nD τ).loc main_arg4), m' ((c.tc : Thread nD τ).loc main_arg5), m' ((c.tc : Thread nD τ).loc main_arg6), m' ((c.tc : Thread nD τ).loc main_arg7)⟩
/-- The token rows: the embedding table's rows at the token ids. -/
def GR : A2 131040 256 := Leaf.G (m' ((c.tc : Thread nD τ).loc main_arg2)) (m' ((c.tc : Thread nD τ).loc main_arg0))
/-- The parent words. -/
def parR : (⟨1, ![131040]⟩ : Shape).Idx → BitVec 32 := m' ((c.tc : Thread nD τ).loc main_arg1)
/-- The classifier's weights and bias. -/
def linwR : A2 104 256 := m' ((c.tc : Thread nD τ).loc main_arg8)
def linbR : A1 104 := m' ((c.tc : Thread nD τ).loc main_arg9)

/-- The reference's hidden and cell arrays as the deepest level leaves them. -/
def harr11 : A2 131040 256 := R1 m' c (Proc.devRef .tc main_v62)
def carr11 : A2 131040 256 := R1 m' c (Proc.devRef .tc main_v69)
/-- The reference's hidden and cell arrays as level 10 leaves them. -/
def harr10 : A2 131040 256 := R5 m' c (Proc.devRef .tc main_v172)
def carr10 : A2 131040 256 := R5 m' c (Proc.devRef .tc main_v179)
/-- The reference's hidden and cell arrays as level 9 leaves them. -/
def harr9 : A2 131040 256 := R9 m' c (Proc.devRef .tc main_v282)
def carr9 : A2 131040 256 := R9 m' c (Proc.devRef .tc main_v289)
/-- The reference's hidden and cell arrays as level 8 leaves them. -/
def harr8 : A2 131040 256 := R13 m' c (Proc.devRef .tc main_v392)
def carr8 : A2 131040 256 := R13 m' c (Proc.devRef .tc main_v399)
/-- The reference's hidden and cell arrays as level 7 leaves them. -/
def harr7 : A2 131040 256 := R17 m' c (Proc.devRef .tc main_v502)
def carr7 : A2 131040 256 := R17 m' c (Proc.devRef .tc main_v509)
/-- The reference's hidden and cell arrays as level 6 leaves them. -/
def harr6 : A2 131040 256 := R21 m' c (Proc.devRef .tc main_v612)
def carr6 : A2 131040 256 := R21 m' c (Proc.devRef .tc main_v619)
/-- The reference's hidden and cell arrays as level 5 leaves them. -/
def harr5 : A2 131040 256 := R25 m' c (Proc.devRef .tc main_v722)
def carr5 : A2 131040 256 := R25 m' c (Proc.devRef .tc main_v729)
/-- The reference's hidden and cell arrays as level 4 leaves them. -/
def harr4 : A2 131040 256 := R29 m' c (Proc.devRef .tc main_v832)
def carr4 : A2 131040 256 := R29 m' c (Proc.devRef .tc main_v839)
/-- The reference's hidden and cell arrays as level 3 leaves them. -/
def harr3 : A2 131040 256 := R33 m' c (Proc.devRef .tc main_v942)
def carr3 : A2 131040 256 := R33 m' c (Proc.devRef .tc main_v949)
/-- The reference's hidden and cell arrays as level 2 leaves them. -/
def harr2 : A2 131040 256 := R37 m' c (Proc.devRef .tc main_v1052)
def carr2 : A2 131040 256 := R37 m' c (Proc.devRef .tc main_v1059)
/-- The reference's hidden and cell arrays as level 1 leaves them. -/
def harr1 : A2 131040 256 := R41 m' c (Proc.devRef .tc main_v1162)
def carr1 : A2 131040 256 := R41 m' c (Proc.devRef .tc main_v1169)
/-- The reference's hidden and cell arrays as the root level leaves them. -/
def harr0 : A2 131040 256 := R45 m' c (Proc.devRef .tc main_v1271)
def carr0 : A2 131040 256 := R45 m' c (Proc.devRef .tc main_v1278)
/-- The roots' hidden rows, as the classifier gathers them. -/
def rootsR : A2 32 256 := R45 m' c (Proc.devRef .tc main_v1285)

/-! ## What the first stretch leaves -/

/-- An array read through the identity that fixes its type is the array. -/
theorem rd2_id {p q : Nat} (x : A2 p q) : Leaf.rd2 x = x := rfl
theorem rd1_id {p : Nat} (x : A1 p) : Leaf.rd1 x = x := rfl

/-- The product of the token rows with the input weights, as the first stretch leaves it. -/
theorem iou1 (a : Fin 131040) (n : Fin 768) :
    (R1 m' c (Proc.devRef .tc main_v11) : A2 131040 768) (ix2 a n) = ∑ k : Fin 256, GR m' c (ix2 a k) * (wR m' c).W (ix2 n k) := by
  have h := Leaf.iou_eq (R0 m' c) (wR m' c) rfl a n
  rw [rd2_id, rd2_id, Leaf.v9_eq] at h
  exact h

/-! ## The deepest level, the roots, the classifier -/

/-- THE DEEPEST LEVEL. -/
theorem rleaf : Chain.RLeaf 2048 2047 (rfl : 65536 = 32 * 2048) (by omega) (wR m' c) (GR m' c) (harr11 m' c) (carr11 m' c) := by
  have h := Leaf.rleaf (R0 m' c) (wR m' c) rfl rfl (Idx.s0_v31 (R0 m' c)) (Idx.s0_v61 (R0 m' c)) (Idx.s0_v68 (R0 m' c))
  rw [Leaf.v9_eq] at h
  exact h

/-- THE ROOTS the classifier reads are the last hidden array at the 32 root nodes. -/
theorem rroots (i : Fin 32) (k : Fin 256) :
    rootsR m' c (ix2 i k) = harr0 m' c (ix2 (node 1 0 32 rfl (by omega) i) k) :=
  Leaf.roots_eq (R44 m' c) (Idx.s44_v1284 (R44 m' c) fun b => by
    rw [carry_v16_R44 m' c]
    exact Idx.s0_v16 (R0 m' c) b) i k

/-- THE CLASSIFIER's output from the roots' rows. -/
theorem rout (i : Fin 32) (n : Fin 104) :
    (R45 m' c (Proc.devRef .tc main_v1290) : A2 32 104) (ix2 i n)
      = (∑ k : Fin 256, rootsR m' c (ix2 i k) * linwR m' c (ix2 n k)) + linbR m' c (ix1 n) := by
  have h := Leaf.out_eq (R44 m' c) i n
  rw [rd2_id, rd2_id, rd2_id, rd1_id, carry_arg8_R44 m' c, carry_arg9_R44 m' c] at h
  exact h

end Cert.BridgeR

end
-- ==== Proof.BridgeRWrap.lean ====
/-
  The carried facts of the reference's run in the shapes the levels take them. A level reads each buffer through the
  identity that fixes its contents' type; here, for contents known to equal the launch contents of an argument, or what
  the first stretch left of the token rows' product with the input weights or of the per-graph offsets: the weights'
  equations, the parent words, the product's value and the offsets' value, each stated of the contents as given.
-/
import proofs.«419362_j66683662237734_3_alg».proof.Proof.BridgeRBase
import proofs.«419362_j66683662237734_3_alg».proof.Proof.RLvlLib

set_option maxRecDepth 9696

noncomputable section

open scoped BigOperators

namespace Cert.BridgeR

open Cert.ReferenceIdeal Cert.ReferenceIdeal.Gen Cert.ReferenceIdeal.RefRun Cert.ReferenceIdeal.LvlLib
open Idealize.ShloMosaic Idealize.ShloMosaic.TcCoe Idealize.ShloMosaic.ValueIdx Idealize.SL.Sem
open Cert.TreeLstm

/-- Reading a float buffer through the identity that fixes its type changes nothing. -/
theorem fbuf_id (S : Shape) (x : S.Idx → EReal) : fbuf S x = x := rfl
/-- Reading an integer buffer through the identity that fixes its type changes nothing. -/
theorem ibuf_id (S : Shape) (x : S.Idx → BitVec 32) : ibuf S x = x := rfl
/-- A column read through the identity that fixes its type, from the column itself. -/
theorem col_in {S : Shape} {x : S.Idx → BitVec 32} {p : S.Idx} {v : BitVec 32} (h : x p = v) : ibuf S x p = v := h
/-- And back. -/
theorem col_out {S : Shape} {x : S.Idx → BitVec 32} {p : S.Idx} {v : BitVec 32} (h : ibuf S x p = v) : x p = v := h

variable (m' : (ℓ : Loc nD τ sig) → Buf (Elt Ideal) ℓ) (c : Dev nD)

/-- The recurrent weights, the bias row and the forget gate's weights and bias, of contents equal to the arguments'. -/
theorem hU_of {X : A2 768 256} (hX : X = m' ((c.tc : Thread nD τ).loc main_arg4)) : (wR m' c).U = fbuf S768x256 X := hX.symm
theorem hbI_of {X : A2 1 768} (hX : X = m' ((c.tc : Thread nD τ).loc main_arg5)) : (wR m' c).bI = fbuf S1x768 X := hX.symm
theorem hUf_of {X : A2 256 256} (hX : X = m' ((c.tc : Thread nD τ).loc main_arg6)) : (wR m' c).Uf = fbuf S256x256 X := hX.symm
theorem hbF_of {X : A1 256} (hX : X = m' ((c.tc : Thread nD τ).loc main_arg7)) : (wR m' c).bF = fbuf S256 X := hX.symm
/-- The parent words, of contents equal to the argument's. -/
theorem par_of {X : (⟨1, ![131040]⟩ : Shape).Idx → BitVec 32} (hX : X = m' ((c.tc : Thread nD τ).loc main_arg1)) :
    ibuf S131040 X = parR m' c := hX
/-- The token rows' product with the input weights, of contents equal to what the first stretch left. -/
theorem iou_of {X : A2 131040 768} (hX : X = R1 m' c (Proc.devRef .tc main_v11)) (a : Fin 131040) (n : Fin 768) :
    fbuf S131040x768 X (ix2 a n) = ∑ k : Fin 256, GR m' c (ix2 a k) * (wR m' c).W (ix2 n k) := by
  subst hX
  rw [fbuf_id]
  exact iou1 m' c a n
/-- The per-graph offsets, of contents equal to what the first stretch left. -/
theorem offs_of {X : (⟨1, ![32]⟩ : Shape).Idx → BitVec 32} (hX : X = R1 m' c (Proc.devRef .tc main_v16)) (b : Fin 32) :
    X (ix1 b) = BitVec.ofNat 32 b.val * 4095#32 := by
  subst hX
  exact Idx.s0_v16 (R0 m' c) b

end Cert.BridgeR

end
-- ==== Proof.RLvl10.lean ====
/-
  One level of the reference's tree recurrence, the level of 32768 nodes with 65536 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS0
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl10

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c, main_v0, main_cst, main_v1, main_v2, main_c_0, main_v3, main_v4,
    main_c_1, main_v5, main_v6, main_v7, main_v8, main_v9, main_v10, main_v11,
    main_cst_2, main_v12, main_cst_3, main_v13, main_v14, main_c_4, main_v15, main_v16,
    main_v17, main_c_5, main_v18, main_v19, main_v20, main_v21, main_v22, main_v23,
    main_v24, main_v25, main_c_6, main_v26, main_v27, main_c_7, main_v28, main_v29,
    main_v30, main_v31, main_v32, main_cst_8, main_v33, main_v34, main_v35, main_v36,
    main_v37, main_v38, main_v39, main_v40, main_cst_9, main_v41, main_v42, main_cst_10,
    main_v43, main_v44, main_v45, main_v46, main_v47, main_v48, main_v49, main_cst_11,
    main_v50, main_v51, main_cst_12, main_v52, main_v53, main_v54, main_v55, main_c_13,
    main_v56, main_v57, main_c_14, main_v58, main_v59, main_v60, main_v61, main_v62,
    main_c_15, main_v63, main_v64, main_c_16, main_v65, main_v66, main_v67, main_v68,
    main_v69, main_v70, main_c_17, main_v71, main_v72, main_v73, main_v74, main_v75,
    main_v76, main_v77, main_v78, main_c_18, main_v79, main_v80, main_c_19, main_v81,
    main_v82, main_v83, main_v84, main_v85, main_v86, main_c_20, main_v87, main_v88,
    main_v89, main_v90, main_v91, main_v92, main_v93, main_v94, main_c_21, main_v95,
    main_v96, main_c_22, main_v97, main_v98, main_v99, main_v100, main_v101, main_c_23,
    main_v102, main_v103, main_c_24, main_v104, main_v105, main_v106, main_v107, main_v108,
    main_c_25, main_v109, main_v110, main_c_26, main_v111, main_v112, main_v113, main_v114,
    main_v115, main_c_27 ]
set_option maxHeartbeats 40000000 in
theorem writes0 : Line.Writes (hostOps0 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))))))))))))))))))

abbrev W1 : List (Ref sig .tc) :=
  [
    main_call0_v0, main_call0_v1, main_call0_v2, main_call0_v3, main_call0_v4, main_call0_v5, main_call0_v6, main_call0_v7,
    main_call0_v8, main_call0_c, main_call0_v9, main_call0_v10, main_call0_v11, main_call0_c_0, main_call0_v12, main_call0_v13,
    main_v116 ]
set_option maxHeartbeats 40000000 in
theorem writes1 : Line.Writes (hostOps0_1 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_28, main_v117, main_v118, main_c_29 ]
set_option maxHeartbeats 40000000 in
theorem writes2 : Line.Writes (hostOps0_2 (F := Ideal) : List (HloOp τ sig (Elt Ideal))) W2 :=
  .cons rfl (.cons rfl (.cons rfl (.cons rfl (.nil))))

abbrev W3 : List (Ref sig .tc) :=
  [
    main_call1_v0, main_call1_c, main_call1_v1, main_call1_c_0, main_call1_v2, main_call1_v3, main_call1_v4, main_call1_c_1,
    main_call1_v5, main_call1_v6, main_call1_c_2, main_call1_v7, main_call1_v8, main_call1_c_3, main_call1_v9, main_call1_v10,
    main_call1_v11, main_call1_v12, main_call1_v13, main_call1_v14, main_v119 ]
set_option maxHeartbeats 40000000 in
theorem writes3 : Line.Writes (hostOps0_3 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_30, main_v120, main_v121, main_v122, main_v123, main_v124, main_v125, main_v126,
    main_v127, main_v128, main_v129, main_cst_31, main_v130, main_v131, main_cst_32, main_v132,
    main_v133, main_cst_33, main_v134, main_v135, main_v136, main_v137, main_cst_34, main_v138,
    main_v139, main_v140, main_v141, main_v142, main_v143, main_v144, main_v145, main_v146,
    main_v147, main_v148, main_v149, main_v150, main_cst_35, main_v151, main_v152, main_cst_36,
    main_v153, main_v154, main_v155, main_v156, main_v157, main_v158, main_v159, main_cst_37,
    main_v160, main_v161, main_cst_38, main_v162, main_v163, main_v164, main_v165, main_c_39,
    main_v166, main_v167, main_c_40, main_v168, main_v169, main_v170, main_v171, main_v172,
    main_c_41, main_v173, main_v174, main_c_42, main_v175, main_v176, main_v177, main_v178,
    main_v179, main_v180, main_c_43, main_v181, main_v182, main_v183, main_v184, main_v185,
    main_v186, main_v187, main_v188, main_c_44, main_v189, main_v190, main_c_45, main_v191,
    main_v192, main_v193, main_v194, main_v195, main_v196, main_c_46, main_v197, main_v198,
    main_v199, main_v200, main_v201, main_v202, main_v203, main_v204, main_c_47, main_v205,
    main_v206, main_c_48, main_v207, main_v208, main_v209, main_v210, main_v211, main_c_49,
    main_v212, main_v213, main_c_50, main_v214, main_v215, main_v216, main_v217, main_v218,
    main_c_51, main_v219, main_v220, main_c_52, main_v221, main_v222, main_v223, main_v224,
    main_v225, main_c_53 ]
set_option maxHeartbeats 40000000 in
theorem writes4 : Line.Writes (hostOps0_4 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S65536 ((StableHlo.after (hostOps0_4 (F := Ideal)) Win) (Proc.devRef .tc main_v122))
      = addi (ibuf S65536 ((StableHlo.after (hostOps0_4 (F := Ideal)) Win) (Proc.devRef .tc main_v118)))
          (subi (ibuf S65536 ((StableHlo.after (hostOps0_4 (F := Ideal)) Win) (Proc.devRef .tc main_v119))) (broadcastInDim S65536 ![] bcast_S_S65536 (constantI S_ 32 1023#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 32768) (n : Fin 768) :
    fbuf S32768x768 ((StableHlo.after (hostOps0_4 (F := Ideal)) Win) (Proc.devRef .tc main_v145)) (ix2 i n)
      = (fbuf S32768x768 ((StableHlo.after (hostOps0_4 (F := Ideal)) Win) (Proc.devRef .tc main_v85)) (ix2 i n)
          + ∑ k : Fin 256, fbuf S32768x256 ((StableHlo.after (hostOps0_4 (F := Ideal)) Win) (Proc.devRef .tc main_v136)) (ix2 i k) * fbuf S768x256 ((StableHlo.after (hostOps0_4 (F := Ideal)) Win) (Proc.devRef .tc main_arg4)) (ix2 n k))
        + fbuf S1x768 ((StableHlo.after (hostOps0_4 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S32768x256_S256x768_S32768x768_1_0_0_1_n_n rfl, bcast_row_apply]

/-- The new cell state. -/
theorem s4_hc (i : Fin 32768) (j : Fin 256) :
    fbuf S32768x256 ((StableHlo.after (hostOps0_4 (F := Ideal)) Win) (Proc.devRef .tc main_v157)) (ix2 i j)
      = Ideal.logistic (fbuf S32768x768 ((StableHlo.after (hostOps0_4 (F := Ideal)) Win) (Proc.devRef .tc main_v145)) (ix2 i (c0 j)))
          * Ideal.tanh (fbuf S32768x768 ((StableHlo.after (hostOps0_4 (F := Ideal)) Win) (Proc.devRef .tc main_v145)) (ix2 i (c2 j)))
        + fbuf S32768x256 ((StableHlo.after (hostOps0_4 (F := Ideal)) Win) (Proc.devRef .tc main_v140)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 32768) (j : Fin 256) :
    fbuf S32768x256 ((StableHlo.after (hostOps0_4 (F := Ideal)) Win) (Proc.devRef .tc main_v165)) (ix2 i j)
      = Ideal.logistic (fbuf S32768x768 ((StableHlo.after (hostOps0_4 (F := Ideal)) Win) (Proc.devRef .tc main_v145)) (ix2 i (c1 j)))
          * Ideal.tanh (fbuf S32768x256 ((StableHlo.after (hostOps0_4 (F := Ideal)) Win) (Proc.devRef .tc main_v157)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 65536) (j : Fin 256) :
    fbuf S65536x256 ((StableHlo.after (hostOps0_4 (F := Ideal)) Win) (Proc.devRef .tc main_v133)) (ix2 k j)
      = Ideal.logistic ((∑ k' : Fin 256, fbuf S65536x256 ((StableHlo.after (hostOps0_4 (F := Ideal)) Win) (Proc.devRef .tc main_v101)) (ix2 k k') * fbuf S256x256 ((StableHlo.after (hostOps0_4 (F := Ideal)) Win) (Proc.devRef .tc main_arg6)) (ix2 j k'))
          + fbuf S256 ((StableHlo.after (hostOps0_4 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S65536x256_S256x256_S65536x256_1_0_0_1_n_n rfl,
    bcast_vec_rows_apply]

/-- The children's hidden rows summed per parent slot. -/
theorem s4_hht (i : Fin 32768) (j : Fin 256) :
    fbuf S32768x256 ((StableHlo.after (hostOps0_4 (F := Ideal)) Win) (Proc.devRef .tc main_v136)) (ix2 i j)
      = ∑ k ∈ kids (fun k : Fin 65536 => rowTarget 32768 (ibuf S65536 ((StableHlo.after (hostOps0_4 (F := Ideal)) Win) (Proc.devRef .tc main_v122)) (ix1 k))) i, fbuf S65536x256 ((StableHlo.after (hostOps0_4 (F := Ideal)) Win) (Proc.devRef .tc main_v101)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S32768x256_S65536x1_S65536x256_1_0_0_1 ⟨rfl, rfl, rfl, rfl⟩ _ _ _ _ i j

/-- The children's gated cell rows summed per parent slot. -/
theorem s4_hca (i : Fin 32768) (j : Fin 256) :
    fbuf S32768x256 ((StableHlo.after (hostOps0_4 (F := Ideal)) Win) (Proc.devRef .tc main_v140)) (ix2 i j)
      = ∑ k ∈ kids (fun k : Fin 65536 => rowTarget 32768 (ibuf S65536 ((StableHlo.after (hostOps0_4 (F := Ideal)) Win) (Proc.devRef .tc main_v122)) (ix1 k))) i,
          fbuf S65536x256 ((StableHlo.after (hostOps0_4 (F := Ideal)) Win) (Proc.devRef .tc main_v133)) (ix2 k j) * fbuf S65536x256 ((StableHlo.after (hostOps0_4 (F := Ideal)) Win) (Proc.devRef .tc main_v108)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S32768x256_S65536x1_S65536x256_1_0_0_1 ⟨rfl, rfl, rfl, rfl⟩]
  exact Finset.sum_congr rfl fun k _ => rfl

/-- The new hidden rows are in place at the level's nodes of the whole-forest array. -/
theorem s4_scatter_h
    (hcol : ∀ i : Fin 32768, ibuf S32768x1 ((StableHlo.after (hostOps0_4 (F := Ideal)) Win) (Proc.devRef .tc main_v171)) (ix2 i 0) = nodeWord 1024 1023 i.val)
    (k : Fin 32768) (j : Fin 256) :
    fbuf S131040x256 ((StableHlo.after (hostOps0_4 (F := Ideal)) Win) (Proc.devRef .tc main_v172)) (ix2 (node 1024 1023 32768 rfl (by omega) k) j) = fbuf S32768x256 ((StableHlo.after (hostOps0_4 (F := Ideal)) Win) (Proc.devRef .tc main_v165)) (ix2 k j) := by
  simp only [fbuf, ibuf] at hcol ⊢
  have e_v172 := Line.ternary_at writes4 63 Win (hop := rfl) (by decide) (by decide) (by decide) (by decide)
  rw [e_v172]
  exact scatter_rows_hit scatter_S131040x256_S32768x1_S32768x256_1_0_0_1 ⟨rfl, rfl, rfl, rfl⟩ _ _ _
    (fun a b r h h' => rowTarget_nodeWord_injective (nd := 1024) (start := 1023) rfl (by omega) a b r
      (by rw [← hcol a]; exact h) (by rw [← hcol b]; exact h'))
    k _ (by rw [hcol]; exact rowTarget_nodeWord (nd := 1024) (start := 1023) rfl (by omega) k) j

/-- The new cell rows are in place at the level's nodes of the whole-forest array. -/
theorem s4_scatter_c
    (hcol : ∀ i : Fin 32768, ibuf S32768x1 ((StableHlo.after (hostOps0_4 (F := Ideal)) Win) (Proc.devRef .tc main_v178)) (ix2 i 0) = nodeWord 1024 1023 i.val)
    (k : Fin 32768) (j : Fin 256) :
    fbuf S131040x256 ((StableHlo.after (hostOps0_4 (F := Ideal)) Win) (Proc.devRef .tc main_v179)) (ix2 (node 1024 1023 32768 rfl (by omega) k) j) = fbuf S32768x256 ((StableHlo.after (hostOps0_4 (F := Ideal)) Win) (Proc.devRef .tc main_v157)) (ix2 k j) := by
  simp only [fbuf, ibuf] at hcol ⊢
  have e_v179 := Line.ternary_at writes4 72 Win (hop := rfl) (by decide) (by decide) (by decide) (by decide)
  rw [e_v179]
  exact scatter_rows_hit scatter_S131040x256_S32768x1_S32768x256_1_0_0_1 ⟨rfl, rfl, rfl, rfl⟩ _ _ _
    (fun a b r h h' => rowTarget_nodeWord_injective (nd := 1024) (start := 1023) rfl (by omega) a b r
      (by rw [← hcol a]; exact h) (by rw [← hcol b]; exact h'))
    k _ (by rw [hcol]; exact rowTarget_nodeWord (nd := 1024) (start := 1023) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 32768, ibuf S32768x1 ((StableHlo.after (hostOps0 (F := Ideal)) Win) (Proc.devRef .tc main_v84)) (ix2 k 0) = nodeWord 1024 1023 k.val)
    (k : Fin 32768) (j : Fin 768) :
    fbuf S32768x768 ((StableHlo.after (hostOps0 (F := Ideal)) Win) (Proc.devRef .tc main_v85)) (ix2 k j) = fbuf S131040x768 ((StableHlo.after (hostOps0 (F := Ideal)) Win) (Proc.devRef .tc main_v11)) (ix2 (node 1024 1023 32768 rfl (by omega) k) j) := by
  simp only [fbuf, ibuf] at hcol ⊢
  have e_v85 := Line.binary_at writes0 107 Win (hop := rfl) (by decide) (by decide) (by decide)
  rw [e_v85]
  rw [gather_rows_apply gather_S131040x768_S32768x1_S32768x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 65536, ibuf S65536x1 ((StableHlo.after (hostOps0 (F := Ideal)) Win) (Proc.devRef .tc main_v100)) (ix2 k 0) = nodeWord 2048 2047 k.val)
    (k : Fin 65536) (j : Fin 256) :
    fbuf S65536x256 ((StableHlo.after (hostOps0 (F := Ideal)) Win) (Proc.devRef .tc main_v101)) (ix2 k j) = fbuf S131040x256 ((StableHlo.after (hostOps0 (F := Ideal)) Win) (Proc.devRef .tc main_v62)) (ix2 (node 2048 2047 65536 rfl (by omega) k) j) := by
  simp only [fbuf, ibuf] at hcol ⊢
  have e_v101 := Line.binary_at writes0 126 Win (hop := rfl) (by decide) (by decide) (by decide)
  rw [e_v101]
  rw [gather_rows_apply gather_S131040x256_S65536x1_S65536x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 65536, ibuf S65536x1 ((StableHlo.after (hostOps0 (F := Ideal)) Win) (Proc.devRef .tc main_v107)) (ix2 k 0) = nodeWord 2048 2047 k.val)
    (k : Fin 65536) (j : Fin 256) :
    fbuf S65536x256 ((StableHlo.after (hostOps0 (F := Ideal)) Win) (Proc.devRef .tc main_v108)) (ix2 k j) = fbuf S131040x256 ((StableHlo.after (hostOps0 (F := Ideal)) Win) (Proc.devRef .tc main_v69)) (ix2 (node 2048 2047 65536 rfl (by omega) k) j) := by
  simp only [fbuf, ibuf] at hcol ⊢
  have e_v108 := Line.binary_at writes0 135 Win (hop := rfl) (by decide) (by decide) (by decide)
  rw [e_v108]
  rw [gather_rows_apply gather_S131040x256_S65536x1_S65536x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 65536, ibuf S65536x1 ((StableHlo.after (hostOps0 (F := Ideal)) Win) (Proc.devRef .tc main_v114)) (ix2 k 0) = nodeWord 2048 2047 k.val)
    (k : Fin 65536) :
    ibuf S65536 ((StableHlo.after (hostOps0 (F := Ideal)) Win) (Proc.devRef .tc main_v115)) (ix1 k) = ibuf S131040 ((StableHlo.after (hostOps0 (F := Ideal)) Win) (Proc.devRef .tc main_arg1)) (ix1 (node 2048 2047 65536 rfl (by omega) k)) := by
  simp only [fbuf, ibuf] at hcol ⊢
  have e_v115 := Line.binary_at writes0 144 Win (hop := rfl) (by decide) (by decide) (by decide)
  rw [e_v115]
  rw [gather_vec_apply gather_S131040_S65536x1_S65536_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0 (F := Ideal)) Win) (Proc.devRef .tc main_c_27)) = constantI S_ 32 4095#32 :=
  Line.nullary_at writes0 145 Win (hop := rfl) (by decide)

end Stretch0

/-! ## The routing word's two called functions, in the reference's host operations -/

/-- The reference's floor division of a vector of words by a scalar word: the truncated quotient, one less where the
    signs differ and the remainder is not zero. -/
def fdivF (p : IVec S65536 32) (c : IVec S_ 32) : IVec S65536 32 :=
  select (andi (cmpi .ne (signi p) (broadcastInDim S65536 ![] bcast_S_S65536 (signi c))) (cmpi .ne (Host.remsi p (broadcastInDim S65536 ![] bcast_S_S65536 c)) (broadcastInDim S65536 ![] bcast_S_S65536 (constantI S_ 32 0#32))))
    (subi (Host.divsi p (broadcastInDim S65536 ![] bcast_S_S65536 c)) (broadcastInDim S65536 ![] bcast_S_S65536 (constantI S_ 32 1#32))) (Host.divsi p (broadcastInDim S65536 ![] bcast_S_S65536 c))

/-- The reference's remainder of a vector of words by a scalar word (a zero divisor replaced by one): the truncated
    remainder, the divisor added where its sign differs from the divisor's and it is not zero. -/
def remF (p : IVec S65536 32) (c : IVec S_ 32) : IVec S65536 32 :=
  select (andi (cmpi .ne (cmpi .slt (Host.remsi p (broadcastInDim S65536 ![] bcast_S_S65536 (select (cmpi .eq c (constantI S_ 32 0#32)) (constantI S_ 32 1#32) c))) (broadcastInDim S65536 ![] bcast_S_S65536 (constantI S_ 32 0#32))) (broadcastInDim S65536 ![] bcast_S_S65536 (cmpi .slt (select (cmpi .eq c (constantI S_ 32 0#32)) (constantI S_ 32 1#32) c) (constantI S_ 32 0#32)))) (cmpi .ne (Host.remsi p (broadcastInDim S65536 ![] bcast_S_S65536 (select (cmpi .eq c (constantI S_ 32 0#32)) (constantI S_ 32 1#32) c))) (broadcastInDim S65536 ![] bcast_S_S65536 (constantI S_ 32 0#32))))
    (addi (Host.remsi p (broadcastInDim S65536 ![] bcast_S_S65536 (select (cmpi .eq c (constantI S_ 32 0#32)) (constantI S_ 32 1#32) c))) (broadcastInDim S65536 ![] bcast_S_S65536 (select (cmpi .eq c (constantI S_ 32 0#32)) (constantI S_ 32 1#32) c))) (Host.remsi p (broadcastInDim S65536 ![] bcast_S_S65536 (select (cmpi .eq c (constantI S_ 32 0#32)) (constantI S_ 32 1#32) c)))

/-- The routing word of a child from its parent word `p`: `(p // 4095) * 1024 + (p % 4095 - 1023)`. -/
def segFun (p : IVec S65536 32) : IVec S65536 32 :=
  addi (muli (fdivF p (constantI S_ 32 4095#32)) (broadcastInDim S65536 ![] bcast_S_S65536 (constantI S_ 32 1024#32))) (subi (remF p (constantI S_ 32 4095#32)) (broadcastInDim S65536 ![] bcast_S_S65536 (constantI S_ 32 1023#32)))

section Stretch123

variable (Win : Valuation τ sig (Elt Ideal))

set_option maxHeartbeats 4000000 in
/-- The quotient part. -/
theorem s1_v116 :
    ibuf S65536 ((StableHlo.after (hostOps0_1 (F := Ideal)) Win) (Proc.devRef .tc main_v116)) = fdivF (ibuf S65536 (Win (Proc.devRef .tc main_v115))) (ibuf S_ (Win (Proc.devRef .tc main_c_27))) := by
  unfold fdivF
  after_results_simp
  <;> (try simp only [TRef.ofBuf, TRef.toBuf, cast_eq]) <;> rfl

/-- The quotient part times the level's nodes per graph. -/
theorem s2_v118 :
    ibuf S65536 ((StableHlo.after (hostOps0_2 (F := Ideal)) Win) (Proc.devRef .tc main_v118)) = muli (ibuf S65536 (Win (Proc.devRef .tc main_v116))) (broadcastInDim S65536 ![] bcast_S_S65536 (constantI S_ 32 1024#32)) := by
  after_results_simp
  <;> rfl

/-- The divisor the remainder part is taken by. -/
theorem s2_c29 : ibuf S_ ((StableHlo.after (hostOps0_2 (F := Ideal)) Win) (Proc.devRef .tc main_c_29)) = constantI S_ 32 4095#32 := by
  after_results_simp
  <;> rfl

set_option maxHeartbeats 4000000 in
/-- The remainder part. -/
theorem s3_v119 :
    ibuf S65536 ((StableHlo.after (hostOps0_3 (F := Ideal)) Win) (Proc.devRef .tc main_v119)) = remF (ibuf S65536 (Win (Proc.devRef .tc main_v115))) (ibuf S_ (Win (Proc.devRef .tc main_c_29))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0 (F := Ideal)) V0
local notation "V2" => StableHlo.after (hostOps0_1 (F := Ideal)) V1
local notation "V3" => StableHlo.after (hostOps0_2 (F := Ideal)) V2
local notation "V4" => StableHlo.after (hostOps0_3 (F := Ideal)) V3
local notation "V5" => StableHlo.after (hostOps0_4 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S65536 (V5 (Proc.devRef .tc main_v122)) = segFun (ibuf S65536 (V1 (Proc.devRef .tc main_v115))) := by
  rw [s4_seg V4, Line.keep writes4 V4 (r := main_v118) (by decide), Line.keep writes3 V3 (r := main_v118) (by decide),
    s2_v118 V2, s1_v116 V1, s0_c27 V0, Line.keep writes4 V4 (r := main_v119) (by decide), s3_v119 V3,
    Line.keep writes2 V2 (r := main_v115) (by decide), Line.keep writes1 V1 (r := main_v115) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 32768, ibuf S32768x1 (V1 (Proc.devRef .tc main_v84)) (ix2 i 0) = nodeWord 1024 1023 i.val)
    (h100 : ∀ k : Fin 65536, ibuf S65536x1 (V1 (Proc.devRef .tc main_v100)) (ix2 k 0) = nodeWord 2048 2047 k.val)
    (h107 : ∀ k : Fin 65536, ibuf S65536x1 (V1 (Proc.devRef .tc main_v107)) (ix2 k 0) = nodeWord 2048 2047 k.val)
    (h114 : ∀ k : Fin 65536, ibuf S65536x1 (V1 (Proc.devRef .tc main_v114)) (ix2 k 0) = nodeWord 2048 2047 k.val)
    (h78 : ∀ i : Fin 32768, ibuf S32768 (V1 (Proc.devRef .tc main_v78)) (ix1 i) = nodeWord 1024 1023 i.val)
    (h171 : (∀ i : Fin 32768, ibuf S32768 (V4 (Proc.devRef .tc main_v78)) (ix1 i) = nodeWord 1024 1023 i.val) →
      ∀ i : Fin 32768, ibuf S32768x1 (V5 (Proc.devRef .tc main_v171)) (ix2 i 0) = nodeWord 1024 1023 i.val)
    (h178 : (∀ i : Fin 32768, ibuf S32768 (V4 (Proc.devRef .tc main_v78)) (ix1 i) = nodeWord 1024 1023 i.val) →
      ∀ i : Fin 32768, ibuf S32768x1 (V5 (Proc.devRef .tc main_v178)) (ix2 i 0) = nodeWord 1024 1023 i.val) :
    Chain.RLevel 1024 1023 2048 2047 rfl (by omega) rfl (by omega) w G (ibuf S131040 (V0 (Proc.devRef .tc main_arg1))) segFun
      (fbuf S131040x256 (V1 (Proc.devRef .tc main_v62))) (fbuf S131040x256 (V1 (Proc.devRef .tc main_v69)))
      (fbuf S131040x256 (V5 (Proc.devRef .tc main_v172))) (fbuf S131040x256 (V5 (Proc.devRef .tc main_v179))) := by
  have h78' : ∀ i : Fin 32768, ibuf S32768 (V4 (Proc.devRef .tc main_v78)) (ix1 i) = nodeWord 1024 1023 i.val := fun i => by
    rw [Line.keep writes3 V3 (r := main_v78) (by decide), Line.keep writes2 V2 (r := main_v78) (by decide),
      Line.keep writes1 V1 (r := main_v78) (by decide)]
    exact h78 i
  refine ⟨fbuf S131040x768 (V1 (Proc.devRef .tc main_v11)), fbuf S65536x256 (V1 (Proc.devRef .tc main_v101)), fbuf S65536x256 (V1 (Proc.devRef .tc main_v108)),
    fbuf S65536x256 (V5 (Proc.devRef .tc main_v133)), ibuf S65536 (V1 (Proc.devRef .tc main_v115)), ibuf S65536 (V5 (Proc.devRef .tc main_v122)),
    fbuf S32768x768 (V1 (Proc.devRef .tc main_v85)), fbuf S32768x768 (V5 (Proc.devRef .tc main_v145)), fbuf S32768x256 (V5 (Proc.devRef .tc main_v136)),
    fbuf S32768x256 (V5 (Proc.devRef .tc main_v140)), fbuf S32768x256 (V5 (Proc.devRef .tc main_v157)), fbuf S32768x256 (V5 (Proc.devRef .tc main_v165)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v101) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v101) (by decide) (by decide) (by decide) (by decide)] at h
    exact h
  · intro i j
    have h := s4_hca V4 i j
    rw [keep51 V0 (r := main_v108) (by decide) (by decide) (by decide) (by decide)] at h
    exact h
  · intro i n
    have h := s4_hz V4 i n
    rw [keep51 V0 (r := main_v85) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl10

end
-- ==== Proof.RIdx4.lean ====
/-
  The reference's index vectors in the stretch of host operations that ends the level with 1024 nodes per graph and
  begins the level with 512, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS0
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W4 : List (Ref sig .tc) :=
  [main_c_30, main_v120, main_v121, main_v122, main_v123, main_v124, main_v125, main_v126,
    main_v127, main_v128, main_v129, main_cst_31, main_v130, main_v131, main_cst_32, main_v132,
    main_v133, main_cst_33, main_v134, main_v135, main_v136, main_v137, main_cst_34, main_v138,
    main_v139, main_v140, main_v141, main_v142, main_v143, main_v144, main_v145, main_v146,
    main_v147, main_v148, main_v149, main_v150, main_cst_35, main_v151, main_v152, main_cst_36,
    main_v153, main_v154, main_v155, main_v156, main_v157, main_v158, main_v159, main_cst_37,
    main_v160, main_v161, main_cst_38, main_v162, main_v163, main_v164, main_v165, main_c_39,
    main_v166, main_v167, main_c_40, main_v168, main_v169, main_v170, main_v171, main_v172,
    main_c_41, main_v173, main_v174, main_c_42, main_v175, main_v176, main_v177, main_v178,
    main_v179, main_v180, main_c_43, main_v181, main_v182, main_v183, main_v184, main_v185,
    main_v186, main_v187, main_v188, main_c_44, main_v189, main_v190, main_c_45, main_v191,
    main_v192, main_v193, main_v194, main_v195, main_v196, main_c_46, main_v197, main_v198,
    main_v199, main_v200, main_v201, main_v202, main_v203, main_v204, main_c_47, main_v205,
    main_v206, main_c_48, main_v207, main_v208, main_v209, main_v210, main_v211, main_c_49,
    main_v212, main_v213, main_c_50, main_v214, main_v215, main_v216, main_v217, main_v218,
    main_c_51, main_v219, main_v220, main_c_52, main_v221, main_v222, main_v223, main_v224,
    main_v225, main_c_53 ]

set_option maxHeartbeats 4000000 in
theorem writes4 : Writes (hostOps0_4 : List (HloOp τ sig (Elt F))) W4 := by
  repeat (first | exact .nil | refine .cons rfl ?_)

variable (Win : Valuation τ sig (Elt F))

/-! ### The ending level: 1024 nodes per graph from offset 1023 -/

theorem s4_v171 (hids : ∀ i : Fin 32768, Win (Proc.devRef .tc main_v78) (ix1 i) = nodeWord 1024 1023 i.val) (i : Fin 32768) :
    after hostOps0_4 Win (Proc.devRef .tc main_v171) (ix2 i 0) = nodeWord 1024 1023 i.val := by
  normCol_eqs writes4 55
  rw [keep writes4 Win (r := main_v78) (by decide)]
  exact normCol_nodeWord (nd := 1024) rfl (by omega) _ _ _ _ _ i (hids i)

theorem s4_v178 (hids : ∀ i : Fin 32768, Win (Proc.devRef .tc main_v78) (ix1 i) = nodeWord 1024 1023 i.val) (i : Fin 32768) :
    after hostOps0_4 Win (Proc.devRef .tc main_v178) (ix2 i 0) = nodeWord 1024 1023 i.val := by
  normCol_eqs writes4 64
  rw [keep writes4 Win (r := main_v78) (by decide)]
  exact normCol_nodeWord (nd := 1024) rfl (by omega) _ _ _ _ _ i (hids i)

/-! ### The beginning level: 512 nodes per graph from offset 511, its children the ending level's nodes -/

theorem s4_v188 (h16 : ∀ b : Fin 32, Win (Proc.devRef .tc main_v16) (ix1 b) = BitVec.ofNat 32 b.val * 4095#32) (i : Fin 16384) :
    after hostOps0_4 Win (Proc.devRef .tc main_v188) (ix1 i) = nodeWord 512 511 i.val := by
  nids_eqs writes4 73
  rw [keep writes4 Win (r := main_v16) (by decide)]
  exact nids_apply (nd := 512) rfl 511 _ h16 _ _ _ _ _ _ i

theorem s4_v194 (h16 : ∀ b : Fin 32, Win (Proc.devRef .tc main_v16) (ix1 b) = BitVec.ofNat 32 b.val * 4095#32) (i : Fin 16384) :
    after hostOps0_4 Win (Proc.devRef .tc main_v194) (ix2 i 0) = nodeWord 512 511 i.val := by
  normCol_eqs writes4 83
  exact normCol_nodeWord (nd := 512) rfl (by omega) _ _ _ _ _ i (s4_v188 Win h16 i)

theorem s4_v204 (h16 : ∀ b : Fin 32, Win (Proc.devRef .tc main_v16) (ix1 b) = BitVec.ofNat 32 b.val * 4095#32) (i : Fin 32768) :
    after hostOps0_4 Win (Proc.devRef .tc main_v204) (ix1 i) = nodeWord 1024 1023 i.val := by
  nids_eqs writes4 92
  rw [keep writes4 Win (r := main_v16) (by decide)]
  exact nids_apply (nd := 1024) rfl 1023 _ h16 _ _ _ _ _ _ i

theorem s4_v210 (h16 : ∀ b : Fin 32, Win (Proc.devRef .tc main_v16) (ix1 b) = BitVec.ofNat 32 b.val * 4095#32) (i : Fin 32768) :
    after hostOps0_4 Win (Proc.devRef .tc main_v210) (ix2 i 0) = nodeWord 1024 1023 i.val := by
  normCol_eqs writes4 102
  exact normCol_nodeWord (nd := 1024) rfl (by omega) _ _ _ _ _ i (s4_v204 Win h16 i)

theorem s4_v217 (h16 : ∀ b : Fin 32, Win (Proc.devRef .tc main_v16) (ix1 b) = BitVec.ofNat 32 b.val * 4095#32) (i : Fin 32768) :
    after hostOps0_4 Win (Proc.devRef .tc main_v217) (ix2 i 0) = nodeWord 1024 1023 i.val := by
  normCol_eqs writes4 111
  exact normCol_nodeWord (nd := 1024) rfl (by omega) _ _ _ _ _ i (s4_v204 Win h16 i)

theorem s4_v224 (h16 : ∀ b : Fin 32, Win (Proc.devRef .tc main_v16) (ix1 b) = BitVec.ofNat 32 b.val * 4095#32) (i : Fin 32768) :
    after hostOps0_4 Win (Proc.devRef .tc main_v224) (ix2 i 0) = nodeWord 1024 1023 i.val := by
  normCol_eqs writes4 120
  exact normCol_nodeWord (nd := 1024) rfl (by omega) _ _ _ _ _ i (s4_v204 Win h16 i)

end Cert.ReferenceIdeal.Idx

end
-- ==== Proof.BridgeRL10.lean ====
/-
  Level 10 of the reference's side of the chain: the level's stretches run from the launch contents, so the weights,
  the parent words and the token rows' product with the input weights are read where the launch and the first
  stretch leave them, and every index column is the node word of its slot.
-/
import proofs.«419362_j66683662237734_3_alg».proof.Proof.BridgeRWrap
import proofs.«419362_j66683662237734_3_alg».proof.Proof.RLvl10
import proofs.«419362_j66683662237734_3_alg».proof.Proof.RIdx0
import proofs.«419362_j66683662237734_3_alg».proof.Proof.RIdx4

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 10, from the deepest level's arrays to its own. -/
theorem rlevel10 : Chain.RLevel 1024 1023 2048 2047 (rfl : 32768 = 32 * 1024) (by omega) (rfl : 65536 = 32 * 2048) (by omega)
    (wR m' c) (GR m' c) (parR m' c) Lvl10.segFun (harr11 m' c) (carr11 m' c) (harr10 m' c) (carr10 m' c) := by
  have h := Lvl10.rlevel (R0 m' c) (wR m' c) (GR m' c)
    (hU_of m' c (X := R0 m' c (Proc.devRef .tc main_arg4)) rfl) (hbI_of m' c (X := R0 m' c (Proc.devRef .tc main_arg5)) rfl)
    (hUf_of m' c (X := R0 m' c (Proc.devRef .tc main_arg6)) rfl) (hbF_of m' c (X := R0 m' c (Proc.devRef .tc main_arg7)) rfl)
    (iou_of m' c (X := StableHlo.after hostOps0 (R0 m' c) (Proc.devRef .tc main_v11)) rfl)
    (fun i => col_in (Idx.s0_v84 (R0 m' c) i)) (fun k => col_in (Idx.s0_v100 (R0 m' c) k))
    (fun k => col_in (Idx.s0_v107 (R0 m' c) k)) (fun k => col_in (Idx.s0_v114 (R0 m' c) k))
    (fun i => col_in (Idx.s0_v78 (R0 m' c) i))
    (fun hids i => col_in (Idx.s4_v171 (R4 m' c) (fun i' => col_out (hids i')) i))
    (fun hids i => col_in (Idx.s4_v178 (R4 m' c) (fun i' => col_out (hids i')) i))
  rw [par_of m' c (X := R0 m' c (Proc.devRef .tc main_arg1)) rfl, fbuf_id, fbuf_id, fbuf_id, fbuf_id] at h
  exact h

end Cert.BridgeR

end
-- ==== Proof.RLvl9.lean ====
/-
  One level of the reference's tree recurrence, the level of 16384 nodes with 32768 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS0
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl9

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_30, main_v120, main_v121, main_v122, main_v123, main_v124, main_v125, main_v126,
    main_v127, main_v128, main_v129, main_cst_31, main_v130, main_v131, main_cst_32, main_v132,
    main_v133, main_cst_33, main_v134, main_v135, main_v136, main_v137, main_cst_34, main_v138,
    main_v139, main_v140, main_v141, main_v142, main_v143, main_v144, main_v145, main_v146,
    main_v147, main_v148, main_v149, main_v150, main_cst_35, main_v151, main_v152, main_cst_36,
    main_v153, main_v154, main_v155, main_v156, main_v157, main_v158, main_v159, main_cst_37,
    main_v160, main_v161, main_cst_38, main_v162, main_v163, main_v164, main_v165, main_c_39,
    main_v166, main_v167, main_c_40, main_v168, main_v169, main_v170, main_v171, main_v172,
    main_c_41, main_v173, main_v174, main_c_42, main_v175, main_v176, main_v177, main_v178,
    main_v179, main_v180, main_c_43, main_v181, main_v182, main_v183, main_v184, main_v185,
    main_v186, main_v187, main_v188, main_c_44, main_v189, main_v190, main_c_45, main_v191,
    main_v192, main_v193, main_v194, main_v195, main_v196, main_c_46, main_v197, main_v198,
    main_v199, main_v200, main_v201, main_v202, main_v203, main_v204, main_c_47, main_v205,
    main_v206, main_c_48, main_v207, main_v208, main_v209, main_v210, main_v211, main_c_49,
    main_v212, main_v213, main_c_50, main_v214, main_v215, main_v216, main_v217, main_v218,
    main_c_51, main_v219, main_v220, main_c_52, main_v221, main_v222, main_v223, main_v224,
    main_v225, main_c_53 ]
set_option maxHeartbeats 40000000 in
theorem writes0 : Line.Writes (hostOps0_4 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call2_v0, main_call2_v1, main_call2_v2, main_call2_v3, main_call2_v4, main_call2_v5, main_call2_v6, main_call2_v7,
    main_call2_v8, main_call2_c, main_call2_v9, main_call2_v10, main_call2_v11, main_call2_c_0, main_call2_v12, main_call2_v13,
    main_v226 ]
set_option maxHeartbeats 40000000 in
theorem writes1 : Line.Writes (hostOps0_5 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_54, main_v227, main_v228, main_c_55 ]
set_option maxHeartbeats 40000000 in
theorem writes2 : Line.Writes (hostOps0_6 (F := Ideal) : List (HloOp τ sig (Elt Ideal))) W2 :=
  .cons rfl (.cons rfl (.cons rfl (.cons rfl (.nil))))

abbrev W3 : List (Ref sig .tc) :=
  [
    main_call3_v0, main_call3_c, main_call3_v1, main_call3_c_0, main_call3_v2, main_call3_v3, main_call3_v4, main_call3_c_1,
    main_call3_v5, main_call3_v6, main_call3_c_2, main_call3_v7, main_call3_v8, main_call3_c_3, main_call3_v9, main_call3_v10,
    main_call3_v11, main_call3_v12, main_call3_v13, main_call3_v14, main_v229 ]
set_option maxHeartbeats 40000000 in
theorem writes3 : Line.Writes (hostOps0_7 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_56, main_v230, main_v231, main_v232, main_v233, main_v234, main_v235, main_v236,
    main_v237, main_v238, main_v239, main_cst_57, main_v240, main_v241, main_cst_58, main_v242,
    main_v243, main_cst_59, main_v244, main_v245, main_v246, main_v247, main_cst_60, main_v248,
    main_v249, main_v250, main_v251, main_v252, main_v253, main_v254, main_v255, main_v256,
    main_v257, main_v258, main_v259, main_v260, main_cst_61, main_v261, main_v262, main_cst_62,
    main_v263, main_v264, main_v265, main_v266, main_v267, main_v268, main_v269, main_cst_63,
    main_v270, main_v271, main_cst_64, main_v272, main_v273, main_v274, main_v275, main_c_65,
    main_v276, main_v277, main_c_66, main_v278, main_v279, main_v280, main_v281, main_v282,
    main_c_67, main_v283, main_v284, main_c_68, main_v285, main_v286, main_v287, main_v288,
    main_v289, main_v290, main_c_69, main_v291, main_v292, main_v293, main_v294, main_v295,
    main_v296, main_v297, main_v298, main_c_70, main_v299, main_v300, main_c_71, main_v301,
    main_v302, main_v303, main_v304, main_v305, main_v306, main_c_72, main_v307, main_v308,
    main_v309, main_v310, main_v311, main_v312, main_v313, main_v314, main_c_73, main_v315,
    main_v316, main_c_74, main_v317, main_v318, main_v319, main_v320, main_v321, main_c_75,
    main_v322, main_v323, main_c_76, main_v324, main_v325, main_v326, main_v327, main_v328,
    main_c_77, main_v329, main_v330, main_c_78, main_v331, main_v332, main_v333, main_v334,
    main_v335, main_c_79 ]
set_option maxHeartbeats 40000000 in
theorem writes4 : Line.Writes (hostOps0_8 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S32768 ((StableHlo.after (hostOps0_8 (F := Ideal)) Win) (Proc.devRef .tc main_v232))
      = addi (ibuf S32768 ((StableHlo.after (hostOps0_8 (F := Ideal)) Win) (Proc.devRef .tc main_v228)))
          (subi (ibuf S32768 ((StableHlo.after (hostOps0_8 (F := Ideal)) Win) (Proc.devRef .tc main_v229))) (broadcastInDim S32768 ![] bcast_S_S32768 (constantI S_ 32 511#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 16384) (n : Fin 768) :
    fbuf S16384x768 ((StableHlo.after (hostOps0_8 (F := Ideal)) Win) (Proc.devRef .tc main_v255)) (ix2 i n)
      = (fbuf S16384x768 ((StableHlo.after (hostOps0_8 (F := Ideal)) Win) (Proc.devRef .tc main_v195)) (ix2 i n)
          + ∑ k : Fin 256, fbuf S16384x256 ((StableHlo.after (hostOps0_8 (F := Ideal)) Win) (Proc.devRef .tc main_v246)) (ix2 i k) * fbuf S768x256 ((StableHlo.after (hostOps0_8 (F := Ideal)) Win) (Proc.devRef .tc main_arg4)) (ix2 n k))
        + fbuf S1x768 ((StableHlo.after (hostOps0_8 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S16384x256_S256x768_S16384x768_1_0_0_1_n_n rfl, bcast_row_apply]

/-- The new cell state. -/
theorem s4_hc (i : Fin 16384) (j : Fin 256) :
    fbuf S16384x256 ((StableHlo.after (hostOps0_8 (F := Ideal)) Win) (Proc.devRef .tc main_v267)) (ix2 i j)
      = Ideal.logistic (fbuf S16384x768 ((StableHlo.after (hostOps0_8 (F := Ideal)) Win) (Proc.devRef .tc main_v255)) (ix2 i (c0 j)))
          * Ideal.tanh (fbuf S16384x768 ((StableHlo.after (hostOps0_8 (F := Ideal)) Win) (Proc.devRef .tc main_v255)) (ix2 i (c2 j)))
        + fbuf S16384x256 ((StableHlo.after (hostOps0_8 (F := Ideal)) Win) (Proc.devRef .tc main_v250)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 16384) (j : Fin 256) :
    fbuf S16384x256 ((StableHlo.after (hostOps0_8 (F := Ideal)) Win) (Proc.devRef .tc main_v275)) (ix2 i j)
      = Ideal.logistic (fbuf S16384x768 ((StableHlo.after (hostOps0_8 (F := Ideal)) Win) (Proc.devRef .tc main_v255)) (ix2 i (c1 j)))
          * Ideal.tanh (fbuf S16384x256 ((StableHlo.after (hostOps0_8 (F := Ideal)) Win) (Proc.devRef .tc main_v267)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 32768) (j : Fin 256) :
    fbuf S32768x256 ((StableHlo.after (hostOps0_8 (F := Ideal)) Win) (Proc.devRef .tc main_v243)) (ix2 k j)
      = Ideal.logistic ((∑ k' : Fin 256, fbuf S32768x256 ((StableHlo.after (hostOps0_8 (F := Ideal)) Win) (Proc.devRef .tc main_v211)) (ix2 k k') * fbuf S256x256 ((StableHlo.after (hostOps0_8 (F := Ideal)) Win) (Proc.devRef .tc main_arg6)) (ix2 j k'))
          + fbuf S256 ((StableHlo.after (hostOps0_8 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S32768x256_S256x256_S32768x256_1_0_0_1_n_n rfl,
    bcast_vec_rows_apply]

/-- The children's hidden rows summed per parent slot. -/
theorem s4_hht (i : Fin 16384) (j : Fin 256) :
    fbuf S16384x256 ((StableHlo.after (hostOps0_8 (F := Ideal)) Win) (Proc.devRef .tc main_v246)) (ix2 i j)
      = ∑ k ∈ kids (fun k : Fin 32768 => rowTarget 16384 (ibuf S32768 ((StableHlo.after (hostOps0_8 (F := Ideal)) Win) (Proc.devRef .tc main_v232)) (ix1 k))) i, fbuf S32768x256 ((StableHlo.after (hostOps0_8 (F := Ideal)) Win) (Proc.devRef .tc main_v211)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S16384x256_S32768x1_S32768x256_1_0_0_1 ⟨rfl, rfl, rfl, rfl⟩ _ _ _ _ i j

/-- The children's gated cell rows summed per parent slot. -/
theorem s4_hca (i : Fin 16384) (j : Fin 256) :
    fbuf S16384x256 ((StableHlo.after (hostOps0_8 (F := Ideal)) Win) (Proc.devRef .tc main_v250)) (ix2 i j)
      = ∑ k ∈ kids (fun k : Fin 32768 => rowTarget 16384 (ibuf S32768 ((StableHlo.after (hostOps0_8 (F := Ideal)) Win) (Proc.devRef .tc main_v232)) (ix1 k))) i,
          fbuf S32768x256 ((StableHlo.after (hostOps0_8 (F := Ideal)) Win) (Proc.devRef .tc main_v243)) (ix2 k j) * fbuf S32768x256 ((StableHlo.after (hostOps0_8 (F := Ideal)) Win) (Proc.devRef .tc main_v218)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S16384x256_S32768x1_S32768x256_1_0_0_1 ⟨rfl, rfl, rfl, rfl⟩]
  exact Finset.sum_congr rfl fun k _ => rfl

/-- The new hidden rows are in place at the level's nodes of the whole-forest array. -/
theorem s4_scatter_h
    (hcol : ∀ i : Fin 16384, ibuf S16384x1 ((StableHlo.after (hostOps0_8 (F := Ideal)) Win) (Proc.devRef .tc main_v281)) (ix2 i 0) = nodeWord 512 511 i.val)
    (k : Fin 16384) (j : Fin 256) :
    fbuf S131040x256 ((StableHlo.after (hostOps0_8 (F := Ideal)) Win) (Proc.devRef .tc main_v282)) (ix2 (node 512 511 16384 rfl (by omega) k) j) = fbuf S16384x256 ((StableHlo.after (hostOps0_8 (F := Ideal)) Win) (Proc.devRef .tc main_v275)) (ix2 k j) := by
  simp only [fbuf, ibuf] at hcol ⊢
  have e_v172 := Line.ternary_at writes4 63 Win (hop := rfl) (by decide) (by decide) (by decide) (by decide)
  rw [e_v172]
  exact scatter_rows_hit scatter_S131040x256_S16384x1_S16384x256_1_0_0_1 ⟨rfl, rfl, rfl, rfl⟩ _ _ _
    (fun a b r h h' => rowTarget_nodeWord_injective (nd := 512) (start := 511) rfl (by omega) a b r
      (by rw [← hcol a]; exact h) (by rw [← hcol b]; exact h'))
    k _ (by rw [hcol]; exact rowTarget_nodeWord (nd := 512) (start := 511) rfl (by omega) k) j

/-- The new cell rows are in place at the level's nodes of the whole-forest array. -/
theorem s4_scatter_c
    (hcol : ∀ i : Fin 16384, ibuf S16384x1 ((StableHlo.after (hostOps0_8 (F := Ideal)) Win) (Proc.devRef .tc main_v288)) (ix2 i 0) = nodeWord 512 511 i.val)
    (k : Fin 16384) (j : Fin 256) :
    fbuf S131040x256 ((StableHlo.after (hostOps0_8 (F := Ideal)) Win) (Proc.devRef .tc main_v289)) (ix2 (node 512 511 16384 rfl (by omega) k) j) = fbuf S16384x256 ((StableHlo.after (hostOps0_8 (F := Ideal)) Win) (Proc.devRef .tc main_v267)) (ix2 k j) := by
  simp only [fbuf, ibuf] at hcol ⊢
  have e_v179 := Line.ternary_at writes4 72 Win (hop := rfl) (by decide) (by decide) (by decide) (by decide)
  rw [e_v179]
  exact scatter_rows_hit scatter_S131040x256_S16384x1_S16384x256_1_0_0_1 ⟨rfl, rfl, rfl, rfl⟩ _ _ _
    (fun a b r h h' => rowTarget_nodeWord_injective (nd := 512) (start := 511) rfl (by omega) a b r
      (by rw [← hcol a]; exact h) (by rw [← hcol b]; exact h'))
    k _ (by rw [hcol]; exact rowTarget_nodeWord (nd := 512) (start := 511) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 16384, ibuf S16384x1 ((StableHlo.after (hostOps0_4 (F := Ideal)) Win) (Proc.devRef .tc main_v194)) (ix2 k 0) = nodeWord 512 511 k.val)
    (k : Fin 16384) (j : Fin 768) :
    fbuf S16384x768 ((StableHlo.after (hostOps0_4 (F := Ideal)) Win) (Proc.devRef .tc main_v195)) (ix2 k j) = fbuf S131040x768 ((StableHlo.after (hostOps0_4 (F := Ideal)) Win) (Proc.devRef .tc main_v11)) (ix2 (node 512 511 16384 rfl (by omega) k) j) := by
  simp only [fbuf, ibuf] at hcol ⊢
  have e_v85 := Line.binary_at writes0 91 Win (hop := rfl) (by decide) (by decide) (by decide)
  rw [e_v85]
  rw [gather_rows_apply gather_S131040x768_S16384x1_S16384x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 32768, ibuf S32768x1 ((StableHlo.after (hostOps0_4 (F := Ideal)) Win) (Proc.devRef .tc main_v210)) (ix2 k 0) = nodeWord 1024 1023 k.val)
    (k : Fin 32768) (j : Fin 256) :
    fbuf S32768x256 ((StableHlo.after (hostOps0_4 (F := Ideal)) Win) (Proc.devRef .tc main_v211)) (ix2 k j) = fbuf S131040x256 ((StableHlo.after (hostOps0_4 (F := Ideal)) Win) (Proc.devRef .tc main_v172)) (ix2 (node 1024 1023 32768 rfl (by omega) k) j) := by
  simp only [fbuf, ibuf] at hcol ⊢
  have e_v101 := Line.binary_at writes0 110 Win (hop := rfl) (by decide) (by decide) (by decide)
  rw [e_v101]
  rw [gather_rows_apply gather_S131040x256_S32768x1_S32768x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 32768, ibuf S32768x1 ((StableHlo.after (hostOps0_4 (F := Ideal)) Win) (Proc.devRef .tc main_v217)) (ix2 k 0) = nodeWord 1024 1023 k.val)
    (k : Fin 32768) (j : Fin 256) :
    fbuf S32768x256 ((StableHlo.after (hostOps0_4 (F := Ideal)) Win) (Proc.devRef .tc main_v218)) (ix2 k j) = fbuf S131040x256 ((StableHlo.after (hostOps0_4 (F := Ideal)) Win) (Proc.devRef .tc main_v179)) (ix2 (node 1024 1023 32768 rfl (by omega) k) j) := by
  simp only [fbuf, ibuf] at hcol ⊢
  have e_v108 := Line.binary_at writes0 119 Win (hop := rfl) (by decide) (by decide) (by decide)
  rw [e_v108]
  rw [gather_rows_apply gather_S131040x256_S32768x1_S32768x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 32768, ibuf S32768x1 ((StableHlo.after (hostOps0_4 (F := Ideal)) Win) (Proc.devRef .tc main_v224)) (ix2 k 0) = nodeWord 1024 1023 k.val)
    (k : Fin 32768) :
    ibuf S32768 ((StableHlo.after (hostOps0_4 (F := Ideal)) Win) (Proc.devRef .tc main_v225)) (ix1 k) = ibuf S131040 ((StableHlo.after (hostOps0_4 (F := Ideal)) Win) (Proc.devRef .tc main_arg1)) (ix1 (node 1024 1023 32768 rfl (by omega) k)) := by
  simp only [fbuf, ibuf] at hcol ⊢
  have e_v115 := Line.binary_at writes0 128 Win (hop := rfl) (by decide) (by decide) (by decide)
  rw [e_v115]
  rw [gather_vec_apply gather_S131040_S32768x1_S32768_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_4 (F := Ideal)) Win) (Proc.devRef .tc main_c_53)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S32768 32) (c : IVec S_ 32) : IVec S32768 32 :=
  select (andi (cmpi .ne (signi p) (broadcastInDim S32768 ![] bcast_S_S32768 (signi c))) (cmpi .ne (Host.remsi p (broadcastInDim S32768 ![] bcast_S_S32768 c)) (broadcastInDim S32768 ![] bcast_S_S32768 (constantI S_ 32 0#32))))
    (subi (Host.divsi p (broadcastInDim S32768 ![] bcast_S_S32768 c)) (broadcastInDim S32768 ![] bcast_S_S32768 (constantI S_ 32 1#32))) (Host.divsi p (broadcastInDim S32768 ![] bcast_S_S32768 c))

/-- The reference's remainder of a vector of words by a scalar word (a zero divisor replaced by one): the truncated
    remainder, the divisor added where its sign differs from the divisor's and it is not zero. -/
def remF (p : IVec S32768 32) (c : IVec S_ 32) : IVec S32768 32 :=
  select (andi (cmpi .ne (cmpi .slt (Host.remsi p (broadcastInDim S32768 ![] bcast_S_S32768 (select (cmpi .eq c (constantI S_ 32 0#32)) (constantI S_ 32 1#32) c))) (broadcastInDim S32768 ![] bcast_S_S32768 (constantI S_ 32 0#32))) (broadcastInDim S32768 ![] bcast_S_S32768 (cmpi .slt (select (cmpi .eq c (constantI S_ 32 0#32)) (constantI S_ 32 1#32) c) (constantI S_ 32 0#32)))) (cmpi .ne (Host.remsi p (broadcastInDim S32768 ![] bcast_S_S32768 (select (cmpi .eq c (constantI S_ 32 0#32)) (constantI S_ 32 1#32) c))) (broadcastInDim S32768 ![] bcast_S_S32768 (constantI S_ 32 0#32))))
    (addi (Host.remsi p (broadcastInDim S32768 ![] bcast_S_S32768 (select (cmpi .eq c (constantI S_ 32 0#32)) (constantI S_ 32 1#32) c))) (broadcastInDim S32768 ![] bcast_S_S32768 (select (cmpi .eq c (constantI S_ 32 0#32)) (constantI S_ 32 1#32) c))) (Host.remsi p (broadcastInDim S32768 ![] bcast_S_S32768 (select (cmpi .eq c (constantI S_ 32 0#32)) (constantI S_ 32 1#32) c)))

/-- The routing word of a child from its parent word `p`: `(p // 4095) * 512 + (p % 4095 - 511)`. -/
def segFun (p : IVec S32768 32) : IVec S32768 32 :=
  addi (muli (fdivF p (constantI S_ 32 4095#32)) (broadcastInDim S32768 ![] bcast_S_S32768 (constantI S_ 32 512#32))) (subi (remF p (constantI S_ 32 4095#32)) (broadcastInDim S32768 ![] bcast_S_S32768 (constantI S_ 32 511#32)))

section Stretch123

variable (Win : Valuation τ sig (Elt Ideal))

set_option maxHeartbeats 4000000 in
/-- The quotient part. -/
theorem s1_v116 :
    ibuf S32768 ((StableHlo.after (hostOps0_5 (F := Ideal)) Win) (Proc.devRef .tc main_v226)) = fdivF (ibuf S32768 (Win (Proc.devRef .tc main_v225))) (ibuf S_ (Win (Proc.devRef .tc main_c_53))) := by
  unfold fdivF
  after_results_simp
  <;> (try simp only [TRef.ofBuf, TRef.toBuf, cast_eq]) <;> rfl

/-- The quotient part times the level's nodes per graph. -/
theorem s2_v118 :
    ibuf S32768 ((StableHlo.after (hostOps0_6 (F := Ideal)) Win) (Proc.devRef .tc main_v228)) = muli (ibuf S32768 (Win (Proc.devRef .tc main_v226))) (broadcastInDim S32768 ![] bcast_S_S32768 (constantI S_ 32 512#32)) := by
  after_results_simp
  <;> rfl

/-- The divisor the remainder part is taken by. -/
theorem s2_c29 : ibuf S_ ((StableHlo.after (hostOps0_6 (F := Ideal)) Win) (Proc.devRef .tc main_c_55)) = constantI S_ 32 4095#32 := by
  after_results_simp
  <;> rfl

set_option maxHeartbeats 4000000 in
/-- The remainder part. -/
theorem s3_v119 :
    ibuf S32768 ((StableHlo.after (hostOps0_7 (F := Ideal)) Win) (Proc.devRef .tc main_v229)) = remF (ibuf S32768 (Win (Proc.devRef .tc main_v225))) (ibuf S_ (Win (Proc.devRef .tc main_c_55))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_4 (F := Ideal)) V0
local notation "V2" => StableHlo.after (hostOps0_5 (F := Ideal)) V1
local notation "V3" => StableHlo.after (hostOps0_6 (F := Ideal)) V2
local notation "V4" => StableHlo.after (hostOps0_7 (F := Ideal)) V3
local notation "V5" => StableHlo.after (hostOps0_8 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S32768 (V5 (Proc.devRef .tc main_v232)) = segFun (ibuf S32768 (V1 (Proc.devRef .tc main_v225))) := by
  rw [s4_seg V4, Line.keep writes4 V4 (r := main_v228) (by decide), Line.keep writes3 V3 (r := main_v228) (by decide),
    s2_v118 V2, s1_v116 V1, s0_c27 V0, Line.keep writes4 V4 (r := main_v229) (by decide), s3_v119 V3,
    Line.keep writes2 V2 (r := main_v225) (by decide), Line.keep writes1 V1 (r := main_v225) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 16384, ibuf S16384x1 (V1 (Proc.devRef .tc main_v194)) (ix2 i 0) = nodeWord 512 511 i.val)
    (h100 : ∀ k : Fin 32768, ibuf S32768x1 (V1 (Proc.devRef .tc main_v210)) (ix2 k 0) = nodeWord 1024 1023 k.val)
    (h107 : ∀ k : Fin 32768, ibuf S32768x1 (V1 (Proc.devRef .tc main_v217)) (ix2 k 0) = nodeWord 1024 1023 k.val)
    (h114 : ∀ k : Fin 32768, ibuf S32768x1 (V1 (Proc.devRef .tc main_v224)) (ix2 k 0) = nodeWord 1024 1023 k.val)
    (h78 : ∀ i : Fin 16384, ibuf S16384 (V1 (Proc.devRef .tc main_v188)) (ix1 i) = nodeWord 512 511 i.val)
    (h171 : (∀ i : Fin 16384, ibuf S16384 (V4 (Proc.devRef .tc main_v188)) (ix1 i) = nodeWord 512 511 i.val) →
      ∀ i : Fin 16384, ibuf S16384x1 (V5 (Proc.devRef .tc main_v281)) (ix2 i 0) = nodeWord 512 511 i.val)
    (h178 : (∀ i : Fin 16384, ibuf S16384 (V4 (Proc.devRef .tc main_v188)) (ix1 i) = nodeWord 512 511 i.val) →
      ∀ i : Fin 16384, ibuf S16384x1 (V5 (Proc.devRef .tc main_v288)) (ix2 i 0) = nodeWord 512 511 i.val) :
    Chain.RLevel 512 511 1024 1023 rfl (by omega) rfl (by omega) w G (ibuf S131040 (V0 (Proc.devRef .tc main_arg1))) segFun
      (fbuf S131040x256 (V1 (Proc.devRef .tc main_v172))) (fbuf S131040x256 (V1 (Proc.devRef .tc main_v179)))
      (fbuf S131040x256 (V5 (Proc.devRef .tc main_v282))) (fbuf S131040x256 (V5 (Proc.devRef .tc main_v289))) := by
  have h78' : ∀ i : Fin 16384, ibuf S16384 (V4 (Proc.devRef .tc main_v188)) (ix1 i) = nodeWord 512 511 i.val := fun i => by
    rw [Line.keep writes3 V3 (r := main_v188) (by decide), Line.keep writes2 V2 (r := main_v188) (by decide),
      Line.keep writes1 V1 (r := main_v188) (by decide)]
    exact h78 i
  refine ⟨fbuf S131040x768 (V1 (Proc.devRef .tc main_v11)), fbuf S32768x256 (V1 (Proc.devRef .tc main_v211)), fbuf S32768x256 (V1 (Proc.devRef .tc main_v218)),
    fbuf S32768x256 (V5 (Proc.devRef .tc main_v243)), ibuf S32768 (V1 (Proc.devRef .tc main_v225)), ibuf S32768 (V5 (Proc.devRef .tc main_v232)),
    fbuf S16384x768 (V1 (Proc.devRef .tc main_v195)), fbuf S16384x768 (V5 (Proc.devRef .tc main_v255)), fbuf S16384x256 (V5 (Proc.devRef .tc main_v246)),
    fbuf S16384x256 (V5 (Proc.devRef .tc main_v250)), fbuf S16384x256 (V5 (Proc.devRef .tc main_v267)), fbuf S16384x256 (V5 (Proc.devRef .tc main_v275)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v211) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v211) (by decide) (by decide) (by decide) (by decide)] at h
    exact h
  · intro i j
    have h := s4_hca V4 i j
    rw [keep51 V0 (r := main_v218) (by decide) (by decide) (by decide) (by decide)] at h
    exact h
  · intro i n
    have h := s4_hz V4 i n
    rw [keep51 V0 (r := main_v195) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl9

end
-- ==== Proof.RIdx8.lean ====
/-
  The reference's index vectors in the stretch of host operations that ends the level with 512 nodes per graph and
  begins the level with 256, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS0
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W8 : List (Ref sig .tc) :=
  [main_c_56, main_v230, main_v231, main_v232, main_v233, main_v234, main_v235, main_v236,
    main_v237, main_v238, main_v239, main_cst_57, main_v240, main_v241, main_cst_58, main_v242,
    main_v243, main_cst_59, main_v244, main_v245, main_v246, main_v247, main_cst_60, main_v248,
    main_v249, main_v250, main_v251, main_v252, main_v253, main_v254, main_v255, main_v256,
    main_v257, main_v258, main_v259, main_v260, main_cst_61, main_v261, main_v262, main_cst_62,
    main_v263, main_v264, main_v265, main_v266, main_v267, main_v268, main_v269, main_cst_63,
    main_v270, main_v271, main_cst_64, main_v272, main_v273, main_v274, main_v275, main_c_65,
    main_v276, main_v277, main_c_66, main_v278, main_v279, main_v280, main_v281, main_v282,
    main_c_67, main_v283, main_v284, main_c_68, main_v285, main_v286, main_v287, main_v288,
    main_v289, main_v290, main_c_69, main_v291, main_v292, main_v293, main_v294, main_v295,
    main_v296, main_v297, main_v298, main_c_70, main_v299, main_v300, main_c_71, main_v301,
    main_v302, main_v303, main_v304, main_v305, main_v306, main_c_72, main_v307, main_v308,
    main_v309, main_v310, main_v311, main_v312, main_v313, main_v314, main_c_73, main_v315,
    main_v316, main_c_74, main_v317, main_v318, main_v319, main_v320, main_v321, main_c_75,
    main_v322, main_v323, main_c_76, main_v324, main_v325, main_v326, main_v327, main_v328,
    main_c_77, main_v329, main_v330, main_c_78, main_v331, main_v332, main_v333, main_v334,
    main_v335, main_c_79 ]

set_option maxHeartbeats 4000000 in
theorem writes8 : Writes (hostOps0_8 : List (HloOp τ sig (Elt F))) W8 := by
  repeat (first | exact .nil | refine .cons rfl ?_)

variable (Win : Valuation τ sig (Elt F))

/-! ### The ending level: 512 nodes per graph from offset 511 -/

theorem s8_v281 (hids : ∀ i : Fin 16384, Win (Proc.devRef .tc main_v188) (ix1 i) = nodeWord 512 511 i.val) (i : Fin 16384) :
    after hostOps0_8 Win (Proc.devRef .tc main_v281) (ix2 i 0) = nodeWord 512 511 i.val := by
  normCol_eqs writes8 55
  rw [keep writes8 Win (r := main_v188) (by decide)]
  exact normCol_nodeWord (nd := 512) rfl (by omega) _ _ _ _ _ i (hids i)

theorem s8_v288 (hids : ∀ i : Fin 16384, Win (Proc.devRef .tc main_v188) (ix1 i) = nodeWord 512 511 i.val) (i : Fin 16384) :
    after hostOps0_8 Win (Proc.devRef .tc main_v288) (ix2 i 0) = nodeWord 512 511 i.val := by
  normCol_eqs writes8 64
  rw [keep writes8 Win (r := main_v188) (by decide)]
  exact normCol_nodeWord (nd := 512) rfl (by omega) _ _ _ _ _ i (hids i)

/-! ### The beginning level: 256 nodes per graph from offset 255, its children the ending level's nodes -/

theorem s8_v298 (h16 : ∀ b : Fin 32, Win (Proc.devRef .tc main_v16) (ix1 b) = BitVec.ofNat 32 b.val * 4095#32) (i : Fin 8192) :
    after hostOps0_8 Win (Proc.devRef .tc main_v298) (ix1 i) = nodeWord 256 255 i.val := by
  nids_eqs writes8 73
  rw [keep writes8 Win (r := main_v16) (by decide)]
  exact nids_apply (nd := 256) rfl 255 _ h16 _ _ _ _ _ _ i

theorem s8_v304 (h16 : ∀ b : Fin 32, Win (Proc.devRef .tc main_v16) (ix1 b) = BitVec.ofNat 32 b.val * 4095#32) (i : Fin 8192) :
    after hostOps0_8 Win (Proc.devRef .tc main_v304) (ix2 i 0) = nodeWord 256 255 i.val := by
  normCol_eqs writes8 83
  exact normCol_nodeWord (nd := 256) rfl (by omega) _ _ _ _ _ i (s8_v298 Win h16 i)

theorem s8_v314 (h16 : ∀ b : Fin 32, Win (Proc.devRef .tc main_v16) (ix1 b) = BitVec.ofNat 32 b.val * 4095#32) (i : Fin 16384) :
    after hostOps0_8 Win (Proc.devRef .tc main_v314) (ix1 i) = nodeWord 512 511 i.val := by
  nids_eqs writes8 92
  rw [keep writes8 Win (r := main_v16) (by decide)]
  exact nids_apply (nd := 512) rfl 511 _ h16 _ _ _ _ _ _ i

theorem s8_v320 (h16 : ∀ b : Fin 32, Win (Proc.devRef .tc main_v16) (ix1 b) = BitVec.ofNat 32 b.val * 4095#32) (i : Fin 16384) :
    after hostOps0_8 Win (Proc.devRef .tc main_v320) (ix2 i 0) = nodeWord 512 511 i.val := by
  normCol_eqs writes8 102
  exact normCol_nodeWord (nd := 512) rfl (by omega) _ _ _ _ _ i (s8_v314 Win h16 i)

theorem s8_v327 (h16 : ∀ b : Fin 32, Win (Proc.devRef .tc main_v16) (ix1 b) = BitVec.ofNat 32 b.val * 4095#32) (i : Fin 16384) :
    after hostOps0_8 Win (Proc.devRef .tc main_v327) (ix2 i 0) = nodeWord 512 511 i.val := by
  normCol_eqs writes8 111
  exact normCol_nodeWord (nd := 512) rfl (by omega) _ _ _ _ _ i (s8_v314 Win h16 i)

theorem s8_v334 (h16 : ∀ b : Fin 32, Win (Proc.devRef .tc main_v16) (ix1 b) = BitVec.ofNat 32 b.val * 4095#32) (i : Fin 16384) :
    after hostOps0_8 Win (Proc.devRef .tc main_v334) (ix2 i 0) = nodeWord 512 511 i.val := by
  normCol_eqs writes8 120
  exact normCol_nodeWord (nd := 512) rfl (by omega) _ _ _ _ _ i (s8_v314 Win h16 i)

end Cert.ReferenceIdeal.Idx

end
-- ==== Proof.BridgeRL9.lean ====
/-
  Level 9 of the reference's side of the chain: the level's stretches run from the contents after stretch 3. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl9
import proofs.«419362_j66683662237734_3_alg».proof.Proof.RIdx4
import proofs.«419362_j66683662237734_3_alg».proof.Proof.RIdx8

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 9, from level 10's arrays to its own. -/
theorem rlevel9 : Chain.RLevel 512 511 1024 1023 (rfl : 16384 = 32 * 512) (by omega) (rfl : 32768 = 32 * 1024) (by omega)
    (wR m' c) (GR m' c) (parR m' c) Lvl9.segFun (harr10 m' c) (carr10 m' c) (harr9 m' c) (carr9 m' c) := by
  have h16 : ∀ b : Fin 32, R4 m' c (Proc.devRef .tc main_v16) (ix1 b) = BitVec.ofNat 32 b.val * 4095#32 :=
    offs_of m' c (carry_v16_R4 m' c)
  have h := Lvl9.rlevel (R4 m' c) (wR m' c) (GR m' c)
    (hU_of m' c (carry_arg4_R4 m' c)) (hbI_of m' c (carry_arg5_R4 m' c))
    (hUf_of m' c (carry_arg6_R4 m' c)) (hbF_of m' c (carry_arg7_R4 m' c))
    (iou_of m' c (carry_v11_R5 m' c))
    (fun i => col_in (Idx.s4_v194 (R4 m' c) h16 i)) (fun k => col_in (Idx.s4_v210 (R4 m' c) h16 k))
    (fun k => col_in (Idx.s4_v217 (R4 m' c) h16 k)) (fun k => col_in (Idx.s4_v224 (R4 m' c) h16 k))
    (fun i => col_in (Idx.s4_v188 (R4 m' c) h16 i))
    (fun hids i => col_in (Idx.s8_v281 (R8 m' c) (fun i' => col_out (hids i')) i))
    (fun hids i => col_in (Idx.s8_v288 (R8 m' c) (fun i' => col_out (hids i')) i))
  rw [par_of m' c (carry_arg1_R4 m' c), fbuf_id, fbuf_id, fbuf_id, fbuf_id] at h
  exact h

end Cert.BridgeR

end
-- ==== Proof.RLvl8.lean ====
/-
  One level of the reference's tree recurrence, the level of 8192 nodes with 16384 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS0
import proofs.«419362_j66683662237734_3_alg».proof.Proof.RefOpsS1
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl8

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_56, main_v230, main_v231, main_v232, main_v233, main_v234, main_v235, main_v236,
    main_v237, main_v238, main_v239, main_cst_57, main_v240, main_v241, main_cst_58, main_v242,
    main_v243, main_cst_59, main_v244, main_v245, main_v246, main_v247, main_cst_60, main_v248,
    main_v249, main_v250, main_v251, main_v252, main_v253, main_v254, main_v255, main_v256,
    main_v257, main_v258, main_v259, main_v260, main_cst_61, main_v261, main_v262, main_cst_62,
    main_v263, main_v264, main_v265, main_v266, main_v267, main_v268, main_v269, main_cst_63,
    main_v270, main_v271, main_cst_64, main_v272, main_v273, main_v274, main_v275, main_c_65,
    main_v276, main_v277, main_c_66, main_v278, main_v279, main_v280, main_v281, main_v282,
    main_c_67, main_v283, main_v284, main_c_68, main_v285, main_v286, main_v287, main_v288,
    main_v289, main_v290, main_c_69, main_v291, main_v292, main_v293, main_v294, main_v295,
    main_v296, main_v297, main_v298, main_c_70, main_v299, main_v300, main_c_71, main_v301,
    main_v302, main_v303, main_v304, main_v305, main_v306, main_c_72, main_v307, main_v308,
    main_v309, main_v310, main_v311, main_v312, main_v313, main_v314, main_c_73, main_v315,
    main_v316, main_c_74, main_v317, main_v318, main_v319, main_v320, main_v321, main_c_75,
    main_v322, main_v323, main_c_76, main_v324, main_v325, main_v326, main_v327, main_v328,
    main_c_77, main_v329, main_v330, main_c_78, main_v331, main_v332, main_v333, main_v334,
    main_v335, main_c_79 ]
set_option maxHeartbeats 40000000 in
theorem writes0 : Line.Writes (hostOps0_8 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call4_v0, main_call4_v1, main_call4_v2, main_call4_v3, main_call4_v4, main_call4_v5, main_call4_v6, main_call4_v7,
    main_call4_v8, main_call4_c, main_call4_v9, main_call4_v10, main_call4_v11, main_call4_c_0, main_call4_v12, main_call4_v13,
    main_v336 ]
set_option maxHeartbeats 40000000 in
theorem writes1 : Line.Writes (hostOps0_9 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_80, main_v337, main_v338, main_c_81 ]
set_option maxHeartbeats 40000000 in
theorem writes2 : Line.Writes (hostOps0_10 (F := Ideal) : List (HloOp τ sig (Elt Ideal))) W2 :=
  .cons rfl (.cons rfl (.cons rfl (.cons rfl (.nil))))

abbrev W3 : List (Ref sig .tc) :=
  [
    main_call5_v0, main_call5_c, main_call5_v1, main_call5_c_0, main_call5_v2, main_call5_v3, main_call5_v4, main_call5_c_1,
    main_call5_v5, main_call5_v6, main_call5_c_2, main_call5_v7, main_call5_v8, main_call5_c_3, main_call5_v9, main_call5_v10,
    main_call5_v11, main_call5_v12, main_call5_v13, main_call5_v14, main_v339 ]
set_option maxHeartbeats 40000000 in
theorem writes3 : Line.Writes (hostOps0_11 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_82, main_v340, main_v341, main_v342, main_v343, main_v344, main_v345, main_v346,
    main_v347, main_v348, main_v349, main_cst_83, main_v350, main_v351, main_cst_84, main_v352,
    main_v353, main_cst_85, main_v354, main_v355, main_v356, main_v357, main_cst_86, main_v358,
    main_v359, main_v360, main_v361, main_v362, main_v363, main_v364, main_v365, main_v366,
    main_v367, main_v368, main_v369, main_v370, main_cst_87, main_v371, main_v372, main_cst_88,
    main_v373, main_v374, main_v375, main_v376, main_v377, main_v378, main_v379, main_cst_89,
    main_v380, main_v381, main_cst_90, main_v382, main_v383, main_v384, main_v385, main_c_91,
    main_v386, main_v387, main_c_92, main_v388, main_v389, main_v390, main_v391, main_v392,
    main_c_93, main_v393, main_v394, main_c_94, main_v395, main_v396, main_v397, main_v398,
    main_v399, main_v400, main_c_95, main_v401, main_v402, main_v403, main_v404, main_v405,
    main_v406, main_v407, main_v408, main_c_96, main_v409, main_v410, main_c_97, main_v411,
    main_v412, main_v413, main_v414, main_v415, main_v416, main_c_98, main_v417, main_v418,
    main_v419, main_v420, main_v421, main_v422, main_v423, main_v424, main_c_99, main_v425,
    main_v426, main_c_100, main_v427, main_v428, main_v429, main_v430, main_v431, main_c_101,
    main_v432, main_v433, main_c_102, main_v434, main_v435, main_v436, main_v437, main_v438,
    main_c_103, main_v439, main_v440, main_c_104, main_v441, main_v442, main_v443, main_v444,
    main_v445, main_c_105 ]
set_option maxHeartbeats 40000000 in
theorem writes4 : Line.Writes (hostOps0_12 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S16384 ((StableHlo.after (hostOps0_12 (F := Ideal)) Win) (Proc.devRef .tc main_v342))
      = addi (ibuf S16384 ((StableHlo.after (hostOps0_12 (F := Ideal)) Win) (Proc.devRef .tc main_v338)))
          (subi (ibuf S16384 ((StableHlo.after (hostOps0_12 (F := Ideal)) Win) (Proc.devRef .tc main_v339))) (broadcastInDim S16384 ![] bcast_S_S16384 (constantI S_ 32 255#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 8192) (n : Fin 768) :
    fbuf S8192x768 ((StableHlo.after (hostOps0_12 (F := Ideal)) Win) (Proc.devRef .tc main_v365)) (ix2 i n)
      = (fbuf S8192x768 ((StableHlo.after (hostOps0_12 (F := Ideal)) Win) (Proc.devRef .tc main_v305)) (ix2 i n)
          + ∑ k : Fin 256, fbuf S8192x256 ((StableHlo.after (hostOps0_12 (F := Ideal)) Win) (Proc.devRef .tc main_v356)) (ix2 i k) * fbuf S768x256 ((StableHlo.after (hostOps0_12 (F := Ideal)) Win) (Proc.devRef .tc main_arg4)) (ix2 n k))
        + fbuf S1x768 ((StableHlo.after (hostOps0_12 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S8192x256_S256x768_S8192x768_1_0_0_1_n_n rfl, bcast_row_apply]

/-- The new cell state. -/
theorem s4_hc (i : Fin 8192) (j : Fin 256) :
    fbuf S8192x256 ((StableHlo.after (hostOps0_12 (F := Ideal)) Win) (Proc.devRef .tc main_v377)) (ix2 i j)
      = Ideal.logistic (fbuf S8192x768 ((StableHlo.after (hostOps0_12 (F := Ideal)) Win) (Proc.devRef .tc main_v365)) (ix2 i (c0 j)))
          * Ideal.tanh (fbuf S8192x768 ((StableHlo.after (hostOps0_12 (F := Ideal)) Win) (Proc.devRef .tc main_v365)) (ix2 i (c2 j)))
        + fbuf S8192x256 ((StableHlo.after (hostOps0_12 (F := Ideal)) Win) (Proc.devRef .tc main_v360)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 8192) (j : Fin 256) :
    fbuf S8192x256 ((StableHlo.after (hostOps0_12 (F := Ideal)) Win) (Proc.devRef .tc main_v385)) (ix2 i j)
      = Ideal.logistic (fbuf S8192x768 ((StableHlo.after (hostOps0_12 (F := Ideal)) Win) (Proc.devRef .tc main_v365)) (ix2 i (c1 j)))
          * Ideal.tanh (fbuf S8192x256 ((StableHlo.after (hostOps0_12 (F := Ideal)) Win) (Proc.devRef .tc main_v377)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 16384) (j : Fin 256) :
    fbuf S16384x256 ((StableHlo.after (hostOps0_12 (F := Ideal)) Win) (Proc.devRef .tc main_v353)) (ix2 k j)
      = Ideal.logistic ((∑ k' : Fin 256, fbuf S16384x256 ((StableHlo.after (hostOps0_12 (F := Ideal)) Win) (Proc.devRef .tc main_v321)) (ix2 k k') * fbuf S256x256 ((StableHlo.after (hostOps0_12 (F := Ideal)) Win) (Proc.devRef .tc main_arg6)) (ix2 j k'))
          + fbuf S256 ((StableHlo.after (hostOps0_12 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S16384x256_S256x256_S16384x256_1_0_0_1_n_n rfl,
    bcast_vec_rows_apply]

/-- The children's hidden rows summed per parent slot. -/
theorem s4_hht (i : Fin 8192) (j : Fin 256) :
    fbuf S8192x256 ((StableHlo.after (hostOps0_12 (F := Ideal)) Win) (Proc.devRef .tc main_v356)) (ix2 i j)
      = ∑ k ∈ kids (fun k : Fin 16384 => rowTarget 8192 (ibuf S16384 ((StableHlo.after (hostOps0_12 (F := Ideal)) Win) (Proc.devRef .tc main_v342)) (ix1 k))) i, fbuf S16384x256 ((StableHlo.after (hostOps0_12 (F := Ideal)) Win) (Proc.devRef .tc main_v321)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S8192x256_S16384x1_S16384x256_1_0_0_1 ⟨rfl, rfl, rfl, rfl⟩ _ _ _ _ i j

/-- The children's gated cell rows summed per parent slot. -/
theorem s4_hca (i : Fin 8192) (j : Fin 256) :
    fbuf S8192x256 ((StableHlo.after (hostOps0_12 (F := Ideal)) Win) (Proc.devRef .tc main_v360)) (ix2 i j)
      = ∑ k ∈ kids (fun k : Fin 16384 => rowTarget 8192 (ibuf S16384 ((StableHlo.after (hostOps0_12 (F := Ideal)) Win) (Proc.devRef .tc main_v342)) (ix1 k))) i,
          fbuf S16384x256 ((StableHlo.after (hostOps0_12 (F := Ideal)) Win) (Proc.devRef .tc main_v353)) (ix2 k j) * fbuf S16384x256 ((StableHlo.after (hostOps0_12 (F := Ideal)) Win) (Proc.devRef .tc main_v328)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S8192x256_S16384x1_S16384x256_1_0_0_1 ⟨rfl, rfl, rfl, rfl⟩]
  exact Finset.sum_congr rfl fun k _ => rfl

/-- The new hidden rows are in place at the level's nodes of the whole-forest array. -/
theorem s4_scatter_h
    (hcol : ∀ i : Fin 8192, ibuf S8192x1 ((StableHlo.after (hostOps0_12 (F := Ideal)) Win) (Proc.devRef .tc main_v391)) (ix2 i 0) = nodeWord 256 255 i.val)
    (k : Fin 8192) (j : Fin 256) :
    fbuf S131040x256 ((StableHlo.after (hostOps0_12 (F := Ideal)) Win) (Proc.devRef .tc main_v392)) (ix2 (node 256 255 8192 rfl (by omega) k) j) = fbuf S8192x256 ((StableHlo.after (hostOps0_12 (F := Ideal)) Win) (Proc.devRef .tc main_v385)) (ix2 k j) := by
  simp only [fbuf, ibuf] at hcol ⊢
  have e_v172 := Line.ternary_at writes4 63 Win (hop := rfl) (by decide) (by decide) (by decide) (by decide)
  rw [e_v172]
  exact scatter_rows_hit scatter_S131040x256_S8192x1_S8192x256_1_0_0_1 ⟨rfl, rfl, rfl, rfl⟩ _ _ _
    (fun a b r h h' => rowTarget_nodeWord_injective (nd := 256) (start := 255) rfl (by omega) a b r
      (by rw [← hcol a]; exact h) (by rw [← hcol b]; exact h'))
    k _ (by rw [hcol]; exact rowTarget_nodeWord (nd := 256) (start := 255) rfl (by omega) k) j

/-- The new cell rows are in place at the level's nodes of the whole-forest array. -/
theorem s4_scatter_c
    (hcol : ∀ i : Fin 8192, ibuf S8192x1 ((StableHlo.after (hostOps0_12 (F := Ideal)) Win) (Proc.devRef .tc main_v398)) (ix2 i 0) = nodeWord 256 255 i.val)
    (k : Fin 8192) (j : Fin 256) :
    fbuf S131040x256 ((StableHlo.after (hostOps0_12 (F := Ideal)) Win) (Proc.devRef .tc main_v399)) (ix2 (node 256 255 8192 rfl (by omega) k) j) = fbuf S8192x256 ((StableHlo.after (hostOps0_12 (F := Ideal)) Win) (Proc.devRef .tc main_v377)) (ix2 k j) := by
  simp only [fbuf, ibuf] at hcol ⊢
  have e_v179 := Line.ternary_at writes4 72 Win (hop := rfl) (by decide) (by decide) (by decide) (by decide)
  rw [e_v179]
  exact scatter_rows_hit scatter_S131040x256_S8192x1_S8192x256_1_0_0_1 ⟨rfl, rfl, rfl, rfl⟩ _ _ _
    (fun a b r h h' => rowTarget_nodeWord_injective (nd := 256) (start := 255) rfl (by omega) a b r
      (by rw [← hcol a]; exact h) (by rw [← hcol b]; exact h'))
    k _ (by rw [hcol]; exact rowTarget_nodeWord (nd := 256) (start := 255) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 8192, ibuf S8192x1 ((StableHlo.after (hostOps0_8 (F := Ideal)) Win) (Proc.devRef .tc main_v304)) (ix2 k 0) = nodeWord 256 255 k.val)
    (k : Fin 8192) (j : Fin 768) :
    fbuf S8192x768 ((StableHlo.after (hostOps0_8 (F := Ideal)) Win) (Proc.devRef .tc main_v305)) (ix2 k j) = fbuf S131040x768 ((StableHlo.after (hostOps0_8 (F := Ideal)) Win) (Proc.devRef .tc main_v11)) (ix2 (node 256 255 8192 rfl (by omega) k) j) := by
  simp only [fbuf, ibuf] at hcol ⊢
  have e_v85 := Line.binary_at writes0 91 Win (hop := rfl) (by decide) (by decide) (by decide)
  rw [e_v85]
  rw [gather_rows_apply gather_S131040x768_S8192x1_S8192x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 16384, ibuf S16384x1 ((StableHlo.after (hostOps0_8 (F := Ideal)) Win) (Proc.devRef .tc main_v320)) (ix2 k 0) = nodeWord 512 511 k.val)
    (k : Fin 16384) (j : Fin 256) :
    fbuf S16384x256 ((StableHlo.after (hostOps0_8 (F := Ideal)) Win) (Proc.devRef .tc main_v321)) (ix2 k j) = fbuf S131040x256 ((StableHlo.after (hostOps0_8 (F := Ideal)) Win) (Proc.devRef .tc main_v282)) (ix2 (node 512 511 16384 rfl (by omega) k) j) := by
  simp only [fbuf, ibuf] at hcol ⊢
  have e_v101 := Line.binary_at writes0 110 Win (hop := rfl) (by decide) (by decide) (by decide)
  rw [e_v101]
  rw [gather_rows_apply gather_S131040x256_S16384x1_S16384x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 16384, ibuf S16384x1 ((StableHlo.after (hostOps0_8 (F := Ideal)) Win) (Proc.devRef .tc main_v327)) (ix2 k 0) = nodeWord 512 511 k.val)
    (k : Fin 16384) (j : Fin 256) :
    fbuf S16384x256 ((StableHlo.after (hostOps0_8 (F := Ideal)) Win) (Proc.devRef .tc main_v328)) (ix2 k j) = fbuf S131040x256 ((StableHlo.after (hostOps0_8 (F := Ideal)) Win) (Proc.devRef .tc main_v289)) (ix2 (node 512 511 16384 rfl (by omega) k) j) := by
  simp only [fbuf, ibuf] at hcol ⊢
  have e_v108 := Line.binary_at writes0 119 Win (hop := rfl) (by decide) (by decide) (by decide)
  rw [e_v108]
  rw [gather_rows_apply gather_S131040x256_S16384x1_S16384x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 16384, ibuf S16384x1 ((StableHlo.after (hostOps0_8 (F := Ideal)) Win) (Proc.devRef .tc main_v334)) (ix2 k 0) = nodeWord 512 511 k.val)
    (k : Fin 16384) :
    ibuf S16384 ((StableHlo.after (hostOps0_8 (F := Ideal)) Win) (Proc.devRef .tc main_v335)) (ix1 k) = ibuf S131040 ((StableHlo.after (hostOps0_8 (F := Ideal)) Win) (Proc.devRef .tc main_arg1)) (ix1 (node 512 511 16384 rfl (by omega) k)) := by
  simp only [fbuf, ibuf] at hcol ⊢
  have e_v115 := Line.binary_at writes0 128 Win (hop := rfl) (by decide) (by decide) (by decide)
  rw [e_v115]
  rw [gather_vec_apply gather_S131040_S16384x1_S16384_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_8 (F := Ideal)) Win) (Proc.devRef .tc main_c_79)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S16384 32) (c : IVec S_ 32) : IVec S16384 32 :=
  select (andi (cmpi .ne (signi p) (broadcastInDim S16384 ![] bcast_S_S16384 (signi c))) (cmpi .ne (Host.remsi p (broadcastInDim S16384 ![] bcast_S_S16384 c)) (broadcastInDim S16384 ![] bcast_S_S16384 (constantI S_ 32 0#32))))
    (subi (Host.divsi p (broadcastInDim S16384 ![] bcast_S_S16384 c)) (broadcastInDim S16384 ![] bcast_S_S16384 (constantI S_ 32 1#32))) (Host.divsi p (broadcastInDim S16384 ![] bcast_S_S16384 c))

/-- The reference's remainder of a vector of words by a scalar word (a zero divisor replaced by one): the truncated
    remainder, the divisor added where its sign differs from the divisor's and it is not zero. -/
def remF (p : IVec S16384 32) (c : IVec S_ 32) : IVec S16384 32 :=
  select (andi (cmpi .ne (cmpi .slt (Host.remsi p (broadcastInDim S16384 ![] bcast_S_S16384 (select (cmpi .eq c (constantI S_ 32 0#32)) (constantI S_ 32 1#32) c))) (broadcastInDim S16384 ![] bcast_S_S16384 (constantI S_ 32 0#32))) (broadcastInDim S16384 ![] bcast_S_S16384 (cmpi .slt (select (cmpi .eq c (constantI S_ 32 0#32)) (constantI S_ 32 1#32) c) (constantI S_ 32 0#32)))) (cmpi .ne (Host.remsi p (broadcastInDim S16384 ![] bcast_S_S16384 (select (cmpi .eq c (constantI S_ 32 0#32)) (constantI S_ 32 1#32) c))) (broadcastInDim S16384 ![] bcast_S_S16384 (constantI S_ 32 0#32))))
    (addi (Host.remsi p (broadcastInDim S16384 ![] bcast_S_S16384 (select (cmpi .eq c (constantI S_ 32 0#32)) (constantI S_ 32 1#32) c))) (broadcastInDim S16384 ![] bcast_S_S16384 (select (cmpi .eq c (constantI S_ 32 0#32)) (constantI S_ 32 1#32) c))) (Host.remsi p (broadcastInDim S16384 ![] bcast_S_S16384 (select (cmpi .eq c (constantI S_ 32 0#32)) (constantI S_ 32 1#32) c)))

/-- The routing word of a child from its parent word `p`: `(p // 4095) * 256 + (p % 4095 - 255)`. -/
def segFun (p : IVec S16384 32) : IVec S16384 32 :=
  addi (muli (fdivF p (constantI S_ 32 4095#32)) (broadcastInDim S16384 ![] bcast_S_S16384 (constantI S_ 32 256#32))) (subi (remF p (constantI S_ 32 4095#32)) (broadcastInDim S16384 ![] bcast_S_S16384 (constantI S_ 32 255#32)))

section Stretch123

variable (Win : Valuation τ sig (Elt Ideal))

set_option maxHeartbeats 4000000 in
/-- The quotient part. -/
theorem s1_v116 :
    ibuf S16384 ((StableHlo.after (hostOps0_9 (F := Ideal)) Win) (Proc.devRef .tc main_v336)) = fdivF (ibuf S16384 (Win (Proc.devRef .tc main_v335))) (ibuf S_ (Win (Proc.devRef .tc main_c_79))) := by
  unfold fdivF
  after_results_simp
  <;> (try simp only [TRef.ofBuf, TRef.toBuf, cast_eq]) <;> rfl

/-- The quotient part times the level's nodes per graph. -/
theorem s2_v118 :
    ibuf S16384 ((StableHlo.after (hostOps0_10 (F := Ideal)) Win) (Proc.devRef .tc main_v338)) = muli (ibuf S16384 (Win (Proc.devRef .tc main_v336))) (broadcastInDim S16384 ![] bcast_S_S16384 (constantI S_ 32 256#32)) := by
  after_results_simp
  <;> rfl

/-- The divisor the remainder part is taken by. -/
theorem s2_c29 : ibuf S_ ((StableHlo.after (hostOps0_10 (F := Ideal)) Win) (Proc.devRef .tc main_c_81)) = constantI S_ 32 4095#32 := by
  after_results_simp
  <;> rfl

set_option maxHeartbeats 4000000 in
/-- The remainder part. -/
theorem s3_v119 :
    ibuf S16384 ((StableHlo.after (hostOps0_11 (F := Ideal)) Win) (Proc.devRef .tc main_v339)) = remF (ibuf S16384 (Win (Proc.devRef .tc main_v335))) (ibuf S_ (Win (Proc.devRef .tc main_c_81))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_8 (F := Ideal)) V0
local notation "V2" => StableHlo.after (hostOps0_9 (F := Ideal)) V1
local notation "V3" => StableHlo.after (hostOps0_10 (F := Ideal)) V2
local notation "V4" => StableHlo.after (hostOps0_11 (F := Ideal)) V3
local notation "V5" => StableHlo.after (hostOps0_12 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S16384 (V5 (Proc.devRef .tc main_v342)) = segFun (ibuf S16384 (V1 (Proc.devRef .tc main_v335))) := by
  rw [s4_seg V4, Line.keep writes4 V4 (r := main_v338) (by decide), Line.keep writes3 V3 (r := main_v338) (by decide),
    s2_v118 V2, s1_v116 V1, s0_c27 V0, Line.keep writes4 V4 (r := main_v339) (by decide), s3_v119 V3,
    Line.keep writes2 V2 (r := main_v335) (by decide), Line.keep writes1 V1 (r := main_v335) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 8192, ibuf S8192x1 (V1 (Proc.devRef .tc main_v304)) (ix2 i 0) = nodeWord 256 255 i.val)
    (h100 : ∀ k : Fin 16384, ibuf S16384x1 (V1 (Proc.devRef .tc main_v320)) (ix2 k 0) = nodeWord 512 511 k.val)
    (h107 : ∀ k : Fin 16384, ibuf S16384x1 (V1 (Proc.devRef .tc main_v327)) (ix2 k 0) = nodeWord 512 511 k.val)
    (h114 : ∀ k : Fin 16384, ibuf S16384x1 (V1 (Proc.devRef .tc main_v334)) (ix2 k 0) = nodeWord 512 511 k.val)
    (h78 : ∀ i : Fin 8192, ibuf S8192 (V1 (Proc.devRef .tc main_v298)) (ix1 i) = nodeWord 256 255 i.val)
    (h171 : (∀ i : Fin 8192, ibuf S8192 (V4 (Proc.devRef .tc main_v298)) (ix1 i) = nodeWord 256 255 i.val) →
      ∀ i : Fin 8192, ibuf S8192x1 (V5 (Proc.devRef .tc main_v391)) (ix2 i 0) = nodeWord 256 255 i.val)
    (h178 : (∀ i : Fin 8192, ibuf S8192 (V4 (Proc.devRef .tc main_v298)) (ix1 i) = nodeWord 256 255 i.val) →
      ∀ i : Fin 8192, ibuf S8192x1 (V5 (Proc.devRef .tc main_v398)) (ix2 i 0) = nodeWord 256 255 i.val) :
    Chain.RLevel 256 255 512 511 rfl (by omega) rfl (by omega) w G (ibuf S131040 (V0 (Proc.devRef .tc main_arg1))) segFun
      (fbuf S131040x256 (V1 (Proc.devRef .tc main_v282))) (fbuf S131040x256 (V1 (Proc.devRef .tc main_v289)))
      (fbuf S131040x256 (V5 (Proc.devRef .tc main_v392))) (fbuf S131040x256 (V5 (Proc.devRef .tc main_v399))) := by
  have h78' : ∀ i : Fin 8192, ibuf S8192 (V4 (Proc.devRef .tc main_v298)) (ix1 i) = nodeWord 256 255 i.val := fun i => by
    rw [Line.keep writes3 V3 (r := main_v298) (by decide), Line.keep writes2 V2 (r := main_v298) (by decide),
      Line.keep writes1 V1 (r := main_v298) (by decide)]
    exact h78 i
  refine ⟨fbuf S131040x768 (V1 (Proc.devRef .tc main_v11)), fbuf S16384x256 (V1 (Proc.devRef .tc main_v321)), fbuf S16384x256 (V1 (Proc.devRef .tc main_v328)),
    fbuf S16384x256 (V5 (Proc.devRef .tc main_v353)), ibuf S16384 (V1 (Proc.devRef .tc main_v335)), ibuf S16384 (V5 (Proc.devRef .tc main_v342)),
    fbuf S8192x768 (V1 (Proc.devRef .tc main_v305)), fbuf S8192x768 (V5 (Proc.devRef .tc main_v365)), fbuf S8192x256 (V5 (Proc.devRef .tc main_v356)),
    fbuf S8192x256 (V5 (Proc.devRef .tc main_v360)), fbuf S8192x256 (V5 (Proc.devRef .tc main_v377)), fbuf S8192x256 (V5 (Proc.devRef .tc main_v385)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v321) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v321) (by decide) (by decide) (by decide) (by decide)] at h
    exact h
  · intro i j
    have h := s4_hca V4 i j
    rw [keep51 V0 (r := main_v328) (by decide) (by decide) (by decide) (by decide)] at h
    exact h
  · intro i n
    have h := s4_hz V4 i n
    rw [keep51 V0 (r := main_v305) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl8

end
-- ==== Proof.RIdx12.lean ====
/-
  The reference's index vectors in the stretch of host operations that ends the level with 256 nodes per graph and
  begins the level with 128, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS1
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W12 : List (Ref sig .tc) :=
  [main_c_82, main_v340, main_v341, main_v342, main_v343, main_v344, main_v345, main_v346,
    main_v347, main_v348, main_v349, main_cst_83, main_v350, main_v351, main_cst_84, main_v352,
    main_v353, main_cst_85, main_v354, main_v355, main_v356, main_v357, main_cst_86, main_v358,
    main_v359, main_v360, main_v361, main_v362, main_v363, main_v364, main_v365, main_v366,
    main_v367, main_v368, main_v369, main_v370, main_cst_87, main_v371, main_v372, main_cst_88,
    main_v373, main_v374, main_v375, main_v376, main_v377, main_v378, main_v379, main_cst_89,
    main_v380, main_v381, main_cst_90, main_v382, main_v383, main_v384, main_v385, main_c_91,
    main_v386, main_v387, main_c_92, main_v388, main_v389, main_v390, main_v391, main_v392,
    main_c_93, main_v393, main_v394, main_c_94, main_v395, main_v396, main_v397, main_v398,
    main_v399, main_v400, main_c_95, main_v401, main_v402, main_v403, main_v404, main_v405,
    main_v406, main_v407, main_v408, main_c_96, main_v409, main_v410, main_c_97, main_v411,
    main_v412, main_v413, main_v414, main_v415, main_v416, main_c_98, main_v417, main_v418,
    main_v419, main_v420, main_v421, main_v422, main_v423, main_v424, main_c_99, main_v425,
    main_v426, main_c_100, main_v427, main_v428, main_v429, main_v430, main_v431, main_c_101,
    main_v432, main_v433, main_c_102, main_v434, main_v435, main_v436, main_v437, main_v438,
    main_c_103, main_v439, main_v440, main_c_104, main_v441, main_v442, main_v443, main_v444,
    main_v445, main_c_105 ]

set_option maxHeartbeats 4000000 in
theorem writes12 : Writes (hostOps0_12 : List (HloOp τ sig (Elt F))) W12 := by
  repeat (first | exact .nil | refine .cons rfl ?_)

variable (Win : Valuation τ sig (Elt F))

/-! ### The ending level: 256 nodes per graph from offset 255 -/

theorem s12_v391 (hids : ∀ i : Fin 8192, Win (Proc.devRef .tc main_v298) (ix1 i) = nodeWord 256 255 i.val) (i : Fin 8192) :
    after hostOps0_12 Win (Proc.devRef .tc main_v391) (ix2 i 0) = nodeWord 256 255 i.val := by
  normCol_eqs writes12 55
  rw [keep writes12 Win (r := main_v298) (by decide)]
  exact normCol_nodeWord (nd := 256) rfl (by omega) _ _ _ _ _ i (hids i)

theorem s12_v398 (hids : ∀ i : Fin 8192, Win (Proc.devRef .tc main_v298) (ix1 i) = nodeWord 256 255 i.val) (i : Fin 8192) :
    after hostOps0_12 Win (Proc.devRef .tc main_v398) (ix2 i 0) = nodeWord 256 255 i.val := by
  normCol_eqs writes12 64
  rw [keep writes12 Win (r := main_v298) (by decide)]
  exact normCol_nodeWord (nd := 256) rfl (by omega) _ _ _ _ _ i (hids i)

/-! ### The beginning level: 128 nodes per graph from offset 127, its children the ending level's nodes -/

theorem s12_v408 (h16 : ∀ b : Fin 32, Win (Proc.devRef .tc main_v16) (ix1 b) = BitVec.ofNat 32 b.val * 4095#32) (i : Fin 4096) :
    after hostOps0_12 Win (Proc.devRef .tc main_v408) (ix1 i) = nodeWord 128 127 i.val := by
  nids_eqs writes12 73
  rw [keep writes12 Win (r := main_v16) (by decide)]
  exact nids_apply (nd := 128) rfl 127 _ h16 _ _ _ _ _ _ i

theorem s12_v414 (h16 : ∀ b : Fin 32, Win (Proc.devRef .tc main_v16) (ix1 b) = BitVec.ofNat 32 b.val * 4095#32) (i : Fin 4096) :
    after hostOps0_12 Win (Proc.devRef .tc main_v414) (ix2 i 0) = nodeWord 128 127 i.val := by
  normCol_eqs writes12 83
  exact normCol_nodeWord (nd := 128) rfl (by omega) _ _ _ _ _ i (s12_v408 Win h16 i)

theorem s12_v424 (h16 : ∀ b : Fin 32, Win (Proc.devRef .tc main_v16) (ix1 b) = BitVec.ofNat 32 b.val * 4095#32) (i : Fin 8192) :
    after hostOps0_12 Win (Proc.devRef .tc main_v424) (ix1 i) = nodeWord 256 255 i.val := by
  nids_eqs writes12 92
  rw [keep writes12 Win (r := main_v16) (by decide)]
  exact nids_apply (nd := 256) rfl 255 _ h16 _ _ _ _ _ _ i

theorem s12_v430 (h16 : ∀ b : Fin 32, Win (Proc.devRef .tc main_v16) (ix1 b) = BitVec.ofNat 32 b.val * 4095#32) (i : Fin 8192) :
    after hostOps0_12 Win (Proc.devRef .tc main_v430) (ix2 i 0) = nodeWord 256 255 i.val := by
  normCol_eqs writes12 102
  exact normCol_nodeWord (nd := 256) rfl (by omega) _ _ _ _ _ i (s12_v424 Win h16 i)

theorem s12_v437 (h16 : ∀ b : Fin 32, Win (Proc.devRef .tc main_v16) (ix1 b) = BitVec.ofNat 32 b.val * 4095#32) (i : Fin 8192) :
    after hostOps0_12 Win (Proc.devRef .tc main_v437) (ix2 i 0) = nodeWord 256 255 i.val := by
  normCol_eqs writes12 111
  exact normCol_nodeWord (nd := 256) rfl (by omega) _ _ _ _ _ i (s12_v424 Win h16 i)

theorem s12_v444 (h16 : ∀ b : Fin 32, Win (Proc.devRef .tc main_v16) (ix1 b) = BitVec.ofNat 32 b.val * 4095#32) (i : Fin 8192) :
    after hostOps0_12 Win (Proc.devRef .tc main_v444) (ix2 i 0) = nodeWord 256 255 i.val := by
  normCol_eqs writes12 120
  exact normCol_nodeWord (nd := 256) rfl (by omega) _ _ _ _ _ i (s12_v424 Win h16 i)

end Cert.ReferenceIdeal.Idx

end
-- ==== Proof.BridgeRL8.lean ====
/-
  Level 8 of the reference's side of the chain: the level's stretches run from the contents after stretch 7. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl8
import proofs.«419362_j66683662237734_3_alg».proof.Proof.RIdx8
import proofs.«419362_j66683662237734_3_alg».proof.Proof.RIdx12

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 8, from level 9's arrays to its own. -/
theorem rlevel8 : Chain.RLevel 256 255 512 511 (rfl : 8192 = 32 * 256) (by omega) (rfl : 16384 = 32 * 512) (by omega)
    (wR m' c) (GR m' c) (parR m' c) Lvl8.segFun (harr9 m' c) (carr9 m' c) (harr8 m' c) (carr8 m' c) := by
  have h16 : ∀ b : Fin 32, R8 m' c (Proc.devRef .tc main_v16) (ix1 b) = BitVec.ofNat 32 b.val * 4095#32 :=
    offs_of m' c (carry_v16_R8 m' c)
  have h := Lvl8.rlevel (R8 m' c) (wR m' c) (GR m' c)
    (hU_of m' c (carry_arg4_R8 m' c)) (hbI_of m' c (carry_arg5_R8 m' c))
    (hUf_of m' c (carry_arg6_R8 m' c)) (hbF_of m' c (carry_arg7_R8 m' c))
    (iou_of m' c (carry_v11_R9 m' c))
    (fun i => col_in (Idx.s8_v304 (R8 m' c) h16 i)) (fun k => col_in (Idx.s8_v320 (R8 m' c) h16 k))
    (fun k => col_in (Idx.s8_v327 (R8 m' c) h16 k)) (fun k => col_in (Idx.s8_v334 (R8 m' c) h16 k))
    (fun i => col_in (Idx.s8_v298 (R8 m' c) h16 i))
    (fun hids i => col_in (Idx.s12_v391 (R12 m' c) (fun i' => col_out (hids i')) i))
    (fun hids i => col_in (Idx.s12_v398 (R12 m' c) (fun i' => col_out (hids i')) i))
  rw [par_of m' c (carry_arg1_R8 m' c), fbuf_id, fbuf_id, fbuf_id, fbuf_id] at h
  exact h

end Cert.BridgeR

end
-- ==== Proof.RLvl7.lean ====
/-
  One level of the reference's tree recurrence, the level of 4096 nodes with 8192 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS1
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl7

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_82, main_v340, main_v341, main_v342, main_v343, main_v344, main_v345, main_v346,
    main_v347, main_v348, main_v349, main_cst_83, main_v350, main_v351, main_cst_84, main_v352,
    main_v353, main_cst_85, main_v354, main_v355, main_v356, main_v357, main_cst_86, main_v358,
    main_v359, main_v360, main_v361, main_v362, main_v363, main_v364, main_v365, main_v366,
    main_v367, main_v368, main_v369, main_v370, main_cst_87, main_v371, main_v372, main_cst_88,
    main_v373, main_v374, main_v375, main_v376, main_v377, main_v378, main_v379, main_cst_89,
    main_v380, main_v381, main_cst_90, main_v382, main_v383, main_v384, main_v385, main_c_91,
    main_v386, main_v387, main_c_92, main_v388, main_v389, main_v390, main_v391, main_v392,
    main_c_93, main_v393, main_v394, main_c_94, main_v395, main_v396, main_v397, main_v398,
    main_v399, main_v400, main_c_95, main_v401, main_v402, main_v403, main_v404, main_v405,
    main_v406, main_v407, main_v408, main_c_96, main_v409, main_v410, main_c_97, main_v411,
    main_v412, main_v413, main_v414, main_v415, main_v416, main_c_98, main_v417, main_v418,
    main_v419, main_v420, main_v421, main_v422, main_v423, main_v424, main_c_99, main_v425,
    main_v426, main_c_100, main_v427, main_v428, main_v429, main_v430, main_v431, main_c_101,
    main_v432, main_v433, main_c_102, main_v434, main_v435, main_v436, main_v437, main_v438,
    main_c_103, main_v439, main_v440, main_c_104, main_v441, main_v442, main_v443, main_v444,
    main_v445, main_c_105 ]
set_option maxHeartbeats 40000000 in
theorem writes0 : Line.Writes (hostOps0_12 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call6_v0, main_call6_v1, main_call6_v2, main_call6_v3, main_call6_v4, main_call6_v5, main_call6_v6, main_call6_v7,
    main_call6_v8, main_call6_c, main_call6_v9, main_call6_v10, main_call6_v11, main_call6_c_0, main_call6_v12, main_call6_v13,
    main_v446 ]
set_option maxHeartbeats 40000000 in
theorem writes1 : Line.Writes (hostOps0_13 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_106, main_v447, main_v448, main_c_107 ]
set_option maxHeartbeats 40000000 in
theorem writes2 : Line.Writes (hostOps0_14 (F := Ideal) : List (HloOp τ sig (Elt Ideal))) W2 :=
  .cons rfl (.cons rfl (.cons rfl (.cons rfl (.nil))))

abbrev W3 : List (Ref sig .tc) :=
  [
    main_call7_v0, main_call7_c, main_call7_v1, main_call7_c_0, main_call7_v2, main_call7_v3, main_call7_v4, main_call7_c_1,
    main_call7_v5, main_call7_v6, main_call7_c_2, main_call7_v7, main_call7_v8, main_call7_c_3, main_call7_v9, main_call7_v10,
    main_call7_v11, main_call7_v12, main_call7_v13, main_call7_v14, main_v449 ]
set_option maxHeartbeats 40000000 in
theorem writes3 : Line.Writes (hostOps0_15 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_108, main_v450, main_v451, main_v452, main_v453, main_v454, main_v455, main_v456,
    main_v457, main_v458, main_v459, main_cst_109, main_v460, main_v461, main_cst_110, main_v462,
    main_v463, main_cst_111, main_v464, main_v465, main_v466, main_v467, main_cst_112, main_v468,
    main_v469, main_v470, main_v471, main_v472, main_v473, main_v474, main_v475, main_v476,
    main_v477, main_v478, main_v479, main_v480, main_cst_113, main_v481, main_v482, main_cst_114,
    main_v483, main_v484, main_v485, main_v486, main_v487, main_v488, main_v489, main_cst_115,
    main_v490, main_v491, main_cst_116, main_v492, main_v493, main_v494, main_v495, main_c_117,
    main_v496, main_v497, main_c_118, main_v498, main_v499, main_v500, main_v501, main_v502,
    main_c_119, main_v503, main_v504, main_c_120, main_v505, main_v506, main_v507, main_v508,
    main_v509, main_v510, main_c_121, main_v511, main_v512, main_v513, main_v514, main_v515,
    main_v516, main_v517, main_v518, main_c_122, main_v519, main_v520, main_c_123, main_v521,
    main_v522, main_v523, main_v524, main_v525, main_v526, main_c_124, main_v527, main_v528,
    main_v529, main_v530, main_v531, main_v532, main_v533, main_v534, main_c_125, main_v535,
    main_v536, main_c_126, main_v537, main_v538, main_v539, main_v540, main_v541, main_c_127,
    main_v542, main_v543, main_c_128, main_v544, main_v545, main_v546, main_v547, main_v548,
    main_c_129, main_v549, main_v550, main_c_130, main_v551, main_v552, main_v553, main_v554,
    main_v555, main_c_131 ]
set_option maxHeartbeats 40000000 in
theorem writes4 : Line.Writes (hostOps0_16 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S8192 ((StableHlo.after (hostOps0_16 (F := Ideal)) Win) (Proc.devRef .tc main_v452))
      = addi (ibuf S8192 ((StableHlo.after (hostOps0_16 (F := Ideal)) Win) (Proc.devRef .tc main_v448)))
          (subi (ibuf S8192 ((StableHlo.after (hostOps0_16 (F := Ideal)) Win) (Proc.devRef .tc main_v449))) (broadcastInDim S8192 ![] bcast_S_S8192 (constantI S_ 32 127#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 4096) (n : Fin 768) :
    fbuf S4096x768 ((StableHlo.after (hostOps0_16 (F := Ideal)) Win) (Proc.devRef .tc main_v475)) (ix2 i n)
      = (fbuf S4096x768 ((StableHlo.after (hostOps0_16 (F := Ideal)) Win) (Proc.devRef .tc main_v415)) (ix2 i n)
          + ∑ k : Fin 256, fbuf S4096x256 ((StableHlo.after (hostOps0_16 (F := Ideal)) Win) (Proc.devRef .tc main_v466)) (ix2 i k) * fbuf S768x256 ((StableHlo.after (hostOps0_16 (F := Ideal)) Win) (Proc.devRef .tc main_arg4)) (ix2 n k))
        + fbuf S1x768 ((StableHlo.after (hostOps0_16 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S4096x256_S256x768_S4096x768_1_0_0_1_n_n rfl, bcast_row_apply]

/-- The new cell state. -/
theorem s4_hc (i : Fin 4096) (j : Fin 256) :
    fbuf S4096x256 ((StableHlo.after (hostOps0_16 (F := Ideal)) Win) (Proc.devRef .tc main_v487)) (ix2 i j)
      = Ideal.logistic (fbuf S4096x768 ((StableHlo.after (hostOps0_16 (F := Ideal)) Win) (Proc.devRef .tc main_v475)) (ix2 i (c0 j)))
          * Ideal.tanh (fbuf S4096x768 ((StableHlo.after (hostOps0_16 (F := Ideal)) Win) (Proc.devRef .tc main_v475)) (ix2 i (c2 j)))
        + fbuf S4096x256 ((StableHlo.after (hostOps0_16 (F := Ideal)) Win) (Proc.devRef .tc main_v470)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 4096) (j : Fin 256) :
    fbuf S4096x256 ((StableHlo.after (hostOps0_16 (F := Ideal)) Win) (Proc.devRef .tc main_v495)) (ix2 i j)
      = Ideal.logistic (fbuf S4096x768 ((StableHlo.after (hostOps0_16 (F := Ideal)) Win) (Proc.devRef .tc main_v475)) (ix2 i (c1 j)))
          * Ideal.tanh (fbuf S4096x256 ((StableHlo.after (hostOps0_16 (F := Ideal)) Win) (Proc.devRef .tc main_v487)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 8192) (j : Fin 256) :
    fbuf S8192x256 ((StableHlo.after (hostOps0_16 (F := Ideal)) Win) (Proc.devRef .tc main_v463)) (ix2 k j)
      = Ideal.logistic ((∑ k' : Fin 256, fbuf S8192x256 ((StableHlo.after (hostOps0_16 (F := Ideal)) Win) (Proc.devRef .tc main_v431)) (ix2 k k') * fbuf S256x256 ((StableHlo.after (hostOps0_16 (F := Ideal)) Win) (Proc.devRef .tc main_arg6)) (ix2 j k'))
          + fbuf S256 ((StableHlo.after (hostOps0_16 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S8192x256_S256x256_S8192x256_1_0_0_1_n_n rfl,
    bcast_vec_rows_apply]

/-- The children's hidden rows summed per parent slot. -/
theorem s4_hht (i : Fin 4096) (j : Fin 256) :
    fbuf S4096x256 ((StableHlo.after (hostOps0_16 (F := Ideal)) Win) (Proc.devRef .tc main_v466)) (ix2 i j)
      = ∑ k ∈ kids (fun k : Fin 8192 => rowTarget 4096 (ibuf S8192 ((StableHlo.after (hostOps0_16 (F := Ideal)) Win) (Proc.devRef .tc main_v452)) (ix1 k))) i, fbuf S8192x256 ((StableHlo.after (hostOps0_16 (F := Ideal)) Win) (Proc.devRef .tc main_v431)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S4096x256_S8192x1_S8192x256_1_0_0_1 ⟨rfl, rfl, rfl, rfl⟩ _ _ _ _ i j

/-- The children's gated cell rows summed per parent slot. -/
theorem s4_hca (i : Fin 4096) (j : Fin 256) :
    fbuf S4096x256 ((StableHlo.after (hostOps0_16 (F := Ideal)) Win) (Proc.devRef .tc main_v470)) (ix2 i j)
      = ∑ k ∈ kids (fun k : Fin 8192 => rowTarget 4096 (ibuf S8192 ((StableHlo.after (hostOps0_16 (F := Ideal)) Win) (Proc.devRef .tc main_v452)) (ix1 k))) i,
          fbuf S8192x256 ((StableHlo.after (hostOps0_16 (F := Ideal)) Win) (Proc.devRef .tc main_v463)) (ix2 k j) * fbuf S8192x256 ((StableHlo.after (hostOps0_16 (F := Ideal)) Win) (Proc.devRef .tc main_v438)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S4096x256_S8192x1_S8192x256_1_0_0_1 ⟨rfl, rfl, rfl, rfl⟩]
  exact Finset.sum_congr rfl fun k _ => rfl

/-- The new hidden rows are in place at the level's nodes of the whole-forest array. -/
theorem s4_scatter_h
    (hcol : ∀ i : Fin 4096, ibuf S4096x1 ((StableHlo.after (hostOps0_16 (F := Ideal)) Win) (Proc.devRef .tc main_v501)) (ix2 i 0) = nodeWord 128 127 i.val)
    (k : Fin 4096) (j : Fin 256) :
    fbuf S131040x256 ((StableHlo.after (hostOps0_16 (F := Ideal)) Win) (Proc.devRef .tc main_v502)) (ix2 (node 128 127 4096 rfl (by omega) k) j) = fbuf S4096x256 ((StableHlo.after (hostOps0_16 (F := Ideal)) Win) (Proc.devRef .tc main_v495)) (ix2 k j) := by
  simp only [fbuf, ibuf] at hcol ⊢
  have e_v172 := Line.ternary_at writes4 63 Win (hop := rfl) (by decide) (by decide) (by decide) (by decide)
  rw [e_v172]
  exact scatter_rows_hit scatter_S131040x256_S4096x1_S4096x256_1_0_0_1 ⟨rfl, rfl, rfl, rfl⟩ _ _ _
    (fun a b r h h' => rowTarget_nodeWord_injective (nd := 128) (start := 127) rfl (by omega) a b r
      (by rw [← hcol a]; exact h) (by rw [← hcol b]; exact h'))
    k _ (by rw [hcol]; exact rowTarget_nodeWord (nd := 128) (start := 127) rfl (by omega) k) j

/-- The new cell rows are in place at the level's nodes of the whole-forest array. -/
theorem s4_scatter_c
    (hcol : ∀ i : Fin 4096, ibuf S4096x1 ((StableHlo.after (hostOps0_16 (F := Ideal)) Win) (Proc.devRef .tc main_v508)) (ix2 i 0) = nodeWord 128 127 i.val)
    (k : Fin 4096) (j : Fin 256) :
    fbuf S131040x256 ((StableHlo.after (hostOps0_16 (F := Ideal)) Win) (Proc.devRef .tc main_v509)) (ix2 (node 128 127 4096 rfl (by omega) k) j) = fbuf S4096x256 ((StableHlo.after (hostOps0_16 (F := Ideal)) Win) (Proc.devRef .tc main_v487)) (ix2 k j) := by
  simp only [fbuf, ibuf] at hcol ⊢
  have e_v179 := Line.ternary_at writes4 72 Win (hop := rfl) (by decide) (by decide) (by decide) (by decide)
  rw [e_v179]
  exact scatter_rows_hit scatter_S131040x256_S4096x1_S4096x256_1_0_0_1 ⟨rfl, rfl, rfl, rfl⟩ _ _ _
    (fun a b r h h' => rowTarget_nodeWord_injective (nd := 128) (start := 127) rfl (by omega) a b r
      (by rw [← hcol a]; exact h) (by rw [← hcol b]; exact h'))
    k _ (by rw [hcol]; exact rowTarget_nodeWord (nd := 128) (start := 127) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 4096, ibuf S4096x1 ((StableHlo.after (hostOps0_12 (F := Ideal)) Win) (Proc.devRef .tc main_v414)) (ix2 k 0) = nodeWord 128 127 k.val)
    (k : Fin 4096) (j : Fin 768) :
    fbuf S4096x768 ((StableHlo.after (hostOps0_12 (F := Ideal)) Win) (Proc.devRef .tc main_v415)) (ix2 k j) = fbuf S131040x768 ((StableHlo.after (hostOps0_12 (F := Ideal)) Win) (Proc.devRef .tc main_v11)) (ix2 (node 128 127 4096 rfl (by omega) k) j) := by
  simp only [fbuf, ibuf] at hcol ⊢
  have e_v85 := Line.binary_at writes0 91 Win (hop := rfl) (by decide) (by decide) (by decide)
  rw [e_v85]
  rw [gather_rows_apply gather_S131040x768_S4096x1_S4096x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 8192, ibuf S8192x1 ((StableHlo.after (hostOps0_12 (F := Ideal)) Win) (Proc.devRef .tc main_v430)) (ix2 k 0) = nodeWord 256 255 k.val)
    (k : Fin 8192) (j : Fin 256) :
    fbuf S8192x256 ((StableHlo.after (hostOps0_12 (F := Ideal)) Win) (Proc.devRef .tc main_v431)) (ix2 k j) = fbuf S131040x256 ((StableHlo.after (hostOps0_12 (F := Ideal)) Win) (Proc.devRef .tc main_v392)) (ix2 (node 256 255 8192 rfl (by omega) k) j) := by
  simp only [fbuf, ibuf] at hcol ⊢
  have e_v101 := Line.binary_at writes0 110 Win (hop := rfl) (by decide) (by decide) (by decide)
  rw [e_v101]
  rw [gather_rows_apply gather_S131040x256_S8192x1_S8192x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 8192, ibuf S8192x1 ((StableHlo.after (hostOps0_12 (F := Ideal)) Win) (Proc.devRef .tc main_v437)) (ix2 k 0) = nodeWord 256 255 k.val)
    (k : Fin 8192) (j : Fin 256) :
    fbuf S8192x256 ((StableHlo.after (hostOps0_12 (F := Ideal)) Win) (Proc.devRef .tc main_v438)) (ix2 k j) = fbuf S131040x256 ((StableHlo.after (hostOps0_12 (F := Ideal)) Win) (Proc.devRef .tc main_v399)) (ix2 (node 256 255 8192 rfl (by omega) k) j) := by
  simp only [fbuf, ibuf] at hcol ⊢
  have e_v108 := Line.binary_at writes0 119 Win (hop := rfl) (by decide) (by decide) (by decide)
  rw [e_v108]
  rw [gather_rows_apply gather_S131040x256_S8192x1_S8192x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 8192, ibuf S8192x1 ((StableHlo.after (hostOps0_12 (F := Ideal)) Win) (Proc.devRef .tc main_v444)) (ix2 k 0) = nodeWord 256 255 k.val)
    (k : Fin 8192) :
    ibuf S8192 ((StableHlo.after (hostOps0_12 (F := Ideal)) Win) (Proc.devRef .tc main_v445)) (ix1 k) = ibuf S131040 ((StableHlo.after (hostOps0_12 (F := Ideal)) Win) (Proc.devRef .tc main_arg1)) (ix1 (node 256 255 8192 rfl (by omega) k)) := by
  simp only [fbuf, ibuf] at hcol ⊢
  have e_v115 := Line.binary_at writes0 128 Win (hop := rfl) (by decide) (by decide) (by decide)
  rw [e_v115]
  rw [gather_vec_apply gather_S131040_S8192x1_S8192_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_12 (F := Ideal)) Win) (Proc.devRef .tc main_c_105)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S8192 32) (c : IVec S_ 32) : IVec S8192 32 :=
  select (andi (cmpi .ne (signi p) (broadcastInDim S8192 ![] bcast_S_S8192 (signi c))) (cmpi .ne (Host.remsi p (broadcastInDim S8192 ![] bcast_S_S8192 c)) (broadcastInDim S8192 ![] bcast_S_S8192 (constantI S_ 32 0#32))))
    (subi (Host.divsi p (broadcastInDim S8192 ![] bcast_S_S8192 c)) (broadcastInDim S8192 ![] bcast_S_S8192 (constantI S_ 32 1#32))) (Host.divsi p (broadcastInDim S8192 ![] bcast_S_S8192 c))

/-- The reference's remainder of a vector of words by a scalar word (a zero divisor replaced by one): the truncated
    remainder, the divisor added where its sign differs from the divisor's and it is not zero. -/
def remF (p : IVec S8192 32) (c : IVec S_ 32) : IVec S8192 32 :=
  select (andi (cmpi .ne (cmpi .slt (Host.remsi p (broadcastInDim S8192 ![] bcast_S_S8192 (select (cmpi .eq c (constantI S_ 32 0#32)) (constantI S_ 32 1#32) c))) (broadcastInDim S8192 ![] bcast_S_S8192 (constantI S_ 32 0#32))) (broadcastInDim S8192 ![] bcast_S_S8192 (cmpi .slt (select (cmpi .eq c (constantI S_ 32 0#32)) (constantI S_ 32 1#32) c) (constantI S_ 32 0#32)))) (cmpi .ne (Host.remsi p (broadcastInDim S8192 ![] bcast_S_S8192 (select (cmpi .eq c (constantI S_ 32 0#32)) (constantI S_ 32 1#32) c))) (broadcastInDim S8192 ![] bcast_S_S8192 (constantI S_ 32 0#32))))
    (addi (Host.remsi p (broadcastInDim S8192 ![] bcast_S_S8192 (select (cmpi .eq c (constantI S_ 32 0#32)) (constantI S_ 32 1#32) c))) (broadcastInDim S8192 ![] bcast_S_S8192 (select (cmpi .eq c (constantI S_ 32 0#32)) (constantI S_ 32 1#32) c))) (Host.remsi p (broadcastInDim S8192 ![] bcast_S_S8192 (select (cmpi .eq c (constantI S_ 32 0#32)) (constantI S_ 32 1#32) c)))

/-- The routing word of a child from its parent word `p`: `(p // 4095) * 128 + (p % 4095 - 127)`. -/
def segFun (p : IVec S8192 32) : IVec S8192 32 :=
  addi (muli (fdivF p (constantI S_ 32 4095#32)) (broadcastInDim S8192 ![] bcast_S_S8192 (constantI S_ 32 128#32))) (subi (remF p (constantI S_ 32 4095#32)) (broadcastInDim S8192 ![] bcast_S_S8192 (constantI S_ 32 127#32)))

section Stretch123

variable (Win : Valuation τ sig (Elt Ideal))

set_option maxHeartbeats 4000000 in
/-- The quotient part. -/
theorem s1_v116 :
    ibuf S8192 ((StableHlo.after (hostOps0_13 (F := Ideal)) Win) (Proc.devRef .tc main_v446)) = fdivF (ibuf S8192 (Win (Proc.devRef .tc main_v445))) (ibuf S_ (Win (Proc.devRef .tc main_c_105))) := by
  unfold fdivF
  after_results_simp
  <;> (try simp only [TRef.ofBuf, TRef.toBuf, cast_eq]) <;> rfl

/-- The quotient part times the level's nodes per graph. -/
theorem s2_v118 :
    ibuf S8192 ((StableHlo.after (hostOps0_14 (F := Ideal)) Win) (Proc.devRef .tc main_v448)) = muli (ibuf S8192 (Win (Proc.devRef .tc main_v446))) (broadcastInDim S8192 ![] bcast_S_S8192 (constantI S_ 32 128#32)) := by
  after_results_simp
  <;> rfl

/-- The divisor the remainder part is taken by. -/
theorem s2_c29 : ibuf S_ ((StableHlo.after (hostOps0_14 (F := Ideal)) Win) (Proc.devRef .tc main_c_107)) = constantI S_ 32 4095#32 := by
  after_results_simp
  <;> rfl

set_option maxHeartbeats 4000000 in
/-- The remainder part. -/
theorem s3_v119 :
    ibuf S8192 ((StableHlo.after (hostOps0_15 (F := Ideal)) Win) (Proc.devRef .tc main_v449)) = remF (ibuf S8192 (Win (Proc.devRef .tc main_v445))) (ibuf S_ (Win (Proc.devRef .tc main_c_107))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_12 (F := Ideal)) V0
local notation "V2" => StableHlo.after (hostOps0_13 (F := Ideal)) V1
local notation "V3" => StableHlo.after (hostOps0_14 (F := Ideal)) V2
local notation "V4" => StableHlo.after (hostOps0_15 (F := Ideal)) V3
local notation "V5" => StableHlo.after (hostOps0_16 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S8192 (V5 (Proc.devRef .tc main_v452)) = segFun (ibuf S8192 (V1 (Proc.devRef .tc main_v445))) := by
  rw [s4_seg V4, Line.keep writes4 V4 (r := main_v448) (by decide), Line.keep writes3 V3 (r := main_v448) (by decide),
    s2_v118 V2, s1_v116 V1, s0_c27 V0, Line.keep writes4 V4 (r := main_v449) (by decide), s3_v119 V3,
    Line.keep writes2 V2 (r := main_v445) (by decide), Line.keep writes1 V1 (r := main_v445) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 4096, ibuf S4096x1 (V1 (Proc.devRef .tc main_v414)) (ix2 i 0) = nodeWord 128 127 i.val)
    (h100 : ∀ k : Fin 8192, ibuf S8192x1 (V1 (Proc.devRef .tc main_v430)) (ix2 k 0) = nodeWord 256 255 k.val)
    (h107 : ∀ k : Fin 8192, ibuf S8192x1 (V1 (Proc.devRef .tc main_v437)) (ix2 k 0) = nodeWord 256 255 k.val)
    (h114 : ∀ k : Fin 8192, ibuf S8192x1 (V1 (Proc.devRef .tc main_v444)) (ix2 k 0) = nodeWord 256 255 k.val)
    (h78 : ∀ i : Fin 4096, ibuf S4096 (V1 (Proc.devRef .tc main_v408)) (ix1 i) = nodeWord 128 127 i.val)
    (h171 : (∀ i : Fin 4096, ibuf S4096 (V4 (Proc.devRef .tc main_v408)) (ix1 i) = nodeWord 128 127 i.val) →
      ∀ i : Fin 4096, ibuf S4096x1 (V5 (Proc.devRef .tc main_v501)) (ix2 i 0) = nodeWord 128 127 i.val)
    (h178 : (∀ i : Fin 4096, ibuf S4096 (V4 (Proc.devRef .tc main_v408)) (ix1 i) = nodeWord 128 127 i.val) →
      ∀ i : Fin 4096, ibuf S4096x1 (V5 (Proc.devRef .tc main_v508)) (ix2 i 0) = nodeWord 128 127 i.val) :
    Chain.RLevel 128 127 256 255 rfl (by omega) rfl (by omega) w G (ibuf S131040 (V0 (Proc.devRef .tc main_arg1))) segFun
      (fbuf S131040x256 (V1 (Proc.devRef .tc main_v392))) (fbuf S131040x256 (V1 (Proc.devRef .tc main_v399)))
      (fbuf S131040x256 (V5 (Proc.devRef .tc main_v502))) (fbuf S131040x256 (V5 (Proc.devRef .tc main_v509))) := by
  have h78' : ∀ i : Fin 4096, ibuf S4096 (V4 (Proc.devRef .tc main_v408)) (ix1 i) = nodeWord 128 127 i.val := fun i => by
    rw [Line.keep writes3 V3 (r := main_v408) (by decide), Line.keep writes2 V2 (r := main_v408) (by decide),
      Line.keep writes1 V1 (r := main_v408) (by decide)]
    exact h78 i
  refine ⟨fbuf S131040x768 (V1 (Proc.devRef .tc main_v11)), fbuf S8192x256 (V1 (Proc.devRef .tc main_v431)), fbuf S8192x256 (V1 (Proc.devRef .tc main_v438)),
    fbuf S8192x256 (V5 (Proc.devRef .tc main_v463)), ibuf S8192 (V1 (Proc.devRef .tc main_v445)), ibuf S8192 (V5 (Proc.devRef .tc main_v452)),
    fbuf S4096x768 (V1 (Proc.devRef .tc main_v415)), fbuf S4096x768 (V5 (Proc.devRef .tc main_v475)), fbuf S4096x256 (V5 (Proc.devRef .tc main_v466)),
    fbuf S4096x256 (V5 (Proc.devRef .tc main_v470)), fbuf S4096x256 (V5 (Proc.devRef .tc main_v487)), fbuf S4096x256 (V5 (Proc.devRef .tc main_v495)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v431) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v431) (by decide) (by decide) (by decide) (by decide)] at h
    exact h
  · intro i j
    have h := s4_hca V4 i j
    rw [keep51 V0 (r := main_v438) (by decide) (by decide) (by decide) (by decide)] at h
    exact h
  · intro i n
    have h := s4_hz V4 i n
    rw [keep51 V0 (r := main_v415) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl7

end
-- ==== Proof.RIdx16.lean ====
/-
  The reference's index vectors in the stretch of host operations that ends the level with 128 nodes per graph and
  begins the level with 64, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS1
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W16 : List (Ref sig .tc) :=
  [main_c_108, main_v450, main_v451, main_v452, main_v453, main_v454, main_v455, main_v456,
    main_v457, main_v458, main_v459, main_cst_109, main_v460, main_v461, main_cst_110, main_v462,
    main_v463, main_cst_111, main_v464, main_v465, main_v466, main_v467, main_cst_112, main_v468,
    main_v469, main_v470, main_v471, main_v472, main_v473, main_v474, main_v475, main_v476,
    main_v477, main_v478, main_v479, main_v480, main_cst_113, main_v481, main_v482, main_cst_114,
    main_v483, main_v484, main_v485, main_v486, main_v487, main_v488, main_v489, main_cst_115,
    main_v490, main_v491, main_cst_116, main_v492, main_v493, main_v494, main_v495, main_c_117,
    main_v496, main_v497, main_c_118, main_v498, main_v499, main_v500, main_v501, main_v502,
    main_c_119, main_v503, main_v504, main_c_120, main_v505, main_v506, main_v507, main_v508,
    main_v509, main_v510, main_c_121, main_v511, main_v512, main_v513, main_v514, main_v515,
    main_v516, main_v517, main_v518, main_c_122, main_v519, main_v520, main_c_123, main_v521,
    main_v522, main_v523, main_v524, main_v525, main_v526, main_c_124, main_v527, main_v528,
    main_v529, main_v530, main_v531, main_v532, main_v533, main_v534, main_c_125, main_v535,
    main_v536, main_c_126, main_v537, main_v538, main_v539, main_v540, main_v541, main_c_127,
    main_v542, main_v543, main_c_128, main_v544, main_v545, main_v546, main_v547, main_v548,
    main_c_129, main_v549, main_v550, main_c_130, main_v551, main_v552, main_v553, main_v554,
    main_v555, main_c_131 ]

set_option maxHeartbeats 4000000 in
theorem writes16 : Writes (hostOps0_16 : List (HloOp τ sig (Elt F))) W16 := by
  repeat (first | exact .nil | refine .cons rfl ?_)

variable (Win : Valuation τ sig (Elt F))

/-! ### The ending level: 128 nodes per graph from offset 127 -/

theorem s16_v501 (hids : ∀ i : Fin 4096, Win (Proc.devRef .tc main_v408) (ix1 i) = nodeWord 128 127 i.val) (i : Fin 4096) :
    after hostOps0_16 Win (Proc.devRef .tc main_v501) (ix2 i 0) = nodeWord 128 127 i.val := by
  normCol_eqs writes16 55
  rw [keep writes16 Win (r := main_v408) (by decide)]
  exact normCol_nodeWord (nd := 128) rfl (by omega) _ _ _ _ _ i (hids i)

theorem s16_v508 (hids : ∀ i : Fin 4096, Win (Proc.devRef .tc main_v408) (ix1 i) = nodeWord 128 127 i.val) (i : Fin 4096) :
    after hostOps0_16 Win (Proc.devRef .tc main_v508) (ix2 i 0) = nodeWord 128 127 i.val := by
  normCol_eqs writes16 64
  rw [keep writes16 Win (r := main_v408) (by decide)]
  exact normCol_nodeWord (nd := 128) rfl (by omega) _ _ _ _ _ i (hids i)

/-! ### The beginning level: 64 nodes per graph from offset 63, its children the ending level's nodes -/

theorem s16_v518 (h16 : ∀ b : Fin 32, Win (Proc.devRef .tc main_v16) (ix1 b) = BitVec.ofNat 32 b.val * 4095#32) (i : Fin 2048) :
    after hostOps0_16 Win (Proc.devRef .tc main_v518) (ix1 i) = nodeWord 64 63 i.val := by
  nids_eqs writes16 73
  rw [keep writes16 Win (r := main_v16) (by decide)]
  exact nids_apply (nd := 64) rfl 63 _ h16 _ _ _ _ _ _ i

theorem s16_v524 (h16 : ∀ b : Fin 32, Win (Proc.devRef .tc main_v16) (ix1 b) = BitVec.ofNat 32 b.val * 4095#32) (i : Fin 2048) :
    after hostOps0_16 Win (Proc.devRef .tc main_v524) (ix2 i 0) = nodeWord 64 63 i.val := by
  normCol_eqs writes16 83
  exact normCol_nodeWord (nd := 64) rfl (by omega) _ _ _ _ _ i (s16_v518 Win h16 i)

theorem s16_v534 (h16 : ∀ b : Fin 32, Win (Proc.devRef .tc main_v16) (ix1 b) = BitVec.ofNat 32 b.val * 4095#32) (i : Fin 4096) :
    after hostOps0_16 Win (Proc.devRef .tc main_v534) (ix1 i) = nodeWord 128 127 i.val := by
  nids_eqs writes16 92
  rw [keep writes16 Win (r := main_v16) (by decide)]
  exact nids_apply (nd := 128) rfl 127 _ h16 _ _ _ _ _ _ i

theorem s16_v540 (h16 : ∀ b : Fin 32, Win (Proc.devRef .tc main_v16) (ix1 b) = BitVec.ofNat 32 b.val * 4095#32) (i : Fin 4096) :
    after hostOps0_16 Win (Proc.devRef .tc main_v540) (ix2 i 0) = nodeWord 128 127 i.val := by
  normCol_eqs writes16 102
  exact normCol_nodeWord (nd := 128) rfl (by omega) _ _ _ _ _ i (s16_v534 Win h16 i)

theorem s16_v547 (h16 : ∀ b : Fin 32, Win (Proc.devRef .tc main_v16) (ix1 b) = BitVec.ofNat 32 b.val * 4095#32) (i : Fin 4096) :
    after hostOps0_16 Win (Proc.devRef .tc main_v547) (ix2 i 0) = nodeWord 128 127 i.val := by
  normCol_eqs writes16 111
  exact normCol_nodeWord (nd := 128) rfl (by omega) _ _ _ _ _ i (s16_v534 Win h16 i)

theorem s16_v554 (h16 : ∀ b : Fin 32, Win (Proc.devRef .tc main_v16) (ix1 b) = BitVec.ofNat 32 b.val * 4095#32) (i : Fin 4096) :
    after hostOps0_16 Win (Proc.devRef .tc main_v554) (ix2 i 0) = nodeWord 128 127 i.val := by
  normCol_eqs writes16 120
  exact normCol_nodeWord (nd := 128) rfl (by omega) _ _ _ _ _ i (s16_v534 Win h16 i)

end Cert.ReferenceIdeal.Idx

end
-- ==== Proof.BridgeRL7.lean ====
/-
  Level 7 of the reference's side of the chain: the level's stretches run from the contents after stretch 11. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl7
import proofs.«419362_j66683662237734_3_alg».proof.Proof.RIdx12
import proofs.«419362_j66683662237734_3_alg».proof.Proof.RIdx16

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 7, from level 8's arrays to its own. -/
theorem rlevel7 : Chain.RLevel 128 127 256 255 (rfl : 4096 = 32 * 128) (by omega) (rfl : 8192 = 32 * 256) (by omega)
    (wR m' c) (GR m' c) (parR m' c) Lvl7.segFun (harr8 m' c) (carr8 m' c) (harr7 m' c) (carr7 m' c) := by
  have h16 : ∀ b : Fin 32, R12 m' c (Proc.devRef .tc main_v16) (ix1 b) = BitVec.ofNat 32 b.val * 4095#32 :=
    offs_of m' c (carry_v16_R12 m' c)
  have h := Lvl7.rlevel (R12 m' c) (wR m' c) (GR m' c)
    (hU_of m' c (carry_arg4_R12 m' c)) (hbI_of m' c (carry_arg5_R12 m' c))
    (hUf_of m' c (carry_arg6_R12 m' c)) (hbF_of m' c (carry_arg7_R12 m' c))
    (iou_of m' c (carry_v11_R13 m' c))
    (fun i => col_in (Idx.s12_v414 (R12 m' c) h16 i)) (fun k => col_in (Idx.s12_v430 (R12 m' c) h16 k))
    (fun k => col_in (Idx.s12_v437 (R12 m' c) h16 k)) (fun k => col_in (Idx.s12_v444 (R12 m' c) h16 k))
    (fun i => col_in (Idx.s12_v408 (R12 m' c) h16 i))
    (fun hids i => col_in (Idx.s16_v501 (R16 m' c) (fun i' => col_out (hids i')) i))
    (fun hids i => col_in (Idx.s16_v508 (R16 m' c) (fun i' => col_out (hids i')) i))
  rw [par_of m' c (carry_arg1_R12 m' c), fbuf_id, fbuf_id, fbuf_id, fbuf_id] at h
  exact h

end Cert.BridgeR

end
-- ==== Proof.RLvl6.lean ====
/-
  One level of the reference's tree recurrence, the level of 2048 nodes with 4096 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS1
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl6

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_108, main_v450, main_v451, main_v452, main_v453, main_v454, main_v455, main_v456,
    main_v457, main_v458, main_v459, main_cst_109, main_v460, main_v461, main_cst_110, main_v462,
    main_v463, main_cst_111, main_v464, main_v465, main_v466, main_v467, main_cst_112, main_v468,
    main_v469, main_v470, main_v471, main_v472, main_v473, main_v474, main_v475, main_v476,
    main_v477, main_v478, main_v479, main_v480, main_cst_113, main_v481, main_v482, main_cst_114,
    main_v483, main_v484, main_v485, main_v486, main_v487, main_v488, main_v489, main_cst_115,
    main_v490, main_v491, main_cst_116, main_v492, main_v493, main_v494, main_v495, main_c_117,
    main_v496, main_v497, main_c_118, main_v498, main_v499, main_v500, main_v501, main_v502,
    main_c_119, main_v503, main_v504, main_c_120, main_v505, main_v506, main_v507, main_v508,
    main_v509, main_v510, main_c_121, main_v511, main_v512, main_v513, main_v514, main_v515,
    main_v516, main_v517, main_v518, main_c_122, main_v519, main_v520, main_c_123, main_v521,
    main_v522, main_v523, main_v524, main_v525, main_v526, main_c_124, main_v527, main_v528,
    main_v529, main_v530, main_v531, main_v532, main_v533, main_v534, main_c_125, main_v535,
    main_v536, main_c_126, main_v537, main_v538, main_v539, main_v540, main_v541, main_c_127,
    main_v542, main_v543, main_c_128, main_v544, main_v545, main_v546, main_v547, main_v548,
    main_c_129, main_v549, main_v550, main_c_130, main_v551, main_v552, main_v553, main_v554,
    main_v555, main_c_131 ]
set_option maxHeartbeats 40000000 in
theorem writes0 : Line.Writes (hostOps0_16 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call8_v0, main_call8_v1, main_call8_v2, main_call8_v3, main_call8_v4, main_call8_v5, main_call8_v6, main_call8_v7,
    main_call8_v8, main_call8_c, main_call8_v9, main_call8_v10, main_call8_v11, main_call8_c_0, main_call8_v12, main_call8_v13,
    main_v556 ]
set_option maxHeartbeats 40000000 in
theorem writes1 : Line.Writes (hostOps0_17 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_132, main_v557, main_v558, main_c_133 ]
set_option maxHeartbeats 40000000 in
theorem writes2 : Line.Writes (hostOps0_18 (F := Ideal) : List (HloOp τ sig (Elt Ideal))) W2 :=
  .cons rfl (.cons rfl (.cons rfl (.cons rfl (.nil))))

abbrev W3 : List (Ref sig .tc) :=
  [
    main_call9_v0, main_call9_c, main_call9_v1, main_call9_c_0, main_call9_v2, main_call9_v3, main_call9_v4, main_call9_c_1,
    main_call9_v5, main_call9_v6, main_call9_c_2, main_call9_v7, main_call9_v8, main_call9_c_3, main_call9_v9, main_call9_v10,
    main_call9_v11, main_call9_v12, main_call9_v13, main_call9_v14, main_v559 ]
set_option maxHeartbeats 40000000 in
theorem writes3 : Line.Writes (hostOps0_19 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_134, main_v560, main_v561, main_v562, main_v563, main_v564, main_v565, main_v566,
    main_v567, main_v568, main_v569, main_cst_135, main_v570, main_v571, main_cst_136, main_v572,
    main_v573, main_cst_137, main_v574, main_v575, main_v576, main_v577, main_cst_138, main_v578,
    main_v579, main_v580, main_v581, main_v582, main_v583, main_v584, main_v585, main_v586,
    main_v587, main_v588, main_v589, main_v590, main_cst_139, main_v591, main_v592, main_cst_140,
    main_v593, main_v594, main_v595, main_v596, main_v597, main_v598, main_v599, main_cst_141,
    main_v600, main_v601, main_cst_142, main_v602, main_v603, main_v604, main_v605, main_c_143,
    main_v606, main_v607, main_c_144, main_v608, main_v609, main_v610, main_v611, main_v612,
    main_c_145, main_v613, main_v614, main_c_146, main_v615, main_v616, main_v617, main_v618,
    main_v619, main_v620, main_c_147, main_v621, main_v622, main_v623, main_v624, main_v625,
    main_v626, main_v627, main_v628, main_c_148, main_v629, main_v630, main_c_149, main_v631,
    main_v632, main_v633, main_v634, main_v635, main_v636, main_c_150, main_v637, main_v638,
    main_v639, main_v640, main_v641, main_v642, main_v643, main_v644, main_c_151, main_v645,
    main_v646, main_c_152, main_v647, main_v648, main_v649, main_v650, main_v651, main_c_153,
    main_v652, main_v653, main_c_154, main_v654, main_v655, main_v656, main_v657, main_v658,
    main_c_155, main_v659, main_v660, main_c_156, main_v661, main_v662, main_v663, main_v664,
    main_v665, main_c_157 ]
set_option maxHeartbeats 40000000 in
theorem writes4 : Line.Writes (hostOps0_20 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S4096 ((StableHlo.after (hostOps0_20 (F := Ideal)) Win) (Proc.devRef .tc main_v562))
      = addi (ibuf S4096 ((StableHlo.after (hostOps0_20 (F := Ideal)) Win) (Proc.devRef .tc main_v558)))
          (subi (ibuf S4096 ((StableHlo.after (hostOps0_20 (F := Ideal)) Win) (Proc.devRef .tc main_v559))) (broadcastInDim S4096 ![] bcast_S_S4096 (constantI S_ 32 63#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 2048) (n : Fin 768) :
    fbuf S2048x768 ((StableHlo.after (hostOps0_20 (F := Ideal)) Win) (Proc.devRef .tc main_v585)) (ix2 i n)
      = (fbuf S2048x768 ((StableHlo.after (hostOps0_20 (F := Ideal)) Win) (Proc.devRef .tc main_v525)) (ix2 i n)
          + ∑ k : Fin 256, fbuf S2048x256 ((StableHlo.after (hostOps0_20 (F := Ideal)) Win) (Proc.devRef .tc main_v576)) (ix2 i k) * fbuf S768x256 ((StableHlo.after (hostOps0_20 (F := Ideal)) Win) (Proc.devRef .tc main_arg4)) (ix2 n k))
        + fbuf S1x768 ((StableHlo.after (hostOps0_20 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S2048x256_S256x768_S2048x768_1_0_0_1_n_n rfl, bcast_row_apply]

/-- The new cell state. -/
theorem s4_hc (i : Fin 2048) (j : Fin 256) :
    fbuf S2048x256 ((StableHlo.after (hostOps0_20 (F := Ideal)) Win) (Proc.devRef .tc main_v597)) (ix2 i j)
      = Ideal.logistic (fbuf S2048x768 ((StableHlo.after (hostOps0_20 (F := Ideal)) Win) (Proc.devRef .tc main_v585)) (ix2 i (c0 j)))
          * Ideal.tanh (fbuf S2048x768 ((StableHlo.after (hostOps0_20 (F := Ideal)) Win) (Proc.devRef .tc main_v585)) (ix2 i (c2 j)))
        + fbuf S2048x256 ((StableHlo.after (hostOps0_20 (F := Ideal)) Win) (Proc.devRef .tc main_v580)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 2048) (j : Fin 256) :
    fbuf S2048x256 ((StableHlo.after (hostOps0_20 (F := Ideal)) Win) (Proc.devRef .tc main_v605)) (ix2 i j)
      = Ideal.logistic (fbuf S2048x768 ((StableHlo.after (hostOps0_20 (F := Ideal)) Win) (Proc.devRef .tc main_v585)) (ix2 i (c1 j)))
          * Ideal.tanh (fbuf S2048x256 ((StableHlo.after (hostOps0_20 (F := Ideal)) Win) (Proc.devRef .tc main_v597)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 4096) (j : Fin 256) :
    fbuf S4096x256 ((StableHlo.after (hostOps0_20 (F := Ideal)) Win) (Proc.devRef .tc main_v573)) (ix2 k j)
      = Ideal.logistic ((∑ k' : Fin 256, fbuf S4096x256 ((StableHlo.after (hostOps0_20 (F := Ideal)) Win) (Proc.devRef .tc main_v541)) (ix2 k k') * fbuf S256x256 ((StableHlo.after (hostOps0_20 (F := Ideal)) Win) (Proc.devRef .tc main_arg6)) (ix2 j k'))
          + fbuf S256 ((StableHlo.after (hostOps0_20 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S4096x256_S256x256_S4096x256_1_0_0_1_n_n rfl,
    bcast_vec_rows_apply]

/-- The children's hidden rows summed per parent slot. -/
theorem s4_hht (i : Fin 2048) (j : Fin 256) :
    fbuf S2048x256 ((StableHlo.after (hostOps0_20 (F := Ideal)) Win) (Proc.devRef .tc main_v576)) (ix2 i j)
      = ∑ k ∈ kids (fun k : Fin 4096 => rowTarget 2048 (ibuf S4096 ((StableHlo.after (hostOps0_20 (F := Ideal)) Win) (Proc.devRef .tc main_v562)) (ix1 k))) i, fbuf S4096x256 ((StableHlo.after (hostOps0_20 (F := Ideal)) Win) (Proc.devRef .tc main_v541)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S2048x256_S4096x1_S4096x256_1_0_0_1 ⟨rfl, rfl, rfl, rfl⟩ _ _ _ _ i j

/-- The children's gated cell rows summed per parent slot. -/
theorem s4_hca (i : Fin 2048) (j : Fin 256) :
    fbuf S2048x256 ((StableHlo.after (hostOps0_20 (F := Ideal)) Win) (Proc.devRef .tc main_v580)) (ix2 i j)
      = ∑ k ∈ kids (fun k : Fin 4096 => rowTarget 2048 (ibuf S4096 ((StableHlo.after (hostOps0_20 (F := Ideal)) Win) (Proc.devRef .tc main_v562)) (ix1 k))) i,
          fbuf S4096x256 ((StableHlo.after (hostOps0_20 (F := Ideal)) Win) (Proc.devRef .tc main_v573)) (ix2 k j) * fbuf S4096x256 ((StableHlo.after (hostOps0_20 (F := Ideal)) Win) (Proc.devRef .tc main_v548)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S2048x256_S4096x1_S4096x256_1_0_0_1 ⟨rfl, rfl, rfl, rfl⟩]
  exact Finset.sum_congr rfl fun k _ => rfl

/-- The new hidden rows are in place at the level's nodes of the whole-forest array. -/
theorem s4_scatter_h
    (hcol : ∀ i : Fin 2048, ibuf S2048x1 ((StableHlo.after (hostOps0_20 (F := Ideal)) Win) (Proc.devRef .tc main_v611)) (ix2 i 0) = nodeWord 64 63 i.val)
    (k : Fin 2048) (j : Fin 256) :
    fbuf S131040x256 ((StableHlo.after (hostOps0_20 (F := Ideal)) Win) (Proc.devRef .tc main_v612)) (ix2 (node 64 63 2048 rfl (by omega) k) j) = fbuf S2048x256 ((StableHlo.after (hostOps0_20 (F := Ideal)) Win) (Proc.devRef .tc main_v605)) (ix2 k j) := by
  simp only [fbuf, ibuf] at hcol ⊢
  have e_v172 := Line.ternary_at writes4 63 Win (hop := rfl) (by decide) (by decide) (by decide) (by decide)
  rw [e_v172]
  exact scatter_rows_hit scatter_S131040x256_S2048x1_S2048x256_1_0_0_1 ⟨rfl, rfl, rfl, rfl⟩ _ _ _
    (fun a b r h h' => rowTarget_nodeWord_injective (nd := 64) (start := 63) rfl (by omega) a b r
      (by rw [← hcol a]; exact h) (by rw [← hcol b]; exact h'))
    k _ (by rw [hcol]; exact rowTarget_nodeWord (nd := 64) (start := 63) rfl (by omega) k) j

/-- The new cell rows are in place at the level's nodes of the whole-forest array. -/
theorem s4_scatter_c
    (hcol : ∀ i : Fin 2048, ibuf S2048x1 ((StableHlo.after (hostOps0_20 (F := Ideal)) Win) (Proc.devRef .tc main_v618)) (ix2 i 0) = nodeWord 64 63 i.val)
    (k : Fin 2048) (j : Fin 256) :
    fbuf S131040x256 ((StableHlo.after (hostOps0_20 (F := Ideal)) Win) (Proc.devRef .tc main_v619)) (ix2 (node 64 63 2048 rfl (by omega) k) j) = fbuf S2048x256 ((StableHlo.after (hostOps0_20 (F := Ideal)) Win) (Proc.devRef .tc main_v597)) (ix2 k j) := by
  simp only [fbuf, ibuf] at hcol ⊢
  have e_v179 := Line.ternary_at writes4 72 Win (hop := rfl) (by decide) (by decide) (by decide) (by decide)
  rw [e_v179]
  exact scatter_rows_hit scatter_S131040x256_S2048x1_S2048x256_1_0_0_1 ⟨rfl, rfl, rfl, rfl⟩ _ _ _
    (fun a b r h h' => rowTarget_nodeWord_injective (nd := 64) (start := 63) rfl (by omega) a b r
      (by rw [← hcol a]; exact h) (by rw [← hcol b]; exact h'))
    k _ (by rw [hcol]; exact rowTarget_nodeWord (nd := 64) (start := 63) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 2048, ibuf S2048x1 ((StableHlo.after (hostOps0_16 (F := Ideal)) Win) (Proc.devRef .tc main_v524)) (ix2 k 0) = nodeWord 64 63 k.val)
    (k : Fin 2048) (j : Fin 768) :
    fbuf S2048x768 ((StableHlo.after (hostOps0_16 (F := Ideal)) Win) (Proc.devRef .tc main_v525)) (ix2 k j) = fbuf S131040x768 ((StableHlo.after (hostOps0_16 (F := Ideal)) Win) (Proc.devRef .tc main_v11)) (ix2 (node 64 63 2048 rfl (by omega) k) j) := by
  simp only [fbuf, ibuf] at hcol ⊢
  have e_v85 := Line.binary_at writes0 91 Win (hop := rfl) (by decide) (by decide) (by decide)
  rw [e_v85]
  rw [gather_rows_apply gather_S131040x768_S2048x1_S2048x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 4096, ibuf S4096x1 ((StableHlo.after (hostOps0_16 (F := Ideal)) Win) (Proc.devRef .tc main_v540)) (ix2 k 0) = nodeWord 128 127 k.val)
    (k : Fin 4096) (j : Fin 256) :
    fbuf S4096x256 ((StableHlo.after (hostOps0_16 (F := Ideal)) Win) (Proc.devRef .tc main_v541)) (ix2 k j) = fbuf S131040x256 ((StableHlo.after (hostOps0_16 (F := Ideal)) Win) (Proc.devRef .tc main_v502)) (ix2 (node 128 127 4096 rfl (by omega) k) j) := by
  simp only [fbuf, ibuf] at hcol ⊢
  have e_v101 := Line.binary_at writes0 110 Win (hop := rfl) (by decide) (by decide) (by decide)
  rw [e_v101]
  rw [gather_rows_apply gather_S131040x256_S4096x1_S4096x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 4096, ibuf S4096x1 ((StableHlo.after (hostOps0_16 (F := Ideal)) Win) (Proc.devRef .tc main_v547)) (ix2 k 0) = nodeWord 128 127 k.val)
    (k : Fin 4096) (j : Fin 256) :
    fbuf S4096x256 ((StableHlo.after (hostOps0_16 (F := Ideal)) Win) (Proc.devRef .tc main_v548)) (ix2 k j) = fbuf S131040x256 ((StableHlo.after (hostOps0_16 (F := Ideal)) Win) (Proc.devRef .tc main_v509)) (ix2 (node 128 127 4096 rfl (by omega) k) j) := by
  simp only [fbuf, ibuf] at hcol ⊢
  have e_v108 := Line.binary_at writes0 119 Win (hop := rfl) (by decide) (by decide) (by decide)
  rw [e_v108]
  rw [gather_rows_apply gather_S131040x256_S4096x1_S4096x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 4096, ibuf S4096x1 ((StableHlo.after (hostOps0_16 (F := Ideal)) Win) (Proc.devRef .tc main_v554)) (ix2 k 0) = nodeWord 128 127 k.val)
    (k : Fin 4096) :
    ibuf S4096 ((StableHlo.after (hostOps0_16 (F := Ideal)) Win) (Proc.devRef .tc main_v555)) (ix1 k) = ibuf S131040 ((StableHlo.after (hostOps0_16 (F := Ideal)) Win) (Proc.devRef .tc main_arg1)) (ix1 (node 128 127 4096 rfl (by omega) k)) := by
  simp only [fbuf, ibuf] at hcol ⊢
  have e_v115 := Line.binary_at writes0 128 Win (hop := rfl) (by decide) (by decide) (by decide)
  rw [e_v115]
  rw [gather_vec_apply gather_S131040_S4096x1_S4096_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_16 (F := Ideal)) Win) (Proc.devRef .tc main_c_131)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S4096 32) (c : IVec S_ 32) : IVec S4096 32 :=
  select (andi (cmpi .ne (signi p) (broadcastInDim S4096 ![] bcast_S_S4096 (signi c))) (cmpi .ne (Host.remsi p (broadcastInDim S4096 ![] bcast_S_S4096 c)) (broadcastInDim S4096 ![] bcast_S_S4096 (constantI S_ 32 0#32))))
    (subi (Host.divsi p (broadcastInDim S4096 ![] bcast_S_S4096 c)) (broadcastInDim S4096 ![] bcast_S_S4096 (constantI S_ 32 1#32))) (Host.divsi p (broadcastInDim S4096 ![] bcast_S_S4096 c))

/-- The reference's remainder of a vector of words by a scalar word (a zero divisor replaced by one): the truncated
    remainder, the divisor added where its sign differs from the divisor's and it is not zero. -/
def remF (p : IVec S4096 32) (c : IVec S_ 32) : IVec S4096 32 :=
  select (andi (cmpi .ne (cmpi .slt (Host.remsi p (broadcastInDim S4096 ![] bcast_S_S4096 (select (cmpi .eq c (constantI S_ 32 0#32)) (constantI S_ 32 1#32) c))) (broadcastInDim S4096 ![] bcast_S_S4096 (constantI S_ 32 0#32))) (broadcastInDim S4096 ![] bcast_S_S4096 (cmpi .slt (select (cmpi .eq c (constantI S_ 32 0#32)) (constantI S_ 32 1#32) c) (constantI S_ 32 0#32)))) (cmpi .ne (Host.remsi p (broadcastInDim S4096 ![] bcast_S_S4096 (select (cmpi .eq c (constantI S_ 32 0#32)) (constantI S_ 32 1#32) c))) (broadcastInDim S4096 ![] bcast_S_S4096 (constantI S_ 32 0#32))))
    (addi (Host.remsi p (broadcastInDim S4096 ![] bcast_S_S4096 (select (cmpi .eq c (constantI S_ 32 0#32)) (constantI S_ 32 1#32) c))) (broadcastInDim S4096 ![] bcast_S_S4096 (select (cmpi .eq c (constantI S_ 32 0#32)) (constantI S_ 32 1#32) c))) (Host.remsi p (broadcastInDim S4096 ![] bcast_S_S4096 (select (cmpi .eq c (constantI S_ 32 0#32)) (constantI S_ 32 1#32) c)))

/-- The routing word of a child from its parent word `p`: `(p // 4095) * 64 + (p % 4095 - 63)`. -/
def segFun (p : IVec S4096 32) : IVec S4096 32 :=
  addi (muli (fdivF p (constantI S_ 32 4095#32)) (broadcastInDim S4096 ![] bcast_S_S4096 (constantI S_ 32 64#32))) (subi (remF p (constantI S_ 32 4095#32)) (broadcastInDim S4096 ![] bcast_S_S4096 (constantI S_ 32 63#32)))

section Stretch123

variable (Win : Valuation τ sig (Elt Ideal))

set_option maxHeartbeats 4000000 in
/-- The quotient part. -/
theorem s1_v116 :
    ibuf S4096 ((StableHlo.after (hostOps0_17 (F := Ideal)) Win) (Proc.devRef .tc main_v556)) = fdivF (ibuf S4096 (Win (Proc.devRef .tc main_v555))) (ibuf S_ (Win (Proc.devRef .tc main_c_131))) := by
  unfold fdivF
  after_results_simp
  <;> (try simp only [TRef.ofBuf, TRef.toBuf, cast_eq]) <;> rfl

/-- The quotient part times the level's nodes per graph. -/
theorem s2_v118 :
    ibuf S4096 ((StableHlo.after (hostOps0_18 (F := Ideal)) Win) (Proc.devRef .tc main_v558)) = muli (ibuf S4096 (Win (Proc.devRef .tc main_v556))) (broadcastInDim S4096 ![] bcast_S_S4096 (constantI S_ 32 64#32)) := by
  after_results_simp
  <;> rfl

/-- The divisor the remainder part is taken by. -/
theorem s2_c29 : ibuf S_ ((StableHlo.after (hostOps0_18 (F := Ideal)) Win) (Proc.devRef .tc main_c_133)) = constantI S_ 32 4095#32 := by
  after_results_simp
  <;> rfl

set_option maxHeartbeats 4000000 in
/-- The remainder part. -/
theorem s3_v119 :
    ibuf S4096 ((StableHlo.after (hostOps0_19 (F := Ideal)) Win) (Proc.devRef .tc main_v559)) = remF (ibuf S4096 (Win (Proc.devRef .tc main_v555))) (ibuf S_ (Win (Proc.devRef .tc main_c_133))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_16 (F := Ideal)) V0
local notation "V2" => StableHlo.after (hostOps0_17 (F := Ideal)) V1
local notation "V3" => StableHlo.after (hostOps0_18 (F := Ideal)) V2
local notation "V4" => StableHlo.after (hostOps0_19 (F := Ideal)) V3
local notation "V5" => StableHlo.after (hostOps0_20 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S4096 (V5 (Proc.devRef .tc main_v562)) = segFun (ibuf S4096 (V1 (Proc.devRef .tc main_v555))) := by
  rw [s4_seg V4, Line.keep writes4 V4 (r := main_v558) (by decide), Line.keep writes3 V3 (r := main_v558) (by decide),
    s2_v118 V2, s1_v116 V1, s0_c27 V0, Line.keep writes4 V4 (r := main_v559) (by decide), s3_v119 V3,
    Line.keep writes2 V2 (r := main_v555) (by decide), Line.keep writes1 V1 (r := main_v555) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 2048, ibuf S2048x1 (V1 (Proc.devRef .tc main_v524)) (ix2 i 0) = nodeWord 64 63 i.val)
    (h100 : ∀ k : Fin 4096, ibuf S4096x1 (V1 (Proc.devRef .tc main_v540)) (ix2 k 0) = nodeWord 128 127 k.val)
    (h107 : ∀ k : Fin 4096, ibuf S4096x1 (V1 (Proc.devRef .tc main_v547)) (ix2 k 0) = nodeWord 128 127 k.val)
    (h114 : ∀ k : Fin 4096, ibuf S4096x1 (V1 (Proc.devRef .tc main_v554)) (ix2 k 0) = nodeWord 128 127 k.val)
    (h78 : ∀ i : Fin 2048, ibuf S2048 (V1 (Proc.devRef .tc main_v518)) (ix1 i) = nodeWord 64 63 i.val)
    (h171 : (∀ i : Fin 2048, ibuf S2048 (V4 (Proc.devRef .tc main_v518)) (ix1 i) = nodeWord 64 63 i.val) →
      ∀ i : Fin 2048, ibuf S2048x1 (V5 (Proc.devRef .tc main_v611)) (ix2 i 0) = nodeWord 64 63 i.val)
    (h178 : (∀ i : Fin 2048, ibuf S2048 (V4 (Proc.devRef .tc main_v518)) (ix1 i) = nodeWord 64 63 i.val) →
      ∀ i : Fin 2048, ibuf S2048x1 (V5 (Proc.devRef .tc main_v618)) (ix2 i 0) = nodeWord 64 63 i.val) :
    Chain.RLevel 64 63 128 127 rfl (by omega) rfl (by omega) w G (ibuf S131040 (V0 (Proc.devRef .tc main_arg1))) segFun
      (fbuf S131040x256 (V1 (Proc.devRef .tc main_v502))) (fbuf S131040x256 (V1 (Proc.devRef .tc main_v509)))
      (fbuf S131040x256 (V5 (Proc.devRef .tc main_v612))) (fbuf S131040x256 (V5 (Proc.devRef .tc main_v619))) := by
  have h78' : ∀ i : Fin 2048, ibuf S2048 (V4 (Proc.devRef .tc main_v518)) (ix1 i) = nodeWord 64 63 i.val := fun i => by
    rw [Line.keep writes3 V3 (r := main_v518) (by decide), Line.keep writes2 V2 (r := main_v518) (by decide),
      Line.keep writes1 V1 (r := main_v518) (by decide)]
    exact h78 i
  refine ⟨fbuf S131040x768 (V1 (Proc.devRef .tc main_v11)), fbuf S4096x256 (V1 (Proc.devRef .tc main_v541)), fbuf S4096x256 (V1 (Proc.devRef .tc main_v548)),
    fbuf S4096x256 (V5 (Proc.devRef .tc main_v573)), ibuf S4096 (V1 (Proc.devRef .tc main_v555)), ibuf S4096 (V5 (Proc.devRef .tc main_v562)),
    fbuf S2048x768 (V1 (Proc.devRef .tc main_v525)), fbuf S2048x768 (V5 (Proc.devRef .tc main_v585)), fbuf S2048x256 (V5 (Proc.devRef .tc main_v576)),
    fbuf S2048x256 (V5 (Proc.devRef .tc main_v580)), fbuf S2048x256 (V5 (Proc.devRef .tc main_v597)), fbuf S2048x256 (V5 (Proc.devRef .tc main_v605)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v541) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v541) (by decide) (by decide) (by decide) (by decide)] at h
    exact h
  · intro i j
    have h := s4_hca V4 i j
    rw [keep51 V0 (r := main_v548) (by decide) (by decide) (by decide) (by decide)] at h
    exact h
  · intro i n
    have h := s4_hz V4 i n
    rw [keep51 V0 (r := main_v525) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl6

end
-- ==== Proof.RIdx20.lean ====
/-
  The reference's index vectors in the stretch of host operations that ends the level with 64 nodes per graph and
  begins the level with 32, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS1
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W20 : List (Ref sig .tc) :=
  [main_c_134, main_v560, main_v561, main_v562, main_v563, main_v564, main_v565, main_v566,
    main_v567, main_v568, main_v569, main_cst_135, main_v570, main_v571, main_cst_136, main_v572,
    main_v573, main_cst_137, main_v574, main_v575, main_v576, main_v577, main_cst_138, main_v578,
    main_v579, main_v580, main_v581, main_v582, main_v583, main_v584, main_v585, main_v586,
    main_v587, main_v588, main_v589, main_v590, main_cst_139, main_v591, main_v592, main_cst_140,
    main_v593, main_v594, main_v595, main_v596, main_v597, main_v598, main_v599, main_cst_141,
    main_v600, main_v601, main_cst_142, main_v602, main_v603, main_v604, main_v605, main_c_143,
    main_v606, main_v607, main_c_144, main_v608, main_v609, main_v610, main_v611, main_v612,
    main_c_145, main_v613, main_v614, main_c_146, main_v615, main_v616, main_v617, main_v618,
    main_v619, main_v620, main_c_147, main_v621, main_v622, main_v623, main_v624, main_v625,
    main_v626, main_v627, main_v628, main_c_148, main_v629, main_v630, main_c_149, main_v631,
    main_v632, main_v633, main_v634, main_v635, main_v636, main_c_150, main_v637, main_v638,
    main_v639, main_v640, main_v641, main_v642, main_v643, main_v644, main_c_151, main_v645,
    main_v646, main_c_152, main_v647, main_v648, main_v649, main_v650, main_v651, main_c_153,
    main_v652, main_v653, main_c_154, main_v654, main_v655, main_v656, main_v657, main_v658,
    main_c_155, main_v659, main_v660, main_c_156, main_v661, main_v662, main_v663, main_v664,
    main_v665, main_c_157 ]

set_option maxHeartbeats 4000000 in
theorem writes20 : Writes (hostOps0_20 : List (HloOp τ sig (Elt F))) W20 := by
  repeat (first | exact .nil | refine .cons rfl ?_)

variable (Win : Valuation τ sig (Elt F))

/-! ### The ending level: 64 nodes per graph from offset 63 -/

theorem s20_v611 (hids : ∀ i : Fin 2048, Win (Proc.devRef .tc main_v518) (ix1 i) = nodeWord 64 63 i.val) (i : Fin 2048) :
    after hostOps0_20 Win (Proc.devRef .tc main_v611) (ix2 i 0) = nodeWord 64 63 i.val := by
  normCol_eqs writes20 55
  rw [keep writes20 Win (r := main_v518) (by decide)]
  exact normCol_nodeWord (nd := 64) rfl (by omega) _ _ _ _ _ i (hids i)

theorem s20_v618 (hids : ∀ i : Fin 2048, Win (Proc.devRef .tc main_v518) (ix1 i) = nodeWord 64 63 i.val) (i : Fin 2048) :
    after hostOps0_20 Win (Proc.devRef .tc main_v618) (ix2 i 0) = nodeWord 64 63 i.val := by
  normCol_eqs writes20 64
  rw [keep writes20 Win (r := main_v518) (by decide)]
  exact normCol_nodeWord (nd := 64) rfl (by omega) _ _ _ _ _ i (hids i)

/-! ### The beginning level: 32 nodes per graph from offset 31, its children the ending level's nodes -/

theorem s20_v628 (h16 : ∀ b : Fin 32, Win (Proc.devRef .tc main_v16) (ix1 b) = BitVec.ofNat 32 b.val * 4095#32) (i : Fin 1024) :
    after hostOps0_20 Win (Proc.devRef .tc main_v628) (ix1 i) = nodeWord 32 31 i.val := by
  nids_eqs writes20 73
  rw [keep writes20 Win (r := main_v16) (by decide)]
  exact nids_apply (nd := 32) rfl 31 _ h16 _ _ _ _ _ _ i

theorem s20_v634 (h16 : ∀ b : Fin 32, Win (Proc.devRef .tc main_v16) (ix1 b) = BitVec.ofNat 32 b.val * 4095#32) (i : Fin 1024) :
    after hostOps0_20 Win (Proc.devRef .tc main_v634) (ix2 i 0) = nodeWord 32 31 i.val := by
  normCol_eqs writes20 83
  exact normCol_nodeWord (nd := 32) rfl (by omega) _ _ _ _ _ i (s20_v628 Win h16 i)

theorem s20_v644 (h16 : ∀ b : Fin 32, Win (Proc.devRef .tc main_v16) (ix1 b) = BitVec.ofNat 32 b.val * 4095#32) (i : Fin 2048) :
    after hostOps0_20 Win (Proc.devRef .tc main_v644) (ix1 i) = nodeWord 64 63 i.val := by
  nids_eqs writes20 92
  rw [keep writes20 Win (r := main_v16) (by decide)]
  exact nids_apply (nd := 64) rfl 63 _ h16 _ _ _ _ _ _ i

theorem s20_v650 (h16 : ∀ b : Fin 32, Win (Proc.devRef .tc main_v16) (ix1 b) = BitVec.ofNat 32 b.val * 4095#32) (i : Fin 2048) :
    after hostOps0_20 Win (Proc.devRef .tc main_v650) (ix2 i 0) = nodeWord 64 63 i.val := by
  normCol_eqs writes20 102
  exact normCol_nodeWord (nd := 64) rfl (by omega) _ _ _ _ _ i (s20_v644 Win h16 i)

theorem s20_v657 (h16 : ∀ b : Fin 32, Win (Proc.devRef .tc main_v16) (ix1 b) = BitVec.ofNat 32 b.val * 4095#32) (i : Fin 2048) :
    after hostOps0_20 Win (Proc.devRef .tc main_v657) (ix2 i 0) = nodeWord 64 63 i.val := by
  normCol_eqs writes20 111
  exact normCol_nodeWord (nd := 64) rfl (by omega) _ _ _ _ _ i (s20_v644 Win h16 i)

theorem s20_v664 (h16 : ∀ b : Fin 32, Win (Proc.devRef .tc main_v16) (ix1 b) = BitVec.ofNat 32 b.val * 4095#32) (i : Fin 2048) :
    after hostOps0_20 Win (Proc.devRef .tc main_v664) (ix2 i 0) = nodeWord 64 63 i.val := by
  normCol_eqs writes20 120
  exact normCol_nodeWord (nd := 64) rfl (by omega) _ _ _ _ _ i (s20_v644 Win h16 i)

end Cert.ReferenceIdeal.Idx

end
-- ==== Proof.BridgeRL6.lean ====
/-
  Level 6 of the reference's side of the chain: the level's stretches run from the contents after stretch 15. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl6
import proofs.«419362_j66683662237734_3_alg».proof.Proof.RIdx16
import proofs.«419362_j66683662237734_3_alg».proof.Proof.RIdx20

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 6, from level 7's arrays to its own. -/
theorem rlevel6 : Chain.RLevel 64 63 128 127 (rfl : 2048 = 32 * 64) (by omega) (rfl : 4096 = 32 * 128) (by omega)
    (wR m' c) (GR m' c) (parR m' c) Lvl6.segFun (harr7 m' c) (carr7 m' c) (harr6 m' c) (carr6 m' c) := by
  have h16 : ∀ b : Fin 32, R16 m' c (Proc.devRef .tc main_v16) (ix1 b) = BitVec.ofNat 32 b.val * 4095#32 :=
    offs_of m' c (carry_v16_R16 m' c)
  have h := Lvl6.rlevel (R16 m' c) (wR m' c) (GR m' c)
    (hU_of m' c (carry_arg4_R16 m' c)) (hbI_of m' c (carry_arg5_R16 m' c))
    (hUf_of m' c (carry_arg6_R16 m' c)) (hbF_of m' c (carry_arg7_R16 m' c))
    (iou_of m' c (carry_v11_R17 m' c))
    (fun i => col_in (Idx.s16_v524 (R16 m' c) h16 i)) (fun k => col_in (Idx.s16_v540 (R16 m' c) h16 k))
    (fun k => col_in (Idx.s16_v547 (R16 m' c) h16 k)) (fun k => col_in (Idx.s16_v554 (R16 m' c) h16 k))
    (fun i => col_in (Idx.s16_v518 (R16 m' c) h16 i))
    (fun hids i => col_in (Idx.s20_v611 (R20 m' c) (fun i' => col_out (hids i')) i))
    (fun hids i => col_in (Idx.s20_v618 (R20 m' c) (fun i' => col_out (hids i')) i))
  rw [par_of m' c (carry_arg1_R16 m' c), fbuf_id, fbuf_id, fbuf_id, fbuf_id] at h
  exact h

end Cert.BridgeR

end
-- ==== Proof.RLvl5.lean ====
/-
  One level of the reference's tree recurrence, the level of 1024 nodes with 2048 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS1
import proofs.«419362_j66683662237734_3_alg».proof.Proof.RefOpsS2
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl5

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_134, main_v560, main_v561, main_v562, main_v563, main_v564, main_v565, main_v566,
    main_v567, main_v568, main_v569, main_cst_135, main_v570, main_v571, main_cst_136, main_v572,
    main_v573, main_cst_137, main_v574, main_v575, main_v576, main_v577, main_cst_138, main_v578,
    main_v579, main_v580, main_v581, main_v582, main_v583, main_v584, main_v585, main_v586,
    main_v587, main_v588, main_v589, main_v590, main_cst_139, main_v591, main_v592, main_cst_140,
    main_v593, main_v594, main_v595, main_v596, main_v597, main_v598, main_v599, main_cst_141,
    main_v600, main_v601, main_cst_142, main_v602, main_v603, main_v604, main_v605, main_c_143,
    main_v606, main_v607, main_c_144, main_v608, main_v609, main_v610, main_v611, main_v612,
    main_c_145, main_v613, main_v614, main_c_146, main_v615, main_v616, main_v617, main_v618,
    main_v619, main_v620, main_c_147, main_v621, main_v622, main_v623, main_v624, main_v625,
    main_v626, main_v627, main_v628, main_c_148, main_v629, main_v630, main_c_149, main_v631,
    main_v632, main_v633, main_v634, main_v635, main_v636, main_c_150, main_v637, main_v638,
    main_v639, main_v640, main_v641, main_v642, main_v643, main_v644, main_c_151, main_v645,
    main_v646, main_c_152, main_v647, main_v648, main_v649, main_v650, main_v651, main_c_153,
    main_v652, main_v653, main_c_154, main_v654, main_v655, main_v656, main_v657, main_v658,
    main_c_155, main_v659, main_v660, main_c_156, main_v661, main_v662, main_v663, main_v664,
    main_v665, main_c_157 ]
set_option maxHeartbeats 40000000 in
theorem writes0 : Line.Writes (hostOps0_20 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call10_v0, main_call10_v1, main_call10_v2, main_call10_v3, main_call10_v4, main_call10_v5, main_call10_v6, main_call10_v7,
    main_call10_v8, main_call10_c, main_call10_v9, main_call10_v10, main_call10_v11, main_call10_c_0, main_call10_v12, main_call10_v13,
    main_v666 ]
set_option maxHeartbeats 40000000 in
theorem writes1 : Line.Writes (hostOps0_21 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_158, main_v667, main_v668, main_c_159 ]
set_option maxHeartbeats 40000000 in
theorem writes2 : Line.Writes (hostOps0_22 (F := Ideal) : List (HloOp τ sig (Elt Ideal))) W2 :=
  .cons rfl (.cons rfl (.cons rfl (.cons rfl (.nil))))

abbrev W3 : List (Ref sig .tc) :=
  [
    main_call11_v0, main_call11_c, main_call11_v1, main_call11_c_0, main_call11_v2, main_call11_v3, main_call11_v4, main_call11_c_1,
    main_call11_v5, main_call11_v6, main_call11_c_2, main_call11_v7, main_call11_v8, main_call11_c_3, main_call11_v9, main_call11_v10,
    main_call11_v11, main_call11_v12, main_call11_v13, main_call11_v14, main_v669 ]
set_option maxHeartbeats 40000000 in
theorem writes3 : Line.Writes (hostOps0_23 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_160, main_v670, main_v671, main_v672, main_v673, main_v674, main_v675, main_v676,
    main_v677, main_v678, main_v679, main_cst_161, main_v680, main_v681, main_cst_162, main_v682,
    main_v683, main_cst_163, main_v684, main_v685, main_v686, main_v687, main_cst_164, main_v688,
    main_v689, main_v690, main_v691, main_v692, main_v693, main_v694, main_v695, main_v696,
    main_v697, main_v698, main_v699, main_v700, main_cst_165, main_v701, main_v702, main_cst_166,
    main_v703, main_v704, main_v705, main_v706, main_v707, main_v708, main_v709, main_cst_167,
    main_v710, main_v711, main_cst_168, main_v712, main_v713, main_v714, main_v715, main_c_169,
    main_v716, main_v717, main_c_170, main_v718, main_v719, main_v720, main_v721, main_v722,
    main_c_171, main_v723, main_v724, main_c_172, main_v725, main_v726, main_v727, main_v728,
    main_v729, main_v730, main_c_173, main_v731, main_v732, main_v733, main_v734, main_v735,
    main_v736, main_v737, main_v738, main_c_174, main_v739, main_v740, main_c_175, main_v741,
    main_v742, main_v743, main_v744, main_v745, main_v746, main_c_176, main_v747, main_v748,
    main_v749, main_v750, main_v751, main_v752, main_v753, main_v754, main_c_177, main_v755,
    main_v756, main_c_178, main_v757, main_v758, main_v759, main_v760, main_v761, main_c_179,
    main_v762, main_v763, main_c_180, main_v764, main_v765, main_v766, main_v767, main_v768,
    main_c_181, main_v769, main_v770, main_c_182, main_v771, main_v772, main_v773, main_v774,
    main_v775, main_c_183 ]
set_option maxHeartbeats 40000000 in
theorem writes4 : Line.Writes (hostOps0_24 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S2048 ((StableHlo.after (hostOps0_24 (F := Ideal)) Win) (Proc.devRef .tc main_v672))
      = addi (ibuf S2048 ((StableHlo.after (hostOps0_24 (F := Ideal)) Win) (Proc.devRef .tc main_v668)))
          (subi (ibuf S2048 ((StableHlo.after (hostOps0_24 (F := Ideal)) Win) (Proc.devRef .tc main_v669))) (broadcastInDim S2048 ![] bcast_S_S2048 (constantI S_ 32 31#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 1024) (n : Fin 768) :
    fbuf S1024x768 ((StableHlo.after (hostOps0_24 (F := Ideal)) Win) (Proc.devRef .tc main_v695)) (ix2 i n)
      = (fbuf S1024x768 ((StableHlo.after (hostOps0_24 (F := Ideal)) Win) (Proc.devRef .tc main_v635)) (ix2 i n)
          + ∑ k : Fin 256, fbuf S1024x256 ((StableHlo.after (hostOps0_24 (F := Ideal)) Win) (Proc.devRef .tc main_v686)) (ix2 i k) * fbuf S768x256 ((StableHlo.after (hostOps0_24 (F := Ideal)) Win) (Proc.devRef .tc main_arg4)) (ix2 n k))
        + fbuf S1x768 ((StableHlo.after (hostOps0_24 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S1024x256_S256x768_S1024x768_1_0_0_1_n_n rfl, bcast_row_apply]

/-- The new cell state. -/
theorem s4_hc (i : Fin 1024) (j : Fin 256) :
    fbuf S1024x256 ((StableHlo.after (hostOps0_24 (F := Ideal)) Win) (Proc.devRef .tc main_v707)) (ix2 i j)
      = Ideal.logistic (fbuf S1024x768 ((StableHlo.after (hostOps0_24 (F := Ideal)) Win) (Proc.devRef .tc main_v695)) (ix2 i (c0 j)))
          * Ideal.tanh (fbuf S1024x768 ((StableHlo.after (hostOps0_24 (F := Ideal)) Win) (Proc.devRef .tc main_v695)) (ix2 i (c2 j)))
        + fbuf S1024x256 ((StableHlo.after (hostOps0_24 (F := Ideal)) Win) (Proc.devRef .tc main_v690)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 1024) (j : Fin 256) :
    fbuf S1024x256 ((StableHlo.after (hostOps0_24 (F := Ideal)) Win) (Proc.devRef .tc main_v715)) (ix2 i j)
      = Ideal.logistic (fbuf S1024x768 ((StableHlo.after (hostOps0_24 (F := Ideal)) Win) (Proc.devRef .tc main_v695)) (ix2 i (c1 j)))
          * Ideal.tanh (fbuf S1024x256 ((StableHlo.after (hostOps0_24 (F := Ideal)) Win) (Proc.devRef .tc main_v707)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 2048) (j : Fin 256) :
    fbuf S2048x256 ((StableHlo.after (hostOps0_24 (F := Ideal)) Win) (Proc.devRef .tc main_v683)) (ix2 k j)
      = Ideal.logistic ((∑ k' : Fin 256, fbuf S2048x256 ((StableHlo.after (hostOps0_24 (F := Ideal)) Win) (Proc.devRef .tc main_v651)) (ix2 k k') * fbuf S256x256 ((StableHlo.after (hostOps0_24 (F := Ideal)) Win) (Proc.devRef .tc main_arg6)) (ix2 j k'))
          + fbuf S256 ((StableHlo.after (hostOps0_24 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S2048x256_S256x256_S2048x256_1_0_0_1_n_n rfl,
    bcast_vec_rows_apply]

/-- The children's hidden rows summed per parent slot. -/
theorem s4_hht (i : Fin 1024) (j : Fin 256) :
    fbuf S1024x256 ((StableHlo.after (hostOps0_24 (F := Ideal)) Win) (Proc.devRef .tc main_v686)) (ix2 i j)
      = ∑ k ∈ kids (fun k : Fin 2048 => rowTarget 1024 (ibuf S2048 ((StableHlo.after (hostOps0_24 (F := Ideal)) Win) (Proc.devRef .tc main_v672)) (ix1 k))) i, fbuf S2048x256 ((StableHlo.after (hostOps0_24 (F := Ideal)) Win) (Proc.devRef .tc main_v651)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S1024x256_S2048x1_S2048x256_1_0_0_1 ⟨rfl, rfl, rfl, rfl⟩ _ _ _ _ i j

/-- The children's gated cell rows summed per parent slot. -/
theorem s4_hca (i : Fin 1024) (j : Fin 256) :
    fbuf S1024x256 ((StableHlo.after (hostOps0_24 (F := Ideal)) Win) (Proc.devRef .tc main_v690)) (ix2 i j)
      = ∑ k ∈ kids (fun k : Fin 2048 => rowTarget 1024 (ibuf S2048 ((StableHlo.after (hostOps0_24 (F := Ideal)) Win) (Proc.devRef .tc main_v672)) (ix1 k))) i,
          fbuf S2048x256 ((StableHlo.after (hostOps0_24 (F := Ideal)) Win) (Proc.devRef .tc main_v683)) (ix2 k j) * fbuf S2048x256 ((StableHlo.after (hostOps0_24 (F := Ideal)) Win) (Proc.devRef .tc main_v658)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S1024x256_S2048x1_S2048x256_1_0_0_1 ⟨rfl, rfl, rfl, rfl⟩]
  exact Finset.sum_congr rfl fun k _ => rfl

/-- The new hidden rows are in place at the level's nodes of the whole-forest array. -/
theorem s4_scatter_h
    (hcol : ∀ i : Fin 1024, ibuf S1024x1 ((StableHlo.after (hostOps0_24 (F := Ideal)) Win) (Proc.devRef .tc main_v721)) (ix2 i 0) = nodeWord 32 31 i.val)
    (k : Fin 1024) (j : Fin 256) :
    fbuf S131040x256 ((StableHlo.after (hostOps0_24 (F := Ideal)) Win) (Proc.devRef .tc main_v722)) (ix2 (node 32 31 1024 rfl (by omega) k) j) = fbuf S1024x256 ((StableHlo.after (hostOps0_24 (F := Ideal)) Win) (Proc.devRef .tc main_v715)) (ix2 k j) := by
  simp only [fbuf, ibuf] at hcol ⊢
  have e_v172 := Line.ternary_at writes4 63 Win (hop := rfl) (by decide) (by decide) (by decide) (by decide)
  rw [e_v172]
  exact scatter_rows_hit scatter_S131040x256_S1024x1_S1024x256_1_0_0_1 ⟨rfl, rfl, rfl, rfl⟩ _ _ _
    (fun a b r h h' => rowTarget_nodeWord_injective (nd := 32) (start := 31) rfl (by omega) a b r
      (by rw [← hcol a]; exact h) (by rw [← hcol b]; exact h'))
    k _ (by rw [hcol]; exact rowTarget_nodeWord (nd := 32) (start := 31) rfl (by omega) k) j

/-- The new cell rows are in place at the level's nodes of the whole-forest array. -/
theorem s4_scatter_c
    (hcol : ∀ i : Fin 1024, ibuf S1024x1 ((StableHlo.after (hostOps0_24 (F := Ideal)) Win) (Proc.devRef .tc main_v728)) (ix2 i 0) = nodeWord 32 31 i.val)
    (k : Fin 1024) (j : Fin 256) :
    fbuf S131040x256 ((StableHlo.after (hostOps0_24 (F := Ideal)) Win) (Proc.devRef .tc main_v729)) (ix2 (node 32 31 1024 rfl (by omega) k) j) = fbuf S1024x256 ((StableHlo.after (hostOps0_24 (F := Ideal)) Win) (Proc.devRef .tc main_v707)) (ix2 k j) := by
  simp only [fbuf, ibuf] at hcol ⊢
  have e_v179 := Line.ternary_at writes4 72 Win (hop := rfl) (by decide) (by decide) (by decide) (by decide)
  rw [e_v179]
  exact scatter_rows_hit scatter_S131040x256_S1024x1_S1024x256_1_0_0_1 ⟨rfl, rfl, rfl, rfl⟩ _ _ _
    (fun a b r h h' => rowTarget_nodeWord_injective (nd := 32) (start := 31) rfl (by omega) a b r
      (by rw [← hcol a]; exact h) (by rw [← hcol b]; exact h'))
    k _ (by rw [hcol]; exact rowTarget_nodeWord (nd := 32) (start := 31) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 1024, ibuf S1024x1 ((StableHlo.after (hostOps0_20 (F := Ideal)) Win) (Proc.devRef .tc main_v634)) (ix2 k 0) = nodeWord 32 31 k.val)
    (k : Fin 1024) (j : Fin 768) :
    fbuf S1024x768 ((StableHlo.after (hostOps0_20 (F := Ideal)) Win) (Proc.devRef .tc main_v635)) (ix2 k j) = fbuf S131040x768 ((StableHlo.after (hostOps0_20 (F := Ideal)) Win) (Proc.devRef .tc main_v11)) (ix2 (node 32 31 1024 rfl (by omega) k) j) := by
  simp only [fbuf, ibuf] at hcol ⊢
  have e_v85 := Line.binary_at writes0 91 Win (hop := rfl) (by decide) (by decide) (by decide)
  rw [e_v85]
  rw [gather_rows_apply gather_S131040x768_S1024x1_S1024x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 2048, ibuf S2048x1 ((StableHlo.after (hostOps0_20 (F := Ideal)) Win) (Proc.devRef .tc main_v650)) (ix2 k 0) = nodeWord 64 63 k.val)
    (k : Fin 2048) (j : Fin 256) :
    fbuf S2048x256 ((StableHlo.after (hostOps0_20 (F := Ideal)) Win) (Proc.devRef .tc main_v651)) (ix2 k j) = fbuf S131040x256 ((StableHlo.after (hostOps0_20 (F := Ideal)) Win) (Proc.devRef .tc main_v612)) (ix2 (node 64 63 2048 rfl (by omega) k) j) := by
  simp only [fbuf, ibuf] at hcol ⊢
  have e_v101 := Line.binary_at writes0 110 Win (hop := rfl) (by decide) (by decide) (by decide)
  rw [e_v101]
  rw [gather_rows_apply gather_S131040x256_S2048x1_S2048x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 2048, ibuf S2048x1 ((StableHlo.after (hostOps0_20 (F := Ideal)) Win) (Proc.devRef .tc main_v657)) (ix2 k 0) = nodeWord 64 63 k.val)
    (k : Fin 2048) (j : Fin 256) :
    fbuf S2048x256 ((StableHlo.after (hostOps0_20 (F := Ideal)) Win) (Proc.devRef .tc main_v658)) (ix2 k j) = fbuf S131040x256 ((StableHlo.after (hostOps0_20 (F := Ideal)) Win) (Proc.devRef .tc main_v619)) (ix2 (node 64 63 2048 rfl (by omega) k) j) := by
  simp only [fbuf, ibuf] at hcol ⊢
  have e_v108 := Line.binary_at writes0 119 Win (hop := rfl) (by decide) (by decide) (by decide)
  rw [e_v108]
  rw [gather_rows_apply gather_S131040x256_S2048x1_S2048x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 2048, ibuf S2048x1 ((StableHlo.after (hostOps0_20 (F := Ideal)) Win) (Proc.devRef .tc main_v664)) (ix2 k 0) = nodeWord 64 63 k.val)
    (k : Fin 2048) :
    ibuf S2048 ((StableHlo.after (hostOps0_20 (F := Ideal)) Win) (Proc.devRef .tc main_v665)) (ix1 k) = ibuf S131040 ((StableHlo.after (hostOps0_20 (F := Ideal)) Win) (Proc.devRef .tc main_arg1)) (ix1 (node 64 63 2048 rfl (by omega) k)) := by
  simp only [fbuf, ibuf] at hcol ⊢
  have e_v115 := Line.binary_at writes0 128 Win (hop := rfl) (by decide) (by decide) (by decide)
  rw [e_v115]
  rw [gather_vec_apply gather_S131040_S2048x1_S2048_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_20 (F := Ideal)) Win) (Proc.devRef .tc main_c_157)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S2048 32) (c : IVec S_ 32) : IVec S2048 32 :=
  select (andi (cmpi .ne (signi p) (broadcastInDim S2048 ![] bcast_S_S2048 (signi c))) (cmpi .ne (Host.remsi p (broadcastInDim S2048 ![] bcast_S_S2048 c)) (broadcastInDim S2048 ![] bcast_S_S2048 (constantI S_ 32 0#32))))
    (subi (Host.divsi p (broadcastInDim S2048 ![] bcast_S_S2048 c)) (broadcastInDim S2048 ![] bcast_S_S2048 (constantI S_ 32 1#32))) (Host.divsi p (broadcastInDim S2048 ![] bcast_S_S2048 c))

/-- The reference's remainder of a vector of words by a scalar word (a zero divisor replaced by one): the truncated
    remainder, the divisor added where its sign differs from the divisor's and it is not zero. -/
def remF (p : IVec S2048 32) (c : IVec S_ 32) : IVec S2048 32 :=
  select (andi (cmpi .ne (cmpi .slt (Host.remsi p (broadcastInDim S2048 ![] bcast_S_S2048 (select (cmpi .eq c (constantI S_ 32 0#32)) (constantI S_ 32 1#32) c))) (broadcastInDim S2048 ![] bcast_S_S2048 (constantI S_ 32 0#32))) (broadcastInDim S2048 ![] bcast_S_S2048 (cmpi .slt (select (cmpi .eq c (constantI S_ 32 0#32)) (constantI S_ 32 1#32) c) (constantI S_ 32 0#32)))) (cmpi .ne (Host.remsi p (broadcastInDim S2048 ![] bcast_S_S2048 (select (cmpi .eq c (constantI S_ 32 0#32)) (constantI S_ 32 1#32) c))) (broadcastInDim S2048 ![] bcast_S_S2048 (constantI S_ 32 0#32))))
    (addi (Host.remsi p (broadcastInDim S2048 ![] bcast_S_S2048 (select (cmpi .eq c (constantI S_ 32 0#32)) (constantI S_ 32 1#32) c))) (broadcastInDim S2048 ![] bcast_S_S2048 (select (cmpi .eq c (constantI S_ 32 0#32)) (constantI S_ 32 1#32) c))) (Host.remsi p (broadcastInDim S2048 ![] bcast_S_S2048 (select (cmpi .eq c (constantI S_ 32 0#32)) (constantI S_ 32 1#32) c)))

/-- The routing word of a child from its parent word `p`: `(p // 4095) * 32 + (p % 4095 - 31)`. -/
def segFun (p : IVec S2048 32) : IVec S2048 32 :=
  addi (muli (fdivF p (constantI S_ 32 4095#32)) (broadcastInDim S2048 ![] bcast_S_S2048 (constantI S_ 32 32#32))) (subi (remF p (constantI S_ 32 4095#32)) (broadcastInDim S2048 ![] bcast_S_S2048 (constantI S_ 32 31#32)))

section Stretch123

variable (Win : Valuation τ sig (Elt Ideal))

set_option maxHeartbeats 4000000 in
/-- The quotient part. -/
theorem s1_v116 :
    ibuf S2048 ((StableHlo.after (hostOps0_21 (F := Ideal)) Win) (Proc.devRef .tc main_v666)) = fdivF (ibuf S2048 (Win (Proc.devRef .tc main_v665))) (ibuf S_ (Win (Proc.devRef .tc main_c_157))) := by
  unfold fdivF
  after_results_simp
  <;> (try simp only [TRef.ofBuf, TRef.toBuf, cast_eq]) <;> rfl

/-- The quotient part times the level's nodes per graph. -/
theorem s2_v118 :
    ibuf S2048 ((StableHlo.after (hostOps0_22 (F := Ideal)) Win) (Proc.devRef .tc main_v668)) = muli (ibuf S2048 (Win (Proc.devRef .tc main_v666))) (broadcastInDim S2048 ![] bcast_S_S2048 (constantI S_ 32 32#32)) := by
  after_results_simp
  <;> rfl

/-- The divisor the remainder part is taken by. -/
theorem s2_c29 : ibuf S_ ((StableHlo.after (hostOps0_22 (F := Ideal)) Win) (Proc.devRef .tc main_c_159)) = constantI S_ 32 4095#32 := by
  after_results_simp
  <;> rfl

set_option maxHeartbeats 4000000 in
/-- The remainder part. -/
theorem s3_v119 :
    ibuf S2048 ((StableHlo.after (hostOps0_23 (F := Ideal)) Win) (Proc.devRef .tc main_v669)) = remF (ibuf S2048 (Win (Proc.devRef .tc main_v665))) (ibuf S_ (Win (Proc.devRef .tc main_c_159))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_20 (F := Ideal)) V0
local notation "V2" => StableHlo.after (hostOps0_21 (F := Ideal)) V1
local notation "V3" => StableHlo.after (hostOps0_22 (F := Ideal)) V2
local notation "V4" => StableHlo.after (hostOps0_23 (F := Ideal)) V3
local notation "V5" => StableHlo.after (hostOps0_24 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S2048 (V5 (Proc.devRef .tc main_v672)) = segFun (ibuf S2048 (V1 (Proc.devRef .tc main_v665))) := by
  rw [s4_seg V4, Line.keep writes4 V4 (r := main_v668) (by decide), Line.keep writes3 V3 (r := main_v668) (by decide),
    s2_v118 V2, s1_v116 V1, s0_c27 V0, Line.keep writes4 V4 (r := main_v669) (by decide), s3_v119 V3,
    Line.keep writes2 V2 (r := main_v665) (by decide), Line.keep writes1 V1 (r := main_v665) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 1024, ibuf S1024x1 (V1 (Proc.devRef .tc main_v634)) (ix2 i 0) = nodeWord 32 31 i.val)
    (h100 : ∀ k : Fin 2048, ibuf S2048x1 (V1 (Proc.devRef .tc main_v650)) (ix2 k 0) = nodeWord 64 63 k.val)
    (h107 : ∀ k : Fin 2048, ibuf S2048x1 (V1 (Proc.devRef .tc main_v657)) (ix2 k 0) = nodeWord 64 63 k.val)
    (h114 : ∀ k : Fin 2048, ibuf S2048x1 (V1 (Proc.devRef .tc main_v664)) (ix2 k 0) = nodeWord 64 63 k.val)
    (h78 : ∀ i : Fin 1024, ibuf S1024 (V1 (Proc.devRef .tc main_v628)) (ix1 i) = nodeWord 32 31 i.val)
    (h171 : (∀ i : Fin 1024, ibuf S1024 (V4 (Proc.devRef .tc main_v628)) (ix1 i) = nodeWord 32 31 i.val) →
      ∀ i : Fin 1024, ibuf S1024x1 (V5 (Proc.devRef .tc main_v721)) (ix2 i 0) = nodeWord 32 31 i.val)
    (h178 : (∀ i : Fin 1024, ibuf S1024 (V4 (Proc.devRef .tc main_v628)) (ix1 i) = nodeWord 32 31 i.val) →
      ∀ i : Fin 1024, ibuf S1024x1 (V5 (Proc.devRef .tc main_v728)) (ix2 i 0) = nodeWord 32 31 i.val) :
    Chain.RLevel 32 31 64 63 rfl (by omega) rfl (by omega) w G (ibuf S131040 (V0 (Proc.devRef .tc main_arg1))) segFun
      (fbuf S131040x256 (V1 (Proc.devRef .tc main_v612))) (fbuf S131040x256 (V1 (Proc.devRef .tc main_v619)))
      (fbuf S131040x256 (V5 (Proc.devRef .tc main_v722))) (fbuf S131040x256 (V5 (Proc.devRef .tc main_v729))) := by
  have h78' : ∀ i : Fin 1024, ibuf S1024 (V4 (Proc.devRef .tc main_v628)) (ix1 i) = nodeWord 32 31 i.val := fun i => by
    rw [Line.keep writes3 V3 (r := main_v628) (by decide), Line.keep writes2 V2 (r := main_v628) (by decide),
      Line.keep writes1 V1 (r := main_v628) (by decide)]
    exact h78 i
  refine ⟨fbuf S131040x768 (V1 (Proc.devRef .tc main_v11)), fbuf S2048x256 (V1 (Proc.devRef .tc main_v651)), fbuf S2048x256 (V1 (Proc.devRef .tc main_v658)),
    fbuf S2048x256 (V5 (Proc.devRef .tc main_v683)), ibuf S2048 (V1 (Proc.devRef .tc main_v665)), ibuf S2048 (V5 (Proc.devRef .tc main_v672)),
    fbuf S1024x768 (V1 (Proc.devRef .tc main_v635)), fbuf S1024x768 (V5 (Proc.devRef .tc main_v695)), fbuf S1024x256 (V5 (Proc.devRef .tc main_v686)),
    fbuf S1024x256 (V5 (Proc.devRef .tc main_v690)), fbuf S1024x256 (V5 (Proc.devRef .tc main_v707)), fbuf S1024x256 (V5 (Proc.devRef .tc main_v715)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v651) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v651) (by decide) (by decide) (by decide) (by decide)] at h
    exact h
  · intro i j
    have h := s4_hca V4 i j
    rw [keep51 V0 (r := main_v658) (by decide) (by decide) (by decide) (by decide)] at h
    exact h
  · intro i n
    have h := s4_hz V4 i n
    rw [keep51 V0 (r := main_v635) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl5

end
-- ==== Proof.RIdx24.lean ====
/-
  The reference's index vectors in the stretch of host operations that ends the level with 32 nodes per graph and
  begins the level with 16, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS2
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W24 : List (Ref sig .tc) :=
  [main_c_160, main_v670, main_v671, main_v672, main_v673, main_v674, main_v675, main_v676,
    main_v677, main_v678, main_v679, main_cst_161, main_v680, main_v681, main_cst_162, main_v682,
    main_v683, main_cst_163, main_v684, main_v685, main_v686, main_v687, main_cst_164, main_v688,
    main_v689, main_v690, main_v691, main_v692, main_v693, main_v694, main_v695, main_v696,
    main_v697, main_v698, main_v699, main_v700, main_cst_165, main_v701, main_v702, main_cst_166,
    main_v703, main_v704, main_v705, main_v706, main_v707, main_v708, main_v709, main_cst_167,
    main_v710, main_v711, main_cst_168, main_v712, main_v713, main_v714, main_v715, main_c_169,
    main_v716, main_v717, main_c_170, main_v718, main_v719, main_v720, main_v721, main_v722,
    main_c_171, main_v723, main_v724, main_c_172, main_v725, main_v726, main_v727, main_v728,
    main_v729, main_v730, main_c_173, main_v731, main_v732, main_v733, main_v734, main_v735,
    main_v736, main_v737, main_v738, main_c_174, main_v739, main_v740, main_c_175, main_v741,
    main_v742, main_v743, main_v744, main_v745, main_v746, main_c_176, main_v747, main_v748,
    main_v749, main_v750, main_v751, main_v752, main_v753, main_v754, main_c_177, main_v755,
    main_v756, main_c_178, main_v757, main_v758, main_v759, main_v760, main_v761, main_c_179,
    main_v762, main_v763, main_c_180, main_v764, main_v765, main_v766, main_v767, main_v768,
    main_c_181, main_v769, main_v770, main_c_182, main_v771, main_v772, main_v773, main_v774,
    main_v775, main_c_183 ]

set_option maxHeartbeats 4000000 in
theorem writes24 : Writes (hostOps0_24 : List (HloOp τ sig (Elt F))) W24 := by
  repeat (first | exact .nil | refine .cons rfl ?_)

variable (Win : Valuation τ sig (Elt F))

/-! ### The ending level: 32 nodes per graph from offset 31 -/

theorem s24_v721 (hids : ∀ i : Fin 1024, Win (Proc.devRef .tc main_v628) (ix1 i) = nodeWord 32 31 i.val) (i : Fin 1024) :
    after hostOps0_24 Win (Proc.devRef .tc main_v721) (ix2 i 0) = nodeWord 32 31 i.val := by
  normCol_eqs writes24 55
  rw [keep writes24 Win (r := main_v628) (by decide)]
  exact normCol_nodeWord (nd := 32) rfl (by omega) _ _ _ _ _ i (hids i)

theorem s24_v728 (hids : ∀ i : Fin 1024, Win (Proc.devRef .tc main_v628) (ix1 i) = nodeWord 32 31 i.val) (i : Fin 1024) :
    after hostOps0_24 Win (Proc.devRef .tc main_v728) (ix2 i 0) = nodeWord 32 31 i.val := by
  normCol_eqs writes24 64
  rw [keep writes24 Win (r := main_v628) (by decide)]
  exact normCol_nodeWord (nd := 32) rfl (by omega) _ _ _ _ _ i (hids i)

/-! ### The beginning level: 16 nodes per graph from offset 15, its children the ending level's nodes -/

theorem s24_v738 (h16 : ∀ b : Fin 32, Win (Proc.devRef .tc main_v16) (ix1 b) = BitVec.ofNat 32 b.val * 4095#32) (i : Fin 512) :
    after hostOps0_24 Win (Proc.devRef .tc main_v738) (ix1 i) = nodeWord 16 15 i.val := by
  nids_eqs writes24 73
  rw [keep writes24 Win (r := main_v16) (by decide)]
  exact nids_apply (nd := 16) rfl 15 _ h16 _ _ _ _ _ _ i

theorem s24_v744 (h16 : ∀ b : Fin 32, Win (Proc.devRef .tc main_v16) (ix1 b) = BitVec.ofNat 32 b.val * 4095#32) (i : Fin 512) :
    after hostOps0_24 Win (Proc.devRef .tc main_v744) (ix2 i 0) = nodeWord 16 15 i.val := by
  normCol_eqs writes24 83
  exact normCol_nodeWord (nd := 16) rfl (by omega) _ _ _ _ _ i (s24_v738 Win h16 i)

theorem s24_v754 (h16 : ∀ b : Fin 32, Win (Proc.devRef .tc main_v16) (ix1 b) = BitVec.ofNat 32 b.val * 4095#32) (i : Fin 1024) :
    after hostOps0_24 Win (Proc.devRef .tc main_v754) (ix1 i) = nodeWord 32 31 i.val := by
  nids_eqs writes24 92
  rw [keep writes24 Win (r := main_v16) (by decide)]
  exact nids_apply (nd := 32) rfl 31 _ h16 _ _ _ _ _ _ i

theorem s24_v760 (h16 : ∀ b : Fin 32, Win (Proc.devRef .tc main_v16) (ix1 b) = BitVec.ofNat 32 b.val * 4095#32) (i : Fin 1024) :
    after hostOps0_24 Win (Proc.devRef .tc main_v760) (ix2 i 0) = nodeWord 32 31 i.val := by
  normCol_eqs writes24 102
  exact normCol_nodeWord (nd := 32) rfl (by omega) _ _ _ _ _ i (s24_v754 Win h16 i)

theorem s24_v767 (h16 : ∀ b : Fin 32, Win (Proc.devRef .tc main_v16) (ix1 b) = BitVec.ofNat 32 b.val * 4095#32) (i : Fin 1024) :
    after hostOps0_24 Win (Proc.devRef .tc main_v767) (ix2 i 0) = nodeWord 32 31 i.val := by
  normCol_eqs writes24 111
  exact normCol_nodeWord (nd := 32) rfl (by omega) _ _ _ _ _ i (s24_v754 Win h16 i)

theorem s24_v774 (h16 : ∀ b : Fin 32, Win (Proc.devRef .tc main_v16) (ix1 b) = BitVec.ofNat 32 b.val * 4095#32) (i : Fin 1024) :
    after hostOps0_24 Win (Proc.devRef .tc main_v774) (ix2 i 0) = nodeWord 32 31 i.val := by
  normCol_eqs writes24 120
  exact normCol_nodeWord (nd := 32) rfl (by omega) _ _ _ _ _ i (s24_v754 Win h16 i)

end Cert.ReferenceIdeal.Idx

end
-- ==== Proof.BridgeRL5.lean ====
/-
  Level 5 of the reference's side of the chain: the level's stretches run from the contents after stretch 19. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl5
import proofs.«419362_j66683662237734_3_alg».proof.Proof.RIdx20
import proofs.«419362_j66683662237734_3_alg».proof.Proof.RIdx24

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 5, from level 6's arrays to its own. -/
theorem rlevel5 : Chain.RLevel 32 31 64 63 (rfl : 1024 = 32 * 32) (by omega) (rfl : 2048 = 32 * 64) (by omega)
    (wR m' c) (GR m' c) (parR m' c) Lvl5.segFun (harr6 m' c) (carr6 m' c) (harr5 m' c) (carr5 m' c) := by
  have h16 : ∀ b : Fin 32, R20 m' c (Proc.devRef .tc main_v16) (ix1 b) = BitVec.ofNat 32 b.val * 4095#32 :=
    offs_of m' c (carry_v16_R20 m' c)
  have h := Lvl5.rlevel (R20 m' c) (wR m' c) (GR m' c)
    (hU_of m' c (carry_arg4_R20 m' c)) (hbI_of m' c (carry_arg5_R20 m' c))
    (hUf_of m' c (carry_arg6_R20 m' c)) (hbF_of m' c (carry_arg7_R20 m' c))
    (iou_of m' c (carry_v11_R21 m' c))
    (fun i => col_in (Idx.s20_v634 (R20 m' c) h16 i)) (fun k => col_in (Idx.s20_v650 (R20 m' c) h16 k))
    (fun k => col_in (Idx.s20_v657 (R20 m' c) h16 k)) (fun k => col_in (Idx.s20_v664 (R20 m' c) h16 k))
    (fun i => col_in (Idx.s20_v628 (R20 m' c) h16 i))
    (fun hids i => col_in (Idx.s24_v721 (R24 m' c) (fun i' => col_out (hids i')) i))
    (fun hids i => col_in (Idx.s24_v728 (R24 m' c) (fun i' => col_out (hids i')) i))
  rw [par_of m' c (carry_arg1_R20 m' c), fbuf_id, fbuf_id, fbuf_id, fbuf_id] at h
  exact h

end Cert.BridgeR

end
-- ==== Proof.RLvl4.lean ====
/-
  One level of the reference's tree recurrence, the level of 512 nodes with 1024 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS2
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl4

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_160, main_v670, main_v671, main_v672, main_v673, main_v674, main_v675, main_v676,
    main_v677, main_v678, main_v679, main_cst_161, main_v680, main_v681, main_cst_162, main_v682,
    main_v683, main_cst_163, main_v684, main_v685, main_v686, main_v687, main_cst_164, main_v688,
    main_v689, main_v690, main_v691, main_v692, main_v693, main_v694, main_v695, main_v696,
    main_v697, main_v698, main_v699, main_v700, main_cst_165, main_v701, main_v702, main_cst_166,
    main_v703, main_v704, main_v705, main_v706, main_v707, main_v708, main_v709, main_cst_167,
    main_v710, main_v711, main_cst_168, main_v712, main_v713, main_v714, main_v715, main_c_169,
    main_v716, main_v717, main_c_170, main_v718, main_v719, main_v720, main_v721, main_v722,
    main_c_171, main_v723, main_v724, main_c_172, main_v725, main_v726, main_v727, main_v728,
    main_v729, main_v730, main_c_173, main_v731, main_v732, main_v733, main_v734, main_v735,
    main_v736, main_v737, main_v738, main_c_174, main_v739, main_v740, main_c_175, main_v741,
    main_v742, main_v743, main_v744, main_v745, main_v746, main_c_176, main_v747, main_v748,
    main_v749, main_v750, main_v751, main_v752, main_v753, main_v754, main_c_177, main_v755,
    main_v756, main_c_178, main_v757, main_v758, main_v759, main_v760, main_v761, main_c_179,
    main_v762, main_v763, main_c_180, main_v764, main_v765, main_v766, main_v767, main_v768,
    main_c_181, main_v769, main_v770, main_c_182, main_v771, main_v772, main_v773, main_v774,
    main_v775, main_c_183 ]
set_option maxHeartbeats 40000000 in
theorem writes0 : Line.Writes (hostOps0_24 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call12_v0, main_call12_v1, main_call12_v2, main_call12_v3, main_call12_v4, main_call12_v5, main_call12_v6, main_call12_v7,
    main_call12_v8, main_call12_c, main_call12_v9, main_call12_v10, main_call12_v11, main_call12_c_0, main_call12_v12, main_call12_v13,
    main_v776 ]
set_option maxHeartbeats 40000000 in
theorem writes1 : Line.Writes (hostOps0_25 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_184, main_v777, main_v778, main_c_185 ]
set_option maxHeartbeats 40000000 in
theorem writes2 : Line.Writes (hostOps0_26 (F := Ideal) : List (HloOp τ sig (Elt Ideal))) W2 :=
  .cons rfl (.cons rfl (.cons rfl (.cons rfl (.nil))))

abbrev W3 : List (Ref sig .tc) :=
  [
    main_call13_v0, main_call13_c, main_call13_v1, main_call13_c_0, main_call13_v2, main_call13_v3, main_call13_v4, main_call13_c_1,
    main_call13_v5, main_call13_v6, main_call13_c_2, main_call13_v7, main_call13_v8, main_call13_c_3, main_call13_v9, main_call13_v10,
    main_call13_v11, main_call13_v12, main_call13_v13, main_call13_v14, main_v779 ]
set_option maxHeartbeats 40000000 in
theorem writes3 : Line.Writes (hostOps0_27 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_186, main_v780, main_v781, main_v782, main_v783, main_v784, main_v785, main_v786,
    main_v787, main_v788, main_v789, main_cst_187, main_v790, main_v791, main_cst_188, main_v792,
    main_v793, main_cst_189, main_v794, main_v795, main_v796, main_v797, main_cst_190, main_v798,
    main_v799, main_v800, main_v801, main_v802, main_v803, main_v804, main_v805, main_v806,
    main_v807, main_v808, main_v809, main_v810, main_cst_191, main_v811, main_v812, main_cst_192,
    main_v813, main_v814, main_v815, main_v816, main_v817, main_v818, main_v819, main_cst_193,
    main_v820, main_v821, main_cst_194, main_v822, main_v823, main_v824, main_v825, main_c_195,
    main_v826, main_v827, main_c_196, main_v828, main_v829, main_v830, main_v831, main_v832,
    main_c_197, main_v833, main_v834, main_c_198, main_v835, main_v836, main_v837, main_v838,
    main_v839, main_v840, main_c_199, main_v841, main_v842, main_v843, main_v844, main_v845,
    main_v846, main_v847, main_v848, main_c_200, main_v849, main_v850, main_c_201, main_v851,
    main_v852, main_v853, main_v854, main_v855, main_v856, main_c_202, main_v857, main_v858,
    main_v859, main_v860, main_v861, main_v862, main_v863, main_v864, main_c_203, main_v865,
    main_v866, main_c_204, main_v867, main_v868, main_v869, main_v870, main_v871, main_c_205,
    main_v872, main_v873, main_c_206, main_v874, main_v875, main_v876, main_v877, main_v878,
    main_c_207, main_v879, main_v880, main_c_208, main_v881, main_v882, main_v883, main_v884,
    main_v885, main_c_209 ]
set_option maxHeartbeats 40000000 in
theorem writes4 : Line.Writes (hostOps0_28 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S1024 ((StableHlo.after (hostOps0_28 (F := Ideal)) Win) (Proc.devRef .tc main_v782))
      = addi (ibuf S1024 ((StableHlo.after (hostOps0_28 (F := Ideal)) Win) (Proc.devRef .tc main_v778)))
          (subi (ibuf S1024 ((StableHlo.after (hostOps0_28 (F := Ideal)) Win) (Proc.devRef .tc main_v779))) (broadcastInDim S1024 ![] bcast_S_S1024 (constantI S_ 32 15#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 512) (n : Fin 768) :
    fbuf S512x768 ((StableHlo.after (hostOps0_28 (F := Ideal)) Win) (Proc.devRef .tc main_v805)) (ix2 i n)
      = (fbuf S512x768 ((StableHlo.after (hostOps0_28 (F := Ideal)) Win) (Proc.devRef .tc main_v745)) (ix2 i n)
          + ∑ k : Fin 256, fbuf S512x256 ((StableHlo.after (hostOps0_28 (F := Ideal)) Win) (Proc.devRef .tc main_v796)) (ix2 i k) * fbuf S768x256 ((StableHlo.after (hostOps0_28 (F := Ideal)) Win) (Proc.devRef .tc main_arg4)) (ix2 n k))
        + fbuf S1x768 ((StableHlo.after (hostOps0_28 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S512x256_S256x768_S512x768_1_0_0_1_n_n rfl, bcast_row_apply]

/-- The new cell state. -/
theorem s4_hc (i : Fin 512) (j : Fin 256) :
    fbuf S512x256 ((StableHlo.after (hostOps0_28 (F := Ideal)) Win) (Proc.devRef .tc main_v817)) (ix2 i j)
      = Ideal.logistic (fbuf S512x768 ((StableHlo.after (hostOps0_28 (F := Ideal)) Win) (Proc.devRef .tc main_v805)) (ix2 i (c0 j)))
          * Ideal.tanh (fbuf S512x768 ((StableHlo.after (hostOps0_28 (F := Ideal)) Win) (Proc.devRef .tc main_v805)) (ix2 i (c2 j)))
        + fbuf S512x256 ((StableHlo.after (hostOps0_28 (F := Ideal)) Win) (Proc.devRef .tc main_v800)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 512) (j : Fin 256) :
    fbuf S512x256 ((StableHlo.after (hostOps0_28 (F := Ideal)) Win) (Proc.devRef .tc main_v825)) (ix2 i j)
      = Ideal.logistic (fbuf S512x768 ((StableHlo.after (hostOps0_28 (F := Ideal)) Win) (Proc.devRef .tc main_v805)) (ix2 i (c1 j)))
          * Ideal.tanh (fbuf S512x256 ((StableHlo.after (hostOps0_28 (F := Ideal)) Win) (Proc.devRef .tc main_v817)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 1024) (j : Fin 256) :
    fbuf S1024x256 ((StableHlo.after (hostOps0_28 (F := Ideal)) Win) (Proc.devRef .tc main_v793)) (ix2 k j)
      = Ideal.logistic ((∑ k' : Fin 256, fbuf S1024x256 ((StableHlo.after (hostOps0_28 (F := Ideal)) Win) (Proc.devRef .tc main_v761)) (ix2 k k') * fbuf S256x256 ((StableHlo.after (hostOps0_28 (F := Ideal)) Win) (Proc.devRef .tc main_arg6)) (ix2 j k'))
          + fbuf S256 ((StableHlo.after (hostOps0_28 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S1024x256_S256x256_S1024x256_1_0_0_1_n_n rfl,
    bcast_vec_rows_apply]

/-- The children's hidden rows summed per parent slot. -/
theorem s4_hht (i : Fin 512) (j : Fin 256) :
    fbuf S512x256 ((StableHlo.after (hostOps0_28 (F := Ideal)) Win) (Proc.devRef .tc main_v796)) (ix2 i j)
      = ∑ k ∈ kids (fun k : Fin 1024 => rowTarget 512 (ibuf S1024 ((StableHlo.after (hostOps0_28 (F := Ideal)) Win) (Proc.devRef .tc main_v782)) (ix1 k))) i, fbuf S1024x256 ((StableHlo.after (hostOps0_28 (F := Ideal)) Win) (Proc.devRef .tc main_v761)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S512x256_S1024x1_S1024x256_1_0_0_1 ⟨rfl, rfl, rfl, rfl⟩ _ _ _ _ i j

/-- The children's gated cell rows summed per parent slot. -/
theorem s4_hca (i : Fin 512) (j : Fin 256) :
    fbuf S512x256 ((StableHlo.after (hostOps0_28 (F := Ideal)) Win) (Proc.devRef .tc main_v800)) (ix2 i j)
      = ∑ k ∈ kids (fun k : Fin 1024 => rowTarget 512 (ibuf S1024 ((StableHlo.after (hostOps0_28 (F := Ideal)) Win) (Proc.devRef .tc main_v782)) (ix1 k))) i,
          fbuf S1024x256 ((StableHlo.after (hostOps0_28 (F := Ideal)) Win) (Proc.devRef .tc main_v793)) (ix2 k j) * fbuf S1024x256 ((StableHlo.after (hostOps0_28 (F := Ideal)) Win) (Proc.devRef .tc main_v768)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S512x256_S1024x1_S1024x256_1_0_0_1 ⟨rfl, rfl, rfl, rfl⟩]
  exact Finset.sum_congr rfl fun k _ => rfl

/-- The new hidden rows are in place at the level's nodes of the whole-forest array. -/
theorem s4_scatter_h
    (hcol : ∀ i : Fin 512, ibuf S512x1 ((StableHlo.after (hostOps0_28 (F := Ideal)) Win) (Proc.devRef .tc main_v831)) (ix2 i 0) = nodeWord 16 15 i.val)
    (k : Fin 512) (j : Fin 256) :
    fbuf S131040x256 ((StableHlo.after (hostOps0_28 (F := Ideal)) Win) (Proc.devRef .tc main_v832)) (ix2 (node 16 15 512 rfl (by omega) k) j) = fbuf S512x256 ((StableHlo.after (hostOps0_28 (F := Ideal)) Win) (Proc.devRef .tc main_v825)) (ix2 k j) := by
  simp only [fbuf, ibuf] at hcol ⊢
  have e_v172 := Line.ternary_at writes4 63 Win (hop := rfl) (by decide) (by decide) (by decide) (by decide)
  rw [e_v172]
  exact scatter_rows_hit scatter_S131040x256_S512x1_S512x256_1_0_0_1 ⟨rfl, rfl, rfl, rfl⟩ _ _ _
    (fun a b r h h' => rowTarget_nodeWord_injective (nd := 16) (start := 15) rfl (by omega) a b r
      (by rw [← hcol a]; exact h) (by rw [← hcol b]; exact h'))
    k _ (by rw [hcol]; exact rowTarget_nodeWord (nd := 16) (start := 15) rfl (by omega) k) j

/-- The new cell rows are in place at the level's nodes of the whole-forest array. -/
theorem s4_scatter_c
    (hcol : ∀ i : Fin 512, ibuf S512x1 ((StableHlo.after (hostOps0_28 (F := Ideal)) Win) (Proc.devRef .tc main_v838)) (ix2 i 0) = nodeWord 16 15 i.val)
    (k : Fin 512) (j : Fin 256) :
    fbuf S131040x256 ((StableHlo.after (hostOps0_28 (F := Ideal)) Win) (Proc.devRef .tc main_v839)) (ix2 (node 16 15 512 rfl (by omega) k) j) = fbuf S512x256 ((StableHlo.after (hostOps0_28 (F := Ideal)) Win) (Proc.devRef .tc main_v817)) (ix2 k j) := by
  simp only [fbuf, ibuf] at hcol ⊢
  have e_v179 := Line.ternary_at writes4 72 Win (hop := rfl) (by decide) (by decide) (by decide) (by decide)
  rw [e_v179]
  exact scatter_rows_hit scatter_S131040x256_S512x1_S512x256_1_0_0_1 ⟨rfl, rfl, rfl, rfl⟩ _ _ _
    (fun a b r h h' => rowTarget_nodeWord_injective (nd := 16) (start := 15) rfl (by omega) a b r
      (by rw [← hcol a]; exact h) (by rw [← hcol b]; exact h'))
    k _ (by rw [hcol]; exact rowTarget_nodeWord (nd := 16) (start := 15) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 512, ibuf S512x1 ((StableHlo.after (hostOps0_24 (F := Ideal)) Win) (Proc.devRef .tc main_v744)) (ix2 k 0) = nodeWord 16 15 k.val)
    (k : Fin 512) (j : Fin 768) :
    fbuf S512x768 ((StableHlo.after (hostOps0_24 (F := Ideal)) Win) (Proc.devRef .tc main_v745)) (ix2 k j) = fbuf S131040x768 ((StableHlo.after (hostOps0_24 (F := Ideal)) Win) (Proc.devRef .tc main_v11)) (ix2 (node 16 15 512 rfl (by omega) k) j) := by
  simp only [fbuf, ibuf] at hcol ⊢
  have e_v85 := Line.binary_at writes0 91 Win (hop := rfl) (by decide) (by decide) (by decide)
  rw [e_v85]
  rw [gather_rows_apply gather_S131040x768_S512x1_S512x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 1024, ibuf S1024x1 ((StableHlo.after (hostOps0_24 (F := Ideal)) Win) (Proc.devRef .tc main_v760)) (ix2 k 0) = nodeWord 32 31 k.val)
    (k : Fin 1024) (j : Fin 256) :
    fbuf S1024x256 ((StableHlo.after (hostOps0_24 (F := Ideal)) Win) (Proc.devRef .tc main_v761)) (ix2 k j) = fbuf S131040x256 ((StableHlo.after (hostOps0_24 (F := Ideal)) Win) (Proc.devRef .tc main_v722)) (ix2 (node 32 31 1024 rfl (by omega) k) j) := by
  simp only [fbuf, ibuf] at hcol ⊢
  have e_v101 := Line.binary_at writes0 110 Win (hop := rfl) (by decide) (by decide) (by decide)
  rw [e_v101]
  rw [gather_rows_apply gather_S131040x256_S1024x1_S1024x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 1024, ibuf S1024x1 ((StableHlo.after (hostOps0_24 (F := Ideal)) Win) (Proc.devRef .tc main_v767)) (ix2 k 0) = nodeWord 32 31 k.val)
    (k : Fin 1024) (j : Fin 256) :
    fbuf S1024x256 ((StableHlo.after (hostOps0_24 (F := Ideal)) Win) (Proc.devRef .tc main_v768)) (ix2 k j) = fbuf S131040x256 ((StableHlo.after (hostOps0_24 (F := Ideal)) Win) (Proc.devRef .tc main_v729)) (ix2 (node 32 31 1024 rfl (by omega) k) j) := by
  simp only [fbuf, ibuf] at hcol ⊢
  have e_v108 := Line.binary_at writes0 119 Win (hop := rfl) (by decide) (by decide) (by decide)
  rw [e_v108]
  rw [gather_rows_apply gather_S131040x256_S1024x1_S1024x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 1024, ibuf S1024x1 ((StableHlo.after (hostOps0_24 (F := Ideal)) Win) (Proc.devRef .tc main_v774)) (ix2 k 0) = nodeWord 32 31 k.val)
    (k : Fin 1024) :
    ibuf S1024 ((StableHlo.after (hostOps0_24 (F := Ideal)) Win) (Proc.devRef .tc main_v775)) (ix1 k) = ibuf S131040 ((StableHlo.after (hostOps0_24 (F := Ideal)) Win) (Proc.devRef .tc main_arg1)) (ix1 (node 32 31 1024 rfl (by omega) k)) := by
  simp only [fbuf, ibuf] at hcol ⊢
  have e_v115 := Line.binary_at writes0 128 Win (hop := rfl) (by decide) (by decide) (by decide)
  rw [e_v115]
  rw [gather_vec_apply gather_S131040_S1024x1_S1024_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_24 (F := Ideal)) Win) (Proc.devRef .tc main_c_183)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S1024 32) (c : IVec S_ 32) : IVec S1024 32 :=
  select (andi (cmpi .ne (signi p) (broadcastInDim S1024 ![] bcast_S_S1024 (signi c))) (cmpi .ne (Host.remsi p (broadcastInDim S1024 ![] bcast_S_S1024 c)) (broadcastInDim S1024 ![] bcast_S_S1024 (constantI S_ 32 0#32))))
    (subi (Host.divsi p (broadcastInDim S1024 ![] bcast_S_S1024 c)) (broadcastInDim S1024 ![] bcast_S_S1024 (constantI S_ 32 1#32))) (Host.divsi p (broadcastInDim S1024 ![] bcast_S_S1024 c))

/-- The reference's remainder of a vector of words by a scalar word (a zero divisor replaced by one): the truncated
    remainder, the divisor added where its sign differs from the divisor's and it is not zero. -/
def remF (p : IVec S1024 32) (c : IVec S_ 32) : IVec S1024 32 :=
  select (andi (cmpi .ne (cmpi .slt (Host.remsi p (broadcastInDim S1024 ![] bcast_S_S1024 (select (cmpi .eq c (constantI S_ 32 0#32)) (constantI S_ 32 1#32) c))) (broadcastInDim S1024 ![] bcast_S_S1024 (constantI S_ 32 0#32))) (broadcastInDim S1024 ![] bcast_S_S1024 (cmpi .slt (select (cmpi .eq c (constantI S_ 32 0#32)) (constantI S_ 32 1#32) c) (constantI S_ 32 0#32)))) (cmpi .ne (Host.remsi p (broadcastInDim S1024 ![] bcast_S_S1024 (select (cmpi .eq c (constantI S_ 32 0#32)) (constantI S_ 32 1#32) c))) (broadcastInDim S1024 ![] bcast_S_S1024 (constantI S_ 32 0#32))))
    (addi (Host.remsi p (broadcastInDim S1024 ![] bcast_S_S1024 (select (cmpi .eq c (constantI S_ 32 0#32)) (constantI S_ 32 1#32) c))) (broadcastInDim S1024 ![] bcast_S_S1024 (select (cmpi .eq c (constantI S_ 32 0#32)) (constantI S_ 32 1#32) c))) (Host.remsi p (broadcastInDim S1024 ![] bcast_S_S1024 (select (cmpi .eq c (constantI S_ 32 0#32)) (constantI S_ 32 1#32) c)))

/-- The routing word of a child from its parent word `p`: `(p // 4095) * 16 + (p % 4095 - 15)`. -/
def segFun (p : IVec S1024 32) : IVec S1024 32 :=
  addi (muli (fdivF p (constantI S_ 32 4095#32)) (broadcastInDim S1024 ![] bcast_S_S1024 (constantI S_ 32 16#32))) (subi (remF p (constantI S_ 32 4095#32)) (broadcastInDim S1024 ![] bcast_S_S1024 (constantI S_ 32 15#32)))

section Stretch123

variable (Win : Valuation τ sig (Elt Ideal))

set_option maxHeartbeats 4000000 in
/-- The quotient part. -/
theorem s1_v116 :
    ibuf S1024 ((StableHlo.after (hostOps0_25 (F := Ideal)) Win) (Proc.devRef .tc main_v776)) = fdivF (ibuf S1024 (Win (Proc.devRef .tc main_v775))) (ibuf S_ (Win (Proc.devRef .tc main_c_183))) := by
  unfold fdivF
  after_results_simp
  <;> (try simp only [TRef.ofBuf, TRef.toBuf, cast_eq]) <;> rfl

/-- The quotient part times the level's nodes per graph. -/
theorem s2_v118 :
    ibuf S1024 ((StableHlo.after (hostOps0_26 (F := Ideal)) Win) (Proc.devRef .tc main_v778)) = muli (ibuf S1024 (Win (Proc.devRef .tc main_v776))) (broadcastInDim S1024 ![] bcast_S_S1024 (constantI S_ 32 16#32)) := by
  after_results_simp
  <;> rfl

/-- The divisor the remainder part is taken by. -/
theorem s2_c29 : ibuf S_ ((StableHlo.after (hostOps0_26 (F := Ideal)) Win) (Proc.devRef .tc main_c_185)) = constantI S_ 32 4095#32 := by
  after_results_simp
  <;> rfl

set_option maxHeartbeats 4000000 in
/-- The remainder part. -/
theorem s3_v119 :
    ibuf S1024 ((StableHlo.after (hostOps0_27 (F := Ideal)) Win) (Proc.devRef .tc main_v779)) = remF (ibuf S1024 (Win (Proc.devRef .tc main_v775))) (ibuf S_ (Win (Proc.devRef .tc main_c_185))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_24 (F := Ideal)) V0
local notation "V2" => StableHlo.after (hostOps0_25 (F := Ideal)) V1
local notation "V3" => StableHlo.after (hostOps0_26 (F := Ideal)) V2
local notation "V4" => StableHlo.after (hostOps0_27 (F := Ideal)) V3
local notation "V5" => StableHlo.after (hostOps0_28 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S1024 (V5 (Proc.devRef .tc main_v782)) = segFun (ibuf S1024 (V1 (Proc.devRef .tc main_v775))) := by
  rw [s4_seg V4, Line.keep writes4 V4 (r := main_v778) (by decide), Line.keep writes3 V3 (r := main_v778) (by decide),
    s2_v118 V2, s1_v116 V1, s0_c27 V0, Line.keep writes4 V4 (r := main_v779) (by decide), s3_v119 V3,
    Line.keep writes2 V2 (r := main_v775) (by decide), Line.keep writes1 V1 (r := main_v775) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 512, ibuf S512x1 (V1 (Proc.devRef .tc main_v744)) (ix2 i 0) = nodeWord 16 15 i.val)
    (h100 : ∀ k : Fin 1024, ibuf S1024x1 (V1 (Proc.devRef .tc main_v760)) (ix2 k 0) = nodeWord 32 31 k.val)
    (h107 : ∀ k : Fin 1024, ibuf S1024x1 (V1 (Proc.devRef .tc main_v767)) (ix2 k 0) = nodeWord 32 31 k.val)
    (h114 : ∀ k : Fin 1024, ibuf S1024x1 (V1 (Proc.devRef .tc main_v774)) (ix2 k 0) = nodeWord 32 31 k.val)
    (h78 : ∀ i : Fin 512, ibuf S512 (V1 (Proc.devRef .tc main_v738)) (ix1 i) = nodeWord 16 15 i.val)
    (h171 : (∀ i : Fin 512, ibuf S512 (V4 (Proc.devRef .tc main_v738)) (ix1 i) = nodeWord 16 15 i.val) →
      ∀ i : Fin 512, ibuf S512x1 (V5 (Proc.devRef .tc main_v831)) (ix2 i 0) = nodeWord 16 15 i.val)
    (h178 : (∀ i : Fin 512, ibuf S512 (V4 (Proc.devRef .tc main_v738)) (ix1 i) = nodeWord 16 15 i.val) →
      ∀ i : Fin 512, ibuf S512x1 (V5 (Proc.devRef .tc main_v838)) (ix2 i 0) = nodeWord 16 15 i.val) :
    Chain.RLevel 16 15 32 31 rfl (by omega) rfl (by omega) w G (ibuf S131040 (V0 (Proc.devRef .tc main_arg1))) segFun
      (fbuf S131040x256 (V1 (Proc.devRef .tc main_v722))) (fbuf S131040x256 (V1 (Proc.devRef .tc main_v729)))
      (fbuf S131040x256 (V5 (Proc.devRef .tc main_v832))) (fbuf S131040x256 (V5 (Proc.devRef .tc main_v839))) := by
  have h78' : ∀ i : Fin 512, ibuf S512 (V4 (Proc.devRef .tc main_v738)) (ix1 i) = nodeWord 16 15 i.val := fun i => by
    rw [Line.keep writes3 V3 (r := main_v738) (by decide), Line.keep writes2 V2 (r := main_v738) (by decide),
      Line.keep writes1 V1 (r := main_v738) (by decide)]
    exact h78 i
  refine ⟨fbuf S131040x768 (V1 (Proc.devRef .tc main_v11)), fbuf S1024x256 (V1 (Proc.devRef .tc main_v761)), fbuf S1024x256 (V1 (Proc.devRef .tc main_v768)),
    fbuf S1024x256 (V5 (Proc.devRef .tc main_v793)), ibuf S1024 (V1 (Proc.devRef .tc main_v775)), ibuf S1024 (V5 (Proc.devRef .tc main_v782)),
    fbuf S512x768 (V1 (Proc.devRef .tc main_v745)), fbuf S512x768 (V5 (Proc.devRef .tc main_v805)), fbuf S512x256 (V5 (Proc.devRef .tc main_v796)),
    fbuf S512x256 (V5 (Proc.devRef .tc main_v800)), fbuf S512x256 (V5 (Proc.devRef .tc main_v817)), fbuf S512x256 (V5 (Proc.devRef .tc main_v825)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v761) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v761) (by decide) (by decide) (by decide) (by decide)] at h
    exact h
  · intro i j
    have h := s4_hca V4 i j
    rw [keep51 V0 (r := main_v768) (by decide) (by decide) (by decide) (by decide)] at h
    exact h
  · intro i n
    have h := s4_hz V4 i n
    rw [keep51 V0 (r := main_v745) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl4

end
-- ==== Proof.RIdx28.lean ====
/-
  The reference's index vectors in the stretch of host operations that ends the level with 16 nodes per graph and
  begins the level with 8, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS2
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W28 : List (Ref sig .tc) :=
  [main_c_186, main_v780, main_v781, main_v782, main_v783, main_v784, main_v785, main_v786,
    main_v787, main_v788, main_v789, main_cst_187, main_v790, main_v791, main_cst_188, main_v792,
    main_v793, main_cst_189, main_v794, main_v795, main_v796, main_v797, main_cst_190, main_v798,
    main_v799, main_v800, main_v801, main_v802, main_v803, main_v804, main_v805, main_v806,
    main_v807, main_v808, main_v809, main_v810, main_cst_191, main_v811, main_v812, main_cst_192,
    main_v813, main_v814, main_v815, main_v816, main_v817, main_v818, main_v819, main_cst_193,
    main_v820, main_v821, main_cst_194, main_v822, main_v823, main_v824, main_v825, main_c_195,
    main_v826, main_v827, main_c_196, main_v828, main_v829, main_v830, main_v831, main_v832,
    main_c_197, main_v833, main_v834, main_c_198, main_v835, main_v836, main_v837, main_v838,
    main_v839, main_v840, main_c_199, main_v841, main_v842, main_v843, main_v844, main_v845,
    main_v846, main_v847, main_v848, main_c_200, main_v849, main_v850, main_c_201, main_v851,
    main_v852, main_v853, main_v854, main_v855, main_v856, main_c_202, main_v857, main_v858,
    main_v859, main_v860, main_v861, main_v862, main_v863, main_v864, main_c_203, main_v865,
    main_v866, main_c_204, main_v867, main_v868, main_v869, main_v870, main_v871, main_c_205,
    main_v872, main_v873, main_c_206, main_v874, main_v875, main_v876, main_v877, main_v878,
    main_c_207, main_v879, main_v880, main_c_208, main_v881, main_v882, main_v883, main_v884,
    main_v885, main_c_209 ]

set_option maxHeartbeats 4000000 in
theorem writes28 : Writes (hostOps0_28 : List (HloOp τ sig (Elt F))) W28 := by
  repeat (first | exact .nil | refine .cons rfl ?_)

variable (Win : Valuation τ sig (Elt F))

/-! ### The ending level: 16 nodes per graph from offset 15 -/

theorem s28_v831 (hids : ∀ i : Fin 512, Win (Proc.devRef .tc main_v738) (ix1 i) = nodeWord 16 15 i.val) (i : Fin 512) :
    after hostOps0_28 Win (Proc.devRef .tc main_v831) (ix2 i 0) = nodeWord 16 15 i.val := by
  normCol_eqs writes28 55
  rw [keep writes28 Win (r := main_v738) (by decide)]
  exact normCol_nodeWord (nd := 16) rfl (by omega) _ _ _ _ _ i (hids i)

theorem s28_v838 (hids : ∀ i : Fin 512, Win (Proc.devRef .tc main_v738) (ix1 i) = nodeWord 16 15 i.val) (i : Fin 512) :
    after hostOps0_28 Win (Proc.devRef .tc main_v838) (ix2 i 0) = nodeWord 16 15 i.val := by
  normCol_eqs writes28 64
  rw [keep writes28 Win (r := main_v738) (by decide)]
  exact normCol_nodeWord (nd := 16) rfl (by omega) _ _ _ _ _ i (hids i)

/-! ### The beginning level: 8 nodes per graph from offset 7, its children the ending level's nodes -/

theorem s28_v848 (h16 : ∀ b : Fin 32, Win (Proc.devRef .tc main_v16) (ix1 b) = BitVec.ofNat 32 b.val * 4095#32) (i : Fin 256) :
    after hostOps0_28 Win (Proc.devRef .tc main_v848) (ix1 i) = nodeWord 8 7 i.val := by
  nids_eqs writes28 73
  rw [keep writes28 Win (r := main_v16) (by decide)]
  exact nids_apply (nd := 8) rfl 7 _ h16 _ _ _ _ _ _ i

theorem s28_v854 (h16 : ∀ b : Fin 32, Win (Proc.devRef .tc main_v16) (ix1 b) = BitVec.ofNat 32 b.val * 4095#32) (i : Fin 256) :
    after hostOps0_28 Win (Proc.devRef .tc main_v854) (ix2 i 0) = nodeWord 8 7 i.val := by
  normCol_eqs writes28 83
  exact normCol_nodeWord (nd := 8) rfl (by omega) _ _ _ _ _ i (s28_v848 Win h16 i)

theorem s28_v864 (h16 : ∀ b : Fin 32, Win (Proc.devRef .tc main_v16) (ix1 b) = BitVec.ofNat 32 b.val * 4095#32) (i : Fin 512) :
    after hostOps0_28 Win (Proc.devRef .tc main_v864) (ix1 i) = nodeWord 16 15 i.val := by
  nids_eqs writes28 92
  rw [keep writes28 Win (r := main_v16) (by decide)]
  exact nids_apply (nd := 16) rfl 15 _ h16 _ _ _ _ _ _ i

theorem s28_v870 (h16 : ∀ b : Fin 32, Win (Proc.devRef .tc main_v16) (ix1 b) = BitVec.ofNat 32 b.val * 4095#32) (i : Fin 512) :
    after hostOps0_28 Win (Proc.devRef .tc main_v870) (ix2 i 0) = nodeWord 16 15 i.val := by
  normCol_eqs writes28 102
  exact normCol_nodeWord (nd := 16) rfl (by omega) _ _ _ _ _ i (s28_v864 Win h16 i)

theorem s28_v877 (h16 : ∀ b : Fin 32, Win (Proc.devRef .tc main_v16) (ix1 b) = BitVec.ofNat 32 b.val * 4095#32) (i : Fin 512) :
    after hostOps0_28 Win (Proc.devRef .tc main_v877) (ix2 i 0) = nodeWord 16 15 i.val := by
  normCol_eqs writes28 111
  exact normCol_nodeWord (nd := 16) rfl (by omega) _ _ _ _ _ i (s28_v864 Win h16 i)

theorem s28_v884 (h16 : ∀ b : Fin 32, Win (Proc.devRef .tc main_v16) (ix1 b) = BitVec.ofNat 32 b.val * 4095#32) (i : Fin 512) :
    after hostOps0_28 Win (Proc.devRef .tc main_v884) (ix2 i 0) = nodeWord 16 15 i.val := by
  normCol_eqs writes28 120
  exact normCol_nodeWord (nd := 16) rfl (by omega) _ _ _ _ _ i (s28_v864 Win h16 i)

end Cert.ReferenceIdeal.Idx

end
-- ==== Proof.BridgeRL4.lean ====
/-
  Level 4 of the reference's side of the chain: the level's stretches run from the contents after stretch 23. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl4
import proofs.«419362_j66683662237734_3_alg».proof.Proof.RIdx24
import proofs.«419362_j66683662237734_3_alg».proof.Proof.RIdx28

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 4, from level 5's arrays to its own. -/
theorem rlevel4 : Chain.RLevel 16 15 32 31 (rfl : 512 = 32 * 16) (by omega) (rfl : 1024 = 32 * 32) (by omega)
    (wR m' c) (GR m' c) (parR m' c) Lvl4.segFun (harr5 m' c) (carr5 m' c) (harr4 m' c) (carr4 m' c) := by
  have h16 : ∀ b : Fin 32, R24 m' c (Proc.devRef .tc main_v16) (ix1 b) = BitVec.ofNat 32 b.val * 4095#32 :=
    offs_of m' c (carry_v16_R24 m' c)
  have h := Lvl4.rlevel (R24 m' c) (wR m' c) (GR m' c)
    (hU_of m' c (carry_arg4_R24 m' c)) (hbI_of m' c (carry_arg5_R24 m' c))
    (hUf_of m' c (carry_arg6_R24 m' c)) (hbF_of m' c (carry_arg7_R24 m' c))
    (iou_of m' c (carry_v11_R25 m' c))
    (fun i => col_in (Idx.s24_v744 (R24 m' c) h16 i)) (fun k => col_in (Idx.s24_v760 (R24 m' c) h16 k))
    (fun k => col_in (Idx.s24_v767 (R24 m' c) h16 k)) (fun k => col_in (Idx.s24_v774 (R24 m' c) h16 k))
    (fun i => col_in (Idx.s24_v738 (R24 m' c) h16 i))
    (fun hids i => col_in (Idx.s28_v831 (R28 m' c) (fun i' => col_out (hids i')) i))
    (fun hids i => col_in (Idx.s28_v838 (R28 m' c) (fun i' => col_out (hids i')) i))
  rw [par_of m' c (carry_arg1_R24 m' c), fbuf_id, fbuf_id, fbuf_id, fbuf_id] at h
  exact h

end Cert.BridgeR

end
-- ==== Proof.RLvl3.lean ====
/-
  One level of the reference's tree recurrence, the level of 256 nodes with 512 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS2
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl3

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_186, main_v780, main_v781, main_v782, main_v783, main_v784, main_v785, main_v786,
    main_v787, main_v788, main_v789, main_cst_187, main_v790, main_v791, main_cst_188, main_v792,
    main_v793, main_cst_189, main_v794, main_v795, main_v796, main_v797, main_cst_190, main_v798,
    main_v799, main_v800, main_v801, main_v802, main_v803, main_v804, main_v805, main_v806,
    main_v807, main_v808, main_v809, main_v810, main_cst_191, main_v811, main_v812, main_cst_192,
    main_v813, main_v814, main_v815, main_v816, main_v817, main_v818, main_v819, main_cst_193,
    main_v820, main_v821, main_cst_194, main_v822, main_v823, main_v824, main_v825, main_c_195,
    main_v826, main_v827, main_c_196, main_v828, main_v829, main_v830, main_v831, main_v832,
    main_c_197, main_v833, main_v834, main_c_198, main_v835, main_v836, main_v837, main_v838,
    main_v839, main_v840, main_c_199, main_v841, main_v842, main_v843, main_v844, main_v845,
    main_v846, main_v847, main_v848, main_c_200, main_v849, main_v850, main_c_201, main_v851,
    main_v852, main_v853, main_v854, main_v855, main_v856, main_c_202, main_v857, main_v858,
    main_v859, main_v860, main_v861, main_v862, main_v863, main_v864, main_c_203, main_v865,
    main_v866, main_c_204, main_v867, main_v868, main_v869, main_v870, main_v871, main_c_205,
    main_v872, main_v873, main_c_206, main_v874, main_v875, main_v876, main_v877, main_v878,
    main_c_207, main_v879, main_v880, main_c_208, main_v881, main_v882, main_v883, main_v884,
    main_v885, main_c_209 ]
set_option maxHeartbeats 40000000 in
theorem writes0 : Line.Writes (hostOps0_28 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call14_v0, main_call14_v1, main_call14_v2, main_call14_v3, main_call14_v4, main_call14_v5, main_call14_v6, main_call14_v7,
    main_call14_v8, main_call14_c, main_call14_v9, main_call14_v10, main_call14_v11, main_call14_c_0, main_call14_v12, main_call14_v13,
    main_v886 ]
set_option maxHeartbeats 40000000 in
theorem writes1 : Line.Writes (hostOps0_29 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_210, main_v887, main_v888, main_c_211 ]
set_option maxHeartbeats 40000000 in
theorem writes2 : Line.Writes (hostOps0_30 (F := Ideal) : List (HloOp τ sig (Elt Ideal))) W2 :=
  .cons rfl (.cons rfl (.cons rfl (.cons rfl (.nil))))

abbrev W3 : List (Ref sig .tc) :=
  [
    main_call15_v0, main_call15_c, main_call15_v1, main_call15_c_0, main_call15_v2, main_call15_v3, main_call15_v4, main_call15_c_1,
    main_call15_v5, main_call15_v6, main_call15_c_2, main_call15_v7, main_call15_v8, main_call15_c_3, main_call15_v9, main_call15_v10,
    main_call15_v11, main_call15_v12, main_call15_v13, main_call15_v14, main_v889 ]
set_option maxHeartbeats 40000000 in
theorem writes3 : Line.Writes (hostOps0_31 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_212, main_v890, main_v891, main_v892, main_v893, main_v894, main_v895, main_v896,
    main_v897, main_v898, main_v899, main_cst_213, main_v900, main_v901, main_cst_214, main_v902,
    main_v903, main_cst_215, main_v904, main_v905, main_v906, main_v907, main_cst_216, main_v908,
    main_v909, main_v910, main_v911, main_v912, main_v913, main_v914, main_v915, main_v916,
    main_v917, main_v918, main_v919, main_v920, main_cst_217, main_v921, main_v922, main_cst_218,
    main_v923, main_v924, main_v925, main_v926, main_v927, main_v928, main_v929, main_cst_219,
    main_v930, main_v931, main_cst_220, main_v932, main_v933, main_v934, main_v935, main_c_221,
    main_v936, main_v937, main_c_222, main_v938, main_v939, main_v940, main_v941, main_v942,
    main_c_223, main_v943, main_v944, main_c_224, main_v945, main_v946, main_v947, main_v948,
    main_v949, main_v950, main_c_225, main_v951, main_v952, main_v953, main_v954, main_v955,
    main_v956, main_v957, main_v958, main_c_226, main_v959, main_v960, main_c_227, main_v961,
    main_v962, main_v963, main_v964, main_v965, main_v966, main_c_228, main_v967, main_v968,
    main_v969, main_v970, main_v971, main_v972, main_v973, main_v974, main_c_229, main_v975,
    main_v976, main_c_230, main_v977, main_v978, main_v979, main_v980, main_v981, main_c_231,
    main_v982, main_v983, main_c_232, main_v984, main_v985, main_v986, main_v987, main_v988,
    main_c_233, main_v989, main_v990, main_c_234, main_v991, main_v992, main_v993, main_v994,
    main_v995, main_c_235 ]
set_option maxHeartbeats 40000000 in
theorem writes4 : Line.Writes (hostOps0_32 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S512 ((StableHlo.after (hostOps0_32 (F := Ideal)) Win) (Proc.devRef .tc main_v892))
      = addi (ibuf S512 ((StableHlo.after (hostOps0_32 (F := Ideal)) Win) (Proc.devRef .tc main_v888)))
          (subi (ibuf S512 ((StableHlo.after (hostOps0_32 (F := Ideal)) Win) (Proc.devRef .tc main_v889))) (broadcastInDim S512 ![] bcast_S_S512 (constantI S_ 32 7#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 256) (n : Fin 768) :
    fbuf S256x768 ((StableHlo.after (hostOps0_32 (F := Ideal)) Win) (Proc.devRef .tc main_v915)) (ix2 i n)
      = (fbuf S256x768 ((StableHlo.after (hostOps0_32 (F := Ideal)) Win) (Proc.devRef .tc main_v855)) (ix2 i n)
          + ∑ k : Fin 256, fbuf S256x256 ((StableHlo.after (hostOps0_32 (F := Ideal)) Win) (Proc.devRef .tc main_v906)) (ix2 i k) * fbuf S768x256 ((StableHlo.after (hostOps0_32 (F := Ideal)) Win) (Proc.devRef .tc main_arg4)) (ix2 n k))
        + fbuf S1x768 ((StableHlo.after (hostOps0_32 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S256x256_S256x768_S256x768_1_0_0_1_n_n rfl, bcast_row_apply]

/-- The new cell state. -/
theorem s4_hc (i : Fin 256) (j : Fin 256) :
    fbuf S256x256 ((StableHlo.after (hostOps0_32 (F := Ideal)) Win) (Proc.devRef .tc main_v927)) (ix2 i j)
      = Ideal.logistic (fbuf S256x768 ((StableHlo.after (hostOps0_32 (F := Ideal)) Win) (Proc.devRef .tc main_v915)) (ix2 i (c0 j)))
          * Ideal.tanh (fbuf S256x768 ((StableHlo.after (hostOps0_32 (F := Ideal)) Win) (Proc.devRef .tc main_v915)) (ix2 i (c2 j)))
        + fbuf S256x256 ((StableHlo.after (hostOps0_32 (F := Ideal)) Win) (Proc.devRef .tc main_v910)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 256) (j : Fin 256) :
    fbuf S256x256 ((StableHlo.after (hostOps0_32 (F := Ideal)) Win) (Proc.devRef .tc main_v935)) (ix2 i j)
      = Ideal.logistic (fbuf S256x768 ((StableHlo.after (hostOps0_32 (F := Ideal)) Win) (Proc.devRef .tc main_v915)) (ix2 i (c1 j)))
          * Ideal.tanh (fbuf S256x256 ((StableHlo.after (hostOps0_32 (F := Ideal)) Win) (Proc.devRef .tc main_v927)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 512) (j : Fin 256) :
    fbuf S512x256 ((StableHlo.after (hostOps0_32 (F := Ideal)) Win) (Proc.devRef .tc main_v903)) (ix2 k j)
      = Ideal.logistic ((∑ k' : Fin 256, fbuf S512x256 ((StableHlo.after (hostOps0_32 (F := Ideal)) Win) (Proc.devRef .tc main_v871)) (ix2 k k') * fbuf S256x256 ((StableHlo.after (hostOps0_32 (F := Ideal)) Win) (Proc.devRef .tc main_arg6)) (ix2 j k'))
          + fbuf S256 ((StableHlo.after (hostOps0_32 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S512x256_S256x256_S512x256_1_0_0_1_n_n rfl,
    bcast_vec_rows_apply]

/-- The children's hidden rows summed per parent slot. -/
theorem s4_hht (i : Fin 256) (j : Fin 256) :
    fbuf S256x256 ((StableHlo.after (hostOps0_32 (F := Ideal)) Win) (Proc.devRef .tc main_v906)) (ix2 i j)
      = ∑ k ∈ kids (fun k : Fin 512 => rowTarget 256 (ibuf S512 ((StableHlo.after (hostOps0_32 (F := Ideal)) Win) (Proc.devRef .tc main_v892)) (ix1 k))) i, fbuf S512x256 ((StableHlo.after (hostOps0_32 (F := Ideal)) Win) (Proc.devRef .tc main_v871)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S256x256_S512x1_S512x256_1_0_0_1 ⟨rfl, rfl, rfl, rfl⟩ _ _ _ _ i j

/-- The children's gated cell rows summed per parent slot. -/
theorem s4_hca (i : Fin 256) (j : Fin 256) :
    fbuf S256x256 ((StableHlo.after (hostOps0_32 (F := Ideal)) Win) (Proc.devRef .tc main_v910)) (ix2 i j)
      = ∑ k ∈ kids (fun k : Fin 512 => rowTarget 256 (ibuf S512 ((StableHlo.after (hostOps0_32 (F := Ideal)) Win) (Proc.devRef .tc main_v892)) (ix1 k))) i,
          fbuf S512x256 ((StableHlo.after (hostOps0_32 (F := Ideal)) Win) (Proc.devRef .tc main_v903)) (ix2 k j) * fbuf S512x256 ((StableHlo.after (hostOps0_32 (F := Ideal)) Win) (Proc.devRef .tc main_v878)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S256x256_S512x1_S512x256_1_0_0_1 ⟨rfl, rfl, rfl, rfl⟩]
  exact Finset.sum_congr rfl fun k _ => rfl

/-- The new hidden rows are in place at the level's nodes of the whole-forest array. -/
theorem s4_scatter_h
    (hcol : ∀ i : Fin 256, ibuf S256x1 ((StableHlo.after (hostOps0_32 (F := Ideal)) Win) (Proc.devRef .tc main_v941)) (ix2 i 0) = nodeWord 8 7 i.val)
    (k : Fin 256) (j : Fin 256) :
    fbuf S131040x256 ((StableHlo.after (hostOps0_32 (F := Ideal)) Win) (Proc.devRef .tc main_v942)) (ix2 (node 8 7 256 rfl (by omega) k) j) = fbuf S256x256 ((StableHlo.after (hostOps0_32 (F := Ideal)) Win) (Proc.devRef .tc main_v935)) (ix2 k j) := by
  simp only [fbuf, ibuf] at hcol ⊢
  have e_v172 := Line.ternary_at writes4 63 Win (hop := rfl) (by decide) (by decide) (by decide) (by decide)
  rw [e_v172]
  exact scatter_rows_hit scatter_S131040x256_S256x1_S256x256_1_0_0_1 ⟨rfl, rfl, rfl, rfl⟩ _ _ _
    (fun a b r h h' => rowTarget_nodeWord_injective (nd := 8) (start := 7) rfl (by omega) a b r
      (by rw [← hcol a]; exact h) (by rw [← hcol b]; exact h'))
    k _ (by rw [hcol]; exact rowTarget_nodeWord (nd := 8) (start := 7) rfl (by omega) k) j

/-- The new cell rows are in place at the level's nodes of the whole-forest array. -/
theorem s4_scatter_c
    (hcol : ∀ i : Fin 256, ibuf S256x1 ((StableHlo.after (hostOps0_32 (F := Ideal)) Win) (Proc.devRef .tc main_v948)) (ix2 i 0) = nodeWord 8 7 i.val)
    (k : Fin 256) (j : Fin 256) :
    fbuf S131040x256 ((StableHlo.after (hostOps0_32 (F := Ideal)) Win) (Proc.devRef .tc main_v949)) (ix2 (node 8 7 256 rfl (by omega) k) j) = fbuf S256x256 ((StableHlo.after (hostOps0_32 (F := Ideal)) Win) (Proc.devRef .tc main_v927)) (ix2 k j) := by
  simp only [fbuf, ibuf] at hcol ⊢
  have e_v179 := Line.ternary_at writes4 72 Win (hop := rfl) (by decide) (by decide) (by decide) (by decide)
  rw [e_v179]
  exact scatter_rows_hit scatter_S131040x256_S256x1_S256x256_1_0_0_1 ⟨rfl, rfl, rfl, rfl⟩ _ _ _
    (fun a b r h h' => rowTarget_nodeWord_injective (nd := 8) (start := 7) rfl (by omega) a b r
      (by rw [← hcol a]; exact h) (by rw [← hcol b]; exact h'))
    k _ (by rw [hcol]; exact rowTarget_nodeWord (nd := 8) (start := 7) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 256, ibuf S256x1 ((StableHlo.after (hostOps0_28 (F := Ideal)) Win) (Proc.devRef .tc main_v854)) (ix2 k 0) = nodeWord 8 7 k.val)
    (k : Fin 256) (j : Fin 768) :
    fbuf S256x768 ((StableHlo.after (hostOps0_28 (F := Ideal)) Win) (Proc.devRef .tc main_v855)) (ix2 k j) = fbuf S131040x768 ((StableHlo.after (hostOps0_28 (F := Ideal)) Win) (Proc.devRef .tc main_v11)) (ix2 (node 8 7 256 rfl (by omega) k) j) := by
  simp only [fbuf, ibuf] at hcol ⊢
  have e_v85 := Line.binary_at writes0 91 Win (hop := rfl) (by decide) (by decide) (by decide)
  rw [e_v85]
  rw [gather_rows_apply gather_S131040x768_S256x1_S256x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 512, ibuf S512x1 ((StableHlo.after (hostOps0_28 (F := Ideal)) Win) (Proc.devRef .tc main_v870)) (ix2 k 0) = nodeWord 16 15 k.val)
    (k : Fin 512) (j : Fin 256) :
    fbuf S512x256 ((StableHlo.after (hostOps0_28 (F := Ideal)) Win) (Proc.devRef .tc main_v871)) (ix2 k j) = fbuf S131040x256 ((StableHlo.after (hostOps0_28 (F := Ideal)) Win) (Proc.devRef .tc main_v832)) (ix2 (node 16 15 512 rfl (by omega) k) j) := by
  simp only [fbuf, ibuf] at hcol ⊢
  have e_v101 := Line.binary_at writes0 110 Win (hop := rfl) (by decide) (by decide) (by decide)
  rw [e_v101]
  rw [gather_rows_apply gather_S131040x256_S512x1_S512x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 512, ibuf S512x1 ((StableHlo.after (hostOps0_28 (F := Ideal)) Win) (Proc.devRef .tc main_v877)) (ix2 k 0) = nodeWord 16 15 k.val)
    (k : Fin 512) (j : Fin 256) :
    fbuf S512x256 ((StableHlo.after (hostOps0_28 (F := Ideal)) Win) (Proc.devRef .tc main_v878)) (ix2 k j) = fbuf S131040x256 ((StableHlo.after (hostOps0_28 (F := Ideal)) Win) (Proc.devRef .tc main_v839)) (ix2 (node 16 15 512 rfl (by omega) k) j) := by
  simp only [fbuf, ibuf] at hcol ⊢
  have e_v108 := Line.binary_at writes0 119 Win (hop := rfl) (by decide) (by decide) (by decide)
  rw [e_v108]
  rw [gather_rows_apply gather_S131040x256_S512x1_S512x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 512, ibuf S512x1 ((StableHlo.after (hostOps0_28 (F := Ideal)) Win) (Proc.devRef .tc main_v884)) (ix2 k 0) = nodeWord 16 15 k.val)
    (k : Fin 512) :
    ibuf S512 ((StableHlo.after (hostOps0_28 (F := Ideal)) Win) (Proc.devRef .tc main_v885)) (ix1 k) = ibuf S131040 ((StableHlo.after (hostOps0_28 (F := Ideal)) Win) (Proc.devRef .tc main_arg1)) (ix1 (node 16 15 512 rfl (by omega) k)) := by
  simp only [fbuf, ibuf] at hcol ⊢
  have e_v115 := Line.binary_at writes0 128 Win (hop := rfl) (by decide) (by decide) (by decide)
  rw [e_v115]
  rw [gather_vec_apply gather_S131040_S512x1_S512_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_28 (F := Ideal)) Win) (Proc.devRef .tc main_c_209)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S512 32) (c : IVec S_ 32) : IVec S512 32 :=
  select (andi (cmpi .ne (signi p) (broadcastInDim S512 ![] bcast_S_S512 (signi c))) (cmpi .ne (Host.remsi p (broadcastInDim S512 ![] bcast_S_S512 c)) (broadcastInDim S512 ![] bcast_S_S512 (constantI S_ 32 0#32))))
    (subi (Host.divsi p (broadcastInDim S512 ![] bcast_S_S512 c)) (broadcastInDim S512 ![] bcast_S_S512 (constantI S_ 32 1#32))) (Host.divsi p (broadcastInDim S512 ![] bcast_S_S512 c))

/-- The reference's remainder of a vector of words by a scalar word (a zero divisor replaced by one): the truncated
    remainder, the divisor added where its sign differs from the divisor's and it is not zero. -/
def remF (p : IVec S512 32) (c : IVec S_ 32) : IVec S512 32 :=
  select (andi (cmpi .ne (cmpi .slt (Host.remsi p (broadcastInDim S512 ![] bcast_S_S512 (select (cmpi .eq c (constantI S_ 32 0#32)) (constantI S_ 32 1#32) c))) (broadcastInDim S512 ![] bcast_S_S512 (constantI S_ 32 0#32))) (broadcastInDim S512 ![] bcast_S_S512 (cmpi .slt (select (cmpi .eq c (constantI S_ 32 0#32)) (constantI S_ 32 1#32) c) (constantI S_ 32 0#32)))) (cmpi .ne (Host.remsi p (broadcastInDim S512 ![] bcast_S_S512 (select (cmpi .eq c (constantI S_ 32 0#32)) (constantI S_ 32 1#32) c))) (broadcastInDim S512 ![] bcast_S_S512 (constantI S_ 32 0#32))))
    (addi (Host.remsi p (broadcastInDim S512 ![] bcast_S_S512 (select (cmpi .eq c (constantI S_ 32 0#32)) (constantI S_ 32 1#32) c))) (broadcastInDim S512 ![] bcast_S_S512 (select (cmpi .eq c (constantI S_ 32 0#32)) (constantI S_ 32 1#32) c))) (Host.remsi p (broadcastInDim S512 ![] bcast_S_S512 (select (cmpi .eq c (constantI S_ 32 0#32)) (constantI S_ 32 1#32) c)))

/-- The routing word of a child from its parent word `p`: `(p // 4095) * 8 + (p % 4095 - 7)`. -/
def segFun (p : IVec S512 32) : IVec S512 32 :=
  addi (muli (fdivF p (constantI S_ 32 4095#32)) (broadcastInDim S512 ![] bcast_S_S512 (constantI S_ 32 8#32))) (subi (remF p (constantI S_ 32 4095#32)) (broadcastInDim S512 ![] bcast_S_S512 (constantI S_ 32 7#32)))

section Stretch123

variable (Win : Valuation τ sig (Elt Ideal))

set_option maxHeartbeats 4000000 in
/-- The quotient part. -/
theorem s1_v116 :
    ibuf S512 ((StableHlo.after (hostOps0_29 (F := Ideal)) Win) (Proc.devRef .tc main_v886)) = fdivF (ibuf S512 (Win (Proc.devRef .tc main_v885))) (ibuf S_ (Win (Proc.devRef .tc main_c_209))) := by
  unfold fdivF
  after_results_simp
  <;> (try simp only [TRef.ofBuf, TRef.toBuf, cast_eq]) <;> rfl

/-- The quotient part times the level's nodes per graph. -/
theorem s2_v118 :
    ibuf S512 ((StableHlo.after (hostOps0_30 (F := Ideal)) Win) (Proc.devRef .tc main_v888)) = muli (ibuf S512 (Win (Proc.devRef .tc main_v886))) (broadcastInDim S512 ![] bcast_S_S512 (constantI S_ 32 8#32)) := by
  after_results_simp
  <;> rfl

/-- The divisor the remainder part is taken by. -/
theorem s2_c29 : ibuf S_ ((StableHlo.after (hostOps0_30 (F := Ideal)) Win) (Proc.devRef .tc main_c_211)) = constantI S_ 32 4095#32 := by
  after_results_simp
  <;> rfl

set_option maxHeartbeats 4000000 in
/-- The remainder part. -/
theorem s3_v119 :
    ibuf S512 ((StableHlo.after (hostOps0_31 (F := Ideal)) Win) (Proc.devRef .tc main_v889)) = remF (ibuf S512 (Win (Proc.devRef .tc main_v885))) (ibuf S_ (Win (Proc.devRef .tc main_c_211))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_28 (F := Ideal)) V0
local notation "V2" => StableHlo.after (hostOps0_29 (F := Ideal)) V1
local notation "V3" => StableHlo.after (hostOps0_30 (F := Ideal)) V2
local notation "V4" => StableHlo.after (hostOps0_31 (F := Ideal)) V3
local notation "V5" => StableHlo.after (hostOps0_32 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S512 (V5 (Proc.devRef .tc main_v892)) = segFun (ibuf S512 (V1 (Proc.devRef .tc main_v885))) := by
  rw [s4_seg V4, Line.keep writes4 V4 (r := main_v888) (by decide), Line.keep writes3 V3 (r := main_v888) (by decide),
    s2_v118 V2, s1_v116 V1, s0_c27 V0, Line.keep writes4 V4 (r := main_v889) (by decide), s3_v119 V3,
    Line.keep writes2 V2 (r := main_v885) (by decide), Line.keep writes1 V1 (r := main_v885) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 256, ibuf S256x1 (V1 (Proc.devRef .tc main_v854)) (ix2 i 0) = nodeWord 8 7 i.val)
    (h100 : ∀ k : Fin 512, ibuf S512x1 (V1 (Proc.devRef .tc main_v870)) (ix2 k 0) = nodeWord 16 15 k.val)
    (h107 : ∀ k : Fin 512, ibuf S512x1 (V1 (Proc.devRef .tc main_v877)) (ix2 k 0) = nodeWord 16 15 k.val)
    (h114 : ∀ k : Fin 512, ibuf S512x1 (V1 (Proc.devRef .tc main_v884)) (ix2 k 0) = nodeWord 16 15 k.val)
    (h78 : ∀ i : Fin 256, ibuf S256 (V1 (Proc.devRef .tc main_v848)) (ix1 i) = nodeWord 8 7 i.val)
    (h171 : (∀ i : Fin 256, ibuf S256 (V4 (Proc.devRef .tc main_v848)) (ix1 i) = nodeWord 8 7 i.val) →
      ∀ i : Fin 256, ibuf S256x1 (V5 (Proc.devRef .tc main_v941)) (ix2 i 0) = nodeWord 8 7 i.val)
    (h178 : (∀ i : Fin 256, ibuf S256 (V4 (Proc.devRef .tc main_v848)) (ix1 i) = nodeWord 8 7 i.val) →
      ∀ i : Fin 256, ibuf S256x1 (V5 (Proc.devRef .tc main_v948)) (ix2 i 0) = nodeWord 8 7 i.val) :
    Chain.RLevel 8 7 16 15 rfl (by omega) rfl (by omega) w G (ibuf S131040 (V0 (Proc.devRef .tc main_arg1))) segFun
      (fbuf S131040x256 (V1 (Proc.devRef .tc main_v832))) (fbuf S131040x256 (V1 (Proc.devRef .tc main_v839)))
      (fbuf S131040x256 (V5 (Proc.devRef .tc main_v942))) (fbuf S131040x256 (V5 (Proc.devRef .tc main_v949))) := by
  have h78' : ∀ i : Fin 256, ibuf S256 (V4 (Proc.devRef .tc main_v848)) (ix1 i) = nodeWord 8 7 i.val := fun i => by
    rw [Line.keep writes3 V3 (r := main_v848) (by decide), Line.keep writes2 V2 (r := main_v848) (by decide),
      Line.keep writes1 V1 (r := main_v848) (by decide)]
    exact h78 i
  refine ⟨fbuf S131040x768 (V1 (Proc.devRef .tc main_v11)), fbuf S512x256 (V1 (Proc.devRef .tc main_v871)), fbuf S512x256 (V1 (Proc.devRef .tc main_v878)),
    fbuf S512x256 (V5 (Proc.devRef .tc main_v903)), ibuf S512 (V1 (Proc.devRef .tc main_v885)), ibuf S512 (V5 (Proc.devRef .tc main_v892)),
    fbuf S256x768 (V1 (Proc.devRef .tc main_v855)), fbuf S256x768 (V5 (Proc.devRef .tc main_v915)), fbuf S256x256 (V5 (Proc.devRef .tc main_v906)),
    fbuf S256x256 (V5 (Proc.devRef .tc main_v910)), fbuf S256x256 (V5 (Proc.devRef .tc main_v927)), fbuf S256x256 (V5 (Proc.devRef .tc main_v935)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v871) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v871) (by decide) (by decide) (by decide) (by decide)] at h
    exact h
  · intro i j
    have h := s4_hca V4 i j
    rw [keep51 V0 (r := main_v878) (by decide) (by decide) (by decide) (by decide)] at h
    exact h
  · intro i n
    have h := s4_hz V4 i n
    rw [keep51 V0 (r := main_v855) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl3

end
-- ==== Proof.RIdx32.lean ====
/-
  The reference's index vectors in the stretch of host operations that ends the level with 8 nodes per graph and
  begins the level with 4, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS2
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W32 : List (Ref sig .tc) :=
  [main_c_212, main_v890, main_v891, main_v892, main_v893, main_v894, main_v895, main_v896,
    main_v897, main_v898, main_v899, main_cst_213, main_v900, main_v901, main_cst_214, main_v902,
    main_v903, main_cst_215, main_v904, main_v905, main_v906, main_v907, main_cst_216, main_v908,
    main_v909, main_v910, main_v911, main_v912, main_v913, main_v914, main_v915, main_v916,
    main_v917, main_v918, main_v919, main_v920, main_cst_217, main_v921, main_v922, main_cst_218,
    main_v923, main_v924, main_v925, main_v926, main_v927, main_v928, main_v929, main_cst_219,
    main_v930, main_v931, main_cst_220, main_v932, main_v933, main_v934, main_v935, main_c_221,
    main_v936, main_v937, main_c_222, main_v938, main_v939, main_v940, main_v941, main_v942,
    main_c_223, main_v943, main_v944, main_c_224, main_v945, main_v946, main_v947, main_v948,
    main_v949, main_v950, main_c_225, main_v951, main_v952, main_v953, main_v954, main_v955,
    main_v956, main_v957, main_v958, main_c_226, main_v959, main_v960, main_c_227, main_v961,
    main_v962, main_v963, main_v964, main_v965, main_v966, main_c_228, main_v967, main_v968,
    main_v969, main_v970, main_v971, main_v972, main_v973, main_v974, main_c_229, main_v975,
    main_v976, main_c_230, main_v977, main_v978, main_v979, main_v980, main_v981, main_c_231,
    main_v982, main_v983, main_c_232, main_v984, main_v985, main_v986, main_v987, main_v988,
    main_c_233, main_v989, main_v990, main_c_234, main_v991, main_v992, main_v993, main_v994,
    main_v995, main_c_235 ]

set_option maxHeartbeats 4000000 in
theorem writes32 : Writes (hostOps0_32 : List (HloOp τ sig (Elt F))) W32 := by
  repeat (first | exact .nil | refine .cons rfl ?_)

variable (Win : Valuation τ sig (Elt F))

/-! ### The ending level: 8 nodes per graph from offset 7 -/

theorem s32_v941 (hids : ∀ i : Fin 256, Win (Proc.devRef .tc main_v848) (ix1 i) = nodeWord 8 7 i.val) (i : Fin 256) :
    after hostOps0_32 Win (Proc.devRef .tc main_v941) (ix2 i 0) = nodeWord 8 7 i.val := by
  normCol_eqs writes32 55
  rw [keep writes32 Win (r := main_v848) (by decide)]
  exact normCol_nodeWord (nd := 8) rfl (by omega) _ _ _ _ _ i (hids i)

theorem s32_v948 (hids : ∀ i : Fin 256, Win (Proc.devRef .tc main_v848) (ix1 i) = nodeWord 8 7 i.val) (i : Fin 256) :
    after hostOps0_32 Win (Proc.devRef .tc main_v948) (ix2 i 0) = nodeWord 8 7 i.val := by
  normCol_eqs writes32 64
  rw [keep writes32 Win (r := main_v848) (by decide)]
  exact normCol_nodeWord (nd := 8) rfl (by omega) _ _ _ _ _ i (hids i)

/-! ### The beginning level: 4 nodes per graph from offset 3, its children the ending level's nodes -/

theorem s32_v958 (h16 : ∀ b : Fin 32, Win (Proc.devRef .tc main_v16) (ix1 b) = BitVec.ofNat 32 b.val * 4095#32) (i : Fin 128) :
    after hostOps0_32 Win (Proc.devRef .tc main_v958) (ix1 i) = nodeWord 4 3 i.val := by
  nids_eqs writes32 73
  rw [keep writes32 Win (r := main_v16) (by decide)]
  exact nids_apply (nd := 4) rfl 3 _ h16 _ _ _ _ _ _ i

theorem s32_v964 (h16 : ∀ b : Fin 32, Win (Proc.devRef .tc main_v16) (ix1 b) = BitVec.ofNat 32 b.val * 4095#32) (i : Fin 128) :
    after hostOps0_32 Win (Proc.devRef .tc main_v964) (ix2 i 0) = nodeWord 4 3 i.val := by
  normCol_eqs writes32 83
  exact normCol_nodeWord (nd := 4) rfl (by omega) _ _ _ _ _ i (s32_v958 Win h16 i)

theorem s32_v974 (h16 : ∀ b : Fin 32, Win (Proc.devRef .tc main_v16) (ix1 b) = BitVec.ofNat 32 b.val * 4095#32) (i : Fin 256) :
    after hostOps0_32 Win (Proc.devRef .tc main_v974) (ix1 i) = nodeWord 8 7 i.val := by
  nids_eqs writes32 92
  rw [keep writes32 Win (r := main_v16) (by decide)]
  exact nids_apply (nd := 8) rfl 7 _ h16 _ _ _ _ _ _ i

theorem s32_v980 (h16 : ∀ b : Fin 32, Win (Proc.devRef .tc main_v16) (ix1 b) = BitVec.ofNat 32 b.val * 4095#32) (i : Fin 256) :
    after hostOps0_32 Win (Proc.devRef .tc main_v980) (ix2 i 0) = nodeWord 8 7 i.val := by
  normCol_eqs writes32 102
  exact normCol_nodeWord (nd := 8) rfl (by omega) _ _ _ _ _ i (s32_v974 Win h16 i)

theorem s32_v987 (h16 : ∀ b : Fin 32, Win (Proc.devRef .tc main_v16) (ix1 b) = BitVec.ofNat 32 b.val * 4095#32) (i : Fin 256) :
    after hostOps0_32 Win (Proc.devRef .tc main_v987) (ix2 i 0) = nodeWord 8 7 i.val := by
  normCol_eqs writes32 111
  exact normCol_nodeWord (nd := 8) rfl (by omega) _ _ _ _ _ i (s32_v974 Win h16 i)

theorem s32_v994 (h16 : ∀ b : Fin 32, Win (Proc.devRef .tc main_v16) (ix1 b) = BitVec.ofNat 32 b.val * 4095#32) (i : Fin 256) :
    after hostOps0_32 Win (Proc.devRef .tc main_v994) (ix2 i 0) = nodeWord 8 7 i.val := by
  normCol_eqs writes32 120
  exact normCol_nodeWord (nd := 8) rfl (by omega) _ _ _ _ _ i (s32_v974 Win h16 i)

end Cert.ReferenceIdeal.Idx

end
-- ==== Proof.BridgeRL3.lean ====
/-
  Level 3 of the reference's side of the chain: the level's stretches run from the contents after stretch 27. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl3
import proofs.«419362_j66683662237734_3_alg».proof.Proof.RIdx28
import proofs.«419362_j66683662237734_3_alg».proof.Proof.RIdx32

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 3, from level 4's arrays to its own. -/
theorem rlevel3 : Chain.RLevel 8 7 16 15 (rfl : 256 = 32 * 8) (by omega) (rfl : 512 = 32 * 16) (by omega)
    (wR m' c) (GR m' c) (parR m' c) Lvl3.segFun (harr4 m' c) (carr4 m' c) (harr3 m' c) (carr3 m' c) := by
  have h16 : ∀ b : Fin 32, R28 m' c (Proc.devRef .tc main_v16) (ix1 b) = BitVec.ofNat 32 b.val * 4095#32 :=
    offs_of m' c (carry_v16_R28 m' c)
  have h := Lvl3.rlevel (R28 m' c) (wR m' c) (GR m' c)
    (hU_of m' c (carry_arg4_R28 m' c)) (hbI_of m' c (carry_arg5_R28 m' c))
    (hUf_of m' c (carry_arg6_R28 m' c)) (hbF_of m' c (carry_arg7_R28 m' c))
    (iou_of m' c (carry_v11_R29 m' c))
    (fun i => col_in (Idx.s28_v854 (R28 m' c) h16 i)) (fun k => col_in (Idx.s28_v870 (R28 m' c) h16 k))
    (fun k => col_in (Idx.s28_v877 (R28 m' c) h16 k)) (fun k => col_in (Idx.s28_v884 (R28 m' c) h16 k))
    (fun i => col_in (Idx.s28_v848 (R28 m' c) h16 i))
    (fun hids i => col_in (Idx.s32_v941 (R32 m' c) (fun i' => col_out (hids i')) i))
    (fun hids i => col_in (Idx.s32_v948 (R32 m' c) (fun i' => col_out (hids i')) i))
  rw [par_of m' c (carry_arg1_R28 m' c), fbuf_id, fbuf_id, fbuf_id, fbuf_id] at h
  exact h

end Cert.BridgeR

end
-- ==== Proof.RLvl2.lean ====
/-
  One level of the reference's tree recurrence, the level of 128 nodes with 256 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS2
import proofs.«419362_j66683662237734_3_alg».proof.Proof.RefOpsS3
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl2

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_212, main_v890, main_v891, main_v892, main_v893, main_v894, main_v895, main_v896,
    main_v897, main_v898, main_v899, main_cst_213, main_v900, main_v901, main_cst_214, main_v902,
    main_v903, main_cst_215, main_v904, main_v905, main_v906, main_v907, main_cst_216, main_v908,
    main_v909, main_v910, main_v911, main_v912, main_v913, main_v914, main_v915, main_v916,
    main_v917, main_v918, main_v919, main_v920, main_cst_217, main_v921, main_v922, main_cst_218,
    main_v923, main_v924, main_v925, main_v926, main_v927, main_v928, main_v929, main_cst_219,
    main_v930, main_v931, main_cst_220, main_v932, main_v933, main_v934, main_v935, main_c_221,
    main_v936, main_v937, main_c_222, main_v938, main_v939, main_v940, main_v941, main_v942,
    main_c_223, main_v943, main_v944, main_c_224, main_v945, main_v946, main_v947, main_v948,
    main_v949, main_v950, main_c_225, main_v951, main_v952, main_v953, main_v954, main_v955,
    main_v956, main_v957, main_v958, main_c_226, main_v959, main_v960, main_c_227, main_v961,
    main_v962, main_v963, main_v964, main_v965, main_v966, main_c_228, main_v967, main_v968,
    main_v969, main_v970, main_v971, main_v972, main_v973, main_v974, main_c_229, main_v975,
    main_v976, main_c_230, main_v977, main_v978, main_v979, main_v980, main_v981, main_c_231,
    main_v982, main_v983, main_c_232, main_v984, main_v985, main_v986, main_v987, main_v988,
    main_c_233, main_v989, main_v990, main_c_234, main_v991, main_v992, main_v993, main_v994,
    main_v995, main_c_235 ]
set_option maxHeartbeats 40000000 in
theorem writes0 : Line.Writes (hostOps0_32 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call16_v0, main_call16_v1, main_call16_v2, main_call16_v3, main_call16_v4, main_call16_v5, main_call16_v6, main_call16_v7,
    main_call16_v8, main_call16_c, main_call16_v9, main_call16_v10, main_call16_v11, main_call16_c_0, main_call16_v12, main_call16_v13,
    main_v996 ]
set_option maxHeartbeats 40000000 in
theorem writes1 : Line.Writes (hostOps0_33 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_236, main_v997, main_v998, main_c_237 ]
set_option maxHeartbeats 40000000 in
theorem writes2 : Line.Writes (hostOps0_34 (F := Ideal) : List (HloOp τ sig (Elt Ideal))) W2 :=
  .cons rfl (.cons rfl (.cons rfl (.cons rfl (.nil))))

abbrev W3 : List (Ref sig .tc) :=
  [
    main_call17_v0, main_call17_c, main_call17_v1, main_call17_c_0, main_call17_v2, main_call17_v3, main_call17_v4, main_call17_c_1,
    main_call17_v5, main_call17_v6, main_call17_c_2, main_call17_v7, main_call17_v8, main_call17_c_3, main_call17_v9, main_call17_v10,
    main_call17_v11, main_call17_v12, main_call17_v13, main_call17_v14, main_v999 ]
set_option maxHeartbeats 40000000 in
theorem writes3 : Line.Writes (hostOps0_35 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_238, main_v1000, main_v1001, main_v1002, main_v1003, main_v1004, main_v1005, main_v1006,
    main_v1007, main_v1008, main_v1009, main_cst_239, main_v1010, main_v1011, main_cst_240, main_v1012,
    main_v1013, main_cst_241, main_v1014, main_v1015, main_v1016, main_v1017, main_cst_242, main_v1018,
    main_v1019, main_v1020, main_v1021, main_v1022, main_v1023, main_v1024, main_v1025, main_v1026,
    main_v1027, main_v1028, main_v1029, main_v1030, main_cst_243, main_v1031, main_v1032, main_cst_244,
    main_v1033, main_v1034, main_v1035, main_v1036, main_v1037, main_v1038, main_v1039, main_cst_245,
    main_v1040, main_v1041, main_cst_246, main_v1042, main_v1043, main_v1044, main_v1045, main_c_247,
    main_v1046, main_v1047, main_c_248, main_v1048, main_v1049, main_v1050, main_v1051, main_v1052,
    main_c_249, main_v1053, main_v1054, main_c_250, main_v1055, main_v1056, main_v1057, main_v1058,
    main_v1059, main_v1060, main_c_251, main_v1061, main_v1062, main_v1063, main_v1064, main_v1065,
    main_v1066, main_v1067, main_v1068, main_c_252, main_v1069, main_v1070, main_c_253, main_v1071,
    main_v1072, main_v1073, main_v1074, main_v1075, main_v1076, main_c_254, main_v1077, main_v1078,
    main_v1079, main_v1080, main_v1081, main_v1082, main_v1083, main_v1084, main_c_255, main_v1085,
    main_v1086, main_c_256, main_v1087, main_v1088, main_v1089, main_v1090, main_v1091, main_c_257,
    main_v1092, main_v1093, main_c_258, main_v1094, main_v1095, main_v1096, main_v1097, main_v1098,
    main_c_259, main_v1099, main_v1100, main_c_260, main_v1101, main_v1102, main_v1103, main_v1104,
    main_v1105, main_c_261 ]
set_option maxHeartbeats 40000000 in
theorem writes4 : Line.Writes (hostOps0_36 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S256 ((StableHlo.after (hostOps0_36 (F := Ideal)) Win) (Proc.devRef .tc main_v1002))
      = addi (ibuf S256 ((StableHlo.after (hostOps0_36 (F := Ideal)) Win) (Proc.devRef .tc main_v998)))
          (subi (ibuf S256 ((StableHlo.after (hostOps0_36 (F := Ideal)) Win) (Proc.devRef .tc main_v999))) (broadcastInDim S256 ![] bcast_S_S256 (constantI S_ 32 3#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 128) (n : Fin 768) :
    fbuf S128x768 ((StableHlo.after (hostOps0_36 (F := Ideal)) Win) (Proc.devRef .tc main_v1025)) (ix2 i n)
      = (fbuf S128x768 ((StableHlo.after (hostOps0_36 (F := Ideal)) Win) (Proc.devRef .tc main_v965)) (ix2 i n)
          + ∑ k : Fin 256, fbuf S128x256 ((StableHlo.after (hostOps0_36 (F := Ideal)) Win) (Proc.devRef .tc main_v1016)) (ix2 i k) * fbuf S768x256 ((StableHlo.after (hostOps0_36 (F := Ideal)) Win) (Proc.devRef .tc main_arg4)) (ix2 n k))
        + fbuf S1x768 ((StableHlo.after (hostOps0_36 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S128x256_S256x768_S128x768_1_0_0_1_n_n rfl, bcast_row_apply]

/-- The new cell state. -/
theorem s4_hc (i : Fin 128) (j : Fin 256) :
    fbuf S128x256 ((StableHlo.after (hostOps0_36 (F := Ideal)) Win) (Proc.devRef .tc main_v1037)) (ix2 i j)
      = Ideal.logistic (fbuf S128x768 ((StableHlo.after (hostOps0_36 (F := Ideal)) Win) (Proc.devRef .tc main_v1025)) (ix2 i (c0 j)))
          * Ideal.tanh (fbuf S128x768 ((StableHlo.after (hostOps0_36 (F := Ideal)) Win) (Proc.devRef .tc main_v1025)) (ix2 i (c2 j)))
        + fbuf S128x256 ((StableHlo.after (hostOps0_36 (F := Ideal)) Win) (Proc.devRef .tc main_v1020)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 128) (j : Fin 256) :
    fbuf S128x256 ((StableHlo.after (hostOps0_36 (F := Ideal)) Win) (Proc.devRef .tc main_v1045)) (ix2 i j)
      = Ideal.logistic (fbuf S128x768 ((StableHlo.after (hostOps0_36 (F := Ideal)) Win) (Proc.devRef .tc main_v1025)) (ix2 i (c1 j)))
          * Ideal.tanh (fbuf S128x256 ((StableHlo.after (hostOps0_36 (F := Ideal)) Win) (Proc.devRef .tc main_v1037)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 256) (j : Fin 256) :
    fbuf S256x256 ((StableHlo.after (hostOps0_36 (F := Ideal)) Win) (Proc.devRef .tc main_v1013)) (ix2 k j)
      = Ideal.logistic ((∑ k' : Fin 256, fbuf S256x256 ((StableHlo.after (hostOps0_36 (F := Ideal)) Win) (Proc.devRef .tc main_v981)) (ix2 k k') * fbuf S256x256 ((StableHlo.after (hostOps0_36 (F := Ideal)) Win) (Proc.devRef .tc main_arg6)) (ix2 j k'))
          + fbuf S256 ((StableHlo.after (hostOps0_36 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S256x256_S256x256_S256x256_1_0_0_1_n_n rfl,
    bcast_vec_rows_apply]

/-- The children's hidden rows summed per parent slot. -/
theorem s4_hht (i : Fin 128) (j : Fin 256) :
    fbuf S128x256 ((StableHlo.after (hostOps0_36 (F := Ideal)) Win) (Proc.devRef .tc main_v1016)) (ix2 i j)
      = ∑ k ∈ kids (fun k : Fin 256 => rowTarget 128 (ibuf S256 ((StableHlo.after (hostOps0_36 (F := Ideal)) Win) (Proc.devRef .tc main_v1002)) (ix1 k))) i, fbuf S256x256 ((StableHlo.after (hostOps0_36 (F := Ideal)) Win) (Proc.devRef .tc main_v981)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S128x256_S256x1_S256x256_1_0_0_1 ⟨rfl, rfl, rfl, rfl⟩ _ _ _ _ i j

/-- The children's gated cell rows summed per parent slot. -/
theorem s4_hca (i : Fin 128) (j : Fin 256) :
    fbuf S128x256 ((StableHlo.after (hostOps0_36 (F := Ideal)) Win) (Proc.devRef .tc main_v1020)) (ix2 i j)
      = ∑ k ∈ kids (fun k : Fin 256 => rowTarget 128 (ibuf S256 ((StableHlo.after (hostOps0_36 (F := Ideal)) Win) (Proc.devRef .tc main_v1002)) (ix1 k))) i,
          fbuf S256x256 ((StableHlo.after (hostOps0_36 (F := Ideal)) Win) (Proc.devRef .tc main_v1013)) (ix2 k j) * fbuf S256x256 ((StableHlo.after (hostOps0_36 (F := Ideal)) Win) (Proc.devRef .tc main_v988)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S128x256_S256x1_S256x256_1_0_0_1 ⟨rfl, rfl, rfl, rfl⟩]
  exact Finset.sum_congr rfl fun k _ => rfl

/-- The new hidden rows are in place at the level's nodes of the whole-forest array. -/
theorem s4_scatter_h
    (hcol : ∀ i : Fin 128, ibuf S128x1 ((StableHlo.after (hostOps0_36 (F := Ideal)) Win) (Proc.devRef .tc main_v1051)) (ix2 i 0) = nodeWord 4 3 i.val)
    (k : Fin 128) (j : Fin 256) :
    fbuf S131040x256 ((StableHlo.after (hostOps0_36 (F := Ideal)) Win) (Proc.devRef .tc main_v1052)) (ix2 (node 4 3 128 rfl (by omega) k) j) = fbuf S128x256 ((StableHlo.after (hostOps0_36 (F := Ideal)) Win) (Proc.devRef .tc main_v1045)) (ix2 k j) := by
  simp only [fbuf, ibuf] at hcol ⊢
  have e_v172 := Line.ternary_at writes4 63 Win (hop := rfl) (by decide) (by decide) (by decide) (by decide)
  rw [e_v172]
  exact scatter_rows_hit scatter_S131040x256_S128x1_S128x256_1_0_0_1 ⟨rfl, rfl, rfl, rfl⟩ _ _ _
    (fun a b r h h' => rowTarget_nodeWord_injective (nd := 4) (start := 3) rfl (by omega) a b r
      (by rw [← hcol a]; exact h) (by rw [← hcol b]; exact h'))
    k _ (by rw [hcol]; exact rowTarget_nodeWord (nd := 4) (start := 3) rfl (by omega) k) j

/-- The new cell rows are in place at the level's nodes of the whole-forest array. -/
theorem s4_scatter_c
    (hcol : ∀ i : Fin 128, ibuf S128x1 ((StableHlo.after (hostOps0_36 (F := Ideal)) Win) (Proc.devRef .tc main_v1058)) (ix2 i 0) = nodeWord 4 3 i.val)
    (k : Fin 128) (j : Fin 256) :
    fbuf S131040x256 ((StableHlo.after (hostOps0_36 (F := Ideal)) Win) (Proc.devRef .tc main_v1059)) (ix2 (node 4 3 128 rfl (by omega) k) j) = fbuf S128x256 ((StableHlo.after (hostOps0_36 (F := Ideal)) Win) (Proc.devRef .tc main_v1037)) (ix2 k j) := by
  simp only [fbuf, ibuf] at hcol ⊢
  have e_v179 := Line.ternary_at writes4 72 Win (hop := rfl) (by decide) (by decide) (by decide) (by decide)
  rw [e_v179]
  exact scatter_rows_hit scatter_S131040x256_S128x1_S128x256_1_0_0_1 ⟨rfl, rfl, rfl, rfl⟩ _ _ _
    (fun a b r h h' => rowTarget_nodeWord_injective (nd := 4) (start := 3) rfl (by omega) a b r
      (by rw [← hcol a]; exact h) (by rw [← hcol b]; exact h'))
    k _ (by rw [hcol]; exact rowTarget_nodeWord (nd := 4) (start := 3) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 128, ibuf S128x1 ((StableHlo.after (hostOps0_32 (F := Ideal)) Win) (Proc.devRef .tc main_v964)) (ix2 k 0) = nodeWord 4 3 k.val)
    (k : Fin 128) (j : Fin 768) :
    fbuf S128x768 ((StableHlo.after (hostOps0_32 (F := Ideal)) Win) (Proc.devRef .tc main_v965)) (ix2 k j) = fbuf S131040x768 ((StableHlo.after (hostOps0_32 (F := Ideal)) Win) (Proc.devRef .tc main_v11)) (ix2 (node 4 3 128 rfl (by omega) k) j) := by
  simp only [fbuf, ibuf] at hcol ⊢
  have e_v85 := Line.binary_at writes0 91 Win (hop := rfl) (by decide) (by decide) (by decide)
  rw [e_v85]
  rw [gather_rows_apply gather_S131040x768_S128x1_S128x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 256, ibuf S256x1 ((StableHlo.after (hostOps0_32 (F := Ideal)) Win) (Proc.devRef .tc main_v980)) (ix2 k 0) = nodeWord 8 7 k.val)
    (k : Fin 256) (j : Fin 256) :
    fbuf S256x256 ((StableHlo.after (hostOps0_32 (F := Ideal)) Win) (Proc.devRef .tc main_v981)) (ix2 k j) = fbuf S131040x256 ((StableHlo.after (hostOps0_32 (F := Ideal)) Win) (Proc.devRef .tc main_v942)) (ix2 (node 8 7 256 rfl (by omega) k) j) := by
  simp only [fbuf, ibuf] at hcol ⊢
  have e_v101 := Line.binary_at writes0 110 Win (hop := rfl) (by decide) (by decide) (by decide)
  rw [e_v101]
  rw [gather_rows_apply gather_S131040x256_S256x1_S256x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 256, ibuf S256x1 ((StableHlo.after (hostOps0_32 (F := Ideal)) Win) (Proc.devRef .tc main_v987)) (ix2 k 0) = nodeWord 8 7 k.val)
    (k : Fin 256) (j : Fin 256) :
    fbuf S256x256 ((StableHlo.after (hostOps0_32 (F := Ideal)) Win) (Proc.devRef .tc main_v988)) (ix2 k j) = fbuf S131040x256 ((StableHlo.after (hostOps0_32 (F := Ideal)) Win) (Proc.devRef .tc main_v949)) (ix2 (node 8 7 256 rfl (by omega) k) j) := by
  simp only [fbuf, ibuf] at hcol ⊢
  have e_v108 := Line.binary_at writes0 119 Win (hop := rfl) (by decide) (by decide) (by decide)
  rw [e_v108]
  rw [gather_rows_apply gather_S131040x256_S256x1_S256x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 256, ibuf S256x1 ((StableHlo.after (hostOps0_32 (F := Ideal)) Win) (Proc.devRef .tc main_v994)) (ix2 k 0) = nodeWord 8 7 k.val)
    (k : Fin 256) :
    ibuf S256 ((StableHlo.after (hostOps0_32 (F := Ideal)) Win) (Proc.devRef .tc main_v995)) (ix1 k) = ibuf S131040 ((StableHlo.after (hostOps0_32 (F := Ideal)) Win) (Proc.devRef .tc main_arg1)) (ix1 (node 8 7 256 rfl (by omega) k)) := by
  simp only [fbuf, ibuf] at hcol ⊢
  have e_v115 := Line.binary_at writes0 128 Win (hop := rfl) (by decide) (by decide) (by decide)
  rw [e_v115]
  rw [gather_vec_apply gather_S131040_S256x1_S256_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_32 (F := Ideal)) Win) (Proc.devRef .tc main_c_235)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S256 32) (c : IVec S_ 32) : IVec S256 32 :=
  select (andi (cmpi .ne (signi p) (broadcastInDim S256 ![] bcast_S_S256 (signi c))) (cmpi .ne (Host.remsi p (broadcastInDim S256 ![] bcast_S_S256 c)) (broadcastInDim S256 ![] bcast_S_S256 (constantI S_ 32 0#32))))
    (subi (Host.divsi p (broadcastInDim S256 ![] bcast_S_S256 c)) (broadcastInDim S256 ![] bcast_S_S256 (constantI S_ 32 1#32))) (Host.divsi p (broadcastInDim S256 ![] bcast_S_S256 c))

/-- The reference's remainder of a vector of words by a scalar word (a zero divisor replaced by one): the truncated
    remainder, the divisor added where its sign differs from the divisor's and it is not zero. -/
def remF (p : IVec S256 32) (c : IVec S_ 32) : IVec S256 32 :=
  select (andi (cmpi .ne (cmpi .slt (Host.remsi p (broadcastInDim S256 ![] bcast_S_S256 (select (cmpi .eq c (constantI S_ 32 0#32)) (constantI S_ 32 1#32) c))) (broadcastInDim S256 ![] bcast_S_S256 (constantI S_ 32 0#32))) (broadcastInDim S256 ![] bcast_S_S256 (cmpi .slt (select (cmpi .eq c (constantI S_ 32 0#32)) (constantI S_ 32 1#32) c) (constantI S_ 32 0#32)))) (cmpi .ne (Host.remsi p (broadcastInDim S256 ![] bcast_S_S256 (select (cmpi .eq c (constantI S_ 32 0#32)) (constantI S_ 32 1#32) c))) (broadcastInDim S256 ![] bcast_S_S256 (constantI S_ 32 0#32))))
    (addi (Host.remsi p (broadcastInDim S256 ![] bcast_S_S256 (select (cmpi .eq c (constantI S_ 32 0#32)) (constantI S_ 32 1#32) c))) (broadcastInDim S256 ![] bcast_S_S256 (select (cmpi .eq c (constantI S_ 32 0#32)) (constantI S_ 32 1#32) c))) (Host.remsi p (broadcastInDim S256 ![] bcast_S_S256 (select (cmpi .eq c (constantI S_ 32 0#32)) (constantI S_ 32 1#32) c)))

/-- The routing word of a child from its parent word `p`: `(p // 4095) * 4 + (p % 4095 - 3)`. -/
def segFun (p : IVec S256 32) : IVec S256 32 :=
  addi (muli (fdivF p (constantI S_ 32 4095#32)) (broadcastInDim S256 ![] bcast_S_S256 (constantI S_ 32 4#32))) (subi (remF p (constantI S_ 32 4095#32)) (broadcastInDim S256 ![] bcast_S_S256 (constantI S_ 32 3#32)))

section Stretch123

variable (Win : Valuation τ sig (Elt Ideal))

set_option maxHeartbeats 4000000 in
/-- The quotient part. -/
theorem s1_v116 :
    ibuf S256 ((StableHlo.after (hostOps0_33 (F := Ideal)) Win) (Proc.devRef .tc main_v996)) = fdivF (ibuf S256 (Win (Proc.devRef .tc main_v995))) (ibuf S_ (Win (Proc.devRef .tc main_c_235))) := by
  unfold fdivF
  after_results_simp
  <;> (try simp only [TRef.ofBuf, TRef.toBuf, cast_eq]) <;> rfl

/-- The quotient part times the level's nodes per graph. -/
theorem s2_v118 :
    ibuf S256 ((StableHlo.after (hostOps0_34 (F := Ideal)) Win) (Proc.devRef .tc main_v998)) = muli (ibuf S256 (Win (Proc.devRef .tc main_v996))) (broadcastInDim S256 ![] bcast_S_S256 (constantI S_ 32 4#32)) := by
  after_results_simp
  <;> rfl

/-- The divisor the remainder part is taken by. -/
theorem s2_c29 : ibuf S_ ((StableHlo.after (hostOps0_34 (F := Ideal)) Win) (Proc.devRef .tc main_c_237)) = constantI S_ 32 4095#32 := by
  after_results_simp
  <;> rfl

set_option maxHeartbeats 4000000 in
/-- The remainder part. -/
theorem s3_v119 :
    ibuf S256 ((StableHlo.after (hostOps0_35 (F := Ideal)) Win) (Proc.devRef .tc main_v999)) = remF (ibuf S256 (Win (Proc.devRef .tc main_v995))) (ibuf S_ (Win (Proc.devRef .tc main_c_237))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_32 (F := Ideal)) V0
local notation "V2" => StableHlo.after (hostOps0_33 (F := Ideal)) V1
local notation "V3" => StableHlo.after (hostOps0_34 (F := Ideal)) V2
local notation "V4" => StableHlo.after (hostOps0_35 (F := Ideal)) V3
local notation "V5" => StableHlo.after (hostOps0_36 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S256 (V5 (Proc.devRef .tc main_v1002)) = segFun (ibuf S256 (V1 (Proc.devRef .tc main_v995))) := by
  rw [s4_seg V4, Line.keep writes4 V4 (r := main_v998) (by decide), Line.keep writes3 V3 (r := main_v998) (by decide),
    s2_v118 V2, s1_v116 V1, s0_c27 V0, Line.keep writes4 V4 (r := main_v999) (by decide), s3_v119 V3,
    Line.keep writes2 V2 (r := main_v995) (by decide), Line.keep writes1 V1 (r := main_v995) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 128, ibuf S128x1 (V1 (Proc.devRef .tc main_v964)) (ix2 i 0) = nodeWord 4 3 i.val)
    (h100 : ∀ k : Fin 256, ibuf S256x1 (V1 (Proc.devRef .tc main_v980)) (ix2 k 0) = nodeWord 8 7 k.val)
    (h107 : ∀ k : Fin 256, ibuf S256x1 (V1 (Proc.devRef .tc main_v987)) (ix2 k 0) = nodeWord 8 7 k.val)
    (h114 : ∀ k : Fin 256, ibuf S256x1 (V1 (Proc.devRef .tc main_v994)) (ix2 k 0) = nodeWord 8 7 k.val)
    (h78 : ∀ i : Fin 128, ibuf S128 (V1 (Proc.devRef .tc main_v958)) (ix1 i) = nodeWord 4 3 i.val)
    (h171 : (∀ i : Fin 128, ibuf S128 (V4 (Proc.devRef .tc main_v958)) (ix1 i) = nodeWord 4 3 i.val) →
      ∀ i : Fin 128, ibuf S128x1 (V5 (Proc.devRef .tc main_v1051)) (ix2 i 0) = nodeWord 4 3 i.val)
    (h178 : (∀ i : Fin 128, ibuf S128 (V4 (Proc.devRef .tc main_v958)) (ix1 i) = nodeWord 4 3 i.val) →
      ∀ i : Fin 128, ibuf S128x1 (V5 (Proc.devRef .tc main_v1058)) (ix2 i 0) = nodeWord 4 3 i.val) :
    Chain.RLevel 4 3 8 7 rfl (by omega) rfl (by omega) w G (ibuf S131040 (V0 (Proc.devRef .tc main_arg1))) segFun
      (fbuf S131040x256 (V1 (Proc.devRef .tc main_v942))) (fbuf S131040x256 (V1 (Proc.devRef .tc main_v949)))
      (fbuf S131040x256 (V5 (Proc.devRef .tc main_v1052))) (fbuf S131040x256 (V5 (Proc.devRef .tc main_v1059))) := by
  have h78' : ∀ i : Fin 128, ibuf S128 (V4 (Proc.devRef .tc main_v958)) (ix1 i) = nodeWord 4 3 i.val := fun i => by
    rw [Line.keep writes3 V3 (r := main_v958) (by decide), Line.keep writes2 V2 (r := main_v958) (by decide),
      Line.keep writes1 V1 (r := main_v958) (by decide)]
    exact h78 i
  refine ⟨fbuf S131040x768 (V1 (Proc.devRef .tc main_v11)), fbuf S256x256 (V1 (Proc.devRef .tc main_v981)), fbuf S256x256 (V1 (Proc.devRef .tc main_v988)),
    fbuf S256x256 (V5 (Proc.devRef .tc main_v1013)), ibuf S256 (V1 (Proc.devRef .tc main_v995)), ibuf S256 (V5 (Proc.devRef .tc main_v1002)),
    fbuf S128x768 (V1 (Proc.devRef .tc main_v965)), fbuf S128x768 (V5 (Proc.devRef .tc main_v1025)), fbuf S128x256 (V5 (Proc.devRef .tc main_v1016)),
    fbuf S128x256 (V5 (Proc.devRef .tc main_v1020)), fbuf S128x256 (V5 (Proc.devRef .tc main_v1037)), fbuf S128x256 (V5 (Proc.devRef .tc main_v1045)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v981) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v981) (by decide) (by decide) (by decide) (by decide)] at h
    exact h
  · intro i j
    have h := s4_hca V4 i j
    rw [keep51 V0 (r := main_v988) (by decide) (by decide) (by decide) (by decide)] at h
    exact h
  · intro i n
    have h := s4_hz V4 i n
    rw [keep51 V0 (r := main_v965) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl2

end
-- ==== Proof.RIdx36.lean ====
/-
  The reference's index vectors in the stretch of host operations that ends the level with 4 nodes per graph and
  begins the level with 2, read at an index. The stretch normalises the ending level's node ids twice more (for the
  two scatters of its new rows) and makes the beginning level's node ids with one normalised column and its
  children's ids — the ending level's nodes — with three. The ending level's ids and the offsets `arange(32) * 4095`
  were made before the stretch and are taken from its entry contents.
-/
import proofs.«419362_j66683662237734_3_alg».proof.Proof.RefOpsS3
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W36 : List (Ref sig .tc) :=
  [main_c_238, main_v1000, main_v1001, main_v1002, main_v1003, main_v1004, main_v1005, main_v1006,
    main_v1007, main_v1008, main_v1009, main_cst_239, main_v1010, main_v1011, main_cst_240, main_v1012,
    main_v1013, main_cst_241, main_v1014, main_v1015, main_v1016, main_v1017, main_cst_242, main_v1018,
    main_v1019, main_v1020, main_v1021, main_v1022, main_v1023, main_v1024, main_v1025, main_v1026,
    main_v1027, main_v1028, main_v1029, main_v1030, main_cst_243, main_v1031, main_v1032, main_cst_244,
    main_v1033, main_v1034, main_v1035, main_v1036, main_v1037, main_v1038, main_v1039, main_cst_245,
    main_v1040, main_v1041, main_cst_246, main_v1042, main_v1043, main_v1044, main_v1045, main_c_247,
    main_v1046, main_v1047, main_c_248, main_v1048, main_v1049, main_v1050, main_v1051, main_v1052,
    main_c_249, main_v1053, main_v1054, main_c_250, main_v1055, main_v1056, main_v1057, main_v1058,
    main_v1059, main_v1060, main_c_251, main_v1061, main_v1062, main_v1063, main_v1064, main_v1065,
    main_v1066, main_v1067, main_v1068, main_c_252, main_v1069, main_v1070, main_c_253, main_v1071,
    main_v1072, main_v1073, main_v1074, main_v1075, main_v1076, main_c_254, main_v1077, main_v1078,
    main_v1079, main_v1080, main_v1081, main_v1082, main_v1083, main_v1084, main_c_255, main_v1085,
    main_v1086, main_c_256, main_v1087, main_v1088, main_v1089, main_v1090, main_v1091, main_c_257,
    main_v1092, main_v1093, main_c_258, main_v1094, main_v1095, main_v1096, main_v1097, main_v1098,
    main_c_259, main_v1099, main_v1100, main_c_260, main_v1101, main_v1102, main_v1103, main_v1104,
    main_v1105, main_c_261 ]

set_option maxHeartbeats 4000000 in
theorem writes36 : Writes (hostOps0_36 : List (HloOp τ sig (Elt F))) W36 := by
  repeat (first | exact .nil | refine .cons rfl ?_)

variable (Win : Valuation τ sig (Elt F))

/-! ### The ending level: 4 nodes per graph from offset 3 -/

theorem s36_v1051 (hids : ∀ i : Fin 128, Win (Proc.devRef .tc main_v958) (ix1 i) = nodeWord 4 3 i.val) (i : Fin 128) :
    after hostOps0_36 Win (Proc.devRef .tc main_v1051) (ix2 i 0) = nodeWord 4 3 i.val := by
  normCol_eqs writes36 55
  rw [keep writes36 Win (r := main_v958) (by decide)]
  exact normCol_nodeWord (nd := 4) rfl (by omega) _ _ _ _ _ i (hids i)

theorem s36_v1058 (hids : ∀ i : Fin 128, Win (Proc.devRef .tc main_v958) (ix1 i) = nodeWord 4 3 i.val) (i : Fin 128) :
    after hostOps0_36 Win (Proc.devRef .tc main_v1058) (ix2 i 0) = nodeWord 4 3 i.val := by
  normCol_eqs writes36 64
  rw [keep writes36 Win (r := main_v958) (by decide)]
  exact normCol_nodeWord (nd := 4) rfl (by omega) _ _ _ _ _ i (hids i)

/-! ### The beginning level: 2 nodes per graph from offset 1, its children the ending level's nodes -/

theorem s36_v1068 (h16 : ∀ b : Fin 32, Win (Proc.devRef .tc main_v16) (ix1 b) = BitVec.ofNat 32 b.val * 4095#32) (i : Fin 64) :
    after hostOps0_36 Win (Proc.devRef .tc main_v1068) (ix1 i) = nodeWord 2 1 i.val := by
  nids_eqs writes36 73
  rw [keep writes36 Win (r := main_v16) (by decide)]
  exact nids_apply (nd := 2) rfl 1 _ h16 _ _ _ _ _ _ i

theorem s36_v1074 (h16 : ∀ b : Fin 32, Win (Proc.devRef .tc main_v16) (ix1 b) = BitVec.ofNat 32 b.val * 4095#32) (i : Fin 64) :
    after hostOps0_36 Win (Proc.devRef .tc main_v1074) (ix2 i 0) = nodeWord 2 1 i.val := by
  normCol_eqs writes36 83
  exact normCol_nodeWord (nd := 2) rfl (by omega) _ _ _ _ _ i (s36_v1068 Win h16 i)

theorem s36_v1084 (h16 : ∀ b : Fin 32, Win (Proc.devRef .tc main_v16) (ix1 b) = BitVec.ofNat 32 b.val * 4095#32) (i : Fin 128) :
    after hostOps0_36 Win (Proc.devRef .tc main_v1084) (ix1 i) = nodeWord 4 3 i.val := by
  nids_eqs writes36 92
  rw [keep writes36 Win (r := main_v16) (by decide)]
  exact nids_apply (nd := 4) rfl 3 _ h16 _ _ _ _ _ _ i

theorem s36_v1090 (h16 : ∀ b : Fin 32, Win (Proc.devRef .tc main_v16) (ix1 b) = BitVec.ofNat 32 b.val * 4095#32) (i : Fin 128) :
    after hostOps0_36 Win (Proc.devRef .tc main_v1090) (ix2 i 0) = nodeWord 4 3 i.val := by
  normCol_eqs writes36 102
  exact normCol_nodeWord (nd := 4) rfl (by omega) _ _ _ _ _ i (s36_v1084 Win h16 i)

theorem s36_v1097 (h16 : ∀ b : Fin 32, Win (Proc.devRef .tc main_v16) (ix1 b) = BitVec.ofNat 32 b.val * 4095#32) (i : Fin 128) :
    after hostOps0_36 Win (Proc.devRef .tc main_v1097) (ix2 i 0) = nodeWord 4 3 i.val := by
  normCol_eqs writes36 111
  exact normCol_nodeWord (nd := 4) rfl (by omega) _ _ _ _ _ i (s36_v1084 Win h16 i)

theorem s36_v1104 (h16 : ∀ b : Fin 32, Win (Proc.devRef .tc main_v16) (ix1 b) = BitVec.ofNat 32 b.val * 4095#32) (i : Fin 128) :
    after hostOps0_36 Win (Proc.devRef .tc main_v1104) (ix2 i 0) = nodeWord 4 3 i.val := by
  normCol_eqs writes36 120
  exact normCol_nodeWord (nd := 4) rfl (by omega) _ _ _ _ _ i (s36_v1084 Win h16 i)

end Cert.ReferenceIdeal.Idx

end
-- ==== Proof.BridgeRL2.lean ====
/-
  Level 2 of the reference's side of the chain: the level's stretches run from the contents after stretch 31. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl2
import proofs.«419362_j66683662237734_3_alg».proof.Proof.RIdx32
import proofs.«419362_j66683662237734_3_alg».proof.Proof.RIdx36

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 2, from level 3's arrays to its own. -/
theorem rlevel2 : Chain.RLevel 4 3 8 7 (rfl : 128 = 32 * 4) (by omega) (rfl : 256 = 32 * 8) (by omega)
    (wR m' c) (GR m' c) (parR m' c) Lvl2.segFun (harr3 m' c) (carr3 m' c) (harr2 m' c) (carr2 m' c) := by
  have h16 : ∀ b : Fin 32, R32 m' c (Proc.devRef .tc main_v16) (ix1 b) = BitVec.ofNat 32 b.val * 4095#32 :=
    offs_of m' c (carry_v16_R32 m' c)
  have h := Lvl2.rlevel (R32 m' c) (wR m' c) (GR m' c)
    (hU_of m' c (carry_arg4_R32 m' c)) (hbI_of m' c (carry_arg5_R32 m' c))
    (hUf_of m' c (carry_arg6_R32 m' c)) (hbF_of m' c (carry_arg7_R32 m' c))
    (iou_of m' c (carry_v11_R33 m' c))
    (fun i => col_in (Idx.s32_v964 (R32 m' c) h16 i)) (fun k => col_in (Idx.s32_v980 (R32 m' c) h16 k))
    (fun k => col_in (Idx.s32_v987 (R32 m' c) h16 k)) (fun k => col_in (Idx.s32_v994 (R32 m' c) h16 k))
    (fun i => col_in (Idx.s32_v958 (R32 m' c) h16 i))
    (fun hids i => col_in (Idx.s36_v1051 (R36 m' c) (fun i' => col_out (hids i')) i))
    (fun hids i => col_in (Idx.s36_v1058 (R36 m' c) (fun i' => col_out (hids i')) i))
  rw [par_of m' c (carry_arg1_R32 m' c), fbuf_id, fbuf_id, fbuf_id, fbuf_id] at h
  exact h

end Cert.BridgeR

end
-- ==== Proof.RLvl1.lean ====
/-
  One level of the reference's tree recurrence, the level of 64 nodes with 128 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS3
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl1

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_238, main_v1000, main_v1001, main_v1002, main_v1003, main_v1004, main_v1005, main_v1006,
    main_v1007, main_v1008, main_v1009, main_cst_239, main_v1010, main_v1011, main_cst_240, main_v1012,
    main_v1013, main_cst_241, main_v1014, main_v1015, main_v1016, main_v1017, main_cst_242, main_v1018,
    main_v1019, main_v1020, main_v1021, main_v1022, main_v1023, main_v1024, main_v1025, main_v1026,
    main_v1027, main_v1028, main_v1029, main_v1030, main_cst_243, main_v1031, main_v1032, main_cst_244,
    main_v1033, main_v1034, main_v1035, main_v1036, main_v1037, main_v1038, main_v1039, main_cst_245,
    main_v1040, main_v1041, main_cst_246, main_v1042, main_v1043, main_v1044, main_v1045, main_c_247,
    main_v1046, main_v1047, main_c_248, main_v1048, main_v1049, main_v1050, main_v1051, main_v1052,
    main_c_249, main_v1053, main_v1054, main_c_250, main_v1055, main_v1056, main_v1057, main_v1058,
    main_v1059, main_v1060, main_c_251, main_v1061, main_v1062, main_v1063, main_v1064, main_v1065,
    main_v1066, main_v1067, main_v1068, main_c_252, main_v1069, main_v1070, main_c_253, main_v1071,
    main_v1072, main_v1073, main_v1074, main_v1075, main_v1076, main_c_254, main_v1077, main_v1078,
    main_v1079, main_v1080, main_v1081, main_v1082, main_v1083, main_v1084, main_c_255, main_v1085,
    main_v1086, main_c_256, main_v1087, main_v1088, main_v1089, main_v1090, main_v1091, main_c_257,
    main_v1092, main_v1093, main_c_258, main_v1094, main_v1095, main_v1096, main_v1097, main_v1098,
    main_c_259, main_v1099, main_v1100, main_c_260, main_v1101, main_v1102, main_v1103, main_v1104,
    main_v1105, main_c_261 ]
set_option maxHeartbeats 40000000 in
theorem writes0 : Line.Writes (hostOps0_36 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil))))))))))))))))))))))))))))))))))))))))))))))))))))))))))))))))))))))))))))))))))))))))))))))))))))))))))))))))))))))))))))))))))

abbrev W1 : List (Ref sig .tc) :=
  [
    main_call18_v0, main_call18_v1, main_call18_v2, main_call18_v3, main_call18_v4, main_call18_v5, main_call18_v6, main_call18_v7,
    main_call18_v8, main_call18_c, main_call18_v9, main_call18_v10, main_call18_v11, main_call18_c_0, main_call18_v12, main_call18_v13,
    main_v1106 ]
set_option maxHeartbeats 40000000 in
theorem writes1 : Line.Writes (hostOps0_37 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_262, main_v1107, main_v1108, main_c_263 ]
set_option maxHeartbeats 40000000 in
theorem writes2 : Line.Writes (hostOps0_38 (F := Ideal) : List (HloOp τ sig (Elt Ideal))) W2 :=
  .cons rfl (.cons rfl (.cons rfl (.cons rfl (.nil))))

abbrev W3 : List (Ref sig .tc) :=
  [
    main_call19_v0, main_call19_c, main_call19_v1, main_call19_c_0, main_call19_v2, main_call19_v3, main_call19_v4, main_call19_c_1,
    main_call19_v5, main_call19_v6, main_call19_c_2, main_call19_v7, main_call19_v8, main_call19_c_3, main_call19_v9, main_call19_v10,
    main_call19_v11, main_call19_v12, main_call19_v13, main_call19_v14, main_v1109 ]
set_option maxHeartbeats 40000000 in
theorem writes3 : Line.Writes (hostOps0_39 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_264, main_v1110, main_v1111, main_v1112, main_v1113, main_v1114, main_v1115, main_v1116,
    main_v1117, main_v1118, main_v1119, main_cst_265, main_v1120, main_v1121, main_cst_266, main_v1122,
    main_v1123, main_cst_267, main_v1124, main_v1125, main_v1126, main_v1127, main_cst_268, main_v1128,
    main_v1129, main_v1130, main_v1131, main_v1132, main_v1133, main_v1134, main_v1135, main_v1136,
    main_v1137, main_v1138, main_v1139, main_v1140, main_cst_269, main_v1141, main_v1142, main_cst_270,
    main_v1143, main_v1144, main_v1145, main_v1146, main_v1147, main_v1148, main_v1149, main_cst_271,
    main_v1150, main_v1151, main_cst_272, main_v1152, main_v1153, main_v1154, main_v1155, main_c_273,
    main_v1156, main_v1157, main_c_274, main_v1158, main_v1159, main_v1160, main_v1161, main_v1162,
    main_c_275, main_v1163, main_v1164, main_c_276, main_v1165, main_v1166, main_v1167, main_v1168,
    main_v1169, main_v1170, main_c_277, main_v1171, main_v1172, main_v1173, main_v1174, main_v1175,
    main_v1176, main_v1177, main_c_278, main_v1178, main_v1179, main_c_279, main_v1180, main_v1181,
    main_v1182, main_v1183, main_v1184, main_v1185, main_c_280, main_v1186, main_v1187, main_v1188,
    main_v1189, main_v1190, main_v1191, main_v1192, main_v1193, main_c_281, main_v1194, main_v1195,
    main_c_282, main_v1196, main_v1197, main_v1198, main_v1199, main_v1200, main_c_283, main_v1201,
    main_v1202, main_c_284, main_v1203, main_v1204, main_v1205, main_v1206, main_v1207, main_c_285,
    main_v1208, main_v1209, main_c_286, main_v1210, main_v1211, main_v1212, main_v1213, main_v1214,
    main_c_287 ]
set_option maxHeartbeats 40000000 in
theorem writes4 : Line.Writes (hostOps0_40 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S128 ((StableHlo.after (hostOps0_40 (F := Ideal)) Win) (Proc.devRef .tc main_v1112))
      = addi (ibuf S128 ((StableHlo.after (hostOps0_40 (F := Ideal)) Win) (Proc.devRef .tc main_v1108)))
          (subi (ibuf S128 ((StableHlo.after (hostOps0_40 (F := Ideal)) Win) (Proc.devRef .tc main_v1109))) (broadcastInDim S128 ![] bcast_S_S128 (constantI S_ 32 1#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 64) (n : Fin 768) :
    fbuf S64x768 ((StableHlo.after (hostOps0_40 (F := Ideal)) Win) (Proc.devRef .tc main_v1135)) (ix2 i n)
      = (fbuf S64x768 ((StableHlo.after (hostOps0_40 (F := Ideal)) Win) (Proc.devRef .tc main_v1075)) (ix2 i n)
          + ∑ k : Fin 256, fbuf S64x256 ((StableHlo.after (hostOps0_40 (F := Ideal)) Win) (Proc.devRef .tc main_v1126)) (ix2 i k) * fbuf S768x256 ((StableHlo.after (hostOps0_40 (F := Ideal)) Win) (Proc.devRef .tc main_arg4)) (ix2 n k))
        + fbuf S1x768 ((StableHlo.after (hostOps0_40 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S64x256_S256x768_S64x768_1_0_0_1_n_n rfl, bcast_row_apply]

/-- The new cell state. -/
theorem s4_hc (i : Fin 64) (j : Fin 256) :
    fbuf S64x256 ((StableHlo.after (hostOps0_40 (F := Ideal)) Win) (Proc.devRef .tc main_v1147)) (ix2 i j)
      = Ideal.logistic (fbuf S64x768 ((StableHlo.after (hostOps0_40 (F := Ideal)) Win) (Proc.devRef .tc main_v1135)) (ix2 i (c0 j)))
          * Ideal.tanh (fbuf S64x768 ((StableHlo.after (hostOps0_40 (F := Ideal)) Win) (Proc.devRef .tc main_v1135)) (ix2 i (c2 j)))
        + fbuf S64x256 ((StableHlo.after (hostOps0_40 (F := Ideal)) Win) (Proc.devRef .tc main_v1130)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 64) (j : Fin 256) :
    fbuf S64x256 ((StableHlo.after (hostOps0_40 (F := Ideal)) Win) (Proc.devRef .tc main_v1155)) (ix2 i j)
      = Ideal.logistic (fbuf S64x768 ((StableHlo.after (hostOps0_40 (F := Ideal)) Win) (Proc.devRef .tc main_v1135)) (ix2 i (c1 j)))
          * Ideal.tanh (fbuf S64x256 ((StableHlo.after (hostOps0_40 (F := Ideal)) Win) (Proc.devRef .tc main_v1147)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 128) (j : Fin 256) :
    fbuf S128x256 ((StableHlo.after (hostOps0_40 (F := Ideal)) Win) (Proc.devRef .tc main_v1123)) (ix2 k j)
      = Ideal.logistic ((∑ k' : Fin 256, fbuf S128x256 ((StableHlo.after (hostOps0_40 (F := Ideal)) Win) (Proc.devRef .tc main_v1091)) (ix2 k k') * fbuf S256x256 ((StableHlo.after (hostOps0_40 (F := Ideal)) Win) (Proc.devRef .tc main_arg6)) (ix2 j k'))
          + fbuf S256 ((StableHlo.after (hostOps0_40 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S128x256_S256x256_S128x256_1_0_0_1_n_n rfl,
    bcast_vec_rows_apply]

/-- The children's hidden rows summed per parent slot. -/
theorem s4_hht (i : Fin 64) (j : Fin 256) :
    fbuf S64x256 ((StableHlo.after (hostOps0_40 (F := Ideal)) Win) (Proc.devRef .tc main_v1126)) (ix2 i j)
      = ∑ k ∈ kids (fun k : Fin 128 => rowTarget 64 (ibuf S128 ((StableHlo.after (hostOps0_40 (F := Ideal)) Win) (Proc.devRef .tc main_v1112)) (ix1 k))) i, fbuf S128x256 ((StableHlo.after (hostOps0_40 (F := Ideal)) Win) (Proc.devRef .tc main_v1091)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S64x256_S128x1_S128x256_1_0_0_1 ⟨rfl, rfl, rfl, rfl⟩ _ _ _ _ i j

/-- The children's gated cell rows summed per parent slot. -/
theorem s4_hca (i : Fin 64) (j : Fin 256) :
    fbuf S64x256 ((StableHlo.after (hostOps0_40 (F := Ideal)) Win) (Proc.devRef .tc main_v1130)) (ix2 i j)
      = ∑ k ∈ kids (fun k : Fin 128 => rowTarget 64 (ibuf S128 ((StableHlo.after (hostOps0_40 (F := Ideal)) Win) (Proc.devRef .tc main_v1112)) (ix1 k))) i,
          fbuf S128x256 ((StableHlo.after (hostOps0_40 (F := Ideal)) Win) (Proc.devRef .tc main_v1123)) (ix2 k j) * fbuf S128x256 ((StableHlo.after (hostOps0_40 (F := Ideal)) Win) (Proc.devRef .tc main_v1098)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S64x256_S128x1_S128x256_1_0_0_1 ⟨rfl, rfl, rfl, rfl⟩]
  exact Finset.sum_congr rfl fun k _ => rfl

/-- The new hidden rows are in place at the level's nodes of the whole-forest array. -/
theorem s4_scatter_h
    (hcol : ∀ i : Fin 64, ibuf S64x1 ((StableHlo.after (hostOps0_40 (F := Ideal)) Win) (Proc.devRef .tc main_v1161)) (ix2 i 0) = nodeWord 2 1 i.val)
    (k : Fin 64) (j : Fin 256) :
    fbuf S131040x256 ((StableHlo.after (hostOps0_40 (F := Ideal)) Win) (Proc.devRef .tc main_v1162)) (ix2 (node 2 1 64 rfl (by omega) k) j) = fbuf S64x256 ((StableHlo.after (hostOps0_40 (F := Ideal)) Win) (Proc.devRef .tc main_v1155)) (ix2 k j) := by
  simp only [fbuf, ibuf] at hcol ⊢
  have e_v172 := Line.ternary_at writes4 63 Win (hop := rfl) (by decide) (by decide) (by decide) (by decide)
  rw [e_v172]
  exact scatter_rows_hit scatter_S131040x256_S64x1_S64x256_1_0_0_1 ⟨rfl, rfl, rfl, rfl⟩ _ _ _
    (fun a b r h h' => rowTarget_nodeWord_injective (nd := 2) (start := 1) rfl (by omega) a b r
      (by rw [← hcol a]; exact h) (by rw [← hcol b]; exact h'))
    k _ (by rw [hcol]; exact rowTarget_nodeWord (nd := 2) (start := 1) rfl (by omega) k) j

/-- The new cell rows are in place at the level's nodes of the whole-forest array. -/
theorem s4_scatter_c
    (hcol : ∀ i : Fin 64, ibuf S64x1 ((StableHlo.after (hostOps0_40 (F := Ideal)) Win) (Proc.devRef .tc main_v1168)) (ix2 i 0) = nodeWord 2 1 i.val)
    (k : Fin 64) (j : Fin 256) :
    fbuf S131040x256 ((StableHlo.after (hostOps0_40 (F := Ideal)) Win) (Proc.devRef .tc main_v1169)) (ix2 (node 2 1 64 rfl (by omega) k) j) = fbuf S64x256 ((StableHlo.after (hostOps0_40 (F := Ideal)) Win) (Proc.devRef .tc main_v1147)) (ix2 k j) := by
  simp only [fbuf, ibuf] at hcol ⊢
  have e_v179 := Line.ternary_at writes4 72 Win (hop := rfl) (by decide) (by decide) (by decide) (by decide)
  rw [e_v179]
  exact scatter_rows_hit scatter_S131040x256_S64x1_S64x256_1_0_0_1 ⟨rfl, rfl, rfl, rfl⟩ _ _ _
    (fun a b r h h' => rowTarget_nodeWord_injective (nd := 2) (start := 1) rfl (by omega) a b r
      (by rw [← hcol a]; exact h) (by rw [← hcol b]; exact h'))
    k _ (by rw [hcol]; exact rowTarget_nodeWord (nd := 2) (start := 1) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 64, ibuf S64x1 ((StableHlo.after (hostOps0_36 (F := Ideal)) Win) (Proc.devRef .tc main_v1074)) (ix2 k 0) = nodeWord 2 1 k.val)
    (k : Fin 64) (j : Fin 768) :
    fbuf S64x768 ((StableHlo.after (hostOps0_36 (F := Ideal)) Win) (Proc.devRef .tc main_v1075)) (ix2 k j) = fbuf S131040x768 ((StableHlo.after (hostOps0_36 (F := Ideal)) Win) (Proc.devRef .tc main_v11)) (ix2 (node 2 1 64 rfl (by omega) k) j) := by
  simp only [fbuf, ibuf] at hcol ⊢
  have e_v85 := Line.binary_at writes0 91 Win (hop := rfl) (by decide) (by decide) (by decide)
  rw [e_v85]
  rw [gather_rows_apply gather_S131040x768_S64x1_S64x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 128, ibuf S128x1 ((StableHlo.after (hostOps0_36 (F := Ideal)) Win) (Proc.devRef .tc main_v1090)) (ix2 k 0) = nodeWord 4 3 k.val)
    (k : Fin 128) (j : Fin 256) :
    fbuf S128x256 ((StableHlo.after (hostOps0_36 (F := Ideal)) Win) (Proc.devRef .tc main_v1091)) (ix2 k j) = fbuf S131040x256 ((StableHlo.after (hostOps0_36 (F := Ideal)) Win) (Proc.devRef .tc main_v1052)) (ix2 (node 4 3 128 rfl (by omega) k) j) := by
  simp only [fbuf, ibuf] at hcol ⊢
  have e_v101 := Line.binary_at writes0 110 Win (hop := rfl) (by decide) (by decide) (by decide)
  rw [e_v101]
  rw [gather_rows_apply gather_S131040x256_S128x1_S128x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 128, ibuf S128x1 ((StableHlo.after (hostOps0_36 (F := Ideal)) Win) (Proc.devRef .tc main_v1097)) (ix2 k 0) = nodeWord 4 3 k.val)
    (k : Fin 128) (j : Fin 256) :
    fbuf S128x256 ((StableHlo.after (hostOps0_36 (F := Ideal)) Win) (Proc.devRef .tc main_v1098)) (ix2 k j) = fbuf S131040x256 ((StableHlo.after (hostOps0_36 (F := Ideal)) Win) (Proc.devRef .tc main_v1059)) (ix2 (node 4 3 128 rfl (by omega) k) j) := by
  simp only [fbuf, ibuf] at hcol ⊢
  have e_v108 := Line.binary_at writes0 119 Win (hop := rfl) (by decide) (by decide) (by decide)
  rw [e_v108]
  rw [gather_rows_apply gather_S131040x256_S128x1_S128x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 128, ibuf S128x1 ((StableHlo.after (hostOps0_36 (F := Ideal)) Win) (Proc.devRef .tc main_v1104)) (ix2 k 0) = nodeWord 4 3 k.val)
    (k : Fin 128) :
    ibuf S128 ((StableHlo.after (hostOps0_36 (F := Ideal)) Win) (Proc.devRef .tc main_v1105)) (ix1 k) = ibuf S131040 ((StableHlo.after (hostOps0_36 (F := Ideal)) Win) (Proc.devRef .tc main_arg1)) (ix1 (node 4 3 128 rfl (by omega) k)) := by
  simp only [fbuf, ibuf] at hcol ⊢
  have e_v115 := Line.binary_at writes0 128 Win (hop := rfl) (by decide) (by decide) (by decide)
  rw [e_v115]
  rw [gather_vec_apply gather_S131040_S128x1_S128_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_36 (F := Ideal)) Win) (Proc.devRef .tc main_c_261)) = constantI S_ 32 4095#32 :=
  Line.nullary_at writes0 129 Win (hop := rfl) (by decide)

end Stretch0

/-! ## The routing word's two called functions, in the reference's host operations -/

/-- The reference's floor division of a vector of words by a scalar word: the truncated quotient, one less where the
    signs differ and the remainder is not zero. -/
def fdivF (p : IVec S128 32) (c : IVec S_ 32) : IVec S128 32 :=
  select (andi (cmpi .ne (signi p) (broadcastInDim S128 ![] bcast_S_S128 (signi c))) (cmpi .ne (Host.remsi p (broadcastInDim S128 ![] bcast_S_S128 c)) (broadcastInDim S128 ![] bcast_S_S128 (constantI S_ 32 0#32))))
    (subi (Host.divsi p (broadcastInDim S128 ![] bcast_S_S128 c)) (broadcastInDim S128 ![] bcast_S_S128 (constantI S_ 32 1#32))) (Host.divsi p (broadcastInDim S128 ![] bcast_S_S128 c))

/-- The reference's remainder of a vector of words by a scalar word (a zero divisor replaced by one): the truncated
    remainder, the divisor added where its sign differs from the divisor's and it is not zero. -/
def remF (p : IVec S128 32) (c : IVec S_ 32) : IVec S128 32 :=
  select (andi (cmpi .ne (cmpi .slt (Host.remsi p (broadcastInDim S128 ![] bcast_S_S128 (select (cmpi .eq c (constantI S_ 32 0#32)) (constantI S_ 32 1#32) c))) (broadcastInDim S128 ![] bcast_S_S128 (constantI S_ 32 0#32))) (broadcastInDim S128 ![] bcast_S_S128 (cmpi .slt (select (cmpi .eq c (constantI S_ 32 0#32)) (constantI S_ 32 1#32) c) (constantI S_ 32 0#32)))) (cmpi .ne (Host.remsi p (broadcastInDim S128 ![] bcast_S_S128 (select (cmpi .eq c (constantI S_ 32 0#32)) (constantI S_ 32 1#32) c))) (broadcastInDim S128 ![] bcast_S_S128 (constantI S_ 32 0#32))))
    (addi (Host.remsi p (broadcastInDim S128 ![] bcast_S_S128 (select (cmpi .eq c (constantI S_ 32 0#32)) (constantI S_ 32 1#32) c))) (broadcastInDim S128 ![] bcast_S_S128 (select (cmpi .eq c (constantI S_ 32 0#32)) (constantI S_ 32 1#32) c))) (Host.remsi p (broadcastInDim S128 ![] bcast_S_S128 (select (cmpi .eq c (constantI S_ 32 0#32)) (constantI S_ 32 1#32) c)))

/-- The routing word of a child from its parent word `p`: `(p // 4095) * 2 + (p % 4095 - 1)`. -/
def segFun (p : IVec S128 32) : IVec S128 32 :=
  addi (muli (fdivF p (constantI S_ 32 4095#32)) (broadcastInDim S128 ![] bcast_S_S128 (constantI S_ 32 2#32))) (subi (remF p (constantI S_ 32 4095#32)) (broadcastInDim S128 ![] bcast_S_S128 (constantI S_ 32 1#32)))

section Stretch123

variable (Win : Valuation τ sig (Elt Ideal))

set_option maxHeartbeats 4000000 in
/-- The quotient part. -/
theorem s1_v116 :
    ibuf S128 ((StableHlo.after (hostOps0_37 (F := Ideal)) Win) (Proc.devRef .tc main_v1106)) = fdivF (ibuf S128 (Win (Proc.devRef .tc main_v1105))) (ibuf S_ (Win (Proc.devRef .tc main_c_261))) := by
  unfold fdivF
  after_results_simp
  <;> (try simp only [TRef.ofBuf, TRef.toBuf, cast_eq]) <;> rfl

/-- The quotient part times the level's nodes per graph. -/
theorem s2_v118 :
    ibuf S128 ((StableHlo.after (hostOps0_38 (F := Ideal)) Win) (Proc.devRef .tc main_v1108)) = muli (ibuf S128 (Win (Proc.devRef .tc main_v1106))) (broadcastInDim S128 ![] bcast_S_S128 (constantI S_ 32 2#32)) := by
  after_results_simp
  <;> rfl

/-- The divisor the remainder part is taken by. -/
theorem s2_c29 : ibuf S_ ((StableHlo.after (hostOps0_38 (F := Ideal)) Win) (Proc.devRef .tc main_c_263)) = constantI S_ 32 4095#32 := by
  after_results_simp
  <;> rfl

set_option maxHeartbeats 4000000 in
/-- The remainder part. -/
theorem s3_v119 :
    ibuf S128 ((StableHlo.after (hostOps0_39 (F := Ideal)) Win) (Proc.devRef .tc main_v1109)) = remF (ibuf S128 (Win (Proc.devRef .tc main_v1105))) (ibuf S_ (Win (Proc.devRef .tc main_c_263))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_36 (F := Ideal)) V0
local notation "V2" => StableHlo.after (hostOps0_37 (F := Ideal)) V1
local notation "V3" => StableHlo.after (hostOps0_38 (F := Ideal)) V2
local notation "V4" => StableHlo.after (hostOps0_39 (F := Ideal)) V3
local notation "V5" => StableHlo.after (hostOps0_40 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S128 (V5 (Proc.devRef .tc main_v1112)) = segFun (ibuf S128 (V1 (Proc.devRef .tc main_v1105))) := by
  rw [s4_seg V4, Line.keep writes4 V4 (r := main_v1108) (by decide), Line.keep writes3 V3 (r := main_v1108) (by decide),
    s2_v118 V2, s1_v116 V1, s0_c27 V0, Line.keep writes4 V4 (r := main_v1109) (by decide), s3_v119 V3,
    Line.keep writes2 V2 (r := main_v1105) (by decide), Line.keep writes1 V1 (r := main_v1105) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 64, ibuf S64x1 (V1 (Proc.devRef .tc main_v1074)) (ix2 i 0) = nodeWord 2 1 i.val)
    (h100 : ∀ k : Fin 128, ibuf S128x1 (V1 (Proc.devRef .tc main_v1090)) (ix2 k 0) = nodeWord 4 3 k.val)
    (h107 : ∀ k : Fin 128, ibuf S128x1 (V1 (Proc.devRef .tc main_v1097)) (ix2 k 0) = nodeWord 4 3 k.val)
    (h114 : ∀ k : Fin 128, ibuf S128x1 (V1 (Proc.devRef .tc main_v1104)) (ix2 k 0) = nodeWord 4 3 k.val)
    (h78 : ∀ i : Fin 64, ibuf S64 (V1 (Proc.devRef .tc main_v1068)) (ix1 i) = nodeWord 2 1 i.val)
    (h171 : (∀ i : Fin 64, ibuf S64 (V4 (Proc.devRef .tc main_v1068)) (ix1 i) = nodeWord 2 1 i.val) →
      ∀ i : Fin 64, ibuf S64x1 (V5 (Proc.devRef .tc main_v1161)) (ix2 i 0) = nodeWord 2 1 i.val)
    (h178 : (∀ i : Fin 64, ibuf S64 (V4 (Proc.devRef .tc main_v1068)) (ix1 i) = nodeWord 2 1 i.val) →
      ∀ i : Fin 64, ibuf S64x1 (V5 (Proc.devRef .tc main_v1168)) (ix2 i 0) = nodeWord 2 1 i.val) :
    Chain.RLevel 2 1 4 3 rfl (by omega) rfl (by omega) w G (ibuf S131040 (V0 (Proc.devRef .tc main_arg1))) segFun
      (fbuf S131040x256 (V1 (Proc.devRef .tc main_v1052))) (fbuf S131040x256 (V1 (Proc.devRef .tc main_v1059)))
      (fbuf S131040x256 (V5 (Proc.devRef .tc main_v1162))) (fbuf S131040x256 (V5 (Proc.devRef .tc main_v1169))) := by
  have h78' : ∀ i : Fin 64, ibuf S64 (V4 (Proc.devRef .tc main_v1068)) (ix1 i) = nodeWord 2 1 i.val := fun i => by
    rw [Line.keep writes3 V3 (r := main_v1068) (by decide), Line.keep writes2 V2 (r := main_v1068) (by decide),
      Line.keep writes1 V1 (r := main_v1068) (by decide)]
    exact h78 i
  refine ⟨fbuf S131040x768 (V1 (Proc.devRef .tc main_v11)), fbuf S128x256 (V1 (Proc.devRef .tc main_v1091)), fbuf S128x256 (V1 (Proc.devRef .tc main_v1098)),
    fbuf S128x256 (V5 (Proc.devRef .tc main_v1123)), ibuf S128 (V1 (Proc.devRef .tc main_v1105)), ibuf S128 (V5 (Proc.devRef .tc main_v1112)),
    fbuf S64x768 (V1 (Proc.devRef .tc main_v1075)), fbuf S64x768 (V5 (Proc.devRef .tc main_v1135)), fbuf S64x256 (V5 (Proc.devRef .tc main_v1126)),
    fbuf S64x256 (V5 (Proc.devRef .tc main_v1130)), fbuf S64x256 (V5 (Proc.devRef .tc main_v1147)), fbuf S64x256 (V5 (Proc.devRef .tc main_v1155)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v1091) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v1091) (by decide) (by decide) (by decide) (by decide)] at h
    exact h
  · intro i j
    have h := s4_hca V4 i j
    rw [keep51 V0 (r := main_v1098) (by decide) (by decide) (by decide) (by decide)] at h
    exact h
  · intro i n
    have h := s4_hz V4 i n
    rw [keep51 V0 (r := main_v1075) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl1

end
-- ==== Proof.RIdx40.lean ====
/-
  The reference's index vectors in the stretch of host operations that ends the level with 2 nodes per graph and
  begins the root level, read at an index. The stretch normalises the ending level's node ids twice more (for the two
  scatters of its new rows) and makes the root level's node ids — one node per graph, so the start column is the
  grid already — with one normalised column, and its children's ids — the ending level's nodes — with three. The
  ending level's ids and the offsets `arange(32) * 4095` were made before the stretch and are taken from its entry
  contents.
-/
import proofs.«419362_j66683662237734_3_alg».proof.Proof.RefOpsS3
import proofs.«419362_j66683662237734_3_alg».proof.Proof.RIdxTac
import proofs.«419362_j66683662237734_3_alg».proof.Proof.LibNodeIdx

set_option maxRecDepth 9696

noncomputable section

namespace Cert.ReferenceIdeal.Idx

open Cert.ReferenceIdeal Cert.ReferenceIdeal.Gen Idealize.ShloMosaic Idealize.ShloMosaic.TcCoe Idealize.SL.Sem
open Idealize.ShloMosaic.StableHlo Idealize.ShloMosaic.ValueIdx Cert.TreeLstm.NodeIdx Cert.ReferenceIdeal.Line

variable {F : FTy → Type} [FloatOps F]

/-- The references this stretch writes, one per operation, in order. -/
abbrev W40 : List (Ref sig .tc) :=
  [main_c_264, main_v1110, main_v1111, main_v1112, main_v1113, main_v1114, main_v1115, main_v1116,
    main_v1117, main_v1118, main_v1119, main_cst_265, main_v1120, main_v1121, main_cst_266, main_v1122,
    main_v1123, main_cst_267, main_v1124, main_v1125, main_v1126, main_v1127, main_cst_268, main_v1128,
    main_v1129, main_v1130, main_v1131, main_v1132, main_v1133, main_v1134, main_v1135, main_v1136,
    main_v1137, main_v1138, main_v1139, main_v1140, main_cst_269, main_v1141, main_v1142, main_cst_270,
    main_v1143, main_v1144, main_v1145, main_v1146, main_v1147, main_v1148, main_v1149, main_cst_271,
    main_v1150, main_v1151, main_cst_272, main_v1152, main_v1153, main_v1154, main_v1155, main_c_273,
    main_v1156, main_v1157, main_c_274, main_v1158, main_v1159, main_v1160, main_v1161, main_v1162,
    main_c_275, main_v1163, main_v1164, main_c_276, main_v1165, main_v1166, main_v1167, main_v1168,
    main_v1169, main_v1170, main_c_277, main_v1171, main_v1172, main_v1173, main_v1174, main_v1175,
    main_v1176, main_v1177, main_c_278, main_v1178, main_v1179, main_c_279, main_v1180, main_v1181,
    main_v1182, main_v1183, main_v1184, main_v1185, main_c_280, main_v1186, main_v1187, main_v1188,
    main_v1189, main_v1190, main_v1191, main_v1192, main_v1193, main_c_281, main_v1194, main_v1195,
    main_c_282, main_v1196, main_v1197, main_v1198, main_v1199, main_v1200, main_c_283, main_v1201,
    main_v1202, main_c_284, main_v1203, main_v1204, main_v1205, main_v1206, main_v1207, main_c_285,
    main_v1208, main_v1209, main_c_286, main_v1210, main_v1211, main_v1212, main_v1213, main_v1214,
    main_c_287 ]

set_option maxHeartbeats 4000000 in
theorem writes40 : Writes (hostOps0_40 : List (HloOp τ sig (Elt F))) W40 := by
  repeat (first | exact .nil | refine .cons rfl ?_)

variable (Win : Valuation τ sig (Elt F))

/-! ### The ending level: 2 nodes per graph from offset 1 -/

theorem s40_v1161 (hids : ∀ i : Fin 64, Win (Proc.devRef .tc main_v1068) (ix1 i) = nodeWord 2 1 i.val) (i : Fin 64) :
    after hostOps0_40 Win (Proc.devRef .tc main_v1161) (ix2 i 0) = nodeWord 2 1 i.val := by
  normCol_eqs writes40 55
  rw [keep writes40 Win (r := main_v1068) (by decide)]
  exact normCol_nodeWord (nd := 2) rfl (by omega) _ _ _ _ _ i (hids i)

theorem s40_v1168 (hids : ∀ i : Fin 64, Win (Proc.devRef .tc main_v1068) (ix1 i) = nodeWord 2 1 i.val) (i : Fin 64) :
    after hostOps0_40 Win (Proc.devRef .tc main_v1168) (ix2 i 0) = nodeWord 2 1 i.val := by
  normCol_eqs writes40 64
  rw [keep writes40 Win (r := main_v1068) (by decide)]
  exact normCol_nodeWord (nd := 2) rfl (by omega) _ _ _ _ _ i (hids i)

/-! ### The root level: one node per graph from offset 0, its children the ending level's nodes -/

theorem s40_v1177 (h16 : ∀ b : Fin 32, Win (Proc.devRef .tc main_v16) (ix1 b) = BitVec.ofNat 32 b.val * 4095#32) (i : Fin 32) :
    after hostOps0_40 Win (Proc.devRef .tc main_v1177) (ix1 i) = nodeWord 1 0 i.val := by
  nids0_eqs writes40 73
  rw [keep writes40 Win (r := main_v16) (by decide)]
  exact nids0_apply 0 _ h16 _ _ _ _ _ i

theorem s40_v1183 (h16 : ∀ b : Fin 32, Win (Proc.devRef .tc main_v16) (ix1 b) = BitVec.ofNat 32 b.val * 4095#32) (i : Fin 32) :
    after hostOps0_40 Win (Proc.devRef .tc main_v1183) (ix2 i 0) = nodeWord 1 0 i.val := by
  normCol_eqs writes40 82
  exact normCol_nodeWord (nd := 1) rfl (by omega) _ _ _ _ _ i (s40_v1177 Win h16 i)

theorem s40_v1193 (h16 : ∀ b : Fin 32, Win (Proc.devRef .tc main_v16) (ix1 b) = BitVec.ofNat 32 b.val * 4095#32) (i : Fin 64) :
    after hostOps0_40 Win (Proc.devRef .tc main_v1193) (ix1 i) = nodeWord 2 1 i.val := by
  nids_eqs writes40 91
  rw [keep writes40 Win (r := main_v16) (by decide)]
  exact nids_apply (nd := 2) rfl 1 _ h16 _ _ _ _ _ _ i

theorem s40_v1199 (h16 : ∀ b : Fin 32, Win (Proc.devRef .tc main_v16) (ix1 b) = BitVec.ofNat 32 b.val * 4095#32) (i : Fin 64) :
    after hostOps0_40 Win (Proc.devRef .tc main_v1199) (ix2 i 0) = nodeWord 2 1 i.val := by
  normCol_eqs writes40 101
  exact normCol_nodeWord (nd := 2) rfl (by omega) _ _ _ _ _ i (s40_v1193 Win h16 i)

theorem s40_v1206 (h16 : ∀ b : Fin 32, Win (Proc.devRef .tc main_v16) (ix1 b) = BitVec.ofNat 32 b.val * 4095#32) (i : Fin 64) :
    after hostOps0_40 Win (Proc.devRef .tc main_v1206) (ix2 i 0) = nodeWord 2 1 i.val := by
  normCol_eqs writes40 110
  exact normCol_nodeWord (nd := 2) rfl (by omega) _ _ _ _ _ i (s40_v1193 Win h16 i)

theorem s40_v1213 (h16 : ∀ b : Fin 32, Win (Proc.devRef .tc main_v16) (ix1 b) = BitVec.ofNat 32 b.val * 4095#32) (i : Fin 64) :
    after hostOps0_40 Win (Proc.devRef .tc main_v1213) (ix2 i 0) = nodeWord 2 1 i.val := by
  normCol_eqs writes40 119
  exact normCol_nodeWord (nd := 2) rfl (by omega) _ _ _ _ _ i (s40_v1193 Win h16 i)

end Cert.ReferenceIdeal.Idx

end
-- ==== Proof.BridgeRL1.lean ====
/-
  Level 1 of the reference's side of the chain: the level's stretches run from the contents after stretch 35. The weights
  and the parent words are arguments, written by no stretch; the token rows' product with the input weights and the
  per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl1
import proofs.«419362_j66683662237734_3_alg».proof.Proof.RIdx36
import proofs.«419362_j66683662237734_3_alg».proof.Proof.RIdx40

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 1, from level 2's arrays to its own. -/
theorem rlevel1 : Chain.RLevel 2 1 4 3 (rfl : 64 = 32 * 2) (by omega) (rfl : 128 = 32 * 4) (by omega)
    (wR m' c) (GR m' c) (parR m' c) Lvl1.segFun (harr2 m' c) (carr2 m' c) (harr1 m' c) (carr1 m' c) := by
  have h16 : ∀ b : Fin 32, R36 m' c (Proc.devRef .tc main_v16) (ix1 b) = BitVec.ofNat 32 b.val * 4095#32 :=
    offs_of m' c (carry_v16_R36 m' c)
  have h := Lvl1.rlevel (R36 m' c) (wR m' c) (GR m' c)
    (hU_of m' c (carry_arg4_R36 m' c)) (hbI_of m' c (carry_arg5_R36 m' c))
    (hUf_of m' c (carry_arg6_R36 m' c)) (hbF_of m' c (carry_arg7_R36 m' c))
    (iou_of m' c (carry_v11_R37 m' c))
    (fun i => col_in (Idx.s36_v1074 (R36 m' c) h16 i)) (fun k => col_in (Idx.s36_v1090 (R36 m' c) h16 k))
    (fun k => col_in (Idx.s36_v1097 (R36 m' c) h16 k)) (fun k => col_in (Idx.s36_v1104 (R36 m' c) h16 k))
    (fun i => col_in (Idx.s36_v1068 (R36 m' c) h16 i))
    (fun hids i => col_in (Idx.s40_v1161 (R40 m' c) (fun i' => col_out (hids i')) i))
    (fun hids i => col_in (Idx.s40_v1168 (R40 m' c) (fun i' => col_out (hids i')) i))
  rw [par_of m' c (carry_arg1_R36 m' c), fbuf_id, fbuf_id, fbuf_id, fbuf_id] at h
  exact h

end Cert.BridgeR

end
-- ==== Proof.RLvl0.lean ====
/-
  One level of the reference's tree recurrence, the level of 32 nodes with 64 children, read off the
  reference's host operations at the ideal values: the pre-activation is the gathered input projection plus the
  summed children's hidden rows times the transposed recurrent weights plus the bias; the gates are logistic and
  hyperbolic-tangent functions of its three column thirds; the forget gate of a child is the logistic function of its
  hidden row times the transposed forget weights plus the forget bias; the two accumulating scatters sum, per parent
  slot, the children routed to it; the routing word is one fixed function of the child's parent word; the gathers
  read the whole-forest arrays at the level's nodes and the two replacing scatters put the level's new rows there.
-/
import proofs.«419362_j66683662237734_3_alg».proof.Proof.RefOpsS3
import proofs.«419362_j66683662237734_3_alg».proof.Proof.LibLine
import proofs.«419362_j66683662237734_3_alg».proof.Proof.LibNodeIdx
import proofs.«419362_j66683662237734_3_alg».proof.Proof.LibChain
import proofs.«419362_j66683662237734_3_alg».proof.Proof.RLvlLib

set_option maxRecDepth 9696

noncomputable section

open scoped BigOperators

namespace Cert.ReferenceIdeal.Lvl0

open Cert.ReferenceIdeal Cert.ReferenceIdeal.Gen Idealize.ShloMosaic Idealize.ShloMosaic.TcCoe Idealize.SL.Sem
open Idealize.ShloMosaic.StableHlo Idealize.ShloMosaic.ValueIdx
open Cert.TreeLstm Cert.TreeLstm.Rows Cert.TreeLstm.NodeIdx Cert.ReferenceIdeal.LvlLib

/-! ## The references each stretch writes, one per operation, in order -/

abbrev W0 : List (Ref sig .tc) :=
  [
    main_c_264, main_v1110, main_v1111, main_v1112, main_v1113, main_v1114, main_v1115, main_v1116,
    main_v1117, main_v1118, main_v1119, main_cst_265, main_v1120, main_v1121, main_cst_266, main_v1122,
    main_v1123, main_cst_267, main_v1124, main_v1125, main_v1126, main_v1127, main_cst_268, main_v1128,
    main_v1129, main_v1130, main_v1131, main_v1132, main_v1133, main_v1134, main_v1135, main_v1136,
    main_v1137, main_v1138, main_v1139, main_v1140, main_cst_269, main_v1141, main_v1142, main_cst_270,
    main_v1143, main_v1144, main_v1145, main_v1146, main_v1147, main_v1148, main_v1149, main_cst_271,
    main_v1150, main_v1151, main_cst_272, main_v1152, main_v1153, main_v1154, main_v1155, main_c_273,
    main_v1156, main_v1157, main_c_274, main_v1158, main_v1159, main_v1160, main_v1161, main_v1162,
    main_c_275, main_v1163, main_v1164, main_c_276, main_v1165, main_v1166, main_v1167, main_v1168,
    main_v1169, main_v1170, main_c_277, main_v1171, main_v1172, main_v1173, main_v1174, main_v1175,
    main_v1176, main_v1177, main_c_278, main_v1178, main_v1179, main_c_279, main_v1180, main_v1181,
    main_v1182, main_v1183, main_v1184, main_v1185, main_c_280, main_v1186, main_v1187, main_v1188,
    main_v1189, main_v1190, main_v1191, main_v1192, main_v1193, main_c_281, main_v1194, main_v1195,
    main_c_282, main_v1196, main_v1197, main_v1198, main_v1199, main_v1200, main_c_283, main_v1201,
    main_v1202, main_c_284, main_v1203, main_v1204, main_v1205, main_v1206, main_v1207, main_c_285,
    main_v1208, main_v1209, main_c_286, main_v1210, main_v1211, main_v1212, main_v1213, main_v1214,
    main_c_287 ]
set_option maxHeartbeats 40000000 in
theorem writes0 : Line.Writes (hostOps0_40 (F := Ideal) : List (HloOp τ sig (Elt Ideal))) W0 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))))))))))))))))))))))))))))))))))))))))))))

abbrev W1 : List (Ref sig .tc) :=
  [
    main_call20_v0, main_call20_v1, main_call20_v2, main_call20_v3, main_call20_v4, main_call20_v5, main_call20_v6, main_call20_v7,
    main_call20_v8, main_call20_c, main_call20_v9, main_call20_v10, main_call20_v11, main_call20_c_0, main_call20_v12, main_call20_v13,
    main_v1215 ]
set_option maxHeartbeats 40000000 in
theorem writes1 : Line.Writes (hostOps0_41 (F := Ideal) : List (HloOp τ sig (Elt Ideal))) W1 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))

abbrev W2 : List (Ref sig .tc) :=
  [
    main_c_288, main_v1216, main_v1217, main_c_289 ]
set_option maxHeartbeats 40000000 in
theorem writes2 : Line.Writes (hostOps0_42 (F := Ideal) : List (HloOp τ sig (Elt Ideal))) W2 :=
  .cons rfl (.cons rfl (.cons rfl (.cons rfl (.nil))))

abbrev W3 : List (Ref sig .tc) :=
  [
    main_call21_v0, main_call21_c, main_call21_v1, main_call21_c_0, main_call21_v2, main_call21_v3, main_call21_v4, main_call21_c_1,
    main_call21_v5, main_call21_v6, main_call21_c_2, main_call21_v7, main_call21_v8, main_call21_c_3, main_call21_v9, main_call21_v10,
    main_call21_v11, main_call21_v12, main_call21_v13, main_call21_v14, main_v1218 ]
set_option maxHeartbeats 40000000 in
theorem writes3 : Line.Writes (hostOps0_43 (F := Ideal) : List (HloOp τ sig (Elt Ideal))) W3 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))

abbrev W4 : List (Ref sig .tc) :=
  [
    main_c_290, main_v1219, main_v1220, main_v1221, main_v1222, main_v1223, main_v1224, main_v1225,
    main_v1226, main_v1227, main_v1228, main_cst_291, main_v1229, main_v1230, main_cst_292, main_v1231,
    main_v1232, main_cst_293, main_v1233, main_v1234, main_v1235, main_v1236, main_cst_294, main_v1237,
    main_v1238, main_v1239, main_v1240, main_v1241, main_v1242, main_v1243, main_v1244, main_v1245,
    main_v1246, main_v1247, main_v1248, main_v1249, main_cst_295, main_v1250, main_v1251, main_cst_296,
    main_v1252, main_v1253, main_v1254, main_v1255, main_v1256, main_v1257, main_v1258, main_cst_297,
    main_v1259, main_v1260, main_cst_298, main_v1261, main_v1262, main_v1263, main_v1264, main_c_299,
    main_v1265, main_v1266, main_c_300, main_v1267, main_v1268, main_v1269, main_v1270, main_v1271,
    main_c_301, main_v1272, main_v1273, main_c_302, main_v1274, main_v1275, main_v1276, main_v1277,
    main_v1278, main_c_303, main_v1279, main_v1280, main_c_304, main_v1281, main_v1282, main_v1283,
    main_v1284, main_v1285, main_v1286, main_v1287, main_v1288, main_v1289, main_v1290 ]
set_option maxHeartbeats 40000000 in
theorem writes4 : Line.Writes (hostOps0_44 (F := Ideal) : List (HloOp τ sig (Elt Ideal))) W4 :=
  .cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.cons rfl (.nil)))))))))))))))))))))))))))))))))))))))))))))))))))))))))))))))))))))))))))))))))))))))

/-! ## The stretch that holds the level's arithmetic: each fact is stated of the contents after the stretch alone -/

section Stretch4

variable (Win : Valuation τ sig (Elt Ideal))

/-- The routing word: the quotient part plus the remainder part less the level's first offset. -/
theorem s4_seg :
    ibuf S64 ((StableHlo.after (hostOps0_44 (F := Ideal)) Win) (Proc.devRef .tc main_v1221))
      = addi (ibuf S64 ((StableHlo.after (hostOps0_44 (F := Ideal)) Win) (Proc.devRef .tc main_v1217)))
          (subi (ibuf S64 ((StableHlo.after (hostOps0_44 (F := Ideal)) Win) (Proc.devRef .tc main_v1218))) (broadcastInDim S64 ![] bcast_S_S64 (constantI S_ 32 0#32))) := by
  have e_v122 := Line.binary_at writes4 3 Win (hop := rfl) (by decide) (by decide) (by decide)
  have e_v121 := Line.binary_at writes4 2 Win (hop := rfl) (by decide) (by decide) (by decide)
  have e_v120 := Line.unary_at writes4 1 Win (hop := rfl) (by decide) (by decide)
  have e_c_30 := Line.nullary_at writes4 0 Win (hop := rfl) (by decide)
  rw [e_v122, e_v121, e_v120, e_c_30]

/-- The pre-activation. -/
theorem s4_hz (i : Fin 32) (n : Fin 768) :
    fbuf S32x768 ((StableHlo.after (hostOps0_44 (F := Ideal)) Win) (Proc.devRef .tc main_v1244)) (ix2 i n)
      = (fbuf S32x768 ((StableHlo.after (hostOps0_44 (F := Ideal)) Win) (Proc.devRef .tc main_v1184)) (ix2 i n)
          + ∑ k : Fin 256, fbuf S32x256 ((StableHlo.after (hostOps0_44 (F := Ideal)) Win) (Proc.devRef .tc main_v1235)) (ix2 i k) * fbuf S768x256 ((StableHlo.after (hostOps0_44 (F := Ideal)) Win) (Proc.devRef .tc main_arg4)) (ix2 n k))
        + fbuf S1x768 ((StableHlo.after (hostOps0_44 (F := Ideal)) Win) (Proc.devRef .tc main_arg5)) (ix2 0 n) := by
  simp only [fbuf, ibuf]
  have e_v145 := Line.binary_at writes4 30 Win (hop := rfl) (by decide) (by decide) (by decide)
  have e_v143 := Line.binary_at writes4 28 Win (hop := rfl) (by decide) (by decide) (by decide)
  have e_v142 := Line.binary_at writes4 27 Win (hop := rfl) (by decide) (by decide) (by decide)
  have e_v141 := Line.unary_at writes4 26 Win (hop := rfl) (by decide) (by decide)
  have e_v144 := Line.unary_at writes4 29 Win (hop := rfl) (by decide) (by decide)
  rw [e_v145, e_v143, e_v142, e_v141, e_v144]
  rw [addf_apply, addf_apply, dot_transposed_apply dot_S32x256_S256x768_S32x768_1_0_0_1_n_n rfl, bcast_row_apply]

/-- The new cell state. -/
theorem s4_hc (i : Fin 32) (j : Fin 256) :
    fbuf S32x256 ((StableHlo.after (hostOps0_44 (F := Ideal)) Win) (Proc.devRef .tc main_v1256)) (ix2 i j)
      = Ideal.logistic (fbuf S32x768 ((StableHlo.after (hostOps0_44 (F := Ideal)) Win) (Proc.devRef .tc main_v1244)) (ix2 i (c0 j)))
          * Ideal.tanh (fbuf S32x768 ((StableHlo.after (hostOps0_44 (F := Ideal)) Win) (Proc.devRef .tc main_v1244)) (ix2 i (c2 j)))
        + fbuf S32x256 ((StableHlo.after (hostOps0_44 (F := Ideal)) Win) (Proc.devRef .tc main_v1239)) (ix2 i j) := by
  simp only [fbuf, ibuf]
  have e_v157 := Line.binary_at writes4 44 Win (hop := rfl) (by decide) (by decide) (by decide)
  have e_v156 := Line.binary_at writes4 43 Win (hop := rfl) (by decide) (by decide) (by decide)
  have e_v154 := Line.binary_at writes4 41 Win (hop := rfl) (by decide) (by decide) (by decide)
  have e_v153 := Line.unary_at writes4 40 Win (hop := rfl) (by decide) (by decide)
  have e_cst_36 := Line.nullary_at writes4 39 Win (hop := rfl) (by decide)
  have e_v152 := Line.binary_at writes4 38 Win (hop := rfl) (by decide) (by decide) (by decide)
  have e_v151 := Line.unary_at writes4 37 Win (hop := rfl) (by decide) (by decide)
  have e_cst_35 := Line.nullary_at writes4 36 Win (hop := rfl) (by decide)
  have e_v150 := Line.unary_at writes4 35 Win (hop := rfl) (by decide) (by decide)
  have e_v149 := Line.unary_at writes4 34 Win (hop := rfl) (by decide) (by decide)
  have e_v146 := Line.unary_at writes4 31 Win (hop := rfl) (by decide) (by decide)
  have e_v155 := Line.unary_at writes4 42 Win (hop := rfl) (by decide) (by decide)
  have e_v148 := Line.unary_at writes4 33 Win (hop := rfl) (by decide) (by decide)
  rw [e_v157, e_v156, e_v154, e_v153, e_cst_36, e_v152, e_v151, e_cst_35, e_v150, e_v149, e_v146, e_v155, e_v148]
  rw [addf_apply, mulf_apply, logistic_host_apply, tanh_host_apply,
    slice_cols_apply 0 _ _ i j (c0 j) (Nat.zero_add _).symm, slice_cols_apply 512 _ _ i j (c2 j) rfl]

/-- The new hidden state. -/
theorem s4_hh (i : Fin 32) (j : Fin 256) :
    fbuf S32x256 ((StableHlo.after (hostOps0_44 (F := Ideal)) Win) (Proc.devRef .tc main_v1264)) (ix2 i j)
      = Ideal.logistic (fbuf S32x768 ((StableHlo.after (hostOps0_44 (F := Ideal)) Win) (Proc.devRef .tc main_v1244)) (ix2 i (c1 j)))
          * Ideal.tanh (fbuf S32x256 ((StableHlo.after (hostOps0_44 (F := Ideal)) Win) (Proc.devRef .tc main_v1256)) (ix2 i j)) := by
  simp only [fbuf, ibuf]
  have e_v165 := Line.binary_at writes4 54 Win (hop := rfl) (by decide) (by decide) (by decide)
  have e_v163 := Line.binary_at writes4 52 Win (hop := rfl) (by decide) (by decide) (by decide)
  have e_v162 := Line.unary_at writes4 51 Win (hop := rfl) (by decide) (by decide)
  have e_cst_38 := Line.nullary_at writes4 50 Win (hop := rfl) (by decide)
  have e_v161 := Line.binary_at writes4 49 Win (hop := rfl) (by decide) (by decide) (by decide)
  have e_v160 := Line.unary_at writes4 48 Win (hop := rfl) (by decide) (by decide)
  have e_cst_37 := Line.nullary_at writes4 47 Win (hop := rfl) (by decide)
  have e_v159 := Line.unary_at writes4 46 Win (hop := rfl) (by decide) (by decide)
  have e_v158 := Line.unary_at writes4 45 Win (hop := rfl) (by decide) (by decide)
  have e_v147 := Line.unary_at writes4 32 Win (hop := rfl) (by decide) (by decide)
  have e_v164 := Line.unary_at writes4 53 Win (hop := rfl) (by decide) (by decide)
  rw [e_v165, e_v163, e_v162, e_cst_38, e_v161, e_v160, e_cst_37, e_v159, e_v158, e_v147, e_v164]
  rw [mulf_apply, logistic_host_apply, tanh_host_apply, slice_cols_apply 256 _ _ i j (c1 j) rfl]

/-- A child's forget gate. -/
theorem s4_hf (k : Fin 64) (j : Fin 256) :
    fbuf S64x256 ((StableHlo.after (hostOps0_44 (F := Ideal)) Win) (Proc.devRef .tc main_v1232)) (ix2 k j)
      = Ideal.logistic ((∑ k' : Fin 256, fbuf S64x256 ((StableHlo.after (hostOps0_44 (F := Ideal)) Win) (Proc.devRef .tc main_v1200)) (ix2 k k') * fbuf S256x256 ((StableHlo.after (hostOps0_44 (F := Ideal)) Win) (Proc.devRef .tc main_arg6)) (ix2 j k'))
          + fbuf S256 ((StableHlo.after (hostOps0_44 (F := Ideal)) Win) (Proc.devRef .tc main_arg7)) (ix1 j)) := by
  simp only [fbuf, ibuf]
  have e_v133 := Line.binary_at writes4 16 Win (hop := rfl) (by decide) (by decide) (by decide)
  have e_v132 := Line.unary_at writes4 15 Win (hop := rfl) (by decide) (by decide)
  have e_cst_32 := Line.nullary_at writes4 14 Win (hop := rfl) (by decide)
  have e_v131 := Line.binary_at writes4 13 Win (hop := rfl) (by decide) (by decide) (by decide)
  have e_v130 := Line.unary_at writes4 12 Win (hop := rfl) (by decide) (by decide)
  have e_cst_31 := Line.nullary_at writes4 11 Win (hop := rfl) (by decide)
  have e_v129 := Line.unary_at writes4 10 Win (hop := rfl) (by decide) (by decide)
  have e_v128 := Line.unary_at writes4 9 Win (hop := rfl) (by decide) (by decide)
  have e_v127 := Line.binary_at writes4 8 Win (hop := rfl) (by decide) (by decide) (by decide)
  have e_v126 := Line.unary_at writes4 7 Win (hop := rfl) (by decide) (by decide)
  have e_v125 := Line.unary_at writes4 6 Win (hop := rfl) (by decide) (by decide)
  have e_v124 := Line.binary_at writes4 5 Win (hop := rfl) (by decide) (by decide) (by decide)
  have e_v123 := Line.unary_at writes4 4 Win (hop := rfl) (by decide) (by decide)
  rw [e_v133, e_v132, e_cst_32, e_v131, e_v130, e_cst_31, e_v129, e_v128, e_v127, e_v126, e_v125, e_v124, e_v123]
  rw [logistic_host_apply, addf_apply, dot_transposed_apply dot_S64x256_S256x256_S64x256_1_0_0_1_n_n rfl,
    bcast_vec_rows_apply]

/-- The children's hidden rows summed per parent slot. -/
theorem s4_hht (i : Fin 32) (j : Fin 256) :
    fbuf S32x256 ((StableHlo.after (hostOps0_44 (F := Ideal)) Win) (Proc.devRef .tc main_v1235)) (ix2 i j)
      = ∑ k ∈ kids (fun k : Fin 64 => rowTarget 32 (ibuf S64 ((StableHlo.after (hostOps0_44 (F := Ideal)) Win) (Proc.devRef .tc main_v1221)) (ix1 k))) i, fbuf S64x256 ((StableHlo.after (hostOps0_44 (F := Ideal)) Win) (Proc.devRef .tc main_v1200)) (ix2 k j) := by
  simp only [fbuf, ibuf]
  have e_v136 := Line.ternary_at writes4 20 Win (hop := rfl) (by decide) (by decide) (by decide) (by decide)
  have e_v134 := Line.unary_at writes4 18 Win (hop := rfl) (by decide) (by decide)
  have e_cst_33 := Line.nullary_at writes4 17 Win (hop := rfl) (by decide)
  have e_v135 := Line.unary_at writes4 19 Win (hop := rfl) (by decide) (by decide)
  rw [e_v136, e_v134, e_cst_33, e_v135]
  exact scatterAdd_zeros_apply scatter_S32x256_S64x1_S64x256_1_0_0_1 ⟨rfl, rfl, rfl, rfl⟩ _ _ _ _ i j

/-- The children's gated cell rows summed per parent slot. -/
theorem s4_hca (i : Fin 32) (j : Fin 256) :
    fbuf S32x256 ((StableHlo.after (hostOps0_44 (F := Ideal)) Win) (Proc.devRef .tc main_v1239)) (ix2 i j)
      = ∑ k ∈ kids (fun k : Fin 64 => rowTarget 32 (ibuf S64 ((StableHlo.after (hostOps0_44 (F := Ideal)) Win) (Proc.devRef .tc main_v1221)) (ix1 k))) i,
          fbuf S64x256 ((StableHlo.after (hostOps0_44 (F := Ideal)) Win) (Proc.devRef .tc main_v1232)) (ix2 k j) * fbuf S64x256 ((StableHlo.after (hostOps0_44 (F := Ideal)) Win) (Proc.devRef .tc main_v1207)) (ix2 k j) := by
  simp only [fbuf, ibuf]
  have e_v140 := Line.ternary_at writes4 25 Win (hop := rfl) (by decide) (by decide) (by decide) (by decide)
  have e_v138 := Line.unary_at writes4 23 Win (hop := rfl) (by decide) (by decide)
  have e_cst_34 := Line.nullary_at writes4 22 Win (hop := rfl) (by decide)
  have e_v139 := Line.unary_at writes4 24 Win (hop := rfl) (by decide) (by decide)
  have e_v137 := Line.binary_at writes4 21 Win (hop := rfl) (by decide) (by decide) (by decide)
  rw [e_v140, e_v138, e_cst_34, e_v139, e_v137]
  rw [scatterAdd_zeros_apply scatter_S32x256_S64x1_S64x256_1_0_0_1 ⟨rfl, rfl, rfl, rfl⟩]
  exact Finset.sum_congr rfl fun k _ => rfl

/-- The new hidden rows are in place at the level's nodes of the whole-forest array. -/
theorem s4_scatter_h
    (hcol : ∀ i : Fin 32, ibuf S32x1 ((StableHlo.after (hostOps0_44 (F := Ideal)) Win) (Proc.devRef .tc main_v1270)) (ix2 i 0) = nodeWord 1 0 i.val)
    (k : Fin 32) (j : Fin 256) :
    fbuf S131040x256 ((StableHlo.after (hostOps0_44 (F := Ideal)) Win) (Proc.devRef .tc main_v1271)) (ix2 (node 1 0 32 rfl (by omega) k) j) = fbuf S32x256 ((StableHlo.after (hostOps0_44 (F := Ideal)) Win) (Proc.devRef .tc main_v1264)) (ix2 k j) := by
  simp only [fbuf, ibuf] at hcol ⊢
  have e_v172 := Line.ternary_at writes4 63 Win (hop := rfl) (by decide) (by decide) (by decide) (by decide)
  rw [e_v172]
  exact scatter_rows_hit scatter_S131040x256_S32x1_S32x256_1_0_0_1 ⟨rfl, rfl, rfl, rfl⟩ _ _ _
    (fun a b r h h' => rowTarget_nodeWord_injective (nd := 1) (start := 0) rfl (by omega) a b r
      (by rw [← hcol a]; exact h) (by rw [← hcol b]; exact h'))
    k _ (by rw [hcol]; exact rowTarget_nodeWord (nd := 1) (start := 0) rfl (by omega) k) j

/-- The new cell rows are in place at the level's nodes of the whole-forest array. -/
theorem s4_scatter_c
    (hcol : ∀ i : Fin 32, ibuf S32x1 ((StableHlo.after (hostOps0_44 (F := Ideal)) Win) (Proc.devRef .tc main_v1277)) (ix2 i 0) = nodeWord 1 0 i.val)
    (k : Fin 32) (j : Fin 256) :
    fbuf S131040x256 ((StableHlo.after (hostOps0_44 (F := Ideal)) Win) (Proc.devRef .tc main_v1278)) (ix2 (node 1 0 32 rfl (by omega) k) j) = fbuf S32x256 ((StableHlo.after (hostOps0_44 (F := Ideal)) Win) (Proc.devRef .tc main_v1256)) (ix2 k j) := by
  simp only [fbuf, ibuf] at hcol ⊢
  have e_v179 := Line.ternary_at writes4 72 Win (hop := rfl) (by decide) (by decide) (by decide) (by decide)
  rw [e_v179]
  exact scatter_rows_hit scatter_S131040x256_S32x1_S32x256_1_0_0_1 ⟨rfl, rfl, rfl, rfl⟩ _ _ _
    (fun a b r h h' => rowTarget_nodeWord_injective (nd := 1) (start := 0) rfl (by omega) a b r
      (by rw [← hcol a]; exact h) (by rw [← hcol b]; exact h'))
    k _ (by rw [hcol]; exact rowTarget_nodeWord (nd := 1) (start := 0) rfl (by omega) k) j

end Stretch4

/-! ## The stretch that holds the level's gathers -/

section Stretch0

variable (Win : Valuation τ sig (Elt Ideal))

/-- The level's rows of the input projection are the whole-forest projection at the level's nodes. -/
theorem s0_ioun
    (hcol : ∀ k : Fin 32, ibuf S32x1 ((StableHlo.after (hostOps0_40 (F := Ideal)) Win) (Proc.devRef .tc main_v1183)) (ix2 k 0) = nodeWord 1 0 k.val)
    (k : Fin 32) (j : Fin 768) :
    fbuf S32x768 ((StableHlo.after (hostOps0_40 (F := Ideal)) Win) (Proc.devRef .tc main_v1184)) (ix2 k j) = fbuf S131040x768 ((StableHlo.after (hostOps0_40 (F := Ideal)) Win) (Proc.devRef .tc main_v11)) (ix2 (node 1 0 32 rfl (by omega) k) j) := by
  simp only [fbuf, ibuf] at hcol ⊢
  have e_v85 := Line.binary_at writes0 90 Win (hop := rfl) (by decide) (by decide) (by decide)
  rw [e_v85]
  rw [gather_rows_apply gather_S131040x768_S32x1_S32x768_1_0_n_n_0_1_1768 ⟨rfl, rfl, rfl, rfl, rfl, rfl, rfl⟩ (by omega), hcol, clampRow_nodeWord rfl (by omega)]

/-- The children's hidden rows are the whole-forest hidden array at the children's nodes. -/
theorem s0_hch
    (hcol : ∀ k : Fin 64, ibuf S64x1 ((StableHlo.after (hostOps0_40 (F := Ideal)) Win) (Proc.devRef .tc main_v1199)) (ix2 k 0) = nodeWord 2 1 k.val)
    (k : Fin 64) (j : Fin 256) :
    fbuf S64x256 ((StableHlo.after (hostOps0_40 (F := Ideal)) Win) (Proc.devRef .tc main_v1200)) (ix2 k j) = fbuf S131040x256 ((StableHlo.after (hostOps0_40 (F := Ideal)) Win) (Proc.devRef .tc main_v1162)) (ix2 (node 2 1 64 rfl (by omega) k) j) := by
  simp only [fbuf, ibuf] at hcol ⊢
  have e_v101 := Line.binary_at writes0 109 Win (hop := rfl) (by decide) (by decide) (by decide)
  rw [e_v101]
  rw [gather_rows_apply gather_S131040x256_S64x1_S64x256_1_0_n_n_0_1_1256 ⟨rfl, rfl, rfl, rfl, rfl, rfl, rfl⟩ (by omega), hcol, clampRow_nodeWord rfl (by omega)]

/-- The children's cell rows are the whole-forest cell array at the children's nodes. -/
theorem s0_cch
    (hcol : ∀ k : Fin 64, ibuf S64x1 ((StableHlo.after (hostOps0_40 (F := Ideal)) Win) (Proc.devRef .tc main_v1206)) (ix2 k 0) = nodeWord 2 1 k.val)
    (k : Fin 64) (j : Fin 256) :
    fbuf S64x256 ((StableHlo.after (hostOps0_40 (F := Ideal)) Win) (Proc.devRef .tc main_v1207)) (ix2 k j) = fbuf S131040x256 ((StableHlo.after (hostOps0_40 (F := Ideal)) Win) (Proc.devRef .tc main_v1169)) (ix2 (node 2 1 64 rfl (by omega) k) j) := by
  simp only [fbuf, ibuf] at hcol ⊢
  have e_v108 := Line.binary_at writes0 118 Win (hop := rfl) (by decide) (by decide) (by decide)
  rw [e_v108]
  rw [gather_rows_apply gather_S131040x256_S64x1_S64x256_1_0_n_n_0_1_1256 ⟨rfl, rfl, rfl, rfl, rfl, rfl, rfl⟩ (by omega), hcol, clampRow_nodeWord rfl (by omega)]

/-- The children's parent words are the parent array at the children's nodes. -/
theorem s0_par
    (hcol : ∀ k : Fin 64, ibuf S64x1 ((StableHlo.after (hostOps0_40 (F := Ideal)) Win) (Proc.devRef .tc main_v1213)) (ix2 k 0) = nodeWord 2 1 k.val)
    (k : Fin 64) :
    ibuf S64 ((StableHlo.after (hostOps0_40 (F := Ideal)) Win) (Proc.devRef .tc main_v1214)) (ix1 k) = ibuf S131040 ((StableHlo.after (hostOps0_40 (F := Ideal)) Win) (Proc.devRef .tc main_arg1)) (ix1 (node 2 1 64 rfl (by omega) k)) := by
  simp only [fbuf, ibuf] at hcol ⊢
  have e_v115 := Line.binary_at writes0 127 Win (hop := rfl) (by decide) (by decide) (by decide)
  rw [e_v115]
  rw [gather_vec_apply gather_S131040_S64x1_S64_n_0_n_n_0_1_1 ⟨rfl, rfl, rfl, rfl, rfl, rfl, rfl⟩ (by omega), hcol,
    clampRow_nodeWord rfl (by omega)]

/-- The divisor the quotient part is taken by. -/
theorem s0_c27 : ibuf S_ ((StableHlo.after (hostOps0_40 (F := Ideal)) Win) (Proc.devRef .tc main_c_287)) = constantI S_ 32 4095#32 :=
  Line.nullary_at writes0 128 Win (hop := rfl) (by decide)

end Stretch0

/-! ## The routing word's two called functions, in the reference's host operations -/

/-- The reference's floor division of a vector of words by a scalar word: the truncated quotient, one less where the
    signs differ and the remainder is not zero. -/
def fdivF (p : IVec S64 32) (c : IVec S_ 32) : IVec S64 32 :=
  select (andi (cmpi .ne (signi p) (broadcastInDim S64 ![] bcast_S_S64 (signi c))) (cmpi .ne (Host.remsi p (broadcastInDim S64 ![] bcast_S_S64 c)) (broadcastInDim S64 ![] bcast_S_S64 (constantI S_ 32 0#32))))
    (subi (Host.divsi p (broadcastInDim S64 ![] bcast_S_S64 c)) (broadcastInDim S64 ![] bcast_S_S64 (constantI S_ 32 1#32))) (Host.divsi p (broadcastInDim S64 ![] bcast_S_S64 c))

/-- The reference's remainder of a vector of words by a scalar word (a zero divisor replaced by one): the truncated
    remainder, the divisor added where its sign differs from the divisor's and it is not zero. -/
def remF (p : IVec S64 32) (c : IVec S_ 32) : IVec S64 32 :=
  select (andi (cmpi .ne (cmpi .slt (Host.remsi p (broadcastInDim S64 ![] bcast_S_S64 (select (cmpi .eq c (constantI S_ 32 0#32)) (constantI S_ 32 1#32) c))) (broadcastInDim S64 ![] bcast_S_S64 (constantI S_ 32 0#32))) (broadcastInDim S64 ![] bcast_S_S64 (cmpi .slt (select (cmpi .eq c (constantI S_ 32 0#32)) (constantI S_ 32 1#32) c) (constantI S_ 32 0#32)))) (cmpi .ne (Host.remsi p (broadcastInDim S64 ![] bcast_S_S64 (select (cmpi .eq c (constantI S_ 32 0#32)) (constantI S_ 32 1#32) c))) (broadcastInDim S64 ![] bcast_S_S64 (constantI S_ 32 0#32))))
    (addi (Host.remsi p (broadcastInDim S64 ![] bcast_S_S64 (select (cmpi .eq c (constantI S_ 32 0#32)) (constantI S_ 32 1#32) c))) (broadcastInDim S64 ![] bcast_S_S64 (select (cmpi .eq c (constantI S_ 32 0#32)) (constantI S_ 32 1#32) c))) (Host.remsi p (broadcastInDim S64 ![] bcast_S_S64 (select (cmpi .eq c (constantI S_ 32 0#32)) (constantI S_ 32 1#32) c)))

/-- The routing word of a child from its parent word `p`: `(p // 4095) * 1 + (p % 4095 - 0)`. -/
def segFun (p : IVec S64 32) : IVec S64 32 :=
  addi (muli (fdivF p (constantI S_ 32 4095#32)) (broadcastInDim S64 ![] bcast_S_S64 (constantI S_ 32 1#32))) (subi (remF p (constantI S_ 32 4095#32)) (broadcastInDim S64 ![] bcast_S_S64 (constantI S_ 32 0#32)))

section Stretch123

variable (Win : Valuation τ sig (Elt Ideal))

set_option maxHeartbeats 4000000 in
/-- The quotient part. -/
theorem s1_v116 :
    ibuf S64 ((StableHlo.after (hostOps0_41 (F := Ideal)) Win) (Proc.devRef .tc main_v1215)) = fdivF (ibuf S64 (Win (Proc.devRef .tc main_v1214))) (ibuf S_ (Win (Proc.devRef .tc main_c_287))) := by
  unfold fdivF
  after_results_simp
  <;> (try simp only [TRef.ofBuf, TRef.toBuf, cast_eq]) <;> rfl

/-- The quotient part times the level's nodes per graph. -/
theorem s2_v118 :
    ibuf S64 ((StableHlo.after (hostOps0_42 (F := Ideal)) Win) (Proc.devRef .tc main_v1217)) = muli (ibuf S64 (Win (Proc.devRef .tc main_v1215))) (broadcastInDim S64 ![] bcast_S_S64 (constantI S_ 32 1#32)) := by
  after_results_simp
  <;> rfl

/-- The divisor the remainder part is taken by. -/
theorem s2_c29 : ibuf S_ ((StableHlo.after (hostOps0_42 (F := Ideal)) Win) (Proc.devRef .tc main_c_289)) = constantI S_ 32 4095#32 := by
  after_results_simp
  <;> rfl

set_option maxHeartbeats 4000000 in
/-- The remainder part. -/
theorem s3_v119 :
    ibuf S64 ((StableHlo.after (hostOps0_43 (F := Ideal)) Win) (Proc.devRef .tc main_v1218)) = remF (ibuf S64 (Win (Proc.devRef .tc main_v1214))) (ibuf S_ (Win (Proc.devRef .tc main_c_289))) := by
  unfold remF
  after_results_simp
  <;> (try simp only [TRef.ofBuf, TRef.toBuf, cast_eq]) <;> rfl

end Stretch123

/-! ## The level, over the contents after its five stretches from any launch contents -/

section Level

variable (V0 : Valuation τ sig (Elt Ideal))

local notation "V1" => StableHlo.after (hostOps0_40 (F := Ideal)) V0
local notation "V2" => StableHlo.after (hostOps0_41 (F := Ideal)) V1
local notation "V3" => StableHlo.after (hostOps0_42 (F := Ideal)) V2
local notation "V4" => StableHlo.after (hostOps0_43 (F := Ideal)) V3
local notation "V5" => StableHlo.after (hostOps0_44 (F := Ideal)) V4

/-- A reference the last four stretches do not write holds after them what the first stretch left. -/
theorem keep51 {r : Ref sig .tc} (h1 : r ∉ W1) (h2 : r ∉ W2) (h3 : r ∉ W3) (h4 : r ∉ W4) :
    V5 (Proc.devRef .tc r) = V1 (Proc.devRef .tc r) := by
  rw [Line.keep writes4 _ h4, Line.keep writes3 _ h3, Line.keep writes2 _ h2, Line.keep writes1 _ h1]

/-- A reference none of the five stretches writes holds after them the launch contents. -/
theorem keep50 {r : Ref sig .tc} (h0 : r ∉ W0) (h1 : r ∉ W1) (h2 : r ∉ W2) (h3 : r ∉ W3) (h4 : r ∉ W4) :
    V5 (Proc.devRef .tc r) = V0 (Proc.devRef .tc r) := by
  rw [keep51 V0 h1 h2 h3 h4, Line.keep writes0 _ h0]

/-- The routing word is the one function of the parent word. -/
theorem seg_eq : ibuf S64 (V5 (Proc.devRef .tc main_v1221)) = segFun (ibuf S64 (V1 (Proc.devRef .tc main_v1214))) := by
  rw [s4_seg V4, Line.keep writes4 V4 (r := main_v1217) (by decide), Line.keep writes3 V3 (r := main_v1217) (by decide),
    s2_v118 V2, s1_v116 V1, s0_c27 V0, Line.keep writes4 V4 (r := main_v1218) (by decide), s3_v119 V3,
    Line.keep writes2 V2 (r := main_v1214) (by decide), Line.keep writes1 V1 (r := main_v1214) (by decide), s2_c29 V2]
  rfl

/-- THE LEVEL, as the chain of levels takes it. -/
theorem rlevel (w : Wts) (G : A2 131040 256)
    (hU : w.U = fbuf S768x256 (V0 (Proc.devRef .tc main_arg4))) (hbI : w.bI = fbuf S1x768 (V0 (Proc.devRef .tc main_arg5)))
    (hUf : w.Uf = fbuf S256x256 (V0 (Proc.devRef .tc main_arg6))) (hbF : w.bF = fbuf S256 (V0 (Proc.devRef .tc main_arg7)))
    (hiou : ∀ (a : Fin 131040) (n : Fin 768),
      fbuf S131040x768 (V1 (Proc.devRef .tc main_v11)) (ix2 a n) = ∑ k : Fin 256, G (ix2 a k) * w.W (ix2 n k))
    (h84 : ∀ i : Fin 32, ibuf S32x1 (V1 (Proc.devRef .tc main_v1183)) (ix2 i 0) = nodeWord 1 0 i.val)
    (h100 : ∀ k : Fin 64, ibuf S64x1 (V1 (Proc.devRef .tc main_v1199)) (ix2 k 0) = nodeWord 2 1 k.val)
    (h107 : ∀ k : Fin 64, ibuf S64x1 (V1 (Proc.devRef .tc main_v1206)) (ix2 k 0) = nodeWord 2 1 k.val)
    (h114 : ∀ k : Fin 64, ibuf S64x1 (V1 (Proc.devRef .tc main_v1213)) (ix2 k 0) = nodeWord 2 1 k.val)
    (h78 : ∀ i : Fin 32, ibuf S32 (V1 (Proc.devRef .tc main_v1177)) (ix1 i) = nodeWord 1 0 i.val)
    (h171 : (∀ i : Fin 32, ibuf S32 (V4 (Proc.devRef .tc main_v1177)) (ix1 i) = nodeWord 1 0 i.val) →
      ∀ i : Fin 32, ibuf S32x1 (V5 (Proc.devRef .tc main_v1270)) (ix2 i 0) = nodeWord 1 0 i.val)
    (h178 : (∀ i : Fin 32, ibuf S32 (V4 (Proc.devRef .tc main_v1177)) (ix1 i) = nodeWord 1 0 i.val) →
      ∀ i : Fin 32, ibuf S32x1 (V5 (Proc.devRef .tc main_v1277)) (ix2 i 0) = nodeWord 1 0 i.val) :
    Chain.RLevel 1 0 2 1 rfl (by omega) rfl (by omega) w G (ibuf S131040 (V0 (Proc.devRef .tc main_arg1))) segFun
      (fbuf S131040x256 (V1 (Proc.devRef .tc main_v1162))) (fbuf S131040x256 (V1 (Proc.devRef .tc main_v1169)))
      (fbuf S131040x256 (V5 (Proc.devRef .tc main_v1271))) (fbuf S131040x256 (V5 (Proc.devRef .tc main_v1278))) := by
  have h78' : ∀ i : Fin 32, ibuf S32 (V4 (Proc.devRef .tc main_v1177)) (ix1 i) = nodeWord 1 0 i.val := fun i => by
    rw [Line.keep writes3 V3 (r := main_v1177) (by decide), Line.keep writes2 V2 (r := main_v1177) (by decide),
      Line.keep writes1 V1 (r := main_v1177) (by decide)]
    exact h78 i
  refine ⟨fbuf S131040x768 (V1 (Proc.devRef .tc main_v11)), fbuf S64x256 (V1 (Proc.devRef .tc main_v1200)), fbuf S64x256 (V1 (Proc.devRef .tc main_v1207)),
    fbuf S64x256 (V5 (Proc.devRef .tc main_v1232)), ibuf S64 (V1 (Proc.devRef .tc main_v1214)), ibuf S64 (V5 (Proc.devRef .tc main_v1221)),
    fbuf S32x768 (V1 (Proc.devRef .tc main_v1184)), fbuf S32x768 (V5 (Proc.devRef .tc main_v1244)), fbuf S32x256 (V5 (Proc.devRef .tc main_v1235)),
    fbuf S32x256 (V5 (Proc.devRef .tc main_v1239)), fbuf S32x256 (V5 (Proc.devRef .tc main_v1256)), fbuf S32x256 (V5 (Proc.devRef .tc main_v1264)),
    hiou, s0_ioun V0 h84, s0_hch V0 h100, s0_cch V0 h107, ?_, seg_eq V0, ?_, ?_, ?_, ?_, s4_hc V4, s4_hh V4,
    s4_scatter_h V4 (h171 h78'), s4_scatter_c V4 (h178 h78')⟩
  · intro q
    have h := s0_par V0 h114 q
    rw [Line.keep writes0 V0 (r := main_arg1) (by decide)] at h
    exact h
  · intro k j
    have h := s4_hf V4 k j
    rw [keep51 V0 (r := main_v1200) (by decide) (by decide) (by decide) (by decide),
      keep50 V0 (r := main_arg6) (by decide) (by decide) (by decide) (by decide) (by decide),
      keep50 V0 (r := main_arg7) (by decide) (by decide) (by decide) (by decide) (by decide)] at h
    unfold fgate
    rw [hUf, hbF]
    exact h
  · intro i j
    have h := s4_hht V4 i j
    rw [keep51 V0 (r := main_v1200) (by decide) (by decide) (by decide) (by decide)] at h
    exact h
  · intro i j
    have h := s4_hca V4 i j
    rw [keep51 V0 (r := main_v1207) (by decide) (by decide) (by decide) (by decide)] at h
    exact h
  · intro i n
    have h := s4_hz V4 i n
    rw [keep51 V0 (r := main_v1184) (by decide) (by decide) (by decide) (by decide),
      keep50 V0 (r := main_arg4) (by decide) (by decide) (by decide) (by decide) (by decide),
      keep50 V0 (r := main_arg5) (by decide) (by decide) (by decide) (by decide) (by decide)] at h
    rw [hU, hbI]
    exact h

end Level

end Cert.ReferenceIdeal.Lvl0

end
-- ==== Proof.BridgeRL0.lean ====
/-
  The root level of the reference's side of the chain: the level's stretches run from the contents after stretch 39. The
  weights and the parent words are arguments, written by no stretch; the token rows' product with the input weights and
  the per-graph offsets are written by the first stretch only; so each is read here as the launch or the first stretch
  left it, and every index column is the node word of its slot.
-/
import proofs.«419362_j66683662237734_3_alg».proof.Proof.BridgeRWrap
import proofs.«419362_j66683662237734_3_alg».proof.Proof.RefCarry
import proofs.«419362_j66683662237734_3_alg».proof.Proof.RLvl0
import proofs.«419362_j66683662237734_3_alg».proof.Proof.RIdx40
import proofs.«419362_j66683662237734_3_alg».proof.Proof.RIdx44

set_option maxRecDepth 9696

noncomputable section

open scoped BigOperators

namespace Cert.BridgeR

open Cert.ReferenceIdeal Cert.ReferenceIdeal.Gen Cert.ReferenceIdeal.RefRun
open Idealize.ShloMosaic Idealize.ShloMosaic.TcCoe Idealize.ShloMosaic.ValueIdx Idealize.SL.Sem
open Cert.TreeLstm

variable (m' : (ℓ : Loc nD τ sig) → Buf (Elt Ideal) ℓ) (c : Dev nD)

/-- LEVEL 0, from level 1's arrays to the last ones. -/
theorem rlevel0 : Chain.RLevel 1 0 2 1 (rfl : 32 = 32 * 1) (by omega) (rfl : 64 = 32 * 2) (by omega)
    (wR m' c) (GR m' c) (parR m' c) Lvl0.segFun (harr1 m' c) (carr1 m' c) (harr0 m' c) (carr0 m' c) := by
  have h16 : ∀ b : Fin 32, R40 m' c (Proc.devRef .tc main_v16) (ix1 b) = BitVec.ofNat 32 b.val * 4095#32 :=
    offs_of m' c (carry_v16_R40 m' c)
  have h := Lvl0.rlevel (R40 m' c) (wR m' c) (GR m' c)
    (hU_of m' c (carry_arg4_R40 m' c)) (hbI_of m' c (carry_arg5_R40 m' c))
    (hUf_of m' c (carry_arg6_R40 m' c)) (hbF_of m' c (carry_arg7_R40 m' c))
    (iou_of m' c (carry_v11_R41 m' c))
    (fun i => col_in (Idx.s40_v1183 (R40 m' c) h16 i)) (fun k => col_in (Idx.s40_v1199 (R40 m' c) h16 k))
    (fun k => col_in (Idx.s40_v1206 (R40 m' c) h16 k)) (fun k => col_in (Idx.s40_v1213 (R40 m' c) h16 k))
    (fun i => col_in (Idx.s40_v1177 (R40 m' c) h16 i))
    (fun hids i => col_in (Idx.s44_v1270 (R44 m' c) (fun i' => col_out (hids i')) i))
    (fun hids i => col_in (Idx.s44_v1277 (R44 m' c) (fun i' => col_out (hids i')) i))
  rw [par_of m' c (carry_arg1_R40 m' c), fbuf_id, fbuf_id, fbuf_id, fbuf_id] at h
  exact h

end Cert.BridgeR

end
-- ==== Proof.BridgeR.lean ====
/-
  The reference's side of the chain of levels, whole: the shared data as the launch memory holds it, the deepest level,
  the eleven levels above it, the roots and the classifier.
-/
import proofs.«419362_j66683662237734_3_alg».proof.Proof.BridgeRBase
import proofs.«419362_j66683662237734_3_alg».proof.Proof.BridgeRL10
import proofs.«419362_j66683662237734_3_alg».proof.Proof.BridgeRL9
import proofs.«419362_j66683662237734_3_alg».proof.Proof.BridgeRL8
import proofs.«419362_j66683662237734_3_alg».proof.Proof.BridgeRL7
import proofs.«419362_j66683662237734_3_alg».proof.Proof.BridgeRL6
import proofs.«419362_j66683662237734_3_alg».proof.Proof.BridgeRL5
import proofs.«419362_j66683662237734_3_alg».proof.Proof.BridgeRL4
import proofs.«419362_j66683662237734_3_alg».proof.Proof.BridgeRL3
import proofs.«419362_j66683662237734_3_alg».proof.Proof.BridgeRL2
import proofs.«419362_j66683662237734_3_alg».proof.Proof.BridgeRL1
import proofs.«419362_j66683662237734_3_alg».proof.Proof.BridgeRL0
-- ==== Proof.Bridge.lean ====
/-
  The two programs meet. From memories agreeing on the arguments the two sides read the same weights, the same
  gathered token rows, the same parent words and route the children by the same function; so level by level, from
  the deepest to the roots, the fused kernel's packed array is the reference's pair of arrays packed, and the two
  classifiers' outputs are equal.
-/
import proofs.«419362_j66683662237734_3_alg».proof.Proof.BridgeK
import proofs.«419362_j66683662237734_3_alg».proof.Proof.BridgeK1
import proofs.«419362_j66683662237734_3_alg».proof.Proof.BridgeKRest
import proofs.«419362_j66683662237734_3_alg».proof.Proof.BridgeR

set_option maxRecDepth 8000

noncomputable section

open scoped BigOperators

namespace Cert.Bridge

open Idealize.ShloMosaic Idealize.ShloMosaic.TcCoe Idealize.ShloMosaic.ValueIdx Cert.TreeLstm

/-- Two sets of weights with equal fields are equal. -/
theorem wts_eq {a b : Wts} (h1 : a.W = b.W) (h2 : a.U = b.U) (h3 : a.bI = b.bI) (h4 : a.Uf = b.Uf) (h5 : a.bF = b.bF) :
    a = b := by
  cases a; cases b; simp only [Wts.mk.injEq]; exact ⟨h1, h2, h3, h4, h5⟩

variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)

/-- THE RESULTS ARE EQUAL. -/
theorem result_eq
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (c : Dev Cert.KernelIdeal.nD) :
    Cert.ReferenceIdeal.RefRun.R45 m' c (Proc.devRef .tc Cert.ReferenceIdeal.main_v1290)
      = Cert.KernelIdeal.Gen.W26 m ρ c (Proc.devRef .tc Cert.KernelIdeal.main_v0) := by
  obtain ⟨h0, h1, h2, h3, h4, h5, h6, h7, h8, h9⟩ := hagree c
  have hw : BridgeR.wR m' c = BridgeK.wK m c := wts_eq h3 h4 h5 h6 h7
  have hG : BridgeR.GR m' c = BridgeK.GK m c := by
    have e1 : BridgeR.GR m' c
        = Cert.ReferenceIdeal.Leaf.G (F := Ideal)
            (m ((c.tc : Thread Cert.KernelIdeal.nD Cert.KernelIdeal.τ).loc Cert.KernelIdeal.main_arg2))
            (m ((c.tc : Thread Cert.KernelIdeal.nD Cert.KernelIdeal.τ).loc Cert.KernelIdeal.main_arg0)) :=
      congrArg₂ (fun e x => Cert.ReferenceIdeal.Leaf.G (F := Ideal) e x) h2 h0
    refine e1.trans ?_
    refine Eq.trans ?_ (Cert.KernelIdeal.Pre.G_eq _ _).symm
    rfl
  have hpar : BridgeR.parR m' c = BridgeK.parK m c := h1
  have hlw : BridgeR.linwR m' c = BridgeK.linwK m c := h8
  have hlb : BridgeR.linbR m' c = BridgeK.linbK m c := h9
  have r11 := BridgeR.rleaf m' c
  rw [hw, hG] at r11
  have s11 := Chain.leaf (M := 65536) 2048 2047 rfl (by omega) _ _ _ _ _ (BridgeK.kleaf m ρ c) r11
  have r10 := BridgeR.rlevel10 m' c
  rw [hw, hG, hpar, (rfl : Cert.ReferenceIdeal.Lvl10.segFun = Cert.KernelIdeal.Str1.segFun)] at r10
  have s10 := Chain.level (M := 32768) (Mc := 65536) 1024 1023 2048 2047 rfl (by omega) rfl (by omega) (by omega) _ _ _ _ _ _ _ _ _ _
    (BridgeK.klevel1 m ρ c) r10 s11
  have r9 := BridgeR.rlevel9 m' c
  rw [hw, hG, hpar, (rfl : Cert.ReferenceIdeal.Lvl9.segFun = Cert.KernelIdeal.Str2.segFun)] at r9
  have s9 := Chain.level (M := 16384) (Mc := 32768) 512 511 1024 1023 rfl (by omega) rfl (by omega) (by omega) _ _ _ _ _ _ _ _ _ _
    (BridgeK.klevel2 m ρ c) r9 s10
  have r8 := BridgeR.rlevel8 m' c
  rw [hw, hG, hpar, (rfl : Cert.ReferenceIdeal.Lvl8.segFun = Cert.KernelIdeal.Str3.segFun)] at r8
  have s8 := Chain.level (M := 8192) (Mc := 16384) 256 255 512 511 rfl (by omega) rfl (by omega) (by omega) _ _ _ _ _ _ _ _ _ _
    (BridgeK.klevel3 m ρ c) r8 s9
  have r7 := BridgeR.rlevel7 m' c
  rw [hw, hG, hpar, (rfl : Cert.ReferenceIdeal.Lvl7.segFun = Cert.KernelIdeal.Str4.segFun)] at r7
  have s7 := Chain.level (M := 4096) (Mc := 8192) 128 127 256 255 rfl (by omega) rfl (by omega) (by omega) _ _ _ _ _ _ _ _ _ _
    (BridgeK.klevel4 m ρ c) r7 s8
  have r6 := BridgeR.rlevel6 m' c
  rw [hw, hG, hpar, (rfl : Cert.ReferenceIdeal.Lvl6.segFun = Cert.KernelIdeal.Str5.segFun)] at r6
  have s6 := Chain.level (M := 2048) (Mc := 4096) 64 63 128 127 rfl (by omega) rfl (by omega) (by omega) _ _ _ _ _ _ _ _ _ _
    (BridgeK.klevel5 m ρ c) r6 s7
  have r5 := BridgeR.rlevel5 m' c
  rw [hw, hG, hpar, (rfl : Cert.ReferenceIdeal.Lvl5.segFun = Cert.KernelIdeal.Str6.segFun)] at r5
  have s5 := Chain.level (M := 1024) (Mc := 2048) 32 31 64 63 rfl (by omega) rfl (by omega) (by omega) _ _ _ _ _ _ _ _ _ _
    (BridgeK.klevel6 m ρ c) r5 s6
  have r4 := BridgeR.rlevel4 m' c
  rw [hw, hG, hpar, (rfl : Cert.ReferenceIdeal.Lvl4.segFun = Cert.KernelIdeal.Str7.segFun)] at r4
  have s4 := Chain.level (M := 512) (Mc := 1024) 16 15 32 31 rfl (by omega) rfl (by omega) (by omega) _ _ _ _ _ _ _ _ _ _
    (BridgeK.klevel7 m ρ c) r4 s5
  have r3 := BridgeR.rlevel3 m' c
  rw [hw, hG, hpar, (rfl : Cert.ReferenceIdeal.Lvl3.segFun = Cert.KernelIdeal.Str8.segFun)] at r3
  have s3 := Chain.level (M := 256) (Mc := 512) 8 7 16 15 rfl (by omega) rfl (by omega) (by omega) _ _ _ _ _ _ _ _ _ _
    (BridgeK.klevel8 m ρ c) r3 s4
  have r2 := BridgeR.rlevel2 m' c
  rw [hw, hG, hpar, (rfl : Cert.ReferenceIdeal.Lvl2.segFun = Cert.KernelIdeal.Str9.segFun)] at r2
  have s2 := Chain.level (M := 128) (Mc := 256) 4 3 8 7 rfl (by omega) rfl (by omega) (by omega) _ _ _ _ _ _ _ _ _ _
    (BridgeK.klevel9 m ρ c) r2 s3
  have r1 := BridgeR.rlevel1 m' c
  rw [hw, hG, hpar, (rfl : Cert.ReferenceIdeal.Lvl1.segFun = Cert.KernelIdeal.Str10.segFun)] at r1
  have s1 := Chain.level (M := 64) (Mc := 128) 2 1 4 3 rfl (by omega) rfl (by omega) (by omega) _ _ _ _ _ _ _ _ _ _
    (BridgeK.klevel10 m ρ c) r1 s2
  have r0 := BridgeR.rlevel0 m' c
  rw [hw, hG, hpar, (rfl : Cert.ReferenceIdeal.Lvl0.segFun = Cert.KernelIdeal.Str11.segFun)] at r0
  have s0 := Chain.level (M := 32) (Mc := 64) 1 0 2 1 rfl (by omega) rfl (by omega) (by omega) _ _ _ _ _ _ _ _ _ _
    (BridgeK.klevel11 m ρ c) r0 s1
  have key := Chain.root (BridgeK.wK m c) (BridgeK.HC11 m ρ c) (BridgeR.harr0 m' c) (BridgeR.carr0 m' c) s0
    _ (BridgeK.kroots m ρ c) _ (BridgeK.linwK m c) (BridgeK.linbK m c) (BridgeK.kout m ρ c)
    (BridgeR.rootsR m' c) (BridgeR.rroots m' c) (Cert.ReferenceIdeal.RefRun.R45 m' c (Proc.devRef .tc Cert.ReferenceIdeal.main_v1290))
    (fun i n => by rw [BridgeR.rout, hlw, hlb])
  exact key.symm

end Cert.Bridge

end
-- ==== Proof.lean ====
/-
  A child-sum TreeLSTM over 32 forests of 12 levels, leaves to roots. The fused kernel hands each level's parents one
  512-wide row per child, `[h | f(h) * c]` with `f(h) = logistic (h · U_f^T + b_f)` the child's forget gate computed
  where `h` is produced, and sums those rows per parent slot; the reference keeps `h` and `c` in two node-indexed
  arrays, computes the forget gate where the child is consumed, sums `h` and `f * c` apart, and adds the three
  terms of the pre-activation in another order. Level by level the kernel's packed array is the reference's pair
  packed that way (Proof/Spec.lean: only commutativity and associativity of `+` on the extended reals are used, so
  the precondition is never opened); the classifier reads the roots' `h`. The three frames: both kernel programs run
  region by region with their host stretches between, the reference as one line of host operations.
-/
import proofs.«419362_j66683662237734_3_alg».proof.Defs
import proofs.«419362_j66683662237734_3_alg».proof.Proof.Gen.Kernel
import proofs.«419362_j66683662237734_3_alg».proof.Proof.KernelFrameP
import proofs.«419362_j66683662237734_3_alg».proof.Proof.Gen.KernelIdeal
import proofs.«419362_j66683662237734_3_alg».proof.Proof.KernelIdealFrameP
import proofs.«419362_j66683662237734_3_alg».proof.Proof.Gen.ReferenceIdeal
import proofs.«419362_j66683662237734_3_alg».proof.Proof.Gen.Pre_finite_inputs
import proofs.«419362_j66683662237734_3_alg».proof.Proof.KernelIdealRun
import proofs.«419362_j66683662237734_3_alg».proof.Proof.RefRun
import proofs.«419362_j66683662237734_3_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.RefRun.frame (F := Ideal) m ρ

/-- Both idealized programs run; the kernel's result array ends at its last boundary's contents, the reference's at
    the fold of its operations, and the two are one array when the arguments agree (Proof/Bridge.lean). -/
theorem algebraic : Cert.algebraic_KernelIdeal_ReferenceIdeal := by
  intro m ρ m' ρ' _ hagree
  refine ⟨fun c => Cert.KernelIdeal.Gen.W26 m ρ c (Proc.devRef .tc Cert.KernelIdeal.main_v0),
    Cert.KernelIdeal.RunValue.run_value (F := Ideal) m ρ, ?_⟩
  refine (θ_run Cert.ReferenceIdeal.defs _ _).mono (fun r h c => ?_) (Cert.ReferenceIdeal.RefRun.run (F := Ideal) m' ρ')
  refine ⟨(h c Cert.ReferenceIdeal.main_v1290).trans (Cert.Bridge.result_eq m ρ m' hagree c), ?_⟩
  exact ⟨(h c _).trans (Cert.ReferenceIdeal.RefRun.R45_arg0 m' c), (h c _).trans (Cert.ReferenceIdeal.RefRun.R45_arg1 m' c),
    (h c _).trans (Cert.ReferenceIdeal.RefRun.R45_arg2 m' c), (h c _).trans (Cert.ReferenceIdeal.RefRun.R45_arg3 m' c),
    (h c _).trans (Cert.ReferenceIdeal.RefRun.R45_arg4 m' c), (h c _).trans (Cert.ReferenceIdeal.RefRun.R45_arg5 m' c),
    (h c _).trans (Cert.ReferenceIdeal.RefRun.R45_arg6 m' c), (h c _).trans (Cert.ReferenceIdeal.RefRun.R45_arg7 m' c),
    (h c _).trans (Cert.ReferenceIdeal.RefRun.R45_arg8 m' c), (h c _).trans (Cert.ReferenceIdeal.RefRun.R45_arg9 m' c)⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
